-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Pre_finite_inputs_ReferenceIdeal.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  main_v3
-- ==== Kernel.lean ====
abbrev S2048x512 : Shape := ⟨2, ![2048, 512]⟩
abbrev S8192x512 : Shape := ⟨2, ![8192, 512]⟩
abbrev S10x3 : Shape := ⟨2, ![10, 3]⟩
abbrev S32 : Shape := ⟨1, ![32]⟩
abbrev S_ : Shape := ⟨0, ![]⟩
abbrev S1x1 : Shape := ⟨2, ![1, 1]⟩
abbrev S256x512 : Shape := ⟨2, ![256, 512]⟩
abbrev S88x512 : Shape := ⟨2, ![88, 512]⟩
abbrev S1 : Shape := ⟨1, ![1]⟩
abbrev S168x512 : Shape := ⟨2, ![168, 512]⟩

abbrev nBuf : Space → Nat
  | .hbm => 2
  | .vmem => 2
  | .smem => 0
  | _ => 0

abbrev bufTy : (tb : Table) → Fin (tcTables nBuf tb) → BufTy
  | .hbm, ⟨0, _⟩ => ⟨S2048x512, .f32⟩
  | .hbm, ⟨1, _⟩ => ⟨S8192x512, .f32⟩
  | .local _ .vmem, ⟨0, _⟩ => ⟨S2048x512, .f32⟩
  | .local _ .vmem, ⟨1, _⟩ => ⟨S8192x512, .f32⟩
  | _, _ => ⟨S2048x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 93 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | _ => false

abbrev sig : RefSig :=
  (ofTc nBuf bufTy 1 93 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_23 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_22 : BitVec 32 := 8#32
  let v42 : BitVec 32 := Scalar.muli v2 c8_i32_22
  let v43 : BitVec 32 := Scalar.addi c0_i32_23 v42
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_24 : BitVec 32 := 4#32
  let v44 : BitVec 32 := Scalar.muli v5 c4_i32_24
  let v45 : BitVec 32 := Scalar.addi v43 v44
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_25 : BitVec 32 := 1#32
  let v46 : BitVec 32 := Scalar.muli v32 c1_i32_25
  let v47 : BitVec 32 := Scalar.addi v45 v46
  v47.toNat
def k0_dev2 (d0 : Dev nD) : Nat :=
  let c0_i32_28 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_27 : BitVec 32 := 8#32
  let v48 : BitVec 32 := Scalar.muli v2 c8_i32_27
  let v49 : BitVec 32 := Scalar.addi c0_i32_28 v48
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_29 : BitVec 32 := 4#32
  let v50 : BitVec 32 := Scalar.muli v5 c4_i32_29
  let v51 : BitVec 32 := Scalar.addi v49 v50
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_30 : BitVec 32 := 1#32
  let v52 : BitVec 32 := Scalar.muli v21 c1_i32_30
  let v53 : BitVec 32 := Scalar.addi v51 v52
  v53.toNat
def k0_dev3 (d0 : Dev nD) : Nat :=
  let c0_i32_33 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_32 : BitVec 32 := 8#32
  let v54 : BitVec 32 := Scalar.muli v9 c8_i32_32
  let v55 : BitVec 32 := Scalar.addi c0_i32_33 v54
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_34 : BitVec 32 := 4#32
  let v56 : BitVec 32 := Scalar.muli v5 c4_i32_34
  let v57 : BitVec 32 := Scalar.addi v55 v56
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_35 : BitVec 32 := 1#32
  let v58 : BitVec 32 := Scalar.muli v8 c1_i32_35
  let v59 : BitVec 32 := Scalar.addi v57 v58
  v59.toNat
def k0_dev4 (d0 : Dev nD) : Nat :=
  let c0_i32_38 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_37 : BitVec 32 := 8#32
  let v60 : BitVec 32 := Scalar.muli v2 c8_i32_37
  let v61 : BitVec 32 := Scalar.addi c0_i32_38 v60
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_39 : BitVec 32 := 4#32
  let v62 : BitVec 32 := Scalar.muli v10 c4_i32_39
  let v63 : BitVec 32 := Scalar.addi v61 v62
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_40 : BitVec 32 := 1#32
  let v64 : BitVec 32 := Scalar.muli v8 c1_i32_40
  let v65 : BitVec 32 := Scalar.addi v63 v64
  v65.toNat
def k0_off1 (d0 : Dev nD) (c0_i32_42 : BitVec 32) (c0_i32_51 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v66 : BitVec 32 := Scalar.addi v8 c0_i32_42
  let c4_i32_43 : BitVec 32 := 4#32
  let c0_i32_44 : BitVec 32 := 0#32
  let v67 : BitVec 1 := Scalar.cmpi .eq c4_i32_43 c0_i32_44
  let c1_i32_45 : BitVec 32 := 1#32
  let v68 : BitVec 32 := Scalar.select v67 c1_i32_45 c4_i32_43
  let v69 : BitVec 32 := Scalar.remsi v66 v68
  let c0_i32_47 : BitVec 32 := 0#32
  let v71 : BitVec 1 := Scalar.cmpi .slt v69 c0_i32_47
  let c0_i32_48 : BitVec 32 := 0#32
  let v72 : BitVec 1 := Scalar.cmpi .slt v68 c0_i32_48
  let v73 : BitVec 1 := Scalar.xori v71 v72
  let c0_i32_46 : BitVec 32 := 0#32
  let v70 : BitVec 1 := Scalar.cmpi .ne v69 c0_i32_46
  let v74 : BitVec 1 := Scalar.andi v73 v70
  let v75 : BitVec 32 := Scalar.addi v69 v68
  let v76 : BitVec 32 := Scalar.select v74 v75 v69
  let c2048_i32 : BitVec 32 := 2048#32
  let v79 : BitVec 32 := Scalar.muli v76 c2048_i32
  let c2_i32_17 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.muli c2_i32_17 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.addi v33 v5
  let c512_i32_50 : BitVec 32 := 512#32
  let v80 : BitVec 32 := Scalar.muli v34 c512_i32_50
  let v81 : BitVec 32 := Scalar.addi v79 v80
  let v82 : BitVec 32 := Scalar.addi v81 c0_i32_51
  let c0_i32_60 : BitVec 32 := 0#32
  ![v82.toNat, 0]
def k0_off1_at (r : Fin 6) : BitVec 32 × BitVec 32 :=
  if r.val < 3 then
    if r.val < 1 then
      (0#32, 0#32)
    else
      if r.val < 2 then
        (0#32, 256#32)
      else
        (4294967295#32, 0#32)
  else
    if r.val < 4 then
      (1#32, 256#32)
    else
      if r.val < 5 then
        (4294967294#32, 0#32)
      else
        (2#32, 256#32)
def k0_off2 (d0 : Dev nD) (c0_i32_49 : BitVec 32) : Fin 2 → Nat :=
  let c2_i32_17 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.muli c2_i32_17 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.addi v33 v5
  let c512_i32 : BitVec 32 := 512#32
  let v77 : BitVec 32 := Scalar.muli v34 c512_i32
  let v78 : BitVec 32 := Scalar.addi v77 c0_i32_49
  let c0_i32_61 : BitVec 32 := 0#32
  ![v78.toNat, 0]
def k0_dev5 (d0 : Dev nD) : Nat :=
  let c0_i32_57 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_56 : BitVec 32 := 8#32
  let v83 : BitVec 32 := Scalar.muli v2 c8_i32_56
  let v84 : BitVec 32 := Scalar.addi c0_i32_57 v83
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_58 : BitVec 32 := 4#32
  let v85 : BitVec 32 := Scalar.muli v5 c4_i32_58
  let v86 : BitVec 32 := Scalar.addi v84 v85
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_59 : BitVec 32 := 1#32
  let v87 : BitVec 32 := Scalar.muli v21 c1_i32_59
  let v88 : BitVec 32 := Scalar.addi v86 v87
  v88.toNat
def k0_dev6 (d0 : Dev nD) : Nat :=
  let c0_i32_78 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_77 : BitVec 32 := 8#32
  let v112 : BitVec 32 := Scalar.muli v2 c8_i32_77
  let v113 : BitVec 32 := Scalar.addi c0_i32_78 v112
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v114 : BitVec 32 := Scalar.muli v5 c4_i32_79
  let v115 : BitVec 32 := Scalar.addi v113 v114
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_80 : BitVec 32 := 1#32
  let v116 : BitVec 32 := Scalar.muli v32 c1_i32_80
  let v117 : BitVec 32 := Scalar.addi v115 v116
  v117.toNat
def k0_off3 (d0 : Dev nD) (c0_i32_83 : BitVec 32) (c0_i32_94 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v124 : BitVec 32 := Scalar.addi v8 c0_i32_83
  let c4_i32_84 : BitVec 32 := 4#32
  let c0_i32_85 : BitVec 32 := 0#32
  let v125 : BitVec 1 := Scalar.cmpi .eq c4_i32_84 c0_i32_85
  let c1_i32_86 : BitVec 32 := 1#32
  let v126 : BitVec 32 := Scalar.select v125 c1_i32_86 c4_i32_84
  let v127 : BitVec 32 := Scalar.remsi v124 v126
  let c0_i32_88 : BitVec 32 := 0#32
  let v129 : BitVec 1 := Scalar.cmpi .slt v127 c0_i32_88
  let c0_i32_89 : BitVec 32 := 0#32
  let v130 : BitVec 1 := Scalar.cmpi .slt v126 c0_i32_89
  let v131 : BitVec 1 := Scalar.xori v129 v130
  let c0_i32_87 : BitVec 32 := 0#32
  let v128 : BitVec 1 := Scalar.cmpi .ne v127 c0_i32_87
  let v132 : BitVec 1 := Scalar.andi v131 v128
  let v133 : BitVec 32 := Scalar.addi v127 v126
  let v134 : BitVec 32 := Scalar.select v132 v133 v127
  let c2048_i32_92 : BitVec 32 := 2048#32
  let v137 : BitVec 32 := Scalar.muli v134 c2048_i32_92
  let c2_i32_20 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v39 : BitVec 32 := Scalar.muli c2_i32_20 v9
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v40 : BitVec 32 := Scalar.addi v39 v10
  let c512_i32_93 : BitVec 32 := 512#32
  let v138 : BitVec 32 := Scalar.muli v40 c512_i32_93
  let v139 : BitVec 32 := Scalar.addi v137 v138
  let v140 : BitVec 32 := Scalar.addi v139 c0_i32_94
  let c0_i32_103 : BitVec 32 := 0#32
  ![v140.toNat, 0]
def k0_off3_at (r : Fin 6) : BitVec 32 × BitVec 32 :=
  if r.val < 3 then
    if r.val < 1 then
      (0#32, 0#32)
    else
      if r.val < 2 then
        (0#32, 256#32)
      else
        (4294967295#32, 0#32)
  else
    if r.val < 4 then
      (1#32, 256#32)
    else
      if r.val < 5 then
        (4294967294#32, 0#32)
      else
        (2#32, 256#32)
def k0_off4 (d0 : Dev nD) (c0_i32_91 : BitVec 32) : Fin 2 → Nat :=
  let c2_i32_20 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v39 : BitVec 32 := Scalar.muli c2_i32_20 v9
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v40 : BitVec 32 := Scalar.addi v39 v10
  let c512_i32_90 : BitVec 32 := 512#32
  let v135 : BitVec 32 := Scalar.muli v40 c512_i32_90
  let v136 : BitVec 32 := Scalar.addi v135 c0_i32_91
  let c0_i32_104 : BitVec 32 := 0#32
  ![v136.toNat, 0]
def k0_dev7 (d0 : Dev nD) : Nat :=
  let c0_i32_100 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_99 : BitVec 32 := 8#32
  let v141 : BitVec 32 := Scalar.muli v2 c8_i32_99
  let v142 : BitVec 32 := Scalar.addi c0_i32_100 v141
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_101 : BitVec 32 := 4#32
  let v143 : BitVec 32 := Scalar.muli v5 c4_i32_101
  let v144 : BitVec 32 := Scalar.addi v142 v143
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_102 : BitVec 32 := 1#32
  let v145 : BitVec 32 := Scalar.muli v21 c1_i32_102
  let v146 : BitVec 32 := Scalar.addi v144 v145
  v146.toNat
def k0_dev8 (d0 : Dev nD) : Nat :=
  let c0_i32_121 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_120 : BitVec 32 := 8#32
  let v170 : BitVec 32 := Scalar.muli v2 c8_i32_120
  let v171 : BitVec 32 := Scalar.addi c0_i32_121 v170
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_122 : BitVec 32 := 4#32
  let v172 : BitVec 32 := Scalar.muli v5 c4_i32_122
  let v173 : BitVec 32 := Scalar.addi v171 v172
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_123 : BitVec 32 := 1#32
  let v174 : BitVec 32 := Scalar.muli v32 c1_i32_123
  let v175 : BitVec 32 := Scalar.addi v173 v174
  v175.toNat
def k0_off5 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c2048_i32_126 : BitVec 32 := 2048#32
  let v182 : BitVec 32 := Scalar.muli v8 c2048_i32_126
  let c0_i32_127 : BitVec 32 := 0#32
  ![v182.toNat, 0]
def k0_off6 (d0 : Dev nD) (c0_i32_129 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v186 : BitVec 32 := Scalar.subi v8 c1_i32_128
  let v187 : BitVec 32 := Scalar.subi v186 c0_i32_129
  let c4_i32_130 : BitVec 32 := 4#32
  let c0_i32_131 : BitVec 32 := 0#32
  let v188 : BitVec 1 := Scalar.cmpi .eq c4_i32_130 c0_i32_131
  let c1_i32_132 : BitVec 32 := 1#32
  let v189 : BitVec 32 := Scalar.select v188 c1_i32_132 c4_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c2048_i32_154 : BitVec 32 := 2048#32
  let v220 : BitVec 32 := Scalar.muli v197 c2048_i32_154
  let c2_i32_17 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.muli c2_i32_17 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.addi v33 v5
  let c512_i32_155 : BitVec 32 := 512#32
  let v221 : BitVec 32 := Scalar.muli v34 c512_i32_155
  let v222 : BitVec 32 := Scalar.addi v220 v221
  let c0_i32_156 : BitVec 32 := 0#32
  let v223 : BitVec 32 := Scalar.addi v222 c0_i32_156
  let c0_i32_158 : BitVec 32 := 0#32
  ![v223.toNat, 0]
def k0_dev9 (d0 : Dev nD) : Nat :=
  let c0_i32_177 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_176 : BitVec 32 := 8#32
  let v247 : BitVec 32 := Scalar.muli v2 c8_i32_176
  let v248 : BitVec 32 := Scalar.addi c0_i32_177 v247
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_178 : BitVec 32 := 4#32
  let v249 : BitVec 32 := Scalar.muli v5 c4_i32_178
  let v250 : BitVec 32 := Scalar.addi v248 v249
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_179 : BitVec 32 := 1#32
  let v251 : BitVec 32 := Scalar.muli v21 c1_i32_179
  let v252 : BitVec 32 := Scalar.addi v250 v251
  v252.toNat
def k0_dev10 (d0 : Dev nD) : Nat :=
  let c0_i32_193 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_192 : BitVec 32 := 8#32
  let v267 : BitVec 32 := Scalar.muli v9 c8_i32_192
  let v268 : BitVec 32 := Scalar.addi c0_i32_193 v267
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_194 : BitVec 32 := 4#32
  let v269 : BitVec 32 := Scalar.muli v5 c4_i32_194
  let v270 : BitVec 32 := Scalar.addi v268 v269
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_195 : BitVec 32 := 1#32
  let v271 : BitVec 32 := Scalar.muli v8 c1_i32_195
  let v272 : BitVec 32 := Scalar.addi v270 v271
  v272.toNat
def k0_dev11 (d0 : Dev nD) : Nat :=
  let c0_i32_208 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_207 : BitVec 32 := 8#32
  let v287 : BitVec 32 := Scalar.muli v2 c8_i32_207
  let v288 : BitVec 32 := Scalar.addi c0_i32_208 v287
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_209 : BitVec 32 := 4#32
  let v289 : BitVec 32 := Scalar.muli v10 c4_i32_209
  let v290 : BitVec 32 := Scalar.addi v288 v289
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_210 : BitVec 32 := 1#32
  let v291 : BitVec 32 := Scalar.muli v8 c1_i32_210
  let v292 : BitVec 32 := Scalar.addi v290 v291
  v292.toNat
def k0_off7 (d0 : Dev nD) (c0_i32_137 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v198 : BitVec 32 := Scalar.addi v8 c1_i32_136
  let v199 : BitVec 32 := Scalar.addi v198 c0_i32_137
  let c4_i32_138 : BitVec 32 := 4#32
  let c0_i32_139 : BitVec 32 := 0#32
  let v200 : BitVec 1 := Scalar.cmpi .eq c4_i32_138 c0_i32_139
  let c1_i32_140 : BitVec 32 := 1#32
  let v201 : BitVec 32 := Scalar.select v200 c1_i32_140 c4_i32_138
  let v202 : BitVec 32 := Scalar.remsi v199 v201
  let c0_i32_142 : BitVec 32 := 0#32
  let v204 : BitVec 1 := Scalar.cmpi .slt v202 c0_i32_142
  let c0_i32_143 : BitVec 32 := 0#32
  let v205 : BitVec 1 := Scalar.cmpi .slt v201 c0_i32_143
  let v206 : BitVec 1 := Scalar.xori v204 v205
  let c0_i32_141 : BitVec 32 := 0#32
  let v203 : BitVec 1 := Scalar.cmpi .ne v202 c0_i32_141
  let v207 : BitVec 1 := Scalar.andi v206 v203
  let v208 : BitVec 32 := Scalar.addi v202 v201
  let v209 : BitVec 32 := Scalar.select v207 v208 v202
  let c2048_i32_223 : BitVec 32 := 2048#32
  let v309 : BitVec 32 := Scalar.muli v209 c2048_i32_223
  let c2_i32_17 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v33 : BitVec 32 := Scalar.muli c2_i32_17 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v34 : BitVec 32 := Scalar.addi v33 v5
  let c512_i32_224 : BitVec 32 := 512#32
  let v310 : BitVec 32 := Scalar.muli v34 c512_i32_224
  let v311 : BitVec 32 := Scalar.addi v309 v310
  let c256_i32_225 : BitVec 32 := 256#32
  let v312 : BitVec 32 := Scalar.addi v311 c256_i32_225
  let c0_i32_227 : BitVec 32 := 0#32
  ![v312.toNat, 0]
def k0_dev12 (d0 : Dev nD) : Nat :=
  let c0_i32_247 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_246 : BitVec 32 := 8#32
  let v336 : BitVec 32 := Scalar.muli v2 c8_i32_246
  let v337 : BitVec 32 := Scalar.addi c0_i32_247 v336
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_248 : BitVec 32 := 4#32
  let v338 : BitVec 32 := Scalar.muli v5 c4_i32_248
  let v339 : BitVec 32 := Scalar.addi v337 v338
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_249 : BitVec 32 := 1#32
  let v340 : BitVec 32 := Scalar.muli v32 c1_i32_249
  let v341 : BitVec 32 := Scalar.addi v339 v340
  v341.toNat
def k0_dev13 (d0 : Dev nD) : Nat :=
  let c0_i32_262 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_261 : BitVec 32 := 8#32
  let v356 : BitVec 32 := Scalar.muli v9 c8_i32_261
  let v357 : BitVec 32 := Scalar.addi c0_i32_262 v356
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_263 : BitVec 32 := 4#32
  let v358 : BitVec 32 := Scalar.muli v5 c4_i32_263
  let v359 : BitVec 32 := Scalar.addi v357 v358
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_264 : BitVec 32 := 1#32
  let v360 : BitVec 32 := Scalar.muli v8 c1_i32_264
  let v361 : BitVec 32 := Scalar.addi v359 v360
  v361.toNat
def k0_dev14 (d0 : Dev nD) : Nat :=
  let c0_i32_277 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_276 : BitVec 32 := 8#32
  let v376 : BitVec 32 := Scalar.muli v2 c8_i32_276
  let v377 : BitVec 32 := Scalar.addi c0_i32_277 v376
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_278 : BitVec 32 := 4#32
  let v378 : BitVec 32 := Scalar.muli v10 c4_i32_278
  let v379 : BitVec 32 := Scalar.addi v377 v378
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_279 : BitVec 32 := 1#32
  let v380 : BitVec 32 := Scalar.muli v8 c1_i32_279
  let v381 : BitVec 32 := Scalar.addi v379 v380
  v381.toNat
def k0_off8 (d0 : Dev nD) (c0_i32_129 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v186 : BitVec 32 := Scalar.subi v8 c1_i32_128
  let v187 : BitVec 32 := Scalar.subi v186 c0_i32_129
  let c4_i32_130 : BitVec 32 := 4#32
  let c0_i32_131 : BitVec 32 := 0#32
  let v188 : BitVec 1 := Scalar.cmpi .eq c4_i32_130 c0_i32_131
  let c1_i32_132 : BitVec 32 := 1#32
  let v189 : BitVec 32 := Scalar.select v188 c1_i32_132 c4_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c2048_i32_292 : BitVec 32 := 2048#32
  let v398 : BitVec 32 := Scalar.muli v197 c2048_i32_292
  let c2_i32_20 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v39 : BitVec 32 := Scalar.muli c2_i32_20 v9
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v40 : BitVec 32 := Scalar.addi v39 v10
  let c512_i32_293 : BitVec 32 := 512#32
  let v399 : BitVec 32 := Scalar.muli v40 c512_i32_293
  let v400 : BitVec 32 := Scalar.addi v398 v399
  let c0_i32_294 : BitVec 32 := 0#32
  let v401 : BitVec 32 := Scalar.addi v400 c0_i32_294
  let c0_i32_296 : BitVec 32 := 0#32
  ![v401.toNat, 0]
def k0_dev15 (d0 : Dev nD) : Nat :=
  let c0_i32_316 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_315 : BitVec 32 := 8#32
  let v425 : BitVec 32 := Scalar.muli v2 c8_i32_315
  let v426 : BitVec 32 := Scalar.addi c0_i32_316 v425
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_317 : BitVec 32 := 4#32
  let v427 : BitVec 32 := Scalar.muli v5 c4_i32_317
  let v428 : BitVec 32 := Scalar.addi v426 v427
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_318 : BitVec 32 := 1#32
  let v429 : BitVec 32 := Scalar.muli v21 c1_i32_318
  let v430 : BitVec 32 := Scalar.addi v428 v429
  v430.toNat
def k0_off9 (d0 : Dev nD) (c0_i32_137 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v198 : BitVec 32 := Scalar.addi v8 c1_i32_136
  let v199 : BitVec 32 := Scalar.addi v198 c0_i32_137
  let c4_i32_138 : BitVec 32 := 4#32
  let c0_i32_139 : BitVec 32 := 0#32
  let v200 : BitVec 1 := Scalar.cmpi .eq c4_i32_138 c0_i32_139
  let c1_i32_140 : BitVec 32 := 1#32
  let v201 : BitVec 32 := Scalar.select v200 c1_i32_140 c4_i32_138
  let v202 : BitVec 32 := Scalar.remsi v199 v201
  let c0_i32_142 : BitVec 32 := 0#32
  let v204 : BitVec 1 := Scalar.cmpi .slt v202 c0_i32_142
  let c0_i32_143 : BitVec 32 := 0#32
  let v205 : BitVec 1 := Scalar.cmpi .slt v201 c0_i32_143
  let v206 : BitVec 1 := Scalar.xori v204 v205
  let c0_i32_141 : BitVec 32 := 0#32
  let v203 : BitVec 1 := Scalar.cmpi .ne v202 c0_i32_141
  let v207 : BitVec 1 := Scalar.andi v206 v203
  let v208 : BitVec 32 := Scalar.addi v202 v201
  let v209 : BitVec 32 := Scalar.select v207 v208 v202
  let c2048_i32_331 : BitVec 32 := 2048#32
  let v447 : BitVec 32 := Scalar.muli v209 c2048_i32_331
  let c2_i32_20 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v39 : BitVec 32 := Scalar.muli c2_i32_20 v9
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v40 : BitVec 32 := Scalar.addi v39 v10
  let c512_i32_332 : BitVec 32 := 512#32
  let v448 : BitVec 32 := Scalar.muli v40 c512_i32_332
  let v449 : BitVec 32 := Scalar.addi v447 v448
  let c256_i32_333 : BitVec 32 := 256#32
  let v450 : BitVec 32 := Scalar.addi v449 c256_i32_333
  let c0_i32_335 : BitVec 32 := 0#32
  ![v450.toNat, 0]
def k0_dev16 (d0 : Dev nD) : Nat :=
  let c0_i32_355 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_354 : BitVec 32 := 8#32
  let v474 : BitVec 32 := Scalar.muli v2 c8_i32_354
  let v475 : BitVec 32 := Scalar.addi c0_i32_355 v474
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v476 : BitVec 32 := Scalar.muli v5 c4_i32_356
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_357 : BitVec 32 := 1#32
  let v478 : BitVec 32 := Scalar.muli v32 c1_i32_357
  let v479 : BitVec 32 := Scalar.addi v477 v478
  v479.toNat
def k0_off10 (d0 : Dev nD) (c0_i32_129 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v186 : BitVec 32 := Scalar.subi v8 c1_i32_128
  let v187 : BitVec 32 := Scalar.subi v186 c0_i32_129
  let c4_i32_130 : BitVec 32 := 4#32
  let c0_i32_131 : BitVec 32 := 0#32
  let v188 : BitVec 1 := Scalar.cmpi .eq c4_i32_130 c0_i32_131
  let c1_i32_132 : BitVec 32 := 1#32
  let v189 : BitVec 32 := Scalar.select v188 c1_i32_132 c4_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c2048_i32_376 : BitVec 32 := 2048#32
  let v504 : BitVec 32 := Scalar.muli v197 c2048_i32_376
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v38 : BitVec 32 := Scalar.addi v37 v10
  let c512_i32_377 : BitVec 32 := 512#32
  let v505 : BitVec 32 := Scalar.muli v38 c512_i32_377
  let v506 : BitVec 32 := Scalar.addi v504 v505
  let c0_i32_379 : BitVec 32 := 0#32
  ![v506.toNat, 0]
def k0_off11 (d0 : Dev nD) (c0_i32_129 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v186 : BitVec 32 := Scalar.subi v8 c1_i32_128
  let v187 : BitVec 32 := Scalar.subi v186 c0_i32_129
  let c4_i32_130 : BitVec 32 := 4#32
  let c0_i32_131 : BitVec 32 := 0#32
  let v188 : BitVec 1 := Scalar.cmpi .eq c4_i32_130 c0_i32_131
  let c1_i32_132 : BitVec 32 := 1#32
  let v189 : BitVec 32 := Scalar.select v188 c1_i32_132 c4_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c2048_i32_383 : BitVec 32 := 2048#32
  let v515 : BitVec 32 := Scalar.muli v197 c2048_i32_383
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v38 : BitVec 32 := Scalar.addi v37 v10
  let c512_i32_384 : BitVec 32 := 512#32
  let v516 : BitVec 32 := Scalar.muli v38 c512_i32_384
  let v517 : BitVec 32 := Scalar.addi v515 v516
  let c88_i32_385 : BitVec 32 := 88#32
  let v518 : BitVec 32 := Scalar.addi v517 c88_i32_385
  let c0_i32_393 : BitVec 32 := 0#32
  ![v518.toNat, 0]
def k0_dev17 (d0 : Dev nD) : Nat :=
  let c0_i32_390 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_389 : BitVec 32 := 8#32
  let v519 : BitVec 32 := Scalar.muli v9 c8_i32_389
  let v520 : BitVec 32 := Scalar.addi c0_i32_390 v519
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_391 : BitVec 32 := 4#32
  let v521 : BitVec 32 := Scalar.muli v5 c4_i32_391
  let v522 : BitVec 32 := Scalar.addi v520 v521
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_392 : BitVec 32 := 1#32
  let v523 : BitVec 32 := Scalar.muli v8 c1_i32_392
  let v524 : BitVec 32 := Scalar.addi v522 v523
  v524.toNat
def k0_off12 (d0 : Dev nD) (c0_i32_137 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v198 : BitVec 32 := Scalar.addi v8 c1_i32_136
  let v199 : BitVec 32 := Scalar.addi v198 c0_i32_137
  let c4_i32_138 : BitVec 32 := 4#32
  let c0_i32_139 : BitVec 32 := 0#32
  let v200 : BitVec 1 := Scalar.cmpi .eq c4_i32_138 c0_i32_139
  let c1_i32_140 : BitVec 32 := 1#32
  let v201 : BitVec 32 := Scalar.select v200 c1_i32_140 c4_i32_138
  let v202 : BitVec 32 := Scalar.remsi v199 v201
  let c0_i32_142 : BitVec 32 := 0#32
  let v204 : BitVec 1 := Scalar.cmpi .slt v202 c0_i32_142
  let c0_i32_143 : BitVec 32 := 0#32
  let v205 : BitVec 1 := Scalar.cmpi .slt v201 c0_i32_143
  let v206 : BitVec 1 := Scalar.xori v204 v205
  let c0_i32_141 : BitVec 32 := 0#32
  let v203 : BitVec 1 := Scalar.cmpi .ne v202 c0_i32_141
  let v207 : BitVec 1 := Scalar.andi v206 v203
  let v208 : BitVec 32 := Scalar.addi v202 v201
  let v209 : BitVec 32 := Scalar.select v207 v208 v202
  let c2048_i32_411 : BitVec 32 := 2048#32
  let v549 : BitVec 32 := Scalar.muli v209 c2048_i32_411
  let c2_i32_18 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v35 : BitVec 32 := Scalar.muli c2_i32_18 v9
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_412 : BitVec 32 := 512#32
  let v550 : BitVec 32 := Scalar.muli v36 c512_i32_412
  let v551 : BitVec 32 := Scalar.addi v549 v550
  let c256_i32_413 : BitVec 32 := 256#32
  let v552 : BitVec 32 := Scalar.addi v551 c256_i32_413
  let c0_i32_415 : BitVec 32 := 0#32
  ![v552.toNat, 0]
def k0_off13 (d0 : Dev nD) (c0_i32_137 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v198 : BitVec 32 := Scalar.addi v8 c1_i32_136
  let v199 : BitVec 32 := Scalar.addi v198 c0_i32_137
  let c4_i32_138 : BitVec 32 := 4#32
  let c0_i32_139 : BitVec 32 := 0#32
  let v200 : BitVec 1 := Scalar.cmpi .eq c4_i32_138 c0_i32_139
  let c1_i32_140 : BitVec 32 := 1#32
  let v201 : BitVec 32 := Scalar.select v200 c1_i32_140 c4_i32_138
  let v202 : BitVec 32 := Scalar.remsi v199 v201
  let c0_i32_142 : BitVec 32 := 0#32
  let v204 : BitVec 1 := Scalar.cmpi .slt v202 c0_i32_142
  let c0_i32_143 : BitVec 32 := 0#32
  let v205 : BitVec 1 := Scalar.cmpi .slt v201 c0_i32_143
  let v206 : BitVec 1 := Scalar.xori v204 v205
  let c0_i32_141 : BitVec 32 := 0#32
  let v203 : BitVec 1 := Scalar.cmpi .ne v202 c0_i32_141
  let v207 : BitVec 1 := Scalar.andi v206 v203
  let v208 : BitVec 32 := Scalar.addi v202 v201
  let v209 : BitVec 32 := Scalar.select v207 v208 v202
  let c2048_i32_419 : BitVec 32 := 2048#32
  let v561 : BitVec 32 := Scalar.muli v209 c2048_i32_419
  let c2_i32_18 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v35 : BitVec 32 := Scalar.muli c2_i32_18 v9
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_420 : BitVec 32 := 512#32
  let v562 : BitVec 32 := Scalar.muli v36 c512_i32_420
  let v563 : BitVec 32 := Scalar.addi v561 v562
  let c344_i32_421 : BitVec 32 := 344#32
  let v564 : BitVec 32 := Scalar.addi v563 c344_i32_421
  let c0_i32_430 : BitVec 32 := 0#32
  ![v564.toNat, 0]
def k0_dev18 (d0 : Dev nD) : Nat :=
  let c0_i32_427 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_426 : BitVec 32 := 8#32
  let v565 : BitVec 32 := Scalar.muli v2 c8_i32_426
  let v566 : BitVec 32 := Scalar.addi c0_i32_427 v565
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_428 : BitVec 32 := 4#32
  let v567 : BitVec 32 := Scalar.muli v10 c4_i32_428
  let v568 : BitVec 32 := Scalar.addi v566 v567
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_429 : BitVec 32 := 1#32
  let v569 : BitVec 32 := Scalar.muli v8 c1_i32_429
  let v570 : BitVec 32 := Scalar.addi v568 v569
  v570.toNat
def k0_off14 (d0 : Dev nD) (c0_i32_129 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_128 : BitVec 32 := 1#32
  let v186 : BitVec 32 := Scalar.subi v8 c1_i32_128
  let v187 : BitVec 32 := Scalar.subi v186 c0_i32_129
  let c4_i32_130 : BitVec 32 := 4#32
  let c0_i32_131 : BitVec 32 := 0#32
  let v188 : BitVec 1 := Scalar.cmpi .eq c4_i32_130 c0_i32_131
  let c1_i32_132 : BitVec 32 := 1#32
  let v189 : BitVec 32 := Scalar.select v188 c1_i32_132 c4_i32_130
  let v190 : BitVec 32 := Scalar.remsi v187 v189
  let c0_i32_134 : BitVec 32 := 0#32
  let v192 : BitVec 1 := Scalar.cmpi .slt v190 c0_i32_134
  let c0_i32_135 : BitVec 32 := 0#32
  let v193 : BitVec 1 := Scalar.cmpi .slt v189 c0_i32_135
  let v194 : BitVec 1 := Scalar.xori v192 v193
  let c0_i32_133 : BitVec 32 := 0#32
  let v191 : BitVec 1 := Scalar.cmpi .ne v190 c0_i32_133
  let v195 : BitVec 1 := Scalar.andi v194 v191
  let v196 : BitVec 32 := Scalar.addi v190 v189
  let v197 : BitVec 32 := Scalar.select v195 v196 v190
  let c2048_i32_448 : BitVec 32 := 2048#32
  let v595 : BitVec 32 := Scalar.muli v197 c2048_i32_448
  let c2_i32_18 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v35 : BitVec 32 := Scalar.muli c2_i32_18 v9
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v36 : BitVec 32 := Scalar.addi v35 v5
  let c512_i32_449 : BitVec 32 := 512#32
  let v596 : BitVec 32 := Scalar.muli v36 c512_i32_449
  let v597 : BitVec 32 := Scalar.addi v595 v596
  let c0_i32_451 : BitVec 32 := 0#32
  ![v597.toNat, 0]
def k0_off15 (d0 : Dev nD) (c0_i32_137 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v198 : BitVec 32 := Scalar.addi v8 c1_i32_136
  let v199 : BitVec 32 := Scalar.addi v198 c0_i32_137
  let c4_i32_138 : BitVec 32 := 4#32
  let c0_i32_139 : BitVec 32 := 0#32
  let v200 : BitVec 1 := Scalar.cmpi .eq c4_i32_138 c0_i32_139
  let c1_i32_140 : BitVec 32 := 1#32
  let v201 : BitVec 32 := Scalar.select v200 c1_i32_140 c4_i32_138
  let v202 : BitVec 32 := Scalar.remsi v199 v201
  let c0_i32_142 : BitVec 32 := 0#32
  let v204 : BitVec 1 := Scalar.cmpi .slt v202 c0_i32_142
  let c0_i32_143 : BitVec 32 := 0#32
  let v205 : BitVec 1 := Scalar.cmpi .slt v201 c0_i32_143
  let v206 : BitVec 1 := Scalar.xori v204 v205
  let c0_i32_141 : BitVec 32 := 0#32
  let v203 : BitVec 1 := Scalar.cmpi .ne v202 c0_i32_141
  let v207 : BitVec 1 := Scalar.andi v206 v203
  let v208 : BitVec 32 := Scalar.addi v202 v201
  let v209 : BitVec 32 := Scalar.select v207 v208 v202
  let c2048_i32_469 : BitVec 32 := 2048#32
  let v620 : BitVec 32 := Scalar.muli v209 c2048_i32_469
  let c2_i32_19 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v37 : BitVec 32 := Scalar.muli c2_i32_19 v2
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v38 : BitVec 32 := Scalar.addi v37 v10
  let c512_i32_470 : BitVec 32 := 512#32
  let v621 : BitVec 32 := Scalar.muli v38 c512_i32_470
  let v622 : BitVec 32 := Scalar.addi v620 v621
  let c256_i32_471 : BitVec 32 := 256#32
  let v623 : BitVec 32 := Scalar.addi v622 c256_i32_471
  let c0_i32_473 : BitVec 32 := 0#32
  ![v623.toNat, 0]
def k0_dev19 (d0 : Dev nD) : Nat :=
  let c0_i32_524 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_523 : BitVec 32 := 8#32
  let v689 : BitVec 32 := Scalar.muli v2 c8_i32_523
  let v690 : BitVec 32 := Scalar.addi c0_i32_524 v689
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_525 : BitVec 32 := 4#32
  let v691 : BitVec 32 := Scalar.muli v5 c4_i32_525
  let v692 : BitVec 32 := Scalar.addi v690 v691
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_526 : BitVec 32 := 1#32
  let v693 : BitVec 32 := Scalar.muli v21 c1_i32_526
  let v694 : BitVec 32 := Scalar.addi v692 v693
  v694.toNat
def k0_dev20 (d0 : Dev nD) : Nat :=
  let c0_i32_540 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_539 : BitVec 32 := 8#32
  let v709 : BitVec 32 := Scalar.muli v9 c8_i32_539
  let v710 : BitVec 32 := Scalar.addi c0_i32_540 v709
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_541 : BitVec 32 := 4#32
  let v711 : BitVec 32 := Scalar.muli v5 c4_i32_541
  let v712 : BitVec 32 := Scalar.addi v710 v711
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_542 : BitVec 32 := 1#32
  let v713 : BitVec 32 := Scalar.muli v8 c1_i32_542
  let v714 : BitVec 32 := Scalar.addi v712 v713
  v714.toNat
def k0_dev21 (d0 : Dev nD) : Nat :=
  let c0_i32_556 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_555 : BitVec 32 := 8#32
  let v729 : BitVec 32 := Scalar.muli v2 c8_i32_555
  let v730 : BitVec 32 := Scalar.addi c0_i32_556 v729
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_557 : BitVec 32 := 4#32
  let v731 : BitVec 32 := Scalar.muli v10 c4_i32_557
  let v732 : BitVec 32 := Scalar.addi v730 v731
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_558 : BitVec 32 := 1#32
  let v733 : BitVec 32 := Scalar.muli v8 c1_i32_558
  let v734 : BitVec 32 := Scalar.addi v732 v733
  v734.toNat
def k0_dev22 (d0 : Dev nD) : Nat :=
  let c0_i32_595 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_594 : BitVec 32 := 8#32
  let v778 : BitVec 32 := Scalar.muli v2 c8_i32_594
  let v779 : BitVec 32 := Scalar.addi c0_i32_595 v778
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_596 : BitVec 32 := 4#32
  let v780 : BitVec 32 := Scalar.muli v5 c4_i32_596
  let v781 : BitVec 32 := Scalar.addi v779 v780
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_597 : BitVec 32 := 1#32
  let v782 : BitVec 32 := Scalar.muli v32 c1_i32_597
  let v783 : BitVec 32 := Scalar.addi v781 v782
  v783.toNat
def k0_dev23 (d0 : Dev nD) : Nat :=
  let c0_i32_611 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_610 : BitVec 32 := 8#32
  let v798 : BitVec 32 := Scalar.muli v9 c8_i32_610
  let v799 : BitVec 32 := Scalar.addi c0_i32_611 v798
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_612 : BitVec 32 := 4#32
  let v800 : BitVec 32 := Scalar.muli v5 c4_i32_612
  let v801 : BitVec 32 := Scalar.addi v799 v800
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_613 : BitVec 32 := 1#32
  let v802 : BitVec 32 := Scalar.muli v8 c1_i32_613
  let v803 : BitVec 32 := Scalar.addi v801 v802
  v803.toNat
def k0_dev24 (d0 : Dev nD) : Nat :=
  let c0_i32_627 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_626 : BitVec 32 := 8#32
  let v818 : BitVec 32 := Scalar.muli v2 c8_i32_626
  let v819 : BitVec 32 := Scalar.addi c0_i32_627 v818
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_628 : BitVec 32 := 4#32
  let v820 : BitVec 32 := Scalar.muli v10 c4_i32_628
  let v821 : BitVec 32 := Scalar.addi v819 v820
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_629 : BitVec 32 := 1#32
  let v822 : BitVec 32 := Scalar.muli v8 c1_i32_629
  let v823 : BitVec 32 := Scalar.addi v821 v822
  v823.toNat
def k0_dev25 (d0 : Dev nD) : Nat :=
  let c0_i32_665 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_664 : BitVec 32 := 8#32
  let v867 : BitVec 32 := Scalar.muli v2 c8_i32_664
  let v868 : BitVec 32 := Scalar.addi c0_i32_665 v867
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_666 : BitVec 32 := 4#32
  let v869 : BitVec 32 := Scalar.muli v5 c4_i32_666
  let v870 : BitVec 32 := Scalar.addi v868 v869
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_4 : BitVec 32 := 1#32
  let v11 : BitVec 32 := Scalar.addi v8 c1_i32_4
  let c4_i32_5 : BitVec 32 := 4#32
  let c0_i32 : BitVec 32 := 0#32
  let v12 : BitVec 1 := Scalar.cmpi .eq c4_i32_5 c0_i32
  let c1_i32_6 : BitVec 32 := 1#32
  let v13 : BitVec 32 := Scalar.select v12 c1_i32_6 c4_i32_5
  let v14 : BitVec 32 := Scalar.remsi v11 v13
  let c0_i32_8 : BitVec 32 := 0#32
  let v16 : BitVec 1 := Scalar.cmpi .slt v14 c0_i32_8
  let c0_i32_9 : BitVec 32 := 0#32
  let v17 : BitVec 1 := Scalar.cmpi .slt v13 c0_i32_9
  let v18 : BitVec 1 := Scalar.xori v16 v17
  let c0_i32_7 : BitVec 32 := 0#32
  let v15 : BitVec 1 := Scalar.cmpi .ne v14 c0_i32_7
  let v19 : BitVec 1 := Scalar.andi v18 v15
  let v20 : BitVec 32 := Scalar.addi v14 v13
  let v21 : BitVec 32 := Scalar.select v19 v20 v14
  let c1_i32_667 : BitVec 32 := 1#32
  let v871 : BitVec 32 := Scalar.muli v21 c1_i32_667
  let v872 : BitVec 32 := Scalar.addi v870 v871
  v872.toNat
def k0_dev26 (d0 : Dev nD) : Nat :=
  let c0_i32_703 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_702 : BitVec 32 := 8#32
  let v916 : BitVec 32 := Scalar.muli v2 c8_i32_702
  let v917 : BitVec 32 := Scalar.addi c0_i32_703 v916
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_704 : BitVec 32 := 4#32
  let v918 : BitVec 32 := Scalar.muli v5 c4_i32_704
  let v919 : BitVec 32 := Scalar.addi v917 v918
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v22 : BitVec 32 := Scalar.subi v8 c1_i32_10
  let c4_i32_11 : BitVec 32 := 4#32
  let c0_i32_12 : BitVec 32 := 0#32
  let v23 : BitVec 1 := Scalar.cmpi .eq c4_i32_11 c0_i32_12
  let c1_i32_13 : BitVec 32 := 1#32
  let v24 : BitVec 32 := Scalar.select v23 c1_i32_13 c4_i32_11
  let v25 : BitVec 32 := Scalar.remsi v22 v24
  let c0_i32_15 : BitVec 32 := 0#32
  let v27 : BitVec 1 := Scalar.cmpi .slt v25 c0_i32_15
  let c0_i32_16 : BitVec 32 := 0#32
  let v28 : BitVec 1 := Scalar.cmpi .slt v24 c0_i32_16
  let v29 : BitVec 1 := Scalar.xori v27 v28
  let c0_i32_14 : BitVec 32 := 0#32
  let v26 : BitVec 1 := Scalar.cmpi .ne v25 c0_i32_14
  let v30 : BitVec 1 := Scalar.andi v29 v26
  let v31 : BitVec 32 := Scalar.addi v25 v24
  let v32 : BitVec 32 := Scalar.select v30 v31 v25
  let c1_i32_705 : BitVec 32 := 1#32
  let v920 : BitVec 32 := Scalar.muli v32 c1_i32_705
  let v921 : BitVec 32 := Scalar.addi v919 v920
  v921.toNat
def k0_dev27 (d0 : Dev nD) : Nat :=
  let c0_i32_739 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_738 : BitVec 32 := 8#32
  let v961 : BitVec 32 := Scalar.muli v9 c8_i32_738
  let v962 : BitVec 32 := Scalar.addi c0_i32_739 v961
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_740 : BitVec 32 := 4#32
  let v963 : BitVec 32 := Scalar.muli v5 c4_i32_740
  let v964 : BitVec 32 := Scalar.addi v962 v963
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_741 : BitVec 32 := 1#32
  let v965 : BitVec 32 := Scalar.muli v8 c1_i32_741
  let v966 : BitVec 32 := Scalar.addi v964 v965
  v966.toNat
def k0_dev28 (d0 : Dev nD) : Nat :=
  let c0_i32_776 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_775 : BitVec 32 := 8#32
  let v1007 : BitVec 32 := Scalar.muli v2 c8_i32_775
  let v1008 : BitVec 32 := Scalar.addi c0_i32_776 v1007
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_777 : BitVec 32 := 4#32
  let v1009 : BitVec 32 := Scalar.muli v10 c4_i32_777
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_778 : BitVec 32 := 1#32
  let v1011 : BitVec 32 := Scalar.muli v8 c1_i32_778
  let v1012 : BitVec 32 := Scalar.addi v1010 v1011
  v1012.toNat
def k0_dev29 (d0 : Dev nD) : Nat :=
  let c0_i32_864 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_863 : BitVec 32 := 8#32
  let v1120 : BitVec 32 := Scalar.muli v9 c8_i32_863
  let v1121 : BitVec 32 := Scalar.addi c0_i32_864 v1120
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_865 : BitVec 32 := 4#32
  let v1122 : BitVec 32 := Scalar.muli v5 c4_i32_865
  let v1123 : BitVec 32 := Scalar.addi v1121 v1122
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_866 : BitVec 32 := 1#32
  let v1124 : BitVec 32 := Scalar.muli v8 c1_i32_866
  let v1125 : BitVec 32 := Scalar.addi v1123 v1124
  v1125.toNat
def k0_dev30 (d0 : Dev nD) : Nat :=
  let c0_i32_880 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_879 : BitVec 32 := 8#32
  let v1140 : BitVec 32 := Scalar.muli v2 c8_i32_879
  let v1141 : BitVec 32 := Scalar.addi c0_i32_880 v1140
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_881 : BitVec 32 := 4#32
  let v1142 : BitVec 32 := Scalar.muli v10 c4_i32_881
  let v1143 : BitVec 32 := Scalar.addi v1141 v1142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_882 : BitVec 32 := 1#32
  let v1144 : BitVec 32 := Scalar.muli v8 c1_i32_882
  let v1145 : BitVec 32 := Scalar.addi v1143 v1144
  v1145.toNat
def k0_dev31 (d0 : Dev nD) : Nat :=
  let c0_i32_911 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_910 : BitVec 32 := 8#32
  let v1178 : BitVec 32 := Scalar.muli v9 c8_i32_910
  let v1179 : BitVec 32 := Scalar.addi c0_i32_911 v1178
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_912 : BitVec 32 := 4#32
  let v1180 : BitVec 32 := Scalar.muli v5 c4_i32_912
  let v1181 : BitVec 32 := Scalar.addi v1179 v1180
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_913 : BitVec 32 := 1#32
  let v1182 : BitVec 32 := Scalar.muli v8 c1_i32_913
  let v1183 : BitVec 32 := Scalar.addi v1181 v1182
  v1183.toNat
def k0_dev32 (d0 : Dev nD) : Nat :=
  let c0_i32_927 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_926 : BitVec 32 := 8#32
  let v1198 : BitVec 32 := Scalar.muli v2 c8_i32_926
  let v1199 : BitVec 32 := Scalar.addi c0_i32_927 v1198
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_928 : BitVec 32 := 4#32
  let v1200 : BitVec 32 := Scalar.muli v10 c4_i32_928
  let v1201 : BitVec 32 := Scalar.addi v1199 v1200
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_929 : BitVec 32 := 1#32
  let v1202 : BitVec 32 := Scalar.muli v8 c1_i32_929
  let v1203 : BitVec 32 := Scalar.addi v1201 v1202
  v1203.toNat
def k0_dev33 (d0 : Dev nD) : Nat :=
  let c0_i32_993 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_992 : BitVec 32 := 8#32
  let v1279 : BitVec 32 := Scalar.muli v9 c8_i32_992
  let v1280 : BitVec 32 := Scalar.addi c0_i32_993 v1279
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_994 : BitVec 32 := 4#32
  let v1281 : BitVec 32 := Scalar.muli v5 c4_i32_994
  let v1282 : BitVec 32 := Scalar.addi v1280 v1281
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_995 : BitVec 32 := 1#32
  let v1283 : BitVec 32 := Scalar.muli v8 c1_i32_995
  let v1284 : BitVec 32 := Scalar.addi v1282 v1283
  v1284.toNat
def k0_dev34 (d0 : Dev nD) : Nat :=
  let c0_i32_1030 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1029 : BitVec 32 := 8#32
  let v1325 : BitVec 32 := Scalar.muli v2 c8_i32_1029
  let v1326 : BitVec 32 := Scalar.addi c0_i32_1030 v1325
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_1031 : BitVec 32 := 4#32
  let v1327 : BitVec 32 := Scalar.muli v10 c4_i32_1031
  let v1328 : BitVec 32 := Scalar.addi v1326 v1327
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1032 : BitVec 32 := 1#32
  let v1329 : BitVec 32 := Scalar.muli v8 c1_i32_1032
  let v1330 : BitVec 32 := Scalar.addi v1328 v1329
  v1330.toNat
def k0_off16 (d0 : Dev nD) (c0_i32_1077 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1076 : BitVec 32 := 1#32
  let v1388 : BitVec 32 := Scalar.subi v8 c1_i32_1076
  let v1389 : BitVec 32 := Scalar.subi v1388 c0_i32_1077
  let c4_i32_1078 : BitVec 32 := 4#32
  let c0_i32_1079 : BitVec 32 := 0#32
  let v1390 : BitVec 1 := Scalar.cmpi .eq c4_i32_1078 c0_i32_1079
  let c1_i32_1080 : BitVec 32 := 1#32
  let v1391 : BitVec 32 := Scalar.select v1390 c1_i32_1080 c4_i32_1078
  let v1392 : BitVec 32 := Scalar.remsi v1389 v1391
  let c0_i32_1082 : BitVec 32 := 0#32
  let v1394 : BitVec 1 := Scalar.cmpi .slt v1392 c0_i32_1082
  let c0_i32_1083 : BitVec 32 := 0#32
  let v1395 : BitVec 1 := Scalar.cmpi .slt v1391 c0_i32_1083
  let v1396 : BitVec 1 := Scalar.xori v1394 v1395
  let c0_i32_1081 : BitVec 32 := 0#32
  let v1393 : BitVec 1 := Scalar.cmpi .ne v1392 c0_i32_1081
  let v1397 : BitVec 1 := Scalar.andi v1396 v1393
  let v1398 : BitVec 32 := Scalar.addi v1392 v1391
  let v1399 : BitVec 32 := Scalar.select v1397 v1398 v1392
  let c2048_i32_1102 : BitVec 32 := 2048#32
  let v1422 : BitVec 32 := Scalar.muli v1399 c2048_i32_1102
  let c2_i32_20 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v39 : BitVec 32 := Scalar.muli c2_i32_20 v9
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v40 : BitVec 32 := Scalar.addi v39 v10
  let c512_i32_1103 : BitVec 32 := 512#32
  let v1423 : BitVec 32 := Scalar.muli v40 c512_i32_1103
  let v1424 : BitVec 32 := Scalar.addi v1422 v1423
  let c88_i32_1104 : BitVec 32 := 88#32
  let v1425 : BitVec 32 := Scalar.addi v1424 c88_i32_1104
  let c0_i32_1105 : BitVec 32 := 0#32
  ![v1425.toNat, 0]
def k0_off17 (d0 : Dev nD) (c0_i32_1085 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1084 : BitVec 32 := 1#32
  let v1400 : BitVec 32 := Scalar.addi v8 c1_i32_1084
  let v1401 : BitVec 32 := Scalar.addi v1400 c0_i32_1085
  let c4_i32_1086 : BitVec 32 := 4#32
  let c0_i32_1087 : BitVec 32 := 0#32
  let v1402 : BitVec 1 := Scalar.cmpi .eq c4_i32_1086 c0_i32_1087
  let c1_i32_1088 : BitVec 32 := 1#32
  let v1403 : BitVec 32 := Scalar.select v1402 c1_i32_1088 c4_i32_1086
  let v1404 : BitVec 32 := Scalar.remsi v1401 v1403
  let c0_i32_1090 : BitVec 32 := 0#32
  let v1406 : BitVec 1 := Scalar.cmpi .slt v1404 c0_i32_1090
  let c0_i32_1091 : BitVec 32 := 0#32
  let v1407 : BitVec 1 := Scalar.cmpi .slt v1403 c0_i32_1091
  let v1408 : BitVec 1 := Scalar.xori v1406 v1407
  let c0_i32_1089 : BitVec 32 := 0#32
  let v1405 : BitVec 1 := Scalar.cmpi .ne v1404 c0_i32_1089
  let v1409 : BitVec 1 := Scalar.andi v1408 v1405
  let v1410 : BitVec 32 := Scalar.addi v1404 v1403
  let v1411 : BitVec 32 := Scalar.select v1409 v1410 v1404
  let c2048_i32_1117 : BitVec 32 := 2048#32
  let v1440 : BitVec 32 := Scalar.muli v1411 c2048_i32_1117
  let c2_i32_20 : BitVec 32 := 2#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let v39 : BitVec 32 := Scalar.muli c2_i32_20 v9
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let v40 : BitVec 32 := Scalar.addi v39 v10
  let c512_i32_1118 : BitVec 32 := 512#32
  let v1441 : BitVec 32 := Scalar.muli v40 c512_i32_1118
  let v1442 : BitVec 32 := Scalar.addi v1440 v1441
  let c256_i32_1119 : BitVec 32 := 256#32
  let v1443 : BitVec 32 := Scalar.addi v1442 c256_i32_1119
  let c88_i32_1120 : BitVec 32 := 88#32
  let v1444 : BitVec 32 := Scalar.addi v1443 c88_i32_1120
  let c0_i32_1121 : BitVec 32 := 0#32
  ![v1444.toNat, 0]
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  hamt_1 : (1#32 : BitVec 32).msb = false
  hamt_4 : (4#32 : BitVec 32).msb = false
  inb_S10x3_S1x1_0_0 : ∀ a, (![0, 0] : Fin 2 → Nat) a + S1x1.size a ≤ S10x3.size a
  squeezes_S1x1_S_ : S1x1.Squeezes S_
  inb_S10x3_S1x1_2_0 : ∀ a, (![2, 0] : Fin 2 → Nat) a + S1x1.size a ≤ S10x3.size a
  inb_S10x3_S1x1_1_0 : ∀ a, (![1, 0] : Fin 2 → Nat) a + S1x1.size a ≤ S10x3.size a
  inb_S10x3_S1x1_3_0 : ∀ a, (![3, 0] : Fin 2 → Nat) a + S1x1.size a ≤ S10x3.size a
  inb_S32_S1_31 : ∀ a, (![31] : Fin 1 → Nat) a + S1.size a ≤ S32.size a
  squeezes_S1_S_ : S1.Squeezes S_
  inb_S32_S1_0 : ∀ a, (![0] : Fin 1 → Nat) a + S1.size a ≤ S32.size a
  inb_S10x3_S1x1_0_1 : ∀ a, (![0, 1] : Fin 2 → Nat) a + S1x1.size a ≤ S10x3.size a
  inb_S10x3_S1x1_4_0 : ∀ a, (![4, 0] : Fin 2 → Nat) a + S1x1.size a ≤ S10x3.size a
  inb_S10x3_S1x1_6_0 : ∀ a, (![6, 0] : Fin 2 → Nat) a + S1x1.size a ≤ S10x3.size a
  inb_S32_S1_1 : ∀ a, (![1] : Fin 1 → Nat) a + S1.size a ≤ S32.size a
  inb_S10x3_S1x1_2_1 : ∀ a, (![2, 1] : Fin 2 → Nat) a + S1x1.size a ≤ S10x3.size a
  inb_S10x3_S1x1_5_0 : ∀ a, (![5, 0] : Fin 2 → Nat) a + S1x1.size a ≤ S10x3.size a
  inb_S10x3_S1x1_7_0 : ∀ a, (![7, 0] : Fin 2 → Nat) a + S1x1.size a ≤ S10x3.size a
  inb_S32_S1_2 : ∀ a, (![2] : Fin 1 → Nat) a + S1.size a ≤ S32.size a
  inb_S10x3_S1x1_1_1 : ∀ a, (![1, 1] : Fin 2 → Nat) a + S1x1.size a ≤ S10x3.size a
  inb_S32_S1_3 : ∀ a, (![3] : Fin 1 → Nat) a + S1.size a ≤ S32.size a
  inb_S10x3_S1x1_3_1 : ∀ a, (![3, 1] : Fin 2 → Nat) a + S1x1.size a ≤ S10x3.size a
  inb_S32_S1_4 : ∀ a, (![4] : Fin 1 → Nat) a + S1.size a ≤ S32.size a
  inb_S10x3_S1x1_9_0 : ∀ a, (![9, 0] : Fin 2 → Nat) a + S1x1.size a ≤ S10x3.size a
  inb_S32_S1_5 : ∀ a, (![5] : Fin 1 → Nat) a + S1.size a ≤ S32.size a
  inb_S10x3_S1x1_8_0 : ∀ a, (![8, 0] : Fin 2 → Nat) a + S1x1.size a ≤ S10x3.size a
  inb_S32_S1_6 : ∀ a, (![6] : Fin 1 → Nat) a + S1.size a ≤ S32.size a
  inb_S32_S1_7 : ∀ a, (![7] : Fin 1 → Nat) a + S1.size a ≤ S32.size a
  inb_S32_S1_8 : ∀ a, (![8] : Fin 1 → Nat) a + S1.size a ≤ S32.size a
  inb_S10x3_S1x1_0_2 : ∀ a, (![0, 2] : Fin 2 → Nat) a + S1x1.size a ≤ S10x3.size a
  inb_S10x3_S1x1_4_1 : ∀ a, (![4, 1] : Fin 2 → Nat) a + S1x1.size a ≤ S10x3.size a
  inb_S10x3_S1x1_6_1 : ∀ a, (![6, 1] : Fin 2 → Nat) a + S1x1.size a ≤ S10x3.size a
  inb_S32_S1_9 : ∀ a, (![9] : Fin 1 → Nat) a + S1.size a ≤ S32.size a
  inb_S10x3_S1x1_2_2 : ∀ a, (![2, 2] : Fin 2 → Nat) a + S1x1.size a ≤ S10x3.size a
  inb_S10x3_S1x1_5_1 : ∀ a, (![5, 1] : Fin 2 → Nat) a + S1x1.size a ≤ S10x3.size a
  inb_S10x3_S1x1_7_1 : ∀ a, (![7, 1] : Fin 2 → Nat) a + S1x1.size a ≤ S10x3.size a
  inb_S32_S1_10 : ∀ a, (![10] : Fin 1 → Nat) a + S1.size a ≤ S32.size a
  inb_S10x3_S1x1_1_2 : ∀ a, (![1, 2] : Fin 2 → Nat) a + S1x1.size a ≤ S10x3.size a
  inb_S32_S1_11 : ∀ a, (![11] : Fin 1 → Nat) a + S1.size a ≤ S32.size a
  inb_S10x3_S1x1_3_2 : ∀ a, (![3, 2] : Fin 2 → Nat) a + S1x1.size a ≤ S10x3.size a
  inb_S32_S1_12 : ∀ a, (![12] : Fin 1 → Nat) a + S1.size a ≤ S32.size a
  inb_S10x3_S1x1_9_1 : ∀ a, (![9, 1] : Fin 2 → Nat) a + S1x1.size a ≤ S10x3.size a
  inb_S32_S1_13 : ∀ a, (![13] : Fin 1 → Nat) a + S1.size a ≤ S32.size a
  inb_S10x3_S1x1_8_1 : ∀ a, (![8, 1] : Fin 2 → Nat) a + S1x1.size a ≤ S10x3.size a
  inb_S32_S1_14 : ∀ a, (![14] : Fin 1 → Nat) a + S1.size a ≤ S32.size a
  inb_S32_S1_15 : ∀ a, (![15] : Fin 1 → Nat) a + S1.size a ≤ S32.size a
  inb_S32_S1_16 : ∀ a, (![16] : Fin 1 → Nat) a + S1.size a ≤ S32.size a
  inb_S10x3_S1x1_4_2 : ∀ a, (![4, 2] : Fin 2 → Nat) a + S1x1.size a ≤ S10x3.size a
  inb_S10x3_S1x1_6_2 : ∀ a, (![6, 2] : Fin 2 → Nat) a + S1x1.size a ≤ S10x3.size a
  inb_S32_S1_17 : ∀ a, (![17] : Fin 1 → Nat) a + S1.size a ≤ S32.size a
  inb_S10x3_S1x1_5_2 : ∀ a, (![5, 2] : Fin 2 → Nat) a + S1x1.size a ≤ S10x3.size a
  inb_S10x3_S1x1_7_2 : ∀ a, (![7, 2] : Fin 2 → Nat) a + S1x1.size a ≤ S10x3.size a
  inb_S32_S1_18 : ∀ a, (![18] : Fin 1 → Nat) a + S1.size a ≤ S32.size a
  inb_S32_S1_19 : ∀ a, (![19] : Fin 1 → Nat) a + S1.size a ≤ S32.size a
  inb_S32_S1_20 : ∀ a, (![20] : Fin 1 → Nat) a + S1.size a ≤ S32.size a
  inb_S10x3_S1x1_9_2 : ∀ a, (![9, 2] : Fin 2 → Nat) a + S1x1.size a ≤ S10x3.size a
  inb_S32_S1_21 : ∀ a, (![21] : Fin 1 → Nat) a + S1.size a ≤ S32.size a
  inb_S10x3_S1x1_8_2 : ∀ a, (![8, 2] : Fin 2 → Nat) a + S1x1.size a ≤ S10x3.size a
  inb_S32_S1_22 : ∀ a, (![22] : Fin 1 → Nat) a + S1.size a ≤ S32.size a
  inb_S32_S1_23 : ∀ a, (![23] : Fin 1 → Nat) a + S1.size a ≤ S32.size a
  inb_S32_S1_24 : ∀ a, (![24] : Fin 1 → Nat) a + S1.size a ≤ S32.size a
  inb_S32_S1_25 : ∀ a, (![25] : Fin 1 → Nat) a + S1.size a ≤ S32.size a
  inb_S32_S1_26 : ∀ a, (![26] : Fin 1 → Nat) a + S1.size a ≤ S32.size a
  inb_S32_S1_27 : ∀ a, (![27] : Fin 1 → Nat) a + S1.size a ≤ S32.size a
  inb_S32_S1_28 : ∀ a, (![28] : Fin 1 → Nat) a + S1.size a ≤ S32.size a
  inb_S32_S1_29 : ∀ a, (![29] : Fin 1 → Nat) a + S1.size a ≤ S32.size a
  hcc0_scratch1 : 1 + S10x3.numel ≤ 93
  hcc0_scratch2 : 31 + S10x3.numel ≤ 93
  hcc0_scratch3 : 61 + S32.numel ≤ 93
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_off1_inb : ∀ d0 : Dev nD, ∀ (r : Fin 6), ∀ a, (k0_off1 d0 (k0_off1_at r).1 (k0_off1_at r).2) a + S256x512.size a ≤ S8192x512.size a
  k0_off2_inb : ∀ d0 : Dev nD, ∀ (r : Fin 2), ∀ a, (k0_off2 d0 (BitVec.ofNat 32 (256 * r.val))) a + S256x512.size a ≤ S2048x512.size a
  k0_dev5_lt : ∀ d0 : Dev nD, (k0_dev5 d0) < nD
  k0_dev6_lt : ∀ d0 : Dev nD, (k0_dev6 d0) < nD
  k0_off3_inb : ∀ d0 : Dev nD, ∀ (r : Fin 6), ∀ a, (k0_off3 d0 (k0_off3_at r).1 (k0_off3_at r).2) a + S88x512.size a ≤ S8192x512.size a
  k0_off4_inb : ∀ d0 : Dev nD, ∀ (r : Fin 2), ∀ a, (k0_off4 d0 (BitVec.ofNat 32 (256 * r.val))) a + S88x512.size a ≤ S2048x512.size a
  k0_dev7_lt : ∀ d0 : Dev nD, (k0_dev7 d0) < nD
  k0_dev8_lt : ∀ d0 : Dev nD, (k0_dev8 d0) < nD
  k0_off5_inb : ∀ d0 : Dev nD, ∀ a, (k0_off5 d0) a + S2048x512.size a ≤ S8192x512.size a
  k0_off6_inb : ∀ d0 : Dev nD, ∀ (r : Fin 3), ∀ a, (k0_off6 d0 (BitVec.ofNat 32 r.val)) a + S256x512.size a ≤ S8192x512.size a
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_off7_inb : ∀ d0 : Dev nD, ∀ (r : Fin 3), ∀ a, (k0_off7 d0 (BitVec.ofNat 32 r.val)) a + S256x512.size a ≤ S8192x512.size a
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_off8_inb : ∀ d0 : Dev nD, ∀ (r : Fin 3), ∀ a, (k0_off8 d0 (BitVec.ofNat 32 r.val)) a + S88x512.size a ≤ S8192x512.size a
  k0_dev15_lt : ∀ d0 : Dev nD, (k0_dev15 d0) < nD
  k0_off9_inb : ∀ d0 : Dev nD, ∀ (r : Fin 3), ∀ a, (k0_off9 d0 (BitVec.ofNat 32 r.val)) a + S88x512.size a ≤ S8192x512.size a
  k0_dev16_lt : ∀ d0 : Dev nD, (k0_dev16 d0) < nD
  k0_off10_inb : ∀ d0 : Dev nD, ∀ (r : Fin 3), ∀ a, (k0_off10 d0 (BitVec.ofNat 32 r.val)) a + S256x512.size a ≤ S8192x512.size a
  k0_off11_inb : ∀ d0 : Dev nD, ∀ (r : Fin 3), ∀ a, (k0_off11 d0 (BitVec.ofNat 32 r.val)) a + S168x512.size a ≤ S8192x512.size a
  k0_dev17_lt : ∀ d0 : Dev nD, (k0_dev17 d0) < nD
  k0_off12_inb : ∀ d0 : Dev nD, ∀ (r : Fin 3), ∀ a, (k0_off12 d0 (BitVec.ofNat 32 r.val)) a + S256x512.size a ≤ S8192x512.size a
  k0_off13_inb : ∀ d0 : Dev nD, ∀ (r : Fin 3), ∀ a, (k0_off13 d0 (BitVec.ofNat 32 r.val)) a + S168x512.size a ≤ S8192x512.size a
  k0_dev18_lt : ∀ d0 : Dev nD, (k0_dev18 d0) < nD
  k0_off14_inb : ∀ d0 : Dev nD, ∀ (r : Fin 3), ∀ a, (k0_off14 d0 (BitVec.ofNat 32 r.val)) a + S256x512.size a ≤ S8192x512.size a
  k0_off15_inb : ∀ d0 : Dev nD, ∀ (r : Fin 3), ∀ a, (k0_off15 d0 (BitVec.ofNat 32 r.val)) a + S256x512.size a ≤ S8192x512.size a
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_off16_inb : ∀ d0 : Dev nD, ∀ (r : Fin 3), ∀ a, (k0_off16 d0 (BitVec.ofNat 32 r.val)) a + S168x512.size a ≤ S8192x512.size a
  k0_off17_inb : ∀ d0 : Dev nD, ∀ (r : Fin 3), ∀ a, (k0_off17 d0 (BitVec.ofNat 32 r.val)) a + S168x512.size a ≤ S8192x512.size a
  hstage0_0 : ∀ j, (stage0_0 j).IsWhole

variable [Facts₀]

abbrev cc0_scratch1 : DmaSems sig S10x3 := SemArray.consecutive 1 S10x3 hcc0_scratch1
abbrev cc0_scratch2 : DmaSems sig S10x3 := SemArray.consecutive 31 S10x3 hcc0_scratch2
abbrev cc0_scratch3 : DmaSems sig S32 := SemArray.consecutive 61 S32 hcc0_scratch3

abbrev win0_0 : Pipeline.Window sig grid0 :=
  Pipeline.Window.whole (Memref.whole main_arg0) false false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S8192x512 : Shape := ⟨2, ![8192, 512]⟩

abbrev nBuf : Space → Nat
  | .hbm => 1
  | .vmem => 0
  | .smem => 0
  | _ => 0

abbrev bufTy : (tb : Table) → Fin (tcTables nBuf tb) → BufTy
  | .hbm, ⟨0, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]

class Facts₀ : Prop where

variable [Facts₀]

class Facts : Prop extends Facts₀ where

variable [Facts]
-- ==== Proof.Mesh.lean ====
/-
  The mesh of sixteen devices and the cells of one device.

  A device's logical id is 8 x + 4 y + z with x, y in {0, 1} and z in {0, 1, 2, 3}.  Every device talks to four
  peers: its two neighbours on the ring of the z axis, the device with the other x, and the device with the other y.
  Each of the four maps is a permutation of the devices.

  A device has ninety-three cells: the barrier semaphore (index 0) and the ninety-two DMA semaphores of its three
  scratch arrays (indices 1 to 92): thirty for departures (1 + 3 f + h), thirty for arrivals (31 + 3 f + h), and
  thirty-two for the local copies into the result (61 + i), for flow f < 10 and hop h < 3.
-/
import proofs.«900685_g7700000000000686_dist_ag_v7x_xyz2x2x4_z_m2048_n512_f32_1_alg».proof.Proof.Gen.KernelIdeal
import proofs.«900685_g7700000000000686_dist_ag_v7x_xyz2x2x4_z_m2048_n512_f32_1_alg».proof.Proof.Gen.KernelIdeal.Skeleton
import proofs.«900685_g7700000000000686_dist_ag_v7x_xyz2x2x4_z_m2048_n512_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The four peers -/

/-- The device whose z coordinate is `k` further round the ring, the other coordinates kept. -/
def zsh (k : ℕ) (c : Dev nD) : Dev nD := ⟨(c.val / 4 * 4 + (c.val % 4 + k) % 4) % 16, Nat.mod_lt _ (by decide)⟩
/-- The device with the other x coordinate. -/
def ox (c : Dev nD) : Dev nD := ⟨(c.val + 8) % 16, Nat.mod_lt _ (by decide)⟩
/-- The device with the other y coordinate. -/
def oy (c : Dev nD) : Dev nD := ⟨(c.val / 8 * 8 + (c.val % 8 + 4) % 8) % 16, Nat.mod_lt _ (by decide)⟩

/-- Peer 0 is the ring neighbour below, peer 1 the ring neighbour above, peer 2 the other x, peer 3 the other y. -/
def peer (k : Fin 4) (c : Dev nD) : Dev nD :=
  match k with
  | 0 => zsh 3 c
  | 1 => zsh 1 c
  | 2 => ox c
  | 3 => oy c

/-- The peer index under which a device is seen by its peer `k`. -/
def pinv (k : Fin 4) : Fin 4 :=
  match k with
  | 0 => 1
  | 1 => 0
  | 2 => 2
  | 3 => 3

theorem peer_pinv (k : Fin 4) (c : Dev nD) : peer k (peer (pinv k) c) = c := by revert k c; decide
theorem pinv_peer (k : Fin 4) (c : Dev nD) : peer (pinv k) (peer k c) = c := by revert k c; decide
theorem pinv_pinv (k : Fin 4) : pinv (pinv k) = k := by revert k; decide
theorem peer_ne (k : Fin 4) (c : Dev nD) : peer k c ≠ c := by revert k c; decide
theorem peer_inj_idx (k k' : Fin 4) (c : Dev nD) (h : peer k c = peer k' c) : k = k' := by revert k k' c; decide

/-- Peer `k` as a permutation of the devices. -/
def peerEquiv (k : Fin 4) : Dev nD ≃ Dev nD := ⟨peer k, peer (pinv k), pinv_peer k, peer_pinv k⟩

/-! ## Cells -/

/-- The semaphore of cell `j`: the barrier semaphore for `j = 0`, DMA semaphore `j` otherwise. -/
def csem (j : Fin 93) : SemLoc sig := if j.val = 0 then .reg barrier0 else .dma ⟨j.val, j.isLt⟩

theorem csem_zero : csem 0 = .reg barrier0 := rfl
theorem csem_pos {j : Fin 93} (h : j.val ≠ 0) : csem j = .dma ⟨j.val, j.isLt⟩ := if_neg h

theorem csem_inj : Function.Injective csem := by
  intro a b h
  unfold csem at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h
    exact Fin.ext (Fin.mk.inj (SemLoc.dma.inj h))

/-- Cell `j` of device `c`. -/
abbrev cell (c : Dev nD) (j : Fin 93) : GSem nD τ sig := ((c : Thread nD τ), csem j)

theorem cell_inj {c c' : Dev nD} {j j' : Fin 93} (h : cell c j = cell c' j') : c = c' ∧ j = j' := by
  have h1 : c = c' := by have := congrArg (fun g : GSem nD τ sig => g.1.1) h; exact this
  exact ⟨h1, csem_inj (congrArg Prod.snd h)⟩

/-- The departure cell of flow `f`, hop `h`. -/
def sndJ (f : Fin 10) (h : Fin 3) : Fin 93 := ⟨1 + 3 * f.val + h.val, by omega⟩
/-- The arrival cell of flow `f`, hop `h`. -/
def rcvJ (f : Fin 10) (h : Fin 3) : Fin 93 := ⟨31 + 3 * f.val + h.val, by omega⟩
/-- The cell of local copy `i`. -/
def cpJ (i : Fin 32) : Fin 93 := ⟨61 + i.val, by omega⟩

/-- The peer a flow's transfers are addressed to: flows 0 and 1 go up the ring, 2 and 3 down, 4, 5 and 9 to the
    other x, 6, 7 and 8 to the other y. -/
def tgt (f : Fin 10) : Fin 4 :=
  match f with
  | 0 => 1 | 1 => 1 | 2 => 0 | 3 => 0 | 4 => 2 | 5 => 2 | 6 => 3 | 7 => 3 | 8 => 3 | 9 => 2

/-- How many rows of 512 words a flow's pieces have. -/
def flowRows (f : Fin 10) : ℕ :=
  match f with
  | 0 => 256 | 1 => 88 | 2 => 256 | 3 => 88 | 4 => 256 | 5 => 256 | 6 => 256 | 7 => 256 | 8 => 168 | 9 => 168

/-! ## Row bands of the 8192 × 512 buffers (the scratch array and the result have this shape) -/

/-- The indices of rows `a ≤ r < a + n`. -/
def Rows (a n : ℕ) : Finset S8192x512.Idx := Finset.univ.filter fun i => a ≤ (i 0).val ∧ (i 0).val < a + n

theorem mem_Rows {a n : ℕ} {i : S8192x512.Idx} : i ∈ Rows a n ↔ a ≤ (i 0).val ∧ (i 0).val < a + n := by
  unfold Rows; rw [Finset.mem_filter]; exact ⟨fun h => h.2, fun h => ⟨Finset.mem_univ _, h⟩⟩

/-- The indices of rows `a ≤ r < a + n` of a 2048 × 512 block. -/
def BRows (a n : ℕ) : Finset S2048x512.Idx := Finset.univ.filter fun i => a ≤ (i 0).val ∧ (i 0).val < a + n

theorem mem_BRows {a n : ℕ} {i : S2048x512.Idx} : i ∈ BRows a n ↔ a ≤ (i 0).val ∧ (i 0).val < a + n := by
  unfold BRows; rw [Finset.mem_filter]; exact ⟨fun h => h.2, fun h => ⟨Finset.mem_univ _, h⟩⟩

end Cert.KernelIdeal.AG

end
-- ==== Proof.Bands.lean ====
/-
  Rows of the 8192-row buffers, named by block, quarter and start.

  The gathered array is four blocks of 2048 rows, one per z coordinate; a block is four quarters of 512 rows, one per
  (x, y) pair; a quarter is two halves of 256 rows.  Device c = 8 x + 4 y + z owns quarter 2 x + y = c / 4 of every
  block that passes through it.  At hop h the block z - 1 - h arrives from below and the block z + 1 + h from above
  (indices mod 4).
-/
import proofs.«900685_g7700000000000686_dist_ag_v7x_xyz2x2x4_z_m2048_n512_f32_1_alg».proof.Proof.Mesh

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block that arrives from below at hop `h`. -/
def zA (h : ℕ) (c : Dev nD) : ℕ := (c.val % 4 + 3 - h) % 4
/-- The block that arrives from above at hop `h`. -/
def zB (h : ℕ) (c : Dev nD) : ℕ := (c.val % 4 + 1 + h) % 4
/-- The device's own quarter. -/
def qq (c : Dev nD) : ℕ := c.val / 4
/-- The quarter of the device with the other x. -/
def qx (c : Dev nD) : ℕ := (c.val / 4 + 2) % 4
/-- The quarter of the device with the other y. -/
def qy (c : Dev nD) : ℕ := c.val / 8 * 2 + (c.val / 4 + 1) % 2
/-- The quarter of the device with the other x and the other y. -/
def qd (c : Dev nD) : ℕ := 3 - c.val / 4
/-- The first row of the band of block `zb`, quarter `k`, start `s`. -/
def band (zb k s : ℕ) : ℕ := 2048 * zb + 512 * k + s

theorem zA_lt (h : ℕ) (c : Dev nD) : zA h c < 4 := Nat.mod_lt _ (by decide)
theorem zB_lt (h : ℕ) (c : Dev nD) : zB h c < 4 := Nat.mod_lt _ (by decide)
theorem qq_lt (c : Dev nD) : qq c < 4 := by revert c; decide
theorem qx_lt (c : Dev nD) : qx c < 4 := Nat.mod_lt _ (by decide)
theorem qy_lt (c : Dev nD) : qy c < 4 := by revert c; decide
theorem qd_lt (c : Dev nD) : qd c < 4 := by revert c; decide

/-- The first row of the piece of flow `f` that lands on device `c` at hop `h`. -/
def lo (f : Fin 10) (h : ℕ) (c : Dev nD) : ℕ :=
  match f with
  | 0 => band (zA h c) (qq c) 0
  | 1 => band (zA h c) (qd c) 0
  | 2 => band (zB h c) (qq c) 256
  | 3 => band (zB h c) (qd c) 256
  | 4 => band (zA h c) (qx c) 0
  | 5 => band (zB h c) (qx c) 256
  | 6 => band (zA h c) (qy c) 0
  | 7 => band (zB h c) (qy c) 256
  | 8 => band (zB h c) (qd c) 344
  | 9 => band (zA h c) (qd c) 88

theorem lo_add_le (f : Fin 10) (h : Fin 3) (c : Dev nD) : lo f h.val c + flowRows f ≤ 8192 := by
  revert f h c; decide

end Cert.KernelIdeal.AG

end
-- ==== Proof.Sched.lean ====
/-
  What each cell of a device is paid, and with what.

  Contents.  Every piece that travels is a band of rows of some device's own block of the argument; the piece of
  flow f that lands on device c at hop h was read from the block of device `org f h c`.  A band of the scratch array
  or of the result that holds rows of device d's block holds `Gd d` there: row r of the band is row r mod 2048 of
  d's block.

  The schedule has one round.  The barrier cell has four duties, one per peer: peer k's signal hands over the bands
  of peer k's scratch array into which this device will write.  An arrival cell has one duty, paid by the transfer
  landing: the band it wrote, at the sender's contents.  A departure cell has one duty, paid when the source has
  been read: the share of the source band lent to the transfer.  A copy cell has one duty: the band of the result
  written, and the share of the source band lent to the copy.
-/
import proofs.«900685_g7700000000000686_dist_ag_v7x_xyz2x2x4_z_m2048_n512_f32_1_alg».proof.Proof.Bands
import Idealize.ShloMosaic.Lib.ValueIdx

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the argument, as its staging buffer holds it. -/
def xstg (c : Dev nD) : (cc0_stg0_0 : Ref sig .tc).ty.Contents (Elt F) :=
  (win0_0.blk (0 : Fin 1)).view.read (Elt F) (m ((c : Thread nD τ).loc main_arg0))

/-- Row r of an 8192-row buffer, as row r mod 2048 of a block. -/
def rowmod (i : S8192x512.Idx) : S2048x512.Idx :=
  ValueIdx.ix2 (⟨(i 0).val % 2048, Nat.mod_lt _ (by decide)⟩ : Fin 2048) (⟨(i 1).val, (i 1).isLt⟩ : Fin 512)

/-- An 8192-row buffer every block of which is device `d`'s block. -/
def Gd (d : Dev nD) : (cc0_scratch0 : Ref sig .tc).ty.Contents (Elt F) := fun i => xstg m d (rowmod i)

/-- The device whose block the piece of flow `f` landing on `c` at hop `h` is a band of. -/
def org (f : Fin 10) (h : ℕ) (c : Dev nD) : Dev nD :=
  match f with
  | 0 => zsh (3 - h) c
  | 1 => zsh (3 - h) c
  | 2 => zsh (1 + h) c
  | 3 => zsh (1 + h) c
  | 4 => ox (zsh (3 - h) c)
  | 5 => ox (zsh (1 + h) c)
  | 6 => oy (zsh (3 - h) c)
  | 7 => oy (zsh (1 + h) c)
  | 8 => ox (oy (zsh (1 + h) c))
  | 9 => ox (oy (zsh (3 - h) c))

/-! ## Bands held -/

/-- Rows `a ≤ r < a + n` of device `c`'s scratch array at share `q`, holding `X` there. -/
def sPts (c : Dev nD) (a n : ℕ) (q : PosShare TreeShare) (X : (cc0_scratch0 : Ref sig .tc).ty.Contents (Elt F)) : sProp 𝕄 :=
  ((c : Thread nD τ).loc cc0_scratch0) ↦[Rows a n]{q} X
/-- The same of device `c`'s result array. -/
def oPts (c : Dev nD) (a n : ℕ) (q : PosShare TreeShare) (X : (main_v1 : Ref sig .tc).ty.Contents (Elt F)) : sProp 𝕄 :=
  ((c : Thread nD τ).loc main_v1) ↦[Rows a n]{q} X
/-- Rows `a ≤ r < a + n` of device `c`'s staged block at share `q`, holding its block. -/
def xPts (c : Dev nD) (a n : ℕ) (q : PosShare TreeShare) : sProp 𝕄 :=
  ((c : Thread nD τ).loc cc0_stg0_0) ↦[BRows a n]{q} xstg m c

omit [FloatOps F] in
instance sPts_storable (c a n q X) : BI.Storable (upEmb : UEmb _ 𝕄) (sPts (F := F) c a n q X) := by unfold sPts; infer_instance
omit [FloatOps F] in
instance oPts_storable (c a n q X) : BI.Storable (upEmb : UEmb _ 𝕄) (oPts (F := F) c a n q X) := by unfold oPts; infer_instance
omit [FloatOps F] in
instance xPts_storable (c a n q) : BI.Storable (upEmb : UEmb _ 𝕄) (xPts (F := F) m c a n q) := by unfold xPts; infer_instance

/-! ## The kinds of cell -/

inductive CK where
  | bar
  | snd (f : Fin 10) (h : Fin 3)
  | rcv (f : Fin 10) (h : Fin 3)
  | cp (i : Fin 32)
  deriving DecidableEq

/-- What cell `j` is. -/
def kind (j : Fin 93) : CK :=
  if j.val = 0 then .bar
  else if h1 : j.val < 31 then .snd ⟨(j.val - 1) / 3, by omega⟩ ⟨(j.val - 1) % 3, Nat.mod_lt _ (by decide)⟩
  else if h2 : j.val < 61 then .rcv ⟨(j.val - 31) / 3, by omega⟩ ⟨(j.val - 31) % 3, Nat.mod_lt _ (by decide)⟩
  else .cp ⟨j.val - 61, by omega⟩

theorem kind_zero : kind 0 = .bar := rfl
theorem kind_sndJ (f : Fin 10) (h : Fin 3) : kind (sndJ f h) = .snd f h := by revert f h; decide
theorem kind_rcvJ (f : Fin 10) (h : Fin 3) : kind (rcvJ f h) = .rcv f h := by revert f h; decide
theorem kind_cpJ (i : Fin 32) : kind (cpJ i) = .cp i := by revert i; decide

/-- The cell index of a semaphore, if it is one of the ninety-three. -/
def jOf (s : SemLoc sig) : Option (Fin 93) :=
  match s with
  | .reg _ => some 0
  | .dma d => if d.val = 0 then none else some ⟨d.val, d.isLt⟩

theorem jOf_csem (j : Fin 93) : jOf (csem j) = some j := by
  unfold csem
  by_cases h : j.val = 0
  · rw [if_pos h]; exact congrArg some (Fin.ext h.symm)
  · rw [if_neg h]; show (if j.val = 0 then none else some _) = _; rw [if_neg h]

/-! ## The flows' sources -/

/-- The flow and hop whose landed piece a stage-to-stage transfer of flow `f`, hop `h` reads (for the ring flows at
    hop `h ≥ 1` the previous hop's piece; for the side flows the ring piece of the same hop; for the relays the side
    piece of the same hop), and how far into it the source band starts. -/
def srcOf (f : Fin 10) (h : Fin 3) : Fin 10 × ℕ × ℕ :=
  match f with
  | 0 => (0, h.val - 1, 0)
  | 1 => (1, h.val - 1, 0)
  | 2 => (2, h.val - 1, 0)
  | 3 => (3, h.val - 1, 0)
  | 4 => (0, h.val, 0)
  | 5 => (2, h.val, 0)
  | 6 => (0, h.val, 0)
  | 7 => (2, h.val, 0)
  | 8 => (5, h.val, 88)
  | 9 => (6, h.val, 88)

/-- The share of its source band a transfer of flow `f` is lent. -/
def sShare (f : Fin 10) : PosShare TreeShare :=
  match f with
  | 0 => fullShare.right.left
  | 1 => fullShare.right
  | 2 => fullShare.right.left
  | 3 => fullShare.right
  | 4 => fullShare.right.right.left
  | 5 => fullShare.right.right.left
  | 6 => fullShare.right.right.right
  | 7 => fullShare.right.right.right
  | 8 => fullShare.right
  | 9 => fullShare.right

/-- Where in its own block a ring flow's first piece starts: the own quarter or the diagonal one, first or second half. -/
def blkLo (f : Fin 10) (c : Dev nD) : ℕ :=
  match f with
  | 0 => 512 * qq c
  | 1 => 512 * qd c
  | 2 => 512 * qq c + 256
  | 3 => 512 * qd c + 256
  | _ => 0

/-- The share of its staged block a ring flow's first transfer is lent: the four first transfers and the copy of the
    own block read the block at once, each under a share of its own. -/
def r0Share (f : Fin 10) : PosShare TreeShare :=
  match f with
  | 0 => fullShare.right.left
  | 2 => fullShare.right.right.left
  | 1 => fullShare.right.right.right.left
  | _ => fullShare.right.right.right.right

/-- What a departure cell's duty hands back: the share of the source band lent. -/
def sendPay (c : Dev nD) (f : Fin 10) (h : Fin 3) : sProp 𝕄 :=
  if f.val < 4 ∧ h.val = 0 then xPts m c (blkLo f c) (flowRows f) (r0Share f)
  else sPts c (lo (srcOf f h).1 (srcOf f h).2.1 c + (srcOf f h).2.2) (flowRows f) (sShare f) (Gd m (org (srcOf f h).1 (srcOf f h).2.1 c))

/-- What an arrival cell's duty hands over: the band written, at the contents it was read from. -/
def recvPay (c : Dev nD) (f : Fin 10) (h : Fin 3) : sProp 𝕄 :=
  sPts c (lo f h.val c) (flowRows f) fullShare (Gd m (org f h.val c))

/-- The flow and hop whose landed piece local copy `i` puts into the result (`i < 30`). -/
def cpSrc (i : Fin 32) : Fin 10 × ℕ :=
  if i.val < 24 then
    (match i.val % 8 with | 0 => 0 | 1 => 2 | 2 => 1 | 3 => 3 | 4 => 6 | 5 => 5 | 6 => 4 | _ => 7, i.val / 8)
  else ((if i.val % 2 = 0 then 9 else 8), (i.val - 24) / 2)

/-- The share of the landed piece a local copy is lent: all of it where nothing else reads the piece. -/
def cpShare (f : Fin 10) : PosShare TreeShare :=
  match f with
  | 4 => fullShare | 7 => fullShare | 8 => fullShare | 9 => fullShare
  | _ => fullShare.left

/-- What a copy cell's duty hands over: the band of the result written, and the share of the source lent. -/
def cpPay (c : Dev nD) (i : Fin 32) : sProp 𝕄 :=
  if i.val = 31 then iprop(oPts c (2048 * (c.val % 4)) 2048 fullShare (Gd m c) ∗ xPts m c 0 2048 fullShare.left)
  else iprop(oPts c (lo (cpSrc i).1 (cpSrc i).2 c) (flowRows (cpSrc i).1) fullShare (Gd m (org (cpSrc i).1 (cpSrc i).2 c))
    ∗ sPts c (lo (cpSrc i).1 (cpSrc i).2 c) (flowRows (cpSrc i).1) (cpShare (cpSrc i).1) (Gd m (org (cpSrc i).1 (cpSrc i).2 c)))

/-- The pieces that land on a device from its peer `k`... equivalently the pieces a device sends to its peer `k`. -/
def landL (k : Fin 4) : List (Fin 10 × Fin 3) :=
  match k with
  | 0 => [(2, 0), (2, 1), (2, 2), (3, 0), (3, 1), (3, 2)]
  | 1 => [(0, 0), (0, 1), (0, 2), (1, 0), (1, 1), (1, 2)]
  | 2 => [(4, 0), (4, 1), (4, 2), (5, 0), (5, 1), (5, 2), (9, 0), (9, 1), (9, 2)]
  | 3 => [(6, 0), (6, 1), (6, 2), (7, 0), (7, 1), (7, 2), (8, 0), (8, 1), (8, 2)]

/-- The band of device `p`'s scratch array a piece will land in, at whatever it holds. -/
def landPay (p : Dev nD) (fh : Fin 10 × Fin 3) : sProp 𝕄 :=
  iprop(∃ X, sPts p (lo fh.1 fh.2.val p) (flowRows fh.1) fullShare X)

/-- What peer `k`'s barrier signal hands device `c`: the bands of peer `k`'s scratch array `c` will write. -/
def barPay (c : Dev nD) (k : Fin 4) : sProp 𝕄 := bigSepL (landL k) (fun fh => landPay (peer k c) fh)

/-! ## Amounts -/

/-- The credit of a transfer into `n` rows of the scratch array. -/
def credS (n : ℕ) : ℕ := sig.dmaCredit .tc (Kind.table .tc .vmem) (View.whole cc0_scratch0).buf ⟨2, ![n, 512]⟩ .f32
/-- The credit of a transfer into `n` rows of the result. -/
def credO (n : ℕ) : ℕ := sig.dmaCredit .tc (Kind.table .tc .hbm) (View.whole main_v1).buf ⟨2, ![n, 512]⟩ .f32

def amtK (k : CK) : ℕ :=
  match k with
  | .bar => 1
  | .snd f _ => credS (flowRows f)
  | .rcv f _ => credS (flowRows f)
  | .cp i => if i.val = 31 then credO 2048 else credO (flowRows (cpSrc i).1)

def dutiesK (k : CK) : Finset (Fin 4) :=
  match k with
  | .bar => Finset.univ
  | .cp i => if i.val = 30 then ∅ else {0}
  | _ => {0}

def payK (c : Dev nD) (k : CK) (d : Fin 4) : sProp 𝕄 :=
  match k with
  | .bar => barPay c d
  | .snd f h => sendPay m c f h
  | .rcv f h => recvPay m c f h
  | .cp i => cpPay m c i

/-- One round: cell `j` of a TensorCore has the duties of its kind. -/
def Rd : Rounds.Schedule (GSem nD τ sig) (Fin 4) 𝕄 where
  duties g r := if r = 0 ∧ g.1.2 = .tc then (match jOf g.2 with | some j => dutiesK (kind j) | none => ∅) else ∅
  unitless _ := False
  amount g _ _ := match jOf g.2 with | some j => amtK (kind j) | none => 1
  payload g _ d := match jOf g.2 with | some j => payK m g.1.1 (kind j) d | none => iprop(emp)
  amount_pos g _ _ _ := by
    cases hj : jOf g.2 with
    | none => exact Nat.one_pos
    | some j =>
      show 0 < amtK (kind j)
      cases kind j with
      | bar => exact Nat.one_pos
      | snd f h => exact sig.dmaCredit_pos _ _ _ _ _ (by revert f; decide)
      | rcv f h => exact sig.dmaCredit_pos _ _ _ _ _ (by revert f; decide)
      | cp i =>
        show 0 < (if i.val = 31 then credO 2048 else credO (flowRows (cpSrc i).1))
        split
        · exact sig.dmaCredit_pos _ _ _ _ _ (by decide)
        · exact sig.dmaCredit_pos _ _ _ _ _ (by revert i; decide)

end Cert.KernelIdeal.AG

end
-- ==== Proof.Tables.lean ====
/-
  The schedule's tables, cell by cell.

  Each cell of a device has the duties, the amounts and the payloads of its kind in the one round of the schedule,
  and no duties in any later round.  The lemmas here read the tables off: the table entry stands on the left.
-/
import proofs.«900685_g7700000000000686_dist_ag_v7x_xyz2x2x4_z_m2048_n512_f32_1_alg».proof.Proof.Sched

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables by kind -/

theorem duties_cell (c : Dev nD) (j : Fin 93) : (Rd (F := F) m).duties (cell c j) 0 = dutiesK (kind j) := by
  dsimp only [Rd]
  rw [if_pos ⟨rfl, rfl⟩, jOf_csem]

theorem duties_later (g : GSem nD τ sig) : ∀ r, 1 ≤ r → (Rd (F := F) m).duties g r = ∅ :=
  fun r hr => by dsimp only [Rd]; rw [if_neg fun h => by omega]

theorem amount_cell (c : Dev nD) (j : Fin 93) (d : Fin 4) : (Rd (F := F) m).amount (cell c j) 0 d = amtK (kind j) := by
  dsimp only [Rd]
  rw [jOf_csem]

theorem payload_cell (c : Dev nD) (j : Fin 93) (d : Fin 4) :
    (Rd (F := F) m).payload (cell c j) 0 d = payK m c (kind j) d := by
  dsimp only [Rd]
  rw [jOf_csem]

/-! ## Duties -/

theorem duties_bar (c : Dev nD) : (Rd (F := F) m).duties (cell c 0) 0 = Finset.univ := by
  rw [duties_cell, kind_zero]; rfl
theorem duties_snd (c : Dev nD) (f : Fin 10) (h : Fin 3) : (Rd (F := F) m).duties (cell c (sndJ f h)) 0 = {0} := by
  rw [duties_cell, kind_sndJ]; rfl
theorem duties_rcv (c : Dev nD) (f : Fin 10) (h : Fin 3) : (Rd (F := F) m).duties (cell c (rcvJ f h)) 0 = {0} := by
  rw [duties_cell, kind_rcvJ]; rfl
theorem duties_cp (c : Dev nD) (i : Fin 32) (hi : i.val ≠ 30) : (Rd (F := F) m).duties (cell c (cpJ i)) 0 = {0} := by
  rw [duties_cell, kind_cpJ]; exact if_neg hi
theorem duties_cp30 (c : Dev nD) : (Rd (F := F) m).duties (cell c (cpJ 30)) 0 = ∅ := by
  rw [duties_cell, kind_cpJ]; rfl

/-! ## Amounts -/

theorem amount_bar (c : Dev nD) (d : Fin 4) : (Rd (F := F) m).amount (cell c 0) 0 d = 1 := by
  rw [amount_cell, kind_zero]; rfl
theorem amount_snd (c : Dev nD) (f : Fin 10) (h : Fin 3) (d : Fin 4) :
    (Rd (F := F) m).amount (cell c (sndJ f h)) 0 d = credS (flowRows f) := by
  rw [amount_cell, kind_sndJ]; rfl
theorem amount_rcv (c : Dev nD) (f : Fin 10) (h : Fin 3) (d : Fin 4) :
    (Rd (F := F) m).amount (cell c (rcvJ f h)) 0 d = credS (flowRows f) := by
  rw [amount_cell, kind_rcvJ]; rfl
theorem amount_cp (c : Dev nD) (i : Fin 32) (d : Fin 4) :
    (Rd (F := F) m).amount (cell c (cpJ i)) 0 d = (if i.val = 31 then credO 2048 else credO (flowRows (cpSrc i).1)) := by
  rw [amount_cell, kind_cpJ]; rfl

/-! ## What a cell expects in its round -/

theorem expect_bar (c : Dev nD) : (Rd (F := F) m).expect (cell c 0) 0 = 4 := by
  unfold Schedule.expect Schedule.amountOf
  rw [duties_bar, Finset.sum_congr rfl fun d _ => amount_bar m c d, Finset.sum_const, Finset.card_univ, Fintype.card_fin, smul_eq_mul]
theorem expect_snd (c : Dev nD) (f : Fin 10) (h : Fin 3) : (Rd (F := F) m).expect (cell c (sndJ f h)) 0 = credS (flowRows f) := by
  unfold Schedule.expect Schedule.amountOf; rw [duties_snd, Finset.sum_singleton, amount_snd]
theorem expect_rcv (c : Dev nD) (f : Fin 10) (h : Fin 3) : (Rd (F := F) m).expect (cell c (rcvJ f h)) 0 = credS (flowRows f) := by
  unfold Schedule.expect Schedule.amountOf; rw [duties_rcv, Finset.sum_singleton, amount_rcv]
theorem expect_cp (c : Dev nD) (i : Fin 32) (hi : i.val ≠ 30) :
    (Rd (F := F) m).expect (cell c (cpJ i)) 0 = (if i.val = 31 then credO 2048 else credO (flowRows (cpSrc i).1)) := by
  unfold Schedule.expect Schedule.amountOf; rw [duties_cp m c i hi, Finset.sum_singleton, amount_cp]
theorem expect_cp30 (c : Dev nD) : (Rd (F := F) m).expect (cell c (cpJ 30)) 0 = 0 := by
  unfold Schedule.expect Schedule.amountOf; rw [duties_cp30, Finset.sum_empty]

/-! ## Payloads -/

theorem payload_bar (c : Dev nD) (k : Fin 4) : (Rd (F := F) m).payload (cell c 0) 0 k = barPay c k := by
  rw [payload_cell, kind_zero]; rfl
theorem payload_snd (c : Dev nD) (f : Fin 10) (h : Fin 3) (d : Fin 4) :
    (Rd (F := F) m).payload (cell c (sndJ f h)) 0 d = sendPay m c f h := by
  rw [payload_cell, kind_sndJ]; rfl
theorem payload_rcv (c : Dev nD) (f : Fin 10) (h : Fin 3) (d : Fin 4) :
    (Rd (F := F) m).payload (cell c (rcvJ f h)) 0 d = recvPay m c f h := by
  rw [payload_cell, kind_rcvJ]; rfl
theorem payload_cp (c : Dev nD) (i : Fin 32) (d : Fin 4) :
    (Rd (F := F) m).payload (cell c (cpJ i)) 0 d = cpPay m c i := by
  rw [payload_cell, kind_cpJ]; rfl

/-! ## The whole of a cell's round -/

theorem rest_snd (c : Dev nD) (f : Fin 10) (h : Fin 3) :
    bigSep ((Rd (F := F) m).duties (cell c (sndJ f h)) 0 \ ∅) (fun d => (Rd (F := F) m).payload (cell c (sndJ f h)) 0 d)
      = sendPay m c f h := by
  rw [Finset.sdiff_empty, duties_snd, bigSep_singleton, payload_snd]
theorem rest_rcv (c : Dev nD) (f : Fin 10) (h : Fin 3) :
    bigSep ((Rd (F := F) m).duties (cell c (rcvJ f h)) 0 \ ∅) (fun d => (Rd (F := F) m).payload (cell c (rcvJ f h)) 0 d)
      = recvPay m c f h := by
  rw [Finset.sdiff_empty, duties_rcv, bigSep_singleton, payload_rcv]
theorem rest_cp (c : Dev nD) (i : Fin 32) (hi : i.val ≠ 30) :
    bigSep ((Rd (F := F) m).duties (cell c (cpJ i)) 0 \ ∅) (fun d => (Rd (F := F) m).payload (cell c (cpJ i)) 0 d)
      = cpPay m c i := by
  rw [Finset.sdiff_empty, duties_cp m c i hi, bigSep_singleton, payload_cp]
theorem rest_bar (c : Dev nD) :
    bigSep ((Rd (F := F) m).duties (cell c 0) 0 \ ∅) (fun d => (Rd (F := F) m).payload (cell c 0) 0 d)
      = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl

/-! ## A barrier signal's payload, band by band -/

theorem barPay_eq_0 (c : Dev nD) : barPay (F := F) c 0 =
    iprop(landPay (peer 0 c) (2, 0) ∗ landPay (peer 0 c) (2, 1) ∗ landPay (peer 0 c) (2, 2)
      ∗ landPay (peer 0 c) (3, 0) ∗ landPay (peer 0 c) (3, 1) ∗ landPay (peer 0 c) (3, 2)) := rfl
theorem barPay_eq_1 (c : Dev nD) : barPay (F := F) c 1 =
    iprop(landPay (peer 1 c) (0, 0) ∗ landPay (peer 1 c) (0, 1) ∗ landPay (peer 1 c) (0, 2)
      ∗ landPay (peer 1 c) (1, 0) ∗ landPay (peer 1 c) (1, 1) ∗ landPay (peer 1 c) (1, 2)) := rfl
theorem barPay_eq_2 (c : Dev nD) : barPay (F := F) c 2 =
    iprop(landPay (peer 2 c) (4, 0) ∗ landPay (peer 2 c) (4, 1) ∗ landPay (peer 2 c) (4, 2)
      ∗ landPay (peer 2 c) (5, 0) ∗ landPay (peer 2 c) (5, 1) ∗ landPay (peer 2 c) (5, 2)
      ∗ landPay (peer 2 c) (9, 0) ∗ landPay (peer 2 c) (9, 1) ∗ landPay (peer 2 c) (9, 2)) := rfl
theorem barPay_eq_3 (c : Dev nD) : barPay (F := F) c 3 =
    iprop(landPay (peer 3 c) (6, 0) ∗ landPay (peer 3 c) (6, 1) ∗ landPay (peer 3 c) (6, 2)
      ∗ landPay (peer 3 c) (7, 0) ∗ landPay (peer 3 c) (7, 1) ∗ landPay (peer 3 c) (7, 2)
      ∗ landPay (peer 3 c) (8, 0) ∗ landPay (peer 3 c) (8, 1) ∗ landPay (peer 3 c) (8, 2)) := rfl

/-! ## Payloads can be stored -/

/-- A chain over a list of storable assertions is storable. -/
instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact BI.Storable.emp _
  | cons i l ih => rw [bigSepL_cons]; exact BI.Storable.sep _ _ _

instance landPay_storable (p : Dev nD) (fh : Fin 10 × Fin 3) : BI.Storable (upEmb : UEmb _ 𝕄) (landPay (F := F) p fh) := by
  unfold landPay; infer_instance
instance barPay_storable (c : Dev nD) (k : Fin 4) : BI.Storable (upEmb : UEmb _ 𝕄) (barPay (F := F) c k) := by
  unfold barPay; infer_instance
instance sendPay_storable (c : Dev nD) (f : Fin 10) (h : Fin 3) : BI.Storable (upEmb : UEmb _ 𝕄) (sendPay (F := F) m c f h) := by
  unfold sendPay; split <;> infer_instance
instance recvPay_storable (c : Dev nD) (f : Fin 10) (h : Fin 3) : BI.Storable (upEmb : UEmb _ 𝕄) (recvPay (F := F) m c f h) := by
  unfold recvPay; infer_instance
instance cpPay_storable (c : Dev nD) (i : Fin 32) : BI.Storable (upEmb : UEmb _ 𝕄) (cpPay (F := F) m c i) := by
  unfold cpPay; split <;> infer_instance
instance payK_storable (c : Dev nD) (k : CK) (d : Fin 4) : BI.Storable (upEmb : UEmb _ 𝕄) (payK (F := F) m c k d) := by
  cases k <;> (unfold payK; infer_instance)

instance Rd_payload_storable (g : GSem nD τ sig) (r : ℕ) (d : Fin 4) :
    BI.Storable (upEmb : UEmb _ 𝕄) ((Rd (F := F) m).payload g r d) := by
  dsimp only [Rd]
  split <;> infer_instance

theorem not_unitless (g : GSem nD τ sig) : ¬ (Rd (F := F) m).unitless g := fun h => h

/-! ## Cells apart -/

theorem cell_ne_of_dev {c c' : Dev nD} (h : c ≠ c') (j j' : Fin 93) : cell c j ≠ cell c' j' := fun e => h (cell_inj e).1
theorem cell_ne_of_idx (c c' : Dev nD) {j j' : Fin 93} (h : j ≠ j') : cell c j ≠ cell c' j' := fun e => h (cell_inj e).2

theorem sndJ_ne_zero (f : Fin 10) (h : Fin 3) : sndJ f h ≠ 0 := by revert f h; decide
theorem rcvJ_ne_zero (f : Fin 10) (h : Fin 3) : rcvJ f h ≠ 0 := by revert f h; decide
theorem cpJ_ne_zero (i : Fin 32) : cpJ i ≠ 0 := by revert i; decide
theorem sndJ_ne_rcvJ (f : Fin 10) (h : Fin 3) (f' : Fin 10) (h' : Fin 3) : sndJ f h ≠ rcvJ f' h' := by
  intro e; have := congrArg Fin.val e; simp only [sndJ, rcvJ] at this; omega
theorem sndJ_ne_cpJ (f : Fin 10) (h : Fin 3) (i : Fin 32) : sndJ f h ≠ cpJ i := by
  intro e; have := congrArg Fin.val e; simp only [sndJ, cpJ] at this; omega
theorem rcvJ_ne_cpJ (f : Fin 10) (h : Fin 3) (i : Fin 32) : rcvJ f h ≠ cpJ i := by
  intro e; have := congrArg Fin.val e; simp only [rcvJ, cpJ] at this; omega
theorem sndJ_inj {f f' : Fin 10} {h h' : Fin 3} (e : sndJ f h = sndJ f' h') : f = f' ∧ h = h' := by
  have := congrArg Fin.val e; simp only [sndJ] at this; exact ⟨Fin.ext (by omega), Fin.ext (by omega)⟩
theorem rcvJ_inj {f f' : Fin 10} {h h' : Fin 3} (e : rcvJ f h = rcvJ f' h') : f = f' ∧ h = h' := by
  have := congrArg Fin.val e; simp only [rcvJ] at this; exact ⟨Fin.ext (by omega), Fin.ext (by omega)⟩
theorem cpJ_inj {i i' : Fin 32} (e : cpJ i = cpJ i') : i = i' := by
  have := congrArg Fin.val e; simp only [cpJ] at this; exact Fin.ext (by omega)

/-- A cell that is not a TensorCore's has no duties. -/
theorem duties_not_tc (g : GSem nD τ sig) (hg : g.1.2 ≠ .tc) (r : ℕ) : (Rd (F := F) m).duties g r = ∅ := by
  dsimp only [Rd]; rw [if_neg fun h => hg h.2]

end Cert.KernelIdeal.AG

end
-- ==== Proof.Owes.lean ====
/-
  What a device owes at launch, the levels of the cells, and the credit the launch deals.

  A device makes thirty-four payments, in program order: one unit to the barrier cell of each of its four peers,
  then the credit of each of its thirty transfers to the arrival cell of the transfer's target.  What it still owes
  after some of them is the sum over the rest, so everything is stated for a list of payments.

  Levels.  The barrier cell is at level 1.  An arrival cell is at 2 plus the position of the device's wait on it.
  Every other cell (the staging cell, the departure and copy cells, which are never owed to) is at level 0.  A device
  may wait on a cell while it owes only to cells of strictly higher level.

  Launch credit.  Each peer map is a permutation of the devices, so a cell that is named once in the list of
  payments is owed by exactly one device: the barrier cell is dealt four units, an arrival cell the credit of its
  transfer.
-/
import proofs.«900685_g7700000000000686_dist_ag_v7x_xyz2x2x4_z_m2048_n512_f32_1_alg».proof.Proof.Tables

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Payments -/

/-- A payment `(k, j)`: to cell `j` of the device's peer `k`. -/
abbrev Item : Type := Fin 4 × Fin 93

/-- The tally of one payment of device `c`: the amount of the cell's kind, at the cell. -/
def payTally (c : Dev nD) (it : Item) : CellTallies nD τ sig Unit := tallyAt (cell (peer it.1 c) it.2) () (amtK (kind it.2))

/-- What device `c` owes when the payments `l` are still to be made. -/
def Ol (l : List Item) (c : Dev nD) : CellTallies nD τ sig Unit := (l.map (payTally c)).sum

/-- The thirty-four payments of a device in program order: four barrier signals, then the thirty transfers. -/
def payL : List Item := [(0, 0), (1, 0), (2, 0), (3, 0), (tgt 0, rcvJ 0 0), (tgt 2, rcvJ 2 0), (tgt 1, rcvJ 1 0), (tgt 3, rcvJ 3 0), (tgt 0, rcvJ 0 1), (tgt 4, rcvJ 4 0), (tgt 6, rcvJ 6 0), (tgt 2, rcvJ 2 1), (tgt 5, rcvJ 5 0), (tgt 7, rcvJ 7 0), (tgt 1, rcvJ 1 1), (tgt 3, rcvJ 3 1), (tgt 9, rcvJ 9 0), (tgt 8, rcvJ 8 0), (tgt 0, rcvJ 0 2), (tgt 4, rcvJ 4 1), (tgt 6, rcvJ 6 1), (tgt 2, rcvJ 2 2), (tgt 5, rcvJ 5 1), (tgt 7, rcvJ 7 1), (tgt 1, rcvJ 1 2), (tgt 3, rcvJ 3 2), (tgt 9, rcvJ 9 1), (tgt 8, rcvJ 8 1), (tgt 4, rcvJ 4 2), (tgt 6, rcvJ 6 2), (tgt 5, rcvJ 5 2), (tgt 7, rcvJ 7 2), (tgt 9, rcvJ 9 2), (tgt 8, rcvJ 8 2)]

theorem Ol_nil (c : Dev nD) : Ol [] c = 0 := rfl

theorem Ol_cons (it : Item) (l : List Item) (c : Dev nD) : Ol (it :: l) c = Ol l c + payTally c it := by
  unfold Ol; rw [List.map_cons, List.sum_cons, add_comm]

/-- Whatever is owed is owed to a cell named in the list. -/
theorem Ol_pos {l : List Item} {c : Dev nD} {g : GSem nD τ sig} {u : Unit} (h : 0 < Ol l c g u) :
    ∃ it ∈ l, g = cell (peer it.1 c) it.2 := by
  induction l with
  | nil => rw [Ol_nil, Pi.zero_apply, Finsupp.zero_apply] at h; exact absurd h (Nat.lt_irrefl 0)
  | cons it l ih =>
    rw [Ol_cons, Pi.add_apply, Finsupp.add_apply] at h
    by_cases hg : g = cell (peer it.1 c) it.2
    · exact ⟨it, List.mem_cons_self, hg⟩
    · unfold payTally at h
      rw [tallyAt_ne_cell hg, Finsupp.zero_apply, Nat.add_zero] at h
      obtain ⟨it', h1, h2⟩ := ih h
      exact ⟨it', List.mem_cons_of_mem _ h1, h2⟩

/-! ## Levels -/

/-- The arrival cells in the order a device waits on them. -/
def waitL : List (Fin 93) := [rcvJ 0 0, rcvJ 2 0, rcvJ 1 0, rcvJ 3 0, rcvJ 6 0, rcvJ 5 0, rcvJ 4 0, rcvJ 7 0, rcvJ 0 1, rcvJ 2 1, rcvJ 1 1, rcvJ 3 1, rcvJ 6 1, rcvJ 5 1, rcvJ 4 1, rcvJ 7 1, rcvJ 0 2, rcvJ 2 2, rcvJ 1 2, rcvJ 3 2, rcvJ 6 2, rcvJ 5 2, rcvJ 4 2, rcvJ 7 2, rcvJ 9 0, rcvJ 8 0, rcvJ 9 1, rcvJ 8 1, rcvJ 9 2, rcvJ 8 2]

/-- The level of cell `j`: 1 for the barrier, 2 plus its place in the order of waits for an arrival cell, else 0. -/
def lvJ (j : Fin 93) : ℕ := if j.val = 0 then 1 else if j ∈ waitL then waitL.idxOf j + 2 else 0

def L (g : GSem nD τ sig) : Finset Unit := if g.1.2 = .tc then {()} else ∅

def lv (g : GSem nD τ sig) (_ : Unit) : ℕ := match jOf g.2 with | some j => lvJ j | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (j : Fin 93) (u : Unit) : lv (cell c j) u = lvJ j := by
  show (match jOf (csem j) with | some j => lvJ j | none => 0) = lvJ j
  rw [jOf_csem]

theorem lv_stage (c : Dev nD) (q : DmaSem sig) (hq : q.val = 0) (u : Unit) : lv ((c : Thread nD τ), SemLoc.dma q) u = 0 := by
  show (match (if q.val = 0 then none else some (⟨q.val, q.isLt⟩ : Fin 93)) with | some j => lvJ j | none => 0) = 0
  rw [if_pos hq]

/-- Every cell a device owes to at launch is above level 0. -/
theorem payL_lv_pos : ∀ it ∈ payL, 0 < lvJ it.2 := by decide

/-- A device that owes the payments `l`, all to cells above cell `j0`, may wait on its cell `j0`. -/
theorem mayWait_of (c : Dev nD) (j0 : Fin 93) (l : List Item) (hl : ∀ it ∈ l, lvJ j0 < lvJ it.2) :
    (levAts L lv : sProp 𝕄) ⊢ MayWait (c : Thread nD τ) (csem j0) () (Ol l c) :=
  MayOwe.of_cut (L := L) (lev := lv) (lvJ j0)
    (fun p hp => by rw [Finset.mem_singleton.mp hp, L_tc]; exact Finset.mem_singleton_self _)
    (fun g u hg => by obtain ⟨it, _, rfl⟩ := Ol_pos hg; rw [L_tc]; exact Finset.mem_singleton_self _)
    (fun p hp => by rw [Finset.mem_singleton.mp hp]; exact le_of_eq (lv_cell c j0 ()))
    (fun g u hg => by obtain ⟨it, hit, rfl⟩ := Ol_pos hg; rw [lv_cell]; exact hl it hit)

/-- The staging cell is at level 0, below everything a device ever owes. -/
theorem mayWait_stage (c : Dev nD) (q : DmaSem sig) (hq : q.val = 0) (O : CellTallies nD τ sig Unit) (hO : O = Ol payL c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by obtain ⟨it, _, rfl⟩ := Ol_pos hg; rw [L_tc]; exact Finset.mem_singleton_self _)
      (fun p hp => by rw [Finset.mem_singleton.mp hp]; exact le_of_eq (lv_stage c q hq ()))
      (fun g u hg => by obtain ⟨it, hit, rfl⟩ := Ol_pos hg; rw [lv_cell]; exact payL_lv_pos it hit)
  · rw [MayWait_zero]; iintro -; iempintro

/-! ## The launch credit -/

/-- Summed over the devices, one payment reaches cell `j` of device `c` exactly once if it is a payment to a cell
    `j`, and never otherwise: its peer map is a permutation. -/
theorem payTally_sum (it : Item) (c : Dev nD) (j : Fin 93) :
    ∑ d : Dev nD, payTally d it (cell c j) () = if it.2 = j then amtK (kind j) else 0 := by
  unfold payTally
  by_cases hj : it.2 = j
  · subst hj
    rw [if_pos rfl, Finset.sum_eq_single (peer (pinv it.1) c)]
    · rw [peer_pinv, tallyAt_self]
    · intro d _ hd
      rw [tallyAt_ne_cell (fun h => hd (by rw [(cell_inj h).1, pinv_peer])), Finsupp.zero_apply]
    · intro h; exact absurd (Finset.mem_univ _) h
  · rw [if_neg hj]
    exact Finset.sum_eq_zero fun d _ => by rw [tallyAt_ne_cell (fun h => hj (cell_inj h).2.symm), Finsupp.zero_apply]

/-- How many payments in a list are to a cell `j`. -/
def cnt (j : Fin 93) : List Item → ℕ
  | [] => 0
  | it :: l => cnt j l + (if it.2 = j then 1 else 0)

/-- What all devices together owe cell `j` of device `c`. -/
theorem sum_Ol (l : List Item) (c : Dev nD) (j : Fin 93) :
    ∑ d : Dev nD, Ol l d (cell c j) () = cnt j l * amtK (kind j) := by
  induction l with
  | nil =>
    rw [Finset.sum_eq_zero fun d _ => by rw [Ol_nil, Pi.zero_apply, Finsupp.zero_apply]]
    exact (Nat.zero_mul _).symm
  | cons it l ih =>
    have h1 : ∀ d : Dev nD, Ol (it :: l) d (cell c j) () = Ol l d (cell c j) () + payTally d it (cell c j) () := fun d => by
      rw [Ol_cons, Pi.add_apply, Finsupp.add_apply]
    rw [Finset.sum_congr rfl fun d _ => h1 d, Finset.sum_add_distrib, ih, payTally_sum]
    show _ = (cnt j l + (if it.2 = j then 1 else 0)) * _
    by_cases hj : it.2 = j
    · rw [if_pos hj, if_pos hj, Nat.add_mul, Nat.one_mul]
    · rw [if_neg hj, if_neg hj, Nat.add_zero, Nat.add_zero]

/-- What device `d` owes cell `j` of device `c`: the amounts of its payments to cell `j` of a peer that is `c`. -/
theorem owed_cell_of (l : List Item) (d c : Dev nD) (j : Fin 93) :
    Ol l d (cell c j) () = ((l.filter fun it => it.2 = j ∧ peer it.1 d = c).map fun it => amtK (kind it.2)).sum := by
  induction l with
  | nil => rw [Ol_nil, Pi.zero_apply, Finsupp.zero_apply]; rfl
  | cons it l ih =>
    rw [Ol_cons, Pi.add_apply, Finsupp.add_apply, ih]
    unfold payTally
    rw [tallyAt_apply]
    by_cases h : it.2 = j ∧ peer it.1 d = c
    · rw [List.filter_cons_of_pos (by simpa using h), List.map_cons, List.sum_cons, Nat.add_comm,
        if_pos ⟨by rw [h.1, h.2], rfl⟩]
    · rw [List.filter_cons_of_neg (by simpa using h), if_neg (fun h' => h ⟨(cell_inj h'.1).2.symm, (cell_inj h'.1).1.symm⟩), Nat.add_zero]

theorem owed_cell (d c : Dev nD) (j : Fin 93) :
    Ol payL d (cell c j) () = ((payL.filter fun it => it.2 = j ∧ peer it.1 d = c).map fun it => amtK (kind it.2)).sum :=
  owed_cell_of payL d c j

/-- The credit dealt at launch on cell `j` of device `c`. -/
theorem launch_cell (c : Dev nD) (j : Fin 93) :
    tallyOn (cell c j) (launchCredit (Pipeline.owing fun d => Ol payL d) 0 (cell c j))
      = (tallyAt (cell c j) () (cnt j payL * amtK (kind j)) : CellTallies nD τ sig Unit) := by
  unfold tallyAt; refine congrArg _ (Finsupp.ext fun u => ?_); cases u
  rw [Pipeline.launchCredit_owing, Finsupp.single_eq_same, sum_Ol]

theorem cnt_bar : cnt 0 payL = 4 := by decide
theorem cnt_rcv (f : Fin 10) (h : Fin 3) : cnt (rcvJ f h) payL = 1 := by revert f h; decide

theorem launch_bar (c : Dev nD) :
    tallyOn (cell c 0) (launchCredit (Pipeline.owing fun d => Ol payL d) 0 (cell c 0)) = (tallyAt (cell c 0) () 4 : CellTallies nD τ sig Unit) := by
  rw [launch_cell, cnt_bar, kind_zero]; rfl

theorem launch_rcv (c : Dev nD) (f : Fin 10) (h : Fin 3) :
    tallyOn (cell c (rcvJ f h)) (launchCredit (Pipeline.owing fun d => Ol payL d) 0 (cell c (rcvJ f h)))
      = (tallyAt (cell c (rcvJ f h)) () (credS (flowRows f)) : CellTallies nD τ sig Unit) := by
  rw [launch_cell, cnt_rcv, kind_rcvJ, Nat.one_mul]; rfl

/-- The thirty arrival cells, by flow and then hop. -/
def fhL : List (Fin 10 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2), (9, 0), (9, 1), (9, 2)]

/-- The credit a device is dealt at launch: four units on its barrier cell and its transfer's credit on each arrival cell. -/
theorem creds (c : Dev nD) :
    (Pipeline.launchCred (fun d => Ol payL d) c : sProp 𝕄)
      ⊢ iprop(cred (tallyAt (cell c 0) () 4) ∗ bigSepL fhL (fun fh => cred (tallyAt (cell c (rcvJ fh.1 fh.2)) () (credS (flowRows fh.1))))) := by
  unfold Pipeline.launchCred
  rw [bigSep_univ_at _ (csem 0), launch_bar]
  refine sep_mono_right ?_
  have hsub : ((Finset.univ : Finset (Fin 10 × Fin 3)).image fun fh => csem (rcvJ fh.1 fh.2)) ⊆ (Finset.univ : Finset (SemLoc sig)).erase (csem 0) := by
    intro s hs
    obtain ⟨fh, _, rfl⟩ := Finset.mem_image.mp hs
    exact Finset.mem_erase.mpr ⟨fun h => rcvJ_ne_zero fh.1 fh.2 (csem_inj h), Finset.mem_univ _⟩
  refine BIBase.Entails.trans (bigSep_subset hsub) ?_
  rw [bigSep_image_of_injOn (fun a _ b _ h => Prod.ext (rcvJ_inj (csem_inj h)).1 (rcvJ_inj (csem_inj h)).2)]
  rw [bigSep_univ_eq_bigSepL fhL (Finset.eq_univ_of_forall (by decide)).symm (by decide)]
  refine Entails.of_eq (congrArg (bigSepL fhL) (funext fun fh => ?_))
  rw [launch_rcv]

end Cert.KernelIdeal.AG

end
-- ==== Proof.Ghost.lean ====
/-
  What a device holds when its body starts and when it ends.

  At the start: the record of every cell's invariant and that every cell has reached round 0 (persistent, the same
  for all devices); its position at round 0 of each of its ninety-three cells; the tokens of the duties it pays —
  its four peers' barrier duties under the peer index by which they see it, the thirty arrival duties of its
  transfers on its peers' cells, its own thirty departure duties and thirty-one copy duties —; the credit for its
  barrier's four units and for each of its thirty arrivals; the levels; its scratch array at whatever it holds and
  its result array as launched.  At the end: the scratch array again, the thirty-one pieces of the result each
  holding the rows it was copied from, and its ninety-two DMA semaphores at zero.
-/
import proofs.«900685_g7700000000000686_dist_ag_v7x_xyz2x2x4_z_m2048_n512_f32_1_alg».proof.Proof.Owes

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Every cell's invariant, under the names `K`, and that every cell has reached round 0. -/
def records (K : Dev nD × Fin 93 → ℕ) : sProp 𝕄 :=
  iprop((bigSep Finset.univ fun ck : Dev nD × Fin 93 => cellInv ER (Rd m) (K ck) (cell ck.1 ck.2))
    ∗ bigSep Finset.univ fun ck : Dev nD × Fin 93 => reached ER (cell ck.1 ck.2) 0)

instance records_persistent (K : Dev nD × Fin 93 → ℕ) : BI.Persistent (records m K) := by unfold records; infer_instance

/-- The duties a device pays on its peers' cells: (peer index, cell, duty). -/
def payTokL : List (Fin 4 × Fin 93 × Fin 4) :=
  [(0, 0, pinv 0), (1, 0, pinv 1), (2, 0, pinv 2), (3, 0, pinv 3), (tgt 0, rcvJ 0 0, 0), (tgt 0, rcvJ 0 1, 0), (tgt 0, rcvJ 0 2, 0), (tgt 1, rcvJ 1 0, 0), (tgt 1, rcvJ 1 1, 0), (tgt 1, rcvJ 1 2, 0), (tgt 2, rcvJ 2 0, 0), (tgt 2, rcvJ 2 1, 0), (tgt 2, rcvJ 2 2, 0), (tgt 3, rcvJ 3 0, 0), (tgt 3, rcvJ 3 1, 0), (tgt 3, rcvJ 3 2, 0), (tgt 4, rcvJ 4 0, 0), (tgt 4, rcvJ 4 1, 0), (tgt 4, rcvJ 4 2, 0), (tgt 5, rcvJ 5 0, 0), (tgt 5, rcvJ 5 1, 0), (tgt 5, rcvJ 5 2, 0), (tgt 6, rcvJ 6 0, 0), (tgt 6, rcvJ 6 1, 0), (tgt 6, rcvJ 6 2, 0), (tgt 7, rcvJ 7 0, 0), (tgt 7, rcvJ 7 1, 0), (tgt 7, rcvJ 7 2, 0), (tgt 8, rcvJ 8 0, 0), (tgt 8, rcvJ 8 1, 0), (tgt 8, rcvJ 8 2, 0), (tgt 9, rcvJ 9 0, 0), (tgt 9, rcvJ 9 1, 0), (tgt 9, rcvJ 9 2, 0)]

/-- The duties of its own cells a device pays: its departures and its copies. -/
def ownTokL : List (Fin 93) :=
  [sndJ 0 0, sndJ 0 1, sndJ 0 2, sndJ 1 0, sndJ 1 1, sndJ 1 2, sndJ 2 0, sndJ 2 1, sndJ 2 2, sndJ 3 0, sndJ 3 1, sndJ 3 2, sndJ 4 0, sndJ 4 1, sndJ 4 2, sndJ 5 0, sndJ 5 1, sndJ 5 2, sndJ 6 0, sndJ 6 1, sndJ 6 2, sndJ 7 0, sndJ 7 1, sndJ 7 2, sndJ 8 0, sndJ 8 1, sndJ 8 2, sndJ 9 0, sndJ 9 1, sndJ 9 2, cpJ 0, cpJ 1, cpJ 2, cpJ 3, cpJ 4, cpJ 5, cpJ 6, cpJ 7, cpJ 8, cpJ 9, cpJ 10, cpJ 11, cpJ 12, cpJ 13, cpJ 14, cpJ 15, cpJ 16, cpJ 17, cpJ 18, cpJ 19, cpJ 20, cpJ 21, cpJ 22, cpJ 23, cpJ 24, cpJ 25, cpJ 26, cpJ 27, cpJ 28, cpJ 29, cpJ 31]

def payToks (c : Dev nD) : sProp 𝕄 := bigSepL payTokL (fun t => dutyTok ER (cell (peer t.1 c) t.2.1) 0 t.2.2)
def ownToks (c : Dev nD) : sProp 𝕄 := bigSepL ownTokL (fun j => dutyTok ER (cell c j) 0 0)
def poss (c : Dev nD) : sProp 𝕄 := bigSepL (List.finRange 93) (fun j => atPos ER (cell c j) 0 ∅ 0)

def ghost (K : Dev nD × Fin 93 → ℕ) (c : Dev nD) : sProp 𝕄 :=
  iprop(records m K ∗ poss (F := F) c ∗ payToks (F := F) c ∗ ownToks (F := F) c)

/-- The credit a device is dealt: four units on its barrier and each arrival's amount. -/
def credits (c : Dev nD) : sProp 𝕄 :=
  iprop(cred (tallyAt (cell c 0) () 4)
    ∗ bigSepL fhL (fun fh => cred (tallyAt (cell c (rcvJ fh.1 fh.2)) () (credS (flowRows fh.1)))))

def start (c : Dev nD) : sProp 𝕄 :=
  iprop((∃ K, ghost m K c) ∗ credits (F := F) c ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (((c : Thread nD τ).loc main_v1) ↦{fullShare} m ((c : Thread nD τ).loc main_v1)))

/-- The thirty-one pieces of the result, each at the rows it was copied from. -/
def outPieces (c : Dev nD) : sProp 𝕄 :=
  iprop(oPts c (2048 * (c.val % 4)) 2048 fullShare (Gd m c)
    ∗ bigSepL fhL (fun fh => oPts c (lo fh.1 fh.2.val c) (flowRows fh.1) fullShare (Gd m (org fh.1 fh.2.val c))))

/-- The device's own DMA semaphores, as the launch indexes them: DMA semaphores 1 to 92. -/
abbrev osem : Fin 92 → SemLoc sig := fun k => .dma ⟨k.val + 1, by have := k.isLt; show k.val + 1 < 93; omega⟩

def ownZero (c : Dev nD) : sProp 𝕄 := bigSepL (List.finRange 92) (fun k => semVal ((c : Thread nD τ), osem k) 0)

def Φ₁ (c : Dev nD) : sProp 𝕄 :=
  iprop((∃ f : Buf (Elt F) ((c : Thread nD τ).loc cc0_scratch0), ((c : Thread nD τ).loc cc0_scratch0) ↦{fullShare} f)
    ∗ outPieces m c ∗ ownZero (F := F) c)

/-- The pipeline's proof data: the one window is the argument's block, never written; the device owes its
    thirty-four payments at the start and nothing at the end. -/
def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => Ol payL c
    | ⟨_ + 1, _⟩ => 0

end Cert.KernelIdeal.AG

end
-- ==== Proof.Rec.lean ====
/-
  Reading one cell's invariant, and that it has reached round 0, off the record every device holds.
-/
import proofs.«900685_g7700000000000686_dist_ag_v7x_xyz2x2x4_z_m2048_n512_f32_1_alg».proof.Proof.Ghost

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem rec_inv (K : Dev nD × Fin 93 → ℕ) (c : Dev nD) (j : Fin 93) :
    records m K ⊢ cellInv ER (Rd m) (K (c, j)) (cell c j) := by
  unfold records
  exact BIBase.Entails.trans sep_elim_left
    (bigSep_elim (Φ := fun ck : Dev nD × Fin 93 => (cellInv ER (Rd m) (K ck) (cell ck.1 ck.2) : sProp 𝕄)) (Finset.mem_univ ((c, j) : Dev nD × Fin 93)))

theorem rec_reached (K : Dev nD × Fin 93 → ℕ) (c : Dev nD) (j : Fin 93) :
    records m K ⊢ reached ER (cell c j) 0 := by
  unfold records
  exact BIBase.Entails.trans sep_elim_right
    (bigSep_elim (Φ := fun ck : Dev nD × Fin 93 => (reached ER (cell ck.1 ck.2) 0 : sProp 𝕄)) (Finset.mem_univ ((c, j) : Dev nD × Fin 93)))

end Cert.KernelIdeal.AG

end
-- ==== Proof.Ctx.lean ====
/-
  The device's holdings, resource by resource, as the body starts and as it ends.
-/
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- At the start, what the body's parts will take, each named. -/
def ctx0 (K : Dev nD × Fin 93 → ℕ) (c : Dev nD) (W : Waits sig Unit) : sProp 𝕄 :=
  iprop(records m K ∗ levAts L lv
    ∗ owes (c : Thread nD τ) (Ol (payL.drop 0) c) W
    ∗ dutyTok ER (cell (peer 0 c) 0) 0 1
    ∗ barPay (F := F) (peer 0 c) 1
    ∗ dutyTok ER (cell (peer 1 c) 0) 0 0
    ∗ barPay (F := F) (peer 1 c) 0
    ∗ dutyTok ER (cell (peer 2 c) 0) 0 2
    ∗ barPay (F := F) (peer 2 c) 2
    ∗ dutyTok ER (cell (peer 3 c) 0) 0 3
    ∗ barPay (F := F) (peer 3 c) 3
    ∗ cred (tallyAt (cell c 0) () 4)
    ∗ atPos ER (cell c 0) 0 ∅ 0
    ∗ xPts m c (blkLo 0 c) 256 fullShare.right.left
    ∗ dutyTok ER (cell c (sndJ 0 0)) 0 0
    ∗ dutyTok ER (cell (peer 1 c) (rcvJ 0 0)) 0 0
    ∗ xPts m c (blkLo 2 c) 256 fullShare.right.right.left
    ∗ dutyTok ER (cell c (sndJ 2 0)) 0 0
    ∗ dutyTok ER (cell (peer 0 c) (rcvJ 2 0)) 0 0
    ∗ xPts m c (blkLo 1 c) 88 fullShare.right.right.right.left
    ∗ dutyTok ER (cell c (sndJ 1 0)) 0 0
    ∗ dutyTok ER (cell (peer 1 c) (rcvJ 1 0)) 0 0
    ∗ xPts m c (blkLo 3 c) 88 fullShare.right.right.right.right
    ∗ dutyTok ER (cell c (sndJ 3 0)) 0 0
    ∗ dutyTok ER (cell (peer 0 c) (rcvJ 3 0)) 0 0
    ∗ xPts m c 0 2048 fullShare.left
    ∗ oPts c (2048 * (c.val % 4)) 2048 fullShare (m ((c : Thread nD τ).loc main_v1))
    ∗ dutyTok ER (cell c (cpJ 31)) 0 0
    ∗ cred (tallyAt (cell c (rcvJ 0 0)) () (credS 256))
    ∗ atPos ER (cell c (rcvJ 0 0)) 0 ∅ 0
    ∗ oPts c (lo 0 0 c) 256 fullShare (m ((c : Thread nD τ).loc main_v1))
    ∗ dutyTok ER (cell c (cpJ 0)) 0 0
    ∗ dutyTok ER (cell c (sndJ 0 1)) 0 0
    ∗ dutyTok ER (cell (peer 1 c) (rcvJ 0 1)) 0 0
    ∗ dutyTok ER (cell c (sndJ 4 0)) 0 0
    ∗ dutyTok ER (cell (peer 2 c) (rcvJ 4 0)) 0 0
    ∗ dutyTok ER (cell c (sndJ 6 0)) 0 0
    ∗ dutyTok ER (cell (peer 3 c) (rcvJ 6 0)) 0 0
    ∗ cred (tallyAt (cell c (rcvJ 2 0)) () (credS 256))
    ∗ atPos ER (cell c (rcvJ 2 0)) 0 ∅ 0
    ∗ oPts c (lo 2 0 c) 256 fullShare (m ((c : Thread nD τ).loc main_v1))
    ∗ dutyTok ER (cell c (cpJ 1)) 0 0
    ∗ dutyTok ER (cell c (sndJ 2 1)) 0 0
    ∗ dutyTok ER (cell (peer 0 c) (rcvJ 2 1)) 0 0
    ∗ dutyTok ER (cell c (sndJ 5 0)) 0 0
    ∗ dutyTok ER (cell (peer 2 c) (rcvJ 5 0)) 0 0
    ∗ dutyTok ER (cell c (sndJ 7 0)) 0 0
    ∗ dutyTok ER (cell (peer 3 c) (rcvJ 7 0)) 0 0
    ∗ cred (tallyAt (cell c (rcvJ 1 0)) () (credS 88))
    ∗ atPos ER (cell c (rcvJ 1 0)) 0 ∅ 0
    ∗ oPts c (lo 1 0 c) 88 fullShare (m ((c : Thread nD τ).loc main_v1))
    ∗ dutyTok ER (cell c (cpJ 2)) 0 0
    ∗ dutyTok ER (cell c (sndJ 1 1)) 0 0
    ∗ dutyTok ER (cell (peer 1 c) (rcvJ 1 1)) 0 0
    ∗ cred (tallyAt (cell c (rcvJ 3 0)) () (credS 88))
    ∗ atPos ER (cell c (rcvJ 3 0)) 0 ∅ 0
    ∗ oPts c (lo 3 0 c) 88 fullShare (m ((c : Thread nD τ).loc main_v1))
    ∗ dutyTok ER (cell c (cpJ 3)) 0 0
    ∗ dutyTok ER (cell c (sndJ 3 1)) 0 0
    ∗ dutyTok ER (cell (peer 0 c) (rcvJ 3 1)) 0 0
    ∗ cred (tallyAt (cell c (rcvJ 6 0)) () (credS 256))
    ∗ atPos ER (cell c (rcvJ 6 0)) 0 ∅ 0
    ∗ oPts c (lo 6 0 c) 256 fullShare (m ((c : Thread nD τ).loc main_v1))
    ∗ dutyTok ER (cell c (cpJ 4)) 0 0
    ∗ dutyTok ER (cell c (sndJ 9 0)) 0 0
    ∗ dutyTok ER (cell (peer 2 c) (rcvJ 9 0)) 0 0
    ∗ cred (tallyAt (cell c (rcvJ 5 0)) () (credS 256))
    ∗ atPos ER (cell c (rcvJ 5 0)) 0 ∅ 0
    ∗ oPts c (lo 5 0 c) 256 fullShare (m ((c : Thread nD τ).loc main_v1))
    ∗ dutyTok ER (cell c (cpJ 5)) 0 0
    ∗ dutyTok ER (cell c (sndJ 8 0)) 0 0
    ∗ dutyTok ER (cell (peer 3 c) (rcvJ 8 0)) 0 0
    ∗ cred (tallyAt (cell c (rcvJ 4 0)) () (credS 256))
    ∗ atPos ER (cell c (rcvJ 4 0)) 0 ∅ 0
    ∗ oPts c (lo 4 0 c) 256 fullShare (m ((c : Thread nD τ).loc main_v1))
    ∗ dutyTok ER (cell c (cpJ 6)) 0 0
    ∗ cred (tallyAt (cell c (rcvJ 7 0)) () (credS 256))
    ∗ atPos ER (cell c (rcvJ 7 0)) 0 ∅ 0
    ∗ oPts c (lo 7 0 c) 256 fullShare (m ((c : Thread nD τ).loc main_v1))
    ∗ dutyTok ER (cell c (cpJ 7)) 0 0
    ∗ cred (tallyAt (cell c (rcvJ 0 1)) () (credS 256))
    ∗ atPos ER (cell c (rcvJ 0 1)) 0 ∅ 0
    ∗ oPts c (lo 0 1 c) 256 fullShare (m ((c : Thread nD τ).loc main_v1))
    ∗ dutyTok ER (cell c (cpJ 8)) 0 0
    ∗ dutyTok ER (cell c (sndJ 0 2)) 0 0
    ∗ dutyTok ER (cell (peer 1 c) (rcvJ 0 2)) 0 0
    ∗ dutyTok ER (cell c (sndJ 4 1)) 0 0
    ∗ dutyTok ER (cell (peer 2 c) (rcvJ 4 1)) 0 0
    ∗ dutyTok ER (cell c (sndJ 6 1)) 0 0
    ∗ dutyTok ER (cell (peer 3 c) (rcvJ 6 1)) 0 0
    ∗ cred (tallyAt (cell c (rcvJ 2 1)) () (credS 256))
    ∗ atPos ER (cell c (rcvJ 2 1)) 0 ∅ 0
    ∗ oPts c (lo 2 1 c) 256 fullShare (m ((c : Thread nD τ).loc main_v1))
    ∗ dutyTok ER (cell c (cpJ 9)) 0 0
    ∗ dutyTok ER (cell c (sndJ 2 2)) 0 0
    ∗ dutyTok ER (cell (peer 0 c) (rcvJ 2 2)) 0 0
    ∗ dutyTok ER (cell c (sndJ 5 1)) 0 0
    ∗ dutyTok ER (cell (peer 2 c) (rcvJ 5 1)) 0 0
    ∗ dutyTok ER (cell c (sndJ 7 1)) 0 0
    ∗ dutyTok ER (cell (peer 3 c) (rcvJ 7 1)) 0 0
    ∗ cred (tallyAt (cell c (rcvJ 1 1)) () (credS 88))
    ∗ atPos ER (cell c (rcvJ 1 1)) 0 ∅ 0
    ∗ oPts c (lo 1 1 c) 88 fullShare (m ((c : Thread nD τ).loc main_v1))
    ∗ dutyTok ER (cell c (cpJ 10)) 0 0
    ∗ dutyTok ER (cell c (sndJ 1 2)) 0 0
    ∗ dutyTok ER (cell (peer 1 c) (rcvJ 1 2)) 0 0
    ∗ cred (tallyAt (cell c (rcvJ 3 1)) () (credS 88))
    ∗ atPos ER (cell c (rcvJ 3 1)) 0 ∅ 0
    ∗ oPts c (lo 3 1 c) 88 fullShare (m ((c : Thread nD τ).loc main_v1))
    ∗ dutyTok ER (cell c (cpJ 11)) 0 0
    ∗ dutyTok ER (cell c (sndJ 3 2)) 0 0
    ∗ dutyTok ER (cell (peer 0 c) (rcvJ 3 2)) 0 0
    ∗ cred (tallyAt (cell c (rcvJ 6 1)) () (credS 256))
    ∗ atPos ER (cell c (rcvJ 6 1)) 0 ∅ 0
    ∗ oPts c (lo 6 1 c) 256 fullShare (m ((c : Thread nD τ).loc main_v1))
    ∗ dutyTok ER (cell c (cpJ 12)) 0 0
    ∗ dutyTok ER (cell c (sndJ 9 1)) 0 0
    ∗ dutyTok ER (cell (peer 2 c) (rcvJ 9 1)) 0 0
    ∗ cred (tallyAt (cell c (rcvJ 5 1)) () (credS 256))
    ∗ atPos ER (cell c (rcvJ 5 1)) 0 ∅ 0
    ∗ oPts c (lo 5 1 c) 256 fullShare (m ((c : Thread nD τ).loc main_v1))
    ∗ dutyTok ER (cell c (cpJ 13)) 0 0
    ∗ dutyTok ER (cell c (sndJ 8 1)) 0 0
    ∗ dutyTok ER (cell (peer 3 c) (rcvJ 8 1)) 0 0
    ∗ cred (tallyAt (cell c (rcvJ 4 1)) () (credS 256))
    ∗ atPos ER (cell c (rcvJ 4 1)) 0 ∅ 0
    ∗ oPts c (lo 4 1 c) 256 fullShare (m ((c : Thread nD τ).loc main_v1))
    ∗ dutyTok ER (cell c (cpJ 14)) 0 0
    ∗ cred (tallyAt (cell c (rcvJ 7 1)) () (credS 256))
    ∗ atPos ER (cell c (rcvJ 7 1)) 0 ∅ 0
    ∗ oPts c (lo 7 1 c) 256 fullShare (m ((c : Thread nD τ).loc main_v1))
    ∗ dutyTok ER (cell c (cpJ 15)) 0 0
    ∗ cred (tallyAt (cell c (rcvJ 0 2)) () (credS 256))
    ∗ atPos ER (cell c (rcvJ 0 2)) 0 ∅ 0
    ∗ oPts c (lo 0 2 c) 256 fullShare (m ((c : Thread nD τ).loc main_v1))
    ∗ dutyTok ER (cell c (cpJ 16)) 0 0
    ∗ dutyTok ER (cell c (sndJ 4 2)) 0 0
    ∗ dutyTok ER (cell (peer 2 c) (rcvJ 4 2)) 0 0
    ∗ dutyTok ER (cell c (sndJ 6 2)) 0 0
    ∗ dutyTok ER (cell (peer 3 c) (rcvJ 6 2)) 0 0
    ∗ cred (tallyAt (cell c (rcvJ 2 2)) () (credS 256))
    ∗ atPos ER (cell c (rcvJ 2 2)) 0 ∅ 0
    ∗ oPts c (lo 2 2 c) 256 fullShare (m ((c : Thread nD τ).loc main_v1))
    ∗ dutyTok ER (cell c (cpJ 17)) 0 0
    ∗ dutyTok ER (cell c (sndJ 5 2)) 0 0
    ∗ dutyTok ER (cell (peer 2 c) (rcvJ 5 2)) 0 0
    ∗ dutyTok ER (cell c (sndJ 7 2)) 0 0
    ∗ dutyTok ER (cell (peer 3 c) (rcvJ 7 2)) 0 0
    ∗ cred (tallyAt (cell c (rcvJ 1 2)) () (credS 88))
    ∗ atPos ER (cell c (rcvJ 1 2)) 0 ∅ 0
    ∗ oPts c (lo 1 2 c) 88 fullShare (m ((c : Thread nD τ).loc main_v1))
    ∗ dutyTok ER (cell c (cpJ 18)) 0 0
    ∗ cred (tallyAt (cell c (rcvJ 3 2)) () (credS 88))
    ∗ atPos ER (cell c (rcvJ 3 2)) 0 ∅ 0
    ∗ oPts c (lo 3 2 c) 88 fullShare (m ((c : Thread nD τ).loc main_v1))
    ∗ dutyTok ER (cell c (cpJ 19)) 0 0
    ∗ cred (tallyAt (cell c (rcvJ 6 2)) () (credS 256))
    ∗ atPos ER (cell c (rcvJ 6 2)) 0 ∅ 0
    ∗ oPts c (lo 6 2 c) 256 fullShare (m ((c : Thread nD τ).loc main_v1))
    ∗ dutyTok ER (cell c (cpJ 20)) 0 0
    ∗ dutyTok ER (cell c (sndJ 9 2)) 0 0
    ∗ dutyTok ER (cell (peer 2 c) (rcvJ 9 2)) 0 0
    ∗ cred (tallyAt (cell c (rcvJ 5 2)) () (credS 256))
    ∗ atPos ER (cell c (rcvJ 5 2)) 0 ∅ 0
    ∗ oPts c (lo 5 2 c) 256 fullShare (m ((c : Thread nD τ).loc main_v1))
    ∗ dutyTok ER (cell c (cpJ 21)) 0 0
    ∗ dutyTok ER (cell c (sndJ 8 2)) 0 0
    ∗ dutyTok ER (cell (peer 3 c) (rcvJ 8 2)) 0 0
    ∗ cred (tallyAt (cell c (rcvJ 4 2)) () (credS 256))
    ∗ atPos ER (cell c (rcvJ 4 2)) 0 ∅ 0
    ∗ oPts c (lo 4 2 c) 256 fullShare (m ((c : Thread nD τ).loc main_v1))
    ∗ dutyTok ER (cell c (cpJ 22)) 0 0
    ∗ cred (tallyAt (cell c (rcvJ 7 2)) () (credS 256))
    ∗ atPos ER (cell c (rcvJ 7 2)) 0 ∅ 0
    ∗ oPts c (lo 7 2 c) 256 fullShare (m ((c : Thread nD τ).loc main_v1))
    ∗ dutyTok ER (cell c (cpJ 23)) 0 0
    ∗ cred (tallyAt (cell c (rcvJ 9 0)) () (credS 168))
    ∗ atPos ER (cell c (rcvJ 9 0)) 0 ∅ 0
    ∗ oPts c (lo 9 0 c) 168 fullShare (m ((c : Thread nD τ).loc main_v1))
    ∗ dutyTok ER (cell c (cpJ 24)) 0 0
    ∗ cred (tallyAt (cell c (rcvJ 8 0)) () (credS 168))
    ∗ atPos ER (cell c (rcvJ 8 0)) 0 ∅ 0
    ∗ oPts c (lo 8 0 c) 168 fullShare (m ((c : Thread nD τ).loc main_v1))
    ∗ dutyTok ER (cell c (cpJ 25)) 0 0
    ∗ cred (tallyAt (cell c (rcvJ 9 1)) () (credS 168))
    ∗ atPos ER (cell c (rcvJ 9 1)) 0 ∅ 0
    ∗ oPts c (lo 9 1 c) 168 fullShare (m ((c : Thread nD τ).loc main_v1))
    ∗ dutyTok ER (cell c (cpJ 26)) 0 0
    ∗ cred (tallyAt (cell c (rcvJ 8 1)) () (credS 168))
    ∗ atPos ER (cell c (rcvJ 8 1)) 0 ∅ 0
    ∗ oPts c (lo 8 1 c) 168 fullShare (m ((c : Thread nD τ).loc main_v1))
    ∗ dutyTok ER (cell c (cpJ 27)) 0 0
    ∗ cred (tallyAt (cell c (rcvJ 9 2)) () (credS 168))
    ∗ atPos ER (cell c (rcvJ 9 2)) 0 ∅ 0
    ∗ oPts c (lo 9 2 c) 168 fullShare (m ((c : Thread nD τ).loc main_v1))
    ∗ dutyTok ER (cell c (cpJ 28)) 0 0
    ∗ cred (tallyAt (cell c (rcvJ 8 2)) () (credS 168))
    ∗ atPos ER (cell c (rcvJ 8 2)) 0 ∅ 0
    ∗ oPts c (lo 8 2 c) 168 fullShare (m ((c : Thread nD τ).loc main_v1))
    ∗ dutyTok ER (cell c (cpJ 29)) 0 0
    ∗ atPos ER (cell c (sndJ 0 0)) 0 ∅ 0
    ∗ atPos ER (cell c (sndJ 2 0)) 0 ∅ 0
    ∗ atPos ER (cell c (sndJ 1 0)) 0 ∅ 0
    ∗ atPos ER (cell c (sndJ 3 0)) 0 ∅ 0
    ∗ atPos ER (cell c (sndJ 0 1)) 0 ∅ 0
    ∗ atPos ER (cell c (sndJ 4 0)) 0 ∅ 0
    ∗ atPos ER (cell c (sndJ 6 0)) 0 ∅ 0
    ∗ atPos ER (cell c (sndJ 2 1)) 0 ∅ 0
    ∗ atPos ER (cell c (sndJ 5 0)) 0 ∅ 0
    ∗ atPos ER (cell c (sndJ 7 0)) 0 ∅ 0
    ∗ atPos ER (cell c (sndJ 1 1)) 0 ∅ 0
    ∗ atPos ER (cell c (sndJ 3 1)) 0 ∅ 0
    ∗ atPos ER (cell c (sndJ 9 0)) 0 ∅ 0
    ∗ atPos ER (cell c (sndJ 8 0)) 0 ∅ 0
    ∗ atPos ER (cell c (sndJ 0 2)) 0 ∅ 0
    ∗ atPos ER (cell c (sndJ 4 1)) 0 ∅ 0
    ∗ atPos ER (cell c (sndJ 6 1)) 0 ∅ 0
    ∗ atPos ER (cell c (sndJ 2 2)) 0 ∅ 0
    ∗ atPos ER (cell c (sndJ 5 1)) 0 ∅ 0
    ∗ atPos ER (cell c (sndJ 7 1)) 0 ∅ 0
    ∗ atPos ER (cell c (sndJ 1 2)) 0 ∅ 0
    ∗ atPos ER (cell c (sndJ 3 2)) 0 ∅ 0
    ∗ atPos ER (cell c (sndJ 9 1)) 0 ∅ 0
    ∗ atPos ER (cell c (sndJ 8 1)) 0 ∅ 0
    ∗ atPos ER (cell c (sndJ 4 2)) 0 ∅ 0
    ∗ atPos ER (cell c (sndJ 6 2)) 0 ∅ 0
    ∗ atPos ER (cell c (sndJ 5 2)) 0 ∅ 0
    ∗ atPos ER (cell c (sndJ 7 2)) 0 ∅ 0
    ∗ atPos ER (cell c (sndJ 9 2)) 0 ∅ 0
    ∗ atPos ER (cell c (sndJ 8 2)) 0 ∅ 0
    ∗ atPos ER (cell c (cpJ 0)) 0 ∅ 0
    ∗ atPos ER (cell c (cpJ 1)) 0 ∅ 0
    ∗ atPos ER (cell c (cpJ 2)) 0 ∅ 0
    ∗ atPos ER (cell c (cpJ 3)) 0 ∅ 0
    ∗ atPos ER (cell c (cpJ 4)) 0 ∅ 0
    ∗ atPos ER (cell c (cpJ 5)) 0 ∅ 0
    ∗ atPos ER (cell c (cpJ 6)) 0 ∅ 0
    ∗ atPos ER (cell c (cpJ 7)) 0 ∅ 0
    ∗ atPos ER (cell c (cpJ 8)) 0 ∅ 0
    ∗ atPos ER (cell c (cpJ 9)) 0 ∅ 0
    ∗ atPos ER (cell c (cpJ 10)) 0 ∅ 0
    ∗ atPos ER (cell c (cpJ 11)) 0 ∅ 0
    ∗ atPos ER (cell c (cpJ 12)) 0 ∅ 0
    ∗ atPos ER (cell c (cpJ 13)) 0 ∅ 0
    ∗ atPos ER (cell c (cpJ 14)) 0 ∅ 0
    ∗ atPos ER (cell c (cpJ 15)) 0 ∅ 0
    ∗ atPos ER (cell c (cpJ 16)) 0 ∅ 0
    ∗ atPos ER (cell c (cpJ 17)) 0 ∅ 0
    ∗ atPos ER (cell c (cpJ 18)) 0 ∅ 0
    ∗ atPos ER (cell c (cpJ 19)) 0 ∅ 0
    ∗ atPos ER (cell c (cpJ 20)) 0 ∅ 0
    ∗ atPos ER (cell c (cpJ 21)) 0 ∅ 0
    ∗ atPos ER (cell c (cpJ 22)) 0 ∅ 0
    ∗ atPos ER (cell c (cpJ 23)) 0 ∅ 0
    ∗ atPos ER (cell c (cpJ 24)) 0 ∅ 0
    ∗ atPos ER (cell c (cpJ 25)) 0 ∅ 0
    ∗ atPos ER (cell c (cpJ 26)) 0 ∅ 0
    ∗ atPos ER (cell c (cpJ 27)) 0 ∅ 0
    ∗ atPos ER (cell c (cpJ 28)) 0 ∅ 0
    ∗ atPos ER (cell c (cpJ 29)) 0 ∅ 0
    ∗ atPos ER (cell c (cpJ 31)) 0 ∅ 0)

/-- At the end, what the parts have left. -/
def ctxEnd (K : Dev nD × Fin 93 → ℕ) (c : Dev nD) (W : Waits sig Unit) : sProp 𝕄 :=
  iprop(semVal (cell c (rcvJ 0 0)) 0
    ∗ semVal (cell c (rcvJ 2 0)) 0
    ∗ semVal (cell c (rcvJ 1 0)) 0
    ∗ semVal (cell c (rcvJ 3 0)) 0
    ∗ semVal (cell c (rcvJ 6 0)) 0
    ∗ sPts c (lo 6 0 c) 88 fullShare.right (Gd m (org 6 0 c))
    ∗ semVal (cell c (rcvJ 5 0)) 0
    ∗ sPts c (lo 5 0 c) 88 fullShare.right (Gd m (org 5 0 c))
    ∗ semVal (cell c (rcvJ 4 0)) 0
    ∗ semVal (cell c (rcvJ 7 0)) 0
    ∗ semVal (cell c (rcvJ 0 1)) 0
    ∗ semVal (cell c (rcvJ 2 1)) 0
    ∗ semVal (cell c (rcvJ 1 1)) 0
    ∗ semVal (cell c (rcvJ 3 1)) 0
    ∗ semVal (cell c (rcvJ 6 1)) 0
    ∗ sPts c (lo 6 1 c) 88 fullShare.right (Gd m (org 6 1 c))
    ∗ semVal (cell c (rcvJ 5 1)) 0
    ∗ sPts c (lo 5 1 c) 88 fullShare.right (Gd m (org 5 1 c))
    ∗ semVal (cell c (rcvJ 4 1)) 0
    ∗ semVal (cell c (rcvJ 7 1)) 0
    ∗ semVal (cell c (rcvJ 0 2)) 0
    ∗ sPts c (lo 0 2 c) 256 fullShare.right.left (Gd m (org 0 2 c))
    ∗ semVal (cell c (rcvJ 2 2)) 0
    ∗ sPts c (lo 2 2 c) 256 fullShare.right.left (Gd m (org 2 2 c))
    ∗ semVal (cell c (rcvJ 1 2)) 0
    ∗ sPts c (lo 1 2 c) 88 fullShare.right (Gd m (org 1 2 c))
    ∗ semVal (cell c (rcvJ 3 2)) 0
    ∗ sPts c (lo 3 2 c) 88 fullShare.right (Gd m (org 3 2 c))
    ∗ semVal (cell c (rcvJ 6 2)) 0
    ∗ sPts c (lo 6 2 c) 88 fullShare.right (Gd m (org 6 2 c))
    ∗ semVal (cell c (rcvJ 5 2)) 0
    ∗ sPts c (lo 5 2 c) 88 fullShare.right (Gd m (org 5 2 c))
    ∗ semVal (cell c (rcvJ 4 2)) 0
    ∗ semVal (cell c (rcvJ 7 2)) 0
    ∗ semVal (cell c (rcvJ 9 0)) 0
    ∗ semVal (cell c (rcvJ 8 0)) 0
    ∗ semVal (cell c (rcvJ 9 1)) 0
    ∗ semVal (cell c (rcvJ 8 1)) 0
    ∗ semVal (cell c (rcvJ 9 2)) 0
    ∗ semVal (cell c (rcvJ 8 2)) 0
    ∗ semVal (cell c (sndJ 0 0)) 0
    ∗ xPts m c (blkLo 0 c) 256 fullShare.right.left
    ∗ semVal (cell c (sndJ 2 0)) 0
    ∗ xPts m c (blkLo 2 c) 256 fullShare.right.right.left
    ∗ semVal (cell c (sndJ 1 0)) 0
    ∗ xPts m c (blkLo 1 c) 88 fullShare.right.right.right.left
    ∗ semVal (cell c (sndJ 3 0)) 0
    ∗ xPts m c (blkLo 3 c) 88 fullShare.right.right.right.right
    ∗ semVal (cell c (sndJ 0 1)) 0
    ∗ sPts c (lo 0 0 c) 256 fullShare.right.left (Gd m (org 0 0 c))
    ∗ semVal (cell c (sndJ 4 0)) 0
    ∗ sPts c (lo 0 0 c) 256 fullShare.right.right.left (Gd m (org 0 0 c))
    ∗ semVal (cell c (sndJ 6 0)) 0
    ∗ sPts c (lo 0 0 c) 256 fullShare.right.right.right (Gd m (org 0 0 c))
    ∗ semVal (cell c (sndJ 2 1)) 0
    ∗ sPts c (lo 2 0 c) 256 fullShare.right.left (Gd m (org 2 0 c))
    ∗ semVal (cell c (sndJ 5 0)) 0
    ∗ sPts c (lo 2 0 c) 256 fullShare.right.right.left (Gd m (org 2 0 c))
    ∗ semVal (cell c (sndJ 7 0)) 0
    ∗ sPts c (lo 2 0 c) 256 fullShare.right.right.right (Gd m (org 2 0 c))
    ∗ semVal (cell c (sndJ 1 1)) 0
    ∗ sPts c (lo 1 0 c) 88 fullShare.right (Gd m (org 1 0 c))
    ∗ semVal (cell c (sndJ 3 1)) 0
    ∗ sPts c (lo 3 0 c) 88 fullShare.right (Gd m (org 3 0 c))
    ∗ semVal (cell c (sndJ 9 0)) 0
    ∗ sPts c (lo 6 0 c + 88) 168 fullShare.right (Gd m (org 6 0 c))
    ∗ semVal (cell c (sndJ 8 0)) 0
    ∗ sPts c (lo 5 0 c + 88) 168 fullShare.right (Gd m (org 5 0 c))
    ∗ semVal (cell c (sndJ 0 2)) 0
    ∗ sPts c (lo 0 1 c) 256 fullShare.right.left (Gd m (org 0 1 c))
    ∗ semVal (cell c (sndJ 4 1)) 0
    ∗ sPts c (lo 0 1 c) 256 fullShare.right.right.left (Gd m (org 0 1 c))
    ∗ semVal (cell c (sndJ 6 1)) 0
    ∗ sPts c (lo 0 1 c) 256 fullShare.right.right.right (Gd m (org 0 1 c))
    ∗ semVal (cell c (sndJ 2 2)) 0
    ∗ sPts c (lo 2 1 c) 256 fullShare.right.left (Gd m (org 2 1 c))
    ∗ semVal (cell c (sndJ 5 1)) 0
    ∗ sPts c (lo 2 1 c) 256 fullShare.right.right.left (Gd m (org 2 1 c))
    ∗ semVal (cell c (sndJ 7 1)) 0
    ∗ sPts c (lo 2 1 c) 256 fullShare.right.right.right (Gd m (org 2 1 c))
    ∗ semVal (cell c (sndJ 1 2)) 0
    ∗ sPts c (lo 1 1 c) 88 fullShare.right (Gd m (org 1 1 c))
    ∗ semVal (cell c (sndJ 3 2)) 0
    ∗ sPts c (lo 3 1 c) 88 fullShare.right (Gd m (org 3 1 c))
    ∗ semVal (cell c (sndJ 9 1)) 0
    ∗ sPts c (lo 6 1 c + 88) 168 fullShare.right (Gd m (org 6 1 c))
    ∗ semVal (cell c (sndJ 8 1)) 0
    ∗ sPts c (lo 5 1 c + 88) 168 fullShare.right (Gd m (org 5 1 c))
    ∗ semVal (cell c (sndJ 4 2)) 0
    ∗ sPts c (lo 0 2 c) 256 fullShare.right.right.left (Gd m (org 0 2 c))
    ∗ semVal (cell c (sndJ 6 2)) 0
    ∗ sPts c (lo 0 2 c) 256 fullShare.right.right.right (Gd m (org 0 2 c))
    ∗ semVal (cell c (sndJ 5 2)) 0
    ∗ sPts c (lo 2 2 c) 256 fullShare.right.right.left (Gd m (org 2 2 c))
    ∗ semVal (cell c (sndJ 7 2)) 0
    ∗ sPts c (lo 2 2 c) 256 fullShare.right.right.right (Gd m (org 2 2 c))
    ∗ semVal (cell c (sndJ 9 2)) 0
    ∗ sPts c (lo 6 2 c + 88) 168 fullShare.right (Gd m (org 6 2 c))
    ∗ semVal (cell c (sndJ 8 2)) 0
    ∗ sPts c (lo 5 2 c + 88) 168 fullShare.right (Gd m (org 5 2 c))
    ∗ semVal (cell c (cpJ 0)) 0
    ∗ oPts c (lo 0 0 c) 256 fullShare (Gd m (org 0 0 c))
    ∗ sPts c (lo 0 0 c) 256 fullShare.left (Gd m (org 0 0 c))
    ∗ semVal (cell c (cpJ 1)) 0
    ∗ oPts c (lo 2 0 c) 256 fullShare (Gd m (org 2 0 c))
    ∗ sPts c (lo 2 0 c) 256 fullShare.left (Gd m (org 2 0 c))
    ∗ semVal (cell c (cpJ 2)) 0
    ∗ oPts c (lo 1 0 c) 88 fullShare (Gd m (org 1 0 c))
    ∗ sPts c (lo 1 0 c) 88 fullShare.left (Gd m (org 1 0 c))
    ∗ semVal (cell c (cpJ 3)) 0
    ∗ oPts c (lo 3 0 c) 88 fullShare (Gd m (org 3 0 c))
    ∗ sPts c (lo 3 0 c) 88 fullShare.left (Gd m (org 3 0 c))
    ∗ semVal (cell c (cpJ 4)) 0
    ∗ oPts c (lo 6 0 c) 256 fullShare (Gd m (org 6 0 c))
    ∗ sPts c (lo 6 0 c) 256 fullShare.left (Gd m (org 6 0 c))
    ∗ semVal (cell c (cpJ 5)) 0
    ∗ oPts c (lo 5 0 c) 256 fullShare (Gd m (org 5 0 c))
    ∗ sPts c (lo 5 0 c) 256 fullShare.left (Gd m (org 5 0 c))
    ∗ semVal (cell c (cpJ 6)) 0
    ∗ oPts c (lo 4 0 c) 256 fullShare (Gd m (org 4 0 c))
    ∗ sPts c (lo 4 0 c) 256 fullShare (Gd m (org 4 0 c))
    ∗ semVal (cell c (cpJ 7)) 0
    ∗ oPts c (lo 7 0 c) 256 fullShare (Gd m (org 7 0 c))
    ∗ sPts c (lo 7 0 c) 256 fullShare (Gd m (org 7 0 c))
    ∗ semVal (cell c (cpJ 8)) 0
    ∗ oPts c (lo 0 1 c) 256 fullShare (Gd m (org 0 1 c))
    ∗ sPts c (lo 0 1 c) 256 fullShare.left (Gd m (org 0 1 c))
    ∗ semVal (cell c (cpJ 9)) 0
    ∗ oPts c (lo 2 1 c) 256 fullShare (Gd m (org 2 1 c))
    ∗ sPts c (lo 2 1 c) 256 fullShare.left (Gd m (org 2 1 c))
    ∗ semVal (cell c (cpJ 10)) 0
    ∗ oPts c (lo 1 1 c) 88 fullShare (Gd m (org 1 1 c))
    ∗ sPts c (lo 1 1 c) 88 fullShare.left (Gd m (org 1 1 c))
    ∗ semVal (cell c (cpJ 11)) 0
    ∗ oPts c (lo 3 1 c) 88 fullShare (Gd m (org 3 1 c))
    ∗ sPts c (lo 3 1 c) 88 fullShare.left (Gd m (org 3 1 c))
    ∗ semVal (cell c (cpJ 12)) 0
    ∗ oPts c (lo 6 1 c) 256 fullShare (Gd m (org 6 1 c))
    ∗ sPts c (lo 6 1 c) 256 fullShare.left (Gd m (org 6 1 c))
    ∗ semVal (cell c (cpJ 13)) 0
    ∗ oPts c (lo 5 1 c) 256 fullShare (Gd m (org 5 1 c))
    ∗ sPts c (lo 5 1 c) 256 fullShare.left (Gd m (org 5 1 c))
    ∗ semVal (cell c (cpJ 14)) 0
    ∗ oPts c (lo 4 1 c) 256 fullShare (Gd m (org 4 1 c))
    ∗ sPts c (lo 4 1 c) 256 fullShare (Gd m (org 4 1 c))
    ∗ semVal (cell c (cpJ 15)) 0
    ∗ oPts c (lo 7 1 c) 256 fullShare (Gd m (org 7 1 c))
    ∗ sPts c (lo 7 1 c) 256 fullShare (Gd m (org 7 1 c))
    ∗ semVal (cell c (cpJ 16)) 0
    ∗ oPts c (lo 0 2 c) 256 fullShare (Gd m (org 0 2 c))
    ∗ sPts c (lo 0 2 c) 256 fullShare.left (Gd m (org 0 2 c))
    ∗ semVal (cell c (cpJ 17)) 0
    ∗ oPts c (lo 2 2 c) 256 fullShare (Gd m (org 2 2 c))
    ∗ sPts c (lo 2 2 c) 256 fullShare.left (Gd m (org 2 2 c))
    ∗ semVal (cell c (cpJ 18)) 0
    ∗ oPts c (lo 1 2 c) 88 fullShare (Gd m (org 1 2 c))
    ∗ sPts c (lo 1 2 c) 88 fullShare.left (Gd m (org 1 2 c))
    ∗ semVal (cell c (cpJ 19)) 0
    ∗ oPts c (lo 3 2 c) 88 fullShare (Gd m (org 3 2 c))
    ∗ sPts c (lo 3 2 c) 88 fullShare.left (Gd m (org 3 2 c))
    ∗ semVal (cell c (cpJ 20)) 0
    ∗ oPts c (lo 6 2 c) 256 fullShare (Gd m (org 6 2 c))
    ∗ sPts c (lo 6 2 c) 256 fullShare.left (Gd m (org 6 2 c))
    ∗ semVal (cell c (cpJ 21)) 0
    ∗ oPts c (lo 5 2 c) 256 fullShare (Gd m (org 5 2 c))
    ∗ sPts c (lo 5 2 c) 256 fullShare.left (Gd m (org 5 2 c))
    ∗ semVal (cell c (cpJ 22)) 0
    ∗ oPts c (lo 4 2 c) 256 fullShare (Gd m (org 4 2 c))
    ∗ sPts c (lo 4 2 c) 256 fullShare (Gd m (org 4 2 c))
    ∗ semVal (cell c (cpJ 23)) 0
    ∗ oPts c (lo 7 2 c) 256 fullShare (Gd m (org 7 2 c))
    ∗ sPts c (lo 7 2 c) 256 fullShare (Gd m (org 7 2 c))
    ∗ owes (c : Thread nD τ) (Ol (payL.drop 34) c) (insert (csem (cpJ 31), ()) (insert (csem (cpJ 29), ()) (insert (csem (cpJ 28), ()) (insert (csem (cpJ 27), ()) (insert (csem (cpJ 26), ()) (insert (csem (cpJ 25), ()) (insert (csem (cpJ 24), ()) (insert (csem (cpJ 23), ()) (insert (csem (cpJ 22), ()) (insert (csem (cpJ 21), ()) (insert (csem (cpJ 20), ()) (insert (csem (cpJ 19), ()) (insert (csem (cpJ 18), ()) (insert (csem (cpJ 17), ()) (insert (csem (cpJ 16), ()) (insert (csem (cpJ 15), ()) (insert (csem (cpJ 14), ()) (insert (csem (cpJ 13), ()) (insert (csem (cpJ 12), ()) (insert (csem (cpJ 11), ()) (insert (csem (cpJ 10), ()) (insert (csem (cpJ 9), ()) (insert (csem (cpJ 8), ()) (insert (csem (cpJ 7), ()) (insert (csem (cpJ 6), ()) (insert (csem (cpJ 5), ()) (insert (csem (cpJ 4), ()) (insert (csem (cpJ 3), ()) (insert (csem (cpJ 2), ()) (insert (csem (cpJ 1), ()) (insert (csem (cpJ 0), ()) (insert (csem (sndJ 8 2), ()) (insert (csem (sndJ 9 2), ()) (insert (csem (sndJ 7 2), ()) (insert (csem (sndJ 5 2), ()) (insert (csem (sndJ 6 2), ()) (insert (csem (sndJ 4 2), ()) (insert (csem (sndJ 8 1), ()) (insert (csem (sndJ 9 1), ()) (insert (csem (sndJ 3 2), ()) (insert (csem (sndJ 1 2), ()) (insert (csem (sndJ 7 1), ()) (insert (csem (sndJ 5 1), ()) (insert (csem (sndJ 2 2), ()) (insert (csem (sndJ 6 1), ()) (insert (csem (sndJ 4 1), ()) (insert (csem (sndJ 0 2), ()) (insert (csem (sndJ 8 0), ()) (insert (csem (sndJ 9 0), ()) (insert (csem (sndJ 3 1), ()) (insert (csem (sndJ 1 1), ()) (insert (csem (sndJ 7 0), ()) (insert (csem (sndJ 5 0), ()) (insert (csem (sndJ 2 1), ()) (insert (csem (sndJ 6 0), ()) (insert (csem (sndJ 4 0), ()) (insert (csem (sndJ 0 1), ()) (insert (csem (sndJ 3 0), ()) (insert (csem (sndJ 1 0), ()) (insert (csem (sndJ 2 0), ()) (insert (csem (sndJ 0 0), ()) (insert (csem (rcvJ 8 2), ()) (insert (csem (rcvJ 9 2), ()) (insert (csem (rcvJ 8 1), ()) (insert (csem (rcvJ 9 1), ()) (insert (csem (rcvJ 8 0), ()) (insert (csem (rcvJ 9 0), ()) (insert (csem (rcvJ 7 2), ()) (insert (csem (rcvJ 4 2), ()) (insert (csem (rcvJ 5 2), ()) (insert (csem (rcvJ 6 2), ()) (insert (csem (rcvJ 3 2), ()) (insert (csem (rcvJ 1 2), ()) (insert (csem (rcvJ 2 2), ()) (insert (csem (rcvJ 0 2), ()) (insert (csem (rcvJ 7 1), ()) (insert (csem (rcvJ 4 1), ()) (insert (csem (rcvJ 5 1), ()) (insert (csem (rcvJ 6 1), ()) (insert (csem (rcvJ 3 1), ()) (insert (csem (rcvJ 1 1), ()) (insert (csem (rcvJ 2 1), ()) (insert (csem (rcvJ 0 1), ()) (insert (csem (rcvJ 7 0), ()) (insert (csem (rcvJ 4 0), ()) (insert (csem (rcvJ 5 0), ()) (insert (csem (rcvJ 6 0), ()) (insert (csem (rcvJ 3 0), ()) (insert (csem (rcvJ 1 0), ()) (insert (csem (rcvJ 2 0), ()) (insert (csem (rcvJ 0 0), ()) (insert (csem 0, ()) W))))))))))))))))))))))))))))))))))))))))))))))))))))))))))))))))))))))))))))))))))))))))))))
    ∗ semVal (cell c (cpJ 24)) 0
    ∗ oPts c (lo 9 0 c) 168 fullShare (Gd m (org 9 0 c))
    ∗ sPts c (lo 9 0 c) 168 fullShare (Gd m (org 9 0 c))
    ∗ semVal (cell c (cpJ 25)) 0
    ∗ oPts c (lo 8 0 c) 168 fullShare (Gd m (org 8 0 c))
    ∗ sPts c (lo 8 0 c) 168 fullShare (Gd m (org 8 0 c))
    ∗ semVal (cell c (cpJ 26)) 0
    ∗ oPts c (lo 9 1 c) 168 fullShare (Gd m (org 9 1 c))
    ∗ sPts c (lo 9 1 c) 168 fullShare (Gd m (org 9 1 c))
    ∗ semVal (cell c (cpJ 27)) 0
    ∗ oPts c (lo 8 1 c) 168 fullShare (Gd m (org 8 1 c))
    ∗ sPts c (lo 8 1 c) 168 fullShare (Gd m (org 8 1 c))
    ∗ semVal (cell c (cpJ 28)) 0
    ∗ oPts c (lo 9 2 c) 168 fullShare (Gd m (org 9 2 c))
    ∗ sPts c (lo 9 2 c) 168 fullShare (Gd m (org 9 2 c))
    ∗ semVal (cell c (cpJ 29)) 0
    ∗ oPts c (lo 8 2 c) 168 fullShare (Gd m (org 8 2 c))
    ∗ sPts c (lo 8 2 c) 168 fullShare (Gd m (org 8 2 c))
    ∗ semVal (cell c (cpJ 31)) 0
    ∗ oPts c (2048 * (c.val % 4)) 2048 fullShare (Gd m c)
    ∗ xPts m c 0 2048 fullShare.left)

end Cert.KernelIdeal.AG

end
-- ==== Proof.Offsets.lean ====
/-
  The devices a transfer addresses and the rows it moves, in closed form.

  A device's id is c = 8 x + 4 y + z.  Every device id the program computes is one of the four peers of the device
  executing, and every row offset it computes is the start of a band of rows 2048 zb + 512 k + s: block zb of four,
  quarter k of four inside the block, start s inside the quarter.  The blocks and quarters that occur are those of the
  device itself and of its peers, shifted round the ring by the hop.
-/
import proofs.«900685_g7700000000000686_dist_ag_v7x_xyz2x2x4_z_m2048_n512_f32_1_alg».proof.Proof.Bands

set_option Elab.async false

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The devices addressed -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 3 c := by revert c; decide +kernel
theorem dev15_eq (c : Dev nD) : (⟨k0_dev15 c, k0_dev15_lt c⟩ : Dev nD) = peer 1 c := by revert c; decide +kernel
theorem dev16_eq (c : Dev nD) : (⟨k0_dev16 c, k0_dev16_lt c⟩ : Dev nD) = peer 0 c := by revert c; decide +kernel
theorem dev17_eq (c : Dev nD) : (⟨k0_dev17 c, k0_dev17_lt c⟩ : Dev nD) = peer 2 c := by revert c; decide +kernel
theorem dev18_eq (c : Dev nD) : (⟨k0_dev18 c, k0_dev18_lt c⟩ : Dev nD) = peer 3 c := by revert c; decide +kernel
theorem dev19_eq (c : Dev nD) : (⟨k0_dev19 c, k0_dev19_lt c⟩ : Dev nD) = peer 1 c := by revert c; decide +kernel
theorem dev20_eq (c : Dev nD) : (⟨k0_dev20 c, k0_dev20_lt c⟩ : Dev nD) = peer 2 c := by revert c; decide +kernel
theorem dev21_eq (c : Dev nD) : (⟨k0_dev21 c, k0_dev21_lt c⟩ : Dev nD) = peer 3 c := by revert c; decide +kernel
theorem dev22_eq (c : Dev nD) : (⟨k0_dev22 c, k0_dev22_lt c⟩ : Dev nD) = peer 0 c := by revert c; decide +kernel
theorem dev23_eq (c : Dev nD) : (⟨k0_dev23 c, k0_dev23_lt c⟩ : Dev nD) = peer 2 c := by revert c; decide +kernel
theorem dev24_eq (c : Dev nD) : (⟨k0_dev24 c, k0_dev24_lt c⟩ : Dev nD) = peer 3 c := by revert c; decide +kernel
theorem dev25_eq (c : Dev nD) : (⟨k0_dev25 c, k0_dev25_lt c⟩ : Dev nD) = peer 1 c := by revert c; decide +kernel
theorem dev26_eq (c : Dev nD) : (⟨k0_dev26 c, k0_dev26_lt c⟩ : Dev nD) = peer 0 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 3 c := by revert c; decide +kernel
theorem dev29_eq (c : Dev nD) : (⟨k0_dev29 c, k0_dev29_lt c⟩ : Dev nD) = peer 2 c := by revert c; decide +kernel
theorem dev30_eq (c : Dev nD) : (⟨k0_dev30 c, k0_dev30_lt c⟩ : Dev nD) = peer 3 c := by revert c; decide +kernel
theorem dev31_eq (c : Dev nD) : (⟨k0_dev31 c, k0_dev31_lt c⟩ : Dev nD) = peer 2 c := by revert c; decide +kernel
theorem dev32_eq (c : Dev nD) : (⟨k0_dev32 c, k0_dev32_lt c⟩ : Dev nD) = peer 3 c := by revert c; decide +kernel
theorem dev33_eq (c : Dev nD) : (⟨k0_dev33 c, k0_dev33_lt c⟩ : Dev nD) = peer 2 c := by revert c; decide +kernel
theorem dev34_eq (c : Dev nD) : (⟨k0_dev34 c, k0_dev34_lt c⟩ : Dev nD) = peer 3 c := by revert c; decide +kernel

/-! ## The rows moved -/

/-- The six bands of quarter `k` a device touches before and during the first two hops: its own block's two halves,
    then the blocks arriving from below (first half) and from above (second half) at hops 0 and 1. -/
def ownBand (k : ℕ) (c : Dev nD) (r : Fin 6) : ℕ :=
  match r with
  | 0 => band (c.val % 4) k 0
  | 1 => band (c.val % 4) k 256
  | 2 => band (zA 0 c) k 0
  | 3 => band (zB 0 c) k 256
  | 4 => band (zA 1 c) k 0
  | 5 => band (zB 1 c) k 256

theorem off1_eq (c : Dev nD) (r : Fin 6) :
    k0_off1 c (k0_off1_at r).1 (k0_off1_at r).2 = ![ownBand (qq c) c r, 0] := by revert c r; decide +kernel
theorem off1_eq_0_0 (c : Dev nD) : k0_off1 c 0#32 0#32 = ![band (c.val % 4) (qq c) 0, 0] := off1_eq c 0
theorem off1_eq_0_256 (c : Dev nD) : k0_off1 c 0#32 256#32 = ![band (c.val % 4) (qq c) 256, 0] := off1_eq c 1
theorem off1_eq_m1_0 (c : Dev nD) : k0_off1 c 4294967295#32 0#32 = ![band (zA 0 c) (qq c) 0, 0] := off1_eq c 2
theorem off1_eq_1_256 (c : Dev nD) : k0_off1 c 1#32 256#32 = ![band (zB 0 c) (qq c) 256, 0] := off1_eq c 3
theorem off1_eq_m2_0 (c : Dev nD) : k0_off1 c 4294967294#32 0#32 = ![band (zA 1 c) (qq c) 0, 0] := off1_eq c 4
theorem off1_eq_2_256 (c : Dev nD) : k0_off1 c 2#32 256#32 = ![band (zB 1 c) (qq c) 256, 0] := off1_eq c 5

theorem off3_eq (c : Dev nD) (r : Fin 6) :
    k0_off3 c (k0_off3_at r).1 (k0_off3_at r).2 = ![ownBand (qd c) c r, 0] := by revert c r; decide +kernel
theorem off3_eq_0_0 (c : Dev nD) : k0_off3 c 0#32 0#32 = ![band (c.val % 4) (qd c) 0, 0] := off3_eq c 0
theorem off3_eq_0_256 (c : Dev nD) : k0_off3 c 0#32 256#32 = ![band (c.val % 4) (qd c) 256, 0] := off3_eq c 1
theorem off3_eq_m1_0 (c : Dev nD) : k0_off3 c 4294967295#32 0#32 = ![band (zA 0 c) (qd c) 0, 0] := off3_eq c 2
theorem off3_eq_1_256 (c : Dev nD) : k0_off3 c 1#32 256#32 = ![band (zB 0 c) (qd c) 256, 0] := off3_eq c 3
theorem off3_eq_m2_0 (c : Dev nD) : k0_off3 c 4294967294#32 0#32 = ![band (zA 1 c) (qd c) 0, 0] := off3_eq c 4
theorem off3_eq_2_256 (c : Dev nD) : k0_off3 c 2#32 256#32 = ![band (zB 1 c) (qd c) 256, 0] := off3_eq c 5

theorem off2_eq (c : Dev nD) (r : Fin 2) :
    k0_off2 c (BitVec.ofNat 32 (256 * r.val)) = ![512 * qq c + 256 * r.val, 0] := by revert c r; decide +kernel
theorem off2_eq_0 (c : Dev nD) : k0_off2 c 0#32 = ![512 * qq c, 0] := off2_eq c 0
theorem off2_eq_256 (c : Dev nD) : k0_off2 c 256#32 = ![512 * qq c + 256, 0] := off2_eq c 1

theorem off4_eq (c : Dev nD) (r : Fin 2) :
    k0_off4 c (BitVec.ofNat 32 (256 * r.val)) = ![512 * qd c + 256 * r.val, 0] := by revert c r; decide +kernel
theorem off4_eq_0 (c : Dev nD) : k0_off4 c 0#32 = ![512 * qd c, 0] := off4_eq c 0
theorem off4_eq_256 (c : Dev nD) : k0_off4 c 256#32 = ![512 * qd c + 256, 0] := off4_eq c 1

theorem off5_eq (c : Dev nD) : k0_off5 c = ![2048 * (c.val % 4), 0] := by revert c; decide +kernel

theorem off6_eq (c : Dev nD) (h : Fin 3) :
    k0_off6 c (BitVec.ofNat 32 h.val) = ![band (zA h.val c) (qq c) 0, 0] := by revert c h; decide +kernel
theorem off6_eq_0 (c : Dev nD) : k0_off6 c 0#32 = ![band (zA 0 c) (qq c) 0, 0] := off6_eq c 0
theorem off6_eq_1 (c : Dev nD) : k0_off6 c 1#32 = ![band (zA 1 c) (qq c) 0, 0] := off6_eq c 1
theorem off6_eq_2 (c : Dev nD) : k0_off6 c 2#32 = ![band (zA 2 c) (qq c) 0, 0] := off6_eq c 2

theorem off7_eq (c : Dev nD) (h : Fin 3) :
    k0_off7 c (BitVec.ofNat 32 h.val) = ![band (zB h.val c) (qq c) 256, 0] := by revert c h; decide +kernel
theorem off7_eq_0 (c : Dev nD) : k0_off7 c 0#32 = ![band (zB 0 c) (qq c) 256, 0] := off7_eq c 0
theorem off7_eq_1 (c : Dev nD) : k0_off7 c 1#32 = ![band (zB 1 c) (qq c) 256, 0] := off7_eq c 1
theorem off7_eq_2 (c : Dev nD) : k0_off7 c 2#32 = ![band (zB 2 c) (qq c) 256, 0] := off7_eq c 2

theorem off8_eq (c : Dev nD) (h : Fin 3) :
    k0_off8 c (BitVec.ofNat 32 h.val) = ![band (zA h.val c) (qd c) 0, 0] := by revert c h; decide +kernel
theorem off8_eq_0 (c : Dev nD) : k0_off8 c 0#32 = ![band (zA 0 c) (qd c) 0, 0] := off8_eq c 0
theorem off8_eq_1 (c : Dev nD) : k0_off8 c 1#32 = ![band (zA 1 c) (qd c) 0, 0] := off8_eq c 1
theorem off8_eq_2 (c : Dev nD) : k0_off8 c 2#32 = ![band (zA 2 c) (qd c) 0, 0] := off8_eq c 2

theorem off9_eq (c : Dev nD) (h : Fin 3) :
    k0_off9 c (BitVec.ofNat 32 h.val) = ![band (zB h.val c) (qd c) 256, 0] := by revert c h; decide +kernel
theorem off9_eq_0 (c : Dev nD) : k0_off9 c 0#32 = ![band (zB 0 c) (qd c) 256, 0] := off9_eq c 0
theorem off9_eq_1 (c : Dev nD) : k0_off9 c 1#32 = ![band (zB 1 c) (qd c) 256, 0] := off9_eq c 1
theorem off9_eq_2 (c : Dev nD) : k0_off9 c 2#32 = ![band (zB 2 c) (qd c) 256, 0] := off9_eq c 2

theorem off10_eq (c : Dev nD) (h : Fin 3) :
    k0_off10 c (BitVec.ofNat 32 h.val) = ![band (zA h.val c) (qy c) 0, 0] := by revert c h; decide +kernel
theorem off10_eq_0 (c : Dev nD) : k0_off10 c 0#32 = ![band (zA 0 c) (qy c) 0, 0] := off10_eq c 0
theorem off10_eq_1 (c : Dev nD) : k0_off10 c 1#32 = ![band (zA 1 c) (qy c) 0, 0] := off10_eq c 1
theorem off10_eq_2 (c : Dev nD) : k0_off10 c 2#32 = ![band (zA 2 c) (qy c) 0, 0] := off10_eq c 2

theorem off11_eq (c : Dev nD) (h : Fin 3) :
    k0_off11 c (BitVec.ofNat 32 h.val) = ![band (zA h.val c) (qy c) 88, 0] := by revert c h; decide +kernel
theorem off11_eq_0 (c : Dev nD) : k0_off11 c 0#32 = ![band (zA 0 c) (qy c) 88, 0] := off11_eq c 0
theorem off11_eq_1 (c : Dev nD) : k0_off11 c 1#32 = ![band (zA 1 c) (qy c) 88, 0] := off11_eq c 1
theorem off11_eq_2 (c : Dev nD) : k0_off11 c 2#32 = ![band (zA 2 c) (qy c) 88, 0] := off11_eq c 2

theorem off12_eq (c : Dev nD) (h : Fin 3) :
    k0_off12 c (BitVec.ofNat 32 h.val) = ![band (zB h.val c) (qx c) 256, 0] := by revert c h; decide +kernel
theorem off12_eq_0 (c : Dev nD) : k0_off12 c 0#32 = ![band (zB 0 c) (qx c) 256, 0] := off12_eq c 0
theorem off12_eq_1 (c : Dev nD) : k0_off12 c 1#32 = ![band (zB 1 c) (qx c) 256, 0] := off12_eq c 1
theorem off12_eq_2 (c : Dev nD) : k0_off12 c 2#32 = ![band (zB 2 c) (qx c) 256, 0] := off12_eq c 2

theorem off13_eq (c : Dev nD) (h : Fin 3) :
    k0_off13 c (BitVec.ofNat 32 h.val) = ![band (zB h.val c) (qx c) 344, 0] := by revert c h; decide +kernel
theorem off13_eq_0 (c : Dev nD) : k0_off13 c 0#32 = ![band (zB 0 c) (qx c) 344, 0] := off13_eq c 0
theorem off13_eq_1 (c : Dev nD) : k0_off13 c 1#32 = ![band (zB 1 c) (qx c) 344, 0] := off13_eq c 1
theorem off13_eq_2 (c : Dev nD) : k0_off13 c 2#32 = ![band (zB 2 c) (qx c) 344, 0] := off13_eq c 2

theorem off14_eq (c : Dev nD) (h : Fin 3) :
    k0_off14 c (BitVec.ofNat 32 h.val) = ![band (zA h.val c) (qx c) 0, 0] := by revert c h; decide +kernel
theorem off14_eq_0 (c : Dev nD) : k0_off14 c 0#32 = ![band (zA 0 c) (qx c) 0, 0] := off14_eq c 0
theorem off14_eq_1 (c : Dev nD) : k0_off14 c 1#32 = ![band (zA 1 c) (qx c) 0, 0] := off14_eq c 1
theorem off14_eq_2 (c : Dev nD) : k0_off14 c 2#32 = ![band (zA 2 c) (qx c) 0, 0] := off14_eq c 2

theorem off15_eq (c : Dev nD) (h : Fin 3) :
    k0_off15 c (BitVec.ofNat 32 h.val) = ![band (zB h.val c) (qy c) 256, 0] := by revert c h; decide +kernel
theorem off15_eq_0 (c : Dev nD) : k0_off15 c 0#32 = ![band (zB 0 c) (qy c) 256, 0] := off15_eq c 0
theorem off15_eq_1 (c : Dev nD) : k0_off15 c 1#32 = ![band (zB 1 c) (qy c) 256, 0] := off15_eq c 1
theorem off15_eq_2 (c : Dev nD) : k0_off15 c 2#32 = ![band (zB 2 c) (qy c) 256, 0] := off15_eq c 2

theorem off16_eq (c : Dev nD) (h : Fin 3) :
    k0_off16 c (BitVec.ofNat 32 h.val) = ![band (zA h.val c) (qd c) 88, 0] := by revert c h; decide +kernel
theorem off16_eq_0 (c : Dev nD) : k0_off16 c 0#32 = ![band (zA 0 c) (qd c) 88, 0] := off16_eq c 0
theorem off16_eq_1 (c : Dev nD) : k0_off16 c 1#32 = ![band (zA 1 c) (qd c) 88, 0] := off16_eq c 1
theorem off16_eq_2 (c : Dev nD) : k0_off16 c 2#32 = ![band (zA 2 c) (qd c) 88, 0] := off16_eq c 2

theorem off17_eq (c : Dev nD) (h : Fin 3) :
    k0_off17 c (BitVec.ofNat 32 h.val) = ![band (zB h.val c) (qd c) 344, 0] := by revert c h; decide +kernel
theorem off17_eq_0 (c : Dev nD) : k0_off17 c 0#32 = ![band (zB 0 c) (qd c) 344, 0] := off17_eq c 0
theorem off17_eq_1 (c : Dev nD) : k0_off17 c 1#32 = ![band (zB 1 c) (qd c) 344, 0] := off17_eq c 1
theorem off17_eq_2 (c : Dev nD) : k0_off17 c 2#32 = ![band (zB 2 c) (qd c) 344, 0] := off17_eq c 2

/-! ## Bands seen from a peer

A transfer's source rows on the sender and its landing rows on the receiver are the same rows: the block and the
quarter a device names for a piece are the ones its peer names for it, one hop later round the ring and at the same hop
across x or y. -/

theorem peer0_mod4 (c : Dev nD) : (peer 0 c).val % 4 = (c.val % 4 + 3) % 4 := by revert c; decide
theorem peer1_mod4 (c : Dev nD) : (peer 1 c).val % 4 = (c.val % 4 + 1) % 4 := by revert c; decide
theorem peer2_mod4 (c : Dev nD) : (peer 2 c).val % 4 = c.val % 4 := by revert c; decide
theorem peer3_mod4 (c : Dev nD) : (peer 3 c).val % 4 = c.val % 4 := by revert c; decide

/-- The block arriving from below at hop `h` is the one that arrived at the neighbour above one hop later. -/
theorem zA_up (h : ℕ) (hh : h < 3) (c : Dev nD) : zA (h + 1) (peer 1 c) = zA h c := by
  obtain rfl | rfl | rfl : h = 0 ∨ h = 1 ∨ h = 2 := by omega
  all_goals (revert c; decide)
theorem zA_up_0 (c : Dev nD) : zA 1 (peer 1 c) = zA 0 c := zA_up 0 (by decide) c
theorem zA_up_1 (c : Dev nD) : zA 2 (peer 1 c) = zA 1 c := zA_up 1 (by decide) c

/-- The block arriving from above at hop `h` is the one that arrived at the neighbour below one hop later. -/
theorem zB_down (h : ℕ) (c : Dev nD) : zB (h + 1) (peer 0 c) = zB h c := by
  unfold zB; rw [peer0_mod4]; omega
theorem zB_down_0 (c : Dev nD) : zB 1 (peer 0 c) = zB 0 c := zB_down 0 c
theorem zB_down_1 (c : Dev nD) : zB 2 (peer 0 c) = zB 1 c := zB_down 1 c

/-- A device's own block is the first to arrive at its neighbour above from below, and at its neighbour below from
    above. -/
theorem zA0_peer1 (c : Dev nD) : zA 0 (peer 1 c) = c.val % 4 := by revert c; decide
theorem zB0_peer0 (c : Dev nD) : zB 0 (peer 0 c) = c.val % 4 := by revert c; decide

theorem zA_peer2 (h : ℕ) (c : Dev nD) : zA h (peer 2 c) = zA h c := by unfold zA; rw [peer2_mod4]
theorem zA_peer3 (h : ℕ) (c : Dev nD) : zA h (peer 3 c) = zA h c := by unfold zA; rw [peer3_mod4]
theorem zB_peer2 (h : ℕ) (c : Dev nD) : zB h (peer 2 c) = zB h c := by unfold zB; rw [peer2_mod4]
theorem zB_peer3 (h : ℕ) (c : Dev nD) : zB h (peer 3 c) = zB h c := by unfold zB; rw [peer3_mod4]

theorem qq_peer0 (c : Dev nD) : qq (peer 0 c) = qq c := by revert c; decide
theorem qq_peer1 (c : Dev nD) : qq (peer 1 c) = qq c := by revert c; decide
theorem qx_peer0 (c : Dev nD) : qx (peer 0 c) = qx c := by revert c; decide
theorem qx_peer1 (c : Dev nD) : qx (peer 1 c) = qx c := by revert c; decide
theorem qy_peer0 (c : Dev nD) : qy (peer 0 c) = qy c := by revert c; decide
theorem qy_peer1 (c : Dev nD) : qy (peer 1 c) = qy c := by revert c; decide
theorem qd_peer0 (c : Dev nD) : qd (peer 0 c) = qd c := by revert c; decide
theorem qd_peer1 (c : Dev nD) : qd (peer 1 c) = qd c := by revert c; decide

theorem qx_peer2 (c : Dev nD) : qx (peer 2 c) = qq c := by revert c; decide
theorem qq_peer2 (c : Dev nD) : qq (peer 2 c) = qx c := by revert c; decide
theorem qy_peer3 (c : Dev nD) : qy (peer 3 c) = qq c := by revert c; decide
theorem qq_peer3 (c : Dev nD) : qq (peer 3 c) = qy c := by revert c; decide
theorem qd_peer2 (c : Dev nD) : qd (peer 2 c) = qy c := by revert c; decide
theorem qd_peer3 (c : Dev nD) : qd (peer 3 c) = qx c := by revert c; decide
theorem qy_peer2 (c : Dev nD) : qy (peer 2 c) = qd c := by revert c; decide
theorem qx_peer3 (c : Dev nD) : qx (peer 3 c) = qd c := by revert c; decide

end Cert.KernelIdeal.AG

end
-- ==== Proof.Regions.lean ====
/-
  Row bands of the buffers as index sets, and ownership of bands split and joined.

  Contents.  A slice of the scratch array, of the result or of the staged block taken at row offset a with n rows
  and all 512 columns covers exactly the rows a ≤ r < a + n.  Bands of rows are contained in one another, disjoint,
  and joined as their bounds say.  Ownership of a band splits along the share and along the rows, and joins back.
  What a transfer between two bands of equal height leaves in the destination band is the source band's contents,
  row by row.
-/
import proofs.«900685_g7700000000000686_dist_ag_v7x_xyz2x2x4_z_m2048_n512_f32_1_alg».proof.Proof.Sched
import proofs.«900685_g7700000000000686_dist_ag_v7x_xyz2x2x4_z_m2048_n512_f32_1_alg».proof.Proof.Offsets

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Bands of rows, compared -/

theorem Rows_sub {a n a' n' : ℕ} (h : a ≤ a' ∧ a' + n' ≤ a + n) : Rows a' n' ⊆ Rows a n := by
  intro i hi; rw [mem_Rows] at hi ⊢; omega

theorem Rows_disjoint {a n a' n' : ℕ} (h : a + n ≤ a') : Disjoint (Rows a n) (Rows a' n') := by
  rw [Finset.disjoint_left]; intro i hi hj; rw [mem_Rows] at hi hj; omega

theorem Rows_union (a n₁ n₂ : ℕ) : Rows a n₁ ∪ Rows (a + n₁) n₂ = Rows a (n₁ + n₂) := by
  ext i; rw [Finset.mem_union, mem_Rows, mem_Rows, mem_Rows]; omega

theorem Rows_sdiff_left (a n₁ n₂ : ℕ) : Rows a (n₁ + n₂) \ Rows a n₁ = Rows (a + n₁) n₂ := by
  ext i; rw [Finset.mem_sdiff, mem_Rows, mem_Rows, mem_Rows]; omega

theorem Rows_univ : Rows 0 8192 = Finset.univ := by
  ext i
  have h : (i 0).val < 8192 := (i 0).isLt
  rw [mem_Rows]; exact ⟨fun _ => Finset.mem_univ _, fun _ => ⟨Nat.zero_le _, by omega⟩⟩

theorem BRows_sub {a n a' n' : ℕ} (h : a ≤ a' ∧ a' + n' ≤ a + n) : BRows a' n' ⊆ BRows a n := by
  intro i hi; rw [mem_BRows] at hi ⊢; omega

theorem BRows_disjoint {a n a' n' : ℕ} (h : a + n ≤ a') : Disjoint (BRows a n) (BRows a' n') := by
  rw [Finset.disjoint_left]; intro i hi hj; rw [mem_BRows] at hi hj; omega

theorem BRows_union (a n₁ n₂ : ℕ) : BRows a n₁ ∪ BRows (a + n₁) n₂ = BRows a (n₁ + n₂) := by
  ext i; rw [Finset.mem_union, mem_BRows, mem_BRows, mem_BRows]; omega

theorem BRows_sdiff_left (a n₁ n₂ : ℕ) : BRows a (n₁ + n₂) \ BRows a n₁ = BRows (a + n₁) n₂ := by
  ext i; rw [Finset.mem_sdiff, mem_BRows, mem_BRows, mem_BRows]; omega

theorem BRows_univ : BRows 0 2048 = Finset.univ := by
  ext i
  have h : (i 0).val < 2048 := (i 0).isLt
  rw [mem_BRows]; exact ⟨fun _ => Finset.mem_univ _, fun _ => ⟨Nat.zero_le _, by omega⟩⟩

/-! ## The rows a slice covers -/

/-- The rows of a rectangle of an 8192-row buffer that starts at row `a`, column 0, and has `n` rows of 512. -/
theorem mem_unit_rows {a n : ℕ} {off sz : Fin 2 → ℕ} (h : off = ![a, 0]) (hz : sz = ![n, 512])
    (inb : ∀ x, off x + sz x ≤ S8192x512.size x) (i : S8192x512.Idx) :
    i ∈ (Rect.unit (s := S8192x512) off sz inb).set ↔ i ∈ Rows a n := by
  subst h; subst hz
  rw [Rect.mem_set_unit, mem_Rows, Fin.forall_fin_two]
  have h1 : (i 1).val < 512 := (i 1).isLt
  show (a ≤ (i 0).val ∧ (i 0).val < a + n) ∧ (0 ≤ (i 1).val ∧ (i 1).val < 0 + 512) ↔ _
  omega

/-- The same of a rectangle of the 2048-row block. -/
theorem mem_unit_brows {a n : ℕ} {off sz : Fin 2 → ℕ} (h : off = ![a, 0]) (hz : sz = ![n, 512])
    (inb : ∀ x, off x + sz x ≤ S2048x512.size x) (i : S2048x512.Idx) :
    i ∈ (Rect.unit (s := S2048x512) off sz inb).set ↔ i ∈ BRows a n := by
  subst h; subst hz
  rw [Rect.mem_set_unit, mem_BRows, Fin.forall_fin_two]
  have h1 : (i 1).val < 512 := (i 1).isLt
  show (a ≤ (i 0).val ∧ (i 0).val < a + n) ∧ (0 ≤ (i 1).val ∧ (i 1).val < 0 + 512) ↔ _
  omega

/-- A slice of the scratch array at row `a` with `n` rows covers rows `a ≤ r < a + n`. -/
theorem slice_set_stage {a n : ℕ} {off sz : Fin 2 → ℕ} (h : off = ![a, 0]) (hz : sz = ![n, 512])
    (inb : ∀ x, off x + sz x ≤ S8192x512.size x) (hs) :
    ((Memref.whole cc0_scratch0 : Memref sig .tc .vmem S8192x512 .f32).slice
      (Rect.unit (s := S8192x512) off sz inb) hs).view.set = Rows a n := by
  show ((View.whole cc0_scratch0).slice (Rect.unit (s := S8192x512) off sz inb)).set = Rows a n
  rw [View.set_slice_whole]
  exact Finset.ext fun i => mem_unit_rows h hz inb i

/-- A slice of the result at row `a` with `n` rows covers rows `a ≤ r < a + n`. -/
theorem slice_set_out {a n : ℕ} {off sz : Fin 2 → ℕ} (h : off = ![a, 0]) (hz : sz = ![n, 512])
    (inb : ∀ x, off x + sz x ≤ S8192x512.size x) (hs) :
    ((Memref.whole main_v1 : Memref sig .tc .hbm S8192x512 .f32).slice
      (Rect.unit (s := S8192x512) off sz inb) hs).view.set = Rows a n := by
  show ((View.whole main_v1).slice (Rect.unit (s := S8192x512) off sz inb)).set = Rows a n
  rw [View.set_slice_whole]
  exact Finset.ext fun i => mem_unit_rows h hz inb i

/-- A slice of the staged block at row `a` with `n` rows covers rows `a ≤ r < a + n`. -/
theorem slice_set_blk {a n : ℕ} {off sz : Fin 2 → ℕ} (h : off = ![a, 0]) (hz : sz = ![n, 512])
    (inb : ∀ x, off x + sz x ≤ S2048x512.size x) (hs) :
    ((Memref.whole cc0_stg0_0 : Memref sig .tc .vmem S2048x512 .f32).slice
      (Rect.unit (s := S2048x512) off sz inb) hs).view.set = BRows a n := by
  show ((View.whole cc0_stg0_0).slice (Rect.unit (s := S2048x512) off sz inb)).set = BRows a n
  rw [View.set_slice_whole]
  exact Finset.ext fun i => mem_unit_brows h hz inb i

/-- The whole staged block covers all its rows. -/
theorem whole_set_blk :
    (Memref.whole cc0_stg0_0 : Memref sig .tc .vmem S2048x512 .f32).view.set = BRows 0 2048 := by
  rw [BRows_univ]; exact View.set_whole cc0_stg0_0

/-- A slice lives where its buffer does. -/
theorem slice_loc_stage (c : Dev nD) (r : Rect S8192x512) (hs) :
    ((Memref.whole cc0_scratch0 : Memref sig .tc .vmem S8192x512 .f32).slice r hs).view.loc (c : Thread nD τ)
      = (c : Thread nD τ).loc cc0_scratch0 := rfl
theorem slice_loc_out (c : Dev nD) (r : Rect S8192x512) (hs) :
    ((Memref.whole main_v1 : Memref sig .tc .hbm S8192x512 .f32).slice r hs).view.loc (c : Thread nD τ)
      = (c : Thread nD τ).loc main_v1 := rfl
theorem slice_loc_blk (c : Dev nD) (r : Rect S2048x512) (hs) :
    ((Memref.whole cc0_stg0_0 : Memref sig .tc .vmem S2048x512 .f32).slice r hs).view.loc (c : Thread nD τ)
      = (c : Thread nD τ).loc cc0_stg0_0 := rfl
theorem whole_loc_blk (c : Dev nD) :
    (Memref.whole cc0_stg0_0 : Memref sig .tc .vmem S2048x512 .f32).view.loc (c : Thread nD τ)
      = (c : Thread nD τ).loc cc0_stg0_0 := rfl

/-! ## Ownership of bands, split and joined -/

omit [FloatOps F] in
/-- Ownership of a band of the scratch array splits along the share. -/
theorem sPts_share (c : Dev nD) (a n : ℕ) (q : PosShare TreeShare) (X : (cc0_scratch0 : Ref sig .tc).ty.Contents (Elt F)) :
    sPts c a n q X ⊣⊢ iprop(sPts c a n q.left X ∗ sPts c a n q.right X) := by
  unfold sPts; exact Region.is_share (PosShare.mem_left_op_right q)

omit [FloatOps F] in
/-- Ownership of a band of the scratch array splits along the rows. -/
theorem sPts_rows (c : Dev nD) (a n₁ n₂ : ℕ) (q : PosShare TreeShare) (X : (cc0_scratch0 : Ref sig .tc).ty.Contents (Elt F)) :
    sPts c a (n₁ + n₂) q X ⊣⊢ iprop(sPts c a n₁ q X ∗ sPts c (a + n₁) n₂ q X) := by
  unfold sPts; rw [← Rows_union]; exact Region.is_union (Rows_disjoint (Nat.le_refl _))

omit [FloatOps F] in
/-- Only the contents inside the band matter. -/
theorem sPts_congr {c : Dev nD} {a n : ℕ} {q : PosShare TreeShare} {X Y : (cc0_scratch0 : Ref sig .tc).ty.Contents (Elt F)}
    (h : ∀ i ∈ Rows a n, X i = Y i) : sPts c a n q X = sPts c a n q Y := by
  unfold sPts; exact Region.is_congr h

omit [FloatOps F] in
/-- Two adjacent bands at different contents join into one band, at the contents of each on its rows. -/
theorem sPts_join (c : Dev nD) (a n₁ n₂ : ℕ) (q : PosShare TreeShare) (X Y : (cc0_scratch0 : Ref sig .tc).ty.Contents (Elt F)) :
    iprop(sPts c a n₁ q X ∗ sPts c (a + n₁) n₂ q Y) ⊢ sPts c a (n₁ + n₂) q ((Rows (a + n₁) n₂).piecewise Y X) := by
  unfold sPts; rw [← Rows_union]; exact Region.is_join (Rows_disjoint (Nat.le_refl _))

omit [FloatOps F] in
theorem sPts_join_any (c : Dev nD) (a n₁ n₂ : ℕ) (q : PosShare TreeShare) (X Y : (cc0_scratch0 : Ref sig .tc).ty.Contents (Elt F)) :
    iprop(sPts c a n₁ q X ∗ sPts c (a + n₁) n₂ q Y) ⊢ iprop(∃ Z, sPts c a (n₁ + n₂) q Z) :=
  (sPts_join c a n₁ n₂ q X Y).trans (exists_intro (Φ := fun Z => sPts c a (n₁ + n₂) q Z) _)

omit [FloatOps F] in
/-- The whole scratch array is its band of all rows. -/
theorem whole_stage_eq (c : Dev nD) (q : PosShare TreeShare) (f : (cc0_scratch0 : Ref sig .tc).ty.Contents (Elt F)) :
    (((c : Thread nD τ).loc cc0_scratch0) ↦{q} f : sProp 𝕄) = sPts c 0 8192 q f := by
  unfold sPts; rw [Rows_univ]

omit [FloatOps F] in
theorem whole_stage (c : Dev nD) (f : (cc0_scratch0 : Ref sig .tc).ty.Contents (Elt F)) :
    (((c : Thread nD τ).loc cc0_scratch0) ↦{fullShare} f : sProp 𝕄) ⊣⊢ sPts c 0 8192 fullShare f :=
  .of_eq (whole_stage_eq c fullShare f)

omit [FloatOps F] in
/-- Ownership of a band of the result splits along the share. -/
theorem oPts_share (c : Dev nD) (a n : ℕ) (q : PosShare TreeShare) (X : (main_v1 : Ref sig .tc).ty.Contents (Elt F)) :
    oPts c a n q X ⊣⊢ iprop(oPts c a n q.left X ∗ oPts c a n q.right X) := by
  unfold oPts; exact Region.is_share (PosShare.mem_left_op_right q)

omit [FloatOps F] in
/-- Ownership of a band of the result splits along the rows. -/
theorem oPts_rows (c : Dev nD) (a n₁ n₂ : ℕ) (q : PosShare TreeShare) (X : (main_v1 : Ref sig .tc).ty.Contents (Elt F)) :
    oPts c a (n₁ + n₂) q X ⊣⊢ iprop(oPts c a n₁ q X ∗ oPts c (a + n₁) n₂ q X) := by
  unfold oPts; rw [← Rows_union]; exact Region.is_union (Rows_disjoint (Nat.le_refl _))

omit [FloatOps F] in
theorem oPts_congr {c : Dev nD} {a n : ℕ} {q : PosShare TreeShare} {X Y : (main_v1 : Ref sig .tc).ty.Contents (Elt F)}
    (h : ∀ i ∈ Rows a n, X i = Y i) : oPts c a n q X = oPts c a n q Y := by
  unfold oPts; exact Region.is_congr h

omit [FloatOps F] in
theorem oPts_join (c : Dev nD) (a n₁ n₂ : ℕ) (q : PosShare TreeShare) (X Y : (main_v1 : Ref sig .tc).ty.Contents (Elt F)) :
    iprop(oPts c a n₁ q X ∗ oPts c (a + n₁) n₂ q Y) ⊢ oPts c a (n₁ + n₂) q ((Rows (a + n₁) n₂).piecewise Y X) := by
  unfold oPts; rw [← Rows_union]; exact Region.is_join (Rows_disjoint (Nat.le_refl _))

omit [FloatOps F] in
theorem oPts_join_any (c : Dev nD) (a n₁ n₂ : ℕ) (q : PosShare TreeShare) (X Y : (main_v1 : Ref sig .tc).ty.Contents (Elt F)) :
    iprop(oPts c a n₁ q X ∗ oPts c (a + n₁) n₂ q Y) ⊢ iprop(∃ Z, oPts c a (n₁ + n₂) q Z) :=
  (oPts_join c a n₁ n₂ q X Y).trans (exists_intro (Φ := fun Z => oPts c a (n₁ + n₂) q Z) _)

omit [FloatOps F] in
/-- The whole result is its band of all rows. -/
theorem whole_out_eq (c : Dev nD) (q : PosShare TreeShare) (f : (main_v1 : Ref sig .tc).ty.Contents (Elt F)) :
    (((c : Thread nD τ).loc main_v1) ↦{q} f : sProp 𝕄) = oPts c 0 8192 q f := by
  unfold oPts; rw [Rows_univ]

omit [FloatOps F] in
theorem whole_out (c : Dev nD) (f : (main_v1 : Ref sig .tc).ty.Contents (Elt F)) :
    (((c : Thread nD τ).loc main_v1) ↦{fullShare} f : sProp 𝕄) ⊣⊢ oPts c 0 8192 fullShare f :=
  .of_eq (whole_out_eq c fullShare f)

/-- Ownership of a band of the staged block splits along the share. -/
theorem xPts_share (c : Dev nD) (a n : ℕ) (q : PosShare TreeShare) :
    xPts m c a n q ⊣⊢ iprop(xPts m c a n q.left ∗ xPts m c a n q.right) := by
  unfold xPts; exact Region.is_share (PosShare.mem_left_op_right q)

/-- Ownership of a band of the staged block splits along the rows. -/
theorem xPts_rows (c : Dev nD) (a n₁ n₂ : ℕ) (q : PosShare TreeShare) :
    xPts m c a (n₁ + n₂) q ⊣⊢ iprop(xPts m c a n₁ q ∗ xPts m c (a + n₁) n₂ q) := by
  unfold xPts; rw [← BRows_union]; exact Region.is_union (BRows_disjoint (Nat.le_refl _))

/-- Only the contents inside the band matter: a band of the staged block at any contents equal to the block's there. -/
theorem xPts_congr {c : Dev nD} {a n : ℕ} {q : PosShare TreeShare} {Y : (cc0_stg0_0 : Ref sig .tc).ty.Contents (Elt F)}
    (h : ∀ i ∈ BRows a n, Y i = xstg m c i) :
    ((((c : Thread nD τ).loc cc0_stg0_0) ↦[BRows a n]{q} Y : sProp 𝕄)) = xPts m c a n q := by
  unfold xPts; exact Region.is_congr h

/-- The whole staged block is its band of all rows. -/
theorem whole_blk_eq (c : Dev nD) (q : PosShare TreeShare) :
    (((c : Thread nD τ).loc cc0_stg0_0) ↦{q} xstg m c : sProp 𝕄) = xPts m c 0 2048 q := by
  unfold xPts; rw [BRows_univ]

theorem whole_blk (c : Dev nD) :
    (((c : Thread nD τ).loc cc0_stg0_0) ↦{fullShare} xstg m c : sProp 𝕄) ⊣⊢ xPts m c 0 2048 fullShare :=
  .of_eq (whole_blk_eq m c fullShare)

/-! ## Ownership through a slice is ownership of its band -/

omit [FloatOps F] in
theorem pts_slice_stage (c : Dev nD) (q : PosShare TreeShare) {a n : ℕ} {off sz : Fin 2 → ℕ} (h : off = ![a, 0])
    (hz : sz = ![n, 512]) (inb : ∀ x, off x + sz x ≤ S8192x512.size x) (hs)
    (f : (cc0_scratch0 : Ref sig .tc).ty.Contents (Elt F)) :
    ((((Memref.whole cc0_scratch0 : Memref sig .tc .vmem S8192x512 .f32).slice
        (Rect.unit (s := S8192x512) off sz inb) hs).view.loc (c : Thread nD τ))
      ↦[((Memref.whole cc0_scratch0 : Memref sig .tc .vmem S8192x512 .f32).slice
        (Rect.unit (s := S8192x512) off sz inb) hs).view.set]{q} f : sProp 𝕄) = sPts c a n q f := by
  unfold sPts; rw [slice_set_stage h hz inb hs]

omit [FloatOps F] in
theorem pts_slice_out (c : Dev nD) (q : PosShare TreeShare) {a n : ℕ} {off sz : Fin 2 → ℕ} (h : off = ![a, 0])
    (hz : sz = ![n, 512]) (inb : ∀ x, off x + sz x ≤ S8192x512.size x) (hs)
    (f : (main_v1 : Ref sig .tc).ty.Contents (Elt F)) :
    ((((Memref.whole main_v1 : Memref sig .tc .hbm S8192x512 .f32).slice
        (Rect.unit (s := S8192x512) off sz inb) hs).view.loc (c : Thread nD τ))
      ↦[((Memref.whole main_v1 : Memref sig .tc .hbm S8192x512 .f32).slice
        (Rect.unit (s := S8192x512) off sz inb) hs).view.set]{q} f : sProp 𝕄) = oPts c a n q f := by
  unfold oPts; rw [slice_set_out h hz inb hs]

theorem pts_slice_blk (c : Dev nD) (q : PosShare TreeShare) {a n : ℕ} {off sz : Fin 2 → ℕ} (h : off = ![a, 0])
    (hz : sz = ![n, 512]) (inb : ∀ x, off x + sz x ≤ S2048x512.size x) (hs) :
    ((((Memref.whole cc0_stg0_0 : Memref sig .tc .vmem S2048x512 .f32).slice
        (Rect.unit (s := S2048x512) off sz inb) hs).view.loc (c : Thread nD τ))
      ↦[((Memref.whole cc0_stg0_0 : Memref sig .tc .vmem S2048x512 .f32).slice
        (Rect.unit (s := S2048x512) off sz inb) hs).view.set]{q} xstg m c : sProp 𝕄) = xPts m c a n q := by
  unfold xPts; rw [slice_set_blk h hz inb hs]

theorem pts_whole_blk (c : Dev nD) (q : PosShare TreeShare) :
    (((Memref.whole cc0_stg0_0 : Memref sig .tc .vmem S2048x512 .f32).view.loc (c : Thread nD τ))
      ↦[(Memref.whole cc0_stg0_0 : Memref sig .tc .vmem S2048x512 .f32).view.set]{q} xstg m c : sProp 𝕄)
      = xPts m c 0 2048 q := by
  unfold xPts; rw [whole_set_blk]

/-! ## What a transfer leaves in the destination band -/

omit [FloatOps F] in
/-- Between two bands of the scratch array at the same rows: under each row of the band, what the source held there. -/
theorem land_stage_stage_apply {a n : ℕ} {offs offd sz : Fin 2 → ℕ} (hs : offs = ![a, 0]) (hd : offd = ![a, 0])
    (hz : sz = ![n, 512]) (inbs : ∀ x, offs x + sz x ≤ S8192x512.size x) (inbd : ∀ x, offd x + sz x ≤ S8192x512.size x)
    (us) (ud) (fs fd : (cc0_scratch0 : Ref sig .tc).ty.Contents (Elt F)) (i : S8192x512.Idx) (hi : i ∈ Rows a n) :
    ((Memref.whole cc0_scratch0 : Memref sig .tc .vmem S8192x512 .f32).slice
        (Rect.unit (s := S8192x512) offd sz inbd) ud).view.write (Elt F) fd
      (((Memref.whole cc0_scratch0 : Memref sig .tc .vmem S8192x512 .f32).slice
        (Rect.unit (s := S8192x512) offs sz inbs) us).view.read (Elt F) fs) Finset.univ i = fs i := by
  subst hs; subst hd
  rw [← slice_set_stage rfl hz inbd ud] at hi
  obtain ⟨y, -, rfl⟩ := Finset.mem_map.mp hi
  rw [View.write_emb_of_mem _ _ (Finset.mem_univ y), View.read_apply]
  rfl

omit [FloatOps F] in
/-- From a band of the scratch array to the same rows of the result. -/
theorem land_stage_out_apply {a n : ℕ} {offs offd sz : Fin 2 → ℕ} (hs : offs = ![a, 0]) (hd : offd = ![a, 0])
    (hz : sz = ![n, 512]) (inbs : ∀ x, offs x + sz x ≤ S8192x512.size x) (inbd : ∀ x, offd x + sz x ≤ S8192x512.size x)
    (us) (ud) (fs : (cc0_scratch0 : Ref sig .tc).ty.Contents (Elt F)) (fd : (main_v1 : Ref sig .tc).ty.Contents (Elt F))
    (i : S8192x512.Idx) (hi : i ∈ Rows a n) :
    ((Memref.whole main_v1 : Memref sig .tc .hbm S8192x512 .f32).slice
        (Rect.unit (s := S8192x512) offd sz inbd) ud).view.write (Elt F) fd
      (((Memref.whole cc0_scratch0 : Memref sig .tc .vmem S8192x512 .f32).slice
        (Rect.unit (s := S8192x512) offs sz inbs) us).view.read (Elt F) fs) Finset.univ i = fs i := by
  subst hs; subst hd
  rw [← slice_set_out rfl hz inbd ud] at hi
  obtain ⟨y, -, rfl⟩ := Finset.mem_map.mp hi
  rw [View.write_emb_of_mem _ _ (Finset.mem_univ y), View.read_apply]
  rfl

omit [FloatOps F] in
/-- From rows `b ≤ r < b + n` of the staged block to rows `2048 z + b ≤ r < 2048 z + b + n` of the scratch array:
    under row `r` of the band, what the block held at row `r mod 2048`. -/
theorem land_blk_stage_apply {z b n : ℕ} {offs offd sz : Fin 2 → ℕ} (hs : offs = ![b, 0]) (hd : offd = ![2048 * z + b, 0])
    (hz : sz = ![n, 512]) (inbs : ∀ x, offs x + sz x ≤ S2048x512.size x) (inbd : ∀ x, offd x + sz x ≤ S8192x512.size x)
    (us) (ud) (g : (cc0_stg0_0 : Ref sig .tc).ty.Contents (Elt F)) (fd : (cc0_scratch0 : Ref sig .tc).ty.Contents (Elt F))
    (i : S8192x512.Idx) (hi : i ∈ Rows (2048 * z + b) n) :
    ((Memref.whole cc0_scratch0 : Memref sig .tc .vmem S8192x512 .f32).slice
        (Rect.unit (s := S8192x512) offd sz inbd) ud).view.write (Elt F) fd
      (((Memref.whole cc0_stg0_0 : Memref sig .tc .vmem S2048x512 .f32).slice
        (Rect.unit (s := S2048x512) offs sz inbs) us).view.read (Elt F) g) Finset.univ i = g (rowmod i) := by
  subst hs; subst hd; subst hz
  rw [← slice_set_stage rfl rfl inbd ud] at hi
  obtain ⟨y, -, rfl⟩ := Finset.mem_map.mp hi
  rw [View.write_emb_of_mem _ _ (Finset.mem_univ y), View.read_apply]
  have hb : b + n ≤ 2048 := inbs 0
  have hy0 : (y 0).val < n := (y 0).isLt
  have hy1 : (y 1).val < 512 := (y 1).isLt
  show g _ = g _
  refine congrArg g (funext fun x => ?_)
  match x with
  | ⟨0, _⟩ => exact Fin.ext (show b + 1 * (y 0).val = (2048 * z + b + 1 * (y 0).val) % 2048 by omega)
  | ⟨1, _⟩ => exact Fin.ext (show 0 + 1 * (y 1).val = 0 + 1 * (y 1).val from rfl)

omit [FloatOps F] in
/-- From the whole staged block to rows `2048 z ≤ r < 2048 z + 2048` of the result. -/
theorem land_blk_out_apply {z : ℕ} {offd : Fin 2 → ℕ} (hd : offd = ![2048 * z, 0])
    (inbd : ∀ x, offd x + S2048x512.size x ≤ S8192x512.size x) (ud)
    (g : (cc0_stg0_0 : Ref sig .tc).ty.Contents (Elt F)) (fd : (main_v1 : Ref sig .tc).ty.Contents (Elt F))
    (i : S8192x512.Idx) (hi : i ∈ Rows (2048 * z) 2048) :
    ((Memref.whole main_v1 : Memref sig .tc .hbm S8192x512 .f32).slice
        (Rect.unit (s := S8192x512) offd S2048x512.size inbd) ud).view.write (Elt F) fd
      ((Memref.whole cc0_stg0_0 : Memref sig .tc .vmem S2048x512 .f32).view.read (Elt F) g) Finset.univ i
      = g (rowmod i) := by
  subst hd
  rw [← slice_set_out rfl rfl inbd ud] at hi
  obtain ⟨y, -, rfl⟩ := Finset.mem_map.mp hi
  rw [View.write_emb_of_mem _ _ (Finset.mem_univ y), View.read_apply]
  have hy0 : (y 0).val < 2048 := (y 0).isLt
  have hy1 : (y 1).val < 512 := (y 1).isLt
  show g _ = g _
  refine congrArg g (funext fun x => ?_)
  match x with
  | ⟨0, _⟩ => exact Fin.ext (show (y 0).val = (2048 * z + 1 * (y 0).val) % 2048 by omega)
  | ⟨1, _⟩ => exact Fin.ext (show (y 1).val = 0 + 1 * (y 1).val by omega)

/-- A transfer between two bands of scratch arrays at the same rows leaves device `d`'s rows where it read them. -/
theorem land_stage_stage (p d : Dev nD) (q : PosShare TreeShare) {a n : ℕ} {offs offd sz : Fin 2 → ℕ}
    (hs : offs = ![a, 0]) (hd : offd = ![a, 0]) (hz : sz = ![n, 512])
    (inbs : ∀ x, offs x + sz x ≤ S8192x512.size x) (inbd : ∀ x, offd x + sz x ≤ S8192x512.size x)
    (us) (ud) (fd : (cc0_scratch0 : Ref sig .tc).ty.Contents (Elt F)) :
    sPts p a n q
      (((Memref.whole cc0_scratch0 : Memref sig .tc .vmem S8192x512 .f32).slice
          (Rect.unit (s := S8192x512) offd sz inbd) ud).view.write (Elt F) fd
        (((Memref.whole cc0_scratch0 : Memref sig .tc .vmem S8192x512 .f32).slice
          (Rect.unit (s := S8192x512) offs sz inbs) us).view.read (Elt F) (Gd m d)) Finset.univ)
      = sPts p a n q (Gd m d) :=
  sPts_congr fun i hi => land_stage_stage_apply hs hd hz inbs inbd us ud (Gd m d) fd i hi

/-- A copy of a band of the scratch array into the same rows of the result leaves device `d`'s rows there. -/
theorem land_stage_out (p d : Dev nD) (q : PosShare TreeShare) {a n : ℕ} {offs offd sz : Fin 2 → ℕ}
    (hs : offs = ![a, 0]) (hd : offd = ![a, 0]) (hz : sz = ![n, 512])
    (inbs : ∀ x, offs x + sz x ≤ S8192x512.size x) (inbd : ∀ x, offd x + sz x ≤ S8192x512.size x)
    (us) (ud) (fd : (main_v1 : Ref sig .tc).ty.Contents (Elt F)) :
    oPts p a n q
      (((Memref.whole main_v1 : Memref sig .tc .hbm S8192x512 .f32).slice
          (Rect.unit (s := S8192x512) offd sz inbd) ud).view.write (Elt F) fd
        (((Memref.whole cc0_scratch0 : Memref sig .tc .vmem S8192x512 .f32).slice
          (Rect.unit (s := S8192x512) offs sz inbs) us).view.read (Elt F) (Gd m d)) Finset.univ)
      = oPts p a n q (Gd m d) :=
  oPts_congr fun i hi => land_stage_out_apply hs hd hz inbs inbd us ud (Gd m d) fd i hi

/-- A transfer of rows `b ≤ r < b + n` of device `c`'s staged block into rows `2048 z + b ≤ r` of a scratch array
    leaves device `c`'s rows there. -/
theorem land_blk_stage (p c : Dev nD) (q : PosShare TreeShare) {z b n : ℕ} {offs offd sz : Fin 2 → ℕ}
    (hs : offs = ![b, 0]) (hd : offd = ![2048 * z + b, 0]) (hz : sz = ![n, 512])
    (inbs : ∀ x, offs x + sz x ≤ S2048x512.size x) (inbd : ∀ x, offd x + sz x ≤ S8192x512.size x)
    (us) (ud) (fd : (cc0_scratch0 : Ref sig .tc).ty.Contents (Elt F)) :
    sPts p (2048 * z + b) n q
      (((Memref.whole cc0_scratch0 : Memref sig .tc .vmem S8192x512 .f32).slice
          (Rect.unit (s := S8192x512) offd sz inbd) ud).view.write (Elt F) fd
        (((Memref.whole cc0_stg0_0 : Memref sig .tc .vmem S2048x512 .f32).slice
          (Rect.unit (s := S2048x512) offs sz inbs) us).view.read (Elt F) (xstg m c)) Finset.univ)
      = sPts p (2048 * z + b) n q (Gd m c) :=
  sPts_congr fun i hi => land_blk_stage_apply hs hd hz inbs inbd us ud (xstg m c) fd i hi

/-- The copy of device `c`'s whole staged block into rows `2048 z ≤ r < 2048 z + 2048` of the result leaves device
    `c`'s rows there. -/
theorem land_blk_out (p c : Dev nD) (q : PosShare TreeShare) {z : ℕ} {offd : Fin 2 → ℕ} (hd : offd = ![2048 * z, 0])
    (inbd : ∀ x, offd x + S2048x512.size x ≤ S8192x512.size x) (ud)
    (fd : (main_v1 : Ref sig .tc).ty.Contents (Elt F)) :
    oPts p (2048 * z) 2048 q
      (((Memref.whole main_v1 : Memref sig .tc .hbm S8192x512 .f32).slice
          (Rect.unit (s := S8192x512) offd S2048x512.size inbd) ud).view.write (Elt F) fd
        ((Memref.whole cc0_stg0_0 : Memref sig .tc .vmem S2048x512 .f32).view.read (Elt F) (xstg m c)) Finset.univ)
      = oPts p (2048 * z) 2048 q (Gd m c) :=
  oPts_congr fun i hi => land_blk_out_apply hd inbd ud (xstg m c) fd i hi

end Cert.KernelIdeal.AG

end
-- ==== Proof.Coh.lean ====
/-
  What a transfer reads on the sender is what lands on the receiver.

  The piece of flow f that lands on a device's peer at hop h is, row for row and block for block, the band the device
  reads for it: for a ring flow's first hop a band of the device's own block, otherwise a band of a piece that landed
  on the device earlier.  The row offsets the program computes are the first rows of these pieces, on the device
  itself or on the peer the transfer is addressed to.
-/
import proofs.«900685_g7700000000000686_dist_ag_v7x_xyz2x2x4_z_m2048_n512_f32_1_alg».proof.Proof.Sched
import proofs.«900685_g7700000000000686_dist_ag_v7x_xyz2x2x4_z_m2048_n512_f32_1_alg».proof.Proof.Offsets

set_option Elab.async false

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Source and landing agree -/

/-- Away from a ring flow's first hop, the rows a piece lands in on the peer are the rows of the source band. -/
theorem coh_lo (f : Fin 10) (h : Fin 3) (c : Dev nD) (hh : ¬ (f.val < 4 ∧ h.val = 0)) :
    lo f h.val (peer (tgt f) c) = lo (srcOf f h).1 (srcOf f h).2.1 c + (srcOf f h).2.2 := by
  revert f h c; decide +kernel

/-- Away from a ring flow's first hop, the piece that lands on the peer comes from the same device's block as the
    source band. -/
theorem coh_org (f : Fin 10) (h : Fin 3) (c : Dev nD) (hh : ¬ (f.val < 4 ∧ h.val = 0)) :
    org f h.val (peer (tgt f) c) = org (srcOf f h).1 (srcOf f h).2.1 c := by
  revert f h c; decide +kernel

/-- A ring flow's first piece lands on the peer in the sender's block, at the rows it has in that block. -/
theorem coh_lo0 (f : Fin 10) (c : Dev nD) (hf : f.val < 4) :
    lo f 0 (peer (tgt f) c) = 2048 * (c.val % 4) + blkLo f c := by
  revert f c; decide +kernel

/-- A ring flow's first piece is a band of the sender's own block. -/
theorem coh_org0 (f : Fin 10) (c : Dev nD) (hf : f.val < 4) : org f 0 (peer (tgt f) c) = c := by
  revert f c; decide +kernel

theorem blkLo_add_le (f : Fin 10) (c : Dev nD) (hf : f.val < 4) : blkLo f c + flowRows f ≤ 2048 := by
  revert f c; decide +kernel

/-! ## The offsets the program computes, as first rows of pieces -/

/-! ### On the device itself -/

theorem off6_lo (c : Dev nD) (h : Fin 3) :
    k0_off6 c (BitVec.ofNat 32 h.val) = ![lo 0 h.val c, 0] := by revert c h; decide +kernel
theorem off6_lo_0 (c : Dev nD) : k0_off6 c 0#32 = ![lo 0 0 c, 0] := off6_lo c 0
theorem off6_lo_1 (c : Dev nD) : k0_off6 c 1#32 = ![lo 0 1 c, 0] := off6_lo c 1
theorem off6_lo_2 (c : Dev nD) : k0_off6 c 2#32 = ![lo 0 2 c, 0] := off6_lo c 2

theorem off7_lo (c : Dev nD) (h : Fin 3) :
    k0_off7 c (BitVec.ofNat 32 h.val) = ![lo 2 h.val c, 0] := by revert c h; decide +kernel
theorem off7_lo_0 (c : Dev nD) : k0_off7 c 0#32 = ![lo 2 0 c, 0] := off7_lo c 0
theorem off7_lo_1 (c : Dev nD) : k0_off7 c 1#32 = ![lo 2 1 c, 0] := off7_lo c 1
theorem off7_lo_2 (c : Dev nD) : k0_off7 c 2#32 = ![lo 2 2 c, 0] := off7_lo c 2

theorem off8_lo (c : Dev nD) (h : Fin 3) :
    k0_off8 c (BitVec.ofNat 32 h.val) = ![lo 1 h.val c, 0] := by revert c h; decide +kernel
theorem off8_lo_0 (c : Dev nD) : k0_off8 c 0#32 = ![lo 1 0 c, 0] := off8_lo c 0
theorem off8_lo_1 (c : Dev nD) : k0_off8 c 1#32 = ![lo 1 1 c, 0] := off8_lo c 1
theorem off8_lo_2 (c : Dev nD) : k0_off8 c 2#32 = ![lo 1 2 c, 0] := off8_lo c 2

theorem off9_lo (c : Dev nD) (h : Fin 3) :
    k0_off9 c (BitVec.ofNat 32 h.val) = ![lo 3 h.val c, 0] := by revert c h; decide +kernel
theorem off9_lo_0 (c : Dev nD) : k0_off9 c 0#32 = ![lo 3 0 c, 0] := off9_lo c 0
theorem off9_lo_1 (c : Dev nD) : k0_off9 c 1#32 = ![lo 3 1 c, 0] := off9_lo c 1
theorem off9_lo_2 (c : Dev nD) : k0_off9 c 2#32 = ![lo 3 2 c, 0] := off9_lo c 2

theorem off10_lo (c : Dev nD) (h : Fin 3) :
    k0_off10 c (BitVec.ofNat 32 h.val) = ![lo 6 h.val c, 0] := by revert c h; decide +kernel
theorem off10_lo_0 (c : Dev nD) : k0_off10 c 0#32 = ![lo 6 0 c, 0] := off10_lo c 0
theorem off10_lo_1 (c : Dev nD) : k0_off10 c 1#32 = ![lo 6 1 c, 0] := off10_lo c 1
theorem off10_lo_2 (c : Dev nD) : k0_off10 c 2#32 = ![lo 6 2 c, 0] := off10_lo c 2

theorem off11_lo (c : Dev nD) (h : Fin 3) :
    k0_off11 c (BitVec.ofNat 32 h.val) = ![lo 6 h.val c + 88, 0] := by revert c h; decide +kernel
theorem off11_lo_0 (c : Dev nD) : k0_off11 c 0#32 = ![lo 6 0 c + 88, 0] := off11_lo c 0
theorem off11_lo_1 (c : Dev nD) : k0_off11 c 1#32 = ![lo 6 1 c + 88, 0] := off11_lo c 1
theorem off11_lo_2 (c : Dev nD) : k0_off11 c 2#32 = ![lo 6 2 c + 88, 0] := off11_lo c 2

theorem off12_lo (c : Dev nD) (h : Fin 3) :
    k0_off12 c (BitVec.ofNat 32 h.val) = ![lo 5 h.val c, 0] := by revert c h; decide +kernel
theorem off12_lo_0 (c : Dev nD) : k0_off12 c 0#32 = ![lo 5 0 c, 0] := off12_lo c 0
theorem off12_lo_1 (c : Dev nD) : k0_off12 c 1#32 = ![lo 5 1 c, 0] := off12_lo c 1
theorem off12_lo_2 (c : Dev nD) : k0_off12 c 2#32 = ![lo 5 2 c, 0] := off12_lo c 2

theorem off13_lo (c : Dev nD) (h : Fin 3) :
    k0_off13 c (BitVec.ofNat 32 h.val) = ![lo 5 h.val c + 88, 0] := by revert c h; decide +kernel
theorem off13_lo_0 (c : Dev nD) : k0_off13 c 0#32 = ![lo 5 0 c + 88, 0] := off13_lo c 0
theorem off13_lo_1 (c : Dev nD) : k0_off13 c 1#32 = ![lo 5 1 c + 88, 0] := off13_lo c 1
theorem off13_lo_2 (c : Dev nD) : k0_off13 c 2#32 = ![lo 5 2 c + 88, 0] := off13_lo c 2

theorem off14_lo (c : Dev nD) (h : Fin 3) :
    k0_off14 c (BitVec.ofNat 32 h.val) = ![lo 4 h.val c, 0] := by revert c h; decide +kernel
theorem off14_lo_0 (c : Dev nD) : k0_off14 c 0#32 = ![lo 4 0 c, 0] := off14_lo c 0
theorem off14_lo_1 (c : Dev nD) : k0_off14 c 1#32 = ![lo 4 1 c, 0] := off14_lo c 1
theorem off14_lo_2 (c : Dev nD) : k0_off14 c 2#32 = ![lo 4 2 c, 0] := off14_lo c 2

theorem off15_lo (c : Dev nD) (h : Fin 3) :
    k0_off15 c (BitVec.ofNat 32 h.val) = ![lo 7 h.val c, 0] := by revert c h; decide +kernel
theorem off15_lo_0 (c : Dev nD) : k0_off15 c 0#32 = ![lo 7 0 c, 0] := off15_lo c 0
theorem off15_lo_1 (c : Dev nD) : k0_off15 c 1#32 = ![lo 7 1 c, 0] := off15_lo c 1
theorem off15_lo_2 (c : Dev nD) : k0_off15 c 2#32 = ![lo 7 2 c, 0] := off15_lo c 2

theorem off16_lo (c : Dev nD) (h : Fin 3) :
    k0_off16 c (BitVec.ofNat 32 h.val) = ![lo 9 h.val c, 0] := by revert c h; decide +kernel
theorem off16_lo_0 (c : Dev nD) : k0_off16 c 0#32 = ![lo 9 0 c, 0] := off16_lo c 0
theorem off16_lo_1 (c : Dev nD) : k0_off16 c 1#32 = ![lo 9 1 c, 0] := off16_lo c 1
theorem off16_lo_2 (c : Dev nD) : k0_off16 c 2#32 = ![lo 9 2 c, 0] := off16_lo c 2

theorem off17_lo (c : Dev nD) (h : Fin 3) :
    k0_off17 c (BitVec.ofNat 32 h.val) = ![lo 8 h.val c, 0] := by revert c h; decide +kernel
theorem off17_lo_0 (c : Dev nD) : k0_off17 c 0#32 = ![lo 8 0 c, 0] := off17_lo c 0
theorem off17_lo_1 (c : Dev nD) : k0_off17 c 1#32 = ![lo 8 1 c, 0] := off17_lo c 1
theorem off17_lo_2 (c : Dev nD) : k0_off17 c 2#32 = ![lo 8 2 c, 0] := off17_lo c 2

/-! ### On the peer across x or y a transfer is addressed to -/

theorem off6_lo_x (c : Dev nD) (h : Fin 3) :
    k0_off6 c (BitVec.ofNat 32 h.val) = ![lo 4 h.val (peer 2 c), 0] := by revert c h; decide +kernel
theorem off6_lo_x_0 (c : Dev nD) : k0_off6 c 0#32 = ![lo 4 0 (peer 2 c), 0] := off6_lo_x c 0
theorem off6_lo_x_1 (c : Dev nD) : k0_off6 c 1#32 = ![lo 4 1 (peer 2 c), 0] := off6_lo_x c 1
theorem off6_lo_x_2 (c : Dev nD) : k0_off6 c 2#32 = ![lo 4 2 (peer 2 c), 0] := off6_lo_x c 2

theorem off6_lo_y (c : Dev nD) (h : Fin 3) :
    k0_off6 c (BitVec.ofNat 32 h.val) = ![lo 6 h.val (peer 3 c), 0] := by revert c h; decide +kernel
theorem off6_lo_y_0 (c : Dev nD) : k0_off6 c 0#32 = ![lo 6 0 (peer 3 c), 0] := off6_lo_y c 0
theorem off6_lo_y_1 (c : Dev nD) : k0_off6 c 1#32 = ![lo 6 1 (peer 3 c), 0] := off6_lo_y c 1
theorem off6_lo_y_2 (c : Dev nD) : k0_off6 c 2#32 = ![lo 6 2 (peer 3 c), 0] := off6_lo_y c 2

theorem off7_lo_x (c : Dev nD) (h : Fin 3) :
    k0_off7 c (BitVec.ofNat 32 h.val) = ![lo 5 h.val (peer 2 c), 0] := by revert c h; decide +kernel
theorem off7_lo_x_0 (c : Dev nD) : k0_off7 c 0#32 = ![lo 5 0 (peer 2 c), 0] := off7_lo_x c 0
theorem off7_lo_x_1 (c : Dev nD) : k0_off7 c 1#32 = ![lo 5 1 (peer 2 c), 0] := off7_lo_x c 1
theorem off7_lo_x_2 (c : Dev nD) : k0_off7 c 2#32 = ![lo 5 2 (peer 2 c), 0] := off7_lo_x c 2

theorem off7_lo_y (c : Dev nD) (h : Fin 3) :
    k0_off7 c (BitVec.ofNat 32 h.val) = ![lo 7 h.val (peer 3 c), 0] := by revert c h; decide +kernel
theorem off7_lo_y_0 (c : Dev nD) : k0_off7 c 0#32 = ![lo 7 0 (peer 3 c), 0] := off7_lo_y c 0
theorem off7_lo_y_1 (c : Dev nD) : k0_off7 c 1#32 = ![lo 7 1 (peer 3 c), 0] := off7_lo_y c 1
theorem off7_lo_y_2 (c : Dev nD) : k0_off7 c 2#32 = ![lo 7 2 (peer 3 c), 0] := off7_lo_y c 2

theorem off11_lo_x (c : Dev nD) (h : Fin 3) :
    k0_off11 c (BitVec.ofNat 32 h.val) = ![lo 9 h.val (peer 2 c), 0] := by revert c h; decide +kernel
theorem off11_lo_x_0 (c : Dev nD) : k0_off11 c 0#32 = ![lo 9 0 (peer 2 c), 0] := off11_lo_x c 0
theorem off11_lo_x_1 (c : Dev nD) : k0_off11 c 1#32 = ![lo 9 1 (peer 2 c), 0] := off11_lo_x c 1
theorem off11_lo_x_2 (c : Dev nD) : k0_off11 c 2#32 = ![lo 9 2 (peer 2 c), 0] := off11_lo_x c 2

theorem off13_lo_y (c : Dev nD) (h : Fin 3) :
    k0_off13 c (BitVec.ofNat 32 h.val) = ![lo 8 h.val (peer 3 c), 0] := by revert c h; decide +kernel
theorem off13_lo_y_0 (c : Dev nD) : k0_off13 c 0#32 = ![lo 8 0 (peer 3 c), 0] := off13_lo_y c 0
theorem off13_lo_y_1 (c : Dev nD) : k0_off13 c 1#32 = ![lo 8 1 (peer 3 c), 0] := off13_lo_y c 1
theorem off13_lo_y_2 (c : Dev nD) : k0_off13 c 2#32 = ![lo 8 2 (peer 3 c), 0] := off13_lo_y c 2

/-! ### The ring offsets `k0_off1`: flow 0 upward (first half), flow 2 downward (second half) -/

theorem off1_lo_0_0 (c : Dev nD) : k0_off1 c 0#32 0#32 = ![lo 0 0 (peer 1 c), 0] := by revert c; decide +kernel
theorem off1_lo_m1_0 (c : Dev nD) : k0_off1 c 4294967295#32 0#32 = ![lo 0 0 c, 0] := by revert c; decide +kernel
theorem off1_lo_m2_0 (c : Dev nD) : k0_off1 c 4294967294#32 0#32 = ![lo 0 1 c, 0] := by revert c; decide +kernel
theorem off1_lo_0_256 (c : Dev nD) : k0_off1 c 0#32 256#32 = ![lo 2 0 (peer 0 c), 0] := by revert c; decide +kernel
theorem off1_lo_1_256 (c : Dev nD) : k0_off1 c 1#32 256#32 = ![lo 2 0 c, 0] := by revert c; decide +kernel
theorem off1_lo_2_256 (c : Dev nD) : k0_off1 c 2#32 256#32 = ![lo 2 1 c, 0] := by revert c; decide +kernel

/-- The landing rows on the neighbour above of flow 0's hops 0, 1, 2. -/
theorem off1_lo_up_0 (c : Dev nD) : k0_off1 c 0#32 0#32 = ![lo 0 0 (peer 1 c), 0] := off1_lo_0_0 c
theorem off1_lo_up_1 (c : Dev nD) : k0_off1 c 4294967295#32 0#32 = ![lo 0 1 (peer 1 c), 0] := by revert c; decide +kernel
theorem off1_lo_up_2 (c : Dev nD) : k0_off1 c 4294967294#32 0#32 = ![lo 0 2 (peer 1 c), 0] := by revert c; decide +kernel
/-- The landing rows on the neighbour below of flow 2's hops 0, 1, 2. -/
theorem off1_lo_dn_0 (c : Dev nD) : k0_off1 c 0#32 256#32 = ![lo 2 0 (peer 0 c), 0] := off1_lo_0_256 c
theorem off1_lo_dn_1 (c : Dev nD) : k0_off1 c 1#32 256#32 = ![lo 2 1 (peer 0 c), 0] := by revert c; decide +kernel
theorem off1_lo_dn_2 (c : Dev nD) : k0_off1 c 2#32 256#32 = ![lo 2 2 (peer 0 c), 0] := by revert c; decide +kernel

/-! ### The ring offsets `k0_off3`: flow 1 upward (first half), flow 3 downward (second half) -/

theorem off3_lo_0_0 (c : Dev nD) : k0_off3 c 0#32 0#32 = ![lo 1 0 (peer 1 c), 0] := by revert c; decide +kernel
theorem off3_lo_m1_0 (c : Dev nD) : k0_off3 c 4294967295#32 0#32 = ![lo 1 0 c, 0] := by revert c; decide +kernel
theorem off3_lo_m2_0 (c : Dev nD) : k0_off3 c 4294967294#32 0#32 = ![lo 1 1 c, 0] := by revert c; decide +kernel
theorem off3_lo_0_256 (c : Dev nD) : k0_off3 c 0#32 256#32 = ![lo 3 0 (peer 0 c), 0] := by revert c; decide +kernel
theorem off3_lo_1_256 (c : Dev nD) : k0_off3 c 1#32 256#32 = ![lo 3 0 c, 0] := by revert c; decide +kernel
theorem off3_lo_2_256 (c : Dev nD) : k0_off3 c 2#32 256#32 = ![lo 3 1 c, 0] := by revert c; decide +kernel

/-- The landing rows on the neighbour above of flow 1's hops 0, 1, 2. -/
theorem off3_lo_up_0 (c : Dev nD) : k0_off3 c 0#32 0#32 = ![lo 1 0 (peer 1 c), 0] := off3_lo_0_0 c
theorem off3_lo_up_1 (c : Dev nD) : k0_off3 c 4294967295#32 0#32 = ![lo 1 1 (peer 1 c), 0] := by revert c; decide +kernel
theorem off3_lo_up_2 (c : Dev nD) : k0_off3 c 4294967294#32 0#32 = ![lo 1 2 (peer 1 c), 0] := by revert c; decide +kernel
/-- The landing rows on the neighbour below of flow 3's hops 0, 1, 2. -/
theorem off3_lo_dn_0 (c : Dev nD) : k0_off3 c 0#32 256#32 = ![lo 3 0 (peer 0 c), 0] := off3_lo_0_256 c
theorem off3_lo_dn_1 (c : Dev nD) : k0_off3 c 1#32 256#32 = ![lo 3 1 (peer 0 c), 0] := by revert c; decide +kernel
theorem off3_lo_dn_2 (c : Dev nD) : k0_off3 c 2#32 256#32 = ![lo 3 2 (peer 0 c), 0] := by revert c; decide +kernel

/-! ### The rows of the device's own block a ring flow's first piece is read from -/

theorem off2_blk_0 (c : Dev nD) : k0_off2 c 0#32 = ![blkLo 0 c, 0] := off2_eq_0 c
theorem off2_blk_256 (c : Dev nD) : k0_off2 c 256#32 = ![blkLo 2 c, 0] := off2_eq_256 c
theorem off4_blk_0 (c : Dev nD) : k0_off4 c 0#32 = ![blkLo 1 c, 0] := off4_eq_0 c
theorem off4_blk_256 (c : Dev nD) : k0_off4 c 256#32 = ![blkLo 3 c, 0] := off4_eq_256 c

end Cert.KernelIdeal.AG

end
-- ==== Proof.StepGen.lean ====
/-
  One rule for every transfer between devices: whatever views a transfer of flow f, hop h goes through, it pays the
  departure cell of the sender and the arrival cell of the receiver, provided the share of the source it is lent is
  what the departure cell hands back and the band it writes is what the arrival cell hands over.
-/
import proofs.«900685_g7700000000000686_dist_ag_v7x_xyz2x2x4_z_m2048_n512_f32_1_alg».proof.Proof.Tables
import proofs.«900685_g7700000000000686_dist_ag_v7x_xyz2x2x4_z_m2048_n512_f32_1_alg».proof.Proof.Regions
import proofs.«900685_g7700000000000686_dist_ag_v7x_xyz2x2x4_z_m2048_n512_f32_1_alg».proof.Proof.Coh

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev 𝒱₀ : Variants := Variants.none

/-- A transfer of flow `f`, hop `h` from device `c` to its peer `n`: it pays the duty of `c`'s departure cell and the
    duty of `n`'s arrival cell, whatever views it goes through, as long as the lent source share is what the departure
    cell hands back and the band written is what the arrival cell hands over. -/
theorem wp_send_gen {sp : Space} {S : Shape} (K : Dev nD × Fin 93 → ℕ) (c n : Dev nD) (f : Fin 10) (h : Fin 3)
    {src : Memref sig .tc sp S .f32} {dst : Memref sig (Dev.tc n : Thread nD τ).2.kind .vmem S .f32} {sS sR : DmaSem sig}
    {hsc : dst.view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α}
    (hsS : (SemLoc.dma sS : SemLoc sig) = csem (sndJ f h)) (hsR : (SemLoc.dma sR : SemLoc sig) = csem (rcvJ f h))
    (q : PosShare TreeShare) (fs : Buf (Elt F) (src.view.loc (c : Thread nD τ))) (fd : Buf (Elt F) (dst.view.loc (n : Thread nD τ)))
    (W : Waits sig Unit) (O : CellTallies nD τ sig Unit)
    (hN : dst.view.dmaCredit = credS (flowRows f))
    (hpay₁ : (src.view.loc (c : Thread nD τ) ↦[src.view.set]{q} fs) ⊢ sendPay m c f h)
    (hpay₂ : (dst.view.loc (n : Thread nD τ) ↦[dst.view.set]{fullShare} (dst.view.write (Elt F) fd (src.view.read (Elt F) fs) Finset.univ))
      ⊢ recvPay m n f h)
    (hr : τ.routes (c : Thread nD τ) (n : Thread nD τ) = true) :
    iprop(cellInv ER (Rd m) (K (c, sndJ f h)) (cell c (sndJ f h)) ∗ cellInv ER (Rd m) (K (n, rcvJ f h)) (cell n (rcvJ f h))
        ∗ (src.view.loc (c : Thread nD τ) ↦[src.view.set]{q} fs) ∗ (dst.view.loc (n : Thread nD τ) ↦[dst.view.set]{fullShare} fd)
        ∗ owes (c : Thread nD τ) (O + tallyAt (cell n (rcvJ f h)) () (credS (flowRows f))) W
        ∗ dutyTok ER (cell c (sndJ f h)) 0 0 ∗ reached ER (cell c (sndJ f h)) 0
        ∗ dutyTok ER (cell n (rcvJ f h)) 0 0 ∗ reached ER (cell n (rcvJ f h)) 0)
      ⊢ iprop(((cred (tallyAt (cell c (sndJ f h)) () (credS (flowRows f))) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  unfold cell
  rw [← hsS, ← hsR]
  exact Rounds.wp_send_pointsTo 𝒱₀ ER (Rd m) (c : Thread nD τ) none (κ₁ := K (c, sndJ f h)) (κ₂ := K (n, rcvJ f h))
    (c' := (n : Thread nD τ)) (src := src) (dst := dst) (sS := SemLoc.dma sS) (sem := SemLoc.dma sR) (q := q) (fs := fs)
    (r₁ := 0) (r₂ := 0) (d₁ := 0) (d₂ := 0) (fd := fd)
    (by rw [hsS]; exact (duties_snd m c f h).symm ▸ Finset.mem_singleton_self _)
    (by rw [hsR]; exact (duties_rcv m n f h).symm ▸ Finset.mem_singleton_self _)
    () () (credS (flowRows f)) (show dst.view.amount (SemLoc.dma sR) = _ from hN)
    (by rw [hsS]; exact amount_snd m c f h 0) (by rw [hsR]; exact amount_rcv m n f h 0) O rfl (W := W)
    (by rw [hsS]; exact hpay₁.trans (Entails.of_eq (payload_snd m c f h 0).symm))
    (by rw [hsR]; exact hpay₂.trans (Entails.of_eq (payload_rcv m n f h 0).symm)) hr

end Cert.KernelIdeal.AG

end
-- ==== Proof.WaitSteps.lean ====
/-
  The waits of a device, one rule each.

  A wait on one of the device's own transfer cells consumes the whole of the cell's one round: the device gets the
  round's payload, and, no later round having a duty, closes the cell at once and has its counter at zero again.  The
  wait on the barrier cell hands over the four peers' payloads.  The copy cell no transfer pays is closed as it stands.
  A barrier signal to a peer pays one duty of the peer's barrier cell.
-/
import proofs.«900685_g7700000000000686_dist_ag_v7x_xyz2x2x4_z_m2048_n512_f32_1_alg».proof.Proof.StepGen

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A wait on one of the device's own transfer cells -/

/-- A wait for the whole round of cell `j` of the device, the round expecting `N` units and handing `P` over: the
    device gets `P`, and the cell, no later round of which has a duty, closes with its counter at zero. -/
theorem wp_wait_own (K : Dev nD × Fin 93 → ℕ) (c : Dev nD) (j : Fin 93) (N : ℕ) (P : sProp 𝕄)
    (hexp : (Rd (F := F) m).expect (cell c j) 0 = N)
    (hrest : bigSep ((Rd (F := F) m).duties (cell c j) 0 \ ∅) (fun d => (Rd (F := F) m).payload (cell c j) 0 d) = P)
    {s : DmaSem sig} (hs : (SemLoc.dma s : SemLoc sig) = csem j)
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = N)
    {α : Type} {Q : α → sProp 𝕄} {k : PUnit → Prog (TpuEff nD τ sig (Elt F) Λ₀ .tc) α}
    (W : Waits sig Unit) (O : CellTallies nD τ sig Unit) :
    iprop(cellInv ER (Rd m) (K (c, j)) (cell c j) ∗ cred (tallyAt (cell c j) () N)
        ∗ owes (c : Thread nD τ) O W ∗ MayWait (c : Thread nD τ) (csem j) () O ∗ atPos ER (cell c j) 0 ∅ 0)
      ⊢ iprop(((owes (c : Thread nD τ) O (insert (csem j, ()) W) ∗ semVal (cell c j) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  have hw : ∀ Kc : PUnit → sProp 𝕄, wpE (defs₀ (F := F)) 𝒱₀ (c : Thread nD τ) none Set.univ (.waitDma2 s src dst hsrc hdst) Kc
      = waitSpec (c : Thread nD τ) Set.univ (csem j) N Kc := fun Kc => by
    rw [wpE_waitDma2_eq, hs, hN]
  iintro ⟨#HI, Hc, HO, Hlev, Hat⟩ Hk
  iapply (Rounds.wp_wait_rest_token 𝒱₀ ER (Rd m) (c : Thread nD τ) none (κ := K (c, j)) hw (Set.mem_univ _) ()
      (O := O) (W := W) (R := 0) (m := 0) (T := ∅) (by rw [Nat.zero_add]; exact hexp.symm)) $$ [Hc HO Hlev Hat]
  · isplitr; · iexact HI
    isplitl [Hc]; · iexact Hc
    isplitl [HO]; · iexact HO
    isplitl [Hlev]; · iexact Hlev
    iexact Hat
  iintro ⟨HO, Hat, -, Hpay⟩
  ihave Hp := (Entails.of_eq hrest) $$ Hpay
  imod (Rounds.cell_close ER (Rd m) (Set.mem_univ (K (c, j))) (not_unitless m (cell c j)) (R := 0 + 1)
      (duties_later m (cell c j))) $$ [Hat] with Hz
  · isplitr; · iexact HI
    iexact Hat
  iapply Hk
  isplitl [HO]; · iexact HO
  isplitl [Hz]; · iexact Hz
  iexact Hp

/-- The same for a device that owes nothing. -/
theorem wp_wait_own0 (K : Dev nD × Fin 93 → ℕ) (c : Dev nD) (j : Fin 93) (N : ℕ) (P : sProp 𝕄)
    (hexp : (Rd (F := F) m).expect (cell c j) 0 = N)
    (hrest : bigSep ((Rd (F := F) m).duties (cell c j) 0 \ ∅) (fun d => (Rd (F := F) m).payload (cell c j) 0 d) = P)
    {s : DmaSem sig} (hs : (SemLoc.dma s : SemLoc sig) = csem j)
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = N)
    {α : Type} {Q : α → sProp 𝕄} {k : PUnit → Prog (TpuEff nD τ sig (Elt F) Λ₀ .tc) α}
    (W : Waits sig Unit) :
    iprop(cellInv ER (Rd m) (K (c, j)) (cell c j) ∗ cred (tallyAt (cell c j) () N)
        ∗ owes (c : Thread nD τ) 0 W ∗ atPos ER (cell c j) 0 ∅ 0)
      ⊢ iprop(((owes (c : Thread nD τ) 0 (insert (csem j, ()) W) ∗ semVal (cell c j) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  iintro ⟨HI, Hc, HO, Hat⟩
  iapply (wp_wait_own m K c j N P hexp hrest hs hN W 0)
  isplitl [HI]; · iexact HI
  isplitl [Hc]; · iexact Hc
  isplitl [HO]; · iexact HO
  isplitr; · rw [MayWait_zero]; iempintro
  iexact Hat

/-! ## Arrivals, departures, copies -/

/-- The wait for the piece of flow `f`, hop `h` to have landed: the band written comes with it. -/
theorem wp_wait_rcv (K : Dev nD × Fin 93 → ℕ) (c : Dev nD) (f : Fin 10) (h : Fin 3) {s : DmaSem sig}
    (hs : (SemLoc.dma s : SemLoc sig) = csem (rcvJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) (O : CellTallies nD τ sig Unit) :
    iprop(cellInv ER (Rd m) (K (c, rcvJ f h)) (cell c (rcvJ f h)) ∗ cred (tallyAt (cell c (rcvJ f h)) () (credS (flowRows f)))
        ∗ owes (c : Thread nD τ) O W ∗ MayWait (c : Thread nD τ) (csem (rcvJ f h)) () O ∗ atPos ER (cell c (rcvJ f h)) 0 ∅ 0)
      ⊢ iprop(((owes (c : Thread nD τ) O (insert (csem (rcvJ f h), ()) W) ∗ semVal (cell c (rcvJ f h)) 0 ∗ recvPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own m K c (rcvJ f h) _ _ (expect_rcv m c f h) (rest_rcv m c f h) hs hN W O

/-- The wait for the source of the transfer of flow `f`, hop `h` to have been read: the share lent comes back. -/
theorem wp_wait_snd (K : Dev nD × Fin 93 → ℕ) (c : Dev nD) (f : Fin 10) (h : Fin 3) {s : DmaSem sig}
    (hs : (SemLoc.dma s : SemLoc sig) = csem (sndJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) (O : CellTallies nD τ sig Unit) :
    iprop(cellInv ER (Rd m) (K (c, sndJ f h)) (cell c (sndJ f h)) ∗ cred (tallyAt (cell c (sndJ f h)) () (credS (flowRows f)))
        ∗ owes (c : Thread nD τ) O W ∗ MayWait (c : Thread nD τ) (csem (sndJ f h)) () O ∗ atPos ER (cell c (sndJ f h)) 0 ∅ 0)
      ⊢ iprop(((owes (c : Thread nD τ) O (insert (csem (sndJ f h), ()) W) ∗ semVal (cell c (sndJ f h)) 0 ∗ sendPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own m K c (sndJ f h) _ _ (expect_snd m c f h) (rest_snd m c f h) hs hN W O

/-- The same for a device that owes nothing. -/
theorem wp_wait_snd0 (K : Dev nD × Fin 93 → ℕ) (c : Dev nD) (f : Fin 10) (h : Fin 3) {s : DmaSem sig}
    (hs : (SemLoc.dma s : SemLoc sig) = csem (sndJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) :
    iprop(cellInv ER (Rd m) (K (c, sndJ f h)) (cell c (sndJ f h)) ∗ cred (tallyAt (cell c (sndJ f h)) () (credS (flowRows f)))
        ∗ owes (c : Thread nD τ) 0 W ∗ atPos ER (cell c (sndJ f h)) 0 ∅ 0)
      ⊢ iprop(((owes (c : Thread nD τ) 0 (insert (csem (sndJ f h), ()) W) ∗ semVal (cell c (sndJ f h)) 0 ∗ sendPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own0 m K c (sndJ f h) _ _ (expect_snd m c f h) (rest_snd m c f h) hs hN W

/-- The wait for the arrival of a device that owes nothing. -/
theorem wp_wait_rcv0 (K : Dev nD × Fin 93 → ℕ) (c : Dev nD) (f : Fin 10) (h : Fin 3) {s : DmaSem sig}
    (hs : (SemLoc.dma s : SemLoc sig) = csem (rcvJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) :
    iprop(cellInv ER (Rd m) (K (c, rcvJ f h)) (cell c (rcvJ f h)) ∗ cred (tallyAt (cell c (rcvJ f h)) () (credS (flowRows f)))
        ∗ owes (c : Thread nD τ) 0 W ∗ atPos ER (cell c (rcvJ f h)) 0 ∅ 0)
      ⊢ iprop(((owes (c : Thread nD τ) 0 (insert (csem (rcvJ f h), ()) W) ∗ semVal (cell c (rcvJ f h)) 0 ∗ recvPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own0 m K c (rcvJ f h) _ _ (expect_rcv m c f h) (rest_rcv m c f h) hs hN W

/-- The wait for local copy `i` (not the copy no transfer pays), by a device that owes nothing: the band of the result
    written and the share of the source lent come with it. -/
theorem wp_wait_cp (K : Dev nD × Fin 93 → ℕ) (c : Dev nD) (i : Fin 32) (hi : i.val ≠ 30) {s : DmaSem sig}
    (hs : (SemLoc.dma s : SemLoc sig) = csem (cpJ i))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = (if i.val = 31 then credO 2048 else credO (flowRows (cpSrc i).1)))
    {α : Type} {Q : α → sProp 𝕄} {k : PUnit → Prog (TpuEff nD τ sig (Elt F) Λ₀ .tc) α}
    (W : Waits sig Unit) :
    iprop(cellInv ER (Rd m) (K (c, cpJ i)) (cell c (cpJ i))
        ∗ cred (tallyAt (cell c (cpJ i)) () (if i.val = 31 then credO 2048 else credO (flowRows (cpSrc i).1)))
        ∗ owes (c : Thread nD τ) 0 W ∗ atPos ER (cell c (cpJ i)) 0 ∅ 0)
      ⊢ iprop(((owes (c : Thread nD τ) 0 (insert (csem (cpJ i), ()) W) ∗ semVal (cell c (cpJ i)) 0 ∗ cpPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own0 m K c (cpJ i) _ _ (expect_cp m c i hi) (rest_cp m c i hi) hs hN W

/-- The same while the device still owes. -/
theorem wp_wait_cpO (K : Dev nD × Fin 93 → ℕ) (c : Dev nD) (i : Fin 32) (hi : i.val ≠ 30) {s : DmaSem sig}
    (hs : (SemLoc.dma s : SemLoc sig) = csem (cpJ i))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = (if i.val = 31 then credO 2048 else credO (flowRows (cpSrc i).1)))
    {α : Type} {Q : α → sProp 𝕄} {k : PUnit → Prog (TpuEff nD τ sig (Elt F) Λ₀ .tc) α}
    (W : Waits sig Unit) (O : CellTallies nD τ sig Unit) :
    iprop(cellInv ER (Rd m) (K (c, cpJ i)) (cell c (cpJ i))
        ∗ cred (tallyAt (cell c (cpJ i)) () (if i.val = 31 then credO 2048 else credO (flowRows (cpSrc i).1)))
        ∗ owes (c : Thread nD τ) O W ∗ MayWait (c : Thread nD τ) (csem (cpJ i)) () O ∗ atPos ER (cell c (cpJ i)) 0 ∅ 0)
      ⊢ iprop(((owes (c : Thread nD τ) O (insert (csem (cpJ i), ()) W) ∗ semVal (cell c (cpJ i)) 0 ∗ cpPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own m K c (cpJ i) _ _ (expect_cp m c i hi) (rest_cp m c i hi) hs hN W O

/-- The copy cell no transfer pays, closed as it stands. -/
theorem close_idle (K : Dev nD × Fin 93 → ℕ) (c : Dev nD) :
    iprop(cellInv ER (Rd m) (K (c, cpJ 30)) (cell c (cpJ 30)) ∗ atPos ER (cell c (cpJ 30)) 0 ∅ 0)
      ⊢ iprop(|={Set.univ}=> semVal (cell c (cpJ 30)) 0) :=
  Rounds.cell_close ER (Rd m) (Set.mem_univ (K (c, cpJ 30))) (not_unitless m (cell c (cpJ 30))) (R := 0) fun r _ => by
    rcases Nat.eq_zero_or_pos r with rfl | hr
    · exact duties_cp30 m c
    · exact duties_later m _ r hr

/-! ## The barrier -/

/-- The wait for the four peers' signals: each peer's bands of its scratch array come with it. -/
theorem wp_wait_bar (K : Dev nD × Fin 93 → ℕ) (c : Dev nD) {s : Sem sig} (hs : (SemLoc.reg s : SemLoc sig) = csem 0)
    {n : ℕ} (hn : n = 4)
    {α : Type} {Q : α → sProp 𝕄} {k : PUnit → Prog (TpuEff nD τ sig (Elt F) Λ₀ .tc) α}
    (W : Waits sig Unit) (O : CellTallies nD τ sig Unit) :
    iprop(cellInv ER (Rd m) (K (c, 0)) (cell c 0) ∗ cred (tallyAt (cell c 0) () 4)
        ∗ owes (c : Thread nD τ) O W ∗ MayWait (c : Thread nD τ) (csem 0) () O ∗ atPos ER (cell c 0) 0 ∅ 0)
      ⊢ iprop(((owes (c : Thread nD τ) O (insert (csem 0, ()) W) ∗ barPay c 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s n) k) Q) := by
  have hw : ∀ Kc : PUnit → sProp 𝕄, wpE (defs₀ (F := F)) 𝒱₀ (c : Thread nD τ) none Set.univ (.semWait s n) Kc
      = waitSpec (c : Thread nD τ) Set.univ (csem 0) 4 Kc := fun Kc => by
    rw [wpE_semWait_eq, hs, hn]
  iintro ⟨HI, Hc, HO, Hlev, Hat⟩ Hk
  iapply (Rounds.wp_wait_rest_token 𝒱₀ ER (Rd m) (c : Thread nD τ) none (κ := K (c, 0)) hw (Set.mem_univ _) ()
      (O := O) (W := W) (R := 0) (m := 0) (T := ∅) (by rw [Nat.zero_add]; exact (expect_bar m c).symm)) $$ [HI Hc HO Hlev Hat]
  · isplitl [HI]; · iexact HI
    isplitl [Hc]; · iexact Hc
    isplitl [HO]; · iexact HO
    isplitl [Hlev]; · iexact Hlev
    iexact Hat
  iintro ⟨HO, -, -, Hpay⟩
  ihave Hp := (Entails.of_eq (rest_bar m c)) $$ Hpay
  iapply Hk
  isplitl [HO]; · iexact HO
  iexact Hp

/-- The signal to peer `k`: it pays the duty of the peer's barrier cell that stands for this device, and hands the peer
    the bands of this device's scratch array the peer will write. -/
theorem wp_signal_bar (K : Dev nD × Fin 93 → ℕ) (c : Dev nD) (k : Fin 4) (n : Dev nD) (hn : n = peer k c) {s : Sem sig}
    (hs : (SemLoc.reg s : SemLoc sig) = csem 0) {a : ℕ} (ha : a = 1)
    {α : Type} {Q : α → sProp 𝕄} {kc : PUnit → Prog (TpuEff nD τ sig (Elt F) Λ₀ .tc) α}
    (W : Waits sig Unit) (O : CellTallies nD τ sig Unit) :
    iprop(cellInv ER (Rd m) (K (peer k c, 0)) (cell (peer k c) 0)
        ∗ owes (c : Thread nD τ) (O + tallyAt (cell (peer k c) 0) () 1) W
        ∗ dutyTok ER (cell (peer k c) 0) 0 (pinv k) ∗ barPay (peer k c) (pinv k) ∗ reached ER (cell (peer k c) 0) 0)
      ⊢ iprop((owes (c : Thread nD τ) O W -∗ wp frame (wpE (defs₀ (F := F)) 𝒱₀ (c : Thread nD τ) none) Set.univ (kc ⟨⟩) Q)
          -∗ wp frame (wpE (defs₀ (F := F)) 𝒱₀ (c : Thread nD τ) none) Set.univ (.op (.semSignal (Dev.tc n) s a) kc) Q) := by
  subst hn ha
  have hd : pinv k ∈ (Rd (F := F) m).duties ((peer k c : Thread nD τ), SemLoc.reg s) 0 := by
    rw [hs]; exact (duties_bar m (peer k c)).symm ▸ Finset.mem_univ _
  have hk : (Rd (F := F) m).amount ((peer k c : Thread nD τ), SemLoc.reg s) 0 (pinv k) = 1 := by
    rw [hs]; exact amount_bar m (peer k c) (pinv k)
  have hp : (Rd (F := F) m).payload ((peer k c : Thread nD τ), SemLoc.reg s) 0 (pinv k) = barPay (peer k c) (pinv k) := by
    rw [hs]; exact payload_bar m (peer k c) (pinv k)
  unfold cell
  rw [← hs, ← hp]
  exact Rounds.wp_signal 𝒱₀ ER (Rd m) (c : Thread nD τ) none (κ := K (peer k c, 0)) hd hk () O rfl (W := W) (by routes)

end Cert.KernelIdeal.AG

end
-- ==== Proof.Dist.lean ====
/-
  A band read by several at once: dealt out, and put together again.

  A piece that has landed is read by several transfers at the same time, each under a share of its own.  Right
  after the arrival the band is dealt out into those shares (and, where one reader takes fewer rows, along the rows);
  at the end the shares come back and are joined.  The device's own staged block is read by five at once: the copy
  of the whole block under one half, and the four first ring transfers, each under a share of the other half on its
  band of rows, the rest of the block under that share staying with the device.
-/
import proofs.«900685_g7700000000000686_dist_ag_v7x_xyz2x2x4_z_m2048_n512_f32_1_alg».proof.Proof.WaitSteps

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A band of the scratch array, dealt into shares -/

/-- A band at the whole share is the band at four shares. -/
theorem sPts_deal4 (c : Dev nD) (a n : ℕ) (X : (cc0_scratch0 : Ref sig .tc).ty.Contents (Elt F)) :
    sPts c a n fullShare X ⊣⊢ iprop(sPts c a n fullShare.left X ∗ sPts c a n fullShare.right.left X
      ∗ sPts c a n fullShare.right.right.left X ∗ sPts c a n fullShare.right.right.right X) :=
  (sPts_share c a n fullShare X).trans (sep_congr_right
    ((sPts_share c a n fullShare.right X).trans (sep_congr_right (sPts_share c a n fullShare.right.right X))))

/-- A band of 256 rows at the whole share is one half of it, and the other half on its first 88 and last 168 rows. -/
theorem sPts_deal3 (c : Dev nD) (a : ℕ) (X : (cc0_scratch0 : Ref sig .tc).ty.Contents (Elt F)) :
    sPts c a 256 fullShare X ⊣⊢ iprop(sPts c a 256 fullShare.left X ∗ sPts c a 88 fullShare.right X
      ∗ sPts c (a + 88) 168 fullShare.right X) :=
  (sPts_share c a 256 fullShare X).trans (sep_congr_right (sPts_rows c a 88 168 fullShare.right X))

/-! ## The landed pieces -/

/-- The own-quarter pieces (flows 0 and 2) are read by four. -/
theorem deal_q_at (c : Dev nD) (f : Fin 10) (hf : f = 0 ∨ f = 2) (h : Fin 3) (n : ℕ) (hn : h.val = n) :
    recvPay m c f h ⊣⊢ iprop(sPts c (lo f n c) 256 fullShare.left (Gd m (org f n c))
      ∗ sPts c (lo f n c) 256 fullShare.right.left (Gd m (org f n c))
      ∗ sPts c (lo f n c) 256 fullShare.right.right.left (Gd m (org f n c))
      ∗ sPts c (lo f n c) 256 fullShare.right.right.right (Gd m (org f n c))) := by
  subst hn
  rcases hf with rfl | rfl <;> exact sPts_deal4 c _ 256 _

theorem deal_q (c : Dev nD) (f : Fin 10) (hf : f = 0 ∨ f = 2) (h : Fin 3) :
    recvPay m c f h ⊣⊢ iprop(sPts c (lo f h.val c) 256 fullShare.left (Gd m (org f h.val c))
      ∗ sPts c (lo f h.val c) 256 fullShare.right.left (Gd m (org f h.val c))
      ∗ sPts c (lo f h.val c) 256 fullShare.right.right.left (Gd m (org f h.val c))
      ∗ sPts c (lo f h.val c) 256 fullShare.right.right.right (Gd m (org f h.val c))) :=
  deal_q_at m c f hf h h.val rfl

/-- The diagonal-quarter pieces (flows 1 and 3) are read by two. -/
theorem deal_d_at (c : Dev nD) (f : Fin 10) (hf : f = 1 ∨ f = 3) (h : Fin 3) (n : ℕ) (hn : h.val = n) :
    recvPay m c f h ⊣⊢ iprop(sPts c (lo f n c) 88 fullShare.left (Gd m (org f n c))
      ∗ sPts c (lo f n c) 88 fullShare.right (Gd m (org f n c))) := by
  subst hn
  rcases hf with rfl | rfl <;> exact sPts_share c _ 88 fullShare _

theorem deal_d (c : Dev nD) (f : Fin 10) (hf : f = 1 ∨ f = 3) (h : Fin 3) :
    recvPay m c f h ⊣⊢ iprop(sPts c (lo f h.val c) 88 fullShare.left (Gd m (org f h.val c))
      ∗ sPts c (lo f h.val c) 88 fullShare.right (Gd m (org f h.val c))) :=
  deal_d_at m c f hf h h.val rfl

/-- The side pieces that are relayed (flows 5 and 6) are read by the copy, and on their last 168 rows by the relay. -/
theorem deal_r_at (c : Dev nD) (f : Fin 10) (hf : f = 5 ∨ f = 6) (h : Fin 3) (n : ℕ) (hn : h.val = n) :
    recvPay m c f h ⊣⊢ iprop(sPts c (lo f n c) 256 fullShare.left (Gd m (org f n c))
      ∗ sPts c (lo f n c) 88 fullShare.right (Gd m (org f n c))
      ∗ sPts c (lo f n c + 88) 168 fullShare.right (Gd m (org f n c))) := by
  subst hn
  rcases hf with rfl | rfl <;> exact sPts_deal3 c _ _

theorem deal_r (c : Dev nD) (f : Fin 10) (hf : f = 5 ∨ f = 6) (h : Fin 3) :
    recvPay m c f h ⊣⊢ iprop(sPts c (lo f h.val c) 256 fullShare.left (Gd m (org f h.val c))
      ∗ sPts c (lo f h.val c) 88 fullShare.right (Gd m (org f h.val c))
      ∗ sPts c (lo f h.val c + 88) 168 fullShare.right (Gd m (org f h.val c))) :=
  deal_r_at m c f hf h h.val rfl

/-- The pieces read by the copy alone (flows 4, 7, 8 and 9) stay whole. -/
theorem recvPay_full_at (c : Dev nD) (f : Fin 10) (h : Fin 3) (n : ℕ) (hn : h.val = n) :
    recvPay m c f h = sPts c (lo f n c) (flowRows f) fullShare (Gd m (org f n c)) := by
  subst hn; rfl

theorem recvPay_full (c : Dev nD) (f : Fin 10) (hf : f = 4 ∨ f = 7 ∨ f = 8 ∨ f = 9) (h : Fin 3) :
    recvPay m c f h = sPts c (lo f h.val c) (flowRows f) fullShare (Gd m (org f h.val c)) := rfl

theorem recvPay_f4 (c : Dev nD) (h : Fin 3) (n : ℕ) (hn : h.val = n) :
    recvPay m c 4 h = sPts c (lo 4 n c) 256 fullShare (Gd m (org 4 n c)) := by subst hn; rfl
theorem recvPay_f7 (c : Dev nD) (h : Fin 3) (n : ℕ) (hn : h.val = n) :
    recvPay m c 7 h = sPts c (lo 7 n c) 256 fullShare (Gd m (org 7 n c)) := by subst hn; rfl
theorem recvPay_f8 (c : Dev nD) (h : Fin 3) (n : ℕ) (hn : h.val = n) :
    recvPay m c 8 h = sPts c (lo 8 n c) 168 fullShare (Gd m (org 8 n c)) := by subst hn; rfl
theorem recvPay_f9 (c : Dev nD) (h : Fin 3) (n : ℕ) (hn : h.val = n) :
    recvPay m c 9 h = sPts c (lo 9 n c) 168 fullShare (Gd m (org 9 n c)) := by subst hn; rfl

/-! ## The staged block -/

/-- What stays with the device of its staged block under the share lent to the first transfer of ring flow `f`:
    the rows outside that transfer's band. -/
def blkRest (c : Dev nD) (f : Fin 10) : sProp 𝕄 :=
  ((c : Thread nD τ).loc cc0_stg0_0) ↦[BRows 0 2048 \ BRows (blkLo f c) (flowRows f)]{r0Share f} xstg m c

instance blkRest_storable (c : Dev nD) (f : Fin 10) : BI.Storable (upEmb : UEmb _ 𝕄) (blkRest (F := F) m c f) := by
  unfold blkRest; infer_instance

/-- The block under the share of ring flow `f`'s first transfer is that transfer's band and the rest. -/
theorem xPts_band (c : Dev nD) (f : Fin 10) (hf : f.val < 4) :
    xPts m c 0 2048 (r0Share f) ⊣⊢ iprop(xPts m c (blkLo f c) (flowRows f) (r0Share f) ∗ blkRest m c f) := by
  unfold xPts blkRest
  exact Region.is_split_subset (BRows_sub ⟨Nat.zero_le _, by have := blkLo_add_le f c hf; omega⟩)

/-- The staged block is read by five at once. -/
theorem deal_blk (c : Dev nD) :
    xPts m c 0 2048 fullShare ⊣⊢ iprop(xPts m c 0 2048 fullShare.left
      ∗ (xPts m c (blkLo 0 c) 256 (r0Share 0) ∗ blkRest m c 0)
      ∗ (xPts m c (blkLo 2 c) 256 (r0Share 2) ∗ blkRest m c 2)
      ∗ (xPts m c (blkLo 1 c) 88 (r0Share 1) ∗ blkRest m c 1)
      ∗ (xPts m c (blkLo 3 c) 88 (r0Share 3) ∗ blkRest m c 3)) :=
  (xPts_share m c 0 2048 fullShare).trans (sep_congr_right
    ((xPts_share m c 0 2048 fullShare.right).trans (sep_congr (xPts_band m c 0 (by decide))
      ((xPts_share m c 0 2048 fullShare.right.right).trans (sep_congr (xPts_band m c 2 (by decide))
        ((xPts_share m c 0 2048 fullShare.right.right.right).trans
          (sep_congr (xPts_band m c 1 (by decide)) (xPts_band m c 3 (by decide)))))))))

/-! ## What the departure and copy cells hand back, read off -/

theorem sendPay_ring0 (c : Dev nD) (f : Fin 10) (hf : f.val < 4) :
    sendPay m c f 0 = xPts m c (blkLo f c) (flowRows f) (r0Share f) := by
  unfold sendPay; exact if_pos ⟨hf, rfl⟩

theorem sendPay_stage (c : Dev nD) (f : Fin 10) (h : Fin 3) (hh : ¬ (f.val < 4 ∧ h.val = 0)) :
    sendPay m c f h = sPts c (lo (srcOf f h).1 (srcOf f h).2.1 c + (srcOf f h).2.2) (flowRows f) (sShare f)
      (Gd m (org (srcOf f h).1 (srcOf f h).2.1 c)) := by
  unfold sendPay; exact if_neg hh

theorem cpPay_own (c : Dev nD) :
    cpPay m c 31 = iprop(oPts c (2048 * (c.val % 4)) 2048 fullShare (Gd m c) ∗ xPts m c 0 2048 fullShare.left) := by
  unfold cpPay; exact if_pos rfl

theorem cpPay_land (c : Dev nD) (i : Fin 32) (hi : i.val < 30) :
    cpPay m c i = iprop(oPts c (lo (cpSrc i).1 (cpSrc i).2 c) (flowRows (cpSrc i).1) fullShare (Gd m (org (cpSrc i).1 (cpSrc i).2 c))
      ∗ sPts c (lo (cpSrc i).1 (cpSrc i).2 c) (flowRows (cpSrc i).1) (cpShare (cpSrc i).1) (Gd m (org (cpSrc i).1 (cpSrc i).2 c))) := by
  unfold cpPay; exact if_neg (by omega)

end Cert.KernelIdeal.AG

end
-- ==== Proof.Cover.lean ====
/-
  The thirty-one pieces of an 8192-row buffer.

  On device c = 8 x + 4 y + z the 8192 rows of the scratch array, and of the result, are tiled by the device's own
  block (rows 2048 z to 2048 z + 2048) and the thirty bands in which the pieces of flow f < 10 land at hop h < 3.
  A row r lies in block r / 2048, quarter r % 2048 / 512, and one of the four segments [0, 88), [88, 256), [256, 344),
  [344, 512) of its quarter; every band is a union of segments of one quarter.  The piece of a row is found by looking
  its segment up among the thirty bands; rows of no band are the own block's.  The pieces are the fibres of this map,
  so they are pairwise disjoint and cover the buffer by construction: ownership of a whole buffer splits into the
  thirty-one pieces and joins back.
-/
import proofs.«900685_g7700000000000686_dist_ag_v7x_xyz2x2x4_z_m2048_n512_f32_1_alg».proof.Proof.Sched

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The fibres of a map on the indices of a buffer -/

section Fibres

variable {ℓ : Loc nD τ sig} {n : ℕ}

/-- The indices a map sends to `p`. -/
def fib (g : Idx ℓ → Fin n) (p : Fin n) : Finset (Idx ℓ) := Finset.univ.filter fun i => g i = p
/-- The indices a map sends into the list `l`. -/
def fibL (g : Idx ℓ → Fin n) (l : List (Fin n)) : Finset (Idx ℓ) := Finset.univ.filter fun i => g i ∈ l

theorem mem_fib {g : Idx ℓ → Fin n} {p : Fin n} {i : Idx ℓ} : i ∈ fib g p ↔ g i = p := by
  unfold fib; rw [Finset.mem_filter]; exact ⟨fun h => h.2, fun h => ⟨Finset.mem_univ _, h⟩⟩
theorem mem_fibL {g : Idx ℓ → Fin n} {l : List (Fin n)} {i : Idx ℓ} : i ∈ fibL g l ↔ g i ∈ l := by
  unfold fibL; rw [Finset.mem_filter]; exact ⟨fun h => h.2, fun h => ⟨Finset.mem_univ _, h⟩⟩

theorem fib_disjoint (g : Idx ℓ → Fin n) {p p' : Fin n} (h : p ≠ p') : Disjoint (fib g p) (fib g p') :=
  Finset.disjoint_left.mpr fun i hi hi' => h ((mem_fib.mp hi).symm.trans (mem_fib.mp hi'))

theorem fibL_singleton (g : Idx ℓ → Fin n) (p : Fin n) : fibL g [p] = fib g p := by
  ext i; rw [mem_fibL, mem_fib, List.mem_singleton]
theorem fibL_cons (g : Idx ℓ → Fin n) (p : Fin n) (l : List (Fin n)) : fibL g (p :: l) = fib g p ∪ fibL g l := by
  ext i; rw [Finset.mem_union, mem_fibL, mem_fib, mem_fibL, List.mem_cons]
theorem fib_disjoint_fibL (g : Idx ℓ → Fin n) {p : Fin n} {l : List (Fin n)} (h : p ∉ l) : Disjoint (fib g p) (fibL g l) :=
  Finset.disjoint_left.mpr fun i hi hi' => h (mem_fib.mp hi ▸ mem_fibL.mp hi')
theorem fibL_finRange (g : Idx ℓ → Fin n) : fibL g (List.finRange n) = Finset.univ := by
  ext i; rw [mem_fibL]; exact ⟨fun _ => Finset.mem_univ _, fun _ => List.mem_finRange _⟩

omit [FloatOps F] in
/-- Ownership of the indices sent into a list is the chain of the ownerships of the fibres. -/
theorem pointsTo_fibL (g : Idx ℓ → Fin n) (q : PosShare TreeShare) (f : Buf (Elt F) ℓ) :
    ∀ (l : List (Fin n)), l ≠ [] → l.Nodup →
      ((ℓ ↦[fibL g l]{q} f : sProp 𝕄) = bigSepL l (fun p => (ℓ ↦[fib g p]{q} f : sProp 𝕄)))
  | [], h, _ => absurd rfl h
  | [p], _, _ => by rw [fibL_singleton, bigSepL_singleton]
  | p :: p' :: l, _, hn => by
    obtain ⟨hp, hn'⟩ := List.nodup_cons.mp hn
    rw [fibL_cons, bigSepL_cons_cons, ← pointsTo_fibL g q f (p' :: l) (List.cons_ne_nil _ _) hn']
    have h : ((ℓ ↦[fib g p ∪ fibL g (p' :: l)]{q} f : sProp 𝕄) ⊣⊢ (ℓ ↦[fib g p]{q} f) ∗ (ℓ ↦[fibL g (p' :: l)]{q} f)) :=
      Region.is_union (fib_disjoint_fibL g hp)
    exact Entails.antisymm h.1 h.2

omit [FloatOps F] in
/-- The fibres, each owned in full at some contents, join to the indices sent into the list at some contents. -/
theorem pointsTo_fibL_join (g : Idx ℓ → Fin n) :
    ∀ (l : List (Fin n)), l ≠ [] → l.Nodup →
      bigSepL l (fun p => (iprop(∃ f : Buf (Elt F) ℓ, ℓ ↦[fib g p]{fullShare} f) : sProp 𝕄))
        ⊢ iprop(∃ f : Buf (Elt F) ℓ, ℓ ↦[fibL g l]{fullShare} f)
  | [], h, _ => absurd rfl h
  | [p], _, _ => by rw [fibL_singleton, bigSepL_singleton]
  | p :: p' :: l, _, hn => by
    obtain ⟨hp, hn'⟩ := List.nodup_cons.mp hn
    rw [fibL_cons, bigSepL_cons_cons]
    refine (sep_mono_right (pointsTo_fibL_join g (p' :: l) (List.cons_ne_nil _ _) hn')).trans ?_
    iintro ⟨⟨%f1, H1⟩, ⟨%f2, H2⟩⟩
    iexists ((fibL g (p' :: l)).piecewise f2 f1)
    have hj : ((ℓ ↦[fib g p]{fullShare} f1 : sProp 𝕄) ∗ (ℓ ↦[fibL g (p' :: l)]{fullShare} f2)
        ⊢ ℓ ↦[fib g p ∪ fibL g (p' :: l)]{fullShare} ((fibL g (p' :: l)).piecewise f2 f1)) := Region.is_join (fib_disjoint_fibL g hp)
    iapply hj $$ [H1 H2]
    isplitl [H1]
    · iexact H1
    · iexact H2

end Fibres

omit [FloatOps F] in
/-- Ownership of a whole buffer is the chain of the ownerships of the fibres of a map on its indices. -/
theorem split_fib {ℓ : Loc nD τ sig} {n : ℕ} (g : Idx ℓ → Fin n) (hn : 0 < n) (q : PosShare TreeShare) (f : Buf (Elt F) ℓ) :
    (ℓ ↦{q} f : sProp 𝕄) ⊣⊢ bigSepL (List.finRange n) (fun p => (ℓ ↦[fib g p]{q} f : sProp 𝕄)) := by
  have hne : List.finRange n ≠ [] := fun e => by
    have h := congrArg List.length e
    rw [List.length_finRange, List.length_nil] at h
    omega
  have h := pointsTo_fibL (F := F) g q f (List.finRange n) hne (List.nodup_finRange n)
  rw [fibL_finRange] at h
  exact ⟨Entails.of_eq h, Entails.of_eq h.symm⟩

omit [FloatOps F] in
/-- The fibres of a map on the indices of a buffer, each owned in full at some contents, join to the whole buffer. -/
theorem join_fib {ℓ : Loc nD τ sig} {n : ℕ} (g : Idx ℓ → Fin n) (hn : 0 < n) :
    bigSepL (List.finRange n) (fun p => (iprop(∃ f : Buf (Elt F) ℓ, ℓ ↦[fib g p]{fullShare} f) : sProp 𝕄))
      ⊢ iprop(∃ f : Buf (Elt F) ℓ, ℓ ↦{fullShare} f) := by
  have hne : List.finRange n ≠ [] := fun e => by
    have h := congrArg List.length e
    rw [List.length_finRange, List.length_nil] at h
    omega
  have h := pointsTo_fibL_join (F := F) g (List.finRange n) hne (List.nodup_finRange n)
  rw [fibL_finRange] at h
  exact h

/-! ## The piece of a row -/

/-- The segment of a row within its quarter: [0, 88), [88, 256), [256, 344) or [344, 512). -/
def segOf (t : ℕ) : ℕ := if t < 88 then 0 else if t < 256 then 1 else if t < 344 then 2 else 3
/-- The first row of a segment. -/
def segLo (s : ℕ) : ℕ := match s with | 0 => 0 | 1 => 88 | 2 => 256 | _ => 344
/-- The row after the last of a segment. -/
def segHi (s : ℕ) : ℕ := match s with | 0 => 88 | 1 => 256 | 2 => 344 | _ => 512

theorem segOf_lt (t : ℕ) : segOf t < 4 := by
  unfold segOf; split_ifs <;> decide

theorem segOf_spec (t : ℕ) (h : t < 512) : segLo (segOf t) ≤ t ∧ t < segHi (segOf t) := by
  unfold segOf
  by_cases h1 : t < 88
  · rw [if_pos h1]; exact ⟨Nat.zero_le _, h1⟩
  by_cases h2 : t < 256
  · rw [if_neg h1, if_pos h2]; exact ⟨Nat.le_of_not_lt h1, h2⟩
  by_cases h3 : t < 344
  · rw [if_neg h1, if_neg h2, if_pos h3]; exact ⟨Nat.le_of_not_lt h2, h3⟩
  · rw [if_neg h1, if_neg h2, if_neg h3]; exact ⟨Nat.le_of_not_lt h3, h⟩

/-- A row lies in its segment of its quarter of its block. -/
theorem row_seg (r : ℕ) :
    band (r / 2048) (r % 2048 / 512) (segLo (segOf (r % 512))) ≤ r ∧ r < band (r / 2048) (r % 2048 / 512) (segHi (segOf (r % 512))) := by
  have h := segOf_spec (r % 512) (Nat.mod_lt _ (by decide))
  unfold band
  omega

/-- The thirty pairs of a flow and a hop. -/
def allFH : List (Fin 10 × Fin 3) := (List.finRange 10).flatMap fun f => (List.finRange 3).map fun h => (f, h)

/-- Segment `s` of quarter `k` of block `zb` lies within the band of flow `fh.1` landing at hop `fh.2`. -/
def inBand (c : Dev nD) (zb k s : ℕ) (fh : Fin 10 × Fin 3) : Bool :=
  decide (lo fh.1 fh.2.val c ≤ band zb k (segLo s) ∧ band zb k (segHi s) ≤ lo fh.1 fh.2.val c + flowRows fh.1)

/-- The flow and hop within whose band a segment lies, if any. -/
def fhOf (c : Dev nD) (zb k s : ℕ) : Option (Fin 10 × Fin 3) := allFH.find? (inBand c zb k s)

/-- Piece 3 f + h is the band of flow `f`, hop `h`; piece 30 is the own block. -/
def pieceIdx (f : Fin 10) (h : Fin 3) : Fin 31 := ⟨3 * f.val + h.val, by omega⟩

/-- The piece row `r` belongs to. -/
def cls (c : Dev nD) (r : ℕ) : Fin 31 :=
  match fhOf c (r / 2048) (r % 2048 / 512) (segOf (r % 512)) with
  | some fh => pieceIdx fh.1 fh.2
  | none => 30

/-- The indices of piece `p`. -/
def pieceSet (c : Dev nD) (p : Fin 31) : Finset S8192x512.Idx := Finset.univ.filter fun i => cls c (i 0).val = p

theorem mem_pieceSet {c : Dev nD} {p : Fin 31} {i : S8192x512.Idx} : i ∈ pieceSet c p ↔ cls c (i 0).val = p := by
  unfold pieceSet; rw [Finset.mem_filter]; exact ⟨fun h => h.2, fun h => ⟨Finset.mem_univ _, h⟩⟩

theorem pieceSet_disjoint (c : Dev nD) {p p' : Fin 31} (h : p ≠ p') : Disjoint (pieceSet c p) (pieceSet c p') :=
  Finset.disjoint_left.mpr fun i hi hi' => h ((mem_pieceSet.mp hi).symm.trans (mem_pieceSet.mp hi'))

theorem pieceSet_cover (c : Dev nD) (i : S8192x512.Idx) : i ∈ pieceSet c (cls c (i 0).val) := mem_pieceSet.mpr rfl

/-! ## A buffer split into its pieces and joined back -/

omit [FloatOps F] in
theorem split_pieces_s (c : Dev nD) (q : PosShare TreeShare) (f : (cc0_scratch0 : Ref sig .tc).ty.Contents (Elt F)) :
    ((((c : Thread nD τ).loc cc0_scratch0) ↦{q} f : sProp 𝕄))
      ⊣⊢ bigSepL (List.finRange 31) (fun p => ((((c : Thread nD τ).loc cc0_scratch0) ↦[pieceSet c p]{q} f : sProp 𝕄))) :=
  split_fib (ℓ := (c : Thread nD τ).loc cc0_scratch0) (fun i => cls c (i 0).val) (by decide) q f

omit [FloatOps F] in
theorem split_pieces_o (c : Dev nD) (q : PosShare TreeShare) (f : (main_v1 : Ref sig .tc).ty.Contents (Elt F)) :
    ((((c : Thread nD τ).loc main_v1) ↦{q} f : sProp 𝕄))
      ⊣⊢ bigSepL (List.finRange 31) (fun p => ((((c : Thread nD τ).loc main_v1) ↦[pieceSet c p]{q} f : sProp 𝕄))) :=
  split_fib (ℓ := (c : Thread nD τ).loc main_v1) (fun i => cls c (i 0).val) (by decide) q f

omit [FloatOps F] in
theorem join_pieces_s (c : Dev nD) :
    bigSepL (List.finRange 31) (fun p => (iprop(∃ g : (cc0_scratch0 : Ref sig .tc).ty.Contents (Elt F),
        ((c : Thread nD τ).loc cc0_scratch0) ↦[pieceSet c p]{fullShare} g) : sProp 𝕄))
      ⊢ iprop(∃ g : (cc0_scratch0 : Ref sig .tc).ty.Contents (Elt F), ((c : Thread nD τ).loc cc0_scratch0) ↦{fullShare} g) :=
  join_fib (ℓ := (c : Thread nD τ).loc cc0_scratch0) (fun i => cls c (i 0).val) (by decide)

omit [FloatOps F] in
theorem join_pieces_o (c : Dev nD) :
    bigSepL (List.finRange 31) (fun p => (iprop(∃ g : (main_v1 : Ref sig .tc).ty.Contents (Elt F),
        ((c : Thread nD τ).loc main_v1) ↦[pieceSet c p]{fullShare} g) : sProp 𝕄))
      ⊢ iprop(∃ g : (main_v1 : Ref sig .tc).ty.Contents (Elt F), ((c : Thread nD τ).loc main_v1) ↦{fullShare} g) :=
  join_fib (ℓ := (c : Thread nD τ).loc main_v1) (fun i => cls c (i 0).val) (by decide)

/-! ## Which rows a piece has -/

theorem pieceIdx_inj {f f' : Fin 10} {h h' : Fin 3} (e : pieceIdx f h = pieceIdx f' h') : f = f' ∧ h = h' := by
  revert f f' h h'; decide
theorem pieceIdx_ne_own (f : Fin 10) (h : Fin 3) : pieceIdx f h ≠ 30 := by revert f h; decide

theorem cls_eq_land {c : Dev nD} {r : ℕ} {f : Fin 10} {h : Fin 3} :
    cls c r = pieceIdx f h ↔ fhOf c (r / 2048) (r % 2048 / 512) (segOf (r % 512)) = some (f, h) := by
  unfold cls
  cases fhOf c (r / 2048) (r % 2048 / 512) (segOf (r % 512)) with
  | none => exact ⟨fun e => absurd e.symm (pieceIdx_ne_own f h), fun e => by cases e⟩
  | some fh =>
    obtain ⟨f', h'⟩ := fh
    show pieceIdx f' h' = pieceIdx f h ↔ some (f', h') = some (f, h)
    constructor
    · intro e; obtain ⟨e1, e2⟩ := pieceIdx_inj e; rw [e1, e2]
    · intro e; obtain ⟨e1, e2⟩ := Prod.mk.inj (Option.some.inj e); rw [e1, e2]

theorem cls_eq_own {c : Dev nD} {r : ℕ} :
    cls c r = 30 ↔ fhOf c (r / 2048) (r % 2048 / 512) (segOf (r % 512)) = none := by
  unfold cls
  cases fhOf c (r / 2048) (r % 2048 / 512) (segOf (r % 512)) with
  | none => exact ⟨fun _ => rfl, fun _ => rfl⟩
  | some fh => exact ⟨fun e => absurd e (pieceIdx_ne_own fh.1 fh.2), fun e => by cases e⟩

/-- A segment that meets a band lies within it, and is looked up as that band's. -/
theorem fhOf_of_meets : ∀ (c : Dev nD) (f : Fin 10) (h : Fin 3) (zb k s : Fin 4),
    band zb.val k.val (segLo s.val) < lo f h.val c + flowRows f → lo f h.val c < band zb.val k.val (segHi s.val) →
      fhOf c zb.val k.val s.val = some (f, h) := by decide +kernel

/-- A segment of no band is in the own block. -/
theorem own_of_fhOf_none : ∀ (c : Dev nD) (zb k s : Fin 4), fhOf c zb.val k.val s.val = none → zb.val = c.val % 4 := by
  decide +kernel

/-- The segments of the own block are of no band. -/
theorem fhOf_own : ∀ (c : Dev nD) (k s : Fin 4), fhOf c (c.val % 4) k.val s.val = none := by decide +kernel

theorem pieceSet_land (c : Dev nD) (f : Fin 10) (h : Fin 3) : pieceSet c (pieceIdx f h) = Rows (lo f h.val c) (flowRows f) := by
  ext i
  rw [mem_pieceSet, mem_Rows, cls_eq_land]
  have hr : (i 0).val < 8192 := (i 0).isLt
  generalize (i 0).val = r at hr ⊢
  have hs := row_seg r
  constructor
  · intro e
    have hb : lo f h.val c ≤ band (r / 2048) (r % 2048 / 512) (segLo (segOf (r % 512)))
        ∧ band (r / 2048) (r % 2048 / 512) (segHi (segOf (r % 512))) ≤ lo f h.val c + flowRows f :=
      of_decide_eq_true (List.find?_some (p := inBand c (r / 2048) (r % 2048 / 512) (segOf (r % 512))) (l := allFH) e)
    omega
  · intro hh
    exact fhOf_of_meets c f h ⟨r / 2048, by omega⟩ ⟨r % 2048 / 512, by omega⟩ ⟨segOf (r % 512), segOf_lt _⟩
      (Nat.lt_of_le_of_lt hs.1 hh.2) (Nat.lt_of_le_of_lt hh.1 hs.2)

theorem pieceSet_own (c : Dev nD) : pieceSet c 30 = Rows (2048 * (c.val % 4)) 2048 := by
  ext i
  rw [mem_pieceSet, mem_Rows, cls_eq_own]
  have hr : (i 0).val < 8192 := (i 0).isLt
  generalize (i 0).val = r at hr ⊢
  constructor
  · intro e
    have hz : r / 2048 = c.val % 4 :=
      own_of_fhOf_none c ⟨r / 2048, by omega⟩ ⟨r % 2048 / 512, by omega⟩ ⟨segOf (r % 512), segOf_lt _⟩ e
    omega
  · intro hh
    have hz : r / 2048 = c.val % 4 := by omega
    rw [hz]
    exact fhOf_own c ⟨r % 2048 / 512, by omega⟩ ⟨segOf (r % 512), segOf_lt _⟩

/-! ## The same with the thirty-one pieces written out -/

omit [FloatOps F] in
theorem split_pieces_s_chain (c : Dev nD) (q : PosShare TreeShare) (f : (cc0_scratch0 : Ref sig .tc).ty.Contents (Elt F)) :
    ((((c : Thread nD τ).loc cc0_scratch0) ↦{q} f : sProp 𝕄))
      ⊣⊢ iprop((((c : Thread nD τ).loc cc0_scratch0) ↦[pieceSet c 0]{q} f) ∗ (((c : Thread nD τ).loc cc0_scratch0) ↦[pieceSet c 1]{q} f) ∗
        (((c : Thread nD τ).loc cc0_scratch0) ↦[pieceSet c 2]{q} f) ∗ (((c : Thread nD τ).loc cc0_scratch0) ↦[pieceSet c 3]{q} f) ∗
        (((c : Thread nD τ).loc cc0_scratch0) ↦[pieceSet c 4]{q} f) ∗ (((c : Thread nD τ).loc cc0_scratch0) ↦[pieceSet c 5]{q} f) ∗
        (((c : Thread nD τ).loc cc0_scratch0) ↦[pieceSet c 6]{q} f) ∗ (((c : Thread nD τ).loc cc0_scratch0) ↦[pieceSet c 7]{q} f) ∗
        (((c : Thread nD τ).loc cc0_scratch0) ↦[pieceSet c 8]{q} f) ∗ (((c : Thread nD τ).loc cc0_scratch0) ↦[pieceSet c 9]{q} f) ∗
        (((c : Thread nD τ).loc cc0_scratch0) ↦[pieceSet c 10]{q} f) ∗ (((c : Thread nD τ).loc cc0_scratch0) ↦[pieceSet c 11]{q} f) ∗
        (((c : Thread nD τ).loc cc0_scratch0) ↦[pieceSet c 12]{q} f) ∗ (((c : Thread nD τ).loc cc0_scratch0) ↦[pieceSet c 13]{q} f) ∗
        (((c : Thread nD τ).loc cc0_scratch0) ↦[pieceSet c 14]{q} f) ∗ (((c : Thread nD τ).loc cc0_scratch0) ↦[pieceSet c 15]{q} f) ∗
        (((c : Thread nD τ).loc cc0_scratch0) ↦[pieceSet c 16]{q} f) ∗ (((c : Thread nD τ).loc cc0_scratch0) ↦[pieceSet c 17]{q} f) ∗
        (((c : Thread nD τ).loc cc0_scratch0) ↦[pieceSet c 18]{q} f) ∗ (((c : Thread nD τ).loc cc0_scratch0) ↦[pieceSet c 19]{q} f) ∗
        (((c : Thread nD τ).loc cc0_scratch0) ↦[pieceSet c 20]{q} f) ∗ (((c : Thread nD τ).loc cc0_scratch0) ↦[pieceSet c 21]{q} f) ∗
        (((c : Thread nD τ).loc cc0_scratch0) ↦[pieceSet c 22]{q} f) ∗ (((c : Thread nD τ).loc cc0_scratch0) ↦[pieceSet c 23]{q} f) ∗
        (((c : Thread nD τ).loc cc0_scratch0) ↦[pieceSet c 24]{q} f) ∗ (((c : Thread nD τ).loc cc0_scratch0) ↦[pieceSet c 25]{q} f) ∗
        (((c : Thread nD τ).loc cc0_scratch0) ↦[pieceSet c 26]{q} f) ∗ (((c : Thread nD τ).loc cc0_scratch0) ↦[pieceSet c 27]{q} f) ∗
        (((c : Thread nD τ).loc cc0_scratch0) ↦[pieceSet c 28]{q} f) ∗ (((c : Thread nD τ).loc cc0_scratch0) ↦[pieceSet c 29]{q} f) ∗
        (((c : Thread nD τ).loc cc0_scratch0) ↦[pieceSet c 30]{q} f)) :=
  split_pieces_s c q f

omit [FloatOps F] in
theorem split_pieces_o_chain (c : Dev nD) (q : PosShare TreeShare) (f : (main_v1 : Ref sig .tc).ty.Contents (Elt F)) :
    ((((c : Thread nD τ).loc main_v1) ↦{q} f : sProp 𝕄))
      ⊣⊢ iprop((((c : Thread nD τ).loc main_v1) ↦[pieceSet c 0]{q} f) ∗ (((c : Thread nD τ).loc main_v1) ↦[pieceSet c 1]{q} f) ∗
        (((c : Thread nD τ).loc main_v1) ↦[pieceSet c 2]{q} f) ∗ (((c : Thread nD τ).loc main_v1) ↦[pieceSet c 3]{q} f) ∗
        (((c : Thread nD τ).loc main_v1) ↦[pieceSet c 4]{q} f) ∗ (((c : Thread nD τ).loc main_v1) ↦[pieceSet c 5]{q} f) ∗
        (((c : Thread nD τ).loc main_v1) ↦[pieceSet c 6]{q} f) ∗ (((c : Thread nD τ).loc main_v1) ↦[pieceSet c 7]{q} f) ∗
        (((c : Thread nD τ).loc main_v1) ↦[pieceSet c 8]{q} f) ∗ (((c : Thread nD τ).loc main_v1) ↦[pieceSet c 9]{q} f) ∗
        (((c : Thread nD τ).loc main_v1) ↦[pieceSet c 10]{q} f) ∗ (((c : Thread nD τ).loc main_v1) ↦[pieceSet c 11]{q} f) ∗
        (((c : Thread nD τ).loc main_v1) ↦[pieceSet c 12]{q} f) ∗ (((c : Thread nD τ).loc main_v1) ↦[pieceSet c 13]{q} f) ∗
        (((c : Thread nD τ).loc main_v1) ↦[pieceSet c 14]{q} f) ∗ (((c : Thread nD τ).loc main_v1) ↦[pieceSet c 15]{q} f) ∗
        (((c : Thread nD τ).loc main_v1) ↦[pieceSet c 16]{q} f) ∗ (((c : Thread nD τ).loc main_v1) ↦[pieceSet c 17]{q} f) ∗
        (((c : Thread nD τ).loc main_v1) ↦[pieceSet c 18]{q} f) ∗ (((c : Thread nD τ).loc main_v1) ↦[pieceSet c 19]{q} f) ∗
        (((c : Thread nD τ).loc main_v1) ↦[pieceSet c 20]{q} f) ∗ (((c : Thread nD τ).loc main_v1) ↦[pieceSet c 21]{q} f) ∗
        (((c : Thread nD τ).loc main_v1) ↦[pieceSet c 22]{q} f) ∗ (((c : Thread nD τ).loc main_v1) ↦[pieceSet c 23]{q} f) ∗
        (((c : Thread nD τ).loc main_v1) ↦[pieceSet c 24]{q} f) ∗ (((c : Thread nD τ).loc main_v1) ↦[pieceSet c 25]{q} f) ∗
        (((c : Thread nD τ).loc main_v1) ↦[pieceSet c 26]{q} f) ∗ (((c : Thread nD τ).loc main_v1) ↦[pieceSet c 27]{q} f) ∗
        (((c : Thread nD τ).loc main_v1) ↦[pieceSet c 28]{q} f) ∗ (((c : Thread nD τ).loc main_v1) ↦[pieceSet c 29]{q} f) ∗
        (((c : Thread nD τ).loc main_v1) ↦[pieceSet c 30]{q} f)) :=
  split_pieces_o c q f

omit [FloatOps F] in
theorem join_pieces_s_chain (c : Dev nD) :
    (iprop((∃ g : (cc0_scratch0 : Ref sig .tc).ty.Contents (Elt F), ((c : Thread nD τ).loc cc0_scratch0) ↦[pieceSet c 0]{fullShare} g) ∗
        (∃ g : (cc0_scratch0 : Ref sig .tc).ty.Contents (Elt F), ((c : Thread nD τ).loc cc0_scratch0) ↦[pieceSet c 1]{fullShare} g) ∗
        (∃ g : (cc0_scratch0 : Ref sig .tc).ty.Contents (Elt F), ((c : Thread nD τ).loc cc0_scratch0) ↦[pieceSet c 2]{fullShare} g) ∗
        (∃ g : (cc0_scratch0 : Ref sig .tc).ty.Contents (Elt F), ((c : Thread nD τ).loc cc0_scratch0) ↦[pieceSet c 3]{fullShare} g) ∗
        (∃ g : (cc0_scratch0 : Ref sig .tc).ty.Contents (Elt F), ((c : Thread nD τ).loc cc0_scratch0) ↦[pieceSet c 4]{fullShare} g) ∗
        (∃ g : (cc0_scratch0 : Ref sig .tc).ty.Contents (Elt F), ((c : Thread nD τ).loc cc0_scratch0) ↦[pieceSet c 5]{fullShare} g) ∗
        (∃ g : (cc0_scratch0 : Ref sig .tc).ty.Contents (Elt F), ((c : Thread nD τ).loc cc0_scratch0) ↦[pieceSet c 6]{fullShare} g) ∗
        (∃ g : (cc0_scratch0 : Ref sig .tc).ty.Contents (Elt F), ((c : Thread nD τ).loc cc0_scratch0) ↦[pieceSet c 7]{fullShare} g) ∗
        (∃ g : (cc0_scratch0 : Ref sig .tc).ty.Contents (Elt F), ((c : Thread nD τ).loc cc0_scratch0) ↦[pieceSet c 8]{fullShare} g) ∗
        (∃ g : (cc0_scratch0 : Ref sig .tc).ty.Contents (Elt F), ((c : Thread nD τ).loc cc0_scratch0) ↦[pieceSet c 9]{fullShare} g) ∗
        (∃ g : (cc0_scratch0 : Ref sig .tc).ty.Contents (Elt F), ((c : Thread nD τ).loc cc0_scratch0) ↦[pieceSet c 10]{fullShare} g) ∗
        (∃ g : (cc0_scratch0 : Ref sig .tc).ty.Contents (Elt F), ((c : Thread nD τ).loc cc0_scratch0) ↦[pieceSet c 11]{fullShare} g) ∗
        (∃ g : (cc0_scratch0 : Ref sig .tc).ty.Contents (Elt F), ((c : Thread nD τ).loc cc0_scratch0) ↦[pieceSet c 12]{fullShare} g) ∗
        (∃ g : (cc0_scratch0 : Ref sig .tc).ty.Contents (Elt F), ((c : Thread nD τ).loc cc0_scratch0) ↦[pieceSet c 13]{fullShare} g) ∗
        (∃ g : (cc0_scratch0 : Ref sig .tc).ty.Contents (Elt F), ((c : Thread nD τ).loc cc0_scratch0) ↦[pieceSet c 14]{fullShare} g) ∗
        (∃ g : (cc0_scratch0 : Ref sig .tc).ty.Contents (Elt F), ((c : Thread nD τ).loc cc0_scratch0) ↦[pieceSet c 15]{fullShare} g) ∗
        (∃ g : (cc0_scratch0 : Ref sig .tc).ty.Contents (Elt F), ((c : Thread nD τ).loc cc0_scratch0) ↦[pieceSet c 16]{fullShare} g) ∗
        (∃ g : (cc0_scratch0 : Ref sig .tc).ty.Contents (Elt F), ((c : Thread nD τ).loc cc0_scratch0) ↦[pieceSet c 17]{fullShare} g) ∗
        (∃ g : (cc0_scratch0 : Ref sig .tc).ty.Contents (Elt F), ((c : Thread nD τ).loc cc0_scratch0) ↦[pieceSet c 18]{fullShare} g) ∗
        (∃ g : (cc0_scratch0 : Ref sig .tc).ty.Contents (Elt F), ((c : Thread nD τ).loc cc0_scratch0) ↦[pieceSet c 19]{fullShare} g) ∗
        (∃ g : (cc0_scratch0 : Ref sig .tc).ty.Contents (Elt F), ((c : Thread nD τ).loc cc0_scratch0) ↦[pieceSet c 20]{fullShare} g) ∗
        (∃ g : (cc0_scratch0 : Ref sig .tc).ty.Contents (Elt F), ((c : Thread nD τ).loc cc0_scratch0) ↦[pieceSet c 21]{fullShare} g) ∗
        (∃ g : (cc0_scratch0 : Ref sig .tc).ty.Contents (Elt F), ((c : Thread nD τ).loc cc0_scratch0) ↦[pieceSet c 22]{fullShare} g) ∗
        (∃ g : (cc0_scratch0 : Ref sig .tc).ty.Contents (Elt F), ((c : Thread nD τ).loc cc0_scratch0) ↦[pieceSet c 23]{fullShare} g) ∗
        (∃ g : (cc0_scratch0 : Ref sig .tc).ty.Contents (Elt F), ((c : Thread nD τ).loc cc0_scratch0) ↦[pieceSet c 24]{fullShare} g) ∗
        (∃ g : (cc0_scratch0 : Ref sig .tc).ty.Contents (Elt F), ((c : Thread nD τ).loc cc0_scratch0) ↦[pieceSet c 25]{fullShare} g) ∗
        (∃ g : (cc0_scratch0 : Ref sig .tc).ty.Contents (Elt F), ((c : Thread nD τ).loc cc0_scratch0) ↦[pieceSet c 26]{fullShare} g) ∗
        (∃ g : (cc0_scratch0 : Ref sig .tc).ty.Contents (Elt F), ((c : Thread nD τ).loc cc0_scratch0) ↦[pieceSet c 27]{fullShare} g) ∗
        (∃ g : (cc0_scratch0 : Ref sig .tc).ty.Contents (Elt F), ((c : Thread nD τ).loc cc0_scratch0) ↦[pieceSet c 28]{fullShare} g) ∗
        (∃ g : (cc0_scratch0 : Ref sig .tc).ty.Contents (Elt F), ((c : Thread nD τ).loc cc0_scratch0) ↦[pieceSet c 29]{fullShare} g) ∗
        (∃ g : (cc0_scratch0 : Ref sig .tc).ty.Contents (Elt F), ((c : Thread nD τ).loc cc0_scratch0) ↦[pieceSet c 30]{fullShare} g)) : sProp 𝕄)
      ⊢ iprop(∃ g : (cc0_scratch0 : Ref sig .tc).ty.Contents (Elt F), ((c : Thread nD τ).loc cc0_scratch0) ↦{fullShare} g) :=
  join_pieces_s c

omit [FloatOps F] in
theorem join_pieces_o_chain (c : Dev nD) :
    (iprop((∃ g : (main_v1 : Ref sig .tc).ty.Contents (Elt F), ((c : Thread nD τ).loc main_v1) ↦[pieceSet c 0]{fullShare} g) ∗
        (∃ g : (main_v1 : Ref sig .tc).ty.Contents (Elt F), ((c : Thread nD τ).loc main_v1) ↦[pieceSet c 1]{fullShare} g) ∗
        (∃ g : (main_v1 : Ref sig .tc).ty.Contents (Elt F), ((c : Thread nD τ).loc main_v1) ↦[pieceSet c 2]{fullShare} g) ∗
        (∃ g : (main_v1 : Ref sig .tc).ty.Contents (Elt F), ((c : Thread nD τ).loc main_v1) ↦[pieceSet c 3]{fullShare} g) ∗
        (∃ g : (main_v1 : Ref sig .tc).ty.Contents (Elt F), ((c : Thread nD τ).loc main_v1) ↦[pieceSet c 4]{fullShare} g) ∗
        (∃ g : (main_v1 : Ref sig .tc).ty.Contents (Elt F), ((c : Thread nD τ).loc main_v1) ↦[pieceSet c 5]{fullShare} g) ∗
        (∃ g : (main_v1 : Ref sig .tc).ty.Contents (Elt F), ((c : Thread nD τ).loc main_v1) ↦[pieceSet c 6]{fullShare} g) ∗
        (∃ g : (main_v1 : Ref sig .tc).ty.Contents (Elt F), ((c : Thread nD τ).loc main_v1) ↦[pieceSet c 7]{fullShare} g) ∗
        (∃ g : (main_v1 : Ref sig .tc).ty.Contents (Elt F), ((c : Thread nD τ).loc main_v1) ↦[pieceSet c 8]{fullShare} g) ∗
        (∃ g : (main_v1 : Ref sig .tc).ty.Contents (Elt F), ((c : Thread nD τ).loc main_v1) ↦[pieceSet c 9]{fullShare} g) ∗
        (∃ g : (main_v1 : Ref sig .tc).ty.Contents (Elt F), ((c : Thread nD τ).loc main_v1) ↦[pieceSet c 10]{fullShare} g) ∗
        (∃ g : (main_v1 : Ref sig .tc).ty.Contents (Elt F), ((c : Thread nD τ).loc main_v1) ↦[pieceSet c 11]{fullShare} g) ∗
        (∃ g : (main_v1 : Ref sig .tc).ty.Contents (Elt F), ((c : Thread nD τ).loc main_v1) ↦[pieceSet c 12]{fullShare} g) ∗
        (∃ g : (main_v1 : Ref sig .tc).ty.Contents (Elt F), ((c : Thread nD τ).loc main_v1) ↦[pieceSet c 13]{fullShare} g) ∗
        (∃ g : (main_v1 : Ref sig .tc).ty.Contents (Elt F), ((c : Thread nD τ).loc main_v1) ↦[pieceSet c 14]{fullShare} g) ∗
        (∃ g : (main_v1 : Ref sig .tc).ty.Contents (Elt F), ((c : Thread nD τ).loc main_v1) ↦[pieceSet c 15]{fullShare} g) ∗
        (∃ g : (main_v1 : Ref sig .tc).ty.Contents (Elt F), ((c : Thread nD τ).loc main_v1) ↦[pieceSet c 16]{fullShare} g) ∗
        (∃ g : (main_v1 : Ref sig .tc).ty.Contents (Elt F), ((c : Thread nD τ).loc main_v1) ↦[pieceSet c 17]{fullShare} g) ∗
        (∃ g : (main_v1 : Ref sig .tc).ty.Contents (Elt F), ((c : Thread nD τ).loc main_v1) ↦[pieceSet c 18]{fullShare} g) ∗
        (∃ g : (main_v1 : Ref sig .tc).ty.Contents (Elt F), ((c : Thread nD τ).loc main_v1) ↦[pieceSet c 19]{fullShare} g) ∗
        (∃ g : (main_v1 : Ref sig .tc).ty.Contents (Elt F), ((c : Thread nD τ).loc main_v1) ↦[pieceSet c 20]{fullShare} g) ∗
        (∃ g : (main_v1 : Ref sig .tc).ty.Contents (Elt F), ((c : Thread nD τ).loc main_v1) ↦[pieceSet c 21]{fullShare} g) ∗
        (∃ g : (main_v1 : Ref sig .tc).ty.Contents (Elt F), ((c : Thread nD τ).loc main_v1) ↦[pieceSet c 22]{fullShare} g) ∗
        (∃ g : (main_v1 : Ref sig .tc).ty.Contents (Elt F), ((c : Thread nD τ).loc main_v1) ↦[pieceSet c 23]{fullShare} g) ∗
        (∃ g : (main_v1 : Ref sig .tc).ty.Contents (Elt F), ((c : Thread nD τ).loc main_v1) ↦[pieceSet c 24]{fullShare} g) ∗
        (∃ g : (main_v1 : Ref sig .tc).ty.Contents (Elt F), ((c : Thread nD τ).loc main_v1) ↦[pieceSet c 25]{fullShare} g) ∗
        (∃ g : (main_v1 : Ref sig .tc).ty.Contents (Elt F), ((c : Thread nD τ).loc main_v1) ↦[pieceSet c 26]{fullShare} g) ∗
        (∃ g : (main_v1 : Ref sig .tc).ty.Contents (Elt F), ((c : Thread nD τ).loc main_v1) ↦[pieceSet c 27]{fullShare} g) ∗
        (∃ g : (main_v1 : Ref sig .tc).ty.Contents (Elt F), ((c : Thread nD τ).loc main_v1) ↦[pieceSet c 28]{fullShare} g) ∗
        (∃ g : (main_v1 : Ref sig .tc).ty.Contents (Elt F), ((c : Thread nD τ).loc main_v1) ↦[pieceSet c 29]{fullShare} g) ∗
        (∃ g : (main_v1 : Ref sig .tc).ty.Contents (Elt F), ((c : Thread nD τ).loc main_v1) ↦[pieceSet c 30]{fullShare} g)) : sProp 𝕄)
      ⊢ iprop(∃ g : (main_v1 : Ref sig .tc).ty.Contents (Elt F), ((c : Thread nD τ).loc main_v1) ↦{fullShare} g) :=
  join_pieces_o c

/-! ## The same with every piece as its band of rows -/

omit [FloatOps F] in
theorem sep_congr {A A' B B' : sProp 𝕄} (ea : A = A') (eb : B = B') : (iprop(A ∗ B) : sProp 𝕄) = iprop(A' ∗ B') := by
  rw [ea, eb]

omit [FloatOps F] in
theorem sPts_piece (c : Dev nD) (f : Fin 10) (h : Fin 3) (p : Fin 31) (hp : p = pieceIdx f h) (hn : ℕ) (hh : hn = h.val)
    (q : PosShare TreeShare) (X : (cc0_scratch0 : Ref sig .tc).ty.Contents (Elt F)) :
    ((((c : Thread nD τ).loc cc0_scratch0) ↦[pieceSet c p]{q} X : sProp 𝕄)) = sPts c (lo f hn c) (flowRows f) q X := by
  subst hp hh; unfold sPts; rw [pieceSet_land]
omit [FloatOps F] in
theorem sPts_own (c : Dev nD) (q : PosShare TreeShare) (X : (cc0_scratch0 : Ref sig .tc).ty.Contents (Elt F)) :
    ((((c : Thread nD τ).loc cc0_scratch0) ↦[pieceSet c 30]{q} X : sProp 𝕄)) = sPts c (2048 * (c.val % 4)) 2048 q X := by
  unfold sPts; rw [pieceSet_own]
omit [FloatOps F] in
theorem oPts_piece (c : Dev nD) (f : Fin 10) (h : Fin 3) (p : Fin 31) (hp : p = pieceIdx f h) (hn : ℕ) (hh : hn = h.val)
    (q : PosShare TreeShare) (X : (main_v1 : Ref sig .tc).ty.Contents (Elt F)) :
    ((((c : Thread nD τ).loc main_v1) ↦[pieceSet c p]{q} X : sProp 𝕄)) = oPts c (lo f hn c) (flowRows f) q X := by
  subst hp hh; unfold oPts; rw [pieceSet_land]
omit [FloatOps F] in
theorem oPts_own (c : Dev nD) (q : PosShare TreeShare) (X : (main_v1 : Ref sig .tc).ty.Contents (Elt F)) :
    ((((c : Thread nD τ).loc main_v1) ↦[pieceSet c 30]{q} X : sProp 𝕄)) = oPts c (2048 * (c.val % 4)) 2048 q X := by
  unfold oPts; rw [pieceSet_own]

omit [FloatOps F] in
theorem sPtsE_piece (c : Dev nD) (f : Fin 10) (h : Fin 3) (p : Fin 31) (hp : p = pieceIdx f h) (hn : ℕ) (hh : hn = h.val) :
    (iprop(∃ g : (cc0_scratch0 : Ref sig .tc).ty.Contents (Elt F), ((c : Thread nD τ).loc cc0_scratch0) ↦[pieceSet c p]{fullShare} g) : sProp 𝕄)
      = iprop(∃ g : (cc0_scratch0 : Ref sig .tc).ty.Contents (Elt F), sPts (F := F) c (lo f hn c) (flowRows f) fullShare g) := by
  subst hp hh; unfold sPts; rw [pieceSet_land]
omit [FloatOps F] in
theorem sPtsE_own (c : Dev nD) :
    (iprop(∃ g : (cc0_scratch0 : Ref sig .tc).ty.Contents (Elt F), ((c : Thread nD τ).loc cc0_scratch0) ↦[pieceSet c 30]{fullShare} g) : sProp 𝕄)
      = iprop(∃ g : (cc0_scratch0 : Ref sig .tc).ty.Contents (Elt F), sPts (F := F) c (2048 * (c.val % 4)) 2048 fullShare g) := by
  unfold sPts; rw [pieceSet_own]
omit [FloatOps F] in
theorem oPtsE_piece (c : Dev nD) (f : Fin 10) (h : Fin 3) (p : Fin 31) (hp : p = pieceIdx f h) (hn : ℕ) (hh : hn = h.val) :
    (iprop(∃ g : (main_v1 : Ref sig .tc).ty.Contents (Elt F), ((c : Thread nD τ).loc main_v1) ↦[pieceSet c p]{fullShare} g) : sProp 𝕄)
      = iprop(∃ g : (main_v1 : Ref sig .tc).ty.Contents (Elt F), oPts (F := F) c (lo f hn c) (flowRows f) fullShare g) := by
  subst hp hh; unfold oPts; rw [pieceSet_land]
omit [FloatOps F] in
theorem oPtsE_own (c : Dev nD) :
    (iprop(∃ g : (main_v1 : Ref sig .tc).ty.Contents (Elt F), ((c : Thread nD τ).loc main_v1) ↦[pieceSet c 30]{fullShare} g) : sProp 𝕄)
      = iprop(∃ g : (main_v1 : Ref sig .tc).ty.Contents (Elt F), oPts (F := F) c (2048 * (c.val % 4)) 2048 fullShare g) := by
  unfold oPts; rw [pieceSet_own]

omit [FloatOps F] in
theorem split_bands_s (c : Dev nD) (q : PosShare TreeShare) (f : (cc0_scratch0 : Ref sig .tc).ty.Contents (Elt F)) :
    ((((c : Thread nD τ).loc cc0_scratch0) ↦{q} f : sProp 𝕄))
      ⊣⊢ iprop(sPts (F := F) c (lo 0 0 c) (flowRows 0) q f ∗ sPts (F := F) c (lo 0 1 c) (flowRows 0) q f ∗
        sPts (F := F) c (lo 0 2 c) (flowRows 0) q f ∗ sPts (F := F) c (lo 1 0 c) (flowRows 1) q f ∗
        sPts (F := F) c (lo 1 1 c) (flowRows 1) q f ∗ sPts (F := F) c (lo 1 2 c) (flowRows 1) q f ∗
        sPts (F := F) c (lo 2 0 c) (flowRows 2) q f ∗ sPts (F := F) c (lo 2 1 c) (flowRows 2) q f ∗
        sPts (F := F) c (lo 2 2 c) (flowRows 2) q f ∗ sPts (F := F) c (lo 3 0 c) (flowRows 3) q f ∗
        sPts (F := F) c (lo 3 1 c) (flowRows 3) q f ∗ sPts (F := F) c (lo 3 2 c) (flowRows 3) q f ∗
        sPts (F := F) c (lo 4 0 c) (flowRows 4) q f ∗ sPts (F := F) c (lo 4 1 c) (flowRows 4) q f ∗
        sPts (F := F) c (lo 4 2 c) (flowRows 4) q f ∗ sPts (F := F) c (lo 5 0 c) (flowRows 5) q f ∗
        sPts (F := F) c (lo 5 1 c) (flowRows 5) q f ∗ sPts (F := F) c (lo 5 2 c) (flowRows 5) q f ∗
        sPts (F := F) c (lo 6 0 c) (flowRows 6) q f ∗ sPts (F := F) c (lo 6 1 c) (flowRows 6) q f ∗
        sPts (F := F) c (lo 6 2 c) (flowRows 6) q f ∗ sPts (F := F) c (lo 7 0 c) (flowRows 7) q f ∗
        sPts (F := F) c (lo 7 1 c) (flowRows 7) q f ∗ sPts (F := F) c (lo 7 2 c) (flowRows 7) q f ∗
        sPts (F := F) c (lo 8 0 c) (flowRows 8) q f ∗ sPts (F := F) c (lo 8 1 c) (flowRows 8) q f ∗
        sPts (F := F) c (lo 8 2 c) (flowRows 8) q f ∗ sPts (F := F) c (lo 9 0 c) (flowRows 9) q f ∗
        sPts (F := F) c (lo 9 1 c) (flowRows 9) q f ∗ sPts (F := F) c (lo 9 2 c) (flowRows 9) q f ∗
        sPts (F := F) c (2048 * (c.val % 4)) 2048 q f) := by
  have h := split_pieces_s_chain (F := F) c q f
  have e := sep_congr (sPts_piece c 0 0 0 (by decide) 0 rfl q f)
    (sep_congr (sPts_piece c 0 1 1 (by decide) 1 rfl q f)
    (sep_congr (sPts_piece c 0 2 2 (by decide) 2 rfl q f)
    (sep_congr (sPts_piece c 1 0 3 (by decide) 0 rfl q f)
    (sep_congr (sPts_piece c 1 1 4 (by decide) 1 rfl q f)
    (sep_congr (sPts_piece c 1 2 5 (by decide) 2 rfl q f)
    (sep_congr (sPts_piece c 2 0 6 (by decide) 0 rfl q f)
    (sep_congr (sPts_piece c 2 1 7 (by decide) 1 rfl q f)
    (sep_congr (sPts_piece c 2 2 8 (by decide) 2 rfl q f)
    (sep_congr (sPts_piece c 3 0 9 (by decide) 0 rfl q f)
    (sep_congr (sPts_piece c 3 1 10 (by decide) 1 rfl q f)
    (sep_congr (sPts_piece c 3 2 11 (by decide) 2 rfl q f)
    (sep_congr (sPts_piece c 4 0 12 (by decide) 0 rfl q f)
    (sep_congr (sPts_piece c 4 1 13 (by decide) 1 rfl q f)
    (sep_congr (sPts_piece c 4 2 14 (by decide) 2 rfl q f)
    (sep_congr (sPts_piece c 5 0 15 (by decide) 0 rfl q f)
    (sep_congr (sPts_piece c 5 1 16 (by decide) 1 rfl q f)
    (sep_congr (sPts_piece c 5 2 17 (by decide) 2 rfl q f)
    (sep_congr (sPts_piece c 6 0 18 (by decide) 0 rfl q f)
    (sep_congr (sPts_piece c 6 1 19 (by decide) 1 rfl q f)
    (sep_congr (sPts_piece c 6 2 20 (by decide) 2 rfl q f)
    (sep_congr (sPts_piece c 7 0 21 (by decide) 0 rfl q f)
    (sep_congr (sPts_piece c 7 1 22 (by decide) 1 rfl q f)
    (sep_congr (sPts_piece c 7 2 23 (by decide) 2 rfl q f)
    (sep_congr (sPts_piece c 8 0 24 (by decide) 0 rfl q f)
    (sep_congr (sPts_piece c 8 1 25 (by decide) 1 rfl q f)
    (sep_congr (sPts_piece c 8 2 26 (by decide) 2 rfl q f)
    (sep_congr (sPts_piece c 9 0 27 (by decide) 0 rfl q f)
    (sep_congr (sPts_piece c 9 1 28 (by decide) 1 rfl q f)
    (sep_congr (sPts_piece c 9 2 29 (by decide) 2 rfl q f)
    ((sPts_own c q f)))))))))))))))))))))))))))))))
  exact ⟨h.1.trans (Entails.of_eq e), (Entails.of_eq e.symm).trans h.2⟩

omit [FloatOps F] in
theorem split_bands_o (c : Dev nD) (q : PosShare TreeShare) (f : (main_v1 : Ref sig .tc).ty.Contents (Elt F)) :
    ((((c : Thread nD τ).loc main_v1) ↦{q} f : sProp 𝕄))
      ⊣⊢ iprop(oPts (F := F) c (lo 0 0 c) (flowRows 0) q f ∗ oPts (F := F) c (lo 0 1 c) (flowRows 0) q f ∗
        oPts (F := F) c (lo 0 2 c) (flowRows 0) q f ∗ oPts (F := F) c (lo 1 0 c) (flowRows 1) q f ∗
        oPts (F := F) c (lo 1 1 c) (flowRows 1) q f ∗ oPts (F := F) c (lo 1 2 c) (flowRows 1) q f ∗
        oPts (F := F) c (lo 2 0 c) (flowRows 2) q f ∗ oPts (F := F) c (lo 2 1 c) (flowRows 2) q f ∗
        oPts (F := F) c (lo 2 2 c) (flowRows 2) q f ∗ oPts (F := F) c (lo 3 0 c) (flowRows 3) q f ∗
        oPts (F := F) c (lo 3 1 c) (flowRows 3) q f ∗ oPts (F := F) c (lo 3 2 c) (flowRows 3) q f ∗
        oPts (F := F) c (lo 4 0 c) (flowRows 4) q f ∗ oPts (F := F) c (lo 4 1 c) (flowRows 4) q f ∗
        oPts (F := F) c (lo 4 2 c) (flowRows 4) q f ∗ oPts (F := F) c (lo 5 0 c) (flowRows 5) q f ∗
        oPts (F := F) c (lo 5 1 c) (flowRows 5) q f ∗ oPts (F := F) c (lo 5 2 c) (flowRows 5) q f ∗
        oPts (F := F) c (lo 6 0 c) (flowRows 6) q f ∗ oPts (F := F) c (lo 6 1 c) (flowRows 6) q f ∗
        oPts (F := F) c (lo 6 2 c) (flowRows 6) q f ∗ oPts (F := F) c (lo 7 0 c) (flowRows 7) q f ∗
        oPts (F := F) c (lo 7 1 c) (flowRows 7) q f ∗ oPts (F := F) c (lo 7 2 c) (flowRows 7) q f ∗
        oPts (F := F) c (lo 8 0 c) (flowRows 8) q f ∗ oPts (F := F) c (lo 8 1 c) (flowRows 8) q f ∗
        oPts (F := F) c (lo 8 2 c) (flowRows 8) q f ∗ oPts (F := F) c (lo 9 0 c) (flowRows 9) q f ∗
        oPts (F := F) c (lo 9 1 c) (flowRows 9) q f ∗ oPts (F := F) c (lo 9 2 c) (flowRows 9) q f ∗
        oPts (F := F) c (2048 * (c.val % 4)) 2048 q f) := by
  have h := split_pieces_o_chain (F := F) c q f
  have e := sep_congr (oPts_piece c 0 0 0 (by decide) 0 rfl q f)
    (sep_congr (oPts_piece c 0 1 1 (by decide) 1 rfl q f)
    (sep_congr (oPts_piece c 0 2 2 (by decide) 2 rfl q f)
    (sep_congr (oPts_piece c 1 0 3 (by decide) 0 rfl q f)
    (sep_congr (oPts_piece c 1 1 4 (by decide) 1 rfl q f)
    (sep_congr (oPts_piece c 1 2 5 (by decide) 2 rfl q f)
    (sep_congr (oPts_piece c 2 0 6 (by decide) 0 rfl q f)
    (sep_congr (oPts_piece c 2 1 7 (by decide) 1 rfl q f)
    (sep_congr (oPts_piece c 2 2 8 (by decide) 2 rfl q f)
    (sep_congr (oPts_piece c 3 0 9 (by decide) 0 rfl q f)
    (sep_congr (oPts_piece c 3 1 10 (by decide) 1 rfl q f)
    (sep_congr (oPts_piece c 3 2 11 (by decide) 2 rfl q f)
    (sep_congr (oPts_piece c 4 0 12 (by decide) 0 rfl q f)
    (sep_congr (oPts_piece c 4 1 13 (by decide) 1 rfl q f)
    (sep_congr (oPts_piece c 4 2 14 (by decide) 2 rfl q f)
    (sep_congr (oPts_piece c 5 0 15 (by decide) 0 rfl q f)
    (sep_congr (oPts_piece c 5 1 16 (by decide) 1 rfl q f)
    (sep_congr (oPts_piece c 5 2 17 (by decide) 2 rfl q f)
    (sep_congr (oPts_piece c 6 0 18 (by decide) 0 rfl q f)
    (sep_congr (oPts_piece c 6 1 19 (by decide) 1 rfl q f)
    (sep_congr (oPts_piece c 6 2 20 (by decide) 2 rfl q f)
    (sep_congr (oPts_piece c 7 0 21 (by decide) 0 rfl q f)
    (sep_congr (oPts_piece c 7 1 22 (by decide) 1 rfl q f)
    (sep_congr (oPts_piece c 7 2 23 (by decide) 2 rfl q f)
    (sep_congr (oPts_piece c 8 0 24 (by decide) 0 rfl q f)
    (sep_congr (oPts_piece c 8 1 25 (by decide) 1 rfl q f)
    (sep_congr (oPts_piece c 8 2 26 (by decide) 2 rfl q f)
    (sep_congr (oPts_piece c 9 0 27 (by decide) 0 rfl q f)
    (sep_congr (oPts_piece c 9 1 28 (by decide) 1 rfl q f)
    (sep_congr (oPts_piece c 9 2 29 (by decide) 2 rfl q f)
    ((oPts_own c q f)))))))))))))))))))))))))))))))
  exact ⟨h.1.trans (Entails.of_eq e), (Entails.of_eq e.symm).trans h.2⟩

omit [FloatOps F] in
theorem join_bands_s (c : Dev nD) :
    (iprop((∃ g : (cc0_scratch0 : Ref sig .tc).ty.Contents (Elt F), sPts (F := F) c (lo 0 0 c) (flowRows 0) fullShare g) ∗
        (∃ g : (cc0_scratch0 : Ref sig .tc).ty.Contents (Elt F), sPts (F := F) c (lo 0 1 c) (flowRows 0) fullShare g) ∗
        (∃ g : (cc0_scratch0 : Ref sig .tc).ty.Contents (Elt F), sPts (F := F) c (lo 0 2 c) (flowRows 0) fullShare g) ∗
        (∃ g : (cc0_scratch0 : Ref sig .tc).ty.Contents (Elt F), sPts (F := F) c (lo 1 0 c) (flowRows 1) fullShare g) ∗
        (∃ g : (cc0_scratch0 : Ref sig .tc).ty.Contents (Elt F), sPts (F := F) c (lo 1 1 c) (flowRows 1) fullShare g) ∗
        (∃ g : (cc0_scratch0 : Ref sig .tc).ty.Contents (Elt F), sPts (F := F) c (lo 1 2 c) (flowRows 1) fullShare g) ∗
        (∃ g : (cc0_scratch0 : Ref sig .tc).ty.Contents (Elt F), sPts (F := F) c (lo 2 0 c) (flowRows 2) fullShare g) ∗
        (∃ g : (cc0_scratch0 : Ref sig .tc).ty.Contents (Elt F), sPts (F := F) c (lo 2 1 c) (flowRows 2) fullShare g) ∗
        (∃ g : (cc0_scratch0 : Ref sig .tc).ty.Contents (Elt F), sPts (F := F) c (lo 2 2 c) (flowRows 2) fullShare g) ∗
        (∃ g : (cc0_scratch0 : Ref sig .tc).ty.Contents (Elt F), sPts (F := F) c (lo 3 0 c) (flowRows 3) fullShare g) ∗
        (∃ g : (cc0_scratch0 : Ref sig .tc).ty.Contents (Elt F), sPts (F := F) c (lo 3 1 c) (flowRows 3) fullShare g) ∗
        (∃ g : (cc0_scratch0 : Ref sig .tc).ty.Contents (Elt F), sPts (F := F) c (lo 3 2 c) (flowRows 3) fullShare g) ∗
        (∃ g : (cc0_scratch0 : Ref sig .tc).ty.Contents (Elt F), sPts (F := F) c (lo 4 0 c) (flowRows 4) fullShare g) ∗
        (∃ g : (cc0_scratch0 : Ref sig .tc).ty.Contents (Elt F), sPts (F := F) c (lo 4 1 c) (flowRows 4) fullShare g) ∗
        (∃ g : (cc0_scratch0 : Ref sig .tc).ty.Contents (Elt F), sPts (F := F) c (lo 4 2 c) (flowRows 4) fullShare g) ∗
        (∃ g : (cc0_scratch0 : Ref sig .tc).ty.Contents (Elt F), sPts (F := F) c (lo 5 0 c) (flowRows 5) fullShare g) ∗
        (∃ g : (cc0_scratch0 : Ref sig .tc).ty.Contents (Elt F), sPts (F := F) c (lo 5 1 c) (flowRows 5) fullShare g) ∗
        (∃ g : (cc0_scratch0 : Ref sig .tc).ty.Contents (Elt F), sPts (F := F) c (lo 5 2 c) (flowRows 5) fullShare g) ∗
        (∃ g : (cc0_scratch0 : Ref sig .tc).ty.Contents (Elt F), sPts (F := F) c (lo 6 0 c) (flowRows 6) fullShare g) ∗
        (∃ g : (cc0_scratch0 : Ref sig .tc).ty.Contents (Elt F), sPts (F := F) c (lo 6 1 c) (flowRows 6) fullShare g) ∗
        (∃ g : (cc0_scratch0 : Ref sig .tc).ty.Contents (Elt F), sPts (F := F) c (lo 6 2 c) (flowRows 6) fullShare g) ∗
        (∃ g : (cc0_scratch0 : Ref sig .tc).ty.Contents (Elt F), sPts (F := F) c (lo 7 0 c) (flowRows 7) fullShare g) ∗
        (∃ g : (cc0_scratch0 : Ref sig .tc).ty.Contents (Elt F), sPts (F := F) c (lo 7 1 c) (flowRows 7) fullShare g) ∗
        (∃ g : (cc0_scratch0 : Ref sig .tc).ty.Contents (Elt F), sPts (F := F) c (lo 7 2 c) (flowRows 7) fullShare g) ∗
        (∃ g : (cc0_scratch0 : Ref sig .tc).ty.Contents (Elt F), sPts (F := F) c (lo 8 0 c) (flowRows 8) fullShare g) ∗
        (∃ g : (cc0_scratch0 : Ref sig .tc).ty.Contents (Elt F), sPts (F := F) c (lo 8 1 c) (flowRows 8) fullShare g) ∗
        (∃ g : (cc0_scratch0 : Ref sig .tc).ty.Contents (Elt F), sPts (F := F) c (lo 8 2 c) (flowRows 8) fullShare g) ∗
        (∃ g : (cc0_scratch0 : Ref sig .tc).ty.Contents (Elt F), sPts (F := F) c (lo 9 0 c) (flowRows 9) fullShare g) ∗
        (∃ g : (cc0_scratch0 : Ref sig .tc).ty.Contents (Elt F), sPts (F := F) c (lo 9 1 c) (flowRows 9) fullShare g) ∗
        (∃ g : (cc0_scratch0 : Ref sig .tc).ty.Contents (Elt F), sPts (F := F) c (lo 9 2 c) (flowRows 9) fullShare g) ∗
        (∃ g : (cc0_scratch0 : Ref sig .tc).ty.Contents (Elt F), sPts (F := F) c (2048 * (c.val % 4)) 2048 fullShare g)) : sProp 𝕄)
      ⊢ iprop(∃ g : (cc0_scratch0 : Ref sig .tc).ty.Contents (Elt F), ((c : Thread nD τ).loc cc0_scratch0) ↦{fullShare} g) := by
  have h := join_pieces_s_chain (F := F) c
  have e := sep_congr (sPtsE_piece (F := F) c 0 0 0 (by decide) 0 rfl)
    (sep_congr (sPtsE_piece (F := F) c 0 1 1 (by decide) 1 rfl)
    (sep_congr (sPtsE_piece (F := F) c 0 2 2 (by decide) 2 rfl)
    (sep_congr (sPtsE_piece (F := F) c 1 0 3 (by decide) 0 rfl)
    (sep_congr (sPtsE_piece (F := F) c 1 1 4 (by decide) 1 rfl)
    (sep_congr (sPtsE_piece (F := F) c 1 2 5 (by decide) 2 rfl)
    (sep_congr (sPtsE_piece (F := F) c 2 0 6 (by decide) 0 rfl)
    (sep_congr (sPtsE_piece (F := F) c 2 1 7 (by decide) 1 rfl)
    (sep_congr (sPtsE_piece (F := F) c 2 2 8 (by decide) 2 rfl)
    (sep_congr (sPtsE_piece (F := F) c 3 0 9 (by decide) 0 rfl)
    (sep_congr (sPtsE_piece (F := F) c 3 1 10 (by decide) 1 rfl)
    (sep_congr (sPtsE_piece (F := F) c 3 2 11 (by decide) 2 rfl)
    (sep_congr (sPtsE_piece (F := F) c 4 0 12 (by decide) 0 rfl)
    (sep_congr (sPtsE_piece (F := F) c 4 1 13 (by decide) 1 rfl)
    (sep_congr (sPtsE_piece (F := F) c 4 2 14 (by decide) 2 rfl)
    (sep_congr (sPtsE_piece (F := F) c 5 0 15 (by decide) 0 rfl)
    (sep_congr (sPtsE_piece (F := F) c 5 1 16 (by decide) 1 rfl)
    (sep_congr (sPtsE_piece (F := F) c 5 2 17 (by decide) 2 rfl)
    (sep_congr (sPtsE_piece (F := F) c 6 0 18 (by decide) 0 rfl)
    (sep_congr (sPtsE_piece (F := F) c 6 1 19 (by decide) 1 rfl)
    (sep_congr (sPtsE_piece (F := F) c 6 2 20 (by decide) 2 rfl)
    (sep_congr (sPtsE_piece (F := F) c 7 0 21 (by decide) 0 rfl)
    (sep_congr (sPtsE_piece (F := F) c 7 1 22 (by decide) 1 rfl)
    (sep_congr (sPtsE_piece (F := F) c 7 2 23 (by decide) 2 rfl)
    (sep_congr (sPtsE_piece (F := F) c 8 0 24 (by decide) 0 rfl)
    (sep_congr (sPtsE_piece (F := F) c 8 1 25 (by decide) 1 rfl)
    (sep_congr (sPtsE_piece (F := F) c 8 2 26 (by decide) 2 rfl)
    (sep_congr (sPtsE_piece (F := F) c 9 0 27 (by decide) 0 rfl)
    (sep_congr (sPtsE_piece (F := F) c 9 1 28 (by decide) 1 rfl)
    (sep_congr (sPtsE_piece (F := F) c 9 2 29 (by decide) 2 rfl)
    ((sPtsE_own (F := F) c)))))))))))))))))))))))))))))))
  exact (Entails.of_eq e.symm).trans h

omit [FloatOps F] in
theorem join_bands_o (c : Dev nD) :
    (iprop((∃ g : (main_v1 : Ref sig .tc).ty.Contents (Elt F), oPts (F := F) c (lo 0 0 c) (flowRows 0) fullShare g) ∗
        (∃ g : (main_v1 : Ref sig .tc).ty.Contents (Elt F), oPts (F := F) c (lo 0 1 c) (flowRows 0) fullShare g) ∗
        (∃ g : (main_v1 : Ref sig .tc).ty.Contents (Elt F), oPts (F := F) c (lo 0 2 c) (flowRows 0) fullShare g) ∗
        (∃ g : (main_v1 : Ref sig .tc).ty.Contents (Elt F), oPts (F := F) c (lo 1 0 c) (flowRows 1) fullShare g) ∗
        (∃ g : (main_v1 : Ref sig .tc).ty.Contents (Elt F), oPts (F := F) c (lo 1 1 c) (flowRows 1) fullShare g) ∗
        (∃ g : (main_v1 : Ref sig .tc).ty.Contents (Elt F), oPts (F := F) c (lo 1 2 c) (flowRows 1) fullShare g) ∗
        (∃ g : (main_v1 : Ref sig .tc).ty.Contents (Elt F), oPts (F := F) c (lo 2 0 c) (flowRows 2) fullShare g) ∗
        (∃ g : (main_v1 : Ref sig .tc).ty.Contents (Elt F), oPts (F := F) c (lo 2 1 c) (flowRows 2) fullShare g) ∗
        (∃ g : (main_v1 : Ref sig .tc).ty.Contents (Elt F), oPts (F := F) c (lo 2 2 c) (flowRows 2) fullShare g) ∗
        (∃ g : (main_v1 : Ref sig .tc).ty.Contents (Elt F), oPts (F := F) c (lo 3 0 c) (flowRows 3) fullShare g) ∗
        (∃ g : (main_v1 : Ref sig .tc).ty.Contents (Elt F), oPts (F := F) c (lo 3 1 c) (flowRows 3) fullShare g) ∗
        (∃ g : (main_v1 : Ref sig .tc).ty.Contents (Elt F), oPts (F := F) c (lo 3 2 c) (flowRows 3) fullShare g) ∗
        (∃ g : (main_v1 : Ref sig .tc).ty.Contents (Elt F), oPts (F := F) c (lo 4 0 c) (flowRows 4) fullShare g) ∗
        (∃ g : (main_v1 : Ref sig .tc).ty.Contents (Elt F), oPts (F := F) c (lo 4 1 c) (flowRows 4) fullShare g) ∗
        (∃ g : (main_v1 : Ref sig .tc).ty.Contents (Elt F), oPts (F := F) c (lo 4 2 c) (flowRows 4) fullShare g) ∗
        (∃ g : (main_v1 : Ref sig .tc).ty.Contents (Elt F), oPts (F := F) c (lo 5 0 c) (flowRows 5) fullShare g) ∗
        (∃ g : (main_v1 : Ref sig .tc).ty.Contents (Elt F), oPts (F := F) c (lo 5 1 c) (flowRows 5) fullShare g) ∗
        (∃ g : (main_v1 : Ref sig .tc).ty.Contents (Elt F), oPts (F := F) c (lo 5 2 c) (flowRows 5) fullShare g) ∗
        (∃ g : (main_v1 : Ref sig .tc).ty.Contents (Elt F), oPts (F := F) c (lo 6 0 c) (flowRows 6) fullShare g) ∗
        (∃ g : (main_v1 : Ref sig .tc).ty.Contents (Elt F), oPts (F := F) c (lo 6 1 c) (flowRows 6) fullShare g) ∗
        (∃ g : (main_v1 : Ref sig .tc).ty.Contents (Elt F), oPts (F := F) c (lo 6 2 c) (flowRows 6) fullShare g) ∗
        (∃ g : (main_v1 : Ref sig .tc).ty.Contents (Elt F), oPts (F := F) c (lo 7 0 c) (flowRows 7) fullShare g) ∗
        (∃ g : (main_v1 : Ref sig .tc).ty.Contents (Elt F), oPts (F := F) c (lo 7 1 c) (flowRows 7) fullShare g) ∗
        (∃ g : (main_v1 : Ref sig .tc).ty.Contents (Elt F), oPts (F := F) c (lo 7 2 c) (flowRows 7) fullShare g) ∗
        (∃ g : (main_v1 : Ref sig .tc).ty.Contents (Elt F), oPts (F := F) c (lo 8 0 c) (flowRows 8) fullShare g) ∗
        (∃ g : (main_v1 : Ref sig .tc).ty.Contents (Elt F), oPts (F := F) c (lo 8 1 c) (flowRows 8) fullShare g) ∗
        (∃ g : (main_v1 : Ref sig .tc).ty.Contents (Elt F), oPts (F := F) c (lo 8 2 c) (flowRows 8) fullShare g) ∗
        (∃ g : (main_v1 : Ref sig .tc).ty.Contents (Elt F), oPts (F := F) c (lo 9 0 c) (flowRows 9) fullShare g) ∗
        (∃ g : (main_v1 : Ref sig .tc).ty.Contents (Elt F), oPts (F := F) c (lo 9 1 c) (flowRows 9) fullShare g) ∗
        (∃ g : (main_v1 : Ref sig .tc).ty.Contents (Elt F), oPts (F := F) c (lo 9 2 c) (flowRows 9) fullShare g) ∗
        (∃ g : (main_v1 : Ref sig .tc).ty.Contents (Elt F), oPts (F := F) c (2048 * (c.val % 4)) 2048 fullShare g)) : sProp 𝕄)
      ⊢ iprop(∃ g : (main_v1 : Ref sig .tc).ty.Contents (Elt F), ((c : Thread nD τ).loc main_v1) ↦{fullShare} g) := by
  have h := join_pieces_o_chain (F := F) c
  have e := sep_congr (oPtsE_piece (F := F) c 0 0 0 (by decide) 0 rfl)
    (sep_congr (oPtsE_piece (F := F) c 0 1 1 (by decide) 1 rfl)
    (sep_congr (oPtsE_piece (F := F) c 0 2 2 (by decide) 2 rfl)
    (sep_congr (oPtsE_piece (F := F) c 1 0 3 (by decide) 0 rfl)
    (sep_congr (oPtsE_piece (F := F) c 1 1 4 (by decide) 1 rfl)
    (sep_congr (oPtsE_piece (F := F) c 1 2 5 (by decide) 2 rfl)
    (sep_congr (oPtsE_piece (F := F) c 2 0 6 (by decide) 0 rfl)
    (sep_congr (oPtsE_piece (F := F) c 2 1 7 (by decide) 1 rfl)
    (sep_congr (oPtsE_piece (F := F) c 2 2 8 (by decide) 2 rfl)
    (sep_congr (oPtsE_piece (F := F) c 3 0 9 (by decide) 0 rfl)
    (sep_congr (oPtsE_piece (F := F) c 3 1 10 (by decide) 1 rfl)
    (sep_congr (oPtsE_piece (F := F) c 3 2 11 (by decide) 2 rfl)
    (sep_congr (oPtsE_piece (F := F) c 4 0 12 (by decide) 0 rfl)
    (sep_congr (oPtsE_piece (F := F) c 4 1 13 (by decide) 1 rfl)
    (sep_congr (oPtsE_piece (F := F) c 4 2 14 (by decide) 2 rfl)
    (sep_congr (oPtsE_piece (F := F) c 5 0 15 (by decide) 0 rfl)
    (sep_congr (oPtsE_piece (F := F) c 5 1 16 (by decide) 1 rfl)
    (sep_congr (oPtsE_piece (F := F) c 5 2 17 (by decide) 2 rfl)
    (sep_congr (oPtsE_piece (F := F) c 6 0 18 (by decide) 0 rfl)
    (sep_congr (oPtsE_piece (F := F) c 6 1 19 (by decide) 1 rfl)
    (sep_congr (oPtsE_piece (F := F) c 6 2 20 (by decide) 2 rfl)
    (sep_congr (oPtsE_piece (F := F) c 7 0 21 (by decide) 0 rfl)
    (sep_congr (oPtsE_piece (F := F) c 7 1 22 (by decide) 1 rfl)
    (sep_congr (oPtsE_piece (F := F) c 7 2 23 (by decide) 2 rfl)
    (sep_congr (oPtsE_piece (F := F) c 8 0 24 (by decide) 0 rfl)
    (sep_congr (oPtsE_piece (F := F) c 8 1 25 (by decide) 1 rfl)
    (sep_congr (oPtsE_piece (F := F) c 8 2 26 (by decide) 2 rfl)
    (sep_congr (oPtsE_piece (F := F) c 9 0 27 (by decide) 0 rfl)
    (sep_congr (oPtsE_piece (F := F) c 9 1 28 (by decide) 1 rfl)
    (sep_congr (oPtsE_piece (F := F) c 9 2 29 (by decide) 2 rfl)
    ((oPtsE_own (F := F) c)))))))))))))))))))))))))))))))
  exact (Entails.of_eq e.symm).trans h

end Cert.KernelIdeal.AG

end
-- ==== Proof.Oblig.lean ====
/-
  The body obligation of one device: its holdings at the start, named one by one, the parts in order, and its holdings
  at the end put back together.
-/
import proofs.«900685_g7700000000000686_dist_ag_v7x_xyz2x2x4_z_m2048_n512_f32_1_alg».proof.Proof.Ctx
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Cover

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the parts do not touch: the position of the unused copy cell, the device's own block's rows of the scratch
    array, and the rest of the staged block under the four first transfers' shares. -/
def extras (c : Dev nD) (f0 : Buf (Elt F) ((c : Thread nD τ).loc cc0_scratch0)) : sProp 𝕄 :=
  iprop(atPos ER (cell c (cpJ 30)) 0 ∅ 0 ∗ sPts c (2048 * (c.val % 4)) 2048 fullShare f0
    ∗ blkRest m c 0 ∗ blkRest m c 2 ∗ blkRest m c 1 ∗ blkRest m c 3)

def bodyPre' (c : Dev nD) : sProp 𝕄 :=
  iprop(Φ₀ m c ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

end Cert.KernelIdeal.AG

end
-- ==== Proof.XferSteps.lean ====
/-
  The transfers of the program, band by band.

  A local copy pays the duty of its copy cell; a transfer to a peer pays the duty of the sender's departure cell and of
  the receiver's arrival cell.  Stated through the bands of rows the printed slices cover: a ring flow's first hop reads
  a band of the device's own block, every other transfer reads a band of a piece that landed earlier, and a local copy
  puts a landed piece, or the device's own block, into the same rows of the result.
-/
import proofs.«900685_g7700000000000686_dist_ag_v7x_xyz2x2x4_z_m2048_n512_f32_1_alg».proof.Proof.StepGen

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A local copy -/

/-- A local copy on device `c` through copy cell `i`: it pays the duty of the cell, whatever views it goes through, as
    long as the band written and the share of the source lent are what the cell hands over. -/
theorem wp_copy_gen {sp sp' : Space} {S : Shape} (K : Dev nD × Fin 93 → ℕ) (c : Dev nD) (i : Fin 32) (hi : i.val ≠ 30)
    {src : Memref sig .tc sp S .f32} {dst : Memref sig .tc sp' S .f32} {s : DmaSem sig}
    {hsrc : src.view.WordExact} {hdst : dst.view.WordExact}
    {hsem : DmaTarget.Typed sp (.dma s) (DmaTarget.here dst : DmaTarget nD τ sig (Proc.tc : Proc τ) sp' S .f32)}
    {α : Type} {Q : α → sProp 𝕄} {k : PUnit → Prog (TpuEff nD τ sig (Elt F) Λ₀ .tc) α}
    (hs : (SemLoc.dma s : SemLoc sig) = csem (cpJ i))
    (q : PosShare TreeShare) (fs : Buf (Elt F) (src.view.loc (c : Thread nD τ))) (fd : Buf (Elt F) (dst.view.loc (c : Thread nD τ)))
    (hN : dst.view.dmaCredit = (if i.val = 31 then credO 2048 else credO (flowRows (cpSrc i).1)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ cpPay m c i) :
    iprop(cellInv ER (Rd m) (K (c, cpJ i)) (cell c (cpJ i))
        ∗ (src.view.loc (c : Thread nD τ) ↦[src.view.set]{q} fs) ∗ (dst.view.loc (c : Thread nD τ) ↦[dst.view.set]{fullShare} fd)
        ∗ dutyTok ER (cell c (cpJ i)) 0 0 ∗ reached ER (cell c (cpJ i)) 0)
      ⊢ iprop((cred (tallyAt (cell c (cpJ i)) () (if i.val = 31 then credO 2048 else credO (flowRows (cpSrc i).1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  unfold cell
  rw [← hs]
  exact Rounds.wp_copy_pointsTo 𝒱₀ ER (Rd m) (c : Thread nD τ) none (κ := K (c, cpJ i))
    (src := src) (dst := dst) (sem := SemLoc.dma s) (q := q) (fs := fs) (fd := fd) (r := 0) (d := 0)
    (by rw [hs]; exact (duties_cp m c i hi).symm ▸ Finset.mem_singleton_self _)
    () _ (show dst.view.amount (SemLoc.dma s) = _ from hN)
    (by rw [hs]; exact amount_cp m c i 0)
    (by rw [hs]; exact hpay.trans (Entails.of_eq (payload_cp m c i 0).symm))

/-- `wp_copy_gen` with the cell's amount named. -/
theorem wp_copy_gen' {sp sp' : Space} {S : Shape} (K : Dev nD × Fin 93 → ℕ) (c : Dev nD) (i : Fin 32) (hi : i.val ≠ 30)
    {src : Memref sig .tc sp S .f32} {dst : Memref sig .tc sp' S .f32} {s : DmaSem sig}
    {hsrc : src.view.WordExact} {hdst : dst.view.WordExact}
    {hsem : DmaTarget.Typed sp (.dma s) (DmaTarget.here dst : DmaTarget nD τ sig (Proc.tc : Proc τ) sp' S .f32)}
    {α : Type} {Q : α → sProp 𝕄} {k : PUnit → Prog (TpuEff nD τ sig (Elt F) Λ₀ .tc) α}
    (hs : (SemLoc.dma s : SemLoc sig) = csem (cpJ i))
    (q : PosShare TreeShare) (fs : Buf (Elt F) (src.view.loc (c : Thread nD τ))) (fd : Buf (Elt F) (dst.view.loc (c : Thread nD τ)))
    {N : ℕ} (hNe : (if i.val = 31 then credO 2048 else credO (flowRows (cpSrc i).1)) = N)
    (hN : dst.view.dmaCredit = N)
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ cpPay m c i) :
    iprop(cellInv ER (Rd m) (K (c, cpJ i)) (cell c (cpJ i))
        ∗ (src.view.loc (c : Thread nD τ) ↦[src.view.set]{q} fs) ∗ (dst.view.loc (c : Thread nD τ) ↦[dst.view.set]{fullShare} fd)
        ∗ dutyTok ER (cell c (cpJ i)) 0 0 ∗ reached ER (cell c (cpJ i)) 0)
      ⊢ iprop((cred (tallyAt (cell c (cpJ i)) () N)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  subst hNe
  exact wp_copy_gen m K c i hi hs q fs fd hN hpay

/-! ## The printed slices -/

/-- Rows of the staged block, as the program slices them. -/
abbrev blkSl (off sz : Fin 2 → ℕ) (inb : ∀ x, off x + sz x ≤ S2048x512.size x)
    (u : ∀ a, (Rect.unit (s := S2048x512) off sz inb).stride a = 1) : Memref sig .tc .vmem ⟨2, sz⟩ .f32 :=
  (Memref.whole cc0_stg0_0 : Memref sig .tc .vmem S2048x512 .f32).slice (Rect.unit (s := S2048x512) off sz inb) u
/-- Rows of the scratch array, as the program slices them. -/
abbrev stgSl (off sz : Fin 2 → ℕ) (inb : ∀ x, off x + sz x ≤ S8192x512.size x)
    (u : ∀ a, (Rect.unit (s := S8192x512) off sz inb).stride a = 1) : Memref sig .tc .vmem ⟨2, sz⟩ .f32 :=
  (Memref.whole cc0_scratch0 : Memref sig .tc .vmem S8192x512 .f32).slice (Rect.unit (s := S8192x512) off sz inb) u
/-- Rows of the result, as the program slices them. -/
abbrev outSl (off sz : Fin 2 → ℕ) (inb : ∀ x, off x + sz x ≤ S8192x512.size x)
    (u : ∀ a, (Rect.unit (s := S8192x512) off sz inb).stride a = 1) : Memref sig .tc .hbm ⟨2, sz⟩ .f32 :=
  (Memref.whole main_v1 : Memref sig .tc .hbm S8192x512 .f32).slice (Rect.unit (s := S8192x512) off sz inb) u

/-! ## A ring flow's first hop: from the device's own block -/

/-- The first transfer of ring flow `f`: device `c` sends rows `blkLo f c` of its own block to its ring neighbour `p`,
    where they land at rows `lo f 0 p` of the neighbour's scratch array.  The device addressed `n`, the peer `p`, the
    row count `nr` and the share `q` are named by equations, for the rule to meet them however they are spelled. -/
theorem send_ring0 (K : Dev nD × Fin 93 → ℕ) (c : Dev nD) {n p : Dev nD} (f : Fin 10) (hf : f.val < 4)
    (hn : n = p) (hp : p = peer (tgt f) c) {off_s off_d sz : Fin 2 → ℕ} (nr : ℕ) {q : PosShare TreeShare}
    (ho_s : off_s = ![blkLo f c, 0]) (ho_d : off_d = ![lo f 0 p, 0]) (hz : sz = ![nr, 512])
    (hnr : nr = flowRows f) (hq : q = r0Share f)
    {inb_s : ∀ x, off_s x + sz x ≤ S2048x512.size x} {inb_d : ∀ x, off_d x + sz x ≤ S8192x512.size x} {us} {ud}
    {sS sR : DmaSem sig}
    {hsc : (stgSl off_d sz inb_d ud).view.ref.isScScratch = false}
    {hsrc : (blkSl off_s sz inb_s us).view.WordExact} {hdst : (stgSl off_d sz inb_d ud).view.WordExact}
    {hsem : DmaTarget.Typed .vmem (.dma sR) (.remote (Dev.tc n : Thread nD τ) (stgSl off_d sz inb_d ud) (.dma sS) hsc)}
    {α : Type} {Q : α → sProp 𝕄} {k : PUnit → Prog (TpuEff nD τ sig (Elt F) Λ₀ .tc) α}
    (hsS : (SemLoc.dma sS : SemLoc sig) = csem (sndJ f 0)) (hsR : (SemLoc.dma sR : SemLoc sig) = csem (rcvJ f 0))
    (W : Waits sig Unit) (O : CellTallies nD τ sig Unit) :
    iprop(cellInv ER (Rd m) (K (c, sndJ f 0)) (cell c (sndJ f 0))
        ∗ cellInv ER (Rd m) (K (p, rcvJ f 0)) (cell (p) (rcvJ f 0))
        ∗ xPts m c (blkLo f c) nr q
        ∗ landPay p (f, 0)
        ∗ owes (c : Thread nD τ) (O + tallyAt (cell (p) (rcvJ f 0)) () (credS nr)) W
        ∗ dutyTok ER (cell c (sndJ f 0)) 0 0 ∗ reached ER (cell c (sndJ f 0)) 0
        ∗ dutyTok ER (cell (p) (rcvJ f 0)) 0 0 ∗ reached ER (cell (p) (rcvJ f 0)) 0)
      ⊢ iprop(((cred (tallyAt (cell c (sndJ f 0)) () (credS nr)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkSl off_s sz inb_s us)
                (.remote (Dev.tc n : Thread nD τ) (stgSl off_d sz inb_d ud) (.dma sS) hsc)
                (.dma sR) hsrc hdst hsem) k) Q) := by
  subst hn; subst hp; subst hnr; subst hq; subst ho_s; subst ho_d; subst hz
  have hd' : (![lo f 0 (peer (tgt f) c), 0] : Fin 2 → ℕ) = ![2048 * (c.val % 4) + blkLo f c, 0] := by
    rw [coh_lo0 f c hf]
  have e1 : recvPay m (peer (tgt f) c) f 0
      = sPts (peer (tgt f) c) (2048 * (c.val % 4) + blkLo f c) (flowRows f) fullShare (Gd m c) := by
    unfold recvPay; rw [show ((0 : Fin 3).val) = 0 from rfl, coh_lo0 f c hf, coh_org0 f c hf]
  have key : ∀ X, iprop(cellInv ER (Rd m) (K (c, sndJ f 0)) (cell c (sndJ f 0))
        ∗ cellInv ER (Rd m) (K (peer (tgt f) c, rcvJ f 0)) (cell (peer (tgt f) c) (rcvJ f 0))
        ∗ xPts m c (blkLo f c) (flowRows f) (r0Share f)
        ∗ sPts (peer (tgt f) c) (lo f 0 (peer (tgt f) c)) (flowRows f) fullShare X
        ∗ owes (c : Thread nD τ) (O + tallyAt (cell (peer (tgt f) c) (rcvJ f 0)) () (credS (flowRows f))) W
        ∗ dutyTok ER (cell c (sndJ f 0)) 0 0 ∗ reached ER (cell c (sndJ f 0)) 0
        ∗ dutyTok ER (cell (peer (tgt f) c) (rcvJ f 0)) 0 0 ∗ reached ER (cell (peer (tgt f) c) (rcvJ f 0)) 0)
      ⊢ iprop(((cred (tallyAt (cell c (sndJ f 0)) () (credS (flowRows f))) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkSl ![blkLo f c, 0] ![flowRows f, 512] inb_s us)
                (.remote (Dev.tc (peer (tgt f) c) : Thread nD τ) (stgSl ![lo f 0 (peer (tgt f) c), 0] ![flowRows f, 512] inb_d ud) (.dma sS) hsc)
                (.dma sR) hsrc hdst hsem) k) Q) := fun X => by
    have hx := pts_slice_blk m c (r0Share f) rfl rfl inb_s us
    have hdX := pts_slice_stage (peer (tgt f) c) fullShare rfl rfl inb_d ud X
    refine BIBase.Entails.trans ?_ (wp_send_gen m K c (peer (tgt f) c) f 0 hsS hsR (r0Share f) (xstg m c) X W O rfl ?_ ?_
      (Topo.routes_tc _ _))
    · exact sep_mono_right (sep_mono_right ((sep_mono_left (Entails.of_eq hx.symm)).trans
        (sep_mono_right (sep_mono_left (Entails.of_eq hdX.symm)))))
    · rw [hx]; unfold sendPay; rw [if_pos ⟨hf, rfl⟩]
    · rw [e1, pts_slice_stage (peer (tgt f) c) fullShare hd' rfl inb_d ud,
        land_blk_stage m (peer (tgt f) c) c fullShare rfl hd' rfl inb_s inb_d us ud X]
  unfold landPay
  iintro ⟨HIs, HIr, Hx, ⟨%X, Hd⟩, HO, Hts, Hrs, Htr, Hrr⟩
  iapply (key X)
  iframe
  all_goals iexact Hd

/-! ## Every other transfer to a peer: from a piece that landed earlier -/

/-- A transfer of flow `f`, hop `h` that is not a ring flow's first: device `c` sends rows `a` onward of the piece of flow
    `sf` that landed on it at hop `sh` to its peer `p`, where they land at rows `lo f h p` of the peer's scratch array. -/
theorem send_stage (K : Dev nD × Fin 93 → ℕ) (c : Dev nD) {n p : Dev nD} (f : Fin 10) (h : Fin 3)
    (hh : ¬ (f.val < 4 ∧ h.val = 0)) (hn : n = p) (hp : p = peer (tgt f) c)
    {sf : Fin 10} {sh δ a : ℕ} (hso : srcOf f h = (sf, sh, δ)) (ha : a = lo sf sh c + δ)
    {off_s off_d sz : Fin 2 → ℕ} (nr : ℕ) {q : PosShare TreeShare}
    (ho_s : off_s = ![a, 0]) (ho_d : off_d = ![lo f h.val p, 0]) (hz : sz = ![nr, 512])
    (hnr : nr = flowRows f) (hq : q = sShare f)
    {inb_s : ∀ x, off_s x + sz x ≤ S8192x512.size x} {inb_d : ∀ x, off_d x + sz x ≤ S8192x512.size x} {us} {ud}
    {sS sR : DmaSem sig}
    {hsc : (stgSl off_d sz inb_d ud).view.ref.isScScratch = false}
    {hsrc : (stgSl off_s sz inb_s us).view.WordExact} {hdst : (stgSl off_d sz inb_d ud).view.WordExact}
    {hsem : DmaTarget.Typed .vmem (.dma sR) (.remote (Dev.tc n : Thread nD τ) (stgSl off_d sz inb_d ud) (.dma sS) hsc)}
    {α : Type} {Q : α → sProp 𝕄} {k : PUnit → Prog (TpuEff nD τ sig (Elt F) Λ₀ .tc) α}
    (hsS : (SemLoc.dma sS : SemLoc sig) = csem (sndJ f h)) (hsR : (SemLoc.dma sR : SemLoc sig) = csem (rcvJ f h))
    (W : Waits sig Unit) (O : CellTallies nD τ sig Unit) :
    iprop(cellInv ER (Rd m) (K (c, sndJ f h)) (cell c (sndJ f h))
        ∗ cellInv ER (Rd m) (K (p, rcvJ f h)) (cell (p) (rcvJ f h))
        ∗ sPts c a nr q (Gd m (org sf sh c))
        ∗ landPay p (f, h)
        ∗ owes (c : Thread nD τ) (O + tallyAt (cell (p) (rcvJ f h)) () (credS nr)) W
        ∗ dutyTok ER (cell c (sndJ f h)) 0 0 ∗ reached ER (cell c (sndJ f h)) 0
        ∗ dutyTok ER (cell (p) (rcvJ f h)) 0 0 ∗ reached ER (cell (p) (rcvJ f h)) 0)
      ⊢ iprop(((cred (tallyAt (cell c (sndJ f h)) () (credS nr)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us)
                (.remote (Dev.tc n : Thread nD τ) (stgSl off_d sz inb_d ud) (.dma sS) hsc)
                (.dma sR) hsrc hdst hsem) k) Q) := by
  subst hn; subst hp; subst hnr; subst hq; subst ha; subst ho_s; subst ho_d; subst hz
  have h1 : (srcOf f h).1 = sf := by rw [hso]
  have h2 : (srcOf f h).2.1 = sh := by rw [hso]
  have h3 : (srcOf f h).2.2 = δ := by rw [hso]
  have hlo : lo f h.val (peer (tgt f) c) = lo sf sh c + δ := by rw [coh_lo f h c hh, h1, h2, h3]
  have horg : org f h.val (peer (tgt f) c) = org sf sh c := by rw [coh_org f h c hh, h1, h2]
  have hs' : (![lo sf sh c + δ, 0] : Fin 2 → ℕ) = ![lo f h.val (peer (tgt f) c), 0] := by rw [hlo]
  have e1 : recvPay m (peer (tgt f) c) f h
      = sPts (peer (tgt f) c) (lo f h.val (peer (tgt f) c)) (flowRows f) fullShare (Gd m (org sf sh c)) := by
    unfold recvPay; rw [horg]
  have e0 : sendPay m c f h = sPts c (lo sf sh c + δ) (flowRows f) (sShare f) (Gd m (org sf sh c)) := by
    unfold sendPay; rw [if_neg hh, h1, h2, h3]
  have key : ∀ X, iprop(cellInv ER (Rd m) (K (c, sndJ f h)) (cell c (sndJ f h))
        ∗ cellInv ER (Rd m) (K (peer (tgt f) c, rcvJ f h)) (cell (peer (tgt f) c) (rcvJ f h))
        ∗ sPts c (lo sf sh c + δ) (flowRows f) (sShare f) (Gd m (org sf sh c))
        ∗ sPts (peer (tgt f) c) (lo f h.val (peer (tgt f) c)) (flowRows f) fullShare X
        ∗ owes (c : Thread nD τ) (O + tallyAt (cell (peer (tgt f) c) (rcvJ f h)) () (credS (flowRows f))) W
        ∗ dutyTok ER (cell c (sndJ f h)) 0 0 ∗ reached ER (cell c (sndJ f h)) 0
        ∗ dutyTok ER (cell (peer (tgt f) c) (rcvJ f h)) 0 0 ∗ reached ER (cell (peer (tgt f) c) (rcvJ f h)) 0)
      ⊢ iprop(((cred (tallyAt (cell c (sndJ f h)) () (credS (flowRows f))) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl ![lo sf sh c + δ, 0] ![flowRows f, 512] inb_s us)
                (.remote (Dev.tc (peer (tgt f) c) : Thread nD τ) (stgSl ![lo f h.val (peer (tgt f) c), 0] ![flowRows f, 512] inb_d ud) (.dma sS) hsc)
                (.dma sR) hsrc hdst hsem) k) Q) := fun X => by
    have hx := pts_slice_stage c (sShare f) rfl rfl inb_s us (Gd m (org sf sh c))
    have hdX := pts_slice_stage (peer (tgt f) c) fullShare rfl rfl inb_d ud X
    refine BIBase.Entails.trans ?_ (wp_send_gen m K c (peer (tgt f) c) f h hsS hsR (sShare f)
      (Gd m (org sf sh c)) X W O rfl ?_ ?_ (Topo.routes_tc _ _))
    · exact sep_mono_right (sep_mono_right ((sep_mono_left (Entails.of_eq hx.symm)).trans
        (sep_mono_right (sep_mono_left (Entails.of_eq hdX.symm)))))
    · rw [hx, e0]
    · rw [e1, pts_slice_stage (peer (tgt f) c) fullShare rfl rfl inb_d ud,
        land_stage_stage m (peer (tgt f) c) (org sf sh c) fullShare hs' rfl rfl inb_s inb_d us ud X]
  unfold landPay
  iintro ⟨HIs, HIr, Hx, ⟨%X, Hd⟩, HO, Hts, Hrs, Htr, Hrr⟩
  iapply (key X)
  iframe
  all_goals iexact Hd

/-! ## Local copies into the result -/

/-- Local copy `i < 30`: the piece of flow `sf` that landed at hop `sh` goes into the same rows of the result. -/
theorem copy_stage (K : Dev nD × Fin 93 → ℕ) (c : Dev nD) (i : Fin 32) (hi : i.val < 30)
    {sf : Fin 10} {sh : ℕ} (hcs : cpSrc i = (sf, sh)) {off_s off_d sz : Fin 2 → ℕ} (nr : ℕ) {q : PosShare TreeShare}
    (ho_s : off_s = ![lo sf sh c, 0]) (ho_d : off_d = ![lo sf sh c, 0]) (hz : sz = ![nr, 512])
    (hnr : nr = flowRows sf) (hq : q = cpShare sf)
    {inb_s : ∀ x, off_s x + sz x ≤ S8192x512.size x} {inb_d : ∀ x, off_d x + sz x ≤ S8192x512.size x} {us} {ud}
    {s : DmaSem sig}
    {hsrc : (stgSl off_s sz inb_s us).view.WordExact} {hdst : (outSl off_d sz inb_d ud).view.WordExact}
    {hsem : DmaTarget.Typed .vmem (.dma s) (DmaTarget.here (outSl off_d sz inb_d ud) : DmaTarget nD τ sig (Proc.tc : Proc τ) .hbm ⟨2, sz⟩ .f32)}
    {α : Type} {Q : α → sProp 𝕄} {k : PUnit → Prog (TpuEff nD τ sig (Elt F) Λ₀ .tc) α}
    (hs : (SemLoc.dma s : SemLoc sig) = csem (cpJ i)) (V : (main_v1 : Ref sig .tc).ty.Contents (Elt F)) :
    iprop(cellInv ER (Rd m) (K (c, cpJ i)) (cell c (cpJ i))
        ∗ sPts c (lo sf sh c) nr q (Gd m (org sf sh c))
        ∗ oPts c (lo sf sh c) nr fullShare V
        ∗ dutyTok ER (cell c (cpJ i)) 0 0 ∗ reached ER (cell c (cpJ i)) 0)
      ⊢ iprop((cred (tallyAt (cell c (cpJ i)) () (credO nr))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us) (.here (outSl off_d sz inb_d ud)) (.dma s) hsrc hdst hsem) k) Q) := by
  subst hnr; subst hq; subst ho_s; subst ho_d; subst hz
  have h31 : ¬ i.val = 31 := by omega
  have h30 : i.val ≠ 30 := by omega
  have h1 : (cpSrc i).1 = sf := by rw [hcs]
  have h2 : (cpSrc i).2 = sh := by rw [hcs]
  have e0 : cpPay m c i = iprop(oPts c (lo sf sh c) (flowRows sf) fullShare (Gd m (org sf sh c))
      ∗ sPts c (lo sf sh c) (flowRows sf) (cpShare sf) (Gd m (org sf sh c))) := by
    unfold cpPay; rw [if_neg h31, h1, h2]
  have hx := pts_slice_stage c (cpShare sf) rfl rfl inb_s us (Gd m (org sf sh c))
  have hv := pts_slice_out c fullShare rfl rfl inb_d ud V
  refine BIBase.Entails.trans ?_ (wp_copy_gen' m K c i h30 hs (cpShare sf) (Gd m (org sf sh c)) V
    (N := credO (flowRows sf)) (by rw [if_neg h31, h1]) rfl ?_)
  · exact sep_mono_right ((sep_mono_left (Entails.of_eq hx.symm)).trans (sep_mono_right (sep_mono_left (Entails.of_eq hv.symm))))
  · rw [hx, pts_slice_out c fullShare rfl rfl inb_d ud,
      land_stage_out m c (org sf sh c) fullShare rfl rfl rfl inb_s inb_d us ud V, e0]

/-- Local copy 31: the device's own block goes into its rows of the result. -/
theorem copy_own (K : Dev nD × Fin 93 → ℕ) (c : Dev nD) {off_d : Fin 2 → ℕ} (ho_d : off_d = ![2048 * (c.val % 4), 0])
    {inb_d : ∀ x, off_d x + S2048x512.size x ≤ S8192x512.size x} {ud} {s : DmaSem sig}
    {hsrc : (Memref.whole cc0_stg0_0 : Memref sig .tc .vmem S2048x512 .f32).view.WordExact}
    {hdst : (outSl off_d S2048x512.size inb_d ud).view.WordExact}
    {hsem : DmaTarget.Typed .vmem (.dma s) (DmaTarget.here (outSl off_d S2048x512.size inb_d ud) : DmaTarget nD τ sig (Proc.tc : Proc τ) .hbm S2048x512 .f32)}
    {α : Type} {Q : α → sProp 𝕄} {k : PUnit → Prog (TpuEff nD τ sig (Elt F) Λ₀ .tc) α}
    (hs : (SemLoc.dma s : SemLoc sig) = csem (cpJ 31)) (V : (main_v1 : Ref sig .tc).ty.Contents (Elt F)) :
    iprop(cellInv ER (Rd m) (K (c, cpJ 31)) (cell c (cpJ 31))
        ∗ xPts m c 0 2048 fullShare.left
        ∗ oPts c (2048 * (c.val % 4)) 2048 fullShare V
        ∗ dutyTok ER (cell c (cpJ 31)) 0 0 ∗ reached ER (cell c (cpJ 31)) 0)
      ⊢ iprop((cred (tallyAt (cell c (cpJ 31)) () (credO 2048))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg0_0 : Memref sig .tc .vmem S2048x512 .f32)
                (.here (outSl off_d S2048x512.size inb_d ud)) (.dma s) hsrc hdst hsem) k) Q) := by
  subst ho_d
  have hx := pts_whole_blk m c fullShare.left
  have hv := pts_slice_out c fullShare rfl rfl inb_d ud V
  refine BIBase.Entails.trans ?_ (wp_copy_gen' m K c 31 (by decide) hs fullShare.left (xstg m c) V (if_pos rfl) rfl ?_)
  · exact sep_mono_right ((sep_mono_left (Entails.of_eq hx.symm)).trans (sep_mono_right (sep_mono_left (Entails.of_eq hv.symm))))
  · rw [hx, pts_slice_out c fullShare rfl rfl inb_d ud, land_blk_out m c c fullShare rfl inb_d ud V]
    unfold cpPay; rw [if_pos (show ((31 : Fin 32).val = 31) from rfl)]

/-! ## The same two rules with the equations in the order that suits literal arguments

With the offset equations first, the flow, hop and start of the source are read off the closed form of the printed
offset, and the equation for the source table is then checked against them. -/

/-- `send_stage`, the source's offset equation before the equations that name its flow, hop and start. -/
theorem send_stage' (K : Dev nD × Fin 93 → ℕ) (c : Dev nD) {n p : Dev nD} (f : Fin 10) (h : Fin 3)
    (hh : ¬ (f.val < 4 ∧ h.val = 0)) (hn : n = p) (hp : p = peer (tgt f) c)
    {sf : Fin 10} {sh δ a : ℕ} {off_s off_d sz : Fin 2 → ℕ} (nr : ℕ) {q : PosShare TreeShare}
    (ho_s : off_s = ![a, 0]) (ha : a = lo sf sh c + δ) (hso : srcOf f h = (sf, sh, δ))
    (ho_d : off_d = ![lo f h.val p, 0]) (hz : sz = ![nr, 512])
    (hnr : nr = flowRows f) (hq : q = sShare f)
    {inb_s : ∀ x, off_s x + sz x ≤ S8192x512.size x} {inb_d : ∀ x, off_d x + sz x ≤ S8192x512.size x} {us} {ud}
    {sS sR : DmaSem sig}
    {hsc : (stgSl off_d sz inb_d ud).view.ref.isScScratch = false}
    {hsrc : (stgSl off_s sz inb_s us).view.WordExact} {hdst : (stgSl off_d sz inb_d ud).view.WordExact}
    {hsem : DmaTarget.Typed .vmem (.dma sR) (.remote (Dev.tc n : Thread nD τ) (stgSl off_d sz inb_d ud) (.dma sS) hsc)}
    {α : Type} {Q : α → sProp 𝕄} {k : PUnit → Prog (TpuEff nD τ sig (Elt F) Λ₀ .tc) α}
    (hsS : (SemLoc.dma sS : SemLoc sig) = csem (sndJ f h)) (hsR : (SemLoc.dma sR : SemLoc sig) = csem (rcvJ f h))
    (W : Waits sig Unit) (O : CellTallies nD τ sig Unit) :
    iprop(cellInv ER (Rd m) (K (c, sndJ f h)) (cell c (sndJ f h))
        ∗ cellInv ER (Rd m) (K (p, rcvJ f h)) (cell (p) (rcvJ f h))
        ∗ sPts c a nr q (Gd m (org sf sh c))
        ∗ landPay p (f, h)
        ∗ owes (c : Thread nD τ) (O + tallyAt (cell (p) (rcvJ f h)) () (credS nr)) W
        ∗ dutyTok ER (cell c (sndJ f h)) 0 0 ∗ reached ER (cell c (sndJ f h)) 0
        ∗ dutyTok ER (cell (p) (rcvJ f h)) 0 0 ∗ reached ER (cell (p) (rcvJ f h)) 0)
      ⊢ iprop(((cred (tallyAt (cell c (sndJ f h)) () (credS nr)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us)
                (.remote (Dev.tc n : Thread nD τ) (stgSl off_d sz inb_d ud) (.dma sS) hsc)
                (.dma sR) hsrc hdst hsem) k) Q) :=
  send_stage m K c f h hh hn hp hso ha nr ho_s ho_d hz hnr hq hsS hsR W O

/-- `copy_stage`, the offset equations before the equation that names the source's flow and hop. -/
theorem copy_stage' (K : Dev nD × Fin 93 → ℕ) (c : Dev nD) (i : Fin 32) (hi : i.val < 30)
    {sf : Fin 10} {sh : ℕ} {off_s off_d sz : Fin 2 → ℕ} (nr : ℕ) {q : PosShare TreeShare}
    (ho_s : off_s = ![lo sf sh c, 0]) (ho_d : off_d = ![lo sf sh c, 0]) (hcs : cpSrc i = (sf, sh)) (hz : sz = ![nr, 512])
    (hnr : nr = flowRows sf) (hq : q = cpShare sf)
    {inb_s : ∀ x, off_s x + sz x ≤ S8192x512.size x} {inb_d : ∀ x, off_d x + sz x ≤ S8192x512.size x} {us} {ud}
    {s : DmaSem sig}
    {hsrc : (stgSl off_s sz inb_s us).view.WordExact} {hdst : (outSl off_d sz inb_d ud).view.WordExact}
    {hsem : DmaTarget.Typed .vmem (.dma s) (DmaTarget.here (outSl off_d sz inb_d ud) : DmaTarget nD τ sig (Proc.tc : Proc τ) .hbm ⟨2, sz⟩ .f32)}
    {α : Type} {Q : α → sProp 𝕄} {k : PUnit → Prog (TpuEff nD τ sig (Elt F) Λ₀ .tc) α}
    (hs : (SemLoc.dma s : SemLoc sig) = csem (cpJ i)) (V : (main_v1 : Ref sig .tc).ty.Contents (Elt F)) :
    iprop(cellInv ER (Rd m) (K (c, cpJ i)) (cell c (cpJ i))
        ∗ sPts c (lo sf sh c) nr q (Gd m (org sf sh c))
        ∗ oPts c (lo sf sh c) nr fullShare V
        ∗ dutyTok ER (cell c (cpJ i)) 0 0 ∗ reached ER (cell c (cpJ i)) 0)
      ⊢ iprop((cred (tallyAt (cell c (cpJ i)) () (credO nr))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us) (.here (outSl off_d sz inb_d ud)) (.dma s) hsrc hdst hsem) k) Q) :=
  copy_stage m K c i hi hcs nr ho_s ho_d hz hnr hq hs V

end Cert.KernelIdeal.AG

end
-- ==== Proof.PartsA.lean ====
/-
  The body of one device, part by part (parts 1 to 12): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.XferSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 1 of the body. No memory operation. -/
theorem part1_spec (K : Dev nD × Fin 93 → ℕ) (c : Dev nD) (W : Waits sig Unit) (Kt : (Σ' (d0 : Dev nD) (v2 : BitVec 32) (v5 : BitVec 32) (v8 : BitVec 32) (v9 : BitVec 32) (v10 : BitVec 32) (v21 : BitVec 32) (v32 : BitVec 32) (v34 : BitVec 32), BitVec 32) → sProp 𝕄) :
    iprop(∀ r : (Σ' (d0 : Dev nD) (v2 : BitVec 32) (v5 : BitVec 32) (v8 : BitVec 32) (v9 : BitVec 32) (v10 : BitVec 32) (v21 : BitVec 32) (v32 : BitVec 32) (v34 : BitVec 32), BitVec 32), ⌜r.1 = c⌝ -∗ Kt r)
      ⊢ wp frame (wpE (defs₀ (F := F)) 𝒱₀ (c : Thread nD τ) none) Set.univ
          (k0_part1 (Memref.whole cc0_stg0_0) (Memref.isWhole_whole _) (Memref.whole main_v1) (Memref.isWhole_whole _) (Memref.whole cc0_scratch0) (Memref.isWhole_whole _) cc0_scratch1 cc0_scratch2 cc0_scratch3) Kt := by
  rw [k0_part1_eq_skeleton]; unfold k0_part1_skel
  simp only [Prog.lift, Prog.bind_op, Prog.bind_ret, Prog.pure_eq_ret, semSignalWord, semWaitWord, wp_deviceId]
  rw [wp_ret]
  iintro Hk
  imodintro
  iapply Hk
  ipureintro; rfl

/-- Part 2 of the body. -/
theorem part2_spec (K : Dev nD × Fin 93 → ℕ) (c : Dev nD) (W : Waits sig Unit) (v2 : BitVec 32) (v5 : BitVec 32) (v8 : BitVec 32) (v9 : BitVec 32) (v10 : BitVec 32) (v21 : BitVec 32) (v32 : BitVec 32) (c2_i32_18 : BitVec 32) (Kt : (Σ' (v36 : BitVec 32) (v38 : BitVec 32), BitVec 32) → sProp 𝕄) :
    iprop((records m K
        ∗ levAts L lv
        ∗ owes (c : Thread nD τ) (Ol (payL.drop 0) c) W
        ∗ dutyTok ER (cell (peer 0 c) 0) 0 1
        ∗ barPay (F := F) (peer 0 c) 1
        ∗ dutyTok ER (cell (peer 1 c) 0) 0 0
        ∗ barPay (F := F) (peer 1 c) 0
        ∗ dutyTok ER (cell (peer 2 c) 0) 0 2
        ∗ barPay (F := F) (peer 2 c) 2
        ∗ dutyTok ER (cell (peer 3 c) 0) 0 3
        ∗ barPay (F := F) (peer 3 c) 3
        ∗ cred (tallyAt (cell c 0) () 4)
        ∗ atPos ER (cell c 0) 0 ∅ 0)
      ∗ (∀ r, (owes (c : Thread nD τ) (Ol (payL.drop 4) c) (insert (csem 0, ()) W)
          ∗ barPay (F := F) c 0
          ∗ barPay (F := F) c 1
          ∗ barPay (F := F) c 2
          ∗ barPay (F := F) c 3) -∗ Kt r))
      ⊢ wp frame (wpE (defs₀ (F := F)) 𝒱₀ (c : Thread nD τ) none) Set.univ
          (k0_part2 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v21 v32 c2_i32_18) Kt := by
  rw [k0_part2_eq_skeleton]; unfold k0_part2_skel
  simp only [Prog.lift, Prog.bind_op, Prog.bind_ret, Prog.pure_eq_ret, semSignalWord, semWaitWord]
  /- operations, in order:
   op 0: SIGNAL dev=k0_dev1 [payments made before: 0]
   op 1: SIGNAL dev=k0_dev2 [payments made before: 1]
   op 2: SIGNAL dev=k0_dev3 [payments made before: 2]
   op 3: SIGNAL dev=k0_dev4 [payments made before: 3]
   op 4: BARWAIT  [payments made before: 4] -/
  rw [show payL.drop 0 = (0, 0) :: (1, 0) :: (2, 0) :: (3, 0) :: payL.drop 4 from rfl, Ol_cons, Ol_cons, Ol_cons, Ol_cons]
  iintro ⟨⟨#HR, #Hlev, HO, Ht0, Hb0, Ht1, Hb1, Ht2, Hb2, Ht3, Hb3, Hc, Hat⟩, Hk⟩
  ihave #HI0 := (rec_inv m K (peer 0 c) 0) $$ HR
  ihave #HR0 := (rec_reached m K (peer 0 c) 0) $$ HR
  ihave #HI1 := (rec_inv m K (peer 1 c) 0) $$ HR
  ihave #HR1 := (rec_reached m K (peer 1 c) 0) $$ HR
  ihave #HI2 := (rec_inv m K (peer 2 c) 0) $$ HR
  ihave #HR2 := (rec_reached m K (peer 2 c) 0) $$ HR
  ihave #HI3 := (rec_inv m K (peer 3 c) 0) $$ HR
  ihave #HR3 := (rec_reached m K (peer 3 c) 0) $$ HR
  ihave #HIc := (rec_inv m K c 0) $$ HR
  -- the signal to the ring neighbour below
  iapply (wp_signal_bar m K c 0 _ (dev1_eq c) rfl rfl W
      (Ol (payL.drop 4) c + payTally c (3, 0) + payTally c (2, 0) + payTally c (1, 0))) $$ [HO Ht0 Hb0]
  · isplitr; · iexact HI0
    isplitl [HO]; · iexact HO
    isplitl [Ht0]; · iexact Ht0
    isplitl [Hb0]; · iexact Hb0
    iexact HR0
  iintro HO
  -- the signal to the ring neighbour above
  iapply (wp_signal_bar m K c 1 _ (dev2_eq c) rfl rfl W
      (Ol (payL.drop 4) c + payTally c (3, 0) + payTally c (2, 0))) $$ [HO Ht1 Hb1]
  · isplitr; · iexact HI1
    isplitl [HO]; · iexact HO
    isplitl [Ht1]; · iexact Ht1
    isplitl [Hb1]; · iexact Hb1
    iexact HR1
  iintro HO
  -- the signal to the device with the other x
  iapply (wp_signal_bar m K c 2 _ (dev3_eq c) rfl rfl W
      (Ol (payL.drop 4) c + payTally c (3, 0))) $$ [HO Ht2 Hb2]
  · isplitr; · iexact HI2
    isplitl [HO]; · iexact HO
    isplitl [Ht2]; · iexact Ht2
    isplitl [Hb2]; · iexact Hb2
    iexact HR2
  iintro HO
  -- the signal to the device with the other y
  iapply (wp_signal_bar m K c 3 _ (dev4_eq c) rfl rfl W (Ol (payL.drop 4) c)) $$ [HO Ht3 Hb3]
  · isplitr; · iexact HI3
    isplitl [HO]; · iexact HO
    isplitl [Ht3]; · iexact Ht3
    isplitl [Hb3]; · iexact Hb3
    iexact HR3
  iintro HO
  -- the wait for the four peers' signals
  iapply (wp_wait_bar m K c rfl rfl W (Ol (payL.drop 4) c)) $$ [Hc HO Hat]
  · isplitr; · iexact HIc
    isplitl [Hc]; · iexact Hc
    isplitl [HO]; · iexact HO
    isplitr; · iapply (mayWait_of c 0 (payL.drop 4) (by decide)); iexact Hlev
    iexact Hat
  iintro ⟨HO, Hp0, Hp1, Hp2, Hp3⟩
  rw [wp_ret]; imodintro
  iapply Hk
  isplitl [HO]; · iexact HO
  isplitl [Hp0]; · iexact Hp0
  isplitl [Hp1]; · iexact Hp1
  isplitl [Hp2]; · iexact Hp2
  iexact Hp3

/-- Part 3 of the body. -/
theorem part3_spec (K : Dev nD × Fin 93 → ℕ) (c : Dev nD) (W : Waits sig Unit) (v2 : BitVec 32) (v5 : BitVec 32) (v8 : BitVec 32) (v21 : BitVec 32) (v34 : BitVec 32) (Kt : (Σ' (v97 : BitVec 32), BitVec 32) → sProp 𝕄) :
    iprop((records m K
        ∗ owes (c : Thread nD τ) (Ol (payL.drop 4) c) W
        ∗ xPts m c (blkLo 0 c) 256 fullShare.right.left
        ∗ landPay (F := F) (peer 1 c) (0, 0)
        ∗ dutyTok ER (cell c (sndJ 0 0)) 0 0
        ∗ dutyTok ER (cell (peer 1 c) (rcvJ 0 0)) 0 0)
      ∗ (∀ r, (owes (c : Thread nD τ) (Ol (payL.drop 5) c) W
          ∗ cred (tallyAt (cell c (sndJ 0 0)) () (credS 256))) -∗ Kt r))
      ⊢ wp frame (wpE (defs₀ (F := F)) 𝒱₀ (c : Thread nD τ) none) Set.univ
          (k0_part3 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v34) Kt := by
  rw [k0_part3_eq_skeleton]; unfold k0_part3_skel
  simp only [Prog.lift, Prog.bind_op, Prog.bind_ret, Prog.pure_eq_ret, semSignalWord, semWaitWord]
  /- operations, in order:
   op 5: SEND src=arg0@k0_off2 0#32:S256x512 dev=k0_dev5 dst=arg2@k0_off1 0#32 0#32:S256x512 sS=arg3[0, 0] sR=arg4[0, 0] [payments made before: 4] -/
  rw [show payL.drop 4 = (tgt 0, rcvJ 0 0) :: payL.drop 5 from rfl, Ol_cons]
  iintro ⟨⟨#HR, HO, Hx, Hl1, Hts1, Htr1⟩, Hk⟩
  ihave #HIs1 := (rec_inv m K c (sndJ 0 0)) $$ HR
  ihave #HIr1 := (rec_inv m K (peer 1 c) (rcvJ 0 0)) $$ HR
  ihave #HRs1 := (rec_reached m K c (sndJ 0 0)) $$ HR
  ihave #HRr1 := (rec_reached m K (peer 1 c) (rcvJ 0 0)) $$ HR
  iapply (send_ring0 m K c 0 (by decide) (dev5_eq c) rfl (off2_blk_0 c) (off1_lo_0_0 c) rfl rfl rfl rfl rfl W
      (Ol (payL.drop 5) c) (p := peer 1 c) (nr := 256) (q := fullShare.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 4 of the body. -/
theorem part4_spec (K : Dev nD × Fin 93 → ℕ) (c : Dev nD) (W : Waits sig Unit) (v2 : BitVec 32) (v5 : BitVec 32) (v8 : BitVec 32) (v32 : BitVec 32) (v34 : BitVec 32) (v97 : BitVec 32) (v98 : BitVec 32) (Kt : (Σ' (v126 : BitVec 32) (v127 : BitVec 32), BitVec 1) → sProp 𝕄) :
    iprop((records m K
        ∗ owes (c : Thread nD τ) (Ol (payL.drop 5) c) W
        ∗ xPts m c (blkLo 2 c) 256 fullShare.right.right.left
        ∗ landPay (F := F) (peer 0 c) (2, 0)
        ∗ dutyTok ER (cell c (sndJ 2 0)) 0 0
        ∗ dutyTok ER (cell (peer 0 c) (rcvJ 2 0)) 0 0)
      ∗ (∀ r, (owes (c : Thread nD τ) (Ol (payL.drop 6) c) W
          ∗ cred (tallyAt (cell c (sndJ 2 0)) () (credS 256))) -∗ Kt r))
      ⊢ wp frame (wpE (defs₀ (F := F)) 𝒱₀ (c : Thread nD τ) none) Set.univ
          (k0_part4 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v34 v97 v98) Kt := by
  rw [k0_part4_eq_skeleton]; unfold k0_part4_skel
  simp only [Prog.lift, Prog.bind_op, Prog.bind_ret, Prog.pure_eq_ret, semSignalWord, semWaitWord]
  /- operations, in order:
   op 6: SEND src=arg0@k0_off2 256#32:S256x512 dev=k0_dev6 dst=arg2@k0_off1 0#32 256#32:S256x512 sS=arg3[2, 0] sR=arg4[2, 0] [payments made before: 5] -/
  rw [show payL.drop 5 = (tgt 2, rcvJ 2 0) :: payL.drop 6 from rfl, Ol_cons]
  iintro ⟨⟨#HR, HO, Hx, Hl1, Hts1, Htr1⟩, Hk⟩
  ihave #HIs1 := (rec_inv m K c (sndJ 2 0)) $$ HR
  ihave #HIr1 := (rec_inv m K (peer 0 c) (rcvJ 2 0)) $$ HR
  ihave #HRs1 := (rec_reached m K c (sndJ 2 0)) $$ HR
  ihave #HRr1 := (rec_reached m K (peer 0 c) (rcvJ 2 0)) $$ HR
  iapply (send_ring0 m K c 2 (by decide) (dev6_eq c) rfl (off2_blk_256 c) (off1_lo_0_256 c) rfl rfl rfl rfl rfl W
      (Ol (payL.drop 6) c) (p := peer 0 c) (nr := 256) (q := fullShare.right.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 5 of the body. -/
theorem part5_spec (K : Dev nD × Fin 93 → ℕ) (c : Dev nD) (W : Waits sig Unit) (v2 : BitVec 32) (v5 : BitVec 32) (v8 : BitVec 32) (v21 : BitVec 32) (v40 : BitVec 32) (v126 : BitVec 32) (v127 : BitVec 32) (v132 : BitVec 1) (Kt : (BitVec 32) → sProp 𝕄) :
    iprop((records m K
        ∗ owes (c : Thread nD τ) (Ol (payL.drop 6) c) W
        ∗ xPts m c (blkLo 1 c) 88 fullShare.right.right.right.left
        ∗ landPay (F := F) (peer 1 c) (1, 0)
        ∗ dutyTok ER (cell c (sndJ 1 0)) 0 0
        ∗ dutyTok ER (cell (peer 1 c) (rcvJ 1 0)) 0 0)
      ∗ (∀ r, (owes (c : Thread nD τ) (Ol (payL.drop 7) c) W
          ∗ cred (tallyAt (cell c (sndJ 1 0)) () (credS 88))) -∗ Kt r))
      ⊢ wp frame (wpE (defs₀ (F := F)) 𝒱₀ (c : Thread nD τ) none) Set.univ
          (k0_part5 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v40 v126 v127 v132) Kt := by
  rw [k0_part5_eq_skeleton]; unfold k0_part5_skel
  simp only [Prog.lift, Prog.bind_op, Prog.bind_ret, Prog.pure_eq_ret, semSignalWord, semWaitWord]
  /- operations, in order:
   op 7: SEND src=arg0@k0_off4 0#32:S88x512 dev=k0_dev7 dst=arg2@k0_off3 0#32 0#32:S88x512 sS=arg3[1, 0] sR=arg4[1, 0] [payments made before: 6] -/
  rw [show payL.drop 6 = (tgt 1, rcvJ 1 0) :: payL.drop 7 from rfl, Ol_cons]
  iintro ⟨⟨#HR, HO, Hx, Hl1, Hts1, Htr1⟩, Hk⟩
  ihave #HIs1 := (rec_inv m K c (sndJ 1 0)) $$ HR
  ihave #HIr1 := (rec_inv m K (peer 1 c) (rcvJ 1 0)) $$ HR
  ihave #HRs1 := (rec_reached m K c (sndJ 1 0)) $$ HR
  ihave #HRr1 := (rec_reached m K (peer 1 c) (rcvJ 1 0)) $$ HR
  iapply (send_ring0 m K c 1 (by decide) (dev7_eq c) rfl (off4_blk_0 c) (off3_lo_0_0 c) rfl rfl rfl rfl rfl W
      (Ol (payL.drop 7) c) (p := peer 1 c) (nr := 88) (q := fullShare.right.right.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 6 of the body. -/
theorem part6_spec (K : Dev nD × Fin 93 → ℕ) (c : Dev nD) (W : Waits sig Unit) (v2 : BitVec 32) (v5 : BitVec 32) (v8 : BitVec 32) (v32 : BitVec 32) (v40 : BitVec 32) (v166 : BitVec 32) (Kt : (Σ' (v197 : BitVec 32), BitVec 32) → sProp 𝕄) :
    iprop((records m K
        ∗ owes (c : Thread nD τ) (Ol (payL.drop 7) c) W
        ∗ xPts m c (blkLo 3 c) 88 fullShare.right.right.right.right
        ∗ landPay (F := F) (peer 0 c) (3, 0)
        ∗ dutyTok ER (cell c (sndJ 3 0)) 0 0
        ∗ dutyTok ER (cell (peer 0 c) (rcvJ 3 0)) 0 0
        ∗ xPts m c 0 2048 fullShare.left
        ∗ oPts c (2048 * (c.val % 4)) 2048 fullShare (m ((c : Thread nD τ).loc main_v1))
        ∗ dutyTok ER (cell c (cpJ 31)) 0 0)
      ∗ (∀ r, (owes (c : Thread nD τ) (Ol (payL.drop 8) c) W
          ∗ cred (tallyAt (cell c (sndJ 3 0)) () (credS 88))
          ∗ cred (tallyAt (cell c (cpJ 31)) () (credO 2048))) -∗ Kt r))
      ⊢ wp frame (wpE (defs₀ (F := F)) 𝒱₀ (c : Thread nD τ) none) Set.univ
          (k0_part6 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v40 v166) Kt := by
  rw [k0_part6_eq_skeleton]; unfold k0_part6_skel
  simp only [Prog.lift, Prog.bind_op, Prog.bind_ret, Prog.pure_eq_ret, semSignalWord, semWaitWord]
  /- operations, in order:
   op 8: SEND src=arg0@k0_off4 256#32:S88x512 dev=k0_dev8 dst=arg2@k0_off3 0#32 256#32:S88x512 sS=arg3[3, 0] sR=arg4[3, 0] [payments made before: 7]
   op 9: COPY src=arg0 dst=arg1@k0_off5:S2048x512 sem=arg5[31] [payments made before: 8] -/
  rw [show payL.drop 7 = (tgt 3, rcvJ 3 0) :: payL.drop 8 from rfl, Ol_cons]
  iintro ⟨⟨#HR, HO, Hx, Hl1, Hts1, Htr1, Hxl, Ho, Htc⟩, Hk⟩
  ihave #HIs1 := (rec_inv m K c (sndJ 3 0)) $$ HR
  ihave #HIr1 := (rec_inv m K (peer 0 c) (rcvJ 3 0)) $$ HR
  ihave #HRs1 := (rec_reached m K c (sndJ 3 0)) $$ HR
  ihave #HRr1 := (rec_reached m K (peer 0 c) (rcvJ 3 0)) $$ HR
  iapply (send_ring0 m K c 3 (by decide) (dev8_eq c) rfl (off4_blk_256 c) (off3_lo_0_256 c) rfl rfl rfl rfl rfl W
      (Ol (payL.drop 8) c) (p := peer 0 c) (nr := 88) (q := fullShare.right.right.right.right)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  ihave #HIc := (rec_inv m K c (cpJ 31)) $$ HR
  ihave #HRc := (rec_reached m K c (cpJ 31)) $$ HR
  iapply (copy_own m K c (off5_eq c) rfl (m ((c : Thread nD τ).loc main_v1))) $$ [Hxl Ho Htc]
  · isplitr; · iexact HIc
    isplitl [Hxl]; · iexact Hxl
    isplitl [Ho]; · iexact Ho
    isplitl [Htc]; · iexact Htc
    iexact HRc
  iintro Hcc
  rw [wp_ret]; imodintro
  iapply Hk
  isplitl [HO]; · iexact HO
  isplitl [Hc1]; · iexact Hc1
  iexact Hcc

/-- Part 7 of the body. -/
theorem part7_spec (K : Dev nD × Fin 93 → ℕ) (c : Dev nD) (W : Waits sig Unit) (v2 : BitVec 32) (v5 : BitVec 32) (v8 : BitVec 32) (v21 : BitVec 32) (v34 : BitVec 32) (v197 : BitVec 32) (v199 : BitVec 32) (Kt : (Σ' (v209 : BitVec 32) (v230 : BitVec 32), BitVec 32) → sProp 𝕄) :
    iprop((records m K
        ∗ levAts L lv
        ∗ owes (c : Thread nD τ) (Ol (payL.drop 8) c) W
        ∗ cred (tallyAt (cell c (rcvJ 0 0)) () (credS 256))
        ∗ atPos ER (cell c (rcvJ 0 0)) 0 ∅ 0
        ∗ oPts c (lo 0 0 c) 256 fullShare (m ((c : Thread nD τ).loc main_v1))
        ∗ dutyTok ER (cell c (cpJ 0)) 0 0)
      ∗ (∀ r, (owes (c : Thread nD τ) (Ol (payL.drop 8) c) (insert (csem (rcvJ 0 0), ()) W)
          ∗ semVal (cell c (rcvJ 0 0)) 0
          ∗ sPts c (lo 0 0 c) 256 fullShare.right.left (Gd m (org 0 0 c))
          ∗ sPts c (lo 0 0 c) 256 fullShare.right.right.left (Gd m (org 0 0 c))
          ∗ sPts c (lo 0 0 c) 256 fullShare.right.right.right (Gd m (org 0 0 c))
          ∗ cred (tallyAt (cell c (cpJ 0)) () (credO 256))) -∗ Kt r))
      ⊢ wp frame (wpE (defs₀ (F := F)) 𝒱₀ (c : Thread nD τ) none) Set.univ
          (k0_part7 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v34 v197 v199) Kt := by
  rw [k0_part7_eq_skeleton]; unfold k0_part7_skel
  simp only [Prog.lift, Prog.bind_op, Prog.bind_ret, Prog.pure_eq_ret, semSignalWord, semWaitWord]
  /- operations, in order:
   op 10: WAIT sem=arg4[0, 0] src=arg0@k0_off2 0#32:S256x512 dst=arg2@k0_off1 0#32 0#32:S256x512 [payments made before: 8]
   op 11: COPY src=arg2@k0_off6 0#32:S256x512 dst=arg1@k0_off6 0#32:S256x512 sem=arg5[0] [payments made before: 8] -/
  iintro ⟨⟨#HR, #Hlev, HO, Hc, Hat, Ho, Htc⟩, Hk⟩
  ihave #HIw := (rec_inv m K c (rcvJ 0 0)) $$ HR
  iapply (wp_wait_rcv m K c 0 0 rfl rfl W (Ol (payL.drop 8) c)) $$ [Hc HO Hat]
  · isplitr; · iexact HIw
    isplitl [Hc]; · iexact Hc
    isplitl [HO]; · iexact HO
    isplitr; · iapply (mayWait_of c (rcvJ 0 0) (payL.drop 8) (by decide)); iexact Hlev
    iexact Hat
  iintro ⟨HO, Hsv, Hrp⟩
  ihave Hd := (deal_q_at m c 0 (.inl rfl) 0 0 rfl).1 $$ Hrp
  icases Hd with ⟨Hs0, Hs1, Hs2, Hs3⟩
  ihave #HIc := (rec_inv m K c (cpJ 0)) $$ HR
  ihave #HRc := (rec_reached m K c (cpJ 0)) $$ HR
  iapply (copy_stage m K c 0 (by decide) rfl (off6_lo_0 c) (off6_lo_0 c) rfl rfl rfl rfl (m ((c : Thread nD τ).loc main_v1))
      (sf := 0) (sh := 0) (nr := 256) (q := fullShare.left)) $$ [Hs0 Ho Htc]
  · isplitr; · iexact HIc
    isplitl [Hs0]; · iexact Hs0
    isplitl [Ho]; · iexact Ho
    isplitl [Htc]; · iexact Htc
    iexact HRc
  iintro Hcc
  rw [wp_ret]; imodintro
  iapply Hk
  isplitl [HO]; · iexact HO
  isplitl [Hsv]; · iexact Hsv
  isplitl [Hs1]; · iexact Hs1
  isplitl [Hs2]; · iexact Hs2
  isplitl [Hs3]; · iexact Hs3
  iexact Hcc

/-- Part 8 of the body. -/
theorem part8_spec (K : Dev nD × Fin 93 → ℕ) (c : Dev nD) (W : Waits sig Unit) (v2 : BitVec 32) (v5 : BitVec 32) (v21 : BitVec 32) (v34 : BitVec 32) (v197 : BitVec 32) (v230 : BitVec 32) (v231 : BitVec 32) (Kt : (Σ' (v265 : BitVec 32), BitVec 32) → sProp 𝕄) :
    iprop((records m K
        ∗ owes (c : Thread nD τ) (Ol (payL.drop 8) c) W
        ∗ sPts c (lo 0 0 c) 256 fullShare.right.left (Gd m (org 0 0 c))
        ∗ landPay (F := F) (peer 1 c) (0, 1)
        ∗ dutyTok ER (cell c (sndJ 0 1)) 0 0
        ∗ dutyTok ER (cell (peer 1 c) (rcvJ 0 1)) 0 0)
      ∗ (∀ r, (owes (c : Thread nD τ) (Ol (payL.drop 9) c) W
          ∗ cred (tallyAt (cell c (sndJ 0 1)) () (credS 256))) -∗ Kt r))
      ⊢ wp frame (wpE (defs₀ (F := F)) 𝒱₀ (c : Thread nD τ) none) Set.univ
          (k0_part8 (Memref.whole cc0_stg0_0) (Memref.isWhole_whole _) (Memref.whole main_v1) (Memref.isWhole_whole _) (Memref.whole cc0_scratch0) (Memref.isWhole_whole _) cc0_scratch1 cc0_scratch2 cc0_scratch3 c v2 v5 v21 v34 v197 v230 v231) Kt := by
  rw [k0_part8_eq_skeleton]; unfold k0_part8_skel
  simp only [Prog.lift, Prog.bind_op, Prog.bind_ret, Prog.pure_eq_ret, semSignalWord, semWaitWord]
  /- operations, in order:
   op 12: SEND src=arg2@k0_off1 4294967295#32 0#32:S256x512 dev=k0_dev9 dst=arg2@k0_off1 4294967295#32 0#32:S256x512 sS=arg3[0, 1] sR=arg4[0, 1] [payments made before: 8] -/
  rw [show payL.drop 8 = (tgt 0, rcvJ 0 1) :: payL.drop 9 from rfl, Ol_cons]
  iintro ⟨⟨#HR, HO, Hx, Hl1, Hts1, Htr1⟩, Hk⟩
  ihave #HIs1 := (rec_inv m K c (sndJ 0 1)) $$ HR
  ihave #HIr1 := (rec_inv m K (peer 1 c) (rcvJ 0 1)) $$ HR
  ihave #HRs1 := (rec_reached m K c (sndJ 0 1)) $$ HR
  ihave #HRr1 := (rec_reached m K (peer 1 c) (rcvJ 0 1)) $$ HR
  iapply (send_stage m K c 0 1 (by decide) (dev9_eq c) rfl rfl rfl (off1_lo_m1_0 c) (off1_lo_up_1 c) rfl rfl rfl rfl rfl W
      (Ol (payL.drop 9) c) (p := peer 1 c) (sf := 0) (sh := 0) (δ := 0) (a := lo 0 0 c) (nr := 256) (q := fullShare.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 9 of the body. -/
theorem part9_spec (K : Dev nD × Fin 93 → ℕ) (c : Dev nD) (W : Waits sig Unit) (v2 : BitVec 32) (v5 : BitVec 32) (v8 : BitVec 32) (v9 : BitVec 32) (v10 : BitVec 32) (v34 : BitVec 32) (v197 : BitVec 32) (v265 : BitVec 32) (c0_i32_187 : BitVec 32) (Kt : (PUnit) → sProp 𝕄) :
    iprop((records m K
        ∗ owes (c : Thread nD τ) (Ol (payL.drop 9) c) W
        ∗ sPts c (lo 0 0 c) 256 fullShare.right.right.left (Gd m (org 0 0 c))
        ∗ landPay (F := F) (peer 2 c) (4, 0)
        ∗ dutyTok ER (cell c (sndJ 4 0)) 0 0
        ∗ dutyTok ER (cell (peer 2 c) (rcvJ 4 0)) 0 0)
      ∗ (∀ r, (owes (c : Thread nD τ) (Ol (payL.drop 10) c) W
          ∗ cred (tallyAt (cell c (sndJ 4 0)) () (credS 256))) -∗ Kt r))
      ⊢ wp frame (wpE (defs₀ (F := F)) 𝒱₀ (c : Thread nD τ) none) Set.univ
          (k0_part9 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v34 v197 v265 c0_i32_187) Kt := by
  rw [k0_part9_eq_skeleton]; unfold k0_part9_skel
  simp only [Prog.lift, Prog.bind_op, Prog.bind_ret, Prog.pure_eq_ret, semSignalWord, semWaitWord]
  /- operations, in order:
   op 13: SEND src=arg2@k0_off6 0#32:S256x512 dev=k0_dev10 dst=arg2@k0_off6 0#32:S256x512 sS=arg3[4, 0] sR=arg4[4, 0] [payments made before: 9] -/
  rw [show payL.drop 9 = (tgt 4, rcvJ 4 0) :: payL.drop 10 from rfl, Ol_cons]
  iintro ⟨⟨#HR, HO, Hx, Hl1, Hts1, Htr1⟩, Hk⟩
  ihave #HIs1 := (rec_inv m K c (sndJ 4 0)) $$ HR
  ihave #HIr1 := (rec_inv m K (peer 2 c) (rcvJ 4 0)) $$ HR
  ihave #HRs1 := (rec_reached m K c (sndJ 4 0)) $$ HR
  ihave #HRr1 := (rec_reached m K (peer 2 c) (rcvJ 4 0)) $$ HR
  iapply (send_stage m K c 4 0 (by decide) (dev10_eq c) rfl rfl rfl (off6_lo_0 c) (off6_lo_x_0 c) rfl rfl rfl rfl rfl W
      (Ol (payL.drop 10) c) (p := peer 2 c) (sf := 0) (sh := 0) (δ := 0) (a := lo 0 0 c) (nr := 256) (q := fullShare.right.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 10 of the body. -/
theorem part10_spec (K : Dev nD × Fin 93 → ℕ) (c : Dev nD) (W : Waits sig Unit) (v2 : BitVec 32) (v5 : BitVec 32) (v8 : BitVec 32) (v32 : BitVec 32) (v34 : BitVec 32) (v209 : BitVec 32) (Kt : (Σ' (v327 : BitVec 32), BitVec 32) → sProp 𝕄) :
    iprop((records m K
        ∗ levAts L lv
        ∗ owes (c : Thread nD τ) (Ol (payL.drop 10) c) W
        ∗ sPts c (lo 0 0 c) 256 fullShare.right.right.right (Gd m (org 0 0 c))
        ∗ landPay (F := F) (peer 3 c) (6, 0)
        ∗ dutyTok ER (cell c (sndJ 6 0)) 0 0
        ∗ dutyTok ER (cell (peer 3 c) (rcvJ 6 0)) 0 0
        ∗ cred (tallyAt (cell c (rcvJ 2 0)) () (credS 256))
        ∗ atPos ER (cell c (rcvJ 2 0)) 0 ∅ 0
        ∗ oPts c (lo 2 0 c) 256 fullShare (m ((c : Thread nD τ).loc main_v1))
        ∗ dutyTok ER (cell c (cpJ 1)) 0 0)
      ∗ (∀ r, (owes (c : Thread nD τ) (Ol (payL.drop 11) c) (insert (csem (rcvJ 2 0), ()) W)
          ∗ cred (tallyAt (cell c (sndJ 6 0)) () (credS 256))
          ∗ semVal (cell c (rcvJ 2 0)) 0
          ∗ sPts c (lo 2 0 c) 256 fullShare.right.left (Gd m (org 2 0 c))
          ∗ sPts c (lo 2 0 c) 256 fullShare.right.right.left (Gd m (org 2 0 c))
          ∗ sPts c (lo 2 0 c) 256 fullShare.right.right.right (Gd m (org 2 0 c))
          ∗ cred (tallyAt (cell c (cpJ 1)) () (credO 256))) -∗ Kt r))
      ⊢ wp frame (wpE (defs₀ (F := F)) 𝒱₀ (c : Thread nD τ) none) Set.univ
          (k0_part10 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v34 v209) Kt := by
  rw [k0_part10_eq_skeleton]; unfold k0_part10_skel
  simp only [Prog.lift, Prog.bind_op, Prog.bind_ret, Prog.pure_eq_ret, semSignalWord, semWaitWord]
  /- operations, in order:
   op 14: SEND src=arg2@k0_off6 0#32:S256x512 dev=k0_dev11 dst=arg2@k0_off6 0#32:S256x512 sS=arg3[6, 0] sR=arg4[6, 0] [payments made before: 10]
   op 15: WAIT sem=arg4[2, 0] src=arg0@k0_off2 256#32:S256x512 dst=arg2@k0_off1 0#32 256#32:S256x512 [payments made before: 11]
   op 16: COPY src=arg2@k0_off7 0#32:S256x512 dst=arg1@k0_off7 0#32:S256x512 sem=arg5[1] [payments made before: 11] -/
  rw [show payL.drop 10 = (tgt 6, rcvJ 6 0) :: payL.drop 11 from rfl, Ol_cons]
  iintro ⟨⟨#HR, #Hlev, HO, Hx, Hl1, Hts1, Htr1, Hc, Hat, Ho, Htc⟩, Hk⟩
  ihave #HIs1 := (rec_inv m K c (sndJ 6 0)) $$ HR
  ihave #HIr1 := (rec_inv m K (peer 3 c) (rcvJ 6 0)) $$ HR
  ihave #HRs1 := (rec_reached m K c (sndJ 6 0)) $$ HR
  ihave #HRr1 := (rec_reached m K (peer 3 c) (rcvJ 6 0)) $$ HR
  iapply (send_stage m K c 6 0 (by decide) (dev11_eq c) rfl rfl rfl (off6_lo_0 c) (off6_lo_y_0 c) rfl rfl rfl rfl rfl W
      (Ol (payL.drop 11) c) (p := peer 3 c) (sf := 0) (sh := 0) (δ := 0) (a := lo 0 0 c) (nr := 256) (q := fullShare.right.right.right)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  ihave #HIw := (rec_inv m K c (rcvJ 2 0)) $$ HR
  iapply (wp_wait_rcv m K c 2 0 rfl rfl W (Ol (payL.drop 11) c)) $$ [Hc HO Hat]
  · isplitr; · iexact HIw
    isplitl [Hc]; · iexact Hc
    isplitl [HO]; · iexact HO
    isplitr; · iapply (mayWait_of c (rcvJ 2 0) (payL.drop 11) (by decide)); iexact Hlev
    iexact Hat
  iintro ⟨HO, Hsv, Hrp⟩
  ihave Hd := (deal_q_at m c 2 (.inr rfl) 0 0 rfl).1 $$ Hrp
  icases Hd with ⟨Hs0, Hs1, Hs2, Hs3⟩
  ihave #HIc := (rec_inv m K c (cpJ 1)) $$ HR
  ihave #HRc := (rec_reached m K c (cpJ 1)) $$ HR
  iapply (copy_stage m K c 1 (by decide) rfl (off7_lo_0 c) (off7_lo_0 c) rfl rfl rfl rfl (m ((c : Thread nD τ).loc main_v1))
      (sf := 2) (sh := 0) (nr := 256) (q := fullShare.left)) $$ [Hs0 Ho Htc]
  · isplitr; · iexact HIc
    isplitl [Hs0]; · iexact Hs0
    isplitl [Ho]; · iexact Ho
    isplitl [Htc]; · iexact Htc
    iexact HRc
  iintro Hcc
  rw [wp_ret]; imodintro
  iapply Hk
  isplitl [HO]; · iexact HO
  isplitl [Hc1]; · iexact Hc1
  isplitl [Hsv]; · iexact Hsv
  isplitl [Hs1]; · iexact Hs1
  isplitl [Hs2]; · iexact Hs2
  isplitl [Hs3]; · iexact Hs3
  iexact Hcc

/-- Part 11 of the body. -/
theorem part11_spec (K : Dev nD × Fin 93 → ℕ) (c : Dev nD) (W : Waits sig Unit) (v2 : BitVec 32) (v5 : BitVec 32) (v8 : BitVec 32) (v9 : BitVec 32) (v32 : BitVec 32) (v34 : BitVec 32) (v209 : BitVec 32) (v327 : BitVec 32) (v330 : BitVec 32) (Kt : (PUnit) → sProp 𝕄) :
    iprop((records m K
        ∗ owes (c : Thread nD τ) (Ol (payL.drop 11) c) W
        ∗ sPts c (lo 2 0 c) 256 fullShare.right.left (Gd m (org 2 0 c))
        ∗ landPay (F := F) (peer 0 c) (2, 1)
        ∗ dutyTok ER (cell c (sndJ 2 1)) 0 0
        ∗ dutyTok ER (cell (peer 0 c) (rcvJ 2 1)) 0 0)
      ∗ (∀ r, (owes (c : Thread nD τ) (Ol (payL.drop 12) c) W
          ∗ cred (tallyAt (cell c (sndJ 2 1)) () (credS 256))) -∗ Kt r))
      ⊢ wp frame (wpE (defs₀ (F := F)) 𝒱₀ (c : Thread nD τ) none) Set.univ
          (k0_part11 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v32 v34 v209 v327 v330) Kt := by
  rw [k0_part11_eq_skeleton]; unfold k0_part11_skel
  simp only [Prog.lift, Prog.bind_op, Prog.bind_ret, Prog.pure_eq_ret, semSignalWord, semWaitWord]
  /- operations, in order:
   op 17: SEND src=arg2@k0_off1 1#32 256#32:S256x512 dev=k0_dev12 dst=arg2@k0_off1 1#32 256#32:S256x512 sS=arg3[2, 1] sR=arg4[2, 1] [payments made before: 11] -/
  rw [show payL.drop 11 = (tgt 2, rcvJ 2 1) :: payL.drop 12 from rfl, Ol_cons]
  iintro ⟨⟨#HR, HO, Hx, Hl1, Hts1, Htr1⟩, Hk⟩
  ihave #HIs1 := (rec_inv m K c (sndJ 2 1)) $$ HR
  ihave #HIr1 := (rec_inv m K (peer 0 c) (rcvJ 2 1)) $$ HR
  ihave #HRs1 := (rec_reached m K c (sndJ 2 1)) $$ HR
  ihave #HRr1 := (rec_reached m K (peer 0 c) (rcvJ 2 1)) $$ HR
  iapply (send_stage m K c 2 1 (by decide) (dev12_eq c) rfl rfl rfl (off1_lo_1_256 c) (off1_lo_dn_1 c) rfl rfl rfl rfl rfl W
      (Ol (payL.drop 12) c) (p := peer 0 c) (sf := 2) (sh := 0) (δ := 0) (a := lo 2 0 c) (nr := 256) (q := fullShare.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 12 of the body. -/
theorem part12_spec (K : Dev nD × Fin 93 → ℕ) (c : Dev nD) (W : Waits sig Unit) (v2 : BitVec 32) (v5 : BitVec 32) (v8 : BitVec 32) (v10 : BitVec 32) (v21 : BitVec 32) (v34 : BitVec 32) (v209 : BitVec 32) (Kt : (PUnit) → sProp 𝕄) :
    iprop((records m K
        ∗ owes (c : Thread nD τ) (Ol (payL.drop 12) c) W
        ∗ sPts c (lo 2 0 c) 256 fullShare.right.right.left (Gd m (org 2 0 c))
        ∗ landPay (F := F) (peer 2 c) (5, 0)
        ∗ dutyTok ER (cell c (sndJ 5 0)) 0 0
        ∗ dutyTok ER (cell (peer 2 c) (rcvJ 5 0)) 0 0
        ∗ sPts c (lo 2 0 c) 256 fullShare.right.right.right (Gd m (org 2 0 c))
        ∗ landPay (F := F) (peer 3 c) (7, 0)
        ∗ dutyTok ER (cell c (sndJ 7 0)) 0 0
        ∗ dutyTok ER (cell (peer 3 c) (rcvJ 7 0)) 0 0)
      ∗ (∀ r, (owes (c : Thread nD τ) (Ol (payL.drop 14) c) W
          ∗ cred (tallyAt (cell c (sndJ 5 0)) () (credS 256))
          ∗ cred (tallyAt (cell c (sndJ 7 0)) () (credS 256))) -∗ Kt r))
      ⊢ wp frame (wpE (defs₀ (F := F)) 𝒱₀ (c : Thread nD τ) none) Set.univ
          (k0_part12 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v21 v34 v209) Kt := by
  rw [k0_part12_eq_skeleton]; unfold k0_part12_skel
  simp only [Prog.lift, Prog.bind_op, Prog.bind_ret, Prog.pure_eq_ret, semSignalWord, semWaitWord]
  /- operations, in order:
   op 18: SEND src=arg2@k0_off7 0#32:S256x512 dev=k0_dev13 dst=arg2@k0_off7 0#32:S256x512 sS=arg3[5, 0] sR=arg4[5, 0] [payments made before: 12]
   op 19: SEND src=arg2@k0_off7 0#32:S256x512 dev=k0_dev14 dst=arg2@k0_off7 0#32:S256x512 sS=arg3[7, 0] sR=arg4[7, 0] [payments made before: 13] -/
  rw [show payL.drop 12 = (tgt 5, rcvJ 5 0) :: (tgt 7, rcvJ 7 0) :: payL.drop 14 from rfl, Ol_cons, Ol_cons]
  iintro ⟨⟨#HR, HO, Hx1, Hl1, Hts1, Htr1, Hx2, Hl2, Hts2, Htr2⟩, Hk⟩
  ihave #HIs1 := (rec_inv m K c (sndJ 5 0)) $$ HR
  ihave #HIr1 := (rec_inv m K (peer 2 c) (rcvJ 5 0)) $$ HR
  ihave #HRs1 := (rec_reached m K c (sndJ 5 0)) $$ HR
  ihave #HRr1 := (rec_reached m K (peer 2 c) (rcvJ 5 0)) $$ HR
  iapply (send_stage m K c 5 0 (by decide) (dev13_eq c) rfl rfl rfl (off7_lo_0 c) (off7_lo_x_0 c) rfl rfl rfl rfl rfl W
      (Ol (payL.drop 14) c + payTally c (tgt 7, rcvJ 7 0)) (p := peer 2 c) (sf := 2) (sh := 0) (δ := 0) (a := lo 2 0 c) (nr := 256) (q := fullShare.right.right.left)) $$ [HO Hx1 Hl1 Hts1 Htr1]
  · isplitr; · iexact HIs1
    isplitr; · iexact HIr1
    isplitl [Hx1]; · iexact Hx1
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  ihave #HIs2 := (rec_inv m K c (sndJ 7 0)) $$ HR
  ihave #HIr2 := (rec_inv m K (peer 3 c) (rcvJ 7 0)) $$ HR
  ihave #HRs2 := (rec_reached m K c (sndJ 7 0)) $$ HR
  ihave #HRr2 := (rec_reached m K (peer 3 c) (rcvJ 7 0)) $$ HR
  iapply (send_stage m K c 7 0 (by decide) (dev14_eq c) rfl rfl rfl (off7_lo_0 c) (off7_lo_y_0 c) rfl rfl rfl rfl rfl W
      (Ol (payL.drop 14) c) (p := peer 3 c) (sf := 2) (sh := 0) (δ := 0) (a := lo 2 0 c) (nr := 256) (q := fullShare.right.right.right)) $$ [HO Hx2 Hl2 Hts2 Htr2]
  · isplitr; · iexact HIs2
    isplitr; · iexact HIr2
    isplitl [Hx2]; · iexact Hx2
    isplitl [Hl2]; · iexact Hl2
    isplitl [HO]; · iexact HO
    isplitl [Hts2]; · iexact Hts2
    isplitr; · iexact HRs2
    isplitl [Htr2]; · iexact Htr2
    iexact HRr2
  iintro ⟨Hc2, HO⟩
  rw [wp_ret]; imodintro
  iapply Hk
  isplitl [HO]; · iexact HO
  isplitl [Hc1]; · iexact Hc1
  iexact Hc2

end Cert.KernelIdeal.AG

end
-- ==== Proof.PartsB.lean ====
/-
  The body of one device, part by part (parts 13 to 18): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.XferSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

set_option maxHeartbeats 1600000 in
/-- Part 13 of the body. -/
theorem part13_spec (K : Dev nD × Fin 93 → ℕ) (c : Dev nD) (W : Waits sig Unit) (v2 : BitVec 32) (v8 : BitVec 32) (v40 : BitVec 32) (v197 : BitVec 32) (Kt : (BitVec 32) → sProp 𝕄) :
    iprop((records m K
        ∗ levAts L lv
        ∗ owes (c : Thread nD τ) (Ol (payL.drop 14) c) W
        ∗ cred (tallyAt (cell c (rcvJ 1 0)) () (credS 88))
        ∗ atPos ER (cell c (rcvJ 1 0)) 0 ∅ 0
        ∗ oPts c (lo 1 0 c) 88 fullShare (m ((c : Thread nD τ).loc main_v1))
        ∗ dutyTok ER (cell c (cpJ 2)) 0 0)
      ∗ (∀ r, (owes (c : Thread nD τ) (Ol (payL.drop 14) c) (insert (csem (rcvJ 1 0), ()) W)
          ∗ semVal (cell c (rcvJ 1 0)) 0
          ∗ sPts c (lo 1 0 c) 88 fullShare.right (Gd m (org 1 0 c))
          ∗ cred (tallyAt (cell c (cpJ 2)) () (credO 88))) -∗ Kt r))
      ⊢ wp frame (wpE (defs₀ (F := F)) 𝒱₀ (c : Thread nD τ) none) Set.univ
          (k0_part13 (Memref.whole cc0_stg0_0) (Memref.isWhole_whole _) (Memref.whole main_v1) (Memref.isWhole_whole _) (Memref.whole cc0_scratch0) (Memref.isWhole_whole _) cc0_scratch1 cc0_scratch2 cc0_scratch3 c v2 v8 v40 v197) Kt := by
  rw [k0_part13_eq_skeleton]; unfold k0_part13_skel
  simp only [Prog.lift, Prog.bind_op, Prog.bind_ret, Prog.pure_eq_ret, semSignalWord, semWaitWord]
  /- operations, in order:
   op 20: WAIT sem=arg4[1, 0] src=arg0@k0_off4 0#32:S88x512 dst=arg2@k0_off3 0#32 0#32:S88x512 [payments made before: 14]
   op 21: COPY src=arg2@k0_off8 0#32:S88x512 dst=arg1@k0_off8 0#32:S88x512 sem=arg5[2] [payments made before: 14] -/
  iintro ⟨⟨#HR, #HL, HO, Hc, Hat, Ho, Ht⟩, Hk⟩
  ihave #HIw10 := (rec_inv m K c (rcvJ 1 0)) $$ HR
  ihave #Hmw10 := (mayWait_of (F := F) c (rcvJ 1 0) (payL.drop 14) (by decide)) $$ HL
  iapply (wp_wait_rcv m K c 1 0 rfl rfl W (Ol (payL.drop 14) c)) $$ [Hc HO Hat]
  · isplitr; · iexact HIw10
    isplitl [Hc]; · iexact Hc
    isplitl [HO]; · iexact HO
    isplitr; · iexact Hmw10
    iexact Hat
  iintro ⟨HO, Hz, Hpay⟩
  ihave ⟨Hl, Hr⟩ := (deal_d_at m c 1 (Or.inl rfl) 0 0 rfl).mp $$ Hpay
  ihave #HIc2 := (rec_inv m K c (cpJ 2)) $$ HR
  ihave #Hrc2 := (rec_reached m K c (cpJ 2)) $$ HR
  iapply (copy_stage m K c 2 (by decide) (sf := 1) (sh := 0) rfl 88 (q := fullShare.left) (off8_lo_0 c) (off8_lo_0 c) rfl rfl rfl rfl (m ((c : Thread nD τ).loc main_v1))) $$ [Hl Ho Ht]
  · isplitr; · iexact HIc2
    isplitl [Hl]; · iexact Hl
    isplitl [Ho]; · iexact Ho
    isplitl [Ht]; · iexact Ht
    iexact Hrc2
  iintro Hcc
  rw [wp_ret]; imodintro; iapply Hk
  isplitl [HO]; · iexact HO
  isplitl [Hz]; · iexact Hz
  isplitl [Hr]; · iexact Hr
  iexact Hcc

set_option maxHeartbeats 1600000 in
/-- Part 14 of the body. -/
theorem part14_spec (K : Dev nD × Fin 93 → ℕ) (c : Dev nD) (W : Waits sig Unit) (v2 : BitVec 32) (v5 : BitVec 32) (v8 : BitVec 32) (v21 : BitVec 32) (v32 : BitVec 32) (v40 : BitVec 32) (v209 : BitVec 32) (v425 : BitVec 32) (Kt : (Σ' (v455 : BitVec 32), BitVec 32) → sProp 𝕄) :
    iprop((records m K
        ∗ levAts L lv
        ∗ owes (c : Thread nD τ) (Ol (payL.drop 14) c) W
        ∗ sPts c (lo 1 0 c) 88 fullShare.right (Gd m (org 1 0 c))
        ∗ landPay (F := F) (peer 1 c) (1, 1)
        ∗ dutyTok ER (cell c (sndJ 1 1)) 0 0
        ∗ dutyTok ER (cell (peer 1 c) (rcvJ 1 1)) 0 0
        ∗ cred (tallyAt (cell c (rcvJ 3 0)) () (credS 88))
        ∗ atPos ER (cell c (rcvJ 3 0)) 0 ∅ 0
        ∗ oPts c (lo 3 0 c) 88 fullShare (m ((c : Thread nD τ).loc main_v1))
        ∗ dutyTok ER (cell c (cpJ 3)) 0 0)
      ∗ (∀ r, (owes (c : Thread nD τ) (Ol (payL.drop 15) c) (insert (csem (rcvJ 3 0), ()) W)
          ∗ cred (tallyAt (cell c (sndJ 1 1)) () (credS 88))
          ∗ semVal (cell c (rcvJ 3 0)) 0
          ∗ sPts c (lo 3 0 c) 88 fullShare.right (Gd m (org 3 0 c))
          ∗ cred (tallyAt (cell c (cpJ 3)) () (credO 88))) -∗ Kt r))
      ⊢ wp frame (wpE (defs₀ (F := F)) 𝒱₀ (c : Thread nD τ) none) Set.univ
          (k0_part14 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v32 v40 v209 v425) Kt := by
  rw [k0_part14_eq_skeleton]; unfold k0_part14_skel
  simp only [Prog.lift, Prog.bind_op, Prog.bind_ret, Prog.pure_eq_ret, semSignalWord, semWaitWord]
  /- operations, in order:
   op 22: SEND src=arg2@k0_off3 4294967295#32 0#32:S88x512 dev=k0_dev15 dst=arg2@k0_off3 4294967295#32 0#32:S88x512 sS=arg3[1, 1] sR=arg4[1, 1] [payments made before: 14]
   op 23: WAIT sem=arg4[3, 0] src=arg0@k0_off4 256#32:S88x512 dst=arg2@k0_off3 0#32 256#32:S88x512 [payments made before: 15]
   op 24: COPY src=arg2@k0_off9 0#32:S88x512 dst=arg1@k0_off9 0#32:S88x512 sem=arg5[3] [payments made before: 15] -/
  rw [show payL.drop 14 = (tgt 1, rcvJ 1 1) :: payL.drop 15 from rfl, Ol_cons,
    show payTally c (tgt 1, rcvJ 1 1) = tallyAt (cell (peer 1 c) (rcvJ 1 1)) () (credS 88) from rfl]
  iintro ⟨⟨#HR, #HL, HO, Hs, Hland, Hts, Htr, Hc, Hat, Ho, Ht⟩, Hk⟩
  ihave #HIs11 := (rec_inv m K c (sndJ 1 1)) $$ HR
  ihave #HIr11 := (rec_inv m K (peer 1 c) (rcvJ 1 1)) $$ HR
  ihave #Hrs11 := (rec_reached m K c (sndJ 1 1)) $$ HR
  ihave #Hrr11 := (rec_reached m K (peer 1 c) (rcvJ 1 1)) $$ HR
  iapply (send_stage m K c (p := peer 1 c) 1 1 (by decide) (dev15_eq c) rfl (sf := 1) (sh := 0) (δ := 0) (a := lo 1 0 c) rfl rfl 88 (q := fullShare.right) (off3_lo_m1_0 c) (off3_lo_up_1 c) rfl rfl rfl rfl rfl W (Ol (payL.drop 15) c)) $$ [Hs Hland HO Hts Htr]
  · isplitr; · iexact HIs11
    isplitr; · iexact HIr11
    isplitl [Hs]; · iexact Hs
    isplitl [Hland]; · iexact Hland
    isplitl [HO]; · iexact HO
    isplitl [Hts]; · iexact Hts
    isplitr; · iexact Hrs11
    isplitl [Htr]; · iexact Htr
    iexact Hrr11
  iintro ⟨Hcs, HO⟩
  ihave #HIw30 := (rec_inv m K c (rcvJ 3 0)) $$ HR
  ihave #Hmw30 := (mayWait_of (F := F) c (rcvJ 3 0) (payL.drop 15) (by decide)) $$ HL
  iapply (wp_wait_rcv m K c 3 0 rfl rfl W (Ol (payL.drop 15) c)) $$ [Hc HO Hat]
  · isplitr; · iexact HIw30
    isplitl [Hc]; · iexact Hc
    isplitl [HO]; · iexact HO
    isplitr; · iexact Hmw30
    iexact Hat
  iintro ⟨HO, Hz, Hpay⟩
  ihave ⟨Hl, Hr⟩ := (deal_d_at m c 3 (Or.inr rfl) 0 0 rfl).mp $$ Hpay
  ihave #HIc3 := (rec_inv m K c (cpJ 3)) $$ HR
  ihave #Hrc3 := (rec_reached m K c (cpJ 3)) $$ HR
  iapply (copy_stage m K c 3 (by decide) (sf := 3) (sh := 0) rfl 88 (q := fullShare.left) (off9_lo_0 c) (off9_lo_0 c) rfl rfl rfl rfl (m ((c : Thread nD τ).loc main_v1))) $$ [Hl Ho Ht]
  · isplitr; · iexact HIc3
    isplitl [Hl]; · iexact Hl
    isplitl [Ho]; · iexact Ho
    isplitl [Ht]; · iexact Ht
    iexact Hrc3
  iintro Hcc
  rw [wp_ret]; imodintro; iapply Hk
  isplitl [HO]; · iexact HO
  isplitl [Hcs]; · iexact Hcs
  isplitl [Hz]; · iexact Hz
  isplitl [Hr]; · iexact Hr
  iexact Hcc

set_option maxHeartbeats 1600000 in
/-- Part 15 of the body. -/
theorem part15_spec (K : Dev nD × Fin 93 → ℕ) (c : Dev nD) (W : Waits sig Unit) (v2 : BitVec 32) (v5 : BitVec 32) (v32 : BitVec 32) (v34 : BitVec 32) (v40 : BitVec 32) (v197 : BitVec 32) (v455 : BitVec 32) (v457 : BitVec 32) (Kt : (BitVec 32) → sProp 𝕄) :
    iprop((records m K
        ∗ owes (c : Thread nD τ) (Ol (payL.drop 15) c) W
        ∗ sPts c (lo 3 0 c) 88 fullShare.right (Gd m (org 3 0 c))
        ∗ landPay (F := F) (peer 0 c) (3, 1)
        ∗ dutyTok ER (cell c (sndJ 3 1)) 0 0
        ∗ dutyTok ER (cell (peer 0 c) (rcvJ 3 1)) 0 0)
      ∗ (∀ r, (owes (c : Thread nD τ) (Ol (payL.drop 16) c) W
          ∗ cred (tallyAt (cell c (sndJ 3 1)) () (credS 88))) -∗ Kt r))
      ⊢ wp frame (wpE (defs₀ (F := F)) 𝒱₀ (c : Thread nD τ) none) Set.univ
          (k0_part15 (Memref.whole cc0_stg0_0) (Memref.isWhole_whole _) (Memref.whole main_v1) (Memref.isWhole_whole _) (Memref.whole cc0_scratch0) (Memref.isWhole_whole _) cc0_scratch1 cc0_scratch2 cc0_scratch3 c v2 v5 v32 v34 v40 v197 v455 v457) Kt := by
  rw [k0_part15_eq_skeleton]; unfold k0_part15_skel
  simp only [Prog.lift, Prog.bind_op, Prog.bind_ret, Prog.pure_eq_ret, semSignalWord, semWaitWord]
  /- operations, in order:
   op 25: SEND src=arg2@k0_off3 1#32 256#32:S88x512 dev=k0_dev16 dst=arg2@k0_off3 1#32 256#32:S88x512 sS=arg3[3, 1] sR=arg4[3, 1] [payments made before: 15] -/
  rw [show payL.drop 15 = (tgt 3, rcvJ 3 1) :: payL.drop 16 from rfl, Ol_cons,
    show payTally c (tgt 3, rcvJ 3 1) = tallyAt (cell (peer 0 c) (rcvJ 3 1)) () (credS 88) from rfl]
  iintro ⟨⟨#HR, HO, Hs, Hland, Hts, Htr⟩, Hk⟩
  ihave #HIs31 := (rec_inv m K c (sndJ 3 1)) $$ HR
  ihave #HIr31 := (rec_inv m K (peer 0 c) (rcvJ 3 1)) $$ HR
  ihave #Hrs31 := (rec_reached m K c (sndJ 3 1)) $$ HR
  ihave #Hrr31 := (rec_reached m K (peer 0 c) (rcvJ 3 1)) $$ HR
  iapply (send_stage m K c (p := peer 0 c) 3 1 (by decide) (dev16_eq c) rfl (sf := 3) (sh := 0) (δ := 0) (a := lo 3 0 c) rfl rfl 88 (q := fullShare.right) (off3_lo_1_256 c) (off3_lo_dn_1 c) rfl rfl rfl rfl rfl W (Ol (payL.drop 16) c)) $$ [Hs Hland HO Hts Htr]
  · isplitr; · iexact HIs31
    isplitr; · iexact HIr31
    isplitl [Hs]; · iexact Hs
    isplitl [Hland]; · iexact Hland
    isplitl [HO]; · iexact HO
    isplitl [Hts]; · iexact Hts
    isplitr; · iexact Hrs31
    isplitl [Htr]; · iexact Htr
    iexact Hrr31
  iintro ⟨Hcs, HO⟩
  rw [wp_ret]; imodintro; iapply Hk
  isplitl [HO]; · iexact HO
  iexact Hcs

set_option maxHeartbeats 1600000 in
/-- Part 16 of the body. -/
theorem part16_spec (K : Dev nD × Fin 93 → ℕ) (c : Dev nD) (W : Waits sig Unit) (v2 : BitVec 32) (v5 : BitVec 32) (v8 : BitVec 32) (v9 : BitVec 32) (v10 : BitVec 32) (v38 : BitVec 32) (v197 : BitVec 32) (v492 : BitVec 32) (Kt : (Σ' (v520 : BitVec 32), BitVec 32) → sProp 𝕄) :
    iprop((records m K
        ∗ levAts L lv
        ∗ owes (c : Thread nD τ) (Ol (payL.drop 16) c) W
        ∗ cred (tallyAt (cell c (rcvJ 6 0)) () (credS 256))
        ∗ atPos ER (cell c (rcvJ 6 0)) 0 ∅ 0
        ∗ oPts c (lo 6 0 c) 256 fullShare (m ((c : Thread nD τ).loc main_v1))
        ∗ dutyTok ER (cell c (cpJ 4)) 0 0)
      ∗ (∀ r, (owes (c : Thread nD τ) (Ol (payL.drop 16) c) (insert (csem (rcvJ 6 0), ()) W)
          ∗ semVal (cell c (rcvJ 6 0)) 0
          ∗ sPts c (lo 6 0 c) 88 fullShare.right (Gd m (org 6 0 c))
          ∗ sPts c (lo 6 0 c + 88) 168 fullShare.right (Gd m (org 6 0 c))
          ∗ cred (tallyAt (cell c (cpJ 4)) () (credO 256))) -∗ Kt r))
      ⊢ wp frame (wpE (defs₀ (F := F)) 𝒱₀ (c : Thread nD τ) none) Set.univ
          (k0_part16 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v38 v197 v492) Kt := by
  rw [k0_part16_eq_skeleton]; unfold k0_part16_skel
  simp only [Prog.lift, Prog.bind_op, Prog.bind_ret, Prog.pure_eq_ret, semSignalWord, semWaitWord]
  /- operations, in order:
   op 26: WAIT sem=arg4[6, 0] src=arg2@k0_off6 0#32:S256x512 dst=arg2@k0_off6 0#32:S256x512 [payments made before: 16]
   op 27: COPY src=arg2@k0_off10 0#32:S256x512 dst=arg1@k0_off10 0#32:S256x512 sem=arg5[4] [payments made before: 16] -/
  iintro ⟨⟨#HR, #HL, HO, Hc, Hat, Ho, Ht⟩, Hk⟩
  ihave #HIw60 := (rec_inv m K c (rcvJ 6 0)) $$ HR
  ihave #Hmw60 := (mayWait_of (F := F) c (rcvJ 6 0) (payL.drop 16) (by decide)) $$ HL
  iapply (wp_wait_rcv m K c 6 0 rfl rfl W (Ol (payL.drop 16) c)) $$ [Hc HO Hat]
  · isplitr; · iexact HIw60
    isplitl [Hc]; · iexact Hc
    isplitl [HO]; · iexact HO
    isplitr; · iexact Hmw60
    iexact Hat
  iintro ⟨HO, Hz, Hpay⟩
  ihave ⟨Hl, Hr1, Hr2⟩ := (deal_r_at m c 6 (Or.inr rfl) 0 0 rfl).mp $$ Hpay
  ihave #HIc4 := (rec_inv m K c (cpJ 4)) $$ HR
  ihave #Hrc4 := (rec_reached m K c (cpJ 4)) $$ HR
  iapply (copy_stage m K c 4 (by decide) (sf := 6) (sh := 0) rfl 256 (q := fullShare.left) (off10_lo_0 c) (off10_lo_0 c) rfl rfl rfl rfl (m ((c : Thread nD τ).loc main_v1))) $$ [Hl Ho Ht]
  · isplitr; · iexact HIc4
    isplitl [Hl]; · iexact Hl
    isplitl [Ho]; · iexact Ho
    isplitl [Ht]; · iexact Ht
    iexact Hrc4
  iintro Hcc
  rw [wp_ret]; imodintro; iapply Hk
  isplitl [HO]; · iexact HO
  isplitl [Hz]; · iexact Hz
  isplitl [Hr1]; · iexact Hr1
  isplitl [Hr2]; · iexact Hr2
  iexact Hcc

set_option maxHeartbeats 1600000 in
/-- Part 17 of the body. -/
theorem part17_spec (K : Dev nD × Fin 93 → ℕ) (c : Dev nD) (W : Waits sig Unit) (v5 : BitVec 32) (v8 : BitVec 32) (v9 : BitVec 32) (v34 : BitVec 32) (v36 : BitVec 32) (v209 : BitVec 32) (v520 : BitVec 32) (v521 : BitVec 32) (Kt : (PUnit) → sProp 𝕄) :
    iprop((records m K
        ∗ levAts L lv
        ∗ owes (c : Thread nD τ) (Ol (payL.drop 16) c) W
        ∗ sPts c (lo 6 0 c + 88) 168 fullShare.right (Gd m (org 6 0 c))
        ∗ landPay (F := F) (peer 2 c) (9, 0)
        ∗ dutyTok ER (cell c (sndJ 9 0)) 0 0
        ∗ dutyTok ER (cell (peer 2 c) (rcvJ 9 0)) 0 0
        ∗ cred (tallyAt (cell c (rcvJ 5 0)) () (credS 256))
        ∗ atPos ER (cell c (rcvJ 5 0)) 0 ∅ 0)
      ∗ (∀ r, (owes (c : Thread nD τ) (Ol (payL.drop 17) c) (insert (csem (rcvJ 5 0), ()) W)
          ∗ cred (tallyAt (cell c (sndJ 9 0)) () (credS 168))
          ∗ semVal (cell c (rcvJ 5 0)) 0
          ∗ sPts c (lo 5 0 c) 256 fullShare.left (Gd m (org 5 0 c))
          ∗ sPts c (lo 5 0 c) 88 fullShare.right (Gd m (org 5 0 c))
          ∗ sPts c (lo 5 0 c + 88) 168 fullShare.right (Gd m (org 5 0 c))) -∗ Kt r))
      ⊢ wp frame (wpE (defs₀ (F := F)) 𝒱₀ (c : Thread nD τ) none) Set.univ
          (k0_part17 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v36 v209 v520 v521) Kt := by
  rw [k0_part17_eq_skeleton]; unfold k0_part17_skel
  simp only [Prog.lift, Prog.bind_op, Prog.bind_ret, Prog.pure_eq_ret, semSignalWord, semWaitWord]
  /- operations, in order:
   op 28: SEND src=arg2@k0_off11 0#32:S168x512 dev=k0_dev17 dst=arg2@k0_off11 0#32:S168x512 sS=arg3[9, 0] sR=arg4[9, 0] [payments made before: 16]
   op 29: WAIT sem=arg4[5, 0] src=arg2@k0_off7 0#32:S256x512 dst=arg2@k0_off7 0#32:S256x512 [payments made before: 17] -/
  rw [show payL.drop 16 = (tgt 9, rcvJ 9 0) :: payL.drop 17 from rfl, Ol_cons,
    show payTally c (tgt 9, rcvJ 9 0) = tallyAt (cell (peer 2 c) (rcvJ 9 0)) () (credS 168) from rfl]
  iintro ⟨⟨#HR, #HL, HO, Hs, Hland, Hts, Htr, Hc, Hat⟩, Hk⟩
  ihave #HIs90 := (rec_inv m K c (sndJ 9 0)) $$ HR
  ihave #HIr90 := (rec_inv m K (peer 2 c) (rcvJ 9 0)) $$ HR
  ihave #Hrs90 := (rec_reached m K c (sndJ 9 0)) $$ HR
  ihave #Hrr90 := (rec_reached m K (peer 2 c) (rcvJ 9 0)) $$ HR
  iapply (send_stage m K c (p := peer 2 c) 9 0 (by decide) (dev17_eq c) rfl (sf := 6) (sh := 0) (δ := 88) (a := lo 6 0 c + 88) rfl rfl 168 (q := fullShare.right) (off11_lo_0 c) (off11_lo_x_0 c) rfl rfl rfl rfl rfl W (Ol (payL.drop 17) c)) $$ [Hs Hland HO Hts Htr]
  · isplitr; · iexact HIs90
    isplitr; · iexact HIr90
    isplitl [Hs]; · iexact Hs
    isplitl [Hland]; · iexact Hland
    isplitl [HO]; · iexact HO
    isplitl [Hts]; · iexact Hts
    isplitr; · iexact Hrs90
    isplitl [Htr]; · iexact Htr
    iexact Hrr90
  iintro ⟨Hcs, HO⟩
  ihave #HIw50 := (rec_inv m K c (rcvJ 5 0)) $$ HR
  ihave #Hmw50 := (mayWait_of (F := F) c (rcvJ 5 0) (payL.drop 17) (by decide)) $$ HL
  iapply (wp_wait_rcv m K c 5 0 rfl rfl W (Ol (payL.drop 17) c)) $$ [Hc HO Hat]
  · isplitr; · iexact HIw50
    isplitl [Hc]; · iexact Hc
    isplitl [HO]; · iexact HO
    isplitr; · iexact Hmw50
    iexact Hat
  iintro ⟨HO, Hz, Hpay⟩
  ihave ⟨Hl, Hr1, Hr2⟩ := (deal_r_at m c 5 (Or.inl rfl) 0 0 rfl).mp $$ Hpay
  rw [wp_ret]; imodintro; iapply Hk
  isplitl [HO]; · iexact HO
  isplitl [Hcs]; · iexact Hcs
  isplitl [Hz]; · iexact Hz
  isplitl [Hl]; · iexact Hl
  isplitl [Hr1]; · iexact Hr1
  iexact Hr2

set_option maxHeartbeats 1600000 in
/-- Part 18 of the body. -/
theorem part18_spec (K : Dev nD × Fin 93 → ℕ) (c : Dev nD) (W : Waits sig Unit) (v2 : BitVec 32) (v8 : BitVec 32) (v9 : BitVec 32) (v10 : BitVec 32) (v34 : BitVec 32) (v36 : BitVec 32) (v197 : BitVec 32) (v209 : BitVec 32) (Kt : (BitVec 32) → sProp 𝕄) :
    iprop((records m K
        ∗ owes (c : Thread nD τ) (Ol (payL.drop 17) c) W
        ∗ sPts c (lo 5 0 c) 256 fullShare.left (Gd m (org 5 0 c))
        ∗ oPts c (lo 5 0 c) 256 fullShare (m ((c : Thread nD τ).loc main_v1))
        ∗ dutyTok ER (cell c (cpJ 5)) 0 0
        ∗ sPts c (lo 5 0 c + 88) 168 fullShare.right (Gd m (org 5 0 c))
        ∗ landPay (F := F) (peer 3 c) (8, 0)
        ∗ dutyTok ER (cell c (sndJ 8 0)) 0 0
        ∗ dutyTok ER (cell (peer 3 c) (rcvJ 8 0)) 0 0)
      ∗ (∀ r, (owes (c : Thread nD τ) (Ol (payL.drop 18) c) W
          ∗ cred (tallyAt (cell c (cpJ 5)) () (credO 256))
          ∗ cred (tallyAt (cell c (sndJ 8 0)) () (credS 168))) -∗ Kt r))
      ⊢ wp frame (wpE (defs₀ (F := F)) 𝒱₀ (c : Thread nD τ) none) Set.univ
          (k0_part18 (Memref.whole cc0_stg0_0) (Memref.isWhole_whole _) (Memref.whole main_v1) (Memref.isWhole_whole _) (Memref.whole cc0_scratch0) (Memref.isWhole_whole _) cc0_scratch1 cc0_scratch2 cc0_scratch3 c v2 v8 v9 v10 v34 v36 v197 v209) Kt := by
  rw [k0_part18_eq_skeleton]; unfold k0_part18_skel
  simp only [Prog.lift, Prog.bind_op, Prog.bind_ret, Prog.pure_eq_ret, semSignalWord, semWaitWord]
  /- operations, in order:
   op 30: COPY src=arg2@k0_off12 0#32:S256x512 dst=arg1@k0_off12 0#32:S256x512 sem=arg5[5] [payments made before: 17]
   op 31: SEND src=arg2@k0_off13 0#32:S168x512 dev=k0_dev18 dst=arg2@k0_off13 0#32:S168x512 sS=arg3[8, 0] sR=arg4[8, 0] [payments made before: 17] -/
  rw [show payL.drop 17 = (tgt 8, rcvJ 8 0) :: payL.drop 18 from rfl, Ol_cons,
    show payTally c (tgt 8, rcvJ 8 0) = tallyAt (cell (peer 3 c) (rcvJ 8 0)) () (credS 168) from rfl]
  iintro ⟨⟨#HR, HO, Hl, Ho, Ht, Hs, Hland, Hts, Htr⟩, Hk⟩
  ihave #HIc5 := (rec_inv m K c (cpJ 5)) $$ HR
  ihave #Hrc5 := (rec_reached m K c (cpJ 5)) $$ HR
  iapply (copy_stage m K c 5 (by decide) (sf := 5) (sh := 0) rfl 256 (q := fullShare.left) (off12_lo_0 c) (off12_lo_0 c) rfl rfl rfl rfl (m ((c : Thread nD τ).loc main_v1))) $$ [Hl Ho Ht]
  · isplitr; · iexact HIc5
    isplitl [Hl]; · iexact Hl
    isplitl [Ho]; · iexact Ho
    isplitl [Ht]; · iexact Ht
    iexact Hrc5
  iintro Hcc
  ihave #HIs80 := (rec_inv m K c (sndJ 8 0)) $$ HR
  ihave #HIr80 := (rec_inv m K (peer 3 c) (rcvJ 8 0)) $$ HR
  ihave #Hrs80 := (rec_reached m K c (sndJ 8 0)) $$ HR
  ihave #Hrr80 := (rec_reached m K (peer 3 c) (rcvJ 8 0)) $$ HR
  iapply (send_stage m K c (p := peer 3 c) 8 0 (by decide) (dev18_eq c) rfl (sf := 5) (sh := 0) (δ := 88) (a := lo 5 0 c + 88) rfl rfl 168 (q := fullShare.right) (off13_lo_0 c) (off13_lo_y_0 c) rfl rfl rfl rfl rfl W (Ol (payL.drop 18) c)) $$ [Hs Hland HO Hts Htr]
  · isplitr; · iexact HIs80
    isplitr; · iexact HIr80
    isplitl [Hs]; · iexact Hs
    isplitl [Hland]; · iexact Hland
    isplitl [HO]; · iexact HO
    isplitl [Hts]; · iexact Hts
    isplitr; · iexact Hrs80
    isplitl [Htr]; · iexact Htr
    iexact Hrr80
  iintro ⟨Hcs, HO⟩
  rw [wp_ret]; imodintro; iapply Hk
  isplitl [HO]; · iexact HO
  isplitl [Hcc]; · iexact Hcc
  iexact Hcs

end Cert.KernelIdeal.AG

end
-- ==== Proof.PartsB2.lean ====
/-
  The body of one device, part by part (parts 19 to 24): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.XferSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 19 of the body. -/
theorem part19_spec (K : Dev nD × Fin 93 → ℕ) (c : Dev nD) (W : Waits sig Unit) (v2 : BitVec 32) (v5 : BitVec 32) (v8 : BitVec 32) (v10 : BitVec 32) (v34 : BitVec 32) (v36 : BitVec 32) (v197 : BitVec 32) (v209 : BitVec 32) (v585 : BitVec 32) (Kt : (PUnit) → sProp 𝕄) :
    iprop((records m K
        ∗ levAts L lv
        ∗ owes (c : Thread nD τ) (Ol (payL.drop 18) c) W
        ∗ cred (tallyAt (cell c (rcvJ 4 0)) () (credS 256))
        ∗ atPos ER (cell c (rcvJ 4 0)) 0 ∅ 0
        ∗ oPts c (lo 4 0 c) 256 fullShare (m ((c : Thread nD τ).loc main_v1))
        ∗ dutyTok ER (cell c (cpJ 6)) 0 0)
      ∗ (∀ r, (owes (c : Thread nD τ) (Ol (payL.drop 18) c) (insert (csem (rcvJ 4 0), ()) W)
          ∗ semVal (cell c (rcvJ 4 0)) 0
          ∗ cred (tallyAt (cell c (cpJ 6)) () (credO 256))) -∗ Kt r))
      ⊢ wp frame (wpE (defs₀ (F := F)) 𝒱₀ (c : Thread nD τ) none) Set.univ
          (k0_part19 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v34 v36 v197 v209 v585) Kt := by
  rw [k0_part19_eq_skeleton]; unfold k0_part19_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 4 0)) $$ HR
  ihave Hmw := (mayWait_of c (rcvJ 4 0) (payL.drop 18) (by decide)) $$ Hlev
  iapply (wp_wait_rcv m K c 4 0 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hs0 := (Entails.of_eq (recvPay_f4 m c 0 0 rfl)) $$ Hp
  ihave #HIc := (rec_inv m K c (cpJ 6)) $$ HR
  ihave #Hrc := (rec_reached m K c (cpJ 6)) $$ HR
  iapply (copy_stage m K c 6 (by decide) (sf := 4) (sh := 0) (nr := 256) (hcs := rfl) (ho_s := off14_lo_0 c) (ho_d := off14_lo_0 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  iexact Hcr

/-- Part 20 of the body. -/
theorem part20_spec (K : Dev nD × Fin 93 → ℕ) (c : Dev nD) (W : Waits sig Unit) (v8 : BitVec 32) (v38 : BitVec 32) (v209 : BitVec 32) (Kt : (Σ' (v639 : BitVec 32), BitVec 32) → sProp 𝕄) :
    iprop((records m K
        ∗ levAts L lv
        ∗ owes (c : Thread nD τ) (Ol (payL.drop 18) c) W
        ∗ cred (tallyAt (cell c (rcvJ 7 0)) () (credS 256))
        ∗ atPos ER (cell c (rcvJ 7 0)) 0 ∅ 0
        ∗ oPts c (lo 7 0 c) 256 fullShare (m ((c : Thread nD τ).loc main_v1))
        ∗ dutyTok ER (cell c (cpJ 7)) 0 0)
      ∗ (∀ r, (owes (c : Thread nD τ) (Ol (payL.drop 18) c) (insert (csem (rcvJ 7 0), ()) W)
          ∗ semVal (cell c (rcvJ 7 0)) 0
          ∗ cred (tallyAt (cell c (cpJ 7)) () (credO 256))) -∗ Kt r))
      ⊢ wp frame (wpE (defs₀ (F := F)) 𝒱₀ (c : Thread nD τ) none) Set.univ
          (k0_part20 (Memref.whole cc0_stg0_0) (Memref.isWhole_whole _) (Memref.whole main_v1) (Memref.isWhole_whole _) (Memref.whole cc0_scratch0) (Memref.isWhole_whole _) cc0_scratch1 cc0_scratch2 cc0_scratch3 c v8 v38 v209) Kt := by
  rw [k0_part20_eq_skeleton]; unfold k0_part20_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 7 0)) $$ HR
  ihave Hmw := (mayWait_of c (rcvJ 7 0) (payL.drop 18) (by decide)) $$ Hlev
  iapply (wp_wait_rcv m K c 7 0 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hs0 := (Entails.of_eq (recvPay_f7 m c 0 0 rfl)) $$ Hp
  ihave #HIc := (rec_inv m K c (cpJ 7)) $$ HR
  ihave #Hrc := (rec_reached m K c (cpJ 7)) $$ HR
  iapply (copy_stage m K c 7 (by decide) (sf := 7) (sh := 0) (nr := 256) (hcs := rfl) (ho_s := off15_lo_0 c) (ho_d := off15_lo_0 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  iexact Hcr

/-- Part 21 of the body. -/
theorem part21_spec (K : Dev nD × Fin 93 → ℕ) (c : Dev nD) (W : Waits sig Unit) (v2 : BitVec 32) (v5 : BitVec 32) (v8 : BitVec 32) (v21 : BitVec 32) (v34 : BitVec 32) (v639 : BitVec 32) (Kt : (Σ' (v680 : BitVec 32), BitVec 32) → sProp 𝕄) :
    iprop((records m K
        ∗ levAts L lv
        ∗ owes (c : Thread nD τ) (Ol (payL.drop 18) c) W
        ∗ cred (tallyAt (cell c (rcvJ 0 1)) () (credS 256))
        ∗ atPos ER (cell c (rcvJ 0 1)) 0 ∅ 0
        ∗ oPts c (lo 0 1 c) 256 fullShare (m ((c : Thread nD τ).loc main_v1))
        ∗ dutyTok ER (cell c (cpJ 8)) 0 0)
      ∗ (∀ r, (owes (c : Thread nD τ) (Ol (payL.drop 18) c) (insert (csem (rcvJ 0 1), ()) W)
          ∗ semVal (cell c (rcvJ 0 1)) 0
          ∗ sPts c (lo 0 1 c) 256 fullShare.right.left (Gd m (org 0 1 c))
          ∗ sPts c (lo 0 1 c) 256 fullShare.right.right.left (Gd m (org 0 1 c))
          ∗ sPts c (lo 0 1 c) 256 fullShare.right.right.right (Gd m (org 0 1 c))
          ∗ cred (tallyAt (cell c (cpJ 8)) () (credO 256))) -∗ Kt r))
      ⊢ wp frame (wpE (defs₀ (F := F)) 𝒱₀ (c : Thread nD τ) none) Set.univ
          (k0_part21 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v34 v639) Kt := by
  rw [k0_part21_eq_skeleton]; unfold k0_part21_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 0 1)) $$ HR
  ihave Hmw := (mayWait_of c (rcvJ 0 1) (payL.drop 18) (by decide)) $$ Hlev
  iapply (wp_wait_rcv m K c 0 1 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hp := (deal_q_at m c 0 (.inl rfl) 1 1 rfl).1 $$ Hp
  icases Hp with ⟨Hs0, Hs1, Hs2, Hs3⟩
  ihave #HIc := (rec_inv m K c (cpJ 8)) $$ HR
  ihave #Hrc := (rec_reached m K c (cpJ 8)) $$ HR
  iapply (copy_stage m K c 8 (by decide) (sf := 0) (sh := 1) (nr := 256) (hcs := rfl) (ho_s := off6_lo_1 c) (ho_d := off6_lo_1 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  isplitl [Hs1]; · iexact Hs1
  isplitl [Hs2]; · iexact Hs2
  isplitl [Hs3]; · iexact Hs3
  iexact Hcr

/-- Part 22 of the body. -/
theorem part22_spec (K : Dev nD × Fin 93 → ℕ) (c : Dev nD) (W : Waits sig Unit) (v2 : BitVec 32) (v5 : BitVec 32) (v8 : BitVec 32) (v9 : BitVec 32) (v21 : BitVec 32) (v34 : BitVec 32) (v639 : BitVec 32) (v680 : BitVec 32) (c2048_i32_516 : BitVec 32) (Kt : (PUnit) → sProp 𝕄) :
    iprop((records m K
        ∗ owes (c : Thread nD τ) (Ol (payL.drop 18) c) W
        ∗ sPts c (lo 0 1 c) 256 fullShare.right.left (Gd m (org 0 1 c))
        ∗ landPay (F := F) (peer 1 c) (0, 2)
        ∗ dutyTok ER (cell c (sndJ 0 2)) 0 0
        ∗ dutyTok ER (cell (peer 1 c) (rcvJ 0 2)) 0 0)
      ∗ (∀ r, (owes (c : Thread nD τ) (Ol (payL.drop 19) c) W
          ∗ cred (tallyAt (cell c (sndJ 0 2)) () (credS 256))) -∗ Kt r))
      ⊢ wp frame (wpE (defs₀ (F := F)) 𝒱₀ (c : Thread nD τ) none) Set.univ
          (k0_part22 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v21 v34 v639 v680 c2048_i32_516) Kt := by
  rw [k0_part22_eq_skeleton]; unfold k0_part22_skel
  simp only [Prog.lift, Prog.bind_op, Prog.bind_ret, Prog.pure_eq_ret, semSignalWord, semWaitWord]
  rw [show payL.drop 18 = (tgt 0, rcvJ 0 2) :: payL.drop 19 from rfl, Ol_cons]
  iintro ⟨⟨#HR, HO, Hs1, Hl1, Hts1, Htr1⟩, Hk⟩
  ihave #HIs1 := (rec_inv m K c (sndJ 0 2)) $$ HR
  ihave #HIr1 := (rec_inv m K (peer 1 c) (rcvJ 0 2)) $$ HR
  ihave #Hrs1 := (rec_reached m K c (sndJ 0 2)) $$ HR
  ihave #Hrr1 := (rec_reached m K (peer 1 c) (rcvJ 0 2)) $$ HR
  iapply (send_stage m K c 0 2 (hh := by decide) (hn := dev19_eq c) (hp := rfl) (sf := 0) (sh := 1) (δ := 0) (nr := 256)
      (hso := rfl) (ha := rfl) (ho_s := off1_lo_m2_0 c) (ho_d := off1_lo_up_2 c) (hz := rfl) (hnr := rfl) (hq := rfl)
      (hsS := by rfl) (hsR := by rfl) (W := _) (O := _)) $$ [Hs1 Hl1 HO Hts1 Htr1]
  · isplitr; · iexact HIs1
    isplitr; · iexact HIr1
    isplitl [Hs1]; · iexact Hs1
    isplitl [Hl1]; · iexact Hl1
    isplitl [HO]; · iexact HO
    isplitl [Hts1]; · iexact Hts1
    isplitr; · iexact Hrs1
    isplitl [Htr1]; · iexact Htr1
    iexact Hrr1
  iintro ⟨Hcr1, HO⟩
  rw [wp_ret]; imodintro; iapply Hk
  isplitl [HO]; · iexact HO
  iexact Hcr1

/-- Part 23 of the body. -/
theorem part23_spec (K : Dev nD × Fin 93 → ℕ) (c : Dev nD) (W : Waits sig Unit) (v2 : BitVec 32) (v5 : BitVec 32) (v8 : BitVec 32) (v10 : BitVec 32) (v32 : BitVec 32) (v34 : BitVec 32) (v639 : BitVec 32) (Kt : (PUnit) → sProp 𝕄) :
    iprop((records m K
        ∗ owes (c : Thread nD τ) (Ol (payL.drop 19) c) W
        ∗ sPts c (lo 0 1 c) 256 fullShare.right.right.left (Gd m (org 0 1 c))
        ∗ landPay (F := F) (peer 2 c) (4, 1)
        ∗ dutyTok ER (cell c (sndJ 4 1)) 0 0
        ∗ dutyTok ER (cell (peer 2 c) (rcvJ 4 1)) 0 0
        ∗ sPts c (lo 0 1 c) 256 fullShare.right.right.right (Gd m (org 0 1 c))
        ∗ landPay (F := F) (peer 3 c) (6, 1)
        ∗ dutyTok ER (cell c (sndJ 6 1)) 0 0
        ∗ dutyTok ER (cell (peer 3 c) (rcvJ 6 1)) 0 0)
      ∗ (∀ r, (owes (c : Thread nD τ) (Ol (payL.drop 21) c) W
          ∗ cred (tallyAt (cell c (sndJ 4 1)) () (credS 256))
          ∗ cred (tallyAt (cell c (sndJ 6 1)) () (credS 256))) -∗ Kt r))
      ⊢ wp frame (wpE (defs₀ (F := F)) 𝒱₀ (c : Thread nD τ) none) Set.univ
          (k0_part23 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v639) Kt := by
  rw [k0_part23_eq_skeleton]; unfold k0_part23_skel
  simp only [Prog.lift, Prog.bind_op, Prog.bind_ret, Prog.pure_eq_ret, semSignalWord, semWaitWord]
  rw [show payL.drop 19 = (tgt 4, rcvJ 4 1) :: (tgt 6, rcvJ 6 1) :: payL.drop 21 from rfl, Ol_cons, Ol_cons]
  iintro ⟨⟨#HR, HO, Hs1, Hl1, Hts1, Htr1, Hs2, Hl2, Hts2, Htr2⟩, Hk⟩
  ihave #HIs1 := (rec_inv m K c (sndJ 4 1)) $$ HR
  ihave #HIr1 := (rec_inv m K (peer 2 c) (rcvJ 4 1)) $$ HR
  ihave #Hrs1 := (rec_reached m K c (sndJ 4 1)) $$ HR
  ihave #Hrr1 := (rec_reached m K (peer 2 c) (rcvJ 4 1)) $$ HR
  iapply (send_stage m K c 4 1 (hh := by decide) (hn := dev20_eq c) (hp := rfl) (sf := 0) (sh := 1) (δ := 0) (nr := 256)
      (hso := rfl) (ha := rfl) (ho_s := off6_lo_1 c) (ho_d := off6_lo_x_1 c) (hz := rfl) (hnr := rfl) (hq := rfl)
      (hsS := by rfl) (hsR := by rfl) (W := _) (O := _)) $$ [Hs1 Hl1 HO Hts1 Htr1]
  · isplitr; · iexact HIs1
    isplitr; · iexact HIr1
    isplitl [Hs1]; · iexact Hs1
    isplitl [Hl1]; · iexact Hl1
    isplitl [HO]; · iexact HO
    isplitl [Hts1]; · iexact Hts1
    isplitr; · iexact Hrs1
    isplitl [Htr1]; · iexact Htr1
    iexact Hrr1
  iintro ⟨Hcr1, HO⟩
  ihave #HIs2 := (rec_inv m K c (sndJ 6 1)) $$ HR
  ihave #HIr2 := (rec_inv m K (peer 3 c) (rcvJ 6 1)) $$ HR
  ihave #Hrs2 := (rec_reached m K c (sndJ 6 1)) $$ HR
  ihave #Hrr2 := (rec_reached m K (peer 3 c) (rcvJ 6 1)) $$ HR
  iapply (send_stage m K c 6 1 (hh := by decide) (hn := dev21_eq c) (hp := rfl) (sf := 0) (sh := 1) (δ := 0) (nr := 256)
      (hso := rfl) (ha := rfl) (ho_s := off6_lo_1 c) (ho_d := off6_lo_y_1 c) (hz := rfl) (hnr := rfl) (hq := rfl)
      (hsS := by rfl) (hsR := by rfl) (W := _) (O := _)) $$ [Hs2 Hl2 HO Hts2 Htr2]
  · isplitr; · iexact HIs2
    isplitr; · iexact HIr2
    isplitl [Hs2]; · iexact Hs2
    isplitl [Hl2]; · iexact Hl2
    isplitl [HO]; · iexact HO
    isplitl [Hts2]; · iexact Hts2
    isplitr; · iexact Hrs2
    isplitl [Htr2]; · iexact Htr2
    iexact Hrr2
  iintro ⟨Hcr2, HO⟩
  rw [wp_ret]; imodintro; iapply Hk
  isplitl [HO]; · iexact HO
  isplitl [Hcr1]; · iexact Hcr1
  iexact Hcr2

/-- Part 24 of the body. -/
theorem part24_spec (K : Dev nD × Fin 93 → ℕ) (c : Dev nD) (W : Waits sig Unit) (v2 : BitVec 32) (v8 : BitVec 32) (v34 : BitVec 32) (v651 : BitVec 32) (Kt : (Σ' (v779 : BitVec 32), BitVec 32) → sProp 𝕄) :
    iprop((records m K
        ∗ levAts L lv
        ∗ owes (c : Thread nD τ) (Ol (payL.drop 21) c) W
        ∗ cred (tallyAt (cell c (rcvJ 2 1)) () (credS 256))
        ∗ atPos ER (cell c (rcvJ 2 1)) 0 ∅ 0
        ∗ oPts c (lo 2 1 c) 256 fullShare (m ((c : Thread nD τ).loc main_v1))
        ∗ dutyTok ER (cell c (cpJ 9)) 0 0)
      ∗ (∀ r, (owes (c : Thread nD τ) (Ol (payL.drop 21) c) (insert (csem (rcvJ 2 1), ()) W)
          ∗ semVal (cell c (rcvJ 2 1)) 0
          ∗ sPts c (lo 2 1 c) 256 fullShare.right.left (Gd m (org 2 1 c))
          ∗ sPts c (lo 2 1 c) 256 fullShare.right.right.left (Gd m (org 2 1 c))
          ∗ sPts c (lo 2 1 c) 256 fullShare.right.right.right (Gd m (org 2 1 c))
          ∗ cred (tallyAt (cell c (cpJ 9)) () (credO 256))) -∗ Kt r))
      ⊢ wp frame (wpE (defs₀ (F := F)) 𝒱₀ (c : Thread nD τ) none) Set.univ
          (k0_part24 (Memref.whole cc0_stg0_0) (Memref.isWhole_whole _) (Memref.whole main_v1) (Memref.isWhole_whole _) (Memref.whole cc0_scratch0) (Memref.isWhole_whole _) cc0_scratch1 cc0_scratch2 cc0_scratch3 c v2 v8 v34 v651) Kt := by
  rw [k0_part24_eq_skeleton]; unfold k0_part24_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 2 1)) $$ HR
  ihave Hmw := (mayWait_of c (rcvJ 2 1) (payL.drop 21) (by decide)) $$ Hlev
  iapply (wp_wait_rcv m K c 2 1 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hp := (deal_q_at m c 2 (.inr rfl) 1 1 rfl).1 $$ Hp
  icases Hp with ⟨Hs0, Hs1, Hs2, Hs3⟩
  ihave #HIc := (rec_inv m K c (cpJ 9)) $$ HR
  ihave #Hrc := (rec_reached m K c (cpJ 9)) $$ HR
  iapply (copy_stage m K c 9 (by decide) (sf := 2) (sh := 1) (nr := 256) (hcs := rfl) (ho_s := off7_lo_1 c) (ho_d := off7_lo_1 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  isplitl [Hs1]; · iexact Hs1
  isplitl [Hs2]; · iexact Hs2
  isplitl [Hs3]; · iexact Hs3
  iexact Hcr

end Cert.KernelIdeal.AG

end
-- ==== Proof.PartsC.lean ====
/-
  The body of one device, part by part (parts 25 to 30): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.XferSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 25 of the body. -/
theorem part25_spec (K : Dev nD × Fin 93 → ℕ) (c : Dev nD) (W : Waits sig Unit) (v5 : BitVec 32) (v8 : BitVec 32) (v9 : BitVec 32) (v32 : BitVec 32) (v34 : BitVec 32) (v651 : BitVec 32) (v779 : BitVec 32) (c4_i32_596 : BitVec 32) (Kt : (BitVec 32) → sProp 𝕄) :
    iprop((records m K
        ∗ owes (c : Thread nD τ) (Ol (payL.drop 21) c) W
        ∗ sPts c (lo 2 1 c) 256 fullShare.right.left (Gd m (org 2 1 c))
        ∗ landPay (F := F) (peer 0 c) (2, 2)
        ∗ dutyTok ER (cell c (sndJ 2 2)) 0 0
        ∗ dutyTok ER (cell (peer 0 c) (rcvJ 2 2)) 0 0
        ∗ sPts c (lo 2 1 c) 256 fullShare.right.right.left (Gd m (org 2 1 c))
        ∗ landPay (F := F) (peer 2 c) (5, 1)
        ∗ dutyTok ER (cell c (sndJ 5 1)) 0 0
        ∗ dutyTok ER (cell (peer 2 c) (rcvJ 5 1)) 0 0)
      ∗ (∀ r, (owes (c : Thread nD τ) (Ol (payL.drop 23) c) W
          ∗ cred (tallyAt (cell c (sndJ 2 2)) () (credS 256))
          ∗ cred (tallyAt (cell c (sndJ 5 1)) () (credS 256))) -∗ Kt r))
      ⊢ wp frame (wpE (defs₀ (F := F)) 𝒱₀ (c : Thread nD τ) none) Set.univ
          (k0_part25 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v32 v34 v651 v779 c4_i32_596) Kt := by
  rw [k0_part25_eq_skeleton]; unfold k0_part25_skel
  simp only [Prog.lift, Prog.bind_op, Prog.bind_ret, Prog.pure_eq_ret, semSignalWord, semWaitWord]
  rw [show payL.drop 21 = (tgt 2, rcvJ 2 2) :: (tgt 5, rcvJ 5 1) :: payL.drop 23 from rfl, Ol_cons, Ol_cons]
  iintro ⟨⟨#HR, HO, Hs, Hl, Hts, Htr, Hs', Hl', Hts', Htr'⟩, Hk⟩
  ihave #HIs := (rec_inv m K c (sndJ 2 2)) $$ HR
  ihave #HIr := (rec_inv m K (peer 0 c) (rcvJ 2 2)) $$ HR
  ihave #HRs := (rec_reached m K c (sndJ 2 2)) $$ HR
  ihave #HRr := (rec_reached m K (peer 0 c) (rcvJ 2 2)) $$ HR
  ihave #HIs' := (rec_inv m K c (sndJ 5 1)) $$ HR
  ihave #HIr' := (rec_inv m K (peer 2 c) (rcvJ 5 1)) $$ HR
  ihave #HRs' := (rec_reached m K c (sndJ 5 1)) $$ HR
  ihave #HRr' := (rec_reached m K (peer 2 c) (rcvJ 5 1)) $$ HR
  -- the third piece down the ring, read from the second piece landed
  iapply (send_stage m K c (f := 2) (h := 2) (hh := by decide) (hn := dev22_eq c) (hp := rfl)
      (sf := 2) (sh := 1) (δ := 0) (a := lo 2 1 c) (hso := rfl) (ha := rfl) (nr := 256)
      (ho_s := off1_lo_2_256 c) (ho_d := off1_lo_dn_2 c) (hz := rfl) (hnr := rfl) (hq := rfl) (hsS := rfl) (hsR := rfl)
      (W := W) (O := Ol (payL.drop 23) c + payTally c (tgt 5, rcvJ 5 1))) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  -- the second piece to the other x, read from the same landed piece
  iapply (send_stage m K c (f := 5) (h := 1) (hh := by decide) (hn := dev23_eq c) (hp := rfl)
      (sf := 2) (sh := 1) (δ := 0) (a := lo 2 1 c) (hso := rfl) (ha := rfl) (nr := 256)
      (ho_s := off7_lo_1 c) (ho_d := off7_lo_x_1 c) (hz := rfl) (hnr := rfl) (hq := rfl) (hsS := rfl) (hsR := rfl)
      (W := W) (O := Ol (payL.drop 23) c)) $$ [HO Hs' Hl' Hts' Htr']
  · isplitr; · iexact HIs'
    isplitr; · iexact HIr'
    isplitl [Hs']; · iexact Hs'
    isplitl [Hl']; · iexact Hl'
    isplitl [HO]; · iexact HO
    isplitl [Hts']; · iexact Hts'
    isplitr; · iexact HRs'
    isplitl [Htr']; · iexact Htr'
    iexact HRr'
  iintro ⟨Hcs', HO⟩
  rw [wp_ret]; imodintro
  iapply Hk
  isplitl [HO]; · iexact HO
  isplitl [Hcs]; · iexact Hcs
  iexact Hcs'

/-- Part 26 of the body. -/
theorem part26_spec (K : Dev nD × Fin 93 → ℕ) (c : Dev nD) (W : Waits sig Unit) (v2 : BitVec 32) (v5 : BitVec 32) (v8 : BitVec 32) (v10 : BitVec 32) (v21 : BitVec 32) (v34 : BitVec 32) (v40 : BitVec 32) (v639 : BitVec 32) (v814 : BitVec 32) (Kt : (PUnit) → sProp 𝕄) :
    iprop((records m K
        ∗ levAts L lv
        ∗ owes (c : Thread nD τ) (Ol (payL.drop 23) c) W
        ∗ sPts c (lo 2 1 c) 256 fullShare.right.right.right (Gd m (org 2 1 c))
        ∗ landPay (F := F) (peer 3 c) (7, 1)
        ∗ dutyTok ER (cell c (sndJ 7 1)) 0 0
        ∗ dutyTok ER (cell (peer 3 c) (rcvJ 7 1)) 0 0
        ∗ cred (tallyAt (cell c (rcvJ 1 1)) () (credS 88))
        ∗ atPos ER (cell c (rcvJ 1 1)) 0 ∅ 0)
      ∗ (∀ r, (owes (c : Thread nD τ) (Ol (payL.drop 24) c) (insert (csem (rcvJ 1 1), ()) W)
          ∗ cred (tallyAt (cell c (sndJ 7 1)) () (credS 256))
          ∗ semVal (cell c (rcvJ 1 1)) 0
          ∗ sPts c (lo 1 1 c) 88 fullShare.left (Gd m (org 1 1 c))
          ∗ sPts c (lo 1 1 c) 88 fullShare.right (Gd m (org 1 1 c))) -∗ Kt r))
      ⊢ wp frame (wpE (defs₀ (F := F)) 𝒱₀ (c : Thread nD τ) none) Set.univ
          (k0_part26 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v21 v34 v40 v639 v814) Kt := by
  rw [k0_part26_eq_skeleton]; unfold k0_part26_skel
  simp only [Prog.lift, Prog.bind_op, Prog.bind_ret, Prog.pure_eq_ret, semSignalWord, semWaitWord]
  rw [show payL.drop 23 = (tgt 7, rcvJ 7 1) :: payL.drop 24 from rfl, Ol_cons]
  iintro ⟨⟨#HR, #Hlev, HO, Hs, Hl, Hts, Htr, Hc, Hat⟩, Hk⟩
  ihave #HIs := (rec_inv m K c (sndJ 7 1)) $$ HR
  ihave #HIr := (rec_inv m K (peer 3 c) (rcvJ 7 1)) $$ HR
  ihave #HRs := (rec_reached m K c (sndJ 7 1)) $$ HR
  ihave #HRr := (rec_reached m K (peer 3 c) (rcvJ 7 1)) $$ HR
  ihave #HIw := (rec_inv m K c (rcvJ 1 1)) $$ HR
  -- the second piece to the other y, read from the second piece landed from above
  iapply (send_stage m K c (f := 7) (h := 1) (hh := by decide) (hn := dev24_eq c) (hp := rfl)
      (sf := 2) (sh := 1) (δ := 0) (a := lo 2 1 c) (hso := rfl) (ha := rfl) (nr := 256)
      (ho_s := off7_lo_1 c) (ho_d := off7_lo_y_1 c) (hz := rfl) (hnr := rfl) (hq := rfl) (hsS := rfl) (hsR := rfl)
      (W := W) (O := Ol (payL.drop 24) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  -- the arrival of the second diagonal piece from below
  iapply (wp_wait_rcv m K c 1 1 rfl rfl W (Ol (payL.drop 24) c)) $$ [Hc HO Hat]
  · isplitr; · iexact HIw
    isplitl [Hc]; · iexact Hc
    isplitl [HO]; · iexact HO
    isplitr; · iapply (mayWait_of c (rcvJ 1 1) (payL.drop 24) (by decide)); iexact Hlev
    iexact Hat
  iintro ⟨HO, Hz, Hp⟩
  ihave Hd := (deal_d_at m c 1 (Or.inl rfl) 1 1 rfl).1 $$ Hp
  icases Hd with ⟨Hdl, Hdr⟩
  rw [wp_ret]; imodintro
  iapply Hk
  isplitl [HO]; · iexact HO
  isplitl [Hcs]; · iexact Hcs
  isplitl [Hz]; · iexact Hz
  isplitl [Hdl]; · iexact Hdl
  iexact Hdr

/-- Part 27 of the body. -/
theorem part27_spec (K : Dev nD × Fin 93 → ℕ) (c : Dev nD) (W : Waits sig Unit) (v2 : BitVec 32) (v5 : BitVec 32) (v8 : BitVec 32) (v21 : BitVec 32) (v40 : BitVec 32) (Kt : (PUnit) → sProp 𝕄) :
    iprop((records m K
        ∗ owes (c : Thread nD τ) (Ol (payL.drop 24) c) W
        ∗ sPts c (lo 1 1 c) 88 fullShare.left (Gd m (org 1 1 c))
        ∗ oPts c (lo 1 1 c) 88 fullShare (m ((c : Thread nD τ).loc main_v1))
        ∗ dutyTok ER (cell c (cpJ 10)) 0 0
        ∗ sPts c (lo 1 1 c) 88 fullShare.right (Gd m (org 1 1 c))
        ∗ landPay (F := F) (peer 1 c) (1, 2)
        ∗ dutyTok ER (cell c (sndJ 1 2)) 0 0
        ∗ dutyTok ER (cell (peer 1 c) (rcvJ 1 2)) 0 0)
      ∗ (∀ r, (owes (c : Thread nD τ) (Ol (payL.drop 25) c) W
          ∗ cred (tallyAt (cell c (cpJ 10)) () (credO 88))
          ∗ cred (tallyAt (cell c (sndJ 1 2)) () (credS 88))) -∗ Kt r))
      ⊢ wp frame (wpE (defs₀ (F := F)) 𝒱₀ (c : Thread nD τ) none) Set.univ
          (k0_part27 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v40) Kt := by
  rw [k0_part27_eq_skeleton]; unfold k0_part27_skel
  simp only [Prog.lift, Prog.bind_op, Prog.bind_ret, Prog.pure_eq_ret, semSignalWord, semWaitWord]
  rw [show payL.drop 24 = (tgt 1, rcvJ 1 2) :: payL.drop 25 from rfl, Ol_cons]
  iintro ⟨⟨#HR, HO, Hsc, Ho, Ht, Hs, Hl, Hts, Htr⟩, Hk⟩
  ihave #HIc := (rec_inv m K c (cpJ 10)) $$ HR
  ihave #HRc := (rec_reached m K c (cpJ 10)) $$ HR
  ihave #HIs := (rec_inv m K c (sndJ 1 2)) $$ HR
  ihave #HIr := (rec_inv m K (peer 1 c) (rcvJ 1 2)) $$ HR
  ihave #HRs := (rec_reached m K c (sndJ 1 2)) $$ HR
  ihave #HRr := (rec_reached m K (peer 1 c) (rcvJ 1 2)) $$ HR
  -- the landed diagonal piece into the result
  iapply (copy_stage m K c (i := 10) (hi := by decide) (sf := 1) (sh := 1) (hcs := rfl) (nr := 88)
      (ho_s := off8_lo_1 c) (ho_d := off8_lo_1 c) (hz := rfl) (hnr := rfl) (hq := rfl) (hs := rfl)
      (V := m ((c : Thread nD τ).loc main_v1))) $$ [Hsc Ho Ht]
  · isplitr; · iexact HIc
    isplitl [Hsc]; · iexact Hsc
    isplitl [Ho]; · iexact Ho
    isplitl [Ht]; · iexact Ht
    iexact HRc
  iintro Hcc
  -- and on up the ring
  iapply (send_stage m K c (f := 1) (h := 2) (hh := by decide) (hn := dev25_eq c) (hp := rfl)
      (sf := 1) (sh := 1) (δ := 0) (a := lo 1 1 c) (hso := rfl) (ha := rfl) (nr := 88)
      (ho_s := off3_lo_m2_0 c) (ho_d := off3_lo_up_2 c) (hz := rfl) (hnr := rfl) (hq := rfl) (hsS := rfl) (hsR := rfl)
      (W := W) (O := Ol (payL.drop 25) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  rw [wp_ret]; imodintro
  iapply Hk
  isplitl [HO]; · iexact HO
  isplitl [Hcc]; · iexact Hcc
  iexact Hcs

/-- Part 28 of the body. -/
theorem part28_spec (K : Dev nD × Fin 93 → ℕ) (c : Dev nD) (W : Waits sig Unit) (v2 : BitVec 32) (v5 : BitVec 32) (v8 : BitVec 32) (v32 : BitVec 32) (v40 : BitVec 32) (v651 : BitVec 32) (Kt : (BitVec 32) → sProp 𝕄) :
    iprop((records m K
        ∗ levAts L lv
        ∗ owes (c : Thread nD τ) (Ol (payL.drop 25) c) W
        ∗ cred (tallyAt (cell c (rcvJ 3 1)) () (credS 88))
        ∗ atPos ER (cell c (rcvJ 3 1)) 0 ∅ 0
        ∗ oPts c (lo 3 1 c) 88 fullShare (m ((c : Thread nD τ).loc main_v1))
        ∗ dutyTok ER (cell c (cpJ 11)) 0 0)
      ∗ (∀ r, (owes (c : Thread nD τ) (Ol (payL.drop 25) c) (insert (csem (rcvJ 3 1), ()) W)
          ∗ semVal (cell c (rcvJ 3 1)) 0
          ∗ sPts c (lo 3 1 c) 88 fullShare.right (Gd m (org 3 1 c))
          ∗ cred (tallyAt (cell c (cpJ 11)) () (credO 88))) -∗ Kt r))
      ⊢ wp frame (wpE (defs₀ (F := F)) 𝒱₀ (c : Thread nD τ) none) Set.univ
          (k0_part28 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v40 v651) Kt := by
  rw [k0_part28_eq_skeleton]; unfold k0_part28_skel
  simp only [Prog.lift, Prog.bind_op, Prog.bind_ret, Prog.pure_eq_ret, semSignalWord, semWaitWord]
  iintro ⟨⟨#HR, #Hlev, HO, Hc, Hat, Ho, Ht⟩, Hk⟩
  ihave #HIw := (rec_inv m K c (rcvJ 3 1)) $$ HR
  ihave #HIc := (rec_inv m K c (cpJ 11)) $$ HR
  ihave #HRc := (rec_reached m K c (cpJ 11)) $$ HR
  -- the arrival of the second diagonal piece from above
  iapply (wp_wait_rcv m K c 3 1 rfl rfl W (Ol (payL.drop 25) c)) $$ [Hc HO Hat]
  · isplitr; · iexact HIw
    isplitl [Hc]; · iexact Hc
    isplitl [HO]; · iexact HO
    isplitr; · iapply (mayWait_of c (rcvJ 3 1) (payL.drop 25) (by decide)); iexact Hlev
    iexact Hat
  iintro ⟨HO, Hz, Hp⟩
  ihave Hd := (deal_d_at m c 3 (Or.inr rfl) 1 1 rfl).1 $$ Hp
  icases Hd with ⟨Hdl, Hdr⟩
  -- into the result
  iapply (copy_stage m K c (i := 11) (hi := by decide) (sf := 3) (sh := 1) (hcs := rfl) (nr := 88)
      (ho_s := off9_lo_1 c) (ho_d := off9_lo_1 c) (hz := rfl) (hnr := rfl) (hq := rfl) (hs := rfl)
      (V := m ((c : Thread nD τ).loc main_v1))) $$ [Hdl Ho Ht]
  · isplitr; · iexact HIc
    isplitl [Hdl]; · iexact Hdl
    isplitl [Ho]; · iexact Ho
    isplitl [Ht]; · iexact Ht
    iexact HRc
  iintro Hcc
  rw [wp_ret]; imodintro
  iapply Hk
  isplitl [HO]; · iexact HO
  isplitl [Hz]; · iexact Hz
  isplitl [Hdr]; · iexact Hdr
  iexact Hcc

/-- Part 29 of the body. -/
theorem part29_spec (K : Dev nD × Fin 93 → ℕ) (c : Dev nD) (W : Waits sig Unit) (v2 : BitVec 32) (v5 : BitVec 32) (v8 : BitVec 32) (v10 : BitVec 32) (v32 : BitVec 32) (v34 : BitVec 32) (v40 : BitVec 32) (v639 : BitVec 32) (v907 : BitVec 32) (Kt : (PUnit) → sProp 𝕄) :
    iprop((records m K
        ∗ owes (c : Thread nD τ) (Ol (payL.drop 25) c) W
        ∗ sPts c (lo 3 1 c) 88 fullShare.right (Gd m (org 3 1 c))
        ∗ landPay (F := F) (peer 0 c) (3, 2)
        ∗ dutyTok ER (cell c (sndJ 3 2)) 0 0
        ∗ dutyTok ER (cell (peer 0 c) (rcvJ 3 2)) 0 0)
      ∗ (∀ r, (owes (c : Thread nD τ) (Ol (payL.drop 26) c) W
          ∗ cred (tallyAt (cell c (sndJ 3 2)) () (credS 88))) -∗ Kt r))
      ⊢ wp frame (wpE (defs₀ (F := F)) 𝒱₀ (c : Thread nD τ) none) Set.univ
          (k0_part29 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v40 v639 v907) Kt := by
  rw [k0_part29_eq_skeleton]; unfold k0_part29_skel
  simp only [Prog.lift, Prog.bind_op, Prog.bind_ret, Prog.pure_eq_ret, semSignalWord, semWaitWord]
  rw [show payL.drop 25 = (tgt 3, rcvJ 3 2) :: payL.drop 26 from rfl, Ol_cons]
  iintro ⟨⟨#HR, HO, Hs, Hl, Hts, Htr⟩, Hk⟩
  ihave #HIs := (rec_inv m K c (sndJ 3 2)) $$ HR
  ihave #HIr := (rec_inv m K (peer 0 c) (rcvJ 3 2)) $$ HR
  ihave #HRs := (rec_reached m K c (sndJ 3 2)) $$ HR
  ihave #HRr := (rec_reached m K (peer 0 c) (rcvJ 3 2)) $$ HR
  -- the diagonal piece on down the ring
  iapply (send_stage m K c (f := 3) (h := 2) (hh := by decide) (hn := dev26_eq c) (hp := rfl)
      (sf := 3) (sh := 1) (δ := 0) (a := lo 3 1 c) (hso := rfl) (ha := rfl) (nr := 88)
      (ho_s := off3_lo_2_256 c) (ho_d := off3_lo_dn_2 c) (hz := rfl) (hnr := rfl) (hq := rfl) (hsS := rfl) (hsR := rfl)
      (W := W) (O := Ol (payL.drop 26) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  rw [wp_ret]; imodintro
  iapply Hk
  isplitl [HO]; · iexact HO
  iexact Hcs

/-- Part 30 of the body. -/
theorem part30_spec (K : Dev nD × Fin 93 → ℕ) (c : Dev nD) (W : Waits sig Unit) (v5 : BitVec 32) (v8 : BitVec 32) (v9 : BitVec 32) (v34 : BitVec 32) (v38 : BitVec 32) (v639 : BitVec 32) (v651 : BitVec 32) (Kt : (BitVec 32) → sProp 𝕄) :
    iprop((records m K
        ∗ levAts L lv
        ∗ owes (c : Thread nD τ) (Ol (payL.drop 26) c) W
        ∗ cred (tallyAt (cell c (rcvJ 6 1)) () (credS 256))
        ∗ atPos ER (cell c (rcvJ 6 1)) 0 ∅ 0
        ∗ oPts c (lo 6 1 c) 256 fullShare (m ((c : Thread nD τ).loc main_v1))
        ∗ dutyTok ER (cell c (cpJ 12)) 0 0
        ∗ landPay (F := F) (peer 2 c) (9, 1)
        ∗ dutyTok ER (cell c (sndJ 9 1)) 0 0
        ∗ dutyTok ER (cell (peer 2 c) (rcvJ 9 1)) 0 0)
      ∗ (∀ r, (owes (c : Thread nD τ) (Ol (payL.drop 27) c) (insert (csem (rcvJ 6 1), ()) W)
          ∗ semVal (cell c (rcvJ 6 1)) 0
          ∗ sPts c (lo 6 1 c) 88 fullShare.right (Gd m (org 6 1 c))
          ∗ cred (tallyAt (cell c (cpJ 12)) () (credO 256))
          ∗ cred (tallyAt (cell c (sndJ 9 1)) () (credS 168))) -∗ Kt r))
      ⊢ wp frame (wpE (defs₀ (F := F)) 𝒱₀ (c : Thread nD τ) none) Set.univ
          (k0_part30 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v38 v639 v651) Kt := by
  rw [k0_part30_eq_skeleton]; unfold k0_part30_skel
  simp only [Prog.lift, Prog.bind_op, Prog.bind_ret, Prog.pure_eq_ret, semSignalWord, semWaitWord]
  iintro ⟨⟨#HR, #Hlev, HO, Hc, Hat, Ho, Ht, Hl, Hts, Htr⟩, Hk⟩
  ihave #HIw := (rec_inv m K c (rcvJ 6 1)) $$ HR
  ihave #HIc := (rec_inv m K c (cpJ 12)) $$ HR
  ihave #HRc := (rec_reached m K c (cpJ 12)) $$ HR
  ihave #HIs := (rec_inv m K c (sndJ 9 1)) $$ HR
  ihave #HIr := (rec_inv m K (peer 2 c) (rcvJ 9 1)) $$ HR
  ihave #HRs := (rec_reached m K c (sndJ 9 1)) $$ HR
  ihave #HRr := (rec_reached m K (peer 2 c) (rcvJ 9 1)) $$ HR
  -- the arrival of the second piece from the other y
  iapply (wp_wait_rcv m K c 6 1 rfl rfl W (Ol (payL.drop 26) c)) $$ [Hc HO Hat]
  · isplitr; · iexact HIw
    isplitl [Hc]; · iexact Hc
    isplitl [HO]; · iexact HO
    isplitr; · iapply (mayWait_of c (rcvJ 6 1) (payL.drop 26) (by decide)); iexact Hlev
    iexact Hat
  iintro ⟨HO, Hz, Hp⟩
  ihave Hd := (deal_r_at m c 6 (Or.inr rfl) 1 1 rfl).1 $$ Hp
  icases Hd with ⟨Hdl, Hdr, Hs⟩
  -- into the result
  iapply (copy_stage m K c (i := 12) (hi := by decide) (sf := 6) (sh := 1) (hcs := rfl) (nr := 256)
      (ho_s := off10_lo_1 c) (ho_d := off10_lo_1 c) (hz := rfl) (hnr := rfl) (hq := rfl) (hs := rfl)
      (V := m ((c : Thread nD τ).loc main_v1))) $$ [Hdl Ho Ht]
  · isplitr; · iexact HIc
    isplitl [Hdl]; · iexact Hdl
    isplitl [Ho]; · iexact Ho
    isplitl [Ht]; · iexact Ht
    iexact HRc
  iintro Hcc
  -- its last rows relayed to the other x
  rw [show payL.drop 26 = (tgt 9, rcvJ 9 1) :: payL.drop 27 from rfl, Ol_cons]
  iapply (send_stage m K c (f := 9) (h := 1) (hh := by decide) (hn := dev27_eq c) (hp := rfl)
      (sf := 6) (sh := 1) (δ := 88) (a := lo 6 1 c + 88) (hso := rfl) (ha := rfl) (nr := 168)
      (ho_s := off11_lo_1 c) (ho_d := off11_lo_x_1 c) (hz := rfl) (hnr := rfl) (hq := rfl) (hsS := rfl) (hsR := rfl)
      (W := (insert (csem (rcvJ 6 1), ()) W)) (O := Ol (payL.drop 27) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  rw [wp_ret]; imodintro
  iapply Hk
  isplitl [HO]; · iexact HO
  isplitl [Hz]; · iexact Hz
  isplitl [Hdr]; · iexact Hdr
  isplitl [Hcc]; · iexact Hcc
  iexact Hcs

end Cert.KernelIdeal.AG

end
-- ==== Proof.PartsC2.lean ====
/-
  The body of one device, part by part (parts 31 to 36): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec
import proofs.«900685_g7700000000000686_dist_ag_v7x_xyz2x2x4_z_m2048_n512_f32_1_alg».proof.Proof.XferSteps

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 31 of the body. -/
theorem part31_spec (K : Dev nD × Fin 93 → ℕ) (c : Dev nD) (W : Waits sig Unit) (v5 : BitVec 32) (v8 : BitVec 32) (v9 : BitVec 32) (v34 : BitVec 32) (v36 : BitVec 32) (v651 : BitVec 32) (v975 : BitVec 32) (Kt : (PUnit) → sProp 𝕄) :
    iprop((records m K
        ∗ levAts L lv
        ∗ owes (c : Thread nD τ) (Ol (payL.drop 27) c) W
        ∗ cred (tallyAt (cell c (rcvJ 5 1)) () (credS 256))
        ∗ atPos ER (cell c (rcvJ 5 1)) 0 ∅ 0
        ∗ oPts c (lo 5 1 c) 256 fullShare (m ((c : Thread nD τ).loc main_v1))
        ∗ dutyTok ER (cell c (cpJ 13)) 0 0)
      ∗ (∀ r, (owes (c : Thread nD τ) (Ol (payL.drop 27) c) (insert (csem (rcvJ 5 1), ()) W)
          ∗ semVal (cell c (rcvJ 5 1)) 0
          ∗ sPts c (lo 5 1 c) 88 fullShare.right (Gd m (org 5 1 c))
          ∗ sPts c (lo 5 1 c + 88) 168 fullShare.right (Gd m (org 5 1 c))
          ∗ cred (tallyAt (cell c (cpJ 13)) () (credO 256))) -∗ Kt r))
      ⊢ wp frame (wpE (defs₀ (F := F)) 𝒱₀ (c : Thread nD τ) none) Set.univ
          (k0_part31 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v36 v651 v975) Kt := by
  rw [k0_part31_eq_skeleton]; unfold k0_part31_skel
  simp only [Prog.lift, Prog.bind_op, Prog.bind_ret, Prog.pure_eq_ret, semSignalWord, semWaitWord]
  /- operations, in order:
   op 55: WAIT sem=arg4[5, 1] src=arg2@k0_off7 1#32:S256x512 dst=arg2@k0_off7 1#32:S256x512 [payments made before: 27]
   op 56: COPY src=arg2@k0_off12 1#32:S256x512 dst=arg1@k0_off12 1#32:S256x512 sem=arg5[13] [payments made before: 27] -/
  iintro ⟨⟨#HR, #HL, HO, Hc, Ha, Ho, Ht⟩, Hk⟩
  ihave #HIw := (rec_inv m K c (rcvJ 5 1)) $$ HR
  ihave Hmw := (mayWait_of (F := F) c (rcvJ 5 1) (payL.drop 27) (by decide)) $$ HL
  iapply (wp_wait_rcv m K c 5 1 (by rfl) (by rfl) _ (Ol (payL.drop 27) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (deal_r_at m c 5 (Or.inl rfl) 1 1 rfl).mp $$ Hp
  icases Hp with ⟨Hp1, Hp2, Hp3⟩
  ihave #HIc13 := (rec_inv m K c (cpJ 13)) $$ HR
  ihave #HRc13 := (rec_reached m K c (cpJ 13)) $$ HR
  iapply (copy_stage m K c 13 (hi := by decide) (sf := 5) (sh := 1) (hcs := by decide) (nr := 256) (ho_s := off12_lo_1 c) (ho_d := off12_lo_1 c)
      (hz := rfl) (hnr := rfl) (hq := rfl) (hs := by rfl) (V := _)) $$ [Hp1 Ho Ht]
  · isplitr; · iexact HIc13
    isplitl [Hp1]; · iexact Hp1
    isplitl [Ho]; · iexact Ho
    isplitl [Ht]; · iexact Ht
    iexact HRc13
  iintro Hcr
  rw [wp_ret]; imodintro; iapply Hk
  isplitl [HO]; · iexact HO
  isplitl [Hv]; · iexact Hv
  isplitl [Hp2]; · iexact Hp2
  isplitl [Hp3]; · iexact Hp3
  iexact Hcr

/-- Part 32 of the body. -/
theorem part32_spec (K : Dev nD × Fin 93 → ℕ) (c : Dev nD) (W : Waits sig Unit) (v2 : BitVec 32) (v5 : BitVec 32) (v8 : BitVec 32) (v9 : BitVec 32) (v10 : BitVec 32) (v34 : BitVec 32) (v639 : BitVec 32) (Kt : (Σ' (v1037 : BitVec 32), BitVec 32) → sProp 𝕄) :
    iprop((records m K
        ∗ levAts L lv
        ∗ owes (c : Thread nD τ) (Ol (payL.drop 27) c) W
        ∗ sPts c (lo 5 1 c + 88) 168 fullShare.right (Gd m (org 5 1 c))
        ∗ landPay (F := F) (peer 3 c) (8, 1)
        ∗ dutyTok ER (cell c (sndJ 8 1)) 0 0
        ∗ dutyTok ER (cell (peer 3 c) (rcvJ 8 1)) 0 0
        ∗ cred (tallyAt (cell c (rcvJ 4 1)) () (credS 256))
        ∗ atPos ER (cell c (rcvJ 4 1)) 0 ∅ 0)
      ∗ (∀ r, (owes (c : Thread nD τ) (Ol (payL.drop 28) c) (insert (csem (rcvJ 4 1), ()) W)
          ∗ cred (tallyAt (cell c (sndJ 8 1)) () (credS 168))
          ∗ semVal (cell c (rcvJ 4 1)) 0
          ∗ sPts c (lo 4 1 c) 256 fullShare (Gd m (org 4 1 c))) -∗ Kt r))
      ⊢ wp frame (wpE (defs₀ (F := F)) 𝒱₀ (c : Thread nD τ) none) Set.univ
          (k0_part32 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v34 v639) Kt := by
  rw [k0_part32_eq_skeleton]; unfold k0_part32_skel
  simp only [Prog.lift, Prog.bind_op, Prog.bind_ret, Prog.pure_eq_ret, semSignalWord, semWaitWord]
  /- operations, in order:
   op 57: SEND src=arg2@k0_off13 1#32:S168x512 dev=k0_dev28 dst=arg2@k0_off13 1#32:S168x512 sS=arg3[8, 1] sR=arg4[8, 1] [payments made before: 27]
   op 58: WAIT sem=arg4[4, 1] src=arg2@k0_off6 1#32:S256x512 dst=arg2@k0_off6 1#32:S256x512 [payments made before: 28] -/
  have hO : Ol (payL.drop 27) c = Ol (payL.drop 28) c + tallyAt (cell (peer 3 c) (rcvJ 8 1)) () (credS 168) := by
    rw [show payL.drop 27 = (tgt 8, rcvJ 8 1) :: payL.drop 28 from rfl, Ol_cons]; rfl
  rw [hO]
  iintro ⟨⟨#HR, #HL, HO, Hs, Hland, Hts, Htr, Hc, Ha⟩, Hk⟩
  ihave #HIs := (rec_inv m K c (sndJ 8 1)) $$ HR
  ihave #HIr := (rec_inv m K (peer 3 c) (rcvJ 8 1)) $$ HR
  ihave #HRs := (rec_reached m K c (sndJ 8 1)) $$ HR
  ihave #HRr := (rec_reached m K (peer 3 c) (rcvJ 8 1)) $$ HR
  iapply (send_stage m K c 8 1 (hh := by decide) (hn := dev28_eq c) (hp := rfl) (sf := 5) (sh := 1) (δ := 88) (hso := rfl) (ha := rfl)
      (nr := 168) (ho_s := off13_lo_1 c) (ho_d := off13_lo_y_1 c) (hz := rfl) (hnr := rfl) (hq := rfl) (hsS := by rfl) (hsR := by rfl) (W := _)
      (O := Ol (payL.drop 28) c)) $$ [HO Hs Hland Hts Htr]
  · isplitr; · iexact HIs
    isplitr; · iexact HIr
    isplitl [Hs]; · iexact Hs
    isplitl [Hland]; · iexact Hland
    isplitl [HO]; · iexact HO
    isplitl [Hts]; · iexact Hts
    isplitr; · iexact HRs
    isplitl [Htr]; · iexact Htr
    iexact HRr
  iintro ⟨Hcs, HO⟩
  ihave #HIw := (rec_inv m K c (rcvJ 4 1)) $$ HR
  ihave Hmw := (mayWait_of (F := F) c (rcvJ 4 1) (payL.drop 28) (by decide)) $$ HL
  iapply (wp_wait_rcv m K c 4 1 (by rfl) (by rfl) _ (Ol (payL.drop 28) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (Entails.of_eq (recvPay_f4 m c 1 1 rfl)) $$ Hp
  rw [wp_ret]; imodintro; iapply Hk
  isplitl [HO]; · iexact HO
  isplitl [Hcs]; · iexact Hcs
  isplitl [Hv]; · iexact Hv
  iexact Hp

/-- Part 33 of the body. -/
theorem part33_spec (K : Dev nD × Fin 93 → ℕ) (c : Dev nD) (W : Waits sig Unit) (v2 : BitVec 32) (v8 : BitVec 32) (v10 : BitVec 32) (v34 : BitVec 32) (v36 : BitVec 32) (v38 : BitVec 32) (v651 : BitVec 32) (v1037 : BitVec 32) (c512_i32_798 : BitVec 32) (Kt : (PUnit) → sProp 𝕄) :
    iprop((records m K
        ∗ levAts L lv
        ∗ owes (c : Thread nD τ) (Ol (payL.drop 28) c) W
        ∗ sPts c (lo 4 1 c) 256 fullShare (Gd m (org 4 1 c))
        ∗ oPts c (lo 4 1 c) 256 fullShare (m ((c : Thread nD τ).loc main_v1))
        ∗ dutyTok ER (cell c (cpJ 14)) 0 0
        ∗ cred (tallyAt (cell c (rcvJ 7 1)) () (credS 256))
        ∗ atPos ER (cell c (rcvJ 7 1)) 0 ∅ 0
        ∗ oPts c (lo 7 1 c) 256 fullShare (m ((c : Thread nD τ).loc main_v1))
        ∗ dutyTok ER (cell c (cpJ 15)) 0 0)
      ∗ (∀ r, (owes (c : Thread nD τ) (Ol (payL.drop 28) c) (insert (csem (rcvJ 7 1), ()) W)
          ∗ cred (tallyAt (cell c (cpJ 14)) () (credO 256))
          ∗ semVal (cell c (rcvJ 7 1)) 0
          ∗ cred (tallyAt (cell c (cpJ 15)) () (credO 256))) -∗ Kt r))
      ⊢ wp frame (wpE (defs₀ (F := F)) 𝒱₀ (c : Thread nD τ) none) Set.univ
          (k0_part33 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v34 v36 v38 v651 v1037 c512_i32_798) Kt := by
  rw [k0_part33_eq_skeleton]; unfold k0_part33_skel
  simp only [Prog.lift, Prog.bind_op, Prog.bind_ret, Prog.pure_eq_ret, semSignalWord, semWaitWord]
  /- operations, in order:
   op 59: COPY src=arg2@k0_off14 1#32:S256x512 dst=arg1@k0_off14 1#32:S256x512 sem=arg5[14] [payments made before: 28]
   op 60: WAIT sem=arg4[7, 1] src=arg2@k0_off7 1#32:S256x512 dst=arg2@k0_off7 1#32:S256x512 [payments made before: 28]
   op 61: COPY src=arg2@k0_off15 1#32:S256x512 dst=arg1@k0_off15 1#32:S256x512 sem=arg5[15] [payments made before: 28] -/
  iintro ⟨⟨#HR, #HL, HO, Hs, Ho1, Ht1, Hc, Ha, Ho2, Ht2⟩, Hk⟩
  ihave #HIc14 := (rec_inv m K c (cpJ 14)) $$ HR
  ihave #HRc14 := (rec_reached m K c (cpJ 14)) $$ HR
  iapply (copy_stage m K c 14 (hi := by decide) (sf := 4) (sh := 1) (hcs := by decide) (nr := 256) (ho_s := off14_lo_1 c) (ho_d := off14_lo_1 c)
      (hz := rfl) (hnr := rfl) (hq := rfl) (hs := by rfl) (V := _)) $$ [Hs Ho1 Ht1]
  · isplitr; · iexact HIc14
    isplitl [Hs]; · iexact Hs
    isplitl [Ho1]; · iexact Ho1
    isplitl [Ht1]; · iexact Ht1
    iexact HRc14
  iintro Hcr1
  ihave #HIw := (rec_inv m K c (rcvJ 7 1)) $$ HR
  ihave Hmw := (mayWait_of (F := F) c (rcvJ 7 1) (payL.drop 28) (by decide)) $$ HL
  iapply (wp_wait_rcv m K c 7 1 (by rfl) (by rfl) _ (Ol (payL.drop 28) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (Entails.of_eq (recvPay_f7 m c 1 1 rfl)) $$ Hp
  ihave #HIc15 := (rec_inv m K c (cpJ 15)) $$ HR
  ihave #HRc15 := (rec_reached m K c (cpJ 15)) $$ HR
  iapply (copy_stage m K c 15 (hi := by decide) (sf := 7) (sh := 1) (hcs := by decide) (nr := 256) (ho_s := off15_lo_1 c) (ho_d := off15_lo_1 c)
      (hz := rfl) (hnr := rfl) (hq := rfl) (hs := by rfl) (V := _)) $$ [Hp Ho2 Ht2]
  · isplitr; · iexact HIc15
    isplitl [Hp]; · iexact Hp
    isplitl [Ho2]; · iexact Ho2
    isplitl [Ht2]; · iexact Ht2
    iexact HRc15
  iintro Hcr2
  rw [wp_ret]; imodintro; iapply Hk
  isplitl [HO]; · iexact HO
  isplitl [Hcr1]; · iexact Hcr1
  isplitl [Hv]; · iexact Hv
  iexact Hcr2

/-- Part 34 of the body. No memory operation. -/
theorem part34_spec (K : Dev nD × Fin 93 → ℕ) (c : Dev nD) (W : Waits sig Unit) (v2 : BitVec 32) (v5 : BitVec 32) (v8 : BitVec 32) (v21 : BitVec 32) (Kt : (Σ' (v1081 : BitVec 32), BitVec 32) → sProp 𝕄) :
    iprop(∀ r, Kt r)
      ⊢ wp frame (wpE (defs₀ (F := F)) 𝒱₀ (c : Thread nD τ) none) Set.univ
          (k0_part34 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21) Kt := by
  rw [k0_part34_eq_skeleton]; unfold k0_part34_skel
  simp only [Prog.lift, Prog.bind_op, Prog.bind_ret, Prog.pure_eq_ret, semSignalWord, semWaitWord]
  rw [wp_ret]
  iintro H
  imodintro
  iapply H

/-- Part 35 of the body. -/
theorem part35_spec (K : Dev nD × Fin 93 → ℕ) (c : Dev nD) (W : Waits sig Unit) (v5 : BitVec 32) (v8 : BitVec 32) (v9 : BitVec 32) (v34 : BitVec 32) (v1081 : BitVec 32) (Kt : (PUnit) → sProp 𝕄) :
    iprop((records m K
        ∗ levAts L lv
        ∗ owes (c : Thread nD τ) (Ol (payL.drop 28) c) W
        ∗ cred (tallyAt (cell c (rcvJ 0 2)) () (credS 256))
        ∗ atPos ER (cell c (rcvJ 0 2)) 0 ∅ 0
        ∗ oPts c (lo 0 2 c) 256 fullShare (m ((c : Thread nD τ).loc main_v1))
        ∗ dutyTok ER (cell c (cpJ 16)) 0 0
        ∗ landPay (F := F) (peer 2 c) (4, 2)
        ∗ dutyTok ER (cell c (sndJ 4 2)) 0 0
        ∗ dutyTok ER (cell (peer 2 c) (rcvJ 4 2)) 0 0)
      ∗ (∀ r, (owes (c : Thread nD τ) (Ol (payL.drop 29) c) (insert (csem (rcvJ 0 2), ()) W)
          ∗ semVal (cell c (rcvJ 0 2)) 0
          ∗ sPts c (lo 0 2 c) 256 fullShare.right.left (Gd m (org 0 2 c))
          ∗ sPts c (lo 0 2 c) 256 fullShare.right.right.right (Gd m (org 0 2 c))
          ∗ cred (tallyAt (cell c (cpJ 16)) () (credO 256))
          ∗ cred (tallyAt (cell c (sndJ 4 2)) () (credS 256))) -∗ Kt r))
      ⊢ wp frame (wpE (defs₀ (F := F)) 𝒱₀ (c : Thread nD τ) none) Set.univ
          (k0_part35 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v1081) Kt := by
  rw [k0_part35_eq_skeleton]; unfold k0_part35_skel
  simp only [Prog.lift, Prog.bind_op, Prog.bind_ret, Prog.pure_eq_ret, semSignalWord, semWaitWord]
  /- operations, in order:
   op 62: WAIT sem=arg4[0, 2] src=arg2@k0_off1 4294967294#32 0#32:S256x512 dst=arg2@k0_off1 4294967294#32 0#32:S256x512 [payments made before: 28]
   op 63: COPY src=arg2@k0_off6 2#32:S256x512 dst=arg1@k0_off6 2#32:S256x512 sem=arg5[16] [payments made before: 28]
   op 64: SEND src=arg2@k0_off6 2#32:S256x512 dev=k0_dev29 dst=arg2@k0_off6 2#32:S256x512 sS=arg3[4, 2] sR=arg4[4, 2] [payments made before: 28] -/
  have hO : Ol (payL.drop 28) c = Ol (payL.drop 29) c + tallyAt (cell (peer 2 c) (rcvJ 4 2)) () (credS 256) := by
    rw [show payL.drop 28 = (tgt 4, rcvJ 4 2) :: payL.drop 29 from rfl, Ol_cons]; rfl
  iintro ⟨⟨#HR, #HL, HO, Hc, Ha, Ho, Ht, Hland, Hts, Htr⟩, Hk⟩
  ihave #HIw := (rec_inv m K c (rcvJ 0 2)) $$ HR
  ihave Hmw := (mayWait_of (F := F) c (rcvJ 0 2) (payL.drop 28) (by decide)) $$ HL
  iapply (wp_wait_rcv m K c 0 2 (by rfl) (by rfl) _ (Ol (payL.drop 28) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (deal_q_at m c 0 (Or.inl rfl) 2 2 rfl).mp $$ Hp
  icases Hp with ⟨Hp1, Hp2, Hp3, Hp4⟩
  ihave #HIc16 := (rec_inv m K c (cpJ 16)) $$ HR
  ihave #HRc16 := (rec_reached m K c (cpJ 16)) $$ HR
  iapply (copy_stage m K c 16 (hi := by decide) (sf := 0) (sh := 2) (hcs := by decide) (nr := 256) (ho_s := off6_lo_2 c) (ho_d := off6_lo_2 c)
      (hz := rfl) (hnr := rfl) (hq := rfl) (hs := by rfl) (V := _)) $$ [Hp1 Ho Ht]
  · isplitr; · iexact HIc16
    isplitl [Hp1]; · iexact Hp1
    isplitl [Ho]; · iexact Ho
    isplitl [Ht]; · iexact Ht
    iexact HRc16
  iintro Hcr
  ihave HO := (Entails.of_eq (congrArg (fun O => owes (c : Thread nD τ) O (insert (csem (rcvJ 0 2), ()) W)) hO)) $$ HO
  ihave #HIs := (rec_inv m K c (sndJ 4 2)) $$ HR
  ihave #HIr := (rec_inv m K (peer 2 c) (rcvJ 4 2)) $$ HR
  ihave #HRs := (rec_reached m K c (sndJ 4 2)) $$ HR
  ihave #HRr := (rec_reached m K (peer 2 c) (rcvJ 4 2)) $$ HR
  iapply (send_stage m K c 4 2 (hh := by decide) (hn := dev29_eq c) (hp := rfl) (sf := 0) (sh := 2) (δ := 0) (hso := rfl) (ha := rfl)
      (nr := 256) (ho_s := off6_lo_2 c) (ho_d := off6_lo_x_2 c) (hz := rfl) (hnr := rfl) (hq := rfl) (hsS := by rfl) (hsR := by rfl) (W := _)
      (O := Ol (payL.drop 29) c)) $$ [HO Hp3 Hland Hts Htr]
  · isplitr; · iexact HIs
    isplitr; · iexact HIr
    isplitl [Hp3]; · iexact Hp3
    isplitl [Hland]; · iexact Hland
    isplitl [HO]; · iexact HO
    isplitl [Hts]; · iexact Hts
    isplitr; · iexact HRs
    isplitl [Htr]; · iexact Htr
    iexact HRr
  iintro ⟨Hcs, HO⟩
  rw [wp_ret]; imodintro; iapply Hk
  isplitl [HO]; · iexact HO
  isplitl [Hv]; · iexact Hv
  isplitl [Hp2]; · iexact Hp2
  isplitl [Hp4]; · iexact Hp4
  isplitl [Hcr]; · iexact Hcr
  iexact Hcs

/-- Part 36 of the body. -/
theorem part36_spec (K : Dev nD × Fin 93 → ℕ) (c : Dev nD) (W : Waits sig Unit) (v2 : BitVec 32) (v5 : BitVec 32) (v8 : BitVec 32) (v10 : BitVec 32) (v32 : BitVec 32) (v34 : BitVec 32) (v1081 : BitVec 32) (v1093 : BitVec 32) (Kt : (PUnit) → sProp 𝕄) :
    iprop((records m K
        ∗ levAts L lv
        ∗ owes (c : Thread nD τ) (Ol (payL.drop 29) c) W
        ∗ sPts c (lo 0 2 c) 256 fullShare.right.right.right (Gd m (org 0 2 c))
        ∗ landPay (F := F) (peer 3 c) (6, 2)
        ∗ dutyTok ER (cell c (sndJ 6 2)) 0 0
        ∗ dutyTok ER (cell (peer 3 c) (rcvJ 6 2)) 0 0
        ∗ cred (tallyAt (cell c (rcvJ 2 2)) () (credS 256))
        ∗ atPos ER (cell c (rcvJ 2 2)) 0 ∅ 0)
      ∗ (∀ r, (owes (c : Thread nD τ) (Ol (payL.drop 30) c) (insert (csem (rcvJ 2 2), ()) W)
          ∗ cred (tallyAt (cell c (sndJ 6 2)) () (credS 256))
          ∗ semVal (cell c (rcvJ 2 2)) 0
          ∗ sPts c (lo 2 2 c) 256 fullShare.left (Gd m (org 2 2 c))
          ∗ sPts c (lo 2 2 c) 256 fullShare.right.left (Gd m (org 2 2 c))
          ∗ sPts c (lo 2 2 c) 256 fullShare.right.right.left (Gd m (org 2 2 c))
          ∗ sPts c (lo 2 2 c) 256 fullShare.right.right.right (Gd m (org 2 2 c))) -∗ Kt r))
      ⊢ wp frame (wpE (defs₀ (F := F)) 𝒱₀ (c : Thread nD τ) none) Set.univ
          (k0_part36 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v1081 v1093) Kt := by
  rw [k0_part36_eq_skeleton]; unfold k0_part36_skel
  simp only [Prog.lift, Prog.bind_op, Prog.bind_ret, Prog.pure_eq_ret, semSignalWord, semWaitWord]
  /- operations, in order:
   op 65: SEND src=arg2@k0_off6 2#32:S256x512 dev=k0_dev30 dst=arg2@k0_off6 2#32:S256x512 sS=arg3[6, 2] sR=arg4[6, 2] [payments made before: 29]
   op 66: WAIT sem=arg4[2, 2] src=arg2@k0_off1 2#32 256#32:S256x512 dst=arg2@k0_off1 2#32 256#32:S256x512 [payments made before: 30] -/
  have hO : Ol (payL.drop 29) c = Ol (payL.drop 30) c + tallyAt (cell (peer 3 c) (rcvJ 6 2)) () (credS 256) := by
    rw [show payL.drop 29 = (tgt 6, rcvJ 6 2) :: payL.drop 30 from rfl, Ol_cons]; rfl
  rw [hO]
  iintro ⟨⟨#HR, #HL, HO, Hs, Hland, Hts, Htr, Hc, Ha⟩, Hk⟩
  ihave #HIs := (rec_inv m K c (sndJ 6 2)) $$ HR
  ihave #HIr := (rec_inv m K (peer 3 c) (rcvJ 6 2)) $$ HR
  ihave #HRs := (rec_reached m K c (sndJ 6 2)) $$ HR
  ihave #HRr := (rec_reached m K (peer 3 c) (rcvJ 6 2)) $$ HR
  iapply (send_stage m K c 6 2 (hh := by decide) (hn := dev30_eq c) (hp := rfl) (sf := 0) (sh := 2) (δ := 0) (hso := rfl) (ha := rfl)
      (nr := 256) (ho_s := off6_lo_2 c) (ho_d := off6_lo_y_2 c) (hz := rfl) (hnr := rfl) (hq := rfl) (hsS := by rfl) (hsR := by rfl) (W := _)
      (O := Ol (payL.drop 30) c)) $$ [HO Hs Hland Hts Htr]
  · isplitr; · iexact HIs
    isplitr; · iexact HIr
    isplitl [Hs]; · iexact Hs
    isplitl [Hland]; · iexact Hland
    isplitl [HO]; · iexact HO
    isplitl [Hts]; · iexact Hts
    isplitr; · iexact HRs
    isplitl [Htr]; · iexact Htr
    iexact HRr
  iintro ⟨Hcs, HO⟩
  ihave #HIw := (rec_inv m K c (rcvJ 2 2)) $$ HR
  ihave Hmw := (mayWait_of (F := F) c (rcvJ 2 2) (payL.drop 30) (by decide)) $$ HL
  iapply (wp_wait_rcv m K c 2 2 (by rfl) (by rfl) _ (Ol (payL.drop 30) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (deal_q_at m c 2 (Or.inr rfl) 2 2 rfl).mp $$ Hp
  icases Hp with ⟨Hp1, Hp2, Hp3, Hp4⟩
  rw [wp_ret]; imodintro; iapply Hk
  isplitl [HO]; · iexact HO
  isplitl [Hcs]; · iexact Hcs
  isplitl [Hv]; · iexact Hv
  isplitl [Hp1]; · iexact Hp1
  isplitl [Hp2]; · iexact Hp2
  isplitl [Hp3]; · iexact Hp3
  iexact Hp4

end Cert.KernelIdeal.AG

end
-- ==== Proof.PartsD.lean ====
/-
  The body of one device, part by part (parts 37 to 42): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.XferSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## What is still owed, payment by payment -/

private theorem Ol_d30 (c : Dev nD) :
    Ol (payL.drop 30) c = Ol (payL.drop 31) c + tallyAt (cell (peer 2 c) (rcvJ 5 2)) () (credS 256) :=
  Ol_cons (tgt 5, rcvJ 5 2) (payL.drop 31) c
private theorem Ol_d31 (c : Dev nD) :
    Ol (payL.drop 31) c = Ol (payL.drop 32) c + tallyAt (cell (peer 3 c) (rcvJ 7 2)) () (credS 256) :=
  Ol_cons (tgt 7, rcvJ 7 2) (payL.drop 32) c
private theorem Ol_d32 (c : Dev nD) :
    Ol (payL.drop 32) c = Ol (payL.drop 33) c + tallyAt (cell (peer 2 c) (rcvJ 9 2)) () (credS 168) :=
  Ol_cons (tgt 9, rcvJ 9 2) (payL.drop 33) c
private theorem Ol_d33 (c : Dev nD) :
    Ol (payL.drop 33) c = Ol (payL.drop 34) c + tallyAt (cell (peer 3 c) (rcvJ 8 2)) () (credS 168) :=
  Ol_cons (tgt 8, rcvJ 8 2) (payL.drop 34) c

/-- Part 37 of the body. -/
theorem part37_spec (K : Dev nD × Fin 93 → ℕ) (c : Dev nD) (W : Waits sig Unit) (v5 : BitVec 32) (v8 : BitVec 32) (v9 : BitVec 32) (v34 : BitVec 32) (v1093 : BitVec 32) (Kt : (PUnit) → sProp 𝕄) :
    iprop((records m K
        ∗ owes (c : Thread nD τ) (Ol (payL.drop 30) c) W
        ∗ sPts c (lo 2 2 c) 256 fullShare.left (Gd m (org 2 2 c))
        ∗ oPts c (lo 2 2 c) 256 fullShare (m ((c : Thread nD τ).loc main_v1))
        ∗ dutyTok ER (cell c (cpJ 17)) 0 0
        ∗ sPts c (lo 2 2 c) 256 fullShare.right.right.left (Gd m (org 2 2 c))
        ∗ landPay (F := F) (peer 2 c) (5, 2)
        ∗ dutyTok ER (cell c (sndJ 5 2)) 0 0
        ∗ dutyTok ER (cell (peer 2 c) (rcvJ 5 2)) 0 0)
      ∗ (∀ r, (owes (c : Thread nD τ) (Ol (payL.drop 31) c) W
          ∗ cred (tallyAt (cell c (cpJ 17)) () (credO 256))
          ∗ cred (tallyAt (cell c (sndJ 5 2)) () (credS 256))) -∗ Kt r))
      ⊢ wp frame (wpE (defs₀ (F := F)) 𝒱₀ (c : Thread nD τ) none) Set.univ
          (k0_part37 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v1093) Kt := by
  rw [k0_part37_eq_skeleton]; unfold k0_part37_skel
  simp only [Prog.lift, Prog.bind_op, Prog.bind_ret, Prog.pure_eq_ret, semSignalWord, semWaitWord]
  iintro ⟨⟨#HR, HO, Hs1, Ho1, Ht1, Hs2, Hl, Hts, Htr⟩, Hk⟩
  ihave #HIc17 := (rec_inv m K c (cpJ 17)) $$ HR
  ihave #Hrc17 := (rec_reached m K c (cpJ 17)) $$ HR
  iapply (copy_stage m K c 17 (by decide) (sf := 2) (sh := 2) rfl 256 (q := fullShare.left) (off7_lo_2 c) (off7_lo_2 c) rfl rfl rfl rfl (m ((c : Thread nD τ).loc main_v1))) $$ [Hs1 Ho1 Ht1]
  · isplitr; · iexact HIc17
    isplitl [Hs1]; · iexact Hs1
    isplitl [Ho1]; · iexact Ho1
    isplitl [Ht1]; · iexact Ht1
    iexact Hrc17
  iintro Hc1
  ihave #HIs52 := (rec_inv m K c (sndJ 5 2)) $$ HR
  ihave #HIr52 := (rec_inv m K (peer 2 c) (rcvJ 5 2)) $$ HR
  ihave #Hrs52 := (rec_reached m K c (sndJ 5 2)) $$ HR
  ihave #Hrr52 := (rec_reached m K (peer 2 c) (rcvJ 5 2)) $$ HR
  rw [Ol_d30 c]
  iapply (send_stage m K c (p := peer 2 c) 5 2 (by decide) (dev31_eq c) rfl (sf := 2) (sh := 2) (δ := 0) (a := lo 2 2 c) rfl rfl 256
      (q := fullShare.right.right.left) (off7_lo_2 c) (off7_lo_x_2 c) rfl rfl rfl rfl rfl W (Ol (payL.drop 31) c)) $$ [Hs2 Hl HO Hts Htr]
  · isplitr; · iexact HIs52
    isplitr; · iexact HIr52
    isplitl [Hs2]; · iexact Hs2
    isplitl [Hl]; · iexact Hl
    isplitl [HO]; · iexact HO
    isplitl [Hts]; · iexact Hts
    isplitr; · iexact Hrs52
    isplitl [Htr]; · iexact Htr
    iexact Hrr52
  iintro ⟨Hc2, HO⟩
  rw [wp_ret]; imodintro
  iapply Hk
  isplitl [HO]; · iexact HO
  isplitl [Hc1]; · iexact Hc1
  iexact Hc2

/-- Part 38 of the body. -/
theorem part38_spec (K : Dev nD × Fin 93 → ℕ) (c : Dev nD) (W : Waits sig Unit) (v2 : BitVec 32) (v5 : BitVec 32) (v8 : BitVec 32) (v10 : BitVec 32) (v21 : BitVec 32) (v40 : BitVec 32) (v1081 : BitVec 32) (Kt : (PUnit) → sProp 𝕄) :
    iprop((records m K
        ∗ levAts L lv
        ∗ owes (c : Thread nD τ) (Ol (payL.drop 31) c) W
        ∗ sPts c (lo 2 2 c) 256 fullShare.right.right.right (Gd m (org 2 2 c))
        ∗ landPay (F := F) (peer 3 c) (7, 2)
        ∗ dutyTok ER (cell c (sndJ 7 2)) 0 0
        ∗ dutyTok ER (cell (peer 3 c) (rcvJ 7 2)) 0 0
        ∗ cred (tallyAt (cell c (rcvJ 1 2)) () (credS 88))
        ∗ atPos ER (cell c (rcvJ 1 2)) 0 ∅ 0
        ∗ oPts c (lo 1 2 c) 88 fullShare (m ((c : Thread nD τ).loc main_v1))
        ∗ dutyTok ER (cell c (cpJ 18)) 0 0)
      ∗ (∀ r, (owes (c : Thread nD τ) (Ol (payL.drop 32) c) (insert (csem (rcvJ 1 2), ()) W)
          ∗ cred (tallyAt (cell c (sndJ 7 2)) () (credS 256))
          ∗ semVal (cell c (rcvJ 1 2)) 0
          ∗ sPts c (lo 1 2 c) 88 fullShare.right (Gd m (org 1 2 c))
          ∗ cred (tallyAt (cell c (cpJ 18)) () (credO 88))) -∗ Kt r))
      ⊢ wp frame (wpE (defs₀ (F := F)) 𝒱₀ (c : Thread nD τ) none) Set.univ
          (k0_part38 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v21 v40 v1081) Kt := by
  rw [k0_part38_eq_skeleton]; unfold k0_part38_skel
  simp only [Prog.lift, Prog.bind_op, Prog.bind_ret, Prog.pure_eq_ret, semSignalWord, semWaitWord]
  iintro ⟨⟨#HR, #Hlev, HO, Hs2, Hl, Hts, Htr, Hcw, Hat, Ho1, Ht1⟩, Hk⟩
  ihave #HIs72 := (rec_inv m K c (sndJ 7 2)) $$ HR
  ihave #HIr72 := (rec_inv m K (peer 3 c) (rcvJ 7 2)) $$ HR
  ihave #Hrs72 := (rec_reached m K c (sndJ 7 2)) $$ HR
  ihave #Hrr72 := (rec_reached m K (peer 3 c) (rcvJ 7 2)) $$ HR
  rw [Ol_d31 c]
  iapply (send_stage m K c (p := peer 3 c) 7 2 (by decide) (dev32_eq c) rfl (sf := 2) (sh := 2) (δ := 0) (a := lo 2 2 c) rfl rfl 256
      (q := fullShare.right.right.right) (off7_lo_2 c) (off7_lo_y_2 c) rfl rfl rfl rfl rfl W (Ol (payL.drop 32) c)) $$ [Hs2 Hl HO Hts Htr]
  · isplitr; · iexact HIs72
    isplitr; · iexact HIr72
    isplitl [Hs2]; · iexact Hs2
    isplitl [Hl]; · iexact Hl
    isplitl [HO]; · iexact HO
    isplitl [Hts]; · iexact Hts
    isplitr; · iexact Hrs72
    isplitl [Htr]; · iexact Htr
    iexact Hrr72
  iintro ⟨Hc2, HO⟩
  ihave #HIw12 := (rec_inv m K c (rcvJ 1 2)) $$ HR
  iapply (wp_wait_rcv m K c 1 2 rfl rfl W (Ol (payL.drop 32) c)) $$ [Hcw HO Hat]
  · isplitr; · iexact HIw12
    isplitl [Hcw]; · iexact Hcw
    isplitl [HO]; · iexact HO
    isplitr; · iapply (mayWait_of c (rcvJ 1 2) (payL.drop 32) (by decide)); iexact Hlev
    iexact Hat
  iintro ⟨HO, Hz, Hp⟩
  ihave Hp := (deal_d_at m c 1 (.inl rfl) 2 2 rfl).1 $$ Hp
  icases Hp with ⟨Hpl, Hpr⟩
  ihave #HIc18 := (rec_inv m K c (cpJ 18)) $$ HR
  ihave #Hrc18 := (rec_reached m K c (cpJ 18)) $$ HR
  iapply (copy_stage m K c 18 (by decide) (sf := 1) (sh := 2) rfl 88 (q := fullShare.left) (off8_lo_2 c) (off8_lo_2 c) rfl rfl rfl rfl (m ((c : Thread nD τ).loc main_v1))) $$ [Hpl Ho1 Ht1]
  · isplitr; · iexact HIc18
    isplitl [Hpl]; · iexact Hpl
    isplitl [Ho1]; · iexact Ho1
    isplitl [Ht1]; · iexact Ht1
    iexact Hrc18
  iintro Hc1
  rw [wp_ret]; imodintro
  iapply Hk
  isplitl [HO]; · iexact HO
  isplitl [Hc2]; · iexact Hc2
  isplitl [Hz]; · iexact Hz
  isplitl [Hpr]; · iexact Hpr
  iexact Hc1

/-- Part 39 of the body. -/
theorem part39_spec (K : Dev nD × Fin 93 → ℕ) (c : Dev nD) (W : Waits sig Unit) (v2 : BitVec 32) (v5 : BitVec 32) (v8 : BitVec 32) (v10 : BitVec 32) (v32 : BitVec 32) (v34 : BitVec 32) (v40 : BitVec 32) (v1081 : BitVec 32) (v1093 : BitVec 32) (Kt : (PUnit) → sProp 𝕄) :
    iprop((records m K
        ∗ levAts L lv
        ∗ owes (c : Thread nD τ) (Ol (payL.drop 32) c) W
        ∗ cred (tallyAt (cell c (rcvJ 3 2)) () (credS 88))
        ∗ atPos ER (cell c (rcvJ 3 2)) 0 ∅ 0
        ∗ oPts c (lo 3 2 c) 88 fullShare (m ((c : Thread nD τ).loc main_v1))
        ∗ dutyTok ER (cell c (cpJ 19)) 0 0)
      ∗ (∀ r, (owes (c : Thread nD τ) (Ol (payL.drop 32) c) (insert (csem (rcvJ 3 2), ()) W)
          ∗ semVal (cell c (rcvJ 3 2)) 0
          ∗ sPts c (lo 3 2 c) 88 fullShare.right (Gd m (org 3 2 c))
          ∗ cred (tallyAt (cell c (cpJ 19)) () (credO 88))) -∗ Kt r))
      ⊢ wp frame (wpE (defs₀ (F := F)) 𝒱₀ (c : Thread nD τ) none) Set.univ
          (k0_part39 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v40 v1081 v1093) Kt := by
  rw [k0_part39_eq_skeleton]; unfold k0_part39_skel
  simp only [Prog.lift, Prog.bind_op, Prog.bind_ret, Prog.pure_eq_ret, semSignalWord, semWaitWord]
  iintro ⟨⟨#HR, #Hlev, HO, Hcw, Hat, Ho1, Ht1⟩, Hk⟩
  ihave #HIw32 := (rec_inv m K c (rcvJ 3 2)) $$ HR
  iapply (wp_wait_rcv m K c 3 2 rfl rfl W (Ol (payL.drop 32) c)) $$ [Hcw HO Hat]
  · isplitr; · iexact HIw32
    isplitl [Hcw]; · iexact Hcw
    isplitl [HO]; · iexact HO
    isplitr; · iapply (mayWait_of c (rcvJ 3 2) (payL.drop 32) (by decide)); iexact Hlev
    iexact Hat
  iintro ⟨HO, Hz, Hp⟩
  ihave Hp := (deal_d_at m c 3 (.inr rfl) 2 2 rfl).1 $$ Hp
  icases Hp with ⟨Hpl, Hpr⟩
  ihave #HIc19 := (rec_inv m K c (cpJ 19)) $$ HR
  ihave #Hrc19 := (rec_reached m K c (cpJ 19)) $$ HR
  iapply (copy_stage m K c 19 (by decide) (sf := 3) (sh := 2) rfl 88 (q := fullShare.left) (off9_lo_2 c) (off9_lo_2 c) rfl rfl rfl rfl (m ((c : Thread nD τ).loc main_v1))) $$ [Hpl Ho1 Ht1]
  · isplitr; · iexact HIc19
    isplitl [Hpl]; · iexact Hpl
    isplitl [Ho1]; · iexact Ho1
    isplitl [Ht1]; · iexact Ht1
    iexact Hrc19
  iintro Hc1
  rw [wp_ret]; imodintro
  iapply Hk
  isplitl [HO]; · iexact HO
  isplitl [Hz]; · iexact Hz
  isplitl [Hpr]; · iexact Hpr
  iexact Hc1

/-- Part 40 of the body. -/
theorem part40_spec (K : Dev nD × Fin 93 → ℕ) (c : Dev nD) (W : Waits sig Unit) (v5 : BitVec 32) (v8 : BitVec 32) (v9 : BitVec 32) (v38 : BitVec 32) (v1081 : BitVec 32) (v1093 : BitVec 32) (Kt : (Σ' (v1291 : BitVec 32), BitVec 32) → sProp 𝕄) :
    iprop((records m K
        ∗ levAts L lv
        ∗ owes (c : Thread nD τ) (Ol (payL.drop 32) c) W
        ∗ cred (tallyAt (cell c (rcvJ 6 2)) () (credS 256))
        ∗ atPos ER (cell c (rcvJ 6 2)) 0 ∅ 0
        ∗ oPts c (lo 6 2 c) 256 fullShare (m ((c : Thread nD τ).loc main_v1))
        ∗ dutyTok ER (cell c (cpJ 20)) 0 0
        ∗ landPay (F := F) (peer 2 c) (9, 2)
        ∗ dutyTok ER (cell c (sndJ 9 2)) 0 0
        ∗ dutyTok ER (cell (peer 2 c) (rcvJ 9 2)) 0 0)
      ∗ (∀ r, (owes (c : Thread nD τ) (Ol (payL.drop 33) c) (insert (csem (rcvJ 6 2), ()) W)
          ∗ semVal (cell c (rcvJ 6 2)) 0
          ∗ sPts c (lo 6 2 c) 88 fullShare.right (Gd m (org 6 2 c))
          ∗ cred (tallyAt (cell c (cpJ 20)) () (credO 256))
          ∗ cred (tallyAt (cell c (sndJ 9 2)) () (credS 168))) -∗ Kt r))
      ⊢ wp frame (wpE (defs₀ (F := F)) 𝒱₀ (c : Thread nD τ) none) Set.univ
          (k0_part40 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v38 v1081 v1093) Kt := by
  rw [k0_part40_eq_skeleton]; unfold k0_part40_skel
  simp only [Prog.lift, Prog.bind_op, Prog.bind_ret, Prog.pure_eq_ret, semSignalWord, semWaitWord]
  iintro ⟨⟨#HR, #Hlev, HO, Hcw, Hat, Ho1, Ht1, Hl, Hts, Htr⟩, Hk⟩
  ihave #HIw62 := (rec_inv m K c (rcvJ 6 2)) $$ HR
  iapply (wp_wait_rcv m K c 6 2 rfl rfl W (Ol (payL.drop 32) c)) $$ [Hcw HO Hat]
  · isplitr; · iexact HIw62
    isplitl [Hcw]; · iexact Hcw
    isplitl [HO]; · iexact HO
    isplitr; · iapply (mayWait_of c (rcvJ 6 2) (payL.drop 32) (by decide)); iexact Hlev
    iexact Hat
  iintro ⟨HO, Hz, Hp⟩
  ihave Hp := (deal_r_at m c 6 (.inr rfl) 2 2 rfl).1 $$ Hp
  icases Hp with ⟨Hpl, Hpa, Hpb⟩
  ihave #HIc20 := (rec_inv m K c (cpJ 20)) $$ HR
  ihave #Hrc20 := (rec_reached m K c (cpJ 20)) $$ HR
  iapply (copy_stage m K c 20 (by decide) (sf := 6) (sh := 2) rfl 256 (q := fullShare.left) (off10_lo_2 c) (off10_lo_2 c) rfl rfl rfl rfl (m ((c : Thread nD τ).loc main_v1))) $$ [Hpl Ho1 Ht1]
  · isplitr; · iexact HIc20
    isplitl [Hpl]; · iexact Hpl
    isplitl [Ho1]; · iexact Ho1
    isplitl [Ht1]; · iexact Ht1
    iexact Hrc20
  iintro Hc1
  ihave #HIs92 := (rec_inv m K c (sndJ 9 2)) $$ HR
  ihave #HIr92 := (rec_inv m K (peer 2 c) (rcvJ 9 2)) $$ HR
  ihave #Hrs92 := (rec_reached m K c (sndJ 9 2)) $$ HR
  ihave #Hrr92 := (rec_reached m K (peer 2 c) (rcvJ 9 2)) $$ HR
  rw [Ol_d32 c]
  iapply (send_stage m K c (p := peer 2 c) 9 2 (by decide) (dev33_eq c) rfl (sf := 6) (sh := 2) (δ := 88) (a := lo 6 2 c + 88) rfl rfl 168
      (q := fullShare.right) (off11_lo_2 c) (off11_lo_x_2 c) rfl rfl rfl rfl rfl (insert (csem (rcvJ 6 2), ()) W) (Ol (payL.drop 33) c)) $$ [Hpb Hl HO Hts Htr]
  · isplitr; · iexact HIs92
    isplitr; · iexact HIr92
    isplitl [Hpb]; · iexact Hpb
    isplitl [Hl]; · iexact Hl
    isplitl [HO]; · iexact HO
    isplitl [Hts]; · iexact Hts
    isplitr; · iexact Hrs92
    isplitl [Htr]; · iexact Htr
    iexact Hrr92
  iintro ⟨Hc2, HO⟩
  rw [wp_ret]; imodintro
  iapply Hk
  isplitl [HO]; · iexact HO
  isplitl [Hz]; · iexact Hz
  isplitl [Hpa]; · iexact Hpa
  isplitl [Hc1]; · iexact Hc1
  iexact Hc2

/-- Part 41 of the body. -/
theorem part41_spec (K : Dev nD × Fin 93 → ℕ) (c : Dev nD) (W : Waits sig Unit) (v5 : BitVec 32) (v8 : BitVec 32) (v9 : BitVec 32) (v34 : BitVec 32) (v36 : BitVec 32) (v1093 : BitVec 32) (v1291 : BitVec 32) (c512_i32_999 : BitVec 32) (Kt : (Σ' (v1323 : BitVec 32), BitVec 32) → sProp 𝕄) :
    iprop((records m K
        ∗ levAts L lv
        ∗ owes (c : Thread nD τ) (Ol (payL.drop 33) c) W
        ∗ cred (tallyAt (cell c (rcvJ 5 2)) () (credS 256))
        ∗ atPos ER (cell c (rcvJ 5 2)) 0 ∅ 0
        ∗ oPts c (lo 5 2 c) 256 fullShare (m ((c : Thread nD τ).loc main_v1))
        ∗ dutyTok ER (cell c (cpJ 21)) 0 0)
      ∗ (∀ r, (owes (c : Thread nD τ) (Ol (payL.drop 33) c) (insert (csem (rcvJ 5 2), ()) W)
          ∗ semVal (cell c (rcvJ 5 2)) 0
          ∗ sPts c (lo 5 2 c) 88 fullShare.right (Gd m (org 5 2 c))
          ∗ sPts c (lo 5 2 c + 88) 168 fullShare.right (Gd m (org 5 2 c))
          ∗ cred (tallyAt (cell c (cpJ 21)) () (credO 256))) -∗ Kt r))
      ⊢ wp frame (wpE (defs₀ (F := F)) 𝒱₀ (c : Thread nD τ) none) Set.univ
          (k0_part41 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v36 v1093 v1291 c512_i32_999) Kt := by
  rw [k0_part41_eq_skeleton]; unfold k0_part41_skel
  simp only [Prog.lift, Prog.bind_op, Prog.bind_ret, Prog.pure_eq_ret, semSignalWord, semWaitWord]
  iintro ⟨⟨#HR, #Hlev, HO, Hcw, Hat, Ho1, Ht1⟩, Hk⟩
  ihave #HIw52 := (rec_inv m K c (rcvJ 5 2)) $$ HR
  iapply (wp_wait_rcv m K c 5 2 rfl rfl W (Ol (payL.drop 33) c)) $$ [Hcw HO Hat]
  · isplitr; · iexact HIw52
    isplitl [Hcw]; · iexact Hcw
    isplitl [HO]; · iexact HO
    isplitr; · iapply (mayWait_of c (rcvJ 5 2) (payL.drop 33) (by decide)); iexact Hlev
    iexact Hat
  iintro ⟨HO, Hz, Hp⟩
  ihave Hp := (deal_r_at m c 5 (.inl rfl) 2 2 rfl).1 $$ Hp
  icases Hp with ⟨Hpl, Hpa, Hpb⟩
  ihave #HIc21 := (rec_inv m K c (cpJ 21)) $$ HR
  ihave #Hrc21 := (rec_reached m K c (cpJ 21)) $$ HR
  iapply (copy_stage m K c 21 (by decide) (sf := 5) (sh := 2) rfl 256 (q := fullShare.left) (off12_lo_2 c) (off12_lo_2 c) rfl rfl rfl rfl (m ((c : Thread nD τ).loc main_v1))) $$ [Hpl Ho1 Ht1]
  · isplitr; · iexact HIc21
    isplitl [Hpl]; · iexact Hpl
    isplitl [Ho1]; · iexact Ho1
    isplitl [Ht1]; · iexact Ht1
    iexact Hrc21
  iintro Hc1
  rw [wp_ret]; imodintro
  iapply Hk
  isplitl [HO]; · iexact HO
  isplitl [Hz]; · iexact Hz
  isplitl [Hpa]; · iexact Hpa
  isplitl [Hpb]; · iexact Hpb
  iexact Hc1

/-- Part 42 of the body. -/
theorem part42_spec (K : Dev nD × Fin 93 → ℕ) (c : Dev nD) (W : Waits sig Unit) (v2 : BitVec 32) (v5 : BitVec 32) (v8 : BitVec 32) (v9 : BitVec 32) (v10 : BitVec 32) (v34 : BitVec 32) (v1081 : BitVec 32) (v1323 : BitVec 32) (c344_i32_1024 : BitVec 32) (Kt : (BitVec 32) → sProp 𝕄) :
    iprop((records m K
        ∗ levAts L lv
        ∗ owes (c : Thread nD τ) (Ol (payL.drop 33) c) W
        ∗ sPts c (lo 5 2 c + 88) 168 fullShare.right (Gd m (org 5 2 c))
        ∗ landPay (F := F) (peer 3 c) (8, 2)
        ∗ dutyTok ER (cell c (sndJ 8 2)) 0 0
        ∗ dutyTok ER (cell (peer 3 c) (rcvJ 8 2)) 0 0
        ∗ cred (tallyAt (cell c (rcvJ 4 2)) () (credS 256))
        ∗ atPos ER (cell c (rcvJ 4 2)) 0 ∅ 0)
      ∗ (∀ r, (owes (c : Thread nD τ) (Ol (payL.drop 34) c) (insert (csem (rcvJ 4 2), ()) W)
          ∗ cred (tallyAt (cell c (sndJ 8 2)) () (credS 168))
          ∗ semVal (cell c (rcvJ 4 2)) 0
          ∗ sPts c (lo 4 2 c) 256 fullShare (Gd m (org 4 2 c))) -∗ Kt r))
      ⊢ wp frame (wpE (defs₀ (F := F)) 𝒱₀ (c : Thread nD τ) none) Set.univ
          (k0_part42 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v34 v1081 v1323 c344_i32_1024) Kt := by
  rw [k0_part42_eq_skeleton]; unfold k0_part42_skel
  simp only [Prog.lift, Prog.bind_op, Prog.bind_ret, Prog.pure_eq_ret, semSignalWord, semWaitWord]
  iintro ⟨⟨#HR, #Hlev, HO, Hs2, Hl, Hts, Htr, Hcw, Hat⟩, Hk⟩
  ihave #HIs82 := (rec_inv m K c (sndJ 8 2)) $$ HR
  ihave #HIr82 := (rec_inv m K (peer 3 c) (rcvJ 8 2)) $$ HR
  ihave #Hrs82 := (rec_reached m K c (sndJ 8 2)) $$ HR
  ihave #Hrr82 := (rec_reached m K (peer 3 c) (rcvJ 8 2)) $$ HR
  rw [Ol_d33 c]
  iapply (send_stage m K c (p := peer 3 c) 8 2 (by decide) (dev34_eq c) rfl (sf := 5) (sh := 2) (δ := 88) (a := lo 5 2 c + 88) rfl rfl 168
      (q := fullShare.right) (off13_lo_2 c) (off13_lo_y_2 c) rfl rfl rfl rfl rfl W (Ol (payL.drop 34) c)) $$ [Hs2 Hl HO Hts Htr]
  · isplitr; · iexact HIs82
    isplitr; · iexact HIr82
    isplitl [Hs2]; · iexact Hs2
    isplitl [Hl]; · iexact Hl
    isplitl [HO]; · iexact HO
    isplitl [Hts]; · iexact Hts
    isplitr; · iexact Hrs82
    isplitl [Htr]; · iexact Htr
    iexact Hrr82
  iintro ⟨Hc2, HO⟩
  ihave #HIw42 := (rec_inv m K c (rcvJ 4 2)) $$ HR
  iapply (wp_wait_rcv m K c 4 2 rfl rfl W (Ol (payL.drop 34) c)) $$ [Hcw HO Hat]
  · isplitr; · iexact HIw42
    isplitl [Hcw]; · iexact Hcw
    isplitl [HO]; · iexact HO
    isplitr; · iapply (mayWait_of c (rcvJ 4 2) (payL.drop 34) (by decide)); iexact Hlev
    iexact Hat
  iintro ⟨HO, Hz, Hp⟩
  ihave Hp := (Entails.of_eq (recvPay_f4 m c 2 2 rfl)) $$ Hp
  rw [wp_ret]; imodintro
  iapply Hk
  isplitl [HO]; · iexact HO
  isplitl [Hc2]; · iexact Hc2
  isplitl [Hz]; · iexact Hz
  iexact Hp

end Cert.KernelIdeal.AG

end
-- ==== Proof.PartsD2.lean ====
/-
  The body of one device, part by part (parts 43 to 49): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec
import proofs.«900685_g7700000000000686_dist_ag_v7x_xyz2x2x4_z_m2048_n512_f32_1_alg».proof.Proof.XferSteps

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 43 of the body. -/
theorem part43_spec (K : Dev nD × Fin 93 → ℕ) (c : Dev nD) (W : Waits sig Unit) (v2 : BitVec 32) (v8 : BitVec 32) (v10 : BitVec 32) (v34 : BitVec 32) (v36 : BitVec 32) (v38 : BitVec 32) (v1081 : BitVec 32) (v1093 : BitVec 32) (c2048_i32_1051 : BitVec 32) (Kt : (PUnit) → sProp 𝕄) :
    iprop((records m K
        ∗ levAts L lv
        ∗ owes (c : Thread nD τ) (Ol (payL.drop 34) c) W
        ∗ sPts c (lo 4 2 c) 256 fullShare (Gd m (org 4 2 c))
        ∗ oPts c (lo 4 2 c) 256 fullShare (m ((c : Thread nD τ).loc main_v1))
        ∗ dutyTok ER (cell c (cpJ 22)) 0 0
        ∗ cred (tallyAt (cell c (rcvJ 7 2)) () (credS 256))
        ∗ atPos ER (cell c (rcvJ 7 2)) 0 ∅ 0)
      ∗ (∀ r, (owes (c : Thread nD τ) (Ol (payL.drop 34) c) (insert (csem (rcvJ 7 2), ()) W)
          ∗ cred (tallyAt (cell c (cpJ 22)) () (credO 256))
          ∗ semVal (cell c (rcvJ 7 2)) 0
          ∗ sPts c (lo 7 2 c) 256 fullShare (Gd m (org 7 2 c))) -∗ Kt r))
      ⊢ wp frame (wpE (defs₀ (F := F)) 𝒱₀ (c : Thread nD τ) none) Set.univ
          (k0_part43 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v34 v36 v38 v1081 v1093 c2048_i32_1051) Kt := by
  rw [k0_part43_eq_skeleton]; unfold k0_part43_skel
  simp only [Prog.lift, Prog.bind_op, Prog.bind_ret, Prog.pure_eq_ret, semSignalWord, semWaitWord]
  /- operations, in order:
   op 81: COPY src=arg2@k0_off14 2#32:S256x512 dst=arg1@k0_off14 2#32:S256x512 sem=arg5[22] [payments made before: 34]
   op 82: WAIT sem=arg4[7, 2] src=arg2@k0_off7 2#32:S256x512 dst=arg2@k0_off7 2#32:S256x512 [payments made before: 34] -/
  iintro ⟨⟨#HR, #Hlev, HO, Hs, Ho, Ht, Hcw, Hat⟩, Hk⟩
  ihave #HIc := (rec_inv m K c (cpJ 22)) $$ HR
  ihave #HRc := (rec_reached m K c (cpJ 22)) $$ HR
  iapply (copy_stage m K c 22 (by decide) (sf := 4) (sh := 2) (nr := 256) (q := fullShare) rfl (off14_lo_2 c) (off14_lo_2 c) rfl rfl rfl rfl (m ((c : Thread nD τ).loc main_v1))) $$ [Hs Ho Ht]
  · isplitr; · iexact HIc
    isplitl [Hs]; · iexact Hs
    isplitl [Ho]; · iexact Ho
    isplitl [Ht]; · iexact Ht
    iexact HRc
  iintro Hcc
  ihave #HIw := (rec_inv m K c (rcvJ 7 2)) $$ HR
  iapply (wp_wait_rcv m K c 7 2 rfl rfl W (Ol (payL.drop 34) c)) $$ [Hcw HO Hat]
  · isplitr; · iexact HIw
    isplitl [Hcw]; · iexact Hcw
    isplitl [HO]; · iexact HO
    isplitr; · iapply (mayWait_of c (rcvJ 7 2) (payL.drop 34) (by decide)); iexact Hlev
    iexact Hat
  iintro ⟨HO, Hz, Hp⟩
  ihave Hp := (Entails.of_eq (recvPay_f7 m c 2 2 rfl)) $$ Hp
  rw [wp_ret]; imodintro
  iapply Hk
  isplitl [HO]; · iexact HO
  isplitl [Hcc]; · iexact Hcc
  isplitl [Hz]; · iexact Hz
  iexact Hp

/-- Part 44 of the body. -/
theorem part44_spec (K : Dev nD × Fin 93 → ℕ) (c : Dev nD) (W : Waits sig Unit) (v5 : BitVec 32) (v8 : BitVec 32) (v9 : BitVec 32) (Kt : (Σ' (v1399 : BitVec 32), BitVec 32) → sProp 𝕄) :
    iprop((records m K
        ∗ sPts c (lo 7 2 c) 256 fullShare (Gd m (org 7 2 c))
        ∗ oPts c (lo 7 2 c) 256 fullShare (m ((c : Thread nD τ).loc main_v1))
        ∗ dutyTok ER (cell c (cpJ 23)) 0 0)
      ∗ (∀ r, (cred (tallyAt (cell c (cpJ 23)) () (credO 256))) -∗ Kt r))
      ⊢ wp frame (wpE (defs₀ (F := F)) 𝒱₀ (c : Thread nD τ) none) Set.univ
          (k0_part44 (Memref.whole cc0_stg0_0) (Memref.isWhole_whole _) (Memref.whole main_v1) (Memref.isWhole_whole _) (Memref.whole cc0_scratch0) (Memref.isWhole_whole _) cc0_scratch1 cc0_scratch2 cc0_scratch3 c v5 v8 v9) Kt := by
  rw [k0_part44_eq_skeleton]; unfold k0_part44_skel
  simp only [Prog.lift, Prog.bind_op, Prog.bind_ret, Prog.pure_eq_ret, semSignalWord, semWaitWord]
  /- operations, in order:
   op 83: COPY src=arg2@k0_off15 2#32:S256x512 dst=arg1@k0_off15 2#32:S256x512 sem=arg5[23] [payments made before: 34] -/
  iintro ⟨⟨#HR, Hs, Ho, Ht⟩, Hk⟩
  ihave #HIc := (rec_inv m K c (cpJ 23)) $$ HR
  ihave #HRc := (rec_reached m K c (cpJ 23)) $$ HR
  iapply (copy_stage m K c 23 (by decide) (sf := 7) (sh := 2) (nr := 256) (q := fullShare) rfl (off15_lo_2 c) (off15_lo_2 c) rfl rfl rfl rfl (m ((c : Thread nD τ).loc main_v1))) $$ [Hs Ho Ht]
  · isplitr; · iexact HIc
    isplitl [Hs]; · iexact Hs
    isplitl [Ho]; · iexact Ho
    isplitl [Ht]; · iexact Ht
    iexact HRc
  iintro Hcc
  rw [wp_ret]; imodintro
  iapply Hk
  iexact Hcc

/-- Part 45 of the body. -/
theorem part45_spec (K : Dev nD × Fin 93 → ℕ) (c : Dev nD) (W : Waits sig Unit) (v2 : BitVec 32) (v8 : BitVec 32) (v10 : BitVec 32) (v40 : BitVec 32) (v1399 : BitVec 32) (v1411 : BitVec 32) (Kt : (BitVec 32) → sProp 𝕄) :
    iprop((records m K
        ∗ levAts L lv
        ∗ owes (c : Thread nD τ) (Ol (payL.drop 34) c) W
        ∗ cred (tallyAt (cell c (rcvJ 9 0)) () (credS 168))
        ∗ atPos ER (cell c (rcvJ 9 0)) 0 ∅ 0
        ∗ oPts c (lo 9 0 c) 168 fullShare (m ((c : Thread nD τ).loc main_v1))
        ∗ dutyTok ER (cell c (cpJ 24)) 0 0
        ∗ cred (tallyAt (cell c (rcvJ 8 0)) () (credS 168))
        ∗ atPos ER (cell c (rcvJ 8 0)) 0 ∅ 0
        ∗ oPts c (lo 8 0 c) 168 fullShare (m ((c : Thread nD τ).loc main_v1))
        ∗ dutyTok ER (cell c (cpJ 25)) 0 0)
      ∗ (∀ r, (owes (c : Thread nD τ) (Ol (payL.drop 34) c) (insert (csem (rcvJ 8 0), ()) (insert (csem (rcvJ 9 0), ()) W))
          ∗ semVal (cell c (rcvJ 9 0)) 0
          ∗ cred (tallyAt (cell c (cpJ 24)) () (credO 168))
          ∗ semVal (cell c (rcvJ 8 0)) 0
          ∗ cred (tallyAt (cell c (cpJ 25)) () (credO 168))) -∗ Kt r))
      ⊢ wp frame (wpE (defs₀ (F := F)) 𝒱₀ (c : Thread nD τ) none) Set.univ
          (k0_part45 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v40 v1399 v1411) Kt := by
  rw [k0_part45_eq_skeleton]; unfold k0_part45_skel
  simp only [Prog.lift, Prog.bind_op, Prog.bind_ret, Prog.pure_eq_ret, semSignalWord, semWaitWord]
  /- operations, in order:
   op 84: WAIT sem=arg4[9, 0] src=arg2@k0_off11 0#32:S168x512 dst=arg2@k0_off11 0#32:S168x512 [payments made before: 34]
   op 85: COPY src=arg2@k0_off16 0#32:S168x512 dst=arg1@k0_off16 0#32:S168x512 sem=arg5[24] [payments made before: 34]
   op 86: WAIT sem=arg4[8, 0] src=arg2@k0_off13 0#32:S168x512 dst=arg2@k0_off13 0#32:S168x512 [payments made before: 34]
   op 87: COPY src=arg2@k0_off17 0#32:S168x512 dst=arg1@k0_off17 0#32:S168x512 sem=arg5[25] [payments made before: 34] -/
  iintro ⟨⟨#HR, #Hlev, HO, Hc1, Ha1, Ho1, Ht1, Hc2, Ha2, Ho2, Ht2⟩, Hk⟩
  ihave #HIw1 := (rec_inv m K c (rcvJ 9 0)) $$ HR
  iapply (wp_wait_rcv m K c 9 0 rfl rfl W (Ol (payL.drop 34) c)) $$ [Hc1 HO Ha1]
  · isplitr; · iexact HIw1
    isplitl [Hc1]; · iexact Hc1
    isplitl [HO]; · iexact HO
    isplitr; · iapply (mayWait_of c (rcvJ 9 0) (payL.drop 34) (by decide)); iexact Hlev
    iexact Ha1
  iintro ⟨HO, Hz1, Hp1⟩
  ihave Hp1 := (Entails.of_eq (recvPay_f9 m c 0 0 rfl)) $$ Hp1
  ihave #HIc1 := (rec_inv m K c (cpJ 24)) $$ HR
  ihave #HRc1 := (rec_reached m K c (cpJ 24)) $$ HR
  iapply (copy_stage m K c 24 (by decide) (sf := 9) (sh := 0) (nr := 168) (q := fullShare) rfl (off16_lo_0 c) (off16_lo_0 c) rfl rfl rfl rfl (m ((c : Thread nD τ).loc main_v1))) $$ [Hp1 Ho1 Ht1]
  · isplitr; · iexact HIc1
    isplitl [Hp1]; · iexact Hp1
    isplitl [Ho1]; · iexact Ho1
    isplitl [Ht1]; · iexact Ht1
    iexact HRc1
  iintro Hcc1
  ihave #HIw2 := (rec_inv m K c (rcvJ 8 0)) $$ HR
  iapply (wp_wait_rcv m K c 8 0 rfl rfl (insert (csem (rcvJ 9 0), ()) W) (Ol (payL.drop 34) c)) $$ [Hc2 HO Ha2]
  · isplitr; · iexact HIw2
    isplitl [Hc2]; · iexact Hc2
    isplitl [HO]; · iexact HO
    isplitr; · iapply (mayWait_of c (rcvJ 8 0) (payL.drop 34) (by decide)); iexact Hlev
    iexact Ha2
  iintro ⟨HO, Hz2, Hp2⟩
  ihave Hp2 := (Entails.of_eq (recvPay_f8 m c 0 0 rfl)) $$ Hp2
  ihave #HIc2 := (rec_inv m K c (cpJ 25)) $$ HR
  ihave #HRc2 := (rec_reached m K c (cpJ 25)) $$ HR
  iapply (copy_stage m K c 25 (by decide) (sf := 8) (sh := 0) (nr := 168) (q := fullShare) rfl (off17_lo_0 c) (off17_lo_0 c) rfl rfl rfl rfl (m ((c : Thread nD τ).loc main_v1))) $$ [Hp2 Ho2 Ht2]
  · isplitr; · iexact HIc2
    isplitl [Hp2]; · iexact Hp2
    isplitl [Ho2]; · iexact Ho2
    isplitl [Ht2]; · iexact Ht2
    iexact HRc2
  iintro Hcc2
  rw [wp_ret]; imodintro
  iapply Hk
  isplitl [HO]; · iexact HO
  isplitl [Hz1]; · iexact Hz1
  isplitl [Hcc1]; · iexact Hcc1
  isplitl [Hz2]; · iexact Hz2
  iexact Hcc2

/-- Part 46 of the body. -/
theorem part46_spec (K : Dev nD × Fin 93 → ℕ) (c : Dev nD) (W : Waits sig Unit) (v5 : BitVec 32) (v8 : BitVec 32) (v9 : BitVec 32) (v1450 : BitVec 32) (Kt : (Σ' (v1472 : BitVec 32) (v1483 : BitVec 32), BitVec 32) → sProp 𝕄) :
    iprop((records m K
        ∗ levAts L lv
        ∗ owes (c : Thread nD τ) (Ol (payL.drop 34) c) W
        ∗ cred (tallyAt (cell c (rcvJ 9 1)) () (credS 168))
        ∗ atPos ER (cell c (rcvJ 9 1)) 0 ∅ 0)
      ∗ (∀ r, (owes (c : Thread nD τ) (Ol (payL.drop 34) c) (insert (csem (rcvJ 9 1), ()) W)
          ∗ semVal (cell c (rcvJ 9 1)) 0
          ∗ sPts c (lo 9 1 c) 168 fullShare (Gd m (org 9 1 c))) -∗ Kt r))
      ⊢ wp frame (wpE (defs₀ (F := F)) 𝒱₀ (c : Thread nD τ) none) Set.univ
          (k0_part46 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v1450) Kt := by
  rw [k0_part46_eq_skeleton]; unfold k0_part46_skel
  simp only [Prog.lift, Prog.bind_op, Prog.bind_ret, Prog.pure_eq_ret, semSignalWord, semWaitWord]
  /- operations, in order:
   op 88: WAIT sem=arg4[9, 1] src=arg2@k0_off11 1#32:S168x512 dst=arg2@k0_off11 1#32:S168x512 [payments made before: 34] -/
  iintro ⟨⟨#HR, #Hlev, HO, Hcw, Hat⟩, Hk⟩
  ihave #HIw := (rec_inv m K c (rcvJ 9 1)) $$ HR
  iapply (wp_wait_rcv m K c 9 1 rfl rfl W (Ol (payL.drop 34) c)) $$ [Hcw HO Hat]
  · isplitr; · iexact HIw
    isplitl [Hcw]; · iexact Hcw
    isplitl [HO]; · iexact HO
    isplitr; · iapply (mayWait_of c (rcvJ 9 1) (payL.drop 34) (by decide)); iexact Hlev
    iexact Hat
  iintro ⟨HO, Hz, Hp⟩
  ihave Hp := (Entails.of_eq (recvPay_f9 m c 1 1 rfl)) $$ Hp
  rw [wp_ret]; imodintro
  iapply Hk
  isplitl [HO]; · iexact HO
  isplitl [Hz]; · iexact Hz
  iexact Hp

/-- Part 47 of the body. -/
theorem part47_spec (K : Dev nD × Fin 93 → ℕ) (c : Dev nD) (W : Waits sig Unit) (v2 : BitVec 32) (v8 : BitVec 32) (v10 : BitVec 32) (v40 : BitVec 32) (v1472 : BitVec 32) (v1483 : BitVec 32) (c512_i32_1150 : BitVec 32) (Kt : (Σ' (v1513 : BitVec 32), BitVec 32) → sProp 𝕄) :
    iprop((records m K
        ∗ levAts L lv
        ∗ owes (c : Thread nD τ) (Ol (payL.drop 34) c) W
        ∗ sPts c (lo 9 1 c) 168 fullShare (Gd m (org 9 1 c))
        ∗ oPts c (lo 9 1 c) 168 fullShare (m ((c : Thread nD τ).loc main_v1))
        ∗ dutyTok ER (cell c (cpJ 26)) 0 0
        ∗ cred (tallyAt (cell c (rcvJ 8 1)) () (credS 168))
        ∗ atPos ER (cell c (rcvJ 8 1)) 0 ∅ 0
        ∗ oPts c (lo 8 1 c) 168 fullShare (m ((c : Thread nD τ).loc main_v1))
        ∗ dutyTok ER (cell c (cpJ 27)) 0 0)
      ∗ (∀ r, (owes (c : Thread nD τ) (Ol (payL.drop 34) c) (insert (csem (rcvJ 8 1), ()) W)
          ∗ cred (tallyAt (cell c (cpJ 26)) () (credO 168))
          ∗ semVal (cell c (rcvJ 8 1)) 0
          ∗ cred (tallyAt (cell c (cpJ 27)) () (credO 168))) -∗ Kt r))
      ⊢ wp frame (wpE (defs₀ (F := F)) 𝒱₀ (c : Thread nD τ) none) Set.univ
          (k0_part47 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v40 v1472 v1483 c512_i32_1150) Kt := by
  rw [k0_part47_eq_skeleton]; unfold k0_part47_skel
  simp only [Prog.lift, Prog.bind_op, Prog.bind_ret, Prog.pure_eq_ret, semSignalWord, semWaitWord]
  /- operations, in order:
   op 89: COPY src=arg2@k0_off16 1#32:S168x512 dst=arg1@k0_off16 1#32:S168x512 sem=arg5[26] [payments made before: 34]
   op 90: WAIT sem=arg4[8, 1] src=arg2@k0_off13 1#32:S168x512 dst=arg2@k0_off13 1#32:S168x512 [payments made before: 34]
   op 91: COPY src=arg2@k0_off17 1#32:S168x512 dst=arg1@k0_off17 1#32:S168x512 sem=arg5[27] [payments made before: 34] -/
  iintro ⟨⟨#HR, #Hlev, HO, Hs, Ho1, Ht1, Hc, Ha, Ho2, Ht2⟩, Hk⟩
  ihave #HIc1 := (rec_inv m K c (cpJ 26)) $$ HR
  ihave #HRc1 := (rec_reached m K c (cpJ 26)) $$ HR
  iapply (copy_stage m K c 26 (by decide) (sf := 9) (sh := 1) (nr := 168) (q := fullShare) rfl (off16_lo_1 c) (off16_lo_1 c) rfl rfl rfl rfl (m ((c : Thread nD τ).loc main_v1))) $$ [Hs Ho1 Ht1]
  · isplitr; · iexact HIc1
    isplitl [Hs]; · iexact Hs
    isplitl [Ho1]; · iexact Ho1
    isplitl [Ht1]; · iexact Ht1
    iexact HRc1
  iintro Hcc1
  ihave #HIw := (rec_inv m K c (rcvJ 8 1)) $$ HR
  iapply (wp_wait_rcv m K c 8 1 rfl rfl W (Ol (payL.drop 34) c)) $$ [Hc HO Ha]
  · isplitr; · iexact HIw
    isplitl [Hc]; · iexact Hc
    isplitl [HO]; · iexact HO
    isplitr; · iapply (mayWait_of c (rcvJ 8 1) (payL.drop 34) (by decide)); iexact Hlev
    iexact Ha
  iintro ⟨HO, Hz, Hp⟩
  ihave Hp := (Entails.of_eq (recvPay_f8 m c 1 1 rfl)) $$ Hp
  ihave #HIc2 := (rec_inv m K c (cpJ 27)) $$ HR
  ihave #HRc2 := (rec_reached m K c (cpJ 27)) $$ HR
  iapply (copy_stage m K c 27 (by decide) (sf := 8) (sh := 1) (nr := 168) (q := fullShare) rfl (off17_lo_1 c) (off17_lo_1 c) rfl rfl rfl rfl (m ((c : Thread nD τ).loc main_v1))) $$ [Hp Ho2 Ht2]
  · isplitr; · iexact HIc2
    isplitl [Hp]; · iexact Hp
    isplitl [Ho2]; · iexact Ho2
    isplitl [Ht2]; · iexact Ht2
    iexact HRc2
  iintro Hcc2
  rw [wp_ret]; imodintro
  iapply Hk
  isplitl [HO]; · iexact HO
  isplitl [Hcc1]; · iexact Hcc1
  isplitl [Hz]; · iexact Hz
  iexact Hcc2

/-- Part 48 of the body. -/
theorem part48_spec (K : Dev nD × Fin 93 → ℕ) (c : Dev nD) (W : Waits sig Unit) (v5 : BitVec 32) (v8 : BitVec 32) (v9 : BitVec 32) (v40 : BitVec 32) (v1513 : BitVec 32) (v1514 : BitVec 32) (Kt : (BitVec 32) → sProp 𝕄) :
    iprop((records m K
        ∗ levAts L lv
        ∗ owes (c : Thread nD τ) (Ol (payL.drop 34) c) W
        ∗ cred (tallyAt (cell c (rcvJ 9 2)) () (credS 168))
        ∗ atPos ER (cell c (rcvJ 9 2)) 0 ∅ 0)
      ∗ (∀ r, (owes (c : Thread nD τ) (Ol (payL.drop 34) c) (insert (csem (rcvJ 9 2), ()) W)
          ∗ semVal (cell c (rcvJ 9 2)) 0
          ∗ sPts c (lo 9 2 c) 168 fullShare (Gd m (org 9 2 c))) -∗ Kt r))
      ⊢ wp frame (wpE (defs₀ (F := F)) 𝒱₀ (c : Thread nD τ) none) Set.univ
          (k0_part48 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v40 v1513 v1514) Kt := by
  rw [k0_part48_eq_skeleton]; unfold k0_part48_skel
  simp only [Prog.lift, Prog.bind_op, Prog.bind_ret, Prog.pure_eq_ret, semSignalWord, semWaitWord]
  /- operations, in order:
   op 92: WAIT sem=arg4[9, 2] src=arg2@k0_off11 2#32:S168x512 dst=arg2@k0_off11 2#32:S168x512 [payments made before: 34] -/
  iintro ⟨⟨#HR, #Hlev, HO, Hcw, Hat⟩, Hk⟩
  ihave #HIw := (rec_inv m K c (rcvJ 9 2)) $$ HR
  iapply (wp_wait_rcv m K c 9 2 rfl rfl W (Ol (payL.drop 34) c)) $$ [Hcw HO Hat]
  · isplitr; · iexact HIw
    isplitl [Hcw]; · iexact Hcw
    isplitl [HO]; · iexact HO
    isplitr; · iapply (mayWait_of c (rcvJ 9 2) (payL.drop 34) (by decide)); iexact Hlev
    iexact Hat
  iintro ⟨HO, Hz, Hp⟩
  ihave Hp := (Entails.of_eq (recvPay_f9 m c 2 2 rfl)) $$ Hp
  rw [wp_ret]; imodintro
  iapply Hk
  isplitl [HO]; · iexact HO
  isplitl [Hz]; · iexact Hz
  iexact Hp

/-- Part 49 of the body. -/
theorem part49_spec (K : Dev nD × Fin 93 → ℕ) (c : Dev nD) (W : Waits sig Unit) (v2 : BitVec 32) (v8 : BitVec 32) (v10 : BitVec 32) (v40 : BitVec 32) (v1533 : BitVec 32) (Kt : (PUnit) → sProp 𝕄) :
    iprop((records m K
        ∗ levAts L lv
        ∗ owes (c : Thread nD τ) (Ol (payL.drop 34) c) W
        ∗ sPts c (lo 9 2 c) 168 fullShare (Gd m (org 9 2 c))
        ∗ oPts c (lo 9 2 c) 168 fullShare (m ((c : Thread nD τ).loc main_v1))
        ∗ dutyTok ER (cell c (cpJ 28)) 0 0
        ∗ cred (tallyAt (cell c (rcvJ 8 2)) () (credS 168))
        ∗ atPos ER (cell c (rcvJ 8 2)) 0 ∅ 0
        ∗ oPts c (lo 8 2 c) 168 fullShare (m ((c : Thread nD τ).loc main_v1))
        ∗ dutyTok ER (cell c (cpJ 29)) 0 0
        ∗ cred (tallyAt (cell c (sndJ 0 0)) () (credS 256))
        ∗ atPos ER (cell c (sndJ 0 0)) 0 ∅ 0)
      ∗ (∀ r, (owes (c : Thread nD τ) (Ol (payL.drop 34) c) (insert (csem (sndJ 0 0), ()) (insert (csem (rcvJ 8 2), ()) W))
          ∗ cred (tallyAt (cell c (cpJ 28)) () (credO 168))
          ∗ semVal (cell c (rcvJ 8 2)) 0
          ∗ cred (tallyAt (cell c (cpJ 29)) () (credO 168))
          ∗ semVal (cell c (sndJ 0 0)) 0
          ∗ xPts m c (blkLo 0 c) 256 fullShare.right.left) -∗ Kt r))
      ⊢ wp frame (wpE (defs₀ (F := F)) 𝒱₀ (c : Thread nD τ) none) Set.univ
          (k0_part49 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v40 v1533) Kt := by
  rw [k0_part49_eq_skeleton]; unfold k0_part49_skel
  simp only [Prog.lift, Prog.bind_op, Prog.bind_ret, Prog.pure_eq_ret, semSignalWord, semWaitWord]
  /- operations, in order:
   op 93: COPY src=arg2@k0_off16 2#32:S168x512 dst=arg1@k0_off16 2#32:S168x512 sem=arg5[28] [payments made before: 34]
   op 94: WAIT sem=arg4[8, 2] src=arg2@k0_off13 2#32:S168x512 dst=arg2@k0_off13 2#32:S168x512 [payments made before: 34]
   op 95: COPY src=arg2@k0_off17 2#32:S168x512 dst=arg1@k0_off17 2#32:S168x512 sem=arg5[29] [payments made before: 34]
   op 96: WAIT sem=arg3[0, 0] src=arg2@k0_off1 0#32 0#32:S256x512 dst=arg0@k0_off2 0#32:S256x512 [payments made before: 34] -/
  iintro ⟨⟨#HR, #Hlev, HO, Hs, Ho1, Ht1, Hc, Ha, Ho2, Ht2, Hcs, Has⟩, Hk⟩
  ihave #HIc1 := (rec_inv m K c (cpJ 28)) $$ HR
  ihave #HRc1 := (rec_reached m K c (cpJ 28)) $$ HR
  iapply (copy_stage m K c 28 (by decide) (sf := 9) (sh := 2) (nr := 168) (q := fullShare) rfl (off16_lo_2 c) (off16_lo_2 c) rfl rfl rfl rfl (m ((c : Thread nD τ).loc main_v1))) $$ [Hs Ho1 Ht1]
  · isplitr; · iexact HIc1
    isplitl [Hs]; · iexact Hs
    isplitl [Ho1]; · iexact Ho1
    isplitl [Ht1]; · iexact Ht1
    iexact HRc1
  iintro Hcc1
  ihave #HIw := (rec_inv m K c (rcvJ 8 2)) $$ HR
  iapply (wp_wait_rcv m K c 8 2 rfl rfl W (Ol (payL.drop 34) c)) $$ [Hc HO Ha]
  · isplitr; · iexact HIw
    isplitl [Hc]; · iexact Hc
    isplitl [HO]; · iexact HO
    isplitr; · iapply (mayWait_of c (rcvJ 8 2) (payL.drop 34) (by decide)); iexact Hlev
    iexact Ha
  iintro ⟨HO, Hz, Hp⟩
  ihave Hp := (Entails.of_eq (recvPay_f8 m c 2 2 rfl)) $$ Hp
  ihave #HIc2 := (rec_inv m K c (cpJ 29)) $$ HR
  ihave #HRc2 := (rec_reached m K c (cpJ 29)) $$ HR
  iapply (copy_stage m K c 29 (by decide) (sf := 8) (sh := 2) (nr := 168) (q := fullShare) rfl (off17_lo_2 c) (off17_lo_2 c) rfl rfl rfl rfl (m ((c : Thread nD τ).loc main_v1))) $$ [Hp Ho2 Ht2]
  · isplitr; · iexact HIc2
    isplitl [Hp]; · iexact Hp
    isplitl [Ho2]; · iexact Ho2
    isplitl [Ht2]; · iexact Ht2
    iexact HRc2
  iintro Hcc2
  ihave #HIs := (rec_inv m K c (sndJ 0 0)) $$ HR
  iapply (wp_wait_snd m K c 0 0 rfl rfl (insert (csem (rcvJ 8 2), ()) W) (Ol (payL.drop 34) c)) $$ [Hcs HO Has]
  · isplitr; · iexact HIs
    isplitl [Hcs]; · iexact Hcs
    isplitl [HO]; · iexact HO
    isplitr; · iapply (mayWait_of c (sndJ 0 0) (payL.drop 34) (by decide)); iexact Hlev
    iexact Has
  iintro ⟨HO, Hzs, Hps⟩
  ihave Hps := (Entails.of_eq (sendPay_ring0 m c 0 (by decide))) $$ Hps
  rw [wp_ret]; imodintro
  iapply Hk
  isplitl [HO]; · iexact HO
  isplitl [Hcc1]; · iexact Hcc1
  isplitl [Hz]; · iexact Hz
  isplitl [Hcc2]; · iexact Hcc2
  isplitl [Hzs]; · iexact Hzs
  iexact Hps

end Cert.KernelIdeal.AG

end
-- ==== Proof.PartsE.lean ====
/-
  The body of one device, part by part (parts 50 to 58): what each printed part takes from the device's
  holdings and what it leaves, one rule per transfer, signal or wait.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.XferSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- What the departure cell of a ring flow's first transfer hands back: the share of the staged block lent. -/
private theorem sendPay_first (c : Dev nD) (f : Fin 10) (hf : f.val < 4) :
    sendPay m c f 0 = xPts m c (blkLo f c) (flowRows f) (r0Share f) := by
  unfold sendPay; rw [if_pos ⟨hf, rfl⟩]

/-- What the departure cell of any other transfer hands back: the share of the landed piece lent. -/
private theorem sendPay_later (c : Dev nD) (f : Fin 10) (h : Fin 3) (hfh : ¬ (f.val < 4 ∧ h.val = 0)) :
    sendPay m c f h = sPts c (lo (srcOf f h).1 (srcOf f h).2.1 c + (srcOf f h).2.2) (flowRows f) (sShare f)
      (Gd m (org (srcOf f h).1 (srcOf f h).2.1 c)) := by
  unfold sendPay; rw [if_neg hfh]

/-- What the cell of a copy of a landed piece hands over: the band of the result written and the share of the piece lent. -/
private theorem cpPay_lit (c : Dev nD) (i : Fin 32) (h31 : i.val ≠ 31) :
    cpPay m c i = iprop(oPts c (lo (cpSrc i).1 (cpSrc i).2 c) (flowRows (cpSrc i).1) fullShare (Gd m (org (cpSrc i).1 (cpSrc i).2 c))
      ∗ sPts c (lo (cpSrc i).1 (cpSrc i).2 c) (flowRows (cpSrc i).1) (cpShare (cpSrc i).1) (Gd m (org (cpSrc i).1 (cpSrc i).2 c))) := by
  unfold cpPay; rw [if_neg h31]

/-- Part 50 of the body. -/
theorem part50_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 2 0)) () (credS 256))
        ∗ atPos ER (cell c (sndJ 2 0)) 0 ∅ 0
        ∗ cred (tallyAt (cell c (sndJ 1 0)) () (credS 88))
        ∗ atPos ER (cell c (sndJ 1 0)) 0 ∅ 0
        ∗ cred (tallyAt (cell c (sndJ 3 0)) () (credS 88))
        ∗ atPos ER (cell c (sndJ 3 0)) 0 ∅ 0
        ∗ cred (tallyAt (cell c (sndJ 0 1)) () (credS 256))
        ∗ atPos ER (cell c (sndJ 0 1)) 0 ∅ 0
        ∗ cred (tallyAt (cell c (sndJ 4 0)) () (credS 256))
        ∗ atPos ER (cell c (sndJ 4 0)) 0 ∅ 0)
      ∗ (∀ r, (owes (c : Thread nD τ) (Ol (payL.drop 34) c) (insert (csem (sndJ 4 0), ()) (insert (csem (sndJ 0 1), ()) (insert (csem (sndJ 3 0), ()) (insert (csem (sndJ 1 0), ()) (insert (csem (sndJ 2 0), ()) W)))))
          ∗ semVal (cell c (sndJ 2 0)) 0
          ∗ xPts m c (blkLo 2 c) 256 fullShare.right.right.left
          ∗ semVal (cell c (sndJ 1 0)) 0
          ∗ xPts m c (blkLo 1 c) 88 fullShare.right.right.right.left
          ∗ semVal (cell c (sndJ 3 0)) 0
          ∗ xPts m c (blkLo 3 c) 88 fullShare.right.right.right.right
          ∗ semVal (cell c (sndJ 0 1)) 0
          ∗ sPts c (lo 0 0 c) 256 fullShare.right.left (Gd m (org 0 0 c))
          ∗ semVal (cell c (sndJ 4 0)) 0
          ∗ sPts c (lo 0 0 c) 256 fullShare.right.right.left (Gd m (org 0 0 c))) -∗ Kt r))
      ⊢ wp frame (wpE (defs₀ (F := F)) 𝒱₀ (c : Thread nD τ) none) Set.univ
          (k0_part50 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part50_eq_skeleton]; unfold k0_part50_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 2 0)) $$ HR
  iapply (wp_wait_snd0 m K c 2 0 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_first m c 2 (by decide))) $$ Hp1
  ihave #HI2 := (rec_inv m K c (sndJ 1 0)) $$ HR
  iapply (wp_wait_snd0 m K c 1 0 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_first m c 1 (by decide))) $$ Hp2
  ihave #HI3 := (rec_inv m K c (sndJ 3 0)) $$ HR
  iapply (wp_wait_snd0 m K c 3 0 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_first m c 3 (by decide))) $$ Hp3
  ihave #HI4 := (rec_inv m K c (sndJ 0 1)) $$ HR
  iapply (wp_wait_snd0 m K c 0 1 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 0 1 (by decide))) $$ Hp4
  ihave #HI5 := (rec_inv m K c (sndJ 4 0)) $$ HR
  iapply (wp_wait_snd0 m K c 4 0 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 4 0 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 51 of the body. -/
theorem part51_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 6 0)) () (credS 256))
        ∗ atPos ER (cell c (sndJ 6 0)) 0 ∅ 0
        ∗ cred (tallyAt (cell c (sndJ 2 1)) () (credS 256))
        ∗ atPos ER (cell c (sndJ 2 1)) 0 ∅ 0
        ∗ cred (tallyAt (cell c (sndJ 5 0)) () (credS 256))
        ∗ atPos ER (cell c (sndJ 5 0)) 0 ∅ 0
        ∗ cred (tallyAt (cell c (sndJ 7 0)) () (credS 256))
        ∗ atPos ER (cell c (sndJ 7 0)) 0 ∅ 0
        ∗ cred (tallyAt (cell c (sndJ 1 1)) () (credS 88))
        ∗ atPos ER (cell c (sndJ 1 1)) 0 ∅ 0)
      ∗ (∀ r, (owes (c : Thread nD τ) (Ol (payL.drop 34) c) (insert (csem (sndJ 1 1), ()) (insert (csem (sndJ 7 0), ()) (insert (csem (sndJ 5 0), ()) (insert (csem (sndJ 2 1), ()) (insert (csem (sndJ 6 0), ()) W)))))
          ∗ semVal (cell c (sndJ 6 0)) 0
          ∗ sPts c (lo 0 0 c) 256 fullShare.right.right.right (Gd m (org 0 0 c))
          ∗ semVal (cell c (sndJ 2 1)) 0
          ∗ sPts c (lo 2 0 c) 256 fullShare.right.left (Gd m (org 2 0 c))
          ∗ semVal (cell c (sndJ 5 0)) 0
          ∗ sPts c (lo 2 0 c) 256 fullShare.right.right.left (Gd m (org 2 0 c))
          ∗ semVal (cell c (sndJ 7 0)) 0
          ∗ sPts c (lo 2 0 c) 256 fullShare.right.right.right (Gd m (org 2 0 c))
          ∗ semVal (cell c (sndJ 1 1)) 0
          ∗ sPts c (lo 1 0 c) 88 fullShare.right (Gd m (org 1 0 c))) -∗ Kt r))
      ⊢ wp frame (wpE (defs₀ (F := F)) 𝒱₀ (c : Thread nD τ) none) Set.univ
          (k0_part51 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part51_eq_skeleton]; unfold k0_part51_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 6 0)) $$ HR
  iapply (wp_wait_snd0 m K c 6 0 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 6 0 (by decide))) $$ Hp1
  ihave #HI2 := (rec_inv m K c (sndJ 2 1)) $$ HR
  iapply (wp_wait_snd0 m K c 2 1 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 2 1 (by decide))) $$ Hp2
  ihave #HI3 := (rec_inv m K c (sndJ 5 0)) $$ HR
  iapply (wp_wait_snd0 m K c 5 0 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 5 0 (by decide))) $$ Hp3
  ihave #HI4 := (rec_inv m K c (sndJ 7 0)) $$ HR
  iapply (wp_wait_snd0 m K c 7 0 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 7 0 (by decide))) $$ Hp4
  ihave #HI5 := (rec_inv m K c (sndJ 1 1)) $$ HR
  iapply (wp_wait_snd0 m K c 1 1 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 1 1 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 52 of the body. -/
theorem part52_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 3 1)) () (credS 88))
        ∗ atPos ER (cell c (sndJ 3 1)) 0 ∅ 0
        ∗ cred (tallyAt (cell c (sndJ 9 0)) () (credS 168))
        ∗ atPos ER (cell c (sndJ 9 0)) 0 ∅ 0
        ∗ cred (tallyAt (cell c (sndJ 8 0)) () (credS 168))
        ∗ atPos ER (cell c (sndJ 8 0)) 0 ∅ 0
        ∗ cred (tallyAt (cell c (sndJ 0 2)) () (credS 256))
        ∗ atPos ER (cell c (sndJ 0 2)) 0 ∅ 0
        ∗ cred (tallyAt (cell c (sndJ 4 1)) () (credS 256))
        ∗ atPos ER (cell c (sndJ 4 1)) 0 ∅ 0)
      ∗ (∀ r, (owes (c : Thread nD τ) (Ol (payL.drop 34) c) (insert (csem (sndJ 4 1), ()) (insert (csem (sndJ 0 2), ()) (insert (csem (sndJ 8 0), ()) (insert (csem (sndJ 9 0), ()) (insert (csem (sndJ 3 1), ()) W)))))
          ∗ semVal (cell c (sndJ 3 1)) 0
          ∗ sPts c (lo 3 0 c) 88 fullShare.right (Gd m (org 3 0 c))
          ∗ semVal (cell c (sndJ 9 0)) 0
          ∗ sPts c (lo 6 0 c + 88) 168 fullShare.right (Gd m (org 6 0 c))
          ∗ semVal (cell c (sndJ 8 0)) 0
          ∗ sPts c (lo 5 0 c + 88) 168 fullShare.right (Gd m (org 5 0 c))
          ∗ semVal (cell c (sndJ 0 2)) 0
          ∗ sPts c (lo 0 1 c) 256 fullShare.right.left (Gd m (org 0 1 c))
          ∗ semVal (cell c (sndJ 4 1)) 0
          ∗ sPts c (lo 0 1 c) 256 fullShare.right.right.left (Gd m (org 0 1 c))) -∗ Kt r))
      ⊢ wp frame (wpE (defs₀ (F := F)) 𝒱₀ (c : Thread nD τ) none) Set.univ
          (k0_part52 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part52_eq_skeleton]; unfold k0_part52_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 3 1)) $$ HR
  iapply (wp_wait_snd0 m K c 3 1 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 3 1 (by decide))) $$ Hp1
  ihave #HI2 := (rec_inv m K c (sndJ 9 0)) $$ HR
  iapply (wp_wait_snd0 m K c 9 0 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 9 0 (by decide))) $$ Hp2
  ihave #HI3 := (rec_inv m K c (sndJ 8 0)) $$ HR
  iapply (wp_wait_snd0 m K c 8 0 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 8 0 (by decide))) $$ Hp3
  ihave #HI4 := (rec_inv m K c (sndJ 0 2)) $$ HR
  iapply (wp_wait_snd0 m K c 0 2 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 0 2 (by decide))) $$ Hp4
  ihave #HI5 := (rec_inv m K c (sndJ 4 1)) $$ HR
  iapply (wp_wait_snd0 m K c 4 1 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 4 1 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 53 of the body. -/
theorem part53_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 6 1)) () (credS 256))
        ∗ atPos ER (cell c (sndJ 6 1)) 0 ∅ 0
        ∗ cred (tallyAt (cell c (sndJ 2 2)) () (credS 256))
        ∗ atPos ER (cell c (sndJ 2 2)) 0 ∅ 0
        ∗ cred (tallyAt (cell c (sndJ 5 1)) () (credS 256))
        ∗ atPos ER (cell c (sndJ 5 1)) 0 ∅ 0
        ∗ cred (tallyAt (cell c (sndJ 7 1)) () (credS 256))
        ∗ atPos ER (cell c (sndJ 7 1)) 0 ∅ 0
        ∗ cred (tallyAt (cell c (sndJ 1 2)) () (credS 88))
        ∗ atPos ER (cell c (sndJ 1 2)) 0 ∅ 0)
      ∗ (∀ r, (owes (c : Thread nD τ) (Ol (payL.drop 34) c) (insert (csem (sndJ 1 2), ()) (insert (csem (sndJ 7 1), ()) (insert (csem (sndJ 5 1), ()) (insert (csem (sndJ 2 2), ()) (insert (csem (sndJ 6 1), ()) W)))))
          ∗ semVal (cell c (sndJ 6 1)) 0
          ∗ sPts c (lo 0 1 c) 256 fullShare.right.right.right (Gd m (org 0 1 c))
          ∗ semVal (cell c (sndJ 2 2)) 0
          ∗ sPts c (lo 2 1 c) 256 fullShare.right.left (Gd m (org 2 1 c))
          ∗ semVal (cell c (sndJ 5 1)) 0
          ∗ sPts c (lo 2 1 c) 256 fullShare.right.right.left (Gd m (org 2 1 c))
          ∗ semVal (cell c (sndJ 7 1)) 0
          ∗ sPts c (lo 2 1 c) 256 fullShare.right.right.right (Gd m (org 2 1 c))
          ∗ semVal (cell c (sndJ 1 2)) 0
          ∗ sPts c (lo 1 1 c) 88 fullShare.right (Gd m (org 1 1 c))) -∗ Kt r))
      ⊢ wp frame (wpE (defs₀ (F := F)) 𝒱₀ (c : Thread nD τ) none) Set.univ
          (k0_part53 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part53_eq_skeleton]; unfold k0_part53_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 6 1)) $$ HR
  iapply (wp_wait_snd0 m K c 6 1 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 6 1 (by decide))) $$ Hp1
  ihave #HI2 := (rec_inv m K c (sndJ 2 2)) $$ HR
  iapply (wp_wait_snd0 m K c 2 2 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 2 2 (by decide))) $$ Hp2
  ihave #HI3 := (rec_inv m K c (sndJ 5 1)) $$ HR
  iapply (wp_wait_snd0 m K c 5 1 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 5 1 (by decide))) $$ Hp3
  ihave #HI4 := (rec_inv m K c (sndJ 7 1)) $$ HR
  iapply (wp_wait_snd0 m K c 7 1 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 7 1 (by decide))) $$ Hp4
  ihave #HI5 := (rec_inv m K c (sndJ 1 2)) $$ HR
  iapply (wp_wait_snd0 m K c 1 2 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 1 2 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 54 of the body. -/
theorem part54_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 3 2)) () (credS 88))
        ∗ atPos ER (cell c (sndJ 3 2)) 0 ∅ 0
        ∗ cred (tallyAt (cell c (sndJ 9 1)) () (credS 168))
        ∗ atPos ER (cell c (sndJ 9 1)) 0 ∅ 0
        ∗ cred (tallyAt (cell c (sndJ 8 1)) () (credS 168))
        ∗ atPos ER (cell c (sndJ 8 1)) 0 ∅ 0
        ∗ cred (tallyAt (cell c (sndJ 4 2)) () (credS 256))
        ∗ atPos ER (cell c (sndJ 4 2)) 0 ∅ 0
        ∗ cred (tallyAt (cell c (sndJ 6 2)) () (credS 256))
        ∗ atPos ER (cell c (sndJ 6 2)) 0 ∅ 0)
      ∗ (∀ r, (owes (c : Thread nD τ) (Ol (payL.drop 34) c) (insert (csem (sndJ 6 2), ()) (insert (csem (sndJ 4 2), ()) (insert (csem (sndJ 8 1), ()) (insert (csem (sndJ 9 1), ()) (insert (csem (sndJ 3 2), ()) W)))))
          ∗ semVal (cell c (sndJ 3 2)) 0
          ∗ sPts c (lo 3 1 c) 88 fullShare.right (Gd m (org 3 1 c))
          ∗ semVal (cell c (sndJ 9 1)) 0
          ∗ sPts c (lo 6 1 c + 88) 168 fullShare.right (Gd m (org 6 1 c))
          ∗ semVal (cell c (sndJ 8 1)) 0
          ∗ sPts c (lo 5 1 c + 88) 168 fullShare.right (Gd m (org 5 1 c))
          ∗ semVal (cell c (sndJ 4 2)) 0
          ∗ sPts c (lo 0 2 c) 256 fullShare.right.right.left (Gd m (org 0 2 c))
          ∗ semVal (cell c (sndJ 6 2)) 0
          ∗ sPts c (lo 0 2 c) 256 fullShare.right.right.right (Gd m (org 0 2 c))) -∗ Kt r))
      ⊢ wp frame (wpE (defs₀ (F := F)) 𝒱₀ (c : Thread nD τ) none) Set.univ
          (k0_part54 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part54_eq_skeleton]; unfold k0_part54_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 3 2)) $$ HR
  iapply (wp_wait_snd0 m K c 3 2 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 3 2 (by decide))) $$ Hp1
  ihave #HI2 := (rec_inv m K c (sndJ 9 1)) $$ HR
  iapply (wp_wait_snd0 m K c 9 1 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 9 1 (by decide))) $$ Hp2
  ihave #HI3 := (rec_inv m K c (sndJ 8 1)) $$ HR
  iapply (wp_wait_snd0 m K c 8 1 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 8 1 (by decide))) $$ Hp3
  ihave #HI4 := (rec_inv m K c (sndJ 4 2)) $$ HR
  iapply (wp_wait_snd0 m K c 4 2 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 4 2 (by decide))) $$ Hp4
  ihave #HI5 := (rec_inv m K c (sndJ 6 2)) $$ HR
  iapply (wp_wait_snd0 m K c 6 2 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 6 2 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 55 of the body. -/
theorem part55_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 5 2)) () (credS 256))
        ∗ atPos ER (cell c (sndJ 5 2)) 0 ∅ 0
        ∗ cred (tallyAt (cell c (sndJ 7 2)) () (credS 256))
        ∗ atPos ER (cell c (sndJ 7 2)) 0 ∅ 0
        ∗ cred (tallyAt (cell c (sndJ 9 2)) () (credS 168))
        ∗ atPos ER (cell c (sndJ 9 2)) 0 ∅ 0
        ∗ cred (tallyAt (cell c (sndJ 8 2)) () (credS 168))
        ∗ atPos ER (cell c (sndJ 8 2)) 0 ∅ 0
        ∗ cred (tallyAt (cell c (cpJ 0)) () (credO 256))
        ∗ atPos ER (cell c (cpJ 0)) 0 ∅ 0
        ∗ cred (tallyAt (cell c (cpJ 1)) () (credO 256))
        ∗ atPos ER (cell c (cpJ 1)) 0 ∅ 0)
      ∗ (∀ r, (owes (c : Thread nD τ) (Ol (payL.drop 34) c) (insert (csem (cpJ 1), ()) (insert (csem (cpJ 0), ()) (insert (csem (sndJ 8 2), ()) (insert (csem (sndJ 9 2), ()) (insert (csem (sndJ 7 2), ()) (insert (csem (sndJ 5 2), ()) W))))))
          ∗ semVal (cell c (sndJ 5 2)) 0
          ∗ sPts c (lo 2 2 c) 256 fullShare.right.right.left (Gd m (org 2 2 c))
          ∗ semVal (cell c (sndJ 7 2)) 0
          ∗ sPts c (lo 2 2 c) 256 fullShare.right.right.right (Gd m (org 2 2 c))
          ∗ semVal (cell c (sndJ 9 2)) 0
          ∗ sPts c (lo 6 2 c + 88) 168 fullShare.right (Gd m (org 6 2 c))
          ∗ semVal (cell c (sndJ 8 2)) 0
          ∗ sPts c (lo 5 2 c + 88) 168 fullShare.right (Gd m (org 5 2 c))
          ∗ semVal (cell c (cpJ 0)) 0
          ∗ oPts c (lo 0 0 c) 256 fullShare (Gd m (org 0 0 c))
          ∗ sPts c (lo 0 0 c) 256 fullShare.left (Gd m (org 0 0 c))
          ∗ semVal (cell c (cpJ 1)) 0
          ∗ oPts c (lo 2 0 c) 256 fullShare (Gd m (org 2 0 c))
          ∗ sPts c (lo 2 0 c) 256 fullShare.left (Gd m (org 2 0 c))) -∗ Kt r))
      ⊢ wp frame (wpE (defs₀ (F := F)) 𝒱₀ (c : Thread nD τ) none) Set.univ
          (k0_part55 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part55_eq_skeleton]; unfold k0_part55_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6⟩, Hk⟩
  ihave #HI1 := (rec_inv m K c (sndJ 5 2)) $$ HR
  iapply (wp_wait_snd0 m K c 5 2 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 5 2 (by decide))) $$ Hp1
  ihave #HI2 := (rec_inv m K c (sndJ 7 2)) $$ HR
  iapply (wp_wait_snd0 m K c 7 2 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 7 2 (by decide))) $$ Hp2
  ihave #HI3 := (rec_inv m K c (sndJ 9 2)) $$ HR
  iapply (wp_wait_snd0 m K c 9 2 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 9 2 (by decide))) $$ Hp3
  ihave #HI4 := (rec_inv m K c (sndJ 8 2)) $$ HR
  iapply (wp_wait_snd0 m K c 8 2 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 8 2 (by decide))) $$ Hp4
  ihave #HI5 := (rec_inv m K c (cpJ 0)) $$ HR
  iapply (wp_wait_cp m K c 0 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 0 (by decide))) $$ Hq5
  icases Hq5 with ⟨Ho5, Hs5⟩
  ihave #HI6 := (rec_inv m K c (cpJ 1)) $$ HR
  iapply (wp_wait_cp m K c 1 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 1 (by decide))) $$ Hq6
  icases Hq6 with ⟨Ho6, Hs6⟩
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  isplitl [Ho5]; · iexact Ho5
  isplitl [Hs5]; · iexact Hs5
  isplitl [Hv6]; · iexact Hv6
  isplitl [Ho6]; · iexact Ho6
  iexact Hs6

/-- Part 56 of the body. -/
theorem part56_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (cpJ 2)) () (credO 88))
        ∗ atPos ER (cell c (cpJ 2)) 0 ∅ 0
        ∗ cred (tallyAt (cell c (cpJ 3)) () (credO 88))
        ∗ atPos ER (cell c (cpJ 3)) 0 ∅ 0
        ∗ cred (tallyAt (cell c (cpJ 4)) () (credO 256))
        ∗ atPos ER (cell c (cpJ 4)) 0 ∅ 0
        ∗ cred (tallyAt (cell c (cpJ 5)) () (credO 256))
        ∗ atPos ER (cell c (cpJ 5)) 0 ∅ 0
        ∗ cred (tallyAt (cell c (cpJ 6)) () (credO 256))
        ∗ atPos ER (cell c (cpJ 6)) 0 ∅ 0
        ∗ cred (tallyAt (cell c (cpJ 7)) () (credO 256))
        ∗ atPos ER (cell c (cpJ 7)) 0 ∅ 0
        ∗ cred (tallyAt (cell c (cpJ 8)) () (credO 256))
        ∗ atPos ER (cell c (cpJ 8)) 0 ∅ 0)
      ∗ (∀ r, (owes (c : Thread nD τ) (Ol (payL.drop 34) c) (insert (csem (cpJ 8), ()) (insert (csem (cpJ 7), ()) (insert (csem (cpJ 6), ()) (insert (csem (cpJ 5), ()) (insert (csem (cpJ 4), ()) (insert (csem (cpJ 3), ()) (insert (csem (cpJ 2), ()) W)))))))
          ∗ semVal (cell c (cpJ 2)) 0
          ∗ oPts c (lo 1 0 c) 88 fullShare (Gd m (org 1 0 c))
          ∗ sPts c (lo 1 0 c) 88 fullShare.left (Gd m (org 1 0 c))
          ∗ semVal (cell c (cpJ 3)) 0
          ∗ oPts c (lo 3 0 c) 88 fullShare (Gd m (org 3 0 c))
          ∗ sPts c (lo 3 0 c) 88 fullShare.left (Gd m (org 3 0 c))
          ∗ semVal (cell c (cpJ 4)) 0
          ∗ oPts c (lo 6 0 c) 256 fullShare (Gd m (org 6 0 c))
          ∗ sPts c (lo 6 0 c) 256 fullShare.left (Gd m (org 6 0 c))
          ∗ semVal (cell c (cpJ 5)) 0
          ∗ oPts c (lo 5 0 c) 256 fullShare (Gd m (org 5 0 c))
          ∗ sPts c (lo 5 0 c) 256 fullShare.left (Gd m (org 5 0 c))
          ∗ semVal (cell c (cpJ 6)) 0
          ∗ oPts c (lo 4 0 c) 256 fullShare (Gd m (org 4 0 c))
          ∗ sPts c (lo 4 0 c) 256 fullShare (Gd m (org 4 0 c))
          ∗ semVal (cell c (cpJ 7)) 0
          ∗ oPts c (lo 7 0 c) 256 fullShare (Gd m (org 7 0 c))
          ∗ sPts c (lo 7 0 c) 256 fullShare (Gd m (org 7 0 c))
          ∗ semVal (cell c (cpJ 8)) 0
          ∗ oPts c (lo 0 1 c) 256 fullShare (Gd m (org 0 1 c))
          ∗ sPts c (lo 0 1 c) 256 fullShare.left (Gd m (org 0 1 c))) -∗ Kt r))
      ⊢ wp frame (wpE (defs₀ (F := F)) 𝒱₀ (c : Thread nD τ) none) Set.univ
          (k0_part56 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part56_eq_skeleton]; unfold k0_part56_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6, Hc7, Ha7⟩, Hk⟩
  ihave #HI1 := (rec_inv m K c (cpJ 2)) $$ HR
  iapply (wp_wait_cp m K c 2 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_lit m c 2 (by decide))) $$ Hq1
  icases Hq1 with ⟨Ho1, Hs1⟩
  ihave #HI2 := (rec_inv m K c (cpJ 3)) $$ HR
  iapply (wp_wait_cp m K c 3 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_lit m c 3 (by decide))) $$ Hq2
  icases Hq2 with ⟨Ho2, Hs2⟩
  ihave #HI3 := (rec_inv m K c (cpJ 4)) $$ HR
  iapply (wp_wait_cp m K c 4 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_lit m c 4 (by decide))) $$ Hq3
  icases Hq3 with ⟨Ho3, Hs3⟩
  ihave #HI4 := (rec_inv m K c (cpJ 5)) $$ HR
  iapply (wp_wait_cp m K c 5 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_lit m c 5 (by decide))) $$ Hq4
  icases Hq4 with ⟨Ho4, Hs4⟩
  ihave #HI5 := (rec_inv m K c (cpJ 6)) $$ HR
  iapply (wp_wait_cp m K c 6 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 6 (by decide))) $$ Hq5
  icases Hq5 with ⟨Ho5, Hs5⟩
  ihave #HI6 := (rec_inv m K c (cpJ 7)) $$ HR
  iapply (wp_wait_cp m K c 7 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 7 (by decide))) $$ Hq6
  icases Hq6 with ⟨Ho6, Hs6⟩
  ihave #HI7 := (rec_inv m K c (cpJ 8)) $$ HR
  iapply (wp_wait_cp m K c 8 (by decide) (by rfl) (by rfl) _) $$ [HO Hc7 Ha7]
  · isplitr; · iexact HI7
    isplitl [Hc7]; · iexact Hc7
    isplitl [HO]; · iexact HO
    iexact Ha7
  iintro ⟨HO, Hv7, Hq7⟩
  ihave Hq7 := (Entails.of_eq (cpPay_lit m c 8 (by decide))) $$ Hq7
  icases Hq7 with ⟨Ho7, Hs7⟩
  rw [wp_ret]; imodintro; iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  iexact Hs7

/-- Part 57 of the body. -/
theorem part57_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (cpJ 9)) () (credO 256))
        ∗ atPos ER (cell c (cpJ 9)) 0 ∅ 0
        ∗ cred (tallyAt (cell c (cpJ 10)) () (credO 88))
        ∗ atPos ER (cell c (cpJ 10)) 0 ∅ 0
        ∗ cred (tallyAt (cell c (cpJ 11)) () (credO 88))
        ∗ atPos ER (cell c (cpJ 11)) 0 ∅ 0
        ∗ cred (tallyAt (cell c (cpJ 12)) () (credO 256))
        ∗ atPos ER (cell c (cpJ 12)) 0 ∅ 0
        ∗ cred (tallyAt (cell c (cpJ 13)) () (credO 256))
        ∗ atPos ER (cell c (cpJ 13)) 0 ∅ 0
        ∗ cred (tallyAt (cell c (cpJ 14)) () (credO 256))
        ∗ atPos ER (cell c (cpJ 14)) 0 ∅ 0
        ∗ cred (tallyAt (cell c (cpJ 15)) () (credO 256))
        ∗ atPos ER (cell c (cpJ 15)) 0 ∅ 0
        ∗ cred (tallyAt (cell c (cpJ 16)) () (credO 256))
        ∗ atPos ER (cell c (cpJ 16)) 0 ∅ 0)
      ∗ (∀ r, (owes (c : Thread nD τ) (Ol (payL.drop 34) c) (insert (csem (cpJ 16), ()) (insert (csem (cpJ 15), ()) (insert (csem (cpJ 14), ()) (insert (csem (cpJ 13), ()) (insert (csem (cpJ 12), ()) (insert (csem (cpJ 11), ()) (insert (csem (cpJ 10), ()) (insert (csem (cpJ 9), ()) W))))))))
          ∗ semVal (cell c (cpJ 9)) 0
          ∗ oPts c (lo 2 1 c) 256 fullShare (Gd m (org 2 1 c))
          ∗ sPts c (lo 2 1 c) 256 fullShare.left (Gd m (org 2 1 c))
          ∗ semVal (cell c (cpJ 10)) 0
          ∗ oPts c (lo 1 1 c) 88 fullShare (Gd m (org 1 1 c))
          ∗ sPts c (lo 1 1 c) 88 fullShare.left (Gd m (org 1 1 c))
          ∗ semVal (cell c (cpJ 11)) 0
          ∗ oPts c (lo 3 1 c) 88 fullShare (Gd m (org 3 1 c))
          ∗ sPts c (lo 3 1 c) 88 fullShare.left (Gd m (org 3 1 c))
          ∗ semVal (cell c (cpJ 12)) 0
          ∗ oPts c (lo 6 1 c) 256 fullShare (Gd m (org 6 1 c))
          ∗ sPts c (lo 6 1 c) 256 fullShare.left (Gd m (org 6 1 c))
          ∗ semVal (cell c (cpJ 13)) 0
          ∗ oPts c (lo 5 1 c) 256 fullShare (Gd m (org 5 1 c))
          ∗ sPts c (lo 5 1 c) 256 fullShare.left (Gd m (org 5 1 c))
          ∗ semVal (cell c (cpJ 14)) 0
          ∗ oPts c (lo 4 1 c) 256 fullShare (Gd m (org 4 1 c))
          ∗ sPts c (lo 4 1 c) 256 fullShare (Gd m (org 4 1 c))
          ∗ semVal (cell c (cpJ 15)) 0
          ∗ oPts c (lo 7 1 c) 256 fullShare (Gd m (org 7 1 c))
          ∗ sPts c (lo 7 1 c) 256 fullShare (Gd m (org 7 1 c))
          ∗ semVal (cell c (cpJ 16)) 0
          ∗ oPts c (lo 0 2 c) 256 fullShare (Gd m (org 0 2 c))
          ∗ sPts c (lo 0 2 c) 256 fullShare.left (Gd m (org 0 2 c))) -∗ Kt r))
      ⊢ wp frame (wpE (defs₀ (F := F)) 𝒱₀ (c : Thread nD τ) none) Set.univ
          (k0_part57 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part57_eq_skeleton]; unfold k0_part57_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6, Hc7, Ha7, Hc8, Ha8⟩, Hk⟩
  ihave #HI1 := (rec_inv m K c (cpJ 9)) $$ HR
  iapply (wp_wait_cp m K c 9 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_lit m c 9 (by decide))) $$ Hq1
  icases Hq1 with ⟨Ho1, Hs1⟩
  ihave #HI2 := (rec_inv m K c (cpJ 10)) $$ HR
  iapply (wp_wait_cp m K c 10 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_lit m c 10 (by decide))) $$ Hq2
  icases Hq2 with ⟨Ho2, Hs2⟩
  ihave #HI3 := (rec_inv m K c (cpJ 11)) $$ HR
  iapply (wp_wait_cp m K c 11 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_lit m c 11 (by decide))) $$ Hq3
  icases Hq3 with ⟨Ho3, Hs3⟩
  ihave #HI4 := (rec_inv m K c (cpJ 12)) $$ HR
  iapply (wp_wait_cp m K c 12 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_lit m c 12 (by decide))) $$ Hq4
  icases Hq4 with ⟨Ho4, Hs4⟩
  ihave #HI5 := (rec_inv m K c (cpJ 13)) $$ HR
  iapply (wp_wait_cp m K c 13 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 13 (by decide))) $$ Hq5
  icases Hq5 with ⟨Ho5, Hs5⟩
  ihave #HI6 := (rec_inv m K c (cpJ 14)) $$ HR
  iapply (wp_wait_cp m K c 14 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 14 (by decide))) $$ Hq6
  icases Hq6 with ⟨Ho6, Hs6⟩
  ihave #HI7 := (rec_inv m K c (cpJ 15)) $$ HR
  iapply (wp_wait_cp m K c 15 (by decide) (by rfl) (by rfl) _) $$ [HO Hc7 Ha7]
  · isplitr; · iexact HI7
    isplitl [Hc7]; · iexact Hc7
    isplitl [HO]; · iexact HO
    iexact Ha7
  iintro ⟨HO, Hv7, Hq7⟩
  ihave Hq7 := (Entails.of_eq (cpPay_lit m c 15 (by decide))) $$ Hq7
  icases Hq7 with ⟨Ho7, Hs7⟩
  ihave #HI8 := (rec_inv m K c (cpJ 16)) $$ HR
  iapply (wp_wait_cp m K c 16 (by decide) (by rfl) (by rfl) _) $$ [HO Hc8 Ha8]
  · isplitr; · iexact HI8
    isplitl [Hc8]; · iexact Hc8
    isplitl [HO]; · iexact HO
    iexact Ha8
  iintro ⟨HO, Hv8, Hq8⟩
  ihave Hq8 := (Entails.of_eq (cpPay_lit m c 16 (by decide))) $$ Hq8
  icases Hq8 with ⟨Ho8, Hs8⟩
  rw [wp_ret]; imodintro; iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  isplitl [Hs7]; · iexact Hs7
  isplitl [Hv8]; · iexact Hv8
  isplitl [Ho8]; · iexact Ho8
  iexact Hs8

/-- Part 58 of the body. -/
theorem part58_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (cpJ 17)) () (credO 256))
        ∗ atPos ER (cell c (cpJ 17)) 0 ∅ 0
        ∗ cred (tallyAt (cell c (cpJ 18)) () (credO 88))
        ∗ atPos ER (cell c (cpJ 18)) 0 ∅ 0
        ∗ cred (tallyAt (cell c (cpJ 19)) () (credO 88))
        ∗ atPos ER (cell c (cpJ 19)) 0 ∅ 0
        ∗ cred (tallyAt (cell c (cpJ 20)) () (credO 256))
        ∗ atPos ER (cell c (cpJ 20)) 0 ∅ 0
        ∗ cred (tallyAt (cell c (cpJ 21)) () (credO 256))
        ∗ atPos ER (cell c (cpJ 21)) 0 ∅ 0
        ∗ cred (tallyAt (cell c (cpJ 22)) () (credO 256))
        ∗ atPos ER (cell c (cpJ 22)) 0 ∅ 0
        ∗ cred (tallyAt (cell c (cpJ 23)) () (credO 256))
        ∗ atPos ER (cell c (cpJ 23)) 0 ∅ 0)
      ∗ (∀ r, (owes (c : Thread nD τ) (Ol (payL.drop 34) c) (insert (csem (cpJ 23), ()) (insert (csem (cpJ 22), ()) (insert (csem (cpJ 21), ()) (insert (csem (cpJ 20), ()) (insert (csem (cpJ 19), ()) (insert (csem (cpJ 18), ()) (insert (csem (cpJ 17), ()) W)))))))
          ∗ semVal (cell c (cpJ 17)) 0
          ∗ oPts c (lo 2 2 c) 256 fullShare (Gd m (org 2 2 c))
          ∗ sPts c (lo 2 2 c) 256 fullShare.left (Gd m (org 2 2 c))
          ∗ semVal (cell c (cpJ 18)) 0
          ∗ oPts c (lo 1 2 c) 88 fullShare (Gd m (org 1 2 c))
          ∗ sPts c (lo 1 2 c) 88 fullShare.left (Gd m (org 1 2 c))
          ∗ semVal (cell c (cpJ 19)) 0
          ∗ oPts c (lo 3 2 c) 88 fullShare (Gd m (org 3 2 c))
          ∗ sPts c (lo 3 2 c) 88 fullShare.left (Gd m (org 3 2 c))
          ∗ semVal (cell c (cpJ 20)) 0
          ∗ oPts c (lo 6 2 c) 256 fullShare (Gd m (org 6 2 c))
          ∗ sPts c (lo 6 2 c) 256 fullShare.left (Gd m (org 6 2 c))
          ∗ semVal (cell c (cpJ 21)) 0
          ∗ oPts c (lo 5 2 c) 256 fullShare (Gd m (org 5 2 c))
          ∗ sPts c (lo 5 2 c) 256 fullShare.left (Gd m (org 5 2 c))
          ∗ semVal (cell c (cpJ 22)) 0
          ∗ oPts c (lo 4 2 c) 256 fullShare (Gd m (org 4 2 c))
          ∗ sPts c (lo 4 2 c) 256 fullShare (Gd m (org 4 2 c))
          ∗ semVal (cell c (cpJ 23)) 0
          ∗ oPts c (lo 7 2 c) 256 fullShare (Gd m (org 7 2 c))
          ∗ sPts c (lo 7 2 c) 256 fullShare (Gd m (org 7 2 c))) -∗ Kt r))
      ⊢ wp frame (wpE (defs₀ (F := F)) 𝒱₀ (c : Thread nD τ) none) Set.univ
          (k0_part58 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part58_eq_skeleton]; unfold k0_part58_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6, Hc7, Ha7⟩, Hk⟩
  ihave #HI1 := (rec_inv m K c (cpJ 17)) $$ HR
  iapply (wp_wait_cp m K c 17 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_lit m c 17 (by decide))) $$ Hq1
  icases Hq1 with ⟨Ho1, Hs1⟩
  ihave #HI2 := (rec_inv m K c (cpJ 18)) $$ HR
  iapply (wp_wait_cp m K c 18 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_lit m c 18 (by decide))) $$ Hq2
  icases Hq2 with ⟨Ho2, Hs2⟩
  ihave #HI3 := (rec_inv m K c (cpJ 19)) $$ HR
  iapply (wp_wait_cp m K c 19 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_lit m c 19 (by decide))) $$ Hq3
  icases Hq3 with ⟨Ho3, Hs3⟩
  ihave #HI4 := (rec_inv m K c (cpJ 20)) $$ HR
  iapply (wp_wait_cp m K c 20 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_lit m c 20 (by decide))) $$ Hq4
  icases Hq4 with ⟨Ho4, Hs4⟩
  ihave #HI5 := (rec_inv m K c (cpJ 21)) $$ HR
  iapply (wp_wait_cp m K c 21 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 21 (by decide))) $$ Hq5
  icases Hq5 with ⟨Ho5, Hs5⟩
  ihave #HI6 := (rec_inv m K c (cpJ 22)) $$ HR
  iapply (wp_wait_cp m K c 22 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 22 (by decide))) $$ Hq6
  icases Hq6 with ⟨Ho6, Hs6⟩
  ihave #HI7 := (rec_inv m K c (cpJ 23)) $$ HR
  iapply (wp_wait_cp m K c 23 (by decide) (by rfl) (by rfl) _) $$ [HO Hc7 Ha7]
  · isplitr; · iexact HI7
    isplitl [Hc7]; · iexact Hc7
    isplitl [HO]; · iexact HO
    iexact Ha7
  iintro ⟨HO, Hv7, Hq7⟩
  ihave Hq7 := (Entails.of_eq (cpPay_lit m c 23 (by decide))) $$ Hq7
  icases Hq7 with ⟨Ho7, Hs7⟩
  rw [wp_ret]; imodintro; iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  iexact Hs7

end Cert.KernelIdeal.AG

end
-- ==== Proof.Tail.lean ====
/-
  The end of the body: the last seven copies into the result are waited for.
-/
import proofs.«900685_g7700000000000686_dist_ag_v7x_xyz2x2x4_z_m2048_n512_f32_1_alg».proof.Proof.WaitSteps
import proofs.«900685_g7700000000000686_dist_ag_v7x_xyz2x2x4_z_m2048_n512_f32_1_alg».proof.Proof.Dist
import proofs.«900685_g7700000000000686_dist_ag_v7x_xyz2x2x4_z_m2048_n512_f32_1_alg».proof.Proof.Rec

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The body's statements after its last printed part, over the device the first part read. -/
noncomputable def bodyTail (arg0 : Memref sig .tc .vmem S2048x512 .f32) (harg0 : arg0.IsWhole) (arg1 : Memref sig .tc .hbm S8192x512 .f32) (harg1 : arg1.IsWhole) (arg2 : Memref sig .tc .vmem S8192x512 .f32) (harg2 : arg2.IsWhole) (arg3 : DmaSems sig S10x3) (arg4 : DmaSems sig S10x3) (arg5 : DmaSems sig S32) (d0 : Dev nD) :
    Prog (TpuEff nD τ sig (Elt F) Λ₀ .tc) PUnit := do
  let v1790 : Memref sig .tc .vmem S168x512 .f32 := arg2.slice (Rect.unit (s := S8192x512) (k0_off16 d0 0#32) S168x512.size (k0_off16_inb d0 0)) (fun _ => rfl)
  let v1787 : DmaSems sig S1 := arg5.slice (Rect.unit (s := S32) ![24] S1.size inb_S32_S1_24)
  let v1788 : DmaSems sig S_ := v1787.squeeze S_ squeezes_S1_S_
  let v1789 : Memref sig .tc .hbm S168x512 .f32 := arg1.slice (Rect.unit (s := S8192x512) (k0_off16 d0 0#32) S168x512.size (k0_off16_inb d0 0)) (fun _ => rfl)
  Prog.lift (.waitDma2 v1788.sem v1790 v1789 (View.wordExact_bits rfl) (View.wordExact_bits rfl))
  let v1791 : DmaSems sig S1 := arg5.slice (Rect.unit (s := S32) ![25] S1.size inb_S32_S1_25)
  let v1792 : DmaSems sig S_ := v1791.squeeze S_ squeezes_S1_S_
  let v1793 : Memref sig .tc .hbm S168x512 .f32 := arg1.slice (Rect.unit (s := S8192x512) (k0_off17 d0 0#32) S168x512.size (k0_off17_inb d0 0)) (fun _ => rfl)
  let v1794 : Memref sig .tc .vmem S168x512 .f32 := arg2.slice (Rect.unit (s := S8192x512) (k0_off17 d0 0#32) S168x512.size (k0_off17_inb d0 0)) (fun _ => rfl)
  Prog.lift (.waitDma2 v1792.sem v1794 v1793 (View.wordExact_bits rfl) (View.wordExact_bits rfl))
  let v1795 : DmaSems sig S1 := arg5.slice (Rect.unit (s := S32) ![26] S1.size inb_S32_S1_26)
  let v1796 : DmaSems sig S_ := v1795.squeeze S_ squeezes_S1_S_
  let v1797 : Memref sig .tc .hbm S168x512 .f32 := arg1.slice (Rect.unit (s := S8192x512) (k0_off16 d0 1#32) S168x512.size (k0_off16_inb d0 1)) (fun _ => rfl)
  let v1798 : Memref sig .tc .vmem S168x512 .f32 := arg2.slice (Rect.unit (s := S8192x512) (k0_off16 d0 1#32) S168x512.size (k0_off16_inb d0 1)) (fun _ => rfl)
  Prog.lift (.waitDma2 v1796.sem v1798 v1797 (View.wordExact_bits rfl) (View.wordExact_bits rfl))
  let v1799 : DmaSems sig S1 := arg5.slice (Rect.unit (s := S32) ![27] S1.size inb_S32_S1_27)
  let v1800 : DmaSems sig S_ := v1799.squeeze S_ squeezes_S1_S_
  let v1801 : Memref sig .tc .hbm S168x512 .f32 := arg1.slice (Rect.unit (s := S8192x512) (k0_off17 d0 1#32) S168x512.size (k0_off17_inb d0 1)) (fun _ => rfl)
  let v1802 : Memref sig .tc .vmem S168x512 .f32 := arg2.slice (Rect.unit (s := S8192x512) (k0_off17 d0 1#32) S168x512.size (k0_off17_inb d0 1)) (fun _ => rfl)
  Prog.lift (.waitDma2 v1800.sem v1802 v1801 (View.wordExact_bits rfl) (View.wordExact_bits rfl))
  let v1803 : DmaSems sig S1 := arg5.slice (Rect.unit (s := S32) ![28] S1.size inb_S32_S1_28)
  let v1804 : DmaSems sig S_ := v1803.squeeze S_ squeezes_S1_S_
  let v1805 : Memref sig .tc .hbm S168x512 .f32 := arg1.slice (Rect.unit (s := S8192x512) (k0_off16 d0 2#32) S168x512.size (k0_off16_inb d0 2)) (fun _ => rfl)
  let v1806 : Memref sig .tc .vmem S168x512 .f32 := arg2.slice (Rect.unit (s := S8192x512) (k0_off16 d0 2#32) S168x512.size (k0_off16_inb d0 2)) (fun _ => rfl)
  Prog.lift (.waitDma2 v1804.sem v1806 v1805 (View.wordExact_bits rfl) (View.wordExact_bits rfl))
  let v1807 : DmaSems sig S1 := arg5.slice (Rect.unit (s := S32) ![29] S1.size inb_S32_S1_29)
  let v1808 : DmaSems sig S_ := v1807.squeeze S_ squeezes_S1_S_
  let v1809 : Memref sig .tc .hbm S168x512 .f32 := arg1.slice (Rect.unit (s := S8192x512) (k0_off17 d0 2#32) S168x512.size (k0_off17_inb d0 2)) (fun _ => rfl)
  let v1810 : Memref sig .tc .vmem S168x512 .f32 := arg2.slice (Rect.unit (s := S8192x512) (k0_off17 d0 2#32) S168x512.size (k0_off17_inb d0 2)) (fun _ => rfl)
  Prog.lift (.waitDma2 v1808.sem v1810 v1809 (View.wordExact_bits rfl) (View.wordExact_bits rfl))
  let v1811 : DmaSems sig S1 := arg5.slice (Rect.unit (s := S32) ![31] S1.size inb_S32_S1_31)
  let v1812 : DmaSems sig S_ := v1811.squeeze S_ squeezes_S1_S_
  let v1813 : Memref sig .tc .hbm S2048x512 .f32 := arg1.slice (Rect.unit (s := S8192x512) (k0_off5 d0) S2048x512.size (k0_off5_inb d0)) (fun _ => rfl)
  Prog.lift (.waitDma2 v1812.sem arg0 v1813 harg0.wordExact (View.wordExact_bits rfl))
  pure ⟨⟩

/-- The body is its parts, then these statements. -/
theorem cc0_body_skel_eq (arg0 : Memref sig .tc .vmem S2048x512 .f32) (harg0 : arg0.IsWhole) (arg1 : Memref sig .tc .hbm S8192x512 .f32) (harg1 : arg1.IsWhole) (arg2 : Memref sig .tc .vmem S8192x512 .f32) (harg2 : arg2.IsWhole) (arg3 : DmaSems sig S10x3) (arg4 : DmaSems sig S10x3) (arg5 : DmaSems sig S32) :
    cc0_body_skel (F := F) arg0 harg0 arg1 harg1 arg2 harg2 arg3 arg4 arg5
      = (k0_part59 arg0 harg0 arg1 harg1 arg2 harg2 arg3 arg4 arg5 >>= fun d0 => bodyTail arg0 harg0 arg1 harg1 arg2 harg2 arg3 arg4 arg5 d0) := rfl

variable (m : (ℓ : Loc nD τ sig) → Buf (Elt F) ℓ)

/-- The last seven waits of the body. -/
theorem tail_spec (K : Dev nD × Fin 93 → ℕ) (c : Dev nD) (W : Waits sig Unit) (Kt : PUnit → sProp 𝕄) :
    iprop((records m K
        ∗ owes (c : Thread nD τ) (Ol (payL.drop 34) c) W
        ∗ cred (tallyAt (cell c (cpJ 24)) () (credO 168))
        ∗ atPos ER (cell c (cpJ 24)) 0 ∅ 0
        ∗ cred (tallyAt (cell c (cpJ 25)) () (credO 168))
        ∗ atPos ER (cell c (cpJ 25)) 0 ∅ 0
        ∗ cred (tallyAt (cell c (cpJ 26)) () (credO 168))
        ∗ atPos ER (cell c (cpJ 26)) 0 ∅ 0
        ∗ cred (tallyAt (cell c (cpJ 27)) () (credO 168))
        ∗ atPos ER (cell c (cpJ 27)) 0 ∅ 0
        ∗ cred (tallyAt (cell c (cpJ 28)) () (credO 168))
        ∗ atPos ER (cell c (cpJ 28)) 0 ∅ 0
        ∗ cred (tallyAt (cell c (cpJ 29)) () (credO 168))
        ∗ atPos ER (cell c (cpJ 29)) 0 ∅ 0
        ∗ cred (tallyAt (cell c (cpJ 31)) () (credO 2048))
        ∗ atPos ER (cell c (cpJ 31)) 0 ∅ 0)
      ∗ (∀ r, (owes (c : Thread nD τ) (Ol (payL.drop 34) c) (insert (csem (cpJ 31), ()) (insert (csem (cpJ 29), ()) (insert (csem (cpJ 28), ()) (insert (csem (cpJ 27), ()) (insert (csem (cpJ 26), ()) (insert (csem (cpJ 25), ()) (insert (csem (cpJ 24), ()) W)))))))
          ∗ semVal (cell c (cpJ 24)) 0
          ∗ oPts c (lo 9 0 c) 168 fullShare (Gd m (org 9 0 c))
          ∗ sPts c (lo 9 0 c) 168 fullShare (Gd m (org 9 0 c))
          ∗ semVal (cell c (cpJ 25)) 0
          ∗ oPts c (lo 8 0 c) 168 fullShare (Gd m (org 8 0 c))
          ∗ sPts c (lo 8 0 c) 168 fullShare (Gd m (org 8 0 c))
          ∗ semVal (cell c (cpJ 26)) 0
          ∗ oPts c (lo 9 1 c) 168 fullShare (Gd m (org 9 1 c))
          ∗ sPts c (lo 9 1 c) 168 fullShare (Gd m (org 9 1 c))
          ∗ semVal (cell c (cpJ 27)) 0
          ∗ oPts c (lo 8 1 c) 168 fullShare (Gd m (org 8 1 c))
          ∗ sPts c (lo 8 1 c) 168 fullShare (Gd m (org 8 1 c))
          ∗ semVal (cell c (cpJ 28)) 0
          ∗ oPts c (lo 9 2 c) 168 fullShare (Gd m (org 9 2 c))
          ∗ sPts c (lo 9 2 c) 168 fullShare (Gd m (org 9 2 c))
          ∗ semVal (cell c (cpJ 29)) 0
          ∗ oPts c (lo 8 2 c) 168 fullShare (Gd m (org 8 2 c))
          ∗ sPts c (lo 8 2 c) 168 fullShare (Gd m (org 8 2 c))
          ∗ semVal (cell c (cpJ 31)) 0
          ∗ oPts c (2048 * (c.val % 4)) 2048 fullShare (Gd m c)
          ∗ xPts m c 0 2048 fullShare.left) -∗ Kt r))
      ⊢ wp frame (wpE (defs₀ (F := F)) 𝒱₀ (c : Thread nD τ) none) Set.univ
          (bodyTail (Memref.whole cc0_stg0_0) (Memref.isWhole_whole _) (Memref.whole main_v1) (Memref.isWhole_whole _) (Memref.whole cc0_scratch0) (Memref.isWhole_whole _) cc0_scratch1 cc0_scratch2 cc0_scratch3 c) Kt := by
  unfold bodyTail
  simp only [Prog.lift, Prog.bind_op, Prog.bind_ret, Prog.pure_eq_ret]
  rw [show Ol (payL.drop 34) c = 0 from rfl]
  iintro ⟨⟨#HR, HO, Hc1, Ha1, Hc2, Ha2, Hc3, Ha3, Hc4, Ha4, Hc5, Ha5, Hc6, Ha6, Hc7, Ha7⟩, Hk⟩
  ihave #HI1 := (rec_inv m K c (cpJ 24)) $$ HR
  iapply (wp_wait_cp m K c 24 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_land m c 24 (by decide))) $$ Hq1
  icases Hq1 with ⟨Ho1, Hs1⟩
  ihave #HI2 := (rec_inv m K c (cpJ 25)) $$ HR
  iapply (wp_wait_cp m K c 25 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_land m c 25 (by decide))) $$ Hq2
  icases Hq2 with ⟨Ho2, Hs2⟩
  ihave #HI3 := (rec_inv m K c (cpJ 26)) $$ HR
  iapply (wp_wait_cp m K c 26 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_land m c 26 (by decide))) $$ Hq3
  icases Hq3 with ⟨Ho3, Hs3⟩
  ihave #HI4 := (rec_inv m K c (cpJ 27)) $$ HR
  iapply (wp_wait_cp m K c 27 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_land m c 27 (by decide))) $$ Hq4
  icases Hq4 with ⟨Ho4, Hs4⟩
  ihave #HI5 := (rec_inv m K c (cpJ 28)) $$ HR
  iapply (wp_wait_cp m K c 28 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_land m c 28 (by decide))) $$ Hq5
  icases Hq5 with ⟨Ho5, Hs5⟩
  ihave #HI6 := (rec_inv m K c (cpJ 29)) $$ HR
  iapply (wp_wait_cp m K c 29 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_land m c 29 (by decide))) $$ Hq6
  icases Hq6 with ⟨Ho6, Hs6⟩
  ihave #HI7 := (rec_inv m K c (cpJ 31)) $$ HR
  iapply (wp_wait_cp m K c 31 (by decide) (by rfl) (by rfl) (insert (csem (cpJ 29), ()) (insert (csem (cpJ 28), ()) (insert (csem (cpJ 27), ()) (insert (csem (cpJ 26), ()) (insert (csem (cpJ 25), ()) (insert (csem (cpJ 24), ()) W))))))) $$ [HO Hc7 Ha7]
  · isplitr; · iexact HI7
    isplitl [Hc7]; · iexact Hc7
    isplitl [HO]; · iexact HO
    iexact Ha7
  iintro H7
  ihave H7 := (Entails.of_eq (congrArg (fun P : sProp 𝕄 => iprop(owes (c : Thread nD τ) 0 (insert (csem (cpJ 31), ()) (insert (csem (cpJ 29), ()) (insert (csem (cpJ 28), ()) (insert (csem (cpJ 27), ()) (insert (csem (cpJ 26), ()) (insert (csem (cpJ 25), ()) (insert (csem (cpJ 24), ()) W))))))) ∗ semVal (cell c (cpJ 31)) 0 ∗ P)) (cpPay_own m c))) $$ H7
  icases H7 with ⟨HO, Hv7, Ho7, Hs7⟩
  rw [wp_ret]; imodintro
  iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  iexact Hs7

end Cert.KernelIdeal.AG

end
-- ==== Proof.Rest.lean ====
/-
  The body's parts in sequence, named from each part on, so that the body can be run one part at a time.
-/
import proofs.«900685_g7700000000000686_dist_ag_v7x_xyz2x2x4_z_m2048_n512_f32_1_alg».proof.Proof.Tail

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body from its part 58 on. -/
noncomputable def rest58 (d0 : Dev nD) : Prog (TpuEff nD τ sig (Elt F) Λ₀ .tc) (Dev nD) := do
  k0_part58 (Memref.whole cc0_stg0_0) (Memref.isWhole_whole _) (Memref.whole main_v1) (Memref.isWhole_whole _) (Memref.whole cc0_scratch0) (Memref.isWhole_whole _) cc0_scratch1 cc0_scratch2 cc0_scratch3 d0
  pure d0

/-- The body from its part 57 on. -/
noncomputable def rest57 (d0 : Dev nD) : Prog (TpuEff nD τ sig (Elt F) Λ₀ .tc) (Dev nD) := do
  k0_part57 (Memref.whole cc0_stg0_0) (Memref.isWhole_whole _) (Memref.whole main_v1) (Memref.isWhole_whole _) (Memref.whole cc0_scratch0) (Memref.isWhole_whole _) cc0_scratch1 cc0_scratch2 cc0_scratch3 d0
  rest58 d0

/-- The body from its part 56 on. -/
noncomputable def rest56 (d0 : Dev nD) : Prog (TpuEff nD τ sig (Elt F) Λ₀ .tc) (Dev nD) := do
  k0_part56 (Memref.whole cc0_stg0_0) (Memref.isWhole_whole _) (Memref.whole main_v1) (Memref.isWhole_whole _) (Memref.whole cc0_scratch0) (Memref.isWhole_whole _) cc0_scratch1 cc0_scratch2 cc0_scratch3 d0
  rest57 d0

/-- The body from its part 55 on. -/
noncomputable def rest55 (d0 : Dev nD) : Prog (TpuEff nD τ sig (Elt F) Λ₀ .tc) (Dev nD) := do
  k0_part55 (Memref.whole cc0_stg0_0) (Memref.isWhole_whole _) (Memref.whole main_v1) (Memref.isWhole_whole _) (Memref.whole cc0_scratch0) (Memref.isWhole_whole _) cc0_scratch1 cc0_scratch2 cc0_scratch3 d0
  rest56 d0

/-- The body from its part 54 on. -/
noncomputable def rest54 (d0 : Dev nD) : Prog (TpuEff nD τ sig (Elt F) Λ₀ .tc) (Dev nD) := do
  k0_part54 (Memref.whole cc0_stg0_0) (Memref.isWhole_whole _) (Memref.whole main_v1) (Memref.isWhole_whole _) (Memref.whole cc0_scratch0) (Memref.isWhole_whole _) cc0_scratch1 cc0_scratch2 cc0_scratch3 d0
  rest55 d0

/-- The body from its part 53 on. -/
noncomputable def rest53 (d0 : Dev nD) : Prog (TpuEff nD τ sig (Elt F) Λ₀ .tc) (Dev nD) := do
  k0_part53 (Memref.whole cc0_stg0_0) (Memref.isWhole_whole _) (Memref.whole main_v1) (Memref.isWhole_whole _) (Memref.whole cc0_scratch0) (Memref.isWhole_whole _) cc0_scratch1 cc0_scratch2 cc0_scratch3 d0
  rest54 d0

/-- The body from its part 52 on. -/
noncomputable def rest52 (d0 : Dev nD) : Prog (TpuEff nD τ sig (Elt F) Λ₀ .tc) (Dev nD) := do
  k0_part52 (Memref.whole cc0_stg0_0) (Memref.isWhole_whole _) (Memref.whole main_v1) (Memref.isWhole_whole _) (Memref.whole cc0_scratch0) (Memref.isWhole_whole _) cc0_scratch1 cc0_scratch2 cc0_scratch3 d0
  rest53 d0

/-- The body from its part 51 on. -/
noncomputable def rest51 (d0 : Dev nD) : Prog (TpuEff nD τ sig (Elt F) Λ₀ .tc) (Dev nD) := do
  k0_part51 (Memref.whole cc0_stg0_0) (Memref.isWhole_whole _) (Memref.whole main_v1) (Memref.isWhole_whole _) (Memref.whole cc0_scratch0) (Memref.isWhole_whole _) cc0_scratch1 cc0_scratch2 cc0_scratch3 d0
  rest52 d0

/-- The body from its part 50 on. -/
noncomputable def rest50 (d0 : Dev nD) : Prog (TpuEff nD τ sig (Elt F) Λ₀ .tc) (Dev nD) := do
  k0_part50 (Memref.whole cc0_stg0_0) (Memref.isWhole_whole _) (Memref.whole main_v1) (Memref.isWhole_whole _) (Memref.whole cc0_scratch0) (Memref.isWhole_whole _) cc0_scratch1 cc0_scratch2 cc0_scratch3 d0
  rest51 d0

/-- The body from its part 49 on. -/
noncomputable def rest49 (d0 : Dev nD) (v2 : BitVec 32) (v8 : BitVec 32) (v10 : BitVec 32) (v40 : BitVec 32) (v1533 : BitVec 32) : Prog (TpuEff nD τ sig (Elt F) Λ₀ .tc) (Dev nD) := do
  k0_part49 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v40 v1533
  rest50 d0

/-- The body from its part 48 on. -/
noncomputable def rest48 (d0 : Dev nD) (v5 : BitVec 32) (v8 : BitVec 32) (v9 : BitVec 32) (v40 : BitVec 32) (v1513 : BitVec 32) (v1514 : BitVec 32) (v2 : BitVec 32) (v10 : BitVec 32) : Prog (TpuEff nD τ sig (Elt F) Λ₀ .tc) (Dev nD) := do
  let v1533 : BitVec 32 ← k0_part48 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v40 v1513 v1514
  rest49 d0 v2 v8 v10 v40 v1533

/-- The body from its part 47 on. -/
noncomputable def rest47 (d0 : Dev nD) (v2 : BitVec 32) (v8 : BitVec 32) (v10 : BitVec 32) (v40 : BitVec 32) (v1472 : BitVec 32) (v1483 : BitVec 32) (c512_i32_1150 : BitVec 32) (v5 : BitVec 32) (v9 : BitVec 32) : Prog (TpuEff nD τ sig (Elt F) Λ₀ .tc) (Dev nD) := do
  let ⟨v1513, v1514⟩ : Σ' (v1513 : BitVec 32), BitVec 32 ← k0_part47 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v40 v1472 v1483 c512_i32_1150
  rest48 d0 v5 v8 v9 v40 v1513 v1514 v2 v10

/-- The body from its part 46 on. -/
noncomputable def rest46 (d0 : Dev nD) (v5 : BitVec 32) (v8 : BitVec 32) (v9 : BitVec 32) (v1450 : BitVec 32) (v2 : BitVec 32) (v10 : BitVec 32) (v40 : BitVec 32) : Prog (TpuEff nD τ sig (Elt F) Λ₀ .tc) (Dev nD) := do
  let ⟨v1472, v1483, c512_i32_1150⟩ : Σ' (v1472 : BitVec 32) (v1483 : BitVec 32), BitVec 32 ← k0_part46 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v1450
  rest47 d0 v2 v8 v10 v40 v1472 v1483 c512_i32_1150 v5 v9

/-- The body from its part 45 on. -/
noncomputable def rest45 (d0 : Dev nD) (v2 : BitVec 32) (v8 : BitVec 32) (v10 : BitVec 32) (v40 : BitVec 32) (v1399 : BitVec 32) (v1411 : BitVec 32) (v5 : BitVec 32) (v9 : BitVec 32) : Prog (TpuEff nD τ sig (Elt F) Λ₀ .tc) (Dev nD) := do
  let v1450 : BitVec 32 ← k0_part45 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v40 v1399 v1411
  rest46 d0 v5 v8 v9 v1450 v2 v10 v40

/-- The body from its part 44 on. -/
noncomputable def rest44 (d0 : Dev nD) (v5 : BitVec 32) (v8 : BitVec 32) (v9 : BitVec 32) (v2 : BitVec 32) (v10 : BitVec 32) (v40 : BitVec 32) : Prog (TpuEff nD τ sig (Elt F) Λ₀ .tc) (Dev nD) := do
  let ⟨v1399, v1411⟩ : Σ' (v1399 : BitVec 32), BitVec 32 ← k0_part44 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9
  rest45 d0 v2 v8 v10 v40 v1399 v1411 v5 v9

/-- The body from its part 43 on. -/
noncomputable def rest43 (d0 : Dev nD) (v2 : BitVec 32) (v8 : BitVec 32) (v10 : BitVec 32) (v34 : BitVec 32) (v36 : BitVec 32) (v38 : BitVec 32) (v1081 : BitVec 32) (v1093 : BitVec 32) (c2048_i32_1051 : BitVec 32) (v5 : BitVec 32) (v9 : BitVec 32) (v40 : BitVec 32) : Prog (TpuEff nD τ sig (Elt F) Λ₀ .tc) (Dev nD) := do
  k0_part43 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v34 v36 v38 v1081 v1093 c2048_i32_1051
  rest44 d0 v5 v8 v9 v2 v10 v40

/-- The body from its part 42 on. -/
noncomputable def rest42 (d0 : Dev nD) (v2 : BitVec 32) (v5 : BitVec 32) (v8 : BitVec 32) (v9 : BitVec 32) (v10 : BitVec 32) (v34 : BitVec 32) (v1081 : BitVec 32) (v1323 : BitVec 32) (c344_i32_1024 : BitVec 32) (v36 : BitVec 32) (v38 : BitVec 32) (v1093 : BitVec 32) (v40 : BitVec 32) : Prog (TpuEff nD τ sig (Elt F) Λ₀ .tc) (Dev nD) := do
  let c2048_i32_1051 : BitVec 32 ← k0_part42 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v34 v1081 v1323 c344_i32_1024
  rest43 d0 v2 v8 v10 v34 v36 v38 v1081 v1093 c2048_i32_1051 v5 v9 v40

/-- The body from its part 41 on. -/
noncomputable def rest41 (d0 : Dev nD) (v5 : BitVec 32) (v8 : BitVec 32) (v9 : BitVec 32) (v34 : BitVec 32) (v36 : BitVec 32) (v1093 : BitVec 32) (v1291 : BitVec 32) (c512_i32_999 : BitVec 32) (v2 : BitVec 32) (v10 : BitVec 32) (v1081 : BitVec 32) (v38 : BitVec 32) (v40 : BitVec 32) : Prog (TpuEff nD τ sig (Elt F) Λ₀ .tc) (Dev nD) := do
  let ⟨v1323, c344_i32_1024⟩ : Σ' (v1323 : BitVec 32), BitVec 32 ← k0_part41 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v36 v1093 v1291 c512_i32_999
  rest42 d0 v2 v5 v8 v9 v10 v34 v1081 v1323 c344_i32_1024 v36 v38 v1093 v40

/-- The body from its part 40 on. -/
noncomputable def rest40 (d0 : Dev nD) (v5 : BitVec 32) (v8 : BitVec 32) (v9 : BitVec 32) (v38 : BitVec 32) (v1081 : BitVec 32) (v1093 : BitVec 32) (v34 : BitVec 32) (v36 : BitVec 32) (v2 : BitVec 32) (v10 : BitVec 32) (v40 : BitVec 32) : Prog (TpuEff nD τ sig (Elt F) Λ₀ .tc) (Dev nD) := do
  let ⟨v1291, c512_i32_999⟩ : Σ' (v1291 : BitVec 32), BitVec 32 ← k0_part40 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v38 v1081 v1093
  rest41 d0 v5 v8 v9 v34 v36 v1093 v1291 c512_i32_999 v2 v10 v1081 v38 v40

/-- The body from its part 39 on. -/
noncomputable def rest39 (d0 : Dev nD) (v2 : BitVec 32) (v5 : BitVec 32) (v8 : BitVec 32) (v10 : BitVec 32) (v32 : BitVec 32) (v34 : BitVec 32) (v40 : BitVec 32) (v1081 : BitVec 32) (v1093 : BitVec 32) (v9 : BitVec 32) (v38 : BitVec 32) (v36 : BitVec 32) : Prog (TpuEff nD τ sig (Elt F) Λ₀ .tc) (Dev nD) := do
  k0_part39 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v40 v1081 v1093
  rest40 d0 v5 v8 v9 v38 v1081 v1093 v34 v36 v2 v10 v40

/-- The body from its part 38 on. -/
noncomputable def rest38 (d0 : Dev nD) (v2 : BitVec 32) (v5 : BitVec 32) (v8 : BitVec 32) (v10 : BitVec 32) (v21 : BitVec 32) (v40 : BitVec 32) (v1081 : BitVec 32) (v32 : BitVec 32) (v34 : BitVec 32) (v1093 : BitVec 32) (v9 : BitVec 32) (v38 : BitVec 32) (v36 : BitVec 32) : Prog (TpuEff nD τ sig (Elt F) Λ₀ .tc) (Dev nD) := do
  k0_part38 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v21 v40 v1081
  rest39 d0 v2 v5 v8 v10 v32 v34 v40 v1081 v1093 v9 v38 v36

/-- The body from its part 37 on. -/
noncomputable def rest37 (d0 : Dev nD) (v5 : BitVec 32) (v8 : BitVec 32) (v9 : BitVec 32) (v34 : BitVec 32) (v1093 : BitVec 32) (v2 : BitVec 32) (v10 : BitVec 32) (v21 : BitVec 32) (v40 : BitVec 32) (v1081 : BitVec 32) (v32 : BitVec 32) (v38 : BitVec 32) (v36 : BitVec 32) : Prog (TpuEff nD τ sig (Elt F) Λ₀ .tc) (Dev nD) := do
  k0_part37 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v1093
  rest38 d0 v2 v5 v8 v10 v21 v40 v1081 v32 v34 v1093 v9 v38 v36

/-- The body from its part 36 on. -/
noncomputable def rest36 (d0 : Dev nD) (v2 : BitVec 32) (v5 : BitVec 32) (v8 : BitVec 32) (v10 : BitVec 32) (v32 : BitVec 32) (v34 : BitVec 32) (v1081 : BitVec 32) (v1093 : BitVec 32) (v9 : BitVec 32) (v21 : BitVec 32) (v40 : BitVec 32) (v38 : BitVec 32) (v36 : BitVec 32) : Prog (TpuEff nD τ sig (Elt F) Λ₀ .tc) (Dev nD) := do
  k0_part36 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v1081 v1093
  rest37 d0 v5 v8 v9 v34 v1093 v2 v10 v21 v40 v1081 v32 v38 v36

/-- The body from its part 35 on. -/
noncomputable def rest35 (d0 : Dev nD) (v5 : BitVec 32) (v8 : BitVec 32) (v9 : BitVec 32) (v34 : BitVec 32) (v1081 : BitVec 32) (v2 : BitVec 32) (v10 : BitVec 32) (v32 : BitVec 32) (v1093 : BitVec 32) (v21 : BitVec 32) (v40 : BitVec 32) (v38 : BitVec 32) (v36 : BitVec 32) : Prog (TpuEff nD τ sig (Elt F) Λ₀ .tc) (Dev nD) := do
  k0_part35 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v1081
  rest36 d0 v2 v5 v8 v10 v32 v34 v1081 v1093 v9 v21 v40 v38 v36

/-- The body from its part 34 on. -/
noncomputable def rest34 (d0 : Dev nD) (v2 : BitVec 32) (v5 : BitVec 32) (v8 : BitVec 32) (v21 : BitVec 32) (v9 : BitVec 32) (v34 : BitVec 32) (v10 : BitVec 32) (v32 : BitVec 32) (v40 : BitVec 32) (v38 : BitVec 32) (v36 : BitVec 32) : Prog (TpuEff nD τ sig (Elt F) Λ₀ .tc) (Dev nD) := do
  let ⟨v1081, v1093⟩ : Σ' (v1081 : BitVec 32), BitVec 32 ← k0_part34 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21
  rest35 d0 v5 v8 v9 v34 v1081 v2 v10 v32 v1093 v21 v40 v38 v36

/-- The body from its part 33 on. -/
noncomputable def rest33 (d0 : Dev nD) (v2 : BitVec 32) (v8 : BitVec 32) (v10 : BitVec 32) (v34 : BitVec 32) (v36 : BitVec 32) (v38 : BitVec 32) (v651 : BitVec 32) (v1037 : BitVec 32) (c512_i32_798 : BitVec 32) (v5 : BitVec 32) (v21 : BitVec 32) (v9 : BitVec 32) (v32 : BitVec 32) (v40 : BitVec 32) : Prog (TpuEff nD τ sig (Elt F) Λ₀ .tc) (Dev nD) := do
  k0_part33 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v34 v36 v38 v651 v1037 c512_i32_798
  rest34 d0 v2 v5 v8 v21 v9 v34 v10 v32 v40 v38 v36

/-- The body from its part 32 on. -/
noncomputable def rest32 (d0 : Dev nD) (v2 : BitVec 32) (v5 : BitVec 32) (v8 : BitVec 32) (v9 : BitVec 32) (v10 : BitVec 32) (v34 : BitVec 32) (v639 : BitVec 32) (v36 : BitVec 32) (v38 : BitVec 32) (v651 : BitVec 32) (v21 : BitVec 32) (v32 : BitVec 32) (v40 : BitVec 32) : Prog (TpuEff nD τ sig (Elt F) Λ₀ .tc) (Dev nD) := do
  let ⟨v1037, c512_i32_798⟩ : Σ' (v1037 : BitVec 32), BitVec 32 ← k0_part32 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v34 v639
  rest33 d0 v2 v8 v10 v34 v36 v38 v651 v1037 c512_i32_798 v5 v21 v9 v32 v40

/-- The body from its part 31 on. -/
noncomputable def rest31 (d0 : Dev nD) (v5 : BitVec 32) (v8 : BitVec 32) (v9 : BitVec 32) (v34 : BitVec 32) (v36 : BitVec 32) (v651 : BitVec 32) (v975 : BitVec 32) (v2 : BitVec 32) (v10 : BitVec 32) (v639 : BitVec 32) (v38 : BitVec 32) (v21 : BitVec 32) (v32 : BitVec 32) (v40 : BitVec 32) : Prog (TpuEff nD τ sig (Elt F) Λ₀ .tc) (Dev nD) := do
  k0_part31 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v36 v651 v975
  rest32 d0 v2 v5 v8 v9 v10 v34 v639 v36 v38 v651 v21 v32 v40

/-- The body from its part 30 on. -/
noncomputable def rest30 (d0 : Dev nD) (v5 : BitVec 32) (v8 : BitVec 32) (v9 : BitVec 32) (v34 : BitVec 32) (v38 : BitVec 32) (v639 : BitVec 32) (v651 : BitVec 32) (v36 : BitVec 32) (v2 : BitVec 32) (v10 : BitVec 32) (v21 : BitVec 32) (v32 : BitVec 32) (v40 : BitVec 32) : Prog (TpuEff nD τ sig (Elt F) Λ₀ .tc) (Dev nD) := do
  let v975 : BitVec 32 ← k0_part30 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v38 v639 v651
  rest31 d0 v5 v8 v9 v34 v36 v651 v975 v2 v10 v639 v38 v21 v32 v40

/-- The body from its part 29 on. -/
noncomputable def rest29 (d0 : Dev nD) (v2 : BitVec 32) (v5 : BitVec 32) (v8 : BitVec 32) (v10 : BitVec 32) (v32 : BitVec 32) (v34 : BitVec 32) (v40 : BitVec 32) (v639 : BitVec 32) (v907 : BitVec 32) (v9 : BitVec 32) (v38 : BitVec 32) (v651 : BitVec 32) (v36 : BitVec 32) (v21 : BitVec 32) : Prog (TpuEff nD τ sig (Elt F) Λ₀ .tc) (Dev nD) := do
  k0_part29 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v40 v639 v907
  rest30 d0 v5 v8 v9 v34 v38 v639 v651 v36 v2 v10 v21 v32 v40

/-- The body from its part 28 on. -/
noncomputable def rest28 (d0 : Dev nD) (v2 : BitVec 32) (v5 : BitVec 32) (v8 : BitVec 32) (v32 : BitVec 32) (v40 : BitVec 32) (v651 : BitVec 32) (v10 : BitVec 32) (v34 : BitVec 32) (v639 : BitVec 32) (v9 : BitVec 32) (v38 : BitVec 32) (v36 : BitVec 32) (v21 : BitVec 32) : Prog (TpuEff nD τ sig (Elt F) Λ₀ .tc) (Dev nD) := do
  let v907 : BitVec 32 ← k0_part28 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v40 v651
  rest29 d0 v2 v5 v8 v10 v32 v34 v40 v639 v907 v9 v38 v651 v36 v21

/-- The body from its part 27 on. -/
noncomputable def rest27 (d0 : Dev nD) (v2 : BitVec 32) (v5 : BitVec 32) (v8 : BitVec 32) (v21 : BitVec 32) (v40 : BitVec 32) (v32 : BitVec 32) (v651 : BitVec 32) (v10 : BitVec 32) (v34 : BitVec 32) (v639 : BitVec 32) (v9 : BitVec 32) (v38 : BitVec 32) (v36 : BitVec 32) : Prog (TpuEff nD τ sig (Elt F) Λ₀ .tc) (Dev nD) := do
  k0_part27 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v40
  rest28 d0 v2 v5 v8 v32 v40 v651 v10 v34 v639 v9 v38 v36 v21

/-- The body from its part 26 on. -/
noncomputable def rest26 (d0 : Dev nD) (v2 : BitVec 32) (v5 : BitVec 32) (v8 : BitVec 32) (v10 : BitVec 32) (v21 : BitVec 32) (v34 : BitVec 32) (v40 : BitVec 32) (v639 : BitVec 32) (v814 : BitVec 32) (v32 : BitVec 32) (v651 : BitVec 32) (v9 : BitVec 32) (v38 : BitVec 32) (v36 : BitVec 32) : Prog (TpuEff nD τ sig (Elt F) Λ₀ .tc) (Dev nD) := do
  k0_part26 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v21 v34 v40 v639 v814
  rest27 d0 v2 v5 v8 v21 v40 v32 v651 v10 v34 v639 v9 v38 v36

/-- The body from its part 25 on. -/
noncomputable def rest25 (d0 : Dev nD) (v5 : BitVec 32) (v8 : BitVec 32) (v9 : BitVec 32) (v32 : BitVec 32) (v34 : BitVec 32) (v651 : BitVec 32) (v779 : BitVec 32) (c4_i32_596 : BitVec 32) (v2 : BitVec 32) (v10 : BitVec 32) (v21 : BitVec 32) (v40 : BitVec 32) (v639 : BitVec 32) (v38 : BitVec 32) (v36 : BitVec 32) : Prog (TpuEff nD τ sig (Elt F) Λ₀ .tc) (Dev nD) := do
  let v814 : BitVec 32 ← k0_part25 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v32 v34 v651 v779 c4_i32_596
  rest26 d0 v2 v5 v8 v10 v21 v34 v40 v639 v814 v32 v651 v9 v38 v36

/-- The body from its part 24 on. -/
noncomputable def rest24 (d0 : Dev nD) (v2 : BitVec 32) (v8 : BitVec 32) (v34 : BitVec 32) (v651 : BitVec 32) (v5 : BitVec 32) (v9 : BitVec 32) (v32 : BitVec 32) (v10 : BitVec 32) (v21 : BitVec 32) (v40 : BitVec 32) (v639 : BitVec 32) (v38 : BitVec 32) (v36 : BitVec 32) : Prog (TpuEff nD τ sig (Elt F) Λ₀ .tc) (Dev nD) := do
  let ⟨v779, c4_i32_596⟩ : Σ' (v779 : BitVec 32), BitVec 32 ← k0_part24 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v34 v651
  rest25 d0 v5 v8 v9 v32 v34 v651 v779 c4_i32_596 v2 v10 v21 v40 v639 v38 v36

/-- The body from its part 23 on. -/
noncomputable def rest23 (d0 : Dev nD) (v2 : BitVec 32) (v5 : BitVec 32) (v8 : BitVec 32) (v10 : BitVec 32) (v32 : BitVec 32) (v34 : BitVec 32) (v639 : BitVec 32) (v651 : BitVec 32) (v9 : BitVec 32) (v21 : BitVec 32) (v40 : BitVec 32) (v38 : BitVec 32) (v36 : BitVec 32) : Prog (TpuEff nD τ sig (Elt F) Λ₀ .tc) (Dev nD) := do
  k0_part23 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v639
  rest24 d0 v2 v8 v34 v651 v5 v9 v32 v10 v21 v40 v639 v38 v36

/-- The body from its part 22 on. -/
noncomputable def rest22 (d0 : Dev nD) (v2 : BitVec 32) (v5 : BitVec 32) (v8 : BitVec 32) (v9 : BitVec 32) (v21 : BitVec 32) (v34 : BitVec 32) (v639 : BitVec 32) (v680 : BitVec 32) (c2048_i32_516 : BitVec 32) (v10 : BitVec 32) (v32 : BitVec 32) (v651 : BitVec 32) (v40 : BitVec 32) (v38 : BitVec 32) (v36 : BitVec 32) : Prog (TpuEff nD τ sig (Elt F) Λ₀ .tc) (Dev nD) := do
  k0_part22 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v21 v34 v639 v680 c2048_i32_516
  rest23 d0 v2 v5 v8 v10 v32 v34 v639 v651 v9 v21 v40 v38 v36

/-- The body from its part 21 on. -/
noncomputable def rest21 (d0 : Dev nD) (v2 : BitVec 32) (v5 : BitVec 32) (v8 : BitVec 32) (v21 : BitVec 32) (v34 : BitVec 32) (v639 : BitVec 32) (v9 : BitVec 32) (v10 : BitVec 32) (v32 : BitVec 32) (v651 : BitVec 32) (v40 : BitVec 32) (v38 : BitVec 32) (v36 : BitVec 32) : Prog (TpuEff nD τ sig (Elt F) Λ₀ .tc) (Dev nD) := do
  let ⟨v680, c2048_i32_516⟩ : Σ' (v680 : BitVec 32), BitVec 32 ← k0_part21 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v34 v639
  rest22 d0 v2 v5 v8 v9 v21 v34 v639 v680 c2048_i32_516 v10 v32 v651 v40 v38 v36

/-- The body from its part 20 on. -/
noncomputable def rest20 (d0 : Dev nD) (v8 : BitVec 32) (v38 : BitVec 32) (v209 : BitVec 32) (v2 : BitVec 32) (v5 : BitVec 32) (v21 : BitVec 32) (v34 : BitVec 32) (v9 : BitVec 32) (v10 : BitVec 32) (v32 : BitVec 32) (v40 : BitVec 32) (v36 : BitVec 32) : Prog (TpuEff nD τ sig (Elt F) Λ₀ .tc) (Dev nD) := do
  let ⟨v639, v651⟩ : Σ' (v639 : BitVec 32), BitVec 32 ← k0_part20 (Memref.whole cc0_stg0_0) (Memref.isWhole_whole _) (Memref.whole main_v1) (Memref.isWhole_whole _) (Memref.whole cc0_scratch0) (Memref.isWhole_whole _) cc0_scratch1 cc0_scratch2 cc0_scratch3 d0 v8 v38 v209
  rest21 d0 v2 v5 v8 v21 v34 v639 v9 v10 v32 v651 v40 v38 v36

/-- The body from its part 19 on. -/
noncomputable def rest19 (d0 : Dev nD) (v2 : BitVec 32) (v5 : BitVec 32) (v8 : BitVec 32) (v10 : BitVec 32) (v34 : BitVec 32) (v36 : BitVec 32) (v197 : BitVec 32) (v209 : BitVec 32) (v585 : BitVec 32) (v38 : BitVec 32) (v21 : BitVec 32) (v9 : BitVec 32) (v32 : BitVec 32) (v40 : BitVec 32) : Prog (TpuEff nD τ sig (Elt F) Λ₀ .tc) (Dev nD) := do
  k0_part19 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v34 v36 v197 v209 v585
  rest20 d0 v8 v38 v209 v2 v5 v21 v34 v9 v10 v32 v40 v36

/-- The body from its part 18 on. -/
noncomputable def rest18 (d0 : Dev nD) (v2 : BitVec 32) (v8 : BitVec 32) (v9 : BitVec 32) (v10 : BitVec 32) (v34 : BitVec 32) (v36 : BitVec 32) (v197 : BitVec 32) (v209 : BitVec 32) (v5 : BitVec 32) (v38 : BitVec 32) (v21 : BitVec 32) (v32 : BitVec 32) (v40 : BitVec 32) : Prog (TpuEff nD τ sig (Elt F) Λ₀ .tc) (Dev nD) := do
  let v585 : BitVec 32 ← k0_part18 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v9 v10 v34 v36 v197 v209
  rest19 d0 v2 v5 v8 v10 v34 v36 v197 v209 v585 v38 v21 v9 v32 v40

/-- The body from its part 17 on. -/
noncomputable def rest17 (d0 : Dev nD) (v5 : BitVec 32) (v8 : BitVec 32) (v9 : BitVec 32) (v34 : BitVec 32) (v36 : BitVec 32) (v209 : BitVec 32) (v520 : BitVec 32) (v521 : BitVec 32) (v2 : BitVec 32) (v10 : BitVec 32) (v197 : BitVec 32) (v38 : BitVec 32) (v21 : BitVec 32) (v32 : BitVec 32) (v40 : BitVec 32) : Prog (TpuEff nD τ sig (Elt F) Λ₀ .tc) (Dev nD) := do
  k0_part17 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v36 v209 v520 v521
  rest18 d0 v2 v8 v9 v10 v34 v36 v197 v209 v5 v38 v21 v32 v40

/-- The body from its part 16 on. -/
noncomputable def rest16 (d0 : Dev nD) (v2 : BitVec 32) (v5 : BitVec 32) (v8 : BitVec 32) (v9 : BitVec 32) (v10 : BitVec 32) (v38 : BitVec 32) (v197 : BitVec 32) (v492 : BitVec 32) (v34 : BitVec 32) (v36 : BitVec 32) (v209 : BitVec 32) (v21 : BitVec 32) (v32 : BitVec 32) (v40 : BitVec 32) : Prog (TpuEff nD τ sig (Elt F) Λ₀ .tc) (Dev nD) := do
  let ⟨v520, v521⟩ : Σ' (v520 : BitVec 32), BitVec 32 ← k0_part16 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v38 v197 v492
  rest17 d0 v5 v8 v9 v34 v36 v209 v520 v521 v2 v10 v197 v38 v21 v32 v40

/-- The body from its part 15 on. -/
noncomputable def rest15 (d0 : Dev nD) (v2 : BitVec 32) (v5 : BitVec 32) (v32 : BitVec 32) (v34 : BitVec 32) (v40 : BitVec 32) (v197 : BitVec 32) (v455 : BitVec 32) (v457 : BitVec 32) (v8 : BitVec 32) (v9 : BitVec 32) (v10 : BitVec 32) (v38 : BitVec 32) (v36 : BitVec 32) (v209 : BitVec 32) (v21 : BitVec 32) : Prog (TpuEff nD τ sig (Elt F) Λ₀ .tc) (Dev nD) := do
  let v492 : BitVec 32 ← k0_part15 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v32 v34 v40 v197 v455 v457
  rest16 d0 v2 v5 v8 v9 v10 v38 v197 v492 v34 v36 v209 v21 v32 v40

/-- The body from its part 14 on. -/
noncomputable def rest14 (d0 : Dev nD) (v2 : BitVec 32) (v5 : BitVec 32) (v8 : BitVec 32) (v21 : BitVec 32) (v32 : BitVec 32) (v40 : BitVec 32) (v209 : BitVec 32) (v425 : BitVec 32) (v34 : BitVec 32) (v197 : BitVec 32) (v9 : BitVec 32) (v10 : BitVec 32) (v38 : BitVec 32) (v36 : BitVec 32) : Prog (TpuEff nD τ sig (Elt F) Λ₀ .tc) (Dev nD) := do
  let ⟨v455, v457⟩ : Σ' (v455 : BitVec 32), BitVec 32 ← k0_part14 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v32 v40 v209 v425
  rest15 d0 v2 v5 v32 v34 v40 v197 v455 v457 v8 v9 v10 v38 v36 v209 v21

/-- The body from its part 13 on. -/
noncomputable def rest13 (d0 : Dev nD) (v2 : BitVec 32) (v8 : BitVec 32) (v40 : BitVec 32) (v197 : BitVec 32) (v5 : BitVec 32) (v21 : BitVec 32) (v32 : BitVec 32) (v209 : BitVec 32) (v34 : BitVec 32) (v9 : BitVec 32) (v10 : BitVec 32) (v38 : BitVec 32) (v36 : BitVec 32) : Prog (TpuEff nD τ sig (Elt F) Λ₀ .tc) (Dev nD) := do
  let v425 : BitVec 32 ← k0_part13 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v40 v197
  rest14 d0 v2 v5 v8 v21 v32 v40 v209 v425 v34 v197 v9 v10 v38 v36

/-- The body from its part 12 on. -/
noncomputable def rest12 (d0 : Dev nD) (v2 : BitVec 32) (v5 : BitVec 32) (v8 : BitVec 32) (v10 : BitVec 32) (v21 : BitVec 32) (v34 : BitVec 32) (v209 : BitVec 32) (v40 : BitVec 32) (v197 : BitVec 32) (v32 : BitVec 32) (v9 : BitVec 32) (v38 : BitVec 32) (v36 : BitVec 32) : Prog (TpuEff nD τ sig (Elt F) Λ₀ .tc) (Dev nD) := do
  k0_part12 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v21 v34 v209
  rest13 d0 v2 v8 v40 v197 v5 v21 v32 v209 v34 v9 v10 v38 v36

/-- The body from its part 11 on. -/
noncomputable def rest11 (d0 : Dev nD) (v2 : BitVec 32) (v5 : BitVec 32) (v8 : BitVec 32) (v9 : BitVec 32) (v32 : BitVec 32) (v34 : BitVec 32) (v209 : BitVec 32) (v327 : BitVec 32) (v330 : BitVec 32) (v10 : BitVec 32) (v21 : BitVec 32) (v40 : BitVec 32) (v197 : BitVec 32) (v38 : BitVec 32) (v36 : BitVec 32) : Prog (TpuEff nD τ sig (Elt F) Λ₀ .tc) (Dev nD) := do
  k0_part11 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v32 v34 v209 v327 v330
  rest12 d0 v2 v5 v8 v10 v21 v34 v209 v40 v197 v32 v9 v38 v36

/-- The body from its part 10 on. -/
noncomputable def rest10 (d0 : Dev nD) (v2 : BitVec 32) (v5 : BitVec 32) (v8 : BitVec 32) (v32 : BitVec 32) (v34 : BitVec 32) (v209 : BitVec 32) (v9 : BitVec 32) (v10 : BitVec 32) (v21 : BitVec 32) (v40 : BitVec 32) (v197 : BitVec 32) (v38 : BitVec 32) (v36 : BitVec 32) : Prog (TpuEff nD τ sig (Elt F) Λ₀ .tc) (Dev nD) := do
  let ⟨v327, v330⟩ : Σ' (v327 : BitVec 32), BitVec 32 ← k0_part10 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v34 v209
  rest11 d0 v2 v5 v8 v9 v32 v34 v209 v327 v330 v10 v21 v40 v197 v38 v36

/-- The body from its part 9 on. -/
noncomputable def rest9 (d0 : Dev nD) (v2 : BitVec 32) (v5 : BitVec 32) (v8 : BitVec 32) (v9 : BitVec 32) (v10 : BitVec 32) (v34 : BitVec 32) (v197 : BitVec 32) (v265 : BitVec 32) (c0_i32_187 : BitVec 32) (v32 : BitVec 32) (v209 : BitVec 32) (v21 : BitVec 32) (v40 : BitVec 32) (v38 : BitVec 32) (v36 : BitVec 32) : Prog (TpuEff nD τ sig (Elt F) Λ₀ .tc) (Dev nD) := do
  k0_part9 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v34 v197 v265 c0_i32_187
  rest10 d0 v2 v5 v8 v32 v34 v209 v9 v10 v21 v40 v197 v38 v36

/-- The body from its part 8 on. -/
noncomputable def rest8 (d0 : Dev nD) (v2 : BitVec 32) (v5 : BitVec 32) (v21 : BitVec 32) (v34 : BitVec 32) (v197 : BitVec 32) (v230 : BitVec 32) (v231 : BitVec 32) (v8 : BitVec 32) (v9 : BitVec 32) (v10 : BitVec 32) (v32 : BitVec 32) (v209 : BitVec 32) (v40 : BitVec 32) (v38 : BitVec 32) (v36 : BitVec 32) : Prog (TpuEff nD τ sig (Elt F) Λ₀ .tc) (Dev nD) := do
  let ⟨v265, c0_i32_187⟩ : Σ' (v265 : BitVec 32), BitVec 32 ← k0_part8 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v21 v34 v197 v230 v231
  rest9 d0 v2 v5 v8 v9 v10 v34 v197 v265 c0_i32_187 v32 v209 v21 v40 v38 v36

/-- The body from its part 7 on. -/
noncomputable def rest7 (d0 : Dev nD) (v2 : BitVec 32) (v5 : BitVec 32) (v8 : BitVec 32) (v21 : BitVec 32) (v34 : BitVec 32) (v197 : BitVec 32) (v199 : BitVec 32) (v9 : BitVec 32) (v10 : BitVec 32) (v32 : BitVec 32) (v40 : BitVec 32) (v38 : BitVec 32) (v36 : BitVec 32) : Prog (TpuEff nD τ sig (Elt F) Λ₀ .tc) (Dev nD) := do
  let ⟨v209, v230, v231⟩ : Σ' (v209 : BitVec 32) (v230 : BitVec 32), BitVec 32 ← k0_part7 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v34 v197 v199
  rest8 d0 v2 v5 v21 v34 v197 v230 v231 v8 v9 v10 v32 v209 v40 v38 v36

/-- The body from its part 6 on. -/
noncomputable def rest6 (d0 : Dev nD) (v2 : BitVec 32) (v5 : BitVec 32) (v8 : BitVec 32) (v32 : BitVec 32) (v40 : BitVec 32) (v166 : BitVec 32) (v21 : BitVec 32) (v34 : BitVec 32) (v9 : BitVec 32) (v10 : BitVec 32) (v38 : BitVec 32) (v36 : BitVec 32) : Prog (TpuEff nD τ sig (Elt F) Λ₀ .tc) (Dev nD) := do
  let ⟨v197, v199⟩ : Σ' (v197 : BitVec 32), BitVec 32 ← k0_part6 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v40 v166
  rest7 d0 v2 v5 v8 v21 v34 v197 v199 v9 v10 v32 v40 v38 v36

/-- The body from its part 5 on. -/
noncomputable def rest5 (d0 : Dev nD) (v2 : BitVec 32) (v5 : BitVec 32) (v8 : BitVec 32) (v21 : BitVec 32) (v40 : BitVec 32) (v126 : BitVec 32) (v127 : BitVec 32) (v132 : BitVec 1) (v32 : BitVec 32) (v34 : BitVec 32) (v9 : BitVec 32) (v10 : BitVec 32) (v38 : BitVec 32) (v36 : BitVec 32) : Prog (TpuEff nD τ sig (Elt F) Λ₀ .tc) (Dev nD) := do
  let v166 : BitVec 32 ← k0_part5 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v40 v126 v127 v132
  rest6 d0 v2 v5 v8 v32 v40 v166 v21 v34 v9 v10 v38 v36

/-- The body from its part 4 on. -/
noncomputable def rest4 (d0 : Dev nD) (v2 : BitVec 32) (v5 : BitVec 32) (v8 : BitVec 32) (v32 : BitVec 32) (v34 : BitVec 32) (v97 : BitVec 32) (v98 : BitVec 32) (v21 : BitVec 32) (v40 : BitVec 32) (v9 : BitVec 32) (v10 : BitVec 32) (v38 : BitVec 32) (v36 : BitVec 32) : Prog (TpuEff nD τ sig (Elt F) Λ₀ .tc) (Dev nD) := do
  let ⟨v126, v127, v132⟩ : Σ' (v126 : BitVec 32) (v127 : BitVec 32), BitVec 1 ← k0_part4 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v34 v97 v98
  rest5 d0 v2 v5 v8 v21 v40 v126 v127 v132 v32 v34 v9 v10 v38 v36

/-- The body from its part 3 on. -/
noncomputable def rest3 (d0 : Dev nD) (v2 : BitVec 32) (v5 : BitVec 32) (v8 : BitVec 32) (v21 : BitVec 32) (v34 : BitVec 32) (v32 : BitVec 32) (v40 : BitVec 32) (v9 : BitVec 32) (v10 : BitVec 32) (v38 : BitVec 32) (v36 : BitVec 32) : Prog (TpuEff nD τ sig (Elt F) Λ₀ .tc) (Dev nD) := do
  let ⟨v97, v98⟩ : Σ' (v97 : BitVec 32), BitVec 32 ← k0_part3 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v34
  rest4 d0 v2 v5 v8 v32 v34 v97 v98 v21 v40 v9 v10 v38 v36

/-- The body from its part 2 on. -/
noncomputable def rest2 (d0 : Dev nD) (v2 : BitVec 32) (v5 : BitVec 32) (v8 : BitVec 32) (v9 : BitVec 32) (v10 : BitVec 32) (v21 : BitVec 32) (v32 : BitVec 32) (c2_i32_18 : BitVec 32) (v34 : BitVec 32) : Prog (TpuEff nD τ sig (Elt F) Λ₀ .tc) (Dev nD) := do
  let ⟨v36, v38, v40⟩ : Σ' (v36 : BitVec 32) (v38 : BitVec 32), BitVec 32 ← k0_part2 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v21 v32 c2_i32_18
  rest3 d0 v2 v5 v8 v21 v34 v32 v40 v9 v10 v38 v36

/-- The body from its part 1 on. -/
noncomputable def rest1  : Prog (TpuEff nD τ sig (Elt F) Λ₀ .tc) (Dev nD) := do
  let ⟨d0, v2, v5, v8, v9, v10, v21, v32, v34, c2_i32_18⟩ : Σ' (d0 : Dev nD) (v2 : BitVec 32) (v5 : BitVec 32) (v8 : BitVec 32) (v9 : BitVec 32) (v10 : BitVec 32) (v21 : BitVec 32) (v32 : BitVec 32) (v34 : BitVec 32), BitVec 32 ← k0_part1 (Memref.whole cc0_stg0_0) (Memref.isWhole_whole _) (Memref.whole main_v1) (Memref.isWhole_whole _) (Memref.whole cc0_scratch0) (Memref.isWhole_whole _) cc0_scratch1 cc0_scratch2 cc0_scratch3
  rest2 d0 v2 v5 v8 v9 v10 v21 v32 c2_i32_18 v34

set_option maxRecDepth 65536 in
/-- The parts in sequence are the printed sequence. -/
theorem part59_eq_rest : k0_part59 (F := F) (Memref.whole cc0_stg0_0) (Memref.isWhole_whole _) (Memref.whole main_v1) (Memref.isWhole_whole _) (Memref.whole cc0_scratch0) (Memref.isWhole_whole _) cc0_scratch1 cc0_scratch2 cc0_scratch3 = rest1 := by
  rw [k0_part59_eq_skeleton]; rfl

end Cert.KernelIdeal.AG

end
-- ==== Proof.Core.lean ====
/-
  The body of one device from its parts: each part takes what it needs of the device's holdings and leaves what the
  next parts take, in the program's order.
-/
import proofs.«900685_g7700000000000686_dist_ag_v7x_xyz2x2x4_z_m2048_n512_f32_1_alg».proof.Proof.PartsA
import proofs.«900685_g7700000000000686_dist_ag_v7x_xyz2x2x4_z_m2048_n512_f32_1_alg».proof.Proof.PartsB
import proofs.«900685_g7700000000000686_dist_ag_v7x_xyz2x2x4_z_m2048_n512_f32_1_alg».proof.Proof.PartsB2
import proofs.«900685_g7700000000000686_dist_ag_v7x_xyz2x2x4_z_m2048_n512_f32_1_alg».proof.Proof.PartsC
import proofs.«900685_g7700000000000686_dist_ag_v7x_xyz2x2x4_z_m2048_n512_f32_1_alg».proof.Proof.PartsC2
import proofs.«900685_g7700000000000686_dist_ag_v7x_xyz2x2x4_z_m2048_n512_f32_1_alg».proof.Proof.PartsD
import proofs.«900685_g7700000000000686_dist_ag_v7x_xyz2x2x4_z_m2048_n512_f32_1_alg».proof.Proof.PartsD2
import proofs.«900685_g7700000000000686_dist_ag_v7x_xyz2x2x4_z_m2048_n512_f32_1_alg».proof.Proof.PartsE
import proofs.«900685_g7700000000000686_dist_ag_v7x_xyz2x2x4_z_m2048_n512_f32_1_alg».proof.Proof.Rest
import proofs.«900685_g7700000000000686_dist_ag_v7x_xyz2x2x4_z_m2048_n512_f32_1_alg».proof.Proof.Ctx

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
set_option maxHeartbeats 0 in
theorem body_core (K : Dev nD × Fin 93 → ℕ) (c : Dev nD) (W : Waits sig Unit) (Kt : PUnit → sProp 𝕄) :
    iprop(ctx0 m K c W ∗ (ctxEnd m K c W -∗ Kt ⟨⟩))
      ⊢ wp frame (wpE (defs₀ (F := F)) 𝒱₀ (c : Thread nD τ) none) Set.univ
          (cc0_body (Memref.whole cc0_stg0_0) (Memref.isWhole_whole _) (Memref.whole main_v1) (Memref.isWhole_whole _) (Memref.whole cc0_scratch0) (Memref.isWhole_whole _) cc0_scratch1 cc0_scratch2 cc0_scratch3) Kt := by
  rw [cc0_body_eq_skeleton, cc0_body_skel_eq, wp_bind, part59_eq_rest]
  unfold ctx0
  iintro ⟨⟨#HR, #HL, h1, h2, h3, h4, h5, h6, h7, h8, h9, h10, h11, h47, h48, h49, h52, h53, h54, h57, h58, h59, h62, h63, h64, h65, h66, h67, h71, h72, h73, h74, h81, h82, h85, h86, h89, h90, h91, h92, h93, h94, h102, h103, h106, h107, h108, h109, h113, h114, h115, h116, h121, h122, h123, h124, h125, h126, h132, h133, h136, h137, h138, h139, h145, h146, h147, h148, h155, h156, h157, h158, h162, h163, h164, h165, h169, h170, h171, h172, h176, h177, h178, h179, h186, h187, h190, h191, h192, h193, h197, h198, h199, h200, h207, h208, h209, h210, h214, h215, h216, h217, h223, h224, h225, h226, h230, h231, h232, h233, h238, h239, h242, h243, h244, h245, h246, h247, h253, h254, h255, h256, h262, h263, h264, h265, h270, h271, h272, h273, h274, h275, h280, h281, h282, h283, h284, h285, h292, h293, h294, h295, h303, h304, h305, h306, h310, h311, h312, h313, h314, h315, h321, h322, h323, h324, h329, h330, h331, h332, h333, h334, h340, h341, h342, h343, h349, h350, h351, h352, h357, h358, h359, h360, h365, h366, h368, h369, h370, h371, h372, h373, h374, h375, h381, h382, h386, h387, h388, h389, h390, h391, h396, h397, h401, h402, h403, h404, h405, h406, h407, h414, h415, h416, h417, h418, h430, h431, h432, h433, h434, h446, h447, h448, h449, h450, h462, h463, h464, h465, h466, h478, h479, h480, h481, h482, h494, h495, h496, h497, h498, h499, h515, h516, h517, h518, h519, h520, h521, h544, h545, h546, h547, h548, h549, h550, h551, h577, h578, h579, h580, h581, h582, h583, h606, h607, h608, h609, h610, h611, h612⟩, Hk⟩
  -- part 1
  unfold rest1
  rw [wp_bind]
  iapply (part1_spec K c W _)
  iintro %r %hr
  obtain ⟨d0, v2, v5, v8, v9, v10, v21, v32, v34, c2_i32_18⟩ := r
  have hr : c = d0 := (hr : d0 = c).symm
  subst hr
  dsimp only
  -- part 2
  unfold rest2
  rw [wp_bind]
  iapply (part2_spec m K c W v2 v5 v8 v9 v10 v21 v32 c2_i32_18 _)
  isplitl [h1 h2 h3 h4 h5 h6 h7 h8 h9 h10 h11]
  · isplitr; · iexact HR
    isplitr; · iexact HL
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    iexact h11
  iintro %r ⟨h12, h13, h14, h15, h16⟩
  obtain ⟨v36, v38, v40⟩ := r
  dsimp only
  -- what the four peers handed over: the bands of their scratch arrays this device will write
  ihave h13 := (Entails.of_eq (barPay_eq_0 (F := F) c)) $$ h13
  icases h13 with ⟨h17, h18, h19, h20, h21, h22⟩
  ihave h14 := (Entails.of_eq (barPay_eq_1 (F := F) c)) $$ h14
  icases h14 with ⟨h23, h24, h25, h26, h27, h28⟩
  ihave h15 := (Entails.of_eq (barPay_eq_2 (F := F) c)) $$ h15
  icases h15 with ⟨h29, h30, h31, h32, h33, h34, h35, h36, h37⟩
  ihave h16 := (Entails.of_eq (barPay_eq_3 (F := F) c)) $$ h16
  icases h16 with ⟨h38, h39, h40, h41, h42, h43, h44, h45, h46⟩
  -- part 3
  unfold rest3
  rw [wp_bind]
  iapply (part3_spec m K c _ v2 v5 v8 v21 v34 _)
  isplitl [h12 h47 h23 h48 h49]
  · isplitr; · iexact HR
    isplitl [h12]; · iexact h12
    isplitl [h47]; · iexact h47
    isplitl [h23]; · iexact h23
    isplitl [h48]; · iexact h48
    iexact h49
  iintro %r ⟨h50, h51⟩
  obtain ⟨v97, v98⟩ := r
  dsimp only
  -- part 4
  unfold rest4
  rw [wp_bind]
  iapply (part4_spec m K c _ v2 v5 v8 v32 v34 v97 v98 _)
  isplitl [h50 h52 h17 h53 h54]
  · isplitr; · iexact HR
    isplitl [h50]; · iexact h50
    isplitl [h52]; · iexact h52
    isplitl [h17]; · iexact h17
    isplitl [h53]; · iexact h53
    iexact h54
  iintro %r ⟨h55, h56⟩
  obtain ⟨v126, v127, v132⟩ := r
  dsimp only
  -- part 5
  unfold rest5
  rw [wp_bind]
  iapply (part5_spec m K c _ v2 v5 v8 v21 v40 v126 v127 v132 _)
  isplitl [h55 h57 h26 h58 h59]
  · isplitr; · iexact HR
    isplitl [h55]; · iexact h55
    isplitl [h57]; · iexact h57
    isplitl [h26]; · iexact h26
    isplitl [h58]; · iexact h58
    iexact h59
  iintro %v166 ⟨h60, h61⟩
  -- part 6
  unfold rest6
  rw [wp_bind]
  iapply (part6_spec m K c _ v2 v5 v8 v32 v40 v166 _)
  isplitl [h60 h62 h20 h63 h64 h65 h66 h67]
  · isplitr; · iexact HR
    isplitl [h60]; · iexact h60
    isplitl [h62]; · iexact h62
    isplitl [h20]; · iexact h20
    isplitl [h63]; · iexact h63
    isplitl [h64]; · iexact h64
    isplitl [h65]; · iexact h65
    isplitl [h66]; · iexact h66
    iexact h67
  iintro %r ⟨h68, h69, h70⟩
  obtain ⟨v197, v199⟩ := r
  dsimp only
  -- part 7
  unfold rest7
  rw [wp_bind]
  iapply (part7_spec m K c _ v2 v5 v8 v21 v34 v197 v199 _)
  isplitl [h68 h71 h72 h73 h74]
  · isplitr; · iexact HR
    isplitr; · iexact HL
    isplitl [h68]; · iexact h68
    isplitl [h71]; · iexact h71
    isplitl [h72]; · iexact h72
    isplitl [h73]; · iexact h73
    iexact h74
  iintro %r ⟨h75, h76, h77, h78, h79, h80⟩
  obtain ⟨v209, v230, v231⟩ := r
  dsimp only
  -- part 8
  unfold rest8
  rw [wp_bind]
  iapply (part8_spec m K c _ v2 v5 v21 v34 v197 v230 v231 _)
  isplitl [h75 h77 h24 h81 h82]
  · isplitr; · iexact HR
    isplitl [h75]; · iexact h75
    isplitl [h77]; · iexact h77
    isplitl [h24]; · iexact h24
    isplitl [h81]; · iexact h81
    iexact h82
  iintro %r ⟨h83, h84⟩
  obtain ⟨v265, c0_i32_187⟩ := r
  dsimp only
  -- part 9
  unfold rest9
  rw [wp_bind]
  iapply (part9_spec m K c _ v2 v5 v8 v9 v10 v34 v197 v265 c0_i32_187 _)
  isplitl [h83 h78 h29 h85 h86]
  · isplitr; · iexact HR
    isplitl [h83]; · iexact h83
    isplitl [h78]; · iexact h78
    isplitl [h29]; · iexact h29
    isplitl [h85]; · iexact h85
    iexact h86
  iintro %_ ⟨h87, h88⟩
  -- part 10
  unfold rest10
  rw [wp_bind]
  iapply (part10_spec m K c _ v2 v5 v8 v32 v34 v209 _)
  isplitl [h87 h79 h38 h89 h90 h91 h92 h93 h94]
  · isplitr; · iexact HR
    isplitr; · iexact HL
    isplitl [h87]; · iexact h87
    isplitl [h79]; · iexact h79
    isplitl [h38]; · iexact h38
    isplitl [h89]; · iexact h89
    isplitl [h90]; · iexact h90
    isplitl [h91]; · iexact h91
    isplitl [h92]; · iexact h92
    isplitl [h93]; · iexact h93
    iexact h94
  iintro %r ⟨h95, h96, h97, h98, h99, h100, h101⟩
  obtain ⟨v327, v330⟩ := r
  dsimp only
  -- part 11
  unfold rest11
  rw [wp_bind]
  iapply (part11_spec m K c _ v2 v5 v8 v9 v32 v34 v209 v327 v330 _)
  isplitl [h95 h98 h18 h102 h103]
  · isplitr; · iexact HR
    isplitl [h95]; · iexact h95
    isplitl [h98]; · iexact h98
    isplitl [h18]; · iexact h18
    isplitl [h102]; · iexact h102
    iexact h103
  iintro %_ ⟨h104, h105⟩
  -- part 12
  unfold rest12
  rw [wp_bind]
  iapply (part12_spec m K c _ v2 v5 v8 v10 v21 v34 v209 _)
  isplitl [h104 h99 h32 h106 h107 h100 h41 h108 h109]
  · isplitr; · iexact HR
    isplitl [h104]; · iexact h104
    isplitl [h99]; · iexact h99
    isplitl [h32]; · iexact h32
    isplitl [h106]; · iexact h106
    isplitl [h107]; · iexact h107
    isplitl [h100]; · iexact h100
    isplitl [h41]; · iexact h41
    isplitl [h108]; · iexact h108
    iexact h109
  iintro %_ ⟨h110, h111, h112⟩
  -- part 13
  unfold rest13
  rw [wp_bind]
  iapply (part13_spec m K c _ v2 v8 v40 v197 _)
  isplitl [h110 h113 h114 h115 h116]
  · isplitr; · iexact HR
    isplitr; · iexact HL
    isplitl [h110]; · iexact h110
    isplitl [h113]; · iexact h113
    isplitl [h114]; · iexact h114
    isplitl [h115]; · iexact h115
    iexact h116
  iintro %v425 ⟨h117, h118, h119, h120⟩
  -- part 14
  unfold rest14
  rw [wp_bind]
  iapply (part14_spec m K c _ v2 v5 v8 v21 v32 v40 v209 v425 _)
  isplitl [h117 h119 h27 h121 h122 h123 h124 h125 h126]
  · isplitr; · iexact HR
    isplitr; · iexact HL
    isplitl [h117]; · iexact h117
    isplitl [h119]; · iexact h119
    isplitl [h27]; · iexact h27
    isplitl [h121]; · iexact h121
    isplitl [h122]; · iexact h122
    isplitl [h123]; · iexact h123
    isplitl [h124]; · iexact h124
    isplitl [h125]; · iexact h125
    iexact h126
  iintro %r ⟨h127, h128, h129, h130, h131⟩
  obtain ⟨v455, v457⟩ := r
  dsimp only
  -- part 15
  unfold rest15
  rw [wp_bind]
  iapply (part15_spec m K c _ v2 v5 v32 v34 v40 v197 v455 v457 _)
  isplitl [h127 h130 h21 h132 h133]
  · isplitr; · iexact HR
    isplitl [h127]; · iexact h127
    isplitl [h130]; · iexact h130
    isplitl [h21]; · iexact h21
    isplitl [h132]; · iexact h132
    iexact h133
  iintro %v492 ⟨h134, h135⟩
  -- part 16
  unfold rest16
  rw [wp_bind]
  iapply (part16_spec m K c _ v2 v5 v8 v9 v10 v38 v197 v492 _)
  isplitl [h134 h136 h137 h138 h139]
  · isplitr; · iexact HR
    isplitr; · iexact HL
    isplitl [h134]; · iexact h134
    isplitl [h136]; · iexact h136
    isplitl [h137]; · iexact h137
    isplitl [h138]; · iexact h138
    iexact h139
  iintro %r ⟨h140, h141, h142, h143, h144⟩
  obtain ⟨v520, v521⟩ := r
  dsimp only
  -- part 17
  unfold rest17
  rw [wp_bind]
  iapply (part17_spec m K c _ v5 v8 v9 v34 v36 v209 v520 v521 _)
  isplitl [h140 h143 h35 h145 h146 h147 h148]
  · isplitr; · iexact HR
    isplitr; · iexact HL
    isplitl [h140]; · iexact h140
    isplitl [h143]; · iexact h143
    isplitl [h35]; · iexact h35
    isplitl [h145]; · iexact h145
    isplitl [h146]; · iexact h146
    isplitl [h147]; · iexact h147
    iexact h148
  iintro %_ ⟨h149, h150, h151, h152, h153, h154⟩
  -- part 18
  unfold rest18
  rw [wp_bind]
  iapply (part18_spec m K c _ v2 v8 v9 v10 v34 v36 v197 v209 _)
  isplitl [h149 h152 h155 h156 h154 h44 h157 h158]
  · isplitr; · iexact HR
    isplitl [h149]; · iexact h149
    isplitl [h152]; · iexact h152
    isplitl [h155]; · iexact h155
    isplitl [h156]; · iexact h156
    isplitl [h154]; · iexact h154
    isplitl [h44]; · iexact h44
    isplitl [h157]; · iexact h157
    iexact h158
  iintro %v585 ⟨h159, h160, h161⟩
  -- part 19
  unfold rest19
  rw [wp_bind]
  iapply (part19_spec m K c _ v2 v5 v8 v10 v34 v36 v197 v209 v585 _)
  isplitl [h159 h162 h163 h164 h165]
  · isplitr; · iexact HR
    isplitr; · iexact HL
    isplitl [h159]; · iexact h159
    isplitl [h162]; · iexact h162
    isplitl [h163]; · iexact h163
    isplitl [h164]; · iexact h164
    iexact h165
  iintro %_ ⟨h166, h167, h168⟩
  -- part 20
  unfold rest20
  rw [wp_bind]
  iapply (part20_spec m K c _ v8 v38 v209 _)
  isplitl [h166 h169 h170 h171 h172]
  · isplitr; · iexact HR
    isplitr; · iexact HL
    isplitl [h166]; · iexact h166
    isplitl [h169]; · iexact h169
    isplitl [h170]; · iexact h170
    isplitl [h171]; · iexact h171
    iexact h172
  iintro %r ⟨h173, h174, h175⟩
  obtain ⟨v639, v651⟩ := r
  dsimp only
  -- part 21
  unfold rest21
  rw [wp_bind]
  iapply (part21_spec m K c _ v2 v5 v8 v21 v34 v639 _)
  isplitl [h173 h176 h177 h178 h179]
  · isplitr; · iexact HR
    isplitr; · iexact HL
    isplitl [h173]; · iexact h173
    isplitl [h176]; · iexact h176
    isplitl [h177]; · iexact h177
    isplitl [h178]; · iexact h178
    iexact h179
  iintro %r ⟨h180, h181, h182, h183, h184, h185⟩
  obtain ⟨v680, c2048_i32_516⟩ := r
  dsimp only
  -- part 22
  unfold rest22
  rw [wp_bind]
  iapply (part22_spec m K c _ v2 v5 v8 v9 v21 v34 v639 v680 c2048_i32_516 _)
  isplitl [h180 h182 h25 h186 h187]
  · isplitr; · iexact HR
    isplitl [h180]; · iexact h180
    isplitl [h182]; · iexact h182
    isplitl [h25]; · iexact h25
    isplitl [h186]; · iexact h186
    iexact h187
  iintro %_ ⟨h188, h189⟩
  -- part 23
  unfold rest23
  rw [wp_bind]
  iapply (part23_spec m K c _ v2 v5 v8 v10 v32 v34 v639 _)
  isplitl [h188 h183 h30 h190 h191 h184 h39 h192 h193]
  · isplitr; · iexact HR
    isplitl [h188]; · iexact h188
    isplitl [h183]; · iexact h183
    isplitl [h30]; · iexact h30
    isplitl [h190]; · iexact h190
    isplitl [h191]; · iexact h191
    isplitl [h184]; · iexact h184
    isplitl [h39]; · iexact h39
    isplitl [h192]; · iexact h192
    iexact h193
  iintro %_ ⟨h194, h195, h196⟩
  -- part 24
  unfold rest24
  rw [wp_bind]
  iapply (part24_spec m K c _ v2 v8 v34 v651 _)
  isplitl [h194 h197 h198 h199 h200]
  · isplitr; · iexact HR
    isplitr; · iexact HL
    isplitl [h194]; · iexact h194
    isplitl [h197]; · iexact h197
    isplitl [h198]; · iexact h198
    isplitl [h199]; · iexact h199
    iexact h200
  iintro %r ⟨h201, h202, h203, h204, h205, h206⟩
  obtain ⟨v779, c4_i32_596⟩ := r
  dsimp only
  -- part 25
  unfold rest25
  rw [wp_bind]
  iapply (part25_spec m K c _ v5 v8 v9 v32 v34 v651 v779 c4_i32_596 _)
  isplitl [h201 h203 h19 h207 h208 h204 h33 h209 h210]
  · isplitr; · iexact HR
    isplitl [h201]; · iexact h201
    isplitl [h203]; · iexact h203
    isplitl [h19]; · iexact h19
    isplitl [h207]; · iexact h207
    isplitl [h208]; · iexact h208
    isplitl [h204]; · iexact h204
    isplitl [h33]; · iexact h33
    isplitl [h209]; · iexact h209
    iexact h210
  iintro %v814 ⟨h211, h212, h213⟩
  -- part 26
  unfold rest26
  rw [wp_bind]
  iapply (part26_spec m K c _ v2 v5 v8 v10 v21 v34 v40 v639 v814 _)
  isplitl [h211 h205 h42 h214 h215 h216 h217]
  · isplitr; · iexact HR
    isplitr; · iexact HL
    isplitl [h211]; · iexact h211
    isplitl [h205]; · iexact h205
    isplitl [h42]; · iexact h42
    isplitl [h214]; · iexact h214
    isplitl [h215]; · iexact h215
    isplitl [h216]; · iexact h216
    iexact h217
  iintro %_ ⟨h218, h219, h220, h221, h222⟩
  -- part 27
  unfold rest27
  rw [wp_bind]
  iapply (part27_spec m K c _ v2 v5 v8 v21 v40 _)
  isplitl [h218 h221 h223 h224 h222 h28 h225 h226]
  · isplitr; · iexact HR
    isplitl [h218]; · iexact h218
    isplitl [h221]; · iexact h221
    isplitl [h223]; · iexact h223
    isplitl [h224]; · iexact h224
    isplitl [h222]; · iexact h222
    isplitl [h28]; · iexact h28
    isplitl [h225]; · iexact h225
    iexact h226
  iintro %_ ⟨h227, h228, h229⟩
  -- part 28
  unfold rest28
  rw [wp_bind]
  iapply (part28_spec m K c _ v2 v5 v8 v32 v40 v651 _)
  isplitl [h227 h230 h231 h232 h233]
  · isplitr; · iexact HR
    isplitr; · iexact HL
    isplitl [h227]; · iexact h227
    isplitl [h230]; · iexact h230
    isplitl [h231]; · iexact h231
    isplitl [h232]; · iexact h232
    iexact h233
  iintro %v907 ⟨h234, h235, h236, h237⟩
  -- part 29
  unfold rest29
  rw [wp_bind]
  iapply (part29_spec m K c _ v2 v5 v8 v10 v32 v34 v40 v639 v907 _)
  isplitl [h234 h236 h22 h238 h239]
  · isplitr; · iexact HR
    isplitl [h234]; · iexact h234
    isplitl [h236]; · iexact h236
    isplitl [h22]; · iexact h22
    isplitl [h238]; · iexact h238
    iexact h239
  iintro %_ ⟨h240, h241⟩
  -- part 30
  unfold rest30
  rw [wp_bind]
  iapply (part30_spec m K c _ v5 v8 v9 v34 v38 v639 v651 _)
  isplitl [h240 h242 h243 h244 h245 h36 h246 h247]
  · isplitr; · iexact HR
    isplitr; · iexact HL
    isplitl [h240]; · iexact h240
    isplitl [h242]; · iexact h242
    isplitl [h243]; · iexact h243
    isplitl [h244]; · iexact h244
    isplitl [h245]; · iexact h245
    isplitl [h36]; · iexact h36
    isplitl [h246]; · iexact h246
    iexact h247
  iintro %v975 ⟨h248, h249, h250, h251, h252⟩
  -- part 31
  unfold rest31
  rw [wp_bind]
  iapply (part31_spec m K c _ v5 v8 v9 v34 v36 v651 v975 _)
  isplitl [h248 h253 h254 h255 h256]
  · isplitr; · iexact HR
    isplitr; · iexact HL
    isplitl [h248]; · iexact h248
    isplitl [h253]; · iexact h253
    isplitl [h254]; · iexact h254
    isplitl [h255]; · iexact h255
    iexact h256
  iintro %_ ⟨h257, h258, h259, h260, h261⟩
  -- part 32
  unfold rest32
  rw [wp_bind]
  iapply (part32_spec m K c _ v2 v5 v8 v9 v10 v34 v639 _)
  isplitl [h257 h260 h45 h262 h263 h264 h265]
  · isplitr; · iexact HR
    isplitr; · iexact HL
    isplitl [h257]; · iexact h257
    isplitl [h260]; · iexact h260
    isplitl [h45]; · iexact h45
    isplitl [h262]; · iexact h262
    isplitl [h263]; · iexact h263
    isplitl [h264]; · iexact h264
    iexact h265
  iintro %r ⟨h266, h267, h268, h269⟩
  obtain ⟨v1037, c512_i32_798⟩ := r
  dsimp only
  -- part 33
  unfold rest33
  rw [wp_bind]
  iapply (part33_spec m K c _ v2 v8 v10 v34 v36 v38 v651 v1037 c512_i32_798 _)
  isplitl [h266 h269 h270 h271 h272 h273 h274 h275]
  · isplitr; · iexact HR
    isplitr; · iexact HL
    isplitl [h266]; · iexact h266
    isplitl [h269]; · iexact h269
    isplitl [h270]; · iexact h270
    isplitl [h271]; · iexact h271
    isplitl [h272]; · iexact h272
    isplitl [h273]; · iexact h273
    isplitl [h274]; · iexact h274
    iexact h275
  iintro %_ ⟨h276, h277, h278, h279⟩
  -- part 34
  unfold rest34
  rw [wp_bind]
  iapply (part34_spec K c W v2 v5 v8 v21 _)
  iintro %r
  obtain ⟨v1081, v1093⟩ := r
  dsimp only
  -- part 35
  unfold rest35
  rw [wp_bind]
  iapply (part35_spec m K c _ v5 v8 v9 v34 v1081 _)
  isplitl [h276 h280 h281 h282 h283 h31 h284 h285]
  · isplitr; · iexact HR
    isplitr; · iexact HL
    isplitl [h276]; · iexact h276
    isplitl [h280]; · iexact h280
    isplitl [h281]; · iexact h281
    isplitl [h282]; · iexact h282
    isplitl [h283]; · iexact h283
    isplitl [h31]; · iexact h31
    isplitl [h284]; · iexact h284
    iexact h285
  iintro %_ ⟨h286, h287, h288, h289, h290, h291⟩
  -- part 36
  unfold rest36
  rw [wp_bind]
  iapply (part36_spec m K c _ v2 v5 v8 v10 v32 v34 v1081 v1093 _)
  isplitl [h286 h289 h40 h292 h293 h294 h295]
  · isplitr; · iexact HR
    isplitr; · iexact HL
    isplitl [h286]; · iexact h286
    isplitl [h289]; · iexact h289
    isplitl [h40]; · iexact h40
    isplitl [h292]; · iexact h292
    isplitl [h293]; · iexact h293
    isplitl [h294]; · iexact h294
    iexact h295
  iintro %_ ⟨h296, h297, h298, h299, h300, h301, h302⟩
  -- part 37
  unfold rest37
  rw [wp_bind]
  iapply (part37_spec m K c _ v5 v8 v9 v34 v1093 _)
  isplitl [h296 h299 h303 h304 h301 h34 h305 h306]
  · isplitr; · iexact HR
    isplitl [h296]; · iexact h296
    isplitl [h299]; · iexact h299
    isplitl [h303]; · iexact h303
    isplitl [h304]; · iexact h304
    isplitl [h301]; · iexact h301
    isplitl [h34]; · iexact h34
    isplitl [h305]; · iexact h305
    iexact h306
  iintro %_ ⟨h307, h308, h309⟩
  -- part 38
  unfold rest38
  rw [wp_bind]
  iapply (part38_spec m K c _ v2 v5 v8 v10 v21 v40 v1081 _)
  isplitl [h307 h302 h43 h310 h311 h312 h313 h314 h315]
  · isplitr; · iexact HR
    isplitr; · iexact HL
    isplitl [h307]; · iexact h307
    isplitl [h302]; · iexact h302
    isplitl [h43]; · iexact h43
    isplitl [h310]; · iexact h310
    isplitl [h311]; · iexact h311
    isplitl [h312]; · iexact h312
    isplitl [h313]; · iexact h313
    isplitl [h314]; · iexact h314
    iexact h315
  iintro %_ ⟨h316, h317, h318, h319, h320⟩
  -- part 39
  unfold rest39
  rw [wp_bind]
  iapply (part39_spec m K c _ v2 v5 v8 v10 v32 v34 v40 v1081 v1093 _)
  isplitl [h316 h321 h322 h323 h324]
  · isplitr; · iexact HR
    isplitr; · iexact HL
    isplitl [h316]; · iexact h316
    isplitl [h321]; · iexact h321
    isplitl [h322]; · iexact h322
    isplitl [h323]; · iexact h323
    iexact h324
  iintro %_ ⟨h325, h326, h327, h328⟩
  -- part 40
  unfold rest40
  rw [wp_bind]
  iapply (part40_spec m K c _ v5 v8 v9 v38 v1081 v1093 _)
  isplitl [h325 h329 h330 h331 h332 h37 h333 h334]
  · isplitr; · iexact HR
    isplitr; · iexact HL
    isplitl [h325]; · iexact h325
    isplitl [h329]; · iexact h329
    isplitl [h330]; · iexact h330
    isplitl [h331]; · iexact h331
    isplitl [h332]; · iexact h332
    isplitl [h37]; · iexact h37
    isplitl [h333]; · iexact h333
    iexact h334
  iintro %r ⟨h335, h336, h337, h338, h339⟩
  obtain ⟨v1291, c512_i32_999⟩ := r
  dsimp only
  -- part 41
  unfold rest41
  rw [wp_bind]
  iapply (part41_spec m K c _ v5 v8 v9 v34 v36 v1093 v1291 c512_i32_999 _)
  isplitl [h335 h340 h341 h342 h343]
  · isplitr; · iexact HR
    isplitr; · iexact HL
    isplitl [h335]; · iexact h335
    isplitl [h340]; · iexact h340
    isplitl [h341]; · iexact h341
    isplitl [h342]; · iexact h342
    iexact h343
  iintro %r ⟨h344, h345, h346, h347, h348⟩
  obtain ⟨v1323, c344_i32_1024⟩ := r
  dsimp only
  -- part 42
  unfold rest42
  rw [wp_bind]
  iapply (part42_spec m K c _ v2 v5 v8 v9 v10 v34 v1081 v1323 c344_i32_1024 _)
  isplitl [h344 h347 h46 h349 h350 h351 h352]
  · isplitr; · iexact HR
    isplitr; · iexact HL
    isplitl [h344]; · iexact h344
    isplitl [h347]; · iexact h347
    isplitl [h46]; · iexact h46
    isplitl [h349]; · iexact h349
    isplitl [h350]; · iexact h350
    isplitl [h351]; · iexact h351
    iexact h352
  iintro %c2048_i32_1051 ⟨h353, h354, h355, h356⟩
  -- part 43
  unfold rest43
  rw [wp_bind]
  iapply (part43_spec m K c _ v2 v8 v10 v34 v36 v38 v1081 v1093 c2048_i32_1051 _)
  isplitl [h353 h356 h357 h358 h359 h360]
  · isplitr; · iexact HR
    isplitr; · iexact HL
    isplitl [h353]; · iexact h353
    isplitl [h356]; · iexact h356
    isplitl [h357]; · iexact h357
    isplitl [h358]; · iexact h358
    isplitl [h359]; · iexact h359
    iexact h360
  iintro %_ ⟨h361, h362, h363, h364⟩
  -- part 44
  unfold rest44
  rw [wp_bind]
  iapply (part44_spec m K c W v5 v8 v9 _)
  isplitl [h364 h365 h366]
  · isplitr; · iexact HR
    isplitl [h364]; · iexact h364
    isplitl [h365]; · iexact h365
    iexact h366
  iintro %r ⟨h367⟩
  obtain ⟨v1399, v1411⟩ := r
  dsimp only
  -- part 45
  unfold rest45
  rw [wp_bind]
  iapply (part45_spec m K c _ v2 v8 v10 v40 v1399 v1411 _)
  isplitl [h361 h368 h369 h370 h371 h372 h373 h374 h375]
  · isplitr; · iexact HR
    isplitr; · iexact HL
    isplitl [h361]; · iexact h361
    isplitl [h368]; · iexact h368
    isplitl [h369]; · iexact h369
    isplitl [h370]; · iexact h370
    isplitl [h371]; · iexact h371
    isplitl [h372]; · iexact h372
    isplitl [h373]; · iexact h373
    isplitl [h374]; · iexact h374
    iexact h375
  iintro %v1450 ⟨h376, h377, h378, h379, h380⟩
  -- part 46
  unfold rest46
  rw [wp_bind]
  iapply (part46_spec m K c _ v5 v8 v9 v1450 _)
  isplitl [h376 h381 h382]
  · isplitr; · iexact HR
    isplitr; · iexact HL
    isplitl [h376]; · iexact h376
    isplitl [h381]; · iexact h381
    iexact h382
  iintro %r ⟨h383, h384, h385⟩
  obtain ⟨v1472, v1483, c512_i32_1150⟩ := r
  dsimp only
  -- part 47
  unfold rest47
  rw [wp_bind]
  iapply (part47_spec m K c _ v2 v8 v10 v40 v1472 v1483 c512_i32_1150 _)
  isplitl [h383 h385 h386 h387 h388 h389 h390 h391]
  · isplitr; · iexact HR
    isplitr; · iexact HL
    isplitl [h383]; · iexact h383
    isplitl [h385]; · iexact h385
    isplitl [h386]; · iexact h386
    isplitl [h387]; · iexact h387
    isplitl [h388]; · iexact h388
    isplitl [h389]; · iexact h389
    isplitl [h390]; · iexact h390
    iexact h391
  iintro %r ⟨h392, h393, h394, h395⟩
  obtain ⟨v1513, v1514⟩ := r
  dsimp only
  -- part 48
  unfold rest48
  rw [wp_bind]
  iapply (part48_spec m K c _ v5 v8 v9 v40 v1513 v1514 _)
  isplitl [h392 h396 h397]
  · isplitr; · iexact HR
    isplitr; · iexact HL
    isplitl [h392]; · iexact h392
    isplitl [h396]; · iexact h396
    iexact h397
  iintro %v1533 ⟨h398, h399, h400⟩
  -- part 49
  unfold rest49
  rw [wp_bind]
  iapply (part49_spec m K c _ v2 v8 v10 v40 v1533 _)
  isplitl [h398 h400 h401 h402 h403 h404 h405 h406 h51 h407]
  · isplitr; · iexact HR
    isplitr; · iexact HL
    isplitl [h398]; · iexact h398
    isplitl [h400]; · iexact h400
    isplitl [h401]; · iexact h401
    isplitl [h402]; · iexact h402
    isplitl [h403]; · iexact h403
    isplitl [h404]; · iexact h404
    isplitl [h405]; · iexact h405
    isplitl [h406]; · iexact h406
    isplitl [h51]; · iexact h51
    iexact h407
  iintro %_ ⟨h408, h409, h410, h411, h412, h413⟩
  -- part 50
  unfold rest50
  rw [wp_bind]
  iapply (part50_spec m K c _  _)
  isplitl [h408 h56 h414 h61 h415 h69 h416 h84 h417 h88 h418]
  · isplitr; · iexact HR
    isplitl [h408]; · iexact h408
    isplitl [h56]; · iexact h56
    isplitl [h414]; · iexact h414
    isplitl [h61]; · iexact h61
    isplitl [h415]; · iexact h415
    isplitl [h69]; · iexact h69
    isplitl [h416]; · iexact h416
    isplitl [h84]; · iexact h84
    isplitl [h417]; · iexact h417
    isplitl [h88]; · iexact h88
    iexact h418
  iintro %_ ⟨h419, h420, h421, h422, h423, h424, h425, h426, h427, h428, h429⟩
  -- part 51
  unfold rest51
  rw [wp_bind]
  iapply (part51_spec m K c _  _)
  isplitl [h419 h96 h430 h105 h431 h111 h432 h112 h433 h128 h434]
  · isplitr; · iexact HR
    isplitl [h419]; · iexact h419
    isplitl [h96]; · iexact h96
    isplitl [h430]; · iexact h430
    isplitl [h105]; · iexact h105
    isplitl [h431]; · iexact h431
    isplitl [h111]; · iexact h111
    isplitl [h432]; · iexact h432
    isplitl [h112]; · iexact h112
    isplitl [h433]; · iexact h433
    isplitl [h128]; · iexact h128
    iexact h434
  iintro %_ ⟨h435, h436, h437, h438, h439, h440, h441, h442, h443, h444, h445⟩
  -- part 52
  unfold rest52
  rw [wp_bind]
  iapply (part52_spec m K c _  _)
  isplitl [h435 h135 h446 h150 h447 h161 h448 h189 h449 h195 h450]
  · isplitr; · iexact HR
    isplitl [h435]; · iexact h435
    isplitl [h135]; · iexact h135
    isplitl [h446]; · iexact h446
    isplitl [h150]; · iexact h150
    isplitl [h447]; · iexact h447
    isplitl [h161]; · iexact h161
    isplitl [h448]; · iexact h448
    isplitl [h189]; · iexact h189
    isplitl [h449]; · iexact h449
    isplitl [h195]; · iexact h195
    iexact h450
  iintro %_ ⟨h451, h452, h453, h454, h455, h456, h457, h458, h459, h460, h461⟩
  -- part 53
  unfold rest53
  rw [wp_bind]
  iapply (part53_spec m K c _  _)
  isplitl [h451 h196 h462 h212 h463 h213 h464 h219 h465 h229 h466]
  · isplitr; · iexact HR
    isplitl [h451]; · iexact h451
    isplitl [h196]; · iexact h196
    isplitl [h462]; · iexact h462
    isplitl [h212]; · iexact h212
    isplitl [h463]; · iexact h463
    isplitl [h213]; · iexact h213
    isplitl [h464]; · iexact h464
    isplitl [h219]; · iexact h219
    isplitl [h465]; · iexact h465
    isplitl [h229]; · iexact h229
    iexact h466
  iintro %_ ⟨h467, h468, h469, h470, h471, h472, h473, h474, h475, h476, h477⟩
  -- part 54
  unfold rest54
  rw [wp_bind]
  iapply (part54_spec m K c _  _)
  isplitl [h467 h241 h478 h252 h479 h267 h480 h291 h481 h297 h482]
  · isplitr; · iexact HR
    isplitl [h467]; · iexact h467
    isplitl [h241]; · iexact h241
    isplitl [h478]; · iexact h478
    isplitl [h252]; · iexact h252
    isplitl [h479]; · iexact h479
    isplitl [h267]; · iexact h267
    isplitl [h480]; · iexact h480
    isplitl [h291]; · iexact h291
    isplitl [h481]; · iexact h481
    isplitl [h297]; · iexact h297
    iexact h482
  iintro %_ ⟨h483, h484, h485, h486, h487, h488, h489, h490, h491, h492, h493⟩
  -- part 55
  unfold rest55
  rw [wp_bind]
  iapply (part55_spec m K c _  _)
  isplitl [h483 h309 h494 h317 h495 h339 h496 h354 h497 h80 h498 h101 h499]
  · isplitr; · iexact HR
    isplitl [h483]; · iexact h483
    isplitl [h309]; · iexact h309
    isplitl [h494]; · iexact h494
    isplitl [h317]; · iexact h317
    isplitl [h495]; · iexact h495
    isplitl [h339]; · iexact h339
    isplitl [h496]; · iexact h496
    isplitl [h354]; · iexact h354
    isplitl [h497]; · iexact h497
    isplitl [h80]; · iexact h80
    isplitl [h498]; · iexact h498
    isplitl [h101]; · iexact h101
    iexact h499
  iintro %_ ⟨h500, h501, h502, h503, h504, h505, h506, h507, h508, h509, h510, h511, h512, h513, h514⟩
  -- part 56
  unfold rest56
  rw [wp_bind]
  iapply (part56_spec m K c _  _)
  isplitl [h500 h120 h515 h131 h516 h144 h517 h160 h518 h168 h519 h175 h520 h185 h521]
  · isplitr; · iexact HR
    isplitl [h500]; · iexact h500
    isplitl [h120]; · iexact h120
    isplitl [h515]; · iexact h515
    isplitl [h131]; · iexact h131
    isplitl [h516]; · iexact h516
    isplitl [h144]; · iexact h144
    isplitl [h517]; · iexact h517
    isplitl [h160]; · iexact h160
    isplitl [h518]; · iexact h518
    isplitl [h168]; · iexact h168
    isplitl [h519]; · iexact h519
    isplitl [h175]; · iexact h175
    isplitl [h520]; · iexact h520
    isplitl [h185]; · iexact h185
    iexact h521
  iintro %_ ⟨h522, h523, h524, h525, h526, h527, h528, h529, h530, h531, h532, h533, h534, h535, h536, h537, h538, h539, h540, h541, h542, h543⟩
  -- part 57
  unfold rest57
  rw [wp_bind]
  iapply (part57_spec m K c _  _)
  isplitl [h522 h206 h544 h228 h545 h237 h546 h251 h547 h261 h548 h277 h549 h279 h550 h290 h551]
  · isplitr; · iexact HR
    isplitl [h522]; · iexact h522
    isplitl [h206]; · iexact h206
    isplitl [h544]; · iexact h544
    isplitl [h228]; · iexact h228
    isplitl [h545]; · iexact h545
    isplitl [h237]; · iexact h237
    isplitl [h546]; · iexact h546
    isplitl [h251]; · iexact h251
    isplitl [h547]; · iexact h547
    isplitl [h261]; · iexact h261
    isplitl [h548]; · iexact h548
    isplitl [h277]; · iexact h277
    isplitl [h549]; · iexact h549
    isplitl [h279]; · iexact h279
    isplitl [h550]; · iexact h550
    isplitl [h290]; · iexact h290
    iexact h551
  iintro %_ ⟨h552, h553, h554, h555, h556, h557, h558, h559, h560, h561, h562, h563, h564, h565, h566, h567, h568, h569, h570, h571, h572, h573, h574, h575, h576⟩
  -- part 58
  unfold rest58
  rw [wp_bind]
  iapply (part58_spec m K c _  _)
  isplitl [h552 h308 h577 h320 h578 h328 h579 h338 h580 h348 h581 h362 h582 h367 h583]
  · isplitr; · iexact HR
    isplitl [h552]; · iexact h552
    isplitl [h308]; · iexact h308
    isplitl [h577]; · iexact h577
    isplitl [h320]; · iexact h320
    isplitl [h578]; · iexact h578
    isplitl [h328]; · iexact h328
    isplitl [h579]; · iexact h579
    isplitl [h338]; · iexact h338
    isplitl [h580]; · iexact h580
    isplitl [h348]; · iexact h348
    isplitl [h581]; · iexact h581
    isplitl [h362]; · iexact h362
    isplitl [h582]; · iexact h582
    isplitl [h367]; · iexact h367
    iexact h583
  iintro %_ ⟨h584, h585, h586, h587, h588, h589, h590, h591, h592, h593, h594, h595, h596, h597, h598, h599, h600, h601, h602, h603, h604, h605⟩
  -- the parts return the device
  rw [wp_pure]; imodintro
  -- the last waits
  iapply (tail_spec m K c _ _)
  isplitl [h584 h378 h606 h380 h607 h393 h608 h395 h609 h409 h610 h411 h611 h70 h612]
  · isplitr; · iexact HR
    isplitl [h584]; · iexact h584
    isplitl [h378]; · iexact h378
    isplitl [h606]; · iexact h606
    isplitl [h380]; · iexact h380
    isplitl [h607]; · iexact h607
    isplitl [h393]; · iexact h393
    isplitl [h608]; · iexact h608
    isplitl [h395]; · iexact h395
    isplitl [h609]; · iexact h609
    isplitl [h409]; · iexact h409
    isplitl [h610]; · iexact h610
    isplitl [h411]; · iexact h411
    isplitl [h611]; · iexact h611
    isplitl [h70]; · iexact h70
    iexact h612
  iintro %_ ⟨h613, h614, h615, h616, h617, h618, h619, h620, h621, h622, h623, h624, h625, h626, h627, h628, h629, h630, h631, h632, h633, h634⟩
  -- what is left is the final holdings
  iapply Hk
  unfold ctxEnd
  isplitl [h76]; · iexact h76
  isplitl [h97]; · iexact h97
  isplitl [h118]; · iexact h118
  isplitl [h129]; · iexact h129
  isplitl [h141]; · iexact h141
  isplitl [h142]; · iexact h142
  isplitl [h151]; · iexact h151
  isplitl [h153]; · iexact h153
  isplitl [h167]; · iexact h167
  isplitl [h174]; · iexact h174
  isplitl [h181]; · iexact h181
  isplitl [h202]; · iexact h202
  isplitl [h220]; · iexact h220
  isplitl [h235]; · iexact h235
  isplitl [h249]; · iexact h249
  isplitl [h250]; · iexact h250
  isplitl [h258]; · iexact h258
  isplitl [h259]; · iexact h259
  isplitl [h268]; · iexact h268
  isplitl [h278]; · iexact h278
  isplitl [h287]; · iexact h287
  isplitl [h288]; · iexact h288
  isplitl [h298]; · iexact h298
  isplitl [h300]; · iexact h300
  isplitl [h318]; · iexact h318
  isplitl [h319]; · iexact h319
  isplitl [h326]; · iexact h326
  isplitl [h327]; · iexact h327
  isplitl [h336]; · iexact h336
  isplitl [h337]; · iexact h337
  isplitl [h345]; · iexact h345
  isplitl [h346]; · iexact h346
  isplitl [h355]; · iexact h355
  isplitl [h363]; · iexact h363
  isplitl [h377]; · iexact h377
  isplitl [h379]; · iexact h379
  isplitl [h384]; · iexact h384
  isplitl [h394]; · iexact h394
  isplitl [h399]; · iexact h399
  isplitl [h410]; · iexact h410
  isplitl [h412]; · iexact h412
  isplitl [h413]; · iexact h413
  isplitl [h420]; · iexact h420
  isplitl [h421]; · iexact h421
  isplitl [h422]; · iexact h422
  isplitl [h423]; · iexact h423
  isplitl [h424]; · iexact h424
  isplitl [h425]; · iexact h425
  isplitl [h426]; · iexact h426
  isplitl [h427]; · iexact h427
  isplitl [h428]; · iexact h428
  isplitl [h429]; · iexact h429
  isplitl [h436]; · iexact h436
  isplitl [h437]; · iexact h437
  isplitl [h438]; · iexact h438
  isplitl [h439]; · iexact h439
  isplitl [h440]; · iexact h440
  isplitl [h441]; · iexact h441
  isplitl [h442]; · iexact h442
  isplitl [h443]; · iexact h443
  isplitl [h444]; · iexact h444
  isplitl [h445]; · iexact h445
  isplitl [h452]; · iexact h452
  isplitl [h453]; · iexact h453
  isplitl [h454]; · iexact h454
  isplitl [h455]; · iexact h455
  isplitl [h456]; · iexact h456
  isplitl [h457]; · iexact h457
  isplitl [h458]; · iexact h458
  isplitl [h459]; · iexact h459
  isplitl [h460]; · iexact h460
  isplitl [h461]; · iexact h461
  isplitl [h468]; · iexact h468
  isplitl [h469]; · iexact h469
  isplitl [h470]; · iexact h470
  isplitl [h471]; · iexact h471
  isplitl [h472]; · iexact h472
  isplitl [h473]; · iexact h473
  isplitl [h474]; · iexact h474
  isplitl [h475]; · iexact h475
  isplitl [h476]; · iexact h476
  isplitl [h477]; · iexact h477
  isplitl [h484]; · iexact h484
  isplitl [h485]; · iexact h485
  isplitl [h486]; · iexact h486
  isplitl [h487]; · iexact h487
  isplitl [h488]; · iexact h488
  isplitl [h489]; · iexact h489
  isplitl [h490]; · iexact h490
  isplitl [h491]; · iexact h491
  isplitl [h492]; · iexact h492
  isplitl [h493]; · iexact h493
  isplitl [h501]; · iexact h501
  isplitl [h502]; · iexact h502
  isplitl [h503]; · iexact h503
  isplitl [h504]; · iexact h504
  isplitl [h505]; · iexact h505
  isplitl [h506]; · iexact h506
  isplitl [h507]; · iexact h507
  isplitl [h508]; · iexact h508
  isplitl [h509]; · iexact h509
  isplitl [h510]; · iexact h510
  isplitl [h511]; · iexact h511
  isplitl [h512]; · iexact h512
  isplitl [h513]; · iexact h513
  isplitl [h514]; · iexact h514
  isplitl [h523]; · iexact h523
  isplitl [h524]; · iexact h524
  isplitl [h525]; · iexact h525
  isplitl [h526]; · iexact h526
  isplitl [h527]; · iexact h527
  isplitl [h528]; · iexact h528
  isplitl [h529]; · iexact h529
  isplitl [h530]; · iexact h530
  isplitl [h531]; · iexact h531
  isplitl [h532]; · iexact h532
  isplitl [h533]; · iexact h533
  isplitl [h534]; · iexact h534
  isplitl [h535]; · iexact h535
  isplitl [h536]; · iexact h536
  isplitl [h537]; · iexact h537
  isplitl [h538]; · iexact h538
  isplitl [h539]; · iexact h539
  isplitl [h540]; · iexact h540
  isplitl [h541]; · iexact h541
  isplitl [h542]; · iexact h542
  isplitl [h543]; · iexact h543
  isplitl [h553]; · iexact h553
  isplitl [h554]; · iexact h554
  isplitl [h555]; · iexact h555
  isplitl [h556]; · iexact h556
  isplitl [h557]; · iexact h557
  isplitl [h558]; · iexact h558
  isplitl [h559]; · iexact h559
  isplitl [h560]; · iexact h560
  isplitl [h561]; · iexact h561
  isplitl [h562]; · iexact h562
  isplitl [h563]; · iexact h563
  isplitl [h564]; · iexact h564
  isplitl [h565]; · iexact h565
  isplitl [h566]; · iexact h566
  isplitl [h567]; · iexact h567
  isplitl [h568]; · iexact h568
  isplitl [h569]; · iexact h569
  isplitl [h570]; · iexact h570
  isplitl [h571]; · iexact h571
  isplitl [h572]; · iexact h572
  isplitl [h573]; · iexact h573
  isplitl [h574]; · iexact h574
  isplitl [h575]; · iexact h575
  isplitl [h576]; · iexact h576
  isplitl [h585]; · iexact h585
  isplitl [h586]; · iexact h586
  isplitl [h587]; · iexact h587
  isplitl [h588]; · iexact h588
  isplitl [h589]; · iexact h589
  isplitl [h590]; · iexact h590
  isplitl [h591]; · iexact h591
  isplitl [h592]; · iexact h592
  isplitl [h593]; · iexact h593
  isplitl [h594]; · iexact h594
  isplitl [h595]; · iexact h595
  isplitl [h596]; · iexact h596
  isplitl [h597]; · iexact h597
  isplitl [h598]; · iexact h598
  isplitl [h599]; · iexact h599
  isplitl [h600]; · iexact h600
  isplitl [h601]; · iexact h601
  isplitl [h602]; · iexact h602
  isplitl [h603]; · iexact h603
  isplitl [h604]; · iexact h604
  isplitl [h605]; · iexact h605
  isplitl [h613]; · iexact h613
  isplitl [h614]; · iexact h614
  isplitl [h615]; · iexact h615
  isplitl [h616]; · iexact h616
  isplitl [h617]; · iexact h617
  isplitl [h618]; · iexact h618
  isplitl [h619]; · iexact h619
  isplitl [h620]; · iexact h620
  isplitl [h621]; · iexact h621
  isplitl [h622]; · iexact h622
  isplitl [h623]; · iexact h623
  isplitl [h624]; · iexact h624
  isplitl [h625]; · iexact h625
  isplitl [h626]; · iexact h626
  isplitl [h627]; · iexact h627
  isplitl [h628]; · iexact h628
  isplitl [h629]; · iexact h629
  isplitl [h630]; · iexact h630
  isplitl [h631]; · iexact h631
  isplitl [h632]; · iexact h632
  isplitl [h633]; · iexact h633
  iexact h634

end Cert.KernelIdeal.AG

end
-- ==== Proof.PreCtx.lean ====
/-
  From what a device holds when its body starts to the resources its parts take, one by one.

  The positions, the duty tokens and the credits are chains over lists, written out; the scratch array is cut
  into the thirty bands the pieces land in and the device's own block's rows, the bands grouped by the peer that
  writes them; the result array is cut into its thirty-one pieces; the staged block is dealt into the copy's
  share and the four first transfers' bands, the rest of it staying aside.
-/
import proofs.«900685_g7700000000000686_dist_ag_v7x_xyz2x2x4_z_m2048_n512_f32_1_alg».proof.Proof.Oblig
import proofs.«900685_g7700000000000686_dist_ag_v7x_xyz2x2x4_z_m2048_n512_f32_1_alg».proof.Proof.Gen.KernelIdeal.Points

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The chains over lists, written out -/

/-- The ninety-three positions. -/
theorem poss_chain (c : Dev nD) : poss (F := F) c = iprop(atPos ER (cell c 0) 0 ∅ 0
      ∗ atPos ER (cell c (sndJ 0 0)) 0 ∅ 0
      ∗ atPos ER (cell c (sndJ 0 1)) 0 ∅ 0
      ∗ atPos ER (cell c (sndJ 0 2)) 0 ∅ 0
      ∗ atPos ER (cell c (sndJ 1 0)) 0 ∅ 0
      ∗ atPos ER (cell c (sndJ 1 1)) 0 ∅ 0
      ∗ atPos ER (cell c (sndJ 1 2)) 0 ∅ 0
      ∗ atPos ER (cell c (sndJ 2 0)) 0 ∅ 0
      ∗ atPos ER (cell c (sndJ 2 1)) 0 ∅ 0
      ∗ atPos ER (cell c (sndJ 2 2)) 0 ∅ 0
      ∗ atPos ER (cell c (sndJ 3 0)) 0 ∅ 0
      ∗ atPos ER (cell c (sndJ 3 1)) 0 ∅ 0
      ∗ atPos ER (cell c (sndJ 3 2)) 0 ∅ 0
      ∗ atPos ER (cell c (sndJ 4 0)) 0 ∅ 0
      ∗ atPos ER (cell c (sndJ 4 1)) 0 ∅ 0
      ∗ atPos ER (cell c (sndJ 4 2)) 0 ∅ 0
      ∗ atPos ER (cell c (sndJ 5 0)) 0 ∅ 0
      ∗ atPos ER (cell c (sndJ 5 1)) 0 ∅ 0
      ∗ atPos ER (cell c (sndJ 5 2)) 0 ∅ 0
      ∗ atPos ER (cell c (sndJ 6 0)) 0 ∅ 0
      ∗ atPos ER (cell c (sndJ 6 1)) 0 ∅ 0
      ∗ atPos ER (cell c (sndJ 6 2)) 0 ∅ 0
      ∗ atPos ER (cell c (sndJ 7 0)) 0 ∅ 0
      ∗ atPos ER (cell c (sndJ 7 1)) 0 ∅ 0
      ∗ atPos ER (cell c (sndJ 7 2)) 0 ∅ 0
      ∗ atPos ER (cell c (sndJ 8 0)) 0 ∅ 0
      ∗ atPos ER (cell c (sndJ 8 1)) 0 ∅ 0
      ∗ atPos ER (cell c (sndJ 8 2)) 0 ∅ 0
      ∗ atPos ER (cell c (sndJ 9 0)) 0 ∅ 0
      ∗ atPos ER (cell c (sndJ 9 1)) 0 ∅ 0
      ∗ atPos ER (cell c (sndJ 9 2)) 0 ∅ 0
      ∗ atPos ER (cell c (rcvJ 0 0)) 0 ∅ 0
      ∗ atPos ER (cell c (rcvJ 0 1)) 0 ∅ 0
      ∗ atPos ER (cell c (rcvJ 0 2)) 0 ∅ 0
      ∗ atPos ER (cell c (rcvJ 1 0)) 0 ∅ 0
      ∗ atPos ER (cell c (rcvJ 1 1)) 0 ∅ 0
      ∗ atPos ER (cell c (rcvJ 1 2)) 0 ∅ 0
      ∗ atPos ER (cell c (rcvJ 2 0)) 0 ∅ 0
      ∗ atPos ER (cell c (rcvJ 2 1)) 0 ∅ 0
      ∗ atPos ER (cell c (rcvJ 2 2)) 0 ∅ 0
      ∗ atPos ER (cell c (rcvJ 3 0)) 0 ∅ 0
      ∗ atPos ER (cell c (rcvJ 3 1)) 0 ∅ 0
      ∗ atPos ER (cell c (rcvJ 3 2)) 0 ∅ 0
      ∗ atPos ER (cell c (rcvJ 4 0)) 0 ∅ 0
      ∗ atPos ER (cell c (rcvJ 4 1)) 0 ∅ 0
      ∗ atPos ER (cell c (rcvJ 4 2)) 0 ∅ 0
      ∗ atPos ER (cell c (rcvJ 5 0)) 0 ∅ 0
      ∗ atPos ER (cell c (rcvJ 5 1)) 0 ∅ 0
      ∗ atPos ER (cell c (rcvJ 5 2)) 0 ∅ 0
      ∗ atPos ER (cell c (rcvJ 6 0)) 0 ∅ 0
      ∗ atPos ER (cell c (rcvJ 6 1)) 0 ∅ 0
      ∗ atPos ER (cell c (rcvJ 6 2)) 0 ∅ 0
      ∗ atPos ER (cell c (rcvJ 7 0)) 0 ∅ 0
      ∗ atPos ER (cell c (rcvJ 7 1)) 0 ∅ 0
      ∗ atPos ER (cell c (rcvJ 7 2)) 0 ∅ 0
      ∗ atPos ER (cell c (rcvJ 8 0)) 0 ∅ 0
      ∗ atPos ER (cell c (rcvJ 8 1)) 0 ∅ 0
      ∗ atPos ER (cell c (rcvJ 8 2)) 0 ∅ 0
      ∗ atPos ER (cell c (rcvJ 9 0)) 0 ∅ 0
      ∗ atPos ER (cell c (rcvJ 9 1)) 0 ∅ 0
      ∗ atPos ER (cell c (rcvJ 9 2)) 0 ∅ 0
      ∗ atPos ER (cell c (cpJ 0)) 0 ∅ 0
      ∗ atPos ER (cell c (cpJ 1)) 0 ∅ 0
      ∗ atPos ER (cell c (cpJ 2)) 0 ∅ 0
      ∗ atPos ER (cell c (cpJ 3)) 0 ∅ 0
      ∗ atPos ER (cell c (cpJ 4)) 0 ∅ 0
      ∗ atPos ER (cell c (cpJ 5)) 0 ∅ 0
      ∗ atPos ER (cell c (cpJ 6)) 0 ∅ 0
      ∗ atPos ER (cell c (cpJ 7)) 0 ∅ 0
      ∗ atPos ER (cell c (cpJ 8)) 0 ∅ 0
      ∗ atPos ER (cell c (cpJ 9)) 0 ∅ 0
      ∗ atPos ER (cell c (cpJ 10)) 0 ∅ 0
      ∗ atPos ER (cell c (cpJ 11)) 0 ∅ 0
      ∗ atPos ER (cell c (cpJ 12)) 0 ∅ 0
      ∗ atPos ER (cell c (cpJ 13)) 0 ∅ 0
      ∗ atPos ER (cell c (cpJ 14)) 0 ∅ 0
      ∗ atPos ER (cell c (cpJ 15)) 0 ∅ 0
      ∗ atPos ER (cell c (cpJ 16)) 0 ∅ 0
      ∗ atPos ER (cell c (cpJ 17)) 0 ∅ 0
      ∗ atPos ER (cell c (cpJ 18)) 0 ∅ 0
      ∗ atPos ER (cell c (cpJ 19)) 0 ∅ 0
      ∗ atPos ER (cell c (cpJ 20)) 0 ∅ 0
      ∗ atPos ER (cell c (cpJ 21)) 0 ∅ 0
      ∗ atPos ER (cell c (cpJ 22)) 0 ∅ 0
      ∗ atPos ER (cell c (cpJ 23)) 0 ∅ 0
      ∗ atPos ER (cell c (cpJ 24)) 0 ∅ 0
      ∗ atPos ER (cell c (cpJ 25)) 0 ∅ 0
      ∗ atPos ER (cell c (cpJ 26)) 0 ∅ 0
      ∗ atPos ER (cell c (cpJ 27)) 0 ∅ 0
      ∗ atPos ER (cell c (cpJ 28)) 0 ∅ 0
      ∗ atPos ER (cell c (cpJ 29)) 0 ∅ 0
      ∗ atPos ER (cell c (cpJ 30)) 0 ∅ 0
      ∗ atPos ER (cell c (cpJ 31)) 0 ∅ 0) := rfl

/-- The thirty-four duties paid on the peers' cells. -/
theorem payToks_chain (c : Dev nD) : payToks (F := F) c = iprop(dutyTok ER (cell (peer 0 c) 0) 0 1
      ∗ dutyTok ER (cell (peer 1 c) 0) 0 0
      ∗ dutyTok ER (cell (peer 2 c) 0) 0 2
      ∗ dutyTok ER (cell (peer 3 c) 0) 0 3
      ∗ dutyTok ER (cell (peer 1 c) (rcvJ 0 0)) 0 0
      ∗ dutyTok ER (cell (peer 1 c) (rcvJ 0 1)) 0 0
      ∗ dutyTok ER (cell (peer 1 c) (rcvJ 0 2)) 0 0
      ∗ dutyTok ER (cell (peer 1 c) (rcvJ 1 0)) 0 0
      ∗ dutyTok ER (cell (peer 1 c) (rcvJ 1 1)) 0 0
      ∗ dutyTok ER (cell (peer 1 c) (rcvJ 1 2)) 0 0
      ∗ dutyTok ER (cell (peer 0 c) (rcvJ 2 0)) 0 0
      ∗ dutyTok ER (cell (peer 0 c) (rcvJ 2 1)) 0 0
      ∗ dutyTok ER (cell (peer 0 c) (rcvJ 2 2)) 0 0
      ∗ dutyTok ER (cell (peer 0 c) (rcvJ 3 0)) 0 0
      ∗ dutyTok ER (cell (peer 0 c) (rcvJ 3 1)) 0 0
      ∗ dutyTok ER (cell (peer 0 c) (rcvJ 3 2)) 0 0
      ∗ dutyTok ER (cell (peer 2 c) (rcvJ 4 0)) 0 0
      ∗ dutyTok ER (cell (peer 2 c) (rcvJ 4 1)) 0 0
      ∗ dutyTok ER (cell (peer 2 c) (rcvJ 4 2)) 0 0
      ∗ dutyTok ER (cell (peer 2 c) (rcvJ 5 0)) 0 0
      ∗ dutyTok ER (cell (peer 2 c) (rcvJ 5 1)) 0 0
      ∗ dutyTok ER (cell (peer 2 c) (rcvJ 5 2)) 0 0
      ∗ dutyTok ER (cell (peer 3 c) (rcvJ 6 0)) 0 0
      ∗ dutyTok ER (cell (peer 3 c) (rcvJ 6 1)) 0 0
      ∗ dutyTok ER (cell (peer 3 c) (rcvJ 6 2)) 0 0
      ∗ dutyTok ER (cell (peer 3 c) (rcvJ 7 0)) 0 0
      ∗ dutyTok ER (cell (peer 3 c) (rcvJ 7 1)) 0 0
      ∗ dutyTok ER (cell (peer 3 c) (rcvJ 7 2)) 0 0
      ∗ dutyTok ER (cell (peer 3 c) (rcvJ 8 0)) 0 0
      ∗ dutyTok ER (cell (peer 3 c) (rcvJ 8 1)) 0 0
      ∗ dutyTok ER (cell (peer 3 c) (rcvJ 8 2)) 0 0
      ∗ dutyTok ER (cell (peer 2 c) (rcvJ 9 0)) 0 0
      ∗ dutyTok ER (cell (peer 2 c) (rcvJ 9 1)) 0 0
      ∗ dutyTok ER (cell (peer 2 c) (rcvJ 9 2)) 0 0) := rfl

/-- The sixty-one duties paid on the device's own cells. -/
theorem ownToks_chain (c : Dev nD) : ownToks (F := F) c = iprop(dutyTok ER (cell c (sndJ 0 0)) 0 0
      ∗ dutyTok ER (cell c (sndJ 0 1)) 0 0
      ∗ dutyTok ER (cell c (sndJ 0 2)) 0 0
      ∗ dutyTok ER (cell c (sndJ 1 0)) 0 0
      ∗ dutyTok ER (cell c (sndJ 1 1)) 0 0
      ∗ dutyTok ER (cell c (sndJ 1 2)) 0 0
      ∗ dutyTok ER (cell c (sndJ 2 0)) 0 0
      ∗ dutyTok ER (cell c (sndJ 2 1)) 0 0
      ∗ dutyTok ER (cell c (sndJ 2 2)) 0 0
      ∗ dutyTok ER (cell c (sndJ 3 0)) 0 0
      ∗ dutyTok ER (cell c (sndJ 3 1)) 0 0
      ∗ dutyTok ER (cell c (sndJ 3 2)) 0 0
      ∗ dutyTok ER (cell c (sndJ 4 0)) 0 0
      ∗ dutyTok ER (cell c (sndJ 4 1)) 0 0
      ∗ dutyTok ER (cell c (sndJ 4 2)) 0 0
      ∗ dutyTok ER (cell c (sndJ 5 0)) 0 0
      ∗ dutyTok ER (cell c (sndJ 5 1)) 0 0
      ∗ dutyTok ER (cell c (sndJ 5 2)) 0 0
      ∗ dutyTok ER (cell c (sndJ 6 0)) 0 0
      ∗ dutyTok ER (cell c (sndJ 6 1)) 0 0
      ∗ dutyTok ER (cell c (sndJ 6 2)) 0 0
      ∗ dutyTok ER (cell c (sndJ 7 0)) 0 0
      ∗ dutyTok ER (cell c (sndJ 7 1)) 0 0
      ∗ dutyTok ER (cell c (sndJ 7 2)) 0 0
      ∗ dutyTok ER (cell c (sndJ 8 0)) 0 0
      ∗ dutyTok ER (cell c (sndJ 8 1)) 0 0
      ∗ dutyTok ER (cell c (sndJ 8 2)) 0 0
      ∗ dutyTok ER (cell c (sndJ 9 0)) 0 0
      ∗ dutyTok ER (cell c (sndJ 9 1)) 0 0
      ∗ dutyTok ER (cell c (sndJ 9 2)) 0 0
      ∗ dutyTok ER (cell c (cpJ 0)) 0 0
      ∗ dutyTok ER (cell c (cpJ 1)) 0 0
      ∗ dutyTok ER (cell c (cpJ 2)) 0 0
      ∗ dutyTok ER (cell c (cpJ 3)) 0 0
      ∗ dutyTok ER (cell c (cpJ 4)) 0 0
      ∗ dutyTok ER (cell c (cpJ 5)) 0 0
      ∗ dutyTok ER (cell c (cpJ 6)) 0 0
      ∗ dutyTok ER (cell c (cpJ 7)) 0 0
      ∗ dutyTok ER (cell c (cpJ 8)) 0 0
      ∗ dutyTok ER (cell c (cpJ 9)) 0 0
      ∗ dutyTok ER (cell c (cpJ 10)) 0 0
      ∗ dutyTok ER (cell c (cpJ 11)) 0 0
      ∗ dutyTok ER (cell c (cpJ 12)) 0 0
      ∗ dutyTok ER (cell c (cpJ 13)) 0 0
      ∗ dutyTok ER (cell c (cpJ 14)) 0 0
      ∗ dutyTok ER (cell c (cpJ 15)) 0 0
      ∗ dutyTok ER (cell c (cpJ 16)) 0 0
      ∗ dutyTok ER (cell c (cpJ 17)) 0 0
      ∗ dutyTok ER (cell c (cpJ 18)) 0 0
      ∗ dutyTok ER (cell c (cpJ 19)) 0 0
      ∗ dutyTok ER (cell c (cpJ 20)) 0 0
      ∗ dutyTok ER (cell c (cpJ 21)) 0 0
      ∗ dutyTok ER (cell c (cpJ 22)) 0 0
      ∗ dutyTok ER (cell c (cpJ 23)) 0 0
      ∗ dutyTok ER (cell c (cpJ 24)) 0 0
      ∗ dutyTok ER (cell c (cpJ 25)) 0 0
      ∗ dutyTok ER (cell c (cpJ 26)) 0 0
      ∗ dutyTok ER (cell c (cpJ 27)) 0 0
      ∗ dutyTok ER (cell c (cpJ 28)) 0 0
      ∗ dutyTok ER (cell c (cpJ 29)) 0 0
      ∗ dutyTok ER (cell c (cpJ 31)) 0 0) := rfl

/-- The thirty arrivals' credits. -/
theorem credits_chain (c : Dev nD) :
    (bigSepL fhL (fun fh => cred (tallyAt (cell c (rcvJ fh.1 fh.2)) () (credS (flowRows fh.1)))) : sProp 𝕄)
      = iprop(cred (tallyAt (cell c (rcvJ 0 0)) () (credS 256))
      ∗ cred (tallyAt (cell c (rcvJ 0 1)) () (credS 256))
      ∗ cred (tallyAt (cell c (rcvJ 0 2)) () (credS 256))
      ∗ cred (tallyAt (cell c (rcvJ 1 0)) () (credS 88))
      ∗ cred (tallyAt (cell c (rcvJ 1 1)) () (credS 88))
      ∗ cred (tallyAt (cell c (rcvJ 1 2)) () (credS 88))
      ∗ cred (tallyAt (cell c (rcvJ 2 0)) () (credS 256))
      ∗ cred (tallyAt (cell c (rcvJ 2 1)) () (credS 256))
      ∗ cred (tallyAt (cell c (rcvJ 2 2)) () (credS 256))
      ∗ cred (tallyAt (cell c (rcvJ 3 0)) () (credS 88))
      ∗ cred (tallyAt (cell c (rcvJ 3 1)) () (credS 88))
      ∗ cred (tallyAt (cell c (rcvJ 3 2)) () (credS 88))
      ∗ cred (tallyAt (cell c (rcvJ 4 0)) () (credS 256))
      ∗ cred (tallyAt (cell c (rcvJ 4 1)) () (credS 256))
      ∗ cred (tallyAt (cell c (rcvJ 4 2)) () (credS 256))
      ∗ cred (tallyAt (cell c (rcvJ 5 0)) () (credS 256))
      ∗ cred (tallyAt (cell c (rcvJ 5 1)) () (credS 256))
      ∗ cred (tallyAt (cell c (rcvJ 5 2)) () (credS 256))
      ∗ cred (tallyAt (cell c (rcvJ 6 0)) () (credS 256))
      ∗ cred (tallyAt (cell c (rcvJ 6 1)) () (credS 256))
      ∗ cred (tallyAt (cell c (rcvJ 6 2)) () (credS 256))
      ∗ cred (tallyAt (cell c (rcvJ 7 0)) () (credS 256))
      ∗ cred (tallyAt (cell c (rcvJ 7 1)) () (credS 256))
      ∗ cred (tallyAt (cell c (rcvJ 7 2)) () (credS 256))
      ∗ cred (tallyAt (cell c (rcvJ 8 0)) () (credS 168))
      ∗ cred (tallyAt (cell c (rcvJ 8 1)) () (credS 168))
      ∗ cred (tallyAt (cell c (rcvJ 8 2)) () (credS 168))
      ∗ cred (tallyAt (cell c (rcvJ 9 0)) () (credS 168))
      ∗ cred (tallyAt (cell c (rcvJ 9 1)) () (credS 168))
      ∗ cred (tallyAt (cell c (rcvJ 9 2)) () (credS 168))) := rfl

/-! ## The arrays, cut -/

/-- The result array, cut into its thirty-one pieces. -/
theorem out_chain (c : Dev nD) :
    ((((c : Thread nD τ).loc main_v1) ↦{fullShare} m ((c : Thread nD τ).loc main_v1) : sProp 𝕄))
      ⊢ iprop(oPts c (lo 0 0 c) 256 fullShare (m ((c : Thread nD τ).loc main_v1))
      ∗ oPts c (lo 0 1 c) 256 fullShare (m ((c : Thread nD τ).loc main_v1))
      ∗ oPts c (lo 0 2 c) 256 fullShare (m ((c : Thread nD τ).loc main_v1))
      ∗ oPts c (lo 1 0 c) 88 fullShare (m ((c : Thread nD τ).loc main_v1))
      ∗ oPts c (lo 1 1 c) 88 fullShare (m ((c : Thread nD τ).loc main_v1))
      ∗ oPts c (lo 1 2 c) 88 fullShare (m ((c : Thread nD τ).loc main_v1))
      ∗ oPts c (lo 2 0 c) 256 fullShare (m ((c : Thread nD τ).loc main_v1))
      ∗ oPts c (lo 2 1 c) 256 fullShare (m ((c : Thread nD τ).loc main_v1))
      ∗ oPts c (lo 2 2 c) 256 fullShare (m ((c : Thread nD τ).loc main_v1))
      ∗ oPts c (lo 3 0 c) 88 fullShare (m ((c : Thread nD τ).loc main_v1))
      ∗ oPts c (lo 3 1 c) 88 fullShare (m ((c : Thread nD τ).loc main_v1))
      ∗ oPts c (lo 3 2 c) 88 fullShare (m ((c : Thread nD τ).loc main_v1))
      ∗ oPts c (lo 4 0 c) 256 fullShare (m ((c : Thread nD τ).loc main_v1))
      ∗ oPts c (lo 4 1 c) 256 fullShare (m ((c : Thread nD τ).loc main_v1))
      ∗ oPts c (lo 4 2 c) 256 fullShare (m ((c : Thread nD τ).loc main_v1))
      ∗ oPts c (lo 5 0 c) 256 fullShare (m ((c : Thread nD τ).loc main_v1))
      ∗ oPts c (lo 5 1 c) 256 fullShare (m ((c : Thread nD τ).loc main_v1))
      ∗ oPts c (lo 5 2 c) 256 fullShare (m ((c : Thread nD τ).loc main_v1))
      ∗ oPts c (lo 6 0 c) 256 fullShare (m ((c : Thread nD τ).loc main_v1))
      ∗ oPts c (lo 6 1 c) 256 fullShare (m ((c : Thread nD τ).loc main_v1))
      ∗ oPts c (lo 6 2 c) 256 fullShare (m ((c : Thread nD τ).loc main_v1))
      ∗ oPts c (lo 7 0 c) 256 fullShare (m ((c : Thread nD τ).loc main_v1))
      ∗ oPts c (lo 7 1 c) 256 fullShare (m ((c : Thread nD τ).loc main_v1))
      ∗ oPts c (lo 7 2 c) 256 fullShare (m ((c : Thread nD τ).loc main_v1))
      ∗ oPts c (lo 8 0 c) 168 fullShare (m ((c : Thread nD τ).loc main_v1))
      ∗ oPts c (lo 8 1 c) 168 fullShare (m ((c : Thread nD τ).loc main_v1))
      ∗ oPts c (lo 8 2 c) 168 fullShare (m ((c : Thread nD τ).loc main_v1))
      ∗ oPts c (lo 9 0 c) 168 fullShare (m ((c : Thread nD τ).loc main_v1))
      ∗ oPts c (lo 9 1 c) 168 fullShare (m ((c : Thread nD τ).loc main_v1))
      ∗ oPts c (lo 9 2 c) 168 fullShare (m ((c : Thread nD τ).loc main_v1))
      ∗ oPts c (2048 * (c.val % 4)) 2048 fullShare (m ((c : Thread nD τ).loc main_v1))) :=
  (split_bands_o (F := F) c fullShare (m ((c : Thread nD τ).loc main_v1))).1.trans (Entails.of_eq rfl)

/-- The scratch array, cut into the bands each peer writes and the device's own block's rows. -/
theorem stage_chain (c : Dev nD) (f0 : Buf (Elt F) ((c : Thread nD τ).loc cc0_scratch0)) :
    ((((c : Thread nD τ).loc cc0_scratch0) ↦{fullShare} f0 : sProp 𝕄))
      ⊢ iprop(barPay (F := F) (peer 0 c) 1 ∗ barPay (F := F) (peer 1 c) 0 ∗ barPay (F := F) (peer 2 c) 2
        ∗ barPay (F := F) (peer 3 c) 3 ∗ sPts c (2048 * (c.val % 4)) 2048 fullShare f0) := by
  iintro H
  ihave H := (split_bands_s (F := F) c fullShare f0).1 $$ H
  icases H with ⟨S00, S01, S02, S10, S11, S12, S20, S21, S22, S30, S31, S32, S40, S41, S42, S50, S51, S52, S60, S61, S62, S70, S71, S72, S80, S81, S82, S90, S91, S92, Sown⟩
  have e0 : peer 1 (peer 0 c) = c := pinv_peer 0 c
  have e1 : peer 0 (peer 1 c) = c := pinv_peer 1 c
  have e2 : peer 2 (peer 2 c) = c := pinv_peer 2 c
  have e3 : peer 3 (peer 3 c) = c := pinv_peer 3 c
  rw [barPay_eq_1 (peer 0 c), barPay_eq_0 (peer 1 c), barPay_eq_2 (peer 2 c), barPay_eq_3 (peer 3 c), e0, e1, e2, e3]
  unfold landPay
  isplitl [S00 S01 S02 S10 S11 S12]
  · isplitl [S00]; · iexists f0; iexact S00
    isplitl [S01]; · iexists f0; iexact S01
    isplitl [S02]; · iexists f0; iexact S02
    isplitl [S10]; · iexists f0; iexact S10
    isplitl [S11]; · iexists f0; iexact S11
    iexists f0; iexact S12
  isplitl [S20 S21 S22 S30 S31 S32]
  · isplitl [S20]; · iexists f0; iexact S20
    isplitl [S21]; · iexists f0; iexact S21
    isplitl [S22]; · iexists f0; iexact S22
    isplitl [S30]; · iexists f0; iexact S30
    isplitl [S31]; · iexists f0; iexact S31
    iexists f0; iexact S32
  isplitl [S40 S41 S42 S50 S51 S52 S90 S91 S92]
  · isplitl [S40]; · iexists f0; iexact S40
    isplitl [S41]; · iexists f0; iexact S41
    isplitl [S42]; · iexists f0; iexact S42
    isplitl [S50]; · iexists f0; iexact S50
    isplitl [S51]; · iexists f0; iexact S51
    isplitl [S52]; · iexists f0; iexact S52
    isplitl [S90]; · iexists f0; iexact S90
    isplitl [S91]; · iexists f0; iexact S91
    iexists f0; iexact S92
  isplitl [S60 S61 S62 S70 S71 S72 S80 S81 S82]
  · isplitl [S60]; · iexists f0; iexact S60
    isplitl [S61]; · iexists f0; iexact S61
    isplitl [S62]; · iexists f0; iexact S62
    isplitl [S70]; · iexists f0; iexact S70
    isplitl [S71]; · iexists f0; iexact S71
    isplitl [S72]; · iexists f0; iexact S72
    isplitl [S80]; · iexists f0; iexact S80
    isplitl [S81]; · iexists f0; iexact S81
    iexists f0; iexact S82
  iexact Sown

/-- The staged block, dealt. -/
theorem blk_chain (c : Dev nD) :
    xPts m c 0 2048 fullShare ⊢ iprop(xPts m c 0 2048 fullShare.left
      ∗ (xPts m c (blkLo 0 c) 256 fullShare.right.left ∗ blkRest m c 0)
      ∗ (xPts m c (blkLo 2 c) 256 fullShare.right.right.left ∗ blkRest m c 2)
      ∗ (xPts m c (blkLo 1 c) 88 fullShare.right.right.right.left ∗ blkRest m c 1)
      ∗ (xPts m c (blkLo 3 c) 88 fullShare.right.right.right.right ∗ blkRest m c 3)) :=
  (deal_blk m c).1.trans (Entails.of_eq rfl)

/-- The one window is fetched at the one point: the staged block is the device's block. -/
theorem before_eq (c : Dev nD) (d) : (dats m 0 c).before (0 : Fin 1) t₀ d = xstg m c := by
  unfold Dat.before; rw [if_pos (fetch0_0 t₀)]; rfl

/-! ## The start of the body -/

set_option maxHeartbeats 4000000 in
/-- What the body starts with is what its parts take, and what they do not touch. -/
theorem pre_ctx (c : Dev nD) :
    bodyPre' m c ⊢ iprop(∃ (K : Dev nD × Fin 93 → ℕ) (W : Waits sig Unit) (f0 : Buf (Elt F) ((c : Thread nD τ).loc cc0_scratch0)),
      ctx0 m K c W ∗ extras m c f0) := by
  unfold bodyPre' Φ₀ start ghost credits
  iintro ⟨⟨⟨⟨%K, #HR, Hposs, Hpay, Hown⟩, ⟨Hc0, Hcr⟩, #HL⟩, ⟨%f0, Hs⟩, Ho⟩, ⟨%W, %hW, HO⟩, ⟨%d, %g, %hg, Hx⟩⟩
  rw [before_eq] at hg
  subst hg
  ihave Hx := (Entails.of_eq (whole_blk_eq m c fullShare)) $$ Hx
  ihave ⟨X0, ⟨Xa, Ra⟩, ⟨Xb, Rb⟩, ⟨Xc, Rc⟩, ⟨Xd, Rd⟩⟩ := (blk_chain m c) $$ Hx
  ihave ⟨B0, B1, B2, B3, Sown⟩ := (stage_chain c f0) $$ Hs
  ihave ⟨O_00, O_01, O_02, O_10, O_11, O_12, O_20, O_21, O_22, O_30, O_31, O_32, O_40, O_41, O_42, O_50, O_51, O_52, O_60, O_61, O_62, O_70, O_71, O_72, O_80, O_81, O_82, O_90, O_91, O_92, O_own⟩ := (out_chain m c) $$ Ho
  ihave ⟨P0, P1, P2, P3, P4, P5, P6, P7, P8, P9, P10, P11, P12, P13, P14, P15, P16, P17, P18, P19, P20, P21, P22, P23, P24, P25, P26, P27, P28, P29, P30, P31, P32, P33, P34, P35, P36, P37, P38, P39, P40, P41, P42, P43, P44, P45, P46, P47, P48, P49, P50, P51, P52, P53, P54, P55, P56, P57, P58, P59, P60, P61, P62, P63, P64, P65, P66, P67, P68, P69, P70, P71, P72, P73, P74, P75, P76, P77, P78, P79, P80, P81, P82, P83, P84, P85, P86, P87, P88, P89, P90, P91, P92⟩ := (Entails.of_eq (poss_chain (F := F) c)) $$ Hposs
  ihave ⟨T_b0, T_b1, T_b2, T_b3, T_r00, T_r01, T_r02, T_r10, T_r11, T_r12, T_r20, T_r21, T_r22, T_r30, T_r31, T_r32, T_r40, T_r41, T_r42, T_r50, T_r51, T_r52, T_r60, T_r61, T_r62, T_r70, T_r71, T_r72, T_r80, T_r81, T_r82, T_r90, T_r91, T_r92⟩ := (Entails.of_eq (payToks_chain (F := F) c)) $$ Hpay
  ihave ⟨N_s00, N_s01, N_s02, N_s10, N_s11, N_s12, N_s20, N_s21, N_s22, N_s30, N_s31, N_s32, N_s40, N_s41, N_s42, N_s50, N_s51, N_s52, N_s60, N_s61, N_s62, N_s70, N_s71, N_s72, N_s80, N_s81, N_s82, N_s90, N_s91, N_s92, N_c0, N_c1, N_c2, N_c3, N_c4, N_c5, N_c6, N_c7, N_c8, N_c9, N_c10, N_c11, N_c12, N_c13, N_c14, N_c15, N_c16, N_c17, N_c18, N_c19, N_c20, N_c21, N_c22, N_c23, N_c24, N_c25, N_c26, N_c27, N_c28, N_c29, N_c31⟩ := (Entails.of_eq (ownToks_chain (F := F) c)) $$ Hown
  ihave ⟨C_r00, C_r01, C_r02, C_r10, C_r11, C_r12, C_r20, C_r21, C_r22, C_r30, C_r31, C_r32, C_r40, C_r41, C_r42, C_r50, C_r51, C_r52, C_r60, C_r61, C_r62, C_r70, C_r71, C_r72, C_r80, C_r81, C_r82, C_r90, C_r91, C_r92⟩ := (Entails.of_eq (credits_chain (F := F) c)) $$ Hcr
  iexists K; iexists W; iexists f0
  unfold ctx0 extras
  isplitr [P91 Sown Ra Rb Rc Rd]
  · isplitr; · iexact HR
    isplitr; · iexact HL
    isplitl [HO]; · iexact HO
    isplitl [T_b0]; · iexact T_b0
    isplitl [B0]; · iexact B0
    isplitl [T_b1]; · iexact T_b1
    isplitl [B1]; · iexact B1
    isplitl [T_b2]; · iexact T_b2
    isplitl [B2]; · iexact B2
    isplitl [T_b3]; · iexact T_b3
    isplitl [B3]; · iexact B3
    isplitl [Hc0]; · iexact Hc0
    isplitl [P0]; · iexact P0
    isplitl [Xa]; · iexact Xa
    isplitl [N_s00]; · iexact N_s00
    isplitl [T_r00]; · iexact T_r00
    isplitl [Xb]; · iexact Xb
    isplitl [N_s20]; · iexact N_s20
    isplitl [T_r20]; · iexact T_r20
    isplitl [Xc]; · iexact Xc
    isplitl [N_s10]; · iexact N_s10
    isplitl [T_r10]; · iexact T_r10
    isplitl [Xd]; · iexact Xd
    isplitl [N_s30]; · iexact N_s30
    isplitl [T_r30]; · iexact T_r30
    isplitl [X0]; · iexact X0
    isplitl [O_own]; · iexact O_own
    isplitl [N_c31]; · iexact N_c31
    isplitl [C_r00]; · iexact C_r00
    isplitl [P31]; · iexact P31
    isplitl [O_00]; · iexact O_00
    isplitl [N_c0]; · iexact N_c0
    isplitl [N_s01]; · iexact N_s01
    isplitl [T_r01]; · iexact T_r01
    isplitl [N_s40]; · iexact N_s40
    isplitl [T_r40]; · iexact T_r40
    isplitl [N_s60]; · iexact N_s60
    isplitl [T_r60]; · iexact T_r60
    isplitl [C_r20]; · iexact C_r20
    isplitl [P37]; · iexact P37
    isplitl [O_20]; · iexact O_20
    isplitl [N_c1]; · iexact N_c1
    isplitl [N_s21]; · iexact N_s21
    isplitl [T_r21]; · iexact T_r21
    isplitl [N_s50]; · iexact N_s50
    isplitl [T_r50]; · iexact T_r50
    isplitl [N_s70]; · iexact N_s70
    isplitl [T_r70]; · iexact T_r70
    isplitl [C_r10]; · iexact C_r10
    isplitl [P34]; · iexact P34
    isplitl [O_10]; · iexact O_10
    isplitl [N_c2]; · iexact N_c2
    isplitl [N_s11]; · iexact N_s11
    isplitl [T_r11]; · iexact T_r11
    isplitl [C_r30]; · iexact C_r30
    isplitl [P40]; · iexact P40
    isplitl [O_30]; · iexact O_30
    isplitl [N_c3]; · iexact N_c3
    isplitl [N_s31]; · iexact N_s31
    isplitl [T_r31]; · iexact T_r31
    isplitl [C_r60]; · iexact C_r60
    isplitl [P49]; · iexact P49
    isplitl [O_60]; · iexact O_60
    isplitl [N_c4]; · iexact N_c4
    isplitl [N_s90]; · iexact N_s90
    isplitl [T_r90]; · iexact T_r90
    isplitl [C_r50]; · iexact C_r50
    isplitl [P46]; · iexact P46
    isplitl [O_50]; · iexact O_50
    isplitl [N_c5]; · iexact N_c5
    isplitl [N_s80]; · iexact N_s80
    isplitl [T_r80]; · iexact T_r80
    isplitl [C_r40]; · iexact C_r40
    isplitl [P43]; · iexact P43
    isplitl [O_40]; · iexact O_40
    isplitl [N_c6]; · iexact N_c6
    isplitl [C_r70]; · iexact C_r70
    isplitl [P52]; · iexact P52
    isplitl [O_70]; · iexact O_70
    isplitl [N_c7]; · iexact N_c7
    isplitl [C_r01]; · iexact C_r01
    isplitl [P32]; · iexact P32
    isplitl [O_01]; · iexact O_01
    isplitl [N_c8]; · iexact N_c8
    isplitl [N_s02]; · iexact N_s02
    isplitl [T_r02]; · iexact T_r02
    isplitl [N_s41]; · iexact N_s41
    isplitl [T_r41]; · iexact T_r41
    isplitl [N_s61]; · iexact N_s61
    isplitl [T_r61]; · iexact T_r61
    isplitl [C_r21]; · iexact C_r21
    isplitl [P38]; · iexact P38
    isplitl [O_21]; · iexact O_21
    isplitl [N_c9]; · iexact N_c9
    isplitl [N_s22]; · iexact N_s22
    isplitl [T_r22]; · iexact T_r22
    isplitl [N_s51]; · iexact N_s51
    isplitl [T_r51]; · iexact T_r51
    isplitl [N_s71]; · iexact N_s71
    isplitl [T_r71]; · iexact T_r71
    isplitl [C_r11]; · iexact C_r11
    isplitl [P35]; · iexact P35
    isplitl [O_11]; · iexact O_11
    isplitl [N_c10]; · iexact N_c10
    isplitl [N_s12]; · iexact N_s12
    isplitl [T_r12]; · iexact T_r12
    isplitl [C_r31]; · iexact C_r31
    isplitl [P41]; · iexact P41
    isplitl [O_31]; · iexact O_31
    isplitl [N_c11]; · iexact N_c11
    isplitl [N_s32]; · iexact N_s32
    isplitl [T_r32]; · iexact T_r32
    isplitl [C_r61]; · iexact C_r61
    isplitl [P50]; · iexact P50
    isplitl [O_61]; · iexact O_61
    isplitl [N_c12]; · iexact N_c12
    isplitl [N_s91]; · iexact N_s91
    isplitl [T_r91]; · iexact T_r91
    isplitl [C_r51]; · iexact C_r51
    isplitl [P47]; · iexact P47
    isplitl [O_51]; · iexact O_51
    isplitl [N_c13]; · iexact N_c13
    isplitl [N_s81]; · iexact N_s81
    isplitl [T_r81]; · iexact T_r81
    isplitl [C_r41]; · iexact C_r41
    isplitl [P44]; · iexact P44
    isplitl [O_41]; · iexact O_41
    isplitl [N_c14]; · iexact N_c14
    isplitl [C_r71]; · iexact C_r71
    isplitl [P53]; · iexact P53
    isplitl [O_71]; · iexact O_71
    isplitl [N_c15]; · iexact N_c15
    isplitl [C_r02]; · iexact C_r02
    isplitl [P33]; · iexact P33
    isplitl [O_02]; · iexact O_02
    isplitl [N_c16]; · iexact N_c16
    isplitl [N_s42]; · iexact N_s42
    isplitl [T_r42]; · iexact T_r42
    isplitl [N_s62]; · iexact N_s62
    isplitl [T_r62]; · iexact T_r62
    isplitl [C_r22]; · iexact C_r22
    isplitl [P39]; · iexact P39
    isplitl [O_22]; · iexact O_22
    isplitl [N_c17]; · iexact N_c17
    isplitl [N_s52]; · iexact N_s52
    isplitl [T_r52]; · iexact T_r52
    isplitl [N_s72]; · iexact N_s72
    isplitl [T_r72]; · iexact T_r72
    isplitl [C_r12]; · iexact C_r12
    isplitl [P36]; · iexact P36
    isplitl [O_12]; · iexact O_12
    isplitl [N_c18]; · iexact N_c18
    isplitl [C_r32]; · iexact C_r32
    isplitl [P42]; · iexact P42
    isplitl [O_32]; · iexact O_32
    isplitl [N_c19]; · iexact N_c19
    isplitl [C_r62]; · iexact C_r62
    isplitl [P51]; · iexact P51
    isplitl [O_62]; · iexact O_62
    isplitl [N_c20]; · iexact N_c20
    isplitl [N_s92]; · iexact N_s92
    isplitl [T_r92]; · iexact T_r92
    isplitl [C_r52]; · iexact C_r52
    isplitl [P48]; · iexact P48
    isplitl [O_52]; · iexact O_52
    isplitl [N_c21]; · iexact N_c21
    isplitl [N_s82]; · iexact N_s82
    isplitl [T_r82]; · iexact T_r82
    isplitl [C_r42]; · iexact C_r42
    isplitl [P45]; · iexact P45
    isplitl [O_42]; · iexact O_42
    isplitl [N_c22]; · iexact N_c22
    isplitl [C_r72]; · iexact C_r72
    isplitl [P54]; · iexact P54
    isplitl [O_72]; · iexact O_72
    isplitl [N_c23]; · iexact N_c23
    isplitl [C_r90]; · iexact C_r90
    isplitl [P58]; · iexact P58
    isplitl [O_90]; · iexact O_90
    isplitl [N_c24]; · iexact N_c24
    isplitl [C_r80]; · iexact C_r80
    isplitl [P55]; · iexact P55
    isplitl [O_80]; · iexact O_80
    isplitl [N_c25]; · iexact N_c25
    isplitl [C_r91]; · iexact C_r91
    isplitl [P59]; · iexact P59
    isplitl [O_91]; · iexact O_91
    isplitl [N_c26]; · iexact N_c26
    isplitl [C_r81]; · iexact C_r81
    isplitl [P56]; · iexact P56
    isplitl [O_81]; · iexact O_81
    isplitl [N_c27]; · iexact N_c27
    isplitl [C_r92]; · iexact C_r92
    isplitl [P60]; · iexact P60
    isplitl [O_92]; · iexact O_92
    isplitl [N_c28]; · iexact N_c28
    isplitl [C_r82]; · iexact C_r82
    isplitl [P57]; · iexact P57
    isplitl [O_82]; · iexact O_82
    isplitl [N_c29]; · iexact N_c29
    isplitl [P1]; · iexact P1
    isplitl [P7]; · iexact P7
    isplitl [P4]; · iexact P4
    isplitl [P10]; · iexact P10
    isplitl [P2]; · iexact P2
    isplitl [P13]; · iexact P13
    isplitl [P19]; · iexact P19
    isplitl [P8]; · iexact P8
    isplitl [P16]; · iexact P16
    isplitl [P22]; · iexact P22
    isplitl [P5]; · iexact P5
    isplitl [P11]; · iexact P11
    isplitl [P28]; · iexact P28
    isplitl [P25]; · iexact P25
    isplitl [P3]; · iexact P3
    isplitl [P14]; · iexact P14
    isplitl [P20]; · iexact P20
    isplitl [P9]; · iexact P9
    isplitl [P17]; · iexact P17
    isplitl [P23]; · iexact P23
    isplitl [P6]; · iexact P6
    isplitl [P12]; · iexact P12
    isplitl [P29]; · iexact P29
    isplitl [P26]; · iexact P26
    isplitl [P15]; · iexact P15
    isplitl [P21]; · iexact P21
    isplitl [P18]; · iexact P18
    isplitl [P24]; · iexact P24
    isplitl [P30]; · iexact P30
    isplitl [P27]; · iexact P27
    isplitl [P61]; · iexact P61
    isplitl [P62]; · iexact P62
    isplitl [P63]; · iexact P63
    isplitl [P64]; · iexact P64
    isplitl [P65]; · iexact P65
    isplitl [P66]; · iexact P66
    isplitl [P67]; · iexact P67
    isplitl [P68]; · iexact P68
    isplitl [P69]; · iexact P69
    isplitl [P70]; · iexact P70
    isplitl [P71]; · iexact P71
    isplitl [P72]; · iexact P72
    isplitl [P73]; · iexact P73
    isplitl [P74]; · iexact P74
    isplitl [P75]; · iexact P75
    isplitl [P76]; · iexact P76
    isplitl [P77]; · iexact P77
    isplitl [P78]; · iexact P78
    isplitl [P79]; · iexact P79
    isplitl [P80]; · iexact P80
    isplitl [P81]; · iexact P81
    isplitl [P82]; · iexact P82
    isplitl [P83]; · iexact P83
    isplitl [P84]; · iexact P84
    isplitl [P85]; · iexact P85
    isplitl [P86]; · iexact P86
    isplitl [P87]; · iexact P87
    isplitl [P88]; · iexact P88
    isplitl [P89]; · iexact P89
    isplitl [P90]; · iexact P90
    iexact P92
  · isplitl [P91]; · iexact P91
    isplitl [Sown]; · iexact Sown
    isplitl [Ra]; · iexact Ra
    isplitl [Rb]; · iexact Rb
    isplitl [Rc]; · iexact Rc
    iexact Rd

end Cert.KernelIdeal.AG

end
-- ==== Proof.PostCtx.lean ====
/-
  The end of the body: what the parts have left is what the device holds at the end.

  The ninety-one counters the waits left at zero and the counter of the copy cell no transfer pays, closed as it stands,
  are the ninety-two DMA semaphores at zero.  The thirty-one pieces of the result are the result at its final contents.
  The shares of every landed band that came back are put together band by band, and with the own block's rows the
  thirty-one bands are the whole scratch array at some contents.  The five shares of the staged block are the staged
  block.  Nothing is owed any more.
-/
import proofs.«900685_g7700000000000686_dist_ag_v7x_xyz2x2x4_z_m2048_n512_f32_1_alg».proof.Proof.Oblig
import proofs.«900685_g7700000000000686_dist_ag_v7x_xyz2x2x4_z_m2048_n512_f32_1_alg».proof.Proof.WaitSteps

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The ninety-two counters -/

omit [FloatOps F] in
theorem ownZero_chain (c : Dev nD) :
    (iprop(semVal (cell c (sndJ 0 0)) 0 ∗ semVal (cell c (sndJ 0 1)) 0 ∗ semVal (cell c (sndJ 0 2)) 0 ∗
        semVal (cell c (sndJ 1 0)) 0 ∗ semVal (cell c (sndJ 1 1)) 0 ∗ semVal (cell c (sndJ 1 2)) 0 ∗
        semVal (cell c (sndJ 2 0)) 0 ∗ semVal (cell c (sndJ 2 1)) 0 ∗ semVal (cell c (sndJ 2 2)) 0 ∗
        semVal (cell c (sndJ 3 0)) 0 ∗ semVal (cell c (sndJ 3 1)) 0 ∗ semVal (cell c (sndJ 3 2)) 0 ∗
        semVal (cell c (sndJ 4 0)) 0 ∗ semVal (cell c (sndJ 4 1)) 0 ∗ semVal (cell c (sndJ 4 2)) 0 ∗
        semVal (cell c (sndJ 5 0)) 0 ∗ semVal (cell c (sndJ 5 1)) 0 ∗ semVal (cell c (sndJ 5 2)) 0 ∗
        semVal (cell c (sndJ 6 0)) 0 ∗ semVal (cell c (sndJ 6 1)) 0 ∗ semVal (cell c (sndJ 6 2)) 0 ∗
        semVal (cell c (sndJ 7 0)) 0 ∗ semVal (cell c (sndJ 7 1)) 0 ∗ semVal (cell c (sndJ 7 2)) 0 ∗
        semVal (cell c (sndJ 8 0)) 0 ∗ semVal (cell c (sndJ 8 1)) 0 ∗ semVal (cell c (sndJ 8 2)) 0 ∗
        semVal (cell c (sndJ 9 0)) 0 ∗ semVal (cell c (sndJ 9 1)) 0 ∗ semVal (cell c (sndJ 9 2)) 0 ∗
        semVal (cell c (rcvJ 0 0)) 0 ∗ semVal (cell c (rcvJ 0 1)) 0 ∗ semVal (cell c (rcvJ 0 2)) 0 ∗
        semVal (cell c (rcvJ 1 0)) 0 ∗ semVal (cell c (rcvJ 1 1)) 0 ∗ semVal (cell c (rcvJ 1 2)) 0 ∗
        semVal (cell c (rcvJ 2 0)) 0 ∗ semVal (cell c (rcvJ 2 1)) 0 ∗ semVal (cell c (rcvJ 2 2)) 0 ∗
        semVal (cell c (rcvJ 3 0)) 0 ∗ semVal (cell c (rcvJ 3 1)) 0 ∗ semVal (cell c (rcvJ 3 2)) 0 ∗
        semVal (cell c (rcvJ 4 0)) 0 ∗ semVal (cell c (rcvJ 4 1)) 0 ∗ semVal (cell c (rcvJ 4 2)) 0 ∗
        semVal (cell c (rcvJ 5 0)) 0 ∗ semVal (cell c (rcvJ 5 1)) 0 ∗ semVal (cell c (rcvJ 5 2)) 0 ∗
        semVal (cell c (rcvJ 6 0)) 0 ∗ semVal (cell c (rcvJ 6 1)) 0 ∗ semVal (cell c (rcvJ 6 2)) 0 ∗
        semVal (cell c (rcvJ 7 0)) 0 ∗ semVal (cell c (rcvJ 7 1)) 0 ∗ semVal (cell c (rcvJ 7 2)) 0 ∗
        semVal (cell c (rcvJ 8 0)) 0 ∗ semVal (cell c (rcvJ 8 1)) 0 ∗ semVal (cell c (rcvJ 8 2)) 0 ∗
        semVal (cell c (rcvJ 9 0)) 0 ∗ semVal (cell c (rcvJ 9 1)) 0 ∗ semVal (cell c (rcvJ 9 2)) 0 ∗
        semVal (cell c (cpJ 0)) 0 ∗ semVal (cell c (cpJ 1)) 0 ∗ semVal (cell c (cpJ 2)) 0 ∗
        semVal (cell c (cpJ 3)) 0 ∗ semVal (cell c (cpJ 4)) 0 ∗ semVal (cell c (cpJ 5)) 0 ∗
        semVal (cell c (cpJ 6)) 0 ∗ semVal (cell c (cpJ 7)) 0 ∗ semVal (cell c (cpJ 8)) 0 ∗
        semVal (cell c (cpJ 9)) 0 ∗ semVal (cell c (cpJ 10)) 0 ∗ semVal (cell c (cpJ 11)) 0 ∗
        semVal (cell c (cpJ 12)) 0 ∗ semVal (cell c (cpJ 13)) 0 ∗ semVal (cell c (cpJ 14)) 0 ∗
        semVal (cell c (cpJ 15)) 0 ∗ semVal (cell c (cpJ 16)) 0 ∗ semVal (cell c (cpJ 17)) 0 ∗
        semVal (cell c (cpJ 18)) 0 ∗ semVal (cell c (cpJ 19)) 0 ∗ semVal (cell c (cpJ 20)) 0 ∗
        semVal (cell c (cpJ 21)) 0 ∗ semVal (cell c (cpJ 22)) 0 ∗ semVal (cell c (cpJ 23)) 0 ∗
        semVal (cell c (cpJ 24)) 0 ∗ semVal (cell c (cpJ 25)) 0 ∗ semVal (cell c (cpJ 26)) 0 ∗
        semVal (cell c (cpJ 27)) 0 ∗ semVal (cell c (cpJ 28)) 0 ∗ semVal (cell c (cpJ 29)) 0 ∗
        semVal (cell c (cpJ 30)) 0 ∗ semVal (cell c (cpJ 31)) 0) : sProp 𝕄) ⊢ ownZero (F := F) c := by
  unfold ownZero
  exact Entails.of_eq rfl

/-! ## The result -/

theorem outPieces_chain (c : Dev nD) :
    (iprop(oPts c (2048 * (c.val % 4)) 2048 fullShare (Gd m c) ∗ oPts c (lo 0 0 c) 256 fullShare (Gd m (org 0 0 c)) ∗
        oPts c (lo 0 1 c) 256 fullShare (Gd m (org 0 1 c)) ∗ oPts c (lo 0 2 c) 256 fullShare (Gd m (org 0 2 c)) ∗
        oPts c (lo 1 0 c) 88 fullShare (Gd m (org 1 0 c)) ∗ oPts c (lo 1 1 c) 88 fullShare (Gd m (org 1 1 c)) ∗
        oPts c (lo 1 2 c) 88 fullShare (Gd m (org 1 2 c)) ∗ oPts c (lo 2 0 c) 256 fullShare (Gd m (org 2 0 c)) ∗
        oPts c (lo 2 1 c) 256 fullShare (Gd m (org 2 1 c)) ∗ oPts c (lo 2 2 c) 256 fullShare (Gd m (org 2 2 c)) ∗
        oPts c (lo 3 0 c) 88 fullShare (Gd m (org 3 0 c)) ∗ oPts c (lo 3 1 c) 88 fullShare (Gd m (org 3 1 c)) ∗
        oPts c (lo 3 2 c) 88 fullShare (Gd m (org 3 2 c)) ∗ oPts c (lo 4 0 c) 256 fullShare (Gd m (org 4 0 c)) ∗
        oPts c (lo 4 1 c) 256 fullShare (Gd m (org 4 1 c)) ∗ oPts c (lo 4 2 c) 256 fullShare (Gd m (org 4 2 c)) ∗
        oPts c (lo 5 0 c) 256 fullShare (Gd m (org 5 0 c)) ∗ oPts c (lo 5 1 c) 256 fullShare (Gd m (org 5 1 c)) ∗
        oPts c (lo 5 2 c) 256 fullShare (Gd m (org 5 2 c)) ∗ oPts c (lo 6 0 c) 256 fullShare (Gd m (org 6 0 c)) ∗
        oPts c (lo 6 1 c) 256 fullShare (Gd m (org 6 1 c)) ∗ oPts c (lo 6 2 c) 256 fullShare (Gd m (org 6 2 c)) ∗
        oPts c (lo 7 0 c) 256 fullShare (Gd m (org 7 0 c)) ∗ oPts c (lo 7 1 c) 256 fullShare (Gd m (org 7 1 c)) ∗
        oPts c (lo 7 2 c) 256 fullShare (Gd m (org 7 2 c)) ∗ oPts c (lo 8 0 c) 168 fullShare (Gd m (org 8 0 c)) ∗
        oPts c (lo 8 1 c) 168 fullShare (Gd m (org 8 1 c)) ∗ oPts c (lo 8 2 c) 168 fullShare (Gd m (org 8 2 c)) ∗
        oPts c (lo 9 0 c) 168 fullShare (Gd m (org 9 0 c)) ∗ oPts c (lo 9 1 c) 168 fullShare (Gd m (org 9 1 c)) ∗
        oPts c (lo 9 2 c) 168 fullShare (Gd m (org 9 2 c))) : sProp 𝕄) ⊢ outPieces m c := by
  unfold outPieces
  exact Entails.of_eq rfl

/-! ## The scratch array -/

omit [FloatOps F] in
theorem exI (c : Dev nD) (a n : ℕ) (X : (cc0_scratch0 : Ref sig .tc).ty.Contents (Elt F)) :
    sPts c a n fullShare X ⊢ (iprop(∃ g : (cc0_scratch0 : Ref sig .tc).ty.Contents (Elt F), sPts (F := F) c a n fullShare g) : sProp 𝕄) := by
  iintro H; iexists X; iexact H

/-- Four shares of a band of 256 rows make the band whole, at some contents. -/
theorem back4 (c : Dev nD) (a : ℕ) (X : (cc0_scratch0 : Ref sig .tc).ty.Contents (Elt F)) :
    iprop(sPts c a 256 fullShare.left X ∗ sPts c a 256 fullShare.right.left X ∗ sPts c a 256 fullShare.right.right.left X
      ∗ sPts c a 256 fullShare.right.right.right X)
      ⊢ (iprop(∃ g : (cc0_scratch0 : Ref sig .tc).ty.Contents (Elt F), sPts (F := F) c a 256 fullShare g) : sProp 𝕄) :=
  (sPts_deal4 c a 256 X).2.trans (exI c a 256 X)

omit [FloatOps F] in
/-- Two shares of a band of 88 rows make the band whole. -/
theorem back2 (c : Dev nD) (a : ℕ) (X : (cc0_scratch0 : Ref sig .tc).ty.Contents (Elt F)) :
    iprop(sPts c a 88 fullShare.left X ∗ sPts c a 88 fullShare.right X)
      ⊢ (iprop(∃ g : (cc0_scratch0 : Ref sig .tc).ty.Contents (Elt F), sPts (F := F) c a 88 fullShare g) : sProp 𝕄) :=
  (sPts_share c a 88 fullShare X).2.trans (exI c a 88 X)

/-- One half of a band of 256 rows, and the other half on its first 88 and last 168 rows, make the band whole. -/
theorem back3 (c : Dev nD) (a : ℕ) (X : (cc0_scratch0 : Ref sig .tc).ty.Contents (Elt F)) :
    iprop(sPts c a 256 fullShare.left X ∗ sPts c a 88 fullShare.right X ∗ sPts c (a + 88) 168 fullShare.right X)
      ⊢ (iprop(∃ g : (cc0_scratch0 : Ref sig .tc).ty.Contents (Elt F), sPts (F := F) c a 256 fullShare g) : sProp 𝕄) :=
  (sPts_deal3 c a X).2.trans (exI c a 256 X)

omit [FloatOps F] in
/-- The thirty bands and the own block's rows, each whole at some contents, are the scratch array whole. -/
theorem join_lit (c : Dev nD) :
    (iprop((∃ g : (cc0_scratch0 : Ref sig .tc).ty.Contents (Elt F), sPts (F := F) c (lo 0 0 c) 256 fullShare g) ∗
        (∃ g : (cc0_scratch0 : Ref sig .tc).ty.Contents (Elt F), sPts (F := F) c (lo 0 1 c) 256 fullShare g) ∗
        (∃ g : (cc0_scratch0 : Ref sig .tc).ty.Contents (Elt F), sPts (F := F) c (lo 0 2 c) 256 fullShare g) ∗
        (∃ g : (cc0_scratch0 : Ref sig .tc).ty.Contents (Elt F), sPts (F := F) c (lo 1 0 c) 88 fullShare g) ∗
        (∃ g : (cc0_scratch0 : Ref sig .tc).ty.Contents (Elt F), sPts (F := F) c (lo 1 1 c) 88 fullShare g) ∗
        (∃ g : (cc0_scratch0 : Ref sig .tc).ty.Contents (Elt F), sPts (F := F) c (lo 1 2 c) 88 fullShare g) ∗
        (∃ g : (cc0_scratch0 : Ref sig .tc).ty.Contents (Elt F), sPts (F := F) c (lo 2 0 c) 256 fullShare g) ∗
        (∃ g : (cc0_scratch0 : Ref sig .tc).ty.Contents (Elt F), sPts (F := F) c (lo 2 1 c) 256 fullShare g) ∗
        (∃ g : (cc0_scratch0 : Ref sig .tc).ty.Contents (Elt F), sPts (F := F) c (lo 2 2 c) 256 fullShare g) ∗
        (∃ g : (cc0_scratch0 : Ref sig .tc).ty.Contents (Elt F), sPts (F := F) c (lo 3 0 c) 88 fullShare g) ∗
        (∃ g : (cc0_scratch0 : Ref sig .tc).ty.Contents (Elt F), sPts (F := F) c (lo 3 1 c) 88 fullShare g) ∗
        (∃ g : (cc0_scratch0 : Ref sig .tc).ty.Contents (Elt F), sPts (F := F) c (lo 3 2 c) 88 fullShare g) ∗
        (∃ g : (cc0_scratch0 : Ref sig .tc).ty.Contents (Elt F), sPts (F := F) c (lo 4 0 c) 256 fullShare g) ∗
        (∃ g : (cc0_scratch0 : Ref sig .tc).ty.Contents (Elt F), sPts (F := F) c (lo 4 1 c) 256 fullShare g) ∗
        (∃ g : (cc0_scratch0 : Ref sig .tc).ty.Contents (Elt F), sPts (F := F) c (lo 4 2 c) 256 fullShare g) ∗
        (∃ g : (cc0_scratch0 : Ref sig .tc).ty.Contents (Elt F), sPts (F := F) c (lo 5 0 c) 256 fullShare g) ∗
        (∃ g : (cc0_scratch0 : Ref sig .tc).ty.Contents (Elt F), sPts (F := F) c (lo 5 1 c) 256 fullShare g) ∗
        (∃ g : (cc0_scratch0 : Ref sig .tc).ty.Contents (Elt F), sPts (F := F) c (lo 5 2 c) 256 fullShare g) ∗
        (∃ g : (cc0_scratch0 : Ref sig .tc).ty.Contents (Elt F), sPts (F := F) c (lo 6 0 c) 256 fullShare g) ∗
        (∃ g : (cc0_scratch0 : Ref sig .tc).ty.Contents (Elt F), sPts (F := F) c (lo 6 1 c) 256 fullShare g) ∗
        (∃ g : (cc0_scratch0 : Ref sig .tc).ty.Contents (Elt F), sPts (F := F) c (lo 6 2 c) 256 fullShare g) ∗
        (∃ g : (cc0_scratch0 : Ref sig .tc).ty.Contents (Elt F), sPts (F := F) c (lo 7 0 c) 256 fullShare g) ∗
        (∃ g : (cc0_scratch0 : Ref sig .tc).ty.Contents (Elt F), sPts (F := F) c (lo 7 1 c) 256 fullShare g) ∗
        (∃ g : (cc0_scratch0 : Ref sig .tc).ty.Contents (Elt F), sPts (F := F) c (lo 7 2 c) 256 fullShare g) ∗
        (∃ g : (cc0_scratch0 : Ref sig .tc).ty.Contents (Elt F), sPts (F := F) c (lo 8 0 c) 168 fullShare g) ∗
        (∃ g : (cc0_scratch0 : Ref sig .tc).ty.Contents (Elt F), sPts (F := F) c (lo 8 1 c) 168 fullShare g) ∗
        (∃ g : (cc0_scratch0 : Ref sig .tc).ty.Contents (Elt F), sPts (F := F) c (lo 8 2 c) 168 fullShare g) ∗
        (∃ g : (cc0_scratch0 : Ref sig .tc).ty.Contents (Elt F), sPts (F := F) c (lo 9 0 c) 168 fullShare g) ∗
        (∃ g : (cc0_scratch0 : Ref sig .tc).ty.Contents (Elt F), sPts (F := F) c (lo 9 1 c) 168 fullShare g) ∗
        (∃ g : (cc0_scratch0 : Ref sig .tc).ty.Contents (Elt F), sPts (F := F) c (lo 9 2 c) 168 fullShare g) ∗
        (∃ g : (cc0_scratch0 : Ref sig .tc).ty.Contents (Elt F), sPts (F := F) c (2048 * (c.val % 4)) 2048 fullShare g)) : sProp 𝕄)
      ⊢ iprop(∃ g : (cc0_scratch0 : Ref sig .tc).ty.Contents (Elt F), ((c : Thread nD τ).loc cc0_scratch0) ↦{fullShare} g) :=
  join_bands_s (F := F) c

/-- The shares of the thirty landed bands that came back, band by band, and the own block's rows: the whole array. -/
theorem stage_back (c : Dev nD) (f0 : Buf (Elt F) ((c : Thread nD τ).loc cc0_scratch0)) :
    (iprop((sPts c (lo 0 0 c) 256 fullShare.left (Gd m (org 0 0 c)) ∗ sPts c (lo 0 0 c) 256 fullShare.right.left (Gd m (org 0 0 c)) ∗ sPts c (lo 0 0 c) 256 fullShare.right.right.left (Gd m (org 0 0 c)) ∗ sPts c (lo 0 0 c) 256 fullShare.right.right.right (Gd m (org 0 0 c))) ∗
        (sPts c (lo 0 1 c) 256 fullShare.left (Gd m (org 0 1 c)) ∗ sPts c (lo 0 1 c) 256 fullShare.right.left (Gd m (org 0 1 c)) ∗ sPts c (lo 0 1 c) 256 fullShare.right.right.left (Gd m (org 0 1 c)) ∗ sPts c (lo 0 1 c) 256 fullShare.right.right.right (Gd m (org 0 1 c))) ∗
        (sPts c (lo 0 2 c) 256 fullShare.left (Gd m (org 0 2 c)) ∗ sPts c (lo 0 2 c) 256 fullShare.right.left (Gd m (org 0 2 c)) ∗ sPts c (lo 0 2 c) 256 fullShare.right.right.left (Gd m (org 0 2 c)) ∗ sPts c (lo 0 2 c) 256 fullShare.right.right.right (Gd m (org 0 2 c))) ∗
        (sPts c (lo 1 0 c) 88 fullShare.left (Gd m (org 1 0 c)) ∗ sPts c (lo 1 0 c) 88 fullShare.right (Gd m (org 1 0 c))) ∗
        (sPts c (lo 1 1 c) 88 fullShare.left (Gd m (org 1 1 c)) ∗ sPts c (lo 1 1 c) 88 fullShare.right (Gd m (org 1 1 c))) ∗
        (sPts c (lo 1 2 c) 88 fullShare.left (Gd m (org 1 2 c)) ∗ sPts c (lo 1 2 c) 88 fullShare.right (Gd m (org 1 2 c))) ∗
        (sPts c (lo 2 0 c) 256 fullShare.left (Gd m (org 2 0 c)) ∗ sPts c (lo 2 0 c) 256 fullShare.right.left (Gd m (org 2 0 c)) ∗ sPts c (lo 2 0 c) 256 fullShare.right.right.left (Gd m (org 2 0 c)) ∗ sPts c (lo 2 0 c) 256 fullShare.right.right.right (Gd m (org 2 0 c))) ∗
        (sPts c (lo 2 1 c) 256 fullShare.left (Gd m (org 2 1 c)) ∗ sPts c (lo 2 1 c) 256 fullShare.right.left (Gd m (org 2 1 c)) ∗ sPts c (lo 2 1 c) 256 fullShare.right.right.left (Gd m (org 2 1 c)) ∗ sPts c (lo 2 1 c) 256 fullShare.right.right.right (Gd m (org 2 1 c))) ∗
        (sPts c (lo 2 2 c) 256 fullShare.left (Gd m (org 2 2 c)) ∗ sPts c (lo 2 2 c) 256 fullShare.right.left (Gd m (org 2 2 c)) ∗ sPts c (lo 2 2 c) 256 fullShare.right.right.left (Gd m (org 2 2 c)) ∗ sPts c (lo 2 2 c) 256 fullShare.right.right.right (Gd m (org 2 2 c))) ∗
        (sPts c (lo 3 0 c) 88 fullShare.left (Gd m (org 3 0 c)) ∗ sPts c (lo 3 0 c) 88 fullShare.right (Gd m (org 3 0 c))) ∗
        (sPts c (lo 3 1 c) 88 fullShare.left (Gd m (org 3 1 c)) ∗ sPts c (lo 3 1 c) 88 fullShare.right (Gd m (org 3 1 c))) ∗
        (sPts c (lo 3 2 c) 88 fullShare.left (Gd m (org 3 2 c)) ∗ sPts c (lo 3 2 c) 88 fullShare.right (Gd m (org 3 2 c))) ∗
        sPts c (lo 4 0 c) 256 fullShare (Gd m (org 4 0 c)) ∗
        sPts c (lo 4 1 c) 256 fullShare (Gd m (org 4 1 c)) ∗
        sPts c (lo 4 2 c) 256 fullShare (Gd m (org 4 2 c)) ∗
        (sPts c (lo 5 0 c) 256 fullShare.left (Gd m (org 5 0 c)) ∗ sPts c (lo 5 0 c) 88 fullShare.right (Gd m (org 5 0 c)) ∗ sPts c (lo 5 0 c + 88) 168 fullShare.right (Gd m (org 5 0 c))) ∗
        (sPts c (lo 5 1 c) 256 fullShare.left (Gd m (org 5 1 c)) ∗ sPts c (lo 5 1 c) 88 fullShare.right (Gd m (org 5 1 c)) ∗ sPts c (lo 5 1 c + 88) 168 fullShare.right (Gd m (org 5 1 c))) ∗
        (sPts c (lo 5 2 c) 256 fullShare.left (Gd m (org 5 2 c)) ∗ sPts c (lo 5 2 c) 88 fullShare.right (Gd m (org 5 2 c)) ∗ sPts c (lo 5 2 c + 88) 168 fullShare.right (Gd m (org 5 2 c))) ∗
        (sPts c (lo 6 0 c) 256 fullShare.left (Gd m (org 6 0 c)) ∗ sPts c (lo 6 0 c) 88 fullShare.right (Gd m (org 6 0 c)) ∗ sPts c (lo 6 0 c + 88) 168 fullShare.right (Gd m (org 6 0 c))) ∗
        (sPts c (lo 6 1 c) 256 fullShare.left (Gd m (org 6 1 c)) ∗ sPts c (lo 6 1 c) 88 fullShare.right (Gd m (org 6 1 c)) ∗ sPts c (lo 6 1 c + 88) 168 fullShare.right (Gd m (org 6 1 c))) ∗
        (sPts c (lo 6 2 c) 256 fullShare.left (Gd m (org 6 2 c)) ∗ sPts c (lo 6 2 c) 88 fullShare.right (Gd m (org 6 2 c)) ∗ sPts c (lo 6 2 c + 88) 168 fullShare.right (Gd m (org 6 2 c))) ∗
        sPts c (lo 7 0 c) 256 fullShare (Gd m (org 7 0 c)) ∗
        sPts c (lo 7 1 c) 256 fullShare (Gd m (org 7 1 c)) ∗
        sPts c (lo 7 2 c) 256 fullShare (Gd m (org 7 2 c)) ∗
        sPts c (lo 8 0 c) 168 fullShare (Gd m (org 8 0 c)) ∗
        sPts c (lo 8 1 c) 168 fullShare (Gd m (org 8 1 c)) ∗
        sPts c (lo 8 2 c) 168 fullShare (Gd m (org 8 2 c)) ∗
        sPts c (lo 9 0 c) 168 fullShare (Gd m (org 9 0 c)) ∗
        sPts c (lo 9 1 c) 168 fullShare (Gd m (org 9 1 c)) ∗
        sPts c (lo 9 2 c) 168 fullShare (Gd m (org 9 2 c)) ∗
        sPts c (2048 * (c.val % 4)) 2048 fullShare f0) : sProp 𝕄)
      ⊢ iprop(∃ g : (cc0_scratch0 : Ref sig .tc).ty.Contents (Elt F), ((c : Thread nD τ).loc cc0_scratch0) ↦{fullShare} g) := by
  iintro ⟨⟨G00_0, G00_1, G00_2, G00_3⟩, ⟨G01_0, G01_1, G01_2, G01_3⟩, ⟨G02_0, G02_1, G02_2, G02_3⟩, ⟨G10_0, G10_1⟩, ⟨G11_0, G11_1⟩, ⟨G12_0, G12_1⟩, ⟨G20_0, G20_1, G20_2, G20_3⟩, ⟨G21_0, G21_1, G21_2, G21_3⟩, ⟨G22_0, G22_1, G22_2, G22_3⟩, ⟨G30_0, G30_1⟩, ⟨G31_0, G31_1⟩, ⟨G32_0, G32_1⟩, G40, G41, G42, ⟨G50_0, G50_1, G50_2⟩, ⟨G51_0, G51_1, G51_2⟩, ⟨G52_0, G52_1, G52_2⟩, ⟨G60_0, G60_1, G60_2⟩, ⟨G61_0, G61_1, G61_2⟩, ⟨G62_0, G62_1, G62_2⟩, G70, G71, G72, G80, G81, G82, G90, G91, G92, Sown⟩
  iapply (join_lit (F := F) c)
  isplitl [G00_0 G00_1 G00_2 G00_3]
  · iapply (back4 c (lo 0 0 c) (Gd m (org 0 0 c)))
    isplitl [G00_0]; · iexact G00_0
    isplitl [G00_1]; · iexact G00_1
    isplitl [G00_2]; · iexact G00_2
    iexact G00_3
  isplitl [G01_0 G01_1 G01_2 G01_3]
  · iapply (back4 c (lo 0 1 c) (Gd m (org 0 1 c)))
    isplitl [G01_0]; · iexact G01_0
    isplitl [G01_1]; · iexact G01_1
    isplitl [G01_2]; · iexact G01_2
    iexact G01_3
  isplitl [G02_0 G02_1 G02_2 G02_3]
  · iapply (back4 c (lo 0 2 c) (Gd m (org 0 2 c)))
    isplitl [G02_0]; · iexact G02_0
    isplitl [G02_1]; · iexact G02_1
    isplitl [G02_2]; · iexact G02_2
    iexact G02_3
  isplitl [G10_0 G10_1]
  · iapply (back2 c (lo 1 0 c) (Gd m (org 1 0 c)))
    isplitl [G10_0]; · iexact G10_0
    iexact G10_1
  isplitl [G11_0 G11_1]
  · iapply (back2 c (lo 1 1 c) (Gd m (org 1 1 c)))
    isplitl [G11_0]; · iexact G11_0
    iexact G11_1
  isplitl [G12_0 G12_1]
  · iapply (back2 c (lo 1 2 c) (Gd m (org 1 2 c)))
    isplitl [G12_0]; · iexact G12_0
    iexact G12_1
  isplitl [G20_0 G20_1 G20_2 G20_3]
  · iapply (back4 c (lo 2 0 c) (Gd m (org 2 0 c)))
    isplitl [G20_0]; · iexact G20_0
    isplitl [G20_1]; · iexact G20_1
    isplitl [G20_2]; · iexact G20_2
    iexact G20_3
  isplitl [G21_0 G21_1 G21_2 G21_3]
  · iapply (back4 c (lo 2 1 c) (Gd m (org 2 1 c)))
    isplitl [G21_0]; · iexact G21_0
    isplitl [G21_1]; · iexact G21_1
    isplitl [G21_2]; · iexact G21_2
    iexact G21_3
  isplitl [G22_0 G22_1 G22_2 G22_3]
  · iapply (back4 c (lo 2 2 c) (Gd m (org 2 2 c)))
    isplitl [G22_0]; · iexact G22_0
    isplitl [G22_1]; · iexact G22_1
    isplitl [G22_2]; · iexact G22_2
    iexact G22_3
  isplitl [G30_0 G30_1]
  · iapply (back2 c (lo 3 0 c) (Gd m (org 3 0 c)))
    isplitl [G30_0]; · iexact G30_0
    iexact G30_1
  isplitl [G31_0 G31_1]
  · iapply (back2 c (lo 3 1 c) (Gd m (org 3 1 c)))
    isplitl [G31_0]; · iexact G31_0
    iexact G31_1
  isplitl [G32_0 G32_1]
  · iapply (back2 c (lo 3 2 c) (Gd m (org 3 2 c)))
    isplitl [G32_0]; · iexact G32_0
    iexact G32_1
  isplitl [G40]
  · iapply (exI c (lo 4 0 c) 256 (Gd m (org 4 0 c)))
    iexact G40
  isplitl [G41]
  · iapply (exI c (lo 4 1 c) 256 (Gd m (org 4 1 c)))
    iexact G41
  isplitl [G42]
  · iapply (exI c (lo 4 2 c) 256 (Gd m (org 4 2 c)))
    iexact G42
  isplitl [G50_0 G50_1 G50_2]
  · iapply (back3 c (lo 5 0 c) (Gd m (org 5 0 c)))
    isplitl [G50_0]; · iexact G50_0
    isplitl [G50_1]; · iexact G50_1
    iexact G50_2
  isplitl [G51_0 G51_1 G51_2]
  · iapply (back3 c (lo 5 1 c) (Gd m (org 5 1 c)))
    isplitl [G51_0]; · iexact G51_0
    isplitl [G51_1]; · iexact G51_1
    iexact G51_2
  isplitl [G52_0 G52_1 G52_2]
  · iapply (back3 c (lo 5 2 c) (Gd m (org 5 2 c)))
    isplitl [G52_0]; · iexact G52_0
    isplitl [G52_1]; · iexact G52_1
    iexact G52_2
  isplitl [G60_0 G60_1 G60_2]
  · iapply (back3 c (lo 6 0 c) (Gd m (org 6 0 c)))
    isplitl [G60_0]; · iexact G60_0
    isplitl [G60_1]; · iexact G60_1
    iexact G60_2
  isplitl [G61_0 G61_1 G61_2]
  · iapply (back3 c (lo 6 1 c) (Gd m (org 6 1 c)))
    isplitl [G61_0]; · iexact G61_0
    isplitl [G61_1]; · iexact G61_1
    iexact G61_2
  isplitl [G62_0 G62_1 G62_2]
  · iapply (back3 c (lo 6 2 c) (Gd m (org 6 2 c)))
    isplitl [G62_0]; · iexact G62_0
    isplitl [G62_1]; · iexact G62_1
    iexact G62_2
  isplitl [G70]
  · iapply (exI c (lo 7 0 c) 256 (Gd m (org 7 0 c)))
    iexact G70
  isplitl [G71]
  · iapply (exI c (lo 7 1 c) 256 (Gd m (org 7 1 c)))
    iexact G71
  isplitl [G72]
  · iapply (exI c (lo 7 2 c) 256 (Gd m (org 7 2 c)))
    iexact G72
  isplitl [G80]
  · iapply (exI c (lo 8 0 c) 168 (Gd m (org 8 0 c)))
    iexact G80
  isplitl [G81]
  · iapply (exI c (lo 8 1 c) 168 (Gd m (org 8 1 c)))
    iexact G81
  isplitl [G82]
  · iapply (exI c (lo 8 2 c) 168 (Gd m (org 8 2 c)))
    iexact G82
  isplitl [G90]
  · iapply (exI c (lo 9 0 c) 168 (Gd m (org 9 0 c)))
    iexact G90
  isplitl [G91]
  · iapply (exI c (lo 9 1 c) 168 (Gd m (org 9 1 c)))
    iexact G91
  isplitl [G92]
  · iapply (exI c (lo 9 2 c) 168 (Gd m (org 9 2 c)))
    iexact G92
  iapply (exI c (2048 * (c.val % 4)) 2048 f0)
  iexact Sown

/-! ## The staged block -/

theorem blk_back (c : Dev nD) :
    (iprop(xPts m c 0 2048 fullShare.left ∗
        (xPts m c (blkLo 0 c) 256 fullShare.right.left ∗ blkRest m c 0) ∗
        (xPts m c (blkLo 2 c) 256 fullShare.right.right.left ∗ blkRest m c 2) ∗
        (xPts m c (blkLo 1 c) 88 fullShare.right.right.right.left ∗ blkRest m c 1) ∗
        (xPts m c (blkLo 3 c) 88 fullShare.right.right.right.right ∗ blkRest m c 3)) : sProp 𝕄) ⊢ stg c cc0_stg0_0 (xstg m c) := by
  refine BIBase.Entails.trans (deal_blk m c).2 ?_
  rw [← whole_blk_eq m c fullShare]
  iintro H; iexists (xstg m c); isplitr; · ipureintro; rfl
  iexact H

/-! ## Nothing owed -/

theorem owes_end (c : Dev nD) (W : Waits sig Unit) :
    owes (c : Thread nD τ) (Ol (payL.drop 34) c) W ⊢ ((dats m 0 c).owesAt () t₀.succ : sProp 𝕄) := by
  iintro H; iexists W; isplitr; · ipureintro; exact fun _ _ => Or.inl trivial
  iexact H

/-! ## The end of the body -/

theorem post_ctx (K : Dev nD × Fin 93 → ℕ) (c : Dev nD) (W : Waits sig Unit) (f0 : Buf (Elt F) ((c : Thread nD τ).loc cc0_scratch0)) :
    iprop(records m K ∗ ctxEnd m K c W ∗ extras m c f0) ⊢ |={Set.univ}=> bodyPost m c := by
  unfold ctxEnd extras bodyPost Φ₁
  iintro ⟨#HR, ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, H97, H98, H99, H100, H101, H102, H103, H104, H105, H106, H107, H108, H109, H110, H111, H112, H113, H114, H115, H116, H117, H118, H119, H120, H121, H122, H123, H124, H125, H126, H127, H128, H129, H130, H131, H132, H133, H134, H135, H136, H137, H138, H139, H140, H141, H142, H143, H144, H145, H146, H147, H148, H149, H150, H151, H152, H153, H154, H155, H156, H157, H158, H159, H160, H161, H162, H163, H164, H165, H166, H167, H168, H169, H170, H171, H172, H173, H174, H175, H176, H177, H178, H179, H180, H181, H182, H183, H184, H185, H186, H187, H188, H189, H190, H191, H192, H193⟩, ⟨Hat30, Hown, Hr0, Hr2, Hr1, Hr3⟩⟩
  ihave #HI30 := (rec_inv m K c (cpJ 30)) $$ HR
  imod (close_idle m K c) $$ [Hat30] with Hz30
  · isplitr; · iexact HI30
    iexact Hat30
  imodintro
  isplitl [H102 H49 H51 H53 H126 H69 H71 H73 H150 H21 H89 H91 H108 H61 H132 H81 H156 H25 H105 H55 H57 H59 H129 H75 H77 H79 H153 H23 H93 H95 H111 H63 H135 H83 H159 H27 H120 H144 H168 H117 H7 H67 H141 H17 H87 H165 H31 H99 H114 H5 H65 H138 H15 H85 H162 H29 H97 H123 H147 H171 H178 H184 H190 H175 H181 H187 Hown H192 H101 H125 H149 H107 H131 H155 H104 H128 H152 H110 H134 H158 H119 H143 H167 H116 H140 H164 H113 H137 H161 H122 H146 H170 H177 H183 H189 H174 H180 H186 H40 H48 H68 H44 H60 H80 H42 H54 H74 H46 H62 H82 H50 H70 H88 H56 H76 H92 H52 H72 H90 H58 H78 H94 H66 H86 H98 H64 H84 H96 H0 H10 H20 H2 H12 H24 H1 H11 H22 H3 H13 H26 H8 H18 H32 H6 H16 H30 H4 H14 H28 H9 H19 H33 H35 H37 H39 H34 H36 H38 H100 H103 H106 H109 H112 H115 H118 H121 H124 H127 H130 H133 H136 H139 H142 H145 H148 H151 H154 H157 H160 H163 H166 H169 H173 H176 H179 H182 H185 H188 Hz30 H191]
  · isplitl [H102 H49 H51 H53 H126 H69 H71 H73 H150 H21 H89 H91 H108 H61 H132 H81 H156 H25 H105 H55 H57 H59 H129 H75 H77 H79 H153 H23 H93 H95 H111 H63 H135 H83 H159 H27 H120 H144 H168 H117 H7 H67 H141 H17 H87 H165 H31 H99 H114 H5 H65 H138 H15 H85 H162 H29 H97 H123 H147 H171 H178 H184 H190 H175 H181 H187 Hown]
    · iapply (stage_back m c f0)
      isplitl [H102 H49 H51 H53]
      · isplitl [H102]; · iexact H102
        isplitl [H49]; · iexact H49
        isplitl [H51]; · iexact H51
        iexact H53
      isplitl [H126 H69 H71 H73]
      · isplitl [H126]; · iexact H126
        isplitl [H69]; · iexact H69
        isplitl [H71]; · iexact H71
        iexact H73
      isplitl [H150 H21 H89 H91]
      · isplitl [H150]; · iexact H150
        isplitl [H21]; · iexact H21
        isplitl [H89]; · iexact H89
        iexact H91
      isplitl [H108 H61]
      · isplitl [H108]; · iexact H108
        iexact H61
      isplitl [H132 H81]
      · isplitl [H132]; · iexact H132
        iexact H81
      isplitl [H156 H25]
      · isplitl [H156]; · iexact H156
        iexact H25
      isplitl [H105 H55 H57 H59]
      · isplitl [H105]; · iexact H105
        isplitl [H55]; · iexact H55
        isplitl [H57]; · iexact H57
        iexact H59
      isplitl [H129 H75 H77 H79]
      · isplitl [H129]; · iexact H129
        isplitl [H75]; · iexact H75
        isplitl [H77]; · iexact H77
        iexact H79
      isplitl [H153 H23 H93 H95]
      · isplitl [H153]; · iexact H153
        isplitl [H23]; · iexact H23
        isplitl [H93]; · iexact H93
        iexact H95
      isplitl [H111 H63]
      · isplitl [H111]; · iexact H111
        iexact H63
      isplitl [H135 H83]
      · isplitl [H135]; · iexact H135
        iexact H83
      isplitl [H159 H27]
      · isplitl [H159]; · iexact H159
        iexact H27
      isplitl [H120]; · iexact H120
      isplitl [H144]; · iexact H144
      isplitl [H168]; · iexact H168
      isplitl [H117 H7 H67]
      · isplitl [H117]; · iexact H117
        isplitl [H7]; · iexact H7
        iexact H67
      isplitl [H141 H17 H87]
      · isplitl [H141]; · iexact H141
        isplitl [H17]; · iexact H17
        iexact H87
      isplitl [H165 H31 H99]
      · isplitl [H165]; · iexact H165
        isplitl [H31]; · iexact H31
        iexact H99
      isplitl [H114 H5 H65]
      · isplitl [H114]; · iexact H114
        isplitl [H5]; · iexact H5
        iexact H65
      isplitl [H138 H15 H85]
      · isplitl [H138]; · iexact H138
        isplitl [H15]; · iexact H15
        iexact H85
      isplitl [H162 H29 H97]
      · isplitl [H162]; · iexact H162
        isplitl [H29]; · iexact H29
        iexact H97
      isplitl [H123]; · iexact H123
      isplitl [H147]; · iexact H147
      isplitl [H171]; · iexact H171
      isplitl [H178]; · iexact H178
      isplitl [H184]; · iexact H184
      isplitl [H190]; · iexact H190
      isplitl [H175]; · iexact H175
      isplitl [H181]; · iexact H181
      isplitl [H187]; · iexact H187
      iexact Hown
    isplitl [H192 H101 H125 H149 H107 H131 H155 H104 H128 H152 H110 H134 H158 H119 H143 H167 H116 H140 H164 H113 H137 H161 H122 H146 H170 H177 H183 H189 H174 H180 H186]
    · iapply (outPieces_chain m c)
      isplitl [H192]; · iexact H192
      isplitl [H101]; · iexact H101
      isplitl [H125]; · iexact H125
      isplitl [H149]; · iexact H149
      isplitl [H107]; · iexact H107
      isplitl [H131]; · iexact H131
      isplitl [H155]; · iexact H155
      isplitl [H104]; · iexact H104
      isplitl [H128]; · iexact H128
      isplitl [H152]; · iexact H152
      isplitl [H110]; · iexact H110
      isplitl [H134]; · iexact H134
      isplitl [H158]; · iexact H158
      isplitl [H119]; · iexact H119
      isplitl [H143]; · iexact H143
      isplitl [H167]; · iexact H167
      isplitl [H116]; · iexact H116
      isplitl [H140]; · iexact H140
      isplitl [H164]; · iexact H164
      isplitl [H113]; · iexact H113
      isplitl [H137]; · iexact H137
      isplitl [H161]; · iexact H161
      isplitl [H122]; · iexact H122
      isplitl [H146]; · iexact H146
      isplitl [H170]; · iexact H170
      isplitl [H177]; · iexact H177
      isplitl [H183]; · iexact H183
      isplitl [H189]; · iexact H189
      isplitl [H174]; · iexact H174
      isplitl [H180]; · iexact H180
      iexact H186
    iapply (ownZero_chain c)
    isplitl [H40]; · iexact H40
    isplitl [H48]; · iexact H48
    isplitl [H68]; · iexact H68
    isplitl [H44]; · iexact H44
    isplitl [H60]; · iexact H60
    isplitl [H80]; · iexact H80
    isplitl [H42]; · iexact H42
    isplitl [H54]; · iexact H54
    isplitl [H74]; · iexact H74
    isplitl [H46]; · iexact H46
    isplitl [H62]; · iexact H62
    isplitl [H82]; · iexact H82
    isplitl [H50]; · iexact H50
    isplitl [H70]; · iexact H70
    isplitl [H88]; · iexact H88
    isplitl [H56]; · iexact H56
    isplitl [H76]; · iexact H76
    isplitl [H92]; · iexact H92
    isplitl [H52]; · iexact H52
    isplitl [H72]; · iexact H72
    isplitl [H90]; · iexact H90
    isplitl [H58]; · iexact H58
    isplitl [H78]; · iexact H78
    isplitl [H94]; · iexact H94
    isplitl [H66]; · iexact H66
    isplitl [H86]; · iexact H86
    isplitl [H98]; · iexact H98
    isplitl [H64]; · iexact H64
    isplitl [H84]; · iexact H84
    isplitl [H96]; · iexact H96
    isplitl [H0]; · iexact H0
    isplitl [H10]; · iexact H10
    isplitl [H20]; · iexact H20
    isplitl [H2]; · iexact H2
    isplitl [H12]; · iexact H12
    isplitl [H24]; · iexact H24
    isplitl [H1]; · iexact H1
    isplitl [H11]; · iexact H11
    isplitl [H22]; · iexact H22
    isplitl [H3]; · iexact H3
    isplitl [H13]; · iexact H13
    isplitl [H26]; · iexact H26
    isplitl [H8]; · iexact H8
    isplitl [H18]; · iexact H18
    isplitl [H32]; · iexact H32
    isplitl [H6]; · iexact H6
    isplitl [H16]; · iexact H16
    isplitl [H30]; · iexact H30
    isplitl [H4]; · iexact H4
    isplitl [H14]; · iexact H14
    isplitl [H28]; · iexact H28
    isplitl [H9]; · iexact H9
    isplitl [H19]; · iexact H19
    isplitl [H33]; · iexact H33
    isplitl [H35]; · iexact H35
    isplitl [H37]; · iexact H37
    isplitl [H39]; · iexact H39
    isplitl [H34]; · iexact H34
    isplitl [H36]; · iexact H36
    isplitl [H38]; · iexact H38
    isplitl [H100]; · iexact H100
    isplitl [H103]; · iexact H103
    isplitl [H106]; · iexact H106
    isplitl [H109]; · iexact H109
    isplitl [H112]; · iexact H112
    isplitl [H115]; · iexact H115
    isplitl [H118]; · iexact H118
    isplitl [H121]; · iexact H121
    isplitl [H124]; · iexact H124
    isplitl [H127]; · iexact H127
    isplitl [H130]; · iexact H130
    isplitl [H133]; · iexact H133
    isplitl [H136]; · iexact H136
    isplitl [H139]; · iexact H139
    isplitl [H142]; · iexact H142
    isplitl [H145]; · iexact H145
    isplitl [H148]; · iexact H148
    isplitl [H151]; · iexact H151
    isplitl [H154]; · iexact H154
    isplitl [H157]; · iexact H157
    isplitl [H160]; · iexact H160
    isplitl [H163]; · iexact H163
    isplitl [H166]; · iexact H166
    isplitl [H169]; · iexact H169
    isplitl [H173]; · iexact H173
    isplitl [H176]; · iexact H176
    isplitl [H179]; · iexact H179
    isplitl [H182]; · iexact H182
    isplitl [H185]; · iexact H185
    isplitl [H188]; · iexact H188
    isplitl [Hz30]; · iexact Hz30
    iexact H191
  isplitl [H172]
  · iapply (owes_end m c _)
    iexact H172
  iapply (blk_back m c)
  isplitl [H193]; · iexact H193
  isplitl [H41 Hr0]
  · isplitl [H41]; · iexact H41
    iexact Hr0
  isplitl [H43 Hr2]
  · isplitl [H43]; · iexact H43
    iexact Hr2
  isplitl [H45 Hr1]
  · isplitl [H45]; · iexact H45
    iexact Hr1
  isplitl [H47]; · iexact H47
  iexact Hr3

end Cert.KernelIdeal.AG

end
-- ==== Proof.Body.lean ====
/-
  The body of one device, whole.

  What the launch hands a device is named resource by resource; the record of the cells, being persistent, is kept
  beside what the parts take; the parts run from the named holdings to the holdings at the end; and these, with the
  record and with what the parts never touched, are put back together into what the device hands back, under an update
  that the postcondition of the body absorbs.  The pipeline's obligation for the one grid point is this statement.
-/
import proofs.«900685_g7700000000000686_dist_ag_v7x_xyz2x2x4_z_m2048_n512_f32_1_alg».proof.Proof.Oblig
import proofs.«900685_g7700000000000686_dist_ag_v7x_xyz2x2x4_z_m2048_n512_f32_1_alg».proof.Proof.Core
import proofs.«900685_g7700000000000686_dist_ag_v7x_xyz2x2x4_z_m2048_n512_f32_1_alg».proof.Proof.PreCtx
import proofs.«900685_g7700000000000686_dist_ag_v7x_xyz2x2x4_z_m2048_n512_f32_1_alg».proof.Proof.PostCtx

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The record of the cells outlives the parts -/

/-- The record of the cells is persistent: a device keeps it beside everything its parts take. -/
theorem ctx0_dup (K : Dev nD × Fin 93 → ℕ) (c : Dev nD) (W : Waits sig Unit) :
    ctx0 m K c W ⊢ iprop(records m K ∗ ctx0 m K c W) := by
  unfold ctx0
  iintro ⟨#HR, Hrest⟩
  isplitl []
  · iexact HR
  isplitl []
  · iexact HR
  iexact Hrest

theorem ctx0_records (K : Dev nD × Fin 93 → ℕ) (c : Dev nD) (W : Waits sig Unit) : ctx0 m K c W ⊢ records m K := by
  unfold ctx0
  iintro ⟨#HR, Hrest⟩
  iexact HR

/-! ## The body of one device -/

/-- From what the launch hands a device to what it hands back: the holdings are named, the parts run, and the holdings
    at the end are put back together under an update the postcondition absorbs. -/
theorem sound_body (c : Dev nD) :
    bodyPre' m c ⊢ wp frame (wpE (defs₀ (F := F)) 𝒱₀ (c : Thread nD τ) none) Set.univ
      (cc0_body (Memref.whole cc0_stg0_0) (Memref.isWhole_whole _) (Memref.whole main_v1) (Memref.isWhole_whole _) (Memref.whole cc0_scratch0) (Memref.isWhole_whole _) cc0_scratch1 cc0_scratch2 cc0_scratch3) (fun _ => bodyPost m c) := by
  refine BIBase.Entails.trans ?_ (wp_fupd frame (wpE (defs₀ (F := F)) 𝒱₀ (c : Thread nD τ) none) Set.univ _ _)
  iintro H
  ihave ⟨%K, %W, %f0, Hc, He⟩ := (pre_ctx m c) $$ H
  ihave ⟨#HR, Hc⟩ := (ctx0_dup m K c W) $$ Hc
  iapply (body_core m K c W (fun _ => iprop(|={Set.univ}=> bodyPost m c)))
  isplitl [Hc]
  · iexact Hc
  iintro Hend
  iapply (post_ctx m K c W f0)
  isplitl []
  · iexact HR
  isplitl [Hend]
  · iexact Hend
  iexact He

/-! ## The obligation the pipeline asks of the body -/

omit [FloatOps F] in
/-- Owning a whole buffer through its memref is holding it whole at the named contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The pipeline's body obligation on device `c`: its one grid point is the body. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ (c : Thread nD τ) none) Set.univ
    (cc0_body (Memref.whole cc0_stg0_0) (Memref.isWhole_whole _) (Memref.whole main_v1) (Memref.isWhole_whole _) (Memref.whole cc0_scratch0) (Memref.isWhole_whole _) cc0_scratch1 cc0_scratch2 cc0_scratch3) (fun _ => bodyPost m c)
  exact sound_body m c

end Cert.KernelIdeal.AG

end
-- ==== Proof.LaunchGhost.lean ====
/-
  The ghost state of all sixteen devices, made at launch.

  Every cell of every device is funded at round 0: its round state at counter zero, its position, that round 0 is
  reached, and one token per duty.  A device's own cells have ninety-five duties: four on the barrier, one on each
  of the thirty arrival cells, the thirty departure cells and thirty-one of the copy cells.  Each cell's counter at
  zero and its round state are put into an invariant.  The tokens are then dealt to the devices that pay the duties:
  the token of duty d of a device's barrier goes to its peer d (which sees it as peer pinv d), the token of an
  arrival cell of flow f goes to the device whose peer tgt f it is, and the departure and copy tokens stay.  Since
  every peer map is a permutation of the devices, all tokens of one kind are dealt at once by reindexing.
-/
import proofs.«900685_g7700000000000686_dist_ag_v7x_xyz2x2x4_z_m2048_n512_f32_1_alg».proof.Proof.Ghost
import proofs.«900685_g7700000000000686_dist_ag_v7x_xyz2x2x4_z_m2048_n512_f32_1_alg».proof.Proof.Gen.KernelIdeal.Launch

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Chains over lists, and a product of index sets -/

theorem bigSepL_map {I J : Type} (f : I → J) (l : List I) (Φ : J → sProp 𝕄) :
    bigSepL (l.map f) Φ = bigSepL l (fun i => Φ (f i)) := by
  induction l with
  | nil => rfl
  | cons i l ih => rw [List.map_cons, bigSepL_cons, bigSepL_cons, ih]

theorem bigSepL_append {I : Type} (l l' : List I) (Φ : I → sProp 𝕄) :
    bigSepL (l ++ l') Φ = iprop(bigSepL l Φ ∗ bigSepL l' Φ) := by
  induction l with
  | nil => exact (BI.equiv_iff.mp BI.emp_sep).symm
  | cons i l ih =>
    rw [List.cons_append, bigSepL_cons, bigSepL_cons, ih]
    exact (BI.sep_assoc.antisymm BI.sep_assoc').symm

theorem bigSep_product {α β : Type} [DecidableEq α] [DecidableEq β] (s : Finset α) (t : Finset β) (Φ : α × β → sProp 𝕄) :
    bigSep (s ×ˢ t) Φ = bigSep s (fun a => bigSep t (fun b => Φ (a, b))) := by
  induction s using Finset.induction_on with
  | empty => rw [Finset.empty_product]; rfl
  | insert a s ha ih =>
    have hd : Disjoint (({a} : Finset α) ×ˢ t) (s ×ˢ t) :=
      Finset.disjoint_product.mpr (.inl (Finset.disjoint_singleton_left.mpr ha))
    rw [bigSep_insert ha, Finset.insert_eq, Finset.union_product, bigSep_union hd, ih, Finset.singleton_product, bigSep_map]
    rfl

/-! ## The cells and the tokens minted -/

theorem ownSemFacts : Pipeline.OwnSemFacts cfg0.spec osem := by decide

/-- Cell `j` of device `c`, of the pair. -/
abbrev kcell (ck : Dev nD × Fin 93) : GSem nD τ sig := cell ck.1 ck.2

theorem kcell_injective : Function.Injective (kcell : Dev nD × Fin 93 → GSem nD τ sig) := by
  rintro ⟨c, j⟩ ⟨c', j'⟩ h
  obtain ⟨h1, h2⟩ := cell_inj h
  subst h1; subst h2; rfl

def ringCells : Finset (GSem nD τ sig) := Finset.univ.map ⟨kcell, kcell_injective⟩

/-- The duties of a device's own cells, as (cell, duty): those its peers pay, then those it pays itself. -/
def tokL : List (Fin 93 × Fin 4) := payTokL.map (fun t => t.2) ++ ownTokL.map (fun j => (j, 0))

theorem tokL_nodup : tokL.Nodup := by decide

/-- The token of duty `t.2` of cell `t.1` of device `c`, at round 0. -/
abbrev tokOf (x : Dev nD × (Fin 93 × Fin 4)) : GSem nD τ sig × ℕ × Fin 4 := (cell x.1 x.2.1, 0, x.2.2)

theorem tokOf_injective : Function.Injective (tokOf : Dev nD × (Fin 93 × Fin 4) → GSem nD τ sig × ℕ × Fin 4) := by
  rintro ⟨c, j, d⟩ ⟨c', j', d'⟩ h
  obtain ⟨h1, h2⟩ := cell_inj (congrArg (fun x : GSem nD τ sig × ℕ × Fin 4 => x.1) h)
  have h3 : d = d' := congrArg (fun x : GSem nD τ sig × ℕ × Fin 4 => x.2.2) h
  subst h1; subst h2; subst h3; rfl

def ringToks : Finset (GSem nD τ sig × ℕ × Fin 4) :=
  ((Finset.univ : Finset (Dev nD)) ×ˢ tokL.toFinset).map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSepL tokL (fun t => dutyTok ER (cell c t.1) 0 t.2)

/-- What the launch element deals device `c`. -/
def G (c : Dev nD) : sProp 𝕄 :=
  iprop((bigSep Finset.univ fun j : Fin 93 => roundState ER (Rd m) (cell c j) 0)
    ∗ (bigSep Finset.univ fun j : Fin 93 => iprop(atPos ER (cell c j) 0 ∅ 0 ∗ reached ER (cell c j) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 93 => Φ (cell c j) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_product]
    exact bigSep_congr fun c _ => by unfold toks; rw [← bigSep_eq_bigSepL tokL tokL_nodup]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

theorem csem_succ (k : Fin 92) : csem k.succ = osem k := csem_pos (Nat.succ_ne_zero k.val)

/-- The ninety-two DMA semaphores are the kernel's own; -/
theorem ownSems0_eq (c : Dev nD) :
    (Pipeline.ownSems0 (Ix := Unit) (Name := ℕ) (U := UU) (Lvl := ℕ) (Val := Elt F) (τ := τ) osem c : sProp 𝕄)
      = bigSep Finset.univ fun k : Fin 92 => semVal (cell c k.succ) 0 := by
  unfold Pipeline.ownSems0
  exact bigSep_congr fun k _ => by rw [← csem_succ]

/-- the barrier semaphore is the launch's one unscoped semaphore. -/
theorem unscopedSems0_eq (c : Dev nD) : (unscopedSems0 c : sProp 𝕄) = semVal (cell c 0) 0 := by
  unfold unscopedSems0; rw [bigSep_eq_bigSepL_of_eq [SemLoc.reg barrier0] (by decide) (by decide)]; rfl

/-- Ninety-three cells: the first and the ninety-two after it. -/
theorem bigSep_fin93 (Φ : Fin 93 → sProp 𝕄) :
    bigSep Finset.univ Φ = iprop(Φ 0 ∗ bigSep Finset.univ fun k : Fin 92 => Φ k.succ) := by
  rw [Fin.univ_succ 92, Finset.cons_eq_insert, bigSep_insert (by simp), bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 93 => semVal (cell c j) 0 : sProp 𝕄) := by
  rw [ownSems0_eq, unscopedSems0_eq, bigSep_fin93]
  iintro ⟨HS, HB⟩
  isplitl [HB] <;> iassumption

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 93 => iprop(∃ κ : ℕ, cellInv ER (Rd m) κ (cell c j)))
          ∗ (bigSep Finset.univ fun j : Fin 93 => iprop(atPos ER (cell c j) 0 ∅ 0 ∗ reached ER (cell c j) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun j : Fin 93 => semVal (cell c j) 0) ∗ bigSep Finset.univ fun j : Fin 93 => roundState ER (Rd m) (cell c j) 0)
      ⊢ (|={Set.univ}=> bigSep Finset.univ fun j : Fin 93 => iprop(∃ κ : ℕ, cellInv ER (Rd m) κ (cell c j)) : sProp 𝕄) from by
        rw [← bigSep_sep']
        exact (bigSep_mono fun j _ => (Rounds.body_intro ER (Rd m) (cell c j)).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × Fin 93 → ℕ) (ck : Dev nD × Fin 93) :
    (bigSep Finset.univ fun ck : Dev nD × Fin 93 => (cellInv ER (Rd m) (K ck) (cell ck.1 ck.2) : sProp 𝕄)) ⊢ cellInv ER (Rd m) (K ck) (cell ck.1 ck.2) :=
  bigSep_elim (Finset.mem_univ ck)

theorem reached_at (ck : Dev nD × Fin 93) :
    (bigSep Finset.univ fun ck : Dev nD × Fin 93 => (reached ER (cell ck.1 ck.2) 0 : sProp 𝕄)) ⊢ reached ER (cell ck.1 ck.2) 0 :=
  bigSep_elim (Finset.mem_univ ck)

/-! ## Dealing the tokens -/

/-- What stays with device `c` besides the records: its positions and the tokens of the duties it pays. -/
def linear (c : Dev nD) : sProp 𝕄 := iprop(poss (F := F) c ∗ payToks (F := F) c ∗ ownToks (F := F) c)

theorem ghost_intro (K : Dev nD × Fin 93 → ℕ) (c : Dev nD) : iprop(records m K ∗ linear (F := F) c) ⊢ G' m c := by
  unfold G' ghost linear
  iintro ⟨HR, HL⟩
  iexists K
  isplitl [HR] <;> iassumption

/-- A device's own tokens are those its peers pay and those it pays itself. -/
theorem toks_split (c : Dev nD) :
    (toks c : sProp 𝕄) = iprop(bigSepL payTokL (fun t => dutyTok ER (cell c t.2.1) 0 t.2.2) ∗ ownToks c) := by
  unfold toks tokL ownToks
  rw [bigSepL_append, bigSepL_map, bigSepL_map]

/-- Tokens on every device's cells, each held by that device, are the same tokens each held by the device that sees the
    cell's device as the named peer: the peer maps are permutations. -/
theorem deal (l : List (Fin 4 × Fin 93 × Fin 4)) :
    (bigSep Finset.univ fun c : Dev nD => bigSepL l fun t => (dutyTok ER (cell c t.2.1) 0 t.2.2 : sProp 𝕄))
      = bigSep Finset.univ fun c : Dev nD => bigSepL l fun t => (dutyTok ER (cell (peer t.1 c) t.2.1) 0 t.2.2 : sProp 𝕄) := by
  induction l with
  | nil => rfl
  | cons t l ih =>
    simp only [bigSepL_cons]
    rw [bigSep_sep, bigSep_sep, ih, bigSep_univ_equiv (peerEquiv t.1) (fun c : Dev nD => (dutyTok ER (cell c t.2.1) 0 t.2.2 : sProp 𝕄))]
    rfl

theorem toks_around :
    (bigSep Finset.univ fun c : Dev nD => (toks c : sProp 𝕄)) ⊢ bigSep Finset.univ fun c : Dev nD => iprop(payToks c ∗ ownToks c) := by
  rw [bigSep_congr (s := Finset.univ) (fun (c : Dev nD) _ => toks_split (F := F) c), bigSep_sep', bigSep_sep', deal]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (poss c : sProp 𝕄) = bigSep Finset.univ fun j : Fin 93 => atPos ER (cell c j) 0 ∅ 0 := by
  unfold poss
  rw [bigSep_univ_eq_bigSepL (List.finRange 93) (Finset.eq_univ_of_forall fun j => List.mem_toFinset.mpr (List.mem_finRange j)).symm (List.nodup_finRange 93)]

theorem regroup :
    (bigSep Finset.univ fun c : Dev nD => iprop((bigSep Finset.univ fun j : Fin 93 => iprop(∃ κ : ℕ, cellInv ER (Rd m) κ (cell c j)))
          ∗ (bigSep Finset.univ fun j : Fin 93 => iprop(atPos ER (cell c j) 0 ∅ 0 ∗ reached ER (cell c j) 0)) ∗ toks (F := F) c) : sProp 𝕄)
      ⊢ bigSep Finset.univ (G' m) := by
  rw [bigSep_sep', bigSep_sep', ← bigSep_univ_prod (fun ck : Dev nD × Fin 93 => iprop(∃ κ : ℕ, cellInv ER (Rd m) κ (cell ck.1 ck.2))),
    bigSep_congr (s := Finset.univ) (fun (c : Dev nD) _ => bigSep_sep' Finset.univ (fun j : Fin 93 => (atPos ER (cell c j) 0 ∅ 0 : sProp 𝕄)) (fun j => reached ER (cell c j) 0)),
    bigSep_sep', ← bigSep_univ_prod (fun ck : Dev nD × Fin 93 => (reached ER (cell ck.1 ck.2) 0 : sProp 𝕄))]
  iintro ⟨HI, ⟨Hat, #HR⟩, Htok⟩
  ihave HK := (BI.bigSep_exists_pi Finset.univ (fun (ck : Dev nD × Fin 93) (κ : ℕ) => (cellInv ER (Rd m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 93 => (atPos ER (cell c j) 0 ∅ 0 : sProp 𝕄)) (fun c => iprop(payToks c ∗ ownToks c))).symm).trans
      (bigSep_mono fun c _ => show _ ⊢ linear c from Entails.of_eq (by unfold linear; rw [poss_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch element, split: the pipeline library's part as it is, the rounds' part funded. -/
theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

end Cert.KernelIdeal.AG

end
-- ==== Proof.LaunchRun.lean ====
/-
  The launch: from the machine's initial state to every device's body, and from the bodies' ends to the result.

  Contents.  What the launch deals a device — its result array as launched, the levels, the credit of its barrier
  and of its thirty arrivals, and its share of the cells' ghost state — is what its body starts from; with the
  scratch array it is the body's first assertion.  The body's last assertion gives back the scratch array, the device's
  ninety-two DMA semaphores at zero, and the thirty-one pieces of the result.  Under the final state each piece pins
  the rows of the result it covers: the device's own block at the rows of its position on the ring, and each landed
  band at the rows of the block it came from.  The run of the whole program follows: it terminates, the argument is
  unchanged, and the result holds those rows.
-/
import proofs.«900685_g7700000000000686_dist_ag_v7x_xyz2x2x4_z_m2048_n512_f32_1_alg».proof.Proof.Ghost
import proofs.«900685_g7700000000000686_dist_ag_v7x_xyz2x2x4_z_m2048_n512_f32_1_alg».proof.Proof.Regions
import proofs.«900685_g7700000000000686_dist_ag_v7x_xyz2x2x4_z_m2048_n512_f32_1_alg».proof.Proof.LaunchGhost
import proofs.«900685_g7700000000000686_dist_ag_v7x_xyz2x2x4_z_m2048_n512_f32_1_alg».proof.Proof.Gen.KernelIdeal.Launch
import proofs.«900685_g7700000000000686_dist_ag_v7x_xyz2x2x4_z_m2048_n512_f32_1_alg».proof.Proof.Gen.KernelIdeal.Frame

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The theorem's side conditions -/

theorem share_eq (c : Dev nD) (w : Fin cfg0.W) : (dats m 0 c).share w = fullShare :=
  Pipeline.Dat.share_full _ (fun _ => rfl) w

/-- What a device holds between the launch and its body: its start and its result array as launched. -/
def X (c : Dev nD) : sProp 𝕄 :=
  iprop(start m c ∗ (((c : Thread nD τ).loc main_v1) ↦{fullShare} m ((c : Thread nD τ).loc main_v1)))

/-- What a device's body gives back for the reading of the result. -/
def Y (c : Dev nD) : sProp 𝕄 := outPieces m c

theorem start_intro (c : Dev nD) :
    iprop(Pipeline.unscopedRestP Pipeline.Prefetch.none cfg0.spec c (fun b => m ((c : Thread nD τ).loc b)) ∗ levAts L lv
        ∗ Pipeline.launchCred (fun d => Ol payL d) c ∗ prngReg c (ρ c) ∗ (∃ K, ghost m K c))
      ⊢ |={Set.univ}=> iprop(X m c ∗ emp) := by
  rw [Pipeline.unscopedRestP_none, unscopedRest0_eq]
  iintro ⟨Hout, Hlev, Hcr, -, HG⟩
  ihave Hc := (creds (F := F) c) $$ Hcr
  imodintro
  unfold X start credits
  isplitl
  · isplitr [Hout]
    · isplitl [HG]; · iexact HG
      isplitl [Hc]; · iexact Hc
      iexact Hlev
    · iexact Hout
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Ho⟩, -, Hr⟩
  isplitl [Hs]; · iexact Hs
  isplitl [Hr]; · iexact Hr
  iexact Ho

omit [FloatOps F] in
/-- The device's own semaphores at zero, one by one. -/
theorem ownSems0_eq_zero (c : Dev nD) :
    (Pipeline.ownSems0 (Ix := Unit) (Name := ℕ) (U := UU) (Lvl := ℕ) (Val := Elt F) (τ := τ) osem c : sProp 𝕄) = ownZero c := by
  unfold ownZero
  exact Pipeline.ownSems0_eq_of_list c osem (List.finRange 92) (by decide) (List.nodup_finRange 92)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq_zero]
  unfold Φ₁ Y
  iintro ⟨Hr, Hp, Hz⟩
  isplitl [Hp]; · iexact Hp
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## Reading the result off the final state -/

/-- What the final memory holds of a device's result: its own block at the rows of its place on the ring, and at the
    rows of each landed band the block the band came from. -/
def QY (c : Dev nD) (mem : (ℓ : Loc nD τ sig) → Buf (Elt F) ℓ) : Prop :=
  (∀ i ∈ Rows (2048 * (c.val % 4)) 2048, mem ((c : Thread nD τ).loc main_v1) i = Gd m c i)
    ∧ ∀ fh ∈ fhL, ∀ i ∈ Rows (lo fh.1 fh.2.val c) (flowRows fh.1),
        mem ((c : Thread nD τ).loc main_v1) i = Gd m (org fh.1 fh.2.val c) i

omit [FloatOps F] in
/-- Facts the state pins of each member of a list of assertions hold of all of them together, the state kept. -/
theorem SI_bigSepL_pure {α : Type} (st : Phys nD τ sig (Elt F)) (Φ : α → sProp 𝕄) (P : α → Prop) (l : List α)
    (h : ∀ a ∈ l, iprop(SI st ∗ Φ a) ⊢ (⌜P a⌝ : sProp 𝕄)) :
    iprop(SI st ∗ bigSepL l Φ) ⊢ (iprop(⌜∀ a ∈ l, P a⌝ ∗ SI st) : sProp 𝕄) := by
  induction l with
  | nil =>
    iintro ⟨HSI, -⟩
    isplitr; · ipureintro; intro a ha; cases ha
    iexact HSI
  | cons a l ih =>
    rw [bigSepL_cons]
    show iprop(SI st ∗ (Φ a ∗ bigSepL l Φ)) ⊢ _
    iintro ⟨HSI, Ha, Hl⟩
    ihave H := (persistent_entails_right (h a List.mem_cons_self)) $$ [HSI Ha]
    · isplitl [HSI] <;> iassumption
    icases H with ⟨%ha, HSI, -⟩
    ihave H2 := (ih fun b hb => h b (List.mem_cons_of_mem _ hb)) $$ [HSI Hl]
    · isplitl [HSI] <;> iassumption
    icases H2 with ⟨%hl, HSI⟩
    isplitr
    · ipureintro; intro b hb
      rcases List.mem_cons.mp hb with rfl | hb
      · exact ha
      · exact hl b hb
    iexact HSI

theorem hY (c : Dev nD) (s' : Phys nD τ sig (Elt F)) :
    iprop(Y m c ∗ emp ∗ SI s') ⊢ |={Set.univ}=> (iprop(⌜QY m c s'.mem.mem⌝ ∗ SI s') : sProp 𝕄) := by
  unfold Y outPieces oPts
  iintro ⟨⟨Hown, Hrest⟩, -, HSI⟩
  icombine HSI Hown gives %h0
  ihave H := (SI_bigSepL_pure s'
      (fun fh : Fin 10 × Fin 3 => ((((c : Thread nD τ).loc main_v1) ↦[Rows (lo fh.1 fh.2.val c) (flowRows fh.1)]{fullShare}
        Gd m (org fh.1 fh.2.val c)) : sProp 𝕄))
      (fun fh : Fin 10 × Fin 3 => ∀ i ∈ Rows (lo fh.1 fh.2.val c) (flowRows fh.1),
        s'.mem.mem ((c : Thread nD τ).loc main_v1) i = Gd m (org fh.1 fh.2.val c) i)
      fhL (fun fh _ => SI_pointsTo_agree)) $$ [HSI Hrest]
  · isplitl [HSI] <;> iassumption
  icases H with ⟨%h1, HSI⟩
  imodintro
  isplitr; · ipureintro; exact ⟨h0, h1⟩
  iexact HSI

/-! ## The run -/

set_option maxRecDepth 100000 in
/-- At the compiled mesh of sixteen devices, for any float values, from any memory with zero counters: every weakly
    fair execution of the program terminates, and every final state has each device's argument unchanged and its result
    holding, at the rows of each block, the block of the device it was gathered from. -/
theorem run_main (u₀ : UU) (G : Dev nD → sProp 𝕄)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 osem c ∗ unscopedSems0 c ∗ G c) : sProp 𝕄)
      ⊢ |={Set.univ}=> bigSep Finset.univ fun c => iprop(∃ K, ghost m K c))
    (hosf : Pipeline.OwnSemFacts cfg0.spec osem)
    (hbody : ∀ c, BodyObligation (dats (F := F) m 0 c) (defs₀ (F := F)) Variants.none () Set.univ) :
    θ_run defs (onTc (τ := τ) (main (F := F))) ⟨m, fun _ => 0, ρ⟩
      (fun r => ∀ c : Dev nD, (r.2.mem ((c.tc : Thread nD τ).loc main_arg0) = m ((c.tc : Thread nD τ).loc main_arg0))
        ∧ QY m c r.2.mem) :=
  Pipeline.θ_run_region_owing_glob_pf (fun p => (cfgs p).toPCfg) (fun p => (cfgs p).toPCfg_adm) (dats m) () cellOf_inj (0 : Fin 1)
    winFacts0.to₀ hosf (Pipeline.PreFacts.none _) EP defs₀ Variants.none m ρ main
    (hmain := fun _ => rfl)
    (hbody := hbody) (hne := block_pos0) (harr := arr_whole0) (hstage := stage_whole0) (hshare := share_eq m)
    (hdistinct := winFacts0.arr_inj)
    (O₀ := fun d => Ol payL d) (howed₀ := fun _ => rfl) (howedN := fun _ => rfl)
    (L := L) (lv := lv) (hL := L_of_ne) (hwaits := waits m)
    (G := G) (G' := fun c => iprop(∃ K, ghost m K c)) (u₀ := u₀)
    (hu₀ := hu₀) (hglob := hglob)
    (hA := fun _ _ => rfl) (hpf := fun _ k => k.elim0)
    (X := X m) (Y := Y m) (Z := fun _ => iprop(emp))
    (hX := start_intro m ρ) (hin := phi0_intro m) (hout := phi1_exit m)
    (QY := fun c s => QY m c s.mem)
    (hY := hY m)
    (hQ := fun s h c => ⟨((h c).1 0).trans ((dats m 0 c).arrAt_in 0 rfl _), (h c).2.2⟩)

/-- The run, from the launch element dealt and the global step taken: every weakly fair execution terminates with each
    device's argument unchanged and its result holding, at the rows of each block, the block it was gathered from. -/
theorem run_main' (hbody : ∀ c, BodyObligation (dats (F := F) m 0 c) (defs₀ (F := F)) Variants.none () Set.univ) :
    θ_run defs (onTc (τ := τ) (main (F := F))) ⟨m, fun _ => 0, ρ⟩
      (fun r => ∀ c : Dev nD, (r.2.mem ((c.tc : Thread nD τ).loc main_arg0) = m ((c.tc : Thread nD τ).loc main_arg0))
        ∧ QY m c r.2.mem) :=
  run_main m ρ u₀ (G m) (hu0 m) (glob m) ownSemFacts hbody

end Cert.KernelIdeal.AG

end
-- ==== Proof.Bits.Mesh.lean ====
/-
  The mesh of sixteen devices and the cells of one device.

  A device's logical id is 8 x + 4 y + z with x, y in {0, 1} and z in {0, 1, 2, 3}.  Every device talks to four
  peers: its two neighbours on the ring of the z axis, the device with the other x, and the device with the other y.
  Each of the four maps is a permutation of the devices.

  A device has ninety-three cells: the barrier semaphore (index 0) and the ninety-two DMA semaphores of its three
  scratch arrays (indices 1 to 92): thirty for departures (1 + 3 f + h), thirty for arrivals (31 + 3 f + h), and
  thirty-two for the local copies into the result (61 + i), for flow f < 10 and hop h < 3.
-/
import proofs.«900685_g7700000000000686_dist_ag_v7x_xyz2x2x4_z_m2048_n512_f32_1_alg».proof.Proof.Gen.Kernel
import proofs.«900685_g7700000000000686_dist_ag_v7x_xyz2x2x4_z_m2048_n512_f32_1_alg».proof.Proof.Gen.Kernel.Skeleton
import proofs.«900685_g7700000000000686_dist_ag_v7x_xyz2x2x4_z_m2048_n512_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The four peers -/

/-- The device whose z coordinate is `k` further round the ring, the other coordinates kept. -/
def zsh (k : ℕ) (c : Dev nD) : Dev nD := ⟨(c.val / 4 * 4 + (c.val % 4 + k) % 4) % 16, Nat.mod_lt _ (by decide)⟩
/-- The device with the other x coordinate. -/
def ox (c : Dev nD) : Dev nD := ⟨(c.val + 8) % 16, Nat.mod_lt _ (by decide)⟩
/-- The device with the other y coordinate. -/
def oy (c : Dev nD) : Dev nD := ⟨(c.val / 8 * 8 + (c.val % 8 + 4) % 8) % 16, Nat.mod_lt _ (by decide)⟩

/-- Peer 0 is the ring neighbour below, peer 1 the ring neighbour above, peer 2 the other x, peer 3 the other y. -/
def peer (k : Fin 4) (c : Dev nD) : Dev nD :=
  match k with
  | 0 => zsh 3 c
  | 1 => zsh 1 c
  | 2 => ox c
  | 3 => oy c

/-- The peer index under which a device is seen by its peer `k`. -/
def pinv (k : Fin 4) : Fin 4 :=
  match k with
  | 0 => 1
  | 1 => 0
  | 2 => 2
  | 3 => 3

theorem peer_pinv (k : Fin 4) (c : Dev nD) : peer k (peer (pinv k) c) = c := by revert k c; decide
theorem pinv_peer (k : Fin 4) (c : Dev nD) : peer (pinv k) (peer k c) = c := by revert k c; decide
theorem pinv_pinv (k : Fin 4) : pinv (pinv k) = k := by revert k; decide
theorem peer_ne (k : Fin 4) (c : Dev nD) : peer k c ≠ c := by revert k c; decide
theorem peer_inj_idx (k k' : Fin 4) (c : Dev nD) (h : peer k c = peer k' c) : k = k' := by revert k k' c; decide

/-- Peer `k` as a permutation of the devices. -/
def peerEquiv (k : Fin 4) : Dev nD ≃ Dev nD := ⟨peer k, peer (pinv k), pinv_peer k, peer_pinv k⟩

/-! ## Cells -/

/-- The semaphore of cell `j`: the barrier semaphore for `j = 0`, DMA semaphore `j` otherwise. -/
def csem (j : Fin 93) : SemLoc sig := if j.val = 0 then .reg barrier0 else .dma ⟨j.val, j.isLt⟩

theorem csem_zero : csem 0 = .reg barrier0 := rfl
theorem csem_pos {j : Fin 93} (h : j.val ≠ 0) : csem j = .dma ⟨j.val, j.isLt⟩ := if_neg h

theorem csem_inj : Function.Injective csem := by
  intro a b h
  unfold csem at h
  by_cases ha : a.val = 0 <;> by_cases hb : b.val = 0
  · exact Fin.ext (ha.trans hb.symm)
  · rw [if_pos ha, if_neg hb] at h; cases h
  · rw [if_neg ha, if_pos hb] at h; cases h
  · rw [if_neg ha, if_neg hb] at h
    exact Fin.ext (Fin.mk.inj (SemLoc.dma.inj h))

/-- Cell `j` of device `c`. -/
abbrev cell (c : Dev nD) (j : Fin 93) : GSem nD τ sig := ((c : Thread nD τ), csem j)

theorem cell_inj {c c' : Dev nD} {j j' : Fin 93} (h : cell c j = cell c' j') : c = c' ∧ j = j' := by
  have h1 : c = c' := by have := congrArg (fun g : GSem nD τ sig => g.1.1) h; exact this
  exact ⟨h1, csem_inj (congrArg Prod.snd h)⟩

/-- The departure cell of flow `f`, hop `h`. -/
def sndJ (f : Fin 10) (h : Fin 3) : Fin 93 := ⟨1 + 3 * f.val + h.val, by omega⟩
/-- The arrival cell of flow `f`, hop `h`. -/
def rcvJ (f : Fin 10) (h : Fin 3) : Fin 93 := ⟨31 + 3 * f.val + h.val, by omega⟩
/-- The cell of local copy `i`. -/
def cpJ (i : Fin 32) : Fin 93 := ⟨61 + i.val, by omega⟩

/-- The peer a flow's transfers are addressed to: flows 0 and 1 go up the ring, 2 and 3 down, 4, 5 and 9 to the
    other x, 6, 7 and 8 to the other y. -/
def tgt (f : Fin 10) : Fin 4 :=
  match f with
  | 0 => 1 | 1 => 1 | 2 => 0 | 3 => 0 | 4 => 2 | 5 => 2 | 6 => 3 | 7 => 3 | 8 => 3 | 9 => 2

/-- How many rows of 512 words a flow's pieces have. -/
def flowRows (f : Fin 10) : ℕ :=
  match f with
  | 0 => 256 | 1 => 88 | 2 => 256 | 3 => 88 | 4 => 256 | 5 => 256 | 6 => 256 | 7 => 256 | 8 => 168 | 9 => 168

/-! ## Row bands of the 8192 × 512 buffers (the scratch array and the result have this shape) -/

/-- The indices of rows `a ≤ r < a + n`. -/
def Rows (a n : ℕ) : Finset S8192x512.Idx := Finset.univ.filter fun i => a ≤ (i 0).val ∧ (i 0).val < a + n

theorem mem_Rows {a n : ℕ} {i : S8192x512.Idx} : i ∈ Rows a n ↔ a ≤ (i 0).val ∧ (i 0).val < a + n := by
  unfold Rows; rw [Finset.mem_filter]; exact ⟨fun h => h.2, fun h => ⟨Finset.mem_univ _, h⟩⟩

/-- The indices of rows `a ≤ r < a + n` of a 2048 × 512 block. -/
def BRows (a n : ℕ) : Finset S2048x512.Idx := Finset.univ.filter fun i => a ≤ (i 0).val ∧ (i 0).val < a + n

theorem mem_BRows {a n : ℕ} {i : S2048x512.Idx} : i ∈ BRows a n ↔ a ≤ (i 0).val ∧ (i 0).val < a + n := by
  unfold BRows; rw [Finset.mem_filter]; exact ⟨fun h => h.2, fun h => ⟨Finset.mem_univ _, h⟩⟩

end Cert.Kernel.AG

end
-- ==== Proof.Bits.Bands.lean ====
/-
  Rows of the 8192-row buffers, named by block, quarter and start.

  The gathered array is four blocks of 2048 rows, one per z coordinate; a block is four quarters of 512 rows, one per
  (x, y) pair; a quarter is two halves of 256 rows.  Device c = 8 x + 4 y + z owns quarter 2 x + y = c / 4 of every
  block that passes through it.  At hop h the block z - 1 - h arrives from below and the block z + 1 + h from above
  (indices mod 4).
-/
import proofs.«900685_g7700000000000686_dist_ag_v7x_xyz2x2x4_z_m2048_n512_f32_1_alg».proof.Proof.Bits.Mesh

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The block that arrives from below at hop `h`. -/
def zA (h : ℕ) (c : Dev nD) : ℕ := (c.val % 4 + 3 - h) % 4
/-- The block that arrives from above at hop `h`. -/
def zB (h : ℕ) (c : Dev nD) : ℕ := (c.val % 4 + 1 + h) % 4
/-- The device's own quarter. -/
def qq (c : Dev nD) : ℕ := c.val / 4
/-- The quarter of the device with the other x. -/
def qx (c : Dev nD) : ℕ := (c.val / 4 + 2) % 4
/-- The quarter of the device with the other y. -/
def qy (c : Dev nD) : ℕ := c.val / 8 * 2 + (c.val / 4 + 1) % 2
/-- The quarter of the device with the other x and the other y. -/
def qd (c : Dev nD) : ℕ := 3 - c.val / 4
/-- The first row of the band of block `zb`, quarter `k`, start `s`. -/
def band (zb k s : ℕ) : ℕ := 2048 * zb + 512 * k + s

theorem zA_lt (h : ℕ) (c : Dev nD) : zA h c < 4 := Nat.mod_lt _ (by decide)
theorem zB_lt (h : ℕ) (c : Dev nD) : zB h c < 4 := Nat.mod_lt _ (by decide)
theorem qq_lt (c : Dev nD) : qq c < 4 := by revert c; decide
theorem qx_lt (c : Dev nD) : qx c < 4 := Nat.mod_lt _ (by decide)
theorem qy_lt (c : Dev nD) : qy c < 4 := by revert c; decide
theorem qd_lt (c : Dev nD) : qd c < 4 := by revert c; decide

/-- The first row of the piece of flow `f` that lands on device `c` at hop `h`. -/
def lo (f : Fin 10) (h : ℕ) (c : Dev nD) : ℕ :=
  match f with
  | 0 => band (zA h c) (qq c) 0
  | 1 => band (zA h c) (qd c) 0
  | 2 => band (zB h c) (qq c) 256
  | 3 => band (zB h c) (qd c) 256
  | 4 => band (zA h c) (qx c) 0
  | 5 => band (zB h c) (qx c) 256
  | 6 => band (zA h c) (qy c) 0
  | 7 => band (zB h c) (qy c) 256
  | 8 => band (zB h c) (qd c) 344
  | 9 => band (zA h c) (qd c) 88

theorem lo_add_le (f : Fin 10) (h : Fin 3) (c : Dev nD) : lo f h.val c + flowRows f ≤ 8192 := by
  revert f h c; decide

end Cert.Kernel.AG

end
-- ==== Proof.Bits.Sched.lean ====
/-
  What each cell of a device is paid, and with what.

  Contents.  Every piece that travels is a band of rows of some device's own block of the argument; the piece of
  flow f that lands on device c at hop h was read from the block of device `org f h c`.  A band of the scratch array
  or of the result that holds rows of device d's block holds `Gd d` there: row r of the band is row r mod 2048 of
  d's block.

  The schedule has one round.  The barrier cell has four duties, one per peer: peer k's signal hands over the bands
  of peer k's scratch array into which this device will write.  An arrival cell has one duty, paid by the transfer
  landing: the band it wrote, at the sender's contents.  A departure cell has one duty, paid when the source has
  been read: the share of the source band lent to the transfer.  A copy cell has one duty: the band of the result
  written, and the share of the source band lent to the copy.
-/
import proofs.«900685_g7700000000000686_dist_ag_v7x_xyz2x2x4_z_m2048_n512_f32_1_alg».proof.Proof.Bits.Bands
import Idealize.ShloMosaic.Lib.ValueIdx

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## Contents -/

/-- Device `c`'s block of the argument, as its staging buffer holds it. -/
def xstg (c : Dev nD) : (cc0_stg0_0 : Ref sig .tc).ty.Contents (Elt F) :=
  (win0_0.blk (0 : Fin 1)).view.read (Elt F) (m ((c : Thread nD τ).loc main_arg0))

/-- Row r of an 8192-row buffer, as row r mod 2048 of a block. -/
def rowmod (i : S8192x512.Idx) : S2048x512.Idx :=
  ValueIdx.ix2 (⟨(i 0).val % 2048, Nat.mod_lt _ (by decide)⟩ : Fin 2048) (⟨(i 1).val, (i 1).isLt⟩ : Fin 512)

/-- An 8192-row buffer every block of which is device `d`'s block. -/
def Gd (d : Dev nD) : (cc0_scratch0 : Ref sig .tc).ty.Contents (Elt F) := fun i => xstg m d (rowmod i)

/-- The device whose block the piece of flow `f` landing on `c` at hop `h` is a band of. -/
def org (f : Fin 10) (h : ℕ) (c : Dev nD) : Dev nD :=
  match f with
  | 0 => zsh (3 - h) c
  | 1 => zsh (3 - h) c
  | 2 => zsh (1 + h) c
  | 3 => zsh (1 + h) c
  | 4 => ox (zsh (3 - h) c)
  | 5 => ox (zsh (1 + h) c)
  | 6 => oy (zsh (3 - h) c)
  | 7 => oy (zsh (1 + h) c)
  | 8 => ox (oy (zsh (1 + h) c))
  | 9 => ox (oy (zsh (3 - h) c))

/-! ## Bands held -/

/-- Rows `a ≤ r < a + n` of device `c`'s scratch array at share `q`, holding `X` there. -/
def sPts (c : Dev nD) (a n : ℕ) (q : PosShare TreeShare) (X : (cc0_scratch0 : Ref sig .tc).ty.Contents (Elt F)) : sProp 𝕄 :=
  ((c : Thread nD τ).loc cc0_scratch0) ↦[Rows a n]{q} X
/-- The same of device `c`'s result array. -/
def oPts (c : Dev nD) (a n : ℕ) (q : PosShare TreeShare) (X : (main_v1 : Ref sig .tc).ty.Contents (Elt F)) : sProp 𝕄 :=
  ((c : Thread nD τ).loc main_v1) ↦[Rows a n]{q} X
/-- Rows `a ≤ r < a + n` of device `c`'s staged block at share `q`, holding its block. -/
def xPts (c : Dev nD) (a n : ℕ) (q : PosShare TreeShare) : sProp 𝕄 :=
  ((c : Thread nD τ).loc cc0_stg0_0) ↦[BRows a n]{q} xstg m c

omit [FloatOps F] in
instance sPts_storable (c a n q X) : BI.Storable (upEmb : UEmb _ 𝕄) (sPts (F := F) c a n q X) := by unfold sPts; infer_instance
omit [FloatOps F] in
instance oPts_storable (c a n q X) : BI.Storable (upEmb : UEmb _ 𝕄) (oPts (F := F) c a n q X) := by unfold oPts; infer_instance
omit [FloatOps F] in
instance xPts_storable (c a n q) : BI.Storable (upEmb : UEmb _ 𝕄) (xPts (F := F) m c a n q) := by unfold xPts; infer_instance

/-! ## The kinds of cell -/

inductive CK where
  | bar
  | snd (f : Fin 10) (h : Fin 3)
  | rcv (f : Fin 10) (h : Fin 3)
  | cp (i : Fin 32)
  deriving DecidableEq

/-- What cell `j` is. -/
def kind (j : Fin 93) : CK :=
  if j.val = 0 then .bar
  else if h1 : j.val < 31 then .snd ⟨(j.val - 1) / 3, by omega⟩ ⟨(j.val - 1) % 3, Nat.mod_lt _ (by decide)⟩
  else if h2 : j.val < 61 then .rcv ⟨(j.val - 31) / 3, by omega⟩ ⟨(j.val - 31) % 3, Nat.mod_lt _ (by decide)⟩
  else .cp ⟨j.val - 61, by omega⟩

theorem kind_zero : kind 0 = .bar := rfl
theorem kind_sndJ (f : Fin 10) (h : Fin 3) : kind (sndJ f h) = .snd f h := by revert f h; decide
theorem kind_rcvJ (f : Fin 10) (h : Fin 3) : kind (rcvJ f h) = .rcv f h := by revert f h; decide
theorem kind_cpJ (i : Fin 32) : kind (cpJ i) = .cp i := by revert i; decide

/-- The cell index of a semaphore, if it is one of the ninety-three. -/
def jOf (s : SemLoc sig) : Option (Fin 93) :=
  match s with
  | .reg _ => some 0
  | .dma d => if d.val = 0 then none else some ⟨d.val, d.isLt⟩

theorem jOf_csem (j : Fin 93) : jOf (csem j) = some j := by
  unfold csem
  by_cases h : j.val = 0
  · rw [if_pos h]; exact congrArg some (Fin.ext h.symm)
  · rw [if_neg h]; show (if j.val = 0 then none else some _) = _; rw [if_neg h]

/-! ## The flows' sources -/

/-- The flow and hop whose landed piece a stage-to-stage transfer of flow `f`, hop `h` reads (for the ring flows at
    hop `h ≥ 1` the previous hop's piece; for the side flows the ring piece of the same hop; for the relays the side
    piece of the same hop), and how far into it the source band starts. -/
def srcOf (f : Fin 10) (h : Fin 3) : Fin 10 × ℕ × ℕ :=
  match f with
  | 0 => (0, h.val - 1, 0)
  | 1 => (1, h.val - 1, 0)
  | 2 => (2, h.val - 1, 0)
  | 3 => (3, h.val - 1, 0)
  | 4 => (0, h.val, 0)
  | 5 => (2, h.val, 0)
  | 6 => (0, h.val, 0)
  | 7 => (2, h.val, 0)
  | 8 => (5, h.val, 88)
  | 9 => (6, h.val, 88)

/-- The share of its source band a transfer of flow `f` is lent. -/
def sShare (f : Fin 10) : PosShare TreeShare :=
  match f with
  | 0 => fullShare.right.left
  | 1 => fullShare.right
  | 2 => fullShare.right.left
  | 3 => fullShare.right
  | 4 => fullShare.right.right.left
  | 5 => fullShare.right.right.left
  | 6 => fullShare.right.right.right
  | 7 => fullShare.right.right.right
  | 8 => fullShare.right
  | 9 => fullShare.right

/-- Where in its own block a ring flow's first piece starts: the own quarter or the diagonal one, first or second half. -/
def blkLo (f : Fin 10) (c : Dev nD) : ℕ :=
  match f with
  | 0 => 512 * qq c
  | 1 => 512 * qd c
  | 2 => 512 * qq c + 256
  | 3 => 512 * qd c + 256
  | _ => 0

/-- The share of its staged block a ring flow's first transfer is lent: the four first transfers and the copy of the
    own block read the block at once, each under a share of its own. -/
def r0Share (f : Fin 10) : PosShare TreeShare :=
  match f with
  | 0 => fullShare.right.left
  | 2 => fullShare.right.right.left
  | 1 => fullShare.right.right.right.left
  | _ => fullShare.right.right.right.right

/-- What a departure cell's duty hands back: the share of the source band lent. -/
def sendPay (c : Dev nD) (f : Fin 10) (h : Fin 3) : sProp 𝕄 :=
  if f.val < 4 ∧ h.val = 0 then xPts m c (blkLo f c) (flowRows f) (r0Share f)
  else sPts c (lo (srcOf f h).1 (srcOf f h).2.1 c + (srcOf f h).2.2) (flowRows f) (sShare f) (Gd m (org (srcOf f h).1 (srcOf f h).2.1 c))

/-- What an arrival cell's duty hands over: the band written, at the contents it was read from. -/
def recvPay (c : Dev nD) (f : Fin 10) (h : Fin 3) : sProp 𝕄 :=
  sPts c (lo f h.val c) (flowRows f) fullShare (Gd m (org f h.val c))

/-- The flow and hop whose landed piece local copy `i` puts into the result (`i < 30`). -/
def cpSrc (i : Fin 32) : Fin 10 × ℕ :=
  if i.val < 24 then
    (match i.val % 8 with | 0 => 0 | 1 => 2 | 2 => 1 | 3 => 3 | 4 => 6 | 5 => 5 | 6 => 4 | _ => 7, i.val / 8)
  else ((if i.val % 2 = 0 then 9 else 8), (i.val - 24) / 2)

/-- The share of the landed piece a local copy is lent: all of it where nothing else reads the piece. -/
def cpShare (f : Fin 10) : PosShare TreeShare :=
  match f with
  | 4 => fullShare | 7 => fullShare | 8 => fullShare | 9 => fullShare
  | _ => fullShare.left

/-- What a copy cell's duty hands over: the band of the result written, and the share of the source lent. -/
def cpPay (c : Dev nD) (i : Fin 32) : sProp 𝕄 :=
  if i.val = 31 then iprop(oPts c (2048 * (c.val % 4)) 2048 fullShare (Gd m c) ∗ xPts m c 0 2048 fullShare.left)
  else iprop(oPts c (lo (cpSrc i).1 (cpSrc i).2 c) (flowRows (cpSrc i).1) fullShare (Gd m (org (cpSrc i).1 (cpSrc i).2 c))
    ∗ sPts c (lo (cpSrc i).1 (cpSrc i).2 c) (flowRows (cpSrc i).1) (cpShare (cpSrc i).1) (Gd m (org (cpSrc i).1 (cpSrc i).2 c)))

/-- The pieces that land on a device from its peer `k`... equivalently the pieces a device sends to its peer `k`. -/
def landL (k : Fin 4) : List (Fin 10 × Fin 3) :=
  match k with
  | 0 => [(2, 0), (2, 1), (2, 2), (3, 0), (3, 1), (3, 2)]
  | 1 => [(0, 0), (0, 1), (0, 2), (1, 0), (1, 1), (1, 2)]
  | 2 => [(4, 0), (4, 1), (4, 2), (5, 0), (5, 1), (5, 2), (9, 0), (9, 1), (9, 2)]
  | 3 => [(6, 0), (6, 1), (6, 2), (7, 0), (7, 1), (7, 2), (8, 0), (8, 1), (8, 2)]

/-- The band of device `p`'s scratch array a piece will land in, at whatever it holds. -/
def landPay (p : Dev nD) (fh : Fin 10 × Fin 3) : sProp 𝕄 :=
  iprop(∃ X, sPts p (lo fh.1 fh.2.val p) (flowRows fh.1) fullShare X)

/-- What peer `k`'s barrier signal hands device `c`: the bands of peer `k`'s scratch array `c` will write. -/
def barPay (c : Dev nD) (k : Fin 4) : sProp 𝕄 := bigSepL (landL k) (fun fh => landPay (peer k c) fh)

/-! ## Amounts -/

/-- The credit of a transfer into `n` rows of the scratch array. -/
def credS (n : ℕ) : ℕ := sig.dmaCredit .tc (Kind.table .tc .vmem) (View.whole cc0_scratch0).buf ⟨2, ![n, 512]⟩ .f32
/-- The credit of a transfer into `n` rows of the result. -/
def credO (n : ℕ) : ℕ := sig.dmaCredit .tc (Kind.table .tc .hbm) (View.whole main_v1).buf ⟨2, ![n, 512]⟩ .f32

def amtK (k : CK) : ℕ :=
  match k with
  | .bar => 1
  | .snd f _ => credS (flowRows f)
  | .rcv f _ => credS (flowRows f)
  | .cp i => if i.val = 31 then credO 2048 else credO (flowRows (cpSrc i).1)

def dutiesK (k : CK) : Finset (Fin 4) :=
  match k with
  | .bar => Finset.univ
  | .cp i => if i.val = 30 then ∅ else {0}
  | _ => {0}

def payK (c : Dev nD) (k : CK) (d : Fin 4) : sProp 𝕄 :=
  match k with
  | .bar => barPay c d
  | .snd f h => sendPay m c f h
  | .rcv f h => recvPay m c f h
  | .cp i => cpPay m c i

/-- One round: cell `j` of a TensorCore has the duties of its kind. -/
def Rd : Rounds.Schedule (GSem nD τ sig) (Fin 4) 𝕄 where
  duties g r := if r = 0 ∧ g.1.2 = .tc then (match jOf g.2 with | some j => dutiesK (kind j) | none => ∅) else ∅
  unitless _ := False
  amount g _ _ := match jOf g.2 with | some j => amtK (kind j) | none => 1
  payload g _ d := match jOf g.2 with | some j => payK m g.1.1 (kind j) d | none => iprop(emp)
  amount_pos g _ _ _ := by
    cases hj : jOf g.2 with
    | none => exact Nat.one_pos
    | some j =>
      show 0 < amtK (kind j)
      cases kind j with
      | bar => exact Nat.one_pos
      | snd f h => exact sig.dmaCredit_pos _ _ _ _ _ (by revert f; decide)
      | rcv f h => exact sig.dmaCredit_pos _ _ _ _ _ (by revert f; decide)
      | cp i =>
        show 0 < (if i.val = 31 then credO 2048 else credO (flowRows (cpSrc i).1))
        split
        · exact sig.dmaCredit_pos _ _ _ _ _ (by decide)
        · exact sig.dmaCredit_pos _ _ _ _ _ (by revert i; decide)

end Cert.Kernel.AG

end
-- ==== Proof.Bits.Tables.lean ====
/-
  The schedule's tables, cell by cell.

  Each cell of a device has the duties, the amounts and the payloads of its kind in the one round of the schedule,
  and no duties in any later round.  The lemmas here read the tables off: the table entry stands on the left.
-/
import proofs.«900685_g7700000000000686_dist_ag_v7x_xyz2x2x4_z_m2048_n512_f32_1_alg».proof.Proof.Bits.Sched

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The tables by kind -/

theorem duties_cell (c : Dev nD) (j : Fin 93) : (Rd (F := F) m).duties (cell c j) 0 = dutiesK (kind j) := by
  dsimp only [Rd]
  rw [if_pos ⟨rfl, rfl⟩, jOf_csem]

theorem duties_later (g : GSem nD τ sig) : ∀ r, 1 ≤ r → (Rd (F := F) m).duties g r = ∅ :=
  fun r hr => by dsimp only [Rd]; rw [if_neg fun h => by omega]

theorem amount_cell (c : Dev nD) (j : Fin 93) (d : Fin 4) : (Rd (F := F) m).amount (cell c j) 0 d = amtK (kind j) := by
  dsimp only [Rd]
  rw [jOf_csem]

theorem payload_cell (c : Dev nD) (j : Fin 93) (d : Fin 4) :
    (Rd (F := F) m).payload (cell c j) 0 d = payK m c (kind j) d := by
  dsimp only [Rd]
  rw [jOf_csem]

/-! ## Duties -/

theorem duties_bar (c : Dev nD) : (Rd (F := F) m).duties (cell c 0) 0 = Finset.univ := by
  rw [duties_cell, kind_zero]; rfl
theorem duties_snd (c : Dev nD) (f : Fin 10) (h : Fin 3) : (Rd (F := F) m).duties (cell c (sndJ f h)) 0 = {0} := by
  rw [duties_cell, kind_sndJ]; rfl
theorem duties_rcv (c : Dev nD) (f : Fin 10) (h : Fin 3) : (Rd (F := F) m).duties (cell c (rcvJ f h)) 0 = {0} := by
  rw [duties_cell, kind_rcvJ]; rfl
theorem duties_cp (c : Dev nD) (i : Fin 32) (hi : i.val ≠ 30) : (Rd (F := F) m).duties (cell c (cpJ i)) 0 = {0} := by
  rw [duties_cell, kind_cpJ]; exact if_neg hi
theorem duties_cp30 (c : Dev nD) : (Rd (F := F) m).duties (cell c (cpJ 30)) 0 = ∅ := by
  rw [duties_cell, kind_cpJ]; rfl

/-! ## Amounts -/

theorem amount_bar (c : Dev nD) (d : Fin 4) : (Rd (F := F) m).amount (cell c 0) 0 d = 1 := by
  rw [amount_cell, kind_zero]; rfl
theorem amount_snd (c : Dev nD) (f : Fin 10) (h : Fin 3) (d : Fin 4) :
    (Rd (F := F) m).amount (cell c (sndJ f h)) 0 d = credS (flowRows f) := by
  rw [amount_cell, kind_sndJ]; rfl
theorem amount_rcv (c : Dev nD) (f : Fin 10) (h : Fin 3) (d : Fin 4) :
    (Rd (F := F) m).amount (cell c (rcvJ f h)) 0 d = credS (flowRows f) := by
  rw [amount_cell, kind_rcvJ]; rfl
theorem amount_cp (c : Dev nD) (i : Fin 32) (d : Fin 4) :
    (Rd (F := F) m).amount (cell c (cpJ i)) 0 d = (if i.val = 31 then credO 2048 else credO (flowRows (cpSrc i).1)) := by
  rw [amount_cell, kind_cpJ]; rfl

/-! ## What a cell expects in its round -/

theorem expect_bar (c : Dev nD) : (Rd (F := F) m).expect (cell c 0) 0 = 4 := by
  unfold Schedule.expect Schedule.amountOf
  rw [duties_bar, Finset.sum_congr rfl fun d _ => amount_bar m c d, Finset.sum_const, Finset.card_univ, Fintype.card_fin, smul_eq_mul]
theorem expect_snd (c : Dev nD) (f : Fin 10) (h : Fin 3) : (Rd (F := F) m).expect (cell c (sndJ f h)) 0 = credS (flowRows f) := by
  unfold Schedule.expect Schedule.amountOf; rw [duties_snd, Finset.sum_singleton, amount_snd]
theorem expect_rcv (c : Dev nD) (f : Fin 10) (h : Fin 3) : (Rd (F := F) m).expect (cell c (rcvJ f h)) 0 = credS (flowRows f) := by
  unfold Schedule.expect Schedule.amountOf; rw [duties_rcv, Finset.sum_singleton, amount_rcv]
theorem expect_cp (c : Dev nD) (i : Fin 32) (hi : i.val ≠ 30) :
    (Rd (F := F) m).expect (cell c (cpJ i)) 0 = (if i.val = 31 then credO 2048 else credO (flowRows (cpSrc i).1)) := by
  unfold Schedule.expect Schedule.amountOf; rw [duties_cp m c i hi, Finset.sum_singleton, amount_cp]
theorem expect_cp30 (c : Dev nD) : (Rd (F := F) m).expect (cell c (cpJ 30)) 0 = 0 := by
  unfold Schedule.expect Schedule.amountOf; rw [duties_cp30, Finset.sum_empty]

/-! ## Payloads -/

theorem payload_bar (c : Dev nD) (k : Fin 4) : (Rd (F := F) m).payload (cell c 0) 0 k = barPay c k := by
  rw [payload_cell, kind_zero]; rfl
theorem payload_snd (c : Dev nD) (f : Fin 10) (h : Fin 3) (d : Fin 4) :
    (Rd (F := F) m).payload (cell c (sndJ f h)) 0 d = sendPay m c f h := by
  rw [payload_cell, kind_sndJ]; rfl
theorem payload_rcv (c : Dev nD) (f : Fin 10) (h : Fin 3) (d : Fin 4) :
    (Rd (F := F) m).payload (cell c (rcvJ f h)) 0 d = recvPay m c f h := by
  rw [payload_cell, kind_rcvJ]; rfl
theorem payload_cp (c : Dev nD) (i : Fin 32) (d : Fin 4) :
    (Rd (F := F) m).payload (cell c (cpJ i)) 0 d = cpPay m c i := by
  rw [payload_cell, kind_cpJ]; rfl

/-! ## The whole of a cell's round -/

theorem rest_snd (c : Dev nD) (f : Fin 10) (h : Fin 3) :
    bigSep ((Rd (F := F) m).duties (cell c (sndJ f h)) 0 \ ∅) (fun d => (Rd (F := F) m).payload (cell c (sndJ f h)) 0 d)
      = sendPay m c f h := by
  rw [Finset.sdiff_empty, duties_snd, bigSep_singleton, payload_snd]
theorem rest_rcv (c : Dev nD) (f : Fin 10) (h : Fin 3) :
    bigSep ((Rd (F := F) m).duties (cell c (rcvJ f h)) 0 \ ∅) (fun d => (Rd (F := F) m).payload (cell c (rcvJ f h)) 0 d)
      = recvPay m c f h := by
  rw [Finset.sdiff_empty, duties_rcv, bigSep_singleton, payload_rcv]
theorem rest_cp (c : Dev nD) (i : Fin 32) (hi : i.val ≠ 30) :
    bigSep ((Rd (F := F) m).duties (cell c (cpJ i)) 0 \ ∅) (fun d => (Rd (F := F) m).payload (cell c (cpJ i)) 0 d)
      = cpPay m c i := by
  rw [Finset.sdiff_empty, duties_cp m c i hi, bigSep_singleton, payload_cp]
theorem rest_bar (c : Dev nD) :
    bigSep ((Rd (F := F) m).duties (cell c 0) 0 \ ∅) (fun d => (Rd (F := F) m).payload (cell c 0) 0 d)
      = iprop(barPay c 0 ∗ barPay c 1 ∗ barPay c 2 ∗ barPay c 3) := by
  rw [Finset.sdiff_empty, duties_bar, bigSep_univ_eq_bigSepL [0, 1, 2, 3] (by decide) (by decide), bigSepL_cons_cons, bigSepL_cons_cons,
    bigSepL_cons_cons, bigSepL_singleton, payload_bar, payload_bar, payload_bar, payload_bar]
  rfl

/-! ## A barrier signal's payload, band by band -/

theorem barPay_eq_0 (c : Dev nD) : barPay (F := F) c 0 =
    iprop(landPay (peer 0 c) (2, 0) ∗ landPay (peer 0 c) (2, 1) ∗ landPay (peer 0 c) (2, 2)
      ∗ landPay (peer 0 c) (3, 0) ∗ landPay (peer 0 c) (3, 1) ∗ landPay (peer 0 c) (3, 2)) := rfl
theorem barPay_eq_1 (c : Dev nD) : barPay (F := F) c 1 =
    iprop(landPay (peer 1 c) (0, 0) ∗ landPay (peer 1 c) (0, 1) ∗ landPay (peer 1 c) (0, 2)
      ∗ landPay (peer 1 c) (1, 0) ∗ landPay (peer 1 c) (1, 1) ∗ landPay (peer 1 c) (1, 2)) := rfl
theorem barPay_eq_2 (c : Dev nD) : barPay (F := F) c 2 =
    iprop(landPay (peer 2 c) (4, 0) ∗ landPay (peer 2 c) (4, 1) ∗ landPay (peer 2 c) (4, 2)
      ∗ landPay (peer 2 c) (5, 0) ∗ landPay (peer 2 c) (5, 1) ∗ landPay (peer 2 c) (5, 2)
      ∗ landPay (peer 2 c) (9, 0) ∗ landPay (peer 2 c) (9, 1) ∗ landPay (peer 2 c) (9, 2)) := rfl
theorem barPay_eq_3 (c : Dev nD) : barPay (F := F) c 3 =
    iprop(landPay (peer 3 c) (6, 0) ∗ landPay (peer 3 c) (6, 1) ∗ landPay (peer 3 c) (6, 2)
      ∗ landPay (peer 3 c) (7, 0) ∗ landPay (peer 3 c) (7, 1) ∗ landPay (peer 3 c) (7, 2)
      ∗ landPay (peer 3 c) (8, 0) ∗ landPay (peer 3 c) (8, 1) ∗ landPay (peer 3 c) (8, 2)) := rfl

/-! ## Payloads can be stored -/

/-- A chain over a list of storable assertions is storable. -/
instance bigSepL_storable {I : Type} (l : List I) (Φ : I → sProp 𝕄) [∀ i, BI.Storable (upEmb : UEmb _ 𝕄) (Φ i)] :
    BI.Storable (upEmb : UEmb _ 𝕄) (bigSepL l Φ) := by
  induction l with
  | nil => exact BI.Storable.emp _
  | cons i l ih => rw [bigSepL_cons]; exact BI.Storable.sep _ _ _

instance landPay_storable (p : Dev nD) (fh : Fin 10 × Fin 3) : BI.Storable (upEmb : UEmb _ 𝕄) (landPay (F := F) p fh) := by
  unfold landPay; infer_instance
instance barPay_storable (c : Dev nD) (k : Fin 4) : BI.Storable (upEmb : UEmb _ 𝕄) (barPay (F := F) c k) := by
  unfold barPay; infer_instance
instance sendPay_storable (c : Dev nD) (f : Fin 10) (h : Fin 3) : BI.Storable (upEmb : UEmb _ 𝕄) (sendPay (F := F) m c f h) := by
  unfold sendPay; split <;> infer_instance
instance recvPay_storable (c : Dev nD) (f : Fin 10) (h : Fin 3) : BI.Storable (upEmb : UEmb _ 𝕄) (recvPay (F := F) m c f h) := by
  unfold recvPay; infer_instance
instance cpPay_storable (c : Dev nD) (i : Fin 32) : BI.Storable (upEmb : UEmb _ 𝕄) (cpPay (F := F) m c i) := by
  unfold cpPay; split <;> infer_instance
instance payK_storable (c : Dev nD) (k : CK) (d : Fin 4) : BI.Storable (upEmb : UEmb _ 𝕄) (payK (F := F) m c k d) := by
  cases k <;> (unfold payK; infer_instance)

instance Rd_payload_storable (g : GSem nD τ sig) (r : ℕ) (d : Fin 4) :
    BI.Storable (upEmb : UEmb _ 𝕄) ((Rd (F := F) m).payload g r d) := by
  dsimp only [Rd]
  split <;> infer_instance

theorem not_unitless (g : GSem nD τ sig) : ¬ (Rd (F := F) m).unitless g := fun h => h

/-! ## Cells apart -/

theorem cell_ne_of_dev {c c' : Dev nD} (h : c ≠ c') (j j' : Fin 93) : cell c j ≠ cell c' j' := fun e => h (cell_inj e).1
theorem cell_ne_of_idx (c c' : Dev nD) {j j' : Fin 93} (h : j ≠ j') : cell c j ≠ cell c' j' := fun e => h (cell_inj e).2

theorem sndJ_ne_zero (f : Fin 10) (h : Fin 3) : sndJ f h ≠ 0 := by revert f h; decide
theorem rcvJ_ne_zero (f : Fin 10) (h : Fin 3) : rcvJ f h ≠ 0 := by revert f h; decide
theorem cpJ_ne_zero (i : Fin 32) : cpJ i ≠ 0 := by revert i; decide
theorem sndJ_ne_rcvJ (f : Fin 10) (h : Fin 3) (f' : Fin 10) (h' : Fin 3) : sndJ f h ≠ rcvJ f' h' := by
  intro e; have := congrArg Fin.val e; simp only [sndJ, rcvJ] at this; omega
theorem sndJ_ne_cpJ (f : Fin 10) (h : Fin 3) (i : Fin 32) : sndJ f h ≠ cpJ i := by
  intro e; have := congrArg Fin.val e; simp only [sndJ, cpJ] at this; omega
theorem rcvJ_ne_cpJ (f : Fin 10) (h : Fin 3) (i : Fin 32) : rcvJ f h ≠ cpJ i := by
  intro e; have := congrArg Fin.val e; simp only [rcvJ, cpJ] at this; omega
theorem sndJ_inj {f f' : Fin 10} {h h' : Fin 3} (e : sndJ f h = sndJ f' h') : f = f' ∧ h = h' := by
  have := congrArg Fin.val e; simp only [sndJ] at this; exact ⟨Fin.ext (by omega), Fin.ext (by omega)⟩
theorem rcvJ_inj {f f' : Fin 10} {h h' : Fin 3} (e : rcvJ f h = rcvJ f' h') : f = f' ∧ h = h' := by
  have := congrArg Fin.val e; simp only [rcvJ] at this; exact ⟨Fin.ext (by omega), Fin.ext (by omega)⟩
theorem cpJ_inj {i i' : Fin 32} (e : cpJ i = cpJ i') : i = i' := by
  have := congrArg Fin.val e; simp only [cpJ] at this; exact Fin.ext (by omega)

/-- A cell that is not a TensorCore's has no duties. -/
theorem duties_not_tc (g : GSem nD τ sig) (hg : g.1.2 ≠ .tc) (r : ℕ) : (Rd (F := F) m).duties g r = ∅ := by
  dsimp only [Rd]; rw [if_neg fun h => hg h.2]

end Cert.Kernel.AG

end
-- ==== Proof.Bits.Owes.lean ====
/-
  What a device owes at launch, the levels of the cells, and the credit the launch deals.

  A device makes thirty-four payments, in program order: one unit to the barrier cell of each of its four peers,
  then the credit of each of its thirty transfers to the arrival cell of the transfer's target.  What it still owes
  after some of them is the sum over the rest, so everything is stated for a list of payments.

  Levels.  The barrier cell is at level 1.  An arrival cell is at 2 plus the position of the device's wait on it.
  Every other cell (the staging cell, the departure and copy cells, which are never owed to) is at level 0.  A device
  may wait on a cell while it owes only to cells of strictly higher level.

  Launch credit.  Each peer map is a permutation of the devices, so a cell that is named once in the list of
  payments is owed by exactly one device: the barrier cell is dealt four units, an arrival cell the credit of its
  transfer.
-/
import proofs.«900685_g7700000000000686_dist_ag_v7x_xyz2x2x4_z_m2048_n512_f32_1_alg».proof.Proof.Bits.Tables

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Payments -/

/-- A payment `(k, j)`: to cell `j` of the device's peer `k`. -/
abbrev Item : Type := Fin 4 × Fin 93

/-- The tally of one payment of device `c`: the amount of the cell's kind, at the cell. -/
def payTally (c : Dev nD) (it : Item) : CellTallies nD τ sig Unit := tallyAt (cell (peer it.1 c) it.2) () (amtK (kind it.2))

/-- What device `c` owes when the payments `l` are still to be made. -/
def Ol (l : List Item) (c : Dev nD) : CellTallies nD τ sig Unit := (l.map (payTally c)).sum

/-- The thirty-four payments of a device in program order: four barrier signals, then the thirty transfers. -/
def payL : List Item := [(0, 0), (1, 0), (2, 0), (3, 0), (tgt 0, rcvJ 0 0), (tgt 2, rcvJ 2 0), (tgt 1, rcvJ 1 0), (tgt 3, rcvJ 3 0), (tgt 0, rcvJ 0 1), (tgt 4, rcvJ 4 0), (tgt 6, rcvJ 6 0), (tgt 2, rcvJ 2 1), (tgt 5, rcvJ 5 0), (tgt 7, rcvJ 7 0), (tgt 1, rcvJ 1 1), (tgt 3, rcvJ 3 1), (tgt 9, rcvJ 9 0), (tgt 8, rcvJ 8 0), (tgt 0, rcvJ 0 2), (tgt 4, rcvJ 4 1), (tgt 6, rcvJ 6 1), (tgt 2, rcvJ 2 2), (tgt 5, rcvJ 5 1), (tgt 7, rcvJ 7 1), (tgt 1, rcvJ 1 2), (tgt 3, rcvJ 3 2), (tgt 9, rcvJ 9 1), (tgt 8, rcvJ 8 1), (tgt 4, rcvJ 4 2), (tgt 6, rcvJ 6 2), (tgt 5, rcvJ 5 2), (tgt 7, rcvJ 7 2), (tgt 9, rcvJ 9 2), (tgt 8, rcvJ 8 2)]

theorem Ol_nil (c : Dev nD) : Ol [] c = 0 := rfl

theorem Ol_cons (it : Item) (l : List Item) (c : Dev nD) : Ol (it :: l) c = Ol l c + payTally c it := by
  unfold Ol; rw [List.map_cons, List.sum_cons, add_comm]

/-- Whatever is owed is owed to a cell named in the list. -/
theorem Ol_pos {l : List Item} {c : Dev nD} {g : GSem nD τ sig} {u : Unit} (h : 0 < Ol l c g u) :
    ∃ it ∈ l, g = cell (peer it.1 c) it.2 := by
  induction l with
  | nil => rw [Ol_nil, Pi.zero_apply, Finsupp.zero_apply] at h; exact absurd h (Nat.lt_irrefl 0)
  | cons it l ih =>
    rw [Ol_cons, Pi.add_apply, Finsupp.add_apply] at h
    by_cases hg : g = cell (peer it.1 c) it.2
    · exact ⟨it, List.mem_cons_self, hg⟩
    · unfold payTally at h
      rw [tallyAt_ne_cell hg, Finsupp.zero_apply, Nat.add_zero] at h
      obtain ⟨it', h1, h2⟩ := ih h
      exact ⟨it', List.mem_cons_of_mem _ h1, h2⟩

/-! ## Levels -/

/-- The arrival cells in the order a device waits on them. -/
def waitL : List (Fin 93) := [rcvJ 0 0, rcvJ 2 0, rcvJ 1 0, rcvJ 3 0, rcvJ 6 0, rcvJ 5 0, rcvJ 4 0, rcvJ 7 0, rcvJ 0 1, rcvJ 2 1, rcvJ 1 1, rcvJ 3 1, rcvJ 6 1, rcvJ 5 1, rcvJ 4 1, rcvJ 7 1, rcvJ 0 2, rcvJ 2 2, rcvJ 1 2, rcvJ 3 2, rcvJ 6 2, rcvJ 5 2, rcvJ 4 2, rcvJ 7 2, rcvJ 9 0, rcvJ 8 0, rcvJ 9 1, rcvJ 8 1, rcvJ 9 2, rcvJ 8 2]

/-- The level of cell `j`: 1 for the barrier, 2 plus its place in the order of waits for an arrival cell, else 0. -/
def lvJ (j : Fin 93) : ℕ := if j.val = 0 then 1 else if j ∈ waitL then waitL.idxOf j + 2 else 0

def L (g : GSem nD τ sig) : Finset Unit := if g.1.2 = .tc then {()} else ∅

def lv (g : GSem nD τ sig) (_ : Unit) : ℕ := match jOf g.2 with | some j => lvJ j | none => 0

theorem L_of_ne (g : GSem nD τ sig) (h : g.1.2 ≠ .tc) : L g = ∅ := if_neg h
theorem L_tc (c : Dev nD) (sm : SemLoc sig) : L ((c : Thread nD τ), sm) = {()} := if_pos rfl

theorem lv_cell (c : Dev nD) (j : Fin 93) (u : Unit) : lv (cell c j) u = lvJ j := by
  show (match jOf (csem j) with | some j => lvJ j | none => 0) = lvJ j
  rw [jOf_csem]

theorem lv_stage (c : Dev nD) (q : DmaSem sig) (hq : q.val = 0) (u : Unit) : lv ((c : Thread nD τ), SemLoc.dma q) u = 0 := by
  show (match (if q.val = 0 then none else some (⟨q.val, q.isLt⟩ : Fin 93)) with | some j => lvJ j | none => 0) = 0
  rw [if_pos hq]

/-- Every cell a device owes to at launch is above level 0. -/
theorem payL_lv_pos : ∀ it ∈ payL, 0 < lvJ it.2 := by decide

/-- A device that owes the payments `l`, all to cells above cell `j0`, may wait on its cell `j0`. -/
theorem mayWait_of (c : Dev nD) (j0 : Fin 93) (l : List Item) (hl : ∀ it ∈ l, lvJ j0 < lvJ it.2) :
    (levAts L lv : sProp 𝕄) ⊢ MayWait (c : Thread nD τ) (csem j0) () (Ol l c) :=
  MayOwe.of_cut (L := L) (lev := lv) (lvJ j0)
    (fun p hp => by rw [Finset.mem_singleton.mp hp, L_tc]; exact Finset.mem_singleton_self _)
    (fun g u hg => by obtain ⟨it, _, rfl⟩ := Ol_pos hg; rw [L_tc]; exact Finset.mem_singleton_self _)
    (fun p hp => by rw [Finset.mem_singleton.mp hp]; exact le_of_eq (lv_cell c j0 ()))
    (fun g u hg => by obtain ⟨it, hit, rfl⟩ := Ol_pos hg; rw [lv_cell]; exact hl it hit)

/-- The staging cell is at level 0, below everything a device ever owes. -/
theorem mayWait_stage (c : Dev nD) (q : DmaSem sig) (hq : q.val = 0) (O : CellTallies nD τ sig Unit) (hO : O = Ol payL c ∨ O = 0) :
    (levAts L lv : sProp 𝕄) ⊢ MayWait (c : Thread nD τ) (.dma q) () O := by
  rcases hO with rfl | rfl
  · exact MayOwe.of_cut (L := L) (lev := lv) 0
      (fun p hp => by rw [Finset.mem_singleton.mp hp, L_tc]; exact Finset.mem_singleton_self _)
      (fun g u hg => by obtain ⟨it, _, rfl⟩ := Ol_pos hg; rw [L_tc]; exact Finset.mem_singleton_self _)
      (fun p hp => by rw [Finset.mem_singleton.mp hp]; exact le_of_eq (lv_stage c q hq ()))
      (fun g u hg => by obtain ⟨it, hit, rfl⟩ := Ol_pos hg; rw [lv_cell]; exact payL_lv_pos it hit)
  · rw [MayWait_zero]; iintro -; iempintro

/-! ## The launch credit -/

/-- Summed over the devices, one payment reaches cell `j` of device `c` exactly once if it is a payment to a cell
    `j`, and never otherwise: its peer map is a permutation. -/
theorem payTally_sum (it : Item) (c : Dev nD) (j : Fin 93) :
    ∑ d : Dev nD, payTally d it (cell c j) () = if it.2 = j then amtK (kind j) else 0 := by
  unfold payTally
  by_cases hj : it.2 = j
  · subst hj
    rw [if_pos rfl, Finset.sum_eq_single (peer (pinv it.1) c)]
    · rw [peer_pinv, tallyAt_self]
    · intro d _ hd
      rw [tallyAt_ne_cell (fun h => hd (by rw [(cell_inj h).1, pinv_peer])), Finsupp.zero_apply]
    · intro h; exact absurd (Finset.mem_univ _) h
  · rw [if_neg hj]
    exact Finset.sum_eq_zero fun d _ => by rw [tallyAt_ne_cell (fun h => hj (cell_inj h).2.symm), Finsupp.zero_apply]

/-- How many payments in a list are to a cell `j`. -/
def cnt (j : Fin 93) : List Item → ℕ
  | [] => 0
  | it :: l => cnt j l + (if it.2 = j then 1 else 0)

/-- What all devices together owe cell `j` of device `c`. -/
theorem sum_Ol (l : List Item) (c : Dev nD) (j : Fin 93) :
    ∑ d : Dev nD, Ol l d (cell c j) () = cnt j l * amtK (kind j) := by
  induction l with
  | nil =>
    rw [Finset.sum_eq_zero fun d _ => by rw [Ol_nil, Pi.zero_apply, Finsupp.zero_apply]]
    exact (Nat.zero_mul _).symm
  | cons it l ih =>
    have h1 : ∀ d : Dev nD, Ol (it :: l) d (cell c j) () = Ol l d (cell c j) () + payTally d it (cell c j) () := fun d => by
      rw [Ol_cons, Pi.add_apply, Finsupp.add_apply]
    rw [Finset.sum_congr rfl fun d _ => h1 d, Finset.sum_add_distrib, ih, payTally_sum]
    show _ = (cnt j l + (if it.2 = j then 1 else 0)) * _
    by_cases hj : it.2 = j
    · rw [if_pos hj, if_pos hj, Nat.add_mul, Nat.one_mul]
    · rw [if_neg hj, if_neg hj, Nat.add_zero, Nat.add_zero]

/-- What device `d` owes cell `j` of device `c`: the amounts of its payments to cell `j` of a peer that is `c`. -/
theorem owed_cell_of (l : List Item) (d c : Dev nD) (j : Fin 93) :
    Ol l d (cell c j) () = ((l.filter fun it => it.2 = j ∧ peer it.1 d = c).map fun it => amtK (kind it.2)).sum := by
  induction l with
  | nil => rw [Ol_nil, Pi.zero_apply, Finsupp.zero_apply]; rfl
  | cons it l ih =>
    rw [Ol_cons, Pi.add_apply, Finsupp.add_apply, ih]
    unfold payTally
    rw [tallyAt_apply]
    by_cases h : it.2 = j ∧ peer it.1 d = c
    · rw [List.filter_cons_of_pos (by simpa using h), List.map_cons, List.sum_cons, Nat.add_comm,
        if_pos ⟨by rw [h.1, h.2], rfl⟩]
    · rw [List.filter_cons_of_neg (by simpa using h), if_neg (fun h' => h ⟨(cell_inj h'.1).2.symm, (cell_inj h'.1).1.symm⟩), Nat.add_zero]

theorem owed_cell (d c : Dev nD) (j : Fin 93) :
    Ol payL d (cell c j) () = ((payL.filter fun it => it.2 = j ∧ peer it.1 d = c).map fun it => amtK (kind it.2)).sum :=
  owed_cell_of payL d c j

/-- The credit dealt at launch on cell `j` of device `c`. -/
theorem launch_cell (c : Dev nD) (j : Fin 93) :
    tallyOn (cell c j) (launchCredit (Pipeline.owing fun d => Ol payL d) 0 (cell c j))
      = (tallyAt (cell c j) () (cnt j payL * amtK (kind j)) : CellTallies nD τ sig Unit) := by
  unfold tallyAt; refine congrArg _ (Finsupp.ext fun u => ?_); cases u
  rw [Pipeline.launchCredit_owing, Finsupp.single_eq_same, sum_Ol]

theorem cnt_bar : cnt 0 payL = 4 := by decide
theorem cnt_rcv (f : Fin 10) (h : Fin 3) : cnt (rcvJ f h) payL = 1 := by revert f h; decide

theorem launch_bar (c : Dev nD) :
    tallyOn (cell c 0) (launchCredit (Pipeline.owing fun d => Ol payL d) 0 (cell c 0)) = (tallyAt (cell c 0) () 4 : CellTallies nD τ sig Unit) := by
  rw [launch_cell, cnt_bar, kind_zero]; rfl

theorem launch_rcv (c : Dev nD) (f : Fin 10) (h : Fin 3) :
    tallyOn (cell c (rcvJ f h)) (launchCredit (Pipeline.owing fun d => Ol payL d) 0 (cell c (rcvJ f h)))
      = (tallyAt (cell c (rcvJ f h)) () (credS (flowRows f)) : CellTallies nD τ sig Unit) := by
  rw [launch_cell, cnt_rcv, kind_rcvJ, Nat.one_mul]; rfl

/-- The thirty arrival cells, by flow and then hop. -/
def fhL : List (Fin 10 × Fin 3) := [(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2), (8, 0), (8, 1), (8, 2), (9, 0), (9, 1), (9, 2)]

/-- The credit a device is dealt at launch: four units on its barrier cell and its transfer's credit on each arrival cell. -/
theorem creds (c : Dev nD) :
    (Pipeline.launchCred (fun d => Ol payL d) c : sProp 𝕄)
      ⊢ iprop(cred (tallyAt (cell c 0) () 4) ∗ bigSepL fhL (fun fh => cred (tallyAt (cell c (rcvJ fh.1 fh.2)) () (credS (flowRows fh.1))))) := by
  unfold Pipeline.launchCred
  rw [bigSep_univ_at _ (csem 0), launch_bar]
  refine sep_mono_right ?_
  have hsub : ((Finset.univ : Finset (Fin 10 × Fin 3)).image fun fh => csem (rcvJ fh.1 fh.2)) ⊆ (Finset.univ : Finset (SemLoc sig)).erase (csem 0) := by
    intro s hs
    obtain ⟨fh, _, rfl⟩ := Finset.mem_image.mp hs
    exact Finset.mem_erase.mpr ⟨fun h => rcvJ_ne_zero fh.1 fh.2 (csem_inj h), Finset.mem_univ _⟩
  refine BIBase.Entails.trans (bigSep_subset hsub) ?_
  rw [bigSep_image_of_injOn (fun a _ b _ h => Prod.ext (rcvJ_inj (csem_inj h)).1 (rcvJ_inj (csem_inj h)).2)]
  rw [bigSep_univ_eq_bigSepL fhL (Finset.eq_univ_of_forall (by decide)).symm (by decide)]
  refine Entails.of_eq (congrArg (bigSepL fhL) (funext fun fh => ?_))
  rw [launch_rcv]

end Cert.Kernel.AG

end
-- ==== Proof.Bits.Ghost.lean ====
/-
  What a device holds when its body starts and when it ends.

  At the start: the record of every cell's invariant and that every cell has reached round 0 (persistent, the same
  for all devices); its position at round 0 of each of its ninety-three cells; the tokens of the duties it pays —
  its four peers' barrier duties under the peer index by which they see it, the thirty arrival duties of its
  transfers on its peers' cells, its own thirty departure duties and thirty-one copy duties —; the credit for its
  barrier's four units and for each of its thirty arrivals; the levels; its scratch array at whatever it holds and
  its result array as launched.  At the end: the scratch array again, the thirty-one pieces of the result each
  holding the rows it was copied from, and its ninety-two DMA semaphores at zero.
-/
import proofs.«900685_g7700000000000686_dist_ag_v7x_xyz2x2x4_z_m2048_n512_f32_1_alg».proof.Proof.Bits.Owes

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Every cell's invariant, under the names `K`, and that every cell has reached round 0. -/
def records (K : Dev nD × Fin 93 → ℕ) : sProp 𝕄 :=
  iprop((bigSep Finset.univ fun ck : Dev nD × Fin 93 => cellInv ER (Rd m) (K ck) (cell ck.1 ck.2))
    ∗ bigSep Finset.univ fun ck : Dev nD × Fin 93 => reached ER (cell ck.1 ck.2) 0)

instance records_persistent (K : Dev nD × Fin 93 → ℕ) : BI.Persistent (records m K) := by unfold records; infer_instance

/-- The duties a device pays on its peers' cells: (peer index, cell, duty). -/
def payTokL : List (Fin 4 × Fin 93 × Fin 4) :=
  [(0, 0, pinv 0), (1, 0, pinv 1), (2, 0, pinv 2), (3, 0, pinv 3), (tgt 0, rcvJ 0 0, 0), (tgt 0, rcvJ 0 1, 0), (tgt 0, rcvJ 0 2, 0), (tgt 1, rcvJ 1 0, 0), (tgt 1, rcvJ 1 1, 0), (tgt 1, rcvJ 1 2, 0), (tgt 2, rcvJ 2 0, 0), (tgt 2, rcvJ 2 1, 0), (tgt 2, rcvJ 2 2, 0), (tgt 3, rcvJ 3 0, 0), (tgt 3, rcvJ 3 1, 0), (tgt 3, rcvJ 3 2, 0), (tgt 4, rcvJ 4 0, 0), (tgt 4, rcvJ 4 1, 0), (tgt 4, rcvJ 4 2, 0), (tgt 5, rcvJ 5 0, 0), (tgt 5, rcvJ 5 1, 0), (tgt 5, rcvJ 5 2, 0), (tgt 6, rcvJ 6 0, 0), (tgt 6, rcvJ 6 1, 0), (tgt 6, rcvJ 6 2, 0), (tgt 7, rcvJ 7 0, 0), (tgt 7, rcvJ 7 1, 0), (tgt 7, rcvJ 7 2, 0), (tgt 8, rcvJ 8 0, 0), (tgt 8, rcvJ 8 1, 0), (tgt 8, rcvJ 8 2, 0), (tgt 9, rcvJ 9 0, 0), (tgt 9, rcvJ 9 1, 0), (tgt 9, rcvJ 9 2, 0)]

/-- The duties of its own cells a device pays: its departures and its copies. -/
def ownTokL : List (Fin 93) :=
  [sndJ 0 0, sndJ 0 1, sndJ 0 2, sndJ 1 0, sndJ 1 1, sndJ 1 2, sndJ 2 0, sndJ 2 1, sndJ 2 2, sndJ 3 0, sndJ 3 1, sndJ 3 2, sndJ 4 0, sndJ 4 1, sndJ 4 2, sndJ 5 0, sndJ 5 1, sndJ 5 2, sndJ 6 0, sndJ 6 1, sndJ 6 2, sndJ 7 0, sndJ 7 1, sndJ 7 2, sndJ 8 0, sndJ 8 1, sndJ 8 2, sndJ 9 0, sndJ 9 1, sndJ 9 2, cpJ 0, cpJ 1, cpJ 2, cpJ 3, cpJ 4, cpJ 5, cpJ 6, cpJ 7, cpJ 8, cpJ 9, cpJ 10, cpJ 11, cpJ 12, cpJ 13, cpJ 14, cpJ 15, cpJ 16, cpJ 17, cpJ 18, cpJ 19, cpJ 20, cpJ 21, cpJ 22, cpJ 23, cpJ 24, cpJ 25, cpJ 26, cpJ 27, cpJ 28, cpJ 29, cpJ 31]

def payToks (c : Dev nD) : sProp 𝕄 := bigSepL payTokL (fun t => dutyTok ER (cell (peer t.1 c) t.2.1) 0 t.2.2)
def ownToks (c : Dev nD) : sProp 𝕄 := bigSepL ownTokL (fun j => dutyTok ER (cell c j) 0 0)
def poss (c : Dev nD) : sProp 𝕄 := bigSepL (List.finRange 93) (fun j => atPos ER (cell c j) 0 ∅ 0)

def ghost (K : Dev nD × Fin 93 → ℕ) (c : Dev nD) : sProp 𝕄 :=
  iprop(records m K ∗ poss (F := F) c ∗ payToks (F := F) c ∗ ownToks (F := F) c)

/-- The credit a device is dealt: four units on its barrier and each arrival's amount. -/
def credits (c : Dev nD) : sProp 𝕄 :=
  iprop(cred (tallyAt (cell c 0) () 4)
    ∗ bigSepL fhL (fun fh => cred (tallyAt (cell c (rcvJ fh.1 fh.2)) () (credS (flowRows fh.1)))))

def start (c : Dev nD) : sProp 𝕄 :=
  iprop((∃ K, ghost m K c) ∗ credits (F := F) c ∗ levAts L lv)

def Φ₀ (c : Dev nD) : sProp 𝕄 :=
  iprop(start m c ∗ (∃ f : Buf (Elt F) ((c : Thread nD τ).loc cc0_scratch0), ((c : Thread nD τ).loc cc0_scratch0) ↦{fullShare} f)
    ∗ (((c : Thread nD τ).loc main_v1) ↦{fullShare} m ((c : Thread nD τ).loc main_v1)))

/-- The thirty-one pieces of the result, each at the rows it was copied from. -/
def outPieces (c : Dev nD) : sProp 𝕄 :=
  iprop(oPts c (2048 * (c.val % 4)) 2048 fullShare (Gd m c)
    ∗ bigSepL fhL (fun fh => oPts c (lo fh.1 fh.2.val c) (flowRows fh.1) fullShare (Gd m (org fh.1 fh.2.val c))))

/-- The device's own DMA semaphores, as the launch indexes them: DMA semaphores 1 to 92. -/
abbrev osem : Fin 92 → SemLoc sig := fun k => .dma ⟨k.val + 1, by have := k.isLt; show k.val + 1 < 93; omega⟩

def ownZero (c : Dev nD) : sProp 𝕄 := bigSepL (List.finRange 92) (fun k => semVal ((c : Thread nD τ), osem k) 0)

def Φ₁ (c : Dev nD) : sProp 𝕄 :=
  iprop((∃ f : Buf (Elt F) ((c : Thread nD τ).loc cc0_scratch0), ((c : Thread nD τ).loc cc0_scratch0) ↦{fullShare} f)
    ∗ outPieces m c ∗ ownZero (F := F) c)

/-- The pipeline's proof data: the one window is the argument's block, never written; the device owes its
    thirty-four payments at the start and nothing at the end. -/
def dats (_ : Fin 1) (c : Dev nD) : Dat τ (Elt F) Unit ℕ UU ℕ cfg0 c where
  A w := m ((cfg0.win w).arr.view.loc (c : Thread nD τ))
  after w _ := match w with
    | ⟨0, _⟩ => xstg m c
  Φ t := match t with
    | ⟨0, _⟩ => Φ₀ m c
    | ⟨_ + 1, _⟩ => Φ₁ m c
  q _ := fullShare
  owed t := match t with
    | ⟨0, _⟩ => Ol payL c
    | ⟨_ + 1, _⟩ => 0

end Cert.Kernel.AG

end
-- ==== Proof.Bits.Rec.lean ====
/-
  Reading one cell's invariant, and that it has reached round 0, off the record every device holds.
-/
import proofs.«900685_g7700000000000686_dist_ag_v7x_xyz2x2x4_z_m2048_n512_f32_1_alg».proof.Proof.Bits.Ghost

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem rec_inv (K : Dev nD × Fin 93 → ℕ) (c : Dev nD) (j : Fin 93) :
    records m K ⊢ cellInv ER (Rd m) (K (c, j)) (cell c j) := by
  unfold records
  exact BIBase.Entails.trans sep_elim_left
    (bigSep_elim (Φ := fun ck : Dev nD × Fin 93 => (cellInv ER (Rd m) (K ck) (cell ck.1 ck.2) : sProp 𝕄)) (Finset.mem_univ ((c, j) : Dev nD × Fin 93)))

theorem rec_reached (K : Dev nD × Fin 93 → ℕ) (c : Dev nD) (j : Fin 93) :
    records m K ⊢ reached ER (cell c j) 0 := by
  unfold records
  exact BIBase.Entails.trans sep_elim_right
    (bigSep_elim (Φ := fun ck : Dev nD × Fin 93 => (reached ER (cell ck.1 ck.2) 0 : sProp 𝕄)) (Finset.mem_univ ((c, j) : Dev nD × Fin 93)))

end Cert.Kernel.AG

end
-- ==== Proof.Bits.Ctx.lean ====
/-
  The device's holdings, resource by resource, as the body starts and as it ends.
-/
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- At the start, what the body's parts will take, each named. -/
def ctx0 (K : Dev nD × Fin 93 → ℕ) (c : Dev nD) (W : Waits sig Unit) : sProp 𝕄 :=
  iprop(records m K ∗ levAts L lv
    ∗ owes (c : Thread nD τ) (Ol (payL.drop 0) c) W
    ∗ dutyTok ER (cell (peer 0 c) 0) 0 1
    ∗ barPay (F := F) (peer 0 c) 1
    ∗ dutyTok ER (cell (peer 1 c) 0) 0 0
    ∗ barPay (F := F) (peer 1 c) 0
    ∗ dutyTok ER (cell (peer 2 c) 0) 0 2
    ∗ barPay (F := F) (peer 2 c) 2
    ∗ dutyTok ER (cell (peer 3 c) 0) 0 3
    ∗ barPay (F := F) (peer 3 c) 3
    ∗ cred (tallyAt (cell c 0) () 4)
    ∗ atPos ER (cell c 0) 0 ∅ 0
    ∗ xPts m c (blkLo 0 c) 256 fullShare.right.left
    ∗ dutyTok ER (cell c (sndJ 0 0)) 0 0
    ∗ dutyTok ER (cell (peer 1 c) (rcvJ 0 0)) 0 0
    ∗ xPts m c (blkLo 2 c) 256 fullShare.right.right.left
    ∗ dutyTok ER (cell c (sndJ 2 0)) 0 0
    ∗ dutyTok ER (cell (peer 0 c) (rcvJ 2 0)) 0 0
    ∗ xPts m c (blkLo 1 c) 88 fullShare.right.right.right.left
    ∗ dutyTok ER (cell c (sndJ 1 0)) 0 0
    ∗ dutyTok ER (cell (peer 1 c) (rcvJ 1 0)) 0 0
    ∗ xPts m c (blkLo 3 c) 88 fullShare.right.right.right.right
    ∗ dutyTok ER (cell c (sndJ 3 0)) 0 0
    ∗ dutyTok ER (cell (peer 0 c) (rcvJ 3 0)) 0 0
    ∗ xPts m c 0 2048 fullShare.left
    ∗ oPts c (2048 * (c.val % 4)) 2048 fullShare (m ((c : Thread nD τ).loc main_v1))
    ∗ dutyTok ER (cell c (cpJ 31)) 0 0
    ∗ cred (tallyAt (cell c (rcvJ 0 0)) () (credS 256))
    ∗ atPos ER (cell c (rcvJ 0 0)) 0 ∅ 0
    ∗ oPts c (lo 0 0 c) 256 fullShare (m ((c : Thread nD τ).loc main_v1))
    ∗ dutyTok ER (cell c (cpJ 0)) 0 0
    ∗ dutyTok ER (cell c (sndJ 0 1)) 0 0
    ∗ dutyTok ER (cell (peer 1 c) (rcvJ 0 1)) 0 0
    ∗ dutyTok ER (cell c (sndJ 4 0)) 0 0
    ∗ dutyTok ER (cell (peer 2 c) (rcvJ 4 0)) 0 0
    ∗ dutyTok ER (cell c (sndJ 6 0)) 0 0
    ∗ dutyTok ER (cell (peer 3 c) (rcvJ 6 0)) 0 0
    ∗ cred (tallyAt (cell c (rcvJ 2 0)) () (credS 256))
    ∗ atPos ER (cell c (rcvJ 2 0)) 0 ∅ 0
    ∗ oPts c (lo 2 0 c) 256 fullShare (m ((c : Thread nD τ).loc main_v1))
    ∗ dutyTok ER (cell c (cpJ 1)) 0 0
    ∗ dutyTok ER (cell c (sndJ 2 1)) 0 0
    ∗ dutyTok ER (cell (peer 0 c) (rcvJ 2 1)) 0 0
    ∗ dutyTok ER (cell c (sndJ 5 0)) 0 0
    ∗ dutyTok ER (cell (peer 2 c) (rcvJ 5 0)) 0 0
    ∗ dutyTok ER (cell c (sndJ 7 0)) 0 0
    ∗ dutyTok ER (cell (peer 3 c) (rcvJ 7 0)) 0 0
    ∗ cred (tallyAt (cell c (rcvJ 1 0)) () (credS 88))
    ∗ atPos ER (cell c (rcvJ 1 0)) 0 ∅ 0
    ∗ oPts c (lo 1 0 c) 88 fullShare (m ((c : Thread nD τ).loc main_v1))
    ∗ dutyTok ER (cell c (cpJ 2)) 0 0
    ∗ dutyTok ER (cell c (sndJ 1 1)) 0 0
    ∗ dutyTok ER (cell (peer 1 c) (rcvJ 1 1)) 0 0
    ∗ cred (tallyAt (cell c (rcvJ 3 0)) () (credS 88))
    ∗ atPos ER (cell c (rcvJ 3 0)) 0 ∅ 0
    ∗ oPts c (lo 3 0 c) 88 fullShare (m ((c : Thread nD τ).loc main_v1))
    ∗ dutyTok ER (cell c (cpJ 3)) 0 0
    ∗ dutyTok ER (cell c (sndJ 3 1)) 0 0
    ∗ dutyTok ER (cell (peer 0 c) (rcvJ 3 1)) 0 0
    ∗ cred (tallyAt (cell c (rcvJ 6 0)) () (credS 256))
    ∗ atPos ER (cell c (rcvJ 6 0)) 0 ∅ 0
    ∗ oPts c (lo 6 0 c) 256 fullShare (m ((c : Thread nD τ).loc main_v1))
    ∗ dutyTok ER (cell c (cpJ 4)) 0 0
    ∗ dutyTok ER (cell c (sndJ 9 0)) 0 0
    ∗ dutyTok ER (cell (peer 2 c) (rcvJ 9 0)) 0 0
    ∗ cred (tallyAt (cell c (rcvJ 5 0)) () (credS 256))
    ∗ atPos ER (cell c (rcvJ 5 0)) 0 ∅ 0
    ∗ oPts c (lo 5 0 c) 256 fullShare (m ((c : Thread nD τ).loc main_v1))
    ∗ dutyTok ER (cell c (cpJ 5)) 0 0
    ∗ dutyTok ER (cell c (sndJ 8 0)) 0 0
    ∗ dutyTok ER (cell (peer 3 c) (rcvJ 8 0)) 0 0
    ∗ cred (tallyAt (cell c (rcvJ 4 0)) () (credS 256))
    ∗ atPos ER (cell c (rcvJ 4 0)) 0 ∅ 0
    ∗ oPts c (lo 4 0 c) 256 fullShare (m ((c : Thread nD τ).loc main_v1))
    ∗ dutyTok ER (cell c (cpJ 6)) 0 0
    ∗ cred (tallyAt (cell c (rcvJ 7 0)) () (credS 256))
    ∗ atPos ER (cell c (rcvJ 7 0)) 0 ∅ 0
    ∗ oPts c (lo 7 0 c) 256 fullShare (m ((c : Thread nD τ).loc main_v1))
    ∗ dutyTok ER (cell c (cpJ 7)) 0 0
    ∗ cred (tallyAt (cell c (rcvJ 0 1)) () (credS 256))
    ∗ atPos ER (cell c (rcvJ 0 1)) 0 ∅ 0
    ∗ oPts c (lo 0 1 c) 256 fullShare (m ((c : Thread nD τ).loc main_v1))
    ∗ dutyTok ER (cell c (cpJ 8)) 0 0
    ∗ dutyTok ER (cell c (sndJ 0 2)) 0 0
    ∗ dutyTok ER (cell (peer 1 c) (rcvJ 0 2)) 0 0
    ∗ dutyTok ER (cell c (sndJ 4 1)) 0 0
    ∗ dutyTok ER (cell (peer 2 c) (rcvJ 4 1)) 0 0
    ∗ dutyTok ER (cell c (sndJ 6 1)) 0 0
    ∗ dutyTok ER (cell (peer 3 c) (rcvJ 6 1)) 0 0
    ∗ cred (tallyAt (cell c (rcvJ 2 1)) () (credS 256))
    ∗ atPos ER (cell c (rcvJ 2 1)) 0 ∅ 0
    ∗ oPts c (lo 2 1 c) 256 fullShare (m ((c : Thread nD τ).loc main_v1))
    ∗ dutyTok ER (cell c (cpJ 9)) 0 0
    ∗ dutyTok ER (cell c (sndJ 2 2)) 0 0
    ∗ dutyTok ER (cell (peer 0 c) (rcvJ 2 2)) 0 0
    ∗ dutyTok ER (cell c (sndJ 5 1)) 0 0
    ∗ dutyTok ER (cell (peer 2 c) (rcvJ 5 1)) 0 0
    ∗ dutyTok ER (cell c (sndJ 7 1)) 0 0
    ∗ dutyTok ER (cell (peer 3 c) (rcvJ 7 1)) 0 0
    ∗ cred (tallyAt (cell c (rcvJ 1 1)) () (credS 88))
    ∗ atPos ER (cell c (rcvJ 1 1)) 0 ∅ 0
    ∗ oPts c (lo 1 1 c) 88 fullShare (m ((c : Thread nD τ).loc main_v1))
    ∗ dutyTok ER (cell c (cpJ 10)) 0 0
    ∗ dutyTok ER (cell c (sndJ 1 2)) 0 0
    ∗ dutyTok ER (cell (peer 1 c) (rcvJ 1 2)) 0 0
    ∗ cred (tallyAt (cell c (rcvJ 3 1)) () (credS 88))
    ∗ atPos ER (cell c (rcvJ 3 1)) 0 ∅ 0
    ∗ oPts c (lo 3 1 c) 88 fullShare (m ((c : Thread nD τ).loc main_v1))
    ∗ dutyTok ER (cell c (cpJ 11)) 0 0
    ∗ dutyTok ER (cell c (sndJ 3 2)) 0 0
    ∗ dutyTok ER (cell (peer 0 c) (rcvJ 3 2)) 0 0
    ∗ cred (tallyAt (cell c (rcvJ 6 1)) () (credS 256))
    ∗ atPos ER (cell c (rcvJ 6 1)) 0 ∅ 0
    ∗ oPts c (lo 6 1 c) 256 fullShare (m ((c : Thread nD τ).loc main_v1))
    ∗ dutyTok ER (cell c (cpJ 12)) 0 0
    ∗ dutyTok ER (cell c (sndJ 9 1)) 0 0
    ∗ dutyTok ER (cell (peer 2 c) (rcvJ 9 1)) 0 0
    ∗ cred (tallyAt (cell c (rcvJ 5 1)) () (credS 256))
    ∗ atPos ER (cell c (rcvJ 5 1)) 0 ∅ 0
    ∗ oPts c (lo 5 1 c) 256 fullShare (m ((c : Thread nD τ).loc main_v1))
    ∗ dutyTok ER (cell c (cpJ 13)) 0 0
    ∗ dutyTok ER (cell c (sndJ 8 1)) 0 0
    ∗ dutyTok ER (cell (peer 3 c) (rcvJ 8 1)) 0 0
    ∗ cred (tallyAt (cell c (rcvJ 4 1)) () (credS 256))
    ∗ atPos ER (cell c (rcvJ 4 1)) 0 ∅ 0
    ∗ oPts c (lo 4 1 c) 256 fullShare (m ((c : Thread nD τ).loc main_v1))
    ∗ dutyTok ER (cell c (cpJ 14)) 0 0
    ∗ cred (tallyAt (cell c (rcvJ 7 1)) () (credS 256))
    ∗ atPos ER (cell c (rcvJ 7 1)) 0 ∅ 0
    ∗ oPts c (lo 7 1 c) 256 fullShare (m ((c : Thread nD τ).loc main_v1))
    ∗ dutyTok ER (cell c (cpJ 15)) 0 0
    ∗ cred (tallyAt (cell c (rcvJ 0 2)) () (credS 256))
    ∗ atPos ER (cell c (rcvJ 0 2)) 0 ∅ 0
    ∗ oPts c (lo 0 2 c) 256 fullShare (m ((c : Thread nD τ).loc main_v1))
    ∗ dutyTok ER (cell c (cpJ 16)) 0 0
    ∗ dutyTok ER (cell c (sndJ 4 2)) 0 0
    ∗ dutyTok ER (cell (peer 2 c) (rcvJ 4 2)) 0 0
    ∗ dutyTok ER (cell c (sndJ 6 2)) 0 0
    ∗ dutyTok ER (cell (peer 3 c) (rcvJ 6 2)) 0 0
    ∗ cred (tallyAt (cell c (rcvJ 2 2)) () (credS 256))
    ∗ atPos ER (cell c (rcvJ 2 2)) 0 ∅ 0
    ∗ oPts c (lo 2 2 c) 256 fullShare (m ((c : Thread nD τ).loc main_v1))
    ∗ dutyTok ER (cell c (cpJ 17)) 0 0
    ∗ dutyTok ER (cell c (sndJ 5 2)) 0 0
    ∗ dutyTok ER (cell (peer 2 c) (rcvJ 5 2)) 0 0
    ∗ dutyTok ER (cell c (sndJ 7 2)) 0 0
    ∗ dutyTok ER (cell (peer 3 c) (rcvJ 7 2)) 0 0
    ∗ cred (tallyAt (cell c (rcvJ 1 2)) () (credS 88))
    ∗ atPos ER (cell c (rcvJ 1 2)) 0 ∅ 0
    ∗ oPts c (lo 1 2 c) 88 fullShare (m ((c : Thread nD τ).loc main_v1))
    ∗ dutyTok ER (cell c (cpJ 18)) 0 0
    ∗ cred (tallyAt (cell c (rcvJ 3 2)) () (credS 88))
    ∗ atPos ER (cell c (rcvJ 3 2)) 0 ∅ 0
    ∗ oPts c (lo 3 2 c) 88 fullShare (m ((c : Thread nD τ).loc main_v1))
    ∗ dutyTok ER (cell c (cpJ 19)) 0 0
    ∗ cred (tallyAt (cell c (rcvJ 6 2)) () (credS 256))
    ∗ atPos ER (cell c (rcvJ 6 2)) 0 ∅ 0
    ∗ oPts c (lo 6 2 c) 256 fullShare (m ((c : Thread nD τ).loc main_v1))
    ∗ dutyTok ER (cell c (cpJ 20)) 0 0
    ∗ dutyTok ER (cell c (sndJ 9 2)) 0 0
    ∗ dutyTok ER (cell (peer 2 c) (rcvJ 9 2)) 0 0
    ∗ cred (tallyAt (cell c (rcvJ 5 2)) () (credS 256))
    ∗ atPos ER (cell c (rcvJ 5 2)) 0 ∅ 0
    ∗ oPts c (lo 5 2 c) 256 fullShare (m ((c : Thread nD τ).loc main_v1))
    ∗ dutyTok ER (cell c (cpJ 21)) 0 0
    ∗ dutyTok ER (cell c (sndJ 8 2)) 0 0
    ∗ dutyTok ER (cell (peer 3 c) (rcvJ 8 2)) 0 0
    ∗ cred (tallyAt (cell c (rcvJ 4 2)) () (credS 256))
    ∗ atPos ER (cell c (rcvJ 4 2)) 0 ∅ 0
    ∗ oPts c (lo 4 2 c) 256 fullShare (m ((c : Thread nD τ).loc main_v1))
    ∗ dutyTok ER (cell c (cpJ 22)) 0 0
    ∗ cred (tallyAt (cell c (rcvJ 7 2)) () (credS 256))
    ∗ atPos ER (cell c (rcvJ 7 2)) 0 ∅ 0
    ∗ oPts c (lo 7 2 c) 256 fullShare (m ((c : Thread nD τ).loc main_v1))
    ∗ dutyTok ER (cell c (cpJ 23)) 0 0
    ∗ cred (tallyAt (cell c (rcvJ 9 0)) () (credS 168))
    ∗ atPos ER (cell c (rcvJ 9 0)) 0 ∅ 0
    ∗ oPts c (lo 9 0 c) 168 fullShare (m ((c : Thread nD τ).loc main_v1))
    ∗ dutyTok ER (cell c (cpJ 24)) 0 0
    ∗ cred (tallyAt (cell c (rcvJ 8 0)) () (credS 168))
    ∗ atPos ER (cell c (rcvJ 8 0)) 0 ∅ 0
    ∗ oPts c (lo 8 0 c) 168 fullShare (m ((c : Thread nD τ).loc main_v1))
    ∗ dutyTok ER (cell c (cpJ 25)) 0 0
    ∗ cred (tallyAt (cell c (rcvJ 9 1)) () (credS 168))
    ∗ atPos ER (cell c (rcvJ 9 1)) 0 ∅ 0
    ∗ oPts c (lo 9 1 c) 168 fullShare (m ((c : Thread nD τ).loc main_v1))
    ∗ dutyTok ER (cell c (cpJ 26)) 0 0
    ∗ cred (tallyAt (cell c (rcvJ 8 1)) () (credS 168))
    ∗ atPos ER (cell c (rcvJ 8 1)) 0 ∅ 0
    ∗ oPts c (lo 8 1 c) 168 fullShare (m ((c : Thread nD τ).loc main_v1))
    ∗ dutyTok ER (cell c (cpJ 27)) 0 0
    ∗ cred (tallyAt (cell c (rcvJ 9 2)) () (credS 168))
    ∗ atPos ER (cell c (rcvJ 9 2)) 0 ∅ 0
    ∗ oPts c (lo 9 2 c) 168 fullShare (m ((c : Thread nD τ).loc main_v1))
    ∗ dutyTok ER (cell c (cpJ 28)) 0 0
    ∗ cred (tallyAt (cell c (rcvJ 8 2)) () (credS 168))
    ∗ atPos ER (cell c (rcvJ 8 2)) 0 ∅ 0
    ∗ oPts c (lo 8 2 c) 168 fullShare (m ((c : Thread nD τ).loc main_v1))
    ∗ dutyTok ER (cell c (cpJ 29)) 0 0
    ∗ atPos ER (cell c (sndJ 0 0)) 0 ∅ 0
    ∗ atPos ER (cell c (sndJ 2 0)) 0 ∅ 0
    ∗ atPos ER (cell c (sndJ 1 0)) 0 ∅ 0
    ∗ atPos ER (cell c (sndJ 3 0)) 0 ∅ 0
    ∗ atPos ER (cell c (sndJ 0 1)) 0 ∅ 0
    ∗ atPos ER (cell c (sndJ 4 0)) 0 ∅ 0
    ∗ atPos ER (cell c (sndJ 6 0)) 0 ∅ 0
    ∗ atPos ER (cell c (sndJ 2 1)) 0 ∅ 0
    ∗ atPos ER (cell c (sndJ 5 0)) 0 ∅ 0
    ∗ atPos ER (cell c (sndJ 7 0)) 0 ∅ 0
    ∗ atPos ER (cell c (sndJ 1 1)) 0 ∅ 0
    ∗ atPos ER (cell c (sndJ 3 1)) 0 ∅ 0
    ∗ atPos ER (cell c (sndJ 9 0)) 0 ∅ 0
    ∗ atPos ER (cell c (sndJ 8 0)) 0 ∅ 0
    ∗ atPos ER (cell c (sndJ 0 2)) 0 ∅ 0
    ∗ atPos ER (cell c (sndJ 4 1)) 0 ∅ 0
    ∗ atPos ER (cell c (sndJ 6 1)) 0 ∅ 0
    ∗ atPos ER (cell c (sndJ 2 2)) 0 ∅ 0
    ∗ atPos ER (cell c (sndJ 5 1)) 0 ∅ 0
    ∗ atPos ER (cell c (sndJ 7 1)) 0 ∅ 0
    ∗ atPos ER (cell c (sndJ 1 2)) 0 ∅ 0
    ∗ atPos ER (cell c (sndJ 3 2)) 0 ∅ 0
    ∗ atPos ER (cell c (sndJ 9 1)) 0 ∅ 0
    ∗ atPos ER (cell c (sndJ 8 1)) 0 ∅ 0
    ∗ atPos ER (cell c (sndJ 4 2)) 0 ∅ 0
    ∗ atPos ER (cell c (sndJ 6 2)) 0 ∅ 0
    ∗ atPos ER (cell c (sndJ 5 2)) 0 ∅ 0
    ∗ atPos ER (cell c (sndJ 7 2)) 0 ∅ 0
    ∗ atPos ER (cell c (sndJ 9 2)) 0 ∅ 0
    ∗ atPos ER (cell c (sndJ 8 2)) 0 ∅ 0
    ∗ atPos ER (cell c (cpJ 0)) 0 ∅ 0
    ∗ atPos ER (cell c (cpJ 1)) 0 ∅ 0
    ∗ atPos ER (cell c (cpJ 2)) 0 ∅ 0
    ∗ atPos ER (cell c (cpJ 3)) 0 ∅ 0
    ∗ atPos ER (cell c (cpJ 4)) 0 ∅ 0
    ∗ atPos ER (cell c (cpJ 5)) 0 ∅ 0
    ∗ atPos ER (cell c (cpJ 6)) 0 ∅ 0
    ∗ atPos ER (cell c (cpJ 7)) 0 ∅ 0
    ∗ atPos ER (cell c (cpJ 8)) 0 ∅ 0
    ∗ atPos ER (cell c (cpJ 9)) 0 ∅ 0
    ∗ atPos ER (cell c (cpJ 10)) 0 ∅ 0
    ∗ atPos ER (cell c (cpJ 11)) 0 ∅ 0
    ∗ atPos ER (cell c (cpJ 12)) 0 ∅ 0
    ∗ atPos ER (cell c (cpJ 13)) 0 ∅ 0
    ∗ atPos ER (cell c (cpJ 14)) 0 ∅ 0
    ∗ atPos ER (cell c (cpJ 15)) 0 ∅ 0
    ∗ atPos ER (cell c (cpJ 16)) 0 ∅ 0
    ∗ atPos ER (cell c (cpJ 17)) 0 ∅ 0
    ∗ atPos ER (cell c (cpJ 18)) 0 ∅ 0
    ∗ atPos ER (cell c (cpJ 19)) 0 ∅ 0
    ∗ atPos ER (cell c (cpJ 20)) 0 ∅ 0
    ∗ atPos ER (cell c (cpJ 21)) 0 ∅ 0
    ∗ atPos ER (cell c (cpJ 22)) 0 ∅ 0
    ∗ atPos ER (cell c (cpJ 23)) 0 ∅ 0
    ∗ atPos ER (cell c (cpJ 24)) 0 ∅ 0
    ∗ atPos ER (cell c (cpJ 25)) 0 ∅ 0
    ∗ atPos ER (cell c (cpJ 26)) 0 ∅ 0
    ∗ atPos ER (cell c (cpJ 27)) 0 ∅ 0
    ∗ atPos ER (cell c (cpJ 28)) 0 ∅ 0
    ∗ atPos ER (cell c (cpJ 29)) 0 ∅ 0
    ∗ atPos ER (cell c (cpJ 31)) 0 ∅ 0)

/-- At the end, what the parts have left. -/
def ctxEnd (K : Dev nD × Fin 93 → ℕ) (c : Dev nD) (W : Waits sig Unit) : sProp 𝕄 :=
  iprop(semVal (cell c (rcvJ 0 0)) 0
    ∗ semVal (cell c (rcvJ 2 0)) 0
    ∗ semVal (cell c (rcvJ 1 0)) 0
    ∗ semVal (cell c (rcvJ 3 0)) 0
    ∗ semVal (cell c (rcvJ 6 0)) 0
    ∗ sPts c (lo 6 0 c) 88 fullShare.right (Gd m (org 6 0 c))
    ∗ semVal (cell c (rcvJ 5 0)) 0
    ∗ sPts c (lo 5 0 c) 88 fullShare.right (Gd m (org 5 0 c))
    ∗ semVal (cell c (rcvJ 4 0)) 0
    ∗ semVal (cell c (rcvJ 7 0)) 0
    ∗ semVal (cell c (rcvJ 0 1)) 0
    ∗ semVal (cell c (rcvJ 2 1)) 0
    ∗ semVal (cell c (rcvJ 1 1)) 0
    ∗ semVal (cell c (rcvJ 3 1)) 0
    ∗ semVal (cell c (rcvJ 6 1)) 0
    ∗ sPts c (lo 6 1 c) 88 fullShare.right (Gd m (org 6 1 c))
    ∗ semVal (cell c (rcvJ 5 1)) 0
    ∗ sPts c (lo 5 1 c) 88 fullShare.right (Gd m (org 5 1 c))
    ∗ semVal (cell c (rcvJ 4 1)) 0
    ∗ semVal (cell c (rcvJ 7 1)) 0
    ∗ semVal (cell c (rcvJ 0 2)) 0
    ∗ sPts c (lo 0 2 c) 256 fullShare.right.left (Gd m (org 0 2 c))
    ∗ semVal (cell c (rcvJ 2 2)) 0
    ∗ sPts c (lo 2 2 c) 256 fullShare.right.left (Gd m (org 2 2 c))
    ∗ semVal (cell c (rcvJ 1 2)) 0
    ∗ sPts c (lo 1 2 c) 88 fullShare.right (Gd m (org 1 2 c))
    ∗ semVal (cell c (rcvJ 3 2)) 0
    ∗ sPts c (lo 3 2 c) 88 fullShare.right (Gd m (org 3 2 c))
    ∗ semVal (cell c (rcvJ 6 2)) 0
    ∗ sPts c (lo 6 2 c) 88 fullShare.right (Gd m (org 6 2 c))
    ∗ semVal (cell c (rcvJ 5 2)) 0
    ∗ sPts c (lo 5 2 c) 88 fullShare.right (Gd m (org 5 2 c))
    ∗ semVal (cell c (rcvJ 4 2)) 0
    ∗ semVal (cell c (rcvJ 7 2)) 0
    ∗ semVal (cell c (rcvJ 9 0)) 0
    ∗ semVal (cell c (rcvJ 8 0)) 0
    ∗ semVal (cell c (rcvJ 9 1)) 0
    ∗ semVal (cell c (rcvJ 8 1)) 0
    ∗ semVal (cell c (rcvJ 9 2)) 0
    ∗ semVal (cell c (rcvJ 8 2)) 0
    ∗ semVal (cell c (sndJ 0 0)) 0
    ∗ xPts m c (blkLo 0 c) 256 fullShare.right.left
    ∗ semVal (cell c (sndJ 2 0)) 0
    ∗ xPts m c (blkLo 2 c) 256 fullShare.right.right.left
    ∗ semVal (cell c (sndJ 1 0)) 0
    ∗ xPts m c (blkLo 1 c) 88 fullShare.right.right.right.left
    ∗ semVal (cell c (sndJ 3 0)) 0
    ∗ xPts m c (blkLo 3 c) 88 fullShare.right.right.right.right
    ∗ semVal (cell c (sndJ 0 1)) 0
    ∗ sPts c (lo 0 0 c) 256 fullShare.right.left (Gd m (org 0 0 c))
    ∗ semVal (cell c (sndJ 4 0)) 0
    ∗ sPts c (lo 0 0 c) 256 fullShare.right.right.left (Gd m (org 0 0 c))
    ∗ semVal (cell c (sndJ 6 0)) 0
    ∗ sPts c (lo 0 0 c) 256 fullShare.right.right.right (Gd m (org 0 0 c))
    ∗ semVal (cell c (sndJ 2 1)) 0
    ∗ sPts c (lo 2 0 c) 256 fullShare.right.left (Gd m (org 2 0 c))
    ∗ semVal (cell c (sndJ 5 0)) 0
    ∗ sPts c (lo 2 0 c) 256 fullShare.right.right.left (Gd m (org 2 0 c))
    ∗ semVal (cell c (sndJ 7 0)) 0
    ∗ sPts c (lo 2 0 c) 256 fullShare.right.right.right (Gd m (org 2 0 c))
    ∗ semVal (cell c (sndJ 1 1)) 0
    ∗ sPts c (lo 1 0 c) 88 fullShare.right (Gd m (org 1 0 c))
    ∗ semVal (cell c (sndJ 3 1)) 0
    ∗ sPts c (lo 3 0 c) 88 fullShare.right (Gd m (org 3 0 c))
    ∗ semVal (cell c (sndJ 9 0)) 0
    ∗ sPts c (lo 6 0 c + 88) 168 fullShare.right (Gd m (org 6 0 c))
    ∗ semVal (cell c (sndJ 8 0)) 0
    ∗ sPts c (lo 5 0 c + 88) 168 fullShare.right (Gd m (org 5 0 c))
    ∗ semVal (cell c (sndJ 0 2)) 0
    ∗ sPts c (lo 0 1 c) 256 fullShare.right.left (Gd m (org 0 1 c))
    ∗ semVal (cell c (sndJ 4 1)) 0
    ∗ sPts c (lo 0 1 c) 256 fullShare.right.right.left (Gd m (org 0 1 c))
    ∗ semVal (cell c (sndJ 6 1)) 0
    ∗ sPts c (lo 0 1 c) 256 fullShare.right.right.right (Gd m (org 0 1 c))
    ∗ semVal (cell c (sndJ 2 2)) 0
    ∗ sPts c (lo 2 1 c) 256 fullShare.right.left (Gd m (org 2 1 c))
    ∗ semVal (cell c (sndJ 5 1)) 0
    ∗ sPts c (lo 2 1 c) 256 fullShare.right.right.left (Gd m (org 2 1 c))
    ∗ semVal (cell c (sndJ 7 1)) 0
    ∗ sPts c (lo 2 1 c) 256 fullShare.right.right.right (Gd m (org 2 1 c))
    ∗ semVal (cell c (sndJ 1 2)) 0
    ∗ sPts c (lo 1 1 c) 88 fullShare.right (Gd m (org 1 1 c))
    ∗ semVal (cell c (sndJ 3 2)) 0
    ∗ sPts c (lo 3 1 c) 88 fullShare.right (Gd m (org 3 1 c))
    ∗ semVal (cell c (sndJ 9 1)) 0
    ∗ sPts c (lo 6 1 c + 88) 168 fullShare.right (Gd m (org 6 1 c))
    ∗ semVal (cell c (sndJ 8 1)) 0
    ∗ sPts c (lo 5 1 c + 88) 168 fullShare.right (Gd m (org 5 1 c))
    ∗ semVal (cell c (sndJ 4 2)) 0
    ∗ sPts c (lo 0 2 c) 256 fullShare.right.right.left (Gd m (org 0 2 c))
    ∗ semVal (cell c (sndJ 6 2)) 0
    ∗ sPts c (lo 0 2 c) 256 fullShare.right.right.right (Gd m (org 0 2 c))
    ∗ semVal (cell c (sndJ 5 2)) 0
    ∗ sPts c (lo 2 2 c) 256 fullShare.right.right.left (Gd m (org 2 2 c))
    ∗ semVal (cell c (sndJ 7 2)) 0
    ∗ sPts c (lo 2 2 c) 256 fullShare.right.right.right (Gd m (org 2 2 c))
    ∗ semVal (cell c (sndJ 9 2)) 0
    ∗ sPts c (lo 6 2 c + 88) 168 fullShare.right (Gd m (org 6 2 c))
    ∗ semVal (cell c (sndJ 8 2)) 0
    ∗ sPts c (lo 5 2 c + 88) 168 fullShare.right (Gd m (org 5 2 c))
    ∗ semVal (cell c (cpJ 0)) 0
    ∗ oPts c (lo 0 0 c) 256 fullShare (Gd m (org 0 0 c))
    ∗ sPts c (lo 0 0 c) 256 fullShare.left (Gd m (org 0 0 c))
    ∗ semVal (cell c (cpJ 1)) 0
    ∗ oPts c (lo 2 0 c) 256 fullShare (Gd m (org 2 0 c))
    ∗ sPts c (lo 2 0 c) 256 fullShare.left (Gd m (org 2 0 c))
    ∗ semVal (cell c (cpJ 2)) 0
    ∗ oPts c (lo 1 0 c) 88 fullShare (Gd m (org 1 0 c))
    ∗ sPts c (lo 1 0 c) 88 fullShare.left (Gd m (org 1 0 c))
    ∗ semVal (cell c (cpJ 3)) 0
    ∗ oPts c (lo 3 0 c) 88 fullShare (Gd m (org 3 0 c))
    ∗ sPts c (lo 3 0 c) 88 fullShare.left (Gd m (org 3 0 c))
    ∗ semVal (cell c (cpJ 4)) 0
    ∗ oPts c (lo 6 0 c) 256 fullShare (Gd m (org 6 0 c))
    ∗ sPts c (lo 6 0 c) 256 fullShare.left (Gd m (org 6 0 c))
    ∗ semVal (cell c (cpJ 5)) 0
    ∗ oPts c (lo 5 0 c) 256 fullShare (Gd m (org 5 0 c))
    ∗ sPts c (lo 5 0 c) 256 fullShare.left (Gd m (org 5 0 c))
    ∗ semVal (cell c (cpJ 6)) 0
    ∗ oPts c (lo 4 0 c) 256 fullShare (Gd m (org 4 0 c))
    ∗ sPts c (lo 4 0 c) 256 fullShare (Gd m (org 4 0 c))
    ∗ semVal (cell c (cpJ 7)) 0
    ∗ oPts c (lo 7 0 c) 256 fullShare (Gd m (org 7 0 c))
    ∗ sPts c (lo 7 0 c) 256 fullShare (Gd m (org 7 0 c))
    ∗ semVal (cell c (cpJ 8)) 0
    ∗ oPts c (lo 0 1 c) 256 fullShare (Gd m (org 0 1 c))
    ∗ sPts c (lo 0 1 c) 256 fullShare.left (Gd m (org 0 1 c))
    ∗ semVal (cell c (cpJ 9)) 0
    ∗ oPts c (lo 2 1 c) 256 fullShare (Gd m (org 2 1 c))
    ∗ sPts c (lo 2 1 c) 256 fullShare.left (Gd m (org 2 1 c))
    ∗ semVal (cell c (cpJ 10)) 0
    ∗ oPts c (lo 1 1 c) 88 fullShare (Gd m (org 1 1 c))
    ∗ sPts c (lo 1 1 c) 88 fullShare.left (Gd m (org 1 1 c))
    ∗ semVal (cell c (cpJ 11)) 0
    ∗ oPts c (lo 3 1 c) 88 fullShare (Gd m (org 3 1 c))
    ∗ sPts c (lo 3 1 c) 88 fullShare.left (Gd m (org 3 1 c))
    ∗ semVal (cell c (cpJ 12)) 0
    ∗ oPts c (lo 6 1 c) 256 fullShare (Gd m (org 6 1 c))
    ∗ sPts c (lo 6 1 c) 256 fullShare.left (Gd m (org 6 1 c))
    ∗ semVal (cell c (cpJ 13)) 0
    ∗ oPts c (lo 5 1 c) 256 fullShare (Gd m (org 5 1 c))
    ∗ sPts c (lo 5 1 c) 256 fullShare.left (Gd m (org 5 1 c))
    ∗ semVal (cell c (cpJ 14)) 0
    ∗ oPts c (lo 4 1 c) 256 fullShare (Gd m (org 4 1 c))
    ∗ sPts c (lo 4 1 c) 256 fullShare (Gd m (org 4 1 c))
    ∗ semVal (cell c (cpJ 15)) 0
    ∗ oPts c (lo 7 1 c) 256 fullShare (Gd m (org 7 1 c))
    ∗ sPts c (lo 7 1 c) 256 fullShare (Gd m (org 7 1 c))
    ∗ semVal (cell c (cpJ 16)) 0
    ∗ oPts c (lo 0 2 c) 256 fullShare (Gd m (org 0 2 c))
    ∗ sPts c (lo 0 2 c) 256 fullShare.left (Gd m (org 0 2 c))
    ∗ semVal (cell c (cpJ 17)) 0
    ∗ oPts c (lo 2 2 c) 256 fullShare (Gd m (org 2 2 c))
    ∗ sPts c (lo 2 2 c) 256 fullShare.left (Gd m (org 2 2 c))
    ∗ semVal (cell c (cpJ 18)) 0
    ∗ oPts c (lo 1 2 c) 88 fullShare (Gd m (org 1 2 c))
    ∗ sPts c (lo 1 2 c) 88 fullShare.left (Gd m (org 1 2 c))
    ∗ semVal (cell c (cpJ 19)) 0
    ∗ oPts c (lo 3 2 c) 88 fullShare (Gd m (org 3 2 c))
    ∗ sPts c (lo 3 2 c) 88 fullShare.left (Gd m (org 3 2 c))
    ∗ semVal (cell c (cpJ 20)) 0
    ∗ oPts c (lo 6 2 c) 256 fullShare (Gd m (org 6 2 c))
    ∗ sPts c (lo 6 2 c) 256 fullShare.left (Gd m (org 6 2 c))
    ∗ semVal (cell c (cpJ 21)) 0
    ∗ oPts c (lo 5 2 c) 256 fullShare (Gd m (org 5 2 c))
    ∗ sPts c (lo 5 2 c) 256 fullShare.left (Gd m (org 5 2 c))
    ∗ semVal (cell c (cpJ 22)) 0
    ∗ oPts c (lo 4 2 c) 256 fullShare (Gd m (org 4 2 c))
    ∗ sPts c (lo 4 2 c) 256 fullShare (Gd m (org 4 2 c))
    ∗ semVal (cell c (cpJ 23)) 0
    ∗ oPts c (lo 7 2 c) 256 fullShare (Gd m (org 7 2 c))
    ∗ sPts c (lo 7 2 c) 256 fullShare (Gd m (org 7 2 c))
    ∗ owes (c : Thread nD τ) (Ol (payL.drop 34) c) (insert (csem (cpJ 31), ()) (insert (csem (cpJ 29), ()) (insert (csem (cpJ 28), ()) (insert (csem (cpJ 27), ()) (insert (csem (cpJ 26), ()) (insert (csem (cpJ 25), ()) (insert (csem (cpJ 24), ()) (insert (csem (cpJ 23), ()) (insert (csem (cpJ 22), ()) (insert (csem (cpJ 21), ()) (insert (csem (cpJ 20), ()) (insert (csem (cpJ 19), ()) (insert (csem (cpJ 18), ()) (insert (csem (cpJ 17), ()) (insert (csem (cpJ 16), ()) (insert (csem (cpJ 15), ()) (insert (csem (cpJ 14), ()) (insert (csem (cpJ 13), ()) (insert (csem (cpJ 12), ()) (insert (csem (cpJ 11), ()) (insert (csem (cpJ 10), ()) (insert (csem (cpJ 9), ()) (insert (csem (cpJ 8), ()) (insert (csem (cpJ 7), ()) (insert (csem (cpJ 6), ()) (insert (csem (cpJ 5), ()) (insert (csem (cpJ 4), ()) (insert (csem (cpJ 3), ()) (insert (csem (cpJ 2), ()) (insert (csem (cpJ 1), ()) (insert (csem (cpJ 0), ()) (insert (csem (sndJ 8 2), ()) (insert (csem (sndJ 9 2), ()) (insert (csem (sndJ 7 2), ()) (insert (csem (sndJ 5 2), ()) (insert (csem (sndJ 6 2), ()) (insert (csem (sndJ 4 2), ()) (insert (csem (sndJ 8 1), ()) (insert (csem (sndJ 9 1), ()) (insert (csem (sndJ 3 2), ()) (insert (csem (sndJ 1 2), ()) (insert (csem (sndJ 7 1), ()) (insert (csem (sndJ 5 1), ()) (insert (csem (sndJ 2 2), ()) (insert (csem (sndJ 6 1), ()) (insert (csem (sndJ 4 1), ()) (insert (csem (sndJ 0 2), ()) (insert (csem (sndJ 8 0), ()) (insert (csem (sndJ 9 0), ()) (insert (csem (sndJ 3 1), ()) (insert (csem (sndJ 1 1), ()) (insert (csem (sndJ 7 0), ()) (insert (csem (sndJ 5 0), ()) (insert (csem (sndJ 2 1), ()) (insert (csem (sndJ 6 0), ()) (insert (csem (sndJ 4 0), ()) (insert (csem (sndJ 0 1), ()) (insert (csem (sndJ 3 0), ()) (insert (csem (sndJ 1 0), ()) (insert (csem (sndJ 2 0), ()) (insert (csem (sndJ 0 0), ()) (insert (csem (rcvJ 8 2), ()) (insert (csem (rcvJ 9 2), ()) (insert (csem (rcvJ 8 1), ()) (insert (csem (rcvJ 9 1), ()) (insert (csem (rcvJ 8 0), ()) (insert (csem (rcvJ 9 0), ()) (insert (csem (rcvJ 7 2), ()) (insert (csem (rcvJ 4 2), ()) (insert (csem (rcvJ 5 2), ()) (insert (csem (rcvJ 6 2), ()) (insert (csem (rcvJ 3 2), ()) (insert (csem (rcvJ 1 2), ()) (insert (csem (rcvJ 2 2), ()) (insert (csem (rcvJ 0 2), ()) (insert (csem (rcvJ 7 1), ()) (insert (csem (rcvJ 4 1), ()) (insert (csem (rcvJ 5 1), ()) (insert (csem (rcvJ 6 1), ()) (insert (csem (rcvJ 3 1), ()) (insert (csem (rcvJ 1 1), ()) (insert (csem (rcvJ 2 1), ()) (insert (csem (rcvJ 0 1), ()) (insert (csem (rcvJ 7 0), ()) (insert (csem (rcvJ 4 0), ()) (insert (csem (rcvJ 5 0), ()) (insert (csem (rcvJ 6 0), ()) (insert (csem (rcvJ 3 0), ()) (insert (csem (rcvJ 1 0), ()) (insert (csem (rcvJ 2 0), ()) (insert (csem (rcvJ 0 0), ()) (insert (csem 0, ()) W))))))))))))))))))))))))))))))))))))))))))))))))))))))))))))))))))))))))))))))))))))))))))))
    ∗ semVal (cell c (cpJ 24)) 0
    ∗ oPts c (lo 9 0 c) 168 fullShare (Gd m (org 9 0 c))
    ∗ sPts c (lo 9 0 c) 168 fullShare (Gd m (org 9 0 c))
    ∗ semVal (cell c (cpJ 25)) 0
    ∗ oPts c (lo 8 0 c) 168 fullShare (Gd m (org 8 0 c))
    ∗ sPts c (lo 8 0 c) 168 fullShare (Gd m (org 8 0 c))
    ∗ semVal (cell c (cpJ 26)) 0
    ∗ oPts c (lo 9 1 c) 168 fullShare (Gd m (org 9 1 c))
    ∗ sPts c (lo 9 1 c) 168 fullShare (Gd m (org 9 1 c))
    ∗ semVal (cell c (cpJ 27)) 0
    ∗ oPts c (lo 8 1 c) 168 fullShare (Gd m (org 8 1 c))
    ∗ sPts c (lo 8 1 c) 168 fullShare (Gd m (org 8 1 c))
    ∗ semVal (cell c (cpJ 28)) 0
    ∗ oPts c (lo 9 2 c) 168 fullShare (Gd m (org 9 2 c))
    ∗ sPts c (lo 9 2 c) 168 fullShare (Gd m (org 9 2 c))
    ∗ semVal (cell c (cpJ 29)) 0
    ∗ oPts c (lo 8 2 c) 168 fullShare (Gd m (org 8 2 c))
    ∗ sPts c (lo 8 2 c) 168 fullShare (Gd m (org 8 2 c))
    ∗ semVal (cell c (cpJ 31)) 0
    ∗ oPts c (2048 * (c.val % 4)) 2048 fullShare (Gd m c)
    ∗ xPts m c 0 2048 fullShare.left)

end Cert.Kernel.AG

end
-- ==== Proof.Bits.Offsets.lean ====
/-
  The devices a transfer addresses and the rows it moves, in closed form.

  A device's id is c = 8 x + 4 y + z.  Every device id the program computes is one of the four peers of the device
  executing, and every row offset it computes is the start of a band of rows 2048 zb + 512 k + s: block zb of four,
  quarter k of four inside the block, start s inside the quarter.  The blocks and quarters that occur are those of the
  device itself and of its peers, shifted round the ring by the hop.
-/
import proofs.«900685_g7700000000000686_dist_ag_v7x_xyz2x2x4_z_m2048_n512_f32_1_alg».proof.Proof.Bits.Bands

set_option Elab.async false

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## The devices addressed -/

theorem dev1_eq (c : Dev nD) : (⟨k0_dev1 c, k0_dev1_lt c⟩ : Dev nD) = peer 0 c := by revert c; decide +kernel
theorem dev2_eq (c : Dev nD) : (⟨k0_dev2 c, k0_dev2_lt c⟩ : Dev nD) = peer 1 c := by revert c; decide +kernel
theorem dev3_eq (c : Dev nD) : (⟨k0_dev3 c, k0_dev3_lt c⟩ : Dev nD) = peer 2 c := by revert c; decide +kernel
theorem dev4_eq (c : Dev nD) : (⟨k0_dev4 c, k0_dev4_lt c⟩ : Dev nD) = peer 3 c := by revert c; decide +kernel
theorem dev5_eq (c : Dev nD) : (⟨k0_dev5 c, k0_dev5_lt c⟩ : Dev nD) = peer 1 c := by revert c; decide +kernel
theorem dev6_eq (c : Dev nD) : (⟨k0_dev6 c, k0_dev6_lt c⟩ : Dev nD) = peer 0 c := by revert c; decide +kernel
theorem dev7_eq (c : Dev nD) : (⟨k0_dev7 c, k0_dev7_lt c⟩ : Dev nD) = peer 1 c := by revert c; decide +kernel
theorem dev8_eq (c : Dev nD) : (⟨k0_dev8 c, k0_dev8_lt c⟩ : Dev nD) = peer 0 c := by revert c; decide +kernel
theorem dev9_eq (c : Dev nD) : (⟨k0_dev9 c, k0_dev9_lt c⟩ : Dev nD) = peer 1 c := by revert c; decide +kernel
theorem dev10_eq (c : Dev nD) : (⟨k0_dev10 c, k0_dev10_lt c⟩ : Dev nD) = peer 2 c := by revert c; decide +kernel
theorem dev11_eq (c : Dev nD) : (⟨k0_dev11 c, k0_dev11_lt c⟩ : Dev nD) = peer 3 c := by revert c; decide +kernel
theorem dev12_eq (c : Dev nD) : (⟨k0_dev12 c, k0_dev12_lt c⟩ : Dev nD) = peer 0 c := by revert c; decide +kernel
theorem dev13_eq (c : Dev nD) : (⟨k0_dev13 c, k0_dev13_lt c⟩ : Dev nD) = peer 2 c := by revert c; decide +kernel
theorem dev14_eq (c : Dev nD) : (⟨k0_dev14 c, k0_dev14_lt c⟩ : Dev nD) = peer 3 c := by revert c; decide +kernel
theorem dev15_eq (c : Dev nD) : (⟨k0_dev15 c, k0_dev15_lt c⟩ : Dev nD) = peer 1 c := by revert c; decide +kernel
theorem dev16_eq (c : Dev nD) : (⟨k0_dev16 c, k0_dev16_lt c⟩ : Dev nD) = peer 0 c := by revert c; decide +kernel
theorem dev17_eq (c : Dev nD) : (⟨k0_dev17 c, k0_dev17_lt c⟩ : Dev nD) = peer 2 c := by revert c; decide +kernel
theorem dev18_eq (c : Dev nD) : (⟨k0_dev18 c, k0_dev18_lt c⟩ : Dev nD) = peer 3 c := by revert c; decide +kernel
theorem dev19_eq (c : Dev nD) : (⟨k0_dev19 c, k0_dev19_lt c⟩ : Dev nD) = peer 1 c := by revert c; decide +kernel
theorem dev20_eq (c : Dev nD) : (⟨k0_dev20 c, k0_dev20_lt c⟩ : Dev nD) = peer 2 c := by revert c; decide +kernel
theorem dev21_eq (c : Dev nD) : (⟨k0_dev21 c, k0_dev21_lt c⟩ : Dev nD) = peer 3 c := by revert c; decide +kernel
theorem dev22_eq (c : Dev nD) : (⟨k0_dev22 c, k0_dev22_lt c⟩ : Dev nD) = peer 0 c := by revert c; decide +kernel
theorem dev23_eq (c : Dev nD) : (⟨k0_dev23 c, k0_dev23_lt c⟩ : Dev nD) = peer 2 c := by revert c; decide +kernel
theorem dev24_eq (c : Dev nD) : (⟨k0_dev24 c, k0_dev24_lt c⟩ : Dev nD) = peer 3 c := by revert c; decide +kernel
theorem dev25_eq (c : Dev nD) : (⟨k0_dev25 c, k0_dev25_lt c⟩ : Dev nD) = peer 1 c := by revert c; decide +kernel
theorem dev26_eq (c : Dev nD) : (⟨k0_dev26 c, k0_dev26_lt c⟩ : Dev nD) = peer 0 c := by revert c; decide +kernel
theorem dev27_eq (c : Dev nD) : (⟨k0_dev27 c, k0_dev27_lt c⟩ : Dev nD) = peer 2 c := by revert c; decide +kernel
theorem dev28_eq (c : Dev nD) : (⟨k0_dev28 c, k0_dev28_lt c⟩ : Dev nD) = peer 3 c := by revert c; decide +kernel
theorem dev29_eq (c : Dev nD) : (⟨k0_dev29 c, k0_dev29_lt c⟩ : Dev nD) = peer 2 c := by revert c; decide +kernel
theorem dev30_eq (c : Dev nD) : (⟨k0_dev30 c, k0_dev30_lt c⟩ : Dev nD) = peer 3 c := by revert c; decide +kernel
theorem dev31_eq (c : Dev nD) : (⟨k0_dev31 c, k0_dev31_lt c⟩ : Dev nD) = peer 2 c := by revert c; decide +kernel
theorem dev32_eq (c : Dev nD) : (⟨k0_dev32 c, k0_dev32_lt c⟩ : Dev nD) = peer 3 c := by revert c; decide +kernel
theorem dev33_eq (c : Dev nD) : (⟨k0_dev33 c, k0_dev33_lt c⟩ : Dev nD) = peer 2 c := by revert c; decide +kernel
theorem dev34_eq (c : Dev nD) : (⟨k0_dev34 c, k0_dev34_lt c⟩ : Dev nD) = peer 3 c := by revert c; decide +kernel

/-! ## The rows moved -/

/-- The six bands of quarter `k` a device touches before and during the first two hops: its own block's two halves,
    then the blocks arriving from below (first half) and from above (second half) at hops 0 and 1. -/
def ownBand (k : ℕ) (c : Dev nD) (r : Fin 6) : ℕ :=
  match r with
  | 0 => band (c.val % 4) k 0
  | 1 => band (c.val % 4) k 256
  | 2 => band (zA 0 c) k 0
  | 3 => band (zB 0 c) k 256
  | 4 => band (zA 1 c) k 0
  | 5 => band (zB 1 c) k 256

theorem off1_eq (c : Dev nD) (r : Fin 6) :
    k0_off1 c (k0_off1_at r).1 (k0_off1_at r).2 = ![ownBand (qq c) c r, 0] := by revert c r; decide +kernel
theorem off1_eq_0_0 (c : Dev nD) : k0_off1 c 0#32 0#32 = ![band (c.val % 4) (qq c) 0, 0] := off1_eq c 0
theorem off1_eq_0_256 (c : Dev nD) : k0_off1 c 0#32 256#32 = ![band (c.val % 4) (qq c) 256, 0] := off1_eq c 1
theorem off1_eq_m1_0 (c : Dev nD) : k0_off1 c 4294967295#32 0#32 = ![band (zA 0 c) (qq c) 0, 0] := off1_eq c 2
theorem off1_eq_1_256 (c : Dev nD) : k0_off1 c 1#32 256#32 = ![band (zB 0 c) (qq c) 256, 0] := off1_eq c 3
theorem off1_eq_m2_0 (c : Dev nD) : k0_off1 c 4294967294#32 0#32 = ![band (zA 1 c) (qq c) 0, 0] := off1_eq c 4
theorem off1_eq_2_256 (c : Dev nD) : k0_off1 c 2#32 256#32 = ![band (zB 1 c) (qq c) 256, 0] := off1_eq c 5

theorem off3_eq (c : Dev nD) (r : Fin 6) :
    k0_off3 c (k0_off3_at r).1 (k0_off3_at r).2 = ![ownBand (qd c) c r, 0] := by revert c r; decide +kernel
theorem off3_eq_0_0 (c : Dev nD) : k0_off3 c 0#32 0#32 = ![band (c.val % 4) (qd c) 0, 0] := off3_eq c 0
theorem off3_eq_0_256 (c : Dev nD) : k0_off3 c 0#32 256#32 = ![band (c.val % 4) (qd c) 256, 0] := off3_eq c 1
theorem off3_eq_m1_0 (c : Dev nD) : k0_off3 c 4294967295#32 0#32 = ![band (zA 0 c) (qd c) 0, 0] := off3_eq c 2
theorem off3_eq_1_256 (c : Dev nD) : k0_off3 c 1#32 256#32 = ![band (zB 0 c) (qd c) 256, 0] := off3_eq c 3
theorem off3_eq_m2_0 (c : Dev nD) : k0_off3 c 4294967294#32 0#32 = ![band (zA 1 c) (qd c) 0, 0] := off3_eq c 4
theorem off3_eq_2_256 (c : Dev nD) : k0_off3 c 2#32 256#32 = ![band (zB 1 c) (qd c) 256, 0] := off3_eq c 5

theorem off2_eq (c : Dev nD) (r : Fin 2) :
    k0_off2 c (BitVec.ofNat 32 (256 * r.val)) = ![512 * qq c + 256 * r.val, 0] := by revert c r; decide +kernel
theorem off2_eq_0 (c : Dev nD) : k0_off2 c 0#32 = ![512 * qq c, 0] := off2_eq c 0
theorem off2_eq_256 (c : Dev nD) : k0_off2 c 256#32 = ![512 * qq c + 256, 0] := off2_eq c 1

theorem off4_eq (c : Dev nD) (r : Fin 2) :
    k0_off4 c (BitVec.ofNat 32 (256 * r.val)) = ![512 * qd c + 256 * r.val, 0] := by revert c r; decide +kernel
theorem off4_eq_0 (c : Dev nD) : k0_off4 c 0#32 = ![512 * qd c, 0] := off4_eq c 0
theorem off4_eq_256 (c : Dev nD) : k0_off4 c 256#32 = ![512 * qd c + 256, 0] := off4_eq c 1

theorem off5_eq (c : Dev nD) : k0_off5 c = ![2048 * (c.val % 4), 0] := by revert c; decide +kernel

theorem off6_eq (c : Dev nD) (h : Fin 3) :
    k0_off6 c (BitVec.ofNat 32 h.val) = ![band (zA h.val c) (qq c) 0, 0] := by revert c h; decide +kernel
theorem off6_eq_0 (c : Dev nD) : k0_off6 c 0#32 = ![band (zA 0 c) (qq c) 0, 0] := off6_eq c 0
theorem off6_eq_1 (c : Dev nD) : k0_off6 c 1#32 = ![band (zA 1 c) (qq c) 0, 0] := off6_eq c 1
theorem off6_eq_2 (c : Dev nD) : k0_off6 c 2#32 = ![band (zA 2 c) (qq c) 0, 0] := off6_eq c 2

theorem off7_eq (c : Dev nD) (h : Fin 3) :
    k0_off7 c (BitVec.ofNat 32 h.val) = ![band (zB h.val c) (qq c) 256, 0] := by revert c h; decide +kernel
theorem off7_eq_0 (c : Dev nD) : k0_off7 c 0#32 = ![band (zB 0 c) (qq c) 256, 0] := off7_eq c 0
theorem off7_eq_1 (c : Dev nD) : k0_off7 c 1#32 = ![band (zB 1 c) (qq c) 256, 0] := off7_eq c 1
theorem off7_eq_2 (c : Dev nD) : k0_off7 c 2#32 = ![band (zB 2 c) (qq c) 256, 0] := off7_eq c 2

theorem off8_eq (c : Dev nD) (h : Fin 3) :
    k0_off8 c (BitVec.ofNat 32 h.val) = ![band (zA h.val c) (qd c) 0, 0] := by revert c h; decide +kernel
theorem off8_eq_0 (c : Dev nD) : k0_off8 c 0#32 = ![band (zA 0 c) (qd c) 0, 0] := off8_eq c 0
theorem off8_eq_1 (c : Dev nD) : k0_off8 c 1#32 = ![band (zA 1 c) (qd c) 0, 0] := off8_eq c 1
theorem off8_eq_2 (c : Dev nD) : k0_off8 c 2#32 = ![band (zA 2 c) (qd c) 0, 0] := off8_eq c 2

theorem off9_eq (c : Dev nD) (h : Fin 3) :
    k0_off9 c (BitVec.ofNat 32 h.val) = ![band (zB h.val c) (qd c) 256, 0] := by revert c h; decide +kernel
theorem off9_eq_0 (c : Dev nD) : k0_off9 c 0#32 = ![band (zB 0 c) (qd c) 256, 0] := off9_eq c 0
theorem off9_eq_1 (c : Dev nD) : k0_off9 c 1#32 = ![band (zB 1 c) (qd c) 256, 0] := off9_eq c 1
theorem off9_eq_2 (c : Dev nD) : k0_off9 c 2#32 = ![band (zB 2 c) (qd c) 256, 0] := off9_eq c 2

theorem off10_eq (c : Dev nD) (h : Fin 3) :
    k0_off10 c (BitVec.ofNat 32 h.val) = ![band (zA h.val c) (qy c) 0, 0] := by revert c h; decide +kernel
theorem off10_eq_0 (c : Dev nD) : k0_off10 c 0#32 = ![band (zA 0 c) (qy c) 0, 0] := off10_eq c 0
theorem off10_eq_1 (c : Dev nD) : k0_off10 c 1#32 = ![band (zA 1 c) (qy c) 0, 0] := off10_eq c 1
theorem off10_eq_2 (c : Dev nD) : k0_off10 c 2#32 = ![band (zA 2 c) (qy c) 0, 0] := off10_eq c 2

theorem off11_eq (c : Dev nD) (h : Fin 3) :
    k0_off11 c (BitVec.ofNat 32 h.val) = ![band (zA h.val c) (qy c) 88, 0] := by revert c h; decide +kernel
theorem off11_eq_0 (c : Dev nD) : k0_off11 c 0#32 = ![band (zA 0 c) (qy c) 88, 0] := off11_eq c 0
theorem off11_eq_1 (c : Dev nD) : k0_off11 c 1#32 = ![band (zA 1 c) (qy c) 88, 0] := off11_eq c 1
theorem off11_eq_2 (c : Dev nD) : k0_off11 c 2#32 = ![band (zA 2 c) (qy c) 88, 0] := off11_eq c 2

theorem off12_eq (c : Dev nD) (h : Fin 3) :
    k0_off12 c (BitVec.ofNat 32 h.val) = ![band (zB h.val c) (qx c) 256, 0] := by revert c h; decide +kernel
theorem off12_eq_0 (c : Dev nD) : k0_off12 c 0#32 = ![band (zB 0 c) (qx c) 256, 0] := off12_eq c 0
theorem off12_eq_1 (c : Dev nD) : k0_off12 c 1#32 = ![band (zB 1 c) (qx c) 256, 0] := off12_eq c 1
theorem off12_eq_2 (c : Dev nD) : k0_off12 c 2#32 = ![band (zB 2 c) (qx c) 256, 0] := off12_eq c 2

theorem off13_eq (c : Dev nD) (h : Fin 3) :
    k0_off13 c (BitVec.ofNat 32 h.val) = ![band (zB h.val c) (qx c) 344, 0] := by revert c h; decide +kernel
theorem off13_eq_0 (c : Dev nD) : k0_off13 c 0#32 = ![band (zB 0 c) (qx c) 344, 0] := off13_eq c 0
theorem off13_eq_1 (c : Dev nD) : k0_off13 c 1#32 = ![band (zB 1 c) (qx c) 344, 0] := off13_eq c 1
theorem off13_eq_2 (c : Dev nD) : k0_off13 c 2#32 = ![band (zB 2 c) (qx c) 344, 0] := off13_eq c 2

theorem off14_eq (c : Dev nD) (h : Fin 3) :
    k0_off14 c (BitVec.ofNat 32 h.val) = ![band (zA h.val c) (qx c) 0, 0] := by revert c h; decide +kernel
theorem off14_eq_0 (c : Dev nD) : k0_off14 c 0#32 = ![band (zA 0 c) (qx c) 0, 0] := off14_eq c 0
theorem off14_eq_1 (c : Dev nD) : k0_off14 c 1#32 = ![band (zA 1 c) (qx c) 0, 0] := off14_eq c 1
theorem off14_eq_2 (c : Dev nD) : k0_off14 c 2#32 = ![band (zA 2 c) (qx c) 0, 0] := off14_eq c 2

theorem off15_eq (c : Dev nD) (h : Fin 3) :
    k0_off15 c (BitVec.ofNat 32 h.val) = ![band (zB h.val c) (qy c) 256, 0] := by revert c h; decide +kernel
theorem off15_eq_0 (c : Dev nD) : k0_off15 c 0#32 = ![band (zB 0 c) (qy c) 256, 0] := off15_eq c 0
theorem off15_eq_1 (c : Dev nD) : k0_off15 c 1#32 = ![band (zB 1 c) (qy c) 256, 0] := off15_eq c 1
theorem off15_eq_2 (c : Dev nD) : k0_off15 c 2#32 = ![band (zB 2 c) (qy c) 256, 0] := off15_eq c 2

theorem off16_eq (c : Dev nD) (h : Fin 3) :
    k0_off16 c (BitVec.ofNat 32 h.val) = ![band (zA h.val c) (qd c) 88, 0] := by revert c h; decide +kernel
theorem off16_eq_0 (c : Dev nD) : k0_off16 c 0#32 = ![band (zA 0 c) (qd c) 88, 0] := off16_eq c 0
theorem off16_eq_1 (c : Dev nD) : k0_off16 c 1#32 = ![band (zA 1 c) (qd c) 88, 0] := off16_eq c 1
theorem off16_eq_2 (c : Dev nD) : k0_off16 c 2#32 = ![band (zA 2 c) (qd c) 88, 0] := off16_eq c 2

theorem off17_eq (c : Dev nD) (h : Fin 3) :
    k0_off17 c (BitVec.ofNat 32 h.val) = ![band (zB h.val c) (qd c) 344, 0] := by revert c h; decide +kernel
theorem off17_eq_0 (c : Dev nD) : k0_off17 c 0#32 = ![band (zB 0 c) (qd c) 344, 0] := off17_eq c 0
theorem off17_eq_1 (c : Dev nD) : k0_off17 c 1#32 = ![band (zB 1 c) (qd c) 344, 0] := off17_eq c 1
theorem off17_eq_2 (c : Dev nD) : k0_off17 c 2#32 = ![band (zB 2 c) (qd c) 344, 0] := off17_eq c 2

/-! ## Bands seen from a peer

A transfer's source rows on the sender and its landing rows on the receiver are the same rows: the block and the
quarter a device names for a piece are the ones its peer names for it, one hop later round the ring and at the same hop
across x or y. -/

theorem peer0_mod4 (c : Dev nD) : (peer 0 c).val % 4 = (c.val % 4 + 3) % 4 := by revert c; decide
theorem peer1_mod4 (c : Dev nD) : (peer 1 c).val % 4 = (c.val % 4 + 1) % 4 := by revert c; decide
theorem peer2_mod4 (c : Dev nD) : (peer 2 c).val % 4 = c.val % 4 := by revert c; decide
theorem peer3_mod4 (c : Dev nD) : (peer 3 c).val % 4 = c.val % 4 := by revert c; decide

/-- The block arriving from below at hop `h` is the one that arrived at the neighbour above one hop later. -/
theorem zA_up (h : ℕ) (hh : h < 3) (c : Dev nD) : zA (h + 1) (peer 1 c) = zA h c := by
  obtain rfl | rfl | rfl : h = 0 ∨ h = 1 ∨ h = 2 := by omega
  all_goals (revert c; decide)
theorem zA_up_0 (c : Dev nD) : zA 1 (peer 1 c) = zA 0 c := zA_up 0 (by decide) c
theorem zA_up_1 (c : Dev nD) : zA 2 (peer 1 c) = zA 1 c := zA_up 1 (by decide) c

/-- The block arriving from above at hop `h` is the one that arrived at the neighbour below one hop later. -/
theorem zB_down (h : ℕ) (c : Dev nD) : zB (h + 1) (peer 0 c) = zB h c := by
  unfold zB; rw [peer0_mod4]; omega
theorem zB_down_0 (c : Dev nD) : zB 1 (peer 0 c) = zB 0 c := zB_down 0 c
theorem zB_down_1 (c : Dev nD) : zB 2 (peer 0 c) = zB 1 c := zB_down 1 c

/-- A device's own block is the first to arrive at its neighbour above from below, and at its neighbour below from
    above. -/
theorem zA0_peer1 (c : Dev nD) : zA 0 (peer 1 c) = c.val % 4 := by revert c; decide
theorem zB0_peer0 (c : Dev nD) : zB 0 (peer 0 c) = c.val % 4 := by revert c; decide

theorem zA_peer2 (h : ℕ) (c : Dev nD) : zA h (peer 2 c) = zA h c := by unfold zA; rw [peer2_mod4]
theorem zA_peer3 (h : ℕ) (c : Dev nD) : zA h (peer 3 c) = zA h c := by unfold zA; rw [peer3_mod4]
theorem zB_peer2 (h : ℕ) (c : Dev nD) : zB h (peer 2 c) = zB h c := by unfold zB; rw [peer2_mod4]
theorem zB_peer3 (h : ℕ) (c : Dev nD) : zB h (peer 3 c) = zB h c := by unfold zB; rw [peer3_mod4]

theorem qq_peer0 (c : Dev nD) : qq (peer 0 c) = qq c := by revert c; decide
theorem qq_peer1 (c : Dev nD) : qq (peer 1 c) = qq c := by revert c; decide
theorem qx_peer0 (c : Dev nD) : qx (peer 0 c) = qx c := by revert c; decide
theorem qx_peer1 (c : Dev nD) : qx (peer 1 c) = qx c := by revert c; decide
theorem qy_peer0 (c : Dev nD) : qy (peer 0 c) = qy c := by revert c; decide
theorem qy_peer1 (c : Dev nD) : qy (peer 1 c) = qy c := by revert c; decide
theorem qd_peer0 (c : Dev nD) : qd (peer 0 c) = qd c := by revert c; decide
theorem qd_peer1 (c : Dev nD) : qd (peer 1 c) = qd c := by revert c; decide

theorem qx_peer2 (c : Dev nD) : qx (peer 2 c) = qq c := by revert c; decide
theorem qq_peer2 (c : Dev nD) : qq (peer 2 c) = qx c := by revert c; decide
theorem qy_peer3 (c : Dev nD) : qy (peer 3 c) = qq c := by revert c; decide
theorem qq_peer3 (c : Dev nD) : qq (peer 3 c) = qy c := by revert c; decide
theorem qd_peer2 (c : Dev nD) : qd (peer 2 c) = qy c := by revert c; decide
theorem qd_peer3 (c : Dev nD) : qd (peer 3 c) = qx c := by revert c; decide
theorem qy_peer2 (c : Dev nD) : qy (peer 2 c) = qd c := by revert c; decide
theorem qx_peer3 (c : Dev nD) : qx (peer 3 c) = qd c := by revert c; decide

end Cert.Kernel.AG

end
-- ==== Proof.Bits.Regions.lean ====
/-
  Row bands of the buffers as index sets, and ownership of bands split and joined.

  Contents.  A slice of the scratch array, of the result or of the staged block taken at row offset a with n rows
  and all 512 columns covers exactly the rows a ≤ r < a + n.  Bands of rows are contained in one another, disjoint,
  and joined as their bounds say.  Ownership of a band splits along the share and along the rows, and joins back.
  What a transfer between two bands of equal height leaves in the destination band is the source band's contents,
  row by row.
-/
import proofs.«900685_g7700000000000686_dist_ag_v7x_xyz2x2x4_z_m2048_n512_f32_1_alg».proof.Proof.Bits.Sched
import proofs.«900685_g7700000000000686_dist_ag_v7x_xyz2x2x4_z_m2048_n512_f32_1_alg».proof.Proof.Bits.Offsets

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Bands of rows, compared -/

theorem Rows_sub {a n a' n' : ℕ} (h : a ≤ a' ∧ a' + n' ≤ a + n) : Rows a' n' ⊆ Rows a n := by
  intro i hi; rw [mem_Rows] at hi ⊢; omega

theorem Rows_disjoint {a n a' n' : ℕ} (h : a + n ≤ a') : Disjoint (Rows a n) (Rows a' n') := by
  rw [Finset.disjoint_left]; intro i hi hj; rw [mem_Rows] at hi hj; omega

theorem Rows_union (a n₁ n₂ : ℕ) : Rows a n₁ ∪ Rows (a + n₁) n₂ = Rows a (n₁ + n₂) := by
  ext i; rw [Finset.mem_union, mem_Rows, mem_Rows, mem_Rows]; omega

theorem Rows_sdiff_left (a n₁ n₂ : ℕ) : Rows a (n₁ + n₂) \ Rows a n₁ = Rows (a + n₁) n₂ := by
  ext i; rw [Finset.mem_sdiff, mem_Rows, mem_Rows, mem_Rows]; omega

theorem Rows_univ : Rows 0 8192 = Finset.univ := by
  ext i
  have h : (i 0).val < 8192 := (i 0).isLt
  rw [mem_Rows]; exact ⟨fun _ => Finset.mem_univ _, fun _ => ⟨Nat.zero_le _, by omega⟩⟩

theorem BRows_sub {a n a' n' : ℕ} (h : a ≤ a' ∧ a' + n' ≤ a + n) : BRows a' n' ⊆ BRows a n := by
  intro i hi; rw [mem_BRows] at hi ⊢; omega

theorem BRows_disjoint {a n a' n' : ℕ} (h : a + n ≤ a') : Disjoint (BRows a n) (BRows a' n') := by
  rw [Finset.disjoint_left]; intro i hi hj; rw [mem_BRows] at hi hj; omega

theorem BRows_union (a n₁ n₂ : ℕ) : BRows a n₁ ∪ BRows (a + n₁) n₂ = BRows a (n₁ + n₂) := by
  ext i; rw [Finset.mem_union, mem_BRows, mem_BRows, mem_BRows]; omega

theorem BRows_sdiff_left (a n₁ n₂ : ℕ) : BRows a (n₁ + n₂) \ BRows a n₁ = BRows (a + n₁) n₂ := by
  ext i; rw [Finset.mem_sdiff, mem_BRows, mem_BRows, mem_BRows]; omega

theorem BRows_univ : BRows 0 2048 = Finset.univ := by
  ext i
  have h : (i 0).val < 2048 := (i 0).isLt
  rw [mem_BRows]; exact ⟨fun _ => Finset.mem_univ _, fun _ => ⟨Nat.zero_le _, by omega⟩⟩

/-! ## The rows a slice covers -/

/-- The rows of a rectangle of an 8192-row buffer that starts at row `a`, column 0, and has `n` rows of 512. -/
theorem mem_unit_rows {a n : ℕ} {off sz : Fin 2 → ℕ} (h : off = ![a, 0]) (hz : sz = ![n, 512])
    (inb : ∀ x, off x + sz x ≤ S8192x512.size x) (i : S8192x512.Idx) :
    i ∈ (Rect.unit (s := S8192x512) off sz inb).set ↔ i ∈ Rows a n := by
  subst h; subst hz
  rw [Rect.mem_set_unit, mem_Rows, Fin.forall_fin_two]
  have h1 : (i 1).val < 512 := (i 1).isLt
  show (a ≤ (i 0).val ∧ (i 0).val < a + n) ∧ (0 ≤ (i 1).val ∧ (i 1).val < 0 + 512) ↔ _
  omega

/-- The same of a rectangle of the 2048-row block. -/
theorem mem_unit_brows {a n : ℕ} {off sz : Fin 2 → ℕ} (h : off = ![a, 0]) (hz : sz = ![n, 512])
    (inb : ∀ x, off x + sz x ≤ S2048x512.size x) (i : S2048x512.Idx) :
    i ∈ (Rect.unit (s := S2048x512) off sz inb).set ↔ i ∈ BRows a n := by
  subst h; subst hz
  rw [Rect.mem_set_unit, mem_BRows, Fin.forall_fin_two]
  have h1 : (i 1).val < 512 := (i 1).isLt
  show (a ≤ (i 0).val ∧ (i 0).val < a + n) ∧ (0 ≤ (i 1).val ∧ (i 1).val < 0 + 512) ↔ _
  omega

/-- A slice of the scratch array at row `a` with `n` rows covers rows `a ≤ r < a + n`. -/
theorem slice_set_stage {a n : ℕ} {off sz : Fin 2 → ℕ} (h : off = ![a, 0]) (hz : sz = ![n, 512])
    (inb : ∀ x, off x + sz x ≤ S8192x512.size x) (hs) :
    ((Memref.whole cc0_scratch0 : Memref sig .tc .vmem S8192x512 .f32).slice
      (Rect.unit (s := S8192x512) off sz inb) hs).view.set = Rows a n := by
  show ((View.whole cc0_scratch0).slice (Rect.unit (s := S8192x512) off sz inb)).set = Rows a n
  rw [View.set_slice_whole]
  exact Finset.ext fun i => mem_unit_rows h hz inb i

/-- A slice of the result at row `a` with `n` rows covers rows `a ≤ r < a + n`. -/
theorem slice_set_out {a n : ℕ} {off sz : Fin 2 → ℕ} (h : off = ![a, 0]) (hz : sz = ![n, 512])
    (inb : ∀ x, off x + sz x ≤ S8192x512.size x) (hs) :
    ((Memref.whole main_v1 : Memref sig .tc .hbm S8192x512 .f32).slice
      (Rect.unit (s := S8192x512) off sz inb) hs).view.set = Rows a n := by
  show ((View.whole main_v1).slice (Rect.unit (s := S8192x512) off sz inb)).set = Rows a n
  rw [View.set_slice_whole]
  exact Finset.ext fun i => mem_unit_rows h hz inb i

/-- A slice of the staged block at row `a` with `n` rows covers rows `a ≤ r < a + n`. -/
theorem slice_set_blk {a n : ℕ} {off sz : Fin 2 → ℕ} (h : off = ![a, 0]) (hz : sz = ![n, 512])
    (inb : ∀ x, off x + sz x ≤ S2048x512.size x) (hs) :
    ((Memref.whole cc0_stg0_0 : Memref sig .tc .vmem S2048x512 .f32).slice
      (Rect.unit (s := S2048x512) off sz inb) hs).view.set = BRows a n := by
  show ((View.whole cc0_stg0_0).slice (Rect.unit (s := S2048x512) off sz inb)).set = BRows a n
  rw [View.set_slice_whole]
  exact Finset.ext fun i => mem_unit_brows h hz inb i

/-- The whole staged block covers all its rows. -/
theorem whole_set_blk :
    (Memref.whole cc0_stg0_0 : Memref sig .tc .vmem S2048x512 .f32).view.set = BRows 0 2048 := by
  rw [BRows_univ]; exact View.set_whole cc0_stg0_0

/-- A slice lives where its buffer does. -/
theorem slice_loc_stage (c : Dev nD) (r : Rect S8192x512) (hs) :
    ((Memref.whole cc0_scratch0 : Memref sig .tc .vmem S8192x512 .f32).slice r hs).view.loc (c : Thread nD τ)
      = (c : Thread nD τ).loc cc0_scratch0 := rfl
theorem slice_loc_out (c : Dev nD) (r : Rect S8192x512) (hs) :
    ((Memref.whole main_v1 : Memref sig .tc .hbm S8192x512 .f32).slice r hs).view.loc (c : Thread nD τ)
      = (c : Thread nD τ).loc main_v1 := rfl
theorem slice_loc_blk (c : Dev nD) (r : Rect S2048x512) (hs) :
    ((Memref.whole cc0_stg0_0 : Memref sig .tc .vmem S2048x512 .f32).slice r hs).view.loc (c : Thread nD τ)
      = (c : Thread nD τ).loc cc0_stg0_0 := rfl
theorem whole_loc_blk (c : Dev nD) :
    (Memref.whole cc0_stg0_0 : Memref sig .tc .vmem S2048x512 .f32).view.loc (c : Thread nD τ)
      = (c : Thread nD τ).loc cc0_stg0_0 := rfl

/-! ## Ownership of bands, split and joined -/

omit [FloatOps F] in
/-- Ownership of a band of the scratch array splits along the share. -/
theorem sPts_share (c : Dev nD) (a n : ℕ) (q : PosShare TreeShare) (X : (cc0_scratch0 : Ref sig .tc).ty.Contents (Elt F)) :
    sPts c a n q X ⊣⊢ iprop(sPts c a n q.left X ∗ sPts c a n q.right X) := by
  unfold sPts; exact Region.is_share (PosShare.mem_left_op_right q)

omit [FloatOps F] in
/-- Ownership of a band of the scratch array splits along the rows. -/
theorem sPts_rows (c : Dev nD) (a n₁ n₂ : ℕ) (q : PosShare TreeShare) (X : (cc0_scratch0 : Ref sig .tc).ty.Contents (Elt F)) :
    sPts c a (n₁ + n₂) q X ⊣⊢ iprop(sPts c a n₁ q X ∗ sPts c (a + n₁) n₂ q X) := by
  unfold sPts; rw [← Rows_union]; exact Region.is_union (Rows_disjoint (Nat.le_refl _))

omit [FloatOps F] in
/-- Only the contents inside the band matter. -/
theorem sPts_congr {c : Dev nD} {a n : ℕ} {q : PosShare TreeShare} {X Y : (cc0_scratch0 : Ref sig .tc).ty.Contents (Elt F)}
    (h : ∀ i ∈ Rows a n, X i = Y i) : sPts c a n q X = sPts c a n q Y := by
  unfold sPts; exact Region.is_congr h

omit [FloatOps F] in
/-- Two adjacent bands at different contents join into one band, at the contents of each on its rows. -/
theorem sPts_join (c : Dev nD) (a n₁ n₂ : ℕ) (q : PosShare TreeShare) (X Y : (cc0_scratch0 : Ref sig .tc).ty.Contents (Elt F)) :
    iprop(sPts c a n₁ q X ∗ sPts c (a + n₁) n₂ q Y) ⊢ sPts c a (n₁ + n₂) q ((Rows (a + n₁) n₂).piecewise Y X) := by
  unfold sPts; rw [← Rows_union]; exact Region.is_join (Rows_disjoint (Nat.le_refl _))

omit [FloatOps F] in
theorem sPts_join_any (c : Dev nD) (a n₁ n₂ : ℕ) (q : PosShare TreeShare) (X Y : (cc0_scratch0 : Ref sig .tc).ty.Contents (Elt F)) :
    iprop(sPts c a n₁ q X ∗ sPts c (a + n₁) n₂ q Y) ⊢ iprop(∃ Z, sPts c a (n₁ + n₂) q Z) :=
  (sPts_join c a n₁ n₂ q X Y).trans (exists_intro (Φ := fun Z => sPts c a (n₁ + n₂) q Z) _)

omit [FloatOps F] in
/-- The whole scratch array is its band of all rows. -/
theorem whole_stage_eq (c : Dev nD) (q : PosShare TreeShare) (f : (cc0_scratch0 : Ref sig .tc).ty.Contents (Elt F)) :
    (((c : Thread nD τ).loc cc0_scratch0) ↦{q} f : sProp 𝕄) = sPts c 0 8192 q f := by
  unfold sPts; rw [Rows_univ]

omit [FloatOps F] in
theorem whole_stage (c : Dev nD) (f : (cc0_scratch0 : Ref sig .tc).ty.Contents (Elt F)) :
    (((c : Thread nD τ).loc cc0_scratch0) ↦{fullShare} f : sProp 𝕄) ⊣⊢ sPts c 0 8192 fullShare f :=
  .of_eq (whole_stage_eq c fullShare f)

omit [FloatOps F] in
/-- Ownership of a band of the result splits along the share. -/
theorem oPts_share (c : Dev nD) (a n : ℕ) (q : PosShare TreeShare) (X : (main_v1 : Ref sig .tc).ty.Contents (Elt F)) :
    oPts c a n q X ⊣⊢ iprop(oPts c a n q.left X ∗ oPts c a n q.right X) := by
  unfold oPts; exact Region.is_share (PosShare.mem_left_op_right q)

omit [FloatOps F] in
/-- Ownership of a band of the result splits along the rows. -/
theorem oPts_rows (c : Dev nD) (a n₁ n₂ : ℕ) (q : PosShare TreeShare) (X : (main_v1 : Ref sig .tc).ty.Contents (Elt F)) :
    oPts c a (n₁ + n₂) q X ⊣⊢ iprop(oPts c a n₁ q X ∗ oPts c (a + n₁) n₂ q X) := by
  unfold oPts; rw [← Rows_union]; exact Region.is_union (Rows_disjoint (Nat.le_refl _))

omit [FloatOps F] in
theorem oPts_congr {c : Dev nD} {a n : ℕ} {q : PosShare TreeShare} {X Y : (main_v1 : Ref sig .tc).ty.Contents (Elt F)}
    (h : ∀ i ∈ Rows a n, X i = Y i) : oPts c a n q X = oPts c a n q Y := by
  unfold oPts; exact Region.is_congr h

omit [FloatOps F] in
theorem oPts_join (c : Dev nD) (a n₁ n₂ : ℕ) (q : PosShare TreeShare) (X Y : (main_v1 : Ref sig .tc).ty.Contents (Elt F)) :
    iprop(oPts c a n₁ q X ∗ oPts c (a + n₁) n₂ q Y) ⊢ oPts c a (n₁ + n₂) q ((Rows (a + n₁) n₂).piecewise Y X) := by
  unfold oPts; rw [← Rows_union]; exact Region.is_join (Rows_disjoint (Nat.le_refl _))

omit [FloatOps F] in
theorem oPts_join_any (c : Dev nD) (a n₁ n₂ : ℕ) (q : PosShare TreeShare) (X Y : (main_v1 : Ref sig .tc).ty.Contents (Elt F)) :
    iprop(oPts c a n₁ q X ∗ oPts c (a + n₁) n₂ q Y) ⊢ iprop(∃ Z, oPts c a (n₁ + n₂) q Z) :=
  (oPts_join c a n₁ n₂ q X Y).trans (exists_intro (Φ := fun Z => oPts c a (n₁ + n₂) q Z) _)

omit [FloatOps F] in
/-- The whole result is its band of all rows. -/
theorem whole_out_eq (c : Dev nD) (q : PosShare TreeShare) (f : (main_v1 : Ref sig .tc).ty.Contents (Elt F)) :
    (((c : Thread nD τ).loc main_v1) ↦{q} f : sProp 𝕄) = oPts c 0 8192 q f := by
  unfold oPts; rw [Rows_univ]

omit [FloatOps F] in
theorem whole_out (c : Dev nD) (f : (main_v1 : Ref sig .tc).ty.Contents (Elt F)) :
    (((c : Thread nD τ).loc main_v1) ↦{fullShare} f : sProp 𝕄) ⊣⊢ oPts c 0 8192 fullShare f :=
  .of_eq (whole_out_eq c fullShare f)

/-- Ownership of a band of the staged block splits along the share. -/
theorem xPts_share (c : Dev nD) (a n : ℕ) (q : PosShare TreeShare) :
    xPts m c a n q ⊣⊢ iprop(xPts m c a n q.left ∗ xPts m c a n q.right) := by
  unfold xPts; exact Region.is_share (PosShare.mem_left_op_right q)

/-- Ownership of a band of the staged block splits along the rows. -/
theorem xPts_rows (c : Dev nD) (a n₁ n₂ : ℕ) (q : PosShare TreeShare) :
    xPts m c a (n₁ + n₂) q ⊣⊢ iprop(xPts m c a n₁ q ∗ xPts m c (a + n₁) n₂ q) := by
  unfold xPts; rw [← BRows_union]; exact Region.is_union (BRows_disjoint (Nat.le_refl _))

/-- Only the contents inside the band matter: a band of the staged block at any contents equal to the block's there. -/
theorem xPts_congr {c : Dev nD} {a n : ℕ} {q : PosShare TreeShare} {Y : (cc0_stg0_0 : Ref sig .tc).ty.Contents (Elt F)}
    (h : ∀ i ∈ BRows a n, Y i = xstg m c i) :
    ((((c : Thread nD τ).loc cc0_stg0_0) ↦[BRows a n]{q} Y : sProp 𝕄)) = xPts m c a n q := by
  unfold xPts; exact Region.is_congr h

/-- The whole staged block is its band of all rows. -/
theorem whole_blk_eq (c : Dev nD) (q : PosShare TreeShare) :
    (((c : Thread nD τ).loc cc0_stg0_0) ↦{q} xstg m c : sProp 𝕄) = xPts m c 0 2048 q := by
  unfold xPts; rw [BRows_univ]

theorem whole_blk (c : Dev nD) :
    (((c : Thread nD τ).loc cc0_stg0_0) ↦{fullShare} xstg m c : sProp 𝕄) ⊣⊢ xPts m c 0 2048 fullShare :=
  .of_eq (whole_blk_eq m c fullShare)

/-! ## Ownership through a slice is ownership of its band -/

omit [FloatOps F] in
theorem pts_slice_stage (c : Dev nD) (q : PosShare TreeShare) {a n : ℕ} {off sz : Fin 2 → ℕ} (h : off = ![a, 0])
    (hz : sz = ![n, 512]) (inb : ∀ x, off x + sz x ≤ S8192x512.size x) (hs)
    (f : (cc0_scratch0 : Ref sig .tc).ty.Contents (Elt F)) :
    ((((Memref.whole cc0_scratch0 : Memref sig .tc .vmem S8192x512 .f32).slice
        (Rect.unit (s := S8192x512) off sz inb) hs).view.loc (c : Thread nD τ))
      ↦[((Memref.whole cc0_scratch0 : Memref sig .tc .vmem S8192x512 .f32).slice
        (Rect.unit (s := S8192x512) off sz inb) hs).view.set]{q} f : sProp 𝕄) = sPts c a n q f := by
  unfold sPts; rw [slice_set_stage h hz inb hs]

omit [FloatOps F] in
theorem pts_slice_out (c : Dev nD) (q : PosShare TreeShare) {a n : ℕ} {off sz : Fin 2 → ℕ} (h : off = ![a, 0])
    (hz : sz = ![n, 512]) (inb : ∀ x, off x + sz x ≤ S8192x512.size x) (hs)
    (f : (main_v1 : Ref sig .tc).ty.Contents (Elt F)) :
    ((((Memref.whole main_v1 : Memref sig .tc .hbm S8192x512 .f32).slice
        (Rect.unit (s := S8192x512) off sz inb) hs).view.loc (c : Thread nD τ))
      ↦[((Memref.whole main_v1 : Memref sig .tc .hbm S8192x512 .f32).slice
        (Rect.unit (s := S8192x512) off sz inb) hs).view.set]{q} f : sProp 𝕄) = oPts c a n q f := by
  unfold oPts; rw [slice_set_out h hz inb hs]

theorem pts_slice_blk (c : Dev nD) (q : PosShare TreeShare) {a n : ℕ} {off sz : Fin 2 → ℕ} (h : off = ![a, 0])
    (hz : sz = ![n, 512]) (inb : ∀ x, off x + sz x ≤ S2048x512.size x) (hs) :
    ((((Memref.whole cc0_stg0_0 : Memref sig .tc .vmem S2048x512 .f32).slice
        (Rect.unit (s := S2048x512) off sz inb) hs).view.loc (c : Thread nD τ))
      ↦[((Memref.whole cc0_stg0_0 : Memref sig .tc .vmem S2048x512 .f32).slice
        (Rect.unit (s := S2048x512) off sz inb) hs).view.set]{q} xstg m c : sProp 𝕄) = xPts m c a n q := by
  unfold xPts; rw [slice_set_blk h hz inb hs]

theorem pts_whole_blk (c : Dev nD) (q : PosShare TreeShare) :
    (((Memref.whole cc0_stg0_0 : Memref sig .tc .vmem S2048x512 .f32).view.loc (c : Thread nD τ))
      ↦[(Memref.whole cc0_stg0_0 : Memref sig .tc .vmem S2048x512 .f32).view.set]{q} xstg m c : sProp 𝕄)
      = xPts m c 0 2048 q := by
  unfold xPts; rw [whole_set_blk]

/-! ## What a transfer leaves in the destination band -/

omit [FloatOps F] in
/-- Between two bands of the scratch array at the same rows: under each row of the band, what the source held there. -/
theorem land_stage_stage_apply {a n : ℕ} {offs offd sz : Fin 2 → ℕ} (hs : offs = ![a, 0]) (hd : offd = ![a, 0])
    (hz : sz = ![n, 512]) (inbs : ∀ x, offs x + sz x ≤ S8192x512.size x) (inbd : ∀ x, offd x + sz x ≤ S8192x512.size x)
    (us) (ud) (fs fd : (cc0_scratch0 : Ref sig .tc).ty.Contents (Elt F)) (i : S8192x512.Idx) (hi : i ∈ Rows a n) :
    ((Memref.whole cc0_scratch0 : Memref sig .tc .vmem S8192x512 .f32).slice
        (Rect.unit (s := S8192x512) offd sz inbd) ud).view.write (Elt F) fd
      (((Memref.whole cc0_scratch0 : Memref sig .tc .vmem S8192x512 .f32).slice
        (Rect.unit (s := S8192x512) offs sz inbs) us).view.read (Elt F) fs) Finset.univ i = fs i := by
  subst hs; subst hd
  rw [← slice_set_stage rfl hz inbd ud] at hi
  obtain ⟨y, -, rfl⟩ := Finset.mem_map.mp hi
  rw [View.write_emb_of_mem _ _ (Finset.mem_univ y), View.read_apply]
  rfl

omit [FloatOps F] in
/-- From a band of the scratch array to the same rows of the result. -/
theorem land_stage_out_apply {a n : ℕ} {offs offd sz : Fin 2 → ℕ} (hs : offs = ![a, 0]) (hd : offd = ![a, 0])
    (hz : sz = ![n, 512]) (inbs : ∀ x, offs x + sz x ≤ S8192x512.size x) (inbd : ∀ x, offd x + sz x ≤ S8192x512.size x)
    (us) (ud) (fs : (cc0_scratch0 : Ref sig .tc).ty.Contents (Elt F)) (fd : (main_v1 : Ref sig .tc).ty.Contents (Elt F))
    (i : S8192x512.Idx) (hi : i ∈ Rows a n) :
    ((Memref.whole main_v1 : Memref sig .tc .hbm S8192x512 .f32).slice
        (Rect.unit (s := S8192x512) offd sz inbd) ud).view.write (Elt F) fd
      (((Memref.whole cc0_scratch0 : Memref sig .tc .vmem S8192x512 .f32).slice
        (Rect.unit (s := S8192x512) offs sz inbs) us).view.read (Elt F) fs) Finset.univ i = fs i := by
  subst hs; subst hd
  rw [← slice_set_out rfl hz inbd ud] at hi
  obtain ⟨y, -, rfl⟩ := Finset.mem_map.mp hi
  rw [View.write_emb_of_mem _ _ (Finset.mem_univ y), View.read_apply]
  rfl

omit [FloatOps F] in
/-- From rows `b ≤ r < b + n` of the staged block to rows `2048 z + b ≤ r < 2048 z + b + n` of the scratch array:
    under row `r` of the band, what the block held at row `r mod 2048`. -/
theorem land_blk_stage_apply {z b n : ℕ} {offs offd sz : Fin 2 → ℕ} (hs : offs = ![b, 0]) (hd : offd = ![2048 * z + b, 0])
    (hz : sz = ![n, 512]) (inbs : ∀ x, offs x + sz x ≤ S2048x512.size x) (inbd : ∀ x, offd x + sz x ≤ S8192x512.size x)
    (us) (ud) (g : (cc0_stg0_0 : Ref sig .tc).ty.Contents (Elt F)) (fd : (cc0_scratch0 : Ref sig .tc).ty.Contents (Elt F))
    (i : S8192x512.Idx) (hi : i ∈ Rows (2048 * z + b) n) :
    ((Memref.whole cc0_scratch0 : Memref sig .tc .vmem S8192x512 .f32).slice
        (Rect.unit (s := S8192x512) offd sz inbd) ud).view.write (Elt F) fd
      (((Memref.whole cc0_stg0_0 : Memref sig .tc .vmem S2048x512 .f32).slice
        (Rect.unit (s := S2048x512) offs sz inbs) us).view.read (Elt F) g) Finset.univ i = g (rowmod i) := by
  subst hs; subst hd; subst hz
  rw [← slice_set_stage rfl rfl inbd ud] at hi
  obtain ⟨y, -, rfl⟩ := Finset.mem_map.mp hi
  rw [View.write_emb_of_mem _ _ (Finset.mem_univ y), View.read_apply]
  have hb : b + n ≤ 2048 := inbs 0
  have hy0 : (y 0).val < n := (y 0).isLt
  have hy1 : (y 1).val < 512 := (y 1).isLt
  show g _ = g _
  refine congrArg g (funext fun x => ?_)
  match x with
  | ⟨0, _⟩ => exact Fin.ext (show b + 1 * (y 0).val = (2048 * z + b + 1 * (y 0).val) % 2048 by omega)
  | ⟨1, _⟩ => exact Fin.ext (show 0 + 1 * (y 1).val = 0 + 1 * (y 1).val from rfl)

omit [FloatOps F] in
/-- From the whole staged block to rows `2048 z ≤ r < 2048 z + 2048` of the result. -/
theorem land_blk_out_apply {z : ℕ} {offd : Fin 2 → ℕ} (hd : offd = ![2048 * z, 0])
    (inbd : ∀ x, offd x + S2048x512.size x ≤ S8192x512.size x) (ud)
    (g : (cc0_stg0_0 : Ref sig .tc).ty.Contents (Elt F)) (fd : (main_v1 : Ref sig .tc).ty.Contents (Elt F))
    (i : S8192x512.Idx) (hi : i ∈ Rows (2048 * z) 2048) :
    ((Memref.whole main_v1 : Memref sig .tc .hbm S8192x512 .f32).slice
        (Rect.unit (s := S8192x512) offd S2048x512.size inbd) ud).view.write (Elt F) fd
      ((Memref.whole cc0_stg0_0 : Memref sig .tc .vmem S2048x512 .f32).view.read (Elt F) g) Finset.univ i
      = g (rowmod i) := by
  subst hd
  rw [← slice_set_out rfl rfl inbd ud] at hi
  obtain ⟨y, -, rfl⟩ := Finset.mem_map.mp hi
  rw [View.write_emb_of_mem _ _ (Finset.mem_univ y), View.read_apply]
  have hy0 : (y 0).val < 2048 := (y 0).isLt
  have hy1 : (y 1).val < 512 := (y 1).isLt
  show g _ = g _
  refine congrArg g (funext fun x => ?_)
  match x with
  | ⟨0, _⟩ => exact Fin.ext (show (y 0).val = (2048 * z + 1 * (y 0).val) % 2048 by omega)
  | ⟨1, _⟩ => exact Fin.ext (show (y 1).val = 0 + 1 * (y 1).val by omega)

/-- A transfer between two bands of scratch arrays at the same rows leaves device `d`'s rows where it read them. -/
theorem land_stage_stage (p d : Dev nD) (q : PosShare TreeShare) {a n : ℕ} {offs offd sz : Fin 2 → ℕ}
    (hs : offs = ![a, 0]) (hd : offd = ![a, 0]) (hz : sz = ![n, 512])
    (inbs : ∀ x, offs x + sz x ≤ S8192x512.size x) (inbd : ∀ x, offd x + sz x ≤ S8192x512.size x)
    (us) (ud) (fd : (cc0_scratch0 : Ref sig .tc).ty.Contents (Elt F)) :
    sPts p a n q
      (((Memref.whole cc0_scratch0 : Memref sig .tc .vmem S8192x512 .f32).slice
          (Rect.unit (s := S8192x512) offd sz inbd) ud).view.write (Elt F) fd
        (((Memref.whole cc0_scratch0 : Memref sig .tc .vmem S8192x512 .f32).slice
          (Rect.unit (s := S8192x512) offs sz inbs) us).view.read (Elt F) (Gd m d)) Finset.univ)
      = sPts p a n q (Gd m d) :=
  sPts_congr fun i hi => land_stage_stage_apply hs hd hz inbs inbd us ud (Gd m d) fd i hi

/-- A copy of a band of the scratch array into the same rows of the result leaves device `d`'s rows there. -/
theorem land_stage_out (p d : Dev nD) (q : PosShare TreeShare) {a n : ℕ} {offs offd sz : Fin 2 → ℕ}
    (hs : offs = ![a, 0]) (hd : offd = ![a, 0]) (hz : sz = ![n, 512])
    (inbs : ∀ x, offs x + sz x ≤ S8192x512.size x) (inbd : ∀ x, offd x + sz x ≤ S8192x512.size x)
    (us) (ud) (fd : (main_v1 : Ref sig .tc).ty.Contents (Elt F)) :
    oPts p a n q
      (((Memref.whole main_v1 : Memref sig .tc .hbm S8192x512 .f32).slice
          (Rect.unit (s := S8192x512) offd sz inbd) ud).view.write (Elt F) fd
        (((Memref.whole cc0_scratch0 : Memref sig .tc .vmem S8192x512 .f32).slice
          (Rect.unit (s := S8192x512) offs sz inbs) us).view.read (Elt F) (Gd m d)) Finset.univ)
      = oPts p a n q (Gd m d) :=
  oPts_congr fun i hi => land_stage_out_apply hs hd hz inbs inbd us ud (Gd m d) fd i hi

/-- A transfer of rows `b ≤ r < b + n` of device `c`'s staged block into rows `2048 z + b ≤ r` of a scratch array
    leaves device `c`'s rows there. -/
theorem land_blk_stage (p c : Dev nD) (q : PosShare TreeShare) {z b n : ℕ} {offs offd sz : Fin 2 → ℕ}
    (hs : offs = ![b, 0]) (hd : offd = ![2048 * z + b, 0]) (hz : sz = ![n, 512])
    (inbs : ∀ x, offs x + sz x ≤ S2048x512.size x) (inbd : ∀ x, offd x + sz x ≤ S8192x512.size x)
    (us) (ud) (fd : (cc0_scratch0 : Ref sig .tc).ty.Contents (Elt F)) :
    sPts p (2048 * z + b) n q
      (((Memref.whole cc0_scratch0 : Memref sig .tc .vmem S8192x512 .f32).slice
          (Rect.unit (s := S8192x512) offd sz inbd) ud).view.write (Elt F) fd
        (((Memref.whole cc0_stg0_0 : Memref sig .tc .vmem S2048x512 .f32).slice
          (Rect.unit (s := S2048x512) offs sz inbs) us).view.read (Elt F) (xstg m c)) Finset.univ)
      = sPts p (2048 * z + b) n q (Gd m c) :=
  sPts_congr fun i hi => land_blk_stage_apply hs hd hz inbs inbd us ud (xstg m c) fd i hi

/-- The copy of device `c`'s whole staged block into rows `2048 z ≤ r < 2048 z + 2048` of the result leaves device
    `c`'s rows there. -/
theorem land_blk_out (p c : Dev nD) (q : PosShare TreeShare) {z : ℕ} {offd : Fin 2 → ℕ} (hd : offd = ![2048 * z, 0])
    (inbd : ∀ x, offd x + S2048x512.size x ≤ S8192x512.size x) (ud)
    (fd : (main_v1 : Ref sig .tc).ty.Contents (Elt F)) :
    oPts p (2048 * z) 2048 q
      (((Memref.whole main_v1 : Memref sig .tc .hbm S8192x512 .f32).slice
          (Rect.unit (s := S8192x512) offd S2048x512.size inbd) ud).view.write (Elt F) fd
        ((Memref.whole cc0_stg0_0 : Memref sig .tc .vmem S2048x512 .f32).view.read (Elt F) (xstg m c)) Finset.univ)
      = oPts p (2048 * z) 2048 q (Gd m c) :=
  oPts_congr fun i hi => land_blk_out_apply hd inbd ud (xstg m c) fd i hi

end Cert.Kernel.AG

end
-- ==== Proof.Bits.Coh.lean ====
/-
  What a transfer reads on the sender is what lands on the receiver.

  The piece of flow f that lands on a device's peer at hop h is, row for row and block for block, the band the device
  reads for it: for a ring flow's first hop a band of the device's own block, otherwise a band of a piece that landed
  on the device earlier.  The row offsets the program computes are the first rows of these pieces, on the device
  itself or on the peer the transfer is addressed to.
-/
import proofs.«900685_g7700000000000686_dist_ag_v7x_xyz2x2x4_z_m2048_n512_f32_1_alg».proof.Proof.Bits.Sched
import proofs.«900685_g7700000000000686_dist_ag_v7x_xyz2x2x4_z_m2048_n512_f32_1_alg».proof.Proof.Bits.Offsets

set_option Elab.async false

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! ## Source and landing agree -/

/-- Away from a ring flow's first hop, the rows a piece lands in on the peer are the rows of the source band. -/
theorem coh_lo (f : Fin 10) (h : Fin 3) (c : Dev nD) (hh : ¬ (f.val < 4 ∧ h.val = 0)) :
    lo f h.val (peer (tgt f) c) = lo (srcOf f h).1 (srcOf f h).2.1 c + (srcOf f h).2.2 := by
  revert f h c; decide +kernel

/-- Away from a ring flow's first hop, the piece that lands on the peer comes from the same device's block as the
    source band. -/
theorem coh_org (f : Fin 10) (h : Fin 3) (c : Dev nD) (hh : ¬ (f.val < 4 ∧ h.val = 0)) :
    org f h.val (peer (tgt f) c) = org (srcOf f h).1 (srcOf f h).2.1 c := by
  revert f h c; decide +kernel

/-- A ring flow's first piece lands on the peer in the sender's block, at the rows it has in that block. -/
theorem coh_lo0 (f : Fin 10) (c : Dev nD) (hf : f.val < 4) :
    lo f 0 (peer (tgt f) c) = 2048 * (c.val % 4) + blkLo f c := by
  revert f c; decide +kernel

/-- A ring flow's first piece is a band of the sender's own block. -/
theorem coh_org0 (f : Fin 10) (c : Dev nD) (hf : f.val < 4) : org f 0 (peer (tgt f) c) = c := by
  revert f c; decide +kernel

theorem blkLo_add_le (f : Fin 10) (c : Dev nD) (hf : f.val < 4) : blkLo f c + flowRows f ≤ 2048 := by
  revert f c; decide +kernel

/-! ## The offsets the program computes, as first rows of pieces -/

/-! ### On the device itself -/

theorem off6_lo (c : Dev nD) (h : Fin 3) :
    k0_off6 c (BitVec.ofNat 32 h.val) = ![lo 0 h.val c, 0] := by revert c h; decide +kernel
theorem off6_lo_0 (c : Dev nD) : k0_off6 c 0#32 = ![lo 0 0 c, 0] := off6_lo c 0
theorem off6_lo_1 (c : Dev nD) : k0_off6 c 1#32 = ![lo 0 1 c, 0] := off6_lo c 1
theorem off6_lo_2 (c : Dev nD) : k0_off6 c 2#32 = ![lo 0 2 c, 0] := off6_lo c 2

theorem off7_lo (c : Dev nD) (h : Fin 3) :
    k0_off7 c (BitVec.ofNat 32 h.val) = ![lo 2 h.val c, 0] := by revert c h; decide +kernel
theorem off7_lo_0 (c : Dev nD) : k0_off7 c 0#32 = ![lo 2 0 c, 0] := off7_lo c 0
theorem off7_lo_1 (c : Dev nD) : k0_off7 c 1#32 = ![lo 2 1 c, 0] := off7_lo c 1
theorem off7_lo_2 (c : Dev nD) : k0_off7 c 2#32 = ![lo 2 2 c, 0] := off7_lo c 2

theorem off8_lo (c : Dev nD) (h : Fin 3) :
    k0_off8 c (BitVec.ofNat 32 h.val) = ![lo 1 h.val c, 0] := by revert c h; decide +kernel
theorem off8_lo_0 (c : Dev nD) : k0_off8 c 0#32 = ![lo 1 0 c, 0] := off8_lo c 0
theorem off8_lo_1 (c : Dev nD) : k0_off8 c 1#32 = ![lo 1 1 c, 0] := off8_lo c 1
theorem off8_lo_2 (c : Dev nD) : k0_off8 c 2#32 = ![lo 1 2 c, 0] := off8_lo c 2

theorem off9_lo (c : Dev nD) (h : Fin 3) :
    k0_off9 c (BitVec.ofNat 32 h.val) = ![lo 3 h.val c, 0] := by revert c h; decide +kernel
theorem off9_lo_0 (c : Dev nD) : k0_off9 c 0#32 = ![lo 3 0 c, 0] := off9_lo c 0
theorem off9_lo_1 (c : Dev nD) : k0_off9 c 1#32 = ![lo 3 1 c, 0] := off9_lo c 1
theorem off9_lo_2 (c : Dev nD) : k0_off9 c 2#32 = ![lo 3 2 c, 0] := off9_lo c 2

theorem off10_lo (c : Dev nD) (h : Fin 3) :
    k0_off10 c (BitVec.ofNat 32 h.val) = ![lo 6 h.val c, 0] := by revert c h; decide +kernel
theorem off10_lo_0 (c : Dev nD) : k0_off10 c 0#32 = ![lo 6 0 c, 0] := off10_lo c 0
theorem off10_lo_1 (c : Dev nD) : k0_off10 c 1#32 = ![lo 6 1 c, 0] := off10_lo c 1
theorem off10_lo_2 (c : Dev nD) : k0_off10 c 2#32 = ![lo 6 2 c, 0] := off10_lo c 2

theorem off11_lo (c : Dev nD) (h : Fin 3) :
    k0_off11 c (BitVec.ofNat 32 h.val) = ![lo 6 h.val c + 88, 0] := by revert c h; decide +kernel
theorem off11_lo_0 (c : Dev nD) : k0_off11 c 0#32 = ![lo 6 0 c + 88, 0] := off11_lo c 0
theorem off11_lo_1 (c : Dev nD) : k0_off11 c 1#32 = ![lo 6 1 c + 88, 0] := off11_lo c 1
theorem off11_lo_2 (c : Dev nD) : k0_off11 c 2#32 = ![lo 6 2 c + 88, 0] := off11_lo c 2

theorem off12_lo (c : Dev nD) (h : Fin 3) :
    k0_off12 c (BitVec.ofNat 32 h.val) = ![lo 5 h.val c, 0] := by revert c h; decide +kernel
theorem off12_lo_0 (c : Dev nD) : k0_off12 c 0#32 = ![lo 5 0 c, 0] := off12_lo c 0
theorem off12_lo_1 (c : Dev nD) : k0_off12 c 1#32 = ![lo 5 1 c, 0] := off12_lo c 1
theorem off12_lo_2 (c : Dev nD) : k0_off12 c 2#32 = ![lo 5 2 c, 0] := off12_lo c 2

theorem off13_lo (c : Dev nD) (h : Fin 3) :
    k0_off13 c (BitVec.ofNat 32 h.val) = ![lo 5 h.val c + 88, 0] := by revert c h; decide +kernel
theorem off13_lo_0 (c : Dev nD) : k0_off13 c 0#32 = ![lo 5 0 c + 88, 0] := off13_lo c 0
theorem off13_lo_1 (c : Dev nD) : k0_off13 c 1#32 = ![lo 5 1 c + 88, 0] := off13_lo c 1
theorem off13_lo_2 (c : Dev nD) : k0_off13 c 2#32 = ![lo 5 2 c + 88, 0] := off13_lo c 2

theorem off14_lo (c : Dev nD) (h : Fin 3) :
    k0_off14 c (BitVec.ofNat 32 h.val) = ![lo 4 h.val c, 0] := by revert c h; decide +kernel
theorem off14_lo_0 (c : Dev nD) : k0_off14 c 0#32 = ![lo 4 0 c, 0] := off14_lo c 0
theorem off14_lo_1 (c : Dev nD) : k0_off14 c 1#32 = ![lo 4 1 c, 0] := off14_lo c 1
theorem off14_lo_2 (c : Dev nD) : k0_off14 c 2#32 = ![lo 4 2 c, 0] := off14_lo c 2

theorem off15_lo (c : Dev nD) (h : Fin 3) :
    k0_off15 c (BitVec.ofNat 32 h.val) = ![lo 7 h.val c, 0] := by revert c h; decide +kernel
theorem off15_lo_0 (c : Dev nD) : k0_off15 c 0#32 = ![lo 7 0 c, 0] := off15_lo c 0
theorem off15_lo_1 (c : Dev nD) : k0_off15 c 1#32 = ![lo 7 1 c, 0] := off15_lo c 1
theorem off15_lo_2 (c : Dev nD) : k0_off15 c 2#32 = ![lo 7 2 c, 0] := off15_lo c 2

theorem off16_lo (c : Dev nD) (h : Fin 3) :
    k0_off16 c (BitVec.ofNat 32 h.val) = ![lo 9 h.val c, 0] := by revert c h; decide +kernel
theorem off16_lo_0 (c : Dev nD) : k0_off16 c 0#32 = ![lo 9 0 c, 0] := off16_lo c 0
theorem off16_lo_1 (c : Dev nD) : k0_off16 c 1#32 = ![lo 9 1 c, 0] := off16_lo c 1
theorem off16_lo_2 (c : Dev nD) : k0_off16 c 2#32 = ![lo 9 2 c, 0] := off16_lo c 2

theorem off17_lo (c : Dev nD) (h : Fin 3) :
    k0_off17 c (BitVec.ofNat 32 h.val) = ![lo 8 h.val c, 0] := by revert c h; decide +kernel
theorem off17_lo_0 (c : Dev nD) : k0_off17 c 0#32 = ![lo 8 0 c, 0] := off17_lo c 0
theorem off17_lo_1 (c : Dev nD) : k0_off17 c 1#32 = ![lo 8 1 c, 0] := off17_lo c 1
theorem off17_lo_2 (c : Dev nD) : k0_off17 c 2#32 = ![lo 8 2 c, 0] := off17_lo c 2

/-! ### On the peer across x or y a transfer is addressed to -/

theorem off6_lo_x (c : Dev nD) (h : Fin 3) :
    k0_off6 c (BitVec.ofNat 32 h.val) = ![lo 4 h.val (peer 2 c), 0] := by revert c h; decide +kernel
theorem off6_lo_x_0 (c : Dev nD) : k0_off6 c 0#32 = ![lo 4 0 (peer 2 c), 0] := off6_lo_x c 0
theorem off6_lo_x_1 (c : Dev nD) : k0_off6 c 1#32 = ![lo 4 1 (peer 2 c), 0] := off6_lo_x c 1
theorem off6_lo_x_2 (c : Dev nD) : k0_off6 c 2#32 = ![lo 4 2 (peer 2 c), 0] := off6_lo_x c 2

theorem off6_lo_y (c : Dev nD) (h : Fin 3) :
    k0_off6 c (BitVec.ofNat 32 h.val) = ![lo 6 h.val (peer 3 c), 0] := by revert c h; decide +kernel
theorem off6_lo_y_0 (c : Dev nD) : k0_off6 c 0#32 = ![lo 6 0 (peer 3 c), 0] := off6_lo_y c 0
theorem off6_lo_y_1 (c : Dev nD) : k0_off6 c 1#32 = ![lo 6 1 (peer 3 c), 0] := off6_lo_y c 1
theorem off6_lo_y_2 (c : Dev nD) : k0_off6 c 2#32 = ![lo 6 2 (peer 3 c), 0] := off6_lo_y c 2

theorem off7_lo_x (c : Dev nD) (h : Fin 3) :
    k0_off7 c (BitVec.ofNat 32 h.val) = ![lo 5 h.val (peer 2 c), 0] := by revert c h; decide +kernel
theorem off7_lo_x_0 (c : Dev nD) : k0_off7 c 0#32 = ![lo 5 0 (peer 2 c), 0] := off7_lo_x c 0
theorem off7_lo_x_1 (c : Dev nD) : k0_off7 c 1#32 = ![lo 5 1 (peer 2 c), 0] := off7_lo_x c 1
theorem off7_lo_x_2 (c : Dev nD) : k0_off7 c 2#32 = ![lo 5 2 (peer 2 c), 0] := off7_lo_x c 2

theorem off7_lo_y (c : Dev nD) (h : Fin 3) :
    k0_off7 c (BitVec.ofNat 32 h.val) = ![lo 7 h.val (peer 3 c), 0] := by revert c h; decide +kernel
theorem off7_lo_y_0 (c : Dev nD) : k0_off7 c 0#32 = ![lo 7 0 (peer 3 c), 0] := off7_lo_y c 0
theorem off7_lo_y_1 (c : Dev nD) : k0_off7 c 1#32 = ![lo 7 1 (peer 3 c), 0] := off7_lo_y c 1
theorem off7_lo_y_2 (c : Dev nD) : k0_off7 c 2#32 = ![lo 7 2 (peer 3 c), 0] := off7_lo_y c 2

theorem off11_lo_x (c : Dev nD) (h : Fin 3) :
    k0_off11 c (BitVec.ofNat 32 h.val) = ![lo 9 h.val (peer 2 c), 0] := by revert c h; decide +kernel
theorem off11_lo_x_0 (c : Dev nD) : k0_off11 c 0#32 = ![lo 9 0 (peer 2 c), 0] := off11_lo_x c 0
theorem off11_lo_x_1 (c : Dev nD) : k0_off11 c 1#32 = ![lo 9 1 (peer 2 c), 0] := off11_lo_x c 1
theorem off11_lo_x_2 (c : Dev nD) : k0_off11 c 2#32 = ![lo 9 2 (peer 2 c), 0] := off11_lo_x c 2

theorem off13_lo_y (c : Dev nD) (h : Fin 3) :
    k0_off13 c (BitVec.ofNat 32 h.val) = ![lo 8 h.val (peer 3 c), 0] := by revert c h; decide +kernel
theorem off13_lo_y_0 (c : Dev nD) : k0_off13 c 0#32 = ![lo 8 0 (peer 3 c), 0] := off13_lo_y c 0
theorem off13_lo_y_1 (c : Dev nD) : k0_off13 c 1#32 = ![lo 8 1 (peer 3 c), 0] := off13_lo_y c 1
theorem off13_lo_y_2 (c : Dev nD) : k0_off13 c 2#32 = ![lo 8 2 (peer 3 c), 0] := off13_lo_y c 2

/-! ### The ring offsets `k0_off1`: flow 0 upward (first half), flow 2 downward (second half) -/

theorem off1_lo_0_0 (c : Dev nD) : k0_off1 c 0#32 0#32 = ![lo 0 0 (peer 1 c), 0] := by revert c; decide +kernel
theorem off1_lo_m1_0 (c : Dev nD) : k0_off1 c 4294967295#32 0#32 = ![lo 0 0 c, 0] := by revert c; decide +kernel
theorem off1_lo_m2_0 (c : Dev nD) : k0_off1 c 4294967294#32 0#32 = ![lo 0 1 c, 0] := by revert c; decide +kernel
theorem off1_lo_0_256 (c : Dev nD) : k0_off1 c 0#32 256#32 = ![lo 2 0 (peer 0 c), 0] := by revert c; decide +kernel
theorem off1_lo_1_256 (c : Dev nD) : k0_off1 c 1#32 256#32 = ![lo 2 0 c, 0] := by revert c; decide +kernel
theorem off1_lo_2_256 (c : Dev nD) : k0_off1 c 2#32 256#32 = ![lo 2 1 c, 0] := by revert c; decide +kernel

/-- The landing rows on the neighbour above of flow 0's hops 0, 1, 2. -/
theorem off1_lo_up_0 (c : Dev nD) : k0_off1 c 0#32 0#32 = ![lo 0 0 (peer 1 c), 0] := off1_lo_0_0 c
theorem off1_lo_up_1 (c : Dev nD) : k0_off1 c 4294967295#32 0#32 = ![lo 0 1 (peer 1 c), 0] := by revert c; decide +kernel
theorem off1_lo_up_2 (c : Dev nD) : k0_off1 c 4294967294#32 0#32 = ![lo 0 2 (peer 1 c), 0] := by revert c; decide +kernel
/-- The landing rows on the neighbour below of flow 2's hops 0, 1, 2. -/
theorem off1_lo_dn_0 (c : Dev nD) : k0_off1 c 0#32 256#32 = ![lo 2 0 (peer 0 c), 0] := off1_lo_0_256 c
theorem off1_lo_dn_1 (c : Dev nD) : k0_off1 c 1#32 256#32 = ![lo 2 1 (peer 0 c), 0] := by revert c; decide +kernel
theorem off1_lo_dn_2 (c : Dev nD) : k0_off1 c 2#32 256#32 = ![lo 2 2 (peer 0 c), 0] := by revert c; decide +kernel

/-! ### The ring offsets `k0_off3`: flow 1 upward (first half), flow 3 downward (second half) -/

theorem off3_lo_0_0 (c : Dev nD) : k0_off3 c 0#32 0#32 = ![lo 1 0 (peer 1 c), 0] := by revert c; decide +kernel
theorem off3_lo_m1_0 (c : Dev nD) : k0_off3 c 4294967295#32 0#32 = ![lo 1 0 c, 0] := by revert c; decide +kernel
theorem off3_lo_m2_0 (c : Dev nD) : k0_off3 c 4294967294#32 0#32 = ![lo 1 1 c, 0] := by revert c; decide +kernel
theorem off3_lo_0_256 (c : Dev nD) : k0_off3 c 0#32 256#32 = ![lo 3 0 (peer 0 c), 0] := by revert c; decide +kernel
theorem off3_lo_1_256 (c : Dev nD) : k0_off3 c 1#32 256#32 = ![lo 3 0 c, 0] := by revert c; decide +kernel
theorem off3_lo_2_256 (c : Dev nD) : k0_off3 c 2#32 256#32 = ![lo 3 1 c, 0] := by revert c; decide +kernel

/-- The landing rows on the neighbour above of flow 1's hops 0, 1, 2. -/
theorem off3_lo_up_0 (c : Dev nD) : k0_off3 c 0#32 0#32 = ![lo 1 0 (peer 1 c), 0] := off3_lo_0_0 c
theorem off3_lo_up_1 (c : Dev nD) : k0_off3 c 4294967295#32 0#32 = ![lo 1 1 (peer 1 c), 0] := by revert c; decide +kernel
theorem off3_lo_up_2 (c : Dev nD) : k0_off3 c 4294967294#32 0#32 = ![lo 1 2 (peer 1 c), 0] := by revert c; decide +kernel
/-- The landing rows on the neighbour below of flow 3's hops 0, 1, 2. -/
theorem off3_lo_dn_0 (c : Dev nD) : k0_off3 c 0#32 256#32 = ![lo 3 0 (peer 0 c), 0] := off3_lo_0_256 c
theorem off3_lo_dn_1 (c : Dev nD) : k0_off3 c 1#32 256#32 = ![lo 3 1 (peer 0 c), 0] := by revert c; decide +kernel
theorem off3_lo_dn_2 (c : Dev nD) : k0_off3 c 2#32 256#32 = ![lo 3 2 (peer 0 c), 0] := by revert c; decide +kernel

/-! ### The rows of the device's own block a ring flow's first piece is read from -/

theorem off2_blk_0 (c : Dev nD) : k0_off2 c 0#32 = ![blkLo 0 c, 0] := off2_eq_0 c
theorem off2_blk_256 (c : Dev nD) : k0_off2 c 256#32 = ![blkLo 2 c, 0] := off2_eq_256 c
theorem off4_blk_0 (c : Dev nD) : k0_off4 c 0#32 = ![blkLo 1 c, 0] := off4_eq_0 c
theorem off4_blk_256 (c : Dev nD) : k0_off4 c 256#32 = ![blkLo 3 c, 0] := off4_eq_256 c

end Cert.Kernel.AG

end
-- ==== Proof.Bits.StepGen.lean ====
/-
  One rule for every transfer between devices: whatever views a transfer of flow f, hop h goes through, it pays the
  departure cell of the sender and the arrival cell of the receiver, provided the share of the source it is lent is
  what the departure cell hands back and the band it writes is what the arrival cell hands over.
-/
import proofs.«900685_g7700000000000686_dist_ag_v7x_xyz2x2x4_z_m2048_n512_f32_1_alg».proof.Proof.Bits.Tables
import proofs.«900685_g7700000000000686_dist_ag_v7x_xyz2x2x4_z_m2048_n512_f32_1_alg».proof.Proof.Bits.Regions
import proofs.«900685_g7700000000000686_dist_ag_v7x_xyz2x2x4_z_m2048_n512_f32_1_alg».proof.Proof.Bits.Coh

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

abbrev 𝒱₀ : Variants := Variants.none

/-- A transfer of flow `f`, hop `h` from device `c` to its peer `n`: it pays the duty of `c`'s departure cell and the
    duty of `n`'s arrival cell, whatever views it goes through, as long as the lent source share is what the departure
    cell hands back and the band written is what the arrival cell hands over. -/
theorem wp_send_gen {sp : Space} {S : Shape} (K : Dev nD × Fin 93 → ℕ) (c n : Dev nD) (f : Fin 10) (h : Fin 3)
    {src : Memref sig .tc sp S .f32} {dst : Memref sig (Dev.tc n : Thread nD τ).2.kind .vmem S .f32} {sS sR : DmaSem sig}
    {hsc : dst.view.ref.isScScratch = false}
    {hsrc : src.view.WordExact} {hdst : dst.view.WordExact}
    {hsem : DmaTarget.Typed sp (.dma sR) (.remote (Dev.tc n : Thread nD τ) dst (.dma sS) hsc)}
    {α : Type} {Q : α → sProp 𝕄} {k : PUnit → Prog (TpuEff nD τ sig (Elt F) Λ₀ .tc) α}
    (hsS : (SemLoc.dma sS : SemLoc sig) = csem (sndJ f h)) (hsR : (SemLoc.dma sR : SemLoc sig) = csem (rcvJ f h))
    (q : PosShare TreeShare) (fs : Buf (Elt F) (src.view.loc (c : Thread nD τ))) (fd : Buf (Elt F) (dst.view.loc (n : Thread nD τ)))
    (W : Waits sig Unit) (O : CellTallies nD τ sig Unit)
    (hN : dst.view.dmaCredit = credS (flowRows f))
    (hpay₁ : (src.view.loc (c : Thread nD τ) ↦[src.view.set]{q} fs) ⊢ sendPay m c f h)
    (hpay₂ : (dst.view.loc (n : Thread nD τ) ↦[dst.view.set]{fullShare} (dst.view.write (Elt F) fd (src.view.read (Elt F) fs) Finset.univ))
      ⊢ recvPay m n f h)
    (hr : τ.routes (c : Thread nD τ) (n : Thread nD τ) = true) :
    iprop(cellInv ER (Rd m) (K (c, sndJ f h)) (cell c (sndJ f h)) ∗ cellInv ER (Rd m) (K (n, rcvJ f h)) (cell n (rcvJ f h))
        ∗ (src.view.loc (c : Thread nD τ) ↦[src.view.set]{q} fs) ∗ (dst.view.loc (n : Thread nD τ) ↦[dst.view.set]{fullShare} fd)
        ∗ owes (c : Thread nD τ) (O + tallyAt (cell n (rcvJ f h)) () (credS (flowRows f))) W
        ∗ dutyTok ER (cell c (sndJ f h)) 0 0 ∗ reached ER (cell c (sndJ f h)) 0
        ∗ dutyTok ER (cell n (rcvJ f h)) 0 0 ∗ reached ER (cell n (rcvJ f h)) 0)
      ⊢ iprop(((cred (tallyAt (cell c (sndJ f h)) () (credS (flowRows f))) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc n : Thread nD τ) dst (.dma sS) hsc) (.dma sR) hsrc hdst hsem) k) Q) := by
  unfold cell
  rw [← hsS, ← hsR]
  exact Rounds.wp_send_pointsTo 𝒱₀ ER (Rd m) (c : Thread nD τ) none (κ₁ := K (c, sndJ f h)) (κ₂ := K (n, rcvJ f h))
    (c' := (n : Thread nD τ)) (src := src) (dst := dst) (sS := SemLoc.dma sS) (sem := SemLoc.dma sR) (q := q) (fs := fs)
    (r₁ := 0) (r₂ := 0) (d₁ := 0) (d₂ := 0) (fd := fd)
    (by rw [hsS]; exact (duties_snd m c f h).symm ▸ Finset.mem_singleton_self _)
    (by rw [hsR]; exact (duties_rcv m n f h).symm ▸ Finset.mem_singleton_self _)
    () () (credS (flowRows f)) (show dst.view.amount (SemLoc.dma sR) = _ from hN)
    (by rw [hsS]; exact amount_snd m c f h 0) (by rw [hsR]; exact amount_rcv m n f h 0) O rfl (W := W)
    (by rw [hsS]; exact hpay₁.trans (Entails.of_eq (payload_snd m c f h 0).symm))
    (by rw [hsR]; exact hpay₂.trans (Entails.of_eq (payload_rcv m n f h 0).symm)) hr

end Cert.Kernel.AG

end
-- ==== Proof.Bits.WaitSteps.lean ====
/-
  The waits of a device, one rule each.

  A wait on one of the device's own transfer cells consumes the whole of the cell's one round: the device gets the
  round's payload, and, no later round having a duty, closes the cell at once and has its counter at zero again.  The
  wait on the barrier cell hands over the four peers' payloads.  The copy cell no transfer pays is closed as it stands.
  A barrier signal to a peer pays one duty of the peer's barrier cell.
-/
import proofs.«900685_g7700000000000686_dist_ag_v7x_xyz2x2x4_z_m2048_n512_f32_1_alg».proof.Proof.Bits.StepGen

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A wait on one of the device's own transfer cells -/

/-- A wait for the whole round of cell `j` of the device, the round expecting `N` units and handing `P` over: the
    device gets `P`, and the cell, no later round of which has a duty, closes with its counter at zero. -/
theorem wp_wait_own (K : Dev nD × Fin 93 → ℕ) (c : Dev nD) (j : Fin 93) (N : ℕ) (P : sProp 𝕄)
    (hexp : (Rd (F := F) m).expect (cell c j) 0 = N)
    (hrest : bigSep ((Rd (F := F) m).duties (cell c j) 0 \ ∅) (fun d => (Rd (F := F) m).payload (cell c j) 0 d) = P)
    {s : DmaSem sig} (hs : (SemLoc.dma s : SemLoc sig) = csem j)
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = N)
    {α : Type} {Q : α → sProp 𝕄} {k : PUnit → Prog (TpuEff nD τ sig (Elt F) Λ₀ .tc) α}
    (W : Waits sig Unit) (O : CellTallies nD τ sig Unit) :
    iprop(cellInv ER (Rd m) (K (c, j)) (cell c j) ∗ cred (tallyAt (cell c j) () N)
        ∗ owes (c : Thread nD τ) O W ∗ MayWait (c : Thread nD τ) (csem j) () O ∗ atPos ER (cell c j) 0 ∅ 0)
      ⊢ iprop(((owes (c : Thread nD τ) O (insert (csem j, ()) W) ∗ semVal (cell c j) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  have hw : ∀ Kc : PUnit → sProp 𝕄, wpE (defs₀ (F := F)) 𝒱₀ (c : Thread nD τ) none Set.univ (.waitDma2 s src dst hsrc hdst) Kc
      = waitSpec (c : Thread nD τ) Set.univ (csem j) N Kc := fun Kc => by
    rw [wpE_waitDma2_eq, hs, hN]
  iintro ⟨#HI, Hc, HO, Hlev, Hat⟩ Hk
  iapply (Rounds.wp_wait_rest_token 𝒱₀ ER (Rd m) (c : Thread nD τ) none (κ := K (c, j)) hw (Set.mem_univ _) ()
      (O := O) (W := W) (R := 0) (m := 0) (T := ∅) (by rw [Nat.zero_add]; exact hexp.symm)) $$ [Hc HO Hlev Hat]
  · isplitr; · iexact HI
    isplitl [Hc]; · iexact Hc
    isplitl [HO]; · iexact HO
    isplitl [Hlev]; · iexact Hlev
    iexact Hat
  iintro ⟨HO, Hat, -, Hpay⟩
  ihave Hp := (Entails.of_eq hrest) $$ Hpay
  imod (Rounds.cell_close ER (Rd m) (Set.mem_univ (K (c, j))) (not_unitless m (cell c j)) (R := 0 + 1)
      (duties_later m (cell c j))) $$ [Hat] with Hz
  · isplitr; · iexact HI
    iexact Hat
  iapply Hk
  isplitl [HO]; · iexact HO
  isplitl [Hz]; · iexact Hz
  iexact Hp

/-- The same for a device that owes nothing. -/
theorem wp_wait_own0 (K : Dev nD × Fin 93 → ℕ) (c : Dev nD) (j : Fin 93) (N : ℕ) (P : sProp 𝕄)
    (hexp : (Rd (F := F) m).expect (cell c j) 0 = N)
    (hrest : bigSep ((Rd (F := F) m).duties (cell c j) 0 \ ∅) (fun d => (Rd (F := F) m).payload (cell c j) 0 d) = P)
    {s : DmaSem sig} (hs : (SemLoc.dma s : SemLoc sig) = csem j)
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = N)
    {α : Type} {Q : α → sProp 𝕄} {k : PUnit → Prog (TpuEff nD τ sig (Elt F) Λ₀ .tc) α}
    (W : Waits sig Unit) :
    iprop(cellInv ER (Rd m) (K (c, j)) (cell c j) ∗ cred (tallyAt (cell c j) () N)
        ∗ owes (c : Thread nD τ) 0 W ∗ atPos ER (cell c j) 0 ∅ 0)
      ⊢ iprop(((owes (c : Thread nD τ) 0 (insert (csem j, ()) W) ∗ semVal (cell c j) 0 ∗ P)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) := by
  iintro ⟨HI, Hc, HO, Hat⟩
  iapply (wp_wait_own m K c j N P hexp hrest hs hN W 0)
  isplitl [HI]; · iexact HI
  isplitl [Hc]; · iexact Hc
  isplitl [HO]; · iexact HO
  isplitr; · rw [MayWait_zero]; iempintro
  iexact Hat

/-! ## Arrivals, departures, copies -/

/-- The wait for the piece of flow `f`, hop `h` to have landed: the band written comes with it. -/
theorem wp_wait_rcv (K : Dev nD × Fin 93 → ℕ) (c : Dev nD) (f : Fin 10) (h : Fin 3) {s : DmaSem sig}
    (hs : (SemLoc.dma s : SemLoc sig) = csem (rcvJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) (O : CellTallies nD τ sig Unit) :
    iprop(cellInv ER (Rd m) (K (c, rcvJ f h)) (cell c (rcvJ f h)) ∗ cred (tallyAt (cell c (rcvJ f h)) () (credS (flowRows f)))
        ∗ owes (c : Thread nD τ) O W ∗ MayWait (c : Thread nD τ) (csem (rcvJ f h)) () O ∗ atPos ER (cell c (rcvJ f h)) 0 ∅ 0)
      ⊢ iprop(((owes (c : Thread nD τ) O (insert (csem (rcvJ f h), ()) W) ∗ semVal (cell c (rcvJ f h)) 0 ∗ recvPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own m K c (rcvJ f h) _ _ (expect_rcv m c f h) (rest_rcv m c f h) hs hN W O

/-- The wait for the source of the transfer of flow `f`, hop `h` to have been read: the share lent comes back. -/
theorem wp_wait_snd (K : Dev nD × Fin 93 → ℕ) (c : Dev nD) (f : Fin 10) (h : Fin 3) {s : DmaSem sig}
    (hs : (SemLoc.dma s : SemLoc sig) = csem (sndJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) (O : CellTallies nD τ sig Unit) :
    iprop(cellInv ER (Rd m) (K (c, sndJ f h)) (cell c (sndJ f h)) ∗ cred (tallyAt (cell c (sndJ f h)) () (credS (flowRows f)))
        ∗ owes (c : Thread nD τ) O W ∗ MayWait (c : Thread nD τ) (csem (sndJ f h)) () O ∗ atPos ER (cell c (sndJ f h)) 0 ∅ 0)
      ⊢ iprop(((owes (c : Thread nD τ) O (insert (csem (sndJ f h), ()) W) ∗ semVal (cell c (sndJ f h)) 0 ∗ sendPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own m K c (sndJ f h) _ _ (expect_snd m c f h) (rest_snd m c f h) hs hN W O

/-- The same for a device that owes nothing. -/
theorem wp_wait_snd0 (K : Dev nD × Fin 93 → ℕ) (c : Dev nD) (f : Fin 10) (h : Fin 3) {s : DmaSem sig}
    (hs : (SemLoc.dma s : SemLoc sig) = csem (sndJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) :
    iprop(cellInv ER (Rd m) (K (c, sndJ f h)) (cell c (sndJ f h)) ∗ cred (tallyAt (cell c (sndJ f h)) () (credS (flowRows f)))
        ∗ owes (c : Thread nD τ) 0 W ∗ atPos ER (cell c (sndJ f h)) 0 ∅ 0)
      ⊢ iprop(((owes (c : Thread nD τ) 0 (insert (csem (sndJ f h), ()) W) ∗ semVal (cell c (sndJ f h)) 0 ∗ sendPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own0 m K c (sndJ f h) _ _ (expect_snd m c f h) (rest_snd m c f h) hs hN W

/-- The wait for the arrival of a device that owes nothing. -/
theorem wp_wait_rcv0 (K : Dev nD × Fin 93 → ℕ) (c : Dev nD) (f : Fin 10) (h : Fin 3) {s : DmaSem sig}
    (hs : (SemLoc.dma s : SemLoc sig) = csem (rcvJ f h))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = credS (flowRows f))
    {α : Type} {Q : α → sProp 𝕄} {k : PUnit → Prog (TpuEff nD τ sig (Elt F) Λ₀ .tc) α}
    (W : Waits sig Unit) :
    iprop(cellInv ER (Rd m) (K (c, rcvJ f h)) (cell c (rcvJ f h)) ∗ cred (tallyAt (cell c (rcvJ f h)) () (credS (flowRows f)))
        ∗ owes (c : Thread nD τ) 0 W ∗ atPos ER (cell c (rcvJ f h)) 0 ∅ 0)
      ⊢ iprop(((owes (c : Thread nD τ) 0 (insert (csem (rcvJ f h), ()) W) ∗ semVal (cell c (rcvJ f h)) 0 ∗ recvPay m c f h)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own0 m K c (rcvJ f h) _ _ (expect_rcv m c f h) (rest_rcv m c f h) hs hN W

/-- The wait for local copy `i` (not the copy no transfer pays), by a device that owes nothing: the band of the result
    written and the share of the source lent come with it. -/
theorem wp_wait_cp (K : Dev nD × Fin 93 → ℕ) (c : Dev nD) (i : Fin 32) (hi : i.val ≠ 30) {s : DmaSem sig}
    (hs : (SemLoc.dma s : SemLoc sig) = csem (cpJ i))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = (if i.val = 31 then credO 2048 else credO (flowRows (cpSrc i).1)))
    {α : Type} {Q : α → sProp 𝕄} {k : PUnit → Prog (TpuEff nD τ sig (Elt F) Λ₀ .tc) α}
    (W : Waits sig Unit) :
    iprop(cellInv ER (Rd m) (K (c, cpJ i)) (cell c (cpJ i))
        ∗ cred (tallyAt (cell c (cpJ i)) () (if i.val = 31 then credO 2048 else credO (flowRows (cpSrc i).1)))
        ∗ owes (c : Thread nD τ) 0 W ∗ atPos ER (cell c (cpJ i)) 0 ∅ 0)
      ⊢ iprop(((owes (c : Thread nD τ) 0 (insert (csem (cpJ i), ()) W) ∗ semVal (cell c (cpJ i)) 0 ∗ cpPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own0 m K c (cpJ i) _ _ (expect_cp m c i hi) (rest_cp m c i hi) hs hN W

/-- The same while the device still owes. -/
theorem wp_wait_cpO (K : Dev nD × Fin 93 → ℕ) (c : Dev nD) (i : Fin 32) (hi : i.val ≠ 30) {s : DmaSem sig}
    (hs : (SemLoc.dma s : SemLoc sig) = csem (cpJ i))
    {sp' sp : Space} {S' S : Shape} {e' e : EltTy} {κ' : Kind}
    {src : Memref sig .tc sp' S' e'} {dst : Memref sig κ' sp S e}
    {hsrc : src.view.WordExact} {hdst : dst.view.WordExact}
    (hN : dst.view.dmaCredit = (if i.val = 31 then credO 2048 else credO (flowRows (cpSrc i).1)))
    {α : Type} {Q : α → sProp 𝕄} {k : PUnit → Prog (TpuEff nD τ sig (Elt F) Λ₀ .tc) α}
    (W : Waits sig Unit) (O : CellTallies nD τ sig Unit) :
    iprop(cellInv ER (Rd m) (K (c, cpJ i)) (cell c (cpJ i))
        ∗ cred (tallyAt (cell c (cpJ i)) () (if i.val = 31 then credO 2048 else credO (flowRows (cpSrc i).1)))
        ∗ owes (c : Thread nD τ) O W ∗ MayWait (c : Thread nD τ) (csem (cpJ i)) () O ∗ atPos ER (cell c (cpJ i)) 0 ∅ 0)
      ⊢ iprop(((owes (c : Thread nD τ) O (insert (csem (cpJ i), ()) W) ∗ semVal (cell c (cpJ i)) 0 ∗ cpPay m c i)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 s src dst hsrc hdst) k) Q) :=
  wp_wait_own m K c (cpJ i) _ _ (expect_cp m c i hi) (rest_cp m c i hi) hs hN W O

/-- The copy cell no transfer pays, closed as it stands. -/
theorem close_idle (K : Dev nD × Fin 93 → ℕ) (c : Dev nD) :
    iprop(cellInv ER (Rd m) (K (c, cpJ 30)) (cell c (cpJ 30)) ∗ atPos ER (cell c (cpJ 30)) 0 ∅ 0)
      ⊢ iprop(|={Set.univ}=> semVal (cell c (cpJ 30)) 0) :=
  Rounds.cell_close ER (Rd m) (Set.mem_univ (K (c, cpJ 30))) (not_unitless m (cell c (cpJ 30))) (R := 0) fun r _ => by
    rcases Nat.eq_zero_or_pos r with rfl | hr
    · exact duties_cp30 m c
    · exact duties_later m _ r hr

/-! ## The barrier -/

/-- The wait for the four peers' signals: each peer's bands of its scratch array come with it. -/
theorem wp_wait_bar (K : Dev nD × Fin 93 → ℕ) (c : Dev nD) {s : Sem sig} (hs : (SemLoc.reg s : SemLoc sig) = csem 0)
    {n : ℕ} (hn : n = 4)
    {α : Type} {Q : α → sProp 𝕄} {k : PUnit → Prog (TpuEff nD τ sig (Elt F) Λ₀ .tc) α}
    (W : Waits sig Unit) (O : CellTallies nD τ sig Unit) :
    iprop(cellInv ER (Rd m) (K (c, 0)) (cell c 0) ∗ cred (tallyAt (cell c 0) () 4)
        ∗ owes (c : Thread nD τ) O W ∗ MayWait (c : Thread nD τ) (csem 0) () O ∗ atPos ER (cell c 0) 0 ∅ 0)
      ⊢ iprop(((owes (c : Thread nD τ) O (insert (csem 0, ()) W) ∗ barPay c 0 ∗ barPay c 1 ∗ barPay c 2 ∗ barPay c 3)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait s n) k) Q) := by
  have hw : ∀ Kc : PUnit → sProp 𝕄, wpE (defs₀ (F := F)) 𝒱₀ (c : Thread nD τ) none Set.univ (.semWait s n) Kc
      = waitSpec (c : Thread nD τ) Set.univ (csem 0) 4 Kc := fun Kc => by
    rw [wpE_semWait_eq, hs, hn]
  iintro ⟨HI, Hc, HO, Hlev, Hat⟩ Hk
  iapply (Rounds.wp_wait_rest_token 𝒱₀ ER (Rd m) (c : Thread nD τ) none (κ := K (c, 0)) hw (Set.mem_univ _) ()
      (O := O) (W := W) (R := 0) (m := 0) (T := ∅) (by rw [Nat.zero_add]; exact (expect_bar m c).symm)) $$ [HI Hc HO Hlev Hat]
  · isplitl [HI]; · iexact HI
    isplitl [Hc]; · iexact Hc
    isplitl [HO]; · iexact HO
    isplitl [Hlev]; · iexact Hlev
    iexact Hat
  iintro ⟨HO, -, -, Hpay⟩
  ihave Hp := (Entails.of_eq (rest_bar m c)) $$ Hpay
  iapply Hk
  isplitl [HO]; · iexact HO
  iexact Hp

/-- The signal to peer `k`: it pays the duty of the peer's barrier cell that stands for this device, and hands the peer
    the bands of this device's scratch array the peer will write. -/
theorem wp_signal_bar (K : Dev nD × Fin 93 → ℕ) (c : Dev nD) (k : Fin 4) (n : Dev nD) (hn : n = peer k c) {s : Sem sig}
    (hs : (SemLoc.reg s : SemLoc sig) = csem 0) {a : ℕ} (ha : a = 1)
    {α : Type} {Q : α → sProp 𝕄} {kc : PUnit → Prog (TpuEff nD τ sig (Elt F) Λ₀ .tc) α}
    (W : Waits sig Unit) (O : CellTallies nD τ sig Unit) :
    iprop(cellInv ER (Rd m) (K (peer k c, 0)) (cell (peer k c) 0)
        ∗ owes (c : Thread nD τ) (O + tallyAt (cell (peer k c) 0) () 1) W
        ∗ dutyTok ER (cell (peer k c) 0) 0 (pinv k) ∗ barPay (peer k c) (pinv k) ∗ reached ER (cell (peer k c) 0) 0)
      ⊢ iprop((owes (c : Thread nD τ) O W -∗ wp frame (wpE (defs₀ (F := F)) 𝒱₀ (c : Thread nD τ) none) Set.univ (kc ⟨⟩) Q)
          -∗ wp frame (wpE (defs₀ (F := F)) 𝒱₀ (c : Thread nD τ) none) Set.univ (.op (.semSignal (Dev.tc n) s a) kc) Q) := by
  subst hn ha
  have hd : pinv k ∈ (Rd (F := F) m).duties ((peer k c : Thread nD τ), SemLoc.reg s) 0 := by
    rw [hs]; exact (duties_bar m (peer k c)).symm ▸ Finset.mem_univ _
  have hk : (Rd (F := F) m).amount ((peer k c : Thread nD τ), SemLoc.reg s) 0 (pinv k) = 1 := by
    rw [hs]; exact amount_bar m (peer k c) (pinv k)
  have hp : (Rd (F := F) m).payload ((peer k c : Thread nD τ), SemLoc.reg s) 0 (pinv k) = barPay (peer k c) (pinv k) := by
    rw [hs]; exact payload_bar m (peer k c) (pinv k)
  unfold cell
  rw [← hs, ← hp]
  exact Rounds.wp_signal 𝒱₀ ER (Rd m) (c : Thread nD τ) none (κ := K (peer k c, 0)) hd hk () O rfl (W := W) (by routes)

end Cert.Kernel.AG

end
-- ==== Proof.Bits.Dist.lean ====
/-
  A band read by several at once: dealt out, and put together again.

  A piece that has landed is read by several transfers at the same time, each under a share of its own.  Right
  after the arrival the band is dealt out into those shares (and, where one reader takes fewer rows, along the rows);
  at the end the shares come back and are joined.  The device's own staged block is read by five at once: the copy
  of the whole block under one half, and the four first ring transfers, each under a share of the other half on its
  band of rows, the rest of the block under that share staying with the device.
-/
import proofs.«900685_g7700000000000686_dist_ag_v7x_xyz2x2x4_z_m2048_n512_f32_1_alg».proof.Proof.Bits.WaitSteps

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A band of the scratch array, dealt into shares -/

/-- A band at the whole share is the band at four shares. -/
theorem sPts_deal4 (c : Dev nD) (a n : ℕ) (X : (cc0_scratch0 : Ref sig .tc).ty.Contents (Elt F)) :
    sPts c a n fullShare X ⊣⊢ iprop(sPts c a n fullShare.left X ∗ sPts c a n fullShare.right.left X
      ∗ sPts c a n fullShare.right.right.left X ∗ sPts c a n fullShare.right.right.right X) :=
  (sPts_share c a n fullShare X).trans (sep_congr_right
    ((sPts_share c a n fullShare.right X).trans (sep_congr_right (sPts_share c a n fullShare.right.right X))))

/-- A band of 256 rows at the whole share is one half of it, and the other half on its first 88 and last 168 rows. -/
theorem sPts_deal3 (c : Dev nD) (a : ℕ) (X : (cc0_scratch0 : Ref sig .tc).ty.Contents (Elt F)) :
    sPts c a 256 fullShare X ⊣⊢ iprop(sPts c a 256 fullShare.left X ∗ sPts c a 88 fullShare.right X
      ∗ sPts c (a + 88) 168 fullShare.right X) :=
  (sPts_share c a 256 fullShare X).trans (sep_congr_right (sPts_rows c a 88 168 fullShare.right X))

/-! ## The landed pieces -/

/-- The own-quarter pieces (flows 0 and 2) are read by four. -/
theorem deal_q_at (c : Dev nD) (f : Fin 10) (hf : f = 0 ∨ f = 2) (h : Fin 3) (n : ℕ) (hn : h.val = n) :
    recvPay m c f h ⊣⊢ iprop(sPts c (lo f n c) 256 fullShare.left (Gd m (org f n c))
      ∗ sPts c (lo f n c) 256 fullShare.right.left (Gd m (org f n c))
      ∗ sPts c (lo f n c) 256 fullShare.right.right.left (Gd m (org f n c))
      ∗ sPts c (lo f n c) 256 fullShare.right.right.right (Gd m (org f n c))) := by
  subst hn
  rcases hf with rfl | rfl <;> exact sPts_deal4 c _ 256 _

theorem deal_q (c : Dev nD) (f : Fin 10) (hf : f = 0 ∨ f = 2) (h : Fin 3) :
    recvPay m c f h ⊣⊢ iprop(sPts c (lo f h.val c) 256 fullShare.left (Gd m (org f h.val c))
      ∗ sPts c (lo f h.val c) 256 fullShare.right.left (Gd m (org f h.val c))
      ∗ sPts c (lo f h.val c) 256 fullShare.right.right.left (Gd m (org f h.val c))
      ∗ sPts c (lo f h.val c) 256 fullShare.right.right.right (Gd m (org f h.val c))) :=
  deal_q_at m c f hf h h.val rfl

/-- The diagonal-quarter pieces (flows 1 and 3) are read by two. -/
theorem deal_d_at (c : Dev nD) (f : Fin 10) (hf : f = 1 ∨ f = 3) (h : Fin 3) (n : ℕ) (hn : h.val = n) :
    recvPay m c f h ⊣⊢ iprop(sPts c (lo f n c) 88 fullShare.left (Gd m (org f n c))
      ∗ sPts c (lo f n c) 88 fullShare.right (Gd m (org f n c))) := by
  subst hn
  rcases hf with rfl | rfl <;> exact sPts_share c _ 88 fullShare _

theorem deal_d (c : Dev nD) (f : Fin 10) (hf : f = 1 ∨ f = 3) (h : Fin 3) :
    recvPay m c f h ⊣⊢ iprop(sPts c (lo f h.val c) 88 fullShare.left (Gd m (org f h.val c))
      ∗ sPts c (lo f h.val c) 88 fullShare.right (Gd m (org f h.val c))) :=
  deal_d_at m c f hf h h.val rfl

/-- The side pieces that are relayed (flows 5 and 6) are read by the copy, and on their last 168 rows by the relay. -/
theorem deal_r_at (c : Dev nD) (f : Fin 10) (hf : f = 5 ∨ f = 6) (h : Fin 3) (n : ℕ) (hn : h.val = n) :
    recvPay m c f h ⊣⊢ iprop(sPts c (lo f n c) 256 fullShare.left (Gd m (org f n c))
      ∗ sPts c (lo f n c) 88 fullShare.right (Gd m (org f n c))
      ∗ sPts c (lo f n c + 88) 168 fullShare.right (Gd m (org f n c))) := by
  subst hn
  rcases hf with rfl | rfl <;> exact sPts_deal3 c _ _

theorem deal_r (c : Dev nD) (f : Fin 10) (hf : f = 5 ∨ f = 6) (h : Fin 3) :
    recvPay m c f h ⊣⊢ iprop(sPts c (lo f h.val c) 256 fullShare.left (Gd m (org f h.val c))
      ∗ sPts c (lo f h.val c) 88 fullShare.right (Gd m (org f h.val c))
      ∗ sPts c (lo f h.val c + 88) 168 fullShare.right (Gd m (org f h.val c))) :=
  deal_r_at m c f hf h h.val rfl

/-- The pieces read by the copy alone (flows 4, 7, 8 and 9) stay whole. -/
theorem recvPay_full_at (c : Dev nD) (f : Fin 10) (h : Fin 3) (n : ℕ) (hn : h.val = n) :
    recvPay m c f h = sPts c (lo f n c) (flowRows f) fullShare (Gd m (org f n c)) := by
  subst hn; rfl

theorem recvPay_full (c : Dev nD) (f : Fin 10) (hf : f = 4 ∨ f = 7 ∨ f = 8 ∨ f = 9) (h : Fin 3) :
    recvPay m c f h = sPts c (lo f h.val c) (flowRows f) fullShare (Gd m (org f h.val c)) := rfl

theorem recvPay_f4 (c : Dev nD) (h : Fin 3) (n : ℕ) (hn : h.val = n) :
    recvPay m c 4 h = sPts c (lo 4 n c) 256 fullShare (Gd m (org 4 n c)) := by subst hn; rfl
theorem recvPay_f7 (c : Dev nD) (h : Fin 3) (n : ℕ) (hn : h.val = n) :
    recvPay m c 7 h = sPts c (lo 7 n c) 256 fullShare (Gd m (org 7 n c)) := by subst hn; rfl
theorem recvPay_f8 (c : Dev nD) (h : Fin 3) (n : ℕ) (hn : h.val = n) :
    recvPay m c 8 h = sPts c (lo 8 n c) 168 fullShare (Gd m (org 8 n c)) := by subst hn; rfl
theorem recvPay_f9 (c : Dev nD) (h : Fin 3) (n : ℕ) (hn : h.val = n) :
    recvPay m c 9 h = sPts c (lo 9 n c) 168 fullShare (Gd m (org 9 n c)) := by subst hn; rfl

/-! ## The staged block -/

/-- What stays with the device of its staged block under the share lent to the first transfer of ring flow `f`:
    the rows outside that transfer's band. -/
def blkRest (c : Dev nD) (f : Fin 10) : sProp 𝕄 :=
  ((c : Thread nD τ).loc cc0_stg0_0) ↦[BRows 0 2048 \ BRows (blkLo f c) (flowRows f)]{r0Share f} xstg m c

instance blkRest_storable (c : Dev nD) (f : Fin 10) : BI.Storable (upEmb : UEmb _ 𝕄) (blkRest (F := F) m c f) := by
  unfold blkRest; infer_instance

/-- The block under the share of ring flow `f`'s first transfer is that transfer's band and the rest. -/
theorem xPts_band (c : Dev nD) (f : Fin 10) (hf : f.val < 4) :
    xPts m c 0 2048 (r0Share f) ⊣⊢ iprop(xPts m c (blkLo f c) (flowRows f) (r0Share f) ∗ blkRest m c f) := by
  unfold xPts blkRest
  exact Region.is_split_subset (BRows_sub ⟨Nat.zero_le _, by have := blkLo_add_le f c hf; omega⟩)

/-- The staged block is read by five at once. -/
theorem deal_blk (c : Dev nD) :
    xPts m c 0 2048 fullShare ⊣⊢ iprop(xPts m c 0 2048 fullShare.left
      ∗ (xPts m c (blkLo 0 c) 256 (r0Share 0) ∗ blkRest m c 0)
      ∗ (xPts m c (blkLo 2 c) 256 (r0Share 2) ∗ blkRest m c 2)
      ∗ (xPts m c (blkLo 1 c) 88 (r0Share 1) ∗ blkRest m c 1)
      ∗ (xPts m c (blkLo 3 c) 88 (r0Share 3) ∗ blkRest m c 3)) :=
  (xPts_share m c 0 2048 fullShare).trans (sep_congr_right
    ((xPts_share m c 0 2048 fullShare.right).trans (sep_congr (xPts_band m c 0 (by decide))
      ((xPts_share m c 0 2048 fullShare.right.right).trans (sep_congr (xPts_band m c 2 (by decide))
        ((xPts_share m c 0 2048 fullShare.right.right.right).trans
          (sep_congr (xPts_band m c 1 (by decide)) (xPts_band m c 3 (by decide)))))))))

/-! ## What the departure and copy cells hand back, read off -/

theorem sendPay_ring0 (c : Dev nD) (f : Fin 10) (hf : f.val < 4) :
    sendPay m c f 0 = xPts m c (blkLo f c) (flowRows f) (r0Share f) := by
  unfold sendPay; exact if_pos ⟨hf, rfl⟩

theorem sendPay_stage (c : Dev nD) (f : Fin 10) (h : Fin 3) (hh : ¬ (f.val < 4 ∧ h.val = 0)) :
    sendPay m c f h = sPts c (lo (srcOf f h).1 (srcOf f h).2.1 c + (srcOf f h).2.2) (flowRows f) (sShare f)
      (Gd m (org (srcOf f h).1 (srcOf f h).2.1 c)) := by
  unfold sendPay; exact if_neg hh

theorem cpPay_own (c : Dev nD) :
    cpPay m c 31 = iprop(oPts c (2048 * (c.val % 4)) 2048 fullShare (Gd m c) ∗ xPts m c 0 2048 fullShare.left) := by
  unfold cpPay; exact if_pos rfl

theorem cpPay_land (c : Dev nD) (i : Fin 32) (hi : i.val < 30) :
    cpPay m c i = iprop(oPts c (lo (cpSrc i).1 (cpSrc i).2 c) (flowRows (cpSrc i).1) fullShare (Gd m (org (cpSrc i).1 (cpSrc i).2 c))
      ∗ sPts c (lo (cpSrc i).1 (cpSrc i).2 c) (flowRows (cpSrc i).1) (cpShare (cpSrc i).1) (Gd m (org (cpSrc i).1 (cpSrc i).2 c))) := by
  unfold cpPay; exact if_neg (by omega)

end Cert.Kernel.AG

end
-- ==== Proof.Bits.Cover.lean ====
/-
  The thirty-one pieces of an 8192-row buffer.

  On device c = 8 x + 4 y + z the 8192 rows of the scratch array, and of the result, are tiled by the device's own
  block (rows 2048 z to 2048 z + 2048) and the thirty bands in which the pieces of flow f < 10 land at hop h < 3.
  A row r lies in block r / 2048, quarter r % 2048 / 512, and one of the four segments [0, 88), [88, 256), [256, 344),
  [344, 512) of its quarter; every band is a union of segments of one quarter.  The piece of a row is found by looking
  its segment up among the thirty bands; rows of no band are the own block's.  The pieces are the fibres of this map,
  so they are pairwise disjoint and cover the buffer by construction: ownership of a whole buffer splits into the
  thirty-one pieces and joins back.
-/
import proofs.«900685_g7700000000000686_dist_ag_v7x_xyz2x2x4_z_m2048_n512_f32_1_alg».proof.Proof.Bits.Sched

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The fibres of a map on the indices of a buffer -/

section Fibres

variable {ℓ : Loc nD τ sig} {n : ℕ}

/-- The indices a map sends to `p`. -/
def fib (g : Idx ℓ → Fin n) (p : Fin n) : Finset (Idx ℓ) := Finset.univ.filter fun i => g i = p
/-- The indices a map sends into the list `l`. -/
def fibL (g : Idx ℓ → Fin n) (l : List (Fin n)) : Finset (Idx ℓ) := Finset.univ.filter fun i => g i ∈ l

theorem mem_fib {g : Idx ℓ → Fin n} {p : Fin n} {i : Idx ℓ} : i ∈ fib g p ↔ g i = p := by
  unfold fib; rw [Finset.mem_filter]; exact ⟨fun h => h.2, fun h => ⟨Finset.mem_univ _, h⟩⟩
theorem mem_fibL {g : Idx ℓ → Fin n} {l : List (Fin n)} {i : Idx ℓ} : i ∈ fibL g l ↔ g i ∈ l := by
  unfold fibL; rw [Finset.mem_filter]; exact ⟨fun h => h.2, fun h => ⟨Finset.mem_univ _, h⟩⟩

theorem fib_disjoint (g : Idx ℓ → Fin n) {p p' : Fin n} (h : p ≠ p') : Disjoint (fib g p) (fib g p') :=
  Finset.disjoint_left.mpr fun i hi hi' => h ((mem_fib.mp hi).symm.trans (mem_fib.mp hi'))

theorem fibL_singleton (g : Idx ℓ → Fin n) (p : Fin n) : fibL g [p] = fib g p := by
  ext i; rw [mem_fibL, mem_fib, List.mem_singleton]
theorem fibL_cons (g : Idx ℓ → Fin n) (p : Fin n) (l : List (Fin n)) : fibL g (p :: l) = fib g p ∪ fibL g l := by
  ext i; rw [Finset.mem_union, mem_fibL, mem_fib, mem_fibL, List.mem_cons]
theorem fib_disjoint_fibL (g : Idx ℓ → Fin n) {p : Fin n} {l : List (Fin n)} (h : p ∉ l) : Disjoint (fib g p) (fibL g l) :=
  Finset.disjoint_left.mpr fun i hi hi' => h (mem_fib.mp hi ▸ mem_fibL.mp hi')
theorem fibL_finRange (g : Idx ℓ → Fin n) : fibL g (List.finRange n) = Finset.univ := by
  ext i; rw [mem_fibL]; exact ⟨fun _ => Finset.mem_univ _, fun _ => List.mem_finRange _⟩

omit [FloatOps F] in
/-- Ownership of the indices sent into a list is the chain of the ownerships of the fibres. -/
theorem pointsTo_fibL (g : Idx ℓ → Fin n) (q : PosShare TreeShare) (f : Buf (Elt F) ℓ) :
    ∀ (l : List (Fin n)), l ≠ [] → l.Nodup →
      ((ℓ ↦[fibL g l]{q} f : sProp 𝕄) = bigSepL l (fun p => (ℓ ↦[fib g p]{q} f : sProp 𝕄)))
  | [], h, _ => absurd rfl h
  | [p], _, _ => by rw [fibL_singleton, bigSepL_singleton]
  | p :: p' :: l, _, hn => by
    obtain ⟨hp, hn'⟩ := List.nodup_cons.mp hn
    rw [fibL_cons, bigSepL_cons_cons, ← pointsTo_fibL g q f (p' :: l) (List.cons_ne_nil _ _) hn']
    have h : ((ℓ ↦[fib g p ∪ fibL g (p' :: l)]{q} f : sProp 𝕄) ⊣⊢ (ℓ ↦[fib g p]{q} f) ∗ (ℓ ↦[fibL g (p' :: l)]{q} f)) :=
      Region.is_union (fib_disjoint_fibL g hp)
    exact Entails.antisymm h.1 h.2

omit [FloatOps F] in
/-- The fibres, each owned in full at some contents, join to the indices sent into the list at some contents. -/
theorem pointsTo_fibL_join (g : Idx ℓ → Fin n) :
    ∀ (l : List (Fin n)), l ≠ [] → l.Nodup →
      bigSepL l (fun p => (iprop(∃ f : Buf (Elt F) ℓ, ℓ ↦[fib g p]{fullShare} f) : sProp 𝕄))
        ⊢ iprop(∃ f : Buf (Elt F) ℓ, ℓ ↦[fibL g l]{fullShare} f)
  | [], h, _ => absurd rfl h
  | [p], _, _ => by rw [fibL_singleton, bigSepL_singleton]
  | p :: p' :: l, _, hn => by
    obtain ⟨hp, hn'⟩ := List.nodup_cons.mp hn
    rw [fibL_cons, bigSepL_cons_cons]
    refine (sep_mono_right (pointsTo_fibL_join g (p' :: l) (List.cons_ne_nil _ _) hn')).trans ?_
    iintro ⟨⟨%f1, H1⟩, ⟨%f2, H2⟩⟩
    iexists ((fibL g (p' :: l)).piecewise f2 f1)
    have hj : ((ℓ ↦[fib g p]{fullShare} f1 : sProp 𝕄) ∗ (ℓ ↦[fibL g (p' :: l)]{fullShare} f2)
        ⊢ ℓ ↦[fib g p ∪ fibL g (p' :: l)]{fullShare} ((fibL g (p' :: l)).piecewise f2 f1)) := Region.is_join (fib_disjoint_fibL g hp)
    iapply hj $$ [H1 H2]
    isplitl [H1]
    · iexact H1
    · iexact H2

end Fibres

omit [FloatOps F] in
/-- Ownership of a whole buffer is the chain of the ownerships of the fibres of a map on its indices. -/
theorem split_fib {ℓ : Loc nD τ sig} {n : ℕ} (g : Idx ℓ → Fin n) (hn : 0 < n) (q : PosShare TreeShare) (f : Buf (Elt F) ℓ) :
    (ℓ ↦{q} f : sProp 𝕄) ⊣⊢ bigSepL (List.finRange n) (fun p => (ℓ ↦[fib g p]{q} f : sProp 𝕄)) := by
  have hne : List.finRange n ≠ [] := fun e => by
    have h := congrArg List.length e
    rw [List.length_finRange, List.length_nil] at h
    omega
  have h := pointsTo_fibL (F := F) g q f (List.finRange n) hne (List.nodup_finRange n)
  rw [fibL_finRange] at h
  exact ⟨Entails.of_eq h, Entails.of_eq h.symm⟩

omit [FloatOps F] in
/-- The fibres of a map on the indices of a buffer, each owned in full at some contents, join to the whole buffer. -/
theorem join_fib {ℓ : Loc nD τ sig} {n : ℕ} (g : Idx ℓ → Fin n) (hn : 0 < n) :
    bigSepL (List.finRange n) (fun p => (iprop(∃ f : Buf (Elt F) ℓ, ℓ ↦[fib g p]{fullShare} f) : sProp 𝕄))
      ⊢ iprop(∃ f : Buf (Elt F) ℓ, ℓ ↦{fullShare} f) := by
  have hne : List.finRange n ≠ [] := fun e => by
    have h := congrArg List.length e
    rw [List.length_finRange, List.length_nil] at h
    omega
  have h := pointsTo_fibL_join (F := F) g (List.finRange n) hne (List.nodup_finRange n)
  rw [fibL_finRange] at h
  exact h

/-! ## The piece of a row -/

/-- The segment of a row within its quarter: [0, 88), [88, 256), [256, 344) or [344, 512). -/
def segOf (t : ℕ) : ℕ := if t < 88 then 0 else if t < 256 then 1 else if t < 344 then 2 else 3
/-- The first row of a segment. -/
def segLo (s : ℕ) : ℕ := match s with | 0 => 0 | 1 => 88 | 2 => 256 | _ => 344
/-- The row after the last of a segment. -/
def segHi (s : ℕ) : ℕ := match s with | 0 => 88 | 1 => 256 | 2 => 344 | _ => 512

theorem segOf_lt (t : ℕ) : segOf t < 4 := by
  unfold segOf; split_ifs <;> decide

theorem segOf_spec (t : ℕ) (h : t < 512) : segLo (segOf t) ≤ t ∧ t < segHi (segOf t) := by
  unfold segOf
  by_cases h1 : t < 88
  · rw [if_pos h1]; exact ⟨Nat.zero_le _, h1⟩
  by_cases h2 : t < 256
  · rw [if_neg h1, if_pos h2]; exact ⟨Nat.le_of_not_lt h1, h2⟩
  by_cases h3 : t < 344
  · rw [if_neg h1, if_neg h2, if_pos h3]; exact ⟨Nat.le_of_not_lt h2, h3⟩
  · rw [if_neg h1, if_neg h2, if_neg h3]; exact ⟨Nat.le_of_not_lt h3, h⟩

/-- A row lies in its segment of its quarter of its block. -/
theorem row_seg (r : ℕ) :
    band (r / 2048) (r % 2048 / 512) (segLo (segOf (r % 512))) ≤ r ∧ r < band (r / 2048) (r % 2048 / 512) (segHi (segOf (r % 512))) := by
  have h := segOf_spec (r % 512) (Nat.mod_lt _ (by decide))
  unfold band
  omega

/-- The thirty pairs of a flow and a hop. -/
def allFH : List (Fin 10 × Fin 3) := (List.finRange 10).flatMap fun f => (List.finRange 3).map fun h => (f, h)

/-- Segment `s` of quarter `k` of block `zb` lies within the band of flow `fh.1` landing at hop `fh.2`. -/
def inBand (c : Dev nD) (zb k s : ℕ) (fh : Fin 10 × Fin 3) : Bool :=
  decide (lo fh.1 fh.2.val c ≤ band zb k (segLo s) ∧ band zb k (segHi s) ≤ lo fh.1 fh.2.val c + flowRows fh.1)

/-- The flow and hop within whose band a segment lies, if any. -/
def fhOf (c : Dev nD) (zb k s : ℕ) : Option (Fin 10 × Fin 3) := allFH.find? (inBand c zb k s)

/-- Piece 3 f + h is the band of flow `f`, hop `h`; piece 30 is the own block. -/
def pieceIdx (f : Fin 10) (h : Fin 3) : Fin 31 := ⟨3 * f.val + h.val, by omega⟩

/-- The piece row `r` belongs to. -/
def cls (c : Dev nD) (r : ℕ) : Fin 31 :=
  match fhOf c (r / 2048) (r % 2048 / 512) (segOf (r % 512)) with
  | some fh => pieceIdx fh.1 fh.2
  | none => 30

/-- The indices of piece `p`. -/
def pieceSet (c : Dev nD) (p : Fin 31) : Finset S8192x512.Idx := Finset.univ.filter fun i => cls c (i 0).val = p

theorem mem_pieceSet {c : Dev nD} {p : Fin 31} {i : S8192x512.Idx} : i ∈ pieceSet c p ↔ cls c (i 0).val = p := by
  unfold pieceSet; rw [Finset.mem_filter]; exact ⟨fun h => h.2, fun h => ⟨Finset.mem_univ _, h⟩⟩

theorem pieceSet_disjoint (c : Dev nD) {p p' : Fin 31} (h : p ≠ p') : Disjoint (pieceSet c p) (pieceSet c p') :=
  Finset.disjoint_left.mpr fun i hi hi' => h ((mem_pieceSet.mp hi).symm.trans (mem_pieceSet.mp hi'))

theorem pieceSet_cover (c : Dev nD) (i : S8192x512.Idx) : i ∈ pieceSet c (cls c (i 0).val) := mem_pieceSet.mpr rfl

/-! ## A buffer split into its pieces and joined back -/

omit [FloatOps F] in
theorem split_pieces_s (c : Dev nD) (q : PosShare TreeShare) (f : (cc0_scratch0 : Ref sig .tc).ty.Contents (Elt F)) :
    ((((c : Thread nD τ).loc cc0_scratch0) ↦{q} f : sProp 𝕄))
      ⊣⊢ bigSepL (List.finRange 31) (fun p => ((((c : Thread nD τ).loc cc0_scratch0) ↦[pieceSet c p]{q} f : sProp 𝕄))) :=
  split_fib (ℓ := (c : Thread nD τ).loc cc0_scratch0) (fun i => cls c (i 0).val) (by decide) q f

omit [FloatOps F] in
theorem split_pieces_o (c : Dev nD) (q : PosShare TreeShare) (f : (main_v1 : Ref sig .tc).ty.Contents (Elt F)) :
    ((((c : Thread nD τ).loc main_v1) ↦{q} f : sProp 𝕄))
      ⊣⊢ bigSepL (List.finRange 31) (fun p => ((((c : Thread nD τ).loc main_v1) ↦[pieceSet c p]{q} f : sProp 𝕄))) :=
  split_fib (ℓ := (c : Thread nD τ).loc main_v1) (fun i => cls c (i 0).val) (by decide) q f

omit [FloatOps F] in
theorem join_pieces_s (c : Dev nD) :
    bigSepL (List.finRange 31) (fun p => (iprop(∃ g : (cc0_scratch0 : Ref sig .tc).ty.Contents (Elt F),
        ((c : Thread nD τ).loc cc0_scratch0) ↦[pieceSet c p]{fullShare} g) : sProp 𝕄))
      ⊢ iprop(∃ g : (cc0_scratch0 : Ref sig .tc).ty.Contents (Elt F), ((c : Thread nD τ).loc cc0_scratch0) ↦{fullShare} g) :=
  join_fib (ℓ := (c : Thread nD τ).loc cc0_scratch0) (fun i => cls c (i 0).val) (by decide)

omit [FloatOps F] in
theorem join_pieces_o (c : Dev nD) :
    bigSepL (List.finRange 31) (fun p => (iprop(∃ g : (main_v1 : Ref sig .tc).ty.Contents (Elt F),
        ((c : Thread nD τ).loc main_v1) ↦[pieceSet c p]{fullShare} g) : sProp 𝕄))
      ⊢ iprop(∃ g : (main_v1 : Ref sig .tc).ty.Contents (Elt F), ((c : Thread nD τ).loc main_v1) ↦{fullShare} g) :=
  join_fib (ℓ := (c : Thread nD τ).loc main_v1) (fun i => cls c (i 0).val) (by decide)

/-! ## Which rows a piece has -/

theorem pieceIdx_inj {f f' : Fin 10} {h h' : Fin 3} (e : pieceIdx f h = pieceIdx f' h') : f = f' ∧ h = h' := by
  revert f f' h h'; decide
theorem pieceIdx_ne_own (f : Fin 10) (h : Fin 3) : pieceIdx f h ≠ 30 := by revert f h; decide

theorem cls_eq_land {c : Dev nD} {r : ℕ} {f : Fin 10} {h : Fin 3} :
    cls c r = pieceIdx f h ↔ fhOf c (r / 2048) (r % 2048 / 512) (segOf (r % 512)) = some (f, h) := by
  unfold cls
  cases fhOf c (r / 2048) (r % 2048 / 512) (segOf (r % 512)) with
  | none => exact ⟨fun e => absurd e.symm (pieceIdx_ne_own f h), fun e => by cases e⟩
  | some fh =>
    obtain ⟨f', h'⟩ := fh
    show pieceIdx f' h' = pieceIdx f h ↔ some (f', h') = some (f, h)
    constructor
    · intro e; obtain ⟨e1, e2⟩ := pieceIdx_inj e; rw [e1, e2]
    · intro e; obtain ⟨e1, e2⟩ := Prod.mk.inj (Option.some.inj e); rw [e1, e2]

theorem cls_eq_own {c : Dev nD} {r : ℕ} :
    cls c r = 30 ↔ fhOf c (r / 2048) (r % 2048 / 512) (segOf (r % 512)) = none := by
  unfold cls
  cases fhOf c (r / 2048) (r % 2048 / 512) (segOf (r % 512)) with
  | none => exact ⟨fun _ => rfl, fun _ => rfl⟩
  | some fh => exact ⟨fun e => absurd e (pieceIdx_ne_own fh.1 fh.2), fun e => by cases e⟩

/-- A segment that meets a band lies within it, and is looked up as that band's. -/
theorem fhOf_of_meets : ∀ (c : Dev nD) (f : Fin 10) (h : Fin 3) (zb k s : Fin 4),
    band zb.val k.val (segLo s.val) < lo f h.val c + flowRows f → lo f h.val c < band zb.val k.val (segHi s.val) →
      fhOf c zb.val k.val s.val = some (f, h) := by decide +kernel

/-- A segment of no band is in the own block. -/
theorem own_of_fhOf_none : ∀ (c : Dev nD) (zb k s : Fin 4), fhOf c zb.val k.val s.val = none → zb.val = c.val % 4 := by
  decide +kernel

/-- The segments of the own block are of no band. -/
theorem fhOf_own : ∀ (c : Dev nD) (k s : Fin 4), fhOf c (c.val % 4) k.val s.val = none := by decide +kernel

theorem pieceSet_land (c : Dev nD) (f : Fin 10) (h : Fin 3) : pieceSet c (pieceIdx f h) = Rows (lo f h.val c) (flowRows f) := by
  ext i
  rw [mem_pieceSet, mem_Rows, cls_eq_land]
  have hr : (i 0).val < 8192 := (i 0).isLt
  generalize (i 0).val = r at hr ⊢
  have hs := row_seg r
  constructor
  · intro e
    have hb : lo f h.val c ≤ band (r / 2048) (r % 2048 / 512) (segLo (segOf (r % 512)))
        ∧ band (r / 2048) (r % 2048 / 512) (segHi (segOf (r % 512))) ≤ lo f h.val c + flowRows f :=
      of_decide_eq_true (List.find?_some (p := inBand c (r / 2048) (r % 2048 / 512) (segOf (r % 512))) (l := allFH) e)
    omega
  · intro hh
    exact fhOf_of_meets c f h ⟨r / 2048, by omega⟩ ⟨r % 2048 / 512, by omega⟩ ⟨segOf (r % 512), segOf_lt _⟩
      (Nat.lt_of_le_of_lt hs.1 hh.2) (Nat.lt_of_le_of_lt hh.1 hs.2)

theorem pieceSet_own (c : Dev nD) : pieceSet c 30 = Rows (2048 * (c.val % 4)) 2048 := by
  ext i
  rw [mem_pieceSet, mem_Rows, cls_eq_own]
  have hr : (i 0).val < 8192 := (i 0).isLt
  generalize (i 0).val = r at hr ⊢
  constructor
  · intro e
    have hz : r / 2048 = c.val % 4 :=
      own_of_fhOf_none c ⟨r / 2048, by omega⟩ ⟨r % 2048 / 512, by omega⟩ ⟨segOf (r % 512), segOf_lt _⟩ e
    omega
  · intro hh
    have hz : r / 2048 = c.val % 4 := by omega
    rw [hz]
    exact fhOf_own c ⟨r % 2048 / 512, by omega⟩ ⟨segOf (r % 512), segOf_lt _⟩

/-! ## The same with the thirty-one pieces written out -/

omit [FloatOps F] in
theorem split_pieces_s_chain (c : Dev nD) (q : PosShare TreeShare) (f : (cc0_scratch0 : Ref sig .tc).ty.Contents (Elt F)) :
    ((((c : Thread nD τ).loc cc0_scratch0) ↦{q} f : sProp 𝕄))
      ⊣⊢ iprop((((c : Thread nD τ).loc cc0_scratch0) ↦[pieceSet c 0]{q} f) ∗ (((c : Thread nD τ).loc cc0_scratch0) ↦[pieceSet c 1]{q} f) ∗
        (((c : Thread nD τ).loc cc0_scratch0) ↦[pieceSet c 2]{q} f) ∗ (((c : Thread nD τ).loc cc0_scratch0) ↦[pieceSet c 3]{q} f) ∗
        (((c : Thread nD τ).loc cc0_scratch0) ↦[pieceSet c 4]{q} f) ∗ (((c : Thread nD τ).loc cc0_scratch0) ↦[pieceSet c 5]{q} f) ∗
        (((c : Thread nD τ).loc cc0_scratch0) ↦[pieceSet c 6]{q} f) ∗ (((c : Thread nD τ).loc cc0_scratch0) ↦[pieceSet c 7]{q} f) ∗
        (((c : Thread nD τ).loc cc0_scratch0) ↦[pieceSet c 8]{q} f) ∗ (((c : Thread nD τ).loc cc0_scratch0) ↦[pieceSet c 9]{q} f) ∗
        (((c : Thread nD τ).loc cc0_scratch0) ↦[pieceSet c 10]{q} f) ∗ (((c : Thread nD τ).loc cc0_scratch0) ↦[pieceSet c 11]{q} f) ∗
        (((c : Thread nD τ).loc cc0_scratch0) ↦[pieceSet c 12]{q} f) ∗ (((c : Thread nD τ).loc cc0_scratch0) ↦[pieceSet c 13]{q} f) ∗
        (((c : Thread nD τ).loc cc0_scratch0) ↦[pieceSet c 14]{q} f) ∗ (((c : Thread nD τ).loc cc0_scratch0) ↦[pieceSet c 15]{q} f) ∗
        (((c : Thread nD τ).loc cc0_scratch0) ↦[pieceSet c 16]{q} f) ∗ (((c : Thread nD τ).loc cc0_scratch0) ↦[pieceSet c 17]{q} f) ∗
        (((c : Thread nD τ).loc cc0_scratch0) ↦[pieceSet c 18]{q} f) ∗ (((c : Thread nD τ).loc cc0_scratch0) ↦[pieceSet c 19]{q} f) ∗
        (((c : Thread nD τ).loc cc0_scratch0) ↦[pieceSet c 20]{q} f) ∗ (((c : Thread nD τ).loc cc0_scratch0) ↦[pieceSet c 21]{q} f) ∗
        (((c : Thread nD τ).loc cc0_scratch0) ↦[pieceSet c 22]{q} f) ∗ (((c : Thread nD τ).loc cc0_scratch0) ↦[pieceSet c 23]{q} f) ∗
        (((c : Thread nD τ).loc cc0_scratch0) ↦[pieceSet c 24]{q} f) ∗ (((c : Thread nD τ).loc cc0_scratch0) ↦[pieceSet c 25]{q} f) ∗
        (((c : Thread nD τ).loc cc0_scratch0) ↦[pieceSet c 26]{q} f) ∗ (((c : Thread nD τ).loc cc0_scratch0) ↦[pieceSet c 27]{q} f) ∗
        (((c : Thread nD τ).loc cc0_scratch0) ↦[pieceSet c 28]{q} f) ∗ (((c : Thread nD τ).loc cc0_scratch0) ↦[pieceSet c 29]{q} f) ∗
        (((c : Thread nD τ).loc cc0_scratch0) ↦[pieceSet c 30]{q} f)) :=
  split_pieces_s c q f

omit [FloatOps F] in
theorem split_pieces_o_chain (c : Dev nD) (q : PosShare TreeShare) (f : (main_v1 : Ref sig .tc).ty.Contents (Elt F)) :
    ((((c : Thread nD τ).loc main_v1) ↦{q} f : sProp 𝕄))
      ⊣⊢ iprop((((c : Thread nD τ).loc main_v1) ↦[pieceSet c 0]{q} f) ∗ (((c : Thread nD τ).loc main_v1) ↦[pieceSet c 1]{q} f) ∗
        (((c : Thread nD τ).loc main_v1) ↦[pieceSet c 2]{q} f) ∗ (((c : Thread nD τ).loc main_v1) ↦[pieceSet c 3]{q} f) ∗
        (((c : Thread nD τ).loc main_v1) ↦[pieceSet c 4]{q} f) ∗ (((c : Thread nD τ).loc main_v1) ↦[pieceSet c 5]{q} f) ∗
        (((c : Thread nD τ).loc main_v1) ↦[pieceSet c 6]{q} f) ∗ (((c : Thread nD τ).loc main_v1) ↦[pieceSet c 7]{q} f) ∗
        (((c : Thread nD τ).loc main_v1) ↦[pieceSet c 8]{q} f) ∗ (((c : Thread nD τ).loc main_v1) ↦[pieceSet c 9]{q} f) ∗
        (((c : Thread nD τ).loc main_v1) ↦[pieceSet c 10]{q} f) ∗ (((c : Thread nD τ).loc main_v1) ↦[pieceSet c 11]{q} f) ∗
        (((c : Thread nD τ).loc main_v1) ↦[pieceSet c 12]{q} f) ∗ (((c : Thread nD τ).loc main_v1) ↦[pieceSet c 13]{q} f) ∗
        (((c : Thread nD τ).loc main_v1) ↦[pieceSet c 14]{q} f) ∗ (((c : Thread nD τ).loc main_v1) ↦[pieceSet c 15]{q} f) ∗
        (((c : Thread nD τ).loc main_v1) ↦[pieceSet c 16]{q} f) ∗ (((c : Thread nD τ).loc main_v1) ↦[pieceSet c 17]{q} f) ∗
        (((c : Thread nD τ).loc main_v1) ↦[pieceSet c 18]{q} f) ∗ (((c : Thread nD τ).loc main_v1) ↦[pieceSet c 19]{q} f) ∗
        (((c : Thread nD τ).loc main_v1) ↦[pieceSet c 20]{q} f) ∗ (((c : Thread nD τ).loc main_v1) ↦[pieceSet c 21]{q} f) ∗
        (((c : Thread nD τ).loc main_v1) ↦[pieceSet c 22]{q} f) ∗ (((c : Thread nD τ).loc main_v1) ↦[pieceSet c 23]{q} f) ∗
        (((c : Thread nD τ).loc main_v1) ↦[pieceSet c 24]{q} f) ∗ (((c : Thread nD τ).loc main_v1) ↦[pieceSet c 25]{q} f) ∗
        (((c : Thread nD τ).loc main_v1) ↦[pieceSet c 26]{q} f) ∗ (((c : Thread nD τ).loc main_v1) ↦[pieceSet c 27]{q} f) ∗
        (((c : Thread nD τ).loc main_v1) ↦[pieceSet c 28]{q} f) ∗ (((c : Thread nD τ).loc main_v1) ↦[pieceSet c 29]{q} f) ∗
        (((c : Thread nD τ).loc main_v1) ↦[pieceSet c 30]{q} f)) :=
  split_pieces_o c q f

omit [FloatOps F] in
theorem join_pieces_s_chain (c : Dev nD) :
    (iprop((∃ g : (cc0_scratch0 : Ref sig .tc).ty.Contents (Elt F), ((c : Thread nD τ).loc cc0_scratch0) ↦[pieceSet c 0]{fullShare} g) ∗
        (∃ g : (cc0_scratch0 : Ref sig .tc).ty.Contents (Elt F), ((c : Thread nD τ).loc cc0_scratch0) ↦[pieceSet c 1]{fullShare} g) ∗
        (∃ g : (cc0_scratch0 : Ref sig .tc).ty.Contents (Elt F), ((c : Thread nD τ).loc cc0_scratch0) ↦[pieceSet c 2]{fullShare} g) ∗
        (∃ g : (cc0_scratch0 : Ref sig .tc).ty.Contents (Elt F), ((c : Thread nD τ).loc cc0_scratch0) ↦[pieceSet c 3]{fullShare} g) ∗
        (∃ g : (cc0_scratch0 : Ref sig .tc).ty.Contents (Elt F), ((c : Thread nD τ).loc cc0_scratch0) ↦[pieceSet c 4]{fullShare} g) ∗
        (∃ g : (cc0_scratch0 : Ref sig .tc).ty.Contents (Elt F), ((c : Thread nD τ).loc cc0_scratch0) ↦[pieceSet c 5]{fullShare} g) ∗
        (∃ g : (cc0_scratch0 : Ref sig .tc).ty.Contents (Elt F), ((c : Thread nD τ).loc cc0_scratch0) ↦[pieceSet c 6]{fullShare} g) ∗
        (∃ g : (cc0_scratch0 : Ref sig .tc).ty.Contents (Elt F), ((c : Thread nD τ).loc cc0_scratch0) ↦[pieceSet c 7]{fullShare} g) ∗
        (∃ g : (cc0_scratch0 : Ref sig .tc).ty.Contents (Elt F), ((c : Thread nD τ).loc cc0_scratch0) ↦[pieceSet c 8]{fullShare} g) ∗
        (∃ g : (cc0_scratch0 : Ref sig .tc).ty.Contents (Elt F), ((c : Thread nD τ).loc cc0_scratch0) ↦[pieceSet c 9]{fullShare} g) ∗
        (∃ g : (cc0_scratch0 : Ref sig .tc).ty.Contents (Elt F), ((c : Thread nD τ).loc cc0_scratch0) ↦[pieceSet c 10]{fullShare} g) ∗
        (∃ g : (cc0_scratch0 : Ref sig .tc).ty.Contents (Elt F), ((c : Thread nD τ).loc cc0_scratch0) ↦[pieceSet c 11]{fullShare} g) ∗
        (∃ g : (cc0_scratch0 : Ref sig .tc).ty.Contents (Elt F), ((c : Thread nD τ).loc cc0_scratch0) ↦[pieceSet c 12]{fullShare} g) ∗
        (∃ g : (cc0_scratch0 : Ref sig .tc).ty.Contents (Elt F), ((c : Thread nD τ).loc cc0_scratch0) ↦[pieceSet c 13]{fullShare} g) ∗
        (∃ g : (cc0_scratch0 : Ref sig .tc).ty.Contents (Elt F), ((c : Thread nD τ).loc cc0_scratch0) ↦[pieceSet c 14]{fullShare} g) ∗
        (∃ g : (cc0_scratch0 : Ref sig .tc).ty.Contents (Elt F), ((c : Thread nD τ).loc cc0_scratch0) ↦[pieceSet c 15]{fullShare} g) ∗
        (∃ g : (cc0_scratch0 : Ref sig .tc).ty.Contents (Elt F), ((c : Thread nD τ).loc cc0_scratch0) ↦[pieceSet c 16]{fullShare} g) ∗
        (∃ g : (cc0_scratch0 : Ref sig .tc).ty.Contents (Elt F), ((c : Thread nD τ).loc cc0_scratch0) ↦[pieceSet c 17]{fullShare} g) ∗
        (∃ g : (cc0_scratch0 : Ref sig .tc).ty.Contents (Elt F), ((c : Thread nD τ).loc cc0_scratch0) ↦[pieceSet c 18]{fullShare} g) ∗
        (∃ g : (cc0_scratch0 : Ref sig .tc).ty.Contents (Elt F), ((c : Thread nD τ).loc cc0_scratch0) ↦[pieceSet c 19]{fullShare} g) ∗
        (∃ g : (cc0_scratch0 : Ref sig .tc).ty.Contents (Elt F), ((c : Thread nD τ).loc cc0_scratch0) ↦[pieceSet c 20]{fullShare} g) ∗
        (∃ g : (cc0_scratch0 : Ref sig .tc).ty.Contents (Elt F), ((c : Thread nD τ).loc cc0_scratch0) ↦[pieceSet c 21]{fullShare} g) ∗
        (∃ g : (cc0_scratch0 : Ref sig .tc).ty.Contents (Elt F), ((c : Thread nD τ).loc cc0_scratch0) ↦[pieceSet c 22]{fullShare} g) ∗
        (∃ g : (cc0_scratch0 : Ref sig .tc).ty.Contents (Elt F), ((c : Thread nD τ).loc cc0_scratch0) ↦[pieceSet c 23]{fullShare} g) ∗
        (∃ g : (cc0_scratch0 : Ref sig .tc).ty.Contents (Elt F), ((c : Thread nD τ).loc cc0_scratch0) ↦[pieceSet c 24]{fullShare} g) ∗
        (∃ g : (cc0_scratch0 : Ref sig .tc).ty.Contents (Elt F), ((c : Thread nD τ).loc cc0_scratch0) ↦[pieceSet c 25]{fullShare} g) ∗
        (∃ g : (cc0_scratch0 : Ref sig .tc).ty.Contents (Elt F), ((c : Thread nD τ).loc cc0_scratch0) ↦[pieceSet c 26]{fullShare} g) ∗
        (∃ g : (cc0_scratch0 : Ref sig .tc).ty.Contents (Elt F), ((c : Thread nD τ).loc cc0_scratch0) ↦[pieceSet c 27]{fullShare} g) ∗
        (∃ g : (cc0_scratch0 : Ref sig .tc).ty.Contents (Elt F), ((c : Thread nD τ).loc cc0_scratch0) ↦[pieceSet c 28]{fullShare} g) ∗
        (∃ g : (cc0_scratch0 : Ref sig .tc).ty.Contents (Elt F), ((c : Thread nD τ).loc cc0_scratch0) ↦[pieceSet c 29]{fullShare} g) ∗
        (∃ g : (cc0_scratch0 : Ref sig .tc).ty.Contents (Elt F), ((c : Thread nD τ).loc cc0_scratch0) ↦[pieceSet c 30]{fullShare} g)) : sProp 𝕄)
      ⊢ iprop(∃ g : (cc0_scratch0 : Ref sig .tc).ty.Contents (Elt F), ((c : Thread nD τ).loc cc0_scratch0) ↦{fullShare} g) :=
  join_pieces_s c

omit [FloatOps F] in
theorem join_pieces_o_chain (c : Dev nD) :
    (iprop((∃ g : (main_v1 : Ref sig .tc).ty.Contents (Elt F), ((c : Thread nD τ).loc main_v1) ↦[pieceSet c 0]{fullShare} g) ∗
        (∃ g : (main_v1 : Ref sig .tc).ty.Contents (Elt F), ((c : Thread nD τ).loc main_v1) ↦[pieceSet c 1]{fullShare} g) ∗
        (∃ g : (main_v1 : Ref sig .tc).ty.Contents (Elt F), ((c : Thread nD τ).loc main_v1) ↦[pieceSet c 2]{fullShare} g) ∗
        (∃ g : (main_v1 : Ref sig .tc).ty.Contents (Elt F), ((c : Thread nD τ).loc main_v1) ↦[pieceSet c 3]{fullShare} g) ∗
        (∃ g : (main_v1 : Ref sig .tc).ty.Contents (Elt F), ((c : Thread nD τ).loc main_v1) ↦[pieceSet c 4]{fullShare} g) ∗
        (∃ g : (main_v1 : Ref sig .tc).ty.Contents (Elt F), ((c : Thread nD τ).loc main_v1) ↦[pieceSet c 5]{fullShare} g) ∗
        (∃ g : (main_v1 : Ref sig .tc).ty.Contents (Elt F), ((c : Thread nD τ).loc main_v1) ↦[pieceSet c 6]{fullShare} g) ∗
        (∃ g : (main_v1 : Ref sig .tc).ty.Contents (Elt F), ((c : Thread nD τ).loc main_v1) ↦[pieceSet c 7]{fullShare} g) ∗
        (∃ g : (main_v1 : Ref sig .tc).ty.Contents (Elt F), ((c : Thread nD τ).loc main_v1) ↦[pieceSet c 8]{fullShare} g) ∗
        (∃ g : (main_v1 : Ref sig .tc).ty.Contents (Elt F), ((c : Thread nD τ).loc main_v1) ↦[pieceSet c 9]{fullShare} g) ∗
        (∃ g : (main_v1 : Ref sig .tc).ty.Contents (Elt F), ((c : Thread nD τ).loc main_v1) ↦[pieceSet c 10]{fullShare} g) ∗
        (∃ g : (main_v1 : Ref sig .tc).ty.Contents (Elt F), ((c : Thread nD τ).loc main_v1) ↦[pieceSet c 11]{fullShare} g) ∗
        (∃ g : (main_v1 : Ref sig .tc).ty.Contents (Elt F), ((c : Thread nD τ).loc main_v1) ↦[pieceSet c 12]{fullShare} g) ∗
        (∃ g : (main_v1 : Ref sig .tc).ty.Contents (Elt F), ((c : Thread nD τ).loc main_v1) ↦[pieceSet c 13]{fullShare} g) ∗
        (∃ g : (main_v1 : Ref sig .tc).ty.Contents (Elt F), ((c : Thread nD τ).loc main_v1) ↦[pieceSet c 14]{fullShare} g) ∗
        (∃ g : (main_v1 : Ref sig .tc).ty.Contents (Elt F), ((c : Thread nD τ).loc main_v1) ↦[pieceSet c 15]{fullShare} g) ∗
        (∃ g : (main_v1 : Ref sig .tc).ty.Contents (Elt F), ((c : Thread nD τ).loc main_v1) ↦[pieceSet c 16]{fullShare} g) ∗
        (∃ g : (main_v1 : Ref sig .tc).ty.Contents (Elt F), ((c : Thread nD τ).loc main_v1) ↦[pieceSet c 17]{fullShare} g) ∗
        (∃ g : (main_v1 : Ref sig .tc).ty.Contents (Elt F), ((c : Thread nD τ).loc main_v1) ↦[pieceSet c 18]{fullShare} g) ∗
        (∃ g : (main_v1 : Ref sig .tc).ty.Contents (Elt F), ((c : Thread nD τ).loc main_v1) ↦[pieceSet c 19]{fullShare} g) ∗
        (∃ g : (main_v1 : Ref sig .tc).ty.Contents (Elt F), ((c : Thread nD τ).loc main_v1) ↦[pieceSet c 20]{fullShare} g) ∗
        (∃ g : (main_v1 : Ref sig .tc).ty.Contents (Elt F), ((c : Thread nD τ).loc main_v1) ↦[pieceSet c 21]{fullShare} g) ∗
        (∃ g : (main_v1 : Ref sig .tc).ty.Contents (Elt F), ((c : Thread nD τ).loc main_v1) ↦[pieceSet c 22]{fullShare} g) ∗
        (∃ g : (main_v1 : Ref sig .tc).ty.Contents (Elt F), ((c : Thread nD τ).loc main_v1) ↦[pieceSet c 23]{fullShare} g) ∗
        (∃ g : (main_v1 : Ref sig .tc).ty.Contents (Elt F), ((c : Thread nD τ).loc main_v1) ↦[pieceSet c 24]{fullShare} g) ∗
        (∃ g : (main_v1 : Ref sig .tc).ty.Contents (Elt F), ((c : Thread nD τ).loc main_v1) ↦[pieceSet c 25]{fullShare} g) ∗
        (∃ g : (main_v1 : Ref sig .tc).ty.Contents (Elt F), ((c : Thread nD τ).loc main_v1) ↦[pieceSet c 26]{fullShare} g) ∗
        (∃ g : (main_v1 : Ref sig .tc).ty.Contents (Elt F), ((c : Thread nD τ).loc main_v1) ↦[pieceSet c 27]{fullShare} g) ∗
        (∃ g : (main_v1 : Ref sig .tc).ty.Contents (Elt F), ((c : Thread nD τ).loc main_v1) ↦[pieceSet c 28]{fullShare} g) ∗
        (∃ g : (main_v1 : Ref sig .tc).ty.Contents (Elt F), ((c : Thread nD τ).loc main_v1) ↦[pieceSet c 29]{fullShare} g) ∗
        (∃ g : (main_v1 : Ref sig .tc).ty.Contents (Elt F), ((c : Thread nD τ).loc main_v1) ↦[pieceSet c 30]{fullShare} g)) : sProp 𝕄)
      ⊢ iprop(∃ g : (main_v1 : Ref sig .tc).ty.Contents (Elt F), ((c : Thread nD τ).loc main_v1) ↦{fullShare} g) :=
  join_pieces_o c

/-! ## The same with every piece as its band of rows -/

omit [FloatOps F] in
theorem sep_congr {A A' B B' : sProp 𝕄} (ea : A = A') (eb : B = B') : (iprop(A ∗ B) : sProp 𝕄) = iprop(A' ∗ B') := by
  rw [ea, eb]

omit [FloatOps F] in
theorem sPts_piece (c : Dev nD) (f : Fin 10) (h : Fin 3) (p : Fin 31) (hp : p = pieceIdx f h) (hn : ℕ) (hh : hn = h.val)
    (q : PosShare TreeShare) (X : (cc0_scratch0 : Ref sig .tc).ty.Contents (Elt F)) :
    ((((c : Thread nD τ).loc cc0_scratch0) ↦[pieceSet c p]{q} X : sProp 𝕄)) = sPts c (lo f hn c) (flowRows f) q X := by
  subst hp hh; unfold sPts; rw [pieceSet_land]
omit [FloatOps F] in
theorem sPts_own (c : Dev nD) (q : PosShare TreeShare) (X : (cc0_scratch0 : Ref sig .tc).ty.Contents (Elt F)) :
    ((((c : Thread nD τ).loc cc0_scratch0) ↦[pieceSet c 30]{q} X : sProp 𝕄)) = sPts c (2048 * (c.val % 4)) 2048 q X := by
  unfold sPts; rw [pieceSet_own]
omit [FloatOps F] in
theorem oPts_piece (c : Dev nD) (f : Fin 10) (h : Fin 3) (p : Fin 31) (hp : p = pieceIdx f h) (hn : ℕ) (hh : hn = h.val)
    (q : PosShare TreeShare) (X : (main_v1 : Ref sig .tc).ty.Contents (Elt F)) :
    ((((c : Thread nD τ).loc main_v1) ↦[pieceSet c p]{q} X : sProp 𝕄)) = oPts c (lo f hn c) (flowRows f) q X := by
  subst hp hh; unfold oPts; rw [pieceSet_land]
omit [FloatOps F] in
theorem oPts_own (c : Dev nD) (q : PosShare TreeShare) (X : (main_v1 : Ref sig .tc).ty.Contents (Elt F)) :
    ((((c : Thread nD τ).loc main_v1) ↦[pieceSet c 30]{q} X : sProp 𝕄)) = oPts c (2048 * (c.val % 4)) 2048 q X := by
  unfold oPts; rw [pieceSet_own]

omit [FloatOps F] in
theorem sPtsE_piece (c : Dev nD) (f : Fin 10) (h : Fin 3) (p : Fin 31) (hp : p = pieceIdx f h) (hn : ℕ) (hh : hn = h.val) :
    (iprop(∃ g : (cc0_scratch0 : Ref sig .tc).ty.Contents (Elt F), ((c : Thread nD τ).loc cc0_scratch0) ↦[pieceSet c p]{fullShare} g) : sProp 𝕄)
      = iprop(∃ g : (cc0_scratch0 : Ref sig .tc).ty.Contents (Elt F), sPts (F := F) c (lo f hn c) (flowRows f) fullShare g) := by
  subst hp hh; unfold sPts; rw [pieceSet_land]
omit [FloatOps F] in
theorem sPtsE_own (c : Dev nD) :
    (iprop(∃ g : (cc0_scratch0 : Ref sig .tc).ty.Contents (Elt F), ((c : Thread nD τ).loc cc0_scratch0) ↦[pieceSet c 30]{fullShare} g) : sProp 𝕄)
      = iprop(∃ g : (cc0_scratch0 : Ref sig .tc).ty.Contents (Elt F), sPts (F := F) c (2048 * (c.val % 4)) 2048 fullShare g) := by
  unfold sPts; rw [pieceSet_own]
omit [FloatOps F] in
theorem oPtsE_piece (c : Dev nD) (f : Fin 10) (h : Fin 3) (p : Fin 31) (hp : p = pieceIdx f h) (hn : ℕ) (hh : hn = h.val) :
    (iprop(∃ g : (main_v1 : Ref sig .tc).ty.Contents (Elt F), ((c : Thread nD τ).loc main_v1) ↦[pieceSet c p]{fullShare} g) : sProp 𝕄)
      = iprop(∃ g : (main_v1 : Ref sig .tc).ty.Contents (Elt F), oPts (F := F) c (lo f hn c) (flowRows f) fullShare g) := by
  subst hp hh; unfold oPts; rw [pieceSet_land]
omit [FloatOps F] in
theorem oPtsE_own (c : Dev nD) :
    (iprop(∃ g : (main_v1 : Ref sig .tc).ty.Contents (Elt F), ((c : Thread nD τ).loc main_v1) ↦[pieceSet c 30]{fullShare} g) : sProp 𝕄)
      = iprop(∃ g : (main_v1 : Ref sig .tc).ty.Contents (Elt F), oPts (F := F) c (2048 * (c.val % 4)) 2048 fullShare g) := by
  unfold oPts; rw [pieceSet_own]

omit [FloatOps F] in
theorem split_bands_s (c : Dev nD) (q : PosShare TreeShare) (f : (cc0_scratch0 : Ref sig .tc).ty.Contents (Elt F)) :
    ((((c : Thread nD τ).loc cc0_scratch0) ↦{q} f : sProp 𝕄))
      ⊣⊢ iprop(sPts (F := F) c (lo 0 0 c) (flowRows 0) q f ∗ sPts (F := F) c (lo 0 1 c) (flowRows 0) q f ∗
        sPts (F := F) c (lo 0 2 c) (flowRows 0) q f ∗ sPts (F := F) c (lo 1 0 c) (flowRows 1) q f ∗
        sPts (F := F) c (lo 1 1 c) (flowRows 1) q f ∗ sPts (F := F) c (lo 1 2 c) (flowRows 1) q f ∗
        sPts (F := F) c (lo 2 0 c) (flowRows 2) q f ∗ sPts (F := F) c (lo 2 1 c) (flowRows 2) q f ∗
        sPts (F := F) c (lo 2 2 c) (flowRows 2) q f ∗ sPts (F := F) c (lo 3 0 c) (flowRows 3) q f ∗
        sPts (F := F) c (lo 3 1 c) (flowRows 3) q f ∗ sPts (F := F) c (lo 3 2 c) (flowRows 3) q f ∗
        sPts (F := F) c (lo 4 0 c) (flowRows 4) q f ∗ sPts (F := F) c (lo 4 1 c) (flowRows 4) q f ∗
        sPts (F := F) c (lo 4 2 c) (flowRows 4) q f ∗ sPts (F := F) c (lo 5 0 c) (flowRows 5) q f ∗
        sPts (F := F) c (lo 5 1 c) (flowRows 5) q f ∗ sPts (F := F) c (lo 5 2 c) (flowRows 5) q f ∗
        sPts (F := F) c (lo 6 0 c) (flowRows 6) q f ∗ sPts (F := F) c (lo 6 1 c) (flowRows 6) q f ∗
        sPts (F := F) c (lo 6 2 c) (flowRows 6) q f ∗ sPts (F := F) c (lo 7 0 c) (flowRows 7) q f ∗
        sPts (F := F) c (lo 7 1 c) (flowRows 7) q f ∗ sPts (F := F) c (lo 7 2 c) (flowRows 7) q f ∗
        sPts (F := F) c (lo 8 0 c) (flowRows 8) q f ∗ sPts (F := F) c (lo 8 1 c) (flowRows 8) q f ∗
        sPts (F := F) c (lo 8 2 c) (flowRows 8) q f ∗ sPts (F := F) c (lo 9 0 c) (flowRows 9) q f ∗
        sPts (F := F) c (lo 9 1 c) (flowRows 9) q f ∗ sPts (F := F) c (lo 9 2 c) (flowRows 9) q f ∗
        sPts (F := F) c (2048 * (c.val % 4)) 2048 q f) := by
  have h := split_pieces_s_chain (F := F) c q f
  have e := sep_congr (sPts_piece c 0 0 0 (by decide) 0 rfl q f)
    (sep_congr (sPts_piece c 0 1 1 (by decide) 1 rfl q f)
    (sep_congr (sPts_piece c 0 2 2 (by decide) 2 rfl q f)
    (sep_congr (sPts_piece c 1 0 3 (by decide) 0 rfl q f)
    (sep_congr (sPts_piece c 1 1 4 (by decide) 1 rfl q f)
    (sep_congr (sPts_piece c 1 2 5 (by decide) 2 rfl q f)
    (sep_congr (sPts_piece c 2 0 6 (by decide) 0 rfl q f)
    (sep_congr (sPts_piece c 2 1 7 (by decide) 1 rfl q f)
    (sep_congr (sPts_piece c 2 2 8 (by decide) 2 rfl q f)
    (sep_congr (sPts_piece c 3 0 9 (by decide) 0 rfl q f)
    (sep_congr (sPts_piece c 3 1 10 (by decide) 1 rfl q f)
    (sep_congr (sPts_piece c 3 2 11 (by decide) 2 rfl q f)
    (sep_congr (sPts_piece c 4 0 12 (by decide) 0 rfl q f)
    (sep_congr (sPts_piece c 4 1 13 (by decide) 1 rfl q f)
    (sep_congr (sPts_piece c 4 2 14 (by decide) 2 rfl q f)
    (sep_congr (sPts_piece c 5 0 15 (by decide) 0 rfl q f)
    (sep_congr (sPts_piece c 5 1 16 (by decide) 1 rfl q f)
    (sep_congr (sPts_piece c 5 2 17 (by decide) 2 rfl q f)
    (sep_congr (sPts_piece c 6 0 18 (by decide) 0 rfl q f)
    (sep_congr (sPts_piece c 6 1 19 (by decide) 1 rfl q f)
    (sep_congr (sPts_piece c 6 2 20 (by decide) 2 rfl q f)
    (sep_congr (sPts_piece c 7 0 21 (by decide) 0 rfl q f)
    (sep_congr (sPts_piece c 7 1 22 (by decide) 1 rfl q f)
    (sep_congr (sPts_piece c 7 2 23 (by decide) 2 rfl q f)
    (sep_congr (sPts_piece c 8 0 24 (by decide) 0 rfl q f)
    (sep_congr (sPts_piece c 8 1 25 (by decide) 1 rfl q f)
    (sep_congr (sPts_piece c 8 2 26 (by decide) 2 rfl q f)
    (sep_congr (sPts_piece c 9 0 27 (by decide) 0 rfl q f)
    (sep_congr (sPts_piece c 9 1 28 (by decide) 1 rfl q f)
    (sep_congr (sPts_piece c 9 2 29 (by decide) 2 rfl q f)
    ((sPts_own c q f)))))))))))))))))))))))))))))))
  exact ⟨h.1.trans (Entails.of_eq e), (Entails.of_eq e.symm).trans h.2⟩

omit [FloatOps F] in
theorem split_bands_o (c : Dev nD) (q : PosShare TreeShare) (f : (main_v1 : Ref sig .tc).ty.Contents (Elt F)) :
    ((((c : Thread nD τ).loc main_v1) ↦{q} f : sProp 𝕄))
      ⊣⊢ iprop(oPts (F := F) c (lo 0 0 c) (flowRows 0) q f ∗ oPts (F := F) c (lo 0 1 c) (flowRows 0) q f ∗
        oPts (F := F) c (lo 0 2 c) (flowRows 0) q f ∗ oPts (F := F) c (lo 1 0 c) (flowRows 1) q f ∗
        oPts (F := F) c (lo 1 1 c) (flowRows 1) q f ∗ oPts (F := F) c (lo 1 2 c) (flowRows 1) q f ∗
        oPts (F := F) c (lo 2 0 c) (flowRows 2) q f ∗ oPts (F := F) c (lo 2 1 c) (flowRows 2) q f ∗
        oPts (F := F) c (lo 2 2 c) (flowRows 2) q f ∗ oPts (F := F) c (lo 3 0 c) (flowRows 3) q f ∗
        oPts (F := F) c (lo 3 1 c) (flowRows 3) q f ∗ oPts (F := F) c (lo 3 2 c) (flowRows 3) q f ∗
        oPts (F := F) c (lo 4 0 c) (flowRows 4) q f ∗ oPts (F := F) c (lo 4 1 c) (flowRows 4) q f ∗
        oPts (F := F) c (lo 4 2 c) (flowRows 4) q f ∗ oPts (F := F) c (lo 5 0 c) (flowRows 5) q f ∗
        oPts (F := F) c (lo 5 1 c) (flowRows 5) q f ∗ oPts (F := F) c (lo 5 2 c) (flowRows 5) q f ∗
        oPts (F := F) c (lo 6 0 c) (flowRows 6) q f ∗ oPts (F := F) c (lo 6 1 c) (flowRows 6) q f ∗
        oPts (F := F) c (lo 6 2 c) (flowRows 6) q f ∗ oPts (F := F) c (lo 7 0 c) (flowRows 7) q f ∗
        oPts (F := F) c (lo 7 1 c) (flowRows 7) q f ∗ oPts (F := F) c (lo 7 2 c) (flowRows 7) q f ∗
        oPts (F := F) c (lo 8 0 c) (flowRows 8) q f ∗ oPts (F := F) c (lo 8 1 c) (flowRows 8) q f ∗
        oPts (F := F) c (lo 8 2 c) (flowRows 8) q f ∗ oPts (F := F) c (lo 9 0 c) (flowRows 9) q f ∗
        oPts (F := F) c (lo 9 1 c) (flowRows 9) q f ∗ oPts (F := F) c (lo 9 2 c) (flowRows 9) q f ∗
        oPts (F := F) c (2048 * (c.val % 4)) 2048 q f) := by
  have h := split_pieces_o_chain (F := F) c q f
  have e := sep_congr (oPts_piece c 0 0 0 (by decide) 0 rfl q f)
    (sep_congr (oPts_piece c 0 1 1 (by decide) 1 rfl q f)
    (sep_congr (oPts_piece c 0 2 2 (by decide) 2 rfl q f)
    (sep_congr (oPts_piece c 1 0 3 (by decide) 0 rfl q f)
    (sep_congr (oPts_piece c 1 1 4 (by decide) 1 rfl q f)
    (sep_congr (oPts_piece c 1 2 5 (by decide) 2 rfl q f)
    (sep_congr (oPts_piece c 2 0 6 (by decide) 0 rfl q f)
    (sep_congr (oPts_piece c 2 1 7 (by decide) 1 rfl q f)
    (sep_congr (oPts_piece c 2 2 8 (by decide) 2 rfl q f)
    (sep_congr (oPts_piece c 3 0 9 (by decide) 0 rfl q f)
    (sep_congr (oPts_piece c 3 1 10 (by decide) 1 rfl q f)
    (sep_congr (oPts_piece c 3 2 11 (by decide) 2 rfl q f)
    (sep_congr (oPts_piece c 4 0 12 (by decide) 0 rfl q f)
    (sep_congr (oPts_piece c 4 1 13 (by decide) 1 rfl q f)
    (sep_congr (oPts_piece c 4 2 14 (by decide) 2 rfl q f)
    (sep_congr (oPts_piece c 5 0 15 (by decide) 0 rfl q f)
    (sep_congr (oPts_piece c 5 1 16 (by decide) 1 rfl q f)
    (sep_congr (oPts_piece c 5 2 17 (by decide) 2 rfl q f)
    (sep_congr (oPts_piece c 6 0 18 (by decide) 0 rfl q f)
    (sep_congr (oPts_piece c 6 1 19 (by decide) 1 rfl q f)
    (sep_congr (oPts_piece c 6 2 20 (by decide) 2 rfl q f)
    (sep_congr (oPts_piece c 7 0 21 (by decide) 0 rfl q f)
    (sep_congr (oPts_piece c 7 1 22 (by decide) 1 rfl q f)
    (sep_congr (oPts_piece c 7 2 23 (by decide) 2 rfl q f)
    (sep_congr (oPts_piece c 8 0 24 (by decide) 0 rfl q f)
    (sep_congr (oPts_piece c 8 1 25 (by decide) 1 rfl q f)
    (sep_congr (oPts_piece c 8 2 26 (by decide) 2 rfl q f)
    (sep_congr (oPts_piece c 9 0 27 (by decide) 0 rfl q f)
    (sep_congr (oPts_piece c 9 1 28 (by decide) 1 rfl q f)
    (sep_congr (oPts_piece c 9 2 29 (by decide) 2 rfl q f)
    ((oPts_own c q f)))))))))))))))))))))))))))))))
  exact ⟨h.1.trans (Entails.of_eq e), (Entails.of_eq e.symm).trans h.2⟩

omit [FloatOps F] in
theorem join_bands_s (c : Dev nD) :
    (iprop((∃ g : (cc0_scratch0 : Ref sig .tc).ty.Contents (Elt F), sPts (F := F) c (lo 0 0 c) (flowRows 0) fullShare g) ∗
        (∃ g : (cc0_scratch0 : Ref sig .tc).ty.Contents (Elt F), sPts (F := F) c (lo 0 1 c) (flowRows 0) fullShare g) ∗
        (∃ g : (cc0_scratch0 : Ref sig .tc).ty.Contents (Elt F), sPts (F := F) c (lo 0 2 c) (flowRows 0) fullShare g) ∗
        (∃ g : (cc0_scratch0 : Ref sig .tc).ty.Contents (Elt F), sPts (F := F) c (lo 1 0 c) (flowRows 1) fullShare g) ∗
        (∃ g : (cc0_scratch0 : Ref sig .tc).ty.Contents (Elt F), sPts (F := F) c (lo 1 1 c) (flowRows 1) fullShare g) ∗
        (∃ g : (cc0_scratch0 : Ref sig .tc).ty.Contents (Elt F), sPts (F := F) c (lo 1 2 c) (flowRows 1) fullShare g) ∗
        (∃ g : (cc0_scratch0 : Ref sig .tc).ty.Contents (Elt F), sPts (F := F) c (lo 2 0 c) (flowRows 2) fullShare g) ∗
        (∃ g : (cc0_scratch0 : Ref sig .tc).ty.Contents (Elt F), sPts (F := F) c (lo 2 1 c) (flowRows 2) fullShare g) ∗
        (∃ g : (cc0_scratch0 : Ref sig .tc).ty.Contents (Elt F), sPts (F := F) c (lo 2 2 c) (flowRows 2) fullShare g) ∗
        (∃ g : (cc0_scratch0 : Ref sig .tc).ty.Contents (Elt F), sPts (F := F) c (lo 3 0 c) (flowRows 3) fullShare g) ∗
        (∃ g : (cc0_scratch0 : Ref sig .tc).ty.Contents (Elt F), sPts (F := F) c (lo 3 1 c) (flowRows 3) fullShare g) ∗
        (∃ g : (cc0_scratch0 : Ref sig .tc).ty.Contents (Elt F), sPts (F := F) c (lo 3 2 c) (flowRows 3) fullShare g) ∗
        (∃ g : (cc0_scratch0 : Ref sig .tc).ty.Contents (Elt F), sPts (F := F) c (lo 4 0 c) (flowRows 4) fullShare g) ∗
        (∃ g : (cc0_scratch0 : Ref sig .tc).ty.Contents (Elt F), sPts (F := F) c (lo 4 1 c) (flowRows 4) fullShare g) ∗
        (∃ g : (cc0_scratch0 : Ref sig .tc).ty.Contents (Elt F), sPts (F := F) c (lo 4 2 c) (flowRows 4) fullShare g) ∗
        (∃ g : (cc0_scratch0 : Ref sig .tc).ty.Contents (Elt F), sPts (F := F) c (lo 5 0 c) (flowRows 5) fullShare g) ∗
        (∃ g : (cc0_scratch0 : Ref sig .tc).ty.Contents (Elt F), sPts (F := F) c (lo 5 1 c) (flowRows 5) fullShare g) ∗
        (∃ g : (cc0_scratch0 : Ref sig .tc).ty.Contents (Elt F), sPts (F := F) c (lo 5 2 c) (flowRows 5) fullShare g) ∗
        (∃ g : (cc0_scratch0 : Ref sig .tc).ty.Contents (Elt F), sPts (F := F) c (lo 6 0 c) (flowRows 6) fullShare g) ∗
        (∃ g : (cc0_scratch0 : Ref sig .tc).ty.Contents (Elt F), sPts (F := F) c (lo 6 1 c) (flowRows 6) fullShare g) ∗
        (∃ g : (cc0_scratch0 : Ref sig .tc).ty.Contents (Elt F), sPts (F := F) c (lo 6 2 c) (flowRows 6) fullShare g) ∗
        (∃ g : (cc0_scratch0 : Ref sig .tc).ty.Contents (Elt F), sPts (F := F) c (lo 7 0 c) (flowRows 7) fullShare g) ∗
        (∃ g : (cc0_scratch0 : Ref sig .tc).ty.Contents (Elt F), sPts (F := F) c (lo 7 1 c) (flowRows 7) fullShare g) ∗
        (∃ g : (cc0_scratch0 : Ref sig .tc).ty.Contents (Elt F), sPts (F := F) c (lo 7 2 c) (flowRows 7) fullShare g) ∗
        (∃ g : (cc0_scratch0 : Ref sig .tc).ty.Contents (Elt F), sPts (F := F) c (lo 8 0 c) (flowRows 8) fullShare g) ∗
        (∃ g : (cc0_scratch0 : Ref sig .tc).ty.Contents (Elt F), sPts (F := F) c (lo 8 1 c) (flowRows 8) fullShare g) ∗
        (∃ g : (cc0_scratch0 : Ref sig .tc).ty.Contents (Elt F), sPts (F := F) c (lo 8 2 c) (flowRows 8) fullShare g) ∗
        (∃ g : (cc0_scratch0 : Ref sig .tc).ty.Contents (Elt F), sPts (F := F) c (lo 9 0 c) (flowRows 9) fullShare g) ∗
        (∃ g : (cc0_scratch0 : Ref sig .tc).ty.Contents (Elt F), sPts (F := F) c (lo 9 1 c) (flowRows 9) fullShare g) ∗
        (∃ g : (cc0_scratch0 : Ref sig .tc).ty.Contents (Elt F), sPts (F := F) c (lo 9 2 c) (flowRows 9) fullShare g) ∗
        (∃ g : (cc0_scratch0 : Ref sig .tc).ty.Contents (Elt F), sPts (F := F) c (2048 * (c.val % 4)) 2048 fullShare g)) : sProp 𝕄)
      ⊢ iprop(∃ g : (cc0_scratch0 : Ref sig .tc).ty.Contents (Elt F), ((c : Thread nD τ).loc cc0_scratch0) ↦{fullShare} g) := by
  have h := join_pieces_s_chain (F := F) c
  have e := sep_congr (sPtsE_piece (F := F) c 0 0 0 (by decide) 0 rfl)
    (sep_congr (sPtsE_piece (F := F) c 0 1 1 (by decide) 1 rfl)
    (sep_congr (sPtsE_piece (F := F) c 0 2 2 (by decide) 2 rfl)
    (sep_congr (sPtsE_piece (F := F) c 1 0 3 (by decide) 0 rfl)
    (sep_congr (sPtsE_piece (F := F) c 1 1 4 (by decide) 1 rfl)
    (sep_congr (sPtsE_piece (F := F) c 1 2 5 (by decide) 2 rfl)
    (sep_congr (sPtsE_piece (F := F) c 2 0 6 (by decide) 0 rfl)
    (sep_congr (sPtsE_piece (F := F) c 2 1 7 (by decide) 1 rfl)
    (sep_congr (sPtsE_piece (F := F) c 2 2 8 (by decide) 2 rfl)
    (sep_congr (sPtsE_piece (F := F) c 3 0 9 (by decide) 0 rfl)
    (sep_congr (sPtsE_piece (F := F) c 3 1 10 (by decide) 1 rfl)
    (sep_congr (sPtsE_piece (F := F) c 3 2 11 (by decide) 2 rfl)
    (sep_congr (sPtsE_piece (F := F) c 4 0 12 (by decide) 0 rfl)
    (sep_congr (sPtsE_piece (F := F) c 4 1 13 (by decide) 1 rfl)
    (sep_congr (sPtsE_piece (F := F) c 4 2 14 (by decide) 2 rfl)
    (sep_congr (sPtsE_piece (F := F) c 5 0 15 (by decide) 0 rfl)
    (sep_congr (sPtsE_piece (F := F) c 5 1 16 (by decide) 1 rfl)
    (sep_congr (sPtsE_piece (F := F) c 5 2 17 (by decide) 2 rfl)
    (sep_congr (sPtsE_piece (F := F) c 6 0 18 (by decide) 0 rfl)
    (sep_congr (sPtsE_piece (F := F) c 6 1 19 (by decide) 1 rfl)
    (sep_congr (sPtsE_piece (F := F) c 6 2 20 (by decide) 2 rfl)
    (sep_congr (sPtsE_piece (F := F) c 7 0 21 (by decide) 0 rfl)
    (sep_congr (sPtsE_piece (F := F) c 7 1 22 (by decide) 1 rfl)
    (sep_congr (sPtsE_piece (F := F) c 7 2 23 (by decide) 2 rfl)
    (sep_congr (sPtsE_piece (F := F) c 8 0 24 (by decide) 0 rfl)
    (sep_congr (sPtsE_piece (F := F) c 8 1 25 (by decide) 1 rfl)
    (sep_congr (sPtsE_piece (F := F) c 8 2 26 (by decide) 2 rfl)
    (sep_congr (sPtsE_piece (F := F) c 9 0 27 (by decide) 0 rfl)
    (sep_congr (sPtsE_piece (F := F) c 9 1 28 (by decide) 1 rfl)
    (sep_congr (sPtsE_piece (F := F) c 9 2 29 (by decide) 2 rfl)
    ((sPtsE_own (F := F) c)))))))))))))))))))))))))))))))
  exact (Entails.of_eq e.symm).trans h

omit [FloatOps F] in
theorem join_bands_o (c : Dev nD) :
    (iprop((∃ g : (main_v1 : Ref sig .tc).ty.Contents (Elt F), oPts (F := F) c (lo 0 0 c) (flowRows 0) fullShare g) ∗
        (∃ g : (main_v1 : Ref sig .tc).ty.Contents (Elt F), oPts (F := F) c (lo 0 1 c) (flowRows 0) fullShare g) ∗
        (∃ g : (main_v1 : Ref sig .tc).ty.Contents (Elt F), oPts (F := F) c (lo 0 2 c) (flowRows 0) fullShare g) ∗
        (∃ g : (main_v1 : Ref sig .tc).ty.Contents (Elt F), oPts (F := F) c (lo 1 0 c) (flowRows 1) fullShare g) ∗
        (∃ g : (main_v1 : Ref sig .tc).ty.Contents (Elt F), oPts (F := F) c (lo 1 1 c) (flowRows 1) fullShare g) ∗
        (∃ g : (main_v1 : Ref sig .tc).ty.Contents (Elt F), oPts (F := F) c (lo 1 2 c) (flowRows 1) fullShare g) ∗
        (∃ g : (main_v1 : Ref sig .tc).ty.Contents (Elt F), oPts (F := F) c (lo 2 0 c) (flowRows 2) fullShare g) ∗
        (∃ g : (main_v1 : Ref sig .tc).ty.Contents (Elt F), oPts (F := F) c (lo 2 1 c) (flowRows 2) fullShare g) ∗
        (∃ g : (main_v1 : Ref sig .tc).ty.Contents (Elt F), oPts (F := F) c (lo 2 2 c) (flowRows 2) fullShare g) ∗
        (∃ g : (main_v1 : Ref sig .tc).ty.Contents (Elt F), oPts (F := F) c (lo 3 0 c) (flowRows 3) fullShare g) ∗
        (∃ g : (main_v1 : Ref sig .tc).ty.Contents (Elt F), oPts (F := F) c (lo 3 1 c) (flowRows 3) fullShare g) ∗
        (∃ g : (main_v1 : Ref sig .tc).ty.Contents (Elt F), oPts (F := F) c (lo 3 2 c) (flowRows 3) fullShare g) ∗
        (∃ g : (main_v1 : Ref sig .tc).ty.Contents (Elt F), oPts (F := F) c (lo 4 0 c) (flowRows 4) fullShare g) ∗
        (∃ g : (main_v1 : Ref sig .tc).ty.Contents (Elt F), oPts (F := F) c (lo 4 1 c) (flowRows 4) fullShare g) ∗
        (∃ g : (main_v1 : Ref sig .tc).ty.Contents (Elt F), oPts (F := F) c (lo 4 2 c) (flowRows 4) fullShare g) ∗
        (∃ g : (main_v1 : Ref sig .tc).ty.Contents (Elt F), oPts (F := F) c (lo 5 0 c) (flowRows 5) fullShare g) ∗
        (∃ g : (main_v1 : Ref sig .tc).ty.Contents (Elt F), oPts (F := F) c (lo 5 1 c) (flowRows 5) fullShare g) ∗
        (∃ g : (main_v1 : Ref sig .tc).ty.Contents (Elt F), oPts (F := F) c (lo 5 2 c) (flowRows 5) fullShare g) ∗
        (∃ g : (main_v1 : Ref sig .tc).ty.Contents (Elt F), oPts (F := F) c (lo 6 0 c) (flowRows 6) fullShare g) ∗
        (∃ g : (main_v1 : Ref sig .tc).ty.Contents (Elt F), oPts (F := F) c (lo 6 1 c) (flowRows 6) fullShare g) ∗
        (∃ g : (main_v1 : Ref sig .tc).ty.Contents (Elt F), oPts (F := F) c (lo 6 2 c) (flowRows 6) fullShare g) ∗
        (∃ g : (main_v1 : Ref sig .tc).ty.Contents (Elt F), oPts (F := F) c (lo 7 0 c) (flowRows 7) fullShare g) ∗
        (∃ g : (main_v1 : Ref sig .tc).ty.Contents (Elt F), oPts (F := F) c (lo 7 1 c) (flowRows 7) fullShare g) ∗
        (∃ g : (main_v1 : Ref sig .tc).ty.Contents (Elt F), oPts (F := F) c (lo 7 2 c) (flowRows 7) fullShare g) ∗
        (∃ g : (main_v1 : Ref sig .tc).ty.Contents (Elt F), oPts (F := F) c (lo 8 0 c) (flowRows 8) fullShare g) ∗
        (∃ g : (main_v1 : Ref sig .tc).ty.Contents (Elt F), oPts (F := F) c (lo 8 1 c) (flowRows 8) fullShare g) ∗
        (∃ g : (main_v1 : Ref sig .tc).ty.Contents (Elt F), oPts (F := F) c (lo 8 2 c) (flowRows 8) fullShare g) ∗
        (∃ g : (main_v1 : Ref sig .tc).ty.Contents (Elt F), oPts (F := F) c (lo 9 0 c) (flowRows 9) fullShare g) ∗
        (∃ g : (main_v1 : Ref sig .tc).ty.Contents (Elt F), oPts (F := F) c (lo 9 1 c) (flowRows 9) fullShare g) ∗
        (∃ g : (main_v1 : Ref sig .tc).ty.Contents (Elt F), oPts (F := F) c (lo 9 2 c) (flowRows 9) fullShare g) ∗
        (∃ g : (main_v1 : Ref sig .tc).ty.Contents (Elt F), oPts (F := F) c (2048 * (c.val % 4)) 2048 fullShare g)) : sProp 𝕄)
      ⊢ iprop(∃ g : (main_v1 : Ref sig .tc).ty.Contents (Elt F), ((c : Thread nD τ).loc main_v1) ↦{fullShare} g) := by
  have h := join_pieces_o_chain (F := F) c
  have e := sep_congr (oPtsE_piece (F := F) c 0 0 0 (by decide) 0 rfl)
    (sep_congr (oPtsE_piece (F := F) c 0 1 1 (by decide) 1 rfl)
    (sep_congr (oPtsE_piece (F := F) c 0 2 2 (by decide) 2 rfl)
    (sep_congr (oPtsE_piece (F := F) c 1 0 3 (by decide) 0 rfl)
    (sep_congr (oPtsE_piece (F := F) c 1 1 4 (by decide) 1 rfl)
    (sep_congr (oPtsE_piece (F := F) c 1 2 5 (by decide) 2 rfl)
    (sep_congr (oPtsE_piece (F := F) c 2 0 6 (by decide) 0 rfl)
    (sep_congr (oPtsE_piece (F := F) c 2 1 7 (by decide) 1 rfl)
    (sep_congr (oPtsE_piece (F := F) c 2 2 8 (by decide) 2 rfl)
    (sep_congr (oPtsE_piece (F := F) c 3 0 9 (by decide) 0 rfl)
    (sep_congr (oPtsE_piece (F := F) c 3 1 10 (by decide) 1 rfl)
    (sep_congr (oPtsE_piece (F := F) c 3 2 11 (by decide) 2 rfl)
    (sep_congr (oPtsE_piece (F := F) c 4 0 12 (by decide) 0 rfl)
    (sep_congr (oPtsE_piece (F := F) c 4 1 13 (by decide) 1 rfl)
    (sep_congr (oPtsE_piece (F := F) c 4 2 14 (by decide) 2 rfl)
    (sep_congr (oPtsE_piece (F := F) c 5 0 15 (by decide) 0 rfl)
    (sep_congr (oPtsE_piece (F := F) c 5 1 16 (by decide) 1 rfl)
    (sep_congr (oPtsE_piece (F := F) c 5 2 17 (by decide) 2 rfl)
    (sep_congr (oPtsE_piece (F := F) c 6 0 18 (by decide) 0 rfl)
    (sep_congr (oPtsE_piece (F := F) c 6 1 19 (by decide) 1 rfl)
    (sep_congr (oPtsE_piece (F := F) c 6 2 20 (by decide) 2 rfl)
    (sep_congr (oPtsE_piece (F := F) c 7 0 21 (by decide) 0 rfl)
    (sep_congr (oPtsE_piece (F := F) c 7 1 22 (by decide) 1 rfl)
    (sep_congr (oPtsE_piece (F := F) c 7 2 23 (by decide) 2 rfl)
    (sep_congr (oPtsE_piece (F := F) c 8 0 24 (by decide) 0 rfl)
    (sep_congr (oPtsE_piece (F := F) c 8 1 25 (by decide) 1 rfl)
    (sep_congr (oPtsE_piece (F := F) c 8 2 26 (by decide) 2 rfl)
    (sep_congr (oPtsE_piece (F := F) c 9 0 27 (by decide) 0 rfl)
    (sep_congr (oPtsE_piece (F := F) c 9 1 28 (by decide) 1 rfl)
    (sep_congr (oPtsE_piece (F := F) c 9 2 29 (by decide) 2 rfl)
    ((oPtsE_own (F := F) c)))))))))))))))))))))))))))))))
  exact (Entails.of_eq e.symm).trans h

end Cert.Kernel.AG

end
-- ==== Proof.Bits.Oblig.lean ====
/-
  The body obligation of one device: its holdings at the start, named one by one, the parts in order, and its holdings
  at the end put back together.
-/
import proofs.«900685_g7700000000000686_dist_ag_v7x_xyz2x2x4_z_m2048_n512_f32_1_alg».proof.Proof.Bits.Ctx
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Cover

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- A buffer held whole at named contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the parts do not touch: the position of the unused copy cell, the device's own block's rows of the scratch
    array, and the rest of the staged block under the four first transfers' shares. -/
def extras (c : Dev nD) (f0 : Buf (Elt F) ((c : Thread nD τ).loc cc0_scratch0)) : sProp 𝕄 :=
  iprop(atPos ER (cell c (cpJ 30)) 0 ∅ 0 ∗ sPts c (2048 * (c.val % 4)) 2048 fullShare f0
    ∗ blkRest m c 0 ∗ blkRest m c 2 ∗ blkRest m c 1 ∗ blkRest m c 3)

def bodyPre' (c : Dev nD) : sProp 𝕄 :=
  iprop(Φ₀ m c ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (xstg m c))

end Cert.Kernel.AG

end
-- ==== Proof.Bits.XferSteps.lean ====
/-
  The transfers of the program, band by band.

  A local copy pays the duty of its copy cell; a transfer to a peer pays the duty of the sender's departure cell and of
  the receiver's arrival cell.  Stated through the bands of rows the printed slices cover: a ring flow's first hop reads
  a band of the device's own block, every other transfer reads a band of a piece that landed earlier, and a local copy
  puts a landed piece, or the device's own block, into the same rows of the result.
-/
import proofs.«900685_g7700000000000686_dist_ag_v7x_xyz2x2x4_z_m2048_n512_f32_1_alg».proof.Proof.Bits.StepGen

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## A local copy -/

/-- A local copy on device `c` through copy cell `i`: it pays the duty of the cell, whatever views it goes through, as
    long as the band written and the share of the source lent are what the cell hands over. -/
theorem wp_copy_gen {sp sp' : Space} {S : Shape} (K : Dev nD × Fin 93 → ℕ) (c : Dev nD) (i : Fin 32) (hi : i.val ≠ 30)
    {src : Memref sig .tc sp S .f32} {dst : Memref sig .tc sp' S .f32} {s : DmaSem sig}
    {hsrc : src.view.WordExact} {hdst : dst.view.WordExact}
    {hsem : DmaTarget.Typed sp (.dma s) (DmaTarget.here dst : DmaTarget nD τ sig (Proc.tc : Proc τ) sp' S .f32)}
    {α : Type} {Q : α → sProp 𝕄} {k : PUnit → Prog (TpuEff nD τ sig (Elt F) Λ₀ .tc) α}
    (hs : (SemLoc.dma s : SemLoc sig) = csem (cpJ i))
    (q : PosShare TreeShare) (fs : Buf (Elt F) (src.view.loc (c : Thread nD τ))) (fd : Buf (Elt F) (dst.view.loc (c : Thread nD τ)))
    (hN : dst.view.dmaCredit = (if i.val = 31 then credO 2048 else credO (flowRows (cpSrc i).1)))
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ cpPay m c i) :
    iprop(cellInv ER (Rd m) (K (c, cpJ i)) (cell c (cpJ i))
        ∗ (src.view.loc (c : Thread nD τ) ↦[src.view.set]{q} fs) ∗ (dst.view.loc (c : Thread nD τ) ↦[dst.view.set]{fullShare} fd)
        ∗ dutyTok ER (cell c (cpJ i)) 0 0 ∗ reached ER (cell c (cpJ i)) 0)
      ⊢ iprop((cred (tallyAt (cell c (cpJ i)) () (if i.val = 31 then credO 2048 else credO (flowRows (cpSrc i).1)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  unfold cell
  rw [← hs]
  exact Rounds.wp_copy_pointsTo 𝒱₀ ER (Rd m) (c : Thread nD τ) none (κ := K (c, cpJ i))
    (src := src) (dst := dst) (sem := SemLoc.dma s) (q := q) (fs := fs) (fd := fd) (r := 0) (d := 0)
    (by rw [hs]; exact (duties_cp m c i hi).symm ▸ Finset.mem_singleton_self _)
    () _ (show dst.view.amount (SemLoc.dma s) = _ from hN)
    (by rw [hs]; exact amount_cp m c i 0)
    (by rw [hs]; exact hpay.trans (Entails.of_eq (payload_cp m c i 0).symm))

/-- `wp_copy_gen` with the cell's amount named. -/
theorem wp_copy_gen' {sp sp' : Space} {S : Shape} (K : Dev nD × Fin 93 → ℕ) (c : Dev nD) (i : Fin 32) (hi : i.val ≠ 30)
    {src : Memref sig .tc sp S .f32} {dst : Memref sig .tc sp' S .f32} {s : DmaSem sig}
    {hsrc : src.view.WordExact} {hdst : dst.view.WordExact}
    {hsem : DmaTarget.Typed sp (.dma s) (DmaTarget.here dst : DmaTarget nD τ sig (Proc.tc : Proc τ) sp' S .f32)}
    {α : Type} {Q : α → sProp 𝕄} {k : PUnit → Prog (TpuEff nD τ sig (Elt F) Λ₀ .tc) α}
    (hs : (SemLoc.dma s : SemLoc sig) = csem (cpJ i))
    (q : PosShare TreeShare) (fs : Buf (Elt F) (src.view.loc (c : Thread nD τ))) (fd : Buf (Elt F) (dst.view.loc (c : Thread nD τ)))
    {N : ℕ} (hNe : (if i.val = 31 then credO 2048 else credO (flowRows (cpSrc i).1)) = N)
    (hN : dst.view.dmaCredit = N)
    (hpay : iprop((dst.view.loc (c : Thread nD τ) ↦[dst.view.set]{fullShare} (dst.view.write (Elt F) fd (src.view.read (Elt F) fs) Finset.univ))
        ∗ (src.view.loc (c : Thread nD τ) ↦[src.view.set]{q} fs)) ⊢ cpPay m c i) :
    iprop(cellInv ER (Rd m) (K (c, cpJ i)) (cell c (cpJ i))
        ∗ (src.view.loc (c : Thread nD τ) ↦[src.view.set]{q} fs) ∗ (dst.view.loc (c : Thread nD τ) ↦[dst.view.set]{fullShare} fd)
        ∗ dutyTok ER (cell c (cpJ i)) 0 0 ∗ reached ER (cell c (cpJ i)) 0)
      ⊢ iprop((cred (tallyAt (cell c (cpJ i)) () N)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.here dst) (.dma s) hsrc hdst hsem) k) Q) := by
  subst hNe
  exact wp_copy_gen m K c i hi hs q fs fd hN hpay

/-! ## The printed slices -/

/-- Rows of the staged block, as the program slices them. -/
abbrev blkSl (off sz : Fin 2 → ℕ) (inb : ∀ x, off x + sz x ≤ S2048x512.size x)
    (u : ∀ a, (Rect.unit (s := S2048x512) off sz inb).stride a = 1) : Memref sig .tc .vmem ⟨2, sz⟩ .f32 :=
  (Memref.whole cc0_stg0_0 : Memref sig .tc .vmem S2048x512 .f32).slice (Rect.unit (s := S2048x512) off sz inb) u
/-- Rows of the scratch array, as the program slices them. -/
abbrev stgSl (off sz : Fin 2 → ℕ) (inb : ∀ x, off x + sz x ≤ S8192x512.size x)
    (u : ∀ a, (Rect.unit (s := S8192x512) off sz inb).stride a = 1) : Memref sig .tc .vmem ⟨2, sz⟩ .f32 :=
  (Memref.whole cc0_scratch0 : Memref sig .tc .vmem S8192x512 .f32).slice (Rect.unit (s := S8192x512) off sz inb) u
/-- Rows of the result, as the program slices them. -/
abbrev outSl (off sz : Fin 2 → ℕ) (inb : ∀ x, off x + sz x ≤ S8192x512.size x)
    (u : ∀ a, (Rect.unit (s := S8192x512) off sz inb).stride a = 1) : Memref sig .tc .hbm ⟨2, sz⟩ .f32 :=
  (Memref.whole main_v1 : Memref sig .tc .hbm S8192x512 .f32).slice (Rect.unit (s := S8192x512) off sz inb) u

/-! ## A ring flow's first hop: from the device's own block -/

/-- The first transfer of ring flow `f`: device `c` sends rows `blkLo f c` of its own block to its ring neighbour `p`,
    where they land at rows `lo f 0 p` of the neighbour's scratch array.  The device addressed `n`, the peer `p`, the
    row count `nr` and the share `q` are named by equations, for the rule to meet them however they are spelled. -/
theorem send_ring0 (K : Dev nD × Fin 93 → ℕ) (c : Dev nD) {n p : Dev nD} (f : Fin 10) (hf : f.val < 4)
    (hn : n = p) (hp : p = peer (tgt f) c) {off_s off_d sz : Fin 2 → ℕ} (nr : ℕ) {q : PosShare TreeShare}
    (ho_s : off_s = ![blkLo f c, 0]) (ho_d : off_d = ![lo f 0 p, 0]) (hz : sz = ![nr, 512])
    (hnr : nr = flowRows f) (hq : q = r0Share f)
    {inb_s : ∀ x, off_s x + sz x ≤ S2048x512.size x} {inb_d : ∀ x, off_d x + sz x ≤ S8192x512.size x} {us} {ud}
    {sS sR : DmaSem sig}
    {hsc : (stgSl off_d sz inb_d ud).view.ref.isScScratch = false}
    {hsrc : (blkSl off_s sz inb_s us).view.WordExact} {hdst : (stgSl off_d sz inb_d ud).view.WordExact}
    {hsem : DmaTarget.Typed .vmem (.dma sR) (.remote (Dev.tc n : Thread nD τ) (stgSl off_d sz inb_d ud) (.dma sS) hsc)}
    {α : Type} {Q : α → sProp 𝕄} {k : PUnit → Prog (TpuEff nD τ sig (Elt F) Λ₀ .tc) α}
    (hsS : (SemLoc.dma sS : SemLoc sig) = csem (sndJ f 0)) (hsR : (SemLoc.dma sR : SemLoc sig) = csem (rcvJ f 0))
    (W : Waits sig Unit) (O : CellTallies nD τ sig Unit) :
    iprop(cellInv ER (Rd m) (K (c, sndJ f 0)) (cell c (sndJ f 0))
        ∗ cellInv ER (Rd m) (K (p, rcvJ f 0)) (cell (p) (rcvJ f 0))
        ∗ xPts m c (blkLo f c) nr q
        ∗ landPay p (f, 0)
        ∗ owes (c : Thread nD τ) (O + tallyAt (cell (p) (rcvJ f 0)) () (credS nr)) W
        ∗ dutyTok ER (cell c (sndJ f 0)) 0 0 ∗ reached ER (cell c (sndJ f 0)) 0
        ∗ dutyTok ER (cell (p) (rcvJ f 0)) 0 0 ∗ reached ER (cell (p) (rcvJ f 0)) 0)
      ⊢ iprop(((cred (tallyAt (cell c (sndJ f 0)) () (credS nr)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkSl off_s sz inb_s us)
                (.remote (Dev.tc n : Thread nD τ) (stgSl off_d sz inb_d ud) (.dma sS) hsc)
                (.dma sR) hsrc hdst hsem) k) Q) := by
  subst hn; subst hp; subst hnr; subst hq; subst ho_s; subst ho_d; subst hz
  have hd' : (![lo f 0 (peer (tgt f) c), 0] : Fin 2 → ℕ) = ![2048 * (c.val % 4) + blkLo f c, 0] := by
    rw [coh_lo0 f c hf]
  have e1 : recvPay m (peer (tgt f) c) f 0
      = sPts (peer (tgt f) c) (2048 * (c.val % 4) + blkLo f c) (flowRows f) fullShare (Gd m c) := by
    unfold recvPay; rw [show ((0 : Fin 3).val) = 0 from rfl, coh_lo0 f c hf, coh_org0 f c hf]
  have key : ∀ X, iprop(cellInv ER (Rd m) (K (c, sndJ f 0)) (cell c (sndJ f 0))
        ∗ cellInv ER (Rd m) (K (peer (tgt f) c, rcvJ f 0)) (cell (peer (tgt f) c) (rcvJ f 0))
        ∗ xPts m c (blkLo f c) (flowRows f) (r0Share f)
        ∗ sPts (peer (tgt f) c) (lo f 0 (peer (tgt f) c)) (flowRows f) fullShare X
        ∗ owes (c : Thread nD τ) (O + tallyAt (cell (peer (tgt f) c) (rcvJ f 0)) () (credS (flowRows f))) W
        ∗ dutyTok ER (cell c (sndJ f 0)) 0 0 ∗ reached ER (cell c (sndJ f 0)) 0
        ∗ dutyTok ER (cell (peer (tgt f) c) (rcvJ f 0)) 0 0 ∗ reached ER (cell (peer (tgt f) c) (rcvJ f 0)) 0)
      ⊢ iprop(((cred (tallyAt (cell c (sndJ f 0)) () (credS (flowRows f))) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (blkSl ![blkLo f c, 0] ![flowRows f, 512] inb_s us)
                (.remote (Dev.tc (peer (tgt f) c) : Thread nD τ) (stgSl ![lo f 0 (peer (tgt f) c), 0] ![flowRows f, 512] inb_d ud) (.dma sS) hsc)
                (.dma sR) hsrc hdst hsem) k) Q) := fun X => by
    have hx := pts_slice_blk m c (r0Share f) rfl rfl inb_s us
    have hdX := pts_slice_stage (peer (tgt f) c) fullShare rfl rfl inb_d ud X
    refine BIBase.Entails.trans ?_ (wp_send_gen m K c (peer (tgt f) c) f 0 hsS hsR (r0Share f) (xstg m c) X W O rfl ?_ ?_
      (Topo.routes_tc _ _))
    · exact sep_mono_right (sep_mono_right ((sep_mono_left (Entails.of_eq hx.symm)).trans
        (sep_mono_right (sep_mono_left (Entails.of_eq hdX.symm)))))
    · rw [hx]; unfold sendPay; rw [if_pos ⟨hf, rfl⟩]
    · rw [e1, pts_slice_stage (peer (tgt f) c) fullShare hd' rfl inb_d ud,
        land_blk_stage m (peer (tgt f) c) c fullShare rfl hd' rfl inb_s inb_d us ud X]
  unfold landPay
  iintro ⟨HIs, HIr, Hx, ⟨%X, Hd⟩, HO, Hts, Hrs, Htr, Hrr⟩
  iapply (key X)
  iframe
  all_goals iexact Hd

/-! ## Every other transfer to a peer: from a piece that landed earlier -/

/-- A transfer of flow `f`, hop `h` that is not a ring flow's first: device `c` sends rows `a` onward of the piece of flow
    `sf` that landed on it at hop `sh` to its peer `p`, where they land at rows `lo f h p` of the peer's scratch array. -/
theorem send_stage (K : Dev nD × Fin 93 → ℕ) (c : Dev nD) {n p : Dev nD} (f : Fin 10) (h : Fin 3)
    (hh : ¬ (f.val < 4 ∧ h.val = 0)) (hn : n = p) (hp : p = peer (tgt f) c)
    {sf : Fin 10} {sh δ a : ℕ} (hso : srcOf f h = (sf, sh, δ)) (ha : a = lo sf sh c + δ)
    {off_s off_d sz : Fin 2 → ℕ} (nr : ℕ) {q : PosShare TreeShare}
    (ho_s : off_s = ![a, 0]) (ho_d : off_d = ![lo f h.val p, 0]) (hz : sz = ![nr, 512])
    (hnr : nr = flowRows f) (hq : q = sShare f)
    {inb_s : ∀ x, off_s x + sz x ≤ S8192x512.size x} {inb_d : ∀ x, off_d x + sz x ≤ S8192x512.size x} {us} {ud}
    {sS sR : DmaSem sig}
    {hsc : (stgSl off_d sz inb_d ud).view.ref.isScScratch = false}
    {hsrc : (stgSl off_s sz inb_s us).view.WordExact} {hdst : (stgSl off_d sz inb_d ud).view.WordExact}
    {hsem : DmaTarget.Typed .vmem (.dma sR) (.remote (Dev.tc n : Thread nD τ) (stgSl off_d sz inb_d ud) (.dma sS) hsc)}
    {α : Type} {Q : α → sProp 𝕄} {k : PUnit → Prog (TpuEff nD τ sig (Elt F) Λ₀ .tc) α}
    (hsS : (SemLoc.dma sS : SemLoc sig) = csem (sndJ f h)) (hsR : (SemLoc.dma sR : SemLoc sig) = csem (rcvJ f h))
    (W : Waits sig Unit) (O : CellTallies nD τ sig Unit) :
    iprop(cellInv ER (Rd m) (K (c, sndJ f h)) (cell c (sndJ f h))
        ∗ cellInv ER (Rd m) (K (p, rcvJ f h)) (cell (p) (rcvJ f h))
        ∗ sPts c a nr q (Gd m (org sf sh c))
        ∗ landPay p (f, h)
        ∗ owes (c : Thread nD τ) (O + tallyAt (cell (p) (rcvJ f h)) () (credS nr)) W
        ∗ dutyTok ER (cell c (sndJ f h)) 0 0 ∗ reached ER (cell c (sndJ f h)) 0
        ∗ dutyTok ER (cell (p) (rcvJ f h)) 0 0 ∗ reached ER (cell (p) (rcvJ f h)) 0)
      ⊢ iprop(((cred (tallyAt (cell c (sndJ f h)) () (credS nr)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us)
                (.remote (Dev.tc n : Thread nD τ) (stgSl off_d sz inb_d ud) (.dma sS) hsc)
                (.dma sR) hsrc hdst hsem) k) Q) := by
  subst hn; subst hp; subst hnr; subst hq; subst ha; subst ho_s; subst ho_d; subst hz
  have h1 : (srcOf f h).1 = sf := by rw [hso]
  have h2 : (srcOf f h).2.1 = sh := by rw [hso]
  have h3 : (srcOf f h).2.2 = δ := by rw [hso]
  have hlo : lo f h.val (peer (tgt f) c) = lo sf sh c + δ := by rw [coh_lo f h c hh, h1, h2, h3]
  have horg : org f h.val (peer (tgt f) c) = org sf sh c := by rw [coh_org f h c hh, h1, h2]
  have hs' : (![lo sf sh c + δ, 0] : Fin 2 → ℕ) = ![lo f h.val (peer (tgt f) c), 0] := by rw [hlo]
  have e1 : recvPay m (peer (tgt f) c) f h
      = sPts (peer (tgt f) c) (lo f h.val (peer (tgt f) c)) (flowRows f) fullShare (Gd m (org sf sh c)) := by
    unfold recvPay; rw [horg]
  have e0 : sendPay m c f h = sPts c (lo sf sh c + δ) (flowRows f) (sShare f) (Gd m (org sf sh c)) := by
    unfold sendPay; rw [if_neg hh, h1, h2, h3]
  have key : ∀ X, iprop(cellInv ER (Rd m) (K (c, sndJ f h)) (cell c (sndJ f h))
        ∗ cellInv ER (Rd m) (K (peer (tgt f) c, rcvJ f h)) (cell (peer (tgt f) c) (rcvJ f h))
        ∗ sPts c (lo sf sh c + δ) (flowRows f) (sShare f) (Gd m (org sf sh c))
        ∗ sPts (peer (tgt f) c) (lo f h.val (peer (tgt f) c)) (flowRows f) fullShare X
        ∗ owes (c : Thread nD τ) (O + tallyAt (cell (peer (tgt f) c) (rcvJ f h)) () (credS (flowRows f))) W
        ∗ dutyTok ER (cell c (sndJ f h)) 0 0 ∗ reached ER (cell c (sndJ f h)) 0
        ∗ dutyTok ER (cell (peer (tgt f) c) (rcvJ f h)) 0 0 ∗ reached ER (cell (peer (tgt f) c) (rcvJ f h)) 0)
      ⊢ iprop(((cred (tallyAt (cell c (sndJ f h)) () (credS (flowRows f))) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl ![lo sf sh c + δ, 0] ![flowRows f, 512] inb_s us)
                (.remote (Dev.tc (peer (tgt f) c) : Thread nD τ) (stgSl ![lo f h.val (peer (tgt f) c), 0] ![flowRows f, 512] inb_d ud) (.dma sS) hsc)
                (.dma sR) hsrc hdst hsem) k) Q) := fun X => by
    have hx := pts_slice_stage c (sShare f) rfl rfl inb_s us (Gd m (org sf sh c))
    have hdX := pts_slice_stage (peer (tgt f) c) fullShare rfl rfl inb_d ud X
    refine BIBase.Entails.trans ?_ (wp_send_gen m K c (peer (tgt f) c) f h hsS hsR (sShare f)
      (Gd m (org sf sh c)) X W O rfl ?_ ?_ (Topo.routes_tc _ _))
    · exact sep_mono_right (sep_mono_right ((sep_mono_left (Entails.of_eq hx.symm)).trans
        (sep_mono_right (sep_mono_left (Entails.of_eq hdX.symm)))))
    · rw [hx, e0]
    · rw [e1, pts_slice_stage (peer (tgt f) c) fullShare rfl rfl inb_d ud,
        land_stage_stage m (peer (tgt f) c) (org sf sh c) fullShare hs' rfl rfl inb_s inb_d us ud X]
  unfold landPay
  iintro ⟨HIs, HIr, Hx, ⟨%X, Hd⟩, HO, Hts, Hrs, Htr, Hrr⟩
  iapply (key X)
  iframe
  all_goals iexact Hd

/-! ## Local copies into the result -/

/-- Local copy `i < 30`: the piece of flow `sf` that landed at hop `sh` goes into the same rows of the result. -/
theorem copy_stage (K : Dev nD × Fin 93 → ℕ) (c : Dev nD) (i : Fin 32) (hi : i.val < 30)
    {sf : Fin 10} {sh : ℕ} (hcs : cpSrc i = (sf, sh)) {off_s off_d sz : Fin 2 → ℕ} (nr : ℕ) {q : PosShare TreeShare}
    (ho_s : off_s = ![lo sf sh c, 0]) (ho_d : off_d = ![lo sf sh c, 0]) (hz : sz = ![nr, 512])
    (hnr : nr = flowRows sf) (hq : q = cpShare sf)
    {inb_s : ∀ x, off_s x + sz x ≤ S8192x512.size x} {inb_d : ∀ x, off_d x + sz x ≤ S8192x512.size x} {us} {ud}
    {s : DmaSem sig}
    {hsrc : (stgSl off_s sz inb_s us).view.WordExact} {hdst : (outSl off_d sz inb_d ud).view.WordExact}
    {hsem : DmaTarget.Typed .vmem (.dma s) (DmaTarget.here (outSl off_d sz inb_d ud) : DmaTarget nD τ sig (Proc.tc : Proc τ) .hbm ⟨2, sz⟩ .f32)}
    {α : Type} {Q : α → sProp 𝕄} {k : PUnit → Prog (TpuEff nD τ sig (Elt F) Λ₀ .tc) α}
    (hs : (SemLoc.dma s : SemLoc sig) = csem (cpJ i)) (V : (main_v1 : Ref sig .tc).ty.Contents (Elt F)) :
    iprop(cellInv ER (Rd m) (K (c, cpJ i)) (cell c (cpJ i))
        ∗ sPts c (lo sf sh c) nr q (Gd m (org sf sh c))
        ∗ oPts c (lo sf sh c) nr fullShare V
        ∗ dutyTok ER (cell c (cpJ i)) 0 0 ∗ reached ER (cell c (cpJ i)) 0)
      ⊢ iprop((cred (tallyAt (cell c (cpJ i)) () (credO nr))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us) (.here (outSl off_d sz inb_d ud)) (.dma s) hsrc hdst hsem) k) Q) := by
  subst hnr; subst hq; subst ho_s; subst ho_d; subst hz
  have h31 : ¬ i.val = 31 := by omega
  have h30 : i.val ≠ 30 := by omega
  have h1 : (cpSrc i).1 = sf := by rw [hcs]
  have h2 : (cpSrc i).2 = sh := by rw [hcs]
  have e0 : cpPay m c i = iprop(oPts c (lo sf sh c) (flowRows sf) fullShare (Gd m (org sf sh c))
      ∗ sPts c (lo sf sh c) (flowRows sf) (cpShare sf) (Gd m (org sf sh c))) := by
    unfold cpPay; rw [if_neg h31, h1, h2]
  have hx := pts_slice_stage c (cpShare sf) rfl rfl inb_s us (Gd m (org sf sh c))
  have hv := pts_slice_out c fullShare rfl rfl inb_d ud V
  refine BIBase.Entails.trans ?_ (wp_copy_gen' m K c i h30 hs (cpShare sf) (Gd m (org sf sh c)) V
    (N := credO (flowRows sf)) (by rw [if_neg h31, h1]) rfl ?_)
  · exact sep_mono_right ((sep_mono_left (Entails.of_eq hx.symm)).trans (sep_mono_right (sep_mono_left (Entails.of_eq hv.symm))))
  · rw [hx, pts_slice_out c fullShare rfl rfl inb_d ud,
      land_stage_out m c (org sf sh c) fullShare rfl rfl rfl inb_s inb_d us ud V, e0]

/-- Local copy 31: the device's own block goes into its rows of the result. -/
theorem copy_own (K : Dev nD × Fin 93 → ℕ) (c : Dev nD) {off_d : Fin 2 → ℕ} (ho_d : off_d = ![2048 * (c.val % 4), 0])
    {inb_d : ∀ x, off_d x + S2048x512.size x ≤ S8192x512.size x} {ud} {s : DmaSem sig}
    {hsrc : (Memref.whole cc0_stg0_0 : Memref sig .tc .vmem S2048x512 .f32).view.WordExact}
    {hdst : (outSl off_d S2048x512.size inb_d ud).view.WordExact}
    {hsem : DmaTarget.Typed .vmem (.dma s) (DmaTarget.here (outSl off_d S2048x512.size inb_d ud) : DmaTarget nD τ sig (Proc.tc : Proc τ) .hbm S2048x512 .f32)}
    {α : Type} {Q : α → sProp 𝕄} {k : PUnit → Prog (TpuEff nD τ sig (Elt F) Λ₀ .tc) α}
    (hs : (SemLoc.dma s : SemLoc sig) = csem (cpJ 31)) (V : (main_v1 : Ref sig .tc).ty.Contents (Elt F)) :
    iprop(cellInv ER (Rd m) (K (c, cpJ 31)) (cell c (cpJ 31))
        ∗ xPts m c 0 2048 fullShare.left
        ∗ oPts c (2048 * (c.val % 4)) 2048 fullShare V
        ∗ dutyTok ER (cell c (cpJ 31)) 0 0 ∗ reached ER (cell c (cpJ 31)) 0)
      ⊢ iprop((cred (tallyAt (cell c (cpJ 31)) () (credO 2048))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (Memref.whole cc0_stg0_0 : Memref sig .tc .vmem S2048x512 .f32)
                (.here (outSl off_d S2048x512.size inb_d ud)) (.dma s) hsrc hdst hsem) k) Q) := by
  subst ho_d
  have hx := pts_whole_blk m c fullShare.left
  have hv := pts_slice_out c fullShare rfl rfl inb_d ud V
  refine BIBase.Entails.trans ?_ (wp_copy_gen' m K c 31 (by decide) hs fullShare.left (xstg m c) V (if_pos rfl) rfl ?_)
  · exact sep_mono_right ((sep_mono_left (Entails.of_eq hx.symm)).trans (sep_mono_right (sep_mono_left (Entails.of_eq hv.symm))))
  · rw [hx, pts_slice_out c fullShare rfl rfl inb_d ud, land_blk_out m c c fullShare rfl inb_d ud V]
    unfold cpPay; rw [if_pos (show ((31 : Fin 32).val = 31) from rfl)]

/-! ## The same two rules with the equations in the order that suits literal arguments

With the offset equations first, the flow, hop and start of the source are read off the closed form of the printed
offset, and the equation for the source table is then checked against them. -/

/-- `send_stage`, the source's offset equation before the equations that name its flow, hop and start. -/
theorem send_stage' (K : Dev nD × Fin 93 → ℕ) (c : Dev nD) {n p : Dev nD} (f : Fin 10) (h : Fin 3)
    (hh : ¬ (f.val < 4 ∧ h.val = 0)) (hn : n = p) (hp : p = peer (tgt f) c)
    {sf : Fin 10} {sh δ a : ℕ} {off_s off_d sz : Fin 2 → ℕ} (nr : ℕ) {q : PosShare TreeShare}
    (ho_s : off_s = ![a, 0]) (ha : a = lo sf sh c + δ) (hso : srcOf f h = (sf, sh, δ))
    (ho_d : off_d = ![lo f h.val p, 0]) (hz : sz = ![nr, 512])
    (hnr : nr = flowRows f) (hq : q = sShare f)
    {inb_s : ∀ x, off_s x + sz x ≤ S8192x512.size x} {inb_d : ∀ x, off_d x + sz x ≤ S8192x512.size x} {us} {ud}
    {sS sR : DmaSem sig}
    {hsc : (stgSl off_d sz inb_d ud).view.ref.isScScratch = false}
    {hsrc : (stgSl off_s sz inb_s us).view.WordExact} {hdst : (stgSl off_d sz inb_d ud).view.WordExact}
    {hsem : DmaTarget.Typed .vmem (.dma sR) (.remote (Dev.tc n : Thread nD τ) (stgSl off_d sz inb_d ud) (.dma sS) hsc)}
    {α : Type} {Q : α → sProp 𝕄} {k : PUnit → Prog (TpuEff nD τ sig (Elt F) Λ₀ .tc) α}
    (hsS : (SemLoc.dma sS : SemLoc sig) = csem (sndJ f h)) (hsR : (SemLoc.dma sR : SemLoc sig) = csem (rcvJ f h))
    (W : Waits sig Unit) (O : CellTallies nD τ sig Unit) :
    iprop(cellInv ER (Rd m) (K (c, sndJ f h)) (cell c (sndJ f h))
        ∗ cellInv ER (Rd m) (K (p, rcvJ f h)) (cell (p) (rcvJ f h))
        ∗ sPts c a nr q (Gd m (org sf sh c))
        ∗ landPay p (f, h)
        ∗ owes (c : Thread nD τ) (O + tallyAt (cell (p) (rcvJ f h)) () (credS nr)) W
        ∗ dutyTok ER (cell c (sndJ f h)) 0 0 ∗ reached ER (cell c (sndJ f h)) 0
        ∗ dutyTok ER (cell (p) (rcvJ f h)) 0 0 ∗ reached ER (cell (p) (rcvJ f h)) 0)
      ⊢ iprop(((cred (tallyAt (cell c (sndJ f h)) () (credS nr)) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us)
                (.remote (Dev.tc n : Thread nD τ) (stgSl off_d sz inb_d ud) (.dma sS) hsc)
                (.dma sR) hsrc hdst hsem) k) Q) :=
  send_stage m K c f h hh hn hp hso ha nr ho_s ho_d hz hnr hq hsS hsR W O

/-- `copy_stage`, the offset equations before the equation that names the source's flow and hop. -/
theorem copy_stage' (K : Dev nD × Fin 93 → ℕ) (c : Dev nD) (i : Fin 32) (hi : i.val < 30)
    {sf : Fin 10} {sh : ℕ} {off_s off_d sz : Fin 2 → ℕ} (nr : ℕ) {q : PosShare TreeShare}
    (ho_s : off_s = ![lo sf sh c, 0]) (ho_d : off_d = ![lo sf sh c, 0]) (hcs : cpSrc i = (sf, sh)) (hz : sz = ![nr, 512])
    (hnr : nr = flowRows sf) (hq : q = cpShare sf)
    {inb_s : ∀ x, off_s x + sz x ≤ S8192x512.size x} {inb_d : ∀ x, off_d x + sz x ≤ S8192x512.size x} {us} {ud}
    {s : DmaSem sig}
    {hsrc : (stgSl off_s sz inb_s us).view.WordExact} {hdst : (outSl off_d sz inb_d ud).view.WordExact}
    {hsem : DmaTarget.Typed .vmem (.dma s) (DmaTarget.here (outSl off_d sz inb_d ud) : DmaTarget nD τ sig (Proc.tc : Proc τ) .hbm ⟨2, sz⟩ .f32)}
    {α : Type} {Q : α → sProp 𝕄} {k : PUnit → Prog (TpuEff nD τ sig (Elt F) Λ₀ .tc) α}
    (hs : (SemLoc.dma s : SemLoc sig) = csem (cpJ i)) (V : (main_v1 : Ref sig .tc).ty.Contents (Elt F)) :
    iprop(cellInv ER (Rd m) (K (c, cpJ i)) (cell c (cpJ i))
        ∗ sPts c (lo sf sh c) nr q (Gd m (org sf sh c))
        ∗ oPts c (lo sf sh c) nr fullShare V
        ∗ dutyTok ER (cell c (cpJ i)) 0 0 ∗ reached ER (cell c (cpJ i)) 0)
      ⊢ iprop((cred (tallyAt (cell c (cpJ i)) () (credO nr))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (stgSl off_s sz inb_s us) (.here (outSl off_d sz inb_d ud)) (.dma s) hsrc hdst hsem) k) Q) :=
  copy_stage m K c i hi hcs nr ho_s ho_d hz hnr hq hs V

end Cert.Kernel.AG

end
-- ==== Proof.Bits.PartsA.lean ====
/-
  The body of one device, part by part (parts 1 to 12): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.XferSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 1 of the body. No memory operation. -/
theorem part1_spec (K : Dev nD × Fin 93 → ℕ) (c : Dev nD) (W : Waits sig Unit) (Kt : (Σ' (d0 : Dev nD) (v2 : BitVec 32) (v5 : BitVec 32) (v8 : BitVec 32) (v9 : BitVec 32) (v10 : BitVec 32) (v21 : BitVec 32) (v32 : BitVec 32) (v34 : BitVec 32), BitVec 32) → sProp 𝕄) :
    iprop(∀ r : (Σ' (d0 : Dev nD) (v2 : BitVec 32) (v5 : BitVec 32) (v8 : BitVec 32) (v9 : BitVec 32) (v10 : BitVec 32) (v21 : BitVec 32) (v32 : BitVec 32) (v34 : BitVec 32), BitVec 32), ⌜r.1 = c⌝ -∗ Kt r)
      ⊢ wp frame (wpE (defs₀ (F := F)) 𝒱₀ (c : Thread nD τ) none) Set.univ
          (k0_part1 (Memref.whole cc0_stg0_0) (Memref.isWhole_whole _) (Memref.whole main_v1) (Memref.isWhole_whole _) (Memref.whole cc0_scratch0) (Memref.isWhole_whole _) cc0_scratch1 cc0_scratch2 cc0_scratch3) Kt := by
  rw [k0_part1_eq_skeleton]; unfold k0_part1_skel
  simp only [Prog.lift, Prog.bind_op, Prog.bind_ret, Prog.pure_eq_ret, semSignalWord, semWaitWord, wp_deviceId]
  rw [wp_ret]
  iintro Hk
  imodintro
  iapply Hk
  ipureintro; rfl

/-- Part 2 of the body. -/
theorem part2_spec (K : Dev nD × Fin 93 → ℕ) (c : Dev nD) (W : Waits sig Unit) (v2 : BitVec 32) (v5 : BitVec 32) (v8 : BitVec 32) (v9 : BitVec 32) (v10 : BitVec 32) (v21 : BitVec 32) (v32 : BitVec 32) (c2_i32_18 : BitVec 32) (Kt : (Σ' (v36 : BitVec 32) (v38 : BitVec 32), BitVec 32) → sProp 𝕄) :
    iprop((records m K
        ∗ levAts L lv
        ∗ owes (c : Thread nD τ) (Ol (payL.drop 0) c) W
        ∗ dutyTok ER (cell (peer 0 c) 0) 0 1
        ∗ barPay (F := F) (peer 0 c) 1
        ∗ dutyTok ER (cell (peer 1 c) 0) 0 0
        ∗ barPay (F := F) (peer 1 c) 0
        ∗ dutyTok ER (cell (peer 2 c) 0) 0 2
        ∗ barPay (F := F) (peer 2 c) 2
        ∗ dutyTok ER (cell (peer 3 c) 0) 0 3
        ∗ barPay (F := F) (peer 3 c) 3
        ∗ cred (tallyAt (cell c 0) () 4)
        ∗ atPos ER (cell c 0) 0 ∅ 0)
      ∗ (∀ r, (owes (c : Thread nD τ) (Ol (payL.drop 4) c) (insert (csem 0, ()) W)
          ∗ barPay (F := F) c 0
          ∗ barPay (F := F) c 1
          ∗ barPay (F := F) c 2
          ∗ barPay (F := F) c 3) -∗ Kt r))
      ⊢ wp frame (wpE (defs₀ (F := F)) 𝒱₀ (c : Thread nD τ) none) Set.univ
          (k0_part2 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v21 v32 c2_i32_18) Kt := by
  rw [k0_part2_eq_skeleton]; unfold k0_part2_skel
  simp only [Prog.lift, Prog.bind_op, Prog.bind_ret, Prog.pure_eq_ret, semSignalWord, semWaitWord]
  /- operations, in order:
   op 0: SIGNAL dev=k0_dev1 [payments made before: 0]
   op 1: SIGNAL dev=k0_dev2 [payments made before: 1]
   op 2: SIGNAL dev=k0_dev3 [payments made before: 2]
   op 3: SIGNAL dev=k0_dev4 [payments made before: 3]
   op 4: BARWAIT  [payments made before: 4] -/
  rw [show payL.drop 0 = (0, 0) :: (1, 0) :: (2, 0) :: (3, 0) :: payL.drop 4 from rfl, Ol_cons, Ol_cons, Ol_cons, Ol_cons]
  iintro ⟨⟨#HR, #Hlev, HO, Ht0, Hb0, Ht1, Hb1, Ht2, Hb2, Ht3, Hb3, Hc, Hat⟩, Hk⟩
  ihave #HI0 := (rec_inv m K (peer 0 c) 0) $$ HR
  ihave #HR0 := (rec_reached m K (peer 0 c) 0) $$ HR
  ihave #HI1 := (rec_inv m K (peer 1 c) 0) $$ HR
  ihave #HR1 := (rec_reached m K (peer 1 c) 0) $$ HR
  ihave #HI2 := (rec_inv m K (peer 2 c) 0) $$ HR
  ihave #HR2 := (rec_reached m K (peer 2 c) 0) $$ HR
  ihave #HI3 := (rec_inv m K (peer 3 c) 0) $$ HR
  ihave #HR3 := (rec_reached m K (peer 3 c) 0) $$ HR
  ihave #HIc := (rec_inv m K c 0) $$ HR
  -- the signal to the ring neighbour below
  iapply (wp_signal_bar m K c 0 _ (dev1_eq c) rfl rfl W
      (Ol (payL.drop 4) c + payTally c (3, 0) + payTally c (2, 0) + payTally c (1, 0))) $$ [HO Ht0 Hb0]
  · isplitr; · iexact HI0
    isplitl [HO]; · iexact HO
    isplitl [Ht0]; · iexact Ht0
    isplitl [Hb0]; · iexact Hb0
    iexact HR0
  iintro HO
  -- the signal to the ring neighbour above
  iapply (wp_signal_bar m K c 1 _ (dev2_eq c) rfl rfl W
      (Ol (payL.drop 4) c + payTally c (3, 0) + payTally c (2, 0))) $$ [HO Ht1 Hb1]
  · isplitr; · iexact HI1
    isplitl [HO]; · iexact HO
    isplitl [Ht1]; · iexact Ht1
    isplitl [Hb1]; · iexact Hb1
    iexact HR1
  iintro HO
  -- the signal to the device with the other x
  iapply (wp_signal_bar m K c 2 _ (dev3_eq c) rfl rfl W
      (Ol (payL.drop 4) c + payTally c (3, 0))) $$ [HO Ht2 Hb2]
  · isplitr; · iexact HI2
    isplitl [HO]; · iexact HO
    isplitl [Ht2]; · iexact Ht2
    isplitl [Hb2]; · iexact Hb2
    iexact HR2
  iintro HO
  -- the signal to the device with the other y
  iapply (wp_signal_bar m K c 3 _ (dev4_eq c) rfl rfl W (Ol (payL.drop 4) c)) $$ [HO Ht3 Hb3]
  · isplitr; · iexact HI3
    isplitl [HO]; · iexact HO
    isplitl [Ht3]; · iexact Ht3
    isplitl [Hb3]; · iexact Hb3
    iexact HR3
  iintro HO
  -- the wait for the four peers' signals
  iapply (wp_wait_bar m K c rfl rfl W (Ol (payL.drop 4) c)) $$ [Hc HO Hat]
  · isplitr; · iexact HIc
    isplitl [Hc]; · iexact Hc
    isplitl [HO]; · iexact HO
    isplitr; · iapply (mayWait_of c 0 (payL.drop 4) (by decide)); iexact Hlev
    iexact Hat
  iintro ⟨HO, Hp0, Hp1, Hp2, Hp3⟩
  rw [wp_ret]; imodintro
  iapply Hk
  isplitl [HO]; · iexact HO
  isplitl [Hp0]; · iexact Hp0
  isplitl [Hp1]; · iexact Hp1
  isplitl [Hp2]; · iexact Hp2
  iexact Hp3

/-- Part 3 of the body. -/
theorem part3_spec (K : Dev nD × Fin 93 → ℕ) (c : Dev nD) (W : Waits sig Unit) (v2 : BitVec 32) (v5 : BitVec 32) (v8 : BitVec 32) (v21 : BitVec 32) (v34 : BitVec 32) (Kt : (Σ' (v97 : BitVec 32), BitVec 32) → sProp 𝕄) :
    iprop((records m K
        ∗ owes (c : Thread nD τ) (Ol (payL.drop 4) c) W
        ∗ xPts m c (blkLo 0 c) 256 fullShare.right.left
        ∗ landPay (F := F) (peer 1 c) (0, 0)
        ∗ dutyTok ER (cell c (sndJ 0 0)) 0 0
        ∗ dutyTok ER (cell (peer 1 c) (rcvJ 0 0)) 0 0)
      ∗ (∀ r, (owes (c : Thread nD τ) (Ol (payL.drop 5) c) W
          ∗ cred (tallyAt (cell c (sndJ 0 0)) () (credS 256))) -∗ Kt r))
      ⊢ wp frame (wpE (defs₀ (F := F)) 𝒱₀ (c : Thread nD τ) none) Set.univ
          (k0_part3 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v34) Kt := by
  rw [k0_part3_eq_skeleton]; unfold k0_part3_skel
  simp only [Prog.lift, Prog.bind_op, Prog.bind_ret, Prog.pure_eq_ret, semSignalWord, semWaitWord]
  /- operations, in order:
   op 5: SEND src=arg0@k0_off2 0#32:S256x512 dev=k0_dev5 dst=arg2@k0_off1 0#32 0#32:S256x512 sS=arg3[0, 0] sR=arg4[0, 0] [payments made before: 4] -/
  rw [show payL.drop 4 = (tgt 0, rcvJ 0 0) :: payL.drop 5 from rfl, Ol_cons]
  iintro ⟨⟨#HR, HO, Hx, Hl1, Hts1, Htr1⟩, Hk⟩
  ihave #HIs1 := (rec_inv m K c (sndJ 0 0)) $$ HR
  ihave #HIr1 := (rec_inv m K (peer 1 c) (rcvJ 0 0)) $$ HR
  ihave #HRs1 := (rec_reached m K c (sndJ 0 0)) $$ HR
  ihave #HRr1 := (rec_reached m K (peer 1 c) (rcvJ 0 0)) $$ HR
  iapply (send_ring0 m K c 0 (by decide) (dev5_eq c) rfl (off2_blk_0 c) (off1_lo_0_0 c) rfl rfl rfl rfl rfl W
      (Ol (payL.drop 5) c) (p := peer 1 c) (nr := 256) (q := fullShare.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 4 of the body. -/
theorem part4_spec (K : Dev nD × Fin 93 → ℕ) (c : Dev nD) (W : Waits sig Unit) (v2 : BitVec 32) (v5 : BitVec 32) (v8 : BitVec 32) (v32 : BitVec 32) (v34 : BitVec 32) (v97 : BitVec 32) (v98 : BitVec 32) (Kt : (Σ' (v126 : BitVec 32) (v127 : BitVec 32), BitVec 1) → sProp 𝕄) :
    iprop((records m K
        ∗ owes (c : Thread nD τ) (Ol (payL.drop 5) c) W
        ∗ xPts m c (blkLo 2 c) 256 fullShare.right.right.left
        ∗ landPay (F := F) (peer 0 c) (2, 0)
        ∗ dutyTok ER (cell c (sndJ 2 0)) 0 0
        ∗ dutyTok ER (cell (peer 0 c) (rcvJ 2 0)) 0 0)
      ∗ (∀ r, (owes (c : Thread nD τ) (Ol (payL.drop 6) c) W
          ∗ cred (tallyAt (cell c (sndJ 2 0)) () (credS 256))) -∗ Kt r))
      ⊢ wp frame (wpE (defs₀ (F := F)) 𝒱₀ (c : Thread nD τ) none) Set.univ
          (k0_part4 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v34 v97 v98) Kt := by
  rw [k0_part4_eq_skeleton]; unfold k0_part4_skel
  simp only [Prog.lift, Prog.bind_op, Prog.bind_ret, Prog.pure_eq_ret, semSignalWord, semWaitWord]
  /- operations, in order:
   op 6: SEND src=arg0@k0_off2 256#32:S256x512 dev=k0_dev6 dst=arg2@k0_off1 0#32 256#32:S256x512 sS=arg3[2, 0] sR=arg4[2, 0] [payments made before: 5] -/
  rw [show payL.drop 5 = (tgt 2, rcvJ 2 0) :: payL.drop 6 from rfl, Ol_cons]
  iintro ⟨⟨#HR, HO, Hx, Hl1, Hts1, Htr1⟩, Hk⟩
  ihave #HIs1 := (rec_inv m K c (sndJ 2 0)) $$ HR
  ihave #HIr1 := (rec_inv m K (peer 0 c) (rcvJ 2 0)) $$ HR
  ihave #HRs1 := (rec_reached m K c (sndJ 2 0)) $$ HR
  ihave #HRr1 := (rec_reached m K (peer 0 c) (rcvJ 2 0)) $$ HR
  iapply (send_ring0 m K c 2 (by decide) (dev6_eq c) rfl (off2_blk_256 c) (off1_lo_0_256 c) rfl rfl rfl rfl rfl W
      (Ol (payL.drop 6) c) (p := peer 0 c) (nr := 256) (q := fullShare.right.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 5 of the body. -/
theorem part5_spec (K : Dev nD × Fin 93 → ℕ) (c : Dev nD) (W : Waits sig Unit) (v2 : BitVec 32) (v5 : BitVec 32) (v8 : BitVec 32) (v21 : BitVec 32) (v40 : BitVec 32) (v126 : BitVec 32) (v127 : BitVec 32) (v132 : BitVec 1) (Kt : (BitVec 32) → sProp 𝕄) :
    iprop((records m K
        ∗ owes (c : Thread nD τ) (Ol (payL.drop 6) c) W
        ∗ xPts m c (blkLo 1 c) 88 fullShare.right.right.right.left
        ∗ landPay (F := F) (peer 1 c) (1, 0)
        ∗ dutyTok ER (cell c (sndJ 1 0)) 0 0
        ∗ dutyTok ER (cell (peer 1 c) (rcvJ 1 0)) 0 0)
      ∗ (∀ r, (owes (c : Thread nD τ) (Ol (payL.drop 7) c) W
          ∗ cred (tallyAt (cell c (sndJ 1 0)) () (credS 88))) -∗ Kt r))
      ⊢ wp frame (wpE (defs₀ (F := F)) 𝒱₀ (c : Thread nD τ) none) Set.univ
          (k0_part5 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v40 v126 v127 v132) Kt := by
  rw [k0_part5_eq_skeleton]; unfold k0_part5_skel
  simp only [Prog.lift, Prog.bind_op, Prog.bind_ret, Prog.pure_eq_ret, semSignalWord, semWaitWord]
  /- operations, in order:
   op 7: SEND src=arg0@k0_off4 0#32:S88x512 dev=k0_dev7 dst=arg2@k0_off3 0#32 0#32:S88x512 sS=arg3[1, 0] sR=arg4[1, 0] [payments made before: 6] -/
  rw [show payL.drop 6 = (tgt 1, rcvJ 1 0) :: payL.drop 7 from rfl, Ol_cons]
  iintro ⟨⟨#HR, HO, Hx, Hl1, Hts1, Htr1⟩, Hk⟩
  ihave #HIs1 := (rec_inv m K c (sndJ 1 0)) $$ HR
  ihave #HIr1 := (rec_inv m K (peer 1 c) (rcvJ 1 0)) $$ HR
  ihave #HRs1 := (rec_reached m K c (sndJ 1 0)) $$ HR
  ihave #HRr1 := (rec_reached m K (peer 1 c) (rcvJ 1 0)) $$ HR
  iapply (send_ring0 m K c 1 (by decide) (dev7_eq c) rfl (off4_blk_0 c) (off3_lo_0_0 c) rfl rfl rfl rfl rfl W
      (Ol (payL.drop 7) c) (p := peer 1 c) (nr := 88) (q := fullShare.right.right.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 6 of the body. -/
theorem part6_spec (K : Dev nD × Fin 93 → ℕ) (c : Dev nD) (W : Waits sig Unit) (v2 : BitVec 32) (v5 : BitVec 32) (v8 : BitVec 32) (v32 : BitVec 32) (v40 : BitVec 32) (v166 : BitVec 32) (Kt : (Σ' (v197 : BitVec 32), BitVec 32) → sProp 𝕄) :
    iprop((records m K
        ∗ owes (c : Thread nD τ) (Ol (payL.drop 7) c) W
        ∗ xPts m c (blkLo 3 c) 88 fullShare.right.right.right.right
        ∗ landPay (F := F) (peer 0 c) (3, 0)
        ∗ dutyTok ER (cell c (sndJ 3 0)) 0 0
        ∗ dutyTok ER (cell (peer 0 c) (rcvJ 3 0)) 0 0
        ∗ xPts m c 0 2048 fullShare.left
        ∗ oPts c (2048 * (c.val % 4)) 2048 fullShare (m ((c : Thread nD τ).loc main_v1))
        ∗ dutyTok ER (cell c (cpJ 31)) 0 0)
      ∗ (∀ r, (owes (c : Thread nD τ) (Ol (payL.drop 8) c) W
          ∗ cred (tallyAt (cell c (sndJ 3 0)) () (credS 88))
          ∗ cred (tallyAt (cell c (cpJ 31)) () (credO 2048))) -∗ Kt r))
      ⊢ wp frame (wpE (defs₀ (F := F)) 𝒱₀ (c : Thread nD τ) none) Set.univ
          (k0_part6 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v40 v166) Kt := by
  rw [k0_part6_eq_skeleton]; unfold k0_part6_skel
  simp only [Prog.lift, Prog.bind_op, Prog.bind_ret, Prog.pure_eq_ret, semSignalWord, semWaitWord]
  /- operations, in order:
   op 8: SEND src=arg0@k0_off4 256#32:S88x512 dev=k0_dev8 dst=arg2@k0_off3 0#32 256#32:S88x512 sS=arg3[3, 0] sR=arg4[3, 0] [payments made before: 7]
   op 9: COPY src=arg0 dst=arg1@k0_off5:S2048x512 sem=arg5[31] [payments made before: 8] -/
  rw [show payL.drop 7 = (tgt 3, rcvJ 3 0) :: payL.drop 8 from rfl, Ol_cons]
  iintro ⟨⟨#HR, HO, Hx, Hl1, Hts1, Htr1, Hxl, Ho, Htc⟩, Hk⟩
  ihave #HIs1 := (rec_inv m K c (sndJ 3 0)) $$ HR
  ihave #HIr1 := (rec_inv m K (peer 0 c) (rcvJ 3 0)) $$ HR
  ihave #HRs1 := (rec_reached m K c (sndJ 3 0)) $$ HR
  ihave #HRr1 := (rec_reached m K (peer 0 c) (rcvJ 3 0)) $$ HR
  iapply (send_ring0 m K c 3 (by decide) (dev8_eq c) rfl (off4_blk_256 c) (off3_lo_0_256 c) rfl rfl rfl rfl rfl W
      (Ol (payL.drop 8) c) (p := peer 0 c) (nr := 88) (q := fullShare.right.right.right.right)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  ihave #HIc := (rec_inv m K c (cpJ 31)) $$ HR
  ihave #HRc := (rec_reached m K c (cpJ 31)) $$ HR
  iapply (copy_own m K c (off5_eq c) rfl (m ((c : Thread nD τ).loc main_v1))) $$ [Hxl Ho Htc]
  · isplitr; · iexact HIc
    isplitl [Hxl]; · iexact Hxl
    isplitl [Ho]; · iexact Ho
    isplitl [Htc]; · iexact Htc
    iexact HRc
  iintro Hcc
  rw [wp_ret]; imodintro
  iapply Hk
  isplitl [HO]; · iexact HO
  isplitl [Hc1]; · iexact Hc1
  iexact Hcc

/-- Part 7 of the body. -/
theorem part7_spec (K : Dev nD × Fin 93 → ℕ) (c : Dev nD) (W : Waits sig Unit) (v2 : BitVec 32) (v5 : BitVec 32) (v8 : BitVec 32) (v21 : BitVec 32) (v34 : BitVec 32) (v197 : BitVec 32) (v199 : BitVec 32) (Kt : (Σ' (v209 : BitVec 32) (v230 : BitVec 32), BitVec 32) → sProp 𝕄) :
    iprop((records m K
        ∗ levAts L lv
        ∗ owes (c : Thread nD τ) (Ol (payL.drop 8) c) W
        ∗ cred (tallyAt (cell c (rcvJ 0 0)) () (credS 256))
        ∗ atPos ER (cell c (rcvJ 0 0)) 0 ∅ 0
        ∗ oPts c (lo 0 0 c) 256 fullShare (m ((c : Thread nD τ).loc main_v1))
        ∗ dutyTok ER (cell c (cpJ 0)) 0 0)
      ∗ (∀ r, (owes (c : Thread nD τ) (Ol (payL.drop 8) c) (insert (csem (rcvJ 0 0), ()) W)
          ∗ semVal (cell c (rcvJ 0 0)) 0
          ∗ sPts c (lo 0 0 c) 256 fullShare.right.left (Gd m (org 0 0 c))
          ∗ sPts c (lo 0 0 c) 256 fullShare.right.right.left (Gd m (org 0 0 c))
          ∗ sPts c (lo 0 0 c) 256 fullShare.right.right.right (Gd m (org 0 0 c))
          ∗ cred (tallyAt (cell c (cpJ 0)) () (credO 256))) -∗ Kt r))
      ⊢ wp frame (wpE (defs₀ (F := F)) 𝒱₀ (c : Thread nD τ) none) Set.univ
          (k0_part7 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v34 v197 v199) Kt := by
  rw [k0_part7_eq_skeleton]; unfold k0_part7_skel
  simp only [Prog.lift, Prog.bind_op, Prog.bind_ret, Prog.pure_eq_ret, semSignalWord, semWaitWord]
  /- operations, in order:
   op 10: WAIT sem=arg4[0, 0] src=arg0@k0_off2 0#32:S256x512 dst=arg2@k0_off1 0#32 0#32:S256x512 [payments made before: 8]
   op 11: COPY src=arg2@k0_off6 0#32:S256x512 dst=arg1@k0_off6 0#32:S256x512 sem=arg5[0] [payments made before: 8] -/
  iintro ⟨⟨#HR, #Hlev, HO, Hc, Hat, Ho, Htc⟩, Hk⟩
  ihave #HIw := (rec_inv m K c (rcvJ 0 0)) $$ HR
  iapply (wp_wait_rcv m K c 0 0 rfl rfl W (Ol (payL.drop 8) c)) $$ [Hc HO Hat]
  · isplitr; · iexact HIw
    isplitl [Hc]; · iexact Hc
    isplitl [HO]; · iexact HO
    isplitr; · iapply (mayWait_of c (rcvJ 0 0) (payL.drop 8) (by decide)); iexact Hlev
    iexact Hat
  iintro ⟨HO, Hsv, Hrp⟩
  ihave Hd := (deal_q_at m c 0 (.inl rfl) 0 0 rfl).1 $$ Hrp
  icases Hd with ⟨Hs0, Hs1, Hs2, Hs3⟩
  ihave #HIc := (rec_inv m K c (cpJ 0)) $$ HR
  ihave #HRc := (rec_reached m K c (cpJ 0)) $$ HR
  iapply (copy_stage m K c 0 (by decide) rfl (off6_lo_0 c) (off6_lo_0 c) rfl rfl rfl rfl (m ((c : Thread nD τ).loc main_v1))
      (sf := 0) (sh := 0) (nr := 256) (q := fullShare.left)) $$ [Hs0 Ho Htc]
  · isplitr; · iexact HIc
    isplitl [Hs0]; · iexact Hs0
    isplitl [Ho]; · iexact Ho
    isplitl [Htc]; · iexact Htc
    iexact HRc
  iintro Hcc
  rw [wp_ret]; imodintro
  iapply Hk
  isplitl [HO]; · iexact HO
  isplitl [Hsv]; · iexact Hsv
  isplitl [Hs1]; · iexact Hs1
  isplitl [Hs2]; · iexact Hs2
  isplitl [Hs3]; · iexact Hs3
  iexact Hcc

/-- Part 8 of the body. -/
theorem part8_spec (K : Dev nD × Fin 93 → ℕ) (c : Dev nD) (W : Waits sig Unit) (v2 : BitVec 32) (v5 : BitVec 32) (v21 : BitVec 32) (v34 : BitVec 32) (v197 : BitVec 32) (v230 : BitVec 32) (v231 : BitVec 32) (Kt : (Σ' (v265 : BitVec 32), BitVec 32) → sProp 𝕄) :
    iprop((records m K
        ∗ owes (c : Thread nD τ) (Ol (payL.drop 8) c) W
        ∗ sPts c (lo 0 0 c) 256 fullShare.right.left (Gd m (org 0 0 c))
        ∗ landPay (F := F) (peer 1 c) (0, 1)
        ∗ dutyTok ER (cell c (sndJ 0 1)) 0 0
        ∗ dutyTok ER (cell (peer 1 c) (rcvJ 0 1)) 0 0)
      ∗ (∀ r, (owes (c : Thread nD τ) (Ol (payL.drop 9) c) W
          ∗ cred (tallyAt (cell c (sndJ 0 1)) () (credS 256))) -∗ Kt r))
      ⊢ wp frame (wpE (defs₀ (F := F)) 𝒱₀ (c : Thread nD τ) none) Set.univ
          (k0_part8 (Memref.whole cc0_stg0_0) (Memref.isWhole_whole _) (Memref.whole main_v1) (Memref.isWhole_whole _) (Memref.whole cc0_scratch0) (Memref.isWhole_whole _) cc0_scratch1 cc0_scratch2 cc0_scratch3 c v2 v5 v21 v34 v197 v230 v231) Kt := by
  rw [k0_part8_eq_skeleton]; unfold k0_part8_skel
  simp only [Prog.lift, Prog.bind_op, Prog.bind_ret, Prog.pure_eq_ret, semSignalWord, semWaitWord]
  /- operations, in order:
   op 12: SEND src=arg2@k0_off1 4294967295#32 0#32:S256x512 dev=k0_dev9 dst=arg2@k0_off1 4294967295#32 0#32:S256x512 sS=arg3[0, 1] sR=arg4[0, 1] [payments made before: 8] -/
  rw [show payL.drop 8 = (tgt 0, rcvJ 0 1) :: payL.drop 9 from rfl, Ol_cons]
  iintro ⟨⟨#HR, HO, Hx, Hl1, Hts1, Htr1⟩, Hk⟩
  ihave #HIs1 := (rec_inv m K c (sndJ 0 1)) $$ HR
  ihave #HIr1 := (rec_inv m K (peer 1 c) (rcvJ 0 1)) $$ HR
  ihave #HRs1 := (rec_reached m K c (sndJ 0 1)) $$ HR
  ihave #HRr1 := (rec_reached m K (peer 1 c) (rcvJ 0 1)) $$ HR
  iapply (send_stage m K c 0 1 (by decide) (dev9_eq c) rfl rfl rfl (off1_lo_m1_0 c) (off1_lo_up_1 c) rfl rfl rfl rfl rfl W
      (Ol (payL.drop 9) c) (p := peer 1 c) (sf := 0) (sh := 0) (δ := 0) (a := lo 0 0 c) (nr := 256) (q := fullShare.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 9 of the body. -/
theorem part9_spec (K : Dev nD × Fin 93 → ℕ) (c : Dev nD) (W : Waits sig Unit) (v2 : BitVec 32) (v5 : BitVec 32) (v8 : BitVec 32) (v9 : BitVec 32) (v10 : BitVec 32) (v34 : BitVec 32) (v197 : BitVec 32) (v265 : BitVec 32) (c0_i32_187 : BitVec 32) (Kt : (PUnit) → sProp 𝕄) :
    iprop((records m K
        ∗ owes (c : Thread nD τ) (Ol (payL.drop 9) c) W
        ∗ sPts c (lo 0 0 c) 256 fullShare.right.right.left (Gd m (org 0 0 c))
        ∗ landPay (F := F) (peer 2 c) (4, 0)
        ∗ dutyTok ER (cell c (sndJ 4 0)) 0 0
        ∗ dutyTok ER (cell (peer 2 c) (rcvJ 4 0)) 0 0)
      ∗ (∀ r, (owes (c : Thread nD τ) (Ol (payL.drop 10) c) W
          ∗ cred (tallyAt (cell c (sndJ 4 0)) () (credS 256))) -∗ Kt r))
      ⊢ wp frame (wpE (defs₀ (F := F)) 𝒱₀ (c : Thread nD τ) none) Set.univ
          (k0_part9 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v34 v197 v265 c0_i32_187) Kt := by
  rw [k0_part9_eq_skeleton]; unfold k0_part9_skel
  simp only [Prog.lift, Prog.bind_op, Prog.bind_ret, Prog.pure_eq_ret, semSignalWord, semWaitWord]
  /- operations, in order:
   op 13: SEND src=arg2@k0_off6 0#32:S256x512 dev=k0_dev10 dst=arg2@k0_off6 0#32:S256x512 sS=arg3[4, 0] sR=arg4[4, 0] [payments made before: 9] -/
  rw [show payL.drop 9 = (tgt 4, rcvJ 4 0) :: payL.drop 10 from rfl, Ol_cons]
  iintro ⟨⟨#HR, HO, Hx, Hl1, Hts1, Htr1⟩, Hk⟩
  ihave #HIs1 := (rec_inv m K c (sndJ 4 0)) $$ HR
  ihave #HIr1 := (rec_inv m K (peer 2 c) (rcvJ 4 0)) $$ HR
  ihave #HRs1 := (rec_reached m K c (sndJ 4 0)) $$ HR
  ihave #HRr1 := (rec_reached m K (peer 2 c) (rcvJ 4 0)) $$ HR
  iapply (send_stage m K c 4 0 (by decide) (dev10_eq c) rfl rfl rfl (off6_lo_0 c) (off6_lo_x_0 c) rfl rfl rfl rfl rfl W
      (Ol (payL.drop 10) c) (p := peer 2 c) (sf := 0) (sh := 0) (δ := 0) (a := lo 0 0 c) (nr := 256) (q := fullShare.right.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 10 of the body. -/
theorem part10_spec (K : Dev nD × Fin 93 → ℕ) (c : Dev nD) (W : Waits sig Unit) (v2 : BitVec 32) (v5 : BitVec 32) (v8 : BitVec 32) (v32 : BitVec 32) (v34 : BitVec 32) (v209 : BitVec 32) (Kt : (Σ' (v327 : BitVec 32), BitVec 32) → sProp 𝕄) :
    iprop((records m K
        ∗ levAts L lv
        ∗ owes (c : Thread nD τ) (Ol (payL.drop 10) c) W
        ∗ sPts c (lo 0 0 c) 256 fullShare.right.right.right (Gd m (org 0 0 c))
        ∗ landPay (F := F) (peer 3 c) (6, 0)
        ∗ dutyTok ER (cell c (sndJ 6 0)) 0 0
        ∗ dutyTok ER (cell (peer 3 c) (rcvJ 6 0)) 0 0
        ∗ cred (tallyAt (cell c (rcvJ 2 0)) () (credS 256))
        ∗ atPos ER (cell c (rcvJ 2 0)) 0 ∅ 0
        ∗ oPts c (lo 2 0 c) 256 fullShare (m ((c : Thread nD τ).loc main_v1))
        ∗ dutyTok ER (cell c (cpJ 1)) 0 0)
      ∗ (∀ r, (owes (c : Thread nD τ) (Ol (payL.drop 11) c) (insert (csem (rcvJ 2 0), ()) W)
          ∗ cred (tallyAt (cell c (sndJ 6 0)) () (credS 256))
          ∗ semVal (cell c (rcvJ 2 0)) 0
          ∗ sPts c (lo 2 0 c) 256 fullShare.right.left (Gd m (org 2 0 c))
          ∗ sPts c (lo 2 0 c) 256 fullShare.right.right.left (Gd m (org 2 0 c))
          ∗ sPts c (lo 2 0 c) 256 fullShare.right.right.right (Gd m (org 2 0 c))
          ∗ cred (tallyAt (cell c (cpJ 1)) () (credO 256))) -∗ Kt r))
      ⊢ wp frame (wpE (defs₀ (F := F)) 𝒱₀ (c : Thread nD τ) none) Set.univ
          (k0_part10 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v34 v209) Kt := by
  rw [k0_part10_eq_skeleton]; unfold k0_part10_skel
  simp only [Prog.lift, Prog.bind_op, Prog.bind_ret, Prog.pure_eq_ret, semSignalWord, semWaitWord]
  /- operations, in order:
   op 14: SEND src=arg2@k0_off6 0#32:S256x512 dev=k0_dev11 dst=arg2@k0_off6 0#32:S256x512 sS=arg3[6, 0] sR=arg4[6, 0] [payments made before: 10]
   op 15: WAIT sem=arg4[2, 0] src=arg0@k0_off2 256#32:S256x512 dst=arg2@k0_off1 0#32 256#32:S256x512 [payments made before: 11]
   op 16: COPY src=arg2@k0_off7 0#32:S256x512 dst=arg1@k0_off7 0#32:S256x512 sem=arg5[1] [payments made before: 11] -/
  rw [show payL.drop 10 = (tgt 6, rcvJ 6 0) :: payL.drop 11 from rfl, Ol_cons]
  iintro ⟨⟨#HR, #Hlev, HO, Hx, Hl1, Hts1, Htr1, Hc, Hat, Ho, Htc⟩, Hk⟩
  ihave #HIs1 := (rec_inv m K c (sndJ 6 0)) $$ HR
  ihave #HIr1 := (rec_inv m K (peer 3 c) (rcvJ 6 0)) $$ HR
  ihave #HRs1 := (rec_reached m K c (sndJ 6 0)) $$ HR
  ihave #HRr1 := (rec_reached m K (peer 3 c) (rcvJ 6 0)) $$ HR
  iapply (send_stage m K c 6 0 (by decide) (dev11_eq c) rfl rfl rfl (off6_lo_0 c) (off6_lo_y_0 c) rfl rfl rfl rfl rfl W
      (Ol (payL.drop 11) c) (p := peer 3 c) (sf := 0) (sh := 0) (δ := 0) (a := lo 0 0 c) (nr := 256) (q := fullShare.right.right.right)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  ihave #HIw := (rec_inv m K c (rcvJ 2 0)) $$ HR
  iapply (wp_wait_rcv m K c 2 0 rfl rfl W (Ol (payL.drop 11) c)) $$ [Hc HO Hat]
  · isplitr; · iexact HIw
    isplitl [Hc]; · iexact Hc
    isplitl [HO]; · iexact HO
    isplitr; · iapply (mayWait_of c (rcvJ 2 0) (payL.drop 11) (by decide)); iexact Hlev
    iexact Hat
  iintro ⟨HO, Hsv, Hrp⟩
  ihave Hd := (deal_q_at m c 2 (.inr rfl) 0 0 rfl).1 $$ Hrp
  icases Hd with ⟨Hs0, Hs1, Hs2, Hs3⟩
  ihave #HIc := (rec_inv m K c (cpJ 1)) $$ HR
  ihave #HRc := (rec_reached m K c (cpJ 1)) $$ HR
  iapply (copy_stage m K c 1 (by decide) rfl (off7_lo_0 c) (off7_lo_0 c) rfl rfl rfl rfl (m ((c : Thread nD τ).loc main_v1))
      (sf := 2) (sh := 0) (nr := 256) (q := fullShare.left)) $$ [Hs0 Ho Htc]
  · isplitr; · iexact HIc
    isplitl [Hs0]; · iexact Hs0
    isplitl [Ho]; · iexact Ho
    isplitl [Htc]; · iexact Htc
    iexact HRc
  iintro Hcc
  rw [wp_ret]; imodintro
  iapply Hk
  isplitl [HO]; · iexact HO
  isplitl [Hc1]; · iexact Hc1
  isplitl [Hsv]; · iexact Hsv
  isplitl [Hs1]; · iexact Hs1
  isplitl [Hs2]; · iexact Hs2
  isplitl [Hs3]; · iexact Hs3
  iexact Hcc

/-- Part 11 of the body. -/
theorem part11_spec (K : Dev nD × Fin 93 → ℕ) (c : Dev nD) (W : Waits sig Unit) (v2 : BitVec 32) (v5 : BitVec 32) (v8 : BitVec 32) (v9 : BitVec 32) (v32 : BitVec 32) (v34 : BitVec 32) (v209 : BitVec 32) (v327 : BitVec 32) (v330 : BitVec 32) (Kt : (PUnit) → sProp 𝕄) :
    iprop((records m K
        ∗ owes (c : Thread nD τ) (Ol (payL.drop 11) c) W
        ∗ sPts c (lo 2 0 c) 256 fullShare.right.left (Gd m (org 2 0 c))
        ∗ landPay (F := F) (peer 0 c) (2, 1)
        ∗ dutyTok ER (cell c (sndJ 2 1)) 0 0
        ∗ dutyTok ER (cell (peer 0 c) (rcvJ 2 1)) 0 0)
      ∗ (∀ r, (owes (c : Thread nD τ) (Ol (payL.drop 12) c) W
          ∗ cred (tallyAt (cell c (sndJ 2 1)) () (credS 256))) -∗ Kt r))
      ⊢ wp frame (wpE (defs₀ (F := F)) 𝒱₀ (c : Thread nD τ) none) Set.univ
          (k0_part11 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v32 v34 v209 v327 v330) Kt := by
  rw [k0_part11_eq_skeleton]; unfold k0_part11_skel
  simp only [Prog.lift, Prog.bind_op, Prog.bind_ret, Prog.pure_eq_ret, semSignalWord, semWaitWord]
  /- operations, in order:
   op 17: SEND src=arg2@k0_off1 1#32 256#32:S256x512 dev=k0_dev12 dst=arg2@k0_off1 1#32 256#32:S256x512 sS=arg3[2, 1] sR=arg4[2, 1] [payments made before: 11] -/
  rw [show payL.drop 11 = (tgt 2, rcvJ 2 1) :: payL.drop 12 from rfl, Ol_cons]
  iintro ⟨⟨#HR, HO, Hx, Hl1, Hts1, Htr1⟩, Hk⟩
  ihave #HIs1 := (rec_inv m K c (sndJ 2 1)) $$ HR
  ihave #HIr1 := (rec_inv m K (peer 0 c) (rcvJ 2 1)) $$ HR
  ihave #HRs1 := (rec_reached m K c (sndJ 2 1)) $$ HR
  ihave #HRr1 := (rec_reached m K (peer 0 c) (rcvJ 2 1)) $$ HR
  iapply (send_stage m K c 2 1 (by decide) (dev12_eq c) rfl rfl rfl (off1_lo_1_256 c) (off1_lo_dn_1 c) rfl rfl rfl rfl rfl W
      (Ol (payL.drop 12) c) (p := peer 0 c) (sf := 2) (sh := 0) (δ := 0) (a := lo 2 0 c) (nr := 256) (q := fullShare.right.left)) $$ [HO Hx Hl1 Hts1 Htr1]
  · isplitr; · iexact HIs1
    isplitr; · iexact HIr1
    isplitl [Hx]; · iexact Hx
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  rw [wp_ret]; imodintro
  iapply Hk
  isplitl [HO]; · iexact HO
  iexact Hc1

/-- Part 12 of the body. -/
theorem part12_spec (K : Dev nD × Fin 93 → ℕ) (c : Dev nD) (W : Waits sig Unit) (v2 : BitVec 32) (v5 : BitVec 32) (v8 : BitVec 32) (v10 : BitVec 32) (v21 : BitVec 32) (v34 : BitVec 32) (v209 : BitVec 32) (Kt : (PUnit) → sProp 𝕄) :
    iprop((records m K
        ∗ owes (c : Thread nD τ) (Ol (payL.drop 12) c) W
        ∗ sPts c (lo 2 0 c) 256 fullShare.right.right.left (Gd m (org 2 0 c))
        ∗ landPay (F := F) (peer 2 c) (5, 0)
        ∗ dutyTok ER (cell c (sndJ 5 0)) 0 0
        ∗ dutyTok ER (cell (peer 2 c) (rcvJ 5 0)) 0 0
        ∗ sPts c (lo 2 0 c) 256 fullShare.right.right.right (Gd m (org 2 0 c))
        ∗ landPay (F := F) (peer 3 c) (7, 0)
        ∗ dutyTok ER (cell c (sndJ 7 0)) 0 0
        ∗ dutyTok ER (cell (peer 3 c) (rcvJ 7 0)) 0 0)
      ∗ (∀ r, (owes (c : Thread nD τ) (Ol (payL.drop 14) c) W
          ∗ cred (tallyAt (cell c (sndJ 5 0)) () (credS 256))
          ∗ cred (tallyAt (cell c (sndJ 7 0)) () (credS 256))) -∗ Kt r))
      ⊢ wp frame (wpE (defs₀ (F := F)) 𝒱₀ (c : Thread nD τ) none) Set.univ
          (k0_part12 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v21 v34 v209) Kt := by
  rw [k0_part12_eq_skeleton]; unfold k0_part12_skel
  simp only [Prog.lift, Prog.bind_op, Prog.bind_ret, Prog.pure_eq_ret, semSignalWord, semWaitWord]
  /- operations, in order:
   op 18: SEND src=arg2@k0_off7 0#32:S256x512 dev=k0_dev13 dst=arg2@k0_off7 0#32:S256x512 sS=arg3[5, 0] sR=arg4[5, 0] [payments made before: 12]
   op 19: SEND src=arg2@k0_off7 0#32:S256x512 dev=k0_dev14 dst=arg2@k0_off7 0#32:S256x512 sS=arg3[7, 0] sR=arg4[7, 0] [payments made before: 13] -/
  rw [show payL.drop 12 = (tgt 5, rcvJ 5 0) :: (tgt 7, rcvJ 7 0) :: payL.drop 14 from rfl, Ol_cons, Ol_cons]
  iintro ⟨⟨#HR, HO, Hx1, Hl1, Hts1, Htr1, Hx2, Hl2, Hts2, Htr2⟩, Hk⟩
  ihave #HIs1 := (rec_inv m K c (sndJ 5 0)) $$ HR
  ihave #HIr1 := (rec_inv m K (peer 2 c) (rcvJ 5 0)) $$ HR
  ihave #HRs1 := (rec_reached m K c (sndJ 5 0)) $$ HR
  ihave #HRr1 := (rec_reached m K (peer 2 c) (rcvJ 5 0)) $$ HR
  iapply (send_stage m K c 5 0 (by decide) (dev13_eq c) rfl rfl rfl (off7_lo_0 c) (off7_lo_x_0 c) rfl rfl rfl rfl rfl W
      (Ol (payL.drop 14) c + payTally c (tgt 7, rcvJ 7 0)) (p := peer 2 c) (sf := 2) (sh := 0) (δ := 0) (a := lo 2 0 c) (nr := 256) (q := fullShare.right.right.left)) $$ [HO Hx1 Hl1 Hts1 Htr1]
  · isplitr; · iexact HIs1
    isplitr; · iexact HIr1
    isplitl [Hx1]; · iexact Hx1
    isplitl [Hl1]; · iexact Hl1
    isplitl [HO]; · iexact HO
    isplitl [Hts1]; · iexact Hts1
    isplitr; · iexact HRs1
    isplitl [Htr1]; · iexact Htr1
    iexact HRr1
  iintro ⟨Hc1, HO⟩
  ihave #HIs2 := (rec_inv m K c (sndJ 7 0)) $$ HR
  ihave #HIr2 := (rec_inv m K (peer 3 c) (rcvJ 7 0)) $$ HR
  ihave #HRs2 := (rec_reached m K c (sndJ 7 0)) $$ HR
  ihave #HRr2 := (rec_reached m K (peer 3 c) (rcvJ 7 0)) $$ HR
  iapply (send_stage m K c 7 0 (by decide) (dev14_eq c) rfl rfl rfl (off7_lo_0 c) (off7_lo_y_0 c) rfl rfl rfl rfl rfl W
      (Ol (payL.drop 14) c) (p := peer 3 c) (sf := 2) (sh := 0) (δ := 0) (a := lo 2 0 c) (nr := 256) (q := fullShare.right.right.right)) $$ [HO Hx2 Hl2 Hts2 Htr2]
  · isplitr; · iexact HIs2
    isplitr; · iexact HIr2
    isplitl [Hx2]; · iexact Hx2
    isplitl [Hl2]; · iexact Hl2
    isplitl [HO]; · iexact HO
    isplitl [Hts2]; · iexact Hts2
    isplitr; · iexact HRs2
    isplitl [Htr2]; · iexact Htr2
    iexact HRr2
  iintro ⟨Hc2, HO⟩
  rw [wp_ret]; imodintro
  iapply Hk
  isplitl [HO]; · iexact HO
  isplitl [Hc1]; · iexact Hc1
  iexact Hc2

end Cert.Kernel.AG

end
-- ==== Proof.Bits.PartsB.lean ====
/-
  The body of one device, part by part (parts 13 to 18): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.XferSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

set_option maxHeartbeats 1600000 in
/-- Part 13 of the body. -/
theorem part13_spec (K : Dev nD × Fin 93 → ℕ) (c : Dev nD) (W : Waits sig Unit) (v2 : BitVec 32) (v8 : BitVec 32) (v40 : BitVec 32) (v197 : BitVec 32) (Kt : (BitVec 32) → sProp 𝕄) :
    iprop((records m K
        ∗ levAts L lv
        ∗ owes (c : Thread nD τ) (Ol (payL.drop 14) c) W
        ∗ cred (tallyAt (cell c (rcvJ 1 0)) () (credS 88))
        ∗ atPos ER (cell c (rcvJ 1 0)) 0 ∅ 0
        ∗ oPts c (lo 1 0 c) 88 fullShare (m ((c : Thread nD τ).loc main_v1))
        ∗ dutyTok ER (cell c (cpJ 2)) 0 0)
      ∗ (∀ r, (owes (c : Thread nD τ) (Ol (payL.drop 14) c) (insert (csem (rcvJ 1 0), ()) W)
          ∗ semVal (cell c (rcvJ 1 0)) 0
          ∗ sPts c (lo 1 0 c) 88 fullShare.right (Gd m (org 1 0 c))
          ∗ cred (tallyAt (cell c (cpJ 2)) () (credO 88))) -∗ Kt r))
      ⊢ wp frame (wpE (defs₀ (F := F)) 𝒱₀ (c : Thread nD τ) none) Set.univ
          (k0_part13 (Memref.whole cc0_stg0_0) (Memref.isWhole_whole _) (Memref.whole main_v1) (Memref.isWhole_whole _) (Memref.whole cc0_scratch0) (Memref.isWhole_whole _) cc0_scratch1 cc0_scratch2 cc0_scratch3 c v2 v8 v40 v197) Kt := by
  rw [k0_part13_eq_skeleton]; unfold k0_part13_skel
  simp only [Prog.lift, Prog.bind_op, Prog.bind_ret, Prog.pure_eq_ret, semSignalWord, semWaitWord]
  /- operations, in order:
   op 20: WAIT sem=arg4[1, 0] src=arg0@k0_off4 0#32:S88x512 dst=arg2@k0_off3 0#32 0#32:S88x512 [payments made before: 14]
   op 21: COPY src=arg2@k0_off8 0#32:S88x512 dst=arg1@k0_off8 0#32:S88x512 sem=arg5[2] [payments made before: 14] -/
  iintro ⟨⟨#HR, #HL, HO, Hc, Hat, Ho, Ht⟩, Hk⟩
  ihave #HIw10 := (rec_inv m K c (rcvJ 1 0)) $$ HR
  ihave #Hmw10 := (mayWait_of (F := F) c (rcvJ 1 0) (payL.drop 14) (by decide)) $$ HL
  iapply (wp_wait_rcv m K c 1 0 rfl rfl W (Ol (payL.drop 14) c)) $$ [Hc HO Hat]
  · isplitr; · iexact HIw10
    isplitl [Hc]; · iexact Hc
    isplitl [HO]; · iexact HO
    isplitr; · iexact Hmw10
    iexact Hat
  iintro ⟨HO, Hz, Hpay⟩
  ihave ⟨Hl, Hr⟩ := (deal_d_at m c 1 (Or.inl rfl) 0 0 rfl).mp $$ Hpay
  ihave #HIc2 := (rec_inv m K c (cpJ 2)) $$ HR
  ihave #Hrc2 := (rec_reached m K c (cpJ 2)) $$ HR
  iapply (copy_stage m K c 2 (by decide) (sf := 1) (sh := 0) rfl 88 (q := fullShare.left) (off8_lo_0 c) (off8_lo_0 c) rfl rfl rfl rfl (m ((c : Thread nD τ).loc main_v1))) $$ [Hl Ho Ht]
  · isplitr; · iexact HIc2
    isplitl [Hl]; · iexact Hl
    isplitl [Ho]; · iexact Ho
    isplitl [Ht]; · iexact Ht
    iexact Hrc2
  iintro Hcc
  rw [wp_ret]; imodintro; iapply Hk
  isplitl [HO]; · iexact HO
  isplitl [Hz]; · iexact Hz
  isplitl [Hr]; · iexact Hr
  iexact Hcc

set_option maxHeartbeats 1600000 in
/-- Part 14 of the body. -/
theorem part14_spec (K : Dev nD × Fin 93 → ℕ) (c : Dev nD) (W : Waits sig Unit) (v2 : BitVec 32) (v5 : BitVec 32) (v8 : BitVec 32) (v21 : BitVec 32) (v32 : BitVec 32) (v40 : BitVec 32) (v209 : BitVec 32) (v425 : BitVec 32) (Kt : (Σ' (v455 : BitVec 32), BitVec 32) → sProp 𝕄) :
    iprop((records m K
        ∗ levAts L lv
        ∗ owes (c : Thread nD τ) (Ol (payL.drop 14) c) W
        ∗ sPts c (lo 1 0 c) 88 fullShare.right (Gd m (org 1 0 c))
        ∗ landPay (F := F) (peer 1 c) (1, 1)
        ∗ dutyTok ER (cell c (sndJ 1 1)) 0 0
        ∗ dutyTok ER (cell (peer 1 c) (rcvJ 1 1)) 0 0
        ∗ cred (tallyAt (cell c (rcvJ 3 0)) () (credS 88))
        ∗ atPos ER (cell c (rcvJ 3 0)) 0 ∅ 0
        ∗ oPts c (lo 3 0 c) 88 fullShare (m ((c : Thread nD τ).loc main_v1))
        ∗ dutyTok ER (cell c (cpJ 3)) 0 0)
      ∗ (∀ r, (owes (c : Thread nD τ) (Ol (payL.drop 15) c) (insert (csem (rcvJ 3 0), ()) W)
          ∗ cred (tallyAt (cell c (sndJ 1 1)) () (credS 88))
          ∗ semVal (cell c (rcvJ 3 0)) 0
          ∗ sPts c (lo 3 0 c) 88 fullShare.right (Gd m (org 3 0 c))
          ∗ cred (tallyAt (cell c (cpJ 3)) () (credO 88))) -∗ Kt r))
      ⊢ wp frame (wpE (defs₀ (F := F)) 𝒱₀ (c : Thread nD τ) none) Set.univ
          (k0_part14 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v32 v40 v209 v425) Kt := by
  rw [k0_part14_eq_skeleton]; unfold k0_part14_skel
  simp only [Prog.lift, Prog.bind_op, Prog.bind_ret, Prog.pure_eq_ret, semSignalWord, semWaitWord]
  /- operations, in order:
   op 22: SEND src=arg2@k0_off3 4294967295#32 0#32:S88x512 dev=k0_dev15 dst=arg2@k0_off3 4294967295#32 0#32:S88x512 sS=arg3[1, 1] sR=arg4[1, 1] [payments made before: 14]
   op 23: WAIT sem=arg4[3, 0] src=arg0@k0_off4 256#32:S88x512 dst=arg2@k0_off3 0#32 256#32:S88x512 [payments made before: 15]
   op 24: COPY src=arg2@k0_off9 0#32:S88x512 dst=arg1@k0_off9 0#32:S88x512 sem=arg5[3] [payments made before: 15] -/
  rw [show payL.drop 14 = (tgt 1, rcvJ 1 1) :: payL.drop 15 from rfl, Ol_cons,
    show payTally c (tgt 1, rcvJ 1 1) = tallyAt (cell (peer 1 c) (rcvJ 1 1)) () (credS 88) from rfl]
  iintro ⟨⟨#HR, #HL, HO, Hs, Hland, Hts, Htr, Hc, Hat, Ho, Ht⟩, Hk⟩
  ihave #HIs11 := (rec_inv m K c (sndJ 1 1)) $$ HR
  ihave #HIr11 := (rec_inv m K (peer 1 c) (rcvJ 1 1)) $$ HR
  ihave #Hrs11 := (rec_reached m K c (sndJ 1 1)) $$ HR
  ihave #Hrr11 := (rec_reached m K (peer 1 c) (rcvJ 1 1)) $$ HR
  iapply (send_stage m K c (p := peer 1 c) 1 1 (by decide) (dev15_eq c) rfl (sf := 1) (sh := 0) (δ := 0) (a := lo 1 0 c) rfl rfl 88 (q := fullShare.right) (off3_lo_m1_0 c) (off3_lo_up_1 c) rfl rfl rfl rfl rfl W (Ol (payL.drop 15) c)) $$ [Hs Hland HO Hts Htr]
  · isplitr; · iexact HIs11
    isplitr; · iexact HIr11
    isplitl [Hs]; · iexact Hs
    isplitl [Hland]; · iexact Hland
    isplitl [HO]; · iexact HO
    isplitl [Hts]; · iexact Hts
    isplitr; · iexact Hrs11
    isplitl [Htr]; · iexact Htr
    iexact Hrr11
  iintro ⟨Hcs, HO⟩
  ihave #HIw30 := (rec_inv m K c (rcvJ 3 0)) $$ HR
  ihave #Hmw30 := (mayWait_of (F := F) c (rcvJ 3 0) (payL.drop 15) (by decide)) $$ HL
  iapply (wp_wait_rcv m K c 3 0 rfl rfl W (Ol (payL.drop 15) c)) $$ [Hc HO Hat]
  · isplitr; · iexact HIw30
    isplitl [Hc]; · iexact Hc
    isplitl [HO]; · iexact HO
    isplitr; · iexact Hmw30
    iexact Hat
  iintro ⟨HO, Hz, Hpay⟩
  ihave ⟨Hl, Hr⟩ := (deal_d_at m c 3 (Or.inr rfl) 0 0 rfl).mp $$ Hpay
  ihave #HIc3 := (rec_inv m K c (cpJ 3)) $$ HR
  ihave #Hrc3 := (rec_reached m K c (cpJ 3)) $$ HR
  iapply (copy_stage m K c 3 (by decide) (sf := 3) (sh := 0) rfl 88 (q := fullShare.left) (off9_lo_0 c) (off9_lo_0 c) rfl rfl rfl rfl (m ((c : Thread nD τ).loc main_v1))) $$ [Hl Ho Ht]
  · isplitr; · iexact HIc3
    isplitl [Hl]; · iexact Hl
    isplitl [Ho]; · iexact Ho
    isplitl [Ht]; · iexact Ht
    iexact Hrc3
  iintro Hcc
  rw [wp_ret]; imodintro; iapply Hk
  isplitl [HO]; · iexact HO
  isplitl [Hcs]; · iexact Hcs
  isplitl [Hz]; · iexact Hz
  isplitl [Hr]; · iexact Hr
  iexact Hcc

set_option maxHeartbeats 1600000 in
/-- Part 15 of the body. -/
theorem part15_spec (K : Dev nD × Fin 93 → ℕ) (c : Dev nD) (W : Waits sig Unit) (v2 : BitVec 32) (v5 : BitVec 32) (v32 : BitVec 32) (v34 : BitVec 32) (v40 : BitVec 32) (v197 : BitVec 32) (v455 : BitVec 32) (v457 : BitVec 32) (Kt : (BitVec 32) → sProp 𝕄) :
    iprop((records m K
        ∗ owes (c : Thread nD τ) (Ol (payL.drop 15) c) W
        ∗ sPts c (lo 3 0 c) 88 fullShare.right (Gd m (org 3 0 c))
        ∗ landPay (F := F) (peer 0 c) (3, 1)
        ∗ dutyTok ER (cell c (sndJ 3 1)) 0 0
        ∗ dutyTok ER (cell (peer 0 c) (rcvJ 3 1)) 0 0)
      ∗ (∀ r, (owes (c : Thread nD τ) (Ol (payL.drop 16) c) W
          ∗ cred (tallyAt (cell c (sndJ 3 1)) () (credS 88))) -∗ Kt r))
      ⊢ wp frame (wpE (defs₀ (F := F)) 𝒱₀ (c : Thread nD τ) none) Set.univ
          (k0_part15 (Memref.whole cc0_stg0_0) (Memref.isWhole_whole _) (Memref.whole main_v1) (Memref.isWhole_whole _) (Memref.whole cc0_scratch0) (Memref.isWhole_whole _) cc0_scratch1 cc0_scratch2 cc0_scratch3 c v2 v5 v32 v34 v40 v197 v455 v457) Kt := by
  rw [k0_part15_eq_skeleton]; unfold k0_part15_skel
  simp only [Prog.lift, Prog.bind_op, Prog.bind_ret, Prog.pure_eq_ret, semSignalWord, semWaitWord]
  /- operations, in order:
   op 25: SEND src=arg2@k0_off3 1#32 256#32:S88x512 dev=k0_dev16 dst=arg2@k0_off3 1#32 256#32:S88x512 sS=arg3[3, 1] sR=arg4[3, 1] [payments made before: 15] -/
  rw [show payL.drop 15 = (tgt 3, rcvJ 3 1) :: payL.drop 16 from rfl, Ol_cons,
    show payTally c (tgt 3, rcvJ 3 1) = tallyAt (cell (peer 0 c) (rcvJ 3 1)) () (credS 88) from rfl]
  iintro ⟨⟨#HR, HO, Hs, Hland, Hts, Htr⟩, Hk⟩
  ihave #HIs31 := (rec_inv m K c (sndJ 3 1)) $$ HR
  ihave #HIr31 := (rec_inv m K (peer 0 c) (rcvJ 3 1)) $$ HR
  ihave #Hrs31 := (rec_reached m K c (sndJ 3 1)) $$ HR
  ihave #Hrr31 := (rec_reached m K (peer 0 c) (rcvJ 3 1)) $$ HR
  iapply (send_stage m K c (p := peer 0 c) 3 1 (by decide) (dev16_eq c) rfl (sf := 3) (sh := 0) (δ := 0) (a := lo 3 0 c) rfl rfl 88 (q := fullShare.right) (off3_lo_1_256 c) (off3_lo_dn_1 c) rfl rfl rfl rfl rfl W (Ol (payL.drop 16) c)) $$ [Hs Hland HO Hts Htr]
  · isplitr; · iexact HIs31
    isplitr; · iexact HIr31
    isplitl [Hs]; · iexact Hs
    isplitl [Hland]; · iexact Hland
    isplitl [HO]; · iexact HO
    isplitl [Hts]; · iexact Hts
    isplitr; · iexact Hrs31
    isplitl [Htr]; · iexact Htr
    iexact Hrr31
  iintro ⟨Hcs, HO⟩
  rw [wp_ret]; imodintro; iapply Hk
  isplitl [HO]; · iexact HO
  iexact Hcs

set_option maxHeartbeats 1600000 in
/-- Part 16 of the body. -/
theorem part16_spec (K : Dev nD × Fin 93 → ℕ) (c : Dev nD) (W : Waits sig Unit) (v2 : BitVec 32) (v5 : BitVec 32) (v8 : BitVec 32) (v9 : BitVec 32) (v10 : BitVec 32) (v38 : BitVec 32) (v197 : BitVec 32) (v492 : BitVec 32) (Kt : (Σ' (v520 : BitVec 32), BitVec 32) → sProp 𝕄) :
    iprop((records m K
        ∗ levAts L lv
        ∗ owes (c : Thread nD τ) (Ol (payL.drop 16) c) W
        ∗ cred (tallyAt (cell c (rcvJ 6 0)) () (credS 256))
        ∗ atPos ER (cell c (rcvJ 6 0)) 0 ∅ 0
        ∗ oPts c (lo 6 0 c) 256 fullShare (m ((c : Thread nD τ).loc main_v1))
        ∗ dutyTok ER (cell c (cpJ 4)) 0 0)
      ∗ (∀ r, (owes (c : Thread nD τ) (Ol (payL.drop 16) c) (insert (csem (rcvJ 6 0), ()) W)
          ∗ semVal (cell c (rcvJ 6 0)) 0
          ∗ sPts c (lo 6 0 c) 88 fullShare.right (Gd m (org 6 0 c))
          ∗ sPts c (lo 6 0 c + 88) 168 fullShare.right (Gd m (org 6 0 c))
          ∗ cred (tallyAt (cell c (cpJ 4)) () (credO 256))) -∗ Kt r))
      ⊢ wp frame (wpE (defs₀ (F := F)) 𝒱₀ (c : Thread nD τ) none) Set.univ
          (k0_part16 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v38 v197 v492) Kt := by
  rw [k0_part16_eq_skeleton]; unfold k0_part16_skel
  simp only [Prog.lift, Prog.bind_op, Prog.bind_ret, Prog.pure_eq_ret, semSignalWord, semWaitWord]
  /- operations, in order:
   op 26: WAIT sem=arg4[6, 0] src=arg2@k0_off6 0#32:S256x512 dst=arg2@k0_off6 0#32:S256x512 [payments made before: 16]
   op 27: COPY src=arg2@k0_off10 0#32:S256x512 dst=arg1@k0_off10 0#32:S256x512 sem=arg5[4] [payments made before: 16] -/
  iintro ⟨⟨#HR, #HL, HO, Hc, Hat, Ho, Ht⟩, Hk⟩
  ihave #HIw60 := (rec_inv m K c (rcvJ 6 0)) $$ HR
  ihave #Hmw60 := (mayWait_of (F := F) c (rcvJ 6 0) (payL.drop 16) (by decide)) $$ HL
  iapply (wp_wait_rcv m K c 6 0 rfl rfl W (Ol (payL.drop 16) c)) $$ [Hc HO Hat]
  · isplitr; · iexact HIw60
    isplitl [Hc]; · iexact Hc
    isplitl [HO]; · iexact HO
    isplitr; · iexact Hmw60
    iexact Hat
  iintro ⟨HO, Hz, Hpay⟩
  ihave ⟨Hl, Hr1, Hr2⟩ := (deal_r_at m c 6 (Or.inr rfl) 0 0 rfl).mp $$ Hpay
  ihave #HIc4 := (rec_inv m K c (cpJ 4)) $$ HR
  ihave #Hrc4 := (rec_reached m K c (cpJ 4)) $$ HR
  iapply (copy_stage m K c 4 (by decide) (sf := 6) (sh := 0) rfl 256 (q := fullShare.left) (off10_lo_0 c) (off10_lo_0 c) rfl rfl rfl rfl (m ((c : Thread nD τ).loc main_v1))) $$ [Hl Ho Ht]
  · isplitr; · iexact HIc4
    isplitl [Hl]; · iexact Hl
    isplitl [Ho]; · iexact Ho
    isplitl [Ht]; · iexact Ht
    iexact Hrc4
  iintro Hcc
  rw [wp_ret]; imodintro; iapply Hk
  isplitl [HO]; · iexact HO
  isplitl [Hz]; · iexact Hz
  isplitl [Hr1]; · iexact Hr1
  isplitl [Hr2]; · iexact Hr2
  iexact Hcc

set_option maxHeartbeats 1600000 in
/-- Part 17 of the body. -/
theorem part17_spec (K : Dev nD × Fin 93 → ℕ) (c : Dev nD) (W : Waits sig Unit) (v5 : BitVec 32) (v8 : BitVec 32) (v9 : BitVec 32) (v34 : BitVec 32) (v36 : BitVec 32) (v209 : BitVec 32) (v520 : BitVec 32) (v521 : BitVec 32) (Kt : (PUnit) → sProp 𝕄) :
    iprop((records m K
        ∗ levAts L lv
        ∗ owes (c : Thread nD τ) (Ol (payL.drop 16) c) W
        ∗ sPts c (lo 6 0 c + 88) 168 fullShare.right (Gd m (org 6 0 c))
        ∗ landPay (F := F) (peer 2 c) (9, 0)
        ∗ dutyTok ER (cell c (sndJ 9 0)) 0 0
        ∗ dutyTok ER (cell (peer 2 c) (rcvJ 9 0)) 0 0
        ∗ cred (tallyAt (cell c (rcvJ 5 0)) () (credS 256))
        ∗ atPos ER (cell c (rcvJ 5 0)) 0 ∅ 0)
      ∗ (∀ r, (owes (c : Thread nD τ) (Ol (payL.drop 17) c) (insert (csem (rcvJ 5 0), ()) W)
          ∗ cred (tallyAt (cell c (sndJ 9 0)) () (credS 168))
          ∗ semVal (cell c (rcvJ 5 0)) 0
          ∗ sPts c (lo 5 0 c) 256 fullShare.left (Gd m (org 5 0 c))
          ∗ sPts c (lo 5 0 c) 88 fullShare.right (Gd m (org 5 0 c))
          ∗ sPts c (lo 5 0 c + 88) 168 fullShare.right (Gd m (org 5 0 c))) -∗ Kt r))
      ⊢ wp frame (wpE (defs₀ (F := F)) 𝒱₀ (c : Thread nD τ) none) Set.univ
          (k0_part17 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v36 v209 v520 v521) Kt := by
  rw [k0_part17_eq_skeleton]; unfold k0_part17_skel
  simp only [Prog.lift, Prog.bind_op, Prog.bind_ret, Prog.pure_eq_ret, semSignalWord, semWaitWord]
  /- operations, in order:
   op 28: SEND src=arg2@k0_off11 0#32:S168x512 dev=k0_dev17 dst=arg2@k0_off11 0#32:S168x512 sS=arg3[9, 0] sR=arg4[9, 0] [payments made before: 16]
   op 29: WAIT sem=arg4[5, 0] src=arg2@k0_off7 0#32:S256x512 dst=arg2@k0_off7 0#32:S256x512 [payments made before: 17] -/
  rw [show payL.drop 16 = (tgt 9, rcvJ 9 0) :: payL.drop 17 from rfl, Ol_cons,
    show payTally c (tgt 9, rcvJ 9 0) = tallyAt (cell (peer 2 c) (rcvJ 9 0)) () (credS 168) from rfl]
  iintro ⟨⟨#HR, #HL, HO, Hs, Hland, Hts, Htr, Hc, Hat⟩, Hk⟩
  ihave #HIs90 := (rec_inv m K c (sndJ 9 0)) $$ HR
  ihave #HIr90 := (rec_inv m K (peer 2 c) (rcvJ 9 0)) $$ HR
  ihave #Hrs90 := (rec_reached m K c (sndJ 9 0)) $$ HR
  ihave #Hrr90 := (rec_reached m K (peer 2 c) (rcvJ 9 0)) $$ HR
  iapply (send_stage m K c (p := peer 2 c) 9 0 (by decide) (dev17_eq c) rfl (sf := 6) (sh := 0) (δ := 88) (a := lo 6 0 c + 88) rfl rfl 168 (q := fullShare.right) (off11_lo_0 c) (off11_lo_x_0 c) rfl rfl rfl rfl rfl W (Ol (payL.drop 17) c)) $$ [Hs Hland HO Hts Htr]
  · isplitr; · iexact HIs90
    isplitr; · iexact HIr90
    isplitl [Hs]; · iexact Hs
    isplitl [Hland]; · iexact Hland
    isplitl [HO]; · iexact HO
    isplitl [Hts]; · iexact Hts
    isplitr; · iexact Hrs90
    isplitl [Htr]; · iexact Htr
    iexact Hrr90
  iintro ⟨Hcs, HO⟩
  ihave #HIw50 := (rec_inv m K c (rcvJ 5 0)) $$ HR
  ihave #Hmw50 := (mayWait_of (F := F) c (rcvJ 5 0) (payL.drop 17) (by decide)) $$ HL
  iapply (wp_wait_rcv m K c 5 0 rfl rfl W (Ol (payL.drop 17) c)) $$ [Hc HO Hat]
  · isplitr; · iexact HIw50
    isplitl [Hc]; · iexact Hc
    isplitl [HO]; · iexact HO
    isplitr; · iexact Hmw50
    iexact Hat
  iintro ⟨HO, Hz, Hpay⟩
  ihave ⟨Hl, Hr1, Hr2⟩ := (deal_r_at m c 5 (Or.inl rfl) 0 0 rfl).mp $$ Hpay
  rw [wp_ret]; imodintro; iapply Hk
  isplitl [HO]; · iexact HO
  isplitl [Hcs]; · iexact Hcs
  isplitl [Hz]; · iexact Hz
  isplitl [Hl]; · iexact Hl
  isplitl [Hr1]; · iexact Hr1
  iexact Hr2

set_option maxHeartbeats 1600000 in
/-- Part 18 of the body. -/
theorem part18_spec (K : Dev nD × Fin 93 → ℕ) (c : Dev nD) (W : Waits sig Unit) (v2 : BitVec 32) (v8 : BitVec 32) (v9 : BitVec 32) (v10 : BitVec 32) (v34 : BitVec 32) (v36 : BitVec 32) (v197 : BitVec 32) (v209 : BitVec 32) (Kt : (BitVec 32) → sProp 𝕄) :
    iprop((records m K
        ∗ owes (c : Thread nD τ) (Ol (payL.drop 17) c) W
        ∗ sPts c (lo 5 0 c) 256 fullShare.left (Gd m (org 5 0 c))
        ∗ oPts c (lo 5 0 c) 256 fullShare (m ((c : Thread nD τ).loc main_v1))
        ∗ dutyTok ER (cell c (cpJ 5)) 0 0
        ∗ sPts c (lo 5 0 c + 88) 168 fullShare.right (Gd m (org 5 0 c))
        ∗ landPay (F := F) (peer 3 c) (8, 0)
        ∗ dutyTok ER (cell c (sndJ 8 0)) 0 0
        ∗ dutyTok ER (cell (peer 3 c) (rcvJ 8 0)) 0 0)
      ∗ (∀ r, (owes (c : Thread nD τ) (Ol (payL.drop 18) c) W
          ∗ cred (tallyAt (cell c (cpJ 5)) () (credO 256))
          ∗ cred (tallyAt (cell c (sndJ 8 0)) () (credS 168))) -∗ Kt r))
      ⊢ wp frame (wpE (defs₀ (F := F)) 𝒱₀ (c : Thread nD τ) none) Set.univ
          (k0_part18 (Memref.whole cc0_stg0_0) (Memref.isWhole_whole _) (Memref.whole main_v1) (Memref.isWhole_whole _) (Memref.whole cc0_scratch0) (Memref.isWhole_whole _) cc0_scratch1 cc0_scratch2 cc0_scratch3 c v2 v8 v9 v10 v34 v36 v197 v209) Kt := by
  rw [k0_part18_eq_skeleton]; unfold k0_part18_skel
  simp only [Prog.lift, Prog.bind_op, Prog.bind_ret, Prog.pure_eq_ret, semSignalWord, semWaitWord]
  /- operations, in order:
   op 30: COPY src=arg2@k0_off12 0#32:S256x512 dst=arg1@k0_off12 0#32:S256x512 sem=arg5[5] [payments made before: 17]
   op 31: SEND src=arg2@k0_off13 0#32:S168x512 dev=k0_dev18 dst=arg2@k0_off13 0#32:S168x512 sS=arg3[8, 0] sR=arg4[8, 0] [payments made before: 17] -/
  rw [show payL.drop 17 = (tgt 8, rcvJ 8 0) :: payL.drop 18 from rfl, Ol_cons,
    show payTally c (tgt 8, rcvJ 8 0) = tallyAt (cell (peer 3 c) (rcvJ 8 0)) () (credS 168) from rfl]
  iintro ⟨⟨#HR, HO, Hl, Ho, Ht, Hs, Hland, Hts, Htr⟩, Hk⟩
  ihave #HIc5 := (rec_inv m K c (cpJ 5)) $$ HR
  ihave #Hrc5 := (rec_reached m K c (cpJ 5)) $$ HR
  iapply (copy_stage m K c 5 (by decide) (sf := 5) (sh := 0) rfl 256 (q := fullShare.left) (off12_lo_0 c) (off12_lo_0 c) rfl rfl rfl rfl (m ((c : Thread nD τ).loc main_v1))) $$ [Hl Ho Ht]
  · isplitr; · iexact HIc5
    isplitl [Hl]; · iexact Hl
    isplitl [Ho]; · iexact Ho
    isplitl [Ht]; · iexact Ht
    iexact Hrc5
  iintro Hcc
  ihave #HIs80 := (rec_inv m K c (sndJ 8 0)) $$ HR
  ihave #HIr80 := (rec_inv m K (peer 3 c) (rcvJ 8 0)) $$ HR
  ihave #Hrs80 := (rec_reached m K c (sndJ 8 0)) $$ HR
  ihave #Hrr80 := (rec_reached m K (peer 3 c) (rcvJ 8 0)) $$ HR
  iapply (send_stage m K c (p := peer 3 c) 8 0 (by decide) (dev18_eq c) rfl (sf := 5) (sh := 0) (δ := 88) (a := lo 5 0 c + 88) rfl rfl 168 (q := fullShare.right) (off13_lo_0 c) (off13_lo_y_0 c) rfl rfl rfl rfl rfl W (Ol (payL.drop 18) c)) $$ [Hs Hland HO Hts Htr]
  · isplitr; · iexact HIs80
    isplitr; · iexact HIr80
    isplitl [Hs]; · iexact Hs
    isplitl [Hland]; · iexact Hland
    isplitl [HO]; · iexact HO
    isplitl [Hts]; · iexact Hts
    isplitr; · iexact Hrs80
    isplitl [Htr]; · iexact Htr
    iexact Hrr80
  iintro ⟨Hcs, HO⟩
  rw [wp_ret]; imodintro; iapply Hk
  isplitl [HO]; · iexact HO
  isplitl [Hcc]; · iexact Hcc
  iexact Hcs

end Cert.Kernel.AG

end
-- ==== Proof.Bits.PartsB2.lean ====
/-
  The body of one device, part by part (parts 19 to 24): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.XferSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 19 of the body. -/
theorem part19_spec (K : Dev nD × Fin 93 → ℕ) (c : Dev nD) (W : Waits sig Unit) (v2 : BitVec 32) (v5 : BitVec 32) (v8 : BitVec 32) (v10 : BitVec 32) (v34 : BitVec 32) (v36 : BitVec 32) (v197 : BitVec 32) (v209 : BitVec 32) (v585 : BitVec 32) (Kt : (PUnit) → sProp 𝕄) :
    iprop((records m K
        ∗ levAts L lv
        ∗ owes (c : Thread nD τ) (Ol (payL.drop 18) c) W
        ∗ cred (tallyAt (cell c (rcvJ 4 0)) () (credS 256))
        ∗ atPos ER (cell c (rcvJ 4 0)) 0 ∅ 0
        ∗ oPts c (lo 4 0 c) 256 fullShare (m ((c : Thread nD τ).loc main_v1))
        ∗ dutyTok ER (cell c (cpJ 6)) 0 0)
      ∗ (∀ r, (owes (c : Thread nD τ) (Ol (payL.drop 18) c) (insert (csem (rcvJ 4 0), ()) W)
          ∗ semVal (cell c (rcvJ 4 0)) 0
          ∗ cred (tallyAt (cell c (cpJ 6)) () (credO 256))) -∗ Kt r))
      ⊢ wp frame (wpE (defs₀ (F := F)) 𝒱₀ (c : Thread nD τ) none) Set.univ
          (k0_part19 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v34 v36 v197 v209 v585) Kt := by
  rw [k0_part19_eq_skeleton]; unfold k0_part19_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 4 0)) $$ HR
  ihave Hmw := (mayWait_of c (rcvJ 4 0) (payL.drop 18) (by decide)) $$ Hlev
  iapply (wp_wait_rcv m K c 4 0 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hs0 := (Entails.of_eq (recvPay_f4 m c 0 0 rfl)) $$ Hp
  ihave #HIc := (rec_inv m K c (cpJ 6)) $$ HR
  ihave #Hrc := (rec_reached m K c (cpJ 6)) $$ HR
  iapply (copy_stage m K c 6 (by decide) (sf := 4) (sh := 0) (nr := 256) (hcs := rfl) (ho_s := off14_lo_0 c) (ho_d := off14_lo_0 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  iexact Hcr

/-- Part 20 of the body. -/
theorem part20_spec (K : Dev nD × Fin 93 → ℕ) (c : Dev nD) (W : Waits sig Unit) (v8 : BitVec 32) (v38 : BitVec 32) (v209 : BitVec 32) (Kt : (Σ' (v639 : BitVec 32), BitVec 32) → sProp 𝕄) :
    iprop((records m K
        ∗ levAts L lv
        ∗ owes (c : Thread nD τ) (Ol (payL.drop 18) c) W
        ∗ cred (tallyAt (cell c (rcvJ 7 0)) () (credS 256))
        ∗ atPos ER (cell c (rcvJ 7 0)) 0 ∅ 0
        ∗ oPts c (lo 7 0 c) 256 fullShare (m ((c : Thread nD τ).loc main_v1))
        ∗ dutyTok ER (cell c (cpJ 7)) 0 0)
      ∗ (∀ r, (owes (c : Thread nD τ) (Ol (payL.drop 18) c) (insert (csem (rcvJ 7 0), ()) W)
          ∗ semVal (cell c (rcvJ 7 0)) 0
          ∗ cred (tallyAt (cell c (cpJ 7)) () (credO 256))) -∗ Kt r))
      ⊢ wp frame (wpE (defs₀ (F := F)) 𝒱₀ (c : Thread nD τ) none) Set.univ
          (k0_part20 (Memref.whole cc0_stg0_0) (Memref.isWhole_whole _) (Memref.whole main_v1) (Memref.isWhole_whole _) (Memref.whole cc0_scratch0) (Memref.isWhole_whole _) cc0_scratch1 cc0_scratch2 cc0_scratch3 c v8 v38 v209) Kt := by
  rw [k0_part20_eq_skeleton]; unfold k0_part20_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 7 0)) $$ HR
  ihave Hmw := (mayWait_of c (rcvJ 7 0) (payL.drop 18) (by decide)) $$ Hlev
  iapply (wp_wait_rcv m K c 7 0 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hs0 := (Entails.of_eq (recvPay_f7 m c 0 0 rfl)) $$ Hp
  ihave #HIc := (rec_inv m K c (cpJ 7)) $$ HR
  ihave #Hrc := (rec_reached m K c (cpJ 7)) $$ HR
  iapply (copy_stage m K c 7 (by decide) (sf := 7) (sh := 0) (nr := 256) (hcs := rfl) (ho_s := off15_lo_0 c) (ho_d := off15_lo_0 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  iexact Hcr

/-- Part 21 of the body. -/
theorem part21_spec (K : Dev nD × Fin 93 → ℕ) (c : Dev nD) (W : Waits sig Unit) (v2 : BitVec 32) (v5 : BitVec 32) (v8 : BitVec 32) (v21 : BitVec 32) (v34 : BitVec 32) (v639 : BitVec 32) (Kt : (Σ' (v680 : BitVec 32), BitVec 32) → sProp 𝕄) :
    iprop((records m K
        ∗ levAts L lv
        ∗ owes (c : Thread nD τ) (Ol (payL.drop 18) c) W
        ∗ cred (tallyAt (cell c (rcvJ 0 1)) () (credS 256))
        ∗ atPos ER (cell c (rcvJ 0 1)) 0 ∅ 0
        ∗ oPts c (lo 0 1 c) 256 fullShare (m ((c : Thread nD τ).loc main_v1))
        ∗ dutyTok ER (cell c (cpJ 8)) 0 0)
      ∗ (∀ r, (owes (c : Thread nD τ) (Ol (payL.drop 18) c) (insert (csem (rcvJ 0 1), ()) W)
          ∗ semVal (cell c (rcvJ 0 1)) 0
          ∗ sPts c (lo 0 1 c) 256 fullShare.right.left (Gd m (org 0 1 c))
          ∗ sPts c (lo 0 1 c) 256 fullShare.right.right.left (Gd m (org 0 1 c))
          ∗ sPts c (lo 0 1 c) 256 fullShare.right.right.right (Gd m (org 0 1 c))
          ∗ cred (tallyAt (cell c (cpJ 8)) () (credO 256))) -∗ Kt r))
      ⊢ wp frame (wpE (defs₀ (F := F)) 𝒱₀ (c : Thread nD τ) none) Set.univ
          (k0_part21 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v34 v639) Kt := by
  rw [k0_part21_eq_skeleton]; unfold k0_part21_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 0 1)) $$ HR
  ihave Hmw := (mayWait_of c (rcvJ 0 1) (payL.drop 18) (by decide)) $$ Hlev
  iapply (wp_wait_rcv m K c 0 1 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hp := (deal_q_at m c 0 (.inl rfl) 1 1 rfl).1 $$ Hp
  icases Hp with ⟨Hs0, Hs1, Hs2, Hs3⟩
  ihave #HIc := (rec_inv m K c (cpJ 8)) $$ HR
  ihave #Hrc := (rec_reached m K c (cpJ 8)) $$ HR
  iapply (copy_stage m K c 8 (by decide) (sf := 0) (sh := 1) (nr := 256) (hcs := rfl) (ho_s := off6_lo_1 c) (ho_d := off6_lo_1 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  isplitl [Hs1]; · iexact Hs1
  isplitl [Hs2]; · iexact Hs2
  isplitl [Hs3]; · iexact Hs3
  iexact Hcr

/-- Part 22 of the body. -/
theorem part22_spec (K : Dev nD × Fin 93 → ℕ) (c : Dev nD) (W : Waits sig Unit) (v2 : BitVec 32) (v5 : BitVec 32) (v8 : BitVec 32) (v9 : BitVec 32) (v21 : BitVec 32) (v34 : BitVec 32) (v639 : BitVec 32) (v680 : BitVec 32) (c2048_i32_516 : BitVec 32) (Kt : (PUnit) → sProp 𝕄) :
    iprop((records m K
        ∗ owes (c : Thread nD τ) (Ol (payL.drop 18) c) W
        ∗ sPts c (lo 0 1 c) 256 fullShare.right.left (Gd m (org 0 1 c))
        ∗ landPay (F := F) (peer 1 c) (0, 2)
        ∗ dutyTok ER (cell c (sndJ 0 2)) 0 0
        ∗ dutyTok ER (cell (peer 1 c) (rcvJ 0 2)) 0 0)
      ∗ (∀ r, (owes (c : Thread nD τ) (Ol (payL.drop 19) c) W
          ∗ cred (tallyAt (cell c (sndJ 0 2)) () (credS 256))) -∗ Kt r))
      ⊢ wp frame (wpE (defs₀ (F := F)) 𝒱₀ (c : Thread nD τ) none) Set.univ
          (k0_part22 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v21 v34 v639 v680 c2048_i32_516) Kt := by
  rw [k0_part22_eq_skeleton]; unfold k0_part22_skel
  simp only [Prog.lift, Prog.bind_op, Prog.bind_ret, Prog.pure_eq_ret, semSignalWord, semWaitWord]
  rw [show payL.drop 18 = (tgt 0, rcvJ 0 2) :: payL.drop 19 from rfl, Ol_cons]
  iintro ⟨⟨#HR, HO, Hs1, Hl1, Hts1, Htr1⟩, Hk⟩
  ihave #HIs1 := (rec_inv m K c (sndJ 0 2)) $$ HR
  ihave #HIr1 := (rec_inv m K (peer 1 c) (rcvJ 0 2)) $$ HR
  ihave #Hrs1 := (rec_reached m K c (sndJ 0 2)) $$ HR
  ihave #Hrr1 := (rec_reached m K (peer 1 c) (rcvJ 0 2)) $$ HR
  iapply (send_stage m K c 0 2 (hh := by decide) (hn := dev19_eq c) (hp := rfl) (sf := 0) (sh := 1) (δ := 0) (nr := 256)
      (hso := rfl) (ha := rfl) (ho_s := off1_lo_m2_0 c) (ho_d := off1_lo_up_2 c) (hz := rfl) (hnr := rfl) (hq := rfl)
      (hsS := by rfl) (hsR := by rfl) (W := _) (O := _)) $$ [Hs1 Hl1 HO Hts1 Htr1]
  · isplitr; · iexact HIs1
    isplitr; · iexact HIr1
    isplitl [Hs1]; · iexact Hs1
    isplitl [Hl1]; · iexact Hl1
    isplitl [HO]; · iexact HO
    isplitl [Hts1]; · iexact Hts1
    isplitr; · iexact Hrs1
    isplitl [Htr1]; · iexact Htr1
    iexact Hrr1
  iintro ⟨Hcr1, HO⟩
  rw [wp_ret]; imodintro; iapply Hk
  isplitl [HO]; · iexact HO
  iexact Hcr1

/-- Part 23 of the body. -/
theorem part23_spec (K : Dev nD × Fin 93 → ℕ) (c : Dev nD) (W : Waits sig Unit) (v2 : BitVec 32) (v5 : BitVec 32) (v8 : BitVec 32) (v10 : BitVec 32) (v32 : BitVec 32) (v34 : BitVec 32) (v639 : BitVec 32) (Kt : (PUnit) → sProp 𝕄) :
    iprop((records m K
        ∗ owes (c : Thread nD τ) (Ol (payL.drop 19) c) W
        ∗ sPts c (lo 0 1 c) 256 fullShare.right.right.left (Gd m (org 0 1 c))
        ∗ landPay (F := F) (peer 2 c) (4, 1)
        ∗ dutyTok ER (cell c (sndJ 4 1)) 0 0
        ∗ dutyTok ER (cell (peer 2 c) (rcvJ 4 1)) 0 0
        ∗ sPts c (lo 0 1 c) 256 fullShare.right.right.right (Gd m (org 0 1 c))
        ∗ landPay (F := F) (peer 3 c) (6, 1)
        ∗ dutyTok ER (cell c (sndJ 6 1)) 0 0
        ∗ dutyTok ER (cell (peer 3 c) (rcvJ 6 1)) 0 0)
      ∗ (∀ r, (owes (c : Thread nD τ) (Ol (payL.drop 21) c) W
          ∗ cred (tallyAt (cell c (sndJ 4 1)) () (credS 256))
          ∗ cred (tallyAt (cell c (sndJ 6 1)) () (credS 256))) -∗ Kt r))
      ⊢ wp frame (wpE (defs₀ (F := F)) 𝒱₀ (c : Thread nD τ) none) Set.univ
          (k0_part23 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v639) Kt := by
  rw [k0_part23_eq_skeleton]; unfold k0_part23_skel
  simp only [Prog.lift, Prog.bind_op, Prog.bind_ret, Prog.pure_eq_ret, semSignalWord, semWaitWord]
  rw [show payL.drop 19 = (tgt 4, rcvJ 4 1) :: (tgt 6, rcvJ 6 1) :: payL.drop 21 from rfl, Ol_cons, Ol_cons]
  iintro ⟨⟨#HR, HO, Hs1, Hl1, Hts1, Htr1, Hs2, Hl2, Hts2, Htr2⟩, Hk⟩
  ihave #HIs1 := (rec_inv m K c (sndJ 4 1)) $$ HR
  ihave #HIr1 := (rec_inv m K (peer 2 c) (rcvJ 4 1)) $$ HR
  ihave #Hrs1 := (rec_reached m K c (sndJ 4 1)) $$ HR
  ihave #Hrr1 := (rec_reached m K (peer 2 c) (rcvJ 4 1)) $$ HR
  iapply (send_stage m K c 4 1 (hh := by decide) (hn := dev20_eq c) (hp := rfl) (sf := 0) (sh := 1) (δ := 0) (nr := 256)
      (hso := rfl) (ha := rfl) (ho_s := off6_lo_1 c) (ho_d := off6_lo_x_1 c) (hz := rfl) (hnr := rfl) (hq := rfl)
      (hsS := by rfl) (hsR := by rfl) (W := _) (O := _)) $$ [Hs1 Hl1 HO Hts1 Htr1]
  · isplitr; · iexact HIs1
    isplitr; · iexact HIr1
    isplitl [Hs1]; · iexact Hs1
    isplitl [Hl1]; · iexact Hl1
    isplitl [HO]; · iexact HO
    isplitl [Hts1]; · iexact Hts1
    isplitr; · iexact Hrs1
    isplitl [Htr1]; · iexact Htr1
    iexact Hrr1
  iintro ⟨Hcr1, HO⟩
  ihave #HIs2 := (rec_inv m K c (sndJ 6 1)) $$ HR
  ihave #HIr2 := (rec_inv m K (peer 3 c) (rcvJ 6 1)) $$ HR
  ihave #Hrs2 := (rec_reached m K c (sndJ 6 1)) $$ HR
  ihave #Hrr2 := (rec_reached m K (peer 3 c) (rcvJ 6 1)) $$ HR
  iapply (send_stage m K c 6 1 (hh := by decide) (hn := dev21_eq c) (hp := rfl) (sf := 0) (sh := 1) (δ := 0) (nr := 256)
      (hso := rfl) (ha := rfl) (ho_s := off6_lo_1 c) (ho_d := off6_lo_y_1 c) (hz := rfl) (hnr := rfl) (hq := rfl)
      (hsS := by rfl) (hsR := by rfl) (W := _) (O := _)) $$ [Hs2 Hl2 HO Hts2 Htr2]
  · isplitr; · iexact HIs2
    isplitr; · iexact HIr2
    isplitl [Hs2]; · iexact Hs2
    isplitl [Hl2]; · iexact Hl2
    isplitl [HO]; · iexact HO
    isplitl [Hts2]; · iexact Hts2
    isplitr; · iexact Hrs2
    isplitl [Htr2]; · iexact Htr2
    iexact Hrr2
  iintro ⟨Hcr2, HO⟩
  rw [wp_ret]; imodintro; iapply Hk
  isplitl [HO]; · iexact HO
  isplitl [Hcr1]; · iexact Hcr1
  iexact Hcr2

/-- Part 24 of the body. -/
theorem part24_spec (K : Dev nD × Fin 93 → ℕ) (c : Dev nD) (W : Waits sig Unit) (v2 : BitVec 32) (v8 : BitVec 32) (v34 : BitVec 32) (v651 : BitVec 32) (Kt : (Σ' (v779 : BitVec 32), BitVec 32) → sProp 𝕄) :
    iprop((records m K
        ∗ levAts L lv
        ∗ owes (c : Thread nD τ) (Ol (payL.drop 21) c) W
        ∗ cred (tallyAt (cell c (rcvJ 2 1)) () (credS 256))
        ∗ atPos ER (cell c (rcvJ 2 1)) 0 ∅ 0
        ∗ oPts c (lo 2 1 c) 256 fullShare (m ((c : Thread nD τ).loc main_v1))
        ∗ dutyTok ER (cell c (cpJ 9)) 0 0)
      ∗ (∀ r, (owes (c : Thread nD τ) (Ol (payL.drop 21) c) (insert (csem (rcvJ 2 1), ()) W)
          ∗ semVal (cell c (rcvJ 2 1)) 0
          ∗ sPts c (lo 2 1 c) 256 fullShare.right.left (Gd m (org 2 1 c))
          ∗ sPts c (lo 2 1 c) 256 fullShare.right.right.left (Gd m (org 2 1 c))
          ∗ sPts c (lo 2 1 c) 256 fullShare.right.right.right (Gd m (org 2 1 c))
          ∗ cred (tallyAt (cell c (cpJ 9)) () (credO 256))) -∗ Kt r))
      ⊢ wp frame (wpE (defs₀ (F := F)) 𝒱₀ (c : Thread nD τ) none) Set.univ
          (k0_part24 (Memref.whole cc0_stg0_0) (Memref.isWhole_whole _) (Memref.whole main_v1) (Memref.isWhole_whole _) (Memref.whole cc0_scratch0) (Memref.isWhole_whole _) cc0_scratch1 cc0_scratch2 cc0_scratch3 c v2 v8 v34 v651) Kt := by
  rw [k0_part24_eq_skeleton]; unfold k0_part24_skel
  simp only [Prog.lift, Prog.bind_op, Prog.bind_ret, Prog.pure_eq_ret, semSignalWord, semWaitWord]
  iintro ⟨⟨#HR, #Hlev, HO, Hc, Ha, Ho, Ht⟩, Hk⟩
  ihave #HIr := (rec_inv m K c (rcvJ 2 1)) $$ HR
  ihave Hmw := (mayWait_of c (rcvJ 2 1) (payL.drop 21) (by decide)) $$ Hlev
  iapply (wp_wait_rcv m K c 2 1 (by rfl) (by rfl) _ _) $$ [HO Hc Ha Hmw]
  · isplitr; · iexact HIr
    isplitl [Hc]; · iexact Hc
    isplitl [HO]; · iexact HO
    isplitl [Hmw]; · iexact Hmw
    iexact Ha
  iintro ⟨HO, Hv, Hp⟩
  ihave Hp := (deal_q_at m c 2 (.inr rfl) 1 1 rfl).1 $$ Hp
  icases Hp with ⟨Hs0, Hs1, Hs2, Hs3⟩
  ihave #HIc := (rec_inv m K c (cpJ 9)) $$ HR
  ihave #Hrc := (rec_reached m K c (cpJ 9)) $$ HR
  iapply (copy_stage m K c 9 (by decide) (sf := 2) (sh := 1) (nr := 256) (hcs := rfl) (ho_s := off7_lo_1 c) (ho_d := off7_lo_1 c)
      (hz := rfl) (hnr := rfl) (hq := rfl) (hs := by rfl) (V := _)) $$ [Hs0 Ho Ht]
  · isplitr; · iexact HIc
    isplitl [Hs0]; · iexact Hs0
    isplitl [Ho]; · iexact Ho
    isplitl [Ht]; · iexact Ht
    iexact Hrc
  iintro Hcr
  rw [wp_ret]; imodintro; iapply Hk
  isplitl [HO]; · iexact HO
  isplitl [Hv]; · iexact Hv
  isplitl [Hs1]; · iexact Hs1
  isplitl [Hs2]; · iexact Hs2
  isplitl [Hs3]; · iexact Hs3
  iexact Hcr

end Cert.Kernel.AG

end
-- ==== Proof.Bits.PartsC.lean ====
/-
  The body of one device, part by part (parts 25 to 30): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.XferSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 25 of the body. -/
theorem part25_spec (K : Dev nD × Fin 93 → ℕ) (c : Dev nD) (W : Waits sig Unit) (v5 : BitVec 32) (v8 : BitVec 32) (v9 : BitVec 32) (v32 : BitVec 32) (v34 : BitVec 32) (v651 : BitVec 32) (v779 : BitVec 32) (c4_i32_596 : BitVec 32) (Kt : (BitVec 32) → sProp 𝕄) :
    iprop((records m K
        ∗ owes (c : Thread nD τ) (Ol (payL.drop 21) c) W
        ∗ sPts c (lo 2 1 c) 256 fullShare.right.left (Gd m (org 2 1 c))
        ∗ landPay (F := F) (peer 0 c) (2, 2)
        ∗ dutyTok ER (cell c (sndJ 2 2)) 0 0
        ∗ dutyTok ER (cell (peer 0 c) (rcvJ 2 2)) 0 0
        ∗ sPts c (lo 2 1 c) 256 fullShare.right.right.left (Gd m (org 2 1 c))
        ∗ landPay (F := F) (peer 2 c) (5, 1)
        ∗ dutyTok ER (cell c (sndJ 5 1)) 0 0
        ∗ dutyTok ER (cell (peer 2 c) (rcvJ 5 1)) 0 0)
      ∗ (∀ r, (owes (c : Thread nD τ) (Ol (payL.drop 23) c) W
          ∗ cred (tallyAt (cell c (sndJ 2 2)) () (credS 256))
          ∗ cred (tallyAt (cell c (sndJ 5 1)) () (credS 256))) -∗ Kt r))
      ⊢ wp frame (wpE (defs₀ (F := F)) 𝒱₀ (c : Thread nD τ) none) Set.univ
          (k0_part25 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v32 v34 v651 v779 c4_i32_596) Kt := by
  rw [k0_part25_eq_skeleton]; unfold k0_part25_skel
  simp only [Prog.lift, Prog.bind_op, Prog.bind_ret, Prog.pure_eq_ret, semSignalWord, semWaitWord]
  rw [show payL.drop 21 = (tgt 2, rcvJ 2 2) :: (tgt 5, rcvJ 5 1) :: payL.drop 23 from rfl, Ol_cons, Ol_cons]
  iintro ⟨⟨#HR, HO, Hs, Hl, Hts, Htr, Hs', Hl', Hts', Htr'⟩, Hk⟩
  ihave #HIs := (rec_inv m K c (sndJ 2 2)) $$ HR
  ihave #HIr := (rec_inv m K (peer 0 c) (rcvJ 2 2)) $$ HR
  ihave #HRs := (rec_reached m K c (sndJ 2 2)) $$ HR
  ihave #HRr := (rec_reached m K (peer 0 c) (rcvJ 2 2)) $$ HR
  ihave #HIs' := (rec_inv m K c (sndJ 5 1)) $$ HR
  ihave #HIr' := (rec_inv m K (peer 2 c) (rcvJ 5 1)) $$ HR
  ihave #HRs' := (rec_reached m K c (sndJ 5 1)) $$ HR
  ihave #HRr' := (rec_reached m K (peer 2 c) (rcvJ 5 1)) $$ HR
  -- the third piece down the ring, read from the second piece landed
  iapply (send_stage m K c (f := 2) (h := 2) (hh := by decide) (hn := dev22_eq c) (hp := rfl)
      (sf := 2) (sh := 1) (δ := 0) (a := lo 2 1 c) (hso := rfl) (ha := rfl) (nr := 256)
      (ho_s := off1_lo_2_256 c) (ho_d := off1_lo_dn_2 c) (hz := rfl) (hnr := rfl) (hq := rfl) (hsS := rfl) (hsR := rfl)
      (W := W) (O := Ol (payL.drop 23) c + payTally c (tgt 5, rcvJ 5 1))) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  -- the second piece to the other x, read from the same landed piece
  iapply (send_stage m K c (f := 5) (h := 1) (hh := by decide) (hn := dev23_eq c) (hp := rfl)
      (sf := 2) (sh := 1) (δ := 0) (a := lo 2 1 c) (hso := rfl) (ha := rfl) (nr := 256)
      (ho_s := off7_lo_1 c) (ho_d := off7_lo_x_1 c) (hz := rfl) (hnr := rfl) (hq := rfl) (hsS := rfl) (hsR := rfl)
      (W := W) (O := Ol (payL.drop 23) c)) $$ [HO Hs' Hl' Hts' Htr']
  · isplitr; · iexact HIs'
    isplitr; · iexact HIr'
    isplitl [Hs']; · iexact Hs'
    isplitl [Hl']; · iexact Hl'
    isplitl [HO]; · iexact HO
    isplitl [Hts']; · iexact Hts'
    isplitr; · iexact HRs'
    isplitl [Htr']; · iexact Htr'
    iexact HRr'
  iintro ⟨Hcs', HO⟩
  rw [wp_ret]; imodintro
  iapply Hk
  isplitl [HO]; · iexact HO
  isplitl [Hcs]; · iexact Hcs
  iexact Hcs'

/-- Part 26 of the body. -/
theorem part26_spec (K : Dev nD × Fin 93 → ℕ) (c : Dev nD) (W : Waits sig Unit) (v2 : BitVec 32) (v5 : BitVec 32) (v8 : BitVec 32) (v10 : BitVec 32) (v21 : BitVec 32) (v34 : BitVec 32) (v40 : BitVec 32) (v639 : BitVec 32) (v814 : BitVec 32) (Kt : (PUnit) → sProp 𝕄) :
    iprop((records m K
        ∗ levAts L lv
        ∗ owes (c : Thread nD τ) (Ol (payL.drop 23) c) W
        ∗ sPts c (lo 2 1 c) 256 fullShare.right.right.right (Gd m (org 2 1 c))
        ∗ landPay (F := F) (peer 3 c) (7, 1)
        ∗ dutyTok ER (cell c (sndJ 7 1)) 0 0
        ∗ dutyTok ER (cell (peer 3 c) (rcvJ 7 1)) 0 0
        ∗ cred (tallyAt (cell c (rcvJ 1 1)) () (credS 88))
        ∗ atPos ER (cell c (rcvJ 1 1)) 0 ∅ 0)
      ∗ (∀ r, (owes (c : Thread nD τ) (Ol (payL.drop 24) c) (insert (csem (rcvJ 1 1), ()) W)
          ∗ cred (tallyAt (cell c (sndJ 7 1)) () (credS 256))
          ∗ semVal (cell c (rcvJ 1 1)) 0
          ∗ sPts c (lo 1 1 c) 88 fullShare.left (Gd m (org 1 1 c))
          ∗ sPts c (lo 1 1 c) 88 fullShare.right (Gd m (org 1 1 c))) -∗ Kt r))
      ⊢ wp frame (wpE (defs₀ (F := F)) 𝒱₀ (c : Thread nD τ) none) Set.univ
          (k0_part26 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v21 v34 v40 v639 v814) Kt := by
  rw [k0_part26_eq_skeleton]; unfold k0_part26_skel
  simp only [Prog.lift, Prog.bind_op, Prog.bind_ret, Prog.pure_eq_ret, semSignalWord, semWaitWord]
  rw [show payL.drop 23 = (tgt 7, rcvJ 7 1) :: payL.drop 24 from rfl, Ol_cons]
  iintro ⟨⟨#HR, #Hlev, HO, Hs, Hl, Hts, Htr, Hc, Hat⟩, Hk⟩
  ihave #HIs := (rec_inv m K c (sndJ 7 1)) $$ HR
  ihave #HIr := (rec_inv m K (peer 3 c) (rcvJ 7 1)) $$ HR
  ihave #HRs := (rec_reached m K c (sndJ 7 1)) $$ HR
  ihave #HRr := (rec_reached m K (peer 3 c) (rcvJ 7 1)) $$ HR
  ihave #HIw := (rec_inv m K c (rcvJ 1 1)) $$ HR
  -- the second piece to the other y, read from the second piece landed from above
  iapply (send_stage m K c (f := 7) (h := 1) (hh := by decide) (hn := dev24_eq c) (hp := rfl)
      (sf := 2) (sh := 1) (δ := 0) (a := lo 2 1 c) (hso := rfl) (ha := rfl) (nr := 256)
      (ho_s := off7_lo_1 c) (ho_d := off7_lo_y_1 c) (hz := rfl) (hnr := rfl) (hq := rfl) (hsS := rfl) (hsR := rfl)
      (W := W) (O := Ol (payL.drop 24) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  -- the arrival of the second diagonal piece from below
  iapply (wp_wait_rcv m K c 1 1 rfl rfl W (Ol (payL.drop 24) c)) $$ [Hc HO Hat]
  · isplitr; · iexact HIw
    isplitl [Hc]; · iexact Hc
    isplitl [HO]; · iexact HO
    isplitr; · iapply (mayWait_of c (rcvJ 1 1) (payL.drop 24) (by decide)); iexact Hlev
    iexact Hat
  iintro ⟨HO, Hz, Hp⟩
  ihave Hd := (deal_d_at m c 1 (Or.inl rfl) 1 1 rfl).1 $$ Hp
  icases Hd with ⟨Hdl, Hdr⟩
  rw [wp_ret]; imodintro
  iapply Hk
  isplitl [HO]; · iexact HO
  isplitl [Hcs]; · iexact Hcs
  isplitl [Hz]; · iexact Hz
  isplitl [Hdl]; · iexact Hdl
  iexact Hdr

/-- Part 27 of the body. -/
theorem part27_spec (K : Dev nD × Fin 93 → ℕ) (c : Dev nD) (W : Waits sig Unit) (v2 : BitVec 32) (v5 : BitVec 32) (v8 : BitVec 32) (v21 : BitVec 32) (v40 : BitVec 32) (Kt : (PUnit) → sProp 𝕄) :
    iprop((records m K
        ∗ owes (c : Thread nD τ) (Ol (payL.drop 24) c) W
        ∗ sPts c (lo 1 1 c) 88 fullShare.left (Gd m (org 1 1 c))
        ∗ oPts c (lo 1 1 c) 88 fullShare (m ((c : Thread nD τ).loc main_v1))
        ∗ dutyTok ER (cell c (cpJ 10)) 0 0
        ∗ sPts c (lo 1 1 c) 88 fullShare.right (Gd m (org 1 1 c))
        ∗ landPay (F := F) (peer 1 c) (1, 2)
        ∗ dutyTok ER (cell c (sndJ 1 2)) 0 0
        ∗ dutyTok ER (cell (peer 1 c) (rcvJ 1 2)) 0 0)
      ∗ (∀ r, (owes (c : Thread nD τ) (Ol (payL.drop 25) c) W
          ∗ cred (tallyAt (cell c (cpJ 10)) () (credO 88))
          ∗ cred (tallyAt (cell c (sndJ 1 2)) () (credS 88))) -∗ Kt r))
      ⊢ wp frame (wpE (defs₀ (F := F)) 𝒱₀ (c : Thread nD τ) none) Set.univ
          (k0_part27 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21 v40) Kt := by
  rw [k0_part27_eq_skeleton]; unfold k0_part27_skel
  simp only [Prog.lift, Prog.bind_op, Prog.bind_ret, Prog.pure_eq_ret, semSignalWord, semWaitWord]
  rw [show payL.drop 24 = (tgt 1, rcvJ 1 2) :: payL.drop 25 from rfl, Ol_cons]
  iintro ⟨⟨#HR, HO, Hsc, Ho, Ht, Hs, Hl, Hts, Htr⟩, Hk⟩
  ihave #HIc := (rec_inv m K c (cpJ 10)) $$ HR
  ihave #HRc := (rec_reached m K c (cpJ 10)) $$ HR
  ihave #HIs := (rec_inv m K c (sndJ 1 2)) $$ HR
  ihave #HIr := (rec_inv m K (peer 1 c) (rcvJ 1 2)) $$ HR
  ihave #HRs := (rec_reached m K c (sndJ 1 2)) $$ HR
  ihave #HRr := (rec_reached m K (peer 1 c) (rcvJ 1 2)) $$ HR
  -- the landed diagonal piece into the result
  iapply (copy_stage m K c (i := 10) (hi := by decide) (sf := 1) (sh := 1) (hcs := rfl) (nr := 88)
      (ho_s := off8_lo_1 c) (ho_d := off8_lo_1 c) (hz := rfl) (hnr := rfl) (hq := rfl) (hs := rfl)
      (V := m ((c : Thread nD τ).loc main_v1))) $$ [Hsc Ho Ht]
  · isplitr; · iexact HIc
    isplitl [Hsc]; · iexact Hsc
    isplitl [Ho]; · iexact Ho
    isplitl [Ht]; · iexact Ht
    iexact HRc
  iintro Hcc
  -- and on up the ring
  iapply (send_stage m K c (f := 1) (h := 2) (hh := by decide) (hn := dev25_eq c) (hp := rfl)
      (sf := 1) (sh := 1) (δ := 0) (a := lo 1 1 c) (hso := rfl) (ha := rfl) (nr := 88)
      (ho_s := off3_lo_m2_0 c) (ho_d := off3_lo_up_2 c) (hz := rfl) (hnr := rfl) (hq := rfl) (hsS := rfl) (hsR := rfl)
      (W := W) (O := Ol (payL.drop 25) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  rw [wp_ret]; imodintro
  iapply Hk
  isplitl [HO]; · iexact HO
  isplitl [Hcc]; · iexact Hcc
  iexact Hcs

/-- Part 28 of the body. -/
theorem part28_spec (K : Dev nD × Fin 93 → ℕ) (c : Dev nD) (W : Waits sig Unit) (v2 : BitVec 32) (v5 : BitVec 32) (v8 : BitVec 32) (v32 : BitVec 32) (v40 : BitVec 32) (v651 : BitVec 32) (Kt : (BitVec 32) → sProp 𝕄) :
    iprop((records m K
        ∗ levAts L lv
        ∗ owes (c : Thread nD τ) (Ol (payL.drop 25) c) W
        ∗ cred (tallyAt (cell c (rcvJ 3 1)) () (credS 88))
        ∗ atPos ER (cell c (rcvJ 3 1)) 0 ∅ 0
        ∗ oPts c (lo 3 1 c) 88 fullShare (m ((c : Thread nD τ).loc main_v1))
        ∗ dutyTok ER (cell c (cpJ 11)) 0 0)
      ∗ (∀ r, (owes (c : Thread nD τ) (Ol (payL.drop 25) c) (insert (csem (rcvJ 3 1), ()) W)
          ∗ semVal (cell c (rcvJ 3 1)) 0
          ∗ sPts c (lo 3 1 c) 88 fullShare.right (Gd m (org 3 1 c))
          ∗ cred (tallyAt (cell c (cpJ 11)) () (credO 88))) -∗ Kt r))
      ⊢ wp frame (wpE (defs₀ (F := F)) 𝒱₀ (c : Thread nD τ) none) Set.univ
          (k0_part28 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v32 v40 v651) Kt := by
  rw [k0_part28_eq_skeleton]; unfold k0_part28_skel
  simp only [Prog.lift, Prog.bind_op, Prog.bind_ret, Prog.pure_eq_ret, semSignalWord, semWaitWord]
  iintro ⟨⟨#HR, #Hlev, HO, Hc, Hat, Ho, Ht⟩, Hk⟩
  ihave #HIw := (rec_inv m K c (rcvJ 3 1)) $$ HR
  ihave #HIc := (rec_inv m K c (cpJ 11)) $$ HR
  ihave #HRc := (rec_reached m K c (cpJ 11)) $$ HR
  -- the arrival of the second diagonal piece from above
  iapply (wp_wait_rcv m K c 3 1 rfl rfl W (Ol (payL.drop 25) c)) $$ [Hc HO Hat]
  · isplitr; · iexact HIw
    isplitl [Hc]; · iexact Hc
    isplitl [HO]; · iexact HO
    isplitr; · iapply (mayWait_of c (rcvJ 3 1) (payL.drop 25) (by decide)); iexact Hlev
    iexact Hat
  iintro ⟨HO, Hz, Hp⟩
  ihave Hd := (deal_d_at m c 3 (Or.inr rfl) 1 1 rfl).1 $$ Hp
  icases Hd with ⟨Hdl, Hdr⟩
  -- into the result
  iapply (copy_stage m K c (i := 11) (hi := by decide) (sf := 3) (sh := 1) (hcs := rfl) (nr := 88)
      (ho_s := off9_lo_1 c) (ho_d := off9_lo_1 c) (hz := rfl) (hnr := rfl) (hq := rfl) (hs := rfl)
      (V := m ((c : Thread nD τ).loc main_v1))) $$ [Hdl Ho Ht]
  · isplitr; · iexact HIc
    isplitl [Hdl]; · iexact Hdl
    isplitl [Ho]; · iexact Ho
    isplitl [Ht]; · iexact Ht
    iexact HRc
  iintro Hcc
  rw [wp_ret]; imodintro
  iapply Hk
  isplitl [HO]; · iexact HO
  isplitl [Hz]; · iexact Hz
  isplitl [Hdr]; · iexact Hdr
  iexact Hcc

/-- Part 29 of the body. -/
theorem part29_spec (K : Dev nD × Fin 93 → ℕ) (c : Dev nD) (W : Waits sig Unit) (v2 : BitVec 32) (v5 : BitVec 32) (v8 : BitVec 32) (v10 : BitVec 32) (v32 : BitVec 32) (v34 : BitVec 32) (v40 : BitVec 32) (v639 : BitVec 32) (v907 : BitVec 32) (Kt : (PUnit) → sProp 𝕄) :
    iprop((records m K
        ∗ owes (c : Thread nD τ) (Ol (payL.drop 25) c) W
        ∗ sPts c (lo 3 1 c) 88 fullShare.right (Gd m (org 3 1 c))
        ∗ landPay (F := F) (peer 0 c) (3, 2)
        ∗ dutyTok ER (cell c (sndJ 3 2)) 0 0
        ∗ dutyTok ER (cell (peer 0 c) (rcvJ 3 2)) 0 0)
      ∗ (∀ r, (owes (c : Thread nD τ) (Ol (payL.drop 26) c) W
          ∗ cred (tallyAt (cell c (sndJ 3 2)) () (credS 88))) -∗ Kt r))
      ⊢ wp frame (wpE (defs₀ (F := F)) 𝒱₀ (c : Thread nD τ) none) Set.univ
          (k0_part29 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v40 v639 v907) Kt := by
  rw [k0_part29_eq_skeleton]; unfold k0_part29_skel
  simp only [Prog.lift, Prog.bind_op, Prog.bind_ret, Prog.pure_eq_ret, semSignalWord, semWaitWord]
  rw [show payL.drop 25 = (tgt 3, rcvJ 3 2) :: payL.drop 26 from rfl, Ol_cons]
  iintro ⟨⟨#HR, HO, Hs, Hl, Hts, Htr⟩, Hk⟩
  ihave #HIs := (rec_inv m K c (sndJ 3 2)) $$ HR
  ihave #HIr := (rec_inv m K (peer 0 c) (rcvJ 3 2)) $$ HR
  ihave #HRs := (rec_reached m K c (sndJ 3 2)) $$ HR
  ihave #HRr := (rec_reached m K (peer 0 c) (rcvJ 3 2)) $$ HR
  -- the diagonal piece on down the ring
  iapply (send_stage m K c (f := 3) (h := 2) (hh := by decide) (hn := dev26_eq c) (hp := rfl)
      (sf := 3) (sh := 1) (δ := 0) (a := lo 3 1 c) (hso := rfl) (ha := rfl) (nr := 88)
      (ho_s := off3_lo_2_256 c) (ho_d := off3_lo_dn_2 c) (hz := rfl) (hnr := rfl) (hq := rfl) (hsS := rfl) (hsR := rfl)
      (W := W) (O := Ol (payL.drop 26) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  rw [wp_ret]; imodintro
  iapply Hk
  isplitl [HO]; · iexact HO
  iexact Hcs

/-- Part 30 of the body. -/
theorem part30_spec (K : Dev nD × Fin 93 → ℕ) (c : Dev nD) (W : Waits sig Unit) (v5 : BitVec 32) (v8 : BitVec 32) (v9 : BitVec 32) (v34 : BitVec 32) (v38 : BitVec 32) (v639 : BitVec 32) (v651 : BitVec 32) (Kt : (BitVec 32) → sProp 𝕄) :
    iprop((records m K
        ∗ levAts L lv
        ∗ owes (c : Thread nD τ) (Ol (payL.drop 26) c) W
        ∗ cred (tallyAt (cell c (rcvJ 6 1)) () (credS 256))
        ∗ atPos ER (cell c (rcvJ 6 1)) 0 ∅ 0
        ∗ oPts c (lo 6 1 c) 256 fullShare (m ((c : Thread nD τ).loc main_v1))
        ∗ dutyTok ER (cell c (cpJ 12)) 0 0
        ∗ landPay (F := F) (peer 2 c) (9, 1)
        ∗ dutyTok ER (cell c (sndJ 9 1)) 0 0
        ∗ dutyTok ER (cell (peer 2 c) (rcvJ 9 1)) 0 0)
      ∗ (∀ r, (owes (c : Thread nD τ) (Ol (payL.drop 27) c) (insert (csem (rcvJ 6 1), ()) W)
          ∗ semVal (cell c (rcvJ 6 1)) 0
          ∗ sPts c (lo 6 1 c) 88 fullShare.right (Gd m (org 6 1 c))
          ∗ cred (tallyAt (cell c (cpJ 12)) () (credO 256))
          ∗ cred (tallyAt (cell c (sndJ 9 1)) () (credS 168))) -∗ Kt r))
      ⊢ wp frame (wpE (defs₀ (F := F)) 𝒱₀ (c : Thread nD τ) none) Set.univ
          (k0_part30 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v38 v639 v651) Kt := by
  rw [k0_part30_eq_skeleton]; unfold k0_part30_skel
  simp only [Prog.lift, Prog.bind_op, Prog.bind_ret, Prog.pure_eq_ret, semSignalWord, semWaitWord]
  iintro ⟨⟨#HR, #Hlev, HO, Hc, Hat, Ho, Ht, Hl, Hts, Htr⟩, Hk⟩
  ihave #HIw := (rec_inv m K c (rcvJ 6 1)) $$ HR
  ihave #HIc := (rec_inv m K c (cpJ 12)) $$ HR
  ihave #HRc := (rec_reached m K c (cpJ 12)) $$ HR
  ihave #HIs := (rec_inv m K c (sndJ 9 1)) $$ HR
  ihave #HIr := (rec_inv m K (peer 2 c) (rcvJ 9 1)) $$ HR
  ihave #HRs := (rec_reached m K c (sndJ 9 1)) $$ HR
  ihave #HRr := (rec_reached m K (peer 2 c) (rcvJ 9 1)) $$ HR
  -- the arrival of the second piece from the other y
  iapply (wp_wait_rcv m K c 6 1 rfl rfl W (Ol (payL.drop 26) c)) $$ [Hc HO Hat]
  · isplitr; · iexact HIw
    isplitl [Hc]; · iexact Hc
    isplitl [HO]; · iexact HO
    isplitr; · iapply (mayWait_of c (rcvJ 6 1) (payL.drop 26) (by decide)); iexact Hlev
    iexact Hat
  iintro ⟨HO, Hz, Hp⟩
  ihave Hd := (deal_r_at m c 6 (Or.inr rfl) 1 1 rfl).1 $$ Hp
  icases Hd with ⟨Hdl, Hdr, Hs⟩
  -- into the result
  iapply (copy_stage m K c (i := 12) (hi := by decide) (sf := 6) (sh := 1) (hcs := rfl) (nr := 256)
      (ho_s := off10_lo_1 c) (ho_d := off10_lo_1 c) (hz := rfl) (hnr := rfl) (hq := rfl) (hs := rfl)
      (V := m ((c : Thread nD τ).loc main_v1))) $$ [Hdl Ho Ht]
  · isplitr; · iexact HIc
    isplitl [Hdl]; · iexact Hdl
    isplitl [Ho]; · iexact Ho
    isplitl [Ht]; · iexact Ht
    iexact HRc
  iintro Hcc
  -- its last rows relayed to the other x
  rw [show payL.drop 26 = (tgt 9, rcvJ 9 1) :: payL.drop 27 from rfl, Ol_cons]
  iapply (send_stage m K c (f := 9) (h := 1) (hh := by decide) (hn := dev27_eq c) (hp := rfl)
      (sf := 6) (sh := 1) (δ := 88) (a := lo 6 1 c + 88) (hso := rfl) (ha := rfl) (nr := 168)
      (ho_s := off11_lo_1 c) (ho_d := off11_lo_x_1 c) (hz := rfl) (hnr := rfl) (hq := rfl) (hsS := rfl) (hsR := rfl)
      (W := (insert (csem (rcvJ 6 1), ()) W)) (O := Ol (payL.drop 27) c)) $$ [HO Hs Hl Hts Htr]
  · isplitr; · iexact HIs
    isplitr; · iexact HIr
    isplitl [Hs]; · iexact Hs
    isplitl [Hl]; · iexact Hl
    isplitl [HO]; · iexact HO
    isplitl [Hts]; · iexact Hts
    isplitr; · iexact HRs
    isplitl [Htr]; · iexact Htr
    iexact HRr
  iintro ⟨Hcs, HO⟩
  rw [wp_ret]; imodintro
  iapply Hk
  isplitl [HO]; · iexact HO
  isplitl [Hz]; · iexact Hz
  isplitl [Hdr]; · iexact Hdr
  isplitl [Hcc]; · iexact Hcc
  iexact Hcs

end Cert.Kernel.AG

end
-- ==== Proof.Bits.PartsC2.lean ====
/-
  The body of one device, part by part (parts 31 to 36): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec
import proofs.«900685_g7700000000000686_dist_ag_v7x_xyz2x2x4_z_m2048_n512_f32_1_alg».proof.Proof.Bits.XferSteps

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 31 of the body. -/
theorem part31_spec (K : Dev nD × Fin 93 → ℕ) (c : Dev nD) (W : Waits sig Unit) (v5 : BitVec 32) (v8 : BitVec 32) (v9 : BitVec 32) (v34 : BitVec 32) (v36 : BitVec 32) (v651 : BitVec 32) (v975 : BitVec 32) (Kt : (PUnit) → sProp 𝕄) :
    iprop((records m K
        ∗ levAts L lv
        ∗ owes (c : Thread nD τ) (Ol (payL.drop 27) c) W
        ∗ cred (tallyAt (cell c (rcvJ 5 1)) () (credS 256))
        ∗ atPos ER (cell c (rcvJ 5 1)) 0 ∅ 0
        ∗ oPts c (lo 5 1 c) 256 fullShare (m ((c : Thread nD τ).loc main_v1))
        ∗ dutyTok ER (cell c (cpJ 13)) 0 0)
      ∗ (∀ r, (owes (c : Thread nD τ) (Ol (payL.drop 27) c) (insert (csem (rcvJ 5 1), ()) W)
          ∗ semVal (cell c (rcvJ 5 1)) 0
          ∗ sPts c (lo 5 1 c) 88 fullShare.right (Gd m (org 5 1 c))
          ∗ sPts c (lo 5 1 c + 88) 168 fullShare.right (Gd m (org 5 1 c))
          ∗ cred (tallyAt (cell c (cpJ 13)) () (credO 256))) -∗ Kt r))
      ⊢ wp frame (wpE (defs₀ (F := F)) 𝒱₀ (c : Thread nD τ) none) Set.univ
          (k0_part31 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v36 v651 v975) Kt := by
  rw [k0_part31_eq_skeleton]; unfold k0_part31_skel
  simp only [Prog.lift, Prog.bind_op, Prog.bind_ret, Prog.pure_eq_ret, semSignalWord, semWaitWord]
  /- operations, in order:
   op 55: WAIT sem=arg4[5, 1] src=arg2@k0_off7 1#32:S256x512 dst=arg2@k0_off7 1#32:S256x512 [payments made before: 27]
   op 56: COPY src=arg2@k0_off12 1#32:S256x512 dst=arg1@k0_off12 1#32:S256x512 sem=arg5[13] [payments made before: 27] -/
  iintro ⟨⟨#HR, #HL, HO, Hc, Ha, Ho, Ht⟩, Hk⟩
  ihave #HIw := (rec_inv m K c (rcvJ 5 1)) $$ HR
  ihave Hmw := (mayWait_of (F := F) c (rcvJ 5 1) (payL.drop 27) (by decide)) $$ HL
  iapply (wp_wait_rcv m K c 5 1 (by rfl) (by rfl) _ (Ol (payL.drop 27) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (deal_r_at m c 5 (Or.inl rfl) 1 1 rfl).mp $$ Hp
  icases Hp with ⟨Hp1, Hp2, Hp3⟩
  ihave #HIc13 := (rec_inv m K c (cpJ 13)) $$ HR
  ihave #HRc13 := (rec_reached m K c (cpJ 13)) $$ HR
  iapply (copy_stage m K c 13 (hi := by decide) (sf := 5) (sh := 1) (hcs := by decide) (nr := 256) (ho_s := off12_lo_1 c) (ho_d := off12_lo_1 c)
      (hz := rfl) (hnr := rfl) (hq := rfl) (hs := by rfl) (V := _)) $$ [Hp1 Ho Ht]
  · isplitr; · iexact HIc13
    isplitl [Hp1]; · iexact Hp1
    isplitl [Ho]; · iexact Ho
    isplitl [Ht]; · iexact Ht
    iexact HRc13
  iintro Hcr
  rw [wp_ret]; imodintro; iapply Hk
  isplitl [HO]; · iexact HO
  isplitl [Hv]; · iexact Hv
  isplitl [Hp2]; · iexact Hp2
  isplitl [Hp3]; · iexact Hp3
  iexact Hcr

/-- Part 32 of the body. -/
theorem part32_spec (K : Dev nD × Fin 93 → ℕ) (c : Dev nD) (W : Waits sig Unit) (v2 : BitVec 32) (v5 : BitVec 32) (v8 : BitVec 32) (v9 : BitVec 32) (v10 : BitVec 32) (v34 : BitVec 32) (v639 : BitVec 32) (Kt : (Σ' (v1037 : BitVec 32), BitVec 32) → sProp 𝕄) :
    iprop((records m K
        ∗ levAts L lv
        ∗ owes (c : Thread nD τ) (Ol (payL.drop 27) c) W
        ∗ sPts c (lo 5 1 c + 88) 168 fullShare.right (Gd m (org 5 1 c))
        ∗ landPay (F := F) (peer 3 c) (8, 1)
        ∗ dutyTok ER (cell c (sndJ 8 1)) 0 0
        ∗ dutyTok ER (cell (peer 3 c) (rcvJ 8 1)) 0 0
        ∗ cred (tallyAt (cell c (rcvJ 4 1)) () (credS 256))
        ∗ atPos ER (cell c (rcvJ 4 1)) 0 ∅ 0)
      ∗ (∀ r, (owes (c : Thread nD τ) (Ol (payL.drop 28) c) (insert (csem (rcvJ 4 1), ()) W)
          ∗ cred (tallyAt (cell c (sndJ 8 1)) () (credS 168))
          ∗ semVal (cell c (rcvJ 4 1)) 0
          ∗ sPts c (lo 4 1 c) 256 fullShare (Gd m (org 4 1 c))) -∗ Kt r))
      ⊢ wp frame (wpE (defs₀ (F := F)) 𝒱₀ (c : Thread nD τ) none) Set.univ
          (k0_part32 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v34 v639) Kt := by
  rw [k0_part32_eq_skeleton]; unfold k0_part32_skel
  simp only [Prog.lift, Prog.bind_op, Prog.bind_ret, Prog.pure_eq_ret, semSignalWord, semWaitWord]
  /- operations, in order:
   op 57: SEND src=arg2@k0_off13 1#32:S168x512 dev=k0_dev28 dst=arg2@k0_off13 1#32:S168x512 sS=arg3[8, 1] sR=arg4[8, 1] [payments made before: 27]
   op 58: WAIT sem=arg4[4, 1] src=arg2@k0_off6 1#32:S256x512 dst=arg2@k0_off6 1#32:S256x512 [payments made before: 28] -/
  have hO : Ol (payL.drop 27) c = Ol (payL.drop 28) c + tallyAt (cell (peer 3 c) (rcvJ 8 1)) () (credS 168) := by
    rw [show payL.drop 27 = (tgt 8, rcvJ 8 1) :: payL.drop 28 from rfl, Ol_cons]; rfl
  rw [hO]
  iintro ⟨⟨#HR, #HL, HO, Hs, Hland, Hts, Htr, Hc, Ha⟩, Hk⟩
  ihave #HIs := (rec_inv m K c (sndJ 8 1)) $$ HR
  ihave #HIr := (rec_inv m K (peer 3 c) (rcvJ 8 1)) $$ HR
  ihave #HRs := (rec_reached m K c (sndJ 8 1)) $$ HR
  ihave #HRr := (rec_reached m K (peer 3 c) (rcvJ 8 1)) $$ HR
  iapply (send_stage m K c 8 1 (hh := by decide) (hn := dev28_eq c) (hp := rfl) (sf := 5) (sh := 1) (δ := 88) (hso := rfl) (ha := rfl)
      (nr := 168) (ho_s := off13_lo_1 c) (ho_d := off13_lo_y_1 c) (hz := rfl) (hnr := rfl) (hq := rfl) (hsS := by rfl) (hsR := by rfl) (W := _)
      (O := Ol (payL.drop 28) c)) $$ [HO Hs Hland Hts Htr]
  · isplitr; · iexact HIs
    isplitr; · iexact HIr
    isplitl [Hs]; · iexact Hs
    isplitl [Hland]; · iexact Hland
    isplitl [HO]; · iexact HO
    isplitl [Hts]; · iexact Hts
    isplitr; · iexact HRs
    isplitl [Htr]; · iexact Htr
    iexact HRr
  iintro ⟨Hcs, HO⟩
  ihave #HIw := (rec_inv m K c (rcvJ 4 1)) $$ HR
  ihave Hmw := (mayWait_of (F := F) c (rcvJ 4 1) (payL.drop 28) (by decide)) $$ HL
  iapply (wp_wait_rcv m K c 4 1 (by rfl) (by rfl) _ (Ol (payL.drop 28) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (Entails.of_eq (recvPay_f4 m c 1 1 rfl)) $$ Hp
  rw [wp_ret]; imodintro; iapply Hk
  isplitl [HO]; · iexact HO
  isplitl [Hcs]; · iexact Hcs
  isplitl [Hv]; · iexact Hv
  iexact Hp

/-- Part 33 of the body. -/
theorem part33_spec (K : Dev nD × Fin 93 → ℕ) (c : Dev nD) (W : Waits sig Unit) (v2 : BitVec 32) (v8 : BitVec 32) (v10 : BitVec 32) (v34 : BitVec 32) (v36 : BitVec 32) (v38 : BitVec 32) (v651 : BitVec 32) (v1037 : BitVec 32) (c512_i32_798 : BitVec 32) (Kt : (PUnit) → sProp 𝕄) :
    iprop((records m K
        ∗ levAts L lv
        ∗ owes (c : Thread nD τ) (Ol (payL.drop 28) c) W
        ∗ sPts c (lo 4 1 c) 256 fullShare (Gd m (org 4 1 c))
        ∗ oPts c (lo 4 1 c) 256 fullShare (m ((c : Thread nD τ).loc main_v1))
        ∗ dutyTok ER (cell c (cpJ 14)) 0 0
        ∗ cred (tallyAt (cell c (rcvJ 7 1)) () (credS 256))
        ∗ atPos ER (cell c (rcvJ 7 1)) 0 ∅ 0
        ∗ oPts c (lo 7 1 c) 256 fullShare (m ((c : Thread nD τ).loc main_v1))
        ∗ dutyTok ER (cell c (cpJ 15)) 0 0)
      ∗ (∀ r, (owes (c : Thread nD τ) (Ol (payL.drop 28) c) (insert (csem (rcvJ 7 1), ()) W)
          ∗ cred (tallyAt (cell c (cpJ 14)) () (credO 256))
          ∗ semVal (cell c (rcvJ 7 1)) 0
          ∗ cred (tallyAt (cell c (cpJ 15)) () (credO 256))) -∗ Kt r))
      ⊢ wp frame (wpE (defs₀ (F := F)) 𝒱₀ (c : Thread nD τ) none) Set.univ
          (k0_part33 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v34 v36 v38 v651 v1037 c512_i32_798) Kt := by
  rw [k0_part33_eq_skeleton]; unfold k0_part33_skel
  simp only [Prog.lift, Prog.bind_op, Prog.bind_ret, Prog.pure_eq_ret, semSignalWord, semWaitWord]
  /- operations, in order:
   op 59: COPY src=arg2@k0_off14 1#32:S256x512 dst=arg1@k0_off14 1#32:S256x512 sem=arg5[14] [payments made before: 28]
   op 60: WAIT sem=arg4[7, 1] src=arg2@k0_off7 1#32:S256x512 dst=arg2@k0_off7 1#32:S256x512 [payments made before: 28]
   op 61: COPY src=arg2@k0_off15 1#32:S256x512 dst=arg1@k0_off15 1#32:S256x512 sem=arg5[15] [payments made before: 28] -/
  iintro ⟨⟨#HR, #HL, HO, Hs, Ho1, Ht1, Hc, Ha, Ho2, Ht2⟩, Hk⟩
  ihave #HIc14 := (rec_inv m K c (cpJ 14)) $$ HR
  ihave #HRc14 := (rec_reached m K c (cpJ 14)) $$ HR
  iapply (copy_stage m K c 14 (hi := by decide) (sf := 4) (sh := 1) (hcs := by decide) (nr := 256) (ho_s := off14_lo_1 c) (ho_d := off14_lo_1 c)
      (hz := rfl) (hnr := rfl) (hq := rfl) (hs := by rfl) (V := _)) $$ [Hs Ho1 Ht1]
  · isplitr; · iexact HIc14
    isplitl [Hs]; · iexact Hs
    isplitl [Ho1]; · iexact Ho1
    isplitl [Ht1]; · iexact Ht1
    iexact HRc14
  iintro Hcr1
  ihave #HIw := (rec_inv m K c (rcvJ 7 1)) $$ HR
  ihave Hmw := (mayWait_of (F := F) c (rcvJ 7 1) (payL.drop 28) (by decide)) $$ HL
  iapply (wp_wait_rcv m K c 7 1 (by rfl) (by rfl) _ (Ol (payL.drop 28) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (Entails.of_eq (recvPay_f7 m c 1 1 rfl)) $$ Hp
  ihave #HIc15 := (rec_inv m K c (cpJ 15)) $$ HR
  ihave #HRc15 := (rec_reached m K c (cpJ 15)) $$ HR
  iapply (copy_stage m K c 15 (hi := by decide) (sf := 7) (sh := 1) (hcs := by decide) (nr := 256) (ho_s := off15_lo_1 c) (ho_d := off15_lo_1 c)
      (hz := rfl) (hnr := rfl) (hq := rfl) (hs := by rfl) (V := _)) $$ [Hp Ho2 Ht2]
  · isplitr; · iexact HIc15
    isplitl [Hp]; · iexact Hp
    isplitl [Ho2]; · iexact Ho2
    isplitl [Ht2]; · iexact Ht2
    iexact HRc15
  iintro Hcr2
  rw [wp_ret]; imodintro; iapply Hk
  isplitl [HO]; · iexact HO
  isplitl [Hcr1]; · iexact Hcr1
  isplitl [Hv]; · iexact Hv
  iexact Hcr2

/-- Part 34 of the body. No memory operation. -/
theorem part34_spec (K : Dev nD × Fin 93 → ℕ) (c : Dev nD) (W : Waits sig Unit) (v2 : BitVec 32) (v5 : BitVec 32) (v8 : BitVec 32) (v21 : BitVec 32) (Kt : (Σ' (v1081 : BitVec 32), BitVec 32) → sProp 𝕄) :
    iprop(∀ r, Kt r)
      ⊢ wp frame (wpE (defs₀ (F := F)) 𝒱₀ (c : Thread nD τ) none) Set.univ
          (k0_part34 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v21) Kt := by
  rw [k0_part34_eq_skeleton]; unfold k0_part34_skel
  simp only [Prog.lift, Prog.bind_op, Prog.bind_ret, Prog.pure_eq_ret, semSignalWord, semWaitWord]
  rw [wp_ret]
  iintro H
  imodintro
  iapply H

/-- Part 35 of the body. -/
theorem part35_spec (K : Dev nD × Fin 93 → ℕ) (c : Dev nD) (W : Waits sig Unit) (v5 : BitVec 32) (v8 : BitVec 32) (v9 : BitVec 32) (v34 : BitVec 32) (v1081 : BitVec 32) (Kt : (PUnit) → sProp 𝕄) :
    iprop((records m K
        ∗ levAts L lv
        ∗ owes (c : Thread nD τ) (Ol (payL.drop 28) c) W
        ∗ cred (tallyAt (cell c (rcvJ 0 2)) () (credS 256))
        ∗ atPos ER (cell c (rcvJ 0 2)) 0 ∅ 0
        ∗ oPts c (lo 0 2 c) 256 fullShare (m ((c : Thread nD τ).loc main_v1))
        ∗ dutyTok ER (cell c (cpJ 16)) 0 0
        ∗ landPay (F := F) (peer 2 c) (4, 2)
        ∗ dutyTok ER (cell c (sndJ 4 2)) 0 0
        ∗ dutyTok ER (cell (peer 2 c) (rcvJ 4 2)) 0 0)
      ∗ (∀ r, (owes (c : Thread nD τ) (Ol (payL.drop 29) c) (insert (csem (rcvJ 0 2), ()) W)
          ∗ semVal (cell c (rcvJ 0 2)) 0
          ∗ sPts c (lo 0 2 c) 256 fullShare.right.left (Gd m (org 0 2 c))
          ∗ sPts c (lo 0 2 c) 256 fullShare.right.right.right (Gd m (org 0 2 c))
          ∗ cred (tallyAt (cell c (cpJ 16)) () (credO 256))
          ∗ cred (tallyAt (cell c (sndJ 4 2)) () (credS 256))) -∗ Kt r))
      ⊢ wp frame (wpE (defs₀ (F := F)) 𝒱₀ (c : Thread nD τ) none) Set.univ
          (k0_part35 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v1081) Kt := by
  rw [k0_part35_eq_skeleton]; unfold k0_part35_skel
  simp only [Prog.lift, Prog.bind_op, Prog.bind_ret, Prog.pure_eq_ret, semSignalWord, semWaitWord]
  /- operations, in order:
   op 62: WAIT sem=arg4[0, 2] src=arg2@k0_off1 4294967294#32 0#32:S256x512 dst=arg2@k0_off1 4294967294#32 0#32:S256x512 [payments made before: 28]
   op 63: COPY src=arg2@k0_off6 2#32:S256x512 dst=arg1@k0_off6 2#32:S256x512 sem=arg5[16] [payments made before: 28]
   op 64: SEND src=arg2@k0_off6 2#32:S256x512 dev=k0_dev29 dst=arg2@k0_off6 2#32:S256x512 sS=arg3[4, 2] sR=arg4[4, 2] [payments made before: 28] -/
  have hO : Ol (payL.drop 28) c = Ol (payL.drop 29) c + tallyAt (cell (peer 2 c) (rcvJ 4 2)) () (credS 256) := by
    rw [show payL.drop 28 = (tgt 4, rcvJ 4 2) :: payL.drop 29 from rfl, Ol_cons]; rfl
  iintro ⟨⟨#HR, #HL, HO, Hc, Ha, Ho, Ht, Hland, Hts, Htr⟩, Hk⟩
  ihave #HIw := (rec_inv m K c (rcvJ 0 2)) $$ HR
  ihave Hmw := (mayWait_of (F := F) c (rcvJ 0 2) (payL.drop 28) (by decide)) $$ HL
  iapply (wp_wait_rcv m K c 0 2 (by rfl) (by rfl) _ (Ol (payL.drop 28) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (deal_q_at m c 0 (Or.inl rfl) 2 2 rfl).mp $$ Hp
  icases Hp with ⟨Hp1, Hp2, Hp3, Hp4⟩
  ihave #HIc16 := (rec_inv m K c (cpJ 16)) $$ HR
  ihave #HRc16 := (rec_reached m K c (cpJ 16)) $$ HR
  iapply (copy_stage m K c 16 (hi := by decide) (sf := 0) (sh := 2) (hcs := by decide) (nr := 256) (ho_s := off6_lo_2 c) (ho_d := off6_lo_2 c)
      (hz := rfl) (hnr := rfl) (hq := rfl) (hs := by rfl) (V := _)) $$ [Hp1 Ho Ht]
  · isplitr; · iexact HIc16
    isplitl [Hp1]; · iexact Hp1
    isplitl [Ho]; · iexact Ho
    isplitl [Ht]; · iexact Ht
    iexact HRc16
  iintro Hcr
  ihave HO := (Entails.of_eq (congrArg (fun O => owes (c : Thread nD τ) O (insert (csem (rcvJ 0 2), ()) W)) hO)) $$ HO
  ihave #HIs := (rec_inv m K c (sndJ 4 2)) $$ HR
  ihave #HIr := (rec_inv m K (peer 2 c) (rcvJ 4 2)) $$ HR
  ihave #HRs := (rec_reached m K c (sndJ 4 2)) $$ HR
  ihave #HRr := (rec_reached m K (peer 2 c) (rcvJ 4 2)) $$ HR
  iapply (send_stage m K c 4 2 (hh := by decide) (hn := dev29_eq c) (hp := rfl) (sf := 0) (sh := 2) (δ := 0) (hso := rfl) (ha := rfl)
      (nr := 256) (ho_s := off6_lo_2 c) (ho_d := off6_lo_x_2 c) (hz := rfl) (hnr := rfl) (hq := rfl) (hsS := by rfl) (hsR := by rfl) (W := _)
      (O := Ol (payL.drop 29) c)) $$ [HO Hp3 Hland Hts Htr]
  · isplitr; · iexact HIs
    isplitr; · iexact HIr
    isplitl [Hp3]; · iexact Hp3
    isplitl [Hland]; · iexact Hland
    isplitl [HO]; · iexact HO
    isplitl [Hts]; · iexact Hts
    isplitr; · iexact HRs
    isplitl [Htr]; · iexact Htr
    iexact HRr
  iintro ⟨Hcs, HO⟩
  rw [wp_ret]; imodintro; iapply Hk
  isplitl [HO]; · iexact HO
  isplitl [Hv]; · iexact Hv
  isplitl [Hp2]; · iexact Hp2
  isplitl [Hp4]; · iexact Hp4
  isplitl [Hcr]; · iexact Hcr
  iexact Hcs

/-- Part 36 of the body. -/
theorem part36_spec (K : Dev nD × Fin 93 → ℕ) (c : Dev nD) (W : Waits sig Unit) (v2 : BitVec 32) (v5 : BitVec 32) (v8 : BitVec 32) (v10 : BitVec 32) (v32 : BitVec 32) (v34 : BitVec 32) (v1081 : BitVec 32) (v1093 : BitVec 32) (Kt : (PUnit) → sProp 𝕄) :
    iprop((records m K
        ∗ levAts L lv
        ∗ owes (c : Thread nD τ) (Ol (payL.drop 29) c) W
        ∗ sPts c (lo 0 2 c) 256 fullShare.right.right.right (Gd m (org 0 2 c))
        ∗ landPay (F := F) (peer 3 c) (6, 2)
        ∗ dutyTok ER (cell c (sndJ 6 2)) 0 0
        ∗ dutyTok ER (cell (peer 3 c) (rcvJ 6 2)) 0 0
        ∗ cred (tallyAt (cell c (rcvJ 2 2)) () (credS 256))
        ∗ atPos ER (cell c (rcvJ 2 2)) 0 ∅ 0)
      ∗ (∀ r, (owes (c : Thread nD τ) (Ol (payL.drop 30) c) (insert (csem (rcvJ 2 2), ()) W)
          ∗ cred (tallyAt (cell c (sndJ 6 2)) () (credS 256))
          ∗ semVal (cell c (rcvJ 2 2)) 0
          ∗ sPts c (lo 2 2 c) 256 fullShare.left (Gd m (org 2 2 c))
          ∗ sPts c (lo 2 2 c) 256 fullShare.right.left (Gd m (org 2 2 c))
          ∗ sPts c (lo 2 2 c) 256 fullShare.right.right.left (Gd m (org 2 2 c))
          ∗ sPts c (lo 2 2 c) 256 fullShare.right.right.right (Gd m (org 2 2 c))) -∗ Kt r))
      ⊢ wp frame (wpE (defs₀ (F := F)) 𝒱₀ (c : Thread nD τ) none) Set.univ
          (k0_part36 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v1081 v1093) Kt := by
  rw [k0_part36_eq_skeleton]; unfold k0_part36_skel
  simp only [Prog.lift, Prog.bind_op, Prog.bind_ret, Prog.pure_eq_ret, semSignalWord, semWaitWord]
  /- operations, in order:
   op 65: SEND src=arg2@k0_off6 2#32:S256x512 dev=k0_dev30 dst=arg2@k0_off6 2#32:S256x512 sS=arg3[6, 2] sR=arg4[6, 2] [payments made before: 29]
   op 66: WAIT sem=arg4[2, 2] src=arg2@k0_off1 2#32 256#32:S256x512 dst=arg2@k0_off1 2#32 256#32:S256x512 [payments made before: 30] -/
  have hO : Ol (payL.drop 29) c = Ol (payL.drop 30) c + tallyAt (cell (peer 3 c) (rcvJ 6 2)) () (credS 256) := by
    rw [show payL.drop 29 = (tgt 6, rcvJ 6 2) :: payL.drop 30 from rfl, Ol_cons]; rfl
  rw [hO]
  iintro ⟨⟨#HR, #HL, HO, Hs, Hland, Hts, Htr, Hc, Ha⟩, Hk⟩
  ihave #HIs := (rec_inv m K c (sndJ 6 2)) $$ HR
  ihave #HIr := (rec_inv m K (peer 3 c) (rcvJ 6 2)) $$ HR
  ihave #HRs := (rec_reached m K c (sndJ 6 2)) $$ HR
  ihave #HRr := (rec_reached m K (peer 3 c) (rcvJ 6 2)) $$ HR
  iapply (send_stage m K c 6 2 (hh := by decide) (hn := dev30_eq c) (hp := rfl) (sf := 0) (sh := 2) (δ := 0) (hso := rfl) (ha := rfl)
      (nr := 256) (ho_s := off6_lo_2 c) (ho_d := off6_lo_y_2 c) (hz := rfl) (hnr := rfl) (hq := rfl) (hsS := by rfl) (hsR := by rfl) (W := _)
      (O := Ol (payL.drop 30) c)) $$ [HO Hs Hland Hts Htr]
  · isplitr; · iexact HIs
    isplitr; · iexact HIr
    isplitl [Hs]; · iexact Hs
    isplitl [Hland]; · iexact Hland
    isplitl [HO]; · iexact HO
    isplitl [Hts]; · iexact Hts
    isplitr; · iexact HRs
    isplitl [Htr]; · iexact Htr
    iexact HRr
  iintro ⟨Hcs, HO⟩
  ihave #HIw := (rec_inv m K c (rcvJ 2 2)) $$ HR
  ihave Hmw := (mayWait_of (F := F) c (rcvJ 2 2) (payL.drop 30) (by decide)) $$ HL
  iapply (wp_wait_rcv m K c 2 2 (by rfl) (by rfl) _ (Ol (payL.drop 30) c)) $$ [HO Hc Ha Hmw]
  · isplitr; · iexact HIw
    isplitl [Hc]; · iexact Hc
    isplitl [HO]; · iexact HO
    isplitl [Hmw]; · iexact Hmw
    iexact Ha
  iintro ⟨HO, Hv, Hp⟩
  ihave Hp := (deal_q_at m c 2 (Or.inr rfl) 2 2 rfl).mp $$ Hp
  icases Hp with ⟨Hp1, Hp2, Hp3, Hp4⟩
  rw [wp_ret]; imodintro; iapply Hk
  isplitl [HO]; · iexact HO
  isplitl [Hcs]; · iexact Hcs
  isplitl [Hv]; · iexact Hv
  isplitl [Hp1]; · iexact Hp1
  isplitl [Hp2]; · iexact Hp2
  isplitl [Hp3]; · iexact Hp3
  iexact Hp4

end Cert.Kernel.AG

end
-- ==== Proof.Bits.PartsD.lean ====
/-
  The body of one device, part by part (parts 37 to 42): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.XferSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## What is still owed, payment by payment -/

private theorem Ol_d30 (c : Dev nD) :
    Ol (payL.drop 30) c = Ol (payL.drop 31) c + tallyAt (cell (peer 2 c) (rcvJ 5 2)) () (credS 256) :=
  Ol_cons (tgt 5, rcvJ 5 2) (payL.drop 31) c
private theorem Ol_d31 (c : Dev nD) :
    Ol (payL.drop 31) c = Ol (payL.drop 32) c + tallyAt (cell (peer 3 c) (rcvJ 7 2)) () (credS 256) :=
  Ol_cons (tgt 7, rcvJ 7 2) (payL.drop 32) c
private theorem Ol_d32 (c : Dev nD) :
    Ol (payL.drop 32) c = Ol (payL.drop 33) c + tallyAt (cell (peer 2 c) (rcvJ 9 2)) () (credS 168) :=
  Ol_cons (tgt 9, rcvJ 9 2) (payL.drop 33) c
private theorem Ol_d33 (c : Dev nD) :
    Ol (payL.drop 33) c = Ol (payL.drop 34) c + tallyAt (cell (peer 3 c) (rcvJ 8 2)) () (credS 168) :=
  Ol_cons (tgt 8, rcvJ 8 2) (payL.drop 34) c

/-- Part 37 of the body. -/
theorem part37_spec (K : Dev nD × Fin 93 → ℕ) (c : Dev nD) (W : Waits sig Unit) (v5 : BitVec 32) (v8 : BitVec 32) (v9 : BitVec 32) (v34 : BitVec 32) (v1093 : BitVec 32) (Kt : (PUnit) → sProp 𝕄) :
    iprop((records m K
        ∗ owes (c : Thread nD τ) (Ol (payL.drop 30) c) W
        ∗ sPts c (lo 2 2 c) 256 fullShare.left (Gd m (org 2 2 c))
        ∗ oPts c (lo 2 2 c) 256 fullShare (m ((c : Thread nD τ).loc main_v1))
        ∗ dutyTok ER (cell c (cpJ 17)) 0 0
        ∗ sPts c (lo 2 2 c) 256 fullShare.right.right.left (Gd m (org 2 2 c))
        ∗ landPay (F := F) (peer 2 c) (5, 2)
        ∗ dutyTok ER (cell c (sndJ 5 2)) 0 0
        ∗ dutyTok ER (cell (peer 2 c) (rcvJ 5 2)) 0 0)
      ∗ (∀ r, (owes (c : Thread nD τ) (Ol (payL.drop 31) c) W
          ∗ cred (tallyAt (cell c (cpJ 17)) () (credO 256))
          ∗ cred (tallyAt (cell c (sndJ 5 2)) () (credS 256))) -∗ Kt r))
      ⊢ wp frame (wpE (defs₀ (F := F)) 𝒱₀ (c : Thread nD τ) none) Set.univ
          (k0_part37 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v1093) Kt := by
  rw [k0_part37_eq_skeleton]; unfold k0_part37_skel
  simp only [Prog.lift, Prog.bind_op, Prog.bind_ret, Prog.pure_eq_ret, semSignalWord, semWaitWord]
  iintro ⟨⟨#HR, HO, Hs1, Ho1, Ht1, Hs2, Hl, Hts, Htr⟩, Hk⟩
  ihave #HIc17 := (rec_inv m K c (cpJ 17)) $$ HR
  ihave #Hrc17 := (rec_reached m K c (cpJ 17)) $$ HR
  iapply (copy_stage m K c 17 (by decide) (sf := 2) (sh := 2) rfl 256 (q := fullShare.left) (off7_lo_2 c) (off7_lo_2 c) rfl rfl rfl rfl (m ((c : Thread nD τ).loc main_v1))) $$ [Hs1 Ho1 Ht1]
  · isplitr; · iexact HIc17
    isplitl [Hs1]; · iexact Hs1
    isplitl [Ho1]; · iexact Ho1
    isplitl [Ht1]; · iexact Ht1
    iexact Hrc17
  iintro Hc1
  ihave #HIs52 := (rec_inv m K c (sndJ 5 2)) $$ HR
  ihave #HIr52 := (rec_inv m K (peer 2 c) (rcvJ 5 2)) $$ HR
  ihave #Hrs52 := (rec_reached m K c (sndJ 5 2)) $$ HR
  ihave #Hrr52 := (rec_reached m K (peer 2 c) (rcvJ 5 2)) $$ HR
  rw [Ol_d30 c]
  iapply (send_stage m K c (p := peer 2 c) 5 2 (by decide) (dev31_eq c) rfl (sf := 2) (sh := 2) (δ := 0) (a := lo 2 2 c) rfl rfl 256
      (q := fullShare.right.right.left) (off7_lo_2 c) (off7_lo_x_2 c) rfl rfl rfl rfl rfl W (Ol (payL.drop 31) c)) $$ [Hs2 Hl HO Hts Htr]
  · isplitr; · iexact HIs52
    isplitr; · iexact HIr52
    isplitl [Hs2]; · iexact Hs2
    isplitl [Hl]; · iexact Hl
    isplitl [HO]; · iexact HO
    isplitl [Hts]; · iexact Hts
    isplitr; · iexact Hrs52
    isplitl [Htr]; · iexact Htr
    iexact Hrr52
  iintro ⟨Hc2, HO⟩
  rw [wp_ret]; imodintro
  iapply Hk
  isplitl [HO]; · iexact HO
  isplitl [Hc1]; · iexact Hc1
  iexact Hc2

/-- Part 38 of the body. -/
theorem part38_spec (K : Dev nD × Fin 93 → ℕ) (c : Dev nD) (W : Waits sig Unit) (v2 : BitVec 32) (v5 : BitVec 32) (v8 : BitVec 32) (v10 : BitVec 32) (v21 : BitVec 32) (v40 : BitVec 32) (v1081 : BitVec 32) (Kt : (PUnit) → sProp 𝕄) :
    iprop((records m K
        ∗ levAts L lv
        ∗ owes (c : Thread nD τ) (Ol (payL.drop 31) c) W
        ∗ sPts c (lo 2 2 c) 256 fullShare.right.right.right (Gd m (org 2 2 c))
        ∗ landPay (F := F) (peer 3 c) (7, 2)
        ∗ dutyTok ER (cell c (sndJ 7 2)) 0 0
        ∗ dutyTok ER (cell (peer 3 c) (rcvJ 7 2)) 0 0
        ∗ cred (tallyAt (cell c (rcvJ 1 2)) () (credS 88))
        ∗ atPos ER (cell c (rcvJ 1 2)) 0 ∅ 0
        ∗ oPts c (lo 1 2 c) 88 fullShare (m ((c : Thread nD τ).loc main_v1))
        ∗ dutyTok ER (cell c (cpJ 18)) 0 0)
      ∗ (∀ r, (owes (c : Thread nD τ) (Ol (payL.drop 32) c) (insert (csem (rcvJ 1 2), ()) W)
          ∗ cred (tallyAt (cell c (sndJ 7 2)) () (credS 256))
          ∗ semVal (cell c (rcvJ 1 2)) 0
          ∗ sPts c (lo 1 2 c) 88 fullShare.right (Gd m (org 1 2 c))
          ∗ cred (tallyAt (cell c (cpJ 18)) () (credO 88))) -∗ Kt r))
      ⊢ wp frame (wpE (defs₀ (F := F)) 𝒱₀ (c : Thread nD τ) none) Set.univ
          (k0_part38 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v21 v40 v1081) Kt := by
  rw [k0_part38_eq_skeleton]; unfold k0_part38_skel
  simp only [Prog.lift, Prog.bind_op, Prog.bind_ret, Prog.pure_eq_ret, semSignalWord, semWaitWord]
  iintro ⟨⟨#HR, #Hlev, HO, Hs2, Hl, Hts, Htr, Hcw, Hat, Ho1, Ht1⟩, Hk⟩
  ihave #HIs72 := (rec_inv m K c (sndJ 7 2)) $$ HR
  ihave #HIr72 := (rec_inv m K (peer 3 c) (rcvJ 7 2)) $$ HR
  ihave #Hrs72 := (rec_reached m K c (sndJ 7 2)) $$ HR
  ihave #Hrr72 := (rec_reached m K (peer 3 c) (rcvJ 7 2)) $$ HR
  rw [Ol_d31 c]
  iapply (send_stage m K c (p := peer 3 c) 7 2 (by decide) (dev32_eq c) rfl (sf := 2) (sh := 2) (δ := 0) (a := lo 2 2 c) rfl rfl 256
      (q := fullShare.right.right.right) (off7_lo_2 c) (off7_lo_y_2 c) rfl rfl rfl rfl rfl W (Ol (payL.drop 32) c)) $$ [Hs2 Hl HO Hts Htr]
  · isplitr; · iexact HIs72
    isplitr; · iexact HIr72
    isplitl [Hs2]; · iexact Hs2
    isplitl [Hl]; · iexact Hl
    isplitl [HO]; · iexact HO
    isplitl [Hts]; · iexact Hts
    isplitr; · iexact Hrs72
    isplitl [Htr]; · iexact Htr
    iexact Hrr72
  iintro ⟨Hc2, HO⟩
  ihave #HIw12 := (rec_inv m K c (rcvJ 1 2)) $$ HR
  iapply (wp_wait_rcv m K c 1 2 rfl rfl W (Ol (payL.drop 32) c)) $$ [Hcw HO Hat]
  · isplitr; · iexact HIw12
    isplitl [Hcw]; · iexact Hcw
    isplitl [HO]; · iexact HO
    isplitr; · iapply (mayWait_of c (rcvJ 1 2) (payL.drop 32) (by decide)); iexact Hlev
    iexact Hat
  iintro ⟨HO, Hz, Hp⟩
  ihave Hp := (deal_d_at m c 1 (.inl rfl) 2 2 rfl).1 $$ Hp
  icases Hp with ⟨Hpl, Hpr⟩
  ihave #HIc18 := (rec_inv m K c (cpJ 18)) $$ HR
  ihave #Hrc18 := (rec_reached m K c (cpJ 18)) $$ HR
  iapply (copy_stage m K c 18 (by decide) (sf := 1) (sh := 2) rfl 88 (q := fullShare.left) (off8_lo_2 c) (off8_lo_2 c) rfl rfl rfl rfl (m ((c : Thread nD τ).loc main_v1))) $$ [Hpl Ho1 Ht1]
  · isplitr; · iexact HIc18
    isplitl [Hpl]; · iexact Hpl
    isplitl [Ho1]; · iexact Ho1
    isplitl [Ht1]; · iexact Ht1
    iexact Hrc18
  iintro Hc1
  rw [wp_ret]; imodintro
  iapply Hk
  isplitl [HO]; · iexact HO
  isplitl [Hc2]; · iexact Hc2
  isplitl [Hz]; · iexact Hz
  isplitl [Hpr]; · iexact Hpr
  iexact Hc1

/-- Part 39 of the body. -/
theorem part39_spec (K : Dev nD × Fin 93 → ℕ) (c : Dev nD) (W : Waits sig Unit) (v2 : BitVec 32) (v5 : BitVec 32) (v8 : BitVec 32) (v10 : BitVec 32) (v32 : BitVec 32) (v34 : BitVec 32) (v40 : BitVec 32) (v1081 : BitVec 32) (v1093 : BitVec 32) (Kt : (PUnit) → sProp 𝕄) :
    iprop((records m K
        ∗ levAts L lv
        ∗ owes (c : Thread nD τ) (Ol (payL.drop 32) c) W
        ∗ cred (tallyAt (cell c (rcvJ 3 2)) () (credS 88))
        ∗ atPos ER (cell c (rcvJ 3 2)) 0 ∅ 0
        ∗ oPts c (lo 3 2 c) 88 fullShare (m ((c : Thread nD τ).loc main_v1))
        ∗ dutyTok ER (cell c (cpJ 19)) 0 0)
      ∗ (∀ r, (owes (c : Thread nD τ) (Ol (payL.drop 32) c) (insert (csem (rcvJ 3 2), ()) W)
          ∗ semVal (cell c (rcvJ 3 2)) 0
          ∗ sPts c (lo 3 2 c) 88 fullShare.right (Gd m (org 3 2 c))
          ∗ cred (tallyAt (cell c (cpJ 19)) () (credO 88))) -∗ Kt r))
      ⊢ wp frame (wpE (defs₀ (F := F)) 𝒱₀ (c : Thread nD τ) none) Set.univ
          (k0_part39 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v10 v32 v34 v40 v1081 v1093) Kt := by
  rw [k0_part39_eq_skeleton]; unfold k0_part39_skel
  simp only [Prog.lift, Prog.bind_op, Prog.bind_ret, Prog.pure_eq_ret, semSignalWord, semWaitWord]
  iintro ⟨⟨#HR, #Hlev, HO, Hcw, Hat, Ho1, Ht1⟩, Hk⟩
  ihave #HIw32 := (rec_inv m K c (rcvJ 3 2)) $$ HR
  iapply (wp_wait_rcv m K c 3 2 rfl rfl W (Ol (payL.drop 32) c)) $$ [Hcw HO Hat]
  · isplitr; · iexact HIw32
    isplitl [Hcw]; · iexact Hcw
    isplitl [HO]; · iexact HO
    isplitr; · iapply (mayWait_of c (rcvJ 3 2) (payL.drop 32) (by decide)); iexact Hlev
    iexact Hat
  iintro ⟨HO, Hz, Hp⟩
  ihave Hp := (deal_d_at m c 3 (.inr rfl) 2 2 rfl).1 $$ Hp
  icases Hp with ⟨Hpl, Hpr⟩
  ihave #HIc19 := (rec_inv m K c (cpJ 19)) $$ HR
  ihave #Hrc19 := (rec_reached m K c (cpJ 19)) $$ HR
  iapply (copy_stage m K c 19 (by decide) (sf := 3) (sh := 2) rfl 88 (q := fullShare.left) (off9_lo_2 c) (off9_lo_2 c) rfl rfl rfl rfl (m ((c : Thread nD τ).loc main_v1))) $$ [Hpl Ho1 Ht1]
  · isplitr; · iexact HIc19
    isplitl [Hpl]; · iexact Hpl
    isplitl [Ho1]; · iexact Ho1
    isplitl [Ht1]; · iexact Ht1
    iexact Hrc19
  iintro Hc1
  rw [wp_ret]; imodintro
  iapply Hk
  isplitl [HO]; · iexact HO
  isplitl [Hz]; · iexact Hz
  isplitl [Hpr]; · iexact Hpr
  iexact Hc1

/-- Part 40 of the body. -/
theorem part40_spec (K : Dev nD × Fin 93 → ℕ) (c : Dev nD) (W : Waits sig Unit) (v5 : BitVec 32) (v8 : BitVec 32) (v9 : BitVec 32) (v38 : BitVec 32) (v1081 : BitVec 32) (v1093 : BitVec 32) (Kt : (Σ' (v1291 : BitVec 32), BitVec 32) → sProp 𝕄) :
    iprop((records m K
        ∗ levAts L lv
        ∗ owes (c : Thread nD τ) (Ol (payL.drop 32) c) W
        ∗ cred (tallyAt (cell c (rcvJ 6 2)) () (credS 256))
        ∗ atPos ER (cell c (rcvJ 6 2)) 0 ∅ 0
        ∗ oPts c (lo 6 2 c) 256 fullShare (m ((c : Thread nD τ).loc main_v1))
        ∗ dutyTok ER (cell c (cpJ 20)) 0 0
        ∗ landPay (F := F) (peer 2 c) (9, 2)
        ∗ dutyTok ER (cell c (sndJ 9 2)) 0 0
        ∗ dutyTok ER (cell (peer 2 c) (rcvJ 9 2)) 0 0)
      ∗ (∀ r, (owes (c : Thread nD τ) (Ol (payL.drop 33) c) (insert (csem (rcvJ 6 2), ()) W)
          ∗ semVal (cell c (rcvJ 6 2)) 0
          ∗ sPts c (lo 6 2 c) 88 fullShare.right (Gd m (org 6 2 c))
          ∗ cred (tallyAt (cell c (cpJ 20)) () (credO 256))
          ∗ cred (tallyAt (cell c (sndJ 9 2)) () (credS 168))) -∗ Kt r))
      ⊢ wp frame (wpE (defs₀ (F := F)) 𝒱₀ (c : Thread nD τ) none) Set.univ
          (k0_part40 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v38 v1081 v1093) Kt := by
  rw [k0_part40_eq_skeleton]; unfold k0_part40_skel
  simp only [Prog.lift, Prog.bind_op, Prog.bind_ret, Prog.pure_eq_ret, semSignalWord, semWaitWord]
  iintro ⟨⟨#HR, #Hlev, HO, Hcw, Hat, Ho1, Ht1, Hl, Hts, Htr⟩, Hk⟩
  ihave #HIw62 := (rec_inv m K c (rcvJ 6 2)) $$ HR
  iapply (wp_wait_rcv m K c 6 2 rfl rfl W (Ol (payL.drop 32) c)) $$ [Hcw HO Hat]
  · isplitr; · iexact HIw62
    isplitl [Hcw]; · iexact Hcw
    isplitl [HO]; · iexact HO
    isplitr; · iapply (mayWait_of c (rcvJ 6 2) (payL.drop 32) (by decide)); iexact Hlev
    iexact Hat
  iintro ⟨HO, Hz, Hp⟩
  ihave Hp := (deal_r_at m c 6 (.inr rfl) 2 2 rfl).1 $$ Hp
  icases Hp with ⟨Hpl, Hpa, Hpb⟩
  ihave #HIc20 := (rec_inv m K c (cpJ 20)) $$ HR
  ihave #Hrc20 := (rec_reached m K c (cpJ 20)) $$ HR
  iapply (copy_stage m K c 20 (by decide) (sf := 6) (sh := 2) rfl 256 (q := fullShare.left) (off10_lo_2 c) (off10_lo_2 c) rfl rfl rfl rfl (m ((c : Thread nD τ).loc main_v1))) $$ [Hpl Ho1 Ht1]
  · isplitr; · iexact HIc20
    isplitl [Hpl]; · iexact Hpl
    isplitl [Ho1]; · iexact Ho1
    isplitl [Ht1]; · iexact Ht1
    iexact Hrc20
  iintro Hc1
  ihave #HIs92 := (rec_inv m K c (sndJ 9 2)) $$ HR
  ihave #HIr92 := (rec_inv m K (peer 2 c) (rcvJ 9 2)) $$ HR
  ihave #Hrs92 := (rec_reached m K c (sndJ 9 2)) $$ HR
  ihave #Hrr92 := (rec_reached m K (peer 2 c) (rcvJ 9 2)) $$ HR
  rw [Ol_d32 c]
  iapply (send_stage m K c (p := peer 2 c) 9 2 (by decide) (dev33_eq c) rfl (sf := 6) (sh := 2) (δ := 88) (a := lo 6 2 c + 88) rfl rfl 168
      (q := fullShare.right) (off11_lo_2 c) (off11_lo_x_2 c) rfl rfl rfl rfl rfl (insert (csem (rcvJ 6 2), ()) W) (Ol (payL.drop 33) c)) $$ [Hpb Hl HO Hts Htr]
  · isplitr; · iexact HIs92
    isplitr; · iexact HIr92
    isplitl [Hpb]; · iexact Hpb
    isplitl [Hl]; · iexact Hl
    isplitl [HO]; · iexact HO
    isplitl [Hts]; · iexact Hts
    isplitr; · iexact Hrs92
    isplitl [Htr]; · iexact Htr
    iexact Hrr92
  iintro ⟨Hc2, HO⟩
  rw [wp_ret]; imodintro
  iapply Hk
  isplitl [HO]; · iexact HO
  isplitl [Hz]; · iexact Hz
  isplitl [Hpa]; · iexact Hpa
  isplitl [Hc1]; · iexact Hc1
  iexact Hc2

/-- Part 41 of the body. -/
theorem part41_spec (K : Dev nD × Fin 93 → ℕ) (c : Dev nD) (W : Waits sig Unit) (v5 : BitVec 32) (v8 : BitVec 32) (v9 : BitVec 32) (v34 : BitVec 32) (v36 : BitVec 32) (v1093 : BitVec 32) (v1291 : BitVec 32) (c512_i32_999 : BitVec 32) (Kt : (Σ' (v1323 : BitVec 32), BitVec 32) → sProp 𝕄) :
    iprop((records m K
        ∗ levAts L lv
        ∗ owes (c : Thread nD τ) (Ol (payL.drop 33) c) W
        ∗ cred (tallyAt (cell c (rcvJ 5 2)) () (credS 256))
        ∗ atPos ER (cell c (rcvJ 5 2)) 0 ∅ 0
        ∗ oPts c (lo 5 2 c) 256 fullShare (m ((c : Thread nD τ).loc main_v1))
        ∗ dutyTok ER (cell c (cpJ 21)) 0 0)
      ∗ (∀ r, (owes (c : Thread nD τ) (Ol (payL.drop 33) c) (insert (csem (rcvJ 5 2), ()) W)
          ∗ semVal (cell c (rcvJ 5 2)) 0
          ∗ sPts c (lo 5 2 c) 88 fullShare.right (Gd m (org 5 2 c))
          ∗ sPts c (lo 5 2 c + 88) 168 fullShare.right (Gd m (org 5 2 c))
          ∗ cred (tallyAt (cell c (cpJ 21)) () (credO 256))) -∗ Kt r))
      ⊢ wp frame (wpE (defs₀ (F := F)) 𝒱₀ (c : Thread nD τ) none) Set.univ
          (k0_part41 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v34 v36 v1093 v1291 c512_i32_999) Kt := by
  rw [k0_part41_eq_skeleton]; unfold k0_part41_skel
  simp only [Prog.lift, Prog.bind_op, Prog.bind_ret, Prog.pure_eq_ret, semSignalWord, semWaitWord]
  iintro ⟨⟨#HR, #Hlev, HO, Hcw, Hat, Ho1, Ht1⟩, Hk⟩
  ihave #HIw52 := (rec_inv m K c (rcvJ 5 2)) $$ HR
  iapply (wp_wait_rcv m K c 5 2 rfl rfl W (Ol (payL.drop 33) c)) $$ [Hcw HO Hat]
  · isplitr; · iexact HIw52
    isplitl [Hcw]; · iexact Hcw
    isplitl [HO]; · iexact HO
    isplitr; · iapply (mayWait_of c (rcvJ 5 2) (payL.drop 33) (by decide)); iexact Hlev
    iexact Hat
  iintro ⟨HO, Hz, Hp⟩
  ihave Hp := (deal_r_at m c 5 (.inl rfl) 2 2 rfl).1 $$ Hp
  icases Hp with ⟨Hpl, Hpa, Hpb⟩
  ihave #HIc21 := (rec_inv m K c (cpJ 21)) $$ HR
  ihave #Hrc21 := (rec_reached m K c (cpJ 21)) $$ HR
  iapply (copy_stage m K c 21 (by decide) (sf := 5) (sh := 2) rfl 256 (q := fullShare.left) (off12_lo_2 c) (off12_lo_2 c) rfl rfl rfl rfl (m ((c : Thread nD τ).loc main_v1))) $$ [Hpl Ho1 Ht1]
  · isplitr; · iexact HIc21
    isplitl [Hpl]; · iexact Hpl
    isplitl [Ho1]; · iexact Ho1
    isplitl [Ht1]; · iexact Ht1
    iexact Hrc21
  iintro Hc1
  rw [wp_ret]; imodintro
  iapply Hk
  isplitl [HO]; · iexact HO
  isplitl [Hz]; · iexact Hz
  isplitl [Hpa]; · iexact Hpa
  isplitl [Hpb]; · iexact Hpb
  iexact Hc1

/-- Part 42 of the body. -/
theorem part42_spec (K : Dev nD × Fin 93 → ℕ) (c : Dev nD) (W : Waits sig Unit) (v2 : BitVec 32) (v5 : BitVec 32) (v8 : BitVec 32) (v9 : BitVec 32) (v10 : BitVec 32) (v34 : BitVec 32) (v1081 : BitVec 32) (v1323 : BitVec 32) (c344_i32_1024 : BitVec 32) (Kt : (BitVec 32) → sProp 𝕄) :
    iprop((records m K
        ∗ levAts L lv
        ∗ owes (c : Thread nD τ) (Ol (payL.drop 33) c) W
        ∗ sPts c (lo 5 2 c + 88) 168 fullShare.right (Gd m (org 5 2 c))
        ∗ landPay (F := F) (peer 3 c) (8, 2)
        ∗ dutyTok ER (cell c (sndJ 8 2)) 0 0
        ∗ dutyTok ER (cell (peer 3 c) (rcvJ 8 2)) 0 0
        ∗ cred (tallyAt (cell c (rcvJ 4 2)) () (credS 256))
        ∗ atPos ER (cell c (rcvJ 4 2)) 0 ∅ 0)
      ∗ (∀ r, (owes (c : Thread nD τ) (Ol (payL.drop 34) c) (insert (csem (rcvJ 4 2), ()) W)
          ∗ cred (tallyAt (cell c (sndJ 8 2)) () (credS 168))
          ∗ semVal (cell c (rcvJ 4 2)) 0
          ∗ sPts c (lo 4 2 c) 256 fullShare (Gd m (org 4 2 c))) -∗ Kt r))
      ⊢ wp frame (wpE (defs₀ (F := F)) 𝒱₀ (c : Thread nD τ) none) Set.univ
          (k0_part42 (Memref.whole cc0_stg0_0) (Memref.isWhole_whole _) (Memref.whole main_v1) (Memref.isWhole_whole _) (Memref.whole cc0_scratch0) (Memref.isWhole_whole _) cc0_scratch1 cc0_scratch2 cc0_scratch3 c v2 v5 v8 v9 v10 v34 v1081 v1323 c344_i32_1024) Kt := by
  rw [k0_part42_eq_skeleton]; unfold k0_part42_skel
  simp only [Prog.lift, Prog.bind_op, Prog.bind_ret, Prog.pure_eq_ret, semSignalWord, semWaitWord]
  iintro ⟨⟨#HR, #Hlev, HO, Hs2, Hl, Hts, Htr, Hcw, Hat⟩, Hk⟩
  ihave #HIs82 := (rec_inv m K c (sndJ 8 2)) $$ HR
  ihave #HIr82 := (rec_inv m K (peer 3 c) (rcvJ 8 2)) $$ HR
  ihave #Hrs82 := (rec_reached m K c (sndJ 8 2)) $$ HR
  ihave #Hrr82 := (rec_reached m K (peer 3 c) (rcvJ 8 2)) $$ HR
  rw [Ol_d33 c]
  iapply (send_stage m K c (p := peer 3 c) 8 2 (by decide) (dev34_eq c) rfl (sf := 5) (sh := 2) (δ := 88) (a := lo 5 2 c + 88) rfl rfl 168
      (q := fullShare.right) (off13_lo_2 c) (off13_lo_y_2 c) rfl rfl rfl rfl rfl W (Ol (payL.drop 34) c)) $$ [Hs2 Hl HO Hts Htr]
  · isplitr; · iexact HIs82
    isplitr; · iexact HIr82
    isplitl [Hs2]; · iexact Hs2
    isplitl [Hl]; · iexact Hl
    isplitl [HO]; · iexact HO
    isplitl [Hts]; · iexact Hts
    isplitr; · iexact Hrs82
    isplitl [Htr]; · iexact Htr
    iexact Hrr82
  iintro ⟨Hc2, HO⟩
  ihave #HIw42 := (rec_inv m K c (rcvJ 4 2)) $$ HR
  iapply (wp_wait_rcv m K c 4 2 rfl rfl W (Ol (payL.drop 34) c)) $$ [Hcw HO Hat]
  · isplitr; · iexact HIw42
    isplitl [Hcw]; · iexact Hcw
    isplitl [HO]; · iexact HO
    isplitr; · iapply (mayWait_of c (rcvJ 4 2) (payL.drop 34) (by decide)); iexact Hlev
    iexact Hat
  iintro ⟨HO, Hz, Hp⟩
  ihave Hp := (Entails.of_eq (recvPay_f4 m c 2 2 rfl)) $$ Hp
  rw [wp_ret]; imodintro
  iapply Hk
  isplitl [HO]; · iexact HO
  isplitl [Hc2]; · iexact Hc2
  isplitl [Hz]; · iexact Hz
  iexact Hp

end Cert.Kernel.AG

end
-- ==== Proof.Bits.PartsD2.lean ====
/-
  The body of one device, part by part (parts 43 to 49): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec
import proofs.«900685_g7700000000000686_dist_ag_v7x_xyz2x2x4_z_m2048_n512_f32_1_alg».proof.Proof.Bits.XferSteps

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- Part 43 of the body. -/
theorem part43_spec (K : Dev nD × Fin 93 → ℕ) (c : Dev nD) (W : Waits sig Unit) (v2 : BitVec 32) (v8 : BitVec 32) (v10 : BitVec 32) (v34 : BitVec 32) (v36 : BitVec 32) (v38 : BitVec 32) (v1081 : BitVec 32) (v1093 : BitVec 32) (c2048_i32_1051 : BitVec 32) (Kt : (PUnit) → sProp 𝕄) :
    iprop((records m K
        ∗ levAts L lv
        ∗ owes (c : Thread nD τ) (Ol (payL.drop 34) c) W
        ∗ sPts c (lo 4 2 c) 256 fullShare (Gd m (org 4 2 c))
        ∗ oPts c (lo 4 2 c) 256 fullShare (m ((c : Thread nD τ).loc main_v1))
        ∗ dutyTok ER (cell c (cpJ 22)) 0 0
        ∗ cred (tallyAt (cell c (rcvJ 7 2)) () (credS 256))
        ∗ atPos ER (cell c (rcvJ 7 2)) 0 ∅ 0)
      ∗ (∀ r, (owes (c : Thread nD τ) (Ol (payL.drop 34) c) (insert (csem (rcvJ 7 2), ()) W)
          ∗ cred (tallyAt (cell c (cpJ 22)) () (credO 256))
          ∗ semVal (cell c (rcvJ 7 2)) 0
          ∗ sPts c (lo 7 2 c) 256 fullShare (Gd m (org 7 2 c))) -∗ Kt r))
      ⊢ wp frame (wpE (defs₀ (F := F)) 𝒱₀ (c : Thread nD τ) none) Set.univ
          (k0_part43 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v34 v36 v38 v1081 v1093 c2048_i32_1051) Kt := by
  rw [k0_part43_eq_skeleton]; unfold k0_part43_skel
  simp only [Prog.lift, Prog.bind_op, Prog.bind_ret, Prog.pure_eq_ret, semSignalWord, semWaitWord]
  /- operations, in order:
   op 81: COPY src=arg2@k0_off14 2#32:S256x512 dst=arg1@k0_off14 2#32:S256x512 sem=arg5[22] [payments made before: 34]
   op 82: WAIT sem=arg4[7, 2] src=arg2@k0_off7 2#32:S256x512 dst=arg2@k0_off7 2#32:S256x512 [payments made before: 34] -/
  iintro ⟨⟨#HR, #Hlev, HO, Hs, Ho, Ht, Hcw, Hat⟩, Hk⟩
  ihave #HIc := (rec_inv m K c (cpJ 22)) $$ HR
  ihave #HRc := (rec_reached m K c (cpJ 22)) $$ HR
  iapply (copy_stage m K c 22 (by decide) (sf := 4) (sh := 2) (nr := 256) (q := fullShare) rfl (off14_lo_2 c) (off14_lo_2 c) rfl rfl rfl rfl (m ((c : Thread nD τ).loc main_v1))) $$ [Hs Ho Ht]
  · isplitr; · iexact HIc
    isplitl [Hs]; · iexact Hs
    isplitl [Ho]; · iexact Ho
    isplitl [Ht]; · iexact Ht
    iexact HRc
  iintro Hcc
  ihave #HIw := (rec_inv m K c (rcvJ 7 2)) $$ HR
  iapply (wp_wait_rcv m K c 7 2 rfl rfl W (Ol (payL.drop 34) c)) $$ [Hcw HO Hat]
  · isplitr; · iexact HIw
    isplitl [Hcw]; · iexact Hcw
    isplitl [HO]; · iexact HO
    isplitr; · iapply (mayWait_of c (rcvJ 7 2) (payL.drop 34) (by decide)); iexact Hlev
    iexact Hat
  iintro ⟨HO, Hz, Hp⟩
  ihave Hp := (Entails.of_eq (recvPay_f7 m c 2 2 rfl)) $$ Hp
  rw [wp_ret]; imodintro
  iapply Hk
  isplitl [HO]; · iexact HO
  isplitl [Hcc]; · iexact Hcc
  isplitl [Hz]; · iexact Hz
  iexact Hp

/-- Part 44 of the body. -/
theorem part44_spec (K : Dev nD × Fin 93 → ℕ) (c : Dev nD) (W : Waits sig Unit) (v5 : BitVec 32) (v8 : BitVec 32) (v9 : BitVec 32) (Kt : (Σ' (v1399 : BitVec 32), BitVec 32) → sProp 𝕄) :
    iprop((records m K
        ∗ sPts c (lo 7 2 c) 256 fullShare (Gd m (org 7 2 c))
        ∗ oPts c (lo 7 2 c) 256 fullShare (m ((c : Thread nD τ).loc main_v1))
        ∗ dutyTok ER (cell c (cpJ 23)) 0 0)
      ∗ (∀ r, (cred (tallyAt (cell c (cpJ 23)) () (credO 256))) -∗ Kt r))
      ⊢ wp frame (wpE (defs₀ (F := F)) 𝒱₀ (c : Thread nD τ) none) Set.univ
          (k0_part44 (Memref.whole cc0_stg0_0) (Memref.isWhole_whole _) (Memref.whole main_v1) (Memref.isWhole_whole _) (Memref.whole cc0_scratch0) (Memref.isWhole_whole _) cc0_scratch1 cc0_scratch2 cc0_scratch3 c v5 v8 v9) Kt := by
  rw [k0_part44_eq_skeleton]; unfold k0_part44_skel
  simp only [Prog.lift, Prog.bind_op, Prog.bind_ret, Prog.pure_eq_ret, semSignalWord, semWaitWord]
  /- operations, in order:
   op 83: COPY src=arg2@k0_off15 2#32:S256x512 dst=arg1@k0_off15 2#32:S256x512 sem=arg5[23] [payments made before: 34] -/
  iintro ⟨⟨#HR, Hs, Ho, Ht⟩, Hk⟩
  ihave #HIc := (rec_inv m K c (cpJ 23)) $$ HR
  ihave #HRc := (rec_reached m K c (cpJ 23)) $$ HR
  iapply (copy_stage m K c 23 (by decide) (sf := 7) (sh := 2) (nr := 256) (q := fullShare) rfl (off15_lo_2 c) (off15_lo_2 c) rfl rfl rfl rfl (m ((c : Thread nD τ).loc main_v1))) $$ [Hs Ho Ht]
  · isplitr; · iexact HIc
    isplitl [Hs]; · iexact Hs
    isplitl [Ho]; · iexact Ho
    isplitl [Ht]; · iexact Ht
    iexact HRc
  iintro Hcc
  rw [wp_ret]; imodintro
  iapply Hk
  iexact Hcc

/-- Part 45 of the body. -/
theorem part45_spec (K : Dev nD × Fin 93 → ℕ) (c : Dev nD) (W : Waits sig Unit) (v2 : BitVec 32) (v8 : BitVec 32) (v10 : BitVec 32) (v40 : BitVec 32) (v1399 : BitVec 32) (v1411 : BitVec 32) (Kt : (BitVec 32) → sProp 𝕄) :
    iprop((records m K
        ∗ levAts L lv
        ∗ owes (c : Thread nD τ) (Ol (payL.drop 34) c) W
        ∗ cred (tallyAt (cell c (rcvJ 9 0)) () (credS 168))
        ∗ atPos ER (cell c (rcvJ 9 0)) 0 ∅ 0
        ∗ oPts c (lo 9 0 c) 168 fullShare (m ((c : Thread nD τ).loc main_v1))
        ∗ dutyTok ER (cell c (cpJ 24)) 0 0
        ∗ cred (tallyAt (cell c (rcvJ 8 0)) () (credS 168))
        ∗ atPos ER (cell c (rcvJ 8 0)) 0 ∅ 0
        ∗ oPts c (lo 8 0 c) 168 fullShare (m ((c : Thread nD τ).loc main_v1))
        ∗ dutyTok ER (cell c (cpJ 25)) 0 0)
      ∗ (∀ r, (owes (c : Thread nD τ) (Ol (payL.drop 34) c) (insert (csem (rcvJ 8 0), ()) (insert (csem (rcvJ 9 0), ()) W))
          ∗ semVal (cell c (rcvJ 9 0)) 0
          ∗ cred (tallyAt (cell c (cpJ 24)) () (credO 168))
          ∗ semVal (cell c (rcvJ 8 0)) 0
          ∗ cred (tallyAt (cell c (cpJ 25)) () (credO 168))) -∗ Kt r))
      ⊢ wp frame (wpE (defs₀ (F := F)) 𝒱₀ (c : Thread nD τ) none) Set.univ
          (k0_part45 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v40 v1399 v1411) Kt := by
  rw [k0_part45_eq_skeleton]; unfold k0_part45_skel
  simp only [Prog.lift, Prog.bind_op, Prog.bind_ret, Prog.pure_eq_ret, semSignalWord, semWaitWord]
  /- operations, in order:
   op 84: WAIT sem=arg4[9, 0] src=arg2@k0_off11 0#32:S168x512 dst=arg2@k0_off11 0#32:S168x512 [payments made before: 34]
   op 85: COPY src=arg2@k0_off16 0#32:S168x512 dst=arg1@k0_off16 0#32:S168x512 sem=arg5[24] [payments made before: 34]
   op 86: WAIT sem=arg4[8, 0] src=arg2@k0_off13 0#32:S168x512 dst=arg2@k0_off13 0#32:S168x512 [payments made before: 34]
   op 87: COPY src=arg2@k0_off17 0#32:S168x512 dst=arg1@k0_off17 0#32:S168x512 sem=arg5[25] [payments made before: 34] -/
  iintro ⟨⟨#HR, #Hlev, HO, Hc1, Ha1, Ho1, Ht1, Hc2, Ha2, Ho2, Ht2⟩, Hk⟩
  ihave #HIw1 := (rec_inv m K c (rcvJ 9 0)) $$ HR
  iapply (wp_wait_rcv m K c 9 0 rfl rfl W (Ol (payL.drop 34) c)) $$ [Hc1 HO Ha1]
  · isplitr; · iexact HIw1
    isplitl [Hc1]; · iexact Hc1
    isplitl [HO]; · iexact HO
    isplitr; · iapply (mayWait_of c (rcvJ 9 0) (payL.drop 34) (by decide)); iexact Hlev
    iexact Ha1
  iintro ⟨HO, Hz1, Hp1⟩
  ihave Hp1 := (Entails.of_eq (recvPay_f9 m c 0 0 rfl)) $$ Hp1
  ihave #HIc1 := (rec_inv m K c (cpJ 24)) $$ HR
  ihave #HRc1 := (rec_reached m K c (cpJ 24)) $$ HR
  iapply (copy_stage m K c 24 (by decide) (sf := 9) (sh := 0) (nr := 168) (q := fullShare) rfl (off16_lo_0 c) (off16_lo_0 c) rfl rfl rfl rfl (m ((c : Thread nD τ).loc main_v1))) $$ [Hp1 Ho1 Ht1]
  · isplitr; · iexact HIc1
    isplitl [Hp1]; · iexact Hp1
    isplitl [Ho1]; · iexact Ho1
    isplitl [Ht1]; · iexact Ht1
    iexact HRc1
  iintro Hcc1
  ihave #HIw2 := (rec_inv m K c (rcvJ 8 0)) $$ HR
  iapply (wp_wait_rcv m K c 8 0 rfl rfl (insert (csem (rcvJ 9 0), ()) W) (Ol (payL.drop 34) c)) $$ [Hc2 HO Ha2]
  · isplitr; · iexact HIw2
    isplitl [Hc2]; · iexact Hc2
    isplitl [HO]; · iexact HO
    isplitr; · iapply (mayWait_of c (rcvJ 8 0) (payL.drop 34) (by decide)); iexact Hlev
    iexact Ha2
  iintro ⟨HO, Hz2, Hp2⟩
  ihave Hp2 := (Entails.of_eq (recvPay_f8 m c 0 0 rfl)) $$ Hp2
  ihave #HIc2 := (rec_inv m K c (cpJ 25)) $$ HR
  ihave #HRc2 := (rec_reached m K c (cpJ 25)) $$ HR
  iapply (copy_stage m K c 25 (by decide) (sf := 8) (sh := 0) (nr := 168) (q := fullShare) rfl (off17_lo_0 c) (off17_lo_0 c) rfl rfl rfl rfl (m ((c : Thread nD τ).loc main_v1))) $$ [Hp2 Ho2 Ht2]
  · isplitr; · iexact HIc2
    isplitl [Hp2]; · iexact Hp2
    isplitl [Ho2]; · iexact Ho2
    isplitl [Ht2]; · iexact Ht2
    iexact HRc2
  iintro Hcc2
  rw [wp_ret]; imodintro
  iapply Hk
  isplitl [HO]; · iexact HO
  isplitl [Hz1]; · iexact Hz1
  isplitl [Hcc1]; · iexact Hcc1
  isplitl [Hz2]; · iexact Hz2
  iexact Hcc2

/-- Part 46 of the body. -/
theorem part46_spec (K : Dev nD × Fin 93 → ℕ) (c : Dev nD) (W : Waits sig Unit) (v5 : BitVec 32) (v8 : BitVec 32) (v9 : BitVec 32) (v1450 : BitVec 32) (Kt : (Σ' (v1472 : BitVec 32) (v1483 : BitVec 32), BitVec 32) → sProp 𝕄) :
    iprop((records m K
        ∗ levAts L lv
        ∗ owes (c : Thread nD τ) (Ol (payL.drop 34) c) W
        ∗ cred (tallyAt (cell c (rcvJ 9 1)) () (credS 168))
        ∗ atPos ER (cell c (rcvJ 9 1)) 0 ∅ 0)
      ∗ (∀ r, (owes (c : Thread nD τ) (Ol (payL.drop 34) c) (insert (csem (rcvJ 9 1), ()) W)
          ∗ semVal (cell c (rcvJ 9 1)) 0
          ∗ sPts c (lo 9 1 c) 168 fullShare (Gd m (org 9 1 c))) -∗ Kt r))
      ⊢ wp frame (wpE (defs₀ (F := F)) 𝒱₀ (c : Thread nD τ) none) Set.univ
          (k0_part46 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v1450) Kt := by
  rw [k0_part46_eq_skeleton]; unfold k0_part46_skel
  simp only [Prog.lift, Prog.bind_op, Prog.bind_ret, Prog.pure_eq_ret, semSignalWord, semWaitWord]
  /- operations, in order:
   op 88: WAIT sem=arg4[9, 1] src=arg2@k0_off11 1#32:S168x512 dst=arg2@k0_off11 1#32:S168x512 [payments made before: 34] -/
  iintro ⟨⟨#HR, #Hlev, HO, Hcw, Hat⟩, Hk⟩
  ihave #HIw := (rec_inv m K c (rcvJ 9 1)) $$ HR
  iapply (wp_wait_rcv m K c 9 1 rfl rfl W (Ol (payL.drop 34) c)) $$ [Hcw HO Hat]
  · isplitr; · iexact HIw
    isplitl [Hcw]; · iexact Hcw
    isplitl [HO]; · iexact HO
    isplitr; · iapply (mayWait_of c (rcvJ 9 1) (payL.drop 34) (by decide)); iexact Hlev
    iexact Hat
  iintro ⟨HO, Hz, Hp⟩
  ihave Hp := (Entails.of_eq (recvPay_f9 m c 1 1 rfl)) $$ Hp
  rw [wp_ret]; imodintro
  iapply Hk
  isplitl [HO]; · iexact HO
  isplitl [Hz]; · iexact Hz
  iexact Hp

/-- Part 47 of the body. -/
theorem part47_spec (K : Dev nD × Fin 93 → ℕ) (c : Dev nD) (W : Waits sig Unit) (v2 : BitVec 32) (v8 : BitVec 32) (v10 : BitVec 32) (v40 : BitVec 32) (v1472 : BitVec 32) (v1483 : BitVec 32) (c512_i32_1150 : BitVec 32) (Kt : (Σ' (v1513 : BitVec 32), BitVec 32) → sProp 𝕄) :
    iprop((records m K
        ∗ levAts L lv
        ∗ owes (c : Thread nD τ) (Ol (payL.drop 34) c) W
        ∗ sPts c (lo 9 1 c) 168 fullShare (Gd m (org 9 1 c))
        ∗ oPts c (lo 9 1 c) 168 fullShare (m ((c : Thread nD τ).loc main_v1))
        ∗ dutyTok ER (cell c (cpJ 26)) 0 0
        ∗ cred (tallyAt (cell c (rcvJ 8 1)) () (credS 168))
        ∗ atPos ER (cell c (rcvJ 8 1)) 0 ∅ 0
        ∗ oPts c (lo 8 1 c) 168 fullShare (m ((c : Thread nD τ).loc main_v1))
        ∗ dutyTok ER (cell c (cpJ 27)) 0 0)
      ∗ (∀ r, (owes (c : Thread nD τ) (Ol (payL.drop 34) c) (insert (csem (rcvJ 8 1), ()) W)
          ∗ cred (tallyAt (cell c (cpJ 26)) () (credO 168))
          ∗ semVal (cell c (rcvJ 8 1)) 0
          ∗ cred (tallyAt (cell c (cpJ 27)) () (credO 168))) -∗ Kt r))
      ⊢ wp frame (wpE (defs₀ (F := F)) 𝒱₀ (c : Thread nD τ) none) Set.univ
          (k0_part47 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v40 v1472 v1483 c512_i32_1150) Kt := by
  rw [k0_part47_eq_skeleton]; unfold k0_part47_skel
  simp only [Prog.lift, Prog.bind_op, Prog.bind_ret, Prog.pure_eq_ret, semSignalWord, semWaitWord]
  /- operations, in order:
   op 89: COPY src=arg2@k0_off16 1#32:S168x512 dst=arg1@k0_off16 1#32:S168x512 sem=arg5[26] [payments made before: 34]
   op 90: WAIT sem=arg4[8, 1] src=arg2@k0_off13 1#32:S168x512 dst=arg2@k0_off13 1#32:S168x512 [payments made before: 34]
   op 91: COPY src=arg2@k0_off17 1#32:S168x512 dst=arg1@k0_off17 1#32:S168x512 sem=arg5[27] [payments made before: 34] -/
  iintro ⟨⟨#HR, #Hlev, HO, Hs, Ho1, Ht1, Hc, Ha, Ho2, Ht2⟩, Hk⟩
  ihave #HIc1 := (rec_inv m K c (cpJ 26)) $$ HR
  ihave #HRc1 := (rec_reached m K c (cpJ 26)) $$ HR
  iapply (copy_stage m K c 26 (by decide) (sf := 9) (sh := 1) (nr := 168) (q := fullShare) rfl (off16_lo_1 c) (off16_lo_1 c) rfl rfl rfl rfl (m ((c : Thread nD τ).loc main_v1))) $$ [Hs Ho1 Ht1]
  · isplitr; · iexact HIc1
    isplitl [Hs]; · iexact Hs
    isplitl [Ho1]; · iexact Ho1
    isplitl [Ht1]; · iexact Ht1
    iexact HRc1
  iintro Hcc1
  ihave #HIw := (rec_inv m K c (rcvJ 8 1)) $$ HR
  iapply (wp_wait_rcv m K c 8 1 rfl rfl W (Ol (payL.drop 34) c)) $$ [Hc HO Ha]
  · isplitr; · iexact HIw
    isplitl [Hc]; · iexact Hc
    isplitl [HO]; · iexact HO
    isplitr; · iapply (mayWait_of c (rcvJ 8 1) (payL.drop 34) (by decide)); iexact Hlev
    iexact Ha
  iintro ⟨HO, Hz, Hp⟩
  ihave Hp := (Entails.of_eq (recvPay_f8 m c 1 1 rfl)) $$ Hp
  ihave #HIc2 := (rec_inv m K c (cpJ 27)) $$ HR
  ihave #HRc2 := (rec_reached m K c (cpJ 27)) $$ HR
  iapply (copy_stage m K c 27 (by decide) (sf := 8) (sh := 1) (nr := 168) (q := fullShare) rfl (off17_lo_1 c) (off17_lo_1 c) rfl rfl rfl rfl (m ((c : Thread nD τ).loc main_v1))) $$ [Hp Ho2 Ht2]
  · isplitr; · iexact HIc2
    isplitl [Hp]; · iexact Hp
    isplitl [Ho2]; · iexact Ho2
    isplitl [Ht2]; · iexact Ht2
    iexact HRc2
  iintro Hcc2
  rw [wp_ret]; imodintro
  iapply Hk
  isplitl [HO]; · iexact HO
  isplitl [Hcc1]; · iexact Hcc1
  isplitl [Hz]; · iexact Hz
  iexact Hcc2

/-- Part 48 of the body. -/
theorem part48_spec (K : Dev nD × Fin 93 → ℕ) (c : Dev nD) (W : Waits sig Unit) (v5 : BitVec 32) (v8 : BitVec 32) (v9 : BitVec 32) (v40 : BitVec 32) (v1513 : BitVec 32) (v1514 : BitVec 32) (Kt : (BitVec 32) → sProp 𝕄) :
    iprop((records m K
        ∗ levAts L lv
        ∗ owes (c : Thread nD τ) (Ol (payL.drop 34) c) W
        ∗ cred (tallyAt (cell c (rcvJ 9 2)) () (credS 168))
        ∗ atPos ER (cell c (rcvJ 9 2)) 0 ∅ 0)
      ∗ (∀ r, (owes (c : Thread nD τ) (Ol (payL.drop 34) c) (insert (csem (rcvJ 9 2), ()) W)
          ∗ semVal (cell c (rcvJ 9 2)) 0
          ∗ sPts c (lo 9 2 c) 168 fullShare (Gd m (org 9 2 c))) -∗ Kt r))
      ⊢ wp frame (wpE (defs₀ (F := F)) 𝒱₀ (c : Thread nD τ) none) Set.univ
          (k0_part48 (Memref.whole cc0_stg0_0) (Memref.isWhole_whole _) (Memref.whole main_v1) (Memref.isWhole_whole _) (Memref.whole cc0_scratch0) (Memref.isWhole_whole _) cc0_scratch1 cc0_scratch2 cc0_scratch3 c v5 v8 v9 v40 v1513 v1514) Kt := by
  rw [k0_part48_eq_skeleton]; unfold k0_part48_skel
  simp only [Prog.lift, Prog.bind_op, Prog.bind_ret, Prog.pure_eq_ret, semSignalWord, semWaitWord]
  /- operations, in order:
   op 92: WAIT sem=arg4[9, 2] src=arg2@k0_off11 2#32:S168x512 dst=arg2@k0_off11 2#32:S168x512 [payments made before: 34] -/
  iintro ⟨⟨#HR, #Hlev, HO, Hcw, Hat⟩, Hk⟩
  ihave #HIw := (rec_inv m K c (rcvJ 9 2)) $$ HR
  iapply (wp_wait_rcv m K c 9 2 rfl rfl W (Ol (payL.drop 34) c)) $$ [Hcw HO Hat]
  · isplitr; · iexact HIw
    isplitl [Hcw]; · iexact Hcw
    isplitl [HO]; · iexact HO
    isplitr; · iapply (mayWait_of c (rcvJ 9 2) (payL.drop 34) (by decide)); iexact Hlev
    iexact Hat
  iintro ⟨HO, Hz, Hp⟩
  ihave Hp := (Entails.of_eq (recvPay_f9 m c 2 2 rfl)) $$ Hp
  rw [wp_ret]; imodintro
  iapply Hk
  isplitl [HO]; · iexact HO
  isplitl [Hz]; · iexact Hz
  iexact Hp

/-- Part 49 of the body. -/
theorem part49_spec (K : Dev nD × Fin 93 → ℕ) (c : Dev nD) (W : Waits sig Unit) (v2 : BitVec 32) (v8 : BitVec 32) (v10 : BitVec 32) (v40 : BitVec 32) (v1533 : BitVec 32) (Kt : (PUnit) → sProp 𝕄) :
    iprop((records m K
        ∗ levAts L lv
        ∗ owes (c : Thread nD τ) (Ol (payL.drop 34) c) W
        ∗ sPts c (lo 9 2 c) 168 fullShare (Gd m (org 9 2 c))
        ∗ oPts c (lo 9 2 c) 168 fullShare (m ((c : Thread nD τ).loc main_v1))
        ∗ dutyTok ER (cell c (cpJ 28)) 0 0
        ∗ cred (tallyAt (cell c (rcvJ 8 2)) () (credS 168))
        ∗ atPos ER (cell c (rcvJ 8 2)) 0 ∅ 0
        ∗ oPts c (lo 8 2 c) 168 fullShare (m ((c : Thread nD τ).loc main_v1))
        ∗ dutyTok ER (cell c (cpJ 29)) 0 0
        ∗ cred (tallyAt (cell c (sndJ 0 0)) () (credS 256))
        ∗ atPos ER (cell c (sndJ 0 0)) 0 ∅ 0)
      ∗ (∀ r, (owes (c : Thread nD τ) (Ol (payL.drop 34) c) (insert (csem (sndJ 0 0), ()) (insert (csem (rcvJ 8 2), ()) W))
          ∗ cred (tallyAt (cell c (cpJ 28)) () (credO 168))
          ∗ semVal (cell c (rcvJ 8 2)) 0
          ∗ cred (tallyAt (cell c (cpJ 29)) () (credO 168))
          ∗ semVal (cell c (sndJ 0 0)) 0
          ∗ xPts m c (blkLo 0 c) 256 fullShare.right.left) -∗ Kt r))
      ⊢ wp frame (wpE (defs₀ (F := F)) 𝒱₀ (c : Thread nD τ) none) Set.univ
          (k0_part49 (Memref.whole cc0_stg0_0) (Memref.isWhole_whole _) (Memref.whole main_v1) (Memref.isWhole_whole _) (Memref.whole cc0_scratch0) (Memref.isWhole_whole _) cc0_scratch1 cc0_scratch2 cc0_scratch3 c v2 v8 v10 v40 v1533) Kt := by
  rw [k0_part49_eq_skeleton]; unfold k0_part49_skel
  simp only [Prog.lift, Prog.bind_op, Prog.bind_ret, Prog.pure_eq_ret, semSignalWord, semWaitWord]
  /- operations, in order:
   op 93: COPY src=arg2@k0_off16 2#32:S168x512 dst=arg1@k0_off16 2#32:S168x512 sem=arg5[28] [payments made before: 34]
   op 94: WAIT sem=arg4[8, 2] src=arg2@k0_off13 2#32:S168x512 dst=arg2@k0_off13 2#32:S168x512 [payments made before: 34]
   op 95: COPY src=arg2@k0_off17 2#32:S168x512 dst=arg1@k0_off17 2#32:S168x512 sem=arg5[29] [payments made before: 34]
   op 96: WAIT sem=arg3[0, 0] src=arg2@k0_off1 0#32 0#32:S256x512 dst=arg0@k0_off2 0#32:S256x512 [payments made before: 34] -/
  iintro ⟨⟨#HR, #Hlev, HO, Hs, Ho1, Ht1, Hc, Ha, Ho2, Ht2, Hcs, Has⟩, Hk⟩
  ihave #HIc1 := (rec_inv m K c (cpJ 28)) $$ HR
  ihave #HRc1 := (rec_reached m K c (cpJ 28)) $$ HR
  iapply (copy_stage m K c 28 (by decide) (sf := 9) (sh := 2) (nr := 168) (q := fullShare) rfl (off16_lo_2 c) (off16_lo_2 c) rfl rfl rfl rfl (m ((c : Thread nD τ).loc main_v1))) $$ [Hs Ho1 Ht1]
  · isplitr; · iexact HIc1
    isplitl [Hs]; · iexact Hs
    isplitl [Ho1]; · iexact Ho1
    isplitl [Ht1]; · iexact Ht1
    iexact HRc1
  iintro Hcc1
  ihave #HIw := (rec_inv m K c (rcvJ 8 2)) $$ HR
  iapply (wp_wait_rcv m K c 8 2 rfl rfl W (Ol (payL.drop 34) c)) $$ [Hc HO Ha]
  · isplitr; · iexact HIw
    isplitl [Hc]; · iexact Hc
    isplitl [HO]; · iexact HO
    isplitr; · iapply (mayWait_of c (rcvJ 8 2) (payL.drop 34) (by decide)); iexact Hlev
    iexact Ha
  iintro ⟨HO, Hz, Hp⟩
  ihave Hp := (Entails.of_eq (recvPay_f8 m c 2 2 rfl)) $$ Hp
  ihave #HIc2 := (rec_inv m K c (cpJ 29)) $$ HR
  ihave #HRc2 := (rec_reached m K c (cpJ 29)) $$ HR
  iapply (copy_stage m K c 29 (by decide) (sf := 8) (sh := 2) (nr := 168) (q := fullShare) rfl (off17_lo_2 c) (off17_lo_2 c) rfl rfl rfl rfl (m ((c : Thread nD τ).loc main_v1))) $$ [Hp Ho2 Ht2]
  · isplitr; · iexact HIc2
    isplitl [Hp]; · iexact Hp
    isplitl [Ho2]; · iexact Ho2
    isplitl [Ht2]; · iexact Ht2
    iexact HRc2
  iintro Hcc2
  ihave #HIs := (rec_inv m K c (sndJ 0 0)) $$ HR
  iapply (wp_wait_snd m K c 0 0 rfl rfl (insert (csem (rcvJ 8 2), ()) W) (Ol (payL.drop 34) c)) $$ [Hcs HO Has]
  · isplitr; · iexact HIs
    isplitl [Hcs]; · iexact Hcs
    isplitl [HO]; · iexact HO
    isplitr; · iapply (mayWait_of c (sndJ 0 0) (payL.drop 34) (by decide)); iexact Hlev
    iexact Has
  iintro ⟨HO, Hzs, Hps⟩
  ihave Hps := (Entails.of_eq (sendPay_ring0 m c 0 (by decide))) $$ Hps
  rw [wp_ret]; imodintro
  iapply Hk
  isplitl [HO]; · iexact HO
  isplitl [Hcc1]; · iexact Hcc1
  isplitl [Hz]; · iexact Hz
  isplitl [Hcc2]; · iexact Hcc2
  isplitl [Hzs]; · iexact Hzs
  iexact Hps

end Cert.Kernel.AG

end
-- ==== Proof.Bits.PartsE.lean ====
/-
  The body of one device, part by part (parts 50 to 58): what each printed part takes from the device's
  holdings and what it leaves, one rule per transfer, signal or wait.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.XferSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-- What the departure cell of a ring flow's first transfer hands back: the share of the staged block lent. -/
private theorem sendPay_first (c : Dev nD) (f : Fin 10) (hf : f.val < 4) :
    sendPay m c f 0 = xPts m c (blkLo f c) (flowRows f) (r0Share f) := by
  unfold sendPay; rw [if_pos ⟨hf, rfl⟩]

/-- What the departure cell of any other transfer hands back: the share of the landed piece lent. -/
private theorem sendPay_later (c : Dev nD) (f : Fin 10) (h : Fin 3) (hfh : ¬ (f.val < 4 ∧ h.val = 0)) :
    sendPay m c f h = sPts c (lo (srcOf f h).1 (srcOf f h).2.1 c + (srcOf f h).2.2) (flowRows f) (sShare f)
      (Gd m (org (srcOf f h).1 (srcOf f h).2.1 c)) := by
  unfold sendPay; rw [if_neg hfh]

/-- What the cell of a copy of a landed piece hands over: the band of the result written and the share of the piece lent. -/
private theorem cpPay_lit (c : Dev nD) (i : Fin 32) (h31 : i.val ≠ 31) :
    cpPay m c i = iprop(oPts c (lo (cpSrc i).1 (cpSrc i).2 c) (flowRows (cpSrc i).1) fullShare (Gd m (org (cpSrc i).1 (cpSrc i).2 c))
      ∗ sPts c (lo (cpSrc i).1 (cpSrc i).2 c) (flowRows (cpSrc i).1) (cpShare (cpSrc i).1) (Gd m (org (cpSrc i).1 (cpSrc i).2 c))) := by
  unfold cpPay; rw [if_neg h31]

/-- Part 50 of the body. -/
theorem part50_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 2 0)) () (credS 256))
        ∗ atPos ER (cell c (sndJ 2 0)) 0 ∅ 0
        ∗ cred (tallyAt (cell c (sndJ 1 0)) () (credS 88))
        ∗ atPos ER (cell c (sndJ 1 0)) 0 ∅ 0
        ∗ cred (tallyAt (cell c (sndJ 3 0)) () (credS 88))
        ∗ atPos ER (cell c (sndJ 3 0)) 0 ∅ 0
        ∗ cred (tallyAt (cell c (sndJ 0 1)) () (credS 256))
        ∗ atPos ER (cell c (sndJ 0 1)) 0 ∅ 0
        ∗ cred (tallyAt (cell c (sndJ 4 0)) () (credS 256))
        ∗ atPos ER (cell c (sndJ 4 0)) 0 ∅ 0)
      ∗ (∀ r, (owes (c : Thread nD τ) (Ol (payL.drop 34) c) (insert (csem (sndJ 4 0), ()) (insert (csem (sndJ 0 1), ()) (insert (csem (sndJ 3 0), ()) (insert (csem (sndJ 1 0), ()) (insert (csem (sndJ 2 0), ()) W)))))
          ∗ semVal (cell c (sndJ 2 0)) 0
          ∗ xPts m c (blkLo 2 c) 256 fullShare.right.right.left
          ∗ semVal (cell c (sndJ 1 0)) 0
          ∗ xPts m c (blkLo 1 c) 88 fullShare.right.right.right.left
          ∗ semVal (cell c (sndJ 3 0)) 0
          ∗ xPts m c (blkLo 3 c) 88 fullShare.right.right.right.right
          ∗ semVal (cell c (sndJ 0 1)) 0
          ∗ sPts c (lo 0 0 c) 256 fullShare.right.left (Gd m (org 0 0 c))
          ∗ semVal (cell c (sndJ 4 0)) 0
          ∗ sPts c (lo 0 0 c) 256 fullShare.right.right.left (Gd m (org 0 0 c))) -∗ Kt r))
      ⊢ wp frame (wpE (defs₀ (F := F)) 𝒱₀ (c : Thread nD τ) none) Set.univ
          (k0_part50 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part50_eq_skeleton]; unfold k0_part50_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 2 0)) $$ HR
  iapply (wp_wait_snd0 m K c 2 0 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_first m c 2 (by decide))) $$ Hp1
  ihave #HI2 := (rec_inv m K c (sndJ 1 0)) $$ HR
  iapply (wp_wait_snd0 m K c 1 0 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_first m c 1 (by decide))) $$ Hp2
  ihave #HI3 := (rec_inv m K c (sndJ 3 0)) $$ HR
  iapply (wp_wait_snd0 m K c 3 0 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_first m c 3 (by decide))) $$ Hp3
  ihave #HI4 := (rec_inv m K c (sndJ 0 1)) $$ HR
  iapply (wp_wait_snd0 m K c 0 1 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 0 1 (by decide))) $$ Hp4
  ihave #HI5 := (rec_inv m K c (sndJ 4 0)) $$ HR
  iapply (wp_wait_snd0 m K c 4 0 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 4 0 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 51 of the body. -/
theorem part51_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 6 0)) () (credS 256))
        ∗ atPos ER (cell c (sndJ 6 0)) 0 ∅ 0
        ∗ cred (tallyAt (cell c (sndJ 2 1)) () (credS 256))
        ∗ atPos ER (cell c (sndJ 2 1)) 0 ∅ 0
        ∗ cred (tallyAt (cell c (sndJ 5 0)) () (credS 256))
        ∗ atPos ER (cell c (sndJ 5 0)) 0 ∅ 0
        ∗ cred (tallyAt (cell c (sndJ 7 0)) () (credS 256))
        ∗ atPos ER (cell c (sndJ 7 0)) 0 ∅ 0
        ∗ cred (tallyAt (cell c (sndJ 1 1)) () (credS 88))
        ∗ atPos ER (cell c (sndJ 1 1)) 0 ∅ 0)
      ∗ (∀ r, (owes (c : Thread nD τ) (Ol (payL.drop 34) c) (insert (csem (sndJ 1 1), ()) (insert (csem (sndJ 7 0), ()) (insert (csem (sndJ 5 0), ()) (insert (csem (sndJ 2 1), ()) (insert (csem (sndJ 6 0), ()) W)))))
          ∗ semVal (cell c (sndJ 6 0)) 0
          ∗ sPts c (lo 0 0 c) 256 fullShare.right.right.right (Gd m (org 0 0 c))
          ∗ semVal (cell c (sndJ 2 1)) 0
          ∗ sPts c (lo 2 0 c) 256 fullShare.right.left (Gd m (org 2 0 c))
          ∗ semVal (cell c (sndJ 5 0)) 0
          ∗ sPts c (lo 2 0 c) 256 fullShare.right.right.left (Gd m (org 2 0 c))
          ∗ semVal (cell c (sndJ 7 0)) 0
          ∗ sPts c (lo 2 0 c) 256 fullShare.right.right.right (Gd m (org 2 0 c))
          ∗ semVal (cell c (sndJ 1 1)) 0
          ∗ sPts c (lo 1 0 c) 88 fullShare.right (Gd m (org 1 0 c))) -∗ Kt r))
      ⊢ wp frame (wpE (defs₀ (F := F)) 𝒱₀ (c : Thread nD τ) none) Set.univ
          (k0_part51 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part51_eq_skeleton]; unfold k0_part51_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 6 0)) $$ HR
  iapply (wp_wait_snd0 m K c 6 0 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 6 0 (by decide))) $$ Hp1
  ihave #HI2 := (rec_inv m K c (sndJ 2 1)) $$ HR
  iapply (wp_wait_snd0 m K c 2 1 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 2 1 (by decide))) $$ Hp2
  ihave #HI3 := (rec_inv m K c (sndJ 5 0)) $$ HR
  iapply (wp_wait_snd0 m K c 5 0 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 5 0 (by decide))) $$ Hp3
  ihave #HI4 := (rec_inv m K c (sndJ 7 0)) $$ HR
  iapply (wp_wait_snd0 m K c 7 0 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 7 0 (by decide))) $$ Hp4
  ihave #HI5 := (rec_inv m K c (sndJ 1 1)) $$ HR
  iapply (wp_wait_snd0 m K c 1 1 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 1 1 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 52 of the body. -/
theorem part52_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 3 1)) () (credS 88))
        ∗ atPos ER (cell c (sndJ 3 1)) 0 ∅ 0
        ∗ cred (tallyAt (cell c (sndJ 9 0)) () (credS 168))
        ∗ atPos ER (cell c (sndJ 9 0)) 0 ∅ 0
        ∗ cred (tallyAt (cell c (sndJ 8 0)) () (credS 168))
        ∗ atPos ER (cell c (sndJ 8 0)) 0 ∅ 0
        ∗ cred (tallyAt (cell c (sndJ 0 2)) () (credS 256))
        ∗ atPos ER (cell c (sndJ 0 2)) 0 ∅ 0
        ∗ cred (tallyAt (cell c (sndJ 4 1)) () (credS 256))
        ∗ atPos ER (cell c (sndJ 4 1)) 0 ∅ 0)
      ∗ (∀ r, (owes (c : Thread nD τ) (Ol (payL.drop 34) c) (insert (csem (sndJ 4 1), ()) (insert (csem (sndJ 0 2), ()) (insert (csem (sndJ 8 0), ()) (insert (csem (sndJ 9 0), ()) (insert (csem (sndJ 3 1), ()) W)))))
          ∗ semVal (cell c (sndJ 3 1)) 0
          ∗ sPts c (lo 3 0 c) 88 fullShare.right (Gd m (org 3 0 c))
          ∗ semVal (cell c (sndJ 9 0)) 0
          ∗ sPts c (lo 6 0 c + 88) 168 fullShare.right (Gd m (org 6 0 c))
          ∗ semVal (cell c (sndJ 8 0)) 0
          ∗ sPts c (lo 5 0 c + 88) 168 fullShare.right (Gd m (org 5 0 c))
          ∗ semVal (cell c (sndJ 0 2)) 0
          ∗ sPts c (lo 0 1 c) 256 fullShare.right.left (Gd m (org 0 1 c))
          ∗ semVal (cell c (sndJ 4 1)) 0
          ∗ sPts c (lo 0 1 c) 256 fullShare.right.right.left (Gd m (org 0 1 c))) -∗ Kt r))
      ⊢ wp frame (wpE (defs₀ (F := F)) 𝒱₀ (c : Thread nD τ) none) Set.univ
          (k0_part52 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part52_eq_skeleton]; unfold k0_part52_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 3 1)) $$ HR
  iapply (wp_wait_snd0 m K c 3 1 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 3 1 (by decide))) $$ Hp1
  ihave #HI2 := (rec_inv m K c (sndJ 9 0)) $$ HR
  iapply (wp_wait_snd0 m K c 9 0 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 9 0 (by decide))) $$ Hp2
  ihave #HI3 := (rec_inv m K c (sndJ 8 0)) $$ HR
  iapply (wp_wait_snd0 m K c 8 0 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 8 0 (by decide))) $$ Hp3
  ihave #HI4 := (rec_inv m K c (sndJ 0 2)) $$ HR
  iapply (wp_wait_snd0 m K c 0 2 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 0 2 (by decide))) $$ Hp4
  ihave #HI5 := (rec_inv m K c (sndJ 4 1)) $$ HR
  iapply (wp_wait_snd0 m K c 4 1 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 4 1 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 53 of the body. -/
theorem part53_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 6 1)) () (credS 256))
        ∗ atPos ER (cell c (sndJ 6 1)) 0 ∅ 0
        ∗ cred (tallyAt (cell c (sndJ 2 2)) () (credS 256))
        ∗ atPos ER (cell c (sndJ 2 2)) 0 ∅ 0
        ∗ cred (tallyAt (cell c (sndJ 5 1)) () (credS 256))
        ∗ atPos ER (cell c (sndJ 5 1)) 0 ∅ 0
        ∗ cred (tallyAt (cell c (sndJ 7 1)) () (credS 256))
        ∗ atPos ER (cell c (sndJ 7 1)) 0 ∅ 0
        ∗ cred (tallyAt (cell c (sndJ 1 2)) () (credS 88))
        ∗ atPos ER (cell c (sndJ 1 2)) 0 ∅ 0)
      ∗ (∀ r, (owes (c : Thread nD τ) (Ol (payL.drop 34) c) (insert (csem (sndJ 1 2), ()) (insert (csem (sndJ 7 1), ()) (insert (csem (sndJ 5 1), ()) (insert (csem (sndJ 2 2), ()) (insert (csem (sndJ 6 1), ()) W)))))
          ∗ semVal (cell c (sndJ 6 1)) 0
          ∗ sPts c (lo 0 1 c) 256 fullShare.right.right.right (Gd m (org 0 1 c))
          ∗ semVal (cell c (sndJ 2 2)) 0
          ∗ sPts c (lo 2 1 c) 256 fullShare.right.left (Gd m (org 2 1 c))
          ∗ semVal (cell c (sndJ 5 1)) 0
          ∗ sPts c (lo 2 1 c) 256 fullShare.right.right.left (Gd m (org 2 1 c))
          ∗ semVal (cell c (sndJ 7 1)) 0
          ∗ sPts c (lo 2 1 c) 256 fullShare.right.right.right (Gd m (org 2 1 c))
          ∗ semVal (cell c (sndJ 1 2)) 0
          ∗ sPts c (lo 1 1 c) 88 fullShare.right (Gd m (org 1 1 c))) -∗ Kt r))
      ⊢ wp frame (wpE (defs₀ (F := F)) 𝒱₀ (c : Thread nD τ) none) Set.univ
          (k0_part53 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part53_eq_skeleton]; unfold k0_part53_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 6 1)) $$ HR
  iapply (wp_wait_snd0 m K c 6 1 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 6 1 (by decide))) $$ Hp1
  ihave #HI2 := (rec_inv m K c (sndJ 2 2)) $$ HR
  iapply (wp_wait_snd0 m K c 2 2 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 2 2 (by decide))) $$ Hp2
  ihave #HI3 := (rec_inv m K c (sndJ 5 1)) $$ HR
  iapply (wp_wait_snd0 m K c 5 1 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 5 1 (by decide))) $$ Hp3
  ihave #HI4 := (rec_inv m K c (sndJ 7 1)) $$ HR
  iapply (wp_wait_snd0 m K c 7 1 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 7 1 (by decide))) $$ Hp4
  ihave #HI5 := (rec_inv m K c (sndJ 1 2)) $$ HR
  iapply (wp_wait_snd0 m K c 1 2 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 1 2 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 54 of the body. -/
theorem part54_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 3 2)) () (credS 88))
        ∗ atPos ER (cell c (sndJ 3 2)) 0 ∅ 0
        ∗ cred (tallyAt (cell c (sndJ 9 1)) () (credS 168))
        ∗ atPos ER (cell c (sndJ 9 1)) 0 ∅ 0
        ∗ cred (tallyAt (cell c (sndJ 8 1)) () (credS 168))
        ∗ atPos ER (cell c (sndJ 8 1)) 0 ∅ 0
        ∗ cred (tallyAt (cell c (sndJ 4 2)) () (credS 256))
        ∗ atPos ER (cell c (sndJ 4 2)) 0 ∅ 0
        ∗ cred (tallyAt (cell c (sndJ 6 2)) () (credS 256))
        ∗ atPos ER (cell c (sndJ 6 2)) 0 ∅ 0)
      ∗ (∀ r, (owes (c : Thread nD τ) (Ol (payL.drop 34) c) (insert (csem (sndJ 6 2), ()) (insert (csem (sndJ 4 2), ()) (insert (csem (sndJ 8 1), ()) (insert (csem (sndJ 9 1), ()) (insert (csem (sndJ 3 2), ()) W)))))
          ∗ semVal (cell c (sndJ 3 2)) 0
          ∗ sPts c (lo 3 1 c) 88 fullShare.right (Gd m (org 3 1 c))
          ∗ semVal (cell c (sndJ 9 1)) 0
          ∗ sPts c (lo 6 1 c + 88) 168 fullShare.right (Gd m (org 6 1 c))
          ∗ semVal (cell c (sndJ 8 1)) 0
          ∗ sPts c (lo 5 1 c + 88) 168 fullShare.right (Gd m (org 5 1 c))
          ∗ semVal (cell c (sndJ 4 2)) 0
          ∗ sPts c (lo 0 2 c) 256 fullShare.right.right.left (Gd m (org 0 2 c))
          ∗ semVal (cell c (sndJ 6 2)) 0
          ∗ sPts c (lo 0 2 c) 256 fullShare.right.right.right (Gd m (org 0 2 c))) -∗ Kt r))
      ⊢ wp frame (wpE (defs₀ (F := F)) 𝒱₀ (c : Thread nD τ) none) Set.univ
          (k0_part54 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part54_eq_skeleton]; unfold k0_part54_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5⟩, Hk⟩
  ihave #HI1 := (rec_inv m K c (sndJ 3 2)) $$ HR
  iapply (wp_wait_snd0 m K c 3 2 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 3 2 (by decide))) $$ Hp1
  ihave #HI2 := (rec_inv m K c (sndJ 9 1)) $$ HR
  iapply (wp_wait_snd0 m K c 9 1 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 9 1 (by decide))) $$ Hp2
  ihave #HI3 := (rec_inv m K c (sndJ 8 1)) $$ HR
  iapply (wp_wait_snd0 m K c 8 1 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 8 1 (by decide))) $$ Hp3
  ihave #HI4 := (rec_inv m K c (sndJ 4 2)) $$ HR
  iapply (wp_wait_snd0 m K c 4 2 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 4 2 (by decide))) $$ Hp4
  ihave #HI5 := (rec_inv m K c (sndJ 6 2)) $$ HR
  iapply (wp_wait_snd0 m K c 6 2 (by rfl) (by rfl) _) $$ [HO Hc5 Ha5]
  · isplitr; · iexact HI5
    isplitl [Hc5]; · iexact Hc5
    isplitl [HO]; · iexact HO
    iexact Ha5
  iintro ⟨HO, Hv5, Hp5⟩
  ihave Hp5 := (Entails.of_eq (sendPay_later m c 6 2 (by decide))) $$ Hp5
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  iexact Hp5

/-- Part 55 of the body. -/
theorem part55_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (sndJ 5 2)) () (credS 256))
        ∗ atPos ER (cell c (sndJ 5 2)) 0 ∅ 0
        ∗ cred (tallyAt (cell c (sndJ 7 2)) () (credS 256))
        ∗ atPos ER (cell c (sndJ 7 2)) 0 ∅ 0
        ∗ cred (tallyAt (cell c (sndJ 9 2)) () (credS 168))
        ∗ atPos ER (cell c (sndJ 9 2)) 0 ∅ 0
        ∗ cred (tallyAt (cell c (sndJ 8 2)) () (credS 168))
        ∗ atPos ER (cell c (sndJ 8 2)) 0 ∅ 0
        ∗ cred (tallyAt (cell c (cpJ 0)) () (credO 256))
        ∗ atPos ER (cell c (cpJ 0)) 0 ∅ 0
        ∗ cred (tallyAt (cell c (cpJ 1)) () (credO 256))
        ∗ atPos ER (cell c (cpJ 1)) 0 ∅ 0)
      ∗ (∀ r, (owes (c : Thread nD τ) (Ol (payL.drop 34) c) (insert (csem (cpJ 1), ()) (insert (csem (cpJ 0), ()) (insert (csem (sndJ 8 2), ()) (insert (csem (sndJ 9 2), ()) (insert (csem (sndJ 7 2), ()) (insert (csem (sndJ 5 2), ()) W))))))
          ∗ semVal (cell c (sndJ 5 2)) 0
          ∗ sPts c (lo 2 2 c) 256 fullShare.right.right.left (Gd m (org 2 2 c))
          ∗ semVal (cell c (sndJ 7 2)) 0
          ∗ sPts c (lo 2 2 c) 256 fullShare.right.right.right (Gd m (org 2 2 c))
          ∗ semVal (cell c (sndJ 9 2)) 0
          ∗ sPts c (lo 6 2 c + 88) 168 fullShare.right (Gd m (org 6 2 c))
          ∗ semVal (cell c (sndJ 8 2)) 0
          ∗ sPts c (lo 5 2 c + 88) 168 fullShare.right (Gd m (org 5 2 c))
          ∗ semVal (cell c (cpJ 0)) 0
          ∗ oPts c (lo 0 0 c) 256 fullShare (Gd m (org 0 0 c))
          ∗ sPts c (lo 0 0 c) 256 fullShare.left (Gd m (org 0 0 c))
          ∗ semVal (cell c (cpJ 1)) 0
          ∗ oPts c (lo 2 0 c) 256 fullShare (Gd m (org 2 0 c))
          ∗ sPts c (lo 2 0 c) 256 fullShare.left (Gd m (org 2 0 c))) -∗ Kt r))
      ⊢ wp frame (wpE (defs₀ (F := F)) 𝒱₀ (c : Thread nD τ) none) Set.univ
          (k0_part55 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part55_eq_skeleton]; unfold k0_part55_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6⟩, Hk⟩
  ihave #HI1 := (rec_inv m K c (sndJ 5 2)) $$ HR
  iapply (wp_wait_snd0 m K c 5 2 (by rfl) (by rfl) _) $$ [HO Hc1 Ha1]
  · isplitr; · iexact HI1
    isplitl [Hc1]; · iexact Hc1
    isplitl [HO]; · iexact HO
    iexact Ha1
  iintro ⟨HO, Hv1, Hp1⟩
  ihave Hp1 := (Entails.of_eq (sendPay_later m c 5 2 (by decide))) $$ Hp1
  ihave #HI2 := (rec_inv m K c (sndJ 7 2)) $$ HR
  iapply (wp_wait_snd0 m K c 7 2 (by rfl) (by rfl) _) $$ [HO Hc2 Ha2]
  · isplitr; · iexact HI2
    isplitl [Hc2]; · iexact Hc2
    isplitl [HO]; · iexact HO
    iexact Ha2
  iintro ⟨HO, Hv2, Hp2⟩
  ihave Hp2 := (Entails.of_eq (sendPay_later m c 7 2 (by decide))) $$ Hp2
  ihave #HI3 := (rec_inv m K c (sndJ 9 2)) $$ HR
  iapply (wp_wait_snd0 m K c 9 2 (by rfl) (by rfl) _) $$ [HO Hc3 Ha3]
  · isplitr; · iexact HI3
    isplitl [Hc3]; · iexact Hc3
    isplitl [HO]; · iexact HO
    iexact Ha3
  iintro ⟨HO, Hv3, Hp3⟩
  ihave Hp3 := (Entails.of_eq (sendPay_later m c 9 2 (by decide))) $$ Hp3
  ihave #HI4 := (rec_inv m K c (sndJ 8 2)) $$ HR
  iapply (wp_wait_snd0 m K c 8 2 (by rfl) (by rfl) _) $$ [HO Hc4 Ha4]
  · isplitr; · iexact HI4
    isplitl [Hc4]; · iexact Hc4
    isplitl [HO]; · iexact HO
    iexact Ha4
  iintro ⟨HO, Hv4, Hp4⟩
  ihave Hp4 := (Entails.of_eq (sendPay_later m c 8 2 (by decide))) $$ Hp4
  ihave #HI5 := (rec_inv m K c (cpJ 0)) $$ HR
  iapply (wp_wait_cp m K c 0 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 0 (by decide))) $$ Hq5
  icases Hq5 with ⟨Ho5, Hs5⟩
  ihave #HI6 := (rec_inv m K c (cpJ 1)) $$ HR
  iapply (wp_wait_cp m K c 1 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 1 (by decide))) $$ Hq6
  icases Hq6 with ⟨Ho6, Hs6⟩
  rw [wp_ret]; imodintro; iapply Hk
  isplitl [HO]; · iexact HO
  isplitl [Hv1]; · iexact Hv1
  isplitl [Hp1]; · iexact Hp1
  isplitl [Hv2]; · iexact Hv2
  isplitl [Hp2]; · iexact Hp2
  isplitl [Hv3]; · iexact Hv3
  isplitl [Hp3]; · iexact Hp3
  isplitl [Hv4]; · iexact Hv4
  isplitl [Hp4]; · iexact Hp4
  isplitl [Hv5]; · iexact Hv5
  isplitl [Ho5]; · iexact Ho5
  isplitl [Hs5]; · iexact Hs5
  isplitl [Hv6]; · iexact Hv6
  isplitl [Ho6]; · iexact Ho6
  iexact Hs6

/-- Part 56 of the body. -/
theorem part56_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (cpJ 2)) () (credO 88))
        ∗ atPos ER (cell c (cpJ 2)) 0 ∅ 0
        ∗ cred (tallyAt (cell c (cpJ 3)) () (credO 88))
        ∗ atPos ER (cell c (cpJ 3)) 0 ∅ 0
        ∗ cred (tallyAt (cell c (cpJ 4)) () (credO 256))
        ∗ atPos ER (cell c (cpJ 4)) 0 ∅ 0
        ∗ cred (tallyAt (cell c (cpJ 5)) () (credO 256))
        ∗ atPos ER (cell c (cpJ 5)) 0 ∅ 0
        ∗ cred (tallyAt (cell c (cpJ 6)) () (credO 256))
        ∗ atPos ER (cell c (cpJ 6)) 0 ∅ 0
        ∗ cred (tallyAt (cell c (cpJ 7)) () (credO 256))
        ∗ atPos ER (cell c (cpJ 7)) 0 ∅ 0
        ∗ cred (tallyAt (cell c (cpJ 8)) () (credO 256))
        ∗ atPos ER (cell c (cpJ 8)) 0 ∅ 0)
      ∗ (∀ r, (owes (c : Thread nD τ) (Ol (payL.drop 34) c) (insert (csem (cpJ 8), ()) (insert (csem (cpJ 7), ()) (insert (csem (cpJ 6), ()) (insert (csem (cpJ 5), ()) (insert (csem (cpJ 4), ()) (insert (csem (cpJ 3), ()) (insert (csem (cpJ 2), ()) W)))))))
          ∗ semVal (cell c (cpJ 2)) 0
          ∗ oPts c (lo 1 0 c) 88 fullShare (Gd m (org 1 0 c))
          ∗ sPts c (lo 1 0 c) 88 fullShare.left (Gd m (org 1 0 c))
          ∗ semVal (cell c (cpJ 3)) 0
          ∗ oPts c (lo 3 0 c) 88 fullShare (Gd m (org 3 0 c))
          ∗ sPts c (lo 3 0 c) 88 fullShare.left (Gd m (org 3 0 c))
          ∗ semVal (cell c (cpJ 4)) 0
          ∗ oPts c (lo 6 0 c) 256 fullShare (Gd m (org 6 0 c))
          ∗ sPts c (lo 6 0 c) 256 fullShare.left (Gd m (org 6 0 c))
          ∗ semVal (cell c (cpJ 5)) 0
          ∗ oPts c (lo 5 0 c) 256 fullShare (Gd m (org 5 0 c))
          ∗ sPts c (lo 5 0 c) 256 fullShare.left (Gd m (org 5 0 c))
          ∗ semVal (cell c (cpJ 6)) 0
          ∗ oPts c (lo 4 0 c) 256 fullShare (Gd m (org 4 0 c))
          ∗ sPts c (lo 4 0 c) 256 fullShare (Gd m (org 4 0 c))
          ∗ semVal (cell c (cpJ 7)) 0
          ∗ oPts c (lo 7 0 c) 256 fullShare (Gd m (org 7 0 c))
          ∗ sPts c (lo 7 0 c) 256 fullShare (Gd m (org 7 0 c))
          ∗ semVal (cell c (cpJ 8)) 0
          ∗ oPts c (lo 0 1 c) 256 fullShare (Gd m (org 0 1 c))
          ∗ sPts c (lo 0 1 c) 256 fullShare.left (Gd m (org 0 1 c))) -∗ Kt r))
      ⊢ wp frame (wpE (defs₀ (F := F)) 𝒱₀ (c : Thread nD τ) none) Set.univ
          (k0_part56 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part56_eq_skeleton]; unfold k0_part56_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6, Hc7, Ha7⟩, Hk⟩
  ihave #HI1 := (rec_inv m K c (cpJ 2)) $$ HR
  iapply (wp_wait_cp m K c 2 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_lit m c 2 (by decide))) $$ Hq1
  icases Hq1 with ⟨Ho1, Hs1⟩
  ihave #HI2 := (rec_inv m K c (cpJ 3)) $$ HR
  iapply (wp_wait_cp m K c 3 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_lit m c 3 (by decide))) $$ Hq2
  icases Hq2 with ⟨Ho2, Hs2⟩
  ihave #HI3 := (rec_inv m K c (cpJ 4)) $$ HR
  iapply (wp_wait_cp m K c 4 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_lit m c 4 (by decide))) $$ Hq3
  icases Hq3 with ⟨Ho3, Hs3⟩
  ihave #HI4 := (rec_inv m K c (cpJ 5)) $$ HR
  iapply (wp_wait_cp m K c 5 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_lit m c 5 (by decide))) $$ Hq4
  icases Hq4 with ⟨Ho4, Hs4⟩
  ihave #HI5 := (rec_inv m K c (cpJ 6)) $$ HR
  iapply (wp_wait_cp m K c 6 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 6 (by decide))) $$ Hq5
  icases Hq5 with ⟨Ho5, Hs5⟩
  ihave #HI6 := (rec_inv m K c (cpJ 7)) $$ HR
  iapply (wp_wait_cp m K c 7 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 7 (by decide))) $$ Hq6
  icases Hq6 with ⟨Ho6, Hs6⟩
  ihave #HI7 := (rec_inv m K c (cpJ 8)) $$ HR
  iapply (wp_wait_cp m K c 8 (by decide) (by rfl) (by rfl) _) $$ [HO Hc7 Ha7]
  · isplitr; · iexact HI7
    isplitl [Hc7]; · iexact Hc7
    isplitl [HO]; · iexact HO
    iexact Ha7
  iintro ⟨HO, Hv7, Hq7⟩
  ihave Hq7 := (Entails.of_eq (cpPay_lit m c 8 (by decide))) $$ Hq7
  icases Hq7 with ⟨Ho7, Hs7⟩
  rw [wp_ret]; imodintro; iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  iexact Hs7

/-- Part 57 of the body. -/
theorem part57_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (cpJ 9)) () (credO 256))
        ∗ atPos ER (cell c (cpJ 9)) 0 ∅ 0
        ∗ cred (tallyAt (cell c (cpJ 10)) () (credO 88))
        ∗ atPos ER (cell c (cpJ 10)) 0 ∅ 0
        ∗ cred (tallyAt (cell c (cpJ 11)) () (credO 88))
        ∗ atPos ER (cell c (cpJ 11)) 0 ∅ 0
        ∗ cred (tallyAt (cell c (cpJ 12)) () (credO 256))
        ∗ atPos ER (cell c (cpJ 12)) 0 ∅ 0
        ∗ cred (tallyAt (cell c (cpJ 13)) () (credO 256))
        ∗ atPos ER (cell c (cpJ 13)) 0 ∅ 0
        ∗ cred (tallyAt (cell c (cpJ 14)) () (credO 256))
        ∗ atPos ER (cell c (cpJ 14)) 0 ∅ 0
        ∗ cred (tallyAt (cell c (cpJ 15)) () (credO 256))
        ∗ atPos ER (cell c (cpJ 15)) 0 ∅ 0
        ∗ cred (tallyAt (cell c (cpJ 16)) () (credO 256))
        ∗ atPos ER (cell c (cpJ 16)) 0 ∅ 0)
      ∗ (∀ r, (owes (c : Thread nD τ) (Ol (payL.drop 34) c) (insert (csem (cpJ 16), ()) (insert (csem (cpJ 15), ()) (insert (csem (cpJ 14), ()) (insert (csem (cpJ 13), ()) (insert (csem (cpJ 12), ()) (insert (csem (cpJ 11), ()) (insert (csem (cpJ 10), ()) (insert (csem (cpJ 9), ()) W))))))))
          ∗ semVal (cell c (cpJ 9)) 0
          ∗ oPts c (lo 2 1 c) 256 fullShare (Gd m (org 2 1 c))
          ∗ sPts c (lo 2 1 c) 256 fullShare.left (Gd m (org 2 1 c))
          ∗ semVal (cell c (cpJ 10)) 0
          ∗ oPts c (lo 1 1 c) 88 fullShare (Gd m (org 1 1 c))
          ∗ sPts c (lo 1 1 c) 88 fullShare.left (Gd m (org 1 1 c))
          ∗ semVal (cell c (cpJ 11)) 0
          ∗ oPts c (lo 3 1 c) 88 fullShare (Gd m (org 3 1 c))
          ∗ sPts c (lo 3 1 c) 88 fullShare.left (Gd m (org 3 1 c))
          ∗ semVal (cell c (cpJ 12)) 0
          ∗ oPts c (lo 6 1 c) 256 fullShare (Gd m (org 6 1 c))
          ∗ sPts c (lo 6 1 c) 256 fullShare.left (Gd m (org 6 1 c))
          ∗ semVal (cell c (cpJ 13)) 0
          ∗ oPts c (lo 5 1 c) 256 fullShare (Gd m (org 5 1 c))
          ∗ sPts c (lo 5 1 c) 256 fullShare.left (Gd m (org 5 1 c))
          ∗ semVal (cell c (cpJ 14)) 0
          ∗ oPts c (lo 4 1 c) 256 fullShare (Gd m (org 4 1 c))
          ∗ sPts c (lo 4 1 c) 256 fullShare (Gd m (org 4 1 c))
          ∗ semVal (cell c (cpJ 15)) 0
          ∗ oPts c (lo 7 1 c) 256 fullShare (Gd m (org 7 1 c))
          ∗ sPts c (lo 7 1 c) 256 fullShare (Gd m (org 7 1 c))
          ∗ semVal (cell c (cpJ 16)) 0
          ∗ oPts c (lo 0 2 c) 256 fullShare (Gd m (org 0 2 c))
          ∗ sPts c (lo 0 2 c) 256 fullShare.left (Gd m (org 0 2 c))) -∗ Kt r))
      ⊢ wp frame (wpE (defs₀ (F := F)) 𝒱₀ (c : Thread nD τ) none) Set.univ
          (k0_part57 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part57_eq_skeleton]; unfold k0_part57_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6, Hc7, Ha7, Hc8, Ha8⟩, Hk⟩
  ihave #HI1 := (rec_inv m K c (cpJ 9)) $$ HR
  iapply (wp_wait_cp m K c 9 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_lit m c 9 (by decide))) $$ Hq1
  icases Hq1 with ⟨Ho1, Hs1⟩
  ihave #HI2 := (rec_inv m K c (cpJ 10)) $$ HR
  iapply (wp_wait_cp m K c 10 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_lit m c 10 (by decide))) $$ Hq2
  icases Hq2 with ⟨Ho2, Hs2⟩
  ihave #HI3 := (rec_inv m K c (cpJ 11)) $$ HR
  iapply (wp_wait_cp m K c 11 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_lit m c 11 (by decide))) $$ Hq3
  icases Hq3 with ⟨Ho3, Hs3⟩
  ihave #HI4 := (rec_inv m K c (cpJ 12)) $$ HR
  iapply (wp_wait_cp m K c 12 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_lit m c 12 (by decide))) $$ Hq4
  icases Hq4 with ⟨Ho4, Hs4⟩
  ihave #HI5 := (rec_inv m K c (cpJ 13)) $$ HR
  iapply (wp_wait_cp m K c 13 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 13 (by decide))) $$ Hq5
  icases Hq5 with ⟨Ho5, Hs5⟩
  ihave #HI6 := (rec_inv m K c (cpJ 14)) $$ HR
  iapply (wp_wait_cp m K c 14 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 14 (by decide))) $$ Hq6
  icases Hq6 with ⟨Ho6, Hs6⟩
  ihave #HI7 := (rec_inv m K c (cpJ 15)) $$ HR
  iapply (wp_wait_cp m K c 15 (by decide) (by rfl) (by rfl) _) $$ [HO Hc7 Ha7]
  · isplitr; · iexact HI7
    isplitl [Hc7]; · iexact Hc7
    isplitl [HO]; · iexact HO
    iexact Ha7
  iintro ⟨HO, Hv7, Hq7⟩
  ihave Hq7 := (Entails.of_eq (cpPay_lit m c 15 (by decide))) $$ Hq7
  icases Hq7 with ⟨Ho7, Hs7⟩
  ihave #HI8 := (rec_inv m K c (cpJ 16)) $$ HR
  iapply (wp_wait_cp m K c 16 (by decide) (by rfl) (by rfl) _) $$ [HO Hc8 Ha8]
  · isplitr; · iexact HI8
    isplitl [Hc8]; · iexact Hc8
    isplitl [HO]; · iexact HO
    iexact Ha8
  iintro ⟨HO, Hv8, Hq8⟩
  ihave Hq8 := (Entails.of_eq (cpPay_lit m c 16 (by decide))) $$ Hq8
  icases Hq8 with ⟨Ho8, Hs8⟩
  rw [wp_ret]; imodintro; iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  isplitl [Hs7]; · iexact Hs7
  isplitl [Hv8]; · iexact Hv8
  isplitl [Ho8]; · iexact Ho8
  iexact Hs8

/-- Part 58 of the body. -/
theorem part58_spec (K : Dev nD × Fin 93 → ℕ) (c : Dev nD) (W : Waits sig Unit) (Kt : (PUnit) → sProp 𝕄) :
    iprop((records m K
        ∗ owes (c : Thread nD τ) (Ol (payL.drop 34) c) W
        ∗ cred (tallyAt (cell c (cpJ 17)) () (credO 256))
        ∗ atPos ER (cell c (cpJ 17)) 0 ∅ 0
        ∗ cred (tallyAt (cell c (cpJ 18)) () (credO 88))
        ∗ atPos ER (cell c (cpJ 18)) 0 ∅ 0
        ∗ cred (tallyAt (cell c (cpJ 19)) () (credO 88))
        ∗ atPos ER (cell c (cpJ 19)) 0 ∅ 0
        ∗ cred (tallyAt (cell c (cpJ 20)) () (credO 256))
        ∗ atPos ER (cell c (cpJ 20)) 0 ∅ 0
        ∗ cred (tallyAt (cell c (cpJ 21)) () (credO 256))
        ∗ atPos ER (cell c (cpJ 21)) 0 ∅ 0
        ∗ cred (tallyAt (cell c (cpJ 22)) () (credO 256))
        ∗ atPos ER (cell c (cpJ 22)) 0 ∅ 0
        ∗ cred (tallyAt (cell c (cpJ 23)) () (credO 256))
        ∗ atPos ER (cell c (cpJ 23)) 0 ∅ 0)
      ∗ (∀ r, (owes (c : Thread nD τ) (Ol (payL.drop 34) c) (insert (csem (cpJ 23), ()) (insert (csem (cpJ 22), ()) (insert (csem (cpJ 21), ()) (insert (csem (cpJ 20), ()) (insert (csem (cpJ 19), ()) (insert (csem (cpJ 18), ()) (insert (csem (cpJ 17), ()) W)))))))
          ∗ semVal (cell c (cpJ 17)) 0
          ∗ oPts c (lo 2 2 c) 256 fullShare (Gd m (org 2 2 c))
          ∗ sPts c (lo 2 2 c) 256 fullShare.left (Gd m (org 2 2 c))
          ∗ semVal (cell c (cpJ 18)) 0
          ∗ oPts c (lo 1 2 c) 88 fullShare (Gd m (org 1 2 c))
          ∗ sPts c (lo 1 2 c) 88 fullShare.left (Gd m (org 1 2 c))
          ∗ semVal (cell c (cpJ 19)) 0
          ∗ oPts c (lo 3 2 c) 88 fullShare (Gd m (org 3 2 c))
          ∗ sPts c (lo 3 2 c) 88 fullShare.left (Gd m (org 3 2 c))
          ∗ semVal (cell c (cpJ 20)) 0
          ∗ oPts c (lo 6 2 c) 256 fullShare (Gd m (org 6 2 c))
          ∗ sPts c (lo 6 2 c) 256 fullShare.left (Gd m (org 6 2 c))
          ∗ semVal (cell c (cpJ 21)) 0
          ∗ oPts c (lo 5 2 c) 256 fullShare (Gd m (org 5 2 c))
          ∗ sPts c (lo 5 2 c) 256 fullShare.left (Gd m (org 5 2 c))
          ∗ semVal (cell c (cpJ 22)) 0
          ∗ oPts c (lo 4 2 c) 256 fullShare (Gd m (org 4 2 c))
          ∗ sPts c (lo 4 2 c) 256 fullShare (Gd m (org 4 2 c))
          ∗ semVal (cell c (cpJ 23)) 0
          ∗ oPts c (lo 7 2 c) 256 fullShare (Gd m (org 7 2 c))
          ∗ sPts c (lo 7 2 c) 256 fullShare (Gd m (org 7 2 c))) -∗ Kt r))
      ⊢ wp frame (wpE (defs₀ (F := F)) 𝒱₀ (c : Thread nD τ) none) Set.univ
          (k0_part58 (Memref.whole cc0_stg0_0) (Memref.isWhole_whole _) (Memref.whole main_v1) (Memref.isWhole_whole _) (Memref.whole cc0_scratch0) (Memref.isWhole_whole _) cc0_scratch1 cc0_scratch2 cc0_scratch3 c) Kt := by
  rw [k0_part58_eq_skeleton]; unfold k0_part58_skel
  simp only [Prog.lift, Prog.bind_op, Prog.bind_ret, Prog.pure_eq_ret, semSignalWord, semWaitWord]
  rw [show Ol (payL.drop 34) c = 0 from rfl]
  iintro ⟨⟨#HR, HO, Hc1, Ha1, Hc2, Ha2, Hc3, Ha3, Hc4, Ha4, Hc5, Ha5, Hc6, Ha6, Hc7, Ha7⟩, Hk⟩
  ihave #HI1 := (rec_inv m K c (cpJ 17)) $$ HR
  iapply (wp_wait_cp m K c 17 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_lit m c 17 (by decide))) $$ Hq1
  icases Hq1 with ⟨Ho1, Hs1⟩
  ihave #HI2 := (rec_inv m K c (cpJ 18)) $$ HR
  iapply (wp_wait_cp m K c 18 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_lit m c 18 (by decide))) $$ Hq2
  icases Hq2 with ⟨Ho2, Hs2⟩
  ihave #HI3 := (rec_inv m K c (cpJ 19)) $$ HR
  iapply (wp_wait_cp m K c 19 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_lit m c 19 (by decide))) $$ Hq3
  icases Hq3 with ⟨Ho3, Hs3⟩
  ihave #HI4 := (rec_inv m K c (cpJ 20)) $$ HR
  iapply (wp_wait_cp m K c 20 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_lit m c 20 (by decide))) $$ Hq4
  icases Hq4 with ⟨Ho4, Hs4⟩
  ihave #HI5 := (rec_inv m K c (cpJ 21)) $$ HR
  iapply (wp_wait_cp m K c 21 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_lit m c 21 (by decide))) $$ Hq5
  icases Hq5 with ⟨Ho5, Hs5⟩
  ihave #HI6 := (rec_inv m K c (cpJ 22)) $$ HR
  iapply (wp_wait_cp m K c 22 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_lit m c 22 (by decide))) $$ Hq6
  icases Hq6 with ⟨Ho6, Hs6⟩
  ihave #HI7 := (rec_inv m K c (cpJ 23)) $$ HR
  iapply (wp_wait_cp m K c 23 (by decide) (by rfl) (by rfl) _) $$ [HO Hc7 Ha7]
  · isplitr; · iexact HI7
    isplitl [Hc7]; · iexact Hc7
    isplitl [HO]; · iexact HO
    iexact Ha7
  iintro ⟨HO, Hv7, Hq7⟩
  ihave Hq7 := (Entails.of_eq (cpPay_lit m c 23 (by decide))) $$ Hq7
  icases Hq7 with ⟨Ho7, Hs7⟩
  rw [wp_ret]; imodintro; iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  iexact Hs7

end Cert.Kernel.AG

end
-- ==== Proof.Bits.Tail.lean ====
/-
  The end of the body: the last seven copies into the result are waited for.
-/
import proofs.«900685_g7700000000000686_dist_ag_v7x_xyz2x2x4_z_m2048_n512_f32_1_alg».proof.Proof.Bits.WaitSteps
import proofs.«900685_g7700000000000686_dist_ag_v7x_xyz2x2x4_z_m2048_n512_f32_1_alg».proof.Proof.Bits.Dist
import proofs.«900685_g7700000000000686_dist_ag_v7x_xyz2x2x4_z_m2048_n512_f32_1_alg».proof.Proof.Bits.Rec

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ

/-- The body's statements after its last printed part, over the device the first part read. -/
noncomputable def bodyTail (arg0 : Memref sig .tc .vmem S2048x512 .f32) (harg0 : arg0.IsWhole) (arg1 : Memref sig .tc .hbm S8192x512 .f32) (harg1 : arg1.IsWhole) (arg2 : Memref sig .tc .vmem S8192x512 .f32) (harg2 : arg2.IsWhole) (arg3 : DmaSems sig S10x3) (arg4 : DmaSems sig S10x3) (arg5 : DmaSems sig S32) (d0 : Dev nD) :
    Prog (TpuEff nD τ sig (Elt F) Λ₀ .tc) PUnit := do
  let v1790 : Memref sig .tc .vmem S168x512 .f32 := arg2.slice (Rect.unit (s := S8192x512) (k0_off16 d0 0#32) S168x512.size (k0_off16_inb d0 0)) (fun _ => rfl)
  let v1787 : DmaSems sig S1 := arg5.slice (Rect.unit (s := S32) ![24] S1.size inb_S32_S1_24)
  let v1788 : DmaSems sig S_ := v1787.squeeze S_ squeezes_S1_S_
  let v1789 : Memref sig .tc .hbm S168x512 .f32 := arg1.slice (Rect.unit (s := S8192x512) (k0_off16 d0 0#32) S168x512.size (k0_off16_inb d0 0)) (fun _ => rfl)
  Prog.lift (.waitDma2 v1788.sem v1790 v1789 (View.wordExact_bits rfl) (View.wordExact_bits rfl))
  let v1791 : DmaSems sig S1 := arg5.slice (Rect.unit (s := S32) ![25] S1.size inb_S32_S1_25)
  let v1792 : DmaSems sig S_ := v1791.squeeze S_ squeezes_S1_S_
  let v1793 : Memref sig .tc .hbm S168x512 .f32 := arg1.slice (Rect.unit (s := S8192x512) (k0_off17 d0 0#32) S168x512.size (k0_off17_inb d0 0)) (fun _ => rfl)
  let v1794 : Memref sig .tc .vmem S168x512 .f32 := arg2.slice (Rect.unit (s := S8192x512) (k0_off17 d0 0#32) S168x512.size (k0_off17_inb d0 0)) (fun _ => rfl)
  Prog.lift (.waitDma2 v1792.sem v1794 v1793 (View.wordExact_bits rfl) (View.wordExact_bits rfl))
  let v1795 : DmaSems sig S1 := arg5.slice (Rect.unit (s := S32) ![26] S1.size inb_S32_S1_26)
  let v1796 : DmaSems sig S_ := v1795.squeeze S_ squeezes_S1_S_
  let v1797 : Memref sig .tc .hbm S168x512 .f32 := arg1.slice (Rect.unit (s := S8192x512) (k0_off16 d0 1#32) S168x512.size (k0_off16_inb d0 1)) (fun _ => rfl)
  let v1798 : Memref sig .tc .vmem S168x512 .f32 := arg2.slice (Rect.unit (s := S8192x512) (k0_off16 d0 1#32) S168x512.size (k0_off16_inb d0 1)) (fun _ => rfl)
  Prog.lift (.waitDma2 v1796.sem v1798 v1797 (View.wordExact_bits rfl) (View.wordExact_bits rfl))
  let v1799 : DmaSems sig S1 := arg5.slice (Rect.unit (s := S32) ![27] S1.size inb_S32_S1_27)
  let v1800 : DmaSems sig S_ := v1799.squeeze S_ squeezes_S1_S_
  let v1801 : Memref sig .tc .hbm S168x512 .f32 := arg1.slice (Rect.unit (s := S8192x512) (k0_off17 d0 1#32) S168x512.size (k0_off17_inb d0 1)) (fun _ => rfl)
  let v1802 : Memref sig .tc .vmem S168x512 .f32 := arg2.slice (Rect.unit (s := S8192x512) (k0_off17 d0 1#32) S168x512.size (k0_off17_inb d0 1)) (fun _ => rfl)
  Prog.lift (.waitDma2 v1800.sem v1802 v1801 (View.wordExact_bits rfl) (View.wordExact_bits rfl))
  let v1803 : DmaSems sig S1 := arg5.slice (Rect.unit (s := S32) ![28] S1.size inb_S32_S1_28)
  let v1804 : DmaSems sig S_ := v1803.squeeze S_ squeezes_S1_S_
  let v1805 : Memref sig .tc .hbm S168x512 .f32 := arg1.slice (Rect.unit (s := S8192x512) (k0_off16 d0 2#32) S168x512.size (k0_off16_inb d0 2)) (fun _ => rfl)
  let v1806 : Memref sig .tc .vmem S168x512 .f32 := arg2.slice (Rect.unit (s := S8192x512) (k0_off16 d0 2#32) S168x512.size (k0_off16_inb d0 2)) (fun _ => rfl)
  Prog.lift (.waitDma2 v1804.sem v1806 v1805 (View.wordExact_bits rfl) (View.wordExact_bits rfl))
  let v1807 : DmaSems sig S1 := arg5.slice (Rect.unit (s := S32) ![29] S1.size inb_S32_S1_29)
  let v1808 : DmaSems sig S_ := v1807.squeeze S_ squeezes_S1_S_
  let v1809 : Memref sig .tc .hbm S168x512 .f32 := arg1.slice (Rect.unit (s := S8192x512) (k0_off17 d0 2#32) S168x512.size (k0_off17_inb d0 2)) (fun _ => rfl)
  let v1810 : Memref sig .tc .vmem S168x512 .f32 := arg2.slice (Rect.unit (s := S8192x512) (k0_off17 d0 2#32) S168x512.size (k0_off17_inb d0 2)) (fun _ => rfl)
  Prog.lift (.waitDma2 v1808.sem v1810 v1809 (View.wordExact_bits rfl) (View.wordExact_bits rfl))
  let v1811 : DmaSems sig S1 := arg5.slice (Rect.unit (s := S32) ![31] S1.size inb_S32_S1_31)
  let v1812 : DmaSems sig S_ := v1811.squeeze S_ squeezes_S1_S_
  let v1813 : Memref sig .tc .hbm S2048x512 .f32 := arg1.slice (Rect.unit (s := S8192x512) (k0_off5 d0) S2048x512.size (k0_off5_inb d0)) (fun _ => rfl)
  Prog.lift (.waitDma2 v1812.sem arg0 v1813 harg0.wordExact (View.wordExact_bits rfl))
  pure ⟨⟩

/-- The body is its parts, then these statements. -/
theorem cc0_body_skel_eq (arg0 : Memref sig .tc .vmem S2048x512 .f32) (harg0 : arg0.IsWhole) (arg1 : Memref sig .tc .hbm S8192x512 .f32) (harg1 : arg1.IsWhole) (arg2 : Memref sig .tc .vmem S8192x512 .f32) (harg2 : arg2.IsWhole) (arg3 : DmaSems sig S10x3) (arg4 : DmaSems sig S10x3) (arg5 : DmaSems sig S32) :
    cc0_body_skel (F := F) arg0 harg0 arg1 harg1 arg2 harg2 arg3 arg4 arg5
      = (k0_part59 arg0 harg0 arg1 harg1 arg2 harg2 arg3 arg4 arg5 >>= fun d0 => bodyTail arg0 harg0 arg1 harg1 arg2 harg2 arg3 arg4 arg5 d0) := rfl

variable (m : (ℓ : Loc nD τ sig) → Buf (Elt F) ℓ)

/-- The last seven waits of the body. -/
theorem tail_spec (K : Dev nD × Fin 93 → ℕ) (c : Dev nD) (W : Waits sig Unit) (Kt : PUnit → sProp 𝕄) :
    iprop((records m K
        ∗ owes (c : Thread nD τ) (Ol (payL.drop 34) c) W
        ∗ cred (tallyAt (cell c (cpJ 24)) () (credO 168))
        ∗ atPos ER (cell c (cpJ 24)) 0 ∅ 0
        ∗ cred (tallyAt (cell c (cpJ 25)) () (credO 168))
        ∗ atPos ER (cell c (cpJ 25)) 0 ∅ 0
        ∗ cred (tallyAt (cell c (cpJ 26)) () (credO 168))
        ∗ atPos ER (cell c (cpJ 26)) 0 ∅ 0
        ∗ cred (tallyAt (cell c (cpJ 27)) () (credO 168))
        ∗ atPos ER (cell c (cpJ 27)) 0 ∅ 0
        ∗ cred (tallyAt (cell c (cpJ 28)) () (credO 168))
        ∗ atPos ER (cell c (cpJ 28)) 0 ∅ 0
        ∗ cred (tallyAt (cell c (cpJ 29)) () (credO 168))
        ∗ atPos ER (cell c (cpJ 29)) 0 ∅ 0
        ∗ cred (tallyAt (cell c (cpJ 31)) () (credO 2048))
        ∗ atPos ER (cell c (cpJ 31)) 0 ∅ 0)
      ∗ (∀ r, (owes (c : Thread nD τ) (Ol (payL.drop 34) c) (insert (csem (cpJ 31), ()) (insert (csem (cpJ 29), ()) (insert (csem (cpJ 28), ()) (insert (csem (cpJ 27), ()) (insert (csem (cpJ 26), ()) (insert (csem (cpJ 25), ()) (insert (csem (cpJ 24), ()) W)))))))
          ∗ semVal (cell c (cpJ 24)) 0
          ∗ oPts c (lo 9 0 c) 168 fullShare (Gd m (org 9 0 c))
          ∗ sPts c (lo 9 0 c) 168 fullShare (Gd m (org 9 0 c))
          ∗ semVal (cell c (cpJ 25)) 0
          ∗ oPts c (lo 8 0 c) 168 fullShare (Gd m (org 8 0 c))
          ∗ sPts c (lo 8 0 c) 168 fullShare (Gd m (org 8 0 c))
          ∗ semVal (cell c (cpJ 26)) 0
          ∗ oPts c (lo 9 1 c) 168 fullShare (Gd m (org 9 1 c))
          ∗ sPts c (lo 9 1 c) 168 fullShare (Gd m (org 9 1 c))
          ∗ semVal (cell c (cpJ 27)) 0
          ∗ oPts c (lo 8 1 c) 168 fullShare (Gd m (org 8 1 c))
          ∗ sPts c (lo 8 1 c) 168 fullShare (Gd m (org 8 1 c))
          ∗ semVal (cell c (cpJ 28)) 0
          ∗ oPts c (lo 9 2 c) 168 fullShare (Gd m (org 9 2 c))
          ∗ sPts c (lo 9 2 c) 168 fullShare (Gd m (org 9 2 c))
          ∗ semVal (cell c (cpJ 29)) 0
          ∗ oPts c (lo 8 2 c) 168 fullShare (Gd m (org 8 2 c))
          ∗ sPts c (lo 8 2 c) 168 fullShare (Gd m (org 8 2 c))
          ∗ semVal (cell c (cpJ 31)) 0
          ∗ oPts c (2048 * (c.val % 4)) 2048 fullShare (Gd m c)
          ∗ xPts m c 0 2048 fullShare.left) -∗ Kt r))
      ⊢ wp frame (wpE (defs₀ (F := F)) 𝒱₀ (c : Thread nD τ) none) Set.univ
          (bodyTail (Memref.whole cc0_stg0_0) (Memref.isWhole_whole _) (Memref.whole main_v1) (Memref.isWhole_whole _) (Memref.whole cc0_scratch0) (Memref.isWhole_whole _) cc0_scratch1 cc0_scratch2 cc0_scratch3 c) Kt := by
  unfold bodyTail
  simp only [Prog.lift, Prog.bind_op, Prog.bind_ret, Prog.pure_eq_ret]
  rw [show Ol (payL.drop 34) c = 0 from rfl]
  iintro ⟨⟨#HR, HO, Hc1, Ha1, Hc2, Ha2, Hc3, Ha3, Hc4, Ha4, Hc5, Ha5, Hc6, Ha6, Hc7, Ha7⟩, Hk⟩
  ihave #HI1 := (rec_inv m K c (cpJ 24)) $$ HR
  iapply (wp_wait_cp m K c 24 (by decide) (by rfl) (by rfl) _) $$ [HO Hc1 Ha1]
  · isplitr; · iexact HI1
    isplitl [Hc1]; · iexact Hc1
    isplitl [HO]; · iexact HO
    iexact Ha1
  iintro ⟨HO, Hv1, Hq1⟩
  ihave Hq1 := (Entails.of_eq (cpPay_land m c 24 (by decide))) $$ Hq1
  icases Hq1 with ⟨Ho1, Hs1⟩
  ihave #HI2 := (rec_inv m K c (cpJ 25)) $$ HR
  iapply (wp_wait_cp m K c 25 (by decide) (by rfl) (by rfl) _) $$ [HO Hc2 Ha2]
  · isplitr; · iexact HI2
    isplitl [Hc2]; · iexact Hc2
    isplitl [HO]; · iexact HO
    iexact Ha2
  iintro ⟨HO, Hv2, Hq2⟩
  ihave Hq2 := (Entails.of_eq (cpPay_land m c 25 (by decide))) $$ Hq2
  icases Hq2 with ⟨Ho2, Hs2⟩
  ihave #HI3 := (rec_inv m K c (cpJ 26)) $$ HR
  iapply (wp_wait_cp m K c 26 (by decide) (by rfl) (by rfl) _) $$ [HO Hc3 Ha3]
  · isplitr; · iexact HI3
    isplitl [Hc3]; · iexact Hc3
    isplitl [HO]; · iexact HO
    iexact Ha3
  iintro ⟨HO, Hv3, Hq3⟩
  ihave Hq3 := (Entails.of_eq (cpPay_land m c 26 (by decide))) $$ Hq3
  icases Hq3 with ⟨Ho3, Hs3⟩
  ihave #HI4 := (rec_inv m K c (cpJ 27)) $$ HR
  iapply (wp_wait_cp m K c 27 (by decide) (by rfl) (by rfl) _) $$ [HO Hc4 Ha4]
  · isplitr; · iexact HI4
    isplitl [Hc4]; · iexact Hc4
    isplitl [HO]; · iexact HO
    iexact Ha4
  iintro ⟨HO, Hv4, Hq4⟩
  ihave Hq4 := (Entails.of_eq (cpPay_land m c 27 (by decide))) $$ Hq4
  icases Hq4 with ⟨Ho4, Hs4⟩
  ihave #HI5 := (rec_inv m K c (cpJ 28)) $$ HR
  iapply (wp_wait_cp m K c 28 (by decide) (by rfl) (by rfl) _) $$ [HO Hc5 Ha5]
  · isplitr; · iexact HI5
    isplitl [Hc5]; · iexact Hc5
    isplitl [HO]; · iexact HO
    iexact Ha5
  iintro ⟨HO, Hv5, Hq5⟩
  ihave Hq5 := (Entails.of_eq (cpPay_land m c 28 (by decide))) $$ Hq5
  icases Hq5 with ⟨Ho5, Hs5⟩
  ihave #HI6 := (rec_inv m K c (cpJ 29)) $$ HR
  iapply (wp_wait_cp m K c 29 (by decide) (by rfl) (by rfl) _) $$ [HO Hc6 Ha6]
  · isplitr; · iexact HI6
    isplitl [Hc6]; · iexact Hc6
    isplitl [HO]; · iexact HO
    iexact Ha6
  iintro ⟨HO, Hv6, Hq6⟩
  ihave Hq6 := (Entails.of_eq (cpPay_land m c 29 (by decide))) $$ Hq6
  icases Hq6 with ⟨Ho6, Hs6⟩
  ihave #HI7 := (rec_inv m K c (cpJ 31)) $$ HR
  iapply (wp_wait_cp m K c 31 (by decide) (by rfl) (by rfl) (insert (csem (cpJ 29), ()) (insert (csem (cpJ 28), ()) (insert (csem (cpJ 27), ()) (insert (csem (cpJ 26), ()) (insert (csem (cpJ 25), ()) (insert (csem (cpJ 24), ()) W))))))) $$ [HO Hc7 Ha7]
  · isplitr; · iexact HI7
    isplitl [Hc7]; · iexact Hc7
    isplitl [HO]; · iexact HO
    iexact Ha7
  iintro H7
  ihave H7 := (Entails.of_eq (congrArg (fun P : sProp 𝕄 => iprop(owes (c : Thread nD τ) 0 (insert (csem (cpJ 31), ()) (insert (csem (cpJ 29), ()) (insert (csem (cpJ 28), ()) (insert (csem (cpJ 27), ()) (insert (csem (cpJ 26), ()) (insert (csem (cpJ 25), ()) (insert (csem (cpJ 24), ()) W))))))) ∗ semVal (cell c (cpJ 31)) 0 ∗ P)) (cpPay_own m c))) $$ H7
  icases H7 with ⟨HO, Hv7, Ho7, Hs7⟩
  rw [wp_ret]; imodintro
  iapply Hk
  isplitl [HO]; · iexact HO
  isplitl [Hv1]; · iexact Hv1
  isplitl [Ho1]; · iexact Ho1
  isplitl [Hs1]; · iexact Hs1
  isplitl [Hv2]; · iexact Hv2
  isplitl [Ho2]; · iexact Ho2
  isplitl [Hs2]; · iexact Hs2
  isplitl [Hv3]; · iexact Hv3
  isplitl [Ho3]; · iexact Ho3
  isplitl [Hs3]; · iexact Hs3
  isplitl [Hv4]; · iexact Hv4
  isplitl [Ho4]; · iexact Ho4
  isplitl [Hs4]; · iexact Hs4
  isplitl [Hv5]; · iexact Hv5
  isplitl [Ho5]; · iexact Ho5
  isplitl [Hs5]; · iexact Hs5
  isplitl [Hv6]; · iexact Hv6
  isplitl [Ho6]; · iexact Ho6
  isplitl [Hs6]; · iexact Hs6
  isplitl [Hv7]; · iexact Hv7
  isplitl [Ho7]; · iexact Ho7
  iexact Hs7

end Cert.Kernel.AG

end
-- ==== Proof.Bits.Rest.lean ====
/-
  The body's parts in sequence, named from each part on, so that the body can be run one part at a time.
-/
import proofs.«900685_g7700000000000686_dist_ag_v7x_xyz2x2x4_z_m2048_n512_f32_1_alg».proof.Proof.Bits.Tail

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The body from its part 58 on. -/
noncomputable def rest58 (d0 : Dev nD) : Prog (TpuEff nD τ sig (Elt F) Λ₀ .tc) (Dev nD) := do
  k0_part58 (Memref.whole cc0_stg0_0) (Memref.isWhole_whole _) (Memref.whole main_v1) (Memref.isWhole_whole _) (Memref.whole cc0_scratch0) (Memref.isWhole_whole _) cc0_scratch1 cc0_scratch2 cc0_scratch3 d0
  pure d0

/-- The body from its part 57 on. -/
noncomputable def rest57 (d0 : Dev nD) : Prog (TpuEff nD τ sig (Elt F) Λ₀ .tc) (Dev nD) := do
  k0_part57 (Memref.whole cc0_stg0_0) (Memref.isWhole_whole _) (Memref.whole main_v1) (Memref.isWhole_whole _) (Memref.whole cc0_scratch0) (Memref.isWhole_whole _) cc0_scratch1 cc0_scratch2 cc0_scratch3 d0
  rest58 d0

/-- The body from its part 56 on. -/
noncomputable def rest56 (d0 : Dev nD) : Prog (TpuEff nD τ sig (Elt F) Λ₀ .tc) (Dev nD) := do
  k0_part56 (Memref.whole cc0_stg0_0) (Memref.isWhole_whole _) (Memref.whole main_v1) (Memref.isWhole_whole _) (Memref.whole cc0_scratch0) (Memref.isWhole_whole _) cc0_scratch1 cc0_scratch2 cc0_scratch3 d0
  rest57 d0

/-- The body from its part 55 on. -/
noncomputable def rest55 (d0 : Dev nD) : Prog (TpuEff nD τ sig (Elt F) Λ₀ .tc) (Dev nD) := do
  k0_part55 (Memref.whole cc0_stg0_0) (Memref.isWhole_whole _) (Memref.whole main_v1) (Memref.isWhole_whole _) (Memref.whole cc0_scratch0) (Memref.isWhole_whole _) cc0_scratch1 cc0_scratch2 cc0_scratch3 d0
  rest56 d0

/-- The body from its part 54 on. -/
noncomputable def rest54 (d0 : Dev nD) : Prog (TpuEff nD τ sig (Elt F) Λ₀ .tc) (Dev nD) := do
  k0_part54 (Memref.whole cc0_stg0_0) (Memref.isWhole_whole _) (Memref.whole main_v1) (Memref.isWhole_whole _) (Memref.whole cc0_scratch0) (Memref.isWhole_whole _) cc0_scratch1 cc0_scratch2 cc0_scratch3 d0
  rest55 d0

/-- The body from its part 53 on. -/
noncomputable def rest53 (d0 : Dev nD) : Prog (TpuEff nD τ sig (Elt F) Λ₀ .tc) (Dev nD) := do
  k0_part53 (Memref.whole cc0_stg0_0) (Memref.isWhole_whole _) (Memref.whole main_v1) (Memref.isWhole_whole _) (Memref.whole cc0_scratch0) (Memref.isWhole_whole _) cc0_scratch1 cc0_scratch2 cc0_scratch3 d0
  rest54 d0

/-- The body from its part 52 on. -/
noncomputable def rest52 (d0 : Dev nD) : Prog (TpuEff nD τ sig (Elt F) Λ₀ .tc) (Dev nD) := do
  k0_part52 (Memref.whole cc0_stg0_0) (Memref.isWhole_whole _) (Memref.whole main_v1) (Memref.isWhole_whole _) (Memref.whole cc0_scratch0) (Memref.isWhole_whole _) cc0_scratch1 cc0_scratch2 cc0_scratch3 d0
  rest53 d0

/-- The body from its part 51 on. -/
noncomputable def rest51 (d0 : Dev nD) : Prog (TpuEff nD τ sig (Elt F) Λ₀ .tc) (Dev nD) := do
  k0_part51 (Memref.whole cc0_stg0_0) (Memref.isWhole_whole _) (Memref.whole main_v1) (Memref.isWhole_whole _) (Memref.whole cc0_scratch0) (Memref.isWhole_whole _) cc0_scratch1 cc0_scratch2 cc0_scratch3 d0
  rest52 d0

/-- The body from its part 50 on. -/
noncomputable def rest50 (d0 : Dev nD) : Prog (TpuEff nD τ sig (Elt F) Λ₀ .tc) (Dev nD) := do
  k0_part50 (Memref.whole cc0_stg0_0) (Memref.isWhole_whole _) (Memref.whole main_v1) (Memref.isWhole_whole _) (Memref.whole cc0_scratch0) (Memref.isWhole_whole _) cc0_scratch1 cc0_scratch2 cc0_scratch3 d0
  rest51 d0

/-- The body from its part 49 on. -/
noncomputable def rest49 (d0 : Dev nD) (v2 : BitVec 32) (v8 : BitVec 32) (v10 : BitVec 32) (v40 : BitVec 32) (v1533 : BitVec 32) : Prog (TpuEff nD τ sig (Elt F) Λ₀ .tc) (Dev nD) := do
  k0_part49 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v40 v1533
  rest50 d0

/-- The body from its part 48 on. -/
noncomputable def rest48 (d0 : Dev nD) (v5 : BitVec 32) (v8 : BitVec 32) (v9 : BitVec 32) (v40 : BitVec 32) (v1513 : BitVec 32) (v1514 : BitVec 32) (v2 : BitVec 32) (v10 : BitVec 32) : Prog (TpuEff nD τ sig (Elt F) Λ₀ .tc) (Dev nD) := do
  let v1533 : BitVec 32 ← k0_part48 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v40 v1513 v1514
  rest49 d0 v2 v8 v10 v40 v1533

/-- The body from its part 47 on. -/
noncomputable def rest47 (d0 : Dev nD) (v2 : BitVec 32) (v8 : BitVec 32) (v10 : BitVec 32) (v40 : BitVec 32) (v1472 : BitVec 32) (v1483 : BitVec 32) (c512_i32_1150 : BitVec 32) (v5 : BitVec 32) (v9 : BitVec 32) : Prog (TpuEff nD τ sig (Elt F) Λ₀ .tc) (Dev nD) := do
  let ⟨v1513, v1514⟩ : Σ' (v1513 : BitVec 32), BitVec 32 ← k0_part47 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v40 v1472 v1483 c512_i32_1150
  rest48 d0 v5 v8 v9 v40 v1513 v1514 v2 v10

/-- The body from its part 46 on. -/
noncomputable def rest46 (d0 : Dev nD) (v5 : BitVec 32) (v8 : BitVec 32) (v9 : BitVec 32) (v1450 : BitVec 32) (v2 : BitVec 32) (v10 : BitVec 32) (v40 : BitVec 32) : Prog (TpuEff nD τ sig (Elt F) Λ₀ .tc) (Dev nD) := do
  let ⟨v1472, v1483, c512_i32_1150⟩ : Σ' (v1472 : BitVec 32) (v1483 : BitVec 32), BitVec 32 ← k0_part46 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v1450
  rest47 d0 v2 v8 v10 v40 v1472 v1483 c512_i32_1150 v5 v9

/-- The body from its part 45 on. -/
noncomputable def rest45 (d0 : Dev nD) (v2 : BitVec 32) (v8 : BitVec 32) (v10 : BitVec 32) (v40 : BitVec 32) (v1399 : BitVec 32) (v1411 : BitVec 32) (v5 : BitVec 32) (v9 : BitVec 32) : Prog (TpuEff nD τ sig (Elt F) Λ₀ .tc) (Dev nD) := do
  let v1450 : BitVec 32 ← k0_part45 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v40 v1399 v1411
  rest46 d0 v5 v8 v9 v1450 v2 v10 v40

/-- The body from its part 44 on. -/
noncomputable def rest44 (d0 : Dev nD) (v5 : BitVec 32) (v8 : BitVec 32) (v9 : BitVec 32) (v2 : BitVec 32) (v10 : BitVec 32) (v40 : BitVec 32) : Prog (TpuEff nD τ sig (Elt F) Λ₀ .tc) (Dev nD) := do
  let ⟨v1399, v1411⟩ : Σ' (v1399 : BitVec 32), BitVec 32 ← k0_part44 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9
  rest45 d0 v2 v8 v10 v40 v1399 v1411 v5 v9

/-- The body from its part 43 on. -/
noncomputable def rest43 (d0 : Dev nD) (v2 : BitVec 32) (v8 : BitVec 32) (v10 : BitVec 32) (v34 : BitVec 32) (v36 : BitVec 32) (v38 : BitVec 32) (v1081 : BitVec 32) (v1093 : BitVec 32) (c2048_i32_1051 : BitVec 32) (v5 : BitVec 32) (v9 : BitVec 32) (v40 : BitVec 32) : Prog (TpuEff nD τ sig (Elt F) Λ₀ .tc) (Dev nD) := do
  k0_part43 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v34 v36 v38 v1081 v1093 c2048_i32_1051
  rest44 d0 v5 v8 v9 v2 v10 v40

/-- The body from its part 42 on. -/
noncomputable def rest42 (d0 : Dev nD) (v2 : BitVec 32) (v5 : BitVec 32) (v8 : BitVec 32) (v9 : BitVec 32) (v10 : BitVec 32) (v34 : BitVec 32) (v1081 : BitVec 32) (v1323 : BitVec 32) (c344_i32_1024 : BitVec 32) (v36 : BitVec 32) (v38 : BitVec 32) (v1093 : BitVec 32) (v40 : BitVec 32) : Prog (TpuEff nD τ sig (Elt F) Λ₀ .tc) (Dev nD) := do
  let c2048_i32_1051 : BitVec 32 ← k0_part42 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v34 v1081 v1323 c344_i32_1024
  rest43 d0 v2 v8 v10 v34 v36 v38 v1081 v1093 c2048_i32_1051 v5 v9 v40

/-- The body from its part 41 on. -/
noncomputable def rest41 (d0 : Dev nD) (v5 : BitVec 32) (v8 : BitVec 32) (v9 : BitVec 32) (v34 : BitVec 32) (v36 : BitVec 32) (v1093 : BitVec 32) (v1291 : BitVec 32) (c512_i32_999 : BitVec 32) (v2 : BitVec 32) (v10 : BitVec 32) (v1081 : BitVec 32) (v38 : BitVec 32) (v40 : BitVec 32) : Prog (TpuEff nD τ sig (Elt F) Λ₀ .tc) (Dev nD) := do
  let ⟨v1323, c344_i32_1024⟩ : Σ' (v1323 : BitVec 32), BitVec 32 ← k0_part41 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v36 v1093 v1291 c512_i32_999
  rest42 d0 v2 v5 v8 v9 v10 v34 v1081 v1323 c344_i32_1024 v36 v38 v1093 v40

/-- The body from its part 40 on. -/
noncomputable def rest40 (d0 : Dev nD) (v5 : BitVec 32) (v8 : BitVec 32) (v9 : BitVec 32) (v38 : BitVec 32) (v1081 : BitVec 32) (v1093 : BitVec 32) (v34 : BitVec 32) (v36 : BitVec 32) (v2 : BitVec 32) (v10 : BitVec 32) (v40 : BitVec 32) : Prog (TpuEff nD τ sig (Elt F) Λ₀ .tc) (Dev nD) := do
  let ⟨v1291, c512_i32_999⟩ : Σ' (v1291 : BitVec 32), BitVec 32 ← k0_part40 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v38 v1081 v1093
  rest41 d0 v5 v8 v9 v34 v36 v1093 v1291 c512_i32_999 v2 v10 v1081 v38 v40

/-- The body from its part 39 on. -/
noncomputable def rest39 (d0 : Dev nD) (v2 : BitVec 32) (v5 : BitVec 32) (v8 : BitVec 32) (v10 : BitVec 32) (v32 : BitVec 32) (v34 : BitVec 32) (v40 : BitVec 32) (v1081 : BitVec 32) (v1093 : BitVec 32) (v9 : BitVec 32) (v38 : BitVec 32) (v36 : BitVec 32) : Prog (TpuEff nD τ sig (Elt F) Λ₀ .tc) (Dev nD) := do
  k0_part39 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v40 v1081 v1093
  rest40 d0 v5 v8 v9 v38 v1081 v1093 v34 v36 v2 v10 v40

/-- The body from its part 38 on. -/
noncomputable def rest38 (d0 : Dev nD) (v2 : BitVec 32) (v5 : BitVec 32) (v8 : BitVec 32) (v10 : BitVec 32) (v21 : BitVec 32) (v40 : BitVec 32) (v1081 : BitVec 32) (v32 : BitVec 32) (v34 : BitVec 32) (v1093 : BitVec 32) (v9 : BitVec 32) (v38 : BitVec 32) (v36 : BitVec 32) : Prog (TpuEff nD τ sig (Elt F) Λ₀ .tc) (Dev nD) := do
  k0_part38 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v21 v40 v1081
  rest39 d0 v2 v5 v8 v10 v32 v34 v40 v1081 v1093 v9 v38 v36

/-- The body from its part 37 on. -/
noncomputable def rest37 (d0 : Dev nD) (v5 : BitVec 32) (v8 : BitVec 32) (v9 : BitVec 32) (v34 : BitVec 32) (v1093 : BitVec 32) (v2 : BitVec 32) (v10 : BitVec 32) (v21 : BitVec 32) (v40 : BitVec 32) (v1081 : BitVec 32) (v32 : BitVec 32) (v38 : BitVec 32) (v36 : BitVec 32) : Prog (TpuEff nD τ sig (Elt F) Λ₀ .tc) (Dev nD) := do
  k0_part37 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v1093
  rest38 d0 v2 v5 v8 v10 v21 v40 v1081 v32 v34 v1093 v9 v38 v36

/-- The body from its part 36 on. -/
noncomputable def rest36 (d0 : Dev nD) (v2 : BitVec 32) (v5 : BitVec 32) (v8 : BitVec 32) (v10 : BitVec 32) (v32 : BitVec 32) (v34 : BitVec 32) (v1081 : BitVec 32) (v1093 : BitVec 32) (v9 : BitVec 32) (v21 : BitVec 32) (v40 : BitVec 32) (v38 : BitVec 32) (v36 : BitVec 32) : Prog (TpuEff nD τ sig (Elt F) Λ₀ .tc) (Dev nD) := do
  k0_part36 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v1081 v1093
  rest37 d0 v5 v8 v9 v34 v1093 v2 v10 v21 v40 v1081 v32 v38 v36

/-- The body from its part 35 on. -/
noncomputable def rest35 (d0 : Dev nD) (v5 : BitVec 32) (v8 : BitVec 32) (v9 : BitVec 32) (v34 : BitVec 32) (v1081 : BitVec 32) (v2 : BitVec 32) (v10 : BitVec 32) (v32 : BitVec 32) (v1093 : BitVec 32) (v21 : BitVec 32) (v40 : BitVec 32) (v38 : BitVec 32) (v36 : BitVec 32) : Prog (TpuEff nD τ sig (Elt F) Λ₀ .tc) (Dev nD) := do
  k0_part35 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v1081
  rest36 d0 v2 v5 v8 v10 v32 v34 v1081 v1093 v9 v21 v40 v38 v36

/-- The body from its part 34 on. -/
noncomputable def rest34 (d0 : Dev nD) (v2 : BitVec 32) (v5 : BitVec 32) (v8 : BitVec 32) (v21 : BitVec 32) (v9 : BitVec 32) (v34 : BitVec 32) (v10 : BitVec 32) (v32 : BitVec 32) (v40 : BitVec 32) (v38 : BitVec 32) (v36 : BitVec 32) : Prog (TpuEff nD τ sig (Elt F) Λ₀ .tc) (Dev nD) := do
  let ⟨v1081, v1093⟩ : Σ' (v1081 : BitVec 32), BitVec 32 ← k0_part34 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21
  rest35 d0 v5 v8 v9 v34 v1081 v2 v10 v32 v1093 v21 v40 v38 v36

/-- The body from its part 33 on. -/
noncomputable def rest33 (d0 : Dev nD) (v2 : BitVec 32) (v8 : BitVec 32) (v10 : BitVec 32) (v34 : BitVec 32) (v36 : BitVec 32) (v38 : BitVec 32) (v651 : BitVec 32) (v1037 : BitVec 32) (c512_i32_798 : BitVec 32) (v5 : BitVec 32) (v21 : BitVec 32) (v9 : BitVec 32) (v32 : BitVec 32) (v40 : BitVec 32) : Prog (TpuEff nD τ sig (Elt F) Λ₀ .tc) (Dev nD) := do
  k0_part33 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v10 v34 v36 v38 v651 v1037 c512_i32_798
  rest34 d0 v2 v5 v8 v21 v9 v34 v10 v32 v40 v38 v36

/-- The body from its part 32 on. -/
noncomputable def rest32 (d0 : Dev nD) (v2 : BitVec 32) (v5 : BitVec 32) (v8 : BitVec 32) (v9 : BitVec 32) (v10 : BitVec 32) (v34 : BitVec 32) (v639 : BitVec 32) (v36 : BitVec 32) (v38 : BitVec 32) (v651 : BitVec 32) (v21 : BitVec 32) (v32 : BitVec 32) (v40 : BitVec 32) : Prog (TpuEff nD τ sig (Elt F) Λ₀ .tc) (Dev nD) := do
  let ⟨v1037, c512_i32_798⟩ : Σ' (v1037 : BitVec 32), BitVec 32 ← k0_part32 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v34 v639
  rest33 d0 v2 v8 v10 v34 v36 v38 v651 v1037 c512_i32_798 v5 v21 v9 v32 v40

/-- The body from its part 31 on. -/
noncomputable def rest31 (d0 : Dev nD) (v5 : BitVec 32) (v8 : BitVec 32) (v9 : BitVec 32) (v34 : BitVec 32) (v36 : BitVec 32) (v651 : BitVec 32) (v975 : BitVec 32) (v2 : BitVec 32) (v10 : BitVec 32) (v639 : BitVec 32) (v38 : BitVec 32) (v21 : BitVec 32) (v32 : BitVec 32) (v40 : BitVec 32) : Prog (TpuEff nD τ sig (Elt F) Λ₀ .tc) (Dev nD) := do
  k0_part31 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v36 v651 v975
  rest32 d0 v2 v5 v8 v9 v10 v34 v639 v36 v38 v651 v21 v32 v40

/-- The body from its part 30 on. -/
noncomputable def rest30 (d0 : Dev nD) (v5 : BitVec 32) (v8 : BitVec 32) (v9 : BitVec 32) (v34 : BitVec 32) (v38 : BitVec 32) (v639 : BitVec 32) (v651 : BitVec 32) (v36 : BitVec 32) (v2 : BitVec 32) (v10 : BitVec 32) (v21 : BitVec 32) (v32 : BitVec 32) (v40 : BitVec 32) : Prog (TpuEff nD τ sig (Elt F) Λ₀ .tc) (Dev nD) := do
  let v975 : BitVec 32 ← k0_part30 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v38 v639 v651
  rest31 d0 v5 v8 v9 v34 v36 v651 v975 v2 v10 v639 v38 v21 v32 v40

/-- The body from its part 29 on. -/
noncomputable def rest29 (d0 : Dev nD) (v2 : BitVec 32) (v5 : BitVec 32) (v8 : BitVec 32) (v10 : BitVec 32) (v32 : BitVec 32) (v34 : BitVec 32) (v40 : BitVec 32) (v639 : BitVec 32) (v907 : BitVec 32) (v9 : BitVec 32) (v38 : BitVec 32) (v651 : BitVec 32) (v36 : BitVec 32) (v21 : BitVec 32) : Prog (TpuEff nD τ sig (Elt F) Λ₀ .tc) (Dev nD) := do
  k0_part29 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v40 v639 v907
  rest30 d0 v5 v8 v9 v34 v38 v639 v651 v36 v2 v10 v21 v32 v40

/-- The body from its part 28 on. -/
noncomputable def rest28 (d0 : Dev nD) (v2 : BitVec 32) (v5 : BitVec 32) (v8 : BitVec 32) (v32 : BitVec 32) (v40 : BitVec 32) (v651 : BitVec 32) (v10 : BitVec 32) (v34 : BitVec 32) (v639 : BitVec 32) (v9 : BitVec 32) (v38 : BitVec 32) (v36 : BitVec 32) (v21 : BitVec 32) : Prog (TpuEff nD τ sig (Elt F) Λ₀ .tc) (Dev nD) := do
  let v907 : BitVec 32 ← k0_part28 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v40 v651
  rest29 d0 v2 v5 v8 v10 v32 v34 v40 v639 v907 v9 v38 v651 v36 v21

/-- The body from its part 27 on. -/
noncomputable def rest27 (d0 : Dev nD) (v2 : BitVec 32) (v5 : BitVec 32) (v8 : BitVec 32) (v21 : BitVec 32) (v40 : BitVec 32) (v32 : BitVec 32) (v651 : BitVec 32) (v10 : BitVec 32) (v34 : BitVec 32) (v639 : BitVec 32) (v9 : BitVec 32) (v38 : BitVec 32) (v36 : BitVec 32) : Prog (TpuEff nD τ sig (Elt F) Λ₀ .tc) (Dev nD) := do
  k0_part27 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v40
  rest28 d0 v2 v5 v8 v32 v40 v651 v10 v34 v639 v9 v38 v36 v21

/-- The body from its part 26 on. -/
noncomputable def rest26 (d0 : Dev nD) (v2 : BitVec 32) (v5 : BitVec 32) (v8 : BitVec 32) (v10 : BitVec 32) (v21 : BitVec 32) (v34 : BitVec 32) (v40 : BitVec 32) (v639 : BitVec 32) (v814 : BitVec 32) (v32 : BitVec 32) (v651 : BitVec 32) (v9 : BitVec 32) (v38 : BitVec 32) (v36 : BitVec 32) : Prog (TpuEff nD τ sig (Elt F) Λ₀ .tc) (Dev nD) := do
  k0_part26 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v21 v34 v40 v639 v814
  rest27 d0 v2 v5 v8 v21 v40 v32 v651 v10 v34 v639 v9 v38 v36

/-- The body from its part 25 on. -/
noncomputable def rest25 (d0 : Dev nD) (v5 : BitVec 32) (v8 : BitVec 32) (v9 : BitVec 32) (v32 : BitVec 32) (v34 : BitVec 32) (v651 : BitVec 32) (v779 : BitVec 32) (c4_i32_596 : BitVec 32) (v2 : BitVec 32) (v10 : BitVec 32) (v21 : BitVec 32) (v40 : BitVec 32) (v639 : BitVec 32) (v38 : BitVec 32) (v36 : BitVec 32) : Prog (TpuEff nD τ sig (Elt F) Λ₀ .tc) (Dev nD) := do
  let v814 : BitVec 32 ← k0_part25 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v32 v34 v651 v779 c4_i32_596
  rest26 d0 v2 v5 v8 v10 v21 v34 v40 v639 v814 v32 v651 v9 v38 v36

/-- The body from its part 24 on. -/
noncomputable def rest24 (d0 : Dev nD) (v2 : BitVec 32) (v8 : BitVec 32) (v34 : BitVec 32) (v651 : BitVec 32) (v5 : BitVec 32) (v9 : BitVec 32) (v32 : BitVec 32) (v10 : BitVec 32) (v21 : BitVec 32) (v40 : BitVec 32) (v639 : BitVec 32) (v38 : BitVec 32) (v36 : BitVec 32) : Prog (TpuEff nD τ sig (Elt F) Λ₀ .tc) (Dev nD) := do
  let ⟨v779, c4_i32_596⟩ : Σ' (v779 : BitVec 32), BitVec 32 ← k0_part24 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v34 v651
  rest25 d0 v5 v8 v9 v32 v34 v651 v779 c4_i32_596 v2 v10 v21 v40 v639 v38 v36

/-- The body from its part 23 on. -/
noncomputable def rest23 (d0 : Dev nD) (v2 : BitVec 32) (v5 : BitVec 32) (v8 : BitVec 32) (v10 : BitVec 32) (v32 : BitVec 32) (v34 : BitVec 32) (v639 : BitVec 32) (v651 : BitVec 32) (v9 : BitVec 32) (v21 : BitVec 32) (v40 : BitVec 32) (v38 : BitVec 32) (v36 : BitVec 32) : Prog (TpuEff nD τ sig (Elt F) Λ₀ .tc) (Dev nD) := do
  k0_part23 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v32 v34 v639
  rest24 d0 v2 v8 v34 v651 v5 v9 v32 v10 v21 v40 v639 v38 v36

/-- The body from its part 22 on. -/
noncomputable def rest22 (d0 : Dev nD) (v2 : BitVec 32) (v5 : BitVec 32) (v8 : BitVec 32) (v9 : BitVec 32) (v21 : BitVec 32) (v34 : BitVec 32) (v639 : BitVec 32) (v680 : BitVec 32) (c2048_i32_516 : BitVec 32) (v10 : BitVec 32) (v32 : BitVec 32) (v651 : BitVec 32) (v40 : BitVec 32) (v38 : BitVec 32) (v36 : BitVec 32) : Prog (TpuEff nD τ sig (Elt F) Λ₀ .tc) (Dev nD) := do
  k0_part22 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v21 v34 v639 v680 c2048_i32_516
  rest23 d0 v2 v5 v8 v10 v32 v34 v639 v651 v9 v21 v40 v38 v36

/-- The body from its part 21 on. -/
noncomputable def rest21 (d0 : Dev nD) (v2 : BitVec 32) (v5 : BitVec 32) (v8 : BitVec 32) (v21 : BitVec 32) (v34 : BitVec 32) (v639 : BitVec 32) (v9 : BitVec 32) (v10 : BitVec 32) (v32 : BitVec 32) (v651 : BitVec 32) (v40 : BitVec 32) (v38 : BitVec 32) (v36 : BitVec 32) : Prog (TpuEff nD τ sig (Elt F) Λ₀ .tc) (Dev nD) := do
  let ⟨v680, c2048_i32_516⟩ : Σ' (v680 : BitVec 32), BitVec 32 ← k0_part21 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v34 v639
  rest22 d0 v2 v5 v8 v9 v21 v34 v639 v680 c2048_i32_516 v10 v32 v651 v40 v38 v36

/-- The body from its part 20 on. -/
noncomputable def rest20 (d0 : Dev nD) (v8 : BitVec 32) (v38 : BitVec 32) (v209 : BitVec 32) (v2 : BitVec 32) (v5 : BitVec 32) (v21 : BitVec 32) (v34 : BitVec 32) (v9 : BitVec 32) (v10 : BitVec 32) (v32 : BitVec 32) (v40 : BitVec 32) (v36 : BitVec 32) : Prog (TpuEff nD τ sig (Elt F) Λ₀ .tc) (Dev nD) := do
  let ⟨v639, v651⟩ : Σ' (v639 : BitVec 32), BitVec 32 ← k0_part20 (Memref.whole cc0_stg0_0) (Memref.isWhole_whole _) (Memref.whole main_v1) (Memref.isWhole_whole _) (Memref.whole cc0_scratch0) (Memref.isWhole_whole _) cc0_scratch1 cc0_scratch2 cc0_scratch3 d0 v8 v38 v209
  rest21 d0 v2 v5 v8 v21 v34 v639 v9 v10 v32 v651 v40 v38 v36

/-- The body from its part 19 on. -/
noncomputable def rest19 (d0 : Dev nD) (v2 : BitVec 32) (v5 : BitVec 32) (v8 : BitVec 32) (v10 : BitVec 32) (v34 : BitVec 32) (v36 : BitVec 32) (v197 : BitVec 32) (v209 : BitVec 32) (v585 : BitVec 32) (v38 : BitVec 32) (v21 : BitVec 32) (v9 : BitVec 32) (v32 : BitVec 32) (v40 : BitVec 32) : Prog (TpuEff nD τ sig (Elt F) Λ₀ .tc) (Dev nD) := do
  k0_part19 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v34 v36 v197 v209 v585
  rest20 d0 v8 v38 v209 v2 v5 v21 v34 v9 v10 v32 v40 v36

/-- The body from its part 18 on. -/
noncomputable def rest18 (d0 : Dev nD) (v2 : BitVec 32) (v8 : BitVec 32) (v9 : BitVec 32) (v10 : BitVec 32) (v34 : BitVec 32) (v36 : BitVec 32) (v197 : BitVec 32) (v209 : BitVec 32) (v5 : BitVec 32) (v38 : BitVec 32) (v21 : BitVec 32) (v32 : BitVec 32) (v40 : BitVec 32) : Prog (TpuEff nD τ sig (Elt F) Λ₀ .tc) (Dev nD) := do
  let v585 : BitVec 32 ← k0_part18 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v9 v10 v34 v36 v197 v209
  rest19 d0 v2 v5 v8 v10 v34 v36 v197 v209 v585 v38 v21 v9 v32 v40

/-- The body from its part 17 on. -/
noncomputable def rest17 (d0 : Dev nD) (v5 : BitVec 32) (v8 : BitVec 32) (v9 : BitVec 32) (v34 : BitVec 32) (v36 : BitVec 32) (v209 : BitVec 32) (v520 : BitVec 32) (v521 : BitVec 32) (v2 : BitVec 32) (v10 : BitVec 32) (v197 : BitVec 32) (v38 : BitVec 32) (v21 : BitVec 32) (v32 : BitVec 32) (v40 : BitVec 32) : Prog (TpuEff nD τ sig (Elt F) Λ₀ .tc) (Dev nD) := do
  k0_part17 (Memref.whole cc0_stg0_0) (Memref.isWhole_whole _) (Memref.whole main_v1) (Memref.isWhole_whole _) (Memref.whole cc0_scratch0) (Memref.isWhole_whole _) cc0_scratch1 cc0_scratch2 cc0_scratch3 d0 v5 v8 v9 v34 v36 v209 v520 v521
  rest18 d0 v2 v8 v9 v10 v34 v36 v197 v209 v5 v38 v21 v32 v40

/-- The body from its part 16 on. -/
noncomputable def rest16 (d0 : Dev nD) (v2 : BitVec 32) (v5 : BitVec 32) (v8 : BitVec 32) (v9 : BitVec 32) (v10 : BitVec 32) (v38 : BitVec 32) (v197 : BitVec 32) (v492 : BitVec 32) (v34 : BitVec 32) (v36 : BitVec 32) (v209 : BitVec 32) (v21 : BitVec 32) (v32 : BitVec 32) (v40 : BitVec 32) : Prog (TpuEff nD τ sig (Elt F) Λ₀ .tc) (Dev nD) := do
  let ⟨v520, v521⟩ : Σ' (v520 : BitVec 32), BitVec 32 ← k0_part16 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v38 v197 v492
  rest17 d0 v5 v8 v9 v34 v36 v209 v520 v521 v2 v10 v197 v38 v21 v32 v40

/-- The body from its part 15 on. -/
noncomputable def rest15 (d0 : Dev nD) (v2 : BitVec 32) (v5 : BitVec 32) (v32 : BitVec 32) (v34 : BitVec 32) (v40 : BitVec 32) (v197 : BitVec 32) (v455 : BitVec 32) (v457 : BitVec 32) (v8 : BitVec 32) (v9 : BitVec 32) (v10 : BitVec 32) (v38 : BitVec 32) (v36 : BitVec 32) (v209 : BitVec 32) (v21 : BitVec 32) : Prog (TpuEff nD τ sig (Elt F) Λ₀ .tc) (Dev nD) := do
  let v492 : BitVec 32 ← k0_part15 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v32 v34 v40 v197 v455 v457
  rest16 d0 v2 v5 v8 v9 v10 v38 v197 v492 v34 v36 v209 v21 v32 v40

/-- The body from its part 14 on. -/
noncomputable def rest14 (d0 : Dev nD) (v2 : BitVec 32) (v5 : BitVec 32) (v8 : BitVec 32) (v21 : BitVec 32) (v32 : BitVec 32) (v40 : BitVec 32) (v209 : BitVec 32) (v425 : BitVec 32) (v34 : BitVec 32) (v197 : BitVec 32) (v9 : BitVec 32) (v10 : BitVec 32) (v38 : BitVec 32) (v36 : BitVec 32) : Prog (TpuEff nD τ sig (Elt F) Λ₀ .tc) (Dev nD) := do
  let ⟨v455, v457⟩ : Σ' (v455 : BitVec 32), BitVec 32 ← k0_part14 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v32 v40 v209 v425
  rest15 d0 v2 v5 v32 v34 v40 v197 v455 v457 v8 v9 v10 v38 v36 v209 v21

/-- The body from its part 13 on. -/
noncomputable def rest13 (d0 : Dev nD) (v2 : BitVec 32) (v8 : BitVec 32) (v40 : BitVec 32) (v197 : BitVec 32) (v5 : BitVec 32) (v21 : BitVec 32) (v32 : BitVec 32) (v209 : BitVec 32) (v34 : BitVec 32) (v9 : BitVec 32) (v10 : BitVec 32) (v38 : BitVec 32) (v36 : BitVec 32) : Prog (TpuEff nD τ sig (Elt F) Λ₀ .tc) (Dev nD) := do
  let v425 : BitVec 32 ← k0_part13 (Memref.whole cc0_stg0_0) (Memref.isWhole_whole _) (Memref.whole main_v1) (Memref.isWhole_whole _) (Memref.whole cc0_scratch0) (Memref.isWhole_whole _) cc0_scratch1 cc0_scratch2 cc0_scratch3 d0 v2 v8 v40 v197
  rest14 d0 v2 v5 v8 v21 v32 v40 v209 v425 v34 v197 v9 v10 v38 v36

/-- The body from its part 12 on. -/
noncomputable def rest12 (d0 : Dev nD) (v2 : BitVec 32) (v5 : BitVec 32) (v8 : BitVec 32) (v10 : BitVec 32) (v21 : BitVec 32) (v34 : BitVec 32) (v209 : BitVec 32) (v40 : BitVec 32) (v197 : BitVec 32) (v32 : BitVec 32) (v9 : BitVec 32) (v38 : BitVec 32) (v36 : BitVec 32) : Prog (TpuEff nD τ sig (Elt F) Λ₀ .tc) (Dev nD) := do
  k0_part12 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v10 v21 v34 v209
  rest13 d0 v2 v8 v40 v197 v5 v21 v32 v209 v34 v9 v10 v38 v36

/-- The body from its part 11 on. -/
noncomputable def rest11 (d0 : Dev nD) (v2 : BitVec 32) (v5 : BitVec 32) (v8 : BitVec 32) (v9 : BitVec 32) (v32 : BitVec 32) (v34 : BitVec 32) (v209 : BitVec 32) (v327 : BitVec 32) (v330 : BitVec 32) (v10 : BitVec 32) (v21 : BitVec 32) (v40 : BitVec 32) (v197 : BitVec 32) (v38 : BitVec 32) (v36 : BitVec 32) : Prog (TpuEff nD τ sig (Elt F) Λ₀ .tc) (Dev nD) := do
  k0_part11 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v32 v34 v209 v327 v330
  rest12 d0 v2 v5 v8 v10 v21 v34 v209 v40 v197 v32 v9 v38 v36

/-- The body from its part 10 on. -/
noncomputable def rest10 (d0 : Dev nD) (v2 : BitVec 32) (v5 : BitVec 32) (v8 : BitVec 32) (v32 : BitVec 32) (v34 : BitVec 32) (v209 : BitVec 32) (v9 : BitVec 32) (v10 : BitVec 32) (v21 : BitVec 32) (v40 : BitVec 32) (v197 : BitVec 32) (v38 : BitVec 32) (v36 : BitVec 32) : Prog (TpuEff nD τ sig (Elt F) Λ₀ .tc) (Dev nD) := do
  let ⟨v327, v330⟩ : Σ' (v327 : BitVec 32), BitVec 32 ← k0_part10 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v34 v209
  rest11 d0 v2 v5 v8 v9 v32 v34 v209 v327 v330 v10 v21 v40 v197 v38 v36

/-- The body from its part 9 on. -/
noncomputable def rest9 (d0 : Dev nD) (v2 : BitVec 32) (v5 : BitVec 32) (v8 : BitVec 32) (v9 : BitVec 32) (v10 : BitVec 32) (v34 : BitVec 32) (v197 : BitVec 32) (v265 : BitVec 32) (c0_i32_187 : BitVec 32) (v32 : BitVec 32) (v209 : BitVec 32) (v21 : BitVec 32) (v40 : BitVec 32) (v38 : BitVec 32) (v36 : BitVec 32) : Prog (TpuEff nD τ sig (Elt F) Λ₀ .tc) (Dev nD) := do
  k0_part9 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v34 v197 v265 c0_i32_187
  rest10 d0 v2 v5 v8 v32 v34 v209 v9 v10 v21 v40 v197 v38 v36

/-- The body from its part 8 on. -/
noncomputable def rest8 (d0 : Dev nD) (v2 : BitVec 32) (v5 : BitVec 32) (v21 : BitVec 32) (v34 : BitVec 32) (v197 : BitVec 32) (v230 : BitVec 32) (v231 : BitVec 32) (v8 : BitVec 32) (v9 : BitVec 32) (v10 : BitVec 32) (v32 : BitVec 32) (v209 : BitVec 32) (v40 : BitVec 32) (v38 : BitVec 32) (v36 : BitVec 32) : Prog (TpuEff nD τ sig (Elt F) Λ₀ .tc) (Dev nD) := do
  let ⟨v265, c0_i32_187⟩ : Σ' (v265 : BitVec 32), BitVec 32 ← k0_part8 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v21 v34 v197 v230 v231
  rest9 d0 v2 v5 v8 v9 v10 v34 v197 v265 c0_i32_187 v32 v209 v21 v40 v38 v36

/-- The body from its part 7 on. -/
noncomputable def rest7 (d0 : Dev nD) (v2 : BitVec 32) (v5 : BitVec 32) (v8 : BitVec 32) (v21 : BitVec 32) (v34 : BitVec 32) (v197 : BitVec 32) (v199 : BitVec 32) (v9 : BitVec 32) (v10 : BitVec 32) (v32 : BitVec 32) (v40 : BitVec 32) (v38 : BitVec 32) (v36 : BitVec 32) : Prog (TpuEff nD τ sig (Elt F) Λ₀ .tc) (Dev nD) := do
  let ⟨v209, v230, v231⟩ : Σ' (v209 : BitVec 32) (v230 : BitVec 32), BitVec 32 ← k0_part7 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v34 v197 v199
  rest8 d0 v2 v5 v21 v34 v197 v230 v231 v8 v9 v10 v32 v209 v40 v38 v36

/-- The body from its part 6 on. -/
noncomputable def rest6 (d0 : Dev nD) (v2 : BitVec 32) (v5 : BitVec 32) (v8 : BitVec 32) (v32 : BitVec 32) (v40 : BitVec 32) (v166 : BitVec 32) (v21 : BitVec 32) (v34 : BitVec 32) (v9 : BitVec 32) (v10 : BitVec 32) (v38 : BitVec 32) (v36 : BitVec 32) : Prog (TpuEff nD τ sig (Elt F) Λ₀ .tc) (Dev nD) := do
  let ⟨v197, v199⟩ : Σ' (v197 : BitVec 32), BitVec 32 ← k0_part6 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v40 v166
  rest7 d0 v2 v5 v8 v21 v34 v197 v199 v9 v10 v32 v40 v38 v36

/-- The body from its part 5 on. -/
noncomputable def rest5 (d0 : Dev nD) (v2 : BitVec 32) (v5 : BitVec 32) (v8 : BitVec 32) (v21 : BitVec 32) (v40 : BitVec 32) (v126 : BitVec 32) (v127 : BitVec 32) (v132 : BitVec 1) (v32 : BitVec 32) (v34 : BitVec 32) (v9 : BitVec 32) (v10 : BitVec 32) (v38 : BitVec 32) (v36 : BitVec 32) : Prog (TpuEff nD τ sig (Elt F) Λ₀ .tc) (Dev nD) := do
  let v166 : BitVec 32 ← k0_part5 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v40 v126 v127 v132
  rest6 d0 v2 v5 v8 v32 v40 v166 v21 v34 v9 v10 v38 v36

/-- The body from its part 4 on. -/
noncomputable def rest4 (d0 : Dev nD) (v2 : BitVec 32) (v5 : BitVec 32) (v8 : BitVec 32) (v32 : BitVec 32) (v34 : BitVec 32) (v97 : BitVec 32) (v98 : BitVec 32) (v21 : BitVec 32) (v40 : BitVec 32) (v9 : BitVec 32) (v10 : BitVec 32) (v38 : BitVec 32) (v36 : BitVec 32) : Prog (TpuEff nD τ sig (Elt F) Λ₀ .tc) (Dev nD) := do
  let ⟨v126, v127, v132⟩ : Σ' (v126 : BitVec 32) (v127 : BitVec 32), BitVec 1 ← k0_part4 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v32 v34 v97 v98
  rest5 d0 v2 v5 v8 v21 v40 v126 v127 v132 v32 v34 v9 v10 v38 v36

/-- The body from its part 3 on. -/
noncomputable def rest3 (d0 : Dev nD) (v2 : BitVec 32) (v5 : BitVec 32) (v8 : BitVec 32) (v21 : BitVec 32) (v34 : BitVec 32) (v32 : BitVec 32) (v40 : BitVec 32) (v9 : BitVec 32) (v10 : BitVec 32) (v38 : BitVec 32) (v36 : BitVec 32) : Prog (TpuEff nD τ sig (Elt F) Λ₀ .tc) (Dev nD) := do
  let ⟨v97, v98⟩ : Σ' (v97 : BitVec 32), BitVec 32 ← k0_part3 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v21 v34
  rest4 d0 v2 v5 v8 v32 v34 v97 v98 v21 v40 v9 v10 v38 v36

/-- The body from its part 2 on. -/
noncomputable def rest2 (d0 : Dev nD) (v2 : BitVec 32) (v5 : BitVec 32) (v8 : BitVec 32) (v9 : BitVec 32) (v10 : BitVec 32) (v21 : BitVec 32) (v32 : BitVec 32) (c2_i32_18 : BitVec 32) (v34 : BitVec 32) : Prog (TpuEff nD τ sig (Elt F) Λ₀ .tc) (Dev nD) := do
  let ⟨v36, v38, v40⟩ : Σ' (v36 : BitVec 32) (v38 : BitVec 32), BitVec 32 ← k0_part2 (Memref.whole cc0_stg0_0) (Memref.isWhole_whole _) (Memref.whole main_v1) (Memref.isWhole_whole _) (Memref.whole cc0_scratch0) (Memref.isWhole_whole _) cc0_scratch1 cc0_scratch2 cc0_scratch3 d0 v2 v5 v8 v9 v10 v21 v32 c2_i32_18
  rest3 d0 v2 v5 v8 v21 v34 v32 v40 v9 v10 v38 v36

/-- The body from its part 1 on. -/
noncomputable def rest1  : Prog (TpuEff nD τ sig (Elt F) Λ₀ .tc) (Dev nD) := do
  let ⟨d0, v2, v5, v8, v9, v10, v21, v32, v34, c2_i32_18⟩ : Σ' (d0 : Dev nD) (v2 : BitVec 32) (v5 : BitVec 32) (v8 : BitVec 32) (v9 : BitVec 32) (v10 : BitVec 32) (v21 : BitVec 32) (v32 : BitVec 32) (v34 : BitVec 32), BitVec 32 ← k0_part1 (Memref.whole cc0_stg0_0) (Memref.isWhole_whole _) (Memref.whole main_v1) (Memref.isWhole_whole _) (Memref.whole cc0_scratch0) (Memref.isWhole_whole _) cc0_scratch1 cc0_scratch2 cc0_scratch3
  rest2 d0 v2 v5 v8 v9 v10 v21 v32 c2_i32_18 v34

set_option maxRecDepth 65536 in
/-- The parts in sequence are the printed sequence. -/
theorem part59_eq_rest : k0_part59 (F := F) (Memref.whole cc0_stg0_0) (Memref.isWhole_whole _) (Memref.whole main_v1) (Memref.isWhole_whole _) (Memref.whole cc0_scratch0) (Memref.isWhole_whole _) cc0_scratch1 cc0_scratch2 cc0_scratch3 = rest1 := by
  rw [k0_part59_eq_skeleton]; rfl

end Cert.Kernel.AG

end
-- ==== Proof.Bits.Core.lean ====
/-
  The body of one device from its parts: each part takes what it needs of the device's holdings and leaves what the
  next parts take, in the program's order.
-/
import proofs.«900685_g7700000000000686_dist_ag_v7x_xyz2x2x4_z_m2048_n512_f32_1_alg».proof.Proof.Bits.PartsA
import proofs.«900685_g7700000000000686_dist_ag_v7x_xyz2x2x4_z_m2048_n512_f32_1_alg».proof.Proof.Bits.PartsB
import proofs.«900685_g7700000000000686_dist_ag_v7x_xyz2x2x4_z_m2048_n512_f32_1_alg».proof.Proof.Bits.PartsB2
import proofs.«900685_g7700000000000686_dist_ag_v7x_xyz2x2x4_z_m2048_n512_f32_1_alg».proof.Proof.Bits.PartsC
import proofs.«900685_g7700000000000686_dist_ag_v7x_xyz2x2x4_z_m2048_n512_f32_1_alg».proof.Proof.Bits.PartsC2
import proofs.«900685_g7700000000000686_dist_ag_v7x_xyz2x2x4_z_m2048_n512_f32_1_alg».proof.Proof.Bits.PartsD
import proofs.«900685_g7700000000000686_dist_ag_v7x_xyz2x2x4_z_m2048_n512_f32_1_alg».proof.Proof.Bits.PartsD2
import proofs.«900685_g7700000000000686_dist_ag_v7x_xyz2x2x4_z_m2048_n512_f32_1_alg».proof.Proof.Bits.PartsE
import proofs.«900685_g7700000000000686_dist_ag_v7x_xyz2x2x4_z_m2048_n512_f32_1_alg».proof.Proof.Bits.Rest
import proofs.«900685_g7700000000000686_dist_ag_v7x_xyz2x2x4_z_m2048_n512_f32_1_alg».proof.Proof.Bits.Ctx

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)
set_option maxHeartbeats 0 in
theorem body_core (K : Dev nD × Fin 93 → ℕ) (c : Dev nD) (W : Waits sig Unit) (Kt : PUnit → sProp 𝕄) :
    iprop(ctx0 m K c W ∗ (ctxEnd m K c W -∗ Kt ⟨⟩))
      ⊢ wp frame (wpE (defs₀ (F := F)) 𝒱₀ (c : Thread nD τ) none) Set.univ
          (cc0_body (Memref.whole cc0_stg0_0) (Memref.isWhole_whole _) (Memref.whole main_v1) (Memref.isWhole_whole _) (Memref.whole cc0_scratch0) (Memref.isWhole_whole _) cc0_scratch1 cc0_scratch2 cc0_scratch3) Kt := by
  rw [cc0_body_eq_skeleton, cc0_body_skel_eq, wp_bind, part59_eq_rest]
  unfold ctx0
  iintro ⟨⟨#HR, #HL, h1, h2, h3, h4, h5, h6, h7, h8, h9, h10, h11, h47, h48, h49, h52, h53, h54, h57, h58, h59, h62, h63, h64, h65, h66, h67, h71, h72, h73, h74, h81, h82, h85, h86, h89, h90, h91, h92, h93, h94, h102, h103, h106, h107, h108, h109, h113, h114, h115, h116, h121, h122, h123, h124, h125, h126, h132, h133, h136, h137, h138, h139, h145, h146, h147, h148, h155, h156, h157, h158, h162, h163, h164, h165, h169, h170, h171, h172, h176, h177, h178, h179, h186, h187, h190, h191, h192, h193, h197, h198, h199, h200, h207, h208, h209, h210, h214, h215, h216, h217, h223, h224, h225, h226, h230, h231, h232, h233, h238, h239, h242, h243, h244, h245, h246, h247, h253, h254, h255, h256, h262, h263, h264, h265, h270, h271, h272, h273, h274, h275, h280, h281, h282, h283, h284, h285, h292, h293, h294, h295, h303, h304, h305, h306, h310, h311, h312, h313, h314, h315, h321, h322, h323, h324, h329, h330, h331, h332, h333, h334, h340, h341, h342, h343, h349, h350, h351, h352, h357, h358, h359, h360, h365, h366, h368, h369, h370, h371, h372, h373, h374, h375, h381, h382, h386, h387, h388, h389, h390, h391, h396, h397, h401, h402, h403, h404, h405, h406, h407, h414, h415, h416, h417, h418, h430, h431, h432, h433, h434, h446, h447, h448, h449, h450, h462, h463, h464, h465, h466, h478, h479, h480, h481, h482, h494, h495, h496, h497, h498, h499, h515, h516, h517, h518, h519, h520, h521, h544, h545, h546, h547, h548, h549, h550, h551, h577, h578, h579, h580, h581, h582, h583, h606, h607, h608, h609, h610, h611, h612⟩, Hk⟩
  -- part 1
  unfold rest1
  rw [wp_bind]
  iapply (part1_spec K c W _)
  iintro %r %hr
  obtain ⟨d0, v2, v5, v8, v9, v10, v21, v32, v34, c2_i32_18⟩ := r
  have hr : c = d0 := (hr : d0 = c).symm
  subst hr
  dsimp only
  -- part 2
  unfold rest2
  rw [wp_bind]
  iapply (part2_spec m K c W v2 v5 v8 v9 v10 v21 v32 c2_i32_18 _)
  isplitl [h1 h2 h3 h4 h5 h6 h7 h8 h9 h10 h11]
  · isplitr; · iexact HR
    isplitr; · iexact HL
    isplitl [h1]; · iexact h1
    isplitl [h2]; · iexact h2
    isplitl [h3]; · iexact h3
    isplitl [h4]; · iexact h4
    isplitl [h5]; · iexact h5
    isplitl [h6]; · iexact h6
    isplitl [h7]; · iexact h7
    isplitl [h8]; · iexact h8
    isplitl [h9]; · iexact h9
    isplitl [h10]; · iexact h10
    iexact h11
  iintro %r ⟨h12, h13, h14, h15, h16⟩
  obtain ⟨v36, v38, v40⟩ := r
  dsimp only
  -- what the four peers handed over: the bands of their scratch arrays this device will write
  ihave h13 := (Entails.of_eq (barPay_eq_0 (F := F) c)) $$ h13
  icases h13 with ⟨h17, h18, h19, h20, h21, h22⟩
  ihave h14 := (Entails.of_eq (barPay_eq_1 (F := F) c)) $$ h14
  icases h14 with ⟨h23, h24, h25, h26, h27, h28⟩
  ihave h15 := (Entails.of_eq (barPay_eq_2 (F := F) c)) $$ h15
  icases h15 with ⟨h29, h30, h31, h32, h33, h34, h35, h36, h37⟩
  ihave h16 := (Entails.of_eq (barPay_eq_3 (F := F) c)) $$ h16
  icases h16 with ⟨h38, h39, h40, h41, h42, h43, h44, h45, h46⟩
  -- part 3
  unfold rest3
  rw [wp_bind]
  iapply (part3_spec m K c _ v2 v5 v8 v21 v34 _)
  isplitl [h12 h47 h23 h48 h49]
  · isplitr; · iexact HR
    isplitl [h12]; · iexact h12
    isplitl [h47]; · iexact h47
    isplitl [h23]; · iexact h23
    isplitl [h48]; · iexact h48
    iexact h49
  iintro %r ⟨h50, h51⟩
  obtain ⟨v97, v98⟩ := r
  dsimp only
  -- part 4
  unfold rest4
  rw [wp_bind]
  iapply (part4_spec m K c _ v2 v5 v8 v32 v34 v97 v98 _)
  isplitl [h50 h52 h17 h53 h54]
  · isplitr; · iexact HR
    isplitl [h50]; · iexact h50
    isplitl [h52]; · iexact h52
    isplitl [h17]; · iexact h17
    isplitl [h53]; · iexact h53
    iexact h54
  iintro %r ⟨h55, h56⟩
  obtain ⟨v126, v127, v132⟩ := r
  dsimp only
  -- part 5
  unfold rest5
  rw [wp_bind]
  iapply (part5_spec m K c _ v2 v5 v8 v21 v40 v126 v127 v132 _)
  isplitl [h55 h57 h26 h58 h59]
  · isplitr; · iexact HR
    isplitl [h55]; · iexact h55
    isplitl [h57]; · iexact h57
    isplitl [h26]; · iexact h26
    isplitl [h58]; · iexact h58
    iexact h59
  iintro %v166 ⟨h60, h61⟩
  -- part 6
  unfold rest6
  rw [wp_bind]
  iapply (part6_spec m K c _ v2 v5 v8 v32 v40 v166 _)
  isplitl [h60 h62 h20 h63 h64 h65 h66 h67]
  · isplitr; · iexact HR
    isplitl [h60]; · iexact h60
    isplitl [h62]; · iexact h62
    isplitl [h20]; · iexact h20
    isplitl [h63]; · iexact h63
    isplitl [h64]; · iexact h64
    isplitl [h65]; · iexact h65
    isplitl [h66]; · iexact h66
    iexact h67
  iintro %r ⟨h68, h69, h70⟩
  obtain ⟨v197, v199⟩ := r
  dsimp only
  -- part 7
  unfold rest7
  rw [wp_bind]
  iapply (part7_spec m K c _ v2 v5 v8 v21 v34 v197 v199 _)
  isplitl [h68 h71 h72 h73 h74]
  · isplitr; · iexact HR
    isplitr; · iexact HL
    isplitl [h68]; · iexact h68
    isplitl [h71]; · iexact h71
    isplitl [h72]; · iexact h72
    isplitl [h73]; · iexact h73
    iexact h74
  iintro %r ⟨h75, h76, h77, h78, h79, h80⟩
  obtain ⟨v209, v230, v231⟩ := r
  dsimp only
  -- part 8
  unfold rest8
  rw [wp_bind]
  iapply (part8_spec m K c _ v2 v5 v21 v34 v197 v230 v231 _)
  isplitl [h75 h77 h24 h81 h82]
  · isplitr; · iexact HR
    isplitl [h75]; · iexact h75
    isplitl [h77]; · iexact h77
    isplitl [h24]; · iexact h24
    isplitl [h81]; · iexact h81
    iexact h82
  iintro %r ⟨h83, h84⟩
  obtain ⟨v265, c0_i32_187⟩ := r
  dsimp only
  -- part 9
  unfold rest9
  rw [wp_bind]
  iapply (part9_spec m K c _ v2 v5 v8 v9 v10 v34 v197 v265 c0_i32_187 _)
  isplitl [h83 h78 h29 h85 h86]
  · isplitr; · iexact HR
    isplitl [h83]; · iexact h83
    isplitl [h78]; · iexact h78
    isplitl [h29]; · iexact h29
    isplitl [h85]; · iexact h85
    iexact h86
  iintro %_ ⟨h87, h88⟩
  -- part 10
  unfold rest10
  rw [wp_bind]
  iapply (part10_spec m K c _ v2 v5 v8 v32 v34 v209 _)
  isplitl [h87 h79 h38 h89 h90 h91 h92 h93 h94]
  · isplitr; · iexact HR
    isplitr; · iexact HL
    isplitl [h87]; · iexact h87
    isplitl [h79]; · iexact h79
    isplitl [h38]; · iexact h38
    isplitl [h89]; · iexact h89
    isplitl [h90]; · iexact h90
    isplitl [h91]; · iexact h91
    isplitl [h92]; · iexact h92
    isplitl [h93]; · iexact h93
    iexact h94
  iintro %r ⟨h95, h96, h97, h98, h99, h100, h101⟩
  obtain ⟨v327, v330⟩ := r
  dsimp only
  -- part 11
  unfold rest11
  rw [wp_bind]
  iapply (part11_spec m K c _ v2 v5 v8 v9 v32 v34 v209 v327 v330 _)
  isplitl [h95 h98 h18 h102 h103]
  · isplitr; · iexact HR
    isplitl [h95]; · iexact h95
    isplitl [h98]; · iexact h98
    isplitl [h18]; · iexact h18
    isplitl [h102]; · iexact h102
    iexact h103
  iintro %_ ⟨h104, h105⟩
  -- part 12
  unfold rest12
  rw [wp_bind]
  iapply (part12_spec m K c _ v2 v5 v8 v10 v21 v34 v209 _)
  isplitl [h104 h99 h32 h106 h107 h100 h41 h108 h109]
  · isplitr; · iexact HR
    isplitl [h104]; · iexact h104
    isplitl [h99]; · iexact h99
    isplitl [h32]; · iexact h32
    isplitl [h106]; · iexact h106
    isplitl [h107]; · iexact h107
    isplitl [h100]; · iexact h100
    isplitl [h41]; · iexact h41
    isplitl [h108]; · iexact h108
    iexact h109
  iintro %_ ⟨h110, h111, h112⟩
  -- part 13
  unfold rest13
  rw [wp_bind]
  iapply (part13_spec m K c _ v2 v8 v40 v197 _)
  isplitl [h110 h113 h114 h115 h116]
  · isplitr; · iexact HR
    isplitr; · iexact HL
    isplitl [h110]; · iexact h110
    isplitl [h113]; · iexact h113
    isplitl [h114]; · iexact h114
    isplitl [h115]; · iexact h115
    iexact h116
  iintro %v425 ⟨h117, h118, h119, h120⟩
  -- part 14
  unfold rest14
  rw [wp_bind]
  iapply (part14_spec m K c _ v2 v5 v8 v21 v32 v40 v209 v425 _)
  isplitl [h117 h119 h27 h121 h122 h123 h124 h125 h126]
  · isplitr; · iexact HR
    isplitr; · iexact HL
    isplitl [h117]; · iexact h117
    isplitl [h119]; · iexact h119
    isplitl [h27]; · iexact h27
    isplitl [h121]; · iexact h121
    isplitl [h122]; · iexact h122
    isplitl [h123]; · iexact h123
    isplitl [h124]; · iexact h124
    isplitl [h125]; · iexact h125
    iexact h126
  iintro %r ⟨h127, h128, h129, h130, h131⟩
  obtain ⟨v455, v457⟩ := r
  dsimp only
  -- part 15
  unfold rest15
  rw [wp_bind]
  iapply (part15_spec m K c _ v2 v5 v32 v34 v40 v197 v455 v457 _)
  isplitl [h127 h130 h21 h132 h133]
  · isplitr; · iexact HR
    isplitl [h127]; · iexact h127
    isplitl [h130]; · iexact h130
    isplitl [h21]; · iexact h21
    isplitl [h132]; · iexact h132
    iexact h133
  iintro %v492 ⟨h134, h135⟩
  -- part 16
  unfold rest16
  rw [wp_bind]
  iapply (part16_spec m K c _ v2 v5 v8 v9 v10 v38 v197 v492 _)
  isplitl [h134 h136 h137 h138 h139]
  · isplitr; · iexact HR
    isplitr; · iexact HL
    isplitl [h134]; · iexact h134
    isplitl [h136]; · iexact h136
    isplitl [h137]; · iexact h137
    isplitl [h138]; · iexact h138
    iexact h139
  iintro %r ⟨h140, h141, h142, h143, h144⟩
  obtain ⟨v520, v521⟩ := r
  dsimp only
  -- part 17
  unfold rest17
  rw [wp_bind]
  iapply (part17_spec m K c _ v5 v8 v9 v34 v36 v209 v520 v521 _)
  isplitl [h140 h143 h35 h145 h146 h147 h148]
  · isplitr; · iexact HR
    isplitr; · iexact HL
    isplitl [h140]; · iexact h140
    isplitl [h143]; · iexact h143
    isplitl [h35]; · iexact h35
    isplitl [h145]; · iexact h145
    isplitl [h146]; · iexact h146
    isplitl [h147]; · iexact h147
    iexact h148
  iintro %_ ⟨h149, h150, h151, h152, h153, h154⟩
  -- part 18
  unfold rest18
  rw [wp_bind]
  iapply (part18_spec m K c _ v2 v8 v9 v10 v34 v36 v197 v209 _)
  isplitl [h149 h152 h155 h156 h154 h44 h157 h158]
  · isplitr; · iexact HR
    isplitl [h149]; · iexact h149
    isplitl [h152]; · iexact h152
    isplitl [h155]; · iexact h155
    isplitl [h156]; · iexact h156
    isplitl [h154]; · iexact h154
    isplitl [h44]; · iexact h44
    isplitl [h157]; · iexact h157
    iexact h158
  iintro %v585 ⟨h159, h160, h161⟩
  -- part 19
  unfold rest19
  rw [wp_bind]
  iapply (part19_spec m K c _ v2 v5 v8 v10 v34 v36 v197 v209 v585 _)
  isplitl [h159 h162 h163 h164 h165]
  · isplitr; · iexact HR
    isplitr; · iexact HL
    isplitl [h159]; · iexact h159
    isplitl [h162]; · iexact h162
    isplitl [h163]; · iexact h163
    isplitl [h164]; · iexact h164
    iexact h165
  iintro %_ ⟨h166, h167, h168⟩
  -- part 20
  unfold rest20
  rw [wp_bind]
  iapply (part20_spec m K c _ v8 v38 v209 _)
  isplitl [h166 h169 h170 h171 h172]
  · isplitr; · iexact HR
    isplitr; · iexact HL
    isplitl [h166]; · iexact h166
    isplitl [h169]; · iexact h169
    isplitl [h170]; · iexact h170
    isplitl [h171]; · iexact h171
    iexact h172
  iintro %r ⟨h173, h174, h175⟩
  obtain ⟨v639, v651⟩ := r
  dsimp only
  -- part 21
  unfold rest21
  rw [wp_bind]
  iapply (part21_spec m K c _ v2 v5 v8 v21 v34 v639 _)
  isplitl [h173 h176 h177 h178 h179]
  · isplitr; · iexact HR
    isplitr; · iexact HL
    isplitl [h173]; · iexact h173
    isplitl [h176]; · iexact h176
    isplitl [h177]; · iexact h177
    isplitl [h178]; · iexact h178
    iexact h179
  iintro %r ⟨h180, h181, h182, h183, h184, h185⟩
  obtain ⟨v680, c2048_i32_516⟩ := r
  dsimp only
  -- part 22
  unfold rest22
  rw [wp_bind]
  iapply (part22_spec m K c _ v2 v5 v8 v9 v21 v34 v639 v680 c2048_i32_516 _)
  isplitl [h180 h182 h25 h186 h187]
  · isplitr; · iexact HR
    isplitl [h180]; · iexact h180
    isplitl [h182]; · iexact h182
    isplitl [h25]; · iexact h25
    isplitl [h186]; · iexact h186
    iexact h187
  iintro %_ ⟨h188, h189⟩
  -- part 23
  unfold rest23
  rw [wp_bind]
  iapply (part23_spec m K c _ v2 v5 v8 v10 v32 v34 v639 _)
  isplitl [h188 h183 h30 h190 h191 h184 h39 h192 h193]
  · isplitr; · iexact HR
    isplitl [h188]; · iexact h188
    isplitl [h183]; · iexact h183
    isplitl [h30]; · iexact h30
    isplitl [h190]; · iexact h190
    isplitl [h191]; · iexact h191
    isplitl [h184]; · iexact h184
    isplitl [h39]; · iexact h39
    isplitl [h192]; · iexact h192
    iexact h193
  iintro %_ ⟨h194, h195, h196⟩
  -- part 24
  unfold rest24
  rw [wp_bind]
  iapply (part24_spec m K c _ v2 v8 v34 v651 _)
  isplitl [h194 h197 h198 h199 h200]
  · isplitr; · iexact HR
    isplitr; · iexact HL
    isplitl [h194]; · iexact h194
    isplitl [h197]; · iexact h197
    isplitl [h198]; · iexact h198
    isplitl [h199]; · iexact h199
    iexact h200
  iintro %r ⟨h201, h202, h203, h204, h205, h206⟩
  obtain ⟨v779, c4_i32_596⟩ := r
  dsimp only
  -- part 25
  unfold rest25
  rw [wp_bind]
  iapply (part25_spec m K c _ v5 v8 v9 v32 v34 v651 v779 c4_i32_596 _)
  isplitl [h201 h203 h19 h207 h208 h204 h33 h209 h210]
  · isplitr; · iexact HR
    isplitl [h201]; · iexact h201
    isplitl [h203]; · iexact h203
    isplitl [h19]; · iexact h19
    isplitl [h207]; · iexact h207
    isplitl [h208]; · iexact h208
    isplitl [h204]; · iexact h204
    isplitl [h33]; · iexact h33
    isplitl [h209]; · iexact h209
    iexact h210
  iintro %v814 ⟨h211, h212, h213⟩
  -- part 26
  unfold rest26
  rw [wp_bind]
  iapply (part26_spec m K c _ v2 v5 v8 v10 v21 v34 v40 v639 v814 _)
  isplitl [h211 h205 h42 h214 h215 h216 h217]
  · isplitr; · iexact HR
    isplitr; · iexact HL
    isplitl [h211]; · iexact h211
    isplitl [h205]; · iexact h205
    isplitl [h42]; · iexact h42
    isplitl [h214]; · iexact h214
    isplitl [h215]; · iexact h215
    isplitl [h216]; · iexact h216
    iexact h217
  iintro %_ ⟨h218, h219, h220, h221, h222⟩
  -- part 27
  unfold rest27
  rw [wp_bind]
  iapply (part27_spec m K c _ v2 v5 v8 v21 v40 _)
  isplitl [h218 h221 h223 h224 h222 h28 h225 h226]
  · isplitr; · iexact HR
    isplitl [h218]; · iexact h218
    isplitl [h221]; · iexact h221
    isplitl [h223]; · iexact h223
    isplitl [h224]; · iexact h224
    isplitl [h222]; · iexact h222
    isplitl [h28]; · iexact h28
    isplitl [h225]; · iexact h225
    iexact h226
  iintro %_ ⟨h227, h228, h229⟩
  -- part 28
  unfold rest28
  rw [wp_bind]
  iapply (part28_spec m K c _ v2 v5 v8 v32 v40 v651 _)
  isplitl [h227 h230 h231 h232 h233]
  · isplitr; · iexact HR
    isplitr; · iexact HL
    isplitl [h227]; · iexact h227
    isplitl [h230]; · iexact h230
    isplitl [h231]; · iexact h231
    isplitl [h232]; · iexact h232
    iexact h233
  iintro %v907 ⟨h234, h235, h236, h237⟩
  -- part 29
  unfold rest29
  rw [wp_bind]
  iapply (part29_spec m K c _ v2 v5 v8 v10 v32 v34 v40 v639 v907 _)
  isplitl [h234 h236 h22 h238 h239]
  · isplitr; · iexact HR
    isplitl [h234]; · iexact h234
    isplitl [h236]; · iexact h236
    isplitl [h22]; · iexact h22
    isplitl [h238]; · iexact h238
    iexact h239
  iintro %_ ⟨h240, h241⟩
  -- part 30
  unfold rest30
  rw [wp_bind]
  iapply (part30_spec m K c _ v5 v8 v9 v34 v38 v639 v651 _)
  isplitl [h240 h242 h243 h244 h245 h36 h246 h247]
  · isplitr; · iexact HR
    isplitr; · iexact HL
    isplitl [h240]; · iexact h240
    isplitl [h242]; · iexact h242
    isplitl [h243]; · iexact h243
    isplitl [h244]; · iexact h244
    isplitl [h245]; · iexact h245
    isplitl [h36]; · iexact h36
    isplitl [h246]; · iexact h246
    iexact h247
  iintro %v975 ⟨h248, h249, h250, h251, h252⟩
  -- part 31
  unfold rest31
  rw [wp_bind]
  iapply (part31_spec m K c _ v5 v8 v9 v34 v36 v651 v975 _)
  isplitl [h248 h253 h254 h255 h256]
  · isplitr; · iexact HR
    isplitr; · iexact HL
    isplitl [h248]; · iexact h248
    isplitl [h253]; · iexact h253
    isplitl [h254]; · iexact h254
    isplitl [h255]; · iexact h255
    iexact h256
  iintro %_ ⟨h257, h258, h259, h260, h261⟩
  -- part 32
  unfold rest32
  rw [wp_bind]
  iapply (part32_spec m K c _ v2 v5 v8 v9 v10 v34 v639 _)
  isplitl [h257 h260 h45 h262 h263 h264 h265]
  · isplitr; · iexact HR
    isplitr; · iexact HL
    isplitl [h257]; · iexact h257
    isplitl [h260]; · iexact h260
    isplitl [h45]; · iexact h45
    isplitl [h262]; · iexact h262
    isplitl [h263]; · iexact h263
    isplitl [h264]; · iexact h264
    iexact h265
  iintro %r ⟨h266, h267, h268, h269⟩
  obtain ⟨v1037, c512_i32_798⟩ := r
  dsimp only
  -- part 33
  unfold rest33
  rw [wp_bind]
  iapply (part33_spec m K c _ v2 v8 v10 v34 v36 v38 v651 v1037 c512_i32_798 _)
  isplitl [h266 h269 h270 h271 h272 h273 h274 h275]
  · isplitr; · iexact HR
    isplitr; · iexact HL
    isplitl [h266]; · iexact h266
    isplitl [h269]; · iexact h269
    isplitl [h270]; · iexact h270
    isplitl [h271]; · iexact h271
    isplitl [h272]; · iexact h272
    isplitl [h273]; · iexact h273
    isplitl [h274]; · iexact h274
    iexact h275
  iintro %_ ⟨h276, h277, h278, h279⟩
  -- part 34
  unfold rest34
  rw [wp_bind]
  iapply (part34_spec K c W v2 v5 v8 v21 _)
  iintro %r
  obtain ⟨v1081, v1093⟩ := r
  dsimp only
  -- part 35
  unfold rest35
  rw [wp_bind]
  iapply (part35_spec m K c _ v5 v8 v9 v34 v1081 _)
  isplitl [h276 h280 h281 h282 h283 h31 h284 h285]
  · isplitr; · iexact HR
    isplitr; · iexact HL
    isplitl [h276]; · iexact h276
    isplitl [h280]; · iexact h280
    isplitl [h281]; · iexact h281
    isplitl [h282]; · iexact h282
    isplitl [h283]; · iexact h283
    isplitl [h31]; · iexact h31
    isplitl [h284]; · iexact h284
    iexact h285
  iintro %_ ⟨h286, h287, h288, h289, h290, h291⟩
  -- part 36
  unfold rest36
  rw [wp_bind]
  iapply (part36_spec m K c _ v2 v5 v8 v10 v32 v34 v1081 v1093 _)
  isplitl [h286 h289 h40 h292 h293 h294 h295]
  · isplitr; · iexact HR
    isplitr; · iexact HL
    isplitl [h286]; · iexact h286
    isplitl [h289]; · iexact h289
    isplitl [h40]; · iexact h40
    isplitl [h292]; · iexact h292
    isplitl [h293]; · iexact h293
    isplitl [h294]; · iexact h294
    iexact h295
  iintro %_ ⟨h296, h297, h298, h299, h300, h301, h302⟩
  -- part 37
  unfold rest37
  rw [wp_bind]
  iapply (part37_spec m K c _ v5 v8 v9 v34 v1093 _)
  isplitl [h296 h299 h303 h304 h301 h34 h305 h306]
  · isplitr; · iexact HR
    isplitl [h296]; · iexact h296
    isplitl [h299]; · iexact h299
    isplitl [h303]; · iexact h303
    isplitl [h304]; · iexact h304
    isplitl [h301]; · iexact h301
    isplitl [h34]; · iexact h34
    isplitl [h305]; · iexact h305
    iexact h306
  iintro %_ ⟨h307, h308, h309⟩
  -- part 38
  unfold rest38
  rw [wp_bind]
  iapply (part38_spec m K c _ v2 v5 v8 v10 v21 v40 v1081 _)
  isplitl [h307 h302 h43 h310 h311 h312 h313 h314 h315]
  · isplitr; · iexact HR
    isplitr; · iexact HL
    isplitl [h307]; · iexact h307
    isplitl [h302]; · iexact h302
    isplitl [h43]; · iexact h43
    isplitl [h310]; · iexact h310
    isplitl [h311]; · iexact h311
    isplitl [h312]; · iexact h312
    isplitl [h313]; · iexact h313
    isplitl [h314]; · iexact h314
    iexact h315
  iintro %_ ⟨h316, h317, h318, h319, h320⟩
  -- part 39
  unfold rest39
  rw [wp_bind]
  iapply (part39_spec m K c _ v2 v5 v8 v10 v32 v34 v40 v1081 v1093 _)
  isplitl [h316 h321 h322 h323 h324]
  · isplitr; · iexact HR
    isplitr; · iexact HL
    isplitl [h316]; · iexact h316
    isplitl [h321]; · iexact h321
    isplitl [h322]; · iexact h322
    isplitl [h323]; · iexact h323
    iexact h324
  iintro %_ ⟨h325, h326, h327, h328⟩
  -- part 40
  unfold rest40
  rw [wp_bind]
  iapply (part40_spec m K c _ v5 v8 v9 v38 v1081 v1093 _)
  isplitl [h325 h329 h330 h331 h332 h37 h333 h334]
  · isplitr; · iexact HR
    isplitr; · iexact HL
    isplitl [h325]; · iexact h325
    isplitl [h329]; · iexact h329
    isplitl [h330]; · iexact h330
    isplitl [h331]; · iexact h331
    isplitl [h332]; · iexact h332
    isplitl [h37]; · iexact h37
    isplitl [h333]; · iexact h333
    iexact h334
  iintro %r ⟨h335, h336, h337, h338, h339⟩
  obtain ⟨v1291, c512_i32_999⟩ := r
  dsimp only
  -- part 41
  unfold rest41
  rw [wp_bind]
  iapply (part41_spec m K c _ v5 v8 v9 v34 v36 v1093 v1291 c512_i32_999 _)
  isplitl [h335 h340 h341 h342 h343]
  · isplitr; · iexact HR
    isplitr; · iexact HL
    isplitl [h335]; · iexact h335
    isplitl [h340]; · iexact h340
    isplitl [h341]; · iexact h341
    isplitl [h342]; · iexact h342
    iexact h343
  iintro %r ⟨h344, h345, h346, h347, h348⟩
  obtain ⟨v1323, c344_i32_1024⟩ := r
  dsimp only
  -- part 42
  unfold rest42
  rw [wp_bind]
  iapply (part42_spec m K c _ v2 v5 v8 v9 v10 v34 v1081 v1323 c344_i32_1024 _)
  isplitl [h344 h347 h46 h349 h350 h351 h352]
  · isplitr; · iexact HR
    isplitr; · iexact HL
    isplitl [h344]; · iexact h344
    isplitl [h347]; · iexact h347
    isplitl [h46]; · iexact h46
    isplitl [h349]; · iexact h349
    isplitl [h350]; · iexact h350
    isplitl [h351]; · iexact h351
    iexact h352
  iintro %c2048_i32_1051 ⟨h353, h354, h355, h356⟩
  -- part 43
  unfold rest43
  rw [wp_bind]
  iapply (part43_spec m K c _ v2 v8 v10 v34 v36 v38 v1081 v1093 c2048_i32_1051 _)
  isplitl [h353 h356 h357 h358 h359 h360]
  · isplitr; · iexact HR
    isplitr; · iexact HL
    isplitl [h353]; · iexact h353
    isplitl [h356]; · iexact h356
    isplitl [h357]; · iexact h357
    isplitl [h358]; · iexact h358
    isplitl [h359]; · iexact h359
    iexact h360
  iintro %_ ⟨h361, h362, h363, h364⟩
  -- part 44
  unfold rest44
  rw [wp_bind]
  iapply (part44_spec m K c W v5 v8 v9 _)
  isplitl [h364 h365 h366]
  · isplitr; · iexact HR
    isplitl [h364]; · iexact h364
    isplitl [h365]; · iexact h365
    iexact h366
  iintro %r ⟨h367⟩
  obtain ⟨v1399, v1411⟩ := r
  dsimp only
  -- part 45
  unfold rest45
  rw [wp_bind]
  iapply (part45_spec m K c _ v2 v8 v10 v40 v1399 v1411 _)
  isplitl [h361 h368 h369 h370 h371 h372 h373 h374 h375]
  · isplitr; · iexact HR
    isplitr; · iexact HL
    isplitl [h361]; · iexact h361
    isplitl [h368]; · iexact h368
    isplitl [h369]; · iexact h369
    isplitl [h370]; · iexact h370
    isplitl [h371]; · iexact h371
    isplitl [h372]; · iexact h372
    isplitl [h373]; · iexact h373
    isplitl [h374]; · iexact h374
    iexact h375
  iintro %v1450 ⟨h376, h377, h378, h379, h380⟩
  -- part 46
  unfold rest46
  rw [wp_bind]
  iapply (part46_spec m K c _ v5 v8 v9 v1450 _)
  isplitl [h376 h381 h382]
  · isplitr; · iexact HR
    isplitr; · iexact HL
    isplitl [h376]; · iexact h376
    isplitl [h381]; · iexact h381
    iexact h382
  iintro %r ⟨h383, h384, h385⟩
  obtain ⟨v1472, v1483, c512_i32_1150⟩ := r
  dsimp only
  -- part 47
  unfold rest47
  rw [wp_bind]
  iapply (part47_spec m K c _ v2 v8 v10 v40 v1472 v1483 c512_i32_1150 _)
  isplitl [h383 h385 h386 h387 h388 h389 h390 h391]
  · isplitr; · iexact HR
    isplitr; · iexact HL
    isplitl [h383]; · iexact h383
    isplitl [h385]; · iexact h385
    isplitl [h386]; · iexact h386
    isplitl [h387]; · iexact h387
    isplitl [h388]; · iexact h388
    isplitl [h389]; · iexact h389
    isplitl [h390]; · iexact h390
    iexact h391
  iintro %r ⟨h392, h393, h394, h395⟩
  obtain ⟨v1513, v1514⟩ := r
  dsimp only
  -- part 48
  unfold rest48
  rw [wp_bind]
  iapply (part48_spec m K c _ v5 v8 v9 v40 v1513 v1514 _)
  isplitl [h392 h396 h397]
  · isplitr; · iexact HR
    isplitr; · iexact HL
    isplitl [h392]; · iexact h392
    isplitl [h396]; · iexact h396
    iexact h397
  iintro %v1533 ⟨h398, h399, h400⟩
  -- part 49
  unfold rest49
  rw [wp_bind]
  iapply (part49_spec m K c _ v2 v8 v10 v40 v1533 _)
  isplitl [h398 h400 h401 h402 h403 h404 h405 h406 h51 h407]
  · isplitr; · iexact HR
    isplitr; · iexact HL
    isplitl [h398]; · iexact h398
    isplitl [h400]; · iexact h400
    isplitl [h401]; · iexact h401
    isplitl [h402]; · iexact h402
    isplitl [h403]; · iexact h403
    isplitl [h404]; · iexact h404
    isplitl [h405]; · iexact h405
    isplitl [h406]; · iexact h406
    isplitl [h51]; · iexact h51
    iexact h407
  iintro %_ ⟨h408, h409, h410, h411, h412, h413⟩
  -- part 50
  unfold rest50
  rw [wp_bind]
  iapply (part50_spec m K c _  _)
  isplitl [h408 h56 h414 h61 h415 h69 h416 h84 h417 h88 h418]
  · isplitr; · iexact HR
    isplitl [h408]; · iexact h408
    isplitl [h56]; · iexact h56
    isplitl [h414]; · iexact h414
    isplitl [h61]; · iexact h61
    isplitl [h415]; · iexact h415
    isplitl [h69]; · iexact h69
    isplitl [h416]; · iexact h416
    isplitl [h84]; · iexact h84
    isplitl [h417]; · iexact h417
    isplitl [h88]; · iexact h88
    iexact h418
  iintro %_ ⟨h419, h420, h421, h422, h423, h424, h425, h426, h427, h428, h429⟩
  -- part 51
  unfold rest51
  rw [wp_bind]
  iapply (part51_spec m K c _  _)
  isplitl [h419 h96 h430 h105 h431 h111 h432 h112 h433 h128 h434]
  · isplitr; · iexact HR
    isplitl [h419]; · iexact h419
    isplitl [h96]; · iexact h96
    isplitl [h430]; · iexact h430
    isplitl [h105]; · iexact h105
    isplitl [h431]; · iexact h431
    isplitl [h111]; · iexact h111
    isplitl [h432]; · iexact h432
    isplitl [h112]; · iexact h112
    isplitl [h433]; · iexact h433
    isplitl [h128]; · iexact h128
    iexact h434
  iintro %_ ⟨h435, h436, h437, h438, h439, h440, h441, h442, h443, h444, h445⟩
  -- part 52
  unfold rest52
  rw [wp_bind]
  iapply (part52_spec m K c _  _)
  isplitl [h435 h135 h446 h150 h447 h161 h448 h189 h449 h195 h450]
  · isplitr; · iexact HR
    isplitl [h435]; · iexact h435
    isplitl [h135]; · iexact h135
    isplitl [h446]; · iexact h446
    isplitl [h150]; · iexact h150
    isplitl [h447]; · iexact h447
    isplitl [h161]; · iexact h161
    isplitl [h448]; · iexact h448
    isplitl [h189]; · iexact h189
    isplitl [h449]; · iexact h449
    isplitl [h195]; · iexact h195
    iexact h450
  iintro %_ ⟨h451, h452, h453, h454, h455, h456, h457, h458, h459, h460, h461⟩
  -- part 53
  unfold rest53
  rw [wp_bind]
  iapply (part53_spec m K c _  _)
  isplitl [h451 h196 h462 h212 h463 h213 h464 h219 h465 h229 h466]
  · isplitr; · iexact HR
    isplitl [h451]; · iexact h451
    isplitl [h196]; · iexact h196
    isplitl [h462]; · iexact h462
    isplitl [h212]; · iexact h212
    isplitl [h463]; · iexact h463
    isplitl [h213]; · iexact h213
    isplitl [h464]; · iexact h464
    isplitl [h219]; · iexact h219
    isplitl [h465]; · iexact h465
    isplitl [h229]; · iexact h229
    iexact h466
  iintro %_ ⟨h467, h468, h469, h470, h471, h472, h473, h474, h475, h476, h477⟩
  -- part 54
  unfold rest54
  rw [wp_bind]
  iapply (part54_spec m K c _  _)
  isplitl [h467 h241 h478 h252 h479 h267 h480 h291 h481 h297 h482]
  · isplitr; · iexact HR
    isplitl [h467]; · iexact h467
    isplitl [h241]; · iexact h241
    isplitl [h478]; · iexact h478
    isplitl [h252]; · iexact h252
    isplitl [h479]; · iexact h479
    isplitl [h267]; · iexact h267
    isplitl [h480]; · iexact h480
    isplitl [h291]; · iexact h291
    isplitl [h481]; · iexact h481
    isplitl [h297]; · iexact h297
    iexact h482
  iintro %_ ⟨h483, h484, h485, h486, h487, h488, h489, h490, h491, h492, h493⟩
  -- part 55
  unfold rest55
  rw [wp_bind]
  iapply (part55_spec m K c _  _)
  isplitl [h483 h309 h494 h317 h495 h339 h496 h354 h497 h80 h498 h101 h499]
  · isplitr; · iexact HR
    isplitl [h483]; · iexact h483
    isplitl [h309]; · iexact h309
    isplitl [h494]; · iexact h494
    isplitl [h317]; · iexact h317
    isplitl [h495]; · iexact h495
    isplitl [h339]; · iexact h339
    isplitl [h496]; · iexact h496
    isplitl [h354]; · iexact h354
    isplitl [h497]; · iexact h497
    isplitl [h80]; · iexact h80
    isplitl [h498]; · iexact h498
    isplitl [h101]; · iexact h101
    iexact h499
  iintro %_ ⟨h500, h501, h502, h503, h504, h505, h506, h507, h508, h509, h510, h511, h512, h513, h514⟩
  -- part 56
  unfold rest56
  rw [wp_bind]
  iapply (part56_spec m K c _  _)
  isplitl [h500 h120 h515 h131 h516 h144 h517 h160 h518 h168 h519 h175 h520 h185 h521]
  · isplitr; · iexact HR
    isplitl [h500]; · iexact h500
    isplitl [h120]; · iexact h120
    isplitl [h515]; · iexact h515
    isplitl [h131]; · iexact h131
    isplitl [h516]; · iexact h516
    isplitl [h144]; · iexact h144
    isplitl [h517]; · iexact h517
    isplitl [h160]; · iexact h160
    isplitl [h518]; · iexact h518
    isplitl [h168]; · iexact h168
    isplitl [h519]; · iexact h519
    isplitl [h175]; · iexact h175
    isplitl [h520]; · iexact h520
    isplitl [h185]; · iexact h185
    iexact h521
  iintro %_ ⟨h522, h523, h524, h525, h526, h527, h528, h529, h530, h531, h532, h533, h534, h535, h536, h537, h538, h539, h540, h541, h542, h543⟩
  -- part 57
  unfold rest57
  rw [wp_bind]
  iapply (part57_spec m K c _  _)
  isplitl [h522 h206 h544 h228 h545 h237 h546 h251 h547 h261 h548 h277 h549 h279 h550 h290 h551]
  · isplitr; · iexact HR
    isplitl [h522]; · iexact h522
    isplitl [h206]; · iexact h206
    isplitl [h544]; · iexact h544
    isplitl [h228]; · iexact h228
    isplitl [h545]; · iexact h545
    isplitl [h237]; · iexact h237
    isplitl [h546]; · iexact h546
    isplitl [h251]; · iexact h251
    isplitl [h547]; · iexact h547
    isplitl [h261]; · iexact h261
    isplitl [h548]; · iexact h548
    isplitl [h277]; · iexact h277
    isplitl [h549]; · iexact h549
    isplitl [h279]; · iexact h279
    isplitl [h550]; · iexact h550
    isplitl [h290]; · iexact h290
    iexact h551
  iintro %_ ⟨h552, h553, h554, h555, h556, h557, h558, h559, h560, h561, h562, h563, h564, h565, h566, h567, h568, h569, h570, h571, h572, h573, h574, h575, h576⟩
  -- part 58
  unfold rest58
  rw [wp_bind]
  iapply (part58_spec m K c _  _)
  isplitl [h552 h308 h577 h320 h578 h328 h579 h338 h580 h348 h581 h362 h582 h367 h583]
  · isplitr; · iexact HR
    isplitl [h552]; · iexact h552
    isplitl [h308]; · iexact h308
    isplitl [h577]; · iexact h577
    isplitl [h320]; · iexact h320
    isplitl [h578]; · iexact h578
    isplitl [h328]; · iexact h328
    isplitl [h579]; · iexact h579
    isplitl [h338]; · iexact h338
    isplitl [h580]; · iexact h580
    isplitl [h348]; · iexact h348
    isplitl [h581]; · iexact h581
    isplitl [h362]; · iexact h362
    isplitl [h582]; · iexact h582
    isplitl [h367]; · iexact h367
    iexact h583
  iintro %_ ⟨h584, h585, h586, h587, h588, h589, h590, h591, h592, h593, h594, h595, h596, h597, h598, h599, h600, h601, h602, h603, h604, h605⟩
  -- the parts return the device
  rw [wp_pure]; imodintro
  -- the last waits
  iapply (tail_spec m K c _ _)
  isplitl [h584 h378 h606 h380 h607 h393 h608 h395 h609 h409 h610 h411 h611 h70 h612]
  · isplitr; · iexact HR
    isplitl [h584]; · iexact h584
    isplitl [h378]; · iexact h378
    isplitl [h606]; · iexact h606
    isplitl [h380]; · iexact h380
    isplitl [h607]; · iexact h607
    isplitl [h393]; · iexact h393
    isplitl [h608]; · iexact h608
    isplitl [h395]; · iexact h395
    isplitl [h609]; · iexact h609
    isplitl [h409]; · iexact h409
    isplitl [h610]; · iexact h610
    isplitl [h411]; · iexact h411
    isplitl [h611]; · iexact h611
    isplitl [h70]; · iexact h70
    iexact h612
  iintro %_ ⟨h613, h614, h615, h616, h617, h618, h619, h620, h621, h622, h623, h624, h625, h626, h627, h628, h629, h630, h631, h632, h633, h634⟩
  -- what is left is the final holdings
  iapply Hk
  unfold ctxEnd
  isplitl [h76]; · iexact h76
  isplitl [h97]; · iexact h97
  isplitl [h118]; · iexact h118
  isplitl [h129]; · iexact h129
  isplitl [h141]; · iexact h141
  isplitl [h142]; · iexact h142
  isplitl [h151]; · iexact h151
  isplitl [h153]; · iexact h153
  isplitl [h167]; · iexact h167
  isplitl [h174]; · iexact h174
  isplitl [h181]; · iexact h181
  isplitl [h202]; · iexact h202
  isplitl [h220]; · iexact h220
  isplitl [h235]; · iexact h235
  isplitl [h249]; · iexact h249
  isplitl [h250]; · iexact h250
  isplitl [h258]; · iexact h258
  isplitl [h259]; · iexact h259
  isplitl [h268]; · iexact h268
  isplitl [h278]; · iexact h278
  isplitl [h287]; · iexact h287
  isplitl [h288]; · iexact h288
  isplitl [h298]; · iexact h298
  isplitl [h300]; · iexact h300
  isplitl [h318]; · iexact h318
  isplitl [h319]; · iexact h319
  isplitl [h326]; · iexact h326
  isplitl [h327]; · iexact h327
  isplitl [h336]; · iexact h336
  isplitl [h337]; · iexact h337
  isplitl [h345]; · iexact h345
  isplitl [h346]; · iexact h346
  isplitl [h355]; · iexact h355
  isplitl [h363]; · iexact h363
  isplitl [h377]; · iexact h377
  isplitl [h379]; · iexact h379
  isplitl [h384]; · iexact h384
  isplitl [h394]; · iexact h394
  isplitl [h399]; · iexact h399
  isplitl [h410]; · iexact h410
  isplitl [h412]; · iexact h412
  isplitl [h413]; · iexact h413
  isplitl [h420]; · iexact h420
  isplitl [h421]; · iexact h421
  isplitl [h422]; · iexact h422
  isplitl [h423]; · iexact h423
  isplitl [h424]; · iexact h424
  isplitl [h425]; · iexact h425
  isplitl [h426]; · iexact h426
  isplitl [h427]; · iexact h427
  isplitl [h428]; · iexact h428
  isplitl [h429]; · iexact h429
  isplitl [h436]; · iexact h436
  isplitl [h437]; · iexact h437
  isplitl [h438]; · iexact h438
  isplitl [h439]; · iexact h439
  isplitl [h440]; · iexact h440
  isplitl [h441]; · iexact h441
  isplitl [h442]; · iexact h442
  isplitl [h443]; · iexact h443
  isplitl [h444]; · iexact h444
  isplitl [h445]; · iexact h445
  isplitl [h452]; · iexact h452
  isplitl [h453]; · iexact h453
  isplitl [h454]; · iexact h454
  isplitl [h455]; · iexact h455
  isplitl [h456]; · iexact h456
  isplitl [h457]; · iexact h457
  isplitl [h458]; · iexact h458
  isplitl [h459]; · iexact h459
  isplitl [h460]; · iexact h460
  isplitl [h461]; · iexact h461
  isplitl [h468]; · iexact h468
  isplitl [h469]; · iexact h469
  isplitl [h470]; · iexact h470
  isplitl [h471]; · iexact h471
  isplitl [h472]; · iexact h472
  isplitl [h473]; · iexact h473
  isplitl [h474]; · iexact h474
  isplitl [h475]; · iexact h475
  isplitl [h476]; · iexact h476
  isplitl [h477]; · iexact h477
  isplitl [h484]; · iexact h484
  isplitl [h485]; · iexact h485
  isplitl [h486]; · iexact h486
  isplitl [h487]; · iexact h487
  isplitl [h488]; · iexact h488
  isplitl [h489]; · iexact h489
  isplitl [h490]; · iexact h490
  isplitl [h491]; · iexact h491
  isplitl [h492]; · iexact h492
  isplitl [h493]; · iexact h493
  isplitl [h501]; · iexact h501
  isplitl [h502]; · iexact h502
  isplitl [h503]; · iexact h503
  isplitl [h504]; · iexact h504
  isplitl [h505]; · iexact h505
  isplitl [h506]; · iexact h506
  isplitl [h507]; · iexact h507
  isplitl [h508]; · iexact h508
  isplitl [h509]; · iexact h509
  isplitl [h510]; · iexact h510
  isplitl [h511]; · iexact h511
  isplitl [h512]; · iexact h512
  isplitl [h513]; · iexact h513
  isplitl [h514]; · iexact h514
  isplitl [h523]; · iexact h523
  isplitl [h524]; · iexact h524
  isplitl [h525]; · iexact h525
  isplitl [h526]; · iexact h526
  isplitl [h527]; · iexact h527
  isplitl [h528]; · iexact h528
  isplitl [h529]; · iexact h529
  isplitl [h530]; · iexact h530
  isplitl [h531]; · iexact h531
  isplitl [h532]; · iexact h532
  isplitl [h533]; · iexact h533
  isplitl [h534]; · iexact h534
  isplitl [h535]; · iexact h535
  isplitl [h536]; · iexact h536
  isplitl [h537]; · iexact h537
  isplitl [h538]; · iexact h538
  isplitl [h539]; · iexact h539
  isplitl [h540]; · iexact h540
  isplitl [h541]; · iexact h541
  isplitl [h542]; · iexact h542
  isplitl [h543]; · iexact h543
  isplitl [h553]; · iexact h553
  isplitl [h554]; · iexact h554
  isplitl [h555]; · iexact h555
  isplitl [h556]; · iexact h556
  isplitl [h557]; · iexact h557
  isplitl [h558]; · iexact h558
  isplitl [h559]; · iexact h559
  isplitl [h560]; · iexact h560
  isplitl [h561]; · iexact h561
  isplitl [h562]; · iexact h562
  isplitl [h563]; · iexact h563
  isplitl [h564]; · iexact h564
  isplitl [h565]; · iexact h565
  isplitl [h566]; · iexact h566
  isplitl [h567]; · iexact h567
  isplitl [h568]; · iexact h568
  isplitl [h569]; · iexact h569
  isplitl [h570]; · iexact h570
  isplitl [h571]; · iexact h571
  isplitl [h572]; · iexact h572
  isplitl [h573]; · iexact h573
  isplitl [h574]; · iexact h574
  isplitl [h575]; · iexact h575
  isplitl [h576]; · iexact h576
  isplitl [h585]; · iexact h585
  isplitl [h586]; · iexact h586
  isplitl [h587]; · iexact h587
  isplitl [h588]; · iexact h588
  isplitl [h589]; · iexact h589
  isplitl [h590]; · iexact h590
  isplitl [h591]; · iexact h591
  isplitl [h592]; · iexact h592
  isplitl [h593]; · iexact h593
  isplitl [h594]; · iexact h594
  isplitl [h595]; · iexact h595
  isplitl [h596]; · iexact h596
  isplitl [h597]; · iexact h597
  isplitl [h598]; · iexact h598
  isplitl [h599]; · iexact h599
  isplitl [h600]; · iexact h600
  isplitl [h601]; · iexact h601
  isplitl [h602]; · iexact h602
  isplitl [h603]; · iexact h603
  isplitl [h604]; · iexact h604
  isplitl [h605]; · iexact h605
  isplitl [h613]; · iexact h613
  isplitl [h614]; · iexact h614
  isplitl [h615]; · iexact h615
  isplitl [h616]; · iexact h616
  isplitl [h617]; · iexact h617
  isplitl [h618]; · iexact h618
  isplitl [h619]; · iexact h619
  isplitl [h620]; · iexact h620
  isplitl [h621]; · iexact h621
  isplitl [h622]; · iexact h622
  isplitl [h623]; · iexact h623
  isplitl [h624]; · iexact h624
  isplitl [h625]; · iexact h625
  isplitl [h626]; · iexact h626
  isplitl [h627]; · iexact h627
  isplitl [h628]; · iexact h628
  isplitl [h629]; · iexact h629
  isplitl [h630]; · iexact h630
  isplitl [h631]; · iexact h631
  isplitl [h632]; · iexact h632
  isplitl [h633]; · iexact h633
  iexact h634

end Cert.Kernel.AG

end
-- ==== Proof.Bits.PreCtx.lean ====
/-
  From what a device holds when its body starts to the resources its parts take, one by one.

  The positions, the duty tokens and the credits are chains over lists, written out; the scratch array is cut
  into the thirty bands the pieces land in and the device's own block's rows, the bands grouped by the peer that
  writes them; the result array is cut into its thirty-one pieces; the staged block is dealt into the copy's
  share and the four first transfers' bands, the rest of it staying aside.
-/
import proofs.«900685_g7700000000000686_dist_ag_v7x_xyz2x2x4_z_m2048_n512_f32_1_alg».proof.Proof.Bits.Oblig
import proofs.«900685_g7700000000000686_dist_ag_v7x_xyz2x2x4_z_m2048_n512_f32_1_alg».proof.Proof.Gen.Kernel.Points

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The chains over lists, written out -/

/-- The ninety-three positions. -/
theorem poss_chain (c : Dev nD) : poss (F := F) c = iprop(atPos ER (cell c 0) 0 ∅ 0
      ∗ atPos ER (cell c (sndJ 0 0)) 0 ∅ 0
      ∗ atPos ER (cell c (sndJ 0 1)) 0 ∅ 0
      ∗ atPos ER (cell c (sndJ 0 2)) 0 ∅ 0
      ∗ atPos ER (cell c (sndJ 1 0)) 0 ∅ 0
      ∗ atPos ER (cell c (sndJ 1 1)) 0 ∅ 0
      ∗ atPos ER (cell c (sndJ 1 2)) 0 ∅ 0
      ∗ atPos ER (cell c (sndJ 2 0)) 0 ∅ 0
      ∗ atPos ER (cell c (sndJ 2 1)) 0 ∅ 0
      ∗ atPos ER (cell c (sndJ 2 2)) 0 ∅ 0
      ∗ atPos ER (cell c (sndJ 3 0)) 0 ∅ 0
      ∗ atPos ER (cell c (sndJ 3 1)) 0 ∅ 0
      ∗ atPos ER (cell c (sndJ 3 2)) 0 ∅ 0
      ∗ atPos ER (cell c (sndJ 4 0)) 0 ∅ 0
      ∗ atPos ER (cell c (sndJ 4 1)) 0 ∅ 0
      ∗ atPos ER (cell c (sndJ 4 2)) 0 ∅ 0
      ∗ atPos ER (cell c (sndJ 5 0)) 0 ∅ 0
      ∗ atPos ER (cell c (sndJ 5 1)) 0 ∅ 0
      ∗ atPos ER (cell c (sndJ 5 2)) 0 ∅ 0
      ∗ atPos ER (cell c (sndJ 6 0)) 0 ∅ 0
      ∗ atPos ER (cell c (sndJ 6 1)) 0 ∅ 0
      ∗ atPos ER (cell c (sndJ 6 2)) 0 ∅ 0
      ∗ atPos ER (cell c (sndJ 7 0)) 0 ∅ 0
      ∗ atPos ER (cell c (sndJ 7 1)) 0 ∅ 0
      ∗ atPos ER (cell c (sndJ 7 2)) 0 ∅ 0
      ∗ atPos ER (cell c (sndJ 8 0)) 0 ∅ 0
      ∗ atPos ER (cell c (sndJ 8 1)) 0 ∅ 0
      ∗ atPos ER (cell c (sndJ 8 2)) 0 ∅ 0
      ∗ atPos ER (cell c (sndJ 9 0)) 0 ∅ 0
      ∗ atPos ER (cell c (sndJ 9 1)) 0 ∅ 0
      ∗ atPos ER (cell c (sndJ 9 2)) 0 ∅ 0
      ∗ atPos ER (cell c (rcvJ 0 0)) 0 ∅ 0
      ∗ atPos ER (cell c (rcvJ 0 1)) 0 ∅ 0
      ∗ atPos ER (cell c (rcvJ 0 2)) 0 ∅ 0
      ∗ atPos ER (cell c (rcvJ 1 0)) 0 ∅ 0
      ∗ atPos ER (cell c (rcvJ 1 1)) 0 ∅ 0
      ∗ atPos ER (cell c (rcvJ 1 2)) 0 ∅ 0
      ∗ atPos ER (cell c (rcvJ 2 0)) 0 ∅ 0
      ∗ atPos ER (cell c (rcvJ 2 1)) 0 ∅ 0
      ∗ atPos ER (cell c (rcvJ 2 2)) 0 ∅ 0
      ∗ atPos ER (cell c (rcvJ 3 0)) 0 ∅ 0
      ∗ atPos ER (cell c (rcvJ 3 1)) 0 ∅ 0
      ∗ atPos ER (cell c (rcvJ 3 2)) 0 ∅ 0
      ∗ atPos ER (cell c (rcvJ 4 0)) 0 ∅ 0
      ∗ atPos ER (cell c (rcvJ 4 1)) 0 ∅ 0
      ∗ atPos ER (cell c (rcvJ 4 2)) 0 ∅ 0
      ∗ atPos ER (cell c (rcvJ 5 0)) 0 ∅ 0
      ∗ atPos ER (cell c (rcvJ 5 1)) 0 ∅ 0
      ∗ atPos ER (cell c (rcvJ 5 2)) 0 ∅ 0
      ∗ atPos ER (cell c (rcvJ 6 0)) 0 ∅ 0
      ∗ atPos ER (cell c (rcvJ 6 1)) 0 ∅ 0
      ∗ atPos ER (cell c (rcvJ 6 2)) 0 ∅ 0
      ∗ atPos ER (cell c (rcvJ 7 0)) 0 ∅ 0
      ∗ atPos ER (cell c (rcvJ 7 1)) 0 ∅ 0
      ∗ atPos ER (cell c (rcvJ 7 2)) 0 ∅ 0
      ∗ atPos ER (cell c (rcvJ 8 0)) 0 ∅ 0
      ∗ atPos ER (cell c (rcvJ 8 1)) 0 ∅ 0
      ∗ atPos ER (cell c (rcvJ 8 2)) 0 ∅ 0
      ∗ atPos ER (cell c (rcvJ 9 0)) 0 ∅ 0
      ∗ atPos ER (cell c (rcvJ 9 1)) 0 ∅ 0
      ∗ atPos ER (cell c (rcvJ 9 2)) 0 ∅ 0
      ∗ atPos ER (cell c (cpJ 0)) 0 ∅ 0
      ∗ atPos ER (cell c (cpJ 1)) 0 ∅ 0
      ∗ atPos ER (cell c (cpJ 2)) 0 ∅ 0
      ∗ atPos ER (cell c (cpJ 3)) 0 ∅ 0
      ∗ atPos ER (cell c (cpJ 4)) 0 ∅ 0
      ∗ atPos ER (cell c (cpJ 5)) 0 ∅ 0
      ∗ atPos ER (cell c (cpJ 6)) 0 ∅ 0
      ∗ atPos ER (cell c (cpJ 7)) 0 ∅ 0
      ∗ atPos ER (cell c (cpJ 8)) 0 ∅ 0
      ∗ atPos ER (cell c (cpJ 9)) 0 ∅ 0
      ∗ atPos ER (cell c (cpJ 10)) 0 ∅ 0
      ∗ atPos ER (cell c (cpJ 11)) 0 ∅ 0
      ∗ atPos ER (cell c (cpJ 12)) 0 ∅ 0
      ∗ atPos ER (cell c (cpJ 13)) 0 ∅ 0
      ∗ atPos ER (cell c (cpJ 14)) 0 ∅ 0
      ∗ atPos ER (cell c (cpJ 15)) 0 ∅ 0
      ∗ atPos ER (cell c (cpJ 16)) 0 ∅ 0
      ∗ atPos ER (cell c (cpJ 17)) 0 ∅ 0
      ∗ atPos ER (cell c (cpJ 18)) 0 ∅ 0
      ∗ atPos ER (cell c (cpJ 19)) 0 ∅ 0
      ∗ atPos ER (cell c (cpJ 20)) 0 ∅ 0
      ∗ atPos ER (cell c (cpJ 21)) 0 ∅ 0
      ∗ atPos ER (cell c (cpJ 22)) 0 ∅ 0
      ∗ atPos ER (cell c (cpJ 23)) 0 ∅ 0
      ∗ atPos ER (cell c (cpJ 24)) 0 ∅ 0
      ∗ atPos ER (cell c (cpJ 25)) 0 ∅ 0
      ∗ atPos ER (cell c (cpJ 26)) 0 ∅ 0
      ∗ atPos ER (cell c (cpJ 27)) 0 ∅ 0
      ∗ atPos ER (cell c (cpJ 28)) 0 ∅ 0
      ∗ atPos ER (cell c (cpJ 29)) 0 ∅ 0
      ∗ atPos ER (cell c (cpJ 30)) 0 ∅ 0
      ∗ atPos ER (cell c (cpJ 31)) 0 ∅ 0) := rfl

/-- The thirty-four duties paid on the peers' cells. -/
theorem payToks_chain (c : Dev nD) : payToks (F := F) c = iprop(dutyTok ER (cell (peer 0 c) 0) 0 1
      ∗ dutyTok ER (cell (peer 1 c) 0) 0 0
      ∗ dutyTok ER (cell (peer 2 c) 0) 0 2
      ∗ dutyTok ER (cell (peer 3 c) 0) 0 3
      ∗ dutyTok ER (cell (peer 1 c) (rcvJ 0 0)) 0 0
      ∗ dutyTok ER (cell (peer 1 c) (rcvJ 0 1)) 0 0
      ∗ dutyTok ER (cell (peer 1 c) (rcvJ 0 2)) 0 0
      ∗ dutyTok ER (cell (peer 1 c) (rcvJ 1 0)) 0 0
      ∗ dutyTok ER (cell (peer 1 c) (rcvJ 1 1)) 0 0
      ∗ dutyTok ER (cell (peer 1 c) (rcvJ 1 2)) 0 0
      ∗ dutyTok ER (cell (peer 0 c) (rcvJ 2 0)) 0 0
      ∗ dutyTok ER (cell (peer 0 c) (rcvJ 2 1)) 0 0
      ∗ dutyTok ER (cell (peer 0 c) (rcvJ 2 2)) 0 0
      ∗ dutyTok ER (cell (peer 0 c) (rcvJ 3 0)) 0 0
      ∗ dutyTok ER (cell (peer 0 c) (rcvJ 3 1)) 0 0
      ∗ dutyTok ER (cell (peer 0 c) (rcvJ 3 2)) 0 0
      ∗ dutyTok ER (cell (peer 2 c) (rcvJ 4 0)) 0 0
      ∗ dutyTok ER (cell (peer 2 c) (rcvJ 4 1)) 0 0
      ∗ dutyTok ER (cell (peer 2 c) (rcvJ 4 2)) 0 0
      ∗ dutyTok ER (cell (peer 2 c) (rcvJ 5 0)) 0 0
      ∗ dutyTok ER (cell (peer 2 c) (rcvJ 5 1)) 0 0
      ∗ dutyTok ER (cell (peer 2 c) (rcvJ 5 2)) 0 0
      ∗ dutyTok ER (cell (peer 3 c) (rcvJ 6 0)) 0 0
      ∗ dutyTok ER (cell (peer 3 c) (rcvJ 6 1)) 0 0
      ∗ dutyTok ER (cell (peer 3 c) (rcvJ 6 2)) 0 0
      ∗ dutyTok ER (cell (peer 3 c) (rcvJ 7 0)) 0 0
      ∗ dutyTok ER (cell (peer 3 c) (rcvJ 7 1)) 0 0
      ∗ dutyTok ER (cell (peer 3 c) (rcvJ 7 2)) 0 0
      ∗ dutyTok ER (cell (peer 3 c) (rcvJ 8 0)) 0 0
      ∗ dutyTok ER (cell (peer 3 c) (rcvJ 8 1)) 0 0
      ∗ dutyTok ER (cell (peer 3 c) (rcvJ 8 2)) 0 0
      ∗ dutyTok ER (cell (peer 2 c) (rcvJ 9 0)) 0 0
      ∗ dutyTok ER (cell (peer 2 c) (rcvJ 9 1)) 0 0
      ∗ dutyTok ER (cell (peer 2 c) (rcvJ 9 2)) 0 0) := rfl

/-- The sixty-one duties paid on the device's own cells. -/
theorem ownToks_chain (c : Dev nD) : ownToks (F := F) c = iprop(dutyTok ER (cell c (sndJ 0 0)) 0 0
      ∗ dutyTok ER (cell c (sndJ 0 1)) 0 0
      ∗ dutyTok ER (cell c (sndJ 0 2)) 0 0
      ∗ dutyTok ER (cell c (sndJ 1 0)) 0 0
      ∗ dutyTok ER (cell c (sndJ 1 1)) 0 0
      ∗ dutyTok ER (cell c (sndJ 1 2)) 0 0
      ∗ dutyTok ER (cell c (sndJ 2 0)) 0 0
      ∗ dutyTok ER (cell c (sndJ 2 1)) 0 0
      ∗ dutyTok ER (cell c (sndJ 2 2)) 0 0
      ∗ dutyTok ER (cell c (sndJ 3 0)) 0 0
      ∗ dutyTok ER (cell c (sndJ 3 1)) 0 0
      ∗ dutyTok ER (cell c (sndJ 3 2)) 0 0
      ∗ dutyTok ER (cell c (sndJ 4 0)) 0 0
      ∗ dutyTok ER (cell c (sndJ 4 1)) 0 0
      ∗ dutyTok ER (cell c (sndJ 4 2)) 0 0
      ∗ dutyTok ER (cell c (sndJ 5 0)) 0 0
      ∗ dutyTok ER (cell c (sndJ 5 1)) 0 0
      ∗ dutyTok ER (cell c (sndJ 5 2)) 0 0
      ∗ dutyTok ER (cell c (sndJ 6 0)) 0 0
      ∗ dutyTok ER (cell c (sndJ 6 1)) 0 0
      ∗ dutyTok ER (cell c (sndJ 6 2)) 0 0
      ∗ dutyTok ER (cell c (sndJ 7 0)) 0 0
      ∗ dutyTok ER (cell c (sndJ 7 1)) 0 0
      ∗ dutyTok ER (cell c (sndJ 7 2)) 0 0
      ∗ dutyTok ER (cell c (sndJ 8 0)) 0 0
      ∗ dutyTok ER (cell c (sndJ 8 1)) 0 0
      ∗ dutyTok ER (cell c (sndJ 8 2)) 0 0
      ∗ dutyTok ER (cell c (sndJ 9 0)) 0 0
      ∗ dutyTok ER (cell c (sndJ 9 1)) 0 0
      ∗ dutyTok ER (cell c (sndJ 9 2)) 0 0
      ∗ dutyTok ER (cell c (cpJ 0)) 0 0
      ∗ dutyTok ER (cell c (cpJ 1)) 0 0
      ∗ dutyTok ER (cell c (cpJ 2)) 0 0
      ∗ dutyTok ER (cell c (cpJ 3)) 0 0
      ∗ dutyTok ER (cell c (cpJ 4)) 0 0
      ∗ dutyTok ER (cell c (cpJ 5)) 0 0
      ∗ dutyTok ER (cell c (cpJ 6)) 0 0
      ∗ dutyTok ER (cell c (cpJ 7)) 0 0
      ∗ dutyTok ER (cell c (cpJ 8)) 0 0
      ∗ dutyTok ER (cell c (cpJ 9)) 0 0
      ∗ dutyTok ER (cell c (cpJ 10)) 0 0
      ∗ dutyTok ER (cell c (cpJ 11)) 0 0
      ∗ dutyTok ER (cell c (cpJ 12)) 0 0
      ∗ dutyTok ER (cell c (cpJ 13)) 0 0
      ∗ dutyTok ER (cell c (cpJ 14)) 0 0
      ∗ dutyTok ER (cell c (cpJ 15)) 0 0
      ∗ dutyTok ER (cell c (cpJ 16)) 0 0
      ∗ dutyTok ER (cell c (cpJ 17)) 0 0
      ∗ dutyTok ER (cell c (cpJ 18)) 0 0
      ∗ dutyTok ER (cell c (cpJ 19)) 0 0
      ∗ dutyTok ER (cell c (cpJ 20)) 0 0
      ∗ dutyTok ER (cell c (cpJ 21)) 0 0
      ∗ dutyTok ER (cell c (cpJ 22)) 0 0
      ∗ dutyTok ER (cell c (cpJ 23)) 0 0
      ∗ dutyTok ER (cell c (cpJ 24)) 0 0
      ∗ dutyTok ER (cell c (cpJ 25)) 0 0
      ∗ dutyTok ER (cell c (cpJ 26)) 0 0
      ∗ dutyTok ER (cell c (cpJ 27)) 0 0
      ∗ dutyTok ER (cell c (cpJ 28)) 0 0
      ∗ dutyTok ER (cell c (cpJ 29)) 0 0
      ∗ dutyTok ER (cell c (cpJ 31)) 0 0) := rfl

/-- The thirty arrivals' credits. -/
theorem credits_chain (c : Dev nD) :
    (bigSepL fhL (fun fh => cred (tallyAt (cell c (rcvJ fh.1 fh.2)) () (credS (flowRows fh.1)))) : sProp 𝕄)
      = iprop(cred (tallyAt (cell c (rcvJ 0 0)) () (credS 256))
      ∗ cred (tallyAt (cell c (rcvJ 0 1)) () (credS 256))
      ∗ cred (tallyAt (cell c (rcvJ 0 2)) () (credS 256))
      ∗ cred (tallyAt (cell c (rcvJ 1 0)) () (credS 88))
      ∗ cred (tallyAt (cell c (rcvJ 1 1)) () (credS 88))
      ∗ cred (tallyAt (cell c (rcvJ 1 2)) () (credS 88))
      ∗ cred (tallyAt (cell c (rcvJ 2 0)) () (credS 256))
      ∗ cred (tallyAt (cell c (rcvJ 2 1)) () (credS 256))
      ∗ cred (tallyAt (cell c (rcvJ 2 2)) () (credS 256))
      ∗ cred (tallyAt (cell c (rcvJ 3 0)) () (credS 88))
      ∗ cred (tallyAt (cell c (rcvJ 3 1)) () (credS 88))
      ∗ cred (tallyAt (cell c (rcvJ 3 2)) () (credS 88))
      ∗ cred (tallyAt (cell c (rcvJ 4 0)) () (credS 256))
      ∗ cred (tallyAt (cell c (rcvJ 4 1)) () (credS 256))
      ∗ cred (tallyAt (cell c (rcvJ 4 2)) () (credS 256))
      ∗ cred (tallyAt (cell c (rcvJ 5 0)) () (credS 256))
      ∗ cred (tallyAt (cell c (rcvJ 5 1)) () (credS 256))
      ∗ cred (tallyAt (cell c (rcvJ 5 2)) () (credS 256))
      ∗ cred (tallyAt (cell c (rcvJ 6 0)) () (credS 256))
      ∗ cred (tallyAt (cell c (rcvJ 6 1)) () (credS 256))
      ∗ cred (tallyAt (cell c (rcvJ 6 2)) () (credS 256))
      ∗ cred (tallyAt (cell c (rcvJ 7 0)) () (credS 256))
      ∗ cred (tallyAt (cell c (rcvJ 7 1)) () (credS 256))
      ∗ cred (tallyAt (cell c (rcvJ 7 2)) () (credS 256))
      ∗ cred (tallyAt (cell c (rcvJ 8 0)) () (credS 168))
      ∗ cred (tallyAt (cell c (rcvJ 8 1)) () (credS 168))
      ∗ cred (tallyAt (cell c (rcvJ 8 2)) () (credS 168))
      ∗ cred (tallyAt (cell c (rcvJ 9 0)) () (credS 168))
      ∗ cred (tallyAt (cell c (rcvJ 9 1)) () (credS 168))
      ∗ cred (tallyAt (cell c (rcvJ 9 2)) () (credS 168))) := rfl

/-! ## The arrays, cut -/

/-- The result array, cut into its thirty-one pieces. -/
theorem out_chain (c : Dev nD) :
    ((((c : Thread nD τ).loc main_v1) ↦{fullShare} m ((c : Thread nD τ).loc main_v1) : sProp 𝕄))
      ⊢ iprop(oPts c (lo 0 0 c) 256 fullShare (m ((c : Thread nD τ).loc main_v1))
      ∗ oPts c (lo 0 1 c) 256 fullShare (m ((c : Thread nD τ).loc main_v1))
      ∗ oPts c (lo 0 2 c) 256 fullShare (m ((c : Thread nD τ).loc main_v1))
      ∗ oPts c (lo 1 0 c) 88 fullShare (m ((c : Thread nD τ).loc main_v1))
      ∗ oPts c (lo 1 1 c) 88 fullShare (m ((c : Thread nD τ).loc main_v1))
      ∗ oPts c (lo 1 2 c) 88 fullShare (m ((c : Thread nD τ).loc main_v1))
      ∗ oPts c (lo 2 0 c) 256 fullShare (m ((c : Thread nD τ).loc main_v1))
      ∗ oPts c (lo 2 1 c) 256 fullShare (m ((c : Thread nD τ).loc main_v1))
      ∗ oPts c (lo 2 2 c) 256 fullShare (m ((c : Thread nD τ).loc main_v1))
      ∗ oPts c (lo 3 0 c) 88 fullShare (m ((c : Thread nD τ).loc main_v1))
      ∗ oPts c (lo 3 1 c) 88 fullShare (m ((c : Thread nD τ).loc main_v1))
      ∗ oPts c (lo 3 2 c) 88 fullShare (m ((c : Thread nD τ).loc main_v1))
      ∗ oPts c (lo 4 0 c) 256 fullShare (m ((c : Thread nD τ).loc main_v1))
      ∗ oPts c (lo 4 1 c) 256 fullShare (m ((c : Thread nD τ).loc main_v1))
      ∗ oPts c (lo 4 2 c) 256 fullShare (m ((c : Thread nD τ).loc main_v1))
      ∗ oPts c (lo 5 0 c) 256 fullShare (m ((c : Thread nD τ).loc main_v1))
      ∗ oPts c (lo 5 1 c) 256 fullShare (m ((c : Thread nD τ).loc main_v1))
      ∗ oPts c (lo 5 2 c) 256 fullShare (m ((c : Thread nD τ).loc main_v1))
      ∗ oPts c (lo 6 0 c) 256 fullShare (m ((c : Thread nD τ).loc main_v1))
      ∗ oPts c (lo 6 1 c) 256 fullShare (m ((c : Thread nD τ).loc main_v1))
      ∗ oPts c (lo 6 2 c) 256 fullShare (m ((c : Thread nD τ).loc main_v1))
      ∗ oPts c (lo 7 0 c) 256 fullShare (m ((c : Thread nD τ).loc main_v1))
      ∗ oPts c (lo 7 1 c) 256 fullShare (m ((c : Thread nD τ).loc main_v1))
      ∗ oPts c (lo 7 2 c) 256 fullShare (m ((c : Thread nD τ).loc main_v1))
      ∗ oPts c (lo 8 0 c) 168 fullShare (m ((c : Thread nD τ).loc main_v1))
      ∗ oPts c (lo 8 1 c) 168 fullShare (m ((c : Thread nD τ).loc main_v1))
      ∗ oPts c (lo 8 2 c) 168 fullShare (m ((c : Thread nD τ).loc main_v1))
      ∗ oPts c (lo 9 0 c) 168 fullShare (m ((c : Thread nD τ).loc main_v1))
      ∗ oPts c (lo 9 1 c) 168 fullShare (m ((c : Thread nD τ).loc main_v1))
      ∗ oPts c (lo 9 2 c) 168 fullShare (m ((c : Thread nD τ).loc main_v1))
      ∗ oPts c (2048 * (c.val % 4)) 2048 fullShare (m ((c : Thread nD τ).loc main_v1))) :=
  (split_bands_o (F := F) c fullShare (m ((c : Thread nD τ).loc main_v1))).1.trans (Entails.of_eq rfl)

/-- The scratch array, cut into the bands each peer writes and the device's own block's rows. -/
theorem stage_chain (c : Dev nD) (f0 : Buf (Elt F) ((c : Thread nD τ).loc cc0_scratch0)) :
    ((((c : Thread nD τ).loc cc0_scratch0) ↦{fullShare} f0 : sProp 𝕄))
      ⊢ iprop(barPay (F := F) (peer 0 c) 1 ∗ barPay (F := F) (peer 1 c) 0 ∗ barPay (F := F) (peer 2 c) 2
        ∗ barPay (F := F) (peer 3 c) 3 ∗ sPts c (2048 * (c.val % 4)) 2048 fullShare f0) := by
  iintro H
  ihave H := (split_bands_s (F := F) c fullShare f0).1 $$ H
  icases H with ⟨S00, S01, S02, S10, S11, S12, S20, S21, S22, S30, S31, S32, S40, S41, S42, S50, S51, S52, S60, S61, S62, S70, S71, S72, S80, S81, S82, S90, S91, S92, Sown⟩
  have e0 : peer 1 (peer 0 c) = c := pinv_peer 0 c
  have e1 : peer 0 (peer 1 c) = c := pinv_peer 1 c
  have e2 : peer 2 (peer 2 c) = c := pinv_peer 2 c
  have e3 : peer 3 (peer 3 c) = c := pinv_peer 3 c
  rw [barPay_eq_1 (peer 0 c), barPay_eq_0 (peer 1 c), barPay_eq_2 (peer 2 c), barPay_eq_3 (peer 3 c), e0, e1, e2, e3]
  unfold landPay
  isplitl [S00 S01 S02 S10 S11 S12]
  · isplitl [S00]; · iexists f0; iexact S00
    isplitl [S01]; · iexists f0; iexact S01
    isplitl [S02]; · iexists f0; iexact S02
    isplitl [S10]; · iexists f0; iexact S10
    isplitl [S11]; · iexists f0; iexact S11
    iexists f0; iexact S12
  isplitl [S20 S21 S22 S30 S31 S32]
  · isplitl [S20]; · iexists f0; iexact S20
    isplitl [S21]; · iexists f0; iexact S21
    isplitl [S22]; · iexists f0; iexact S22
    isplitl [S30]; · iexists f0; iexact S30
    isplitl [S31]; · iexists f0; iexact S31
    iexists f0; iexact S32
  isplitl [S40 S41 S42 S50 S51 S52 S90 S91 S92]
  · isplitl [S40]; · iexists f0; iexact S40
    isplitl [S41]; · iexists f0; iexact S41
    isplitl [S42]; · iexists f0; iexact S42
    isplitl [S50]; · iexists f0; iexact S50
    isplitl [S51]; · iexists f0; iexact S51
    isplitl [S52]; · iexists f0; iexact S52
    isplitl [S90]; · iexists f0; iexact S90
    isplitl [S91]; · iexists f0; iexact S91
    iexists f0; iexact S92
  isplitl [S60 S61 S62 S70 S71 S72 S80 S81 S82]
  · isplitl [S60]; · iexists f0; iexact S60
    isplitl [S61]; · iexists f0; iexact S61
    isplitl [S62]; · iexists f0; iexact S62
    isplitl [S70]; · iexists f0; iexact S70
    isplitl [S71]; · iexists f0; iexact S71
    isplitl [S72]; · iexists f0; iexact S72
    isplitl [S80]; · iexists f0; iexact S80
    isplitl [S81]; · iexists f0; iexact S81
    iexists f0; iexact S82
  iexact Sown

/-- The staged block, dealt. -/
theorem blk_chain (c : Dev nD) :
    xPts m c 0 2048 fullShare ⊢ iprop(xPts m c 0 2048 fullShare.left
      ∗ (xPts m c (blkLo 0 c) 256 fullShare.right.left ∗ blkRest m c 0)
      ∗ (xPts m c (blkLo 2 c) 256 fullShare.right.right.left ∗ blkRest m c 2)
      ∗ (xPts m c (blkLo 1 c) 88 fullShare.right.right.right.left ∗ blkRest m c 1)
      ∗ (xPts m c (blkLo 3 c) 88 fullShare.right.right.right.right ∗ blkRest m c 3)) :=
  (deal_blk m c).1.trans (Entails.of_eq rfl)

/-- The one window is fetched at the one point: the staged block is the device's block. -/
theorem before_eq (c : Dev nD) (d) : (dats m 0 c).before (0 : Fin 1) t₀ d = xstg m c := by
  unfold Dat.before; rw [if_pos (fetch0_0 t₀)]; rfl

/-! ## The start of the body -/

set_option maxHeartbeats 4000000 in
/-- What the body starts with is what its parts take, and what they do not touch. -/
theorem pre_ctx (c : Dev nD) :
    bodyPre' m c ⊢ iprop(∃ (K : Dev nD × Fin 93 → ℕ) (W : Waits sig Unit) (f0 : Buf (Elt F) ((c : Thread nD τ).loc cc0_scratch0)),
      ctx0 m K c W ∗ extras m c f0) := by
  unfold bodyPre' Φ₀ start ghost credits
  iintro ⟨⟨⟨⟨%K, #HR, Hposs, Hpay, Hown⟩, ⟨Hc0, Hcr⟩, #HL⟩, ⟨%f0, Hs⟩, Ho⟩, ⟨%W, %hW, HO⟩, ⟨%d, %g, %hg, Hx⟩⟩
  rw [before_eq] at hg
  subst hg
  ihave Hx := (Entails.of_eq (whole_blk_eq m c fullShare)) $$ Hx
  ihave ⟨X0, ⟨Xa, Ra⟩, ⟨Xb, Rb⟩, ⟨Xc, Rc⟩, ⟨Xd, Rd⟩⟩ := (blk_chain m c) $$ Hx
  ihave ⟨B0, B1, B2, B3, Sown⟩ := (stage_chain c f0) $$ Hs
  ihave ⟨O_00, O_01, O_02, O_10, O_11, O_12, O_20, O_21, O_22, O_30, O_31, O_32, O_40, O_41, O_42, O_50, O_51, O_52, O_60, O_61, O_62, O_70, O_71, O_72, O_80, O_81, O_82, O_90, O_91, O_92, O_own⟩ := (out_chain m c) $$ Ho
  ihave ⟨P0, P1, P2, P3, P4, P5, P6, P7, P8, P9, P10, P11, P12, P13, P14, P15, P16, P17, P18, P19, P20, P21, P22, P23, P24, P25, P26, P27, P28, P29, P30, P31, P32, P33, P34, P35, P36, P37, P38, P39, P40, P41, P42, P43, P44, P45, P46, P47, P48, P49, P50, P51, P52, P53, P54, P55, P56, P57, P58, P59, P60, P61, P62, P63, P64, P65, P66, P67, P68, P69, P70, P71, P72, P73, P74, P75, P76, P77, P78, P79, P80, P81, P82, P83, P84, P85, P86, P87, P88, P89, P90, P91, P92⟩ := (Entails.of_eq (poss_chain (F := F) c)) $$ Hposs
  ihave ⟨T_b0, T_b1, T_b2, T_b3, T_r00, T_r01, T_r02, T_r10, T_r11, T_r12, T_r20, T_r21, T_r22, T_r30, T_r31, T_r32, T_r40, T_r41, T_r42, T_r50, T_r51, T_r52, T_r60, T_r61, T_r62, T_r70, T_r71, T_r72, T_r80, T_r81, T_r82, T_r90, T_r91, T_r92⟩ := (Entails.of_eq (payToks_chain (F := F) c)) $$ Hpay
  ihave ⟨N_s00, N_s01, N_s02, N_s10, N_s11, N_s12, N_s20, N_s21, N_s22, N_s30, N_s31, N_s32, N_s40, N_s41, N_s42, N_s50, N_s51, N_s52, N_s60, N_s61, N_s62, N_s70, N_s71, N_s72, N_s80, N_s81, N_s82, N_s90, N_s91, N_s92, N_c0, N_c1, N_c2, N_c3, N_c4, N_c5, N_c6, N_c7, N_c8, N_c9, N_c10, N_c11, N_c12, N_c13, N_c14, N_c15, N_c16, N_c17, N_c18, N_c19, N_c20, N_c21, N_c22, N_c23, N_c24, N_c25, N_c26, N_c27, N_c28, N_c29, N_c31⟩ := (Entails.of_eq (ownToks_chain (F := F) c)) $$ Hown
  ihave ⟨C_r00, C_r01, C_r02, C_r10, C_r11, C_r12, C_r20, C_r21, C_r22, C_r30, C_r31, C_r32, C_r40, C_r41, C_r42, C_r50, C_r51, C_r52, C_r60, C_r61, C_r62, C_r70, C_r71, C_r72, C_r80, C_r81, C_r82, C_r90, C_r91, C_r92⟩ := (Entails.of_eq (credits_chain (F := F) c)) $$ Hcr
  iexists K; iexists W; iexists f0
  unfold ctx0 extras
  isplitr [P91 Sown Ra Rb Rc Rd]
  · isplitr; · iexact HR
    isplitr; · iexact HL
    isplitl [HO]; · iexact HO
    isplitl [T_b0]; · iexact T_b0
    isplitl [B0]; · iexact B0
    isplitl [T_b1]; · iexact T_b1
    isplitl [B1]; · iexact B1
    isplitl [T_b2]; · iexact T_b2
    isplitl [B2]; · iexact B2
    isplitl [T_b3]; · iexact T_b3
    isplitl [B3]; · iexact B3
    isplitl [Hc0]; · iexact Hc0
    isplitl [P0]; · iexact P0
    isplitl [Xa]; · iexact Xa
    isplitl [N_s00]; · iexact N_s00
    isplitl [T_r00]; · iexact T_r00
    isplitl [Xb]; · iexact Xb
    isplitl [N_s20]; · iexact N_s20
    isplitl [T_r20]; · iexact T_r20
    isplitl [Xc]; · iexact Xc
    isplitl [N_s10]; · iexact N_s10
    isplitl [T_r10]; · iexact T_r10
    isplitl [Xd]; · iexact Xd
    isplitl [N_s30]; · iexact N_s30
    isplitl [T_r30]; · iexact T_r30
    isplitl [X0]; · iexact X0
    isplitl [O_own]; · iexact O_own
    isplitl [N_c31]; · iexact N_c31
    isplitl [C_r00]; · iexact C_r00
    isplitl [P31]; · iexact P31
    isplitl [O_00]; · iexact O_00
    isplitl [N_c0]; · iexact N_c0
    isplitl [N_s01]; · iexact N_s01
    isplitl [T_r01]; · iexact T_r01
    isplitl [N_s40]; · iexact N_s40
    isplitl [T_r40]; · iexact T_r40
    isplitl [N_s60]; · iexact N_s60
    isplitl [T_r60]; · iexact T_r60
    isplitl [C_r20]; · iexact C_r20
    isplitl [P37]; · iexact P37
    isplitl [O_20]; · iexact O_20
    isplitl [N_c1]; · iexact N_c1
    isplitl [N_s21]; · iexact N_s21
    isplitl [T_r21]; · iexact T_r21
    isplitl [N_s50]; · iexact N_s50
    isplitl [T_r50]; · iexact T_r50
    isplitl [N_s70]; · iexact N_s70
    isplitl [T_r70]; · iexact T_r70
    isplitl [C_r10]; · iexact C_r10
    isplitl [P34]; · iexact P34
    isplitl [O_10]; · iexact O_10
    isplitl [N_c2]; · iexact N_c2
    isplitl [N_s11]; · iexact N_s11
    isplitl [T_r11]; · iexact T_r11
    isplitl [C_r30]; · iexact C_r30
    isplitl [P40]; · iexact P40
    isplitl [O_30]; · iexact O_30
    isplitl [N_c3]; · iexact N_c3
    isplitl [N_s31]; · iexact N_s31
    isplitl [T_r31]; · iexact T_r31
    isplitl [C_r60]; · iexact C_r60
    isplitl [P49]; · iexact P49
    isplitl [O_60]; · iexact O_60
    isplitl [N_c4]; · iexact N_c4
    isplitl [N_s90]; · iexact N_s90
    isplitl [T_r90]; · iexact T_r90
    isplitl [C_r50]; · iexact C_r50
    isplitl [P46]; · iexact P46
    isplitl [O_50]; · iexact O_50
    isplitl [N_c5]; · iexact N_c5
    isplitl [N_s80]; · iexact N_s80
    isplitl [T_r80]; · iexact T_r80
    isplitl [C_r40]; · iexact C_r40
    isplitl [P43]; · iexact P43
    isplitl [O_40]; · iexact O_40
    isplitl [N_c6]; · iexact N_c6
    isplitl [C_r70]; · iexact C_r70
    isplitl [P52]; · iexact P52
    isplitl [O_70]; · iexact O_70
    isplitl [N_c7]; · iexact N_c7
    isplitl [C_r01]; · iexact C_r01
    isplitl [P32]; · iexact P32
    isplitl [O_01]; · iexact O_01
    isplitl [N_c8]; · iexact N_c8
    isplitl [N_s02]; · iexact N_s02
    isplitl [T_r02]; · iexact T_r02
    isplitl [N_s41]; · iexact N_s41
    isplitl [T_r41]; · iexact T_r41
    isplitl [N_s61]; · iexact N_s61
    isplitl [T_r61]; · iexact T_r61
    isplitl [C_r21]; · iexact C_r21
    isplitl [P38]; · iexact P38
    isplitl [O_21]; · iexact O_21
    isplitl [N_c9]; · iexact N_c9
    isplitl [N_s22]; · iexact N_s22
    isplitl [T_r22]; · iexact T_r22
    isplitl [N_s51]; · iexact N_s51
    isplitl [T_r51]; · iexact T_r51
    isplitl [N_s71]; · iexact N_s71
    isplitl [T_r71]; · iexact T_r71
    isplitl [C_r11]; · iexact C_r11
    isplitl [P35]; · iexact P35
    isplitl [O_11]; · iexact O_11
    isplitl [N_c10]; · iexact N_c10
    isplitl [N_s12]; · iexact N_s12
    isplitl [T_r12]; · iexact T_r12
    isplitl [C_r31]; · iexact C_r31
    isplitl [P41]; · iexact P41
    isplitl [O_31]; · iexact O_31
    isplitl [N_c11]; · iexact N_c11
    isplitl [N_s32]; · iexact N_s32
    isplitl [T_r32]; · iexact T_r32
    isplitl [C_r61]; · iexact C_r61
    isplitl [P50]; · iexact P50
    isplitl [O_61]; · iexact O_61
    isplitl [N_c12]; · iexact N_c12
    isplitl [N_s91]; · iexact N_s91
    isplitl [T_r91]; · iexact T_r91
    isplitl [C_r51]; · iexact C_r51
    isplitl [P47]; · iexact P47
    isplitl [O_51]; · iexact O_51
    isplitl [N_c13]; · iexact N_c13
    isplitl [N_s81]; · iexact N_s81
    isplitl [T_r81]; · iexact T_r81
    isplitl [C_r41]; · iexact C_r41
    isplitl [P44]; · iexact P44
    isplitl [O_41]; · iexact O_41
    isplitl [N_c14]; · iexact N_c14
    isplitl [C_r71]; · iexact C_r71
    isplitl [P53]; · iexact P53
    isplitl [O_71]; · iexact O_71
    isplitl [N_c15]; · iexact N_c15
    isplitl [C_r02]; · iexact C_r02
    isplitl [P33]; · iexact P33
    isplitl [O_02]; · iexact O_02
    isplitl [N_c16]; · iexact N_c16
    isplitl [N_s42]; · iexact N_s42
    isplitl [T_r42]; · iexact T_r42
    isplitl [N_s62]; · iexact N_s62
    isplitl [T_r62]; · iexact T_r62
    isplitl [C_r22]; · iexact C_r22
    isplitl [P39]; · iexact P39
    isplitl [O_22]; · iexact O_22
    isplitl [N_c17]; · iexact N_c17
    isplitl [N_s52]; · iexact N_s52
    isplitl [T_r52]; · iexact T_r52
    isplitl [N_s72]; · iexact N_s72
    isplitl [T_r72]; · iexact T_r72
    isplitl [C_r12]; · iexact C_r12
    isplitl [P36]; · iexact P36
    isplitl [O_12]; · iexact O_12
    isplitl [N_c18]; · iexact N_c18
    isplitl [C_r32]; · iexact C_r32
    isplitl [P42]; · iexact P42
    isplitl [O_32]; · iexact O_32
    isplitl [N_c19]; · iexact N_c19
    isplitl [C_r62]; · iexact C_r62
    isplitl [P51]; · iexact P51
    isplitl [O_62]; · iexact O_62
    isplitl [N_c20]; · iexact N_c20
    isplitl [N_s92]; · iexact N_s92
    isplitl [T_r92]; · iexact T_r92
    isplitl [C_r52]; · iexact C_r52
    isplitl [P48]; · iexact P48
    isplitl [O_52]; · iexact O_52
    isplitl [N_c21]; · iexact N_c21
    isplitl [N_s82]; · iexact N_s82
    isplitl [T_r82]; · iexact T_r82
    isplitl [C_r42]; · iexact C_r42
    isplitl [P45]; · iexact P45
    isplitl [O_42]; · iexact O_42
    isplitl [N_c22]; · iexact N_c22
    isplitl [C_r72]; · iexact C_r72
    isplitl [P54]; · iexact P54
    isplitl [O_72]; · iexact O_72
    isplitl [N_c23]; · iexact N_c23
    isplitl [C_r90]; · iexact C_r90
    isplitl [P58]; · iexact P58
    isplitl [O_90]; · iexact O_90
    isplitl [N_c24]; · iexact N_c24
    isplitl [C_r80]; · iexact C_r80
    isplitl [P55]; · iexact P55
    isplitl [O_80]; · iexact O_80
    isplitl [N_c25]; · iexact N_c25
    isplitl [C_r91]; · iexact C_r91
    isplitl [P59]; · iexact P59
    isplitl [O_91]; · iexact O_91
    isplitl [N_c26]; · iexact N_c26
    isplitl [C_r81]; · iexact C_r81
    isplitl [P56]; · iexact P56
    isplitl [O_81]; · iexact O_81
    isplitl [N_c27]; · iexact N_c27
    isplitl [C_r92]; · iexact C_r92
    isplitl [P60]; · iexact P60
    isplitl [O_92]; · iexact O_92
    isplitl [N_c28]; · iexact N_c28
    isplitl [C_r82]; · iexact C_r82
    isplitl [P57]; · iexact P57
    isplitl [O_82]; · iexact O_82
    isplitl [N_c29]; · iexact N_c29
    isplitl [P1]; · iexact P1
    isplitl [P7]; · iexact P7
    isplitl [P4]; · iexact P4
    isplitl [P10]; · iexact P10
    isplitl [P2]; · iexact P2
    isplitl [P13]; · iexact P13
    isplitl [P19]; · iexact P19
    isplitl [P8]; · iexact P8
    isplitl [P16]; · iexact P16
    isplitl [P22]; · iexact P22
    isplitl [P5]; · iexact P5
    isplitl [P11]; · iexact P11
    isplitl [P28]; · iexact P28
    isplitl [P25]; · iexact P25
    isplitl [P3]; · iexact P3
    isplitl [P14]; · iexact P14
    isplitl [P20]; · iexact P20
    isplitl [P9]; · iexact P9
    isplitl [P17]; · iexact P17
    isplitl [P23]; · iexact P23
    isplitl [P6]; · iexact P6
    isplitl [P12]; · iexact P12
    isplitl [P29]; · iexact P29
    isplitl [P26]; · iexact P26
    isplitl [P15]; · iexact P15
    isplitl [P21]; · iexact P21
    isplitl [P18]; · iexact P18
    isplitl [P24]; · iexact P24
    isplitl [P30]; · iexact P30
    isplitl [P27]; · iexact P27
    isplitl [P61]; · iexact P61
    isplitl [P62]; · iexact P62
    isplitl [P63]; · iexact P63
    isplitl [P64]; · iexact P64
    isplitl [P65]; · iexact P65
    isplitl [P66]; · iexact P66
    isplitl [P67]; · iexact P67
    isplitl [P68]; · iexact P68
    isplitl [P69]; · iexact P69
    isplitl [P70]; · iexact P70
    isplitl [P71]; · iexact P71
    isplitl [P72]; · iexact P72
    isplitl [P73]; · iexact P73
    isplitl [P74]; · iexact P74
    isplitl [P75]; · iexact P75
    isplitl [P76]; · iexact P76
    isplitl [P77]; · iexact P77
    isplitl [P78]; · iexact P78
    isplitl [P79]; · iexact P79
    isplitl [P80]; · iexact P80
    isplitl [P81]; · iexact P81
    isplitl [P82]; · iexact P82
    isplitl [P83]; · iexact P83
    isplitl [P84]; · iexact P84
    isplitl [P85]; · iexact P85
    isplitl [P86]; · iexact P86
    isplitl [P87]; · iexact P87
    isplitl [P88]; · iexact P88
    isplitl [P89]; · iexact P89
    isplitl [P90]; · iexact P90
    iexact P92
  · isplitl [P91]; · iexact P91
    isplitl [Sown]; · iexact Sown
    isplitl [Ra]; · iexact Ra
    isplitl [Rb]; · iexact Rb
    isplitl [Rc]; · iexact Rc
    iexact Rd

end Cert.Kernel.AG

end
-- ==== Proof.Bits.PostCtx.lean ====
/-
  The end of the body: what the parts have left is what the device holds at the end.

  The ninety-one counters the waits left at zero and the counter of the copy cell no transfer pays, closed as it stands,
  are the ninety-two DMA semaphores at zero.  The thirty-one pieces of the result are the result at its final contents.
  The shares of every landed band that came back are put together band by band, and with the own block's rows the
  thirty-one bands are the whole scratch array at some contents.  The five shares of the staged block are the staged
  block.  Nothing is owed any more.
-/
import proofs.«900685_g7700000000000686_dist_ag_v7x_xyz2x2x4_z_m2048_n512_f32_1_alg».proof.Proof.Bits.Oblig
import proofs.«900685_g7700000000000686_dist_ag_v7x_xyz2x2x4_z_m2048_n512_f32_1_alg».proof.Proof.Bits.WaitSteps

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The ninety-two counters -/

omit [FloatOps F] in
theorem ownZero_chain (c : Dev nD) :
    (iprop(semVal (cell c (sndJ 0 0)) 0 ∗ semVal (cell c (sndJ 0 1)) 0 ∗ semVal (cell c (sndJ 0 2)) 0 ∗
        semVal (cell c (sndJ 1 0)) 0 ∗ semVal (cell c (sndJ 1 1)) 0 ∗ semVal (cell c (sndJ 1 2)) 0 ∗
        semVal (cell c (sndJ 2 0)) 0 ∗ semVal (cell c (sndJ 2 1)) 0 ∗ semVal (cell c (sndJ 2 2)) 0 ∗
        semVal (cell c (sndJ 3 0)) 0 ∗ semVal (cell c (sndJ 3 1)) 0 ∗ semVal (cell c (sndJ 3 2)) 0 ∗
        semVal (cell c (sndJ 4 0)) 0 ∗ semVal (cell c (sndJ 4 1)) 0 ∗ semVal (cell c (sndJ 4 2)) 0 ∗
        semVal (cell c (sndJ 5 0)) 0 ∗ semVal (cell c (sndJ 5 1)) 0 ∗ semVal (cell c (sndJ 5 2)) 0 ∗
        semVal (cell c (sndJ 6 0)) 0 ∗ semVal (cell c (sndJ 6 1)) 0 ∗ semVal (cell c (sndJ 6 2)) 0 ∗
        semVal (cell c (sndJ 7 0)) 0 ∗ semVal (cell c (sndJ 7 1)) 0 ∗ semVal (cell c (sndJ 7 2)) 0 ∗
        semVal (cell c (sndJ 8 0)) 0 ∗ semVal (cell c (sndJ 8 1)) 0 ∗ semVal (cell c (sndJ 8 2)) 0 ∗
        semVal (cell c (sndJ 9 0)) 0 ∗ semVal (cell c (sndJ 9 1)) 0 ∗ semVal (cell c (sndJ 9 2)) 0 ∗
        semVal (cell c (rcvJ 0 0)) 0 ∗ semVal (cell c (rcvJ 0 1)) 0 ∗ semVal (cell c (rcvJ 0 2)) 0 ∗
        semVal (cell c (rcvJ 1 0)) 0 ∗ semVal (cell c (rcvJ 1 1)) 0 ∗ semVal (cell c (rcvJ 1 2)) 0 ∗
        semVal (cell c (rcvJ 2 0)) 0 ∗ semVal (cell c (rcvJ 2 1)) 0 ∗ semVal (cell c (rcvJ 2 2)) 0 ∗
        semVal (cell c (rcvJ 3 0)) 0 ∗ semVal (cell c (rcvJ 3 1)) 0 ∗ semVal (cell c (rcvJ 3 2)) 0 ∗
        semVal (cell c (rcvJ 4 0)) 0 ∗ semVal (cell c (rcvJ 4 1)) 0 ∗ semVal (cell c (rcvJ 4 2)) 0 ∗
        semVal (cell c (rcvJ 5 0)) 0 ∗ semVal (cell c (rcvJ 5 1)) 0 ∗ semVal (cell c (rcvJ 5 2)) 0 ∗
        semVal (cell c (rcvJ 6 0)) 0 ∗ semVal (cell c (rcvJ 6 1)) 0 ∗ semVal (cell c (rcvJ 6 2)) 0 ∗
        semVal (cell c (rcvJ 7 0)) 0 ∗ semVal (cell c (rcvJ 7 1)) 0 ∗ semVal (cell c (rcvJ 7 2)) 0 ∗
        semVal (cell c (rcvJ 8 0)) 0 ∗ semVal (cell c (rcvJ 8 1)) 0 ∗ semVal (cell c (rcvJ 8 2)) 0 ∗
        semVal (cell c (rcvJ 9 0)) 0 ∗ semVal (cell c (rcvJ 9 1)) 0 ∗ semVal (cell c (rcvJ 9 2)) 0 ∗
        semVal (cell c (cpJ 0)) 0 ∗ semVal (cell c (cpJ 1)) 0 ∗ semVal (cell c (cpJ 2)) 0 ∗
        semVal (cell c (cpJ 3)) 0 ∗ semVal (cell c (cpJ 4)) 0 ∗ semVal (cell c (cpJ 5)) 0 ∗
        semVal (cell c (cpJ 6)) 0 ∗ semVal (cell c (cpJ 7)) 0 ∗ semVal (cell c (cpJ 8)) 0 ∗
        semVal (cell c (cpJ 9)) 0 ∗ semVal (cell c (cpJ 10)) 0 ∗ semVal (cell c (cpJ 11)) 0 ∗
        semVal (cell c (cpJ 12)) 0 ∗ semVal (cell c (cpJ 13)) 0 ∗ semVal (cell c (cpJ 14)) 0 ∗
        semVal (cell c (cpJ 15)) 0 ∗ semVal (cell c (cpJ 16)) 0 ∗ semVal (cell c (cpJ 17)) 0 ∗
        semVal (cell c (cpJ 18)) 0 ∗ semVal (cell c (cpJ 19)) 0 ∗ semVal (cell c (cpJ 20)) 0 ∗
        semVal (cell c (cpJ 21)) 0 ∗ semVal (cell c (cpJ 22)) 0 ∗ semVal (cell c (cpJ 23)) 0 ∗
        semVal (cell c (cpJ 24)) 0 ∗ semVal (cell c (cpJ 25)) 0 ∗ semVal (cell c (cpJ 26)) 0 ∗
        semVal (cell c (cpJ 27)) 0 ∗ semVal (cell c (cpJ 28)) 0 ∗ semVal (cell c (cpJ 29)) 0 ∗
        semVal (cell c (cpJ 30)) 0 ∗ semVal (cell c (cpJ 31)) 0) : sProp 𝕄) ⊢ ownZero (F := F) c := by
  unfold ownZero
  exact Entails.of_eq rfl

/-! ## The result -/

theorem outPieces_chain (c : Dev nD) :
    (iprop(oPts c (2048 * (c.val % 4)) 2048 fullShare (Gd m c) ∗ oPts c (lo 0 0 c) 256 fullShare (Gd m (org 0 0 c)) ∗
        oPts c (lo 0 1 c) 256 fullShare (Gd m (org 0 1 c)) ∗ oPts c (lo 0 2 c) 256 fullShare (Gd m (org 0 2 c)) ∗
        oPts c (lo 1 0 c) 88 fullShare (Gd m (org 1 0 c)) ∗ oPts c (lo 1 1 c) 88 fullShare (Gd m (org 1 1 c)) ∗
        oPts c (lo 1 2 c) 88 fullShare (Gd m (org 1 2 c)) ∗ oPts c (lo 2 0 c) 256 fullShare (Gd m (org 2 0 c)) ∗
        oPts c (lo 2 1 c) 256 fullShare (Gd m (org 2 1 c)) ∗ oPts c (lo 2 2 c) 256 fullShare (Gd m (org 2 2 c)) ∗
        oPts c (lo 3 0 c) 88 fullShare (Gd m (org 3 0 c)) ∗ oPts c (lo 3 1 c) 88 fullShare (Gd m (org 3 1 c)) ∗
        oPts c (lo 3 2 c) 88 fullShare (Gd m (org 3 2 c)) ∗ oPts c (lo 4 0 c) 256 fullShare (Gd m (org 4 0 c)) ∗
        oPts c (lo 4 1 c) 256 fullShare (Gd m (org 4 1 c)) ∗ oPts c (lo 4 2 c) 256 fullShare (Gd m (org 4 2 c)) ∗
        oPts c (lo 5 0 c) 256 fullShare (Gd m (org 5 0 c)) ∗ oPts c (lo 5 1 c) 256 fullShare (Gd m (org 5 1 c)) ∗
        oPts c (lo 5 2 c) 256 fullShare (Gd m (org 5 2 c)) ∗ oPts c (lo 6 0 c) 256 fullShare (Gd m (org 6 0 c)) ∗
        oPts c (lo 6 1 c) 256 fullShare (Gd m (org 6 1 c)) ∗ oPts c (lo 6 2 c) 256 fullShare (Gd m (org 6 2 c)) ∗
        oPts c (lo 7 0 c) 256 fullShare (Gd m (org 7 0 c)) ∗ oPts c (lo 7 1 c) 256 fullShare (Gd m (org 7 1 c)) ∗
        oPts c (lo 7 2 c) 256 fullShare (Gd m (org 7 2 c)) ∗ oPts c (lo 8 0 c) 168 fullShare (Gd m (org 8 0 c)) ∗
        oPts c (lo 8 1 c) 168 fullShare (Gd m (org 8 1 c)) ∗ oPts c (lo 8 2 c) 168 fullShare (Gd m (org 8 2 c)) ∗
        oPts c (lo 9 0 c) 168 fullShare (Gd m (org 9 0 c)) ∗ oPts c (lo 9 1 c) 168 fullShare (Gd m (org 9 1 c)) ∗
        oPts c (lo 9 2 c) 168 fullShare (Gd m (org 9 2 c))) : sProp 𝕄) ⊢ outPieces m c := by
  unfold outPieces
  exact Entails.of_eq rfl

/-! ## The scratch array -/

omit [FloatOps F] in
theorem exI (c : Dev nD) (a n : ℕ) (X : (cc0_scratch0 : Ref sig .tc).ty.Contents (Elt F)) :
    sPts c a n fullShare X ⊢ (iprop(∃ g : (cc0_scratch0 : Ref sig .tc).ty.Contents (Elt F), sPts (F := F) c a n fullShare g) : sProp 𝕄) := by
  iintro H; iexists X; iexact H

/-- Four shares of a band of 256 rows make the band whole, at some contents. -/
theorem back4 (c : Dev nD) (a : ℕ) (X : (cc0_scratch0 : Ref sig .tc).ty.Contents (Elt F)) :
    iprop(sPts c a 256 fullShare.left X ∗ sPts c a 256 fullShare.right.left X ∗ sPts c a 256 fullShare.right.right.left X
      ∗ sPts c a 256 fullShare.right.right.right X)
      ⊢ (iprop(∃ g : (cc0_scratch0 : Ref sig .tc).ty.Contents (Elt F), sPts (F := F) c a 256 fullShare g) : sProp 𝕄) :=
  (sPts_deal4 c a 256 X).2.trans (exI c a 256 X)

omit [FloatOps F] in
/-- Two shares of a band of 88 rows make the band whole. -/
theorem back2 (c : Dev nD) (a : ℕ) (X : (cc0_scratch0 : Ref sig .tc).ty.Contents (Elt F)) :
    iprop(sPts c a 88 fullShare.left X ∗ sPts c a 88 fullShare.right X)
      ⊢ (iprop(∃ g : (cc0_scratch0 : Ref sig .tc).ty.Contents (Elt F), sPts (F := F) c a 88 fullShare g) : sProp 𝕄) :=
  (sPts_share c a 88 fullShare X).2.trans (exI c a 88 X)

/-- One half of a band of 256 rows, and the other half on its first 88 and last 168 rows, make the band whole. -/
theorem back3 (c : Dev nD) (a : ℕ) (X : (cc0_scratch0 : Ref sig .tc).ty.Contents (Elt F)) :
    iprop(sPts c a 256 fullShare.left X ∗ sPts c a 88 fullShare.right X ∗ sPts c (a + 88) 168 fullShare.right X)
      ⊢ (iprop(∃ g : (cc0_scratch0 : Ref sig .tc).ty.Contents (Elt F), sPts (F := F) c a 256 fullShare g) : sProp 𝕄) :=
  (sPts_deal3 c a X).2.trans (exI c a 256 X)

omit [FloatOps F] in
/-- The thirty bands and the own block's rows, each whole at some contents, are the scratch array whole. -/
theorem join_lit (c : Dev nD) :
    (iprop((∃ g : (cc0_scratch0 : Ref sig .tc).ty.Contents (Elt F), sPts (F := F) c (lo 0 0 c) 256 fullShare g) ∗
        (∃ g : (cc0_scratch0 : Ref sig .tc).ty.Contents (Elt F), sPts (F := F) c (lo 0 1 c) 256 fullShare g) ∗
        (∃ g : (cc0_scratch0 : Ref sig .tc).ty.Contents (Elt F), sPts (F := F) c (lo 0 2 c) 256 fullShare g) ∗
        (∃ g : (cc0_scratch0 : Ref sig .tc).ty.Contents (Elt F), sPts (F := F) c (lo 1 0 c) 88 fullShare g) ∗
        (∃ g : (cc0_scratch0 : Ref sig .tc).ty.Contents (Elt F), sPts (F := F) c (lo 1 1 c) 88 fullShare g) ∗
        (∃ g : (cc0_scratch0 : Ref sig .tc).ty.Contents (Elt F), sPts (F := F) c (lo 1 2 c) 88 fullShare g) ∗
        (∃ g : (cc0_scratch0 : Ref sig .tc).ty.Contents (Elt F), sPts (F := F) c (lo 2 0 c) 256 fullShare g) ∗
        (∃ g : (cc0_scratch0 : Ref sig .tc).ty.Contents (Elt F), sPts (F := F) c (lo 2 1 c) 256 fullShare g) ∗
        (∃ g : (cc0_scratch0 : Ref sig .tc).ty.Contents (Elt F), sPts (F := F) c (lo 2 2 c) 256 fullShare g) ∗
        (∃ g : (cc0_scratch0 : Ref sig .tc).ty.Contents (Elt F), sPts (F := F) c (lo 3 0 c) 88 fullShare g) ∗
        (∃ g : (cc0_scratch0 : Ref sig .tc).ty.Contents (Elt F), sPts (F := F) c (lo 3 1 c) 88 fullShare g) ∗
        (∃ g : (cc0_scratch0 : Ref sig .tc).ty.Contents (Elt F), sPts (F := F) c (lo 3 2 c) 88 fullShare g) ∗
        (∃ g : (cc0_scratch0 : Ref sig .tc).ty.Contents (Elt F), sPts (F := F) c (lo 4 0 c) 256 fullShare g) ∗
        (∃ g : (cc0_scratch0 : Ref sig .tc).ty.Contents (Elt F), sPts (F := F) c (lo 4 1 c) 256 fullShare g) ∗
        (∃ g : (cc0_scratch0 : Ref sig .tc).ty.Contents (Elt F), sPts (F := F) c (lo 4 2 c) 256 fullShare g) ∗
        (∃ g : (cc0_scratch0 : Ref sig .tc).ty.Contents (Elt F), sPts (F := F) c (lo 5 0 c) 256 fullShare g) ∗
        (∃ g : (cc0_scratch0 : Ref sig .tc).ty.Contents (Elt F), sPts (F := F) c (lo 5 1 c) 256 fullShare g) ∗
        (∃ g : (cc0_scratch0 : Ref sig .tc).ty.Contents (Elt F), sPts (F := F) c (lo 5 2 c) 256 fullShare g) ∗
        (∃ g : (cc0_scratch0 : Ref sig .tc).ty.Contents (Elt F), sPts (F := F) c (lo 6 0 c) 256 fullShare g) ∗
        (∃ g : (cc0_scratch0 : Ref sig .tc).ty.Contents (Elt F), sPts (F := F) c (lo 6 1 c) 256 fullShare g) ∗
        (∃ g : (cc0_scratch0 : Ref sig .tc).ty.Contents (Elt F), sPts (F := F) c (lo 6 2 c) 256 fullShare g) ∗
        (∃ g : (cc0_scratch0 : Ref sig .tc).ty.Contents (Elt F), sPts (F := F) c (lo 7 0 c) 256 fullShare g) ∗
        (∃ g : (cc0_scratch0 : Ref sig .tc).ty.Contents (Elt F), sPts (F := F) c (lo 7 1 c) 256 fullShare g) ∗
        (∃ g : (cc0_scratch0 : Ref sig .tc).ty.Contents (Elt F), sPts (F := F) c (lo 7 2 c) 256 fullShare g) ∗
        (∃ g : (cc0_scratch0 : Ref sig .tc).ty.Contents (Elt F), sPts (F := F) c (lo 8 0 c) 168 fullShare g) ∗
        (∃ g : (cc0_scratch0 : Ref sig .tc).ty.Contents (Elt F), sPts (F := F) c (lo 8 1 c) 168 fullShare g) ∗
        (∃ g : (cc0_scratch0 : Ref sig .tc).ty.Contents (Elt F), sPts (F := F) c (lo 8 2 c) 168 fullShare g) ∗
        (∃ g : (cc0_scratch0 : Ref sig .tc).ty.Contents (Elt F), sPts (F := F) c (lo 9 0 c) 168 fullShare g) ∗
        (∃ g : (cc0_scratch0 : Ref sig .tc).ty.Contents (Elt F), sPts (F := F) c (lo 9 1 c) 168 fullShare g) ∗
        (∃ g : (cc0_scratch0 : Ref sig .tc).ty.Contents (Elt F), sPts (F := F) c (lo 9 2 c) 168 fullShare g) ∗
        (∃ g : (cc0_scratch0 : Ref sig .tc).ty.Contents (Elt F), sPts (F := F) c (2048 * (c.val % 4)) 2048 fullShare g)) : sProp 𝕄)
      ⊢ iprop(∃ g : (cc0_scratch0 : Ref sig .tc).ty.Contents (Elt F), ((c : Thread nD τ).loc cc0_scratch0) ↦{fullShare} g) :=
  join_bands_s (F := F) c

/-- The shares of the thirty landed bands that came back, band by band, and the own block's rows: the whole array. -/
theorem stage_back (c : Dev nD) (f0 : Buf (Elt F) ((c : Thread nD τ).loc cc0_scratch0)) :
    (iprop((sPts c (lo 0 0 c) 256 fullShare.left (Gd m (org 0 0 c)) ∗ sPts c (lo 0 0 c) 256 fullShare.right.left (Gd m (org 0 0 c)) ∗ sPts c (lo 0 0 c) 256 fullShare.right.right.left (Gd m (org 0 0 c)) ∗ sPts c (lo 0 0 c) 256 fullShare.right.right.right (Gd m (org 0 0 c))) ∗
        (sPts c (lo 0 1 c) 256 fullShare.left (Gd m (org 0 1 c)) ∗ sPts c (lo 0 1 c) 256 fullShare.right.left (Gd m (org 0 1 c)) ∗ sPts c (lo 0 1 c) 256 fullShare.right.right.left (Gd m (org 0 1 c)) ∗ sPts c (lo 0 1 c) 256 fullShare.right.right.right (Gd m (org 0 1 c))) ∗
        (sPts c (lo 0 2 c) 256 fullShare.left (Gd m (org 0 2 c)) ∗ sPts c (lo 0 2 c) 256 fullShare.right.left (Gd m (org 0 2 c)) ∗ sPts c (lo 0 2 c) 256 fullShare.right.right.left (Gd m (org 0 2 c)) ∗ sPts c (lo 0 2 c) 256 fullShare.right.right.right (Gd m (org 0 2 c))) ∗
        (sPts c (lo 1 0 c) 88 fullShare.left (Gd m (org 1 0 c)) ∗ sPts c (lo 1 0 c) 88 fullShare.right (Gd m (org 1 0 c))) ∗
        (sPts c (lo 1 1 c) 88 fullShare.left (Gd m (org 1 1 c)) ∗ sPts c (lo 1 1 c) 88 fullShare.right (Gd m (org 1 1 c))) ∗
        (sPts c (lo 1 2 c) 88 fullShare.left (Gd m (org 1 2 c)) ∗ sPts c (lo 1 2 c) 88 fullShare.right (Gd m (org 1 2 c))) ∗
        (sPts c (lo 2 0 c) 256 fullShare.left (Gd m (org 2 0 c)) ∗ sPts c (lo 2 0 c) 256 fullShare.right.left (Gd m (org 2 0 c)) ∗ sPts c (lo 2 0 c) 256 fullShare.right.right.left (Gd m (org 2 0 c)) ∗ sPts c (lo 2 0 c) 256 fullShare.right.right.right (Gd m (org 2 0 c))) ∗
        (sPts c (lo 2 1 c) 256 fullShare.left (Gd m (org 2 1 c)) ∗ sPts c (lo 2 1 c) 256 fullShare.right.left (Gd m (org 2 1 c)) ∗ sPts c (lo 2 1 c) 256 fullShare.right.right.left (Gd m (org 2 1 c)) ∗ sPts c (lo 2 1 c) 256 fullShare.right.right.right (Gd m (org 2 1 c))) ∗
        (sPts c (lo 2 2 c) 256 fullShare.left (Gd m (org 2 2 c)) ∗ sPts c (lo 2 2 c) 256 fullShare.right.left (Gd m (org 2 2 c)) ∗ sPts c (lo 2 2 c) 256 fullShare.right.right.left (Gd m (org 2 2 c)) ∗ sPts c (lo 2 2 c) 256 fullShare.right.right.right (Gd m (org 2 2 c))) ∗
        (sPts c (lo 3 0 c) 88 fullShare.left (Gd m (org 3 0 c)) ∗ sPts c (lo 3 0 c) 88 fullShare.right (Gd m (org 3 0 c))) ∗
        (sPts c (lo 3 1 c) 88 fullShare.left (Gd m (org 3 1 c)) ∗ sPts c (lo 3 1 c) 88 fullShare.right (Gd m (org 3 1 c))) ∗
        (sPts c (lo 3 2 c) 88 fullShare.left (Gd m (org 3 2 c)) ∗ sPts c (lo 3 2 c) 88 fullShare.right (Gd m (org 3 2 c))) ∗
        sPts c (lo 4 0 c) 256 fullShare (Gd m (org 4 0 c)) ∗
        sPts c (lo 4 1 c) 256 fullShare (Gd m (org 4 1 c)) ∗
        sPts c (lo 4 2 c) 256 fullShare (Gd m (org 4 2 c)) ∗
        (sPts c (lo 5 0 c) 256 fullShare.left (Gd m (org 5 0 c)) ∗ sPts c (lo 5 0 c) 88 fullShare.right (Gd m (org 5 0 c)) ∗ sPts c (lo 5 0 c + 88) 168 fullShare.right (Gd m (org 5 0 c))) ∗
        (sPts c (lo 5 1 c) 256 fullShare.left (Gd m (org 5 1 c)) ∗ sPts c (lo 5 1 c) 88 fullShare.right (Gd m (org 5 1 c)) ∗ sPts c (lo 5 1 c + 88) 168 fullShare.right (Gd m (org 5 1 c))) ∗
        (sPts c (lo 5 2 c) 256 fullShare.left (Gd m (org 5 2 c)) ∗ sPts c (lo 5 2 c) 88 fullShare.right (Gd m (org 5 2 c)) ∗ sPts c (lo 5 2 c + 88) 168 fullShare.right (Gd m (org 5 2 c))) ∗
        (sPts c (lo 6 0 c) 256 fullShare.left (Gd m (org 6 0 c)) ∗ sPts c (lo 6 0 c) 88 fullShare.right (Gd m (org 6 0 c)) ∗ sPts c (lo 6 0 c + 88) 168 fullShare.right (Gd m (org 6 0 c))) ∗
        (sPts c (lo 6 1 c) 256 fullShare.left (Gd m (org 6 1 c)) ∗ sPts c (lo 6 1 c) 88 fullShare.right (Gd m (org 6 1 c)) ∗ sPts c (lo 6 1 c + 88) 168 fullShare.right (Gd m (org 6 1 c))) ∗
        (sPts c (lo 6 2 c) 256 fullShare.left (Gd m (org 6 2 c)) ∗ sPts c (lo 6 2 c) 88 fullShare.right (Gd m (org 6 2 c)) ∗ sPts c (lo 6 2 c + 88) 168 fullShare.right (Gd m (org 6 2 c))) ∗
        sPts c (lo 7 0 c) 256 fullShare (Gd m (org 7 0 c)) ∗
        sPts c (lo 7 1 c) 256 fullShare (Gd m (org 7 1 c)) ∗
        sPts c (lo 7 2 c) 256 fullShare (Gd m (org 7 2 c)) ∗
        sPts c (lo 8 0 c) 168 fullShare (Gd m (org 8 0 c)) ∗
        sPts c (lo 8 1 c) 168 fullShare (Gd m (org 8 1 c)) ∗
        sPts c (lo 8 2 c) 168 fullShare (Gd m (org 8 2 c)) ∗
        sPts c (lo 9 0 c) 168 fullShare (Gd m (org 9 0 c)) ∗
        sPts c (lo 9 1 c) 168 fullShare (Gd m (org 9 1 c)) ∗
        sPts c (lo 9 2 c) 168 fullShare (Gd m (org 9 2 c)) ∗
        sPts c (2048 * (c.val % 4)) 2048 fullShare f0) : sProp 𝕄)
      ⊢ iprop(∃ g : (cc0_scratch0 : Ref sig .tc).ty.Contents (Elt F), ((c : Thread nD τ).loc cc0_scratch0) ↦{fullShare} g) := by
  iintro ⟨⟨G00_0, G00_1, G00_2, G00_3⟩, ⟨G01_0, G01_1, G01_2, G01_3⟩, ⟨G02_0, G02_1, G02_2, G02_3⟩, ⟨G10_0, G10_1⟩, ⟨G11_0, G11_1⟩, ⟨G12_0, G12_1⟩, ⟨G20_0, G20_1, G20_2, G20_3⟩, ⟨G21_0, G21_1, G21_2, G21_3⟩, ⟨G22_0, G22_1, G22_2, G22_3⟩, ⟨G30_0, G30_1⟩, ⟨G31_0, G31_1⟩, ⟨G32_0, G32_1⟩, G40, G41, G42, ⟨G50_0, G50_1, G50_2⟩, ⟨G51_0, G51_1, G51_2⟩, ⟨G52_0, G52_1, G52_2⟩, ⟨G60_0, G60_1, G60_2⟩, ⟨G61_0, G61_1, G61_2⟩, ⟨G62_0, G62_1, G62_2⟩, G70, G71, G72, G80, G81, G82, G90, G91, G92, Sown⟩
  iapply (join_lit (F := F) c)
  isplitl [G00_0 G00_1 G00_2 G00_3]
  · iapply (back4 c (lo 0 0 c) (Gd m (org 0 0 c)))
    isplitl [G00_0]; · iexact G00_0
    isplitl [G00_1]; · iexact G00_1
    isplitl [G00_2]; · iexact G00_2
    iexact G00_3
  isplitl [G01_0 G01_1 G01_2 G01_3]
  · iapply (back4 c (lo 0 1 c) (Gd m (org 0 1 c)))
    isplitl [G01_0]; · iexact G01_0
    isplitl [G01_1]; · iexact G01_1
    isplitl [G01_2]; · iexact G01_2
    iexact G01_3
  isplitl [G02_0 G02_1 G02_2 G02_3]
  · iapply (back4 c (lo 0 2 c) (Gd m (org 0 2 c)))
    isplitl [G02_0]; · iexact G02_0
    isplitl [G02_1]; · iexact G02_1
    isplitl [G02_2]; · iexact G02_2
    iexact G02_3
  isplitl [G10_0 G10_1]
  · iapply (back2 c (lo 1 0 c) (Gd m (org 1 0 c)))
    isplitl [G10_0]; · iexact G10_0
    iexact G10_1
  isplitl [G11_0 G11_1]
  · iapply (back2 c (lo 1 1 c) (Gd m (org 1 1 c)))
    isplitl [G11_0]; · iexact G11_0
    iexact G11_1
  isplitl [G12_0 G12_1]
  · iapply (back2 c (lo 1 2 c) (Gd m (org 1 2 c)))
    isplitl [G12_0]; · iexact G12_0
    iexact G12_1
  isplitl [G20_0 G20_1 G20_2 G20_3]
  · iapply (back4 c (lo 2 0 c) (Gd m (org 2 0 c)))
    isplitl [G20_0]; · iexact G20_0
    isplitl [G20_1]; · iexact G20_1
    isplitl [G20_2]; · iexact G20_2
    iexact G20_3
  isplitl [G21_0 G21_1 G21_2 G21_3]
  · iapply (back4 c (lo 2 1 c) (Gd m (org 2 1 c)))
    isplitl [G21_0]; · iexact G21_0
    isplitl [G21_1]; · iexact G21_1
    isplitl [G21_2]; · iexact G21_2
    iexact G21_3
  isplitl [G22_0 G22_1 G22_2 G22_3]
  · iapply (back4 c (lo 2 2 c) (Gd m (org 2 2 c)))
    isplitl [G22_0]; · iexact G22_0
    isplitl [G22_1]; · iexact G22_1
    isplitl [G22_2]; · iexact G22_2
    iexact G22_3
  isplitl [G30_0 G30_1]
  · iapply (back2 c (lo 3 0 c) (Gd m (org 3 0 c)))
    isplitl [G30_0]; · iexact G30_0
    iexact G30_1
  isplitl [G31_0 G31_1]
  · iapply (back2 c (lo 3 1 c) (Gd m (org 3 1 c)))
    isplitl [G31_0]; · iexact G31_0
    iexact G31_1
  isplitl [G32_0 G32_1]
  · iapply (back2 c (lo 3 2 c) (Gd m (org 3 2 c)))
    isplitl [G32_0]; · iexact G32_0
    iexact G32_1
  isplitl [G40]
  · iapply (exI c (lo 4 0 c) 256 (Gd m (org 4 0 c)))
    iexact G40
  isplitl [G41]
  · iapply (exI c (lo 4 1 c) 256 (Gd m (org 4 1 c)))
    iexact G41
  isplitl [G42]
  · iapply (exI c (lo 4 2 c) 256 (Gd m (org 4 2 c)))
    iexact G42
  isplitl [G50_0 G50_1 G50_2]
  · iapply (back3 c (lo 5 0 c) (Gd m (org 5 0 c)))
    isplitl [G50_0]; · iexact G50_0
    isplitl [G50_1]; · iexact G50_1
    iexact G50_2
  isplitl [G51_0 G51_1 G51_2]
  · iapply (back3 c (lo 5 1 c) (Gd m (org 5 1 c)))
    isplitl [G51_0]; · iexact G51_0
    isplitl [G51_1]; · iexact G51_1
    iexact G51_2
  isplitl [G52_0 G52_1 G52_2]
  · iapply (back3 c (lo 5 2 c) (Gd m (org 5 2 c)))
    isplitl [G52_0]; · iexact G52_0
    isplitl [G52_1]; · iexact G52_1
    iexact G52_2
  isplitl [G60_0 G60_1 G60_2]
  · iapply (back3 c (lo 6 0 c) (Gd m (org 6 0 c)))
    isplitl [G60_0]; · iexact G60_0
    isplitl [G60_1]; · iexact G60_1
    iexact G60_2
  isplitl [G61_0 G61_1 G61_2]
  · iapply (back3 c (lo 6 1 c) (Gd m (org 6 1 c)))
    isplitl [G61_0]; · iexact G61_0
    isplitl [G61_1]; · iexact G61_1
    iexact G61_2
  isplitl [G62_0 G62_1 G62_2]
  · iapply (back3 c (lo 6 2 c) (Gd m (org 6 2 c)))
    isplitl [G62_0]; · iexact G62_0
    isplitl [G62_1]; · iexact G62_1
    iexact G62_2
  isplitl [G70]
  · iapply (exI c (lo 7 0 c) 256 (Gd m (org 7 0 c)))
    iexact G70
  isplitl [G71]
  · iapply (exI c (lo 7 1 c) 256 (Gd m (org 7 1 c)))
    iexact G71
  isplitl [G72]
  · iapply (exI c (lo 7 2 c) 256 (Gd m (org 7 2 c)))
    iexact G72
  isplitl [G80]
  · iapply (exI c (lo 8 0 c) 168 (Gd m (org 8 0 c)))
    iexact G80
  isplitl [G81]
  · iapply (exI c (lo 8 1 c) 168 (Gd m (org 8 1 c)))
    iexact G81
  isplitl [G82]
  · iapply (exI c (lo 8 2 c) 168 (Gd m (org 8 2 c)))
    iexact G82
  isplitl [G90]
  · iapply (exI c (lo 9 0 c) 168 (Gd m (org 9 0 c)))
    iexact G90
  isplitl [G91]
  · iapply (exI c (lo 9 1 c) 168 (Gd m (org 9 1 c)))
    iexact G91
  isplitl [G92]
  · iapply (exI c (lo 9 2 c) 168 (Gd m (org 9 2 c)))
    iexact G92
  iapply (exI c (2048 * (c.val % 4)) 2048 f0)
  iexact Sown

/-! ## The staged block -/

theorem blk_back (c : Dev nD) :
    (iprop(xPts m c 0 2048 fullShare.left ∗
        (xPts m c (blkLo 0 c) 256 fullShare.right.left ∗ blkRest m c 0) ∗
        (xPts m c (blkLo 2 c) 256 fullShare.right.right.left ∗ blkRest m c 2) ∗
        (xPts m c (blkLo 1 c) 88 fullShare.right.right.right.left ∗ blkRest m c 1) ∗
        (xPts m c (blkLo 3 c) 88 fullShare.right.right.right.right ∗ blkRest m c 3)) : sProp 𝕄) ⊢ stg c cc0_stg0_0 (xstg m c) := by
  refine BIBase.Entails.trans (deal_blk m c).2 ?_
  rw [← whole_blk_eq m c fullShare]
  iintro H; iexists (xstg m c); isplitr; · ipureintro; rfl
  iexact H

/-! ## Nothing owed -/

theorem owes_end (c : Dev nD) (W : Waits sig Unit) :
    owes (c : Thread nD τ) (Ol (payL.drop 34) c) W ⊢ ((dats m 0 c).owesAt () t₀.succ : sProp 𝕄) := by
  iintro H; iexists W; isplitr; · ipureintro; exact fun _ _ => Or.inl trivial
  iexact H

/-! ## The end of the body -/

theorem post_ctx (K : Dev nD × Fin 93 → ℕ) (c : Dev nD) (W : Waits sig Unit) (f0 : Buf (Elt F) ((c : Thread nD τ).loc cc0_scratch0)) :
    iprop(records m K ∗ ctxEnd m K c W ∗ extras m c f0) ⊢ |={Set.univ}=> bodyPost m c := by
  unfold ctxEnd extras bodyPost Φ₁
  iintro ⟨#HR, ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, H41, H42, H43, H44, H45, H46, H47, H48, H49, H50, H51, H52, H53, H54, H55, H56, H57, H58, H59, H60, H61, H62, H63, H64, H65, H66, H67, H68, H69, H70, H71, H72, H73, H74, H75, H76, H77, H78, H79, H80, H81, H82, H83, H84, H85, H86, H87, H88, H89, H90, H91, H92, H93, H94, H95, H96, H97, H98, H99, H100, H101, H102, H103, H104, H105, H106, H107, H108, H109, H110, H111, H112, H113, H114, H115, H116, H117, H118, H119, H120, H121, H122, H123, H124, H125, H126, H127, H128, H129, H130, H131, H132, H133, H134, H135, H136, H137, H138, H139, H140, H141, H142, H143, H144, H145, H146, H147, H148, H149, H150, H151, H152, H153, H154, H155, H156, H157, H158, H159, H160, H161, H162, H163, H164, H165, H166, H167, H168, H169, H170, H171, H172, H173, H174, H175, H176, H177, H178, H179, H180, H181, H182, H183, H184, H185, H186, H187, H188, H189, H190, H191, H192, H193⟩, ⟨Hat30, Hown, Hr0, Hr2, Hr1, Hr3⟩⟩
  ihave #HI30 := (rec_inv m K c (cpJ 30)) $$ HR
  imod (close_idle m K c) $$ [Hat30] with Hz30
  · isplitr; · iexact HI30
    iexact Hat30
  imodintro
  isplitl [H102 H49 H51 H53 H126 H69 H71 H73 H150 H21 H89 H91 H108 H61 H132 H81 H156 H25 H105 H55 H57 H59 H129 H75 H77 H79 H153 H23 H93 H95 H111 H63 H135 H83 H159 H27 H120 H144 H168 H117 H7 H67 H141 H17 H87 H165 H31 H99 H114 H5 H65 H138 H15 H85 H162 H29 H97 H123 H147 H171 H178 H184 H190 H175 H181 H187 Hown H192 H101 H125 H149 H107 H131 H155 H104 H128 H152 H110 H134 H158 H119 H143 H167 H116 H140 H164 H113 H137 H161 H122 H146 H170 H177 H183 H189 H174 H180 H186 H40 H48 H68 H44 H60 H80 H42 H54 H74 H46 H62 H82 H50 H70 H88 H56 H76 H92 H52 H72 H90 H58 H78 H94 H66 H86 H98 H64 H84 H96 H0 H10 H20 H2 H12 H24 H1 H11 H22 H3 H13 H26 H8 H18 H32 H6 H16 H30 H4 H14 H28 H9 H19 H33 H35 H37 H39 H34 H36 H38 H100 H103 H106 H109 H112 H115 H118 H121 H124 H127 H130 H133 H136 H139 H142 H145 H148 H151 H154 H157 H160 H163 H166 H169 H173 H176 H179 H182 H185 H188 Hz30 H191]
  · isplitl [H102 H49 H51 H53 H126 H69 H71 H73 H150 H21 H89 H91 H108 H61 H132 H81 H156 H25 H105 H55 H57 H59 H129 H75 H77 H79 H153 H23 H93 H95 H111 H63 H135 H83 H159 H27 H120 H144 H168 H117 H7 H67 H141 H17 H87 H165 H31 H99 H114 H5 H65 H138 H15 H85 H162 H29 H97 H123 H147 H171 H178 H184 H190 H175 H181 H187 Hown]
    · iapply (stage_back m c f0)
      isplitl [H102 H49 H51 H53]
      · isplitl [H102]; · iexact H102
        isplitl [H49]; · iexact H49
        isplitl [H51]; · iexact H51
        iexact H53
      isplitl [H126 H69 H71 H73]
      · isplitl [H126]; · iexact H126
        isplitl [H69]; · iexact H69
        isplitl [H71]; · iexact H71
        iexact H73
      isplitl [H150 H21 H89 H91]
      · isplitl [H150]; · iexact H150
        isplitl [H21]; · iexact H21
        isplitl [H89]; · iexact H89
        iexact H91
      isplitl [H108 H61]
      · isplitl [H108]; · iexact H108
        iexact H61
      isplitl [H132 H81]
      · isplitl [H132]; · iexact H132
        iexact H81
      isplitl [H156 H25]
      · isplitl [H156]; · iexact H156
        iexact H25
      isplitl [H105 H55 H57 H59]
      · isplitl [H105]; · iexact H105
        isplitl [H55]; · iexact H55
        isplitl [H57]; · iexact H57
        iexact H59
      isplitl [H129 H75 H77 H79]
      · isplitl [H129]; · iexact H129
        isplitl [H75]; · iexact H75
        isplitl [H77]; · iexact H77
        iexact H79
      isplitl [H153 H23 H93 H95]
      · isplitl [H153]; · iexact H153
        isplitl [H23]; · iexact H23
        isplitl [H93]; · iexact H93
        iexact H95
      isplitl [H111 H63]
      · isplitl [H111]; · iexact H111
        iexact H63
      isplitl [H135 H83]
      · isplitl [H135]; · iexact H135
        iexact H83
      isplitl [H159 H27]
      · isplitl [H159]; · iexact H159
        iexact H27
      isplitl [H120]; · iexact H120
      isplitl [H144]; · iexact H144
      isplitl [H168]; · iexact H168
      isplitl [H117 H7 H67]
      · isplitl [H117]; · iexact H117
        isplitl [H7]; · iexact H7
        iexact H67
      isplitl [H141 H17 H87]
      · isplitl [H141]; · iexact H141
        isplitl [H17]; · iexact H17
        iexact H87
      isplitl [H165 H31 H99]
      · isplitl [H165]; · iexact H165
        isplitl [H31]; · iexact H31
        iexact H99
      isplitl [H114 H5 H65]
      · isplitl [H114]; · iexact H114
        isplitl [H5]; · iexact H5
        iexact H65
      isplitl [H138 H15 H85]
      · isplitl [H138]; · iexact H138
        isplitl [H15]; · iexact H15
        iexact H85
      isplitl [H162 H29 H97]
      · isplitl [H162]; · iexact H162
        isplitl [H29]; · iexact H29
        iexact H97
      isplitl [H123]; · iexact H123
      isplitl [H147]; · iexact H147
      isplitl [H171]; · iexact H171
      isplitl [H178]; · iexact H178
      isplitl [H184]; · iexact H184
      isplitl [H190]; · iexact H190
      isplitl [H175]; · iexact H175
      isplitl [H181]; · iexact H181
      isplitl [H187]; · iexact H187
      iexact Hown
    isplitl [H192 H101 H125 H149 H107 H131 H155 H104 H128 H152 H110 H134 H158 H119 H143 H167 H116 H140 H164 H113 H137 H161 H122 H146 H170 H177 H183 H189 H174 H180 H186]
    · iapply (outPieces_chain m c)
      isplitl [H192]; · iexact H192
      isplitl [H101]; · iexact H101
      isplitl [H125]; · iexact H125
      isplitl [H149]; · iexact H149
      isplitl [H107]; · iexact H107
      isplitl [H131]; · iexact H131
      isplitl [H155]; · iexact H155
      isplitl [H104]; · iexact H104
      isplitl [H128]; · iexact H128
      isplitl [H152]; · iexact H152
      isplitl [H110]; · iexact H110
      isplitl [H134]; · iexact H134
      isplitl [H158]; · iexact H158
      isplitl [H119]; · iexact H119
      isplitl [H143]; · iexact H143
      isplitl [H167]; · iexact H167
      isplitl [H116]; · iexact H116
      isplitl [H140]; · iexact H140
      isplitl [H164]; · iexact H164
      isplitl [H113]; · iexact H113
      isplitl [H137]; · iexact H137
      isplitl [H161]; · iexact H161
      isplitl [H122]; · iexact H122
      isplitl [H146]; · iexact H146
      isplitl [H170]; · iexact H170
      isplitl [H177]; · iexact H177
      isplitl [H183]; · iexact H183
      isplitl [H189]; · iexact H189
      isplitl [H174]; · iexact H174
      isplitl [H180]; · iexact H180
      iexact H186
    iapply (ownZero_chain c)
    isplitl [H40]; · iexact H40
    isplitl [H48]; · iexact H48
    isplitl [H68]; · iexact H68
    isplitl [H44]; · iexact H44
    isplitl [H60]; · iexact H60
    isplitl [H80]; · iexact H80
    isplitl [H42]; · iexact H42
    isplitl [H54]; · iexact H54
    isplitl [H74]; · iexact H74
    isplitl [H46]; · iexact H46
    isplitl [H62]; · iexact H62
    isplitl [H82]; · iexact H82
    isplitl [H50]; · iexact H50
    isplitl [H70]; · iexact H70
    isplitl [H88]; · iexact H88
    isplitl [H56]; · iexact H56
    isplitl [H76]; · iexact H76
    isplitl [H92]; · iexact H92
    isplitl [H52]; · iexact H52
    isplitl [H72]; · iexact H72
    isplitl [H90]; · iexact H90
    isplitl [H58]; · iexact H58
    isplitl [H78]; · iexact H78
    isplitl [H94]; · iexact H94
    isplitl [H66]; · iexact H66
    isplitl [H86]; · iexact H86
    isplitl [H98]; · iexact H98
    isplitl [H64]; · iexact H64
    isplitl [H84]; · iexact H84
    isplitl [H96]; · iexact H96
    isplitl [H0]; · iexact H0
    isplitl [H10]; · iexact H10
    isplitl [H20]; · iexact H20
    isplitl [H2]; · iexact H2
    isplitl [H12]; · iexact H12
    isplitl [H24]; · iexact H24
    isplitl [H1]; · iexact H1
    isplitl [H11]; · iexact H11
    isplitl [H22]; · iexact H22
    isplitl [H3]; · iexact H3
    isplitl [H13]; · iexact H13
    isplitl [H26]; · iexact H26
    isplitl [H8]; · iexact H8
    isplitl [H18]; · iexact H18
    isplitl [H32]; · iexact H32
    isplitl [H6]; · iexact H6
    isplitl [H16]; · iexact H16
    isplitl [H30]; · iexact H30
    isplitl [H4]; · iexact H4
    isplitl [H14]; · iexact H14
    isplitl [H28]; · iexact H28
    isplitl [H9]; · iexact H9
    isplitl [H19]; · iexact H19
    isplitl [H33]; · iexact H33
    isplitl [H35]; · iexact H35
    isplitl [H37]; · iexact H37
    isplitl [H39]; · iexact H39
    isplitl [H34]; · iexact H34
    isplitl [H36]; · iexact H36
    isplitl [H38]; · iexact H38
    isplitl [H100]; · iexact H100
    isplitl [H103]; · iexact H103
    isplitl [H106]; · iexact H106
    isplitl [H109]; · iexact H109
    isplitl [H112]; · iexact H112
    isplitl [H115]; · iexact H115
    isplitl [H118]; · iexact H118
    isplitl [H121]; · iexact H121
    isplitl [H124]; · iexact H124
    isplitl [H127]; · iexact H127
    isplitl [H130]; · iexact H130
    isplitl [H133]; · iexact H133
    isplitl [H136]; · iexact H136
    isplitl [H139]; · iexact H139
    isplitl [H142]; · iexact H142
    isplitl [H145]; · iexact H145
    isplitl [H148]; · iexact H148
    isplitl [H151]; · iexact H151
    isplitl [H154]; · iexact H154
    isplitl [H157]; · iexact H157
    isplitl [H160]; · iexact H160
    isplitl [H163]; · iexact H163
    isplitl [H166]; · iexact H166
    isplitl [H169]; · iexact H169
    isplitl [H173]; · iexact H173
    isplitl [H176]; · iexact H176
    isplitl [H179]; · iexact H179
    isplitl [H182]; · iexact H182
    isplitl [H185]; · iexact H185
    isplitl [H188]; · iexact H188
    isplitl [Hz30]; · iexact Hz30
    iexact H191
  isplitl [H172]
  · iapply (owes_end m c _)
    iexact H172
  iapply (blk_back m c)
  isplitl [H193]; · iexact H193
  isplitl [H41 Hr0]
  · isplitl [H41]; · iexact H41
    iexact Hr0
  isplitl [H43 Hr2]
  · isplitl [H43]; · iexact H43
    iexact Hr2
  isplitl [H45 Hr1]
  · isplitl [H45]; · iexact H45
    iexact Hr1
  isplitl [H47]; · iexact H47
  iexact Hr3

end Cert.Kernel.AG

end
-- ==== Proof.Bits.Body.lean ====
/-
  The body of one device, whole.

  What the launch hands a device is named resource by resource; the record of the cells, being persistent, is kept
  beside what the parts take; the parts run from the named holdings to the holdings at the end; and these, with the
  record and with what the parts never touched, are put back together into what the device hands back, under an update
  that the postcondition of the body absorbs.  The pipeline's obligation for the one grid point is this statement.
-/
import proofs.«900685_g7700000000000686_dist_ag_v7x_xyz2x2x4_z_m2048_n512_f32_1_alg».proof.Proof.Bits.Oblig
import proofs.«900685_g7700000000000686_dist_ag_v7x_xyz2x2x4_z_m2048_n512_f32_1_alg».proof.Proof.Bits.Core
import proofs.«900685_g7700000000000686_dist_ag_v7x_xyz2x2x4_z_m2048_n512_f32_1_alg».proof.Proof.Bits.PreCtx
import proofs.«900685_g7700000000000686_dist_ag_v7x_xyz2x2x4_z_m2048_n512_f32_1_alg».proof.Proof.Bits.PostCtx

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The record of the cells outlives the parts -/

/-- The record of the cells is persistent: a device keeps it beside everything its parts take. -/
theorem ctx0_dup (K : Dev nD × Fin 93 → ℕ) (c : Dev nD) (W : Waits sig Unit) :
    ctx0 m K c W ⊢ iprop(records m K ∗ ctx0 m K c W) := by
  unfold ctx0
  iintro ⟨#HR, Hrest⟩
  isplitl []
  · iexact HR
  isplitl []
  · iexact HR
  iexact Hrest

theorem ctx0_records (K : Dev nD × Fin 93 → ℕ) (c : Dev nD) (W : Waits sig Unit) : ctx0 m K c W ⊢ records m K := by
  unfold ctx0
  iintro ⟨#HR, Hrest⟩
  iexact HR

/-! ## The body of one device -/

/-- From what the launch hands a device to what it hands back: the holdings are named, the parts run, and the holdings
    at the end are put back together under an update the postcondition absorbs. -/
theorem sound_body (c : Dev nD) :
    bodyPre' m c ⊢ wp frame (wpE (defs₀ (F := F)) 𝒱₀ (c : Thread nD τ) none) Set.univ
      (cc0_body (Memref.whole cc0_stg0_0) (Memref.isWhole_whole _) (Memref.whole main_v1) (Memref.isWhole_whole _) (Memref.whole cc0_scratch0) (Memref.isWhole_whole _) cc0_scratch1 cc0_scratch2 cc0_scratch3) (fun _ => bodyPost m c) := by
  refine BIBase.Entails.trans ?_ (wp_fupd frame (wpE (defs₀ (F := F)) 𝒱₀ (c : Thread nD τ) none) Set.univ _ _)
  iintro H
  ihave ⟨%K, %W, %f0, Hc, He⟩ := (pre_ctx m c) $$ H
  ihave ⟨#HR, Hc⟩ := (ctx0_dup m K c W) $$ Hc
  iapply (body_core m K c W (fun _ => iprop(|={Set.univ}=> bodyPost m c)))
  isplitl [Hc]
  · iexact Hc
  iintro Hend
  iapply (post_ctx m K c W f0)
  isplitl []
  · iexact HR
  isplitl [Hend]
  · iexact Hend
  iexact He

/-! ## The obligation the pipeline asks of the body -/

omit [FloatOps F] in
/-- Owning a whole buffer through its memref is holding it whole at the named contents. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The pipeline's body obligation on device `c`: its one grid point is the body. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ (c : Thread nD τ) none) Set.univ
    (cc0_body (Memref.whole cc0_stg0_0) (Memref.isWhole_whole _) (Memref.whole main_v1) (Memref.isWhole_whole _) (Memref.whole cc0_scratch0) (Memref.isWhole_whole _) cc0_scratch1 cc0_scratch2 cc0_scratch3) (fun _ => bodyPost m c)
  exact sound_body m c

end Cert.Kernel.AG

end
-- ==== Proof.Bits.LaunchGhost.lean ====
/-
  The ghost state of all sixteen devices, made at launch.

  Every cell of every device is funded at round 0: its round state at counter zero, its position, that round 0 is
  reached, and one token per duty.  A device's own cells have ninety-five duties: four on the barrier, one on each
  of the thirty arrival cells, the thirty departure cells and thirty-one of the copy cells.  Each cell's counter at
  zero and its round state are put into an invariant.  The tokens are then dealt to the devices that pay the duties:
  the token of duty d of a device's barrier goes to its peer d (which sees it as peer pinv d), the token of an
  arrival cell of flow f goes to the device whose peer tgt f it is, and the departure and copy tokens stay.  Since
  every peer map is a permutation of the devices, all tokens of one kind are dealt at once by reindexing.
-/
import proofs.«900685_g7700000000000686_dist_ag_v7x_xyz2x2x4_z_m2048_n512_f32_1_alg».proof.Proof.Bits.Ghost
import proofs.«900685_g7700000000000686_dist_ag_v7x_xyz2x2x4_z_m2048_n512_f32_1_alg».proof.Proof.Gen.Kernel.Launch

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## Chains over lists, and a product of index sets -/

theorem bigSepL_map {I J : Type} (f : I → J) (l : List I) (Φ : J → sProp 𝕄) :
    bigSepL (l.map f) Φ = bigSepL l (fun i => Φ (f i)) := by
  induction l with
  | nil => rfl
  | cons i l ih => rw [List.map_cons, bigSepL_cons, bigSepL_cons, ih]

theorem bigSepL_append {I : Type} (l l' : List I) (Φ : I → sProp 𝕄) :
    bigSepL (l ++ l') Φ = iprop(bigSepL l Φ ∗ bigSepL l' Φ) := by
  induction l with
  | nil => exact (BI.equiv_iff.mp BI.emp_sep).symm
  | cons i l ih =>
    rw [List.cons_append, bigSepL_cons, bigSepL_cons, ih]
    exact (BI.sep_assoc.antisymm BI.sep_assoc').symm

theorem bigSep_product {α β : Type} [DecidableEq α] [DecidableEq β] (s : Finset α) (t : Finset β) (Φ : α × β → sProp 𝕄) :
    bigSep (s ×ˢ t) Φ = bigSep s (fun a => bigSep t (fun b => Φ (a, b))) := by
  induction s using Finset.induction_on with
  | empty => rw [Finset.empty_product]; rfl
  | insert a s ha ih =>
    have hd : Disjoint (({a} : Finset α) ×ˢ t) (s ×ˢ t) :=
      Finset.disjoint_product.mpr (.inl (Finset.disjoint_singleton_left.mpr ha))
    rw [bigSep_insert ha, Finset.insert_eq, Finset.union_product, bigSep_union hd, ih, Finset.singleton_product, bigSep_map]
    rfl

/-! ## The cells and the tokens minted -/

theorem ownSemFacts : Pipeline.OwnSemFacts cfg0.spec osem := by decide

/-- Cell `j` of device `c`, of the pair. -/
abbrev kcell (ck : Dev nD × Fin 93) : GSem nD τ sig := cell ck.1 ck.2

theorem kcell_injective : Function.Injective (kcell : Dev nD × Fin 93 → GSem nD τ sig) := by
  rintro ⟨c, j⟩ ⟨c', j'⟩ h
  obtain ⟨h1, h2⟩ := cell_inj h
  subst h1; subst h2; rfl

def ringCells : Finset (GSem nD τ sig) := Finset.univ.map ⟨kcell, kcell_injective⟩

/-- The duties of a device's own cells, as (cell, duty): those its peers pay, then those it pays itself. -/
def tokL : List (Fin 93 × Fin 4) := payTokL.map (fun t => t.2) ++ ownTokL.map (fun j => (j, 0))

theorem tokL_nodup : tokL.Nodup := by decide

/-- The token of duty `t.2` of cell `t.1` of device `c`, at round 0. -/
abbrev tokOf (x : Dev nD × (Fin 93 × Fin 4)) : GSem nD τ sig × ℕ × Fin 4 := (cell x.1 x.2.1, 0, x.2.2)

theorem tokOf_injective : Function.Injective (tokOf : Dev nD × (Fin 93 × Fin 4) → GSem nD τ sig × ℕ × Fin 4) := by
  rintro ⟨c, j, d⟩ ⟨c', j', d'⟩ h
  obtain ⟨h1, h2⟩ := cell_inj (congrArg (fun x : GSem nD τ sig × ℕ × Fin 4 => x.1) h)
  have h3 : d = d' := congrArg (fun x : GSem nD τ sig × ℕ × Fin 4 => x.2.2) h
  subst h1; subst h2; subst h3; rfl

def ringToks : Finset (GSem nD τ sig × ℕ × Fin 4) :=
  ((Finset.univ : Finset (Dev nD)) ×ˢ tokL.toFinset).map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 := bigSepL tokL (fun t => dutyTok ER (cell c t.1) 0 t.2)

/-- What the launch element deals device `c`. -/
def G (c : Dev nD) : sProp 𝕄 :=
  iprop((bigSep Finset.univ fun j : Fin 93 => roundState ER (Rd m) (cell c j) 0)
    ∗ (bigSep Finset.univ fun j : Fin 93 => iprop(atPos ER (cell c j) 0 ∅ 0 ∗ reached ER (cell c j) 0)) ∗ toks (F := F) c)

/-- What the global step makes of it. -/
def G' (c : Dev nD) : sProp 𝕄 := iprop(∃ K, ghost m K c)

theorem fund_ring : BI.own (ER (initOf ringCells ringToks)) ⊢ (|==> bigSep Finset.univ (G m) : sProp 𝕄) := by
  have hX (Φ : GSem nD τ sig → sProp 𝕄) :
      bigSep ringCells Φ = bigSep Finset.univ fun c : Dev nD => bigSep Finset.univ fun j : Fin 93 => Φ (cell c j) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_product]
    exact bigSep_congr fun c _ => by unfold toks; rw [← bigSep_eq_bigSepL tokL tokL_nodup]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The counters at zero -/

theorem csem_succ (k : Fin 92) : csem k.succ = osem k := csem_pos (Nat.succ_ne_zero k.val)

/-- The ninety-two DMA semaphores are the kernel's own; -/
theorem ownSems0_eq (c : Dev nD) :
    (Pipeline.ownSems0 (Ix := Unit) (Name := ℕ) (U := UU) (Lvl := ℕ) (Val := Elt F) (τ := τ) osem c : sProp 𝕄)
      = bigSep Finset.univ fun k : Fin 92 => semVal (cell c k.succ) 0 := by
  unfold Pipeline.ownSems0
  exact bigSep_congr fun k _ => by rw [← csem_succ]

/-- the barrier semaphore is the launch's one unscoped semaphore. -/
theorem unscopedSems0_eq (c : Dev nD) : (unscopedSems0 c : sProp 𝕄) = semVal (cell c 0) 0 := by
  unfold unscopedSems0; rw [bigSep_eq_bigSepL_of_eq [SemLoc.reg barrier0] (by decide) (by decide)]; rfl

/-- Ninety-three cells: the first and the ninety-two after it. -/
theorem bigSep_fin93 (Φ : Fin 93 → sProp 𝕄) :
    bigSep Finset.univ Φ = iprop(Φ 0 ∗ bigSep Finset.univ fun k : Fin 92 => Φ k.succ) := by
  rw [Fin.univ_succ 92, Finset.cons_eq_insert, bigSep_insert (by simp), bigSep_map]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun j : Fin 93 => semVal (cell c j) 0 : sProp 𝕄) := by
  rw [ownSems0_eq, unscopedSems0_eq, bigSep_fin93]
  iintro ⟨HS, HB⟩
  isplitl [HB] <;> iassumption

/-! ## The invariants -/

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun j : Fin 93 => iprop(∃ κ : ℕ, cellInv ER (Rd m) κ (cell c j)))
          ∗ (bigSep Finset.univ fun j : Fin 93 => iprop(atPos ER (cell c j) 0 ∅ 0 ∗ reached ER (cell c j) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun j : Fin 93 => semVal (cell c j) 0) ∗ bigSep Finset.univ fun j : Fin 93 => roundState ER (Rd m) (cell c j) 0)
      ⊢ (|={Set.univ}=> bigSep Finset.univ fun j : Fin 93 => iprop(∃ κ : ℕ, cellInv ER (Rd m) κ (cell c j)) : sProp 𝕄) from by
        rw [← bigSep_sep']
        exact (bigSep_mono fun j _ => (Rounds.body_intro ER (Rd m) (cell c j)).trans inv_alloc).trans (bigSep_fupd _ _)) $$ [Hv Hst] with Hinv
  · isplitl [Hv] <;> iassumption
  imodintro
  isplitl [Hinv]; · iexact Hinv
  isplitl [Hat]; · iexact Hat
  iexact Htok

theorem inv_at (K : Dev nD × Fin 93 → ℕ) (ck : Dev nD × Fin 93) :
    (bigSep Finset.univ fun ck : Dev nD × Fin 93 => (cellInv ER (Rd m) (K ck) (cell ck.1 ck.2) : sProp 𝕄)) ⊢ cellInv ER (Rd m) (K ck) (cell ck.1 ck.2) :=
  bigSep_elim (Finset.mem_univ ck)

theorem reached_at (ck : Dev nD × Fin 93) :
    (bigSep Finset.univ fun ck : Dev nD × Fin 93 => (reached ER (cell ck.1 ck.2) 0 : sProp 𝕄)) ⊢ reached ER (cell ck.1 ck.2) 0 :=
  bigSep_elim (Finset.mem_univ ck)

/-! ## Dealing the tokens -/

/-- What stays with device `c` besides the records: its positions and the tokens of the duties it pays. -/
def linear (c : Dev nD) : sProp 𝕄 := iprop(poss (F := F) c ∗ payToks (F := F) c ∗ ownToks (F := F) c)

theorem ghost_intro (K : Dev nD × Fin 93 → ℕ) (c : Dev nD) : iprop(records m K ∗ linear (F := F) c) ⊢ G' m c := by
  unfold G' ghost linear
  iintro ⟨HR, HL⟩
  iexists K
  isplitl [HR] <;> iassumption

/-- A device's own tokens are those its peers pay and those it pays itself. -/
theorem toks_split (c : Dev nD) :
    (toks c : sProp 𝕄) = iprop(bigSepL payTokL (fun t => dutyTok ER (cell c t.2.1) 0 t.2.2) ∗ ownToks c) := by
  unfold toks tokL ownToks
  rw [bigSepL_append, bigSepL_map, bigSepL_map]

/-- Tokens on every device's cells, each held by that device, are the same tokens each held by the device that sees the
    cell's device as the named peer: the peer maps are permutations. -/
theorem deal (l : List (Fin 4 × Fin 93 × Fin 4)) :
    (bigSep Finset.univ fun c : Dev nD => bigSepL l fun t => (dutyTok ER (cell c t.2.1) 0 t.2.2 : sProp 𝕄))
      = bigSep Finset.univ fun c : Dev nD => bigSepL l fun t => (dutyTok ER (cell (peer t.1 c) t.2.1) 0 t.2.2 : sProp 𝕄) := by
  induction l with
  | nil => rfl
  | cons t l ih =>
    simp only [bigSepL_cons]
    rw [bigSep_sep, bigSep_sep, ih, bigSep_univ_equiv (peerEquiv t.1) (fun c : Dev nD => (dutyTok ER (cell c t.2.1) 0 t.2.2 : sProp 𝕄))]
    rfl

theorem toks_around :
    (bigSep Finset.univ fun c : Dev nD => (toks c : sProp 𝕄)) ⊢ bigSep Finset.univ fun c : Dev nD => iprop(payToks c ∗ ownToks c) := by
  rw [bigSep_congr (s := Finset.univ) (fun (c : Dev nD) _ => toks_split (F := F) c), bigSep_sep', bigSep_sep', deal]
  exact .rfl

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem poss_eq (c : Dev nD) : (poss c : sProp 𝕄) = bigSep Finset.univ fun j : Fin 93 => atPos ER (cell c j) 0 ∅ 0 := by
  unfold poss
  rw [bigSep_univ_eq_bigSepL (List.finRange 93) (Finset.eq_univ_of_forall fun j => List.mem_toFinset.mpr (List.mem_finRange j)).symm (List.nodup_finRange 93)]

theorem regroup :
    (bigSep Finset.univ fun c : Dev nD => iprop((bigSep Finset.univ fun j : Fin 93 => iprop(∃ κ : ℕ, cellInv ER (Rd m) κ (cell c j)))
          ∗ (bigSep Finset.univ fun j : Fin 93 => iprop(atPos ER (cell c j) 0 ∅ 0 ∗ reached ER (cell c j) 0)) ∗ toks (F := F) c) : sProp 𝕄)
      ⊢ bigSep Finset.univ (G' m) := by
  rw [bigSep_sep', bigSep_sep', ← bigSep_univ_prod (fun ck : Dev nD × Fin 93 => iprop(∃ κ : ℕ, cellInv ER (Rd m) κ (cell ck.1 ck.2))),
    bigSep_congr (s := Finset.univ) (fun (c : Dev nD) _ => bigSep_sep' Finset.univ (fun j : Fin 93 => (atPos ER (cell c j) 0 ∅ 0 : sProp 𝕄)) (fun j => reached ER (cell c j) 0)),
    bigSep_sep', ← bigSep_univ_prod (fun ck : Dev nD × Fin 93 => (reached ER (cell ck.1 ck.2) 0 : sProp 𝕄))]
  iintro ⟨HI, ⟨Hat, #HR⟩, Htok⟩
  ihave HK := (BI.bigSep_exists_pi Finset.univ (fun (ck : Dev nD × Fin 93) (κ : ℕ) => (cellInv ER (Rd m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HR
  · iapply ((Entails.of_eq (bigSep_sep' Finset.univ (fun c : Dev nD => bigSep Finset.univ fun j : Fin 93 => (atPos ER (cell c j) 0 ∅ 0 : sProp 𝕄)) (fun c => iprop(payToks c ∗ ownToks c))).symm).trans
      (bigSep_mono fun c _ => show _ ⊢ linear c from Entails.of_eq (by unfold linear; rw [poss_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-- The launch element, split: the pipeline library's part as it is, the rounds' part funded. -/
theorem hu0 : (ownU (u₀ : UU) : sProp 𝕄)
    ⊢ |={Set.univ}=> iprop(BI.own (EP (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  imod (fund_ring m) $$ HX with HG
  imodintro
  isplitl [HP] <;> iassumption

end Cert.Kernel.AG

end
-- ==== Proof.Bits.LaunchRun.lean ====
/-
  The launch: from the machine's initial state to every device's body, and from the bodies' ends to the result.

  Contents.  What the launch deals a device — its result array as launched, the levels, the credit of its barrier
  and of its thirty arrivals, and its share of the cells' ghost state — is what its body starts from; with the
  scratch array it is the body's first assertion.  The body's last assertion gives back the scratch array, the device's
  ninety-two DMA semaphores at zero, and the thirty-one pieces of the result.  Under the final state each piece pins
  the rows of the result it covers: the device's own block at the rows of its position on the ring, and each landed
  band at the rows of the block it came from.  The run of the whole program follows: it terminates, the argument is
  unchanged, and the result holds those rows.
-/
import proofs.«900685_g7700000000000686_dist_ag_v7x_xyz2x2x4_z_m2048_n512_f32_1_alg».proof.Proof.Bits.Ghost
import proofs.«900685_g7700000000000686_dist_ag_v7x_xyz2x2x4_z_m2048_n512_f32_1_alg».proof.Proof.Bits.Regions
import proofs.«900685_g7700000000000686_dist_ag_v7x_xyz2x2x4_z_m2048_n512_f32_1_alg».proof.Proof.Bits.LaunchGhost
import proofs.«900685_g7700000000000686_dist_ag_v7x_xyz2x2x4_z_m2048_n512_f32_1_alg».proof.Proof.Gen.Kernel.Launch
import proofs.«900685_g7700000000000686_dist_ag_v7x_xyz2x2x4_z_m2048_n512_f32_1_alg».proof.Proof.Gen.Kernel.Frame

noncomputable section

namespace Cert.Kernel.AG

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The theorem's side conditions -/

theorem share_eq (c : Dev nD) (w : Fin cfg0.W) : (dats m 0 c).share w = fullShare :=
  Pipeline.Dat.share_full _ (fun _ => rfl) w

/-- What a device holds between the launch and its body: its start and its result array as launched. -/
def X (c : Dev nD) : sProp 𝕄 :=
  iprop(start m c ∗ (((c : Thread nD τ).loc main_v1) ↦{fullShare} m ((c : Thread nD τ).loc main_v1)))

/-- What a device's body gives back for the reading of the result. -/
def Y (c : Dev nD) : sProp 𝕄 := outPieces m c

theorem start_intro (c : Dev nD) :
    iprop(Pipeline.unscopedRestP Pipeline.Prefetch.none cfg0.spec c (fun b => m ((c : Thread nD τ).loc b)) ∗ levAts L lv
        ∗ Pipeline.launchCred (fun d => Ol payL d) c ∗ prngReg c (ρ c) ∗ (∃ K, ghost m K c))
      ⊢ |={Set.univ}=> iprop(X m c ∗ emp) := by
  rw [Pipeline.unscopedRestP_none, unscopedRest0_eq]
  iintro ⟨Hout, Hlev, Hcr, -, HG⟩
  ihave Hc := (creds (F := F) c) $$ Hcr
  imodintro
  unfold X start credits
  isplitl
  · isplitr [Hout]
    · isplitl [HG]; · iexact HG
      isplitl [Hc]; · iexact Hc
      iexact Hlev
    · iexact Hout
  · iempintro

theorem phi0_intro (c : Dev nD) :
    iprop(X m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ X
  iintro ⟨⟨Hs, Ho⟩, -, Hr⟩
  isplitl [Hs]; · iexact Hs
  isplitl [Hr]; · iexact Hr
  iexact Ho

omit [FloatOps F] in
/-- The device's own semaphores at zero, one by one. -/
theorem ownSems0_eq_zero (c : Dev nD) :
    (Pipeline.ownSems0 (Ix := Unit) (Name := ℕ) (U := UU) (Lvl := ℕ) (Val := Elt F) (τ := τ) osem c : sProp 𝕄) = ownZero c := by
  unfold ownZero
  exact Pipeline.ownSems0_eq_of_list c osem (List.finRange 92) (by decide) (List.nodup_finRange 92)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = Φ₁ m c from rfl, scopedRest0_eq, ownSems0_eq_zero]
  unfold Φ₁ Y
  iintro ⟨Hr, Hp, Hz⟩
  isplitl [Hp]; · iexact Hp
  isplitl [Hz]; · iexact Hz
  iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## Reading the result off the final state -/

/-- What the final memory holds of a device's result: its own block at the rows of its place on the ring, and at the
    rows of each landed band the block the band came from. -/
def QY (c : Dev nD) (mem : (ℓ : Loc nD τ sig) → Buf (Elt F) ℓ) : Prop :=
  (∀ i ∈ Rows (2048 * (c.val % 4)) 2048, mem ((c : Thread nD τ).loc main_v1) i = Gd m c i)
    ∧ ∀ fh ∈ fhL, ∀ i ∈ Rows (lo fh.1 fh.2.val c) (flowRows fh.1),
        mem ((c : Thread nD τ).loc main_v1) i = Gd m (org fh.1 fh.2.val c) i

omit [FloatOps F] in
/-- Facts the state pins of each member of a list of assertions hold of all of them together, the state kept. -/
theorem SI_bigSepL_pure {α : Type} (st : Phys nD τ sig (Elt F)) (Φ : α → sProp 𝕄) (P : α → Prop) (l : List α)
    (h : ∀ a ∈ l, iprop(SI st ∗ Φ a) ⊢ (⌜P a⌝ : sProp 𝕄)) :
    iprop(SI st ∗ bigSepL l Φ) ⊢ (iprop(⌜∀ a ∈ l, P a⌝ ∗ SI st) : sProp 𝕄) := by
  induction l with
  | nil =>
    iintro ⟨HSI, -⟩
    isplitr; · ipureintro; intro a ha; cases ha
    iexact HSI
  | cons a l ih =>
    rw [bigSepL_cons]
    show iprop(SI st ∗ (Φ a ∗ bigSepL l Φ)) ⊢ _
    iintro ⟨HSI, Ha, Hl⟩
    ihave H := (persistent_entails_right (h a List.mem_cons_self)) $$ [HSI Ha]
    · isplitl [HSI] <;> iassumption
    icases H with ⟨%ha, HSI, -⟩
    ihave H2 := (ih fun b hb => h b (List.mem_cons_of_mem _ hb)) $$ [HSI Hl]
    · isplitl [HSI] <;> iassumption
    icases H2 with ⟨%hl, HSI⟩
    isplitr
    · ipureintro; intro b hb
      rcases List.mem_cons.mp hb with rfl | hb
      · exact ha
      · exact hl b hb
    iexact HSI

theorem hY (c : Dev nD) (s' : Phys nD τ sig (Elt F)) :
    iprop(Y m c ∗ emp ∗ SI s') ⊢ |={Set.univ}=> (iprop(⌜QY m c s'.mem.mem⌝ ∗ SI s') : sProp 𝕄) := by
  unfold Y outPieces oPts
  iintro ⟨⟨Hown, Hrest⟩, -, HSI⟩
  icombine HSI Hown gives %h0
  ihave H := (SI_bigSepL_pure s'
      (fun fh : Fin 10 × Fin 3 => ((((c : Thread nD τ).loc main_v1) ↦[Rows (lo fh.1 fh.2.val c) (flowRows fh.1)]{fullShare}
        Gd m (org fh.1 fh.2.val c)) : sProp 𝕄))
      (fun fh : Fin 10 × Fin 3 => ∀ i ∈ Rows (lo fh.1 fh.2.val c) (flowRows fh.1),
        s'.mem.mem ((c : Thread nD τ).loc main_v1) i = Gd m (org fh.1 fh.2.val c) i)
      fhL (fun fh _ => SI_pointsTo_agree)) $$ [HSI Hrest]
  · isplitl [HSI] <;> iassumption
  icases H with ⟨%h1, HSI⟩
  imodintro
  isplitr; · ipureintro; exact ⟨h0, h1⟩
  iexact HSI

/-! ## The run -/

set_option maxRecDepth 100000 in
/-- At the compiled mesh of sixteen devices, for any float values, from any memory with zero counters: every weakly
    fair execution of the program terminates, and every final state has each device's argument unchanged and its result
    holding, at the rows of each block, the block of the device it was gathered from. -/
theorem run_main (u₀ : UU) (G : Dev nD → sProp 𝕄)
    (hu₀ : (ownU u₀ : sProp 𝕄)
      ⊢ |={Set.univ}=> iprop(BI.own (EP (initOf (Pipeline.cells cfgs cellOf_inj) (Pipeline.launchToks cfgs cellOf_inj))) ∗ bigSep Finset.univ G))
    (hglob : (bigSep Finset.univ fun c => iprop(Pipeline.ownSems0 osem c ∗ unscopedSems0 c ∗ G c) : sProp 𝕄)
      ⊢ |={Set.univ}=> bigSep Finset.univ fun c => iprop(∃ K, ghost m K c))
    (hosf : Pipeline.OwnSemFacts cfg0.spec osem)
    (hbody : ∀ c, BodyObligation (dats (F := F) m 0 c) (defs₀ (F := F)) Variants.none () Set.univ) :
    θ_run defs (onTc (τ := τ) (main (F := F))) ⟨m, fun _ => 0, ρ⟩
      (fun r => ∀ c : Dev nD, (r.2.mem ((c.tc : Thread nD τ).loc main_arg0) = m ((c.tc : Thread nD τ).loc main_arg0))
        ∧ QY m c r.2.mem) :=
  Pipeline.θ_run_region_owing_glob_pf (fun p => (cfgs p).toPCfg) (fun p => (cfgs p).toPCfg_adm) (dats m) () cellOf_inj (0 : Fin 1)
    winFacts0.to₀ hosf (Pipeline.PreFacts.none _) EP defs₀ Variants.none m ρ main
    (hmain := fun _ => rfl)
    (hbody := hbody) (hne := block_pos0) (harr := arr_whole0) (hstage := stage_whole0) (hshare := share_eq m)
    (hdistinct := winFacts0.arr_inj)
    (O₀ := fun d => Ol payL d) (howed₀ := fun _ => rfl) (howedN := fun _ => rfl)
    (L := L) (lv := lv) (hL := L_of_ne) (hwaits := waits m)
    (G := G) (G' := fun c => iprop(∃ K, ghost m K c)) (u₀ := u₀)
    (hu₀ := hu₀) (hglob := hglob)
    (hA := fun _ _ => rfl) (hpf := fun _ k => k.elim0)
    (X := X m) (Y := Y m) (Z := fun _ => iprop(emp))
    (hX := start_intro m ρ) (hin := phi0_intro m) (hout := phi1_exit m)
    (QY := fun c s => QY m c s.mem)
    (hY := hY m)
    (hQ := fun s h c => ⟨((h c).1 0).trans ((dats m 0 c).arrAt_in 0 rfl _), (h c).2.2⟩)

/-- The run, from the launch element dealt and the global step taken: every weakly fair execution terminates with each
    device's argument unchanged and its result holding, at the rows of each block, the block it was gathered from. -/
theorem run_main' (hbody : ∀ c, BodyObligation (dats (F := F) m 0 c) (defs₀ (F := F)) Variants.none () Set.univ) :
    θ_run defs (onTc (τ := τ) (main (F := F))) ⟨m, fun _ => 0, ρ⟩
      (fun r => ∀ c : Dev nD, (r.2.mem ((c.tc : Thread nD τ).loc main_arg0) = m ((c.tc : Thread nD τ).loc main_arg0))
        ∧ QY m c r.2.mem) :=
  run_main m ρ u₀ (G m) (hu0 m) (glob m) ownSemFacts hbody

end Cert.Kernel.AG

end
-- ==== Proof.RefSide.lean ====
/-
  The reference side of the all-gather claim.

  (A) The reference program's @main returns its argument: it is the empty line of host operations, so
  every weakly fair execution ends at once with every buffer as it was at launch.

  (B) How the kernel's per-device argument reads off the reference's whole array: on the mesh [2, 2, 4]
  with dimension 0 cut along the last axis, device c holds rows 2048 * (c % 4) … 2048 * (c % 4) + 2047,
  every column.
-/
import proofs.«900685_g7700000000000686_dist_ag_v7x_xyz2x2x4_z_m2048_n512_f32_1_alg».proof.Defs
import Idealize.ShloMosaic.Lib.Layout
import Idealize.ShloMosaic.Lib.ValueIdx
import Idealize.ShloMosaic.Lib.StableHlo.Run

noncomputable section

namespace Cert.AG.RefSide

open Idealize.ShloMosaic Idealize.SL.Sem Idealize.ShloMosaic.StableHlo Idealize.ShloMosaic.ValueIdx

/-! ## (A) The reference's run -/

section Run

open Cert.ReferenceIdeal

variable {F : FTy → Type} [FloatOps F] [Cert.ReferenceIdeal.Facts]

/-- @main is the empty line of host operations. -/
theorem ref_main_eq (d : Dev nD) : main (F := F) d = seq [] := rfl

/-- The reference's signature scopes no buffer … -/
theorem ref_scopedRefs : (Finset.univ.filter fun b : Ref sig .tc => b.isScoped) = ∅ := by decide
/-- … and no semaphore. -/
theorem ref_scopedSems : (Finset.univ.filter fun sm : SemLoc sig => sm.isScoped .tc) = ∅ := by decide

/-- Every weakly fair execution of the reference terminates with every buffer of every device as at launch
    (for any float values). -/
theorem ref_run_all (m' : (ℓ : Loc nD τ sig) → Buf (Elt F) ℓ) (g' : Dev nD → PrngReg) :
    θ_run (defs (F := F)) (onTc (τ := τ) (main (F := F))) ⟨m', fun _ => 0, g'⟩
      (fun r => ∀ (d : Dev nD) (b : Ref sig .tc), r.2.mem ((d.tc : Thread nD τ).loc b) = m' ((d.tc : Thread nD τ).loc b)) :=
  run_seq ref_scopedRefs ref_scopedSems defs main (fun _ => []) ref_main_eq (fun _ => trivial) m' g'
    (fun _ _ h => nomatch h)

/-- The same at the argument array, on every device: the frame claim's run. -/
theorem ref_run (m' : (ℓ : Loc nD τ sig) → Buf (Elt F) ℓ) (g' : Dev nD → PrngReg) :
    θ_run (defs (F := F)) (onTc (τ := τ) (main (F := F))) ⟨m', fun _ => 0, g'⟩
      (fun r => ∀ c : Dev nD,
        r.2.mem ((c.tc : Thread nD τ).loc main_arg0) = m' ((c.tc : Thread nD τ).loc main_arg0)) :=
  (θ_run defs _ _).mono (fun _ h c => h c main_arg0) (ref_run_all m' g')

/-- The same in the shape the comparison with the kernel asks: the result (the argument itself) ends at the
    launch contents of the argument, and the argument ends unchanged. -/
theorem ref_run_alg (m' : (ℓ : Loc nD τ sig) → Buf (Elt F) ℓ) (g' : Dev nD → PrngReg) :
    θ_run (defs (F := F)) (onTc (τ := τ) (main (F := F))) ⟨m', fun _ => 0, g'⟩
      (fun r =>
        r.2.mem (((0 : Dev nD).tc : Thread nD τ).loc main_arg0) = m' (((0 : Dev nD).tc : Thread nD τ).loc main_arg0)
        ∧ r.2.mem (((0 : Dev nD).tc : Thread nD τ).loc main_arg0) = m' (((0 : Dev nD).tc : Thread nD τ).loc main_arg0)) :=
  (θ_run defs _ _).mono (fun _ h => ⟨h 0 main_arg0, h 0 main_arg0⟩) (ref_run_all m' g')

end Run

/-- The frame claim of the reference. -/
theorem frame_ReferenceIdeal [Cert.ReferenceIdeal.Facts] [Cert.Pre_finite_inputs_ReferenceIdeal.Facts] :
    Cert.frame_ReferenceIdeal :=
  fun m g _ => ref_run (F := Ideal) m g

/-! ## (B) The block a device holds -/

section Block

variable {α : Type}

/-- The per-device shape and the whole shape. -/
abbrev SB : Shape := ⟨2, ![2048, 512]⟩
abbrev SW : Shape := ⟨2, ![8192, 512]⟩

/-- On the mesh [2, 2, 4] with dimension 0 cut along the last axis, device c's row-block is its last
    coordinate c % 4 … -/
theorem meshBlock_row (c : Fin 16) : ((Layout.meshBlock [2, 2, 4] ![[2], []] c) 0).val = c.val % 4 := by
  revert c; decide

/-- … and its column-block the only one. -/
theorem meshBlock_col (c : Fin 16) : ((Layout.meshBlock [2, 2, 4] ![[2], []] c) 1).val = 0 := by
  revert c; decide

/-- Device c's block, index by index: its row r is row 2048 * (c % 4) + r of the whole, its column the same. -/
theorem blockN_at (c : Fin 16) (W : SW.Idx → α) (i : SB.Idx) :
    (Layout.blockN SB SW (Layout.meshBlock [2, 2, 4] ![[2], []] c) W) i
      = W (ix2 (⟨2048 * (c.val % 4) + (i 0).val, by have := (i 0).isLt; have : (i 0).val < 2048 := this; omega⟩ : Fin 8192) (i 1 : Fin 512)) := by
  rw [Layout.blockN_apply]
  congr 1
  funext b
  match b with
  | ⟨0, _⟩ =>
    apply Fin.ext
    show ((Layout.meshBlock [2, 2, 4] ![[2], []] c) 0).val * 2048 + (i 0).val = 2048 * (c.val % 4) + (i 0).val
    rw [meshBlock_row]; omega
  | ⟨1, _⟩ =>
    apply Fin.ext
    show ((Layout.meshBlock [2, 2, 4] ![[2], []] c) 1).val * 512 + (i 1).val = (i 1).val
    rw [meshBlock_col]; omega

/-- Read the other way: entry j of the whole is entry (row j % 2048, column j) of the block of ANY device d
    whose last mesh coordinate is j's row-block. -/
theorem whole_at (W : SW.Idx → α) (j : SW.Idx) (d : Fin 16) (hd : d.val % 4 = (j 0).val / 2048) :
    W j = (Layout.blockN SB SW (Layout.meshBlock [2, 2, 4] ![[2], []] d) W)
            (ix2 (⟨(j 0).val % 2048, Nat.mod_lt _ (by decide)⟩ : Fin 2048) (j 1 : Fin 512)) := by
  rw [blockN_at]
  congr 1
  funext b
  match b with
  | ⟨0, _⟩ =>
    apply Fin.ext
    show (j 0).val = 2048 * (d.val % 4) + (j 0).val % 2048
    rw [hd]; omega
  | ⟨1, _⟩ => rfl

end Block

/-! ## (B′) The same over the two programs' memories

  The comparison's hypothesis, as the claim spells it: each device's argument buffer of the kernel is its block
  of the reference's argument array. Under it, the two readings above. -/

section Memories

/-- The reference's argument array in a memory of the reference. -/
abbrev refArg (m' : (ℓ : Loc Cert.ReferenceIdeal.nD Cert.ReferenceIdeal.τ Cert.ReferenceIdeal.sig) → Buf (Elt Ideal) ℓ) :
    Buf (Elt Ideal) (((0 : Dev Cert.ReferenceIdeal.nD).tc : Thread Cert.ReferenceIdeal.nD Cert.ReferenceIdeal.τ).loc Cert.ReferenceIdeal.main_arg0) :=
  m' (((0 : Dev Cert.ReferenceIdeal.nD).tc : Thread Cert.ReferenceIdeal.nD Cert.ReferenceIdeal.τ).loc Cert.ReferenceIdeal.main_arg0)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (hm : ∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 2, 4] ![[2], []] c) (m' (((0 : Dev Cert.ReferenceIdeal.nD).tc : Thread Cert.ReferenceIdeal.nD Cert.ReferenceIdeal.τ).loc Cert.ReferenceIdeal.main_arg0)))

include hm

/-- Device c's argument, index by index, is the reference's argument at row 2048 * (c % 4) + row, same column. -/
theorem arg_at (c : Dev Cert.KernelIdeal.nD) (i : SB.Idx) :
    m ((c.tc : Thread Cert.KernelIdeal.nD Cert.KernelIdeal.τ).loc Cert.KernelIdeal.main_arg0) i
      = refArg m' (ix2 (⟨2048 * (c.val % 4) + (i 0).val, by have : (i 0).val < 2048 := (i 0).isLt; omega⟩ : Fin 8192) (i 1 : Fin 512)) := by
  rw [hm c]; exact blockN_at c _ i

/-- Entry j of the reference's argument is entry (row j % 2048, column j) of the argument of ANY device d whose
    last mesh coordinate d % 4 is j's row-block (row j / 2048). -/
theorem whole_arg_at (j : SW.Idx) (d : Dev Cert.KernelIdeal.nD) (hd : d.val % 4 = (j 0).val / 2048) :
    refArg m' j
      = m ((d.tc : Thread Cert.KernelIdeal.nD Cert.KernelIdeal.τ).loc Cert.KernelIdeal.main_arg0)
          (ix2 (⟨(j 0).val % 2048, Nat.mod_lt _ (by decide)⟩ : Fin 2048) (j 1 : Fin 512)) := by
  rw [hm d]; exact whole_at _ j d hd

end Memories

end Cert.AG.RefSide

end
-- ==== Proof.Final.lean ====
/-
  The gathered array, read off the pieces.

  When the kernel has run, device c's result array is known piece by piece: its own block's rows hold the rows of
  its own block of the argument, and the band a flow's piece landed in holds the rows of the block of the device the
  piece was read from.  Every such device has, as its last mesh coordinate, the number of the block of 2048 rows the
  band lies in; and a device's block of the argument is that block of the reference's whole array.  The pieces cover
  the 8192 rows, so the result array is the reference's argument, entry by entry.
-/
import proofs.«900685_g7700000000000686_dist_ag_v7x_xyz2x2x4_z_m2048_n512_f32_1_alg».proof.Proof.Ghost
import proofs.«900685_g7700000000000686_dist_ag_v7x_xyz2x2x4_z_m2048_n512_f32_1_alg».proof.Proof.Cover
import proofs.«900685_g7700000000000686_dist_ag_v7x_xyz2x2x4_z_m2048_n512_f32_1_alg».proof.Proof.RefSide

noncomputable section

namespace Cert.KernelIdeal.AG

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A device's staged block is its argument -/

/-- The one window is the whole argument array: read through it, the argument is itself. -/
theorem xstg_eq (m : (ℓ : Loc nD τ sig) → Buf (Elt F) ℓ) (c : Dev nD) :
    xstg m c = m ((c : Thread nD τ).loc main_arg0) := by
  unfold xstg
  exact Memref.read_access_unit_zero (Elt F) main_arg0 (funext fun a => Nat.zero_mul _) _ _

/-- Row r of the 8192-row buffer every block of which is d's block is row r mod 2048 of d's argument. -/
theorem Gd_apply (m : (ℓ : Loc nD τ sig) → Buf (Elt F) ℓ) (d : Dev nD) (i : S8192x512.Idx) :
    Gd m d i = m ((d : Thread nD τ).loc main_arg0) (rowmod i) := by
  unfold Gd; rw [xstg_eq]

/-! ## Which block of 2048 rows a piece lies in -/

/-- The device a landed piece was read from has, as its last mesh coordinate, the block the piece starts in, -/
theorem org_block (f : Fin 10) (h : Fin 3) (c : Dev nD) : (org f h.val c).val % 4 = lo f h.val c / 2048 := by
  revert f h c; decide

/-- and the piece ends in the block it starts in. -/
theorem lo_block (f : Fin 10) (h : Fin 3) (c : Dev nD) :
    (lo f h.val c + flowRows f - 1) / 2048 = lo f h.val c / 2048 ∧ 0 < flowRows f := by
  revert f h c; decide

/-- So every row of the piece is in that block. -/
theorem land_block {f : Fin 10} {h : Fin 3} {c : Dev nD} {i : S8192x512.Idx}
    (hi : i ∈ Rows (lo f h.val c) (flowRows f)) : (org f h.val c).val % 4 = (i 0).val / 2048 := by
  rw [org_block]
  obtain ⟨h1, h2⟩ := mem_Rows.mp hi
  obtain ⟨h3, h4⟩ := lo_block f h c
  omega

/-- A row of the device's own block of the result is in the block of its last mesh coordinate. -/
theorem own_block {c : Dev nD} {i : S8192x512.Idx} (hi : i ∈ Rows (2048 * (c.val % 4)) 2048) :
    c.val % 4 = (i 0).val / 2048 := by
  obtain ⟨h1, h2⟩ := mem_Rows.mp hi
  omega

/-! ## The pieces' contents -/

/-- The rows of the device's own block of the result hold the rows of its own block of the argument. -/
abbrev OwnAt (m mem : (ℓ : Loc nD τ sig) → Buf (Elt F) ℓ) (c : Dev nD) : Prop :=
  ∀ i ∈ Rows (2048 * (c.val % 4)) 2048, mem ((c : Thread nD τ).loc main_v1) i = Gd m c i

/-- The band each piece landed in holds the rows of the block of the device the piece was read from. -/
abbrev LandAt (m mem : (ℓ : Loc nD τ sig) → Buf (Elt F) ℓ) (c : Dev nD) : Prop :=
  ∀ fh ∈ fhL, ∀ i ∈ Rows (lo fh.1 fh.2.val c) (flowRows fh.1), mem ((c : Thread nD τ).loc main_v1) i = Gd m (org fh.1 fh.2.val c) i

/-- Every (flow, hop) pair is one of the thirty arrivals. -/
theorem mem_fhL (f : Fin 10) (h : Fin 3) : (f, h) ∈ fhL := by revert f h; decide

/-! ## The pieces cover the rows -/

/-- Every index of the result lies in the device's own block or in the band of one of the thirty arrivals. -/
theorem rows_cover (c : Dev nD) (i : S8192x512.Idx) :
    i ∈ Rows (2048 * (c.val % 4)) 2048 ∨ ∃ fh ∈ fhL, i ∈ Rows (lo fh.1 fh.2.val c) (flowRows fh.1) := by
  have hc := pieceSet_cover c i
  obtain ⟨p, hp⟩ : ∃ p, cls c (i 0).val = p := ⟨_, rfl⟩
  rw [hp] at hc
  by_cases h30 : p = 30
  · left; rw [h30, pieceSet_own] at hc; exact hc
  · right
    have hlt : p.val < 30 := by
      have h1 := p.isLt
      have h2 : p.val ≠ 30 := fun h => h30 (Fin.ext h)
      omega
    have hpe : p = pieceIdx ⟨p.val / 3, by omega⟩ ⟨p.val % 3, Nat.mod_lt _ (by decide)⟩ :=
      Fin.ext (by show p.val = 3 * (p.val / 3) + p.val % 3; omega)
    refine ⟨(⟨p.val / 3, by omega⟩, ⟨p.val % 3, Nat.mod_lt _ (by decide)⟩), mem_fhL _ _, ?_⟩
    rw [hpe, pieceSet_land] at hc
    exact hc

section Value

variable (m : (ℓ : Loc nD τ sig) → Buf (Elt Ideal) ℓ)
  (m' : (ℓ : Loc Cert.ReferenceIdeal.nD Cert.ReferenceIdeal.τ Cert.ReferenceIdeal.sig) → Buf (Elt Ideal) ℓ)
  (hm : ∀ c : Dev Cert.KernelIdeal.nD,
      m ((c.tc : Thread Cert.KernelIdeal.nD Cert.KernelIdeal.τ).loc Cert.KernelIdeal.main_arg0) = Layout.blockN ⟨2, ![2048, 512]⟩ ⟨2, ![8192, 512]⟩ (Layout.meshBlock [2, 2, 4] ![[2], []] c) (m' (((0 : Dev Cert.ReferenceIdeal.nD).tc : Thread Cert.ReferenceIdeal.nD Cert.ReferenceIdeal.τ).loc Cert.ReferenceIdeal.main_arg0)))

include hm

/-- A row of the buffer made of d's block, in the block of d's last mesh coordinate, is that row of the
    reference's argument. -/
theorem Gd_eq_ref (d : Dev nD) (i : S8192x512.Idx) (hd : d.val % 4 = (i 0).val / 2048) :
    Gd m d i = Cert.AG.RefSide.refArg m' i := by
  rw [Gd_apply]
  exact (Cert.AG.RefSide.whole_arg_at m m' hm i d hd).symm

/-- The result array of device c is the reference's argument, given that the pieces cover the rows. -/
theorem final_value_of_cover (c : Dev nD) (mem : (ℓ : Loc nD τ sig) → Buf (Elt Ideal) ℓ)
    (hcov : ∀ i : S8192x512.Idx, i ∈ Rows (2048 * (c.val % 4)) 2048 ∨ ∃ fh ∈ fhL, i ∈ Rows (lo fh.1 fh.2.val c) (flowRows fh.1))
    (h_own : OwnAt m mem c) (h_land : LandAt m mem c) :
    mem ((c.tc : Thread Cert.KernelIdeal.nD Cert.KernelIdeal.τ).loc Cert.KernelIdeal.main_v1)
      = m' (((0 : Dev Cert.ReferenceIdeal.nD).tc : Thread Cert.ReferenceIdeal.nD Cert.ReferenceIdeal.τ).loc Cert.ReferenceIdeal.main_arg0) := by
  funext i
  rcases hcov i with ho | ⟨fh, hfh, hl⟩
  · exact (h_own i ho).trans (Gd_eq_ref m m' hm c i (own_block ho))
  · exact (h_land fh hfh i hl).trans (Gd_eq_ref m m' hm _ i (land_block hl))

/-- The first run of the comparison, from a run that ends with the argument unchanged and the pieces at their
    contents: every device's result array is the reference's argument, and its argument is unchanged. -/
theorem alg_first_of_cover (g : Dev nD → PrngReg)
    (hcov : ∀ (c : Dev nD) (i : S8192x512.Idx),
      i ∈ Rows (2048 * (c.val % 4)) 2048 ∨ ∃ fh ∈ fhL, i ∈ Rows (lo fh.1 fh.2.val c) (flowRows fh.1))
    (hrun : θ_run (Cert.KernelIdeal.defs (F := Ideal)) (onTc (τ := τ) (main (F := Ideal))) ⟨m, fun _ => 0, g⟩
      (fun r => ∀ c : Dev nD, r.2.mem ((c.tc : Thread nD τ).loc main_arg0) = m ((c.tc : Thread nD τ).loc main_arg0)
        ∧ OwnAt m r.2.mem c ∧ LandAt m r.2.mem c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = m' (((0 : Dev Cert.ReferenceIdeal.nD).tc : Thread Cert.ReferenceIdeal.nD Cert.ReferenceIdeal.τ).loc Cert.ReferenceIdeal.main_arg0)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  (θ_run _ _ _).mono (fun r h c => ⟨final_value_of_cover m m' hm c r.2.mem (hcov c) (h c).2.1 (h c).2.2, (h c).1⟩) hrun

/-- The result array of device c is the reference's argument. -/
theorem final_value (c : Dev nD) (mem : (ℓ : Loc nD τ sig) → Buf (Elt Ideal) ℓ)
    (h_own : OwnAt m mem c) (h_land : LandAt m mem c) :
    mem ((c.tc : Thread Cert.KernelIdeal.nD Cert.KernelIdeal.τ).loc Cert.KernelIdeal.main_v1)
      = m' (((0 : Dev Cert.ReferenceIdeal.nD).tc : Thread Cert.ReferenceIdeal.nD Cert.ReferenceIdeal.τ).loc Cert.ReferenceIdeal.main_arg0) :=
  final_value_of_cover m m' hm c mem (rows_cover c) h_own h_land

/-- The first run of the comparison, from a run that ends with the argument unchanged and the pieces at their
    contents. -/
theorem alg_first (g : Dev nD → PrngReg)
    (hrun : θ_run (Cert.KernelIdeal.defs (F := Ideal)) (onTc (τ := τ) (main (F := Ideal))) ⟨m, fun _ => 0, g⟩
      (fun r => ∀ c : Dev nD, r.2.mem ((c.tc : Thread nD τ).loc main_arg0) = m ((c.tc : Thread nD τ).loc main_arg0)
        ∧ OwnAt m r.2.mem c ∧ LandAt m r.2.mem c)) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
        r.2.mem ((c.tc : Thread Cert.KernelIdeal.nD Cert.KernelIdeal.τ).loc Cert.KernelIdeal.main_v1) = m' (((0 : Dev Cert.ReferenceIdeal.nD).tc : Thread Cert.ReferenceIdeal.nD Cert.ReferenceIdeal.τ).loc Cert.ReferenceIdeal.main_arg0)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)) :=
  alg_first_of_cover m m' hm g (fun c => rows_cover c) hrun

end Value

end Cert.KernelIdeal.AG

end
-- ==== Proof.lean ====
/-
  The certificate.  The kernel is an all-gather over the sixteen devices of a 2 × 2 × 4 mesh along the z axis: each
  device holds one of four blocks of 2048 rows and ends with the whole array of 8192 rows, which is what the
  reference returns.  The four devices of one z coordinate hold the same block; each carries a quarter of it round
  the ring of its own (x, y), in two halves that travel in opposite directions, and the quarters are exchanged
  across the x and y axes, the diagonal device's quarter arriving partly round the own ring and partly relayed.
  Every band of rows is written once, by one transfer, and read only after the wait for that transfer; the run
  therefore terminates with each piece of the result holding the rows it was read from (the frames), and under the
  hypothesis that every device's block is its block of the reference's array, with that array (the value).
-/
import proofs.«900685_g7700000000000686_dist_ag_v7x_xyz2x2x4_z_m2048_n512_f32_1_alg».proof.Defs
import proofs.«900685_g7700000000000686_dist_ag_v7x_xyz2x2x4_z_m2048_n512_f32_1_alg».proof.Proof.Gen.Kernel
import proofs.«900685_g7700000000000686_dist_ag_v7x_xyz2x2x4_z_m2048_n512_f32_1_alg».proof.Proof.Gen.Kernel.Skeleton
import proofs.«900685_g7700000000000686_dist_ag_v7x_xyz2x2x4_z_m2048_n512_f32_1_alg».proof.Proof.Gen.Kernel.Launch
import proofs.«900685_g7700000000000686_dist_ag_v7x_xyz2x2x4_z_m2048_n512_f32_1_alg».proof.Proof.Gen.Kernel.Points
import proofs.«900685_g7700000000000686_dist_ag_v7x_xyz2x2x4_z_m2048_n512_f32_1_alg».proof.Proof.Gen.Kernel.Frame
import proofs.«900685_g7700000000000686_dist_ag_v7x_xyz2x2x4_z_m2048_n512_f32_1_alg».proof.Proof.Gen.KernelIdeal
import proofs.«900685_g7700000000000686_dist_ag_v7x_xyz2x2x4_z_m2048_n512_f32_1_alg».proof.Proof.Gen.KernelIdeal.Skeleton
import proofs.«900685_g7700000000000686_dist_ag_v7x_xyz2x2x4_z_m2048_n512_f32_1_alg».proof.Proof.Gen.KernelIdeal.Launch
import proofs.«900685_g7700000000000686_dist_ag_v7x_xyz2x2x4_z_m2048_n512_f32_1_alg».proof.Proof.Gen.KernelIdeal.Points
import proofs.«900685_g7700000000000686_dist_ag_v7x_xyz2x2x4_z_m2048_n512_f32_1_alg».proof.Proof.Gen.KernelIdeal.Frame
import proofs.«900685_g7700000000000686_dist_ag_v7x_xyz2x2x4_z_m2048_n512_f32_1_alg».proof.Proof.Gen.ReferenceIdeal
import proofs.«900685_g7700000000000686_dist_ag_v7x_xyz2x2x4_z_m2048_n512_f32_1_alg».proof.Proof.Gen.Pre_finite_inputs_Kernel
import proofs.«900685_g7700000000000686_dist_ag_v7x_xyz2x2x4_z_m2048_n512_f32_1_alg».proof.Proof.Gen.Pre_finite_inputs_ReferenceIdeal
import Idealize.ShloMosaic.Adequacy
import Idealize.ShloMosaic.Init
import proofs.«900685_g7700000000000686_dist_ag_v7x_xyz2x2x4_z_m2048_n512_f32_1_alg».proof.Proof.Body
import proofs.«900685_g7700000000000686_dist_ag_v7x_xyz2x2x4_z_m2048_n512_f32_1_alg».proof.Proof.LaunchRun
import proofs.«900685_g7700000000000686_dist_ag_v7x_xyz2x2x4_z_m2048_n512_f32_1_alg».proof.Proof.Bits.Body
import proofs.«900685_g7700000000000686_dist_ag_v7x_xyz2x2x4_z_m2048_n512_f32_1_alg».proof.Proof.Bits.LaunchRun
import proofs.«900685_g7700000000000686_dist_ag_v7x_xyz2x2x4_z_m2048_n512_f32_1_alg».proof.Proof.Final
import proofs.«900685_g7700000000000686_dist_ag_v7x_xyz2x2x4_z_m2048_n512_f32_1_alg».proof.Proof.RefSide

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  fun m g _ => (θ_run (Cert.Kernel.defs (F := Bits)) _ _).mono (fun _ h c => (h c).1)
    (Cert.Kernel.AG.run_main' (F := Bits) m g (Cert.Kernel.AG.body_obligation m)),
  fun m g _ => (θ_run (Cert.KernelIdeal.defs (F := Ideal)) _ _).mono (fun _ h c => (h c).1)
    (Cert.KernelIdeal.AG.run_main' (F := Ideal) m g (Cert.KernelIdeal.AG.body_obligation m)),
  Cert.AG.RefSide.frame_ReferenceIdeal,
  trivial,
  fun m g m' g' _ hm => ⟨_, Cert.KernelIdeal.AG.alg_first m m' hm g
      ((θ_run (Cert.KernelIdeal.defs (F := Ideal)) _ _).mono (fun _ h c => ⟨(h c).1, (h c).2.1, (h c).2.2⟩)
        (Cert.KernelIdeal.AG.run_main' (F := Ideal) m g (Cert.KernelIdeal.AG.body_obligation m))),
    Cert.AG.RefSide.ref_run_alg (F := Ideal) m' g'⟩⟩

end Cert.Proof

end
